-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v424)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v424) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩

class Facts : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S100000x128 .f32) (main_arg1 : IVec S2x1600000 32) (main_arg2 : FVec F S128x128 .f32) : IVec S_ 1 :=
  let main_v0 : IVec S1x1600000 32 := (extractStridedSlice S1x1600000 ![1, 0] · slices_S2x1600000_S1x1600000_1_0) main_arg1
  let main_v1 : IVec S1600000 32 := shapeCast S1600000 main_v0 shapeCasts_S1x1600000_S1600000
  let main_v2 : FVec F S100000x128 .f32 := Host.absf main_arg0
  let main_cst : FVec F S_ .f32 := constant S_ .f32 0x7F800000#32
  let main_v3 : FVec F S100000x128 .f32 := broadcastInDim S100000x128 ![] bcast_S_S100000x128 main_cst
  let main_v4 : IVec S100000x128 1 := cmpf .olt main_v2 main_v3
  let main_c : IVec S_ 1 := constantI S_ 1 1#1
  let main_v5 : IVec S_ 1 := (fun x v => Host.reduce IntOp.andi x v reducesTo_S100000x128_S_d0_1 h_S_) main_v4 main_c
  let main_v6 : FVec F S128x128 .f32 := Host.absf main_arg2
  let main_cst_0 : FVec F S_ .f32 := constant S_ .f32 0x7F800000#32
  let main_v7 : FVec F S128x128 .f32 := broadcastInDim S128x128 ![] bcast_S_S128x128 main_cst_0
  let main_v8 : IVec S128x128 1 := cmpf .olt main_v6 main_v7
  let main_c_1 : IVec S_ 1 := constantI S_ 1 1#1
  let main_v9 : IVec S_ 1 := (fun x v => Host.reduce IntOp.andi x v reducesTo_S128x128_S_d0_1 h_S_) main_v8 main_c_1
  let main_v10 : IVec S_ 1 := andi main_v5 main_v9
  let main_c_2 : IVec S_ 32 := constantI S_ 32 0#32
  let main_v11 : IVec S1600000 32 := broadcastInDim S1600000 ![] bcast_S_S1600000 main_c_2
  let main_v12 : IVec S1600000 1 := cmpi .sge main_v1 main_v11
  let main_c_3 : IVec S_ 32 := constantI S_ 32 100000#32
  let main_v13 : IVec S1600000 32 := broadcastInDim S1600000 ![] bcast_S_S1600000 main_c_3
  let main_v14 : IVec S1600000 1 := cmpi .slt main_v1 main_v13
  let main_v15 : IVec S1600000 1 := andi main_v12 main_v14
  let main_c_4 : IVec S_ 1 := constantI S_ 1 1#1
  let main_v16 : IVec S_ 1 := (fun x v => Host.reduce IntOp.andi x v reducesTo_S1600000_S_d0 h_S_) main_v15 main_c_4
  fn_part1 (F := F) main_v10 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S50000 : Shape := ⟨1, ![50000]⟩
abbrev S100000x1x128 : Shape := ⟨3, ![100000, 1, 128]⟩
abbrev S50000x1x128 : Shape := ⟨3, ![50000, 1, 128]⟩
abbrev S1x1x128 : Shape := ⟨3, ![1, 1, 128]⟩
abbrev S1 : Shape := ⟨1, ![1]⟩
abbrev S50000x128 : Shape := ⟨2, ![50000, 128]⟩
abbrev S50000x1 : Shape := ⟨2, ![50000, 1]⟩
abbrev S100000x1 : Shape := ⟨2, ![100000, 1]⟩
abbrev S1000x128 : Shape := ⟨2, ![1000, 128]⟩
abbrev S1000x1 : Shape := ⟨2, ![1000, 1]⟩

abbrev nBuf : Space → Nat
  | .hbm => 463
  | .vmem => 135
  | .smem => 32
  | _ => 0

abbrev hbmTy0_0 (i : Nat) : BufTy := match i % 128 with
  | 0 => ⟨S100000x128, .f32⟩
  | 1 => ⟨S2x1600000, .i32⟩
  | 2 => ⟨S128x128, .f32⟩
  | 3 => ⟨S1x1600000, .i32⟩
  | 4 => ⟨S1600000, .i32⟩
  | 5 => ⟨S1x1600000, .i32⟩
  | 6 => ⟨S1600000, .i32⟩
  | 7 => ⟨S_, .f32⟩
  | 8 => ⟨S100000x128, .f32⟩
  | 9 => ⟨S_, .f32⟩
  | 10 => ⟨S100000, .f32⟩
  | 11 => ⟨S_, .f32⟩
  | 12 => ⟨S50000, .f32⟩
  | 13 => ⟨S50000, .i32⟩
  | 14 => ⟨S100000x1x128, .f32⟩
  | 15 => ⟨S50000x1x128, .f32⟩
  | 16 => ⟨S50000x128, .f32⟩
  | 17 => ⟨S_, .f32⟩
  | 18 => ⟨S100000x128, .f32⟩
  | 19 => ⟨S50000x1, .i32⟩
  | 20 => ⟨S100000x128, .f32⟩
  | 21 => ⟨S100000x128, .f32⟩
  | 22 => ⟨S_, .f32⟩
  | 23 => ⟨S100000, .f32⟩
  | 24 => ⟨S50000x1, .i32⟩
  | 25 => ⟨S100000, .f32⟩
  | 26 => ⟨S100000, .f32⟩
  | 27 => ⟨S50000, .i32⟩
  | 28 => ⟨S100000x1x128, .f32⟩
  | 29 => ⟨S50000x1x128, .f32⟩
  | 30 => ⟨S50000x128, .f32⟩
  | 31 => ⟨S_, .f32⟩
  | 32 => ⟨S100000x128, .f32⟩
  | 33 => ⟨S50000x1, .i32⟩
  | 34 => ⟨S100000x128, .f32⟩
  | 35 => ⟨S100000x128, .f32⟩
  | 36 => ⟨S_, .f32⟩
  | 37 => ⟨S100000, .f32⟩
  | 38 => ⟨S50000x1, .i32⟩
  | 39 => ⟨S100000, .f32⟩
  | 40 => ⟨S100000, .f32⟩
  | 41 => ⟨S50000, .i32⟩
  | 42 => ⟨S100000x1x128, .f32⟩
  | 43 => ⟨S50000x1x128, .f32⟩
  | 44 => ⟨S50000x128, .f32⟩
  | 45 => ⟨S_, .f32⟩
  | 46 => ⟨S100000x128, .f32⟩
  | 47 => ⟨S50000x1, .i32⟩
  | 48 => ⟨S100000x128, .f32⟩
  | 49 => ⟨S100000x128, .f32⟩
  | 50 => ⟨S_, .f32⟩
  | 51 => ⟨S100000, .f32⟩
  | 52 => ⟨S50000x1, .i32⟩
  | 53 => ⟨S100000, .f32⟩
  | 54 => ⟨S100000, .f32⟩
  | 55 => ⟨S50000, .i32⟩
  | 56 => ⟨S100000x1x128, .f32⟩
  | 57 => ⟨S50000x1x128, .f32⟩
  | 58 => ⟨S50000x128, .f32⟩
  | 59 => ⟨S_, .f32⟩
  | 60 => ⟨S100000x128, .f32⟩
  | 61 => ⟨S50000x1, .i32⟩
  | 62 => ⟨S100000x128, .f32⟩
  | 63 => ⟨S100000x128, .f32⟩
  | 64 => ⟨S_, .f32⟩
  | 65 => ⟨S100000, .f32⟩
  | 66 => ⟨S50000x1, .i32⟩
  | 67 => ⟨S100000, .f32⟩
  | 68 => ⟨S100000, .f32⟩
  | 69 => ⟨S50000, .i32⟩
  | 70 => ⟨S100000x1x128, .f32⟩
  | 71 => ⟨S50000x1x128, .f32⟩
  | 72 => ⟨S50000x128, .f32⟩
  | 73 => ⟨S_, .f32⟩
  | 74 => ⟨S100000x128, .f32⟩
  | 75 => ⟨S50000x1, .i32⟩
  | 76 => ⟨S100000x128, .f32⟩
  | 77 => ⟨S100000x128, .f32⟩
  | 78 => ⟨S_, .f32⟩
  | 79 => ⟨S100000, .f32⟩
  | 80 => ⟨S50000x1, .i32⟩
  | 81 => ⟨S100000, .f32⟩
  | 82 => ⟨S100000, .f32⟩
  | 83 => ⟨S50000, .i32⟩
  | 84 => ⟨S100000x1x128, .f32⟩
  | 85 => ⟨S50000x1x128, .f32⟩
  | 86 => ⟨S50000x128, .f32⟩
  | 87 => ⟨S_, .f32⟩
  | 88 => ⟨S100000x128, .f32⟩
  | 89 => ⟨S50000x1, .i32⟩
  | 90 => ⟨S100000x128, .f32⟩
  | 91 => ⟨S100000x128, .f32⟩
  | 92 => ⟨S_, .f32⟩
  | 93 => ⟨S100000, .f32⟩
  | 94 => ⟨S50000x1, .i32⟩
  | 95 => ⟨S100000, .f32⟩
  | 96 => ⟨S100000, .f32⟩
  | 97 => ⟨S50000, .i32⟩
  | 98 => ⟨S100000x1x128, .f32⟩
  | 99 => ⟨S50000x1x128, .f32⟩
  | 100 => ⟨S50000x128, .f32⟩
  | 101 => ⟨S_, .f32⟩
  | 102 => ⟨S100000x128, .f32⟩
  | 103 => ⟨S50000x1, .i32⟩
  | 104 => ⟨S100000x128, .f32⟩
  | 105 => ⟨S100000x128, .f32⟩
  | 106 => ⟨S_, .f32⟩
  | 107 => ⟨S100000, .f32⟩
  | 108 => ⟨S50000x1, .i32⟩
  | 109 => ⟨S100000, .f32⟩
  | 110 => ⟨S100000, .f32⟩
  | 111 => ⟨S50000, .i32⟩
  | 112 => ⟨S100000x1x128, .f32⟩
  | 113 => ⟨S50000x1x128, .f32⟩
  | 114 => ⟨S50000x128, .f32⟩
  | 115 => ⟨S_, .f32⟩
  | 116 => ⟨S100000x128, .f32⟩
  | 117 => ⟨S50000x1, .i32⟩
  | 118 => ⟨S100000x128, .f32⟩
  | 119 => ⟨S100000x128, .f32⟩
  | 120 => ⟨S_, .f32⟩
  | 121 => ⟨S100000, .f32⟩
  | 122 => ⟨S50000x1, .i32⟩
  | 123 => ⟨S100000, .f32⟩
  | 124 => ⟨S100000, .f32⟩
  | 125 => ⟨S50000, .i32⟩
  | 126 => ⟨S100000x1x128, .f32⟩
  | 127 => ⟨S50000x1x128, .f32⟩
  | _ => ⟨S100000x128, .f32⟩

abbrev hbmTy0_1 (i : Nat) : BufTy := match i % 128 with
  | 0 => ⟨S50000x128, .f32⟩
  | 1 => ⟨S_, .f32⟩
  | 2 => ⟨S100000x128, .f32⟩
  | 3 => ⟨S50000x1, .i32⟩
  | 4 => ⟨S100000x128, .f32⟩
  | 5 => ⟨S100000x128, .f32⟩
  | 6 => ⟨S_, .f32⟩
  | 7 => ⟨S100000, .f32⟩
  | 8 => ⟨S50000x1, .i32⟩
  | 9 => ⟨S100000, .f32⟩
  | 10 => ⟨S100000, .f32⟩
  | 11 => ⟨S50000, .i32⟩
  | 12 => ⟨S100000x1x128, .f32⟩
  | 13 => ⟨S50000x1x128, .f32⟩
  | 14 => ⟨S50000x128, .f32⟩
  | 15 => ⟨S_, .f32⟩
  | 16 => ⟨S100000x128, .f32⟩
  | 17 => ⟨S50000x1, .i32⟩
  | 18 => ⟨S100000x128, .f32⟩
  | 19 => ⟨S100000x128, .f32⟩
  | 20 => ⟨S_, .f32⟩
  | 21 => ⟨S100000, .f32⟩
  | 22 => ⟨S50000x1, .i32⟩
  | 23 => ⟨S100000, .f32⟩
  | 24 => ⟨S100000, .f32⟩
  | 25 => ⟨S50000, .i32⟩
  | 26 => ⟨S100000x1x128, .f32⟩
  | 27 => ⟨S50000x1x128, .f32⟩
  | 28 => ⟨S50000x128, .f32⟩
  | 29 => ⟨S_, .f32⟩
  | 30 => ⟨S100000x128, .f32⟩
  | 31 => ⟨S50000x1, .i32⟩
  | 32 => ⟨S100000x128, .f32⟩
  | 33 => ⟨S100000x128, .f32⟩
  | 34 => ⟨S_, .f32⟩
  | 35 => ⟨S100000, .f32⟩
  | 36 => ⟨S50000x1, .i32⟩
  | 37 => ⟨S100000, .f32⟩
  | 38 => ⟨S100000, .f32⟩
  | 39 => ⟨S50000, .i32⟩
  | 40 => ⟨S100000x1x128, .f32⟩
  | 41 => ⟨S50000x1x128, .f32⟩
  | 42 => ⟨S50000x128, .f32⟩
  | 43 => ⟨S_, .f32⟩
  | 44 => ⟨S100000x128, .f32⟩
  | 45 => ⟨S50000x1, .i32⟩
  | 46 => ⟨S100000x128, .f32⟩
  | 47 => ⟨S100000x128, .f32⟩
  | 48 => ⟨S_, .f32⟩
  | 49 => ⟨S100000, .f32⟩
  | 50 => ⟨S50000x1, .i32⟩
  | 51 => ⟨S100000, .f32⟩
  | 52 => ⟨S100000, .f32⟩
  | 53 => ⟨S50000, .i32⟩
  | 54 => ⟨S100000x1x128, .f32⟩
  | 55 => ⟨S50000x1x128, .f32⟩
  | 56 => ⟨S50000x128, .f32⟩
  | 57 => ⟨S_, .f32⟩
  | 58 => ⟨S100000x128, .f32⟩
  | 59 => ⟨S50000x1, .i32⟩
  | 60 => ⟨S100000x128, .f32⟩
  | 61 => ⟨S100000x128, .f32⟩
  | 62 => ⟨S_, .f32⟩
  | 63 => ⟨S100000, .f32⟩
  | 64 => ⟨S50000x1, .i32⟩
  | 65 => ⟨S100000, .f32⟩
  | 66 => ⟨S100000, .f32⟩
  | 67 => ⟨S50000, .i32⟩
  | 68 => ⟨S100000x1x128, .f32⟩
  | 69 => ⟨S50000x1x128, .f32⟩
  | 70 => ⟨S50000x128, .f32⟩
  | 71 => ⟨S_, .f32⟩
  | 72 => ⟨S100000x128, .f32⟩
  | 73 => ⟨S50000x1, .i32⟩
  | 74 => ⟨S100000x128, .f32⟩
  | 75 => ⟨S100000x128, .f32⟩
  | 76 => ⟨S_, .f32⟩
  | 77 => ⟨S100000, .f32⟩
  | 78 => ⟨S50000x1, .i32⟩
  | 79 => ⟨S100000, .f32⟩
  | 80 => ⟨S100000, .f32⟩
  | 81 => ⟨S50000, .i32⟩
  | 82 => ⟨S100000x1x128, .f32⟩
  | 83 => ⟨S50000x1x128, .f32⟩
  | 84 => ⟨S50000x128, .f32⟩
  | 85 => ⟨S_, .f32⟩
  | 86 => ⟨S100000x128, .f32⟩
  | 87 => ⟨S50000x1, .i32⟩
  | 88 => ⟨S100000x128, .f32⟩
  | 89 => ⟨S100000x128, .f32⟩
  | 90 => ⟨S_, .f32⟩
  | 91 => ⟨S100000, .f32⟩
  | 92 => ⟨S50000x1, .i32⟩
  | 93 => ⟨S100000, .f32⟩
  | 94 => ⟨S100000, .f32⟩
  | 95 => ⟨S50000, .i32⟩
  | 96 => ⟨S100000x1x128, .f32⟩
  | 97 => ⟨S50000x1x128, .f32⟩
  | 98 => ⟨S50000x128, .f32⟩
  | 99 => ⟨S_, .f32⟩
  | 100 => ⟨S100000x128, .f32⟩
  | 101 => ⟨S50000x1, .i32⟩
  | 102 => ⟨S100000x128, .f32⟩
  | 103 => ⟨S100000x128, .f32⟩
  | 104 => ⟨S_, .f32⟩
  | 105 => ⟨S100000, .f32⟩
  | 106 => ⟨S50000x1, .i32⟩
  | 107 => ⟨S100000, .f32⟩
  | 108 => ⟨S100000, .f32⟩
  | 109 => ⟨S50000, .i32⟩
  | 110 => ⟨S100000x1x128, .f32⟩
  | 111 => ⟨S50000x1x128, .f32⟩
  | 112 => ⟨S50000x128, .f32⟩
  | 113 => ⟨S_, .f32⟩
  | 114 => ⟨S100000x128, .f32⟩
  | 115 => ⟨S50000x1, .i32⟩
  | 116 => ⟨S100000x128, .f32⟩
  | 117 => ⟨S100000x128, .f32⟩
  | 118 => ⟨S_, .f32⟩
  | 119 => ⟨S100000, .f32⟩
  | 120 => ⟨S50000x1, .i32⟩
  | 121 => ⟨S100000, .f32⟩
  | 122 => ⟨S100000, .f32⟩
  | 123 => ⟨S50000, .i32⟩
  | 124 => ⟨S100000x1x128, .f32⟩
  | 125 => ⟨S50000x1x128, .f32⟩
  | 126 => ⟨S50000x128, .f32⟩
  | 127 => ⟨S_, .f32⟩
  | _ => ⟨S100000x128, .f32⟩

abbrev hbmTy0_2 (i : Nat) : BufTy := match i % 128 with
  | 0 => ⟨S100000x128, .f32⟩
  | 1 => ⟨S50000x1, .i32⟩
  | 2 => ⟨S100000x128, .f32⟩
  | 3 => ⟨S100000x128, .f32⟩
  | 4 => ⟨S_, .f32⟩
  | 5 => ⟨S100000, .f32⟩
  | 6 => ⟨S50000x1, .i32⟩
  | 7 => ⟨S100000, .f32⟩
  | 8 => ⟨S100000, .f32⟩
  | 9 => ⟨S50000, .i32⟩
  | 10 => ⟨S100000x1x128, .f32⟩
  | 11 => ⟨S50000x1x128, .f32⟩
  | 12 => ⟨S50000x128, .f32⟩
  | 13 => ⟨S_, .f32⟩
  | 14 => ⟨S100000x128, .f32⟩
  | 15 => ⟨S50000x1, .i32⟩
  | 16 => ⟨S100000x128, .f32⟩
  | 17 => ⟨S100000x128, .f32⟩
  | 18 => ⟨S_, .f32⟩
  | 19 => ⟨S100000, .f32⟩
  | 20 => ⟨S50000x1, .i32⟩
  | 21 => ⟨S100000, .f32⟩
  | 22 => ⟨S100000, .f32⟩
  | 23 => ⟨S50000, .i32⟩
  | 24 => ⟨S100000x1x128, .f32⟩
  | 25 => ⟨S50000x1x128, .f32⟩
  | 26 => ⟨S50000x128, .f32⟩
  | 27 => ⟨S_, .f32⟩
  | 28 => ⟨S100000x128, .f32⟩
  | 29 => ⟨S50000x1, .i32⟩
  | 30 => ⟨S100000x128, .f32⟩
  | 31 => ⟨S100000x128, .f32⟩
  | 32 => ⟨S_, .f32⟩
  | 33 => ⟨S100000, .f32⟩
  | 34 => ⟨S50000x1, .i32⟩
  | 35 => ⟨S100000, .f32⟩
  | 36 => ⟨S100000, .f32⟩
  | 37 => ⟨S50000, .i32⟩
  | 38 => ⟨S100000x1x128, .f32⟩
  | 39 => ⟨S50000x1x128, .f32⟩
  | 40 => ⟨S50000x128, .f32⟩
  | 41 => ⟨S_, .f32⟩
  | 42 => ⟨S100000x128, .f32⟩
  | 43 => ⟨S50000x1, .i32⟩
  | 44 => ⟨S100000x128, .f32⟩
  | 45 => ⟨S100000x128, .f32⟩
  | 46 => ⟨S_, .f32⟩
  | 47 => ⟨S100000, .f32⟩
  | 48 => ⟨S50000x1, .i32⟩
  | 49 => ⟨S100000, .f32⟩
  | 50 => ⟨S100000, .f32⟩
  | 51 => ⟨S50000, .i32⟩
  | 52 => ⟨S100000x1x128, .f32⟩
  | 53 => ⟨S50000x1x128, .f32⟩
  | 54 => ⟨S50000x128, .f32⟩
  | 55 => ⟨S_, .f32⟩
  | 56 => ⟨S100000x128, .f32⟩
  | 57 => ⟨S50000x1, .i32⟩
  | 58 => ⟨S100000x128, .f32⟩
  | 59 => ⟨S100000x128, .f32⟩
  | 60 => ⟨S_, .f32⟩
  | 61 => ⟨S100000, .f32⟩
  | 62 => ⟨S50000x1, .i32⟩
  | 63 => ⟨S100000, .f32⟩
  | 64 => ⟨S100000, .f32⟩
  | 65 => ⟨S50000, .i32⟩
  | 66 => ⟨S100000x1x128, .f32⟩
  | 67 => ⟨S50000x1x128, .f32⟩
  | 68 => ⟨S50000x128, .f32⟩
  | 69 => ⟨S_, .f32⟩
  | 70 => ⟨S100000x128, .f32⟩
  | 71 => ⟨S50000x1, .i32⟩
  | 72 => ⟨S100000x128, .f32⟩
  | 73 => ⟨S100000x128, .f32⟩
  | 74 => ⟨S_, .f32⟩
  | 75 => ⟨S100000, .f32⟩
  | 76 => ⟨S50000x1, .i32⟩
  | 77 => ⟨S100000, .f32⟩
  | 78 => ⟨S100000, .f32⟩
  | 79 => ⟨S50000, .i32⟩
  | 80 => ⟨S100000x1x128, .f32⟩
  | 81 => ⟨S50000x1x128, .f32⟩
  | 82 => ⟨S50000x128, .f32⟩
  | 83 => ⟨S_, .f32⟩
  | 84 => ⟨S100000x128, .f32⟩
  | 85 => ⟨S50000x1, .i32⟩
  | 86 => ⟨S100000x128, .f32⟩
  | 87 => ⟨S100000x128, .f32⟩
  | 88 => ⟨S_, .f32⟩
  | 89 => ⟨S100000, .f32⟩
  | 90 => ⟨S50000x1, .i32⟩
  | 91 => ⟨S100000, .f32⟩
  | 92 => ⟨S100000, .f32⟩
  | 93 => ⟨S50000, .i32⟩
  | 94 => ⟨S100000x1x128, .f32⟩
  | 95 => ⟨S50000x1x128, .f32⟩
  | 96 => ⟨S50000x128, .f32⟩
  | 97 => ⟨S_, .f32⟩
  | 98 => ⟨S100000x128, .f32⟩
  | 99 => ⟨S50000x1, .i32⟩
  | 100 => ⟨S100000x128, .f32⟩
  | 101 => ⟨S100000x128, .f32⟩
  | 102 => ⟨S_, .f32⟩
  | 103 => ⟨S100000, .f32⟩
  | 104 => ⟨S50000x1, .i32⟩
  | 105 => ⟨S100000, .f32⟩
  | 106 => ⟨S100000, .f32⟩
  | 107 => ⟨S50000, .i32⟩
  | 108 => ⟨S100000x1x128, .f32⟩
  | 109 => ⟨S50000x1x128, .f32⟩
  | 110 => ⟨S50000x128, .f32⟩
  | 111 => ⟨S_, .f32⟩
  | 112 => ⟨S100000x128, .f32⟩
  | 113 => ⟨S50000x1, .i32⟩
  | 114 => ⟨S100000x128, .f32⟩
  | 115 => ⟨S100000x128, .f32⟩
  | 116 => ⟨S_, .f32⟩
  | 117 => ⟨S100000, .f32⟩
  | 118 => ⟨S50000x1, .i32⟩
  | 119 => ⟨S100000, .f32⟩
  | 120 => ⟨S100000, .f32⟩
  | 121 => ⟨S50000, .i32⟩
  | 122 => ⟨S100000x1x128, .f32⟩
  | 123 => ⟨S50000x1x128, .f32⟩
  | 124 => ⟨S50000x128, .f32⟩
  | 125 => ⟨S_, .f32⟩
  | 126 => ⟨S100000x128, .f32⟩
  | 127 => ⟨S50000x1, .i32⟩
  | _ => ⟨S100000x128, .f32⟩

abbrev hbmTy0_3 (i : Nat) : BufTy := match i % 128 with
  | 0 => ⟨S100000x128, .f32⟩
  | 1 => ⟨S100000x128, .f32⟩
  | 2 => ⟨S_, .f32⟩
  | 3 => ⟨S100000, .f32⟩
  | 4 => ⟨S50000x1, .i32⟩
  | 5 => ⟨S100000, .f32⟩
  | 6 => ⟨S100000, .f32⟩
  | 7 => ⟨S50000, .i32⟩
  | 8 => ⟨S100000x1x128, .f32⟩
  | 9 => ⟨S50000x1x128, .f32⟩
  | 10 => ⟨S50000x128, .f32⟩
  | 11 => ⟨S_, .f32⟩
  | 12 => ⟨S100000x128, .f32⟩
  | 13 => ⟨S50000x1, .i32⟩
  | 14 => ⟨S100000x128, .f32⟩
  | 15 => ⟨S100000x128, .f32⟩
  | 16 => ⟨S_, .f32⟩
  | 17 => ⟨S100000, .f32⟩
  | 18 => ⟨S50000x1, .i32⟩
  | 19 => ⟨S100000, .f32⟩
  | 20 => ⟨S100000, .f32⟩
  | 21 => ⟨S50000, .i32⟩
  | 22 => ⟨S100000x1x128, .f32⟩
  | 23 => ⟨S50000x1x128, .f32⟩
  | 24 => ⟨S50000x128, .f32⟩
  | 25 => ⟨S_, .f32⟩
  | 26 => ⟨S100000x128, .f32⟩
  | 27 => ⟨S50000x1, .i32⟩
  | 28 => ⟨S100000x128, .f32⟩
  | 29 => ⟨S100000x128, .f32⟩
  | 30 => ⟨S_, .f32⟩
  | 31 => ⟨S100000, .f32⟩
  | 32 => ⟨S50000x1, .i32⟩
  | 33 => ⟨S100000, .f32⟩
  | 34 => ⟨S100000, .f32⟩
  | 35 => ⟨S50000, .i32⟩
  | 36 => ⟨S100000x1x128, .f32⟩
  | 37 => ⟨S50000x1x128, .f32⟩
  | 38 => ⟨S50000x128, .f32⟩
  | 39 => ⟨S_, .f32⟩
  | 40 => ⟨S100000x128, .f32⟩
  | 41 => ⟨S50000x1, .i32⟩
  | 42 => ⟨S100000x128, .f32⟩
  | 43 => ⟨S100000x128, .f32⟩
  | 44 => ⟨S_, .f32⟩
  | 45 => ⟨S100000, .f32⟩
  | 46 => ⟨S50000x1, .i32⟩
  | 47 => ⟨S100000, .f32⟩
  | 48 => ⟨S100000, .f32⟩
  | 49 => ⟨S50000, .i32⟩
  | 50 => ⟨S100000x1x128, .f32⟩
  | 51 => ⟨S50000x1x128, .f32⟩
  | 52 => ⟨S50000x128, .f32⟩
  | 53 => ⟨S_, .f32⟩
  | 54 => ⟨S100000x128, .f32⟩
  | 55 => ⟨S50000x1, .i32⟩
  | 56 => ⟨S100000x128, .f32⟩
  | 57 => ⟨S100000x128, .f32⟩
  | 58 => ⟨S_, .f32⟩
  | 59 => ⟨S100000, .f32⟩
  | 60 => ⟨S50000x1, .i32⟩
  | 61 => ⟨S100000, .f32⟩
  | 62 => ⟨S100000, .f32⟩
  | 63 => ⟨S50000, .i32⟩
  | 64 => ⟨S100000x1x128, .f32⟩
  | 65 => ⟨S50000x1x128, .f32⟩
  | 66 => ⟨S50000x128, .f32⟩
  | 67 => ⟨S_, .f32⟩
  | 68 => ⟨S100000x128, .f32⟩
  | 69 => ⟨S50000x1, .i32⟩
  | 70 => ⟨S100000x128, .f32⟩
  | 71 => ⟨S100000x128, .f32⟩
  | 72 => ⟨S_, .f32⟩
  | 73 => ⟨S100000, .f32⟩
  | 74 => ⟨S50000x1, .i32⟩
  | 75 => ⟨S100000, .f32⟩
  | 76 => ⟨S100000, .f32⟩
  | 77 => ⟨S100000x1, .f32⟩
  | 78 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev vmemTy0_0 (i : Nat) : BufTy := match i % 128 with
  | 0 => ⟨S1x1x128, .f32⟩
  | 1 => ⟨S1x1x128, .f32⟩
  | 2 => ⟨S1x1x128, .f32⟩
  | 3 => ⟨S1x1x128, .f32⟩
  | 4 => ⟨S1x1x128, .f32⟩
  | 5 => ⟨S1x1x128, .f32⟩
  | 6 => ⟨S1x1x128, .f32⟩
  | 7 => ⟨S1x1x128, .f32⟩
  | 8 => ⟨S1x1x128, .f32⟩
  | 9 => ⟨S1x1x128, .f32⟩
  | 10 => ⟨S1x1x128, .f32⟩
  | 11 => ⟨S1x1x128, .f32⟩
  | 12 => ⟨S1x1x128, .f32⟩
  | 13 => ⟨S1x1x128, .f32⟩
  | 14 => ⟨S1x1x128, .f32⟩
  | 15 => ⟨S1x1x128, .f32⟩
  | 16 => ⟨S1x1x128, .f32⟩
  | 17 => ⟨S1x1x128, .f32⟩
  | 18 => ⟨S1x1x128, .f32⟩
  | 19 => ⟨S1x1x128, .f32⟩
  | 20 => ⟨S1x1x128, .f32⟩
  | 21 => ⟨S1x1x128, .f32⟩
  | 22 => ⟨S1x1x128, .f32⟩
  | 23 => ⟨S1x1x128, .f32⟩
  | 24 => ⟨S1x1x128, .f32⟩
  | 25 => ⟨S1x1x128, .f32⟩
  | 26 => ⟨S1x1x128, .f32⟩
  | 27 => ⟨S1x1x128, .f32⟩
  | 28 => ⟨S1x1x128, .f32⟩
  | 29 => ⟨S1x1x128, .f32⟩
  | 30 => ⟨S1x1x128, .f32⟩
  | 31 => ⟨S1x1x128, .f32⟩
  | 32 => ⟨S1x1x128, .f32⟩
  | 33 => ⟨S1x1x128, .f32⟩
  | 34 => ⟨S1x1x128, .f32⟩
  | 35 => ⟨S1x1x128, .f32⟩
  | 36 => ⟨S1x1x128, .f32⟩
  | 37 => ⟨S1x1x128, .f32⟩
  | 38 => ⟨S1x1x128, .f32⟩
  | 39 => ⟨S1x1x128, .f32⟩
  | 40 => ⟨S1x1x128, .f32⟩
  | 41 => ⟨S1x1x128, .f32⟩
  | 42 => ⟨S1x1x128, .f32⟩
  | 43 => ⟨S1x1x128, .f32⟩
  | 44 => ⟨S1x1x128, .f32⟩
  | 45 => ⟨S1x1x128, .f32⟩
  | 46 => ⟨S1x1x128, .f32⟩
  | 47 => ⟨S1x1x128, .f32⟩
  | 48 => ⟨S1x1x128, .f32⟩
  | 49 => ⟨S1x1x128, .f32⟩
  | 50 => ⟨S1x1x128, .f32⟩
  | 51 => ⟨S1x1x128, .f32⟩
  | 52 => ⟨S1x1x128, .f32⟩
  | 53 => ⟨S1x1x128, .f32⟩
  | 54 => ⟨S1x1x128, .f32⟩
  | 55 => ⟨S1x1x128, .f32⟩
  | 56 => ⟨S1x1x128, .f32⟩
  | 57 => ⟨S1x1x128, .f32⟩
  | 58 => ⟨S1x1x128, .f32⟩
  | 59 => ⟨S1x1x128, .f32⟩
  | 60 => ⟨S1x1x128, .f32⟩
  | 61 => ⟨S1x1x128, .f32⟩
  | 62 => ⟨S1x1x128, .f32⟩
  | 63 => ⟨S1x1x128, .f32⟩
  | 64 => ⟨S1x1x128, .f32⟩
  | 65 => ⟨S1x1x128, .f32⟩
  | 66 => ⟨S1x1x128, .f32⟩
  | 67 => ⟨S1x1x128, .f32⟩
  | 68 => ⟨S1x1x128, .f32⟩
  | 69 => ⟨S1x1x128, .f32⟩
  | 70 => ⟨S1x1x128, .f32⟩
  | 71 => ⟨S1x1x128, .f32⟩
  | 72 => ⟨S1x1x128, .f32⟩
  | 73 => ⟨S1x1x128, .f32⟩
  | 74 => ⟨S1x1x128, .f32⟩
  | 75 => ⟨S1x1x128, .f32⟩
  | 76 => ⟨S1x1x128, .f32⟩
  | 77 => ⟨S1x1x128, .f32⟩
  | 78 => ⟨S1x1x128, .f32⟩
  | 79 => ⟨S1x1x128, .f32⟩
  | 80 => ⟨S1x1x128, .f32⟩
  | 81 => ⟨S1x1x128, .f32⟩
  | 82 => ⟨S1x1x128, .f32⟩
  | 83 => ⟨S1x1x128, .f32⟩
  | 84 => ⟨S1x1x128, .f32⟩
  | 85 => ⟨S1x1x128, .f32⟩
  | 86 => ⟨S1x1x128, .f32⟩
  | 87 => ⟨S1x1x128, .f32⟩
  | 88 => ⟨S1x1x128, .f32⟩
  | 89 => ⟨S1x1x128, .f32⟩
  | 90 => ⟨S1x1x128, .f32⟩
  | 91 => ⟨S1x1x128, .f32⟩
  | 92 => ⟨S1x1x128, .f32⟩
  | 93 => ⟨S1x1x128, .f32⟩
  | 94 => ⟨S1x1x128, .f32⟩
  | 95 => ⟨S1x1x128, .f32⟩
  | 96 => ⟨S1x1x128, .f32⟩
  | 97 => ⟨S1x1x128, .f32⟩
  | 98 => ⟨S1x1x128, .f32⟩
  | 99 => ⟨S1x1x128, .f32⟩
  | 100 => ⟨S1x1x128, .f32⟩
  | 101 => ⟨S1x1x128, .f32⟩
  | 102 => ⟨S1x1x128, .f32⟩
  | 103 => ⟨S1x1x128, .f32⟩
  | 104 => ⟨S1x1x128, .f32⟩
  | 105 => ⟨S1x1x128, .f32⟩
  | 106 => ⟨S1x1x128, .f32⟩
  | 107 => ⟨S1x1x128, .f32⟩
  | 108 => ⟨S1x1x128, .f32⟩
  | 109 => ⟨S1x1x128, .f32⟩
  | 110 => ⟨S1x1x128, .f32⟩
  | 111 => ⟨S1x1x128, .f32⟩
  | 112 => ⟨S1x1x128, .f32⟩
  | 113 => ⟨S1x1x128, .f32⟩
  | 114 => ⟨S1x1x128, .f32⟩
  | 115 => ⟨S1x1x128, .f32⟩
  | 116 => ⟨S1x1x128, .f32⟩
  | 117 => ⟨S1x1x128, .f32⟩
  | 118 => ⟨S1x1x128, .f32⟩
  | 119 => ⟨S1x1x128, .f32⟩
  | 120 => ⟨S1x1x128, .f32⟩
  | 121 => ⟨S1x1x128, .f32⟩
  | 122 => ⟨S1x1x128, .f32⟩
  | 123 => ⟨S1x1x128, .f32⟩
  | 124 => ⟨S1x1x128, .f32⟩
  | 125 => ⟨S1x1x128, .f32⟩
  | 126 => ⟨S1x1x128, .f32⟩
  | 127 => ⟨S1x1x128, .f32⟩
  | _ => ⟨S100000x128, .f32⟩

abbrev vmemTy0_1 (i : Nat) : BufTy := match i % 128 with
  | 0 => ⟨S1000x128, .f32⟩
  | 1 => ⟨S1000x128, .f32⟩
  | 2 => ⟨S1000x1, .f32⟩
  | 3 => ⟨S1000x1, .f32⟩
  | 4 => ⟨S128x128, .f32⟩
  | 5 => ⟨S1000x128, .f32⟩
  | 6 => ⟨S1000x128, .f32⟩
  | _ => ⟨S100000x128, .f32⟩

abbrev vmemTy (i : Nat) : BufTy := match i / 128 with
  | 0 => vmemTy0_0 i
  | 1 => vmemTy0_1 i
  | _ => ⟨S100000x128, .f32⟩

abbrev bufTy : (tb : Table) → Fin (tcTables nBuf tb) → BufTy
  | .hbm, ⟨i, _⟩ => hbmTy i
  | .local _ .vmem, ⟨i, _⟩ => vmemTy i
  | .local _ .smem, ⟨0, _⟩ => ⟨S50000, .i32⟩
  | .local _ .smem, ⟨1, _⟩ => ⟨S50000, .i32⟩
  | .local _ .smem, ⟨2, _⟩ => ⟨S50000, .i32⟩
  | .local _ .smem, ⟨3, _⟩ => ⟨S50000, .i32⟩
  | .local _ .smem, ⟨4, _⟩ => ⟨S50000, .i32⟩
  | .local _ .smem, ⟨5, _⟩ => ⟨S50000, .i32⟩
  | .local _ .smem, ⟨6, _⟩ => ⟨S50000, .i32⟩
  | .local _ .smem, ⟨7, _⟩ => ⟨S50000, .i32⟩
  | .local _ .smem, ⟨8, _⟩ => ⟨S50000, .i32⟩
  | .local _ .smem, ⟨9, _⟩ => ⟨S50000, .i32⟩
  | .local _ .smem, ⟨10, _⟩ => ⟨S50000, .i32⟩
  | .local _ .smem, ⟨11, _⟩ => ⟨S50000, .i32⟩
  | .local _ .smem, ⟨12, _⟩ => ⟨S50000, .i32⟩
  | .local _ .smem, ⟨13, _⟩ => ⟨S50000, .i32⟩
  | .local _ .smem, ⟨14, _⟩ => ⟨S50000, .i32⟩
  | .local _ .smem, ⟨15, _⟩ => ⟨S50000, .i32⟩
  | .local _ .smem, ⟨16, _⟩ => ⟨S50000, .i32⟩
  | .local _ .smem, ⟨17, _⟩ => ⟨S50000, .i32⟩
  | .local _ .smem, ⟨18, _⟩ => ⟨S50000, .i32⟩
  | .local _ .smem, ⟨19, _⟩ => ⟨S50000, .i32⟩
  | .local _ .smem, ⟨20, _⟩ => ⟨S50000, .i32⟩
  | .local _ .smem, ⟨21, _⟩ => ⟨S50000, .i32⟩
  | .local _ .smem, ⟨22, _⟩ => ⟨S50000, .i32⟩
  | .local _ .smem, ⟨23, _⟩ => ⟨S50000, .i32⟩
  | .local _ .smem, ⟨24, _⟩ => ⟨S50000, .i32⟩
  | .local _ .smem, ⟨25, _⟩ => ⟨S50000, .i32⟩
  | .local _ .smem, ⟨26, _⟩ => ⟨S50000, .i32⟩
  | .local _ .smem, ⟨27, _⟩ => ⟨S50000, .i32⟩
  | .local _ .smem, ⟨28, _⟩ => ⟨S50000, .i32⟩
  | .local _ .smem, ⟨29, _⟩ => ⟨S50000, .i32⟩
  | .local _ .smem, ⟨30, _⟩ => ⟨S50000, .i32⟩
  | .local _ .smem, ⟨31, _⟩ => ⟨S50000, .i32⟩
  | _, _ => ⟨S100000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 135 → Bool
  | ⟨i, _⟩ => dmaSemScopedAt i

abbrev sig : RefSig :=
  ofTc nBuf bufTy 0 135 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_4 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_5 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_6 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_7 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_8 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_9 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_10 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_cst_11 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_cst_12 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_cst_13 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_14 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_cst_15 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_cst_16 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_cst_17 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_cst_18 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_cst_19 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_cst_20 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_cst_21 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_cst_22 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_cst_23 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_cst_24 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_cst_25 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_cst_26 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_cst_27 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_cst_28 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_cst_29 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_cst_30 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_cst_31 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_cst_32 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_cst_33 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_cst_34 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_cst_35 : Ref sig .tc := ⟨.hbm, 246, rfl⟩
abbrev main_v224 : Ref sig .tc := ⟨.hbm, 247, rfl⟩
abbrev main_v225 : Ref sig .tc := ⟨.hbm, 248, rfl⟩
abbrev main_v226 : Ref sig .tc := ⟨.hbm, 249, rfl⟩
abbrev main_v227 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_cst_36 : Ref sig .tc := ⟨.hbm, 255, rfl⟩
abbrev main_v233 : Ref sig .tc := ⟨.hbm, 256, rfl⟩
abbrev main_v234 : Ref sig .tc := ⟨.hbm, 257, rfl⟩
abbrev main_v235 : Ref sig .tc := ⟨.hbm, 258, rfl⟩
abbrev main_v236 : Ref sig .tc := ⟨.hbm, 259, rfl⟩
abbrev main_cst_37 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v242 : Ref sig .tc := ⟨.hbm, 265, rfl⟩
abbrev main_v243 : Ref sig .tc := ⟨.hbm, 266, rfl⟩
abbrev main_v244 : Ref sig .tc := ⟨.hbm, 267, rfl⟩
abbrev main_v245 : Ref sig .tc := ⟨.hbm, 268, rfl⟩
abbrev main_cst_38 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_cst_39 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_cst_40 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_cst_41 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_v268 : Ref sig .tc := ⟨.hbm, 293, rfl⟩
abbrev main_v269 : Ref sig .tc := ⟨.hbm, 294, rfl⟩
abbrev main_v270 : Ref sig .tc := ⟨.hbm, 295, rfl⟩
abbrev main_v271 : Ref sig .tc := ⟨.hbm, 296, rfl⟩
abbrev main_cst_42 : Ref sig .tc := ⟨.hbm, 297, rfl⟩
abbrev main_v272 : Ref sig .tc := ⟨.hbm, 298, rfl⟩
abbrev main_v273 : Ref sig .tc := ⟨.hbm, 299, rfl⟩
abbrev main_v274 : Ref sig .tc := ⟨.hbm, 300, rfl⟩
abbrev main_v275 : Ref sig .tc := ⟨.hbm, 301, rfl⟩
abbrev main_cst_43 : Ref sig .tc := ⟨.hbm, 302, rfl⟩
abbrev main_v276 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_v281 : Ref sig .tc := ⟨.hbm, 307, rfl⟩
abbrev main_v282 : Ref sig .tc := ⟨.hbm, 308, rfl⟩
abbrev main_v283 : Ref sig .tc := ⟨.hbm, 309, rfl⟩
abbrev main_v284 : Ref sig .tc := ⟨.hbm, 310, rfl⟩
abbrev main_cst_44 : Ref sig .tc := ⟨.hbm, 311, rfl⟩
abbrev main_v285 : Ref sig .tc := ⟨.hbm, 312, rfl⟩
abbrev main_v286 : Ref sig .tc := ⟨.hbm, 313, rfl⟩
abbrev main_v287 : Ref sig .tc := ⟨.hbm, 314, rfl⟩
abbrev main_v288 : Ref sig .tc := ⟨.hbm, 315, rfl⟩
abbrev main_cst_45 : Ref sig .tc := ⟨.hbm, 316, rfl⟩
abbrev main_v289 : Ref sig .tc := ⟨.hbm, 317, rfl⟩
abbrev main_v290 : Ref sig .tc := ⟨.hbm, 318, rfl⟩
abbrev main_v291 : Ref sig .tc := ⟨.hbm, 319, rfl⟩
abbrev main_v292 : Ref sig .tc := ⟨.hbm, 320, rfl⟩
abbrev main_v294 : Ref sig .tc := ⟨.hbm, 321, rfl⟩
abbrev main_v295 : Ref sig .tc := ⟨.hbm, 322, rfl⟩
abbrev main_v296 : Ref sig .tc := ⟨.hbm, 323, rfl⟩
abbrev main_v297 : Ref sig .tc := ⟨.hbm, 324, rfl⟩
abbrev main_cst_46 : Ref sig .tc := ⟨.hbm, 325, rfl⟩
abbrev main_v298 : Ref sig .tc := ⟨.hbm, 326, rfl⟩
abbrev main_v299 : Ref sig .tc := ⟨.hbm, 327, rfl⟩
abbrev main_v300 : Ref sig .tc := ⟨.hbm, 328, rfl⟩
abbrev main_v301 : Ref sig .tc := ⟨.hbm, 329, rfl⟩
abbrev main_cst_47 : Ref sig .tc := ⟨.hbm, 330, rfl⟩
abbrev main_v302 : Ref sig .tc := ⟨.hbm, 331, rfl⟩
abbrev main_v303 : Ref sig .tc := ⟨.hbm, 332, rfl⟩
abbrev main_v304 : Ref sig .tc := ⟨.hbm, 333, rfl⟩
abbrev main_v305 : Ref sig .tc := ⟨.hbm, 334, rfl⟩
abbrev main_v307 : Ref sig .tc := ⟨.hbm, 335, rfl⟩
abbrev main_v308 : Ref sig .tc := ⟨.hbm, 336, rfl⟩
abbrev main_v309 : Ref sig .tc := ⟨.hbm, 337, rfl⟩
abbrev main_v310 : Ref sig .tc := ⟨.hbm, 338, rfl⟩
abbrev main_cst_48 : Ref sig .tc := ⟨.hbm, 339, rfl⟩
abbrev main_v311 : Ref sig .tc := ⟨.hbm, 340, rfl⟩
abbrev main_v312 : Ref sig .tc := ⟨.hbm, 341, rfl⟩
abbrev main_v313 : Ref sig .tc := ⟨.hbm, 342, rfl⟩
abbrev main_v314 : Ref sig .tc := ⟨.hbm, 343, rfl⟩
abbrev main_cst_49 : Ref sig .tc := ⟨.hbm, 344, rfl⟩
abbrev main_v315 : Ref sig .tc := ⟨.hbm, 345, rfl⟩
abbrev main_v316 : Ref sig .tc := ⟨.hbm, 346, rfl⟩
abbrev main_v317 : Ref sig .tc := ⟨.hbm, 347, rfl⟩
abbrev main_v318 : Ref sig .tc := ⟨.hbm, 348, rfl⟩
abbrev main_v320 : Ref sig .tc := ⟨.hbm, 349, rfl⟩
abbrev main_v321 : Ref sig .tc := ⟨.hbm, 350, rfl⟩
abbrev main_v322 : Ref sig .tc := ⟨.hbm, 351, rfl⟩
abbrev main_v323 : Ref sig .tc := ⟨.hbm, 352, rfl⟩
abbrev main_cst_50 : Ref sig .tc := ⟨.hbm, 353, rfl⟩
abbrev main_v324 : Ref sig .tc := ⟨.hbm, 354, rfl⟩
abbrev main_v325 : Ref sig .tc := ⟨.hbm, 355, rfl⟩
abbrev main_v326 : Ref sig .tc := ⟨.hbm, 356, rfl⟩
abbrev main_v327 : Ref sig .tc := ⟨.hbm, 357, rfl⟩
abbrev main_cst_51 : Ref sig .tc := ⟨.hbm, 358, rfl⟩
abbrev main_v328 : Ref sig .tc := ⟨.hbm, 359, rfl⟩
abbrev main_v329 : Ref sig .tc := ⟨.hbm, 360, rfl⟩
abbrev main_v330 : Ref sig .tc := ⟨.hbm, 361, rfl⟩
abbrev main_v331 : Ref sig .tc := ⟨.hbm, 362, rfl⟩
abbrev main_v333 : Ref sig .tc := ⟨.hbm, 363, rfl⟩
abbrev main_v334 : Ref sig .tc := ⟨.hbm, 364, rfl⟩
abbrev main_v335 : Ref sig .tc := ⟨.hbm, 365, rfl⟩
abbrev main_v336 : Ref sig .tc := ⟨.hbm, 366, rfl⟩
abbrev main_cst_52 : Ref sig .tc := ⟨.hbm, 367, rfl⟩
abbrev main_v337 : Ref sig .tc := ⟨.hbm, 368, rfl⟩
abbrev main_v338 : Ref sig .tc := ⟨.hbm, 369, rfl⟩
abbrev main_v339 : Ref sig .tc := ⟨.hbm, 370, rfl⟩
abbrev main_v340 : Ref sig .tc := ⟨.hbm, 371, rfl⟩
abbrev main_cst_53 : Ref sig .tc := ⟨.hbm, 372, rfl⟩
abbrev main_v341 : Ref sig .tc := ⟨.hbm, 373, rfl⟩
abbrev main_v342 : Ref sig .tc := ⟨.hbm, 374, rfl⟩
abbrev main_v343 : Ref sig .tc := ⟨.hbm, 375, rfl⟩
abbrev main_v344 : Ref sig .tc := ⟨.hbm, 376, rfl⟩
abbrev main_v346 : Ref sig .tc := ⟨.hbm, 377, rfl⟩
abbrev main_v347 : Ref sig .tc := ⟨.hbm, 378, rfl⟩
abbrev main_v348 : Ref sig .tc := ⟨.hbm, 379, rfl⟩
abbrev main_v349 : Ref sig .tc := ⟨.hbm, 380, rfl⟩
abbrev main_cst_54 : Ref sig .tc := ⟨.hbm, 381, rfl⟩
abbrev main_v350 : Ref sig .tc := ⟨.hbm, 382, rfl⟩
abbrev main_v351 : Ref sig .tc := ⟨.hbm, 383, rfl⟩
abbrev main_v352 : Ref sig .tc := ⟨.hbm, 384, rfl⟩
abbrev main_v353 : Ref sig .tc := ⟨.hbm, 385, rfl⟩
abbrev main_cst_55 : Ref sig .tc := ⟨.hbm, 386, rfl⟩
abbrev main_v354 : Ref sig .tc := ⟨.hbm, 387, rfl⟩
abbrev main_v355 : Ref sig .tc := ⟨.hbm, 388, rfl⟩
abbrev main_v356 : Ref sig .tc := ⟨.hbm, 389, rfl⟩
abbrev main_v357 : Ref sig .tc := ⟨.hbm, 390, rfl⟩
abbrev main_v359 : Ref sig .tc := ⟨.hbm, 391, rfl⟩
abbrev main_v360 : Ref sig .tc := ⟨.hbm, 392, rfl⟩
abbrev main_v361 : Ref sig .tc := ⟨.hbm, 393, rfl⟩
abbrev main_v362 : Ref sig .tc := ⟨.hbm, 394, rfl⟩
abbrev main_cst_56 : Ref sig .tc := ⟨.hbm, 395, rfl⟩
abbrev main_v363 : Ref sig .tc := ⟨.hbm, 396, rfl⟩
abbrev main_v364 : Ref sig .tc := ⟨.hbm, 397, rfl⟩
abbrev main_v365 : Ref sig .tc := ⟨.hbm, 398, rfl⟩
abbrev main_v366 : Ref sig .tc := ⟨.hbm, 399, rfl⟩
abbrev main_cst_57 : Ref sig .tc := ⟨.hbm, 400, rfl⟩
abbrev main_v367 : Ref sig .tc := ⟨.hbm, 401, rfl⟩
abbrev main_v368 : Ref sig .tc := ⟨.hbm, 402, rfl⟩
abbrev main_v369 : Ref sig .tc := ⟨.hbm, 403, rfl⟩
abbrev main_v370 : Ref sig .tc := ⟨.hbm, 404, rfl⟩
abbrev main_v372 : Ref sig .tc := ⟨.hbm, 405, rfl⟩
abbrev main_v373 : Ref sig .tc := ⟨.hbm, 406, rfl⟩
abbrev main_v374 : Ref sig .tc := ⟨.hbm, 407, rfl⟩
abbrev main_v375 : Ref sig .tc := ⟨.hbm, 408, rfl⟩
abbrev main_cst_58 : Ref sig .tc := ⟨.hbm, 409, rfl⟩
abbrev main_v376 : Ref sig .tc := ⟨.hbm, 410, rfl⟩
abbrev main_v377 : Ref sig .tc := ⟨.hbm, 411, rfl⟩
abbrev main_v378 : Ref sig .tc := ⟨.hbm, 412, rfl⟩
abbrev main_v379 : Ref sig .tc := ⟨.hbm, 413, rfl⟩
abbrev main_cst_59 : Ref sig .tc := ⟨.hbm, 414, rfl⟩
abbrev main_v380 : Ref sig .tc := ⟨.hbm, 415, rfl⟩
abbrev main_v381 : Ref sig .tc := ⟨.hbm, 416, rfl⟩
abbrev main_v382 : Ref sig .tc := ⟨.hbm, 417, rfl⟩
abbrev main_v383 : Ref sig .tc := ⟨.hbm, 418, rfl⟩
abbrev main_v385 : Ref sig .tc := ⟨.hbm, 419, rfl⟩
abbrev main_v386 : Ref sig .tc := ⟨.hbm, 420, rfl⟩
abbrev main_v387 : Ref sig .tc := ⟨.hbm, 421, rfl⟩
abbrev main_v388 : Ref sig .tc := ⟨.hbm, 422, rfl⟩
abbrev main_cst_60 : Ref sig .tc := ⟨.hbm, 423, rfl⟩
abbrev main_v389 : Ref sig .tc := ⟨.hbm, 424, rfl⟩
abbrev main_v390 : Ref sig .tc := ⟨.hbm, 425, rfl⟩
abbrev main_v391 : Ref sig .tc := ⟨.hbm, 426, rfl⟩
abbrev main_v392 : Ref sig .tc := ⟨.hbm, 427, rfl⟩
abbrev main_cst_61 : Ref sig .tc := ⟨.hbm, 428, rfl⟩
abbrev main_v393 : Ref sig .tc := ⟨.hbm, 429, rfl⟩
abbrev main_v394 : Ref sig .tc := ⟨.hbm, 430, rfl⟩
abbrev main_v395 : Ref sig .tc := ⟨.hbm, 431, rfl⟩
abbrev main_v396 : Ref sig .tc := ⟨.hbm, 432, rfl⟩
abbrev main_v398 : Ref sig .tc := ⟨.hbm, 433, rfl⟩
abbrev main_v399 : Ref sig .tc := ⟨.hbm, 434, rfl⟩
abbrev main_v400 : Ref sig .tc := ⟨.hbm, 435, rfl⟩
abbrev main_v401 : Ref sig .tc := ⟨.hbm, 436, rfl⟩
abbrev main_cst_62 : Ref sig .tc := ⟨.hbm, 437, rfl⟩
abbrev main_v402 : Ref sig .tc := ⟨.hbm, 438, rfl⟩
abbrev main_v403 : Ref sig .tc := ⟨.hbm, 439, rfl⟩
abbrev main_v404 : Ref sig .tc := ⟨.hbm, 440, rfl⟩
abbrev main_v405 : Ref sig .tc := ⟨.hbm, 441, rfl⟩
abbrev main_cst_63 : Ref sig .tc := ⟨.hbm, 442, rfl⟩
abbrev main_v406 : Ref sig .tc := ⟨.hbm, 443, rfl⟩
abbrev main_v407 : Ref sig .tc := ⟨.hbm, 444, rfl⟩
abbrev main_v408 : Ref sig .tc := ⟨.hbm, 445, rfl⟩
abbrev main_v409 : Ref sig .tc := ⟨.hbm, 446, rfl⟩
abbrev main_v411 : Ref sig .tc := ⟨.hbm, 447, rfl⟩
abbrev main_v412 : Ref sig .tc := ⟨.hbm, 448, rfl⟩
abbrev main_v413 : Ref sig .tc := ⟨.hbm, 449, rfl⟩
abbrev main_v414 : Ref sig .tc := ⟨.hbm, 450, rfl⟩
abbrev main_cst_64 : Ref sig .tc := ⟨.hbm, 451, rfl⟩
abbrev main_v415 : Ref sig .tc := ⟨.hbm, 452, rfl⟩
abbrev main_v416 : Ref sig .tc := ⟨.hbm, 453, rfl⟩
abbrev main_v417 : Ref sig .tc := ⟨.hbm, 454, rfl⟩
abbrev main_v418 : Ref sig .tc := ⟨.hbm, 455, rfl⟩
abbrev main_cst_65 : Ref sig .tc := ⟨.hbm, 456, rfl⟩
abbrev main_v419 : Ref sig .tc := ⟨.hbm, 457, rfl⟩
abbrev main_v420 : Ref sig .tc := ⟨.hbm, 458, rfl⟩
abbrev main_v421 : Ref sig .tc := ⟨.hbm, 459, rfl⟩
abbrev main_v422 : Ref sig .tc := ⟨.hbm, 460, rfl⟩
abbrev main_v423 : Ref sig .tc := ⟨.hbm, 461, rfl⟩
abbrev main_v424 : Ref sig .tc := ⟨.hbm, 462, rfl⟩
abbrev main_v7 : Ref sig .tc := ⟨.smem, 0, rfl⟩
abbrev main_v20 : Ref sig .tc := ⟨.smem, 1, rfl⟩
abbrev main_v33 : Ref sig .tc := ⟨.smem, 2, rfl⟩
abbrev main_v46 : Ref sig .tc := ⟨.smem, 3, rfl⟩
abbrev main_v59 : Ref sig .tc := ⟨.smem, 4, rfl⟩
abbrev main_v72 : Ref sig .tc := ⟨.smem, 5, rfl⟩
abbrev main_v85 : Ref sig .tc := ⟨.smem, 6, rfl⟩
abbrev main_v98 : Ref sig .tc := ⟨.smem, 7, rfl⟩
abbrev main_v111 : Ref sig .tc := ⟨.smem, 8, rfl⟩
abbrev main_v124 : Ref sig .tc := ⟨.smem, 9, rfl⟩
abbrev main_v137 : Ref sig .tc := ⟨.smem, 10, rfl⟩
abbrev main_v150 : Ref sig .tc := ⟨.smem, 11, rfl⟩
abbrev main_v163 : Ref sig .tc := ⟨.smem, 12, rfl⟩
abbrev main_v176 : Ref sig .tc := ⟨.smem, 13, rfl⟩
abbrev main_v189 : Ref sig .tc := ⟨.smem, 14, rfl⟩
abbrev main_v202 : Ref sig .tc := ⟨.smem, 15, rfl⟩
abbrev main_v215 : Ref sig .tc := ⟨.smem, 16, rfl⟩
abbrev main_v228 : Ref sig .tc := ⟨.smem, 17, rfl⟩
abbrev main_v241 : Ref sig .tc := ⟨.smem, 18, rfl⟩
abbrev main_v254 : Ref sig .tc := ⟨.smem, 19, rfl⟩
abbrev main_v267 : Ref sig .tc := ⟨.smem, 20, rfl⟩
abbrev main_v280 : Ref sig .tc := ⟨.smem, 21, rfl⟩
abbrev main_v293 : Ref sig .tc := ⟨.smem, 22, rfl⟩
abbrev main_v306 : Ref sig .tc := ⟨.smem, 23, rfl⟩
abbrev main_v319 : Ref sig .tc := ⟨.smem, 24, rfl⟩
abbrev main_v332 : Ref sig .tc := ⟨.smem, 25, rfl⟩
abbrev main_v345 : Ref sig .tc := ⟨.smem, 26, rfl⟩
abbrev main_v358 : Ref sig .tc := ⟨.smem, 27, rfl⟩
abbrev main_v371 : Ref sig .tc := ⟨.smem, 28, rfl⟩
abbrev main_v384 : Ref sig .tc := ⟨.smem, 29, rfl⟩
abbrev main_v397 : Ref sig .tc := ⟨.smem, 30, rfl⟩
abbrev main_v410 : Ref sig .tc := ⟨.smem, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc5_stg0_0 : Ref sig .tc := ⟨.vmem, 20, rfl⟩
abbrev cc5_stg0_1 : Ref sig .tc := ⟨.vmem, 21, rfl⟩
abbrev cc5_stg1_0 : Ref sig .tc := ⟨.vmem, 22, rfl⟩
abbrev cc5_stg1_1 : Ref sig .tc := ⟨.vmem, 23, rfl⟩
abbrev cc6_stg0_0 : Ref sig .tc := ⟨.vmem, 24, rfl⟩
abbrev cc6_stg0_1 : Ref sig .tc := ⟨.vmem, 25, rfl⟩
abbrev cc6_stg1_0 : Ref sig .tc := ⟨.vmem, 26, rfl⟩
abbrev cc6_stg1_1 : Ref sig .tc := ⟨.vmem, 27, rfl⟩
abbrev cc7_stg0_0 : Ref sig .tc := ⟨.vmem, 28, rfl⟩
abbrev cc7_stg0_1 : Ref sig .tc := ⟨.vmem, 29, rfl⟩
abbrev cc7_stg1_0 : Ref sig .tc := ⟨.vmem, 30, rfl⟩
abbrev cc7_stg1_1 : Ref sig .tc := ⟨.vmem, 31, rfl⟩
abbrev cc8_stg0_0 : Ref sig .tc := ⟨.vmem, 32, rfl⟩
abbrev cc8_stg0_1 : Ref sig .tc := ⟨.vmem, 33, rfl⟩
abbrev cc8_stg1_0 : Ref sig .tc := ⟨.vmem, 34, rfl⟩
abbrev cc8_stg1_1 : Ref sig .tc := ⟨.vmem, 35, rfl⟩
abbrev cc9_stg0_0 : Ref sig .tc := ⟨.vmem, 36, rfl⟩
abbrev cc9_stg0_1 : Ref sig .tc := ⟨.vmem, 37, rfl⟩
abbrev cc9_stg1_0 : Ref sig .tc := ⟨.vmem, 38, rfl⟩
abbrev cc9_stg1_1 : Ref sig .tc := ⟨.vmem, 39, rfl⟩
abbrev cc10_stg0_0 : Ref sig .tc := ⟨.vmem, 40, rfl⟩
abbrev cc10_stg0_1 : Ref sig .tc := ⟨.vmem, 41, rfl⟩
abbrev cc10_stg1_0 : Ref sig .tc := ⟨.vmem, 42, rfl⟩
abbrev cc10_stg1_1 : Ref sig .tc := ⟨.vmem, 43, rfl⟩
abbrev cc11_stg0_0 : Ref sig .tc := ⟨.vmem, 44, rfl⟩
abbrev cc11_stg0_1 : Ref sig .tc := ⟨.vmem, 45, rfl⟩
abbrev cc11_stg1_0 : Ref sig .tc := ⟨.vmem, 46, rfl⟩
abbrev cc11_stg1_1 : Ref sig .tc := ⟨.vmem, 47, rfl⟩
abbrev cc12_stg0_0 : Ref sig .tc := ⟨.vmem, 48, rfl⟩
abbrev cc12_stg0_1 : Ref sig .tc := ⟨.vmem, 49, rfl⟩
abbrev cc12_stg1_0 : Ref sig .tc := ⟨.vmem, 50, rfl⟩
abbrev cc12_stg1_1 : Ref sig .tc := ⟨.vmem, 51, rfl⟩
abbrev cc13_stg0_0 : Ref sig .tc := ⟨.vmem, 52, rfl⟩
abbrev cc13_stg0_1 : Ref sig .tc := ⟨.vmem, 53, rfl⟩
abbrev cc13_stg1_0 : Ref sig .tc := ⟨.vmem, 54, rfl⟩
abbrev cc13_stg1_1 : Ref sig .tc := ⟨.vmem, 55, rfl⟩
abbrev cc14_stg0_0 : Ref sig .tc := ⟨.vmem, 56, rfl⟩
abbrev cc14_stg0_1 : Ref sig .tc := ⟨.vmem, 57, rfl⟩
abbrev cc14_stg1_0 : Ref sig .tc := ⟨.vmem, 58, rfl⟩
abbrev cc14_stg1_1 : Ref sig .tc := ⟨.vmem, 59, rfl⟩
abbrev cc15_stg0_0 : Ref sig .tc := ⟨.vmem, 60, rfl⟩
abbrev cc15_stg0_1 : Ref sig .tc := ⟨.vmem, 61, rfl⟩
abbrev cc15_stg1_0 : Ref sig .tc := ⟨.vmem, 62, rfl⟩
abbrev cc15_stg1_1 : Ref sig .tc := ⟨.vmem, 63, rfl⟩
abbrev cc16_stg0_0 : Ref sig .tc := ⟨.vmem, 64, rfl⟩
abbrev cc16_stg0_1 : Ref sig .tc := ⟨.vmem, 65, rfl⟩
abbrev cc16_stg1_0 : Ref sig .tc := ⟨.vmem, 66, rfl⟩
abbrev cc16_stg1_1 : Ref sig .tc := ⟨.vmem, 67, rfl⟩
abbrev cc17_stg0_0 : Ref sig .tc := ⟨.vmem, 68, rfl⟩
abbrev cc17_stg0_1 : Ref sig .tc := ⟨.vmem, 69, rfl⟩
abbrev cc17_stg1_0 : Ref sig .tc := ⟨.vmem, 70, rfl⟩
abbrev cc17_stg1_1 : Ref sig .tc := ⟨.vmem, 71, rfl⟩
abbrev cc18_stg0_0 : Ref sig .tc := ⟨.vmem, 72, rfl⟩
abbrev cc18_stg0_1 : Ref sig .tc := ⟨.vmem, 73, rfl⟩
abbrev cc18_stg1_0 : Ref sig .tc := ⟨.vmem, 74, rfl⟩
abbrev cc18_stg1_1 : Ref sig .tc := ⟨.vmem, 75, rfl⟩
abbrev cc19_stg0_0 : Ref sig .tc := ⟨.vmem, 76, rfl⟩
abbrev cc19_stg0_1 : Ref sig .tc := ⟨.vmem, 77, rfl⟩
abbrev cc19_stg1_0 : Ref sig .tc := ⟨.vmem, 78, rfl⟩
abbrev cc19_stg1_1 : Ref sig .tc := ⟨.vmem, 79, rfl⟩
abbrev cc20_stg0_0 : Ref sig .tc := ⟨.vmem, 80, rfl⟩
abbrev cc20_stg0_1 : Ref sig .tc := ⟨.vmem, 81, rfl⟩
abbrev cc20_stg1_0 : Ref sig .tc := ⟨.vmem, 82, rfl⟩
abbrev cc20_stg1_1 : Ref sig .tc := ⟨.vmem, 83, rfl⟩
abbrev cc21_stg0_0 : Ref sig .tc := ⟨.vmem, 84, rfl⟩
abbrev cc21_stg0_1 : Ref sig .tc := ⟨.vmem, 85, rfl⟩
abbrev cc21_stg1_0 : Ref sig .tc := ⟨.vmem, 86, rfl⟩
abbrev cc21_stg1_1 : Ref sig .tc := ⟨.vmem, 87, rfl⟩
abbrev cc22_stg0_0 : Ref sig .tc := ⟨.vmem, 88, rfl⟩
abbrev cc22_stg0_1 : Ref sig .tc := ⟨.vmem, 89, rfl⟩
abbrev cc22_stg1_0 : Ref sig .tc := ⟨.vmem, 90, rfl⟩
abbrev cc22_stg1_1 : Ref sig .tc := ⟨.vmem, 91, rfl⟩
abbrev cc23_stg0_0 : Ref sig .tc := ⟨.vmem, 92, rfl⟩
abbrev cc23_stg0_1 : Ref sig .tc := ⟨.vmem, 93, rfl⟩
abbrev cc23_stg1_0 : Ref sig .tc := ⟨.vmem, 94, rfl⟩
abbrev cc23_stg1_1 : Ref sig .tc := ⟨.vmem, 95, rfl⟩
abbrev cc24_stg0_0 : Ref sig .tc := ⟨.vmem, 96, rfl⟩
abbrev cc24_stg0_1 : Ref sig .tc := ⟨.vmem, 97, rfl⟩
abbrev cc24_stg1_0 : Ref sig .tc := ⟨.vmem, 98, rfl⟩
abbrev cc24_stg1_1 : Ref sig .tc := ⟨.vmem, 99, rfl⟩
abbrev cc25_stg0_0 : Ref sig .tc := ⟨.vmem, 100, rfl⟩
abbrev cc25_stg0_1 : Ref sig .tc := ⟨.vmem, 101, rfl⟩
abbrev cc25_stg1_0 : Ref sig .tc := ⟨.vmem, 102, rfl⟩
abbrev cc25_stg1_1 : Ref sig .tc := ⟨.vmem, 103, rfl⟩
abbrev cc26_stg0_0 : Ref sig .tc := ⟨.vmem, 104, rfl⟩
abbrev cc26_stg0_1 : Ref sig .tc := ⟨.vmem, 105, rfl⟩
abbrev cc26_stg1_0 : Ref sig .tc := ⟨.vmem, 106, rfl⟩
abbrev cc26_stg1_1 : Ref sig .tc := ⟨.vmem, 107, rfl⟩
abbrev cc27_stg0_0 : Ref sig .tc := ⟨.vmem, 108, rfl⟩
abbrev cc27_stg0_1 : Ref sig .tc := ⟨.vmem, 109, rfl⟩
abbrev cc27_stg1_0 : Ref sig .tc := ⟨.vmem, 110, rfl⟩
abbrev cc27_stg1_1 : Ref sig .tc := ⟨.vmem, 111, rfl⟩
abbrev cc28_stg0_0 : Ref sig .tc := ⟨.vmem, 112, rfl⟩
abbrev cc28_stg0_1 : Ref sig .tc := ⟨.vmem, 113, rfl⟩
abbrev cc28_stg1_0 : Ref sig .tc := ⟨.vmem, 114, rfl⟩
abbrev cc28_stg1_1 : Ref sig .tc := ⟨.vmem, 115, rfl⟩
abbrev cc29_stg0_0 : Ref sig .tc := ⟨.vmem, 116, rfl⟩
abbrev cc29_stg0_1 : Ref sig .tc := ⟨.vmem, 117, rfl⟩
abbrev cc29_stg1_0 : Ref sig .tc := ⟨.vmem, 118, rfl⟩
abbrev cc29_stg1_1 : Ref sig .tc := ⟨.vmem, 119, rfl⟩
abbrev cc30_stg0_0 : Ref sig .tc := ⟨.vmem, 120, rfl⟩
abbrev cc30_stg0_1 : Ref sig .tc := ⟨.vmem, 121, rfl⟩
abbrev cc30_stg1_0 : Ref sig .tc := ⟨.vmem, 122, rfl⟩
abbrev cc30_stg1_1 : Ref sig .tc := ⟨.vmem, 123, rfl⟩
abbrev cc31_stg0_0 : Ref sig .tc := ⟨.vmem, 124, rfl⟩
abbrev cc31_stg0_1 : Ref sig .tc := ⟨.vmem, 125, rfl⟩
abbrev cc31_stg1_0 : Ref sig .tc := ⟨.vmem, 126, rfl⟩
abbrev cc31_stg1_1 : Ref sig .tc := ⟨.vmem, 127, rfl⟩
abbrev cc32_stg0_0 : Ref sig .tc := ⟨.vmem, 128, rfl⟩
abbrev cc32_stg0_1 : Ref sig .tc := ⟨.vmem, 129, rfl⟩
abbrev cc32_stg1_0 : Ref sig .tc := ⟨.vmem, 130, rfl⟩
abbrev cc32_stg1_1 : Ref sig .tc := ⟨.vmem, 131, rfl⟩
abbrev cc32_stg2_0 : Ref sig .tc := ⟨.vmem, 132, rfl⟩
abbrev cc32_stg3_0 : Ref sig .tc := ⟨.vmem, 133, rfl⟩
abbrev cc32_stg3_1 : Ref sig .tc := ⟨.vmem, 134, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc5_sem0_0 : DmaSem sig := 20
abbrev cc5_sem0_1 : DmaSem sig := 21
abbrev cc5_sem1_0 : DmaSem sig := 22
abbrev cc5_sem1_1 : DmaSem sig := 23
abbrev cc6_sem0_0 : DmaSem sig := 24
abbrev cc6_sem0_1 : DmaSem sig := 25
abbrev cc6_sem1_0 : DmaSem sig := 26
abbrev cc6_sem1_1 : DmaSem sig := 27
abbrev cc7_sem0_0 : DmaSem sig := 28
abbrev cc7_sem0_1 : DmaSem sig := 29
abbrev cc7_sem1_0 : DmaSem sig := 30
abbrev cc7_sem1_1 : DmaSem sig := 31
abbrev cc8_sem0_0 : DmaSem sig := 32
abbrev cc8_sem0_1 : DmaSem sig := 33
abbrev cc8_sem1_0 : DmaSem sig := 34
abbrev cc8_sem1_1 : DmaSem sig := 35
abbrev cc9_sem0_0 : DmaSem sig := 36
abbrev cc9_sem0_1 : DmaSem sig := 37
abbrev cc9_sem1_0 : DmaSem sig := 38
abbrev cc9_sem1_1 : DmaSem sig := 39
abbrev cc10_sem0_0 : DmaSem sig := 40
abbrev cc10_sem0_1 : DmaSem sig := 41
abbrev cc10_sem1_0 : DmaSem sig := 42
abbrev cc10_sem1_1 : DmaSem sig := 43
abbrev cc11_sem0_0 : DmaSem sig := 44
abbrev cc11_sem0_1 : DmaSem sig := 45
abbrev cc11_sem1_0 : DmaSem sig := 46
abbrev cc11_sem1_1 : DmaSem sig := 47
abbrev cc12_sem0_0 : DmaSem sig := 48
abbrev cc12_sem0_1 : DmaSem sig := 49
abbrev cc12_sem1_0 : DmaSem sig := 50
abbrev cc12_sem1_1 : DmaSem sig := 51
abbrev cc13_sem0_0 : DmaSem sig := 52
abbrev cc13_sem0_1 : DmaSem sig := 53
abbrev cc13_sem1_0 : DmaSem sig := 54
abbrev cc13_sem1_1 : DmaSem sig := 55
abbrev cc14_sem0_0 : DmaSem sig := 56
abbrev cc14_sem0_1 : DmaSem sig := 57
abbrev cc14_sem1_0 : DmaSem sig := 58
abbrev cc14_sem1_1 : DmaSem sig := 59
abbrev cc15_sem0_0 : DmaSem sig := 60
abbrev cc15_sem0_1 : DmaSem sig := 61
abbrev cc15_sem1_0 : DmaSem sig := 62
abbrev cc15_sem1_1 : DmaSem sig := 63
abbrev cc16_sem0_0 : DmaSem sig := 64
abbrev cc16_sem0_1 : DmaSem sig := 65
abbrev cc16_sem1_0 : DmaSem sig := 66
abbrev cc16_sem1_1 : DmaSem sig := 67
abbrev cc17_sem0_0 : DmaSem sig := 68
abbrev cc17_sem0_1 : DmaSem sig := 69
abbrev cc17_sem1_0 : DmaSem sig := 70
abbrev cc17_sem1_1 : DmaSem sig := 71
abbrev cc18_sem0_0 : DmaSem sig := 72
abbrev cc18_sem0_1 : DmaSem sig := 73
abbrev cc18_sem1_0 : DmaSem sig := 74
abbrev cc18_sem1_1 : DmaSem sig := 75
abbrev cc19_sem0_0 : DmaSem sig := 76
abbrev cc19_sem0_1 : DmaSem sig := 77
abbrev cc19_sem1_0 : DmaSem sig := 78
abbrev cc19_sem1_1 : DmaSem sig := 79
abbrev cc20_sem0_0 : DmaSem sig := 80
abbrev cc20_sem0_1 : DmaSem sig := 81
abbrev cc20_sem1_0 : DmaSem sig := 82
abbrev cc20_sem1_1 : DmaSem sig := 83
abbrev cc21_sem0_0 : DmaSem sig := 84
abbrev cc21_sem0_1 : DmaSem sig := 85
abbrev cc21_sem1_0 : DmaSem sig := 86
abbrev cc21_sem1_1 : DmaSem sig := 87
abbrev cc22_sem0_0 : DmaSem sig := 88
abbrev cc22_sem0_1 : DmaSem sig := 89
abbrev cc22_sem1_0 : DmaSem sig := 90
abbrev cc22_sem1_1 : DmaSem sig := 91
abbrev cc23_sem0_0 : DmaSem sig := 92
abbrev cc23_sem0_1 : DmaSem sig := 93
abbrev cc23_sem1_0 : DmaSem sig := 94
abbrev cc23_sem1_1 : DmaSem sig := 95
abbrev cc24_sem0_0 : DmaSem sig := 96
abbrev cc24_sem0_1 : DmaSem sig := 97
abbrev cc24_sem1_0 : DmaSem sig := 98
abbrev cc24_sem1_1 : DmaSem sig := 99
abbrev cc25_sem0_0 : DmaSem sig := 100
abbrev cc25_sem0_1 : DmaSem sig := 101
abbrev cc25_sem1_0 : DmaSem sig := 102
abbrev cc25_sem1_1 : DmaSem sig := 103
abbrev cc26_sem0_0 : DmaSem sig := 104
abbrev cc26_sem0_1 : DmaSem sig := 105
abbrev cc26_sem1_0 : DmaSem sig := 106
abbrev cc26_sem1_1 : DmaSem sig := 107
abbrev cc27_sem0_0 : DmaSem sig := 108
abbrev cc27_sem0_1 : DmaSem sig := 109
abbrev cc27_sem1_0 : DmaSem sig := 110
abbrev cc27_sem1_1 : DmaSem sig := 111
abbrev cc28_sem0_0 : DmaSem sig := 112
abbrev cc28_sem0_1 : DmaSem sig := 113
abbrev cc28_sem1_0 : DmaSem sig := 114
abbrev cc28_sem1_1 : DmaSem sig := 115
abbrev cc29_sem0_0 : DmaSem sig := 116
abbrev cc29_sem0_1 : DmaSem sig := 117
abbrev cc29_sem1_0 : DmaSem sig := 118
abbrev cc29_sem1_1 : DmaSem sig := 119
abbrev cc30_sem0_0 : DmaSem sig := 120
abbrev cc30_sem0_1 : DmaSem sig := 121
abbrev cc30_sem1_0 : DmaSem sig := 122
abbrev cc30_sem1_1 : DmaSem sig := 123
abbrev cc31_sem0_0 : DmaSem sig := 124
abbrev cc31_sem0_1 : DmaSem sig := 125
abbrev cc31_sem1_0 : DmaSem sig := 126
abbrev cc31_sem1_1 : DmaSem sig := 127
abbrev cc32_sem0_0 : DmaSem sig := 128
abbrev cc32_sem0_1 : DmaSem sig := 129
abbrev cc32_sem1_0 : DmaSem sig := 130
abbrev cc32_sem1_1 : DmaSem sig := 131
abbrev cc32_sem2_0 : DmaSem sig := 132
abbrev cc32_sem3_0 : DmaSem sig := 133
abbrev cc32_sem3_1 : DmaSem sig := 134

abbrev nD : Nat := 1
abbrev τ : Topo := Topo.v7x

variable {F : FTy → Type} [FloatOps F]

abbrev grid0 : Pipeline.Grid := ⟨1, ![50000], ![false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S50000.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![50000], ![false]⟩

abbrev pre1 : Pipeline.Prefetch sig := ⟨1, ![main_v20.idx], fun | 0 => main_v20.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S50000.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![50000], ![false]⟩

abbrev pre2 : Pipeline.Prefetch sig := ⟨1, ![main_v33.idx], fun | 0 => main_v33.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (k2_off1_inb : ∀ i : grid2.Coords, ∀ a, (k2_off1 i) a + S1.size a ≤ S50000.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![50000], ![false]⟩

abbrev pre3 : Pipeline.Prefetch sig := ⟨1, ![main_v46.idx], fun | 0 => main_v46.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (k3_off1_inb : ∀ i : grid3.Coords, ∀ a, (k3_off1 i) a + S1.size a ≤ S50000.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![50000], ![false]⟩

abbrev pre4 : Pipeline.Prefetch sig := ⟨1, ![main_v59.idx], fun | 0 => main_v59.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 1 → Nat :=
  let arg0 : BitVec 32 := BitVec.ofNat 32 (i 0).val
  let v0 : Index := Scalar.indexCast arg0
  ![v0.toNat]
def cc4_transform_0 (k4_off1_inb : ∀ i : grid4.Coords, ∀ a, (k4_off1 i) a + S1.size a ≤ S50000.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![50000], ![false]⟩

abbrev pre5 : Pipeline.Prefetch sig := ⟨1, ![main_v72.idx], fun | 0 => main_v72.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) : Fin 1 → Nat :=
  let arg0 : BitVec 32 := BitVec.ofNat 32 (i 0).val
  let v0 : Index := Scalar.indexCast arg0
  ![v0.toNat]
def cc5_transform_0 (k5_off1_inb : ∀ i : grid5.Coords, ∀ a, (k5_off1 i) a + S1.size a ≤ S50000.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x1x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨1, ![50000], ![false]⟩

abbrev pre6 : Pipeline.Prefetch sig := ⟨1, ![main_v85.idx], fun | 0 => main_v85.names | ⟨_ + 1, h⟩ => absurd h (Nat.not_lt.2 (Nat.le_add_left _ _)), fun | 0 => rfl | ⟨_ + 1, h⟩ => absurd h (Nat.not_lt.2 (Nat.le_add_left _ _))⟩

def k6_off1 (i : grid6.Coords) : Fin 1 → Nat :=
  let arg0 : BitVec 32 := BitVec.ofNat 32 (i 0).val
  let v0 : Index := Scalar.indexCast arg0
  ![v0.toNat]
def cc6_transform_0 (k6_off1_inb : ∀ i : grid6.Coords, ∀ a, (k6_off1 i) a + S1.size a ≤ S50000.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev grid7 : Pipeline.Grid := ⟨1, ![50000], ![false]⟩

abbrev pre7 : Pipeline.Prefetch sig := ⟨1, ![main_v98.idx], fun | 0 => main_v98.names | ⟨_ + 1, h⟩ => absurd h (Nat.not_lt.2 (Nat.le_add_left _ _)), fun | 0 => rfl | ⟨_ + 1, h⟩ => absurd h (Nat.not_lt.2 (Nat.le_add_left _ _))⟩

def k7_off1 (i : grid7.Coords) : Fin 1 → Nat :=
  let arg0 : BitVec 32 := BitVec.ofNat 32 (i 0).val
  let v0 : Index := Scalar.indexCast arg0
  ![v0.toNat]
def cc7_transform_0 (k7_off1_inb : ∀ i : grid7.Coords, ∀ a, (k7_off1 i) a + S1.size a ≤ S50000.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x1x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x1x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev grid8 : Pipeline.Grid := ⟨1, ![50000], ![false]⟩

abbrev pre8 : Pipeline.Prefetch sig := ⟨1, ![main_v111.idx], fun | 0 => main_v111.names | ⟨_ + 1, h⟩ => absurd h (Nat.not_lt.2 (Nat.le_add_left _ _)), fun | 0 => rfl | ⟨_ + 1, h⟩ => absurd h (Nat.not_lt.2 (Nat.le_add_left _ _))⟩

def k8_off1 (i : grid8.Coords) : Fin 1 → Nat :=
  let arg0 : BitVec 32 := BitVec.ofNat 32 (i 0).val
  let v0 : Index := Scalar.indexCast arg0
  ![v0.toNat]
def cc8_transform_0 (k8_off1_inb : ∀ i : grid8.Coords, ∀ a, (k8_off1 i) a + S1.size a ≤ S50000.size a) (numel1_S1 : S1.numel = 1) (pf : pre8.Contents (Elt F)) (i : grid8.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k8_off1_inb i)) numel1_S1
  let c0_i32 : BitVec 32 := 0#32
  let c0_i32_0 : BitVec 32 := 0#32
  let c0_i32_1 : BitVec 32 := 0#32
  ![v1.toNat, c0_i32.toNat, c0_i32_0.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x1x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x1x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev grid9 : Pipeline.Grid := ⟨1, ![50000], ![false]⟩

abbrev pre9 : Pipeline.Prefetch sig := ⟨1, ![main_v124.idx], fun | 0 => main_v124.names | ⟨_ + 1, h⟩ => absurd h (Nat.not_lt.2 (Nat.le_add_left _ _)), fun | 0 => rfl | ⟨_ + 1, h⟩ => absurd h (Nat.not_lt.2 (Nat.le_add_left _ _))⟩

def k9_off1 (i : grid9.Coords) : Fin 1 → Nat :=
  let arg0 : BitVec 32 := BitVec.ofNat 32 (i 0).val
  let v0 : Index := Scalar.indexCast arg0
  ![v0.toNat]
def cc9_transform_0 (k9_off1_inb : ∀ i : grid9.Coords, ∀ a, (k9_off1 i) a + S1.size a ≤ S50000.size a) (numel1_S1 : S1.numel = 1) (pf : pre9.Contents (Elt F)) (i : grid9.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k9_off1_inb i)) numel1_S1
  let c0_i32 : BitVec 32 := 0#32
  let c0_i32_0 : BitVec 32 := 0#32
  let c0_i32_1 : BitVec 32 := 0#32
  ![v1.toNat, c0_i32.toNat, c0_i32_0.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x1x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x1x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev grid10 : Pipeline.Grid := ⟨1, ![50000], ![false]⟩

abbrev pre10 : Pipeline.Prefetch sig := ⟨1, ![main_v137.idx], fun | 0 => main_v137.names | ⟨_ + 1, h⟩ => absurd h (Nat.not_lt.2 (Nat.le_add_left _ _)), fun | 0 => rfl | ⟨_ + 1, h⟩ => absurd h (Nat.not_lt.2 (Nat.le_add_left _ _))⟩

def k10_off1 (i : grid10.Coords) : Fin 1 → Nat :=
  let arg0 : BitVec 32 := BitVec.ofNat 32 (i 0).val
  let v0 : Index := Scalar.indexCast arg0
  ![v0.toNat]
def cc10_transform_0 (k10_off1_inb : ∀ i : grid10.Coords, ∀ a, (k10_off1 i) a + S1.size a ≤ S50000.size a) (numel1_S1 : S1.numel = 1) (pf : pre10.Contents (Elt F)) (i : grid10.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k10_off1_inb i)) numel1_S1
  let c0_i32 : BitVec 32 := 0#32
  let c0_i32_0 : BitVec 32 := 0#32
  let c0_i32_1 : BitVec 32 := 0#32
  ![v1.toNat, c0_i32.toNat, c0_i32_0.toNat]

def cc10_transform_1 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x1x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1x1x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev grid11 : Pipeline.Grid := ⟨1, ![50000], ![false]⟩

abbrev pre11 : Pipeline.Prefetch sig := ⟨1, ![main_v150.idx], fun | 0 => main_v150.names | ⟨_ + 1, h⟩ => absurd h (Nat.not_lt.2 (Nat.le_add_left _ _)), fun | 0 => rfl | ⟨_ + 1, h⟩ => absurd h (Nat.not_lt.2 (Nat.le_add_left _ _))⟩

def k11_off1 (i : grid11.Coords) : Fin 1 → Nat :=
  let arg0 : BitVec 32 := BitVec.ofNat 32 (i 0).val
  let v0 : Index := Scalar.indexCast arg0
  ![v0.toNat]
def cc11_transform_0 (k11_off1_inb : ∀ i : grid11.Coords, ∀ a, (k11_off1 i) a + S1.size a ≤ S50000.size a) (numel1_S1 : S1.numel = 1) (pf : pre11.Contents (Elt F)) (i : grid11.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k11_off1_inb i)) numel1_S1
  let c0_i32 : BitVec 32 := 0#32
  let c0_i32_0 : BitVec 32 := 0#32
  let c0_i32_1 : BitVec 32 := 0#32
  ![v1.toNat, c0_i32.toNat, c0_i32_0.toNat]

def cc11_transform_1 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S1x1x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1x1x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev grid12 : Pipeline.Grid := ⟨1, ![50000], ![false]⟩

abbrev pre12 : Pipeline.Prefetch sig := ⟨1, ![main_v163.idx], fun | 0 => main_v163.names | ⟨_ + 1, h⟩ => absurd h (Nat.not_lt.2 (Nat.le_add_left _ _)), fun | 0 => rfl | ⟨_ + 1, h⟩ => absurd h (Nat.not_lt.2 (Nat.le_add_left _ _))⟩

def k12_off1 (i : grid12.Coords) : Fin 1 → Nat :=
  let arg0 : BitVec 32 := BitVec.ofNat 32 (i 0).val
  let v0 : Index := Scalar.indexCast arg0
  ![v0.toNat]
def cc12_transform_0 (k12_off1_inb : ∀ i : grid12.Coords, ∀ a, (k12_off1 i) a + S1.size a ≤ S50000.size a) (numel1_S1 : S1.numel = 1) (pf : pre12.Contents (Elt F)) (i : grid12.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k12_off1_inb i)) numel1_S1
  let c0_i32 : BitVec 32 := 0#32
  let c0_i32_0 : BitVec 32 := 0#32
  let c0_i32_1 : BitVec 32 := 0#32
  ![v1.toNat, c0_i32.toNat, c0_i32_0.toNat]

def cc12_transform_1 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S1x1x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S1x1x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev grid13 : Pipeline.Grid := ⟨1, ![50000], ![false]⟩

abbrev pre13 : Pipeline.Prefetch sig := ⟨1, ![main_v176.idx], fun | 0 => main_v176.names | ⟨_ + 1, h⟩ => absurd h (Nat.not_lt.2 (Nat.le_add_left _ _)), fun | 0 => rfl | ⟨_ + 1, h⟩ => absurd h (Nat.not_lt.2 (Nat.le_add_left _ _))⟩

def k13_off1 (i : grid13.Coords) : Fin 1 → Nat :=
  let arg0 : BitVec 32 := BitVec.ofNat 32 (i 0).val
  let v0 : Index := Scalar.indexCast arg0
  ![v0.toNat]
def cc13_transform_0 (k13_off1_inb : ∀ i : grid13.Coords, ∀ a, (k13_off1 i) a + S1.size a ≤ S50000.size a) (numel1_S1 : S1.numel = 1) (pf : pre13.Contents (Elt F)) (i : grid13.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k13_off1_inb i)) numel1_S1
  let c0_i32 : BitVec 32 := 0#32
  let c0_i32_0 : BitVec 32 := 0#32
  let c0_i32_1 : BitVec 32 := 0#32
  ![v1.toNat, c0_i32.toNat, c0_i32_0.toNat]

def cc13_transform_1 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S1x1x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S1x1x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev grid14 : Pipeline.Grid := ⟨1, ![50000], ![false]⟩

abbrev pre14 : Pipeline.Prefetch sig := ⟨1, ![main_v189.idx], fun | 0 => main_v189.names | ⟨_ + 1, h⟩ => absurd h (Nat.not_lt.2 (Nat.le_add_left _ _)), fun | 0 => rfl | ⟨_ + 1, h⟩ => absurd h (Nat.not_lt.2 (Nat.le_add_left _ _))⟩

def k14_off1 (i : grid14.Coords) : Fin 1 → Nat :=
  let arg0 : BitVec 32 := BitVec.ofNat 32 (i 0).val
  let v0 : Index := Scalar.indexCast arg0
  ![v0.toNat]
def cc14_transform_0 (k14_off1_inb : ∀ i : grid14.Coords, ∀ a, (k14_off1 i) a + S1.size a ≤ S50000.size a) (numel1_S1 : S1.numel = 1) (pf : pre14.Contents (Elt F)) (i : grid14.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k14_off1_inb i)) numel1_S1
  let c0_i32 : BitVec 32 := 0#32
  let c0_i32_0 : BitVec 32 := 0#32
  let c0_i32_1 : BitVec 32 := 0#32
  ![v1.toNat, c0_i32.toNat, c0_i32_0.toNat]

def cc14_transform_1 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage14_0 : Fin 2 → Memref sig .tc .vmem S1x1x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S1x1x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev grid15 : Pipeline.Grid := ⟨1, ![50000], ![false]⟩

abbrev pre15 : Pipeline.Prefetch sig := ⟨1, ![main_v202.idx], fun | 0 => main_v202.names | ⟨_ + 1, h⟩ => absurd h (Nat.not_lt.2 (Nat.le_add_left _ _)), fun | 0 => rfl | ⟨_ + 1, h⟩ => absurd h (Nat.not_lt.2 (Nat.le_add_left _ _))⟩

def k15_off1 (i : grid15.Coords) : Fin 1 → Nat :=
  let arg0 : BitVec 32 := BitVec.ofNat 32 (i 0).val
  let v0 : Index := Scalar.indexCast arg0
  ![v0.toNat]
def cc15_transform_0 (k15_off1_inb : ∀ i : grid15.Coords, ∀ a, (k15_off1 i) a + S1.size a ≤ S50000.size a) (numel1_S1 : S1.numel = 1) (pf : pre15.Contents (Elt F)) (i : grid15.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k15_off1_inb i)) numel1_S1
  let c0_i32 : BitVec 32 := 0#32
  let c0_i32_0 : BitVec 32 := 0#32
  let c0_i32_1 : BitVec 32 := 0#32
  ![v1.toNat, c0_i32.toNat, c0_i32_0.toNat]

def cc15_transform_1 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage15_0 : Fin 2 → Memref sig .tc .vmem S1x1x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S1x1x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev grid16 : Pipeline.Grid := ⟨1, ![50000], ![false]⟩

abbrev pre16 : Pipeline.Prefetch sig := ⟨1, ![main_v215.idx], fun | 0 => main_v215.names | ⟨_ + 1, h⟩ => absurd h (Nat.not_lt.2 (Nat.le_add_left _ _)), fun | 0 => rfl | ⟨_ + 1, h⟩ => absurd h (Nat.not_lt.2 (Nat.le_add_left _ _))⟩

def k16_off1 (i : grid16.Coords) : Fin 1 → Nat :=
  let arg0 : BitVec 32 := BitVec.ofNat 32 (i 0).val
  let v0 : Index := Scalar.indexCast arg0
  ![v0.toNat]
def cc16_transform_0 (k16_off1_inb : ∀ i : grid16.Coords, ∀ a, (k16_off1 i) a + S1.size a ≤ S50000.size a) (numel1_S1 : S1.numel = 1) (pf : pre16.Contents (Elt F)) (i : grid16.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k16_off1_inb i)) numel1_S1
  let c0_i32 : BitVec 32 := 0#32
  let c0_i32_0 : BitVec 32 := 0#32
  let c0_i32_1 : BitVec 32 := 0#32
  ![v1.toNat, c0_i32.toNat, c0_i32_0.toNat]

def cc16_transform_1 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage16_0 : Fin 2 → Memref sig .tc .vmem S1x1x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S1x1x128 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev grid17 : Pipeline.Grid := ⟨1, ![50000], ![false]⟩

abbrev pre17 : Pipeline.Prefetch sig := ⟨1, ![main_v228.idx], fun | 0 => main_v228.names | ⟨_ + 1, h⟩ => absurd h (Nat.not_lt.2 (Nat.le_add_left _ _)), fun | 0 => rfl | ⟨_ + 1, h⟩ => absurd h (Nat.not_lt.2 (Nat.le_add_left _ _))⟩

def k17_off1 (i : grid17.Coords) : Fin 1 → Nat :=
  let arg0 : BitVec 32 := BitVec.ofNat 32 (i 0).val
  let v0 : Index := Scalar.indexCast arg0
  ![v0.toNat]
def cc17_transform_0 (k17_off1_inb : ∀ i : grid17.Coords, ∀ a, (k17_off1 i) a + S1.size a ≤ S50000.size a) (numel1_S1 : S1.numel = 1) (pf : pre17.Contents (Elt F)) (i : grid17.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k17_off1_inb i)) numel1_S1
  let c0_i32 : BitVec 32 := 0#32
  let c0_i32_0 : BitVec 32 := 0#32
  let c0_i32_1 : BitVec 32 := 0#32
  ![v1.toNat, c0_i32.toNat, c0_i32_0.toNat]

def cc17_transform_1 (i : grid17.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage17_0 : Fin 2 → Memref sig .tc .vmem S1x1x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S1x1x128 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev grid18 : Pipeline.Grid := ⟨1, ![50000], ![false]⟩

abbrev pre18 : Pipeline.Prefetch sig := ⟨1, ![main_v241.idx], fun | 0 => main_v241.names | ⟨_ + 1, h⟩ => absurd h (Nat.not_lt.2 (Nat.le_add_left _ _)), fun | 0 => rfl | ⟨_ + 1, h⟩ => absurd h (Nat.not_lt.2 (Nat.le_add_left _ _))⟩

def k18_off1 (i : grid18.Coords) : Fin 1 → Nat :=
  let arg0 : BitVec 32 := BitVec.ofNat 32 (i 0).val
  let v0 : Index := Scalar.indexCast arg0
  ![v0.toNat]
def cc18_transform_0 (k18_off1_inb : ∀ i : grid18.Coords, ∀ a, (k18_off1 i) a + S1.size a ≤ S50000.size a) (numel1_S1 : S1.numel = 1) (pf : pre18.Contents (Elt F)) (i : grid18.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k18_off1_inb i)) numel1_S1
  let c0_i32 : BitVec 32 := 0#32
  let c0_i32_0 : BitVec 32 := 0#32
  let c0_i32_1 : BitVec 32 := 0#32
  ![v1.toNat, c0_i32.toNat, c0_i32_0.toNat]

def cc18_transform_1 (i : grid18.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage18_0 : Fin 2 → Memref sig .tc .vmem S1x1x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S1x1x128 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev grid19 : Pipeline.Grid := ⟨1, ![50000], ![false]⟩

abbrev pre19 : Pipeline.Prefetch sig := ⟨1, ![main_v254.idx], fun | 0 => main_v254.names | ⟨_ + 1, h⟩ => absurd h (Nat.not_lt.2 (Nat.le_add_left _ _)), fun | 0 => rfl | ⟨_ + 1, h⟩ => absurd h (Nat.not_lt.2 (Nat.le_add_left _ _))⟩

def k19_off1 (i : grid19.Coords) : Fin 1 → Nat :=
  let arg0 : BitVec 32 := BitVec.ofNat 32 (i 0).val
  let v0 : Index := Scalar.indexCast arg0
  ![v0.toNat]
def cc19_transform_0 (k19_off1_inb : ∀ i : grid19.Coords, ∀ a, (k19_off1 i) a + S1.size a ≤ S50000.size a) (numel1_S1 : S1.numel = 1) (pf : pre19.Contents (Elt F)) (i : grid19.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k19_off1_inb i)) numel1_S1
  let c0_i32 : BitVec 32 := 0#32
  let c0_i32_0 : BitVec 32 := 0#32
  let c0_i32_1 : BitVec 32 := 0#32
  ![v1.toNat, c0_i32.toNat, c0_i32_0.toNat]

def cc19_transform_1 (i : grid19.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage19_0 : Fin 2 → Memref sig .tc .vmem S1x1x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S1x1x128 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev grid20 : Pipeline.Grid := ⟨1, ![50000], ![false]⟩

abbrev pre20 : Pipeline.Prefetch sig := ⟨1, ![main_v267.idx], fun | 0 => main_v267.names | ⟨_ + 1, h⟩ => absurd h (Nat.not_lt.2 (Nat.le_add_left _ _)), fun | 0 => rfl | ⟨_ + 1, h⟩ => absurd h (Nat.not_lt.2 (Nat.le_add_left _ _))⟩

def k20_off1 (i : grid20.Coords) : Fin 1 → Nat :=
  let arg0 : BitVec 32 := BitVec.ofNat 32 (i 0).val
  let v0 : Index := Scalar.indexCast arg0
  ![v0.toNat]
def cc20_transform_0 (k20_off1_inb : ∀ i : grid20.Coords, ∀ a, (k20_off1 i) a + S1.size a ≤ S50000.size a) (numel1_S1 : S1.numel = 1) (pf : pre20.Contents (Elt F)) (i : grid20.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k20_off1_inb i)) numel1_S1
  let c0_i32 : BitVec 32 := 0#32
  let c0_i32_0 : BitVec 32 := 0#32
  let c0_i32_1 : BitVec 32 := 0#32
  ![v1.toNat, c0_i32.toNat, c0_i32_0.toNat]

def cc20_transform_1 (i : grid20.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage20_0 : Fin 2 → Memref sig .tc .vmem S1x1x128 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S1x1x128 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev grid21 : Pipeline.Grid := ⟨1, ![50000], ![false]⟩

abbrev pre21 : Pipeline.Prefetch sig := ⟨1, ![main_v280.idx], fun | 0 => main_v280.names | ⟨_ + 1, h⟩ => absurd h (Nat.not_lt.2 (Nat.le_add_left _ _)), fun | 0 => rfl | ⟨_ + 1, h⟩ => absurd h (Nat.not_lt.2 (Nat.le_add_left _ _))⟩

def k21_off1 (i : grid21.Coords) : Fin 1 → Nat :=
  let arg0 : BitVec 32 := BitVec.ofNat 32 (i 0).val
  let v0 : Index := Scalar.indexCast arg0
  ![v0.toNat]
def cc21_transform_0 (k21_off1_inb : ∀ i : grid21.Coords, ∀ a, (k21_off1 i) a + S1.size a ≤ S50000.size a) (numel1_S1 : S1.numel = 1) (pf : pre21.Contents (Elt F)) (i : grid21.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k21_off1_inb i)) numel1_S1
  let c0_i32 : BitVec 32 := 0#32
  let c0_i32_0 : BitVec 32 := 0#32
  let c0_i32_1 : BitVec 32 := 0#32
  ![v1.toNat, c0_i32.toNat, c0_i32_0.toNat]

def cc21_transform_1 (i : grid21.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage21_0 : Fin 2 → Memref sig .tc .vmem S1x1x128 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 2 → Memref sig .tc .vmem S1x1x128 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true]

abbrev grid22 : Pipeline.Grid := ⟨1, ![50000], ![false]⟩

abbrev pre22 : Pipeline.Prefetch sig := ⟨1, ![main_v293.idx], fun | 0 => main_v293.names | ⟨_ + 1, h⟩ => absurd h (Nat.not_lt.2 (Nat.le_add_left _ _)), fun | 0 => rfl | ⟨_ + 1, h⟩ => absurd h (Nat.not_lt.2 (Nat.le_add_left _ _))⟩

def k22_off1 (i : grid22.Coords) : Fin 1 → Nat :=
  let arg0 : BitVec 32 := BitVec.ofNat 32 (i 0).val
  let v0 : Index := Scalar.indexCast arg0
  ![v0.toNat]
def cc22_transform_0 (k22_off1_inb : ∀ i : grid22.Coords, ∀ a, (k22_off1 i) a + S1.size a ≤ S50000.size a) (numel1_S1 : S1.numel = 1) (pf : pre22.Contents (Elt F)) (i : grid22.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k22_off1_inb i)) numel1_S1
  let c0_i32 : BitVec 32 := 0#32
  let c0_i32_0 : BitVec 32 := 0#32
  let c0_i32_1 : BitVec 32 := 0#32
  ![v1.toNat, c0_i32.toNat, c0_i32_0.toNat]

def cc22_transform_1 (i : grid22.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage22_0 : Fin 2 → Memref sig .tc .vmem S1x1x128 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 2 → Memref sig .tc .vmem S1x1x128 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true]

abbrev grid23 : Pipeline.Grid := ⟨1, ![50000], ![false]⟩

abbrev pre23 : Pipeline.Prefetch sig := ⟨1, ![main_v306.idx], fun | 0 => main_v306.names | ⟨_ + 1, h⟩ => absurd h (Nat.not_lt.2 (Nat.le_add_left _ _)), fun | 0 => rfl | ⟨_ + 1, h⟩ => absurd h (Nat.not_lt.2 (Nat.le_add_left _ _))⟩

def k23_off1 (i : grid23.Coords) : Fin 1 → Nat :=
  let arg0 : BitVec 32 := BitVec.ofNat 32 (i 0).val
  let v0 : Index := Scalar.indexCast arg0
  ![v0.toNat]
def cc23_transform_0 (k23_off1_inb : ∀ i : grid23.Coords, ∀ a, (k23_off1 i) a + S1.size a ≤ S50000.size a) (numel1_S1 : S1.numel = 1) (pf : pre23.Contents (Elt F)) (i : grid23.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k23_off1_inb i)) numel1_S1
  let c0_i32 : BitVec 32 := 0#32
  let c0_i32_0 : BitVec 32 := 0#32
  let c0_i32_1 : BitVec 32 := 0#32
  ![v1.toNat, c0_i32.toNat, c0_i32_0.toNat]

def cc23_transform_1 (i : grid23.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage23_0 : Fin 2 → Memref sig .tc .vmem S1x1x128 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 2 → Memref sig .tc .vmem S1x1x128 .f32 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![true]

abbrev grid24 : Pipeline.Grid := ⟨1, ![50000], ![false]⟩

abbrev pre24 : Pipeline.Prefetch sig := ⟨1, ![main_v319.idx], fun | 0 => main_v319.names | ⟨_ + 1, h⟩ => absurd h (Nat.not_lt.2 (Nat.le_add_left _ _)), fun | 0 => rfl | ⟨_ + 1, h⟩ => absurd h (Nat.not_lt.2 (Nat.le_add_left _ _))⟩

def k24_off1 (i : grid24.Coords) : Fin 1 → Nat :=
  let arg0 : BitVec 32 := BitVec.ofNat 32 (i 0).val
  let v0 : Index := Scalar.indexCast arg0
  ![v0.toNat]
def cc24_transform_0 (k24_off1_inb : ∀ i : grid24.Coords, ∀ a, (k24_off1 i) a + S1.size a ≤ S50000.size a) (numel1_S1 : S1.numel = 1) (pf : pre24.Contents (Elt F)) (i : grid24.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k24_off1_inb i)) numel1_S1
  let c0_i32 : BitVec 32 := 0#32
  let c0_i32_0 : BitVec 32 := 0#32
  let c0_i32_1 : BitVec 32 := 0#32
  ![v1.toNat, c0_i32.toNat, c0_i32_0.toNat]

def cc24_transform_1 (i : grid24.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage24_0 : Fin 2 → Memref sig .tc .vmem S1x1x128 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 2 → Memref sig .tc .vmem S1x1x128 .f32 := fun | 0 => Memref.whole cc24_stg1_0 | 1 => Memref.whole cc24_stg1_1 | ⟨_ + 2, h⟩ => absurd h (Nat.not_lt.2 (Nat.le_add_left _ _))
abbrev sem24_1 : Fin 2 → DmaSem sig := fun | 0 => cc24_sem1_0 | 1 => cc24_sem1_1 | ⟨_ + 2, h⟩ => absurd h (Nat.not_lt.2 (Nat.le_add_left _ _))
abbrev reads24_1 : Fin grid24.rank → Bool := ![true]

abbrev grid25 : Pipeline.Grid := ⟨1, ![50000], ![false]⟩

abbrev pre25 : Pipeline.Prefetch sig := ⟨1, ![main_v332.idx], fun | 0 => main_v332.names | ⟨_ + 1, h⟩ => absurd h (Nat.not_lt.2 (Nat.le_add_left _ _)), fun | 0 => rfl | ⟨_ + 1, h⟩ => absurd h (Nat.not_lt.2 (Nat.le_add_left _ _))⟩

def k25_off1 (i : grid25.Coords) : Fin 1 → Nat :=
  let arg0 : BitVec 32 := BitVec.ofNat 32 (i 0).val
  let v0 : Index := Scalar.indexCast arg0
  ![v0.toNat]
def cc25_transform_0 (k25_off1_inb : ∀ i : grid25.Coords, ∀ a, (k25_off1 i) a + S1.size a ≤ S50000.size a) (numel1_S1 : S1.numel = 1) (pf : pre25.Contents (Elt F)) (i : grid25.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k25_off1_inb i)) numel1_S1
  let c0_i32 : BitVec 32 := 0#32
  let c0_i32_0 : BitVec 32 := 0#32
  let c0_i32_1 : BitVec 32 := 0#32
  ![v1.toNat, c0_i32.toNat, c0_i32_0.toNat]

def cc25_transform_1 (i : grid25.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage25_0 : Fin 2 → Memref sig .tc .vmem S1x1x128 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 2 → Memref sig .tc .vmem S1x1x128 .f32 := fun | 0 => Memref.whole cc25_stg1_0 | 1 => Memref.whole cc25_stg1_1 | ⟨_ + 2, h⟩ => absurd h (Nat.not_lt.2 (Nat.le_add_left _ _))
abbrev sem25_1 : Fin 2 → DmaSem sig := fun | 0 => cc25_sem1_0 | 1 => cc25_sem1_1 | ⟨_ + 2, h⟩ => absurd h (Nat.not_lt.2 (Nat.le_add_left _ _))
abbrev reads25_1 : Fin grid25.rank → Bool := ![true]

abbrev grid26 : Pipeline.Grid := ⟨1, ![50000], ![false]⟩

abbrev pre26 : Pipeline.Prefetch sig := ⟨1, ![main_v345.idx], fun | 0 => main_v345.names | ⟨_ + 1, h⟩ => absurd h (Nat.not_lt.2 (Nat.le_add_left _ _)), fun | 0 => rfl | ⟨_ + 1, h⟩ => absurd h (Nat.not_lt.2 (Nat.le_add_left _ _))⟩

def k26_off1 (i : grid26.Coords) : Fin 1 → Nat :=
  let arg0 : BitVec 32 := BitVec.ofNat 32 (i 0).val
  let v0 : Index := Scalar.indexCast arg0
  ![v0.toNat]
def cc26_transform_0 (k26_off1_inb : ∀ i : grid26.Coords, ∀ a, (k26_off1 i) a + S1.size a ≤ S50000.size a) (numel1_S1 : S1.numel = 1) (pf : pre26.Contents (Elt F)) (i : grid26.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k26_off1_inb i)) numel1_S1
  let c0_i32 : BitVec 32 := 0#32
  let c0_i32_0 : BitVec 32 := 0#32
  let c0_i32_1 : BitVec 32 := 0#32
  ![v1.toNat, c0_i32.toNat, c0_i32_0.toNat]

def cc26_transform_1 (i : grid26.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage26_0 : Fin 2 → Memref sig .tc .vmem S1x1x128 .f32 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev stage26_1 : Fin 2 → Memref sig .tc .vmem S1x1x128 .f32 := fun | 0 => Memref.whole cc26_stg1_0 | 1 => Memref.whole cc26_stg1_1 | ⟨_ + 2, h⟩ => absurd h (Nat.not_lt.2 (Nat.le_add_left _ _))
abbrev sem26_1 : Fin 2 → DmaSem sig := fun | 0 => cc26_sem1_0 | 1 => cc26_sem1_1 | ⟨_ + 2, h⟩ => absurd h (Nat.not_lt.2 (Nat.le_add_left _ _))
abbrev reads26_1 : Fin grid26.rank → Bool := ![true]

abbrev grid27 : Pipeline.Grid := ⟨1, ![50000], ![false]⟩

abbrev pre27 : Pipeline.Prefetch sig := ⟨1, ![main_v358.idx], fun | 0 => main_v358.names | ⟨_ + 1, h⟩ => absurd h (Nat.not_lt.2 (Nat.le_add_left _ _)), fun | 0 => rfl | ⟨_ + 1, h⟩ => absurd h (Nat.not_lt.2 (Nat.le_add_left _ _))⟩

def k27_off1 (i : grid27.Coords) : Fin 1 → Nat :=
  let arg0 : BitVec 32 := BitVec.ofNat 32 (i 0).val
  let v0 : Index := Scalar.indexCast arg0
  ![v0.toNat]
def cc27_transform_0 (k27_off1_inb : ∀ i : grid27.Coords, ∀ a, (k27_off1 i) a + S1.size a ≤ S50000.size a) (numel1_S1 : S1.numel = 1) (pf : pre27.Contents (Elt F)) (i : grid27.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k27_off1_inb i)) numel1_S1
  let c0_i32 : BitVec 32 := 0#32
  let c0_i32_0 : BitVec 32 := 0#32
  let c0_i32_1 : BitVec 32 := 0#32
  ![v1.toNat, c0_i32.toNat, c0_i32_0.toNat]

def cc27_transform_1 (i : grid27.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage27_0 : Fin 2 → Memref sig .tc .vmem S1x1x128 .f32 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true]

abbrev stage27_1 : Fin 2 → Memref sig .tc .vmem S1x1x128 .f32 := fun | 0 => Memref.whole cc27_stg1_0 | 1 => Memref.whole cc27_stg1_1 | ⟨_ + 2, h⟩ => absurd h (Nat.not_lt.2 (Nat.le_add_left _ _))
abbrev sem27_1 : Fin 2 → DmaSem sig := fun | 0 => cc27_sem1_0 | 1 => cc27_sem1_1 | ⟨_ + 2, h⟩ => absurd h (Nat.not_lt.2 (Nat.le_add_left _ _))
abbrev reads27_1 : Fin grid27.rank → Bool := ![true]

abbrev grid28 : Pipeline.Grid := ⟨1, ![50000], ![false]⟩

abbrev pre28 : Pipeline.Prefetch sig := ⟨1, ![main_v371.idx], fun | 0 => main_v371.names | ⟨_ + 1, h⟩ => absurd h (Nat.not_lt.2 (Nat.le_add_left _ _)), fun | 0 => rfl | ⟨_ + 1, h⟩ => absurd h (Nat.not_lt.2 (Nat.le_add_left _ _))⟩

def k28_off1 (i : grid28.Coords) : Fin 1 → Nat :=
  let arg0 : BitVec 32 := BitVec.ofNat 32 (i 0).val
  let v0 : Index := Scalar.indexCast arg0
  ![v0.toNat]
def cc28_transform_0 (k28_off1_inb : ∀ i : grid28.Coords, ∀ a, (k28_off1 i) a + S1.size a ≤ S50000.size a) (numel1_S1 : S1.numel = 1) (pf : pre28.Contents (Elt F)) (i : grid28.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k28_off1_inb i)) numel1_S1
  let c0_i32 : BitVec 32 := 0#32
  let c0_i32_0 : BitVec 32 := 0#32
  let c0_i32_1 : BitVec 32 := 0#32
  ![v1.toNat, c0_i32.toNat, c0_i32_0.toNat]

def cc28_transform_1 (i : grid28.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage28_0 : Fin 2 → Memref sig .tc .vmem S1x1x128 .f32 := fun | 0 => Memref.whole cc28_stg0_0 | 1 => Memref.whole cc28_stg0_1 | ⟨_ + 2, h⟩ => absurd h (Nat.not_lt.2 (Nat.le_add_left _ _))
abbrev sem28_0 : Fin 2 → DmaSem sig := fun | 0 => cc28_sem0_0 | 1 => cc28_sem0_1 | ⟨_ + 2, h⟩ => absurd h (Nat.not_lt.2 (Nat.le_add_left _ _))
abbrev reads28_0 : Fin grid28.rank → Bool := ![true]

abbrev stage28_1 : Fin 2 → Memref sig .tc .vmem S1x1x128 .f32 := fun | 0 => Memref.whole cc28_stg1_0 | 1 => Memref.whole cc28_stg1_1 | ⟨_ + 2, h⟩ => absurd h (Nat.not_lt.2 (Nat.le_add_left _ _))
abbrev sem28_1 : Fin 2 → DmaSem sig := fun | 0 => cc28_sem1_0 | 1 => cc28_sem1_1 | ⟨_ + 2, h⟩ => absurd h (Nat.not_lt.2 (Nat.le_add_left _ _))
abbrev reads28_1 : Fin grid28.rank → Bool := ![true]

abbrev grid29 : Pipeline.Grid := ⟨1, ![50000], ![false]⟩

abbrev pre29 : Pipeline.Prefetch sig := ⟨1, ![main_v384.idx], fun | 0 => main_v384.names | ⟨_ + 1, h⟩ => absurd h (Nat.not_lt.2 (Nat.le_add_left _ _)), fun | 0 => rfl | ⟨_ + 1, h⟩ => absurd h (Nat.not_lt.2 (Nat.le_add_left _ _))⟩

def k29_off1 (i : grid29.Coords) : Fin 1 → Nat :=
  let arg0 : BitVec 32 := BitVec.ofNat 32 (i 0).val
  let v0 : Index := Scalar.indexCast arg0
  ![v0.toNat]
def cc29_transform_0 (k29_off1_inb : ∀ i : grid29.Coords, ∀ a, (k29_off1 i) a + S1.size a ≤ S50000.size a) (numel1_S1 : S1.numel = 1) (pf : pre29.Contents (Elt F)) (i : grid29.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k29_off1_inb i)) numel1_S1
  let c0_i32 : BitVec 32 := 0#32
  let c0_i32_0 : BitVec 32 := 0#32
  let c0_i32_1 : BitVec 32 := 0#32
  ![v1.toNat, c0_i32.toNat, c0_i32_0.toNat]

def cc29_transform_1 (i : grid29.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage29_0 : Fin 2 → Memref sig .tc .vmem S1x1x128 .f32 := fun | 0 => Memref.whole cc29_stg0_0 | 1 => Memref.whole cc29_stg0_1 | ⟨_ + 2, h⟩ => absurd h (Nat.not_lt.2 (Nat.le_add_left _ _))
abbrev sem29_0 : Fin 2 → DmaSem sig := fun | 0 => cc29_sem0_0 | 1 => cc29_sem0_1 | ⟨_ + 2, h⟩ => absurd h (Nat.not_lt.2 (Nat.le_add_left _ _))
abbrev reads29_0 : Fin grid29.rank → Bool := ![true]

abbrev stage29_1 : Fin 2 → Memref sig .tc .vmem S1x1x128 .f32 := fun | 0 => Memref.whole cc29_stg1_0 | 1 => Memref.whole cc29_stg1_1 | ⟨_ + 2, h⟩ => absurd h (Nat.not_lt.2 (Nat.le_add_left _ _))
abbrev sem29_1 : Fin 2 → DmaSem sig := fun | 0 => cc29_sem1_0 | 1 => cc29_sem1_1 | ⟨_ + 2, h⟩ => absurd h (Nat.not_lt.2 (Nat.le_add_left _ _))
abbrev reads29_1 : Fin grid29.rank → Bool := ![true]

abbrev grid30 : Pipeline.Grid := ⟨1, ![50000], ![false]⟩

abbrev pre30 : Pipeline.Prefetch sig := ⟨1, ![main_v397.idx], fun | 0 => main_v397.names | ⟨_ + 1, h⟩ => absurd h (Nat.not_lt.2 (Nat.le_add_left _ _)), fun | 0 => rfl | ⟨_ + 1, h⟩ => absurd h (Nat.not_lt.2 (Nat.le_add_left _ _))⟩

def k30_off1 (i : grid30.Coords) : Fin 1 → Nat :=
  let arg0 : BitVec 32 := BitVec.ofNat 32 (i 0).val
  let v0 : Index := Scalar.indexCast arg0
  ![v0.toNat]
def cc30_transform_0 (k30_off1_inb : ∀ i : grid30.Coords, ∀ a, (k30_off1 i) a + S1.size a ≤ S50000.size a) (numel1_S1 : S1.numel = 1) (pf : pre30.Contents (Elt F)) (i : grid30.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k30_off1_inb i)) numel1_S1
  let c0_i32 : BitVec 32 := 0#32
  let c0_i32_0 : BitVec 32 := 0#32
  let c0_i32_1 : BitVec 32 := 0#32
  ![v1.toNat, c0_i32.toNat, c0_i32_0.toNat]

def cc30_transform_1 (i : grid30.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage30_0 : Fin 2 → Memref sig .tc .vmem S1x1x128 .f32 := fun | 0 => Memref.whole cc30_stg0_0 | 1 => Memref.whole cc30_stg0_1 | ⟨_ + 2, h⟩ => absurd h (Nat.not_lt.2 (Nat.le_add_left _ _))
abbrev sem30_0 : Fin 2 → DmaSem sig := fun | 0 => cc30_sem0_0 | 1 => cc30_sem0_1 | ⟨_ + 2, h⟩ => absurd h (Nat.not_lt.2 (Nat.le_add_left _ _))
abbrev reads30_0 : Fin grid30.rank → Bool := ![true]

abbrev stage30_1 : Fin 2 → Memref sig .tc .vmem S1x1x128 .f32 := fun | 0 => Memref.whole cc30_stg1_0 | 1 => Memref.whole cc30_stg1_1 | ⟨_ + 2, h⟩ => absurd h (Nat.not_lt.2 (Nat.le_add_left _ _))
abbrev sem30_1 : Fin 2 → DmaSem sig := fun | 0 => cc30_sem1_0 | 1 => cc30_sem1_1 | ⟨_ + 2, h⟩ => absurd h (Nat.not_lt.2 (Nat.le_add_left _ _))
abbrev reads30_1 : Fin grid30.rank → Bool := ![true]

abbrev grid31 : Pipeline.Grid := ⟨1, ![50000], ![false]⟩

abbrev pre31 : Pipeline.Prefetch sig := ⟨1, ![main_v410.idx], fun | 0 => main_v410.names | ⟨_ + 1, h⟩ => absurd h (Nat.not_lt.2 (Nat.le_add_left _ _)), fun | 0 => rfl | ⟨_ + 1, h⟩ => absurd h (Nat.not_lt.2 (Nat.le_add_left _ _))⟩

def k31_off1 (i : grid31.Coords) : Fin 1 → Nat :=
  let arg0 : BitVec 32 := BitVec.ofNat 32 (i 0).val
  let v0 : Index := Scalar.indexCast arg0
  ![v0.toNat]
def cc31_transform_0 (k31_off1_inb : ∀ i : grid31.Coords, ∀ a, (k31_off1 i) a + S1.size a ≤ S50000.size a) (numel1_S1 : S1.numel = 1) (pf : pre31.Contents (Elt F)) (i : grid31.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k31_off1_inb i)) numel1_S1
  let c0_i32 : BitVec 32 := 0#32
  let c0_i32_0 : BitVec 32 := 0#32
  let c0_i32_1 : BitVec 32 := 0#32
  ![v1.toNat, c0_i32.toNat, c0_i32_0.toNat]

def cc31_transform_1 (i : grid31.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage31_0 : Fin 2 → Memref sig .tc .vmem S1x1x128 .f32 := fun | 0 => Memref.whole cc31_stg0_0 | 1 => Memref.whole cc31_stg0_1 | ⟨_ + 2, h⟩ => absurd h (Nat.not_lt.2 (Nat.le_add_left _ _))
abbrev sem31_0 : Fin 2 → DmaSem sig := fun | 0 => cc31_sem0_0 | 1 => cc31_sem0_1 | ⟨_ + 2, h⟩ => absurd h (Nat.not_lt.2 (Nat.le_add_left _ _))
abbrev reads31_0 : Fin grid31.rank → Bool := ![true]

abbrev stage31_1 : Fin 2 → Memref sig .tc .vmem S1x1x128 .f32 := fun | 0 => Memref.whole cc31_stg1_0 | 1 => Memref.whole cc31_stg1_1 | ⟨_ + 2, h⟩ => absurd h (Nat.not_lt.2 (Nat.le_add_left _ _))
abbrev sem31_1 : Fin 2 → DmaSem sig := fun | 0 => cc31_sem1_0 | 1 => cc31_sem1_1 | ⟨_ + 2, h⟩ => absurd h (Nat.not_lt.2 (Nat.le_add_left _ _))
abbrev reads31_1 : Fin grid31.rank → Bool := ![true]

abbrev grid32 : Pipeline.Grid := ⟨1, ![100], ![false]⟩

def cc32_transform_0 (i : grid32.Coords) : Fin 2 → Nat :=
  let arg0 : BitVec 32 := BitVec.ofNat 32 (i 0).val
  let c0_i32 : BitVec 32 := 0#32
  let c0_i32_0 : BitVec 32 := 0#32
  ![arg0.toNat, c0_i32.toNat]

def cc32_transform_1 (i : grid32.Coords) : Fin 2 → Nat :=
  let arg0 : BitVec 32 := BitVec.ofNat 32 (i 0).val
  let c0_i32 : BitVec 32 := 0#32
  let c0_i32_0 : BitVec 32 := 0#32
  ![arg0.toNat, c0_i32.toNat]

def cc32_transform_2 (i : grid32.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc32_transform_3 (i : grid32.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage32_0 : Fin 2 → Memref sig .tc .vmem S1000x128 .f32 := fun | 0 => Memref.whole cc32_stg0_0 | 1 => Memref.whole cc32_stg0_1 | ⟨_ + 2, h⟩ => absurd h (Nat.not_lt.2 (Nat.le_add_left _ _))
abbrev sem32_0 : Fin 2 → DmaSem sig := fun | 0 => cc32_sem0_0 | 1 => cc32_sem0_1 | ⟨_ + 2, h⟩ => absurd h (Nat.not_lt.2 (Nat.le_add_left _ _))
abbrev reads32_0 : Fin grid32.rank → Bool := ![true]

abbrev stage32_1 : Fin 2 → Memref sig .tc .vmem S1000x1 .f32 := fun | 0 => Memref.whole cc32_stg1_0 | 1 => Memref.whole cc32_stg1_1 | ⟨_ + 2, h⟩ => absurd h (Nat.not_lt.2 (Nat.le_add_left _ _))
abbrev sem32_1 : Fin 2 → DmaSem sig := fun | 0 => cc32_sem1_0 | 1 => cc32_sem1_1 | ⟨_ + 2, h⟩ => absurd h (Nat.not_lt.2 (Nat.le_add_left _ _))
abbrev reads32_1 : Fin grid32.rank → Bool := ![true]

abbrev stage32_2 : Fin 1 → Memref sig .tc .vmem S128x128 .f32 := fun | 0 => Memref.whole cc32_stg2_0 | ⟨_ + 1, h⟩ => absurd h (Nat.not_lt.2 (Nat.le_add_left _ _))
abbrev sem32_2 : Fin 1 → DmaSem sig := fun | 0 => cc32_sem2_0 | ⟨_ + 1, h⟩ => absurd h (Nat.not_lt.2 (Nat.le_add_left _ _))
abbrev reads32_2 : Fin grid32.rank → Bool := ![false]

abbrev stage32_3 : Fin 2 → Memref sig .tc .vmem S1000x128 .f32 := fun | 0 => Memref.whole cc32_stg3_0 | 1 => Memref.whole cc32_stg3_1 | ⟨_ + 2, h⟩ => absurd h (Nat.not_lt.2 (Nat.le_add_left _ _))
abbrev sem32_3 : Fin 2 → DmaSem sig := fun | 0 => cc32_sem3_0 | 1 => cc32_sem3_1 | ⟨_ + 2, h⟩ => absurd h (Nat.not_lt.2 (Nat.le_add_left _ _))
abbrev reads32_3 : Fin grid32.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x128 : S_.BroadcastsInDim S100000x128 (![] : Fin 0 → Fin S100000x128.rank)
  bcast_S_S100000 : S_.BroadcastsInDim S100000 (![] : Fin 0 → Fin S100000.rank)
  bcast_S_S50000 : S_.BroadcastsInDim S50000 (![] : Fin 0 → Fin S50000.rank)
  slices_S1600000_S50000_0 : S1600000.Slices ![0] S50000
  shapeCasts_S100000x128_S100000x1x128 : S100000x128.ShapeCasts S100000x1x128
  numel1_S1 : S1.numel = 1
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S50000x1x128_S50000x128 : S50000x1x128.ShapeCasts S50000x128
  bcast_S50000_S50000x1_0 : S50000.BroadcastsInDim S50000x1 (![0] : Fin 1 → Fin S50000x1.rank)
  slices_S1600000_S50000_50000 : S1600000.Slices ![50000] S50000
  slices_S1600000_S50000_100000 : S1600000.Slices ![100000] S50000
  slices_S1600000_S50000_150000 : S1600000.Slices ![150000] S50000
  slices_S1600000_S50000_200000 : S1600000.Slices ![200000] S50000
  slices_S1600000_S50000_250000 : S1600000.Slices ![250000] S50000
  slices_S1600000_S50000_300000 : S1600000.Slices ![300000] S50000
  slices_S1600000_S50000_350000 : S1600000.Slices ![350000] S50000
  slices_S1600000_S50000_400000 : S1600000.Slices ![400000] S50000
  slices_S1600000_S50000_450000 : S1600000.Slices ![450000] S50000
  slices_S1600000_S50000_500000 : S1600000.Slices ![500000] S50000
  slices_S1600000_S50000_550000 : S1600000.Slices ![550000] S50000
  slices_S1600000_S50000_600000 : S1600000.Slices ![600000] S50000
  slices_S1600000_S50000_650000 : S1600000.Slices ![650000] S50000
  slices_S1600000_S50000_700000 : S1600000.Slices ![700000] S50000
  slices_S1600000_S50000_750000 : S1600000.Slices ![750000] S50000
  slices_S1600000_S50000_800000 : S1600000.Slices ![800000] S50000
  slices_S1600000_S50000_850000 : S1600000.Slices ![850000] S50000
  slices_S1600000_S50000_900000 : S1600000.Slices ![900000] S50000
  slices_S1600000_S50000_950000 : S1600000.Slices ![950000] S50000
  slices_S1600000_S50000_1000000 : S1600000.Slices ![1000000] S50000
  slices_S1600000_S50000_1050000 : S1600000.Slices ![1050000] S50000
  slices_S1600000_S50000_1100000 : S1600000.Slices ![1100000] S50000
  slices_S1600000_S50000_1150000 : S1600000.Slices ![1150000] S50000
  slices_S1600000_S50000_1200000 : S1600000.Slices ![1200000] S50000
  slices_S1600000_S50000_1250000 : S1600000.Slices ![1250000] S50000
  slices_S1600000_S50000_1300000 : S1600000.Slices ![1300000] S50000
  slices_S1600000_S50000_1350000 : S1600000.Slices ![1350000] S50000
  slices_S1600000_S50000_1400000 : S1600000.Slices ![1400000] S50000
  slices_S1600000_S50000_1450000 : S1600000.Slices ![1450000] S50000
  slices_S1600000_S50000_1500000 : S1600000.Slices ![1500000] S50000
  slices_S1600000_S50000_1550000 : S1600000.Slices ![1550000] S50000
  bcast_S100000_S100000x1_0 : S100000.BroadcastsInDim S100000x1 (![0] : Fin 1 → Fin S100000x1.rank)
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1000x1_S1000x128 : S1000x1.Broadcasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  scatter_S100000x128_S50000x1_S50000x128_1_0_0_1_wf : ScatterDims.WF S100000x128 S50000x1 S50000x128 [1] [0] [0] 1
  scatter_S100000_S50000x1_S50000_n_0_0_1_wf : ScatterDims.WF S100000 S50000x1 S50000 [] [0] [0] 1
  dot_S1000x128_S128x128_S1000x128_1_0_0_1_n_n_wf : DotDims.WF S1000x128 S128x128 S1000x128 [1] [0] [0] [1] [] []
  hrank0 : 0 < grid0.rank
  k0_off1_inb : ∀ i : grid0.Coords, ∀ a, (k0_off1 i) a + S1.size a ≤ S50000.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S50000x1x128.size a
  hwx0_1 : ∀ i : grid0.Coords, EltTy.bits .f32 = 32 ∨ (Rect.block (s := S50000x1x128) S1x1x128.size (cc0_transform_1 i) (hinb0_1 i)).WholeWords (EltTy.packing .f32)
  hrank1 : 0 < grid1.rank
  k1_off1_inb : ∀ i : grid1.Coords, ∀ a, (k1_off1 i) a + S1.size a ≤ S50000.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128.size a ≤ S50000x1x128.size a
  hwx1_1 : ∀ i : grid1.Coords, EltTy.bits .f32 = 32 ∨ (Rect.block (s := S50000x1x128) S1x1x128.size (cc1_transform_1 i) (hinb1_1 i)).WholeWords (EltTy.packing .f32)
  hrank2 : 0 < grid2.rank
  k2_off1_inb : ∀ i : grid2.Coords, ∀ a, (k2_off1 i) a + S1.size a ≤ S50000.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x128.size a ≤ S50000x1x128.size a
  hwx2_1 : ∀ i : grid2.Coords, EltTy.bits .f32 = 32 ∨ (Rect.block (s := S50000x1x128) S1x1x128.size (cc2_transform_1 i) (hinb2_1 i)).WholeWords (EltTy.packing .f32)
  hrank3 : 0 < grid3.rank
  k3_off1_inb : ∀ i : grid3.Coords, ∀ a, (k3_off1 i) a + S1.size a ≤ S50000.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x128.size a ≤ S50000x1x128.size a
  hwx3_1 : ∀ i : grid3.Coords, EltTy.bits .f32 = 32 ∨ (Rect.block (s := S50000x1x128) S1x1x128.size (cc3_transform_1 i) (hinb3_1 i)).WholeWords (EltTy.packing .f32)
  hrank4 : 0 < grid4.rank
  k4_off1_inb : ∀ i : grid4.Coords, ∀ a, (k4_off1 i) a + S1.size a ≤ S50000.size a
  hstage4_0 : ∀ j, (stage4_0 j).IsWhole
  nbuf4_0 : grid4.bufCount reads4_0 false = 2
  hreads4_0 : ∀ {F : FTy → Type} [FloatOps F] (pf : pre4.Contents (Elt F)) (i i' : grid4.Coords), (∀ a, reads4_0 a = true → i a = i' a) → cc4_transform_0 k4_off1_inb numel1_S1 pf i = cc4_transform_0 k4_off1_inb numel1_S1 pf i'
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1x128.size a ≤ S50000x1x128.size a
  hwx4_1 : ∀ i : grid4.Coords, EltTy.bits .f32 = 32 ∨ (Rect.block (s := S50000x1x128) S1x1x128.size (cc4_transform_1 i) (hinb4_1 i)).WholeWords (EltTy.packing .f32)
  hrank5 : 0 < grid5.rank
  k5_off1_inb : ∀ i : grid5.Coords, ∀ a, (k5_off1 i) a + S1.size a ≤ S50000.size a
  hstage5_0 : ∀ j, (stage5_0 j).IsWhole
  nbuf5_0 : grid5.bufCount reads5_0 false = 2
  hreads5_0 : ∀ {F : FTy → Type} [FloatOps F] (pf : pre5.Contents (Elt F)) (i i' : grid5.Coords), (∀ a, reads5_0 a = true → i a = i' a) → cc5_transform_0 k5_off1_inb numel1_S1 pf i = cc5_transform_0 k5_off1_inb numel1_S1 pf i'
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x1x128.size a ≤ S50000x1x128.size a
  hwx5_1 : ∀ i : grid5.Coords, EltTy.bits .f32 = 32 ∨ (Rect.block (s := S50000x1x128) S1x1x128.size (cc5_transform_1 i) (hinb5_1 i)).WholeWords (EltTy.packing .f32)
  hrank6 : 0 < grid6.rank
  k6_off1_inb : ∀ i : grid6.Coords, ∀ a, (k6_off1 i) a + S1.size a ≤ S50000.size a
  hstage6_0 : ∀ j, (stage6_0 j).IsWhole
  nbuf6_0 : grid6.bufCount reads6_0 false = 2
  hreads6_0 : ∀ {F : FTy → Type} [FloatOps F] (pf : pre6.Contents (Elt F)) (i i' : grid6.Coords), (∀ a, reads6_0 a = true → i a = i' a) → cc6_transform_0 k6_off1_inb numel1_S1 pf i = cc6_transform_0 k6_off1_inb numel1_S1 pf i'
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x1x128.size a ≤ S50000x1x128.size a
  hwx6_1 : ∀ i : grid6.Coords, EltTy.bits .f32 = 32 ∨ (Rect.block (s := S50000x1x128) S1x1x128.size (cc6_transform_1 i) (hinb6_1 i)).WholeWords (EltTy.packing .f32)
  hrank7 : 0 < grid7.rank
  k7_off1_inb : ∀ i : grid7.Coords, ∀ a, (k7_off1 i) a + S1.size a ≤ S50000.size a
  hstage7_0 : ∀ j, (stage7_0 j).IsWhole
  nbuf7_0 : grid7.bufCount reads7_0 false = 2
  hreads7_0 : ∀ {F : FTy → Type} [FloatOps F] (pf : pre7.Contents (Elt F)) (i i' : grid7.Coords), (∀ a, reads7_0 a = true → i a = i' a) → cc7_transform_0 k7_off1_inb numel1_S1 pf i = cc7_transform_0 k7_off1_inb numel1_S1 pf i'
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x1x128.size a ≤ S50000x1x128.size a
  hwx7_1 : ∀ i : grid7.Coords, EltTy.bits .f32 = 32 ∨ (Rect.block (s := S50000x1x128) S1x1x128.size (cc7_transform_1 i) (hinb7_1 i)).WholeWords (EltTy.packing .f32)
  hrank8 : 0 < grid8.rank
  k8_off1_inb : ∀ i : grid8.Coords, ∀ a, (k8_off1 i) a + S1.size a ≤ S50000.size a
  hstage8_0 : ∀ j, (stage8_0 j).IsWhole
  nbuf8_0 : grid8.bufCount reads8_0 false = 2
  hreads8_0 : ∀ {F : FTy → Type} [FloatOps F] (pf : pre8.Contents (Elt F)) (i i' : grid8.Coords), (∀ a, reads8_0 a = true → i a = i' a) → cc8_transform_0 k8_off1_inb numel1_S1 pf i = cc8_transform_0 k8_off1_inb numel1_S1 pf i'
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x1x128.size a ≤ S50000x1x128.size a
  hwx8_1 : ∀ i : grid8.Coords, EltTy.bits .f32 = 32 ∨ (Rect.block (s := S50000x1x128) S1x1x128.size (cc8_transform_1 i) (hinb8_1 i)).WholeWords (EltTy.packing .f32)
  hrank9 : 0 < grid9.rank
  k9_off1_inb : ∀ i : grid9.Coords, ∀ a, (k9_off1 i) a + S1.size a ≤ S50000.size a
  hstage9_0 : ∀ j, (stage9_0 j).IsWhole
  nbuf9_0 : grid9.bufCount reads9_0 false = 2
  hreads9_0 : ∀ {F : FTy → Type} [FloatOps F] (pf : pre9.Contents (Elt F)) (i i' : grid9.Coords), (∀ a, reads9_0 a = true → i a = i' a) → cc9_transform_0 k9_off1_inb numel1_S1 pf i = cc9_transform_0 k9_off1_inb numel1_S1 pf i'
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1x1x128.size a ≤ S50000x1x128.size a
  hwx9_1 : ∀ i : grid9.Coords, EltTy.bits .f32 = 32 ∨ (Rect.block (s := S50000x1x128) S1x1x128.size (cc9_transform_1 i) (hinb9_1 i)).WholeWords (EltTy.packing .f32)
  hrank10 : 0 < grid10.rank
  k10_off1_inb : ∀ i : grid10.Coords, ∀ a, (k10_off1 i) a + S1.size a ≤ S50000.size a
  hstage10_0 : ∀ j, (stage10_0 j).IsWhole
  nbuf10_0 : grid10.bufCount reads10_0 false = 2
  hreads10_0 : ∀ {F : FTy → Type} [FloatOps F] (pf : pre10.Contents (Elt F)) (i i' : grid10.Coords), (∀ a, reads10_0 a = true → i a = i' a) → cc10_transform_0 k10_off1_inb numel1_S1 pf i = cc10_transform_0 k10_off1_inb numel1_S1 pf i'
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1x1x128.size a ≤ S50000x1x128.size a
  hwx10_1 : ∀ i : grid10.Coords, EltTy.bits .f32 = 32 ∨ (Rect.block (s := S50000x1x128) S1x1x128.size (cc10_transform_1 i) (hinb10_1 i)).WholeWords (EltTy.packing .f32)
  hrank11 : 0 < grid11.rank
  k11_off1_inb : ∀ i : grid11.Coords, ∀ a, (k11_off1 i) a + S1.size a ≤ S50000.size a
  hstage11_0 : ∀ j, (stage11_0 j).IsWhole
  nbuf11_0 : grid11.bufCount reads11_0 false = 2
  hreads11_0 : ∀ {F : FTy → Type} [FloatOps F] (pf : pre11.Contents (Elt F)) (i i' : grid11.Coords), (∀ a, reads11_0 a = true → i a = i' a) → cc11_transform_0 k11_off1_inb numel1_S1 pf i = cc11_transform_0 k11_off1_inb numel1_S1 pf i'
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1x1x128.size a ≤ S50000x1x128.size a
  hwx11_1 : ∀ i : grid11.Coords, EltTy.bits .f32 = 32 ∨ (Rect.block (s := S50000x1x128) S1x1x128.size (cc11_transform_1 i) (hinb11_1 i)).WholeWords (EltTy.packing .f32)
  hrank12 : 0 < grid12.rank
  k12_off1_inb : ∀ i : grid12.Coords, ∀ a, (k12_off1 i) a + S1.size a ≤ S50000.size a
  hstage12_0 : ∀ j, (stage12_0 j).IsWhole
  nbuf12_0 : grid12.bufCount reads12_0 false = 2
  hreads12_0 : ∀ {F : FTy → Type} [FloatOps F] (pf : pre12.Contents (Elt F)) (i i' : grid12.Coords), (∀ a, reads12_0 a = true → i a = i' a) → cc12_transform_0 k12_off1_inb numel1_S1 pf i = cc12_transform_0 k12_off1_inb numel1_S1 pf i'
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S1x1x128.size a ≤ S50000x1x128.size a
  hwx12_1 : ∀ i : grid12.Coords, EltTy.bits .f32 = 32 ∨ (Rect.block (s := S50000x1x128) S1x1x128.size (cc12_transform_1 i) (hinb12_1 i)).WholeWords (EltTy.packing .f32)
  hrank13 : 0 < grid13.rank
  k13_off1_inb : ∀ i : grid13.Coords, ∀ a, (k13_off1 i) a + S1.size a ≤ S50000.size a
  hstage13_0 : ∀ j, (stage13_0 j).IsWhole
  nbuf13_0 : grid13.bufCount reads13_0 false = 2
  hreads13_0 : ∀ {F : FTy → Type} [FloatOps F] (pf : pre13.Contents (Elt F)) (i i' : grid13.Coords), (∀ a, reads13_0 a = true → i a = i' a) → cc13_transform_0 k13_off1_inb numel1_S1 pf i = cc13_transform_0 k13_off1_inb numel1_S1 pf i'
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S1x1x128.size a ≤ S50000x1x128.size a
  hwx13_1 : ∀ i : grid13.Coords, EltTy.bits .f32 = 32 ∨ (Rect.block (s := S50000x1x128) S1x1x128.size (cc13_transform_1 i) (hinb13_1 i)).WholeWords (EltTy.packing .f32)
  hrank14 : 0 < grid14.rank
  k14_off1_inb : ∀ i : grid14.Coords, ∀ a, (k14_off1 i) a + S1.size a ≤ S50000.size a
  hstage14_0 : ∀ j, (stage14_0 j).IsWhole
  nbuf14_0 : grid14.bufCount reads14_0 false = 2
  hreads14_0 : ∀ {F : FTy → Type} [FloatOps F] (pf : pre14.Contents (Elt F)) (i i' : grid14.Coords), (∀ a, reads14_0 a = true → i a = i' a) → cc14_transform_0 k14_off1_inb numel1_S1 pf i = cc14_transform_0 k14_off1_inb numel1_S1 pf i'
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S1x1x128.size a ≤ S50000x1x128.size a
  hwx14_1 : ∀ i : grid14.Coords, EltTy.bits .f32 = 32 ∨ (Rect.block (s := S50000x1x128) S1x1x128.size (cc14_transform_1 i) (hinb14_1 i)).WholeWords (EltTy.packing .f32)
  hrank15 : 0 < grid15.rank
  k15_off1_inb : ∀ i : grid15.Coords, ∀ a, (k15_off1 i) a + S1.size a ≤ S50000.size a
  hstage15_0 : ∀ j, (stage15_0 j).IsWhole
  nbuf15_0 : grid15.bufCount reads15_0 false = 2
  hreads15_0 : ∀ {F : FTy → Type} [FloatOps F] (pf : pre15.Contents (Elt F)) (i i' : grid15.Coords), (∀ a, reads15_0 a = true → i a = i' a) → cc15_transform_0 k15_off1_inb numel1_S1 pf i = cc15_transform_0 k15_off1_inb numel1_S1 pf i'
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S1x1x128.size a ≤ S50000x1x128.size a
  hwx15_1 : ∀ i : grid15.Coords, EltTy.bits .f32 = 32 ∨ (Rect.block (s := S50000x1x128) S1x1x128.size (cc15_transform_1 i) (hinb15_1 i)).WholeWords (EltTy.packing .f32)
  hrank16 : 0 < grid16.rank
  k16_off1_inb : ∀ i : grid16.Coords, ∀ a, (k16_off1 i) a + S1.size a ≤ S50000.size a
  hstage16_0 : ∀ j, (stage16_0 j).IsWhole
  nbuf16_0 : grid16.bufCount reads16_0 false = 2
  hreads16_0 : ∀ {F : FTy → Type} [FloatOps F] (pf : pre16.Contents (Elt F)) (i i' : grid16.Coords), (∀ a, reads16_0 a = true → i a = i' a) → cc16_transform_0 k16_off1_inb numel1_S1 pf i = cc16_transform_0 k16_off1_inb numel1_S1 pf i'
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S1x1x128.size a ≤ S50000x1x128.size a
  hwx16_1 : ∀ i : grid16.Coords, EltTy.bits .f32 = 32 ∨ (Rect.block (s := S50000x1x128) S1x1x128.size (cc16_transform_1 i) (hinb16_1 i)).WholeWords (EltTy.packing .f32)
  hrank17 : 0 < grid17.rank
  k17_off1_inb : ∀ i : grid17.Coords, ∀ a, (k17_off1 i) a + S1.size a ≤ S50000.size a
  hstage17_0 : ∀ j, (stage17_0 j).IsWhole
  nbuf17_0 : grid17.bufCount reads17_0 false = 2
  hreads17_0 : ∀ {F : FTy → Type} [FloatOps F] (pf : pre17.Contents (Elt F)) (i i' : grid17.Coords), (∀ a, reads17_0 a = true → i a = i' a) → cc17_transform_0 k17_off1_inb numel1_S1 pf i = cc17_transform_0 k17_off1_inb numel1_S1 pf i'
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S1x1x128.size a ≤ S50000x1x128.size a
  hwx17_1 : ∀ i : grid17.Coords, EltTy.bits .f32 = 32 ∨ (Rect.block (s := S50000x1x128) S1x1x128.size (cc17_transform_1 i) (hinb17_1 i)).WholeWords (EltTy.packing .f32)
  hrank18 : 0 < grid18.rank
  k18_off1_inb : ∀ i : grid18.Coords, ∀ a, (k18_off1 i) a + S1.size a ≤ S50000.size a
  hstage18_0 : ∀ j, (stage18_0 j).IsWhole
  nbuf18_0 : grid18.bufCount reads18_0 false = 2
  hreads18_0 : ∀ {F : FTy → Type} [FloatOps F] (pf : pre18.Contents (Elt F)) (i i' : grid18.Coords), (∀ a, reads18_0 a = true → i a = i' a) → cc18_transform_0 k18_off1_inb numel1_S1 pf i = cc18_transform_0 k18_off1_inb numel1_S1 pf i'
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S1x1x128.size a ≤ S50000x1x128.size a
  hwx18_1 : ∀ i : grid18.Coords, EltTy.bits .f32 = 32 ∨ (Rect.block (s := S50000x1x128) S1x1x128.size (cc18_transform_1 i) (hinb18_1 i)).WholeWords (EltTy.packing .f32)
  hrank19 : 0 < grid19.rank
  k19_off1_inb : ∀ i : grid19.Coords, ∀ a, (k19_off1 i) a + S1.size a ≤ S50000.size a
  hstage19_0 : ∀ j, (stage19_0 j).IsWhole
  nbuf19_0 : grid19.bufCount reads19_0 false = 2
  hreads19_0 : ∀ {F : FTy → Type} [FloatOps F] (pf : pre19.Contents (Elt F)) (i i' : grid19.Coords), (∀ a, reads19_0 a = true → i a = i' a) → cc19_transform_0 k19_off1_inb numel1_S1 pf i = cc19_transform_0 k19_off1_inb numel1_S1 pf i'
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S1x1x128.size a ≤ S50000x1x128.size a
  hwx19_1 : ∀ i : grid19.Coords, EltTy.bits .f32 = 32 ∨ (Rect.block (s := S50000x1x128) S1x1x128.size (cc19_transform_1 i) (hinb19_1 i)).WholeWords (EltTy.packing .f32)
  hrank20 : 0 < grid20.rank
  k20_off1_inb : ∀ i : grid20.Coords, ∀ a, (k20_off1 i) a + S1.size a ≤ S50000.size a
  hstage20_0 : ∀ j, (stage20_0 j).IsWhole
  nbuf20_0 : grid20.bufCount reads20_0 false = 2
  hreads20_0 : ∀ {F : FTy → Type} [FloatOps F] (pf : pre20.Contents (Elt F)) (i i' : grid20.Coords), (∀ a, reads20_0 a = true → i a = i' a) → cc20_transform_0 k20_off1_inb numel1_S1 pf i = cc20_transform_0 k20_off1_inb numel1_S1 pf i'
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S1x1x128.size a ≤ S50000x1x128.size a
  hwx20_1 : ∀ i : grid20.Coords, EltTy.bits .f32 = 32 ∨ (Rect.block (s := S50000x1x128) S1x1x128.size (cc20_transform_1 i) (hinb20_1 i)).WholeWords (EltTy.packing .f32)
  hrank21 : 0 < grid21.rank
  k21_off1_inb : ∀ i : grid21.Coords, ∀ a, (k21_off1 i) a + S1.size a ≤ S50000.size a
  hstage21_0 : ∀ j, (stage21_0 j).IsWhole
  nbuf21_0 : grid21.bufCount reads21_0 false = 2
  hreads21_0 : ∀ {F : FTy → Type} [FloatOps F] (pf : pre21.Contents (Elt F)) (i i' : grid21.Coords), (∀ a, reads21_0 a = true → i a = i' a) → cc21_transform_0 k21_off1_inb numel1_S1 pf i = cc21_transform_0 k21_off1_inb numel1_S1 pf i'
  hstage21_1 : ∀ j, (stage21_1 j).IsWhole
  nbuf21_1 : grid21.bufCount reads21_1 false = 2
  hreads21_1 : ∀ i i' : grid21.Coords, (∀ a, reads21_1 a = true → i a = i' a) → cc21_transform_1 i = cc21_transform_1 i'
  hinb21_1 : ∀ (i : grid21.Coords) a, (cc21_transform_1 i a + 1) * S1x1x128.size a ≤ S50000x1x128.size a
  hwx21_1 : ∀ i : grid21.Coords, EltTy.bits .f32 = 32 ∨ (Rect.block (s := S50000x1x128) S1x1x128.size (cc21_transform_1 i) (hinb21_1 i)).WholeWords (EltTy.packing .f32)
  hrank22 : 0 < grid22.rank
  k22_off1_inb : ∀ i : grid22.Coords, ∀ a, (k22_off1 i) a + S1.size a ≤ S50000.size a
  hstage22_0 : ∀ j, (stage22_0 j).IsWhole
  nbuf22_0 : grid22.bufCount reads22_0 false = 2
  hreads22_0 : ∀ {F : FTy → Type} [FloatOps F] (pf : pre22.Contents (Elt F)) (i i' : grid22.Coords), (∀ a, reads22_0 a = true → i a = i' a) → cc22_transform_0 k22_off1_inb numel1_S1 pf i = cc22_transform_0 k22_off1_inb numel1_S1 pf i'
  hstage22_1 : ∀ j, (stage22_1 j).IsWhole
  nbuf22_1 : grid22.bufCount reads22_1 false = 2
  hreads22_1 : ∀ i i' : grid22.Coords, (∀ a, reads22_1 a = true → i a = i' a) → cc22_transform_1 i = cc22_transform_1 i'
  hinb22_1 : ∀ (i : grid22.Coords) a, (cc22_transform_1 i a + 1) * S1x1x128.size a ≤ S50000x1x128.size a
  hwx22_1 : ∀ i : grid22.Coords, EltTy.bits .f32 = 32 ∨ (Rect.block (s := S50000x1x128) S1x1x128.size (cc22_transform_1 i) (hinb22_1 i)).WholeWords (EltTy.packing .f32)
  hrank23 : 0 < grid23.rank
  k23_off1_inb : ∀ i : grid23.Coords, ∀ a, (k23_off1 i) a + S1.size a ≤ S50000.size a
  hstage23_0 : ∀ j, (stage23_0 j).IsWhole
  nbuf23_0 : grid23.bufCount reads23_0 false = 2
  hreads23_0 : ∀ {F : FTy → Type} [FloatOps F] (pf : pre23.Contents (Elt F)) (i i' : grid23.Coords), (∀ a, reads23_0 a = true → i a = i' a) → cc23_transform_0 k23_off1_inb numel1_S1 pf i = cc23_transform_0 k23_off1_inb numel1_S1 pf i'
  hstage23_1 : ∀ j, (stage23_1 j).IsWhole
  nbuf23_1 : grid23.bufCount reads23_1 false = 2
  hreads23_1 : ∀ i i' : grid23.Coords, (∀ a, reads23_1 a = true → i a = i' a) → cc23_transform_1 i = cc23_transform_1 i'
  hinb23_1 : ∀ (i : grid23.Coords) a, (cc23_transform_1 i a + 1) * S1x1x128.size a ≤ S50000x1x128.size a
  hwx23_1 : ∀ i : grid23.Coords, EltTy.bits .f32 = 32 ∨ (Rect.block (s := S50000x1x128) S1x1x128.size (cc23_transform_1 i) (hinb23_1 i)).WholeWords (EltTy.packing .f32)
  hrank24 : 0 < grid24.rank
  k24_off1_inb : ∀ i : grid24.Coords, ∀ a, (k24_off1 i) a + S1.size a ≤ S50000.size a
  hstage24_0 : ∀ j, (stage24_0 j).IsWhole
  nbuf24_0 : grid24.bufCount reads24_0 false = 2
  hreads24_0 : ∀ {F : FTy → Type} [FloatOps F] (pf : pre24.Contents (Elt F)) (i i' : grid24.Coords), (∀ a, reads24_0 a = true → i a = i' a) → cc24_transform_0 k24_off1_inb numel1_S1 pf i = cc24_transform_0 k24_off1_inb numel1_S1 pf i'
  hstage24_1 : ∀ j, (stage24_1 j).IsWhole
  nbuf24_1 : grid24.bufCount reads24_1 false = 2
  hreads24_1 : ∀ i i' : grid24.Coords, (∀ a, reads24_1 a = true → i a = i' a) → cc24_transform_1 i = cc24_transform_1 i'
  hinb24_1 : ∀ (i : grid24.Coords) a, (cc24_transform_1 i a + 1) * S1x1x128.size a ≤ S50000x1x128.size a
  hwx24_1 : ∀ i : grid24.Coords, EltTy.bits .f32 = 32 ∨ (Rect.block (s := S50000x1x128) S1x1x128.size (cc24_transform_1 i) (hinb24_1 i)).WholeWords (EltTy.packing .f32)
  hrank25 : 0 < grid25.rank
  k25_off1_inb : ∀ i : grid25.Coords, ∀ a, (k25_off1 i) a + S1.size a ≤ S50000.size a
  hstage25_0 : ∀ j, (stage25_0 j).IsWhole
  nbuf25_0 : grid25.bufCount reads25_0 false = 2
  hreads25_0 : ∀ {F : FTy → Type} [FloatOps F] (pf : pre25.Contents (Elt F)) (i i' : grid25.Coords), (∀ a, reads25_0 a = true → i a = i' a) → cc25_transform_0 k25_off1_inb numel1_S1 pf i = cc25_transform_0 k25_off1_inb numel1_S1 pf i'
  hstage25_1 : ∀ j, (stage25_1 j).IsWhole
  nbuf25_1 : grid25.bufCount reads25_1 false = 2
  hreads25_1 : ∀ i i' : grid25.Coords, (∀ a, reads25_1 a = true → i a = i' a) → cc25_transform_1 i = cc25_transform_1 i'
  hinb25_1 : ∀ (i : grid25.Coords) a, (cc25_transform_1 i a + 1) * S1x1x128.size a ≤ S50000x1x128.size a
  hwx25_1 : ∀ i : grid25.Coords, EltTy.bits .f32 = 32 ∨ (Rect.block (s := S50000x1x128) S1x1x128.size (cc25_transform_1 i) (hinb25_1 i)).WholeWords (EltTy.packing .f32)
  hrank26 : 0 < grid26.rank
  k26_off1_inb : ∀ i : grid26.Coords, ∀ a, (k26_off1 i) a + S1.size a ≤ S50000.size a
  hstage26_0 : ∀ j, (stage26_0 j).IsWhole
  nbuf26_0 : grid26.bufCount reads26_0 false = 2
  hreads26_0 : ∀ {F : FTy → Type} [FloatOps F] (pf : pre26.Contents (Elt F)) (i i' : grid26.Coords), (∀ a, reads26_0 a = true → i a = i' a) → cc26_transform_0 k26_off1_inb numel1_S1 pf i = cc26_transform_0 k26_off1_inb numel1_S1 pf i'
  hstage26_1 : ∀ j, (stage26_1 j).IsWhole
  nbuf26_1 : grid26.bufCount reads26_1 false = 2
  hreads26_1 : ∀ i i' : grid26.Coords, (∀ a, reads26_1 a = true → i a = i' a) → cc26_transform_1 i = cc26_transform_1 i'
  hinb26_1 : ∀ (i : grid26.Coords) a, (cc26_transform_1 i a + 1) * S1x1x128.size a ≤ S50000x1x128.size a
  hwx26_1 : ∀ i : grid26.Coords, EltTy.bits .f32 = 32 ∨ (Rect.block (s := S50000x1x128) S1x1x128.size (cc26_transform_1 i) (hinb26_1 i)).WholeWords (EltTy.packing .f32)
  hrank27 : 0 < grid27.rank
  k27_off1_inb : ∀ i : grid27.Coords, ∀ a, (k27_off1 i) a + S1.size a ≤ S50000.size a
  hstage27_0 : ∀ j, (stage27_0 j).IsWhole
  nbuf27_0 : grid27.bufCount reads27_0 false = 2
  hreads27_0 : ∀ {F : FTy → Type} [FloatOps F] (pf : pre27.Contents (Elt F)) (i i' : grid27.Coords), (∀ a, reads27_0 a = true → i a = i' a) → cc27_transform_0 k27_off1_inb numel1_S1 pf i = cc27_transform_0 k27_off1_inb numel1_S1 pf i'
  hstage27_1 : ∀ j, (stage27_1 j).IsWhole
  nbuf27_1 : grid27.bufCount reads27_1 false = 2
  hreads27_1 : ∀ i i' : grid27.Coords, (∀ a, reads27_1 a = true → i a = i' a) → cc27_transform_1 i = cc27_transform_1 i'
  hinb27_1 : ∀ (i : grid27.Coords) a, (cc27_transform_1 i a + 1) * S1x1x128.size a ≤ S50000x1x128.size a
  hwx27_1 : ∀ i : grid27.Coords, EltTy.bits .f32 = 32 ∨ (Rect.block (s := S50000x1x128) S1x1x128.size (cc27_transform_1 i) (hinb27_1 i)).WholeWords (EltTy.packing .f32)
  hrank28 : 0 < grid28.rank
  k28_off1_inb : ∀ i : grid28.Coords, ∀ a, (k28_off1 i) a + S1.size a ≤ S50000.size a
  hstage28_0 : ∀ j, (stage28_0 j).IsWhole
  nbuf28_0 : grid28.bufCount reads28_0 false = 2
  hreads28_0 : ∀ {F : FTy → Type} [FloatOps F] (pf : pre28.Contents (Elt F)) (i i' : grid28.Coords), (∀ a, reads28_0 a = true → i a = i' a) → cc28_transform_0 k28_off1_inb numel1_S1 pf i = cc28_transform_0 k28_off1_inb numel1_S1 pf i'
  hstage28_1 : ∀ j, (stage28_1 j).IsWhole
  nbuf28_1 : grid28.bufCount reads28_1 false = 2
  hreads28_1 : ∀ i i' : grid28.Coords, (∀ a, reads28_1 a = true → i a = i' a) → cc28_transform_1 i = cc28_transform_1 i'
  hinb28_1 : ∀ (i : grid28.Coords) a, (cc28_transform_1 i a + 1) * S1x1x128.size a ≤ S50000x1x128.size a
  hwx28_1 : ∀ i : grid28.Coords, EltTy.bits .f32 = 32 ∨ (Rect.block (s := S50000x1x128) S1x1x128.size (cc28_transform_1 i) (hinb28_1 i)).WholeWords (EltTy.packing .f32)
  hrank29 : 0 < grid29.rank
  k29_off1_inb : ∀ i : grid29.Coords, ∀ a, (k29_off1 i) a + S1.size a ≤ S50000.size a
  hstage29_0 : ∀ j, (stage29_0 j).IsWhole
  nbuf29_0 : grid29.bufCount reads29_0 false = 2
  hreads29_0 : ∀ {F : FTy → Type} [FloatOps F] (pf : pre29.Contents (Elt F)) (i i' : grid29.Coords), (∀ a, reads29_0 a = true → i a = i' a) → cc29_transform_0 k29_off1_inb numel1_S1 pf i = cc29_transform_0 k29_off1_inb numel1_S1 pf i'
  hstage29_1 : ∀ j, (stage29_1 j).IsWhole
  nbuf29_1 : grid29.bufCount reads29_1 false = 2
  hreads29_1 : ∀ i i' : grid29.Coords, (∀ a, reads29_1 a = true → i a = i' a) → cc29_transform_1 i = cc29_transform_1 i'
  hinb29_1 : ∀ (i : grid29.Coords) a, (cc29_transform_1 i a + 1) * S1x1x128.size a ≤ S50000x1x128.size a
  hwx29_1 : ∀ i : grid29.Coords, EltTy.bits .f32 = 32 ∨ (Rect.block (s := S50000x1x128) S1x1x128.size (cc29_transform_1 i) (hinb29_1 i)).WholeWords (EltTy.packing .f32)
  hrank30 : 0 < grid30.rank
  k30_off1_inb : ∀ i : grid30.Coords, ∀ a, (k30_off1 i) a + S1.size a ≤ S50000.size a
  hstage30_0 : ∀ j, (stage30_0 j).IsWhole
  nbuf30_0 : grid30.bufCount reads30_0 false = 2
  hreads30_0 : ∀ {F : FTy → Type} [FloatOps F] (pf : pre30.Contents (Elt F)) (i i' : grid30.Coords), (∀ a, reads30_0 a = true → i a = i' a) → cc30_transform_0 k30_off1_inb numel1_S1 pf i = cc30_transform_0 k30_off1_inb numel1_S1 pf i'
  hstage30_1 : ∀ j, (stage30_1 j).IsWhole
  nbuf30_1 : grid30.bufCount reads30_1 false = 2
  hreads30_1 : ∀ i i' : grid30.Coords, (∀ a, reads30_1 a = true → i a = i' a) → cc30_transform_1 i = cc30_transform_1 i'
  hinb30_1 : ∀ (i : grid30.Coords) a, (cc30_transform_1 i a + 1) * S1x1x128.size a ≤ S50000x1x128.size a
  hwx30_1 : ∀ i : grid30.Coords, EltTy.bits .f32 = 32 ∨ (Rect.block (s := S50000x1x128) S1x1x128.size (cc30_transform_1 i) (hinb30_1 i)).WholeWords (EltTy.packing .f32)
  hrank31 : 0 < grid31.rank
  k31_off1_inb : ∀ i : grid31.Coords, ∀ a, (k31_off1 i) a + S1.size a ≤ S50000.size a
  hstage31_0 : ∀ j, (stage31_0 j).IsWhole
  nbuf31_0 : grid31.bufCount reads31_0 false = 2
  hreads31_0 : ∀ {F : FTy → Type} [FloatOps F] (pf : pre31.Contents (Elt F)) (i i' : grid31.Coords), (∀ a, reads31_0 a = true → i a = i' a) → cc31_transform_0 k31_off1_inb numel1_S1 pf i = cc31_transform_0 k31_off1_inb numel1_S1 pf i'
  hstage31_1 : ∀ j, (stage31_1 j).IsWhole
  nbuf31_1 : grid31.bufCount reads31_1 false = 2
  hreads31_1 : ∀ i i' : grid31.Coords, (∀ a, reads31_1 a = true → i a = i' a) → cc31_transform_1 i = cc31_transform_1 i'
  hinb31_1 : ∀ (i : grid31.Coords) a, (cc31_transform_1 i a + 1) * S1x1x128.size a ≤ S50000x1x128.size a
  hwx31_1 : ∀ i : grid31.Coords, EltTy.bits .f32 = 32 ∨ (Rect.block (s := S50000x1x128) S1x1x128.size (cc31_transform_1 i) (hinb31_1 i)).WholeWords (EltTy.packing .f32)
  hrank32 : 0 < grid32.rank
  hstage32_0 : ∀ j, (stage32_0 j).IsWhole
  nbuf32_0 : grid32.bufCount reads32_0 false = 2
  hreads32_0 : ∀ i i' : grid32.Coords, (∀ a, reads32_0 a = true → i a = i' a) → cc32_transform_0 i = cc32_transform_0 i'
  hinb32_0 : ∀ (i : grid32.Coords) a, (cc32_transform_0 i a + 1) * S1000x128.size a ≤ S100000x128.size a
  hwx32_0 : ∀ i : grid32.Coords, EltTy.bits .f32 = 32 ∨ (Rect.block (s := S100000x128) S1000x128.size (cc32_transform_0 i) (hinb32_0 i)).WholeWords (EltTy.packing .f32)
  hstage32_1 : ∀ j, (stage32_1 j).IsWhole
  nbuf32_1 : grid32.bufCount reads32_1 false = 2
  hreads32_1 : ∀ i i' : grid32.Coords, (∀ a, reads32_1 a = true → i a = i' a) → cc32_transform_1 i = cc32_transform_1 i'
  hinb32_1 : ∀ (i : grid32.Coords) a, (cc32_transform_1 i a + 1) * S1000x1.size a ≤ S100000x1.size a
  hwx32_1 : ∀ i : grid32.Coords, EltTy.bits .f32 = 32 ∨ (Rect.block (s := S100000x1) S1000x1.size (cc32_transform_1 i) (hinb32_1 i)).WholeWords (EltTy.packing .f32)
  hstage32_2 : ∀ j, (stage32_2 j).IsWhole
  nbuf32_2 : grid32.bufCount reads32_2 true = 1
  hreads32_2 : ∀ i i' : grid32.Coords, (∀ a, reads32_2 a = true → i a = i' a) → cc32_transform_2 i = cc32_transform_2 i'
  hinb32_2 : ∀ (i : grid32.Coords) a, (cc32_transform_2 i a + 1) * S128x128.size a ≤ S128x128.size a
  hwx32_2 : ∀ i : grid32.Coords, EltTy.bits .f32 = 32 ∨ (Rect.block (s := S128x128) S128x128.size (cc32_transform_2 i) (hinb32_2 i)).WholeWords (EltTy.packing .f32)
  hstage32_3 : ∀ j, (stage32_3 j).IsWhole
  nbuf32_3 : grid32.bufCount reads32_3 false = 2
  hreads32_3 : ∀ i i' : grid32.Coords, (∀ a, reads32_3 a = true → i a = i' a) → cc32_transform_3 i = cc32_transform_3 i'
  hinb32_3 : ∀ (i : grid32.Coords) a, (cc32_transform_3 i a + 1) * S1000x128.size a ≤ S100000x128.size a
  hwx32_3 : ∀ i : grid32.Coords, EltTy.bits .f32 = 32 ∨ (Rect.block (s := S100000x128) S1000x128.size (cc32_transform_3 i) (hinb32_3 i)).WholeWords (EltTy.packing .f32)

variable [Facts₀]

def scatter_S100000x128_S50000x1_S50000x128_1_0_0_1 : ScatterDims S100000x128 S50000x1 S50000x128 where
  updateWindowDims := [1]
  insertedWindowDims := [0]
  scatterDimsToOperandDims := [0]
  indexVectorDim := 1
  wf := scatter_S100000x128_S50000x1_S50000x128_1_0_0_1_wf
def scatter_S100000_S50000x1_S50000_n_0_0_1 : ScatterDims S100000 S50000x1 S50000 where
  updateWindowDims := []
  insertedWindowDims := [0]
  scatterDimsToOperandDims := [0]
  indexVectorDim := 1
  wf := scatter_S100000_S50000x1_S50000_n_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev spec0_0 : Pipeline.WinSpec sig grid0.rank :=
  Pipeline.WinSpec.ofSpec (Memref.whole main_v9) S1x1x128.size reads0_0 false false 2 stage0_0 sem0_0 nbuf0_0 hstage0_0

abbrev spec0_1 : Pipeline.WinSpec sig grid0.rank :=
  Pipeline.WinSpec.ofSpec (Memref.whole main_v10) S1x1x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 k0_off1_inb numel1_S1 pf | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | ⟨_ + 2, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x128.size a ≤ S100000x1x128.size a), EltTy.bits .f32 = 32 ∨ (Rect.block (s := S100000x1x128) S1x1x128.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | ⟨_ + 2, h⟩ => absurd h (Nat.not_lt.2 (Nat.le_add_left _ _))
abbrev spec1_0 : Pipeline.WinSpec sig grid1.rank :=
  Pipeline.WinSpec.ofSpec (Memref.whole main_v22) S1x1x128.size reads1_0 false false 2 stage1_0 sem1_0 nbuf1_0 hstage1_0

abbrev spec1_1 : Pipeline.WinSpec sig grid1.rank :=
  Pipeline.WinSpec.ofSpec (Memref.whole main_v23) S1x1x128.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_0 k1_off1_inb numel1_S1 pf | 1 => cc1_transform_1 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 | ⟨_ + 2, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x128.size a ≤ S100000x1x128.size a), EltTy.bits .f32 = 32 ∨ (Rect.block (s := S100000x1x128) S1x1x128.size (cc1_transform_0 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok i).elim fun h _ => h a | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok i).elim fun _ h => h | 1 => hwx1_1 | ⟨_ + 2, h⟩ => absurd h (Nat.not_lt.2 (Nat.le_add_left _ _))
abbrev spec2_0 : Pipeline.WinSpec sig grid2.rank :=
  Pipeline.WinSpec.ofSpec (Memref.whole main_v35) S1x1x128.size reads2_0 false false 2 stage2_0 sem2_0 nbuf2_0 hstage2_0

abbrev spec2_1 : Pipeline.WinSpec sig grid2.rank :=
  Pipeline.WinSpec.ofSpec (Memref.whole main_v36) S1x1x128.size reads2_1 true false 2 stage2_1 sem2_1 nbuf2_1 hstage2_1

abbrev spec2 : Fin 2 → Pipeline.WinSpec sig grid2.rank := fun | 0 => spec2_0 | 1 => spec2_1 | ⟨_ + 2, h⟩ => absurd h (Nat.not_lt.2 (Nat.le_add_left _ _))
theorem hcount2 : ∀ w, grid2.bufCount (spec2 w).reads (spec2 w).sync = (spec2 w).nbuf := fun | 0 => nbuf2_0 | 1 => nbuf2_1 | ⟨_ + 2, h⟩ => absurd h (Nat.not_lt.2 (Nat.le_add_left _ _))
abbrev ix2 (pf : pre2.Contents (Elt F)) : (w : Fin 2) → grid2.Coords → Fin (spec2 w).shape.rank → Nat := fun | 0 => cc2_transform_0 k2_off1_inb numel1_S1 pf | 1 => cc2_transform_1 | ⟨_ + 2, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 | ⟨_ + 2, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x128.size a ≤ S100000x1x128.size a), EltTy.bits .f32 = 32 ∨ (Rect.block (s := S100000x1x128) S1x1x128.size (cc2_transform_0 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok i).elim fun h _ => h a | 1 => hinb2_1 | ⟨_ + 2, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok i).elim fun _ h => h | 1 => hwx2_1 | ⟨_ + 2, h⟩ => absurd h (Nat.not_lt.2 (Nat.le_add_left _ _))
abbrev spec3_0 : Pipeline.WinSpec sig grid3.rank :=
  Pipeline.WinSpec.ofSpec (Memref.whole main_v48) S1x1x128.size reads3_0 false false 2 stage3_0 sem3_0 nbuf3_0 hstage3_0

abbrev spec3_1 : Pipeline.WinSpec sig grid3.rank :=
  Pipeline.WinSpec.ofSpec (Memref.whole main_v49) S1x1x128.size reads3_1 true false 2 stage3_1 sem3_1 nbuf3_1 hstage3_1

abbrev spec3 : Fin 2 → Pipeline.WinSpec sig grid3.rank := fun | 0 => spec3_0 | 1 => spec3_1 | ⟨_ + 2, h⟩ => absurd h (Nat.not_lt.2 (Nat.le_add_left _ _))
theorem hcount3 : ∀ w, grid3.bufCount (spec3 w).reads (spec3 w).sync = (spec3 w).nbuf := fun | 0 => nbuf3_0 | 1 => nbuf3_1 | ⟨_ + 2, h⟩ => absurd h (Nat.not_lt.2 (Nat.le_add_left _ _))
abbrev ix3 (pf : pre3.Contents (Elt F)) : (w : Fin 2) → grid3.Coords → Fin (spec3 w).shape.rank → Nat := fun | 0 => cc3_transform_0 k3_off1_inb numel1_S1 pf | 1 => cc3_transform_1 | ⟨_ + 2, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 | ⟨_ + 2, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x128.size a ≤ S100000x1x128.size a), EltTy.bits .f32 = 32 ∨ (Rect.block (s := S100000x1x128) S1x1x128.size (cc3_transform_0 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok i).elim fun h _ => h a | 1 => hinb3_1 | ⟨_ + 2, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok i).elim fun _ h => h | 1 => hwx3_1 | ⟨_ + 2, h⟩ => absurd h (Nat.not_lt.2 (Nat.le_add_left _ _))
abbrev spec4_0 : Pipeline.WinSpec sig grid4.rank :=
  Pipeline.WinSpec.ofSpec (Memref.whole main_v61) S1x1x128.size reads4_0 false false 2 stage4_0 sem4_0 nbuf4_0 hstage4_0

abbrev spec4_1 : Pipeline.WinSpec sig grid4.rank :=
  Pipeline.WinSpec.ofSpec (Memref.whole main_v62) S1x1x128.size reads4_1 true false 2 stage4_1 sem4_1 nbuf4_1 hstage4_1

abbrev spec4 : Fin 2 → Pipeline.WinSpec sig grid4.rank := fun | 0 => spec4_0 | 1 => spec4_1 | ⟨_ + 2, h⟩ => absurd h (Nat.not_lt.2 (Nat.le_add_left _ _))
theorem hcount4 : ∀ w, grid4.bufCount (spec4 w).reads (spec4 w).sync = (spec4 w).nbuf := fun | 0 => nbuf4_0 | 1 => nbuf4_1 | ⟨_ + 2, h⟩ => absurd h (Nat.not_lt.2 (Nat.le_add_left _ _))
abbrev ix4 (pf : pre4.Contents (Elt F)) : (w : Fin 2) → grid4.Coords → Fin (spec4 w).shape.rank → Nat := fun | 0 => cc4_transform_0 k4_off1_inb numel1_S1 pf | 1 => cc4_transform_1 | ⟨_ + 2, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 pf | 1 => hreads4_1 | ⟨_ + 2, h⟩ => absurd h (Nat.not_lt.2 (Nat.le_add_left _ _))
def ok4 (pf : pre4.Contents (Elt F)) : Prop :=
  (∀ i : grid4.Coords, ∃ h : (∀ a, (cc4_transform_0 k4_off1_inb numel1_S1 pf i a + 1) * S1x1x128.size a ≤ S100000x1x128.size a), EltTy.bits .f32 = 32 ∨ (Rect.block (s := S100000x1x128) S1x1x128.size (cc4_transform_0 k4_off1_inb numel1_S1 pf i) h).WholeWords (EltTy.packing .f32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => fun i a => (hok i).elim fun h _ => h a | 1 => hinb4_1 | ⟨_ + 2, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => fun i => (hok i).elim fun _ h => h | 1 => hwx4_1 | ⟨_ + 2, h⟩ => absurd h (Nat.not_lt.2 (Nat.le_add_left _ _))
abbrev spec5_0 : Pipeline.WinSpec sig grid5.rank :=
  Pipeline.WinSpec.ofSpec (Memref.whole main_v74) S1x1x128.size reads5_0 false false 2 stage5_0 sem5_0 nbuf5_0 hstage5_0

abbrev spec5_1 : Pipeline.WinSpec sig grid5.rank :=
  Pipeline.WinSpec.ofSpec (Memref.whole main_v75) S1x1x128.size reads5_1 true false 2 stage5_1 sem5_1 nbuf5_1 hstage5_1

abbrev spec5 : Fin 2 → Pipeline.WinSpec sig grid5.rank := fun | 0 => spec5_0 | 1 => spec5_1 | ⟨_ + 2, h⟩ => absurd h (Nat.not_lt.2 (Nat.le_add_left _ _))
theorem hcount5 : ∀ w, grid5.bufCount (spec5 w).reads (spec5 w).sync = (spec5 w).nbuf := fun | 0 => nbuf5_0 | 1 => nbuf5_1 | ⟨_ + 2, h⟩ => absurd h (Nat.not_lt.2 (Nat.le_add_left _ _))
abbrev ix5 (pf : pre5.Contents (Elt F)) : (w : Fin 2) → grid5.Coords → Fin (spec5 w).shape.rank → Nat := fun | 0 => cc5_transform_0 k5_off1_inb numel1_S1 pf | 1 => cc5_transform_1 | ⟨_ + 2, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 pf | 1 => hreads5_1 | ⟨_ + 2, h⟩ => absurd h (Nat.not_lt.2 (Nat.le_add_left _ _))
def ok5 (pf : pre5.Contents (Elt F)) : Prop :=
  (∀ i : grid5.Coords, ∃ h : (∀ a, (cc5_transform_0 k5_off1_inb numel1_S1 pf i a + 1) * S1x1x128.size a ≤ S100000x1x128.size a), EltTy.bits .f32 = 32 ∨ (Rect.block (s := S100000x1x128) S1x1x128.size (cc5_transform_0 k5_off1_inb numel1_S1 pf i) h).WholeWords (EltTy.packing .f32))
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun pf hok => fun | 0 => fun i a => (hok i).elim fun h _ => h a | 1 => hinb5_1 | ⟨_ + 2, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun pf hok => fun | 0 => fun i => (hok i).elim fun _ h => h | 1 => hwx5_1 | ⟨_ + 2, h⟩ => absurd h (Nat.not_lt.2 (Nat.le_add_left _ _))
abbrev spec6_0 : Pipeline.WinSpec sig grid6.rank :=
  Pipeline.WinSpec.ofSpec (Memref.whole main_v87) S1x1x128.size reads6_0 false false 2 stage6_0 sem6_0 nbuf6_0 hstage6_0

abbrev spec6_1 : Pipeline.WinSpec sig grid6.rank :=
  Pipeline.WinSpec.ofSpec (Memref.whole main_v88) S1x1x128.size reads6_1 true false 2 stage6_1 sem6_1 nbuf6_1 hstage6_1

abbrev spec6 : Fin 2 → Pipeline.WinSpec sig grid6.rank := fun | 0 => spec6_0 | 1 => spec6_1 | ⟨_ + 2, h⟩ => absurd h (Nat.not_lt.2 (Nat.le_add_left _ _))
theorem hcount6 : ∀ w, grid6.bufCount (spec6 w).reads (spec6 w).sync = (spec6 w).nbuf := fun | 0 => nbuf6_0 | 1 => nbuf6_1 | ⟨_ + 2, h⟩ => absurd h (Nat.not_lt.2 (Nat.le_add_left _ _))
abbrev ix6 (pf : pre6.Contents (Elt F)) : (w : Fin 2) → grid6.Coords → Fin (spec6 w).shape.rank → Nat := fun | 0 => cc6_transform_0 k6_off1_inb numel1_S1 pf | 1 => cc6_transform_1 | ⟨_ + 2, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 pf | 1 => hreads6_1 | ⟨_ + 2, h⟩ => absurd h (Nat.not_lt.2 (Nat.le_add_left _ _))
def ok6 (pf : pre6.Contents (Elt F)) : Prop :=
  (∀ i : grid6.Coords, ∃ h : (∀ a, (cc6_transform_0 k6_off1_inb numel1_S1 pf i a + 1) * S1x1x128.size a ≤ S100000x1x128.size a), EltTy.bits .f32 = 32 ∨ (Rect.block (s := S100000x1x128) S1x1x128.size (cc6_transform_0 k6_off1_inb numel1_S1 pf i) h).WholeWords (EltTy.packing .f32))
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun pf hok => fun | 0 => fun i a => (hok i).elim fun h _ => h a | 1 => hinb6_1 | ⟨_ + 2, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun pf hok => fun | 0 => fun i => (hok i).elim fun _ h => h | 1 => hwx6_1 | ⟨_ + 2, h⟩ => absurd h (Nat.not_lt.2 (Nat.le_add_left _ _))
abbrev spec7_0 : Pipeline.WinSpec sig grid7.rank :=
  Pipeline.WinSpec.ofSpec (Memref.whole main_v100) S1x1x128.size reads7_0 false false 2 stage7_0 sem7_0 nbuf7_0 hstage7_0

abbrev spec7_1 : Pipeline.WinSpec sig grid7.rank :=
  Pipeline.WinSpec.ofSpec (Memref.whole main_v101) S1x1x128.size reads7_1 true false 2 stage7_1 sem7_1 nbuf7_1 hstage7_1

abbrev spec7 : Fin 2 → Pipeline.WinSpec sig grid7.rank := fun | 0 => spec7_0 | 1 => spec7_1 | ⟨_ + 2, h⟩ => absurd h (Nat.not_lt.2 (Nat.le_add_left _ _))
theorem hcount7 : ∀ w, grid7.bufCount (spec7 w).reads (spec7 w).sync = (spec7 w).nbuf := fun | 0 => nbuf7_0 | 1 => nbuf7_1 | ⟨_ + 2, h⟩ => absurd h (Nat.not_lt.2 (Nat.le_add_left _ _))
abbrev ix7 (pf : pre7.Contents (Elt F)) : (w : Fin 2) → grid7.Coords → Fin (spec7 w).shape.rank → Nat := fun | 0 => cc7_transform_0 k7_off1_inb numel1_S1 pf | 1 => cc7_transform_1 | ⟨_ + 2, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 pf | 1 => hreads7_1 | ⟨_ + 2, h⟩ => absurd h (Nat.not_lt.2 (Nat.le_add_left _ _))
def ok7 (pf : pre7.Contents (Elt F)) : Prop :=
  (∀ i : grid7.Coords, ∃ h : (∀ a, (cc7_transform_0 k7_off1_inb numel1_S1 pf i a + 1) * S1x1x128.size a ≤ S100000x1x128.size a), EltTy.bits .f32 = 32 ∨ (Rect.block (s := S100000x1x128) S1x1x128.size (cc7_transform_0 k7_off1_inb numel1_S1 pf i) h).WholeWords (EltTy.packing .f32))
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun pf hok => fun | 0 => fun i a => (hok i).elim fun h _ => h a | 1 => hinb7_1 | ⟨_ + 2, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun pf hok => fun | 0 => fun i => (hok i).elim fun _ h => h | 1 => hwx7_1 | ⟨_ + 2, h⟩ => absurd h (Nat.not_lt.2 (Nat.le_add_left _ _))
abbrev spec8_0 : Pipeline.WinSpec sig grid8.rank :=
  Pipeline.WinSpec.ofSpec (Memref.whole main_v113) S1x1x128.size reads8_0 false false 2 stage8_0 sem8_0 nbuf8_0 hstage8_0

abbrev spec8_1 : Pipeline.WinSpec sig grid8.rank :=
  Pipeline.WinSpec.ofSpec (Memref.whole main_v114) S1x1x128.size reads8_1 true false 2 stage8_1 sem8_1 nbuf8_1 hstage8_1

abbrev spec8 : Fin 2 → Pipeline.WinSpec sig grid8.rank := fun | 0 => spec8_0 | 1 => spec8_1 | ⟨_ + 2, h⟩ => absurd h (Nat.not_lt.2 (Nat.le_add_left _ _))
theorem hcount8 : ∀ w, grid8.bufCount (spec8 w).reads (spec8 w).sync = (spec8 w).nbuf := fun | 0 => nbuf8_0 | 1 => nbuf8_1 | ⟨_ + 2, h⟩ => absurd h (Nat.not_lt.2 (Nat.le_add_left _ _))
abbrev ix8 (pf : pre8.Contents (Elt F)) : (w : Fin 2) → grid8.Coords → Fin (spec8 w).shape.rank → Nat := fun | 0 => cc8_transform_0 k8_off1_inb numel1_S1 pf | 1 => cc8_transform_1 | ⟨_ + 2, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 pf | 1 => hreads8_1 | ⟨_ + 2, h⟩ => absurd h (Nat.not_lt.2 (Nat.le_add_left _ _))
def ok8 (pf : pre8.Contents (Elt F)) : Prop :=
  (∀ i : grid8.Coords, ∃ h : (∀ a, (cc8_transform_0 k8_off1_inb numel1_S1 pf i a + 1) * S1x1x128.size a ≤ S100000x1x128.size a), EltTy.bits .f32 = 32 ∨ (Rect.block (s := S100000x1x128) S1x1x128.size (cc8_transform_0 k8_off1_inb numel1_S1 pf i) h).WholeWords (EltTy.packing .f32))
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun pf hok => fun | 0 => fun i a => (hok i).elim fun h _ => h a | 1 => hinb8_1 | ⟨_ + 2, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun pf hok => fun | 0 => fun i => (hok i).elim fun _ h => h | 1 => hwx8_1 | ⟨_ + 2, h⟩ => absurd h (Nat.not_lt.2 (Nat.le_add_left _ _))
abbrev spec9_0 : Pipeline.WinSpec sig grid9.rank :=
  Pipeline.WinSpec.ofSpec (Memref.whole main_v126) S1x1x128.size reads9_0 false false 2 stage9_0 sem9_0 nbuf9_0 hstage9_0

abbrev spec9_1 : Pipeline.WinSpec sig grid9.rank :=
  Pipeline.WinSpec.ofSpec (Memref.whole main_v127) S1x1x128.size reads9_1 true false 2 stage9_1 sem9_1 nbuf9_1 hstage9_1

abbrev spec9 : Fin 2 → Pipeline.WinSpec sig grid9.rank := fun | 0 => spec9_0 | 1 => spec9_1 | ⟨_ + 2, h⟩ => absurd h (Nat.not_lt.2 (Nat.le_add_left _ _))
theorem hcount9 : ∀ w, grid9.bufCount (spec9 w).reads (spec9 w).sync = (spec9 w).nbuf := fun | 0 => nbuf9_0 | 1 => nbuf9_1 | ⟨_ + 2, h⟩ => absurd h (Nat.not_lt.2 (Nat.le_add_left _ _))
abbrev ix9 (pf : pre9.Contents (Elt F)) : (w : Fin 2) → grid9.Coords → Fin (spec9 w).shape.rank → Nat := fun | 0 => cc9_transform_0 k9_off1_inb numel1_S1 pf | 1 => cc9_transform_1 | ⟨_ + 2, h⟩ => absurd h (Nat.not_lt.2 (Nat.le_add_left _ _))
theorem hreads9 : ∀ (pf : pre9.Contents (Elt F)) w (i i' : grid9.Coords), (∀ a, (spec9 w).reads a = true → i a = i' a) → ix9 pf w i = ix9 pf w i' := fun pf => fun | 0 => hreads9_0 pf | 1 => hreads9_1 | ⟨_ + 2, h⟩ => absurd h (Nat.not_lt.2 (Nat.le_add_left _ _))
def ok9 (pf : pre9.Contents (Elt F)) : Prop :=
  (∀ i : grid9.Coords, ∃ h : (∀ a, (cc9_transform_0 k9_off1_inb numel1_S1 pf i a + 1) * S1x1x128.size a ≤ S100000x1x128.size a), EltTy.bits .f32 = 32 ∨ (Rect.block (s := S100000x1x128) S1x1x128.size (cc9_transform_0 k9_off1_inb numel1_S1 pf i) h).WholeWords (EltTy.packing .f32))
instance (pf : pre9.Contents (Elt F)) : Decidable (ok9 pf) := decidable_of_iff' _ (Iff.of_eq (ok9.eq_1 pf))
theorem hinb9 : ∀ (pf : pre9.Contents (Elt F)), ok9 pf → ∀ w (i : grid9.Coords) a, (ix9 pf w i a + 1) * (spec9 w).size a ≤ (spec9 w).shape.size a :=
  fun pf hok => fun | 0 => fun i a => (hok i).elim fun h _ => h a | 1 => hinb9_1 | ⟨_ + 2, h⟩ => absurd h (Nat.not_lt.2 (Nat.le_add_left _ _))
theorem hwx9 : ∀ (pf : pre9.Contents (Elt F)) (hok : ok9 pf) w (i : grid9.Coords), (spec9 w).elt.bits = 32 ∨ (Rect.block (spec9 w).size (ix9 pf w i) (hinb9 pf hok w i)).WholeWords (spec9 w).elt.packing :=
  fun pf hok => fun | 0 => fun i => (hok i).elim fun _ h => h | 1 => hwx9_1 | ⟨_ + 2, h⟩ => absurd h (Nat.not_lt.2 (Nat.le_add_left _ _))
abbrev spec10_0 : Pipeline.WinSpec sig grid10.rank :=
  Pipeline.WinSpec.ofSpec (Memref.whole main_v139) S1x1x128.size reads10_0 false false 2 stage10_0 sem10_0 nbuf10_0 hstage10_0

abbrev spec10_1 : Pipeline.WinSpec sig grid10.rank :=
  Pipeline.WinSpec.ofSpec (Memref.whole main_v140) S1x1x128.size reads10_1 true false 2 stage10_1 sem10_1 nbuf10_1 hstage10_1

abbrev spec10 : Fin 2 → Pipeline.WinSpec sig grid10.rank := fun | 0 => spec10_0 | 1 => spec10_1 | ⟨_ + 2, h⟩ => absurd h (Nat.not_lt.2 (Nat.le_add_left _ _))
theorem hcount10 : ∀ w, grid10.bufCount (spec10 w).reads (spec10 w).sync = (spec10 w).nbuf := fun | 0 => nbuf10_0 | 1 => nbuf10_1 | ⟨_ + 2, h⟩ => absurd h (Nat.not_lt.2 (Nat.le_add_left _ _))
abbrev ix10 (pf : pre10.Contents (Elt F)) : (w : Fin 2) → grid10.Coords → Fin (spec10 w).shape.rank → Nat := fun | 0 => cc10_transform_0 k10_off1_inb numel1_S1 pf | 1 => cc10_transform_1 | ⟨_ + 2, h⟩ => absurd h (Nat.not_lt.2 (Nat.le_add_left _ _))
theorem hreads10 : ∀ (pf : pre10.Contents (Elt F)) w (i i' : grid10.Coords), (∀ a, (spec10 w).reads a = true → i a = i' a) → ix10 pf w i = ix10 pf w i' := fun pf => fun | 0 => hreads10_0 pf | 1 => hreads10_1 | ⟨_ + 2, h⟩ => absurd h (Nat.not_lt.2 (Nat.le_add_left _ _))
def ok10 (pf : pre10.Contents (Elt F)) : Prop :=
  (∀ i : grid10.Coords, ∃ h : (∀ a, (cc10_transform_0 k10_off1_inb numel1_S1 pf i a + 1) * S1x1x128.size a ≤ S100000x1x128.size a), EltTy.bits .f32 = 32 ∨ (Rect.block (s := S100000x1x128) S1x1x128.size (cc10_transform_0 k10_off1_inb numel1_S1 pf i) h).WholeWords (EltTy.packing .f32))
instance (pf : pre10.Contents (Elt F)) : Decidable (ok10 pf) := decidable_of_iff' _ (Iff.of_eq (ok10.eq_1 pf))
theorem hinb10 : ∀ (pf : pre10.Contents (Elt F)), ok10 pf → ∀ w (i : grid10.Coords) a, (ix10 pf w i a + 1) * (spec10 w).size a ≤ (spec10 w).shape.size a :=
  fun pf hok => fun | 0 => fun i a => (hok i).elim fun h _ => h a | 1 => hinb10_1 | ⟨_ + 2, h⟩ => absurd h (Nat.not_lt.2 (Nat.le_add_left _ _))
theorem hwx10 : ∀ (pf : pre10.Contents (Elt F)) (hok : ok10 pf) w (i : grid10.Coords), (spec10 w).elt.bits = 32 ∨ (Rect.block (spec10 w).size (ix10 pf w i) (hinb10 pf hok w i)).WholeWords (spec10 w).elt.packing :=
  fun pf hok => fun | 0 => fun i => (hok i).elim fun _ h => h | 1 => hwx10_1 | ⟨_ + 2, h⟩ => absurd h (Nat.not_lt.2 (Nat.le_add_left _ _))
abbrev spec11_0 : Pipeline.WinSpec sig grid11.rank :=
  Pipeline.WinSpec.ofSpec (Memref.whole main_v152) S1x1x128.size reads11_0 false false 2 stage11_0 sem11_0 nbuf11_0 hstage11_0

abbrev spec11_1 : Pipeline.WinSpec sig grid11.rank :=
  Pipeline.WinSpec.ofSpec (Memref.whole main_v153) S1x1x128.size reads11_1 true false 2 stage11_1 sem11_1 nbuf11_1 hstage11_1

abbrev spec11 : Fin 2 → Pipeline.WinSpec sig grid11.rank := fun | 0 => spec11_0 | 1 => spec11_1 | ⟨_ + 2, h⟩ => absurd h (Nat.not_lt.2 (Nat.le_add_left _ _))
theorem hcount11 : ∀ w, grid11.bufCount (spec11 w).reads (spec11 w).sync = (spec11 w).nbuf := fun | 0 => nbuf11_0 | 1 => nbuf11_1 | ⟨_ + 2, h⟩ => absurd h (Nat.not_lt.2 (Nat.le_add_left _ _))
abbrev ix11 (pf : pre11.Contents (Elt F)) : (w : Fin 2) → grid11.Coords → Fin (spec11 w).shape.rank → Nat := fun | 0 => cc11_transform_0 k11_off1_inb numel1_S1 pf | 1 => cc11_transform_1 | ⟨_ + 2, h⟩ => absurd h (Nat.not_lt.2 (Nat.le_add_left _ _))
theorem hreads11 : ∀ (pf : pre11.Contents (Elt F)) w (i i' : grid11.Coords), (∀ a, (spec11 w).reads a = true → i a = i' a) → ix11 pf w i = ix11 pf w i' := fun pf => fun | 0 => hreads11_0 pf | 1 => hreads11_1 | ⟨_ + 2, h⟩ => absurd h (Nat.not_lt.2 (Nat.le_add_left _ _))
def ok11 (pf : pre11.Contents (Elt F)) : Prop :=
  (∀ i : grid11.Coords, ∃ h : (∀ a, (cc11_transform_0 k11_off1_inb numel1_S1 pf i a + 1) * S1x1x128.size a ≤ S100000x1x128.size a), EltTy.bits .f32 = 32 ∨ (Rect.block (s := S100000x1x128) S1x1x128.size (cc11_transform_0 k11_off1_inb numel1_S1 pf i) h).WholeWords (EltTy.packing .f32))
instance (pf : pre11.Contents (Elt F)) : Decidable (ok11 pf) := decidable_of_iff' _ (Iff.of_eq (ok11.eq_1 pf))
theorem hinb11 : ∀ (pf : pre11.Contents (Elt F)), ok11 pf → ∀ w (i : grid11.Coords) a, (ix11 pf w i a + 1) * (spec11 w).size a ≤ (spec11 w).shape.size a :=
  fun pf hok => fun | 0 => fun i a => (hok i).elim fun h _ => h a | 1 => hinb11_1 | ⟨_ + 2, h⟩ => absurd h (Nat.not_lt.2 (Nat.le_add_left _ _))
theorem hwx11 : ∀ (pf : pre11.Contents (Elt F)) (hok : ok11 pf) w (i : grid11.Coords), (spec11 w).elt.bits = 32 ∨ (Rect.block (spec11 w).size (ix11 pf w i) (hinb11 pf hok w i)).WholeWords (spec11 w).elt.packing :=
  fun pf hok => fun | 0 => fun i => (hok i).elim fun _ h => h | 1 => hwx11_1 | ⟨_ + 2, h⟩ => absurd h (Nat.not_lt.2 (Nat.le_add_left _ _))
abbrev spec12_0 : Pipeline.WinSpec sig grid12.rank :=
  Pipeline.WinSpec.ofSpec (Memref.whole main_v165) S1x1x128.size reads12_0 false false 2 stage12_0 sem12_0 nbuf12_0 hstage12_0

abbrev spec12_1 : Pipeline.WinSpec sig grid12.rank :=
  Pipeline.WinSpec.ofSpec (Memref.whole main_v166) S1x1x128.size reads12_1 true false 2 stage12_1 sem12_1 nbuf12_1 hstage12_1

abbrev spec12 : Fin 2 → Pipeline.WinSpec sig grid12.rank := fun | 0 => spec12_0 | 1 => spec12_1 | ⟨_ + 2, h⟩ => absurd h (Nat.not_lt.2 (Nat.le_add_left _ _))
theorem hcount12 : ∀ w, grid12.bufCount (spec12 w).reads (spec12 w).sync = (spec12 w).nbuf := fun | 0 => nbuf12_0 | 1 => nbuf12_1 | ⟨_ + 2, h⟩ => absurd h (Nat.not_lt.2 (Nat.le_add_left _ _))
abbrev ix12 (pf : pre12.Contents (Elt F)) : (w : Fin 2) → grid12.Coords → Fin (spec12 w).shape.rank → Nat := fun | 0 => cc12_transform_0 k12_off1_inb numel1_S1 pf | 1 => cc12_transform_1 | ⟨_ + 2, h⟩ => absurd h (Nat.not_lt.2 (Nat.le_add_left _ _))
theorem hreads12 : ∀ (pf : pre12.Contents (Elt F)) w (i i' : grid12.Coords), (∀ a, (spec12 w).reads a = true → i a = i' a) → ix12 pf w i = ix12 pf w i' := fun pf => fun | 0 => hreads12_0 pf | 1 => hreads12_1 | ⟨_ + 2, h⟩ => absurd h (Nat.not_lt.2 (Nat.le_add_left _ _))
def ok12 (pf : pre12.Contents (Elt F)) : Prop :=
  (∀ i : grid12.Coords, ∃ h : (∀ a, (cc12_transform_0 k12_off1_inb numel1_S1 pf i a + 1) * S1x1x128.size a ≤ S100000x1x128.size a), EltTy.bits .f32 = 32 ∨ (Rect.block (s := S100000x1x128) S1x1x128.size (cc12_transform_0 k12_off1_inb numel1_S1 pf i) h).WholeWords (EltTy.packing .f32))
instance (pf : pre12.Contents (Elt F)) : Decidable (ok12 pf) := decidable_of_iff' _ (Iff.of_eq (ok12.eq_1 pf))
theorem hinb12 : ∀ (pf : pre12.Contents (Elt F)), ok12 pf → ∀ w (i : grid12.Coords) a, (ix12 pf w i a + 1) * (spec12 w).size a ≤ (spec12 w).shape.size a :=
  fun pf hok => fun | 0 => fun i a => (hok i).elim fun h _ => h a | 1 => hinb12_1 | ⟨_ + 2, h⟩ => absurd h (Nat.not_lt.2 (Nat.le_add_left _ _))
theorem hwx12 : ∀ (pf : pre12.Contents (Elt F)) (hok : ok12 pf) w (i : grid12.Coords), (spec12 w).elt.bits = 32 ∨ (Rect.block (spec12 w).size (ix12 pf w i) (hinb12 pf hok w i)).WholeWords (spec12 w).elt.packing :=
  fun pf hok => fun | 0 => fun i => (hok i).elim fun _ h => h | 1 => hwx12_1 | ⟨_ + 2, h⟩ => absurd h (Nat.not_lt.2 (Nat.le_add_left _ _))
abbrev spec13_0 : Pipeline.WinSpec sig grid13.rank :=
  Pipeline.WinSpec.ofSpec (Memref.whole main_v178) S1x1x128.size reads13_0 false false 2 stage13_0 sem13_0 nbuf13_0 hstage13_0

abbrev spec13_1 : Pipeline.WinSpec sig grid13.rank :=
  Pipeline.WinSpec.ofSpec (Memref.whole main_v179) S1x1x128.size reads13_1 true false 2 stage13_1 sem13_1 nbuf13_1 hstage13_1

abbrev spec13 : Fin 2 → Pipeline.WinSpec sig grid13.rank := fun | 0 => spec13_0 | 1 => spec13_1 | ⟨_ + 2, h⟩ => absurd h (Nat.not_lt.2 (Nat.le_add_left _ _))
theorem hcount13 : ∀ w, grid13.bufCount (spec13 w).reads (spec13 w).sync = (spec13 w).nbuf := fun | 0 => nbuf13_0 | 1 => nbuf13_1 | ⟨_ + 2, h⟩ => absurd h (Nat.not_lt.2 (Nat.le_add_left _ _))
abbrev ix13 (pf : pre13.Contents (Elt F)) : (w : Fin 2) → grid13.Coords → Fin (spec13 w).shape.rank → Nat := fun | 0 => cc13_transform_0 k13_off1_inb numel1_S1 pf | 1 => cc13_transform_1 | ⟨_ + 2, h⟩ => absurd h (Nat.not_lt.2 (Nat.le_add_left _ _))
theorem hreads13 : ∀ (pf : pre13.Contents (Elt F)) w (i i' : grid13.Coords), (∀ a, (spec13 w).reads a = true → i a = i' a) → ix13 pf w i = ix13 pf w i' := fun pf => fun | 0 => hreads13_0 pf | 1 => hreads13_1 | ⟨_ + 2, h⟩ => absurd h (Nat.not_lt.2 (Nat.le_add_left _ _))
def ok13 (pf : pre13.Contents (Elt F)) : Prop :=
  (∀ i : grid13.Coords, ∃ h : (∀ a, (cc13_transform_0 k13_off1_inb numel1_S1 pf i a + 1) * S1x1x128.size a ≤ S100000x1x128.size a), EltTy.bits .f32 = 32 ∨ (Rect.block (s := S100000x1x128) S1x1x128.size (cc13_transform_0 k13_off1_inb numel1_S1 pf i) h).WholeWords (EltTy.packing .f32))
instance (pf : pre13.Contents (Elt F)) : Decidable (ok13 pf) := decidable_of_iff' _ (Iff.of_eq (ok13.eq_1 pf))
theorem hinb13 : ∀ (pf : pre13.Contents (Elt F)), ok13 pf → ∀ w (i : grid13.Coords) a, (ix13 pf w i a + 1) * (spec13 w).size a ≤ (spec13 w).shape.size a :=
  fun pf hok => fun | 0 => fun i a => (hok i).elim fun h _ => h a | 1 => hinb13_1 | ⟨_ + 2, h⟩ => absurd h (Nat.not_lt.2 (Nat.le_add_left _ _))
theorem hwx13 : ∀ (pf : pre13.Contents (Elt F)) (hok : ok13 pf) w (i : grid13.Coords), (spec13 w).elt.bits = 32 ∨ (Rect.block (spec13 w).size (ix13 pf w i) (hinb13 pf hok w i)).WholeWords (spec13 w).elt.packing :=
  fun pf hok => fun | 0 => fun i => (hok i).elim fun _ h => h | 1 => hwx13_1 | ⟨_ + 2, h⟩ => absurd h (Nat.not_lt.2 (Nat.le_add_left _ _))
abbrev spec14_0 : Pipeline.WinSpec sig grid14.rank :=
  Pipeline.WinSpec.ofSpec (Memref.whole main_v191) S1x1x128.size reads14_0 false false 2 stage14_0 sem14_0 nbuf14_0 hstage14_0

abbrev spec14_1 : Pipeline.WinSpec sig grid14.rank :=
  Pipeline.WinSpec.ofSpec (Memref.whole main_v192) S1x1x128.size reads14_1 true false 2 stage14_1 sem14_1 nbuf14_1 hstage14_1

abbrev spec14 : Fin 2 → Pipeline.WinSpec sig grid14.rank := fun | 0 => spec14_0 | 1 => spec14_1 | ⟨_ + 2, h⟩ => absurd h (Nat.not_lt.2 (Nat.le_add_left _ _))
theorem hcount14 : ∀ w, grid14.bufCount (spec14 w).reads (spec14 w).sync = (spec14 w).nbuf := fun | 0 => nbuf14_0 | 1 => nbuf14_1 | ⟨_ + 2, h⟩ => absurd h (Nat.not_lt.2 (Nat.le_add_left _ _))
abbrev ix14 (pf : pre14.Contents (Elt F)) : (w : Fin 2) → grid14.Coords → Fin (spec14 w).shape.rank → Nat := fun | 0 => cc14_transform_0 k14_off1_inb numel1_S1 pf | 1 => cc14_transform_1 | ⟨_ + 2, h⟩ => absurd h (Nat.not_lt.2 (Nat.le_add_left _ _))
theorem hreads14 : ∀ (pf : pre14.Contents (Elt F)) w (i i' : grid14.Coords), (∀ a, (spec14 w).reads a = true → i a = i' a) → ix14 pf w i = ix14 pf w i' := fun pf => fun | 0 => hreads14_0 pf | 1 => hreads14_1 | ⟨_ + 2, h⟩ => absurd h (Nat.not_lt.2 (Nat.le_add_left _ _))
def ok14 (pf : pre14.Contents (Elt F)) : Prop :=
  (∀ i : grid14.Coords, ∃ h : (∀ a, (cc14_transform_0 k14_off1_inb numel1_S1 pf i a + 1) * S1x1x128.size a ≤ S100000x1x128.size a), EltTy.bits .f32 = 32 ∨ (Rect.block (s := S100000x1x128) S1x1x128.size (cc14_transform_0 k14_off1_inb numel1_S1 pf i) h).WholeWords (EltTy.packing .f32))
instance (pf : pre14.Contents (Elt F)) : Decidable (ok14 pf) := decidable_of_iff' _ (Iff.of_eq (ok14.eq_1 pf))
theorem hinb14 : ∀ (pf : pre14.Contents (Elt F)), ok14 pf → ∀ w (i : grid14.Coords) a, (ix14 pf w i a + 1) * (spec14 w).size a ≤ (spec14 w).shape.size a :=
  fun pf hok => fun | 0 => fun i a => (hok i).elim fun h _ => h a | 1 => hinb14_1 | ⟨_ + 2, h⟩ => absurd h (Nat.not_lt.2 (Nat.le_add_left _ _))
theorem hwx14 : ∀ (pf : pre14.Contents (Elt F)) (hok : ok14 pf) w (i : grid14.Coords), (spec14 w).elt.bits = 32 ∨ (Rect.block (spec14 w).size (ix14 pf w i) (hinb14 pf hok w i)).WholeWords (spec14 w).elt.packing :=
  fun pf hok => fun | 0 => fun i => (hok i).elim fun _ h => h | 1 => hwx14_1 | ⟨_ + 2, h⟩ => absurd h (Nat.not_lt.2 (Nat.le_add_left _ _))
abbrev spec15_0 : Pipeline.WinSpec sig grid15.rank :=
  Pipeline.WinSpec.ofSpec (Memref.whole main_v204) S1x1x128.size reads15_0 false false 2 stage15_0 sem15_0 nbuf15_0 hstage15_0

abbrev spec15_1 : Pipeline.WinSpec sig grid15.rank :=
  Pipeline.WinSpec.ofSpec (Memref.whole main_v205) S1x1x128.size reads15_1 true false 2 stage15_1 sem15_1 nbuf15_1 hstage15_1

abbrev spec15 : Fin 2 → Pipeline.WinSpec sig grid15.rank := fun | 0 => spec15_0 | 1 => spec15_1 | ⟨_ + 2, h⟩ => absurd h (Nat.not_lt.2 (Nat.le_add_left _ _))
theorem hcount15 : ∀ w, grid15.bufCount (spec15 w).reads (spec15 w).sync = (spec15 w).nbuf := fun | 0 => nbuf15_0 | 1 => nbuf15_1 | ⟨_ + 2, h⟩ => absurd h (Nat.not_lt.2 (Nat.le_add_left _ _))
abbrev ix15 (pf : pre15.Contents (Elt F)) : (w : Fin 2) → grid15.Coords → Fin (spec15 w).shape.rank → Nat := fun | 0 => cc15_transform_0 k15_off1_inb numel1_S1 pf | 1 => cc15_transform_1 | ⟨_ + 2, h⟩ => absurd h (Nat.not_lt.2 (Nat.le_add_left _ _))
theorem hreads15 : ∀ (pf : pre15.Contents (Elt F)) w (i i' : grid15.Coords), (∀ a, (spec15 w).reads a = true → i a = i' a) → ix15 pf w i = ix15 pf w i' := fun pf => fun | 0 => hreads15_0 pf | 1 => hreads15_1 | ⟨_ + 2, h⟩ => absurd h (Nat.not_lt.2 (Nat.le_add_left _ _))
def ok15 (pf : pre15.Contents (Elt F)) : Prop :=
  (∀ i : grid15.Coords, ∃ h : (∀ a, (cc15_transform_0 k15_off1_inb numel1_S1 pf i a + 1) * S1x1x128.size a ≤ S100000x1x128.size a), EltTy.bits .f32 = 32 ∨ (Rect.block (s := S100000x1x128) S1x1x128.size (cc15_transform_0 k15_off1_inb numel1_S1 pf i) h).WholeWords (EltTy.packing .f32))
instance (pf : pre15.Contents (Elt F)) : Decidable (ok15 pf) := decidable_of_iff' _ (Iff.of_eq (ok15.eq_1 pf))
theorem hinb15 : ∀ (pf : pre15.Contents (Elt F)), ok15 pf → ∀ w (i : grid15.Coords) a, (ix15 pf w i a + 1) * (spec15 w).size a ≤ (spec15 w).shape.size a :=
  fun pf hok => fun | 0 => fun i a => (hok i).elim fun h _ => h a | 1 => hinb15_1 | ⟨_ + 2, h⟩ => absurd h (Nat.not_lt.2 (Nat.le_add_left _ _))
theorem hwx15 : ∀ (pf : pre15.Contents (Elt F)) (hok : ok15 pf) w (i : grid15.Coords), (spec15 w).elt.bits = 32 ∨ (Rect.block (spec15 w).size (ix15 pf w i) (hinb15 pf hok w i)).WholeWords (spec15 w).elt.packing :=
  fun pf hok => fun | 0 => fun i => (hok i).elim fun _ h => h | 1 => hwx15_1 | ⟨_ + 2, h⟩ => absurd h (Nat.not_lt.2 (Nat.le_add_left _ _))
abbrev spec16_0 : Pipeline.WinSpec sig grid16.rank :=
  Pipeline.WinSpec.ofSpec (Memref.whole main_v217) S1x1x128.size reads16_0 false false 2 stage16_0 sem16_0 nbuf16_0 hstage16_0

abbrev spec16_1 : Pipeline.WinSpec sig grid16.rank :=
  Pipeline.WinSpec.ofSpec (Memref.whole main_v218) S1x1x128.size reads16_1 true false 2 stage16_1 sem16_1 nbuf16_1 hstage16_1

abbrev spec16 : Fin 2 → Pipeline.WinSpec sig grid16.rank := fun | 0 => spec16_0 | 1 => spec16_1 | ⟨_ + 2, h⟩ => absurd h (Nat.not_lt.2 (Nat.le_add_left _ _))
theorem hcount16 : ∀ w, grid16.bufCount (spec16 w).reads (spec16 w).sync = (spec16 w).nbuf := fun | 0 => nbuf16_0 | 1 => nbuf16_1 | ⟨_ + 2, h⟩ => absurd h (Nat.not_lt.2 (Nat.le_add_left _ _))
abbrev ix16 (pf : pre16.Contents (Elt F)) : (w : Fin 2) → grid16.Coords → Fin (spec16 w).shape.rank → Nat := fun | 0 => cc16_transform_0 k16_off1_inb numel1_S1 pf | 1 => cc16_transform_1 | ⟨_ + 2, h⟩ => absurd h (Nat.not_lt.2 (Nat.le_add_left _ _))
theorem hreads16 : ∀ (pf : pre16.Contents (Elt F)) w (i i' : grid16.Coords), (∀ a, (spec16 w).reads a = true → i a = i' a) → ix16 pf w i = ix16 pf w i' := fun pf => fun | 0 => hreads16_0 pf | 1 => hreads16_1 | ⟨_ + 2, h⟩ => absurd h (Nat.not_lt.2 (Nat.le_add_left _ _))
def ok16 (pf : pre16.Contents (Elt F)) : Prop :=
  (∀ i : grid16.Coords, ∃ h : (∀ a, (cc16_transform_0 k16_off1_inb numel1_S1 pf i a + 1) * S1x1x128.size a ≤ S100000x1x128.size a), EltTy.bits .f32 = 32 ∨ (Rect.block (s := S100000x1x128) S1x1x128.size (cc16_transform_0 k16_off1_inb numel1_S1 pf i) h).WholeWords (EltTy.packing .f32))
instance (pf : pre16.Contents (Elt F)) : Decidable (ok16 pf) := decidable_of_iff' _ (Iff.of_eq (ok16.eq_1 pf))
theorem hinb16 : ∀ (pf : pre16.Contents (Elt F)), ok16 pf → ∀ w (i : grid16.Coords) a, (ix16 pf w i a + 1) * (spec16 w).size a ≤ (spec16 w).shape.size a :=
  fun pf hok => fun | 0 => fun i a => (hok i).elim fun h _ => h a | 1 => hinb16_1 | ⟨_ + 2, h⟩ => absurd h (Nat.not_lt.2 (Nat.le_add_left _ _))
theorem hwx16 : ∀ (pf : pre16.Contents (Elt F)) (hok : ok16 pf) w (i : grid16.Coords), (spec16 w).elt.bits = 32 ∨ (Rect.block (spec16 w).size (ix16 pf w i) (hinb16 pf hok w i)).WholeWords (spec16 w).elt.packing :=
  fun pf hok => fun | 0 => fun i => (hok i).elim fun _ h => h | 1 => hwx16_1 | ⟨_ + 2, h⟩ => absurd h (Nat.not_lt.2 (Nat.le_add_left _ _))
abbrev spec17_0 : Pipeline.WinSpec sig grid17.rank :=
  Pipeline.WinSpec.ofSpec (Memref.whole main_v230) S1x1x128.size reads17_0 false false 2 stage17_0 sem17_0 nbuf17_0 hstage17_0

abbrev spec17_1 : Pipeline.WinSpec sig grid17.rank :=
  Pipeline.WinSpec.ofSpec (Memref.whole main_v231) S1x1x128.size reads17_1 true false 2 stage17_1 sem17_1 nbuf17_1 hstage17_1

abbrev spec17 : Fin 2 → Pipeline.WinSpec sig grid17.rank := fun | 0 => spec17_0 | 1 => spec17_1 | ⟨_ + 2, h⟩ => absurd h (Nat.not_lt.2 (Nat.le_add_left _ _))
theorem hcount17 : ∀ w, grid17.bufCount (spec17 w).reads (spec17 w).sync = (spec17 w).nbuf := fun | 0 => nbuf17_0 | 1 => nbuf17_1 | ⟨_ + 2, h⟩ => absurd h (Nat.not_lt.2 (Nat.le_add_left _ _))
abbrev ix17 (pf : pre17.Contents (Elt F)) : (w : Fin 2) → grid17.Coords → Fin (spec17 w).shape.rank → Nat := fun | 0 => cc17_transform_0 k17_off1_inb numel1_S1 pf | 1 => cc17_transform_1 | ⟨_ + 2, h⟩ => absurd h (Nat.not_lt.2 (Nat.le_add_left _ _))
theorem hreads17 : ∀ (pf : pre17.Contents (Elt F)) w (i i' : grid17.Coords), (∀ a, (spec17 w).reads a = true → i a = i' a) → ix17 pf w i = ix17 pf w i' := fun pf => fun | 0 => hreads17_0 pf | 1 => hreads17_1 | ⟨_ + 2, h⟩ => absurd h (Nat.not_lt.2 (Nat.le_add_left _ _))
def ok17 (pf : pre17.Contents (Elt F)) : Prop :=
  (∀ i : grid17.Coords, ∃ h : (∀ a, (cc17_transform_0 k17_off1_inb numel1_S1 pf i a + 1) * S1x1x128.size a ≤ S100000x1x128.size a), EltTy.bits .f32 = 32 ∨ (Rect.block (s := S100000x1x128) S1x1x128.size (cc17_transform_0 k17_off1_inb numel1_S1 pf i) h).WholeWords (EltTy.packing .f32))
instance (pf : pre17.Contents (Elt F)) : Decidable (ok17 pf) := decidable_of_iff' _ (Iff.of_eq (ok17.eq_1 pf))
theorem hinb17 : ∀ (pf : pre17.Contents (Elt F)), ok17 pf → ∀ w (i : grid17.Coords) a, (ix17 pf w i a + 1) * (spec17 w).size a ≤ (spec17 w).shape.size a :=
  fun pf hok => fun | 0 => fun i a => (hok i).elim fun h _ => h a | 1 => hinb17_1 | ⟨_ + 2, h⟩ => absurd h (Nat.not_lt.2 (Nat.le_add_left _ _))
theorem hwx17 : ∀ (pf : pre17.Contents (Elt F)) (hok : ok17 pf) w (i : grid17.Coords), (spec17 w).elt.bits = 32 ∨ (Rect.block (spec17 w).size (ix17 pf w i) (hinb17 pf hok w i)).WholeWords (spec17 w).elt.packing :=
  fun pf hok => fun | 0 => fun i => (hok i).elim fun _ h => h | 1 => hwx17_1 | ⟨_ + 2, h⟩ => absurd h (Nat.not_lt.2 (Nat.le_add_left _ _))
abbrev spec18_0 : Pipeline.WinSpec sig grid18.rank :=
  Pipeline.WinSpec.ofSpec (Memref.whole main_v243) S1x1x128.size reads18_0 false false 2 stage18_0 sem18_0 nbuf18_0 hstage18_0

abbrev spec18_1 : Pipeline.WinSpec sig grid18.rank :=
  Pipeline.WinSpec.ofSpec (Memref.whole main_v244) S1x1x128.size reads18_1 true false 2 stage18_1 sem18_1 nbuf18_1 hstage18_1

abbrev spec18 : Fin 2 → Pipeline.WinSpec sig grid18.rank := fun | 0 => spec18_0 | 1 => spec18_1 | ⟨_ + 2, h⟩ => absurd h (Nat.not_lt.2 (Nat.le_add_left _ _))
theorem hcount18 : ∀ w, grid18.bufCount (spec18 w).reads (spec18 w).sync = (spec18 w).nbuf := fun | 0 => nbuf18_0 | 1 => nbuf18_1 | ⟨_ + 2, h⟩ => absurd h (Nat.not_lt.2 (Nat.le_add_left _ _))
abbrev ix18 (pf : pre18.Contents (Elt F)) : (w : Fin 2) → grid18.Coords → Fin (spec18 w).shape.rank → Nat := fun | 0 => cc18_transform_0 k18_off1_inb numel1_S1 pf | 1 => cc18_transform_1 | ⟨_ + 2, h⟩ => absurd h (Nat.not_lt.2 (Nat.le_add_left _ _))
theorem hreads18 : ∀ (pf : pre18.Contents (Elt F)) w (i i' : grid18.Coords), (∀ a, (spec18 w).reads a = true → i a = i' a) → ix18 pf w i = ix18 pf w i' := fun pf => fun | 0 => hreads18_0 pf | 1 => hreads18_1 | ⟨_ + 2, h⟩ => absurd h (Nat.not_lt.2 (Nat.le_add_left _ _))
def ok18 (pf : pre18.Contents (Elt F)) : Prop :=
  (∀ i : grid18.Coords, ∃ h : (∀ a, (cc18_transform_0 k18_off1_inb numel1_S1 pf i a + 1) * S1x1x128.size a ≤ S100000x1x128.size a), EltTy.bits .f32 = 32 ∨ (Rect.block (s := S100000x1x128) S1x1x128.size (cc18_transform_0 k18_off1_inb numel1_S1 pf i) h).WholeWords (EltTy.packing .f32))
instance (pf : pre18.Contents (Elt F)) : Decidable (ok18 pf) := decidable_of_iff' _ (Iff.of_eq (ok18.eq_1 pf))
theorem hinb18 : ∀ (pf : pre18.Contents (Elt F)), ok18 pf → ∀ w (i : grid18.Coords) a, (ix18 pf w i a + 1) * (spec18 w).size a ≤ (spec18 w).shape.size a :=
  fun pf hok => fun | 0 => fun i a => (hok i).elim fun h _ => h a | 1 => hinb18_1 | ⟨_ + 2, h⟩ => absurd h (Nat.not_lt.2 (Nat.le_add_left _ _))
theorem hwx18 : ∀ (pf : pre18.Contents (Elt F)) (hok : ok18 pf) w (i : grid18.Coords), (spec18 w).elt.bits = 32 ∨ (Rect.block (spec18 w).size (ix18 pf w i) (hinb18 pf hok w i)).WholeWords (spec18 w).elt.packing :=
  fun pf hok => fun | 0 => fun i => (hok i).elim fun _ h => h | 1 => hwx18_1 | ⟨_ + 2, h⟩ => absurd h (Nat.not_lt.2 (Nat.le_add_left _ _))
abbrev spec19_0 : Pipeline.WinSpec sig grid19.rank :=
  Pipeline.WinSpec.ofSpec (Memref.whole main_v256) S1x1x128.size reads19_0 false false 2 stage19_0 sem19_0 nbuf19_0 hstage19_0

abbrev spec19_1 : Pipeline.WinSpec sig grid19.rank :=
  Pipeline.WinSpec.ofSpec (Memref.whole main_v257) S1x1x128.size reads19_1 true false 2 stage19_1 sem19_1 nbuf19_1 hstage19_1

abbrev spec19 : Fin 2 → Pipeline.WinSpec sig grid19.rank := fun | 0 => spec19_0 | 1 => spec19_1 | ⟨_ + 2, h⟩ => absurd h (Nat.not_lt.2 (Nat.le_add_left _ _))
theorem hcount19 : ∀ w, grid19.bufCount (spec19 w).reads (spec19 w).sync = (spec19 w).nbuf := fun | 0 => nbuf19_0 | 1 => nbuf19_1 | ⟨_ + 2, h⟩ => absurd h (Nat.not_lt.2 (Nat.le_add_left _ _))
abbrev ix19 (pf : pre19.Contents (Elt F)) : (w : Fin 2) → grid19.Coords → Fin (spec19 w).shape.rank → Nat := fun | 0 => cc19_transform_0 k19_off1_inb numel1_S1 pf | 1 => cc19_transform_1 | ⟨_ + 2, h⟩ => absurd h (Nat.not_lt.2 (Nat.le_add_left _ _))
theorem hreads19 : ∀ (pf : pre19.Contents (Elt F)) w (i i' : grid19.Coords), (∀ a, (spec19 w).reads a = true → i a = i' a) → ix19 pf w i = ix19 pf w i' := fun pf => fun | 0 => hreads19_0 pf | 1 => hreads19_1 | ⟨_ + 2, h⟩ => absurd h (Nat.not_lt.2 (Nat.le_add_left _ _))
def ok19 (pf : pre19.Contents (Elt F)) : Prop :=
  (∀ i : grid19.Coords, ∃ h : (∀ a, (cc19_transform_0 k19_off1_inb numel1_S1 pf i a + 1) * S1x1x128.size a ≤ S100000x1x128.size a), EltTy.bits .f32 = 32 ∨ (Rect.block (s := S100000x1x128) S1x1x128.size (cc19_transform_0 k19_off1_inb numel1_S1 pf i) h).WholeWords (EltTy.packing .f32))
instance (pf : pre19.Contents (Elt F)) : Decidable (ok19 pf) := decidable_of_iff' _ (Iff.of_eq (ok19.eq_1 pf))
theorem hinb19 : ∀ (pf : pre19.Contents (Elt F)), ok19 pf → ∀ w (i : grid19.Coords) a, (ix19 pf w i a + 1) * (spec19 w).size a ≤ (spec19 w).shape.size a :=
  fun pf hok => fun | 0 => fun i a => (hok i).elim fun h _ => h a | 1 => hinb19_1 | ⟨_ + 2, h⟩ => absurd h (Nat.not_lt.2 (Nat.le_add_left _ _))
theorem hwx19 : ∀ (pf : pre19.Contents (Elt F)) (hok : ok19 pf) w (i : grid19.Coords), (spec19 w).elt.bits = 32 ∨ (Rect.block (spec19 w).size (ix19 pf w i) (hinb19 pf hok w i)).WholeWords (spec19 w).elt.packing :=
  fun pf hok => fun | 0 => fun i => (hok i).elim fun _ h => h | 1 => hwx19_1 | ⟨_ + 2, h⟩ => absurd h (Nat.not_lt.2 (Nat.le_add_left _ _))
abbrev spec20_0 : Pipeline.WinSpec sig grid20.rank :=
  Pipeline.WinSpec.ofSpec (Memref.whole main_v269) S1x1x128.size reads20_0 false false 2 stage20_0 sem20_0 nbuf20_0 hstage20_0

abbrev spec20_1 : Pipeline.WinSpec sig grid20.rank :=
  Pipeline.WinSpec.ofSpec (Memref.whole main_v270) S1x1x128.size reads20_1 true false 2 stage20_1 sem20_1 nbuf20_1 hstage20_1

abbrev spec20 : Fin 2 → Pipeline.WinSpec sig grid20.rank := fun | 0 => spec20_0 | 1 => spec20_1 | ⟨_ + 2, h⟩ => absurd h (Nat.not_lt.2 (Nat.le_add_left _ _))
theorem hcount20 : ∀ w, grid20.bufCount (spec20 w).reads (spec20 w).sync = (spec20 w).nbuf := fun | 0 => nbuf20_0 | 1 => nbuf20_1 | ⟨_ + 2, h⟩ => absurd h (Nat.not_lt.2 (Nat.le_add_left _ _))
abbrev ix20 (pf : pre20.Contents (Elt F)) : (w : Fin 2) → grid20.Coords → Fin (spec20 w).shape.rank → Nat := fun | 0 => cc20_transform_0 k20_off1_inb numel1_S1 pf | 1 => cc20_transform_1 | ⟨_ + 2, h⟩ => absurd h (Nat.not_lt.2 (Nat.le_add_left _ _))
theorem hreads20 : ∀ (pf : pre20.Contents (Elt F)) w (i i' : grid20.Coords), (∀ a, (spec20 w).reads a = true → i a = i' a) → ix20 pf w i = ix20 pf w i' := fun pf => fun | 0 => hreads20_0 pf | 1 => hreads20_1 | ⟨_ + 2, h⟩ => absurd h (Nat.not_lt.2 (Nat.le_add_left _ _))
def ok20 (pf : pre20.Contents (Elt F)) : Prop :=
  (∀ i : grid20.Coords, ∃ h : (∀ a, (cc20_transform_0 k20_off1_inb numel1_S1 pf i a + 1) * S1x1x128.size a ≤ S100000x1x128.size a), EltTy.bits .f32 = 32 ∨ (Rect.block (s := S100000x1x128) S1x1x128.size (cc20_transform_0 k20_off1_inb numel1_S1 pf i) h).WholeWords (EltTy.packing .f32))
instance (pf : pre20.Contents (Elt F)) : Decidable (ok20 pf) := decidable_of_iff' _ (Iff.of_eq (ok20.eq_1 pf))
theorem hinb20 : ∀ (pf : pre20.Contents (Elt F)), ok20 pf → ∀ w (i : grid20.Coords) a, (ix20 pf w i a + 1) * (spec20 w).size a ≤ (spec20 w).shape.size a :=
  fun pf hok => fun | 0 => fun i a => (hok i).elim fun h _ => h a | 1 => hinb20_1 | ⟨_ + 2, h⟩ => absurd h (Nat.not_lt.2 (Nat.le_add_left _ _))
theorem hwx20 : ∀ (pf : pre20.Contents (Elt F)) (hok : ok20 pf) w (i : grid20.Coords), (spec20 w).elt.bits = 32 ∨ (Rect.block (spec20 w).size (ix20 pf w i) (hinb20 pf hok w i)).WholeWords (spec20 w).elt.packing :=
  fun pf hok => fun | 0 => fun i => (hok i).elim fun _ h => h | 1 => hwx20_1 | ⟨_ + 2, h⟩ => absurd h (Nat.not_lt.2 (Nat.le_add_left _ _))
abbrev spec21_0 : Pipeline.WinSpec sig grid21.rank :=
  Pipeline.WinSpec.ofSpec (Memref.whole main_v282) S1x1x128.size reads21_0 false false 2 stage21_0 sem21_0 nbuf21_0 hstage21_0

abbrev spec21_1 : Pipeline.WinSpec sig grid21.rank :=
  Pipeline.WinSpec.ofSpec (Memref.whole main_v283) S1x1x128.size reads21_1 true false 2 stage21_1 sem21_1 nbuf21_1 hstage21_1

abbrev spec21 : Fin 2 → Pipeline.WinSpec sig grid21.rank := fun | 0 => spec21_0 | 1 => spec21_1 | ⟨_ + 2, h⟩ => absurd h (Nat.not_lt.2 (Nat.le_add_left _ _))
theorem hcount21 : ∀ w, grid21.bufCount (spec21 w).reads (spec21 w).sync = (spec21 w).nbuf := fun | 0 => nbuf21_0 | 1 => nbuf21_1 | ⟨_ + 2, h⟩ => absurd h (Nat.not_lt.2 (Nat.le_add_left _ _))
abbrev ix21 (pf : pre21.Contents (Elt F)) : (w : Fin 2) → grid21.Coords → Fin (spec21 w).shape.rank → Nat := fun | 0 => cc21_transform_0 k21_off1_inb numel1_S1 pf | 1 => cc21_transform_1 | ⟨_ + 2, h⟩ => absurd h (Nat.not_lt.2 (Nat.le_add_left _ _))
theorem hreads21 : ∀ (pf : pre21.Contents (Elt F)) w (i i' : grid21.Coords), (∀ a, (spec21 w).reads a = true → i a = i' a) → ix21 pf w i = ix21 pf w i' := fun pf => fun | 0 => hreads21_0 pf | 1 => hreads21_1 | ⟨_ + 2, h⟩ => absurd h (Nat.not_lt.2 (Nat.le_add_left _ _))
def ok21 (pf : pre21.Contents (Elt F)) : Prop :=
  (∀ i : grid21.Coords, ∃ h : (∀ a, (cc21_transform_0 k21_off1_inb numel1_S1 pf i a + 1) * S1x1x128.size a ≤ S100000x1x128.size a), EltTy.bits .f32 = 32 ∨ (Rect.block (s := S100000x1x128) S1x1x128.size (cc21_transform_0 k21_off1_inb numel1_S1 pf i) h).WholeWords (EltTy.packing .f32))
instance (pf : pre21.Contents (Elt F)) : Decidable (ok21 pf) := decidable_of_iff' _ (Iff.of_eq (ok21.eq_1 pf))
theorem hinb21 : ∀ (pf : pre21.Contents (Elt F)), ok21 pf → ∀ w (i : grid21.Coords) a, (ix21 pf w i a + 1) * (spec21 w).size a ≤ (spec21 w).shape.size a :=
  fun pf hok => fun | 0 => fun i a => (hok i).elim fun h _ => h a | 1 => hinb21_1 | ⟨_ + 2, h⟩ => absurd h (Nat.not_lt.2 (Nat.le_add_left _ _))
theorem hwx21 : ∀ (pf : pre21.Contents (Elt F)) (hok : ok21 pf) w (i : grid21.Coords), (spec21 w).elt.bits = 32 ∨ (Rect.block (spec21 w).size (ix21 pf w i) (hinb21 pf hok w i)).WholeWords (spec21 w).elt.packing :=
  fun pf hok => fun | 0 => fun i => (hok i).elim fun _ h => h | 1 => hwx21_1 | ⟨_ + 2, h⟩ => absurd h (Nat.not_lt.2 (Nat.le_add_left _ _))
abbrev spec22_0 : Pipeline.WinSpec sig grid22.rank :=
  Pipeline.WinSpec.ofSpec (Memref.whole main_v295) S1x1x128.size reads22_0 false false 2 stage22_0 sem22_0 nbuf22_0 hstage22_0

abbrev spec22_1 : Pipeline.WinSpec sig grid22.rank :=
  Pipeline.WinSpec.ofSpec (Memref.whole main_v296) S1x1x128.size reads22_1 true false 2 stage22_1 sem22_1 nbuf22_1 hstage22_1

abbrev spec22 : Fin 2 → Pipeline.WinSpec sig grid22.rank := fun | 0 => spec22_0 | 1 => spec22_1 | ⟨_ + 2, h⟩ => absurd h (Nat.not_lt.2 (Nat.le_add_left _ _))
theorem hcount22 : ∀ w, grid22.bufCount (spec22 w).reads (spec22 w).sync = (spec22 w).nbuf := fun | 0 => nbuf22_0 | 1 => nbuf22_1 | ⟨_ + 2, h⟩ => absurd h (Nat.not_lt.2 (Nat.le_add_left _ _))
abbrev ix22 (pf : pre22.Contents (Elt F)) : (w : Fin 2) → grid22.Coords → Fin (spec22 w).shape.rank → Nat := fun | 0 => cc22_transform_0 k22_off1_inb numel1_S1 pf | 1 => cc22_transform_1 | ⟨_ + 2, h⟩ => absurd h (Nat.not_lt.2 (Nat.le_add_left _ _))
theorem hreads22 : ∀ (pf : pre22.Contents (Elt F)) w (i i' : grid22.Coords), (∀ a, (spec22 w).reads a = true → i a = i' a) → ix22 pf w i = ix22 pf w i' := fun pf => fun | 0 => hreads22_0 pf | 1 => hreads22_1 | ⟨_ + 2, h⟩ => absurd h (Nat.not_lt.2 (Nat.le_add_left _ _))
def ok22 (pf : pre22.Contents (Elt F)) : Prop :=
  (∀ i : grid22.Coords, ∃ h : (∀ a, (cc22_transform_0 k22_off1_inb numel1_S1 pf i a + 1) * S1x1x128.size a ≤ S100000x1x128.size a), EltTy.bits .f32 = 32 ∨ (Rect.block (s := S100000x1x128) S1x1x128.size (cc22_transform_0 k22_off1_inb numel1_S1 pf i) h).WholeWords (EltTy.packing .f32))
instance (pf : pre22.Contents (Elt F)) : Decidable (ok22 pf) := decidable_of_iff' _ (Iff.of_eq (ok22.eq_1 pf))
theorem hinb22 : ∀ (pf : pre22.Contents (Elt F)), ok22 pf → ∀ w (i : grid22.Coords) a, (ix22 pf w i a + 1) * (spec22 w).size a ≤ (spec22 w).shape.size a :=
  fun pf hok => fun | 0 => fun i a => (hok i).elim fun h _ => h a | 1 => hinb22_1 | ⟨_ + 2, h⟩ => absurd h (Nat.not_lt.2 (Nat.le_add_left _ _))
theorem hwx22 : ∀ (pf : pre22.Contents (Elt F)) (hok : ok22 pf) w (i : grid22.Coords), (spec22 w).elt.bits = 32 ∨ (Rect.block (spec22 w).size (ix22 pf w i) (hinb22 pf hok w i)).WholeWords (spec22 w).elt.packing :=
  fun pf hok => fun | 0 => fun i => (hok i).elim fun _ h => h | 1 => hwx22_1 | ⟨_ + 2, h⟩ => absurd h (Nat.not_lt.2 (Nat.le_add_left _ _))
abbrev spec23_0 : Pipeline.WinSpec sig grid23.rank :=
  Pipeline.WinSpec.ofSpec (Memref.whole main_v308) S1x1x128.size reads23_0 false false 2 stage23_0 sem23_0 nbuf23_0 hstage23_0

abbrev spec23_1 : Pipeline.WinSpec sig grid23.rank :=
  Pipeline.WinSpec.ofSpec (Memref.whole main_v309) S1x1x128.size reads23_1 true false 2 stage23_1 sem23_1 nbuf23_1 hstage23_1

abbrev spec23 : Fin 2 → Pipeline.WinSpec sig grid23.rank := fun | 0 => spec23_0 | 1 => spec23_1 | ⟨_ + 2, h⟩ => absurd h (Nat.not_lt.2 (Nat.le_add_left _ _))
theorem hcount23 : ∀ w, grid23.bufCount (spec23 w).reads (spec23 w).sync = (spec23 w).nbuf := fun | 0 => nbuf23_0 | 1 => nbuf23_1 | ⟨_ + 2, h⟩ => absurd h (Nat.not_lt.2 (Nat.le_add_left _ _))
abbrev ix23 (pf : pre23.Contents (Elt F)) : (w : Fin 2) → grid23.Coords → Fin (spec23 w).shape.rank → Nat := fun | 0 => cc23_transform_0 k23_off1_inb numel1_S1 pf | 1 => cc23_transform_1 | ⟨_ + 2, h⟩ => absurd h (Nat.not_lt.2 (Nat.le_add_left _ _))
theorem hreads23 : ∀ (pf : pre23.Contents (Elt F)) w (i i' : grid23.Coords), (∀ a, (spec23 w).reads a = true → i a = i' a) → ix23 pf w i = ix23 pf w i' := fun pf => fun | 0 => hreads23_0 pf | 1 => hreads23_1 | ⟨_ + 2, h⟩ => absurd h (Nat.not_lt.2 (Nat.le_add_left _ _))
def ok23 (pf : pre23.Contents (Elt F)) : Prop :=
  (∀ i : grid23.Coords, ∃ h : (∀ a, (cc23_transform_0 k23_off1_inb numel1_S1 pf i a + 1) * S1x1x128.size a ≤ S100000x1x128.size a), EltTy.bits .f32 = 32 ∨ (Rect.block (s := S100000x1x128) S1x1x128.size (cc23_transform_0 k23_off1_inb numel1_S1 pf i) h).WholeWords (EltTy.packing .f32))
instance (pf : pre23.Contents (Elt F)) : Decidable (ok23 pf) := decidable_of_iff' _ (Iff.of_eq (ok23.eq_1 pf))
theorem hinb23 : ∀ (pf : pre23.Contents (Elt F)), ok23 pf → ∀ w (i : grid23.Coords) a, (ix23 pf w i a + 1) * (spec23 w).size a ≤ (spec23 w).shape.size a :=
  fun pf hok => fun | 0 => fun i a => (hok i).elim fun h _ => h a | 1 => hinb23_1 | ⟨_ + 2, h⟩ => absurd h (Nat.not_lt.2 (Nat.le_add_left _ _))
theorem hwx23 : ∀ (pf : pre23.Contents (Elt F)) (hok : ok23 pf) w (i : grid23.Coords), (spec23 w).elt.bits = 32 ∨ (Rect.block (spec23 w).size (ix23 pf w i) (hinb23 pf hok w i)).WholeWords (spec23 w).elt.packing :=
  fun pf hok => fun | 0 => fun i => (hok i).elim fun _ h => h | 1 => hwx23_1 | ⟨_ + 2, h⟩ => absurd h (Nat.not_lt.2 (Nat.le_add_left _ _))
abbrev spec24_0 : Pipeline.WinSpec sig grid24.rank :=
  Pipeline.WinSpec.ofSpec (Memref.whole main_v321) S1x1x128.size reads24_0 false false 2 stage24_0 sem24_0 nbuf24_0 hstage24_0

abbrev spec24_1 : Pipeline.WinSpec sig grid24.rank :=
  Pipeline.WinSpec.ofSpec (Memref.whole main_v322) S1x1x128.size reads24_1 true false 2 stage24_1 sem24_1 nbuf24_1 hstage24_1

abbrev spec24 : Fin 2 → Pipeline.WinSpec sig grid24.rank := fun | 0 => spec24_0 | 1 => spec24_1 | ⟨_ + 2, h⟩ => absurd h (Nat.not_lt.2 (Nat.le_add_left _ _))
theorem hcount24 : ∀ w, grid24.bufCount (spec24 w).reads (spec24 w).sync = (spec24 w).nbuf := fun | 0 => nbuf24_0 | 1 => nbuf24_1 | ⟨_ + 2, h⟩ => absurd h (Nat.not_lt.2 (Nat.le_add_left _ _))
abbrev ix24 (pf : pre24.Contents (Elt F)) : (w : Fin 2) → grid24.Coords → Fin (spec24 w).shape.rank → Nat := fun | 0 => cc24_transform_0 k24_off1_inb numel1_S1 pf | 1 => cc24_transform_1 | ⟨_ + 2, h⟩ => absurd h (Nat.not_lt.2 (Nat.le_add_left _ _))
theorem hreads24 : ∀ (pf : pre24.Contents (Elt F)) w (i i' : grid24.Coords), (∀ a, (spec24 w).reads a = true → i a = i' a) → ix24 pf w i = ix24 pf w i' := fun pf => fun | 0 => hreads24_0 pf | 1 => hreads24_1 | ⟨_ + 2, h⟩ => absurd h (Nat.not_lt.2 (Nat.le_add_left _ _))
def ok24 (pf : pre24.Contents (Elt F)) : Prop :=
  (∀ i : grid24.Coords, ∃ h : (∀ a, (cc24_transform_0 k24_off1_inb numel1_S1 pf i a + 1) * S1x1x128.size a ≤ S100000x1x128.size a), EltTy.bits .f32 = 32 ∨ (Rect.block (s := S100000x1x128) S1x1x128.size (cc24_transform_0 k24_off1_inb numel1_S1 pf i) h).WholeWords (EltTy.packing .f32))
instance (pf : pre24.Contents (Elt F)) : Decidable (ok24 pf) := decidable_of_iff' _ (Iff.of_eq (ok24.eq_1 pf))
theorem hinb24 : ∀ (pf : pre24.Contents (Elt F)), ok24 pf → ∀ w (i : grid24.Coords) a, (ix24 pf w i a + 1) * (spec24 w).size a ≤ (spec24 w).shape.size a :=
  fun pf hok => fun | 0 => fun i a => (hok i).elim fun h _ => h a | 1 => hinb24_1 | ⟨_ + 2, h⟩ => absurd h (Nat.not_lt.2 (Nat.le_add_left _ _))
theorem hwx24 : ∀ (pf : pre24.Contents (Elt F)) (hok : ok24 pf) w (i : grid24.Coords), (spec24 w).elt.bits = 32 ∨ (Rect.block (spec24 w).size (ix24 pf w i) (hinb24 pf hok w i)).WholeWords (spec24 w).elt.packing :=
  fun pf hok => fun | 0 => fun i => (hok i).elim fun _ h => h | 1 => hwx24_1 | ⟨_ + 2, h⟩ => absurd h (Nat.not_lt.2 (Nat.le_add_left _ _))
abbrev spec25_0 : Pipeline.WinSpec sig grid25.rank :=
  Pipeline.WinSpec.ofSpec (Memref.whole main_v334) S1x1x128.size reads25_0 false false 2 stage25_0 sem25_0 nbuf25_0 hstage25_0

abbrev spec25_1 : Pipeline.WinSpec sig grid25.rank :=
  Pipeline.WinSpec.ofSpec (Memref.whole main_v335) S1x1x128.size reads25_1 true false 2 stage25_1 sem25_1 nbuf25_1 hstage25_1

abbrev spec25 : Fin 2 → Pipeline.WinSpec sig grid25.rank := fun | 0 => spec25_0 | 1 => spec25_1 | ⟨_ + 2, h⟩ => absurd h (Nat.not_lt.2 (Nat.le_add_left _ _))
theorem hcount25 : ∀ w, grid25.bufCount (spec25 w).reads (spec25 w).sync = (spec25 w).nbuf := fun | 0 => nbuf25_0 | 1 => nbuf25_1 | ⟨_ + 2, h⟩ => absurd h (Nat.not_lt.2 (Nat.le_add_left _ _))
abbrev ix25 (pf : pre25.Contents (Elt F)) : (w : Fin 2) → grid25.Coords → Fin (spec25 w).shape.rank → Nat := fun | 0 => cc25_transform_0 k25_off1_inb numel1_S1 pf | 1 => cc25_transform_1 | ⟨_ + 2, h⟩ => absurd h (Nat.not_lt.2 (Nat.le_add_left _ _))
theorem hreads25 : ∀ (pf : pre25.Contents (Elt F)) w (i i' : grid25.Coords), (∀ a, (spec25 w).reads a = true → i a = i' a) → ix25 pf w i = ix25 pf w i' := fun pf => fun | 0 => hreads25_0 pf | 1 => hreads25_1 | ⟨_ + 2, h⟩ => absurd h (Nat.not_lt.2 (Nat.le_add_left _ _))
def ok25 (pf : pre25.Contents (Elt F)) : Prop :=
  (∀ i : grid25.Coords, ∃ h : (∀ a, (cc25_transform_0 k25_off1_inb numel1_S1 pf i a + 1) * S1x1x128.size a ≤ S100000x1x128.size a), EltTy.bits .f32 = 32 ∨ (Rect.block (s := S100000x1x128) S1x1x128.size (cc25_transform_0 k25_off1_inb numel1_S1 pf i) h).WholeWords (EltTy.packing .f32))
instance (pf : pre25.Contents (Elt F)) : Decidable (ok25 pf) := decidable_of_iff' _ (Iff.of_eq (ok25.eq_1 pf))
theorem hinb25 : ∀ (pf : pre25.Contents (Elt F)), ok25 pf → ∀ w (i : grid25.Coords) a, (ix25 pf w i a + 1) * (spec25 w).size a ≤ (spec25 w).shape.size a :=
  fun pf hok => fun | 0 => fun i a => (hok i).elim fun h _ => h a | 1 => hinb25_1 | ⟨_ + 2, h⟩ => absurd h (Nat.not_lt.2 (Nat.le_add_left _ _))
theorem hwx25 : ∀ (pf : pre25.Contents (Elt F)) (hok : ok25 pf) w (i : grid25.Coords), (spec25 w).elt.bits = 32 ∨ (Rect.block (spec25 w).size (ix25 pf w i) (hinb25 pf hok w i)).WholeWords (spec25 w).elt.packing :=
  fun pf hok => fun | 0 => fun i => (hok i).elim fun _ h => h | 1 => hwx25_1 | ⟨_ + 2, h⟩ => absurd h (Nat.not_lt.2 (Nat.le_add_left _ _))
abbrev spec26_0 : Pipeline.WinSpec sig grid26.rank :=
  Pipeline.WinSpec.ofSpec (Memref.whole main_v347) S1x1x128.size reads26_0 false false 2 stage26_0 sem26_0 nbuf26_0 hstage26_0

abbrev spec26_1 : Pipeline.WinSpec sig grid26.rank :=
  Pipeline.WinSpec.ofSpec (Memref.whole main_v348) S1x1x128.size reads26_1 true false 2 stage26_1 sem26_1 nbuf26_1 hstage26_1

abbrev spec26 : Fin 2 → Pipeline.WinSpec sig grid26.rank := fun | 0 => spec26_0 | 1 => spec26_1 | ⟨_ + 2, h⟩ => absurd h (Nat.not_lt.2 (Nat.le_add_left _ _))
theorem hcount26 : ∀ w, grid26.bufCount (spec26 w).reads (spec26 w).sync = (spec26 w).nbuf := fun | 0 => nbuf26_0 | 1 => nbuf26_1 | ⟨_ + 2, h⟩ => absurd h (Nat.not_lt.2 (Nat.le_add_left _ _))
abbrev ix26 (pf : pre26.Contents (Elt F)) : (w : Fin 2) → grid26.Coords → Fin (spec26 w).shape.rank → Nat := fun | 0 => cc26_transform_0 k26_off1_inb numel1_S1 pf | 1 => cc26_transform_1 | ⟨_ + 2, h⟩ => absurd h (Nat.not_lt.2 (Nat.le_add_left _ _))
theorem hreads26 : ∀ (pf : pre26.Contents (Elt F)) w (i i' : grid26.Coords), (∀ a, (spec26 w).reads a = true → i a = i' a) → ix26 pf w i = ix26 pf w i' := fun pf => fun | 0 => hreads26_0 pf | 1 => hreads26_1 | ⟨_ + 2, h⟩ => absurd h (Nat.not_lt.2 (Nat.le_add_left _ _))
def ok26 (pf : pre26.Contents (Elt F)) : Prop :=
  (∀ i : grid26.Coords, ∃ h : (∀ a, (cc26_transform_0 k26_off1_inb numel1_S1 pf i a + 1) * S1x1x128.size a ≤ S100000x1x128.size a), EltTy.bits .f32 = 32 ∨ (Rect.block (s := S100000x1x128) S1x1x128.size (cc26_transform_0 k26_off1_inb numel1_S1 pf i) h).WholeWords (EltTy.packing .f32))
instance (pf : pre26.Contents (Elt F)) : Decidable (ok26 pf) := decidable_of_iff' _ (Iff.of_eq (ok26.eq_1 pf))
theorem hinb26 : ∀ (pf : pre26.Contents (Elt F)), ok26 pf → ∀ w (i : grid26.Coords) a, (ix26 pf w i a + 1) * (spec26 w).size a ≤ (spec26 w).shape.size a :=
  fun pf hok => fun | 0 => fun i a => (hok i).elim fun h _ => h a | 1 => hinb26_1 | ⟨_ + 2, h⟩ => absurd h (Nat.not_lt.2 (Nat.le_add_left _ _))
theorem hwx26 : ∀ (pf : pre26.Contents (Elt F)) (hok : ok26 pf) w (i : grid26.Coords), (spec26 w).elt.bits = 32 ∨ (Rect.block (spec26 w).size (ix26 pf w i) (hinb26 pf hok w i)).WholeWords (spec26 w).elt.packing :=
  fun pf hok => fun | 0 => fun i => (hok i).elim fun _ h => h | 1 => hwx26_1 | ⟨_ + 2, h⟩ => absurd h (Nat.not_lt.2 (Nat.le_add_left _ _))
abbrev spec27_0 : Pipeline.WinSpec sig grid27.rank :=
  Pipeline.WinSpec.ofSpec (Memref.whole main_v360) S1x1x128.size reads27_0 false false 2 stage27_0 sem27_0 nbuf27_0 hstage27_0

abbrev spec27_1 : Pipeline.WinSpec sig grid27.rank :=
  Pipeline.WinSpec.ofSpec (Memref.whole main_v361) S1x1x128.size reads27_1 true false 2 stage27_1 sem27_1 nbuf27_1 hstage27_1

abbrev spec27 : Fin 2 → Pipeline.WinSpec sig grid27.rank := fun | 0 => spec27_0 | 1 => spec27_1 | ⟨_ + 2, h⟩ => absurd h (Nat.not_lt.2 (Nat.le_add_left _ _))
theorem hcount27 : ∀ w, grid27.bufCount (spec27 w).reads (spec27 w).sync = (spec27 w).nbuf := fun | 0 => nbuf27_0 | 1 => nbuf27_1 | ⟨_ + 2, h⟩ => absurd h (Nat.not_lt.2 (Nat.le_add_left _ _))
abbrev ix27 (pf : pre27.Contents (Elt F)) : (w : Fin 2) → grid27.Coords → Fin (spec27 w).shape.rank → Nat := fun | 0 => cc27_transform_0 k27_off1_inb numel1_S1 pf | 1 => cc27_transform_1 | ⟨_ + 2, h⟩ => absurd h (Nat.not_lt.2 (Nat.le_add_left _ _))
theorem hreads27 : ∀ (pf : pre27.Contents (Elt F)) w (i i' : grid27.Coords), (∀ a, (spec27 w).reads a = true → i a = i' a) → ix27 pf w i = ix27 pf w i' := fun pf => fun | 0 => hreads27_0 pf | 1 => hreads27_1 | ⟨_ + 2, h⟩ => absurd h (Nat.not_lt.2 (Nat.le_add_left _ _))
def ok27 (pf : pre27.Contents (Elt F)) : Prop :=
  (∀ i : grid27.Coords, ∃ h : (∀ a, (cc27_transform_0 k27_off1_inb numel1_S1 pf i a + 1) * S1x1x128.size a ≤ S100000x1x128.size a), EltTy.bits .f32 = 32 ∨ (Rect.block (s := S100000x1x128) S1x1x128.size (cc27_transform_0 k27_off1_inb numel1_S1 pf i) h).WholeWords (EltTy.packing .f32))
instance (pf : pre27.Contents (Elt F)) : Decidable (ok27 pf) := decidable_of_iff' _ (Iff.of_eq (ok27.eq_1 pf))
theorem hinb27 : ∀ (pf : pre27.Contents (Elt F)), ok27 pf → ∀ w (i : grid27.Coords) a, (ix27 pf w i a + 1) * (spec27 w).size a ≤ (spec27 w).shape.size a :=
  fun pf hok => fun | 0 => fun i a => (hok i).elim fun h _ => h a | 1 => hinb27_1 | ⟨_ + 2, h⟩ => absurd h (Nat.not_lt.2 (Nat.le_add_left _ _))
theorem hwx27 : ∀ (pf : pre27.Contents (Elt F)) (hok : ok27 pf) w (i : grid27.Coords), (spec27 w).elt.bits = 32 ∨ (Rect.block (spec27 w).size (ix27 pf w i) (hinb27 pf hok w i)).WholeWords (spec27 w).elt.packing :=
  fun pf hok => fun | 0 => fun i => (hok i).elim fun _ h => h | 1 => hwx27_1 | ⟨_ + 2, h⟩ => absurd h (Nat.not_lt.2 (Nat.le_add_left _ _))
abbrev spec28_0 : Pipeline.WinSpec sig grid28.rank :=
  Pipeline.WinSpec.ofSpec (Memref.whole main_v373) S1x1x128.size reads28_0 false false 2 stage28_0 sem28_0 nbuf28_0 hstage28_0

abbrev spec28_1 : Pipeline.WinSpec sig grid28.rank :=
  Pipeline.WinSpec.ofSpec (Memref.whole main_v374) S1x1x128.size reads28_1 true false 2 stage28_1 sem28_1 nbuf28_1 hstage28_1

abbrev spec28 : Fin 2 → Pipeline.WinSpec sig grid28.rank := fun | 0 => spec28_0 | 1 => spec28_1 | ⟨_ + 2, h⟩ => absurd h (Nat.not_lt.2 (Nat.le_add_left _ _))
theorem hcount28 : ∀ w, grid28.bufCount (spec28 w).reads (spec28 w).sync = (spec28 w).nbuf := fun | 0 => nbuf28_0 | 1 => nbuf28_1 | ⟨_ + 2, h⟩ => absurd h (Nat.not_lt.2 (Nat.le_add_left _ _))
abbrev ix28 (pf : pre28.Contents (Elt F)) : (w : Fin 2) → grid28.Coords → Fin (spec28 w).shape.rank → Nat := fun | 0 => cc28_transform_0 k28_off1_inb numel1_S1 pf | 1 => cc28_transform_1 | ⟨_ + 2, h⟩ => absurd h (Nat.not_lt.2 (Nat.le_add_left _ _))
theorem hreads28 : ∀ (pf : pre28.Contents (Elt F)) w (i i' : grid28.Coords), (∀ a, (spec28 w).reads a = true → i a = i' a) → ix28 pf w i = ix28 pf w i' := fun pf => fun | 0 => hreads28_0 pf | 1 => hreads28_1 | ⟨_ + 2, h⟩ => absurd h (Nat.not_lt.2 (Nat.le_add_left _ _))
def ok28 (pf : pre28.Contents (Elt F)) : Prop :=
  (∀ i : grid28.Coords, ∃ h : (∀ a, (cc28_transform_0 k28_off1_inb numel1_S1 pf i a + 1) * S1x1x128.size a ≤ S100000x1x128.size a), EltTy.bits .f32 = 32 ∨ (Rect.block (s := S100000x1x128) S1x1x128.size (cc28_transform_0 k28_off1_inb numel1_S1 pf i) h).WholeWords (EltTy.packing .f32))
instance (pf : pre28.Contents (Elt F)) : Decidable (ok28 pf) := decidable_of_iff' _ (Iff.of_eq (ok28.eq_1 pf))
theorem hinb28 : ∀ (pf : pre28.Contents (Elt F)), ok28 pf → ∀ w (i : grid28.Coords) a, (ix28 pf w i a + 1) * (spec28 w).size a ≤ (spec28 w).shape.size a :=
  fun pf hok => fun | 0 => fun i a => (hok i).elim fun h _ => h a | 1 => hinb28_1 | ⟨_ + 2, h⟩ => absurd h (Nat.not_lt.2 (Nat.le_add_left _ _))
theorem hwx28 : ∀ (pf : pre28.Contents (Elt F)) (hok : ok28 pf) w (i : grid28.Coords), (spec28 w).elt.bits = 32 ∨ (Rect.block (spec28 w).size (ix28 pf w i) (hinb28 pf hok w i)).WholeWords (spec28 w).elt.packing :=
  fun pf hok => fun | 0 => fun i => (hok i).elim fun _ h => h | 1 => hwx28_1 | ⟨_ + 2, h⟩ => absurd h (Nat.not_lt.2 (Nat.le_add_left _ _))
abbrev spec29_0 : Pipeline.WinSpec sig grid29.rank :=
  Pipeline.WinSpec.ofSpec (Memref.whole main_v386) S1x1x128.size reads29_0 false false 2 stage29_0 sem29_0 nbuf29_0 hstage29_0

abbrev spec29_1 : Pipeline.WinSpec sig grid29.rank :=
  Pipeline.WinSpec.ofSpec (Memref.whole main_v387) S1x1x128.size reads29_1 true false 2 stage29_1 sem29_1 nbuf29_1 hstage29_1

abbrev spec29 : Fin 2 → Pipeline.WinSpec sig grid29.rank := fun | 0 => spec29_0 | 1 => spec29_1 | ⟨_ + 2, h⟩ => absurd h (Nat.not_lt.2 (Nat.le_add_left _ _))
theorem hcount29 : ∀ w, grid29.bufCount (spec29 w).reads (spec29 w).sync = (spec29 w).nbuf := fun | 0 => nbuf29_0 | 1 => nbuf29_1 | ⟨_ + 2, h⟩ => absurd h (Nat.not_lt.2 (Nat.le_add_left _ _))
abbrev ix29 (pf : pre29.Contents (Elt F)) : (w : Fin 2) → grid29.Coords → Fin (spec29 w).shape.rank → Nat := fun | 0 => cc29_transform_0 k29_off1_inb numel1_S1 pf | 1 => cc29_transform_1 | ⟨_ + 2, h⟩ => absurd h (Nat.not_lt.2 (Nat.le_add_left _ _))
theorem hreads29 : ∀ (pf : pre29.Contents (Elt F)) w (i i' : grid29.Coords), (∀ a, (spec29 w).reads a = true → i a = i' a) → ix29 pf w i = ix29 pf w i' := fun pf => fun | 0 => hreads29_0 pf | 1 => hreads29_1 | ⟨_ + 2, h⟩ => absurd h (Nat.not_lt.2 (Nat.le_add_left _ _))
def ok29 (pf : pre29.Contents (Elt F)) : Prop :=
  (∀ i : grid29.Coords, ∃ h : (∀ a, (cc29_transform_0 k29_off1_inb numel1_S1 pf i a + 1) * S1x1x128.size a ≤ S100000x1x128.size a), EltTy.bits .f32 = 32 ∨ (Rect.block (s := S100000x1x128) S1x1x128.size (cc29_transform_0 k29_off1_inb numel1_S1 pf i) h).WholeWords (EltTy.packing .f32))
instance (pf : pre29.Contents (Elt F)) : Decidable (ok29 pf) := decidable_of_iff' _ (Iff.of_eq (ok29.eq_1 pf))
theorem hinb29 : ∀ (pf : pre29.Contents (Elt F)), ok29 pf → ∀ w (i : grid29.Coords) a, (ix29 pf w i a + 1) * (spec29 w).size a ≤ (spec29 w).shape.size a :=
  fun pf hok => fun | 0 => fun i a => (hok i).elim fun h _ => h a | 1 => hinb29_1 | ⟨_ + 2, h⟩ => absurd h (Nat.not_lt.2 (Nat.le_add_left _ _))
theorem hwx29 : ∀ (pf : pre29.Contents (Elt F)) (hok : ok29 pf) w (i : grid29.Coords), (spec29 w).elt.bits = 32 ∨ (Rect.block (spec29 w).size (ix29 pf w i) (hinb29 pf hok w i)).WholeWords (spec29 w).elt.packing :=
  fun pf hok => fun | 0 => fun i => (hok i).elim fun _ h => h | 1 => hwx29_1 | ⟨_ + 2, h⟩ => absurd h (Nat.not_lt.2 (Nat.le_add_left _ _))
abbrev spec30_0 : Pipeline.WinSpec sig grid30.rank :=
  Pipeline.WinSpec.ofSpec (Memref.whole main_v399) S1x1x128.size reads30_0 false false 2 stage30_0 sem30_0 nbuf30_0 hstage30_0

abbrev spec30_1 : Pipeline.WinSpec sig grid30.rank :=
  Pipeline.WinSpec.ofSpec (Memref.whole main_v400) S1x1x128.size reads30_1 true false 2 stage30_1 sem30_1 nbuf30_1 hstage30_1

abbrev spec30 : Fin 2 → Pipeline.WinSpec sig grid30.rank := fun | 0 => spec30_0 | 1 => spec30_1 | ⟨_ + 2, h⟩ => absurd h (Nat.not_lt.2 (Nat.le_add_left _ _))
theorem hcount30 : ∀ w, grid30.bufCount (spec30 w).reads (spec30 w).sync = (spec30 w).nbuf := fun | 0 => nbuf30_0 | 1 => nbuf30_1 | ⟨_ + 2, h⟩ => absurd h (Nat.not_lt.2 (Nat.le_add_left _ _))
abbrev ix30 (pf : pre30.Contents (Elt F)) : (w : Fin 2) → grid30.Coords → Fin (spec30 w).shape.rank → Nat := fun | 0 => cc30_transform_0 k30_off1_inb numel1_S1 pf | 1 => cc30_transform_1 | ⟨_ + 2, h⟩ => absurd h (Nat.not_lt.2 (Nat.le_add_left _ _))
theorem hreads30 : ∀ (pf : pre30.Contents (Elt F)) w (i i' : grid30.Coords), (∀ a, (spec30 w).reads a = true → i a = i' a) → ix30 pf w i = ix30 pf w i' := fun pf => fun | 0 => hreads30_0 pf | 1 => hreads30_1 | ⟨_ + 2, h⟩ => absurd h (Nat.not_lt.2 (Nat.le_add_left _ _))
def ok30 (pf : pre30.Contents (Elt F)) : Prop :=
  (∀ i : grid30.Coords, ∃ h : (∀ a, (cc30_transform_0 k30_off1_inb numel1_S1 pf i a + 1) * S1x1x128.size a ≤ S100000x1x128.size a), EltTy.bits .f32 = 32 ∨ (Rect.block (s := S100000x1x128) S1x1x128.size (cc30_transform_0 k30_off1_inb numel1_S1 pf i) h).WholeWords (EltTy.packing .f32))
instance (pf : pre30.Contents (Elt F)) : Decidable (ok30 pf) := decidable_of_iff' _ (Iff.of_eq (ok30.eq_1 pf))
theorem hinb30 : ∀ (pf : pre30.Contents (Elt F)), ok30 pf → ∀ w (i : grid30.Coords) a, (ix30 pf w i a + 1) * (spec30 w).size a ≤ (spec30 w).shape.size a :=
  fun pf hok => fun | 0 => fun i a => (hok i).elim fun h _ => h a | 1 => hinb30_1 | ⟨_ + 2, h⟩ => absurd h (Nat.not_lt.2 (Nat.le_add_left _ _))
theorem hwx30 : ∀ (pf : pre30.Contents (Elt F)) (hok : ok30 pf) w (i : grid30.Coords), (spec30 w).elt.bits = 32 ∨ (Rect.block (spec30 w).size (ix30 pf w i) (hinb30 pf hok w i)).WholeWords (spec30 w).elt.packing :=
  fun pf hok => fun | 0 => fun i => (hok i).elim fun _ h => h | 1 => hwx30_1 | ⟨_ + 2, h⟩ => absurd h (Nat.not_lt.2 (Nat.le_add_left _ _))
abbrev spec31_0 : Pipeline.WinSpec sig grid31.rank :=
  Pipeline.WinSpec.ofSpec (Memref.whole main_v412) S1x1x128.size reads31_0 false false 2 stage31_0 sem31_0 nbuf31_0 hstage31_0

abbrev spec31_1 : Pipeline.WinSpec sig grid31.rank :=
  Pipeline.WinSpec.ofSpec (Memref.whole main_v413) S1x1x128.size reads31_1 true false 2 stage31_1 sem31_1 nbuf31_1 hstage31_1

abbrev spec31 : Fin 2 → Pipeline.WinSpec sig grid31.rank := fun | 0 => spec31_0 | 1 => spec31_1 | ⟨_ + 2, h⟩ => absurd h (Nat.not_lt.2 (Nat.le_add_left _ _))
theorem hcount31 : ∀ w, grid31.bufCount (spec31 w).reads (spec31 w).sync = (spec31 w).nbuf := fun | 0 => nbuf31_0 | 1 => nbuf31_1 | ⟨_ + 2, h⟩ => absurd h (Nat.not_lt.2 (Nat.le_add_left _ _))
abbrev ix31 (pf : pre31.Contents (Elt F)) : (w : Fin 2) → grid31.Coords → Fin (spec31 w).shape.rank → Nat := fun | 0 => cc31_transform_0 k31_off1_inb numel1_S1 pf | 1 => cc31_transform_1 | ⟨_ + 2, h⟩ => absurd h (Nat.not_lt.2 (Nat.le_add_left _ _))
theorem hreads31 : ∀ (pf : pre31.Contents (Elt F)) w (i i' : grid31.Coords), (∀ a, (spec31 w).reads a = true → i a = i' a) → ix31 pf w i = ix31 pf w i' := fun pf => fun | 0 => hreads31_0 pf | 1 => hreads31_1 | ⟨_ + 2, h⟩ => absurd h (Nat.not_lt.2 (Nat.le_add_left _ _))
def ok31 (pf : pre31.Contents (Elt F)) : Prop :=
  (∀ i : grid31.Coords, ∃ h : (∀ a, (cc31_transform_0 k31_off1_inb numel1_S1 pf i a + 1) * S1x1x128.size a ≤ S100000x1x128.size a), EltTy.bits .f32 = 32 ∨ (Rect.block (s := S100000x1x128) S1x1x128.size (cc31_transform_0 k31_off1_inb numel1_S1 pf i) h).WholeWords (EltTy.packing .f32))
instance (pf : pre31.Contents (Elt F)) : Decidable (ok31 pf) := decidable_of_iff' _ (Iff.of_eq (ok31.eq_1 pf))
theorem hinb31 : ∀ (pf : pre31.Contents (Elt F)), ok31 pf → ∀ w (i : grid31.Coords) a, (ix31 pf w i a + 1) * (spec31 w).size a ≤ (spec31 w).shape.size a :=
  fun pf hok => fun | 0 => fun i a => (hok i).elim fun h _ => h a | 1 => hinb31_1 | ⟨_ + 2, h⟩ => absurd h (Nat.not_lt.2 (Nat.le_add_left _ _))
theorem hwx31 : ∀ (pf : pre31.Contents (Elt F)) (hok : ok31 pf) w (i : grid31.Coords), (spec31 w).elt.bits = 32 ∨ (Rect.block (spec31 w).size (ix31 pf w i) (hinb31 pf hok w i)).WholeWords (spec31 w).elt.packing :=
  fun pf hok => fun | 0 => fun i => (hok i).elim fun _ h => h | 1 => hwx31_1 | ⟨_ + 2, h⟩ => absurd h (Nat.not_lt.2 (Nat.le_add_left _ _))
abbrev win32_0 : Pipeline.Window sig grid32 :=
  Pipeline.Window.ofSpec (Memref.whole main_v418) S1000x128.size cc32_transform_0 reads32_0 false false 2 stage32_0 sem32_0
    hrank32 hreads32_0 hinb32_0 nbuf32_0 (Memref.isWhole_whole _) hwx32_0 hstage32_0

abbrev win32_1 : Pipeline.Window sig grid32 :=
  Pipeline.Window.ofSpec (Memref.whole main_v423) S1000x1.size cc32_transform_1 reads32_1 false false 2 stage32_1 sem32_1
    hrank32 hreads32_1 hinb32_1 nbuf32_1 (Memref.isWhole_whole _) hwx32_1 hstage32_1

abbrev win32_2 : Pipeline.Window sig grid32 :=
  Pipeline.Window.ofSpec (Memref.whole main_arg2) S128x128.size cc32_transform_2 reads32_2 false true 1 stage32_2 sem32_2
    hrank32 hreads32_2 hinb32_2 nbuf32_2 (Memref.isWhole_whole _) hwx32_2 hstage32_2

abbrev win32_3 : Pipeline.Window sig grid32 :=
  Pipeline.Window.ofSpec (Memref.whole main_v424) S1000x128.size cc32_transform_3 reads32_3 true false 2 stage32_3 sem32_3
    hrank32 hreads32_3 hinb32_3 nbuf32_3 (Memref.isWhole_whole _) hwx32_3 hstage32_3

abbrev win32 : Fin 4 → Pipeline.Window sig grid32 := fun | 0 => win32_0 | 1 => win32_1 | 2 => win32_2 | 3 => win32_3 | ⟨_ + 4, h⟩ => absurd h (Nat.not_lt.2 (Nat.le_add_left _ _))
abbrev spec32 : Fin 4 → Pipeline.WinSpec sig grid32.rank := fun w => (win32 w).toWinSpec

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole
  harr9 : ∀ w, (spec9 w).arr.IsWhole
  harr10 : ∀ w, (spec10 w).arr.IsWhole
  harr11 : ∀ w, (spec11 w).arr.IsWhole
  harr12 : ∀ w, (spec12 w).arr.IsWhole
  harr13 : ∀ w, (spec13 w).arr.IsWhole
  harr14 : ∀ w, (spec14 w).arr.IsWhole
  harr15 : ∀ w, (spec15 w).arr.IsWhole
  harr16 : ∀ w, (spec16 w).arr.IsWhole
  harr17 : ∀ w, (spec17 w).arr.IsWhole
  harr18 : ∀ w, (spec18 w).arr.IsWhole
  harr19 : ∀ w, (spec19 w).arr.IsWhole
  harr20 : ∀ w, (spec20 w).arr.IsWhole
  harr21 : ∀ w, (spec21 w).arr.IsWhole
  harr22 : ∀ w, (spec22 w).arr.IsWhole
  harr23 : ∀ w, (spec23 w).arr.IsWhole
  harr24 : ∀ w, (spec24 w).arr.IsWhole
  harr25 : ∀ w, (spec25 w).arr.IsWhole
  harr26 : ∀ w, (spec26 w).arr.IsWhole
  harr27 : ∀ w, (spec27 w).arr.IsWhole
  harr28 : ∀ w, (spec28 w).arr.IsWhole
  harr29 : ∀ w, (spec29 w).arr.IsWhole
  harr30 : ∀ w, (spec30 w).arr.IsWhole
  harr31 : ∀ w, (spec31 w).arr.IsWhole

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 33
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.K.Vals.lean ====
/-
  The values the program computes, as functions of the three argument arrays, at any float instance.
  With X the node features [100000,128], A the edge list [2,1600000] (row 0 the target node of each edge's message,
  row 1 the node whose features travel) and W the weights [128,128]:
  the edges are cut into 32 chunks of 50000; chunk p gathers the rows X[A[1, 50000p + e]] (one row per grid point),
  the host adds them into the running sum at the rows A[0, 50000p + e] and counts the edges per target row; the last
  kernel divides each summed row by max(count, 1) and multiplies by W, 1000 rows at a time.
-/
import proofs.«406793_j90890097918585_2_alg».proof.Kernel
import proofs.«406793_j90890097918585_2_alg».proof.Proof.Gen.Kernel.Skeleton
import Idealize.ShloMosaic.Lib.ValueIdx

noncomputable section

namespace Cert.Kernel.Vals

open Cert.Kernel Cert.Kernel.Facts₀ Cert.Kernel.Facts
open Idealize.ShloMosaic Idealize.ShloMosaic.TcCoe Idealize.SL.Sem

variable {F : FTy → Type} [FloatOps F]
/-- The row of X a table word names (words are below 100000 under the precondition; the minimum keeps this total). -/
def rowOf (w : BitVec 32) : Fin 100000 := ⟨min w.toNat 99999, by omega⟩

variable (m : (ℓ : Loc nD τ sig) → Buf (Elt F) ℓ)

/-- The node features, the edge list and the weights on core `c`. -/
def X (c : Dev nD) : FVec F S100000x128 .f32 := m ((c : Thread nD τ).loc main_arg0)
def Adj (c : Dev nD) : IVec S2x1600000 32 := m ((c : Thread nD τ).loc main_arg1)
def Wt (c : Dev nD) : FVec F S128x128 .f32 := m ((c : Thread nD τ).loc main_arg2)

/-- Row 0 of the edge list: where each edge's message is added. -/
def src (c : Dev nD) : IVec S1600000 32 :=
  shapeCast S1600000 (extractStridedSlice S1x1600000 ![0, 0] (Adj m c) slices_S2x1600000_S1x1600000_0_0) shapeCasts_S1x1600000_S1600000
/-- Row 1 of the edge list: whose features each edge carries. -/
def dst (c : Dev nD) : IVec S1600000 32 :=
  shapeCast S1600000 (extractStridedSlice S1x1600000 ![1, 0] (Adj m c) slices_S2x1600000_S1x1600000_1_0) shapeCasts_S1x1600000_S1600000
/-- The features as [100000, 1, 128], the form the gather kernels read. -/
def X3 (c : Dev nD) : FVec F S100000x1x128 .f32 := shapeCast S100000x1x128 (X m c) shapeCasts_S100000x128_S100000x1x128

def zeros2 : FVec F S100000x128 .f32 := broadcastInDim S100000x128 ![] bcast_S_S100000x128 (constant S_ .f32 0x00000000#32)
def zeros1 : FVec F S100000 .f32 := broadcastInDim S100000 ![] bcast_S_S100000 (constant S_ .f32 0x00000000#32)
def ones : FVec F S50000 .f32 := broadcastInDim S50000 ![] bcast_S_S50000 (constant S_ .f32 0x3F800000#32)

/-- Chunk `p` of 50000 edges lies inside the 1600000. -/
theorem chunk_slices (p : ℕ) (hp : p < 32) : S1600000.Slices ![50000 * p] S50000 :=
  ⟨rfl, fun a => by
    have ha : a = 0 := Subsingleton.elim _ _
    subst ha
    show 50000 * p + 50000 ≤ 1600000
    omega⟩

/-- The edges of chunk `p`: their feature rows (the gather's table) and their target rows. -/
def dstc (p : ℕ) (c : Dev nD) : IVec S50000 32 :=
  if hp : p < 32 then extractStridedSlice S50000 ![50000 * p] (dst m c) (chunk_slices p hp) else fun _ => 0#32
def srcc (p : ℕ) (c : Dev nD) : IVec S50000 32 :=
  if hp : p < 32 then extractStridedSlice S50000 ![50000 * p] (src m c) (chunk_slices p hp) else fun _ => 0#32

/-- A gather region's output array [50000, 1, 128] from the array `Y` it reads and its table `T`: row e is row `T[e]` of `Y`. -/
def gath3Of (Y : FVec F S100000x1x128 .f32) (T : IVec S50000 32) : FVec F S50000x1x128 .f32 :=
  fun j => Y (ValueIdx.ix3 (rowOf (T (ValueIdx.ix1 (j 0)))) (j 1) (j 2))
/-- What gather region `p` leaves in its output array: row e is row `dstc p [e]` of X. -/
def gath3 (p : ℕ) (c : Dev nD) : FVec F S50000x1x128 .f32 := gath3Of (X3 m c) (dstc m p c)
/-- The same as [50000, 128], as the host adds it. -/
def gath2 (p : ℕ) (c : Dev nD) : FVec F S50000x128 .f32 := shapeCast S50000x128 (gath3 m p c) shapeCasts_S50000x1x128_S50000x128

/-- The sum of the gathered rows after `p` chunks, added at the edges' target rows. -/
def agg : ℕ → Dev nD → FVec F S100000x128 .f32
  | 0, _ => zeros2
  | p + 1, c => addf (agg p c) (Host.scatterAdd scatter_S100000x128_S50000x1_S50000x128_1_0_0_1 zeros2
      (broadcastInDim S50000x1 ![0] bcast_S50000_S50000x1_0 (srcc m p c)) (gath2 m p c))
/-- The number of edges per target row after `p` chunks. -/
def deg : ℕ → Dev nD → FVec F S100000 .f32
  | 0, _ => zeros1
  | p + 1, c => addf (deg p c) (Host.scatterAdd scatter_S100000_S50000x1_S50000_n_0_0_1 zeros1
      (broadcastInDim S50000x1 ![0] bcast_S50000_S50000x1_0 (srcc m p c)) ones)
/-- The final counts as a column [100000, 1]. -/
def degCol (c : Dev nD) : FVec F S100000x1 .f32 := broadcastInDim S100000x1 ![0] bcast_S100000_S100000x1_0 (deg m 32 c)

/-- Rows 1000t … 1000t + 999 of an array of 100000 rows. -/
def rows2 (A : FVec F S100000x128 .f32) (t : Fin 100) : Vec F S1000x128 .f32 :=
  fun y => A (ValueIdx.ix2 ⟨1000 * t.val + (y 0).val, by have := ValueIdx.idx2_lt0 y; have := t.isLt; omega⟩ (y 1))
def rows1 (A : FVec F S100000x1 .f32) (t : Fin 100) : Vec F S1000x1 .f32 :=
  fun y => A (ValueIdx.ix2 ⟨1000 * t.val + (y 0).val, by have := ValueIdx.idx2_lt0 y; have := t.isLt; omega⟩ (y 1))

/-- The last kernel's output array from the arrays it reads (the counts column `D`, the sums `A`, the weights `W`): block t
    of 1000 rows is the kernel's body on block t of `D`, block t of `A` and `W`. -/
def outOf (D : FVec F S100000x1 .f32) (A : FVec F S100000x128 .f32) (W : FVec F S128x128 .f32) : FVec F S100000x128 .f32 :=
  fun i => Gen.k32_pay1 (rows1 D ⟨(i 0).val / 1000, by have := ValueIdx.idx2_lt0 i; omega⟩)
      (rows2 A ⟨(i 0).val / 1000, by have := ValueIdx.idx2_lt0 i; omega⟩) W
      (ValueIdx.ix2 ⟨(i 0).val % 1000, Nat.mod_lt _ (by decide)⟩ (i 1))
/-- The result. -/
def out (c : Dev nD) : FVec F S100000x128 .f32 := outOf (degCol m c) (agg m 32 c) (Wt m c)

end Cert.Kernel.Vals

end
-- ==== Proof.K.Outs.lean ====
/- What each kernel region leaves in the one array it may change, as a function of the argument arrays: gather region p
   (item 2p+1 of the program) leaves the rows of chunk p, the last region the result. -/
import proofs.«406793_j90890097918585_2_alg».proof.Proof.K.Regions
import proofs.«406793_j90890097918585_2_alg».proof.Proof.K.Vals

noncomputable section

namespace Cert.Kernel.Vals

open Cert.Kernel Cert.Kernel.GenP
open Idealize.ShloMosaic Idealize.ShloMosaic.TcCoe Idealize.SL.Sem

variable {F : FTy → Type} [FloatOps F]
variable (m : (ℓ : Loc nD τ sig) → Buf (Elt F) ℓ)

/-- The contents each region leaves, indexed as the conditional frame reads them (item, array, core). -/
def outs : GenP.Outs (F := F) := fun J r c =>
  match J with
  | 2 => Function.update (fun r' => m ((c : Thread nD τ).loc r')) main_v10 (gath3 m 0 c) r
  | 4 => Function.update (fun r' => m ((c : Thread nD τ).loc r')) main_v23 (gath3 m 1 c) r
  | 6 => Function.update (fun r' => m ((c : Thread nD τ).loc r')) main_v36 (gath3 m 2 c) r
  | 8 => Function.update (fun r' => m ((c : Thread nD τ).loc r')) main_v49 (gath3 m 3 c) r
  | 10 => Function.update (fun r' => m ((c : Thread nD τ).loc r')) main_v62 (gath3 m 4 c) r
  | 12 => Function.update (fun r' => m ((c : Thread nD τ).loc r')) main_v75 (gath3 m 5 c) r
  | 14 => Function.update (fun r' => m ((c : Thread nD τ).loc r')) main_v88 (gath3 m 6 c) r
  | 16 => Function.update (fun r' => m ((c : Thread nD τ).loc r')) main_v101 (gath3 m 7 c) r
  | 18 => Function.update (fun r' => m ((c : Thread nD τ).loc r')) main_v114 (gath3 m 8 c) r
  | 20 => Function.update (fun r' => m ((c : Thread nD τ).loc r')) main_v127 (gath3 m 9 c) r
  | 22 => Function.update (fun r' => m ((c : Thread nD τ).loc r')) main_v140 (gath3 m 10 c) r
  | 24 => Function.update (fun r' => m ((c : Thread nD τ).loc r')) main_v153 (gath3 m 11 c) r
  | 26 => Function.update (fun r' => m ((c : Thread nD τ).loc r')) main_v166 (gath3 m 12 c) r
  | 28 => Function.update (fun r' => m ((c : Thread nD τ).loc r')) main_v179 (gath3 m 13 c) r
  | 30 => Function.update (fun r' => m ((c : Thread nD τ).loc r')) main_v192 (gath3 m 14 c) r
  | 32 => Function.update (fun r' => m ((c : Thread nD τ).loc r')) main_v205 (gath3 m 15 c) r
  | 34 => Function.update (fun r' => m ((c : Thread nD τ).loc r')) main_v218 (gath3 m 16 c) r
  | 36 => Function.update (fun r' => m ((c : Thread nD τ).loc r')) main_v231 (gath3 m 17 c) r
  | 38 => Function.update (fun r' => m ((c : Thread nD τ).loc r')) main_v244 (gath3 m 18 c) r
  | 40 => Function.update (fun r' => m ((c : Thread nD τ).loc r')) main_v257 (gath3 m 19 c) r
  | 42 => Function.update (fun r' => m ((c : Thread nD τ).loc r')) main_v270 (gath3 m 20 c) r
  | 44 => Function.update (fun r' => m ((c : Thread nD τ).loc r')) main_v283 (gath3 m 21 c) r
  | 46 => Function.update (fun r' => m ((c : Thread nD τ).loc r')) main_v296 (gath3 m 22 c) r
  | 48 => Function.update (fun r' => m ((c : Thread nD τ).loc r')) main_v309 (gath3 m 23 c) r
  | 50 => Function.update (fun r' => m ((c : Thread nD τ).loc r')) main_v322 (gath3 m 24 c) r
  | 52 => Function.update (fun r' => m ((c : Thread nD τ).loc r')) main_v335 (gath3 m 25 c) r
  | 54 => Function.update (fun r' => m ((c : Thread nD τ).loc r')) main_v348 (gath3 m 26 c) r
  | 56 => Function.update (fun r' => m ((c : Thread nD τ).loc r')) main_v361 (gath3 m 27 c) r
  | 58 => Function.update (fun r' => m ((c : Thread nD τ).loc r')) main_v374 (gath3 m 28 c) r
  | 60 => Function.update (fun r' => m ((c : Thread nD τ).loc r')) main_v387 (gath3 m 29 c) r
  | 62 => Function.update (fun r' => m ((c : Thread nD τ).loc r')) main_v400 (gath3 m 30 c) r
  | 64 => Function.update (fun r' => m ((c : Thread nD τ).loc r')) main_v413 (gath3 m 31 c) r
  | 66 => Function.update (fun r' => m ((c : Thread nD τ).loc r')) main_v424 (out m c) r
  | _ => m ((c : Thread nD τ).loc r)

theorem outs_0 (c : Dev nD) : outs m 2 main_v10 c = gath3 m 0 c := by
  unfold outs; exact Function.update_self ..
theorem outs_1 (c : Dev nD) : outs m 4 main_v23 c = gath3 m 1 c := by
  unfold outs; exact Function.update_self ..
theorem outs_2 (c : Dev nD) : outs m 6 main_v36 c = gath3 m 2 c := by
  unfold outs; exact Function.update_self ..
theorem outs_3 (c : Dev nD) : outs m 8 main_v49 c = gath3 m 3 c := by
  unfold outs; exact Function.update_self ..
theorem outs_4 (c : Dev nD) : outs m 10 main_v62 c = gath3 m 4 c := by
  unfold outs; exact Function.update_self ..
theorem outs_5 (c : Dev nD) : outs m 12 main_v75 c = gath3 m 5 c := by
  unfold outs; exact Function.update_self ..
theorem outs_6 (c : Dev nD) : outs m 14 main_v88 c = gath3 m 6 c := by
  unfold outs; exact Function.update_self ..
theorem outs_7 (c : Dev nD) : outs m 16 main_v101 c = gath3 m 7 c := by
  unfold outs; exact Function.update_self ..
theorem outs_8 (c : Dev nD) : outs m 18 main_v114 c = gath3 m 8 c := by
  unfold outs; exact Function.update_self ..
theorem outs_9 (c : Dev nD) : outs m 20 main_v127 c = gath3 m 9 c := by
  unfold outs; exact Function.update_self ..
theorem outs_10 (c : Dev nD) : outs m 22 main_v140 c = gath3 m 10 c := by
  unfold outs; exact Function.update_self ..
theorem outs_11 (c : Dev nD) : outs m 24 main_v153 c = gath3 m 11 c := by
  unfold outs; exact Function.update_self ..
theorem outs_12 (c : Dev nD) : outs m 26 main_v166 c = gath3 m 12 c := by
  unfold outs; exact Function.update_self ..
theorem outs_13 (c : Dev nD) : outs m 28 main_v179 c = gath3 m 13 c := by
  unfold outs; exact Function.update_self ..
theorem outs_14 (c : Dev nD) : outs m 30 main_v192 c = gath3 m 14 c := by
  unfold outs; exact Function.update_self ..
theorem outs_15 (c : Dev nD) : outs m 32 main_v205 c = gath3 m 15 c := by
  unfold outs; exact Function.update_self ..
theorem outs_16 (c : Dev nD) : outs m 34 main_v218 c = gath3 m 16 c := by
  unfold outs; exact Function.update_self ..
theorem outs_17 (c : Dev nD) : outs m 36 main_v231 c = gath3 m 17 c := by
  unfold outs; exact Function.update_self ..
theorem outs_18 (c : Dev nD) : outs m 38 main_v244 c = gath3 m 18 c := by
  unfold outs; exact Function.update_self ..
theorem outs_19 (c : Dev nD) : outs m 40 main_v257 c = gath3 m 19 c := by
  unfold outs; exact Function.update_self ..
theorem outs_20 (c : Dev nD) : outs m 42 main_v270 c = gath3 m 20 c := by
  unfold outs; exact Function.update_self ..
theorem outs_21 (c : Dev nD) : outs m 44 main_v283 c = gath3 m 21 c := by
  unfold outs; exact Function.update_self ..
theorem outs_22 (c : Dev nD) : outs m 46 main_v296 c = gath3 m 22 c := by
  unfold outs; exact Function.update_self ..
theorem outs_23 (c : Dev nD) : outs m 48 main_v309 c = gath3 m 23 c := by
  unfold outs; exact Function.update_self ..
theorem outs_24 (c : Dev nD) : outs m 50 main_v322 c = gath3 m 24 c := by
  unfold outs; exact Function.update_self ..
theorem outs_25 (c : Dev nD) : outs m 52 main_v335 c = gath3 m 25 c := by
  unfold outs; exact Function.update_self ..
theorem outs_26 (c : Dev nD) : outs m 54 main_v348 c = gath3 m 26 c := by
  unfold outs; exact Function.update_self ..
theorem outs_27 (c : Dev nD) : outs m 56 main_v361 c = gath3 m 27 c := by
  unfold outs; exact Function.update_self ..
theorem outs_28 (c : Dev nD) : outs m 58 main_v374 c = gath3 m 28 c := by
  unfold outs; exact Function.update_self ..
theorem outs_29 (c : Dev nD) : outs m 60 main_v387 c = gath3 m 29 c := by
  unfold outs; exact Function.update_self ..
theorem outs_30 (c : Dev nD) : outs m 62 main_v400 c = gath3 m 30 c := by
  unfold outs; exact Function.update_self ..
theorem outs_31 (c : Dev nD) : outs m 64 main_v413 c = gath3 m 31 c := by
  unfold outs; exact Function.update_self ..
theorem outs_32 (c : Dev nD) : outs m 66 main_v424 c = out m c := by
  unfold outs; exact Function.update_self ..

end Cert.Kernel.Vals

end
-- ==== Proof.K.G0.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre0.Contents (Elt F)) (hO : ok0 (F := F) tb)

/-- The table's contents as admissible contents, and the pipeline at them. -/
abbrev adm : (pcfg0 (F := F)).Adm := ⟨tb, hO⟩
abbrev cfgM : Pipeline.Cfg sig Λ₀ := cfg0 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc0__gather_kernel (grid0.coords t) (Memref.whole main_v7) (Memref.isWhole_whole _)
    (spec0_0.stage ((cfgM tb hO).slots t 0)) (hstage0_0 (((cfgM tb hO).slots t 0).cast nbuf0_0))
    (spec0_1.stage ((cfgM tb hO).slots t 1)) (hstage0_1 (((cfgM tb hO).slots t 1).cast nbuf0_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec0 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec0 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k0_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid0.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc0__gather_kernel i arg1 harg1 arg2 harg2 arg3 harg3) K := by
  simp only [cc0__gather_kernel_eq_skeleton]; unfold cc0__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec0 w)
  after w t := match w with
    | ⟨0, _⟩ => iblk V tb hO c 0 t
    | ⟨1, _⟩ => out_1 (iblk V tb hO c 0 t)
  Φ _ := iprop(Pipeline.ΦA spec0 c ∗ Pipeline.prefHeld (Ix := Unit) (Name := ℕ) (U := UR sig nD τ) (Lvl := ℕ) pre0 c (fun _ => fullShare) tb)
  q _ := fullShare
  owed _ := 0

theorem A_eq (c : Dev nD) (w : Fin (cfgM tb hO).W) : (dat V tb hO c).A w = V c (Pipeline.arrRef spec0 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W0, bigSep_W0]
  exact sound_body V tb hO c t

end Cert.Kernel.G0

end
-- ==== Proof.K.G1.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre1.Contents (Elt F)) (hO : ok1 (F := F) tb)

/-- The table's contents as admissible contents, and the pipeline at them. -/
abbrev adm : (pcfg1 (F := F)).Adm := ⟨tb, hO⟩
abbrev cfgM : Pipeline.Cfg sig Λ₀ := cfg1 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc1__gather_kernel (grid1.coords t) (Memref.whole main_v20) (Memref.isWhole_whole _)
    (spec1_0.stage ((cfgM tb hO).slots t 0)) (hstage1_0 (((cfgM tb hO).slots t 0).cast nbuf1_0))
    (spec1_1.stage ((cfgM tb hO).slots t 1)) (hstage1_1 (((cfgM tb hO).slots t 1).cast nbuf1_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec1 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec1 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k1_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid1.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc1__gather_kernel i arg1 harg1 arg2 harg2 arg3 harg3) K := by
  simp only [cc1__gather_kernel_eq_skeleton]; unfold cc1__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec1 w)
  after w t := match w with
    | ⟨0, _⟩ => iblk V tb hO c 0 t
    | ⟨1, _⟩ => out_1 (iblk V tb hO c 0 t)
  Φ _ := iprop(Pipeline.ΦA spec1 c ∗ Pipeline.prefHeld (Ix := Unit) (Name := ℕ) (U := UR sig nD τ) (Lvl := ℕ) pre1 c (fun _ => fullShare) tb)
  q _ := fullShare
  owed _ := 0

theorem A_eq (c : Dev nD) (w : Fin (cfgM tb hO).W) : (dat V tb hO c).A w = V c (Pipeline.arrRef spec1 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W1, bigSep_W1]
  exact sound_body V tb hO c t

end Cert.Kernel.G1

end
-- ==== Proof.K.G2.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre2.Contents (Elt F)) (hO : ok2 (F := F) tb)

/-- The table's contents as admissible contents, and the pipeline at them. -/
abbrev adm : (pcfg2 (F := F)).Adm := ⟨tb, hO⟩
abbrev cfgM : Pipeline.Cfg sig Λ₀ := cfg2 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc2__gather_kernel (grid2.coords t) (Memref.whole main_v33) (Memref.isWhole_whole _)
    (spec2_0.stage ((cfgM tb hO).slots t 0)) (hstage2_0 (((cfgM tb hO).slots t 0).cast nbuf2_0))
    (spec2_1.stage ((cfgM tb hO).slots t 1)) (hstage2_1 (((cfgM tb hO).slots t 1).cast nbuf2_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec2 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec2 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k2_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid2.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc2__gather_kernel i arg1 harg1 arg2 harg2 arg3 harg3) K := by
  simp only [cc2__gather_kernel_eq_skeleton]; unfold cc2__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec2 w)
  after w t := match w with
    | ⟨0, _⟩ => iblk V tb hO c 0 t
    | ⟨1, _⟩ => out_1 (iblk V tb hO c 0 t)
  Φ _ := iprop(Pipeline.ΦA spec2 c ∗ Pipeline.prefHeld (Ix := Unit) (Name := ℕ) (U := UR sig nD τ) (Lvl := ℕ) pre2 c (fun _ => fullShare) tb)
  q _ := fullShare
  owed _ := 0

theorem A_eq (c : Dev nD) (w : Fin (cfgM tb hO).W) : (dat V tb hO c).A w = V c (Pipeline.arrRef spec2 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W2, bigSep_W2]
  exact sound_body V tb hO c t

end Cert.Kernel.G2

end
-- ==== Proof.K.G3.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre3.Contents (Elt F)) (hO : ok3 (F := F) tb)

/-- The table's contents as admissible contents, and the pipeline at them. -/
abbrev adm : (pcfg3 (F := F)).Adm := ⟨tb, hO⟩
abbrev cfgM : Pipeline.Cfg sig Λ₀ := cfg3 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc3__gather_kernel (grid3.coords t) (Memref.whole main_v46) (Memref.isWhole_whole _)
    (spec3_0.stage ((cfgM tb hO).slots t 0)) (hstage3_0 (((cfgM tb hO).slots t 0).cast nbuf3_0))
    (spec3_1.stage ((cfgM tb hO).slots t 1)) (hstage3_1 (((cfgM tb hO).slots t 1).cast nbuf3_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec3 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec3 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k3_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid3.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc3__gather_kernel i arg1 harg1 arg2 harg2 arg3 harg3) K := by
  simp only [cc3__gather_kernel_eq_skeleton]; unfold cc3__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec3 w)
  after w t := match w with
    | ⟨0, _⟩ => iblk V tb hO c 0 t
    | ⟨1, _⟩ => out_1 (iblk V tb hO c 0 t)
  Φ _ := iprop(Pipeline.ΦA spec3 c ∗ Pipeline.prefHeld (Ix := Unit) (Name := ℕ) (U := UR sig nD τ) (Lvl := ℕ) pre3 c (fun _ => fullShare) tb)
  q _ := fullShare
  owed _ := 0

theorem A_eq (c : Dev nD) (w : Fin (cfgM tb hO).W) : (dat V tb hO c).A w = V c (Pipeline.arrRef spec3 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W3, bigSep_W3]
  exact sound_body V tb hO c t

end Cert.Kernel.G3

end
-- ==== Proof.K.G4.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre4.Contents (Elt F)) (hO : ok4 (F := F) tb)

/-- The table's contents as admissible contents, and the pipeline at them. -/
abbrev adm : (pcfg4 (F := F)).Adm := ⟨tb, hO⟩
abbrev cfgM : Pipeline.Cfg sig Λ₀ := cfg4 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc4__gather_kernel (grid4.coords t) (Memref.whole main_v59) (Memref.isWhole_whole _)
    (spec4_0.stage ((cfgM tb hO).slots t 0)) (hstage4_0 (((cfgM tb hO).slots t 0).cast nbuf4_0))
    (spec4_1.stage ((cfgM tb hO).slots t 1)) (hstage4_1 (((cfgM tb hO).slots t 1).cast nbuf4_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec4 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec4 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k4_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid4.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc4__gather_kernel i arg1 harg1 arg2 harg2 arg3 harg3) K := by
  simp only [cc4__gather_kernel_eq_skeleton]; unfold cc4__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec4 w)
  after w t := match w with
    | ⟨0, _⟩ => iblk V tb hO c 0 t
    | ⟨1, _⟩ => out_1 (iblk V tb hO c 0 t)
  Φ _ := iprop(Pipeline.ΦA spec4 c ∗ Pipeline.prefHeld (Ix := Unit) (Name := ℕ) (U := UR sig nD τ) (Lvl := ℕ) pre4 c (fun _ => fullShare) tb)
  q _ := fullShare
  owed _ := 0

theorem A_eq (c : Dev nD) (w : Fin (cfgM tb hO).W) : (dat V tb hO c).A w = V c (Pipeline.arrRef spec4 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W4, bigSep_W4]
  exact sound_body V tb hO c t

end Cert.Kernel.G4

end
-- ==== Proof.K.G5.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre5.Contents (Elt F)) (hO : ok5 (F := F) tb)

/-- The table's contents as admissible contents, and the pipeline at them. -/
abbrev adm : (pcfg5 (F := F)).Adm := ⟨tb, hO⟩
abbrev cfgM : Pipeline.Cfg sig Λ₀ := cfg5 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc5__gather_kernel (grid5.coords t) (Memref.whole main_v72) (Memref.isWhole_whole _)
    (spec5_0.stage ((cfgM tb hO).slots t 0)) (hstage5_0 (((cfgM tb hO).slots t 0).cast nbuf5_0))
    (spec5_1.stage ((cfgM tb hO).slots t 1)) (hstage5_1 (((cfgM tb hO).slots t 1).cast nbuf5_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec5 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec5 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k5_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid5.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc5__gather_kernel i arg1 harg1 arg2 harg2 arg3 harg3) K := by
  simp only [cc5__gather_kernel_eq_skeleton]; unfold cc5__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec5 w)
  after w t := match w with
    | ⟨0, _⟩ => iblk V tb hO c 0 t
    | ⟨1, _⟩ => out_1 (iblk V tb hO c 0 t)
  Φ _ := iprop(Pipeline.ΦA spec5 c ∗ Pipeline.prefHeld (Ix := Unit) (Name := ℕ) (U := UR sig nD τ) (Lvl := ℕ) pre5 c (fun _ => fullShare) tb)
  q _ := fullShare
  owed _ := 0

theorem A_eq (c : Dev nD) (w : Fin (cfgM tb hO).W) : (dat V tb hO c).A w = V c (Pipeline.arrRef spec5 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W5, bigSep_W5]
  exact sound_body V tb hO c t

end Cert.Kernel.G5

end
-- ==== Proof.K.G6.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre6.Contents (Elt F)) (hO : ok6 (F := F) tb)

/-- The table's contents as admissible contents, and the pipeline at them. -/
abbrev adm : (pcfg6 (F := F)).Adm := ⟨tb, hO⟩
abbrev cfgM : Pipeline.Cfg sig Λ₀ := cfg6 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc6__gather_kernel (grid6.coords t) (Memref.whole main_v85) (Memref.isWhole_whole _)
    (spec6_0.stage ((cfgM tb hO).slots t 0)) (hstage6_0 (((cfgM tb hO).slots t 0).cast nbuf6_0))
    (spec6_1.stage ((cfgM tb hO).slots t 1)) (hstage6_1 (((cfgM tb hO).slots t 1).cast nbuf6_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec6 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec6 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k6_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid6.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc6__gather_kernel i arg1 harg1 arg2 harg2 arg3 harg3) K := by
  simp only [cc6__gather_kernel_eq_skeleton]; unfold cc6__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec6 w)
  after w t := match w with
    | ⟨0, _⟩ => iblk V tb hO c 0 t
    | ⟨1, _⟩ => out_1 (iblk V tb hO c 0 t)
  Φ _ := iprop(Pipeline.ΦA spec6 c ∗ Pipeline.prefHeld (Ix := Unit) (Name := ℕ) (U := UR sig nD τ) (Lvl := ℕ) pre6 c (fun _ => fullShare) tb)
  q _ := fullShare
  owed _ := 0

theorem A_eq (c : Dev nD) (w : Fin (cfgM tb hO).W) : (dat V tb hO c).A w = V c (Pipeline.arrRef spec6 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W6, bigSep_W6]
  exact sound_body V tb hO c t

end Cert.Kernel.G6

end
-- ==== Proof.K.G7.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre7.Contents (Elt F)) (hO : ok7 (F := F) tb)

/-- The table's contents as admissible contents, and the pipeline at them. -/
abbrev adm : (pcfg7 (F := F)).Adm := ⟨tb, hO⟩
abbrev cfgM : Pipeline.Cfg sig Λ₀ := cfg7 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc7__gather_kernel (grid7.coords t) (Memref.whole main_v98) (Memref.isWhole_whole _)
    (spec7_0.stage ((cfgM tb hO).slots t 0)) (hstage7_0 (((cfgM tb hO).slots t 0).cast nbuf7_0))
    (spec7_1.stage ((cfgM tb hO).slots t 1)) (hstage7_1 (((cfgM tb hO).slots t 1).cast nbuf7_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec7 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec7 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k7_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid7.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc7__gather_kernel i arg1 harg1 arg2 harg2 arg3 harg3) K := by
  simp only [cc7__gather_kernel_eq_skeleton]; unfold cc7__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec7 w)
  after w t := match w with
    | ⟨0, _⟩ => iblk V tb hO c 0 t
    | ⟨1, _⟩ => out_1 (iblk V tb hO c 0 t)
  Φ _ := iprop(Pipeline.ΦA spec7 c ∗ Pipeline.prefHeld (Ix := Unit) (Name := ℕ) (U := UR sig nD τ) (Lvl := ℕ) pre7 c (fun _ => fullShare) tb)
  q _ := fullShare
  owed _ := 0

theorem A_eq (c : Dev nD) (w : Fin (cfgM tb hO).W) : (dat V tb hO c).A w = V c (Pipeline.arrRef spec7 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W7, bigSep_W7]
  exact sound_body V tb hO c t

end Cert.Kernel.G7

end
-- ==== Proof.K.G8.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre8.Contents (Elt F)) (hO : ok8 (F := F) tb)

/-- The table's contents as admissible contents, and the pipeline at them. -/
abbrev adm : (pcfg8 (F := F)).Adm := ⟨tb, hO⟩
abbrev cfgM : Pipeline.Cfg sig Λ₀ := cfg8 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc8__gather_kernel (grid8.coords t) (Memref.whole main_v111) (Memref.isWhole_whole _)
    (spec8_0.stage ((cfgM tb hO).slots t 0)) (hstage8_0 (((cfgM tb hO).slots t 0).cast nbuf8_0))
    (spec8_1.stage ((cfgM tb hO).slots t 1)) (hstage8_1 (((cfgM tb hO).slots t 1).cast nbuf8_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec8 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec8 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k8_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid8.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc8__gather_kernel i arg1 harg1 arg2 harg2 arg3 harg3) K := by
  simp only [cc8__gather_kernel_eq_skeleton]; unfold cc8__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec8 w)
  after w t := match w with
    | ⟨0, _⟩ => iblk V tb hO c 0 t
    | ⟨1, _⟩ => out_1 (iblk V tb hO c 0 t)
  Φ _ := iprop(Pipeline.ΦA spec8 c ∗ Pipeline.prefHeld (Ix := Unit) (Name := ℕ) (U := UR sig nD τ) (Lvl := ℕ) pre8 c (fun _ => fullShare) tb)
  q _ := fullShare
  owed _ := 0

theorem A_eq (c : Dev nD) (w : Fin (cfgM tb hO).W) : (dat V tb hO c).A w = V c (Pipeline.arrRef spec8 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W8, bigSep_W8]
  exact sound_body V tb hO c t

end Cert.Kernel.G8

end
-- ==== Proof.K.G9.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre9.Contents (Elt F)) (hO : ok9 (F := F) tb)

/-- The table's contents as admissible contents, and the pipeline at them. -/
abbrev adm : (pcfg9 (F := F)).Adm := ⟨tb, hO⟩
abbrev cfgM : Pipeline.Cfg sig Λ₀ := cfg9 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc9__gather_kernel (grid9.coords t) (Memref.whole main_v124) (Memref.isWhole_whole _)
    (spec9_0.stage ((cfgM tb hO).slots t 0)) (hstage9_0 (((cfgM tb hO).slots t 0).cast nbuf9_0))
    (spec9_1.stage ((cfgM tb hO).slots t 1)) (hstage9_1 (((cfgM tb hO).slots t 1).cast nbuf9_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec9 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec9 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k9_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid9.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc9__gather_kernel i arg1 harg1 arg2 harg2 arg3 harg3) K := by
  simp only [cc9__gather_kernel_eq_skeleton]; unfold cc9__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec9 w)
  after w t := match w with
    | ⟨0, _⟩ => iblk V tb hO c 0 t
    | ⟨1, _⟩ => out_1 (iblk V tb hO c 0 t)
  Φ _ := iprop(Pipeline.ΦA spec9 c ∗ Pipeline.prefHeld (Ix := Unit) (Name := ℕ) (U := UR sig nD τ) (Lvl := ℕ) pre9 c (fun _ => fullShare) tb)
  q _ := fullShare
  owed _ := 0

theorem A_eq (c : Dev nD) (w : Fin (cfgM tb hO).W) : (dat V tb hO c).A w = V c (Pipeline.arrRef spec9 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W9, bigSep_W9]
  exact sound_body V tb hO c t

end Cert.Kernel.G9

end
-- ==== Proof.K.G10.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G10

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre10.Contents (Elt F)) (hO : ok10 (F := F) tb)

/-- The table's contents as admissible contents, and the pipeline at them. -/
abbrev adm : (pcfg10 (F := F)).Adm := ⟨tb, hO⟩
abbrev cfgM : Pipeline.Cfg sig Λ₀ := cfg10 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc10__gather_kernel (grid10.coords t) (Memref.whole main_v137) (Memref.isWhole_whole _)
    (spec10_0.stage ((cfgM tb hO).slots t 0)) (hstage10_0 (((cfgM tb hO).slots t 0).cast nbuf10_0))
    (spec10_1.stage ((cfgM tb hO).slots t 1)) (hstage10_1 (((cfgM tb hO).slots t 1).cast nbuf10_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec10 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec10 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k10_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid10.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc10__gather_kernel i arg1 harg1 arg2 harg2 arg3 harg3) K := by
  simp only [cc10__gather_kernel_eq_skeleton]; unfold cc10__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec10 w)
  after w t := match w with
    | ⟨0, _⟩ => iblk V tb hO c 0 t
    | ⟨1, _⟩ => out_1 (iblk V tb hO c 0 t)
  Φ _ := iprop(Pipeline.ΦA spec10 c ∗ Pipeline.prefHeld (Ix := Unit) (Name := ℕ) (U := UR sig nD τ) (Lvl := ℕ) pre10 c (fun _ => fullShare) tb)
  q _ := fullShare
  owed _ := 0

theorem A_eq (c : Dev nD) (w : Fin (cfgM tb hO).W) : (dat V tb hO c).A w = V c (Pipeline.arrRef spec10 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W10, bigSep_W10]
  exact sound_body V tb hO c t

end Cert.Kernel.G10

end
-- ==== Proof.K.G11.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G11

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre11.Contents (Elt F)) (hO : ok11 (F := F) tb)

/-- The table's contents as admissible contents, and the pipeline at them. -/
abbrev adm : (pcfg11 (F := F)).Adm := ⟨tb, hO⟩
abbrev cfgM : Pipeline.Cfg sig Λ₀ := cfg11 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc11__gather_kernel (grid11.coords t) (Memref.whole main_v150) (Memref.isWhole_whole _)
    (spec11_0.stage ((cfgM tb hO).slots t 0)) (hstage11_0 (((cfgM tb hO).slots t 0).cast nbuf11_0))
    (spec11_1.stage ((cfgM tb hO).slots t 1)) (hstage11_1 (((cfgM tb hO).slots t 1).cast nbuf11_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec11 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec11 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k11_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid11.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc11__gather_kernel i arg1 harg1 arg2 harg2 arg3 harg3) K := by
  simp only [cc11__gather_kernel_eq_skeleton]; unfold cc11__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec11 w)
  after w t := match w with
    | ⟨0, _⟩ => iblk V tb hO c 0 t
    | ⟨1, _⟩ => out_1 (iblk V tb hO c 0 t)
  Φ _ := iprop(Pipeline.ΦA spec11 c ∗ Pipeline.prefHeld (Ix := Unit) (Name := ℕ) (U := UR sig nD τ) (Lvl := ℕ) pre11 c (fun _ => fullShare) tb)
  q _ := fullShare
  owed _ := 0

theorem A_eq (c : Dev nD) (w : Fin (cfgM tb hO).W) : (dat V tb hO c).A w = V c (Pipeline.arrRef spec11 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W11, bigSep_W11]
  exact sound_body V tb hO c t

end Cert.Kernel.G11

end
-- ==== Proof.K.G12.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G12

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre12.Contents (Elt F)) (hO : ok12 (F := F) tb)

/-- The table's contents as admissible contents, and the pipeline at them. -/
abbrev adm : (pcfg12 (F := F)).Adm := ⟨tb, hO⟩
abbrev cfgM : Pipeline.Cfg sig Λ₀ := cfg12 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc12__gather_kernel (grid12.coords t) (Memref.whole main_v163) (Memref.isWhole_whole _)
    (spec12_0.stage ((cfgM tb hO).slots t 0)) (hstage12_0 (((cfgM tb hO).slots t 0).cast nbuf12_0))
    (spec12_1.stage ((cfgM tb hO).slots t 1)) (hstage12_1 (((cfgM tb hO).slots t 1).cast nbuf12_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec12 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec12 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k12_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid12.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc12__gather_kernel i arg1 harg1 arg2 harg2 arg3 harg3) K := by
  simp only [cc12__gather_kernel_eq_skeleton]; unfold cc12__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec12 w)
  after w t := match w with
    | ⟨0, _⟩ => iblk V tb hO c 0 t
    | ⟨1, _⟩ => out_1 (iblk V tb hO c 0 t)
  Φ _ := iprop(Pipeline.ΦA spec12 c ∗ Pipeline.prefHeld (Ix := Unit) (Name := ℕ) (U := UR sig nD τ) (Lvl := ℕ) pre12 c (fun _ => fullShare) tb)
  q _ := fullShare
  owed _ := 0

theorem A_eq (c : Dev nD) (w : Fin (cfgM tb hO).W) : (dat V tb hO c).A w = V c (Pipeline.arrRef spec12 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W12, bigSep_W12]
  exact sound_body V tb hO c t

end Cert.Kernel.G12

end
-- ==== Proof.K.G13.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G13

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre13.Contents (Elt F)) (hO : ok13 (F := F) tb)

/-- The table's contents as admissible contents, and the pipeline at them. -/
abbrev adm : (pcfg13 (F := F)).Adm := ⟨tb, hO⟩
abbrev cfgM : Pipeline.Cfg sig Λ₀ := cfg13 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc13__gather_kernel (grid13.coords t) (Memref.whole main_v176) (Memref.isWhole_whole _)
    (spec13_0.stage ((cfgM tb hO).slots t 0)) (hstage13_0 (((cfgM tb hO).slots t 0).cast nbuf13_0))
    (spec13_1.stage ((cfgM tb hO).slots t 1)) (hstage13_1 (((cfgM tb hO).slots t 1).cast nbuf13_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec13 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec13 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k13_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid13.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc13__gather_kernel i arg1 harg1 arg2 harg2 arg3 harg3) K := by
  simp only [cc13__gather_kernel_eq_skeleton]; unfold cc13__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec13 w)
  after w t := match w with
    | ⟨0, _⟩ => iblk V tb hO c 0 t
    | ⟨1, _⟩ => out_1 (iblk V tb hO c 0 t)
  Φ _ := iprop(Pipeline.ΦA spec13 c ∗ Pipeline.prefHeld (Ix := Unit) (Name := ℕ) (U := UR sig nD τ) (Lvl := ℕ) pre13 c (fun _ => fullShare) tb)
  q _ := fullShare
  owed _ := 0

theorem A_eq (c : Dev nD) (w : Fin (cfgM tb hO).W) : (dat V tb hO c).A w = V c (Pipeline.arrRef spec13 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W13, bigSep_W13]
  exact sound_body V tb hO c t

end Cert.Kernel.G13

end
-- ==== Proof.K.G14.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G14

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre14.Contents (Elt F)) (hO : ok14 (F := F) tb)

/-- The table's contents as admissible contents, and the pipeline at them. -/
abbrev adm : (pcfg14 (F := F)).Adm := ⟨tb, hO⟩
abbrev cfgM : Pipeline.Cfg sig Λ₀ := cfg14 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc14__gather_kernel (grid14.coords t) (Memref.whole main_v189) (Memref.isWhole_whole _)
    (spec14_0.stage ((cfgM tb hO).slots t 0)) (hstage14_0 (((cfgM tb hO).slots t 0).cast nbuf14_0))
    (spec14_1.stage ((cfgM tb hO).slots t 1)) (hstage14_1 (((cfgM tb hO).slots t 1).cast nbuf14_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec14 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec14 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k14_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid14.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc14__gather_kernel i arg1 harg1 arg2 harg2 arg3 harg3) K := by
  simp only [cc14__gather_kernel_eq_skeleton]; unfold cc14__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec14 w)
  after w t := match w with
    | ⟨0, _⟩ => iblk V tb hO c 0 t
    | ⟨1, _⟩ => out_1 (iblk V tb hO c 0 t)
  Φ _ := iprop(Pipeline.ΦA spec14 c ∗ Pipeline.prefHeld (Ix := Unit) (Name := ℕ) (U := UR sig nD τ) (Lvl := ℕ) pre14 c (fun _ => fullShare) tb)
  q _ := fullShare
  owed _ := 0

theorem A_eq (c : Dev nD) (w : Fin (cfgM tb hO).W) : (dat V tb hO c).A w = V c (Pipeline.arrRef spec14 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W14, bigSep_W14]
  exact sound_body V tb hO c t

end Cert.Kernel.G14

end
-- ==== Proof.K.G15.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G15

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre15.Contents (Elt F)) (hO : ok15 (F := F) tb)

/-- The table's contents as admissible contents, and the pipeline at them. -/
abbrev adm : (pcfg15 (F := F)).Adm := ⟨tb, hO⟩
abbrev cfgM : Pipeline.Cfg sig Λ₀ := cfg15 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc15__gather_kernel (grid15.coords t) (Memref.whole main_v202) (Memref.isWhole_whole _)
    (spec15_0.stage ((cfgM tb hO).slots t 0)) (hstage15_0 (((cfgM tb hO).slots t 0).cast nbuf15_0))
    (spec15_1.stage ((cfgM tb hO).slots t 1)) (hstage15_1 (((cfgM tb hO).slots t 1).cast nbuf15_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec15 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec15 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k15_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid15.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc15__gather_kernel i arg1 harg1 arg2 harg2 arg3 harg3) K := by
  simp only [cc15__gather_kernel_eq_skeleton]; unfold cc15__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec15 w)
  after w t := match w with
    | ⟨0, _⟩ => iblk V tb hO c 0 t
    | ⟨1, _⟩ => out_1 (iblk V tb hO c 0 t)
  Φ _ := iprop(Pipeline.ΦA spec15 c ∗ Pipeline.prefHeld (Ix := Unit) (Name := ℕ) (U := UR sig nD τ) (Lvl := ℕ) pre15 c (fun _ => fullShare) tb)
  q _ := fullShare
  owed _ := 0

theorem A_eq (c : Dev nD) (w : Fin (cfgM tb hO).W) : (dat V tb hO c).A w = V c (Pipeline.arrRef spec15 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W15, bigSep_W15]
  exact sound_body V tb hO c t

end Cert.Kernel.G15

end
-- ==== Proof.K.G16.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G16

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre16.Contents (Elt F)) (hO : ok16 (F := F) tb)

/-- The table's contents as admissible contents, and the pipeline at them. -/
abbrev adm : (pcfg16 (F := F)).Adm := ⟨tb, hO⟩
abbrev cfgM : Pipeline.Cfg sig Λ₀ := cfg16 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc16__gather_kernel (grid16.coords t) (Memref.whole main_v215) (Memref.isWhole_whole _)
    (spec16_0.stage ((cfgM tb hO).slots t 0)) (hstage16_0 (((cfgM tb hO).slots t 0).cast nbuf16_0))
    (spec16_1.stage ((cfgM tb hO).slots t 1)) (hstage16_1 (((cfgM tb hO).slots t 1).cast nbuf16_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec16 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec16 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k16_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid16.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc16__gather_kernel i arg1 harg1 arg2 harg2 arg3 harg3) K := by
  simp only [cc16__gather_kernel_eq_skeleton]; unfold cc16__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec16 w)
  after w t := match w with
    | ⟨0, _⟩ => iblk V tb hO c 0 t
    | ⟨1, _⟩ => out_1 (iblk V tb hO c 0 t)
  Φ _ := iprop(Pipeline.ΦA spec16 c ∗ Pipeline.prefHeld (Ix := Unit) (Name := ℕ) (U := UR sig nD τ) (Lvl := ℕ) pre16 c (fun _ => fullShare) tb)
  q _ := fullShare
  owed _ := 0

theorem A_eq (c : Dev nD) (w : Fin (cfgM tb hO).W) : (dat V tb hO c).A w = V c (Pipeline.arrRef spec16 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W16, bigSep_W16]
  exact sound_body V tb hO c t

end Cert.Kernel.G16

end
-- ==== Proof.K.G17.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G17

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre17.Contents (Elt F)) (hO : ok17 (F := F) tb)

/-- The table's contents as admissible contents, and the pipeline at them. -/
abbrev adm : (pcfg17 (F := F)).Adm := ⟨tb, hO⟩
abbrev cfgM : Pipeline.Cfg sig Λ₀ := cfg17 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc17__gather_kernel (grid17.coords t) (Memref.whole main_v228) (Memref.isWhole_whole _)
    (spec17_0.stage ((cfgM tb hO).slots t 0)) (hstage17_0 (((cfgM tb hO).slots t 0).cast nbuf17_0))
    (spec17_1.stage ((cfgM tb hO).slots t 1)) (hstage17_1 (((cfgM tb hO).slots t 1).cast nbuf17_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec17 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec17 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k17_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid17.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc17__gather_kernel i arg1 harg1 arg2 harg2 arg3 harg3) K := by
  simp only [cc17__gather_kernel_eq_skeleton]; unfold cc17__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec17 w)
  after w t := match w with
    | ⟨0, _⟩ => iblk V tb hO c 0 t
    | ⟨1, _⟩ => out_1 (iblk V tb hO c 0 t)
  Φ _ := iprop(Pipeline.ΦA spec17 c ∗ Pipeline.prefHeld (Ix := Unit) (Name := ℕ) (U := UR sig nD τ) (Lvl := ℕ) pre17 c (fun _ => fullShare) tb)
  q _ := fullShare
  owed _ := 0

theorem A_eq (c : Dev nD) (w : Fin (cfgM tb hO).W) : (dat V tb hO c).A w = V c (Pipeline.arrRef spec17 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W17, bigSep_W17]
  exact sound_body V tb hO c t

end Cert.Kernel.G17

end
-- ==== Proof.K.G18.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G18

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre18.Contents (Elt F)) (hO : ok18 (F := F) tb)

/-- The table's contents as admissible contents, and the pipeline at them. -/
abbrev adm : (pcfg18 (F := F)).Adm := ⟨tb, hO⟩
abbrev cfgM : Pipeline.Cfg sig Λ₀ := cfg18 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc18__gather_kernel (grid18.coords t) (Memref.whole main_v241) (Memref.isWhole_whole _)
    (spec18_0.stage ((cfgM tb hO).slots t 0)) (hstage18_0 (((cfgM tb hO).slots t 0).cast nbuf18_0))
    (spec18_1.stage ((cfgM tb hO).slots t 1)) (hstage18_1 (((cfgM tb hO).slots t 1).cast nbuf18_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec18 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec18 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k18_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid18.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc18__gather_kernel i arg1 harg1 arg2 harg2 arg3 harg3) K := by
  simp only [cc18__gather_kernel_eq_skeleton]; unfold cc18__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec18 w)
  after w t := match w with
    | ⟨0, _⟩ => iblk V tb hO c 0 t
    | ⟨1, _⟩ => out_1 (iblk V tb hO c 0 t)
  Φ _ := iprop(Pipeline.ΦA spec18 c ∗ Pipeline.prefHeld (Ix := Unit) (Name := ℕ) (U := UR sig nD τ) (Lvl := ℕ) pre18 c (fun _ => fullShare) tb)
  q _ := fullShare
  owed _ := 0

theorem A_eq (c : Dev nD) (w : Fin (cfgM tb hO).W) : (dat V tb hO c).A w = V c (Pipeline.arrRef spec18 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W18, bigSep_W18]
  exact sound_body V tb hO c t

end Cert.Kernel.G18

end
-- ==== Proof.K.G19.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G19

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre19.Contents (Elt F)) (hO : ok19 (F := F) tb)

/-- The table's contents as admissible contents, and the pipeline at them. -/
abbrev adm : (pcfg19 (F := F)).Adm := ⟨tb, hO⟩
abbrev cfgM : Pipeline.Cfg sig Λ₀ := cfg19 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc19__gather_kernel (grid19.coords t) (Memref.whole main_v254) (Memref.isWhole_whole _)
    (spec19_0.stage ((cfgM tb hO).slots t 0)) (hstage19_0 (((cfgM tb hO).slots t 0).cast nbuf19_0))
    (spec19_1.stage ((cfgM tb hO).slots t 1)) (hstage19_1 (((cfgM tb hO).slots t 1).cast nbuf19_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec19 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec19 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k19_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid19.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc19__gather_kernel i arg1 harg1 arg2 harg2 arg3 harg3) K := by
  simp only [cc19__gather_kernel_eq_skeleton]; unfold cc19__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec19 w)
  after w t := match w with
    | ⟨0, _⟩ => iblk V tb hO c 0 t
    | ⟨1, _⟩ => out_1 (iblk V tb hO c 0 t)
  Φ _ := iprop(Pipeline.ΦA spec19 c ∗ Pipeline.prefHeld (Ix := Unit) (Name := ℕ) (U := UR sig nD τ) (Lvl := ℕ) pre19 c (fun _ => fullShare) tb)
  q _ := fullShare
  owed _ := 0

theorem A_eq (c : Dev nD) (w : Fin (cfgM tb hO).W) : (dat V tb hO c).A w = V c (Pipeline.arrRef spec19 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W19, bigSep_W19]
  exact sound_body V tb hO c t

end Cert.Kernel.G19

end
-- ==== Proof.K.G20.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G20

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre20.Contents (Elt F)) (hO : ok20 (F := F) tb)

/-- The table's contents as admissible contents, and the pipeline at them. -/
abbrev adm : (pcfg20 (F := F)).Adm := ⟨tb, hO⟩
abbrev cfgM : Pipeline.Cfg sig Λ₀ := cfg20 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc20__gather_kernel (grid20.coords t) (Memref.whole main_v267) (Memref.isWhole_whole _)
    (spec20_0.stage ((cfgM tb hO).slots t 0)) (hstage20_0 (((cfgM tb hO).slots t 0).cast nbuf20_0))
    (spec20_1.stage ((cfgM tb hO).slots t 1)) (hstage20_1 (((cfgM tb hO).slots t 1).cast nbuf20_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec20 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec20 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k20_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid20.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc20__gather_kernel i arg1 harg1 arg2 harg2 arg3 harg3) K := by
  simp only [cc20__gather_kernel_eq_skeleton]; unfold cc20__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec20 w)
  after w t := match w with
    | ⟨0, _⟩ => iblk V tb hO c 0 t
    | ⟨1, _⟩ => out_1 (iblk V tb hO c 0 t)
  Φ _ := iprop(Pipeline.ΦA spec20 c ∗ Pipeline.prefHeld (Ix := Unit) (Name := ℕ) (U := UR sig nD τ) (Lvl := ℕ) pre20 c (fun _ => fullShare) tb)
  q _ := fullShare
  owed _ := 0

theorem A_eq (c : Dev nD) (w : Fin (cfgM tb hO).W) : (dat V tb hO c).A w = V c (Pipeline.arrRef spec20 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W20, bigSep_W20]
  exact sound_body V tb hO c t

end Cert.Kernel.G20

end
-- ==== Proof.K.G21.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G21

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre21.Contents (Elt F)) (hO : ok21 (F := F) tb)

/-- The table's contents as admissible contents, and the pipeline at them. -/
abbrev adm : (pcfg21 (F := F)).Adm := ⟨tb, hO⟩
abbrev cfgM : Pipeline.Cfg sig Λ₀ := cfg21 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc21__gather_kernel (grid21.coords t) (Memref.whole main_v280) (Memref.isWhole_whole _)
    (spec21_0.stage ((cfgM tb hO).slots t 0)) (hstage21_0 (((cfgM tb hO).slots t 0).cast nbuf21_0))
    (spec21_1.stage ((cfgM tb hO).slots t 1)) (hstage21_1 (((cfgM tb hO).slots t 1).cast nbuf21_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec21 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec21 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k21_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid21.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc21__gather_kernel i arg1 harg1 arg2 harg2 arg3 harg3) K := by
  simp only [cc21__gather_kernel_eq_skeleton]; unfold cc21__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec21 w)
  after w t := match w with
    | ⟨0, _⟩ => iblk V tb hO c 0 t
    | ⟨1, _⟩ => out_1 (iblk V tb hO c 0 t)
  Φ _ := iprop(Pipeline.ΦA spec21 c ∗ Pipeline.prefHeld (Ix := Unit) (Name := ℕ) (U := UR sig nD τ) (Lvl := ℕ) pre21 c (fun _ => fullShare) tb)
  q _ := fullShare
  owed _ := 0

theorem A_eq (c : Dev nD) (w : Fin (cfgM tb hO).W) : (dat V tb hO c).A w = V c (Pipeline.arrRef spec21 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W21, bigSep_W21]
  exact sound_body V tb hO c t

end Cert.Kernel.G21

end
-- ==== Proof.K.G22.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G22

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre22.Contents (Elt F)) (hO : ok22 (F := F) tb)

/-- The table's contents as admissible contents, and the pipeline at them. -/
abbrev adm : (pcfg22 (F := F)).Adm := ⟨tb, hO⟩
abbrev cfgM : Pipeline.Cfg sig Λ₀ := cfg22 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc22__gather_kernel (grid22.coords t) (Memref.whole main_v293) (Memref.isWhole_whole _)
    (spec22_0.stage ((cfgM tb hO).slots t 0)) (hstage22_0 (((cfgM tb hO).slots t 0).cast nbuf22_0))
    (spec22_1.stage ((cfgM tb hO).slots t 1)) (hstage22_1 (((cfgM tb hO).slots t 1).cast nbuf22_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec22 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec22 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k22_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid22.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc22__gather_kernel i arg1 harg1 arg2 harg2 arg3 harg3) K := by
  simp only [cc22__gather_kernel_eq_skeleton]; unfold cc22__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec22 w)
  after w t := match w with
    | ⟨0, _⟩ => iblk V tb hO c 0 t
    | ⟨1, _⟩ => out_1 (iblk V tb hO c 0 t)
  Φ _ := iprop(Pipeline.ΦA spec22 c ∗ Pipeline.prefHeld (Ix := Unit) (Name := ℕ) (U := UR sig nD τ) (Lvl := ℕ) pre22 c (fun _ => fullShare) tb)
  q _ := fullShare
  owed _ := 0

theorem A_eq (c : Dev nD) (w : Fin (cfgM tb hO).W) : (dat V tb hO c).A w = V c (Pipeline.arrRef spec22 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W22, bigSep_W22]
  exact sound_body V tb hO c t

end Cert.Kernel.G22

end
-- ==== Proof.K.G23.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G23

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre23.Contents (Elt F)) (hO : ok23 (F := F) tb)

/-- The table's contents as admissible contents, and the pipeline at them. -/
abbrev adm : (pcfg23 (F := F)).Adm := ⟨tb, hO⟩
abbrev cfgM : Pipeline.Cfg sig Λ₀ := cfg23 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc23__gather_kernel (grid23.coords t) (Memref.whole main_v306) (Memref.isWhole_whole _)
    (spec23_0.stage ((cfgM tb hO).slots t 0)) (hstage23_0 (((cfgM tb hO).slots t 0).cast nbuf23_0))
    (spec23_1.stage ((cfgM tb hO).slots t 1)) (hstage23_1 (((cfgM tb hO).slots t 1).cast nbuf23_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec23 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec23 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k23_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid23.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc23__gather_kernel i arg1 harg1 arg2 harg2 arg3 harg3) K := by
  simp only [cc23__gather_kernel_eq_skeleton]; unfold cc23__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec23 w)
  after w t := match w with
    | ⟨0, _⟩ => iblk V tb hO c 0 t
    | ⟨1, _⟩ => out_1 (iblk V tb hO c 0 t)
  Φ _ := iprop(Pipeline.ΦA spec23 c ∗ Pipeline.prefHeld (Ix := Unit) (Name := ℕ) (U := UR sig nD τ) (Lvl := ℕ) pre23 c (fun _ => fullShare) tb)
  q _ := fullShare
  owed _ := 0

theorem A_eq (c : Dev nD) (w : Fin (cfgM tb hO).W) : (dat V tb hO c).A w = V c (Pipeline.arrRef spec23 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W23, bigSep_W23]
  exact sound_body V tb hO c t

end Cert.Kernel.G23

end
-- ==== Proof.K.G24.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G24

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre24.Contents (Elt F)) (hO : ok24 (F := F) tb)

/-- The table's contents as admissible contents, and the pipeline at them. -/
abbrev adm : (pcfg24 (F := F)).Adm := ⟨tb, hO⟩
abbrev cfgM : Pipeline.Cfg sig Λ₀ := cfg24 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc24__gather_kernel (grid24.coords t) (Memref.whole main_v319) (Memref.isWhole_whole _)
    (spec24_0.stage ((cfgM tb hO).slots t 0)) (hstage24_0 (((cfgM tb hO).slots t 0).cast nbuf24_0))
    (spec24_1.stage ((cfgM tb hO).slots t 1)) (hstage24_1 (((cfgM tb hO).slots t 1).cast nbuf24_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec24 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec24 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k24_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid24.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc24__gather_kernel i arg1 harg1 arg2 harg2 arg3 harg3) K := by
  simp only [cc24__gather_kernel_eq_skeleton]; unfold cc24__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec24 w)
  after w t := match w with
    | ⟨0, _⟩ => iblk V tb hO c 0 t
    | ⟨1, _⟩ => out_1 (iblk V tb hO c 0 t)
  Φ _ := iprop(Pipeline.ΦA spec24 c ∗ Pipeline.prefHeld (Ix := Unit) (Name := ℕ) (U := UR sig nD τ) (Lvl := ℕ) pre24 c (fun _ => fullShare) tb)
  q _ := fullShare
  owed _ := 0

theorem A_eq (c : Dev nD) (w : Fin (cfgM tb hO).W) : (dat V tb hO c).A w = V c (Pipeline.arrRef spec24 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W24, bigSep_W24]
  exact sound_body V tb hO c t

end Cert.Kernel.G24

end
-- ==== Proof.K.G25.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G25

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre25.Contents (Elt F)) (hO : ok25 (F := F) tb)

/-- The table's contents as admissible contents, and the pipeline at them. -/
abbrev adm : (pcfg25 (F := F)).Adm := ⟨tb, hO⟩
abbrev cfgM : Pipeline.Cfg sig Λ₀ := cfg25 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc25__gather_kernel (grid25.coords t) (Memref.whole main_v332) (Memref.isWhole_whole _)
    (spec25_0.stage ((cfgM tb hO).slots t 0)) (hstage25_0 (((cfgM tb hO).slots t 0).cast nbuf25_0))
    (spec25_1.stage ((cfgM tb hO).slots t 1)) (hstage25_1 (((cfgM tb hO).slots t 1).cast nbuf25_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec25 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec25 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k25_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid25.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc25__gather_kernel i arg1 harg1 arg2 harg2 arg3 harg3) K := by
  simp only [cc25__gather_kernel_eq_skeleton]; unfold cc25__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec25 w)
  after w t := match w with
    | ⟨0, _⟩ => iblk V tb hO c 0 t
    | ⟨1, _⟩ => out_1 (iblk V tb hO c 0 t)
  Φ _ := iprop(Pipeline.ΦA spec25 c ∗ Pipeline.prefHeld (Ix := Unit) (Name := ℕ) (U := UR sig nD τ) (Lvl := ℕ) pre25 c (fun _ => fullShare) tb)
  q _ := fullShare
  owed _ := 0

theorem A_eq (c : Dev nD) (w : Fin (cfgM tb hO).W) : (dat V tb hO c).A w = V c (Pipeline.arrRef spec25 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W25, bigSep_W25]
  exact sound_body V tb hO c t

end Cert.Kernel.G25

end
-- ==== Proof.K.G26.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G26

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre26.Contents (Elt F)) (hO : ok26 (F := F) tb)

/-- The table's contents as admissible contents, and the pipeline at them. -/
abbrev adm : (pcfg26 (F := F)).Adm := ⟨tb, hO⟩
abbrev cfgM : Pipeline.Cfg sig Λ₀ := cfg26 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc26__gather_kernel (grid26.coords t) (Memref.whole main_v345) (Memref.isWhole_whole _)
    (spec26_0.stage ((cfgM tb hO).slots t 0)) (hstage26_0 (((cfgM tb hO).slots t 0).cast nbuf26_0))
    (spec26_1.stage ((cfgM tb hO).slots t 1)) (hstage26_1 (((cfgM tb hO).slots t 1).cast nbuf26_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec26 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec26 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k26_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid26.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc26__gather_kernel i arg1 harg1 arg2 harg2 arg3 harg3) K := by
  simp only [cc26__gather_kernel_eq_skeleton]; unfold cc26__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec26 w)
  after w t := match w with
    | ⟨0, _⟩ => iblk V tb hO c 0 t
    | ⟨1, _⟩ => out_1 (iblk V tb hO c 0 t)
  Φ _ := iprop(Pipeline.ΦA spec26 c ∗ Pipeline.prefHeld (Ix := Unit) (Name := ℕ) (U := UR sig nD τ) (Lvl := ℕ) pre26 c (fun _ => fullShare) tb)
  q _ := fullShare
  owed _ := 0

theorem A_eq (c : Dev nD) (w : Fin (cfgM tb hO).W) : (dat V tb hO c).A w = V c (Pipeline.arrRef spec26 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W26, bigSep_W26]
  exact sound_body V tb hO c t

end Cert.Kernel.G26

end
-- ==== Proof.K.G27.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G27

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre27.Contents (Elt F)) (hO : ok27 (F := F) tb)

/-- The table's contents as admissible contents, and the pipeline at them. -/
abbrev adm : (pcfg27 (F := F)).Adm := ⟨tb, hO⟩
abbrev cfgM : Pipeline.Cfg sig Λ₀ := cfg27 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc27__gather_kernel (grid27.coords t) (Memref.whole main_v358) (Memref.isWhole_whole _)
    (spec27_0.stage ((cfgM tb hO).slots t 0)) (hstage27_0 (((cfgM tb hO).slots t 0).cast nbuf27_0))
    (spec27_1.stage ((cfgM tb hO).slots t 1)) (hstage27_1 (((cfgM tb hO).slots t 1).cast nbuf27_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec27 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec27 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k27_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid27.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc27__gather_kernel i arg1 harg1 arg2 harg2 arg3 harg3) K := by
  simp only [cc27__gather_kernel_eq_skeleton]; unfold cc27__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec27 w)
  after w t := match w with
    | ⟨0, _⟩ => iblk V tb hO c 0 t
    | ⟨1, _⟩ => out_1 (iblk V tb hO c 0 t)
  Φ _ := iprop(Pipeline.ΦA spec27 c ∗ Pipeline.prefHeld (Ix := Unit) (Name := ℕ) (U := UR sig nD τ) (Lvl := ℕ) pre27 c (fun _ => fullShare) tb)
  q _ := fullShare
  owed _ := 0

theorem A_eq (c : Dev nD) (w : Fin (cfgM tb hO).W) : (dat V tb hO c).A w = V c (Pipeline.arrRef spec27 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W27, bigSep_W27]
  exact sound_body V tb hO c t

end Cert.Kernel.G27

end
-- ==== Proof.K.G28.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G28

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre28.Contents (Elt F)) (hO : ok28 (F := F) tb)

/-- The table's contents as admissible contents, and the pipeline at them. -/
abbrev adm : (pcfg28 (F := F)).Adm := ⟨tb, hO⟩
abbrev cfgM : Pipeline.Cfg sig Λ₀ := cfg28 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc28__gather_kernel (grid28.coords t) (Memref.whole main_v371) (Memref.isWhole_whole _)
    (spec28_0.stage ((cfgM tb hO).slots t 0)) (hstage28_0 (((cfgM tb hO).slots t 0).cast nbuf28_0))
    (spec28_1.stage ((cfgM tb hO).slots t 1)) (hstage28_1 (((cfgM tb hO).slots t 1).cast nbuf28_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec28 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec28 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k28_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid28.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc28__gather_kernel i arg1 harg1 arg2 harg2 arg3 harg3) K := by
  simp only [cc28__gather_kernel_eq_skeleton]; unfold cc28__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec28 w)
  after w t := match w with
    | ⟨0, _⟩ => iblk V tb hO c 0 t
    | ⟨1, _⟩ => out_1 (iblk V tb hO c 0 t)
  Φ _ := iprop(Pipeline.ΦA spec28 c ∗ Pipeline.prefHeld (Ix := Unit) (Name := ℕ) (U := UR sig nD τ) (Lvl := ℕ) pre28 c (fun _ => fullShare) tb)
  q _ := fullShare
  owed _ := 0

theorem A_eq (c : Dev nD) (w : Fin (cfgM tb hO).W) : (dat V tb hO c).A w = V c (Pipeline.arrRef spec28 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W28, bigSep_W28]
  exact sound_body V tb hO c t

end Cert.Kernel.G28

end
-- ==== Proof.K.G29.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G29

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre29.Contents (Elt F)) (hO : ok29 (F := F) tb)

/-- The table's contents as admissible contents, and the pipeline at them. -/
abbrev adm : (pcfg29 (F := F)).Adm := ⟨tb, hO⟩
abbrev cfgM : Pipeline.Cfg sig Λ₀ := cfg29 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc29__gather_kernel (grid29.coords t) (Memref.whole main_v384) (Memref.isWhole_whole _)
    (spec29_0.stage ((cfgM tb hO).slots t 0)) (hstage29_0 (((cfgM tb hO).slots t 0).cast nbuf29_0))
    (spec29_1.stage ((cfgM tb hO).slots t 1)) (hstage29_1 (((cfgM tb hO).slots t 1).cast nbuf29_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec29 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec29 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k29_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid29.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc29__gather_kernel i arg1 harg1 arg2 harg2 arg3 harg3) K := by
  simp only [cc29__gather_kernel_eq_skeleton]; unfold cc29__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec29 w)
  after w t := match w with
    | ⟨0, _⟩ => iblk V tb hO c 0 t
    | ⟨1, _⟩ => out_1 (iblk V tb hO c 0 t)
  Φ _ := iprop(Pipeline.ΦA spec29 c ∗ Pipeline.prefHeld (Ix := Unit) (Name := ℕ) (U := UR sig nD τ) (Lvl := ℕ) pre29 c (fun _ => fullShare) tb)
  q _ := fullShare
  owed _ := 0

theorem A_eq (c : Dev nD) (w : Fin (cfgM tb hO).W) : (dat V tb hO c).A w = V c (Pipeline.arrRef spec29 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W29, bigSep_W29]
  exact sound_body V tb hO c t

end Cert.Kernel.G29

end
-- ==== Proof.K.G30.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G30

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre30.Contents (Elt F)) (hO : ok30 (F := F) tb)

/-- The table's contents as admissible contents, and the pipeline at them. -/
abbrev adm : (pcfg30 (F := F)).Adm := ⟨tb, hO⟩
abbrev cfgM : Pipeline.Cfg sig Λ₀ := cfg30 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc30__gather_kernel (grid30.coords t) (Memref.whole main_v397) (Memref.isWhole_whole _)
    (spec30_0.stage ((cfgM tb hO).slots t 0)) (hstage30_0 (((cfgM tb hO).slots t 0).cast nbuf30_0))
    (spec30_1.stage ((cfgM tb hO).slots t 1)) (hstage30_1 (((cfgM tb hO).slots t 1).cast nbuf30_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec30 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec30 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k30_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid30.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc30__gather_kernel i arg1 harg1 arg2 harg2 arg3 harg3) K := by
  simp only [cc30__gather_kernel_eq_skeleton]; unfold cc30__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec30 w)
  after w t := match w with
    | ⟨0, _⟩ => iblk V tb hO c 0 t
    | ⟨1, _⟩ => out_1 (iblk V tb hO c 0 t)
  Φ _ := iprop(Pipeline.ΦA spec30 c ∗ Pipeline.prefHeld (Ix := Unit) (Name := ℕ) (U := UR sig nD τ) (Lvl := ℕ) pre30 c (fun _ => fullShare) tb)
  q _ := fullShare
  owed _ := 0

theorem A_eq (c : Dev nD) (w : Fin (cfgM tb hO).W) : (dat V tb hO c).A w = V c (Pipeline.arrRef spec30 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W30, bigSep_W30]
  exact sound_body V tb hO c t

end Cert.Kernel.G30

end
-- ==== Proof.K.G31.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.Kernel.Launch
import proofs.«406793_j90890097918585_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.G31

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre31.Contents (Elt F)) (hO : ok31 (F := F) tb)

/-- The table's contents as admissible contents, and the pipeline at them. -/
abbrev adm : (pcfg31 (F := F)).Adm := ⟨tb, hO⟩
abbrev cfgM : Pipeline.Cfg sig Λ₀ := cfg31 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc31__gather_kernel (grid31.coords t) (Memref.whole main_v410) (Memref.isWhole_whole _)
    (spec31_0.stage ((cfgM tb hO).slots t 0)) (hstage31_0 (((cfgM tb hO).slots t 0).cast nbuf31_0))
    (spec31_1.stage ((cfgM tb hO).slots t 1)) (hstage31_1 (((cfgM tb hO).slots t 1).cast nbuf31_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec31 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec31 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k31_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid31.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc31__gather_kernel i arg1 harg1 arg2 harg2 arg3 harg3) K := by
  simp only [cc31__gather_kernel_eq_skeleton]; unfold cc31__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec31 w)
  after w t := match w with
    | ⟨0, _⟩ => iblk V tb hO c 0 t
    | ⟨1, _⟩ => out_1 (iblk V tb hO c 0 t)
  Φ _ := iprop(Pipeline.ΦA spec31 c ∗ Pipeline.prefHeld (Ix := Unit) (Name := ℕ) (U := UR sig nD τ) (Lvl := ℕ) pre31 c (fun _ => fullShare) tb)
  q _ := fullShare
  owed _ := 0

theorem A_eq (c : Dev nD) (w : Fin (cfgM tb hO).W) : (dat V tb hO c).A w = V c (Pipeline.arrRef spec31 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W31, bigSep_W31]
  exact sound_body V tb hO c t

end Cert.Kernel.G31

end
-- ==== Proof.K.MM0.lean ====
/-
  The last kernel region (the mean and matrix product), at any contents `V` of the buffers when it is entered: the
  definitions. The grid has 100 points; at point t the sums' window holds rows 1000t … 1000t + 999 of the [100000, 128]
  array, the counts' window the same rows of the [100000, 1] column, the weights' window the whole [128, 128] array, and
  the body stores into the result's window the rows divided by max(count, 1) and multiplied by the weights. Stated
  here: each window's block at a point, what the body leaves in the result's staging buffer, and the pipeline's proof
  data with its projections.
-/
import proofs.«406793_j90890097918585_2_alg».proof.Proof.Gen.Kernel.Launch
import proofs.«406793_j90890097918585_2_alg».proof.Proof.Gen.Kernel.Skeleton
import proofs.«406793_j90890097918585_2_alg».proof.Proof.Gen.Kernel.Points
import Idealize.ShloMosaic.Lib.Pipeline.FrameBody

set_option maxRecDepth 16384

noncomputable section

namespace Cert.Kernel.MM

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]

-- the buffers' contents when the region is entered
variable (V : (c : Dev nD) → (b : Ref sig .tc) → Buf (Elt F) ((c : Thread nD τ).loc b))

/-- Window `w`'s block at point `t`, read off its array as the region finds it. -/
def iblk (c : Dev nD) (w : Fin cfg32.W) (t : Fin cfg32.N) :
    ((cfg32.win w).xblock (cfg32.grid.coords t)).Idx → Elt F (cfg32.win w).elt :=
  ((cfg32.win w).blk t).view.read (Elt F) (V c (Pipeline.arrRef spec32 w))

/-- The rectangles the body reads and writes: each whole block. -/
abbrev rS : Rect S1000x128 := Rect.unit (s := S1000x128) ![0, 0] S1000x128.size inb_S1000x128_S1000x128_0_0
abbrev rD : Rect S1000x1 := Rect.unit (s := S1000x1) ![0, 0] S1000x1.size inb_S1000x1_S1000x1_0_0
abbrev rW : Rect S128x128 := Rect.unit (s := S128x128) ![0, 0] S128x128.size inb_S128x128_S128x128_0_0

/-- What the body leaves in the result window's staging buffer: the payload of the three input blocks (the sums' `x0`,
    the counts' `x1`, the weights' `x2`), stored whole. -/
def out_3 (x0 : Vec F S1000x128 .f32) (x1 : Vec F S1000x1 .f32) (x2 : Vec F S128x128 .f32) : Vec F S1000x128 .f32 :=
  View.canon [⟨rS, k32_pay1 (View.ld x1 rD) (View.ld x0 rS) (View.ld x2 rW)⟩]

/-- The pipeline's proof data on core `c`: the arrays as the region finds them; after the body at point `t` each
    input's buffer at its block and the result's at the body's payload of the three blocks; the invariant the scoped
    rest and the generator register; nothing owed; full shares. -/
def dat (c : Dev nD) : Dat τ (Elt F) Unit ℕ (UR sig nD τ) ℕ cfg32 c where
  A w := V c (Pipeline.arrRef spec32 w)
  after w t := match w with
    | ⟨0, _⟩ => iblk V c 0 t
    | ⟨1, _⟩ => iblk V c 1 t
    | ⟨2, _⟩ => iblk V c 2 t
    | ⟨3, _⟩ => out_3 (iblk V c 0 t) (iblk V c 1 t) (iblk V c 2 t)
  Φ _ := Pipeline.ΦA spec32 c
  q _ := fullShare
  owed _ := 0

theorem A_eq (c : Dev nD) (w : Fin cfg32.W) : (dat V c).A w = V c (Pipeline.arrRef spec32 w) := by
  dsimp only [dat]
theorem after_0 (c : Dev nD) (t : Fin cfg32.N) : (dat V c).after 0 t = iblk V c 0 t := by dsimp only [dat]; try rfl
theorem after_1 (c : Dev nD) (t : Fin cfg32.N) : (dat V c).after 1 t = iblk V c 1 t := by dsimp only [dat]; try rfl
theorem after_2 (c : Dev nD) (t : Fin cfg32.N) : (dat V c).after 2 t = iblk V c 2 t := by dsimp only [dat]; try rfl
theorem after_3 (c : Dev nD) (t : Fin cfg32.N) :
    (dat V c).after 3 t = out_3 (iblk V c 0 t) (iblk V c 1 t) (iblk V c 2 t) := by dsimp only [dat]; try rfl

end Cert.Kernel.MM

end
-- ==== Proof.K.Data.lean ====
/- What the launch is stated over: region p is entered at the buffers' contents `Ve p` (the conditional frame's valuation
   before it, with each earlier region's output at the gathered rows); gather region p's index table is read off those
   contents; `Hyp` says every table keeps its blocks inside the array; `a` and `pdats` are the admissible tables and the
   proof data of all 33 pipelines; `R` is what rides beside the buffers (the generator register, nothing owed). -/
import proofs.«406793_j90890097918585_2_alg».proof.Proof.K.Outs
import proofs.«406793_j90890097918585_2_alg».proof.Proof.K.G0
import proofs.«406793_j90890097918585_2_alg».proof.Proof.K.G1
import proofs.«406793_j90890097918585_2_alg».proof.Proof.K.G2
import proofs.«406793_j90890097918585_2_alg».proof.Proof.K.G3
import proofs.«406793_j90890097918585_2_alg».proof.Proof.K.G4
import proofs.«406793_j90890097918585_2_alg».proof.Proof.K.G5
import proofs.«406793_j90890097918585_2_alg».proof.Proof.K.G6
import proofs.«406793_j90890097918585_2_alg».proof.Proof.K.G7
import proofs.«406793_j90890097918585_2_alg».proof.Proof.K.G8
import proofs.«406793_j90890097918585_2_alg».proof.Proof.K.G9
import proofs.«406793_j90890097918585_2_alg».proof.Proof.K.G10
import proofs.«406793_j90890097918585_2_alg».proof.Proof.K.G11
import proofs.«406793_j90890097918585_2_alg».proof.Proof.K.G12
import proofs.«406793_j90890097918585_2_alg».proof.Proof.K.G13
import proofs.«406793_j90890097918585_2_alg».proof.Proof.K.G14
import proofs.«406793_j90890097918585_2_alg».proof.Proof.K.G15
import proofs.«406793_j90890097918585_2_alg».proof.Proof.K.G16
import proofs.«406793_j90890097918585_2_alg».proof.Proof.K.G17
import proofs.«406793_j90890097918585_2_alg».proof.Proof.K.G18
import proofs.«406793_j90890097918585_2_alg».proof.Proof.K.G19
import proofs.«406793_j90890097918585_2_alg».proof.Proof.K.G20
import proofs.«406793_j90890097918585_2_alg».proof.Proof.K.G21
import proofs.«406793_j90890097918585_2_alg».proof.Proof.K.G22
import proofs.«406793_j90890097918585_2_alg».proof.Proof.K.G23
import proofs.«406793_j90890097918585_2_alg».proof.Proof.K.G24
import proofs.«406793_j90890097918585_2_alg».proof.Proof.K.G25
import proofs.«406793_j90890097918585_2_alg».proof.Proof.K.G26
import proofs.«406793_j90890097918585_2_alg».proof.Proof.K.G27
import proofs.«406793_j90890097918585_2_alg».proof.Proof.K.G28
import proofs.«406793_j90890097918585_2_alg».proof.Proof.K.G29
import proofs.«406793_j90890097918585_2_alg».proof.Proof.K.G30
import proofs.«406793_j90890097918585_2_alg».proof.Proof.K.G31
import proofs.«406793_j90890097918585_2_alg».proof.Proof.K.MM0

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ)

/-- The buffers' contents when region p is entered. -/
abbrev Ve0 (c : Dev nD) (b : Ref sig .tc) : Buf (Elt F) ((c : Thread nD τ).loc b) := GenP.V1 m c b
abbrev Ve1 (c : Dev nD) (b : Ref sig .tc) : Buf (Elt F) ((c : Thread nD τ).loc b) := GenP.V3 m (Vals.outs m) c b
abbrev Ve2 (c : Dev nD) (b : Ref sig .tc) : Buf (Elt F) ((c : Thread nD τ).loc b) := GenP.V5 m (Vals.outs m) c b
abbrev Ve3 (c : Dev nD) (b : Ref sig .tc) : Buf (Elt F) ((c : Thread nD τ).loc b) := GenP.V7 m (Vals.outs m) c b
abbrev Ve4 (c : Dev nD) (b : Ref sig .tc) : Buf (Elt F) ((c : Thread nD τ).loc b) := GenP.V9 m (Vals.outs m) c b
abbrev Ve5 (c : Dev nD) (b : Ref sig .tc) : Buf (Elt F) ((c : Thread nD τ).loc b) := GenP.V11 m (Vals.outs m) c b
abbrev Ve6 (c : Dev nD) (b : Ref sig .tc) : Buf (Elt F) ((c : Thread nD τ).loc b) := GenP.V13 m (Vals.outs m) c b
abbrev Ve7 (c : Dev nD) (b : Ref sig .tc) : Buf (Elt F) ((c : Thread nD τ).loc b) := GenP.V15 m (Vals.outs m) c b
abbrev Ve8 (c : Dev nD) (b : Ref sig .tc) : Buf (Elt F) ((c : Thread nD τ).loc b) := GenP.V17 m (Vals.outs m) c b
abbrev Ve9 (c : Dev nD) (b : Ref sig .tc) : Buf (Elt F) ((c : Thread nD τ).loc b) := GenP.V19 m (Vals.outs m) c b
abbrev Ve10 (c : Dev nD) (b : Ref sig .tc) : Buf (Elt F) ((c : Thread nD τ).loc b) := GenP.V21 m (Vals.outs m) c b
abbrev Ve11 (c : Dev nD) (b : Ref sig .tc) : Buf (Elt F) ((c : Thread nD τ).loc b) := GenP.V23 m (Vals.outs m) c b
abbrev Ve12 (c : Dev nD) (b : Ref sig .tc) : Buf (Elt F) ((c : Thread nD τ).loc b) := GenP.V25 m (Vals.outs m) c b
abbrev Ve13 (c : Dev nD) (b : Ref sig .tc) : Buf (Elt F) ((c : Thread nD τ).loc b) := GenP.V27 m (Vals.outs m) c b
abbrev Ve14 (c : Dev nD) (b : Ref sig .tc) : Buf (Elt F) ((c : Thread nD τ).loc b) := GenP.V29 m (Vals.outs m) c b
abbrev Ve15 (c : Dev nD) (b : Ref sig .tc) : Buf (Elt F) ((c : Thread nD τ).loc b) := GenP.V31 m (Vals.outs m) c b
abbrev Ve16 (c : Dev nD) (b : Ref sig .tc) : Buf (Elt F) ((c : Thread nD τ).loc b) := GenP.V33 m (Vals.outs m) c b
abbrev Ve17 (c : Dev nD) (b : Ref sig .tc) : Buf (Elt F) ((c : Thread nD τ).loc b) := GenP.V35 m (Vals.outs m) c b
abbrev Ve18 (c : Dev nD) (b : Ref sig .tc) : Buf (Elt F) ((c : Thread nD τ).loc b) := GenP.V37 m (Vals.outs m) c b
abbrev Ve19 (c : Dev nD) (b : Ref sig .tc) : Buf (Elt F) ((c : Thread nD τ).loc b) := GenP.V39 m (Vals.outs m) c b
abbrev Ve20 (c : Dev nD) (b : Ref sig .tc) : Buf (Elt F) ((c : Thread nD τ).loc b) := GenP.V41 m (Vals.outs m) c b
abbrev Ve21 (c : Dev nD) (b : Ref sig .tc) : Buf (Elt F) ((c : Thread nD τ).loc b) := GenP.V43 m (Vals.outs m) c b
abbrev Ve22 (c : Dev nD) (b : Ref sig .tc) : Buf (Elt F) ((c : Thread nD τ).loc b) := GenP.V45 m (Vals.outs m) c b
abbrev Ve23 (c : Dev nD) (b : Ref sig .tc) : Buf (Elt F) ((c : Thread nD τ).loc b) := GenP.V47 m (Vals.outs m) c b
abbrev Ve24 (c : Dev nD) (b : Ref sig .tc) : Buf (Elt F) ((c : Thread nD τ).loc b) := GenP.V49 m (Vals.outs m) c b
abbrev Ve25 (c : Dev nD) (b : Ref sig .tc) : Buf (Elt F) ((c : Thread nD τ).loc b) := GenP.V51 m (Vals.outs m) c b
abbrev Ve26 (c : Dev nD) (b : Ref sig .tc) : Buf (Elt F) ((c : Thread nD τ).loc b) := GenP.V53 m (Vals.outs m) c b
abbrev Ve27 (c : Dev nD) (b : Ref sig .tc) : Buf (Elt F) ((c : Thread nD τ).loc b) := GenP.V55 m (Vals.outs m) c b
abbrev Ve28 (c : Dev nD) (b : Ref sig .tc) : Buf (Elt F) ((c : Thread nD τ).loc b) := GenP.V57 m (Vals.outs m) c b
abbrev Ve29 (c : Dev nD) (b : Ref sig .tc) : Buf (Elt F) ((c : Thread nD τ).loc b) := GenP.V59 m (Vals.outs m) c b
abbrev Ve30 (c : Dev nD) (b : Ref sig .tc) : Buf (Elt F) ((c : Thread nD τ).loc b) := GenP.V61 m (Vals.outs m) c b
abbrev Ve31 (c : Dev nD) (b : Ref sig .tc) : Buf (Elt F) ((c : Thread nD τ).loc b) := GenP.V63 m (Vals.outs m) c b
abbrev Ve32 (c : Dev nD) (b : Ref sig .tc) : Buf (Elt F) ((c : Thread nD τ).loc b) := GenP.V65 m (Vals.outs m) c b

/-- Gather region p's index table, read off its entry contents (the program runs on one device). -/
def tbl0 : pre0.Contents (Elt F) := fun k => Ve0 m (0 : Dev nD) (pre0.ref k)
def tbl1 : pre1.Contents (Elt F) := fun k => Ve1 m (0 : Dev nD) (pre1.ref k)
def tbl2 : pre2.Contents (Elt F) := fun k => Ve2 m (0 : Dev nD) (pre2.ref k)
def tbl3 : pre3.Contents (Elt F) := fun k => Ve3 m (0 : Dev nD) (pre3.ref k)
def tbl4 : pre4.Contents (Elt F) := fun k => Ve4 m (0 : Dev nD) (pre4.ref k)
def tbl5 : pre5.Contents (Elt F) := fun k => Ve5 m (0 : Dev nD) (pre5.ref k)
def tbl6 : pre6.Contents (Elt F) := fun k => Ve6 m (0 : Dev nD) (pre6.ref k)
def tbl7 : pre7.Contents (Elt F) := fun k => Ve7 m (0 : Dev nD) (pre7.ref k)
def tbl8 : pre8.Contents (Elt F) := fun k => Ve8 m (0 : Dev nD) (pre8.ref k)
def tbl9 : pre9.Contents (Elt F) := fun k => Ve9 m (0 : Dev nD) (pre9.ref k)
def tbl10 : pre10.Contents (Elt F) := fun k => Ve10 m (0 : Dev nD) (pre10.ref k)
def tbl11 : pre11.Contents (Elt F) := fun k => Ve11 m (0 : Dev nD) (pre11.ref k)
def tbl12 : pre12.Contents (Elt F) := fun k => Ve12 m (0 : Dev nD) (pre12.ref k)
def tbl13 : pre13.Contents (Elt F) := fun k => Ve13 m (0 : Dev nD) (pre13.ref k)
def tbl14 : pre14.Contents (Elt F) := fun k => Ve14 m (0 : Dev nD) (pre14.ref k)
def tbl15 : pre15.Contents (Elt F) := fun k => Ve15 m (0 : Dev nD) (pre15.ref k)
def tbl16 : pre16.Contents (Elt F) := fun k => Ve16 m (0 : Dev nD) (pre16.ref k)
def tbl17 : pre17.Contents (Elt F) := fun k => Ve17 m (0 : Dev nD) (pre17.ref k)
def tbl18 : pre18.Contents (Elt F) := fun k => Ve18 m (0 : Dev nD) (pre18.ref k)
def tbl19 : pre19.Contents (Elt F) := fun k => Ve19 m (0 : Dev nD) (pre19.ref k)
def tbl20 : pre20.Contents (Elt F) := fun k => Ve20 m (0 : Dev nD) (pre20.ref k)
def tbl21 : pre21.Contents (Elt F) := fun k => Ve21 m (0 : Dev nD) (pre21.ref k)
def tbl22 : pre22.Contents (Elt F) := fun k => Ve22 m (0 : Dev nD) (pre22.ref k)
def tbl23 : pre23.Contents (Elt F) := fun k => Ve23 m (0 : Dev nD) (pre23.ref k)
def tbl24 : pre24.Contents (Elt F) := fun k => Ve24 m (0 : Dev nD) (pre24.ref k)
def tbl25 : pre25.Contents (Elt F) := fun k => Ve25 m (0 : Dev nD) (pre25.ref k)
def tbl26 : pre26.Contents (Elt F) := fun k => Ve26 m (0 : Dev nD) (pre26.ref k)
def tbl27 : pre27.Contents (Elt F) := fun k => Ve27 m (0 : Dev nD) (pre27.ref k)
def tbl28 : pre28.Contents (Elt F) := fun k => Ve28 m (0 : Dev nD) (pre28.ref k)
def tbl29 : pre29.Contents (Elt F) := fun k => Ve29 m (0 : Dev nD) (pre29.ref k)
def tbl30 : pre30.Contents (Elt F) := fun k => Ve30 m (0 : Dev nD) (pre30.ref k)
def tbl31 : pre31.Contents (Elt F) := fun k => Ve31 m (0 : Dev nD) (pre31.ref k)

/-- Every table keeps every block of its window inside the array. -/
structure Hyp : Prop where
  ok0 : ok0 (F := F) (tbl0 m)
  ok1 : ok1 (F := F) (tbl1 m)
  ok2 : ok2 (F := F) (tbl2 m)
  ok3 : ok3 (F := F) (tbl3 m)
  ok4 : ok4 (F := F) (tbl4 m)
  ok5 : ok5 (F := F) (tbl5 m)
  ok6 : ok6 (F := F) (tbl6 m)
  ok7 : ok7 (F := F) (tbl7 m)
  ok8 : ok8 (F := F) (tbl8 m)
  ok9 : ok9 (F := F) (tbl9 m)
  ok10 : ok10 (F := F) (tbl10 m)
  ok11 : ok11 (F := F) (tbl11 m)
  ok12 : ok12 (F := F) (tbl12 m)
  ok13 : ok13 (F := F) (tbl13 m)
  ok14 : ok14 (F := F) (tbl14 m)
  ok15 : ok15 (F := F) (tbl15 m)
  ok16 : ok16 (F := F) (tbl16 m)
  ok17 : ok17 (F := F) (tbl17 m)
  ok18 : ok18 (F := F) (tbl18 m)
  ok19 : ok19 (F := F) (tbl19 m)
  ok20 : ok20 (F := F) (tbl20 m)
  ok21 : ok21 (F := F) (tbl21 m)
  ok22 : ok22 (F := F) (tbl22 m)
  ok23 : ok23 (F := F) (tbl23 m)
  ok24 : ok24 (F := F) (tbl24 m)
  ok25 : ok25 (F := F) (tbl25 m)
  ok26 : ok26 (F := F) (tbl26 m)
  ok27 : ok27 (F := F) (tbl27 m)
  ok28 : ok28 (F := F) (tbl28 m)
  ok29 : ok29 (F := F) (tbl29 m)
  ok30 : ok30 (F := F) (tbl30 m)
  ok31 : ok31 (F := F) (tbl31 m)

variable (h : Hyp m)

/-- The tables as admissible contents. -/
def a : (p : Fin 33) → (pcfgs (F := F) p).Adm
  | ⟨0, _⟩ => ⟨tbl0 m, h.ok0⟩
  | ⟨1, _⟩ => ⟨tbl1 m, h.ok1⟩
  | ⟨2, _⟩ => ⟨tbl2 m, h.ok2⟩
  | ⟨3, _⟩ => ⟨tbl3 m, h.ok3⟩
  | ⟨4, _⟩ => ⟨tbl4 m, h.ok4⟩
  | ⟨5, _⟩ => ⟨tbl5 m, h.ok5⟩
  | ⟨6, _⟩ => ⟨tbl6 m, h.ok6⟩
  | ⟨7, _⟩ => ⟨tbl7 m, h.ok7⟩
  | ⟨8, _⟩ => ⟨tbl8 m, h.ok8⟩
  | ⟨9, _⟩ => ⟨tbl9 m, h.ok9⟩
  | ⟨10, _⟩ => ⟨tbl10 m, h.ok10⟩
  | ⟨11, _⟩ => ⟨tbl11 m, h.ok11⟩
  | ⟨12, _⟩ => ⟨tbl12 m, h.ok12⟩
  | ⟨13, _⟩ => ⟨tbl13 m, h.ok13⟩
  | ⟨14, _⟩ => ⟨tbl14 m, h.ok14⟩
  | ⟨15, _⟩ => ⟨tbl15 m, h.ok15⟩
  | ⟨16, _⟩ => ⟨tbl16 m, h.ok16⟩
  | ⟨17, _⟩ => ⟨tbl17 m, h.ok17⟩
  | ⟨18, _⟩ => ⟨tbl18 m, h.ok18⟩
  | ⟨19, _⟩ => ⟨tbl19 m, h.ok19⟩
  | ⟨20, _⟩ => ⟨tbl20 m, h.ok20⟩
  | ⟨21, _⟩ => ⟨tbl21 m, h.ok21⟩
  | ⟨22, _⟩ => ⟨tbl22 m, h.ok22⟩
  | ⟨23, _⟩ => ⟨tbl23 m, h.ok23⟩
  | ⟨24, _⟩ => ⟨tbl24 m, h.ok24⟩
  | ⟨25, _⟩ => ⟨tbl25 m, h.ok25⟩
  | ⟨26, _⟩ => ⟨tbl26 m, h.ok26⟩
  | ⟨27, _⟩ => ⟨tbl27 m, h.ok27⟩
  | ⟨28, _⟩ => ⟨tbl28 m, h.ok28⟩
  | ⟨29, _⟩ => ⟨tbl29 m, h.ok29⟩
  | ⟨30, _⟩ => ⟨tbl30 m, h.ok30⟩
  | ⟨31, _⟩ => ⟨tbl31 m, h.ok31⟩
  | ⟨32, _⟩ => cfg32.toPCfg_adm
  | ⟨_ + 33, hh⟩ => absurd hh (Nat.not_lt.2 (Nat.le_add_left _ _))

/-- Every pipeline's proof data, each at its region's entry contents. -/
def pdats : (p : Fin 33) → (c : Dev nD) → Dat τ (Elt F) Unit ℕ (UR sig nD τ) ℕ (Pipeline.pin (pcfgs (F := F)) (a m h) p) c
  | ⟨0, _⟩ => fun c => G0.dat (Ve0 m) (tbl0 m) h.ok0 c
  | ⟨1, _⟩ => fun c => G1.dat (Ve1 m) (tbl1 m) h.ok1 c
  | ⟨2, _⟩ => fun c => G2.dat (Ve2 m) (tbl2 m) h.ok2 c
  | ⟨3, _⟩ => fun c => G3.dat (Ve3 m) (tbl3 m) h.ok3 c
  | ⟨4, _⟩ => fun c => G4.dat (Ve4 m) (tbl4 m) h.ok4 c
  | ⟨5, _⟩ => fun c => G5.dat (Ve5 m) (tbl5 m) h.ok5 c
  | ⟨6, _⟩ => fun c => G6.dat (Ve6 m) (tbl6 m) h.ok6 c
  | ⟨7, _⟩ => fun c => G7.dat (Ve7 m) (tbl7 m) h.ok7 c
  | ⟨8, _⟩ => fun c => G8.dat (Ve8 m) (tbl8 m) h.ok8 c
  | ⟨9, _⟩ => fun c => G9.dat (Ve9 m) (tbl9 m) h.ok9 c
  | ⟨10, _⟩ => fun c => G10.dat (Ve10 m) (tbl10 m) h.ok10 c
  | ⟨11, _⟩ => fun c => G11.dat (Ve11 m) (tbl11 m) h.ok11 c
  | ⟨12, _⟩ => fun c => G12.dat (Ve12 m) (tbl12 m) h.ok12 c
  | ⟨13, _⟩ => fun c => G13.dat (Ve13 m) (tbl13 m) h.ok13 c
  | ⟨14, _⟩ => fun c => G14.dat (Ve14 m) (tbl14 m) h.ok14 c
  | ⟨15, _⟩ => fun c => G15.dat (Ve15 m) (tbl15 m) h.ok15 c
  | ⟨16, _⟩ => fun c => G16.dat (Ve16 m) (tbl16 m) h.ok16 c
  | ⟨17, _⟩ => fun c => G17.dat (Ve17 m) (tbl17 m) h.ok17 c
  | ⟨18, _⟩ => fun c => G18.dat (Ve18 m) (tbl18 m) h.ok18 c
  | ⟨19, _⟩ => fun c => G19.dat (Ve19 m) (tbl19 m) h.ok19 c
  | ⟨20, _⟩ => fun c => G20.dat (Ve20 m) (tbl20 m) h.ok20 c
  | ⟨21, _⟩ => fun c => G21.dat (Ve21 m) (tbl21 m) h.ok21 c
  | ⟨22, _⟩ => fun c => G22.dat (Ve22 m) (tbl22 m) h.ok22 c
  | ⟨23, _⟩ => fun c => G23.dat (Ve23 m) (tbl23 m) h.ok23 c
  | ⟨24, _⟩ => fun c => G24.dat (Ve24 m) (tbl24 m) h.ok24 c
  | ⟨25, _⟩ => fun c => G25.dat (Ve25 m) (tbl25 m) h.ok25 c
  | ⟨26, _⟩ => fun c => G26.dat (Ve26 m) (tbl26 m) h.ok26 c
  | ⟨27, _⟩ => fun c => G27.dat (Ve27 m) (tbl27 m) h.ok27 c
  | ⟨28, _⟩ => fun c => G28.dat (Ve28 m) (tbl28 m) h.ok28 c
  | ⟨29, _⟩ => fun c => G29.dat (Ve29 m) (tbl29 m) h.ok29 c
  | ⟨30, _⟩ => fun c => G30.dat (Ve30 m) (tbl30 m) h.ok30 c
  | ⟨31, _⟩ => fun c => G31.dat (Ve31 m) (tbl31 m) h.ok31 c
  | ⟨32, _⟩ => fun c => MM.dat (Ve32 m) c
  | ⟨_ + 33, hh⟩ => absurd hh (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

end Cert.Kernel.Run

end
-- ==== Proof.K.S0.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (0 : Fin 33) c = G0.dat (Run.Ve0 m) (Run.tbl0 m) h.ok0 c := rfl

/-- On the one device the table's buffer holds the table. -/
theorem tbl_eq (c : Dev nD) : (fun k => Run.Ve0 m c (pre0.ref k)) = Run.tbl0 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec0 c (Run.Ve0 m c) : sProp 𝕄)
      = iprop(Pipeline.prefHeld (Ix := Unit) (Name := ℕ) (U := UR sig nD τ) (Lvl := ℕ) pre0 c (fun _ => fullShare) (Run.tbl0 m)
          ∗ Pipeline.unscopedRestP (Ix := Unit) (Name := ℕ) (U := UR sig nD τ) (Lvl := ℕ) pre0 spec0 c (Run.Ve0 m c)) := by
  have hs := Pipeline.unscopedRest_split (Ix := Unit) (Name := ℕ) (U := UR sig nD τ) (Lvl := ℕ) (Val := Elt F) (launch0 (F := F)).pre c (Run.Ve0 m c)
  rw [← tbl_eq m c]
  exact hs

/-- After the region each of its arrays holds what the pipeline leaves: the array read as entered, the output at the gathered rows. -/
theorem hF (harr : ∀ c : Dev nD, (G0.dat (Run.Ve0 m) (Run.tbl0 m) h.ok0 c).arrAt 1 (G0.cfgM (Run.tbl0 m) h.ok0).N = Vals.gath3 m 0 c)
    (c : Dev nD) (w : Fin (G0.cfgM (Run.tbl0 m) h.ok0).W) :
    (G0.dat (Run.Ve0 m) (Run.tbl0 m) h.ok0 c).arrAt w (G0.cfgM (Run.tbl0 m) h.ok0).N
      = GenP.V2 m (Vals.outs m) c (Pipeline.arrRef spec0 w) := by
  match w with
  | ⟨0, _⟩ =>
    refine ((G0.dat (Run.Ve0 m) (Run.tbl0 m) h.ok0 c).arrAt_in 0 rfl _).trans ((G0.A_eq (Run.Ve0 m) (Run.tbl0 m) h.ok0 c 0).trans ?_)
    exact (GenP.V2_of m (Vals.outs m) c main_v9 (by decide)).symm
  | ⟨1, _⟩ =>
    refine (harr c).trans ?_
    show Vals.gath3 m 0 c = Function.update (GenP.V1 m c) main_v10 (Vals.outs m 2 main_v10 c) main_v10
    rw [Function.update_self, Vals.outs_0]

/-- and every other buffer what it held at entry. -/
theorem hrest (c : Dev nD) : ∀ b, b ∉ Finset.univ.image (Pipeline.arrRef spec0) →
    (fun b : Ref sig .tc => GenP.V2 m (Vals.outs m) c b) b = Run.Ve0 m c b := fun b hb =>
  GenP.V2_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G0.dat (Run.Ve0 m) (Run.tbl0 m) h.ok0 c).arrAt 1 (G0.cfgM (Run.tbl0 m) h.ok0).N = Vals.gath3 m 0 c) :
    Pipeline.RegionSeg (pcfgs (F := F)) (Run.a m h) (Run.pdats m h) () defs₀ Run.𝒱₀ Run.L Run.lv (0 : Fin 33) where
  win := (launch0 (F := F)).win.to₀
  block_pos := (launch0 (F := F)).block_pos
  stage_whole := (launch0 (F := F)).stage_whole
  K := PEmpty
  osem k := k.elim
  ho := Pipeline.OwnSemFacts.none _
  hbody c := (G0.body_obligation (Run.Ve0 m) (Run.tbl0 m) h.ok0 c).loose
  hwaits := Pipeline.hwaits_of_owed_zero _ _ _ _ Run.L Run.lv (0 : Fin 33) fun _ _ => rfl
  pre c := iprop(StableHlo.held (c : Thread nD τ) (Pipeline.ucRefs τ sig) (GenP.V1 m c) ∗ Run.R c)
  post c := iprop(StableHlo.held (c : Thread nD τ) (Pipeline.ucRefs τ sig) (GenP.V2 m (Vals.outs m) c) ∗ Run.R c)
  X c := iprop(∃ r, prngReg c r)
  Y c := iprop((∃ r, prngReg c r) ∗ Pipeline.prefHeld (Ix := Unit) (Name := ℕ) (U := UR sig nD τ) (Lvl := ℕ) pre0 c (fun _ => fullShare) (Run.tbl0 m))
  Z c := Pipeline.unscopedRestP (Ix := Unit) (Name := ℕ) (U := UR sig nD τ) (Lvl := ℕ) pre0 spec0 c (Run.Ve0 m c)
  hentry c := by
    rw [Pipeline.ownSems0_none]
    have hsplit := Pipeline.arrays_of_unscopedBufs (p := (0 : Fin 33)) (pcfgs (F := F)) (Run.a m h) (Run.pdats m h) (launch0 (F := F)).win (launch0 (F := F)).arr_whole c
      ((Run.pdats m h (0 : Fin 33) c).share_full fun _ => rfl) (Run.Ve0 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (0 : Fin 33) c).Φ 0 = iprop(Pipeline.ΦA spec0 c ∗ Pipeline.prefHeld (Ix := Unit) (Name := ℕ) (U := UR sig nD τ) (Lvl := ℕ) pre0 c (fun _ => fullShare) (Run.tbl0 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (0 : Fin 33) c).Φ (Fin.last _) = iprop(Pipeline.ΦA spec0 c ∗ Pipeline.prefHeld (Ix := Unit) (Name := ℕ) (U := UR sig nD τ) (Lvl := ℕ) pre0 c (fun _ => fullShare) (Run.tbl0 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (0 : Fin 33)) (pcfgs (F := F)) (Run.a m h) (Ix := Unit) (Name := ℕ) (U := UR sig nD τ) (Lvl := ℕ)
      (launch0 (F := F)).win (launch0 (F := F)).arr_whole c (Run.pdats m h) ((Run.pdats m h (0 : Fin 33) c).share_full fun _ => rfl)
      (Run.Ve0 m c) (fun b => GenP.V2 m (Vals.outs m) c b) ((Run.pdats m h (0 : Fin 33) c).arrAt · (G0.cfgM (Run.tbl0 m) h.ok0).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S0

end
-- ==== Proof.K.G0V.lean ====
/-
  What gather region 0 leaves in its output array: point t writes back row `tb[t]` of the array it reads as row t, the
  50000 rows tile the output, so the array ends as the gathered rows.
-/
import proofs.«406793_j90890097918585_2_alg».proof.Proof.K.G0
import proofs.«406793_j90890097918585_2_alg».proof.Proof.K.Vals
import Idealize.ShloMosaic.Lib.Pipeline.Value

set_option maxRecDepth 16384

noncomputable section

namespace Cert.Kernel.G0

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre0.Contents (Elt F)) (hO : ok0 (F := F) tb)

/-! ## The two windows' block rows at a point -/

/-- A point of the grid is below 50000. -/
private theorem point_lt (t : Fin (cfgM tb hO).N) : t.val < 50000 := by
  have h : t.val < grid0.N := t.isLt
  rw [N_0] at h
  exact h

/-- The grid has one axis: the coordinate of point t is t. -/
private theorem coords_0 (t : Fin (cfgM tb hO).N) : (grid0.coords t 0).val = t.val := by
  have ht := point_lt tb hO t
  show t.val / grid0.stride 0 % grid0.bound 0 = t.val
  rw [show grid0.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc0_transform_1 (grid0.coords t) 0 = t.val
  unfold cc0_transform_1
  show (BitVec.ofNat 32 (grid0.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid0.N
  · exact Or.inl h
  · have hlt : t.val < grid0.N := t.isLt
    refine Or.inr ⟨by show t.val + 1 < grid0.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc0_transform_0 k0_off1_inb numel1_S1 tb (grid0.coords t) 0 = _
  unfold cc0_transform_0
  dsimp only
  refine congrArg BitVec.toNat (congrArg (tb 0 : S50000.Idx → BitVec 32) ?_)
  funext d
  match d with
  | ⟨0, _⟩ =>
    apply Fin.ext
    show (Scalar.indexCast (BitVec.ofNat 32 (grid0.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k0_pay1 x = x := by
  unfold k0_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v9 (ValueIdx.ix3 (Vals.rowOf ((tb 0 : S50000.Idx → BitVec 32) (ValueIdx.ix1 ⟨t.val, point_lt tb hO t⟩))) (y 1) (y 2)) := by
  show V c main_v9 ((((cfgM tb hO).win 0).blk t).view.emb y) = _
  refine congrArg (V c main_v9) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v9) (tb 0)) := by
  show ((cfgM tb hO).win 1).cut (grid0.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v9) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v10 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid0.N := by rw [N_0]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v9) (tb 0) :=
  (dat V tb hO c).arrAt_eq_of_cover 1 (Vals.gath3Of (V c main_v9) (tb 0)) (fun t _ => flushed_1 V tb hO htb c t)
    (cover_blk_1 tb hO)

end Cert.Kernel.G0

end
-- ==== Proof.K.S1.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (1 : Fin 33) c = G1.dat (Run.Ve1 m) (Run.tbl1 m) h.ok1 c := rfl

/-- On the one device the table's buffer holds the table. -/
theorem tbl_eq (c : Dev nD) : (fun k => Run.Ve1 m c (pre1.ref k)) = Run.tbl1 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec1 c (Run.Ve1 m c) : sProp 𝕄)
      = iprop(Pipeline.prefHeld (Ix := Unit) (Name := ℕ) (U := UR sig nD τ) (Lvl := ℕ) pre1 c (fun _ => fullShare) (Run.tbl1 m)
          ∗ Pipeline.unscopedRestP (Ix := Unit) (Name := ℕ) (U := UR sig nD τ) (Lvl := ℕ) pre1 spec1 c (Run.Ve1 m c)) := by
  have hs := Pipeline.unscopedRest_split (Ix := Unit) (Name := ℕ) (U := UR sig nD τ) (Lvl := ℕ) (Val := Elt F) (launch1 (F := F)).pre c (Run.Ve1 m c)
  rw [← tbl_eq m c]
  exact hs

/-- After the region each of its arrays holds what the pipeline leaves: the array read as entered, the output at the gathered rows. -/
theorem hF (harr : ∀ c : Dev nD, (G1.dat (Run.Ve1 m) (Run.tbl1 m) h.ok1 c).arrAt 1 (G1.cfgM (Run.tbl1 m) h.ok1).N = Vals.gath3 m 1 c)
    (c : Dev nD) (w : Fin (G1.cfgM (Run.tbl1 m) h.ok1).W) :
    (G1.dat (Run.Ve1 m) (Run.tbl1 m) h.ok1 c).arrAt w (G1.cfgM (Run.tbl1 m) h.ok1).N
      = GenP.V4 m (Vals.outs m) c (Pipeline.arrRef spec1 w) := by
  match w with
  | ⟨0, _⟩ =>
    refine ((G1.dat (Run.Ve1 m) (Run.tbl1 m) h.ok1 c).arrAt_in 0 rfl _).trans ((G1.A_eq (Run.Ve1 m) (Run.tbl1 m) h.ok1 c 0).trans ?_)
    exact (GenP.V4_of m (Vals.outs m) c main_v22 (by decide)).symm
  | ⟨1, _⟩ =>
    refine (harr c).trans ?_
    show Vals.gath3 m 1 c = Function.update (GenP.V3 m (Vals.outs m) c) main_v23 (Vals.outs m 4 main_v23 c) main_v23
    rw [Function.update_self, Vals.outs_1]

/-- and every other buffer what it held at entry. -/
theorem hrest (c : Dev nD) : ∀ b, b ∉ Finset.univ.image (Pipeline.arrRef spec1) →
    (fun b : Ref sig .tc => GenP.V4 m (Vals.outs m) c b) b = Run.Ve1 m c b := fun b hb =>
  GenP.V4_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G1.dat (Run.Ve1 m) (Run.tbl1 m) h.ok1 c).arrAt 1 (G1.cfgM (Run.tbl1 m) h.ok1).N = Vals.gath3 m 1 c) :
    Pipeline.RegionSeg (pcfgs (F := F)) (Run.a m h) (Run.pdats m h) () defs₀ Run.𝒱₀ Run.L Run.lv (1 : Fin 33) where
  win := (launch1 (F := F)).win.to₀
  block_pos := (launch1 (F := F)).block_pos
  stage_whole := (launch1 (F := F)).stage_whole
  K := PEmpty
  osem k := k.elim
  ho := Pipeline.OwnSemFacts.none _
  hbody c := (G1.body_obligation (Run.Ve1 m) (Run.tbl1 m) h.ok1 c).loose
  hwaits := Pipeline.hwaits_of_owed_zero _ _ _ _ Run.L Run.lv (1 : Fin 33) fun _ _ => rfl
  pre c := iprop(StableHlo.held (c : Thread nD τ) (Pipeline.ucRefs τ sig) (GenP.V3 m (Vals.outs m) c) ∗ Run.R c)
  post c := iprop(StableHlo.held (c : Thread nD τ) (Pipeline.ucRefs τ sig) (GenP.V4 m (Vals.outs m) c) ∗ Run.R c)
  X c := iprop(∃ r, prngReg c r)
  Y c := iprop((∃ r, prngReg c r) ∗ Pipeline.prefHeld (Ix := Unit) (Name := ℕ) (U := UR sig nD τ) (Lvl := ℕ) pre1 c (fun _ => fullShare) (Run.tbl1 m))
  Z c := Pipeline.unscopedRestP (Ix := Unit) (Name := ℕ) (U := UR sig nD τ) (Lvl := ℕ) pre1 spec1 c (Run.Ve1 m c)
  hentry c := by
    rw [Pipeline.ownSems0_none]
    have hsplit := Pipeline.arrays_of_unscopedBufs (p := (1 : Fin 33)) (pcfgs (F := F)) (Run.a m h) (Run.pdats m h) (launch1 (F := F)).win (launch1 (F := F)).arr_whole c
      ((Run.pdats m h (1 : Fin 33) c).share_full fun _ => rfl) (Run.Ve1 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (1 : Fin 33) c).Φ 0 = iprop(Pipeline.ΦA spec1 c ∗ Pipeline.prefHeld (Ix := Unit) (Name := ℕ) (U := UR sig nD τ) (Lvl := ℕ) pre1 c (fun _ => fullShare) (Run.tbl1 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (1 : Fin 33) c).Φ (Fin.last _) = iprop(Pipeline.ΦA spec1 c ∗ Pipeline.prefHeld (Ix := Unit) (Name := ℕ) (U := UR sig nD τ) (Lvl := ℕ) pre1 c (fun _ => fullShare) (Run.tbl1 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (1 : Fin 33)) (pcfgs (F := F)) (Run.a m h) (Ix := Unit) (Name := ℕ) (U := UR sig nD τ) (Lvl := ℕ)
      (launch1 (F := F)).win (launch1 (F := F)).arr_whole c (Run.pdats m h) ((Run.pdats m h (1 : Fin 33) c).share_full fun _ => rfl)
      (Run.Ve1 m c) (fun b => GenP.V4 m (Vals.outs m) c b) ((Run.pdats m h (1 : Fin 33) c).arrAt · (G1.cfgM (Run.tbl1 m) h.ok1).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S1

end
-- ==== Proof.K.G1V.lean ====
/-
  What gather region 0 leaves in its output array: point t writes back row `tb[t]` of the array it reads as row t, the
  50000 rows tile the output, so the array ends as the gathered rows.
-/
import proofs.«406793_j90890097918585_2_alg».proof.Proof.K.G1
import proofs.«406793_j90890097918585_2_alg».proof.Proof.K.Vals
import Idealize.ShloMosaic.Lib.Pipeline.Value

set_option maxRecDepth 16384

noncomputable section

namespace Cert.Kernel.G1

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre1.Contents (Elt F)) (hO : ok1 (F := F) tb)

/-! ## The two windows' block rows at a point -/

/-- A point of the grid is below 50000. -/
private theorem point_lt (t : Fin (cfgM tb hO).N) : t.val < 50000 := by
  have h : t.val < grid1.N := t.isLt
  rw [N_1] at h
  exact h

/-- The grid has one axis: the coordinate of point t is t. -/
private theorem coords_0 (t : Fin (cfgM tb hO).N) : (grid1.coords t 0).val = t.val := by
  have ht := point_lt tb hO t
  show t.val / grid1.stride 0 % grid1.bound 0 = t.val
  rw [show grid1.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc1_transform_1 (grid1.coords t) 0 = t.val
  unfold cc1_transform_1
  show (BitVec.ofNat 32 (grid1.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid1.N
  · exact Or.inl h
  · have hlt : t.val < grid1.N := t.isLt
    refine Or.inr ⟨by show t.val + 1 < grid1.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc1_transform_0 k1_off1_inb numel1_S1 tb (grid1.coords t) 0 = _
  unfold cc1_transform_0
  dsimp only
  refine congrArg BitVec.toNat (congrArg (tb 0 : S50000.Idx → BitVec 32) ?_)
  funext d
  match d with
  | ⟨0, _⟩ =>
    apply Fin.ext
    show (Scalar.indexCast (BitVec.ofNat 32 (grid1.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k1_pay1 x = x := by
  unfold k1_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v22 (ValueIdx.ix3 (Vals.rowOf ((tb 0 : S50000.Idx → BitVec 32) (ValueIdx.ix1 ⟨t.val, point_lt tb hO t⟩))) (y 1) (y 2)) := by
  show V c main_v22 ((((cfgM tb hO).win 0).blk t).view.emb y) = _
  refine congrArg (V c main_v22) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v22) (tb 0)) := by
  show ((cfgM tb hO).win 1).cut (grid1.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v22) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v23 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid1.N := by rw [N_1]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v22) (tb 0) :=
  (dat V tb hO c).arrAt_eq_of_cover 1 (Vals.gath3Of (V c main_v22) (tb 0)) (fun t _ => flushed_1 V tb hO htb c t)
    (cover_blk_1 tb hO)

end Cert.Kernel.G1

end
-- ==== Proof.K.S2.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (2 : Fin 33) c = G2.dat (Run.Ve2 m) (Run.tbl2 m) h.ok2 c := rfl

/-- On the one device the table's buffer holds the table. -/
theorem tbl_eq (c : Dev nD) : (fun k => Run.Ve2 m c (pre2.ref k)) = Run.tbl2 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec2 c (Run.Ve2 m c) : sProp 𝕄)
      = iprop(Pipeline.prefHeld (Ix := Unit) (Name := ℕ) (U := UR sig nD τ) (Lvl := ℕ) pre2 c (fun _ => fullShare) (Run.tbl2 m)
          ∗ Pipeline.unscopedRestP (Ix := Unit) (Name := ℕ) (U := UR sig nD τ) (Lvl := ℕ) pre2 spec2 c (Run.Ve2 m c)) := by
  have hs := Pipeline.unscopedRest_split (Ix := Unit) (Name := ℕ) (U := UR sig nD τ) (Lvl := ℕ) (Val := Elt F) (launch2 (F := F)).pre c (Run.Ve2 m c)
  rw [← tbl_eq m c]
  exact hs

/-- After the region each of its arrays holds what the pipeline leaves: the array read as entered, the output at the gathered rows. -/
theorem hF (harr : ∀ c : Dev nD, (G2.dat (Run.Ve2 m) (Run.tbl2 m) h.ok2 c).arrAt 1 (G2.cfgM (Run.tbl2 m) h.ok2).N = Vals.gath3 m 2 c)
    (c : Dev nD) (w : Fin (G2.cfgM (Run.tbl2 m) h.ok2).W) :
    (G2.dat (Run.Ve2 m) (Run.tbl2 m) h.ok2 c).arrAt w (G2.cfgM (Run.tbl2 m) h.ok2).N
      = GenP.V6 m (Vals.outs m) c (Pipeline.arrRef spec2 w) := by
  match w with
  | ⟨0, _⟩ =>
    refine ((G2.dat (Run.Ve2 m) (Run.tbl2 m) h.ok2 c).arrAt_in 0 rfl _).trans ((G2.A_eq (Run.Ve2 m) (Run.tbl2 m) h.ok2 c 0).trans ?_)
    exact (GenP.V6_of m (Vals.outs m) c main_v35 (by decide)).symm
  | ⟨1, _⟩ =>
    refine (harr c).trans ?_
    show Vals.gath3 m 2 c = Function.update (GenP.V5 m (Vals.outs m) c) main_v36 (Vals.outs m 6 main_v36 c) main_v36
    rw [Function.update_self, Vals.outs_2]

/-- and every other buffer what it held at entry. -/
theorem hrest (c : Dev nD) : ∀ b, b ∉ Finset.univ.image (Pipeline.arrRef spec2) →
    (fun b : Ref sig .tc => GenP.V6 m (Vals.outs m) c b) b = Run.Ve2 m c b := fun b hb =>
  GenP.V6_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G2.dat (Run.Ve2 m) (Run.tbl2 m) h.ok2 c).arrAt 1 (G2.cfgM (Run.tbl2 m) h.ok2).N = Vals.gath3 m 2 c) :
    Pipeline.RegionSeg (pcfgs (F := F)) (Run.a m h) (Run.pdats m h) () defs₀ Run.𝒱₀ Run.L Run.lv (2 : Fin 33) where
  win := (launch2 (F := F)).win.to₀
  block_pos := (launch2 (F := F)).block_pos
  stage_whole := (launch2 (F := F)).stage_whole
  K := PEmpty
  osem k := k.elim
  ho := Pipeline.OwnSemFacts.none _
  hbody c := (G2.body_obligation (Run.Ve2 m) (Run.tbl2 m) h.ok2 c).loose
  hwaits := Pipeline.hwaits_of_owed_zero _ _ _ _ Run.L Run.lv (2 : Fin 33) fun _ _ => rfl
  pre c := iprop(StableHlo.held (c : Thread nD τ) (Pipeline.ucRefs τ sig) (GenP.V5 m (Vals.outs m) c) ∗ Run.R c)
  post c := iprop(StableHlo.held (c : Thread nD τ) (Pipeline.ucRefs τ sig) (GenP.V6 m (Vals.outs m) c) ∗ Run.R c)
  X c := iprop(∃ r, prngReg c r)
  Y c := iprop((∃ r, prngReg c r) ∗ Pipeline.prefHeld (Ix := Unit) (Name := ℕ) (U := UR sig nD τ) (Lvl := ℕ) pre2 c (fun _ => fullShare) (Run.tbl2 m))
  Z c := Pipeline.unscopedRestP (Ix := Unit) (Name := ℕ) (U := UR sig nD τ) (Lvl := ℕ) pre2 spec2 c (Run.Ve2 m c)
  hentry c := by
    rw [Pipeline.ownSems0_none]
    have hsplit := Pipeline.arrays_of_unscopedBufs (p := (2 : Fin 33)) (pcfgs (F := F)) (Run.a m h) (Run.pdats m h) (launch2 (F := F)).win (launch2 (F := F)).arr_whole c
      ((Run.pdats m h (2 : Fin 33) c).share_full fun _ => rfl) (Run.Ve2 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (2 : Fin 33) c).Φ 0 = iprop(Pipeline.ΦA spec2 c ∗ Pipeline.prefHeld (Ix := Unit) (Name := ℕ) (U := UR sig nD τ) (Lvl := ℕ) pre2 c (fun _ => fullShare) (Run.tbl2 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (2 : Fin 33) c).Φ (Fin.last _) = iprop(Pipeline.ΦA spec2 c ∗ Pipeline.prefHeld (Ix := Unit) (Name := ℕ) (U := UR sig nD τ) (Lvl := ℕ) pre2 c (fun _ => fullShare) (Run.tbl2 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (2 : Fin 33)) (pcfgs (F := F)) (Run.a m h) (Ix := Unit) (Name := ℕ) (U := UR sig nD τ) (Lvl := ℕ)
      (launch2 (F := F)).win (launch2 (F := F)).arr_whole c (Run.pdats m h) ((Run.pdats m h (2 : Fin 33) c).share_full fun _ => rfl)
      (Run.Ve2 m c) (fun b => GenP.V6 m (Vals.outs m) c b) ((Run.pdats m h (2 : Fin 33) c).arrAt · (G2.cfgM (Run.tbl2 m) h.ok2).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S2

end
-- ==== Proof.K.G2V.lean ====
/-
  What gather region 0 leaves in its output array: point t writes back row `tb[t]` of the array it reads as row t, the
  50000 rows tile the output, so the array ends as the gathered rows.
-/
import proofs.«406793_j90890097918585_2_alg».proof.Proof.K.G2
import proofs.«406793_j90890097918585_2_alg».proof.Proof.K.Vals
import Idealize.ShloMosaic.Lib.Pipeline.Value

set_option maxRecDepth 16384

noncomputable section

namespace Cert.Kernel.G2

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre2.Contents (Elt F)) (hO : ok2 (F := F) tb)

/-! ## The two windows' block rows at a point -/

/-- A point of the grid is below 50000. -/
private theorem point_lt (t : Fin (cfgM tb hO).N) : t.val < 50000 := by
  have h : t.val < grid2.N := t.isLt
  rw [N_2] at h
  exact h

/-- The grid has one axis: the coordinate of point t is t. -/
private theorem coords_0 (t : Fin (cfgM tb hO).N) : (grid2.coords t 0).val = t.val := by
  have ht := point_lt tb hO t
  show t.val / grid2.stride 0 % grid2.bound 0 = t.val
  rw [show grid2.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc2_transform_1 (grid2.coords t) 0 = t.val
  unfold cc2_transform_1
  show (BitVec.ofNat 32 (grid2.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid2.N
  · exact Or.inl h
  · have hlt : t.val < grid2.N := t.isLt
    refine Or.inr ⟨by show t.val + 1 < grid2.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc2_transform_0 k2_off1_inb numel1_S1 tb (grid2.coords t) 0 = _
  unfold cc2_transform_0
  dsimp only
  refine congrArg BitVec.toNat (congrArg (tb 0 : S50000.Idx → BitVec 32) ?_)
  funext d
  match d with
  | ⟨0, _⟩ =>
    apply Fin.ext
    show (Scalar.indexCast (BitVec.ofNat 32 (grid2.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k2_pay1 x = x := by
  unfold k2_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v35 (ValueIdx.ix3 (Vals.rowOf ((tb 0 : S50000.Idx → BitVec 32) (ValueIdx.ix1 ⟨t.val, point_lt tb hO t⟩))) (y 1) (y 2)) := by
  show V c main_v35 ((((cfgM tb hO).win 0).blk t).view.emb y) = _
  refine congrArg (V c main_v35) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v35) (tb 0)) := by
  show ((cfgM tb hO).win 1).cut (grid2.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v35) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v36 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid2.N := by rw [N_2]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v35) (tb 0) :=
  (dat V tb hO c).arrAt_eq_of_cover 1 (Vals.gath3Of (V c main_v35) (tb 0)) (fun t _ => flushed_1 V tb hO htb c t)
    (cover_blk_1 tb hO)

end Cert.Kernel.G2

end
-- ==== Proof.K.S3.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (3 : Fin 33) c = G3.dat (Run.Ve3 m) (Run.tbl3 m) h.ok3 c := rfl

/-- On the one device the table's buffer holds the table. -/
theorem tbl_eq (c : Dev nD) : (fun k => Run.Ve3 m c (pre3.ref k)) = Run.tbl3 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec3 c (Run.Ve3 m c) : sProp 𝕄)
      = iprop(Pipeline.prefHeld (Ix := Unit) (Name := ℕ) (U := UR sig nD τ) (Lvl := ℕ) pre3 c (fun _ => fullShare) (Run.tbl3 m)
          ∗ Pipeline.unscopedRestP (Ix := Unit) (Name := ℕ) (U := UR sig nD τ) (Lvl := ℕ) pre3 spec3 c (Run.Ve3 m c)) := by
  have hs := Pipeline.unscopedRest_split (Ix := Unit) (Name := ℕ) (U := UR sig nD τ) (Lvl := ℕ) (Val := Elt F) (launch3 (F := F)).pre c (Run.Ve3 m c)
  rw [← tbl_eq m c]
  exact hs

/-- After the region each of its arrays holds what the pipeline leaves: the array read as entered, the output at the gathered rows. -/
theorem hF (harr : ∀ c : Dev nD, (G3.dat (Run.Ve3 m) (Run.tbl3 m) h.ok3 c).arrAt 1 (G3.cfgM (Run.tbl3 m) h.ok3).N = Vals.gath3 m 3 c)
    (c : Dev nD) (w : Fin (G3.cfgM (Run.tbl3 m) h.ok3).W) :
    (G3.dat (Run.Ve3 m) (Run.tbl3 m) h.ok3 c).arrAt w (G3.cfgM (Run.tbl3 m) h.ok3).N
      = GenP.V8 m (Vals.outs m) c (Pipeline.arrRef spec3 w) := by
  match w with
  | ⟨0, _⟩ =>
    refine ((G3.dat (Run.Ve3 m) (Run.tbl3 m) h.ok3 c).arrAt_in 0 rfl _).trans ((G3.A_eq (Run.Ve3 m) (Run.tbl3 m) h.ok3 c 0).trans ?_)
    exact (GenP.V8_of m (Vals.outs m) c main_v48 (by decide)).symm
  | ⟨1, _⟩ =>
    refine (harr c).trans ?_
    show Vals.gath3 m 3 c = Function.update (GenP.V7 m (Vals.outs m) c) main_v49 (Vals.outs m 8 main_v49 c) main_v49
    rw [Function.update_self, Vals.outs_3]

/-- and every other buffer what it held at entry. -/
theorem hrest (c : Dev nD) : ∀ b, b ∉ Finset.univ.image (Pipeline.arrRef spec3) →
    (fun b : Ref sig .tc => GenP.V8 m (Vals.outs m) c b) b = Run.Ve3 m c b := fun b hb =>
  GenP.V8_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G3.dat (Run.Ve3 m) (Run.tbl3 m) h.ok3 c).arrAt 1 (G3.cfgM (Run.tbl3 m) h.ok3).N = Vals.gath3 m 3 c) :
    Pipeline.RegionSeg (pcfgs (F := F)) (Run.a m h) (Run.pdats m h) () defs₀ Run.𝒱₀ Run.L Run.lv (3 : Fin 33) where
  win := (launch3 (F := F)).win.to₀
  block_pos := (launch3 (F := F)).block_pos
  stage_whole := (launch3 (F := F)).stage_whole
  K := PEmpty
  osem k := k.elim
  ho := Pipeline.OwnSemFacts.none _
  hbody c := (G3.body_obligation (Run.Ve3 m) (Run.tbl3 m) h.ok3 c).loose
  hwaits := Pipeline.hwaits_of_owed_zero _ _ _ _ Run.L Run.lv (3 : Fin 33) fun _ _ => rfl
  pre c := iprop(StableHlo.held (c : Thread nD τ) (Pipeline.ucRefs τ sig) (GenP.V7 m (Vals.outs m) c) ∗ Run.R c)
  post c := iprop(StableHlo.held (c : Thread nD τ) (Pipeline.ucRefs τ sig) (GenP.V8 m (Vals.outs m) c) ∗ Run.R c)
  X c := iprop(∃ r, prngReg c r)
  Y c := iprop((∃ r, prngReg c r) ∗ Pipeline.prefHeld (Ix := Unit) (Name := ℕ) (U := UR sig nD τ) (Lvl := ℕ) pre3 c (fun _ => fullShare) (Run.tbl3 m))
  Z c := Pipeline.unscopedRestP (Ix := Unit) (Name := ℕ) (U := UR sig nD τ) (Lvl := ℕ) pre3 spec3 c (Run.Ve3 m c)
  hentry c := by
    rw [Pipeline.ownSems0_none]
    have hsplit := Pipeline.arrays_of_unscopedBufs (p := (3 : Fin 33)) (pcfgs (F := F)) (Run.a m h) (Run.pdats m h) (launch3 (F := F)).win (launch3 (F := F)).arr_whole c
      ((Run.pdats m h (3 : Fin 33) c).share_full fun _ => rfl) (Run.Ve3 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (3 : Fin 33) c).Φ 0 = iprop(Pipeline.ΦA spec3 c ∗ Pipeline.prefHeld (Ix := Unit) (Name := ℕ) (U := UR sig nD τ) (Lvl := ℕ) pre3 c (fun _ => fullShare) (Run.tbl3 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (3 : Fin 33) c).Φ (Fin.last _) = iprop(Pipeline.ΦA spec3 c ∗ Pipeline.prefHeld (Ix := Unit) (Name := ℕ) (U := UR sig nD τ) (Lvl := ℕ) pre3 c (fun _ => fullShare) (Run.tbl3 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (3 : Fin 33)) (pcfgs (F := F)) (Run.a m h) (Ix := Unit) (Name := ℕ) (U := UR sig nD τ) (Lvl := ℕ)
      (launch3 (F := F)).win (launch3 (F := F)).arr_whole c (Run.pdats m h) ((Run.pdats m h (3 : Fin 33) c).share_full fun _ => rfl)
      (Run.Ve3 m c) (fun b => GenP.V8 m (Vals.outs m) c b) ((Run.pdats m h (3 : Fin 33) c).arrAt · (G3.cfgM (Run.tbl3 m) h.ok3).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S3

end
-- ==== Proof.K.G3V.lean ====
/-
  What gather region 0 leaves in its output array: point t writes back row `tb[t]` of the array it reads as row t, the
  50000 rows tile the output, so the array ends as the gathered rows.
-/
import proofs.«406793_j90890097918585_2_alg».proof.Proof.K.G3
import proofs.«406793_j90890097918585_2_alg».proof.Proof.K.Vals
import Idealize.ShloMosaic.Lib.Pipeline.Value

set_option maxRecDepth 16384

noncomputable section

namespace Cert.Kernel.G3

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre3.Contents (Elt F)) (hO : ok3 (F := F) tb)

/-! ## The two windows' block rows at a point -/

/-- A point of the grid is below 50000. -/
private theorem point_lt (t : Fin (cfgM tb hO).N) : t.val < 50000 := by
  have h : t.val < grid3.N := t.isLt
  rw [N_3] at h
  exact h

/-- The grid has one axis: the coordinate of point t is t. -/
private theorem coords_0 (t : Fin (cfgM tb hO).N) : (grid3.coords t 0).val = t.val := by
  have ht := point_lt tb hO t
  show t.val / grid3.stride 0 % grid3.bound 0 = t.val
  rw [show grid3.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc3_transform_1 (grid3.coords t) 0 = t.val
  unfold cc3_transform_1
  show (BitVec.ofNat 32 (grid3.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid3.N
  · exact Or.inl h
  · have hlt : t.val < grid3.N := t.isLt
    refine Or.inr ⟨by show t.val + 1 < grid3.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc3_transform_0 k3_off1_inb numel1_S1 tb (grid3.coords t) 0 = _
  unfold cc3_transform_0
  dsimp only
  refine congrArg BitVec.toNat (congrArg (tb 0 : S50000.Idx → BitVec 32) ?_)
  funext d
  match d with
  | ⟨0, _⟩ =>
    apply Fin.ext
    show (Scalar.indexCast (BitVec.ofNat 32 (grid3.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k3_pay1 x = x := by
  unfold k3_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v48 (ValueIdx.ix3 (Vals.rowOf ((tb 0 : S50000.Idx → BitVec 32) (ValueIdx.ix1 ⟨t.val, point_lt tb hO t⟩))) (y 1) (y 2)) := by
  show V c main_v48 ((((cfgM tb hO).win 0).blk t).view.emb y) = _
  refine congrArg (V c main_v48) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v48) (tb 0)) := by
  show ((cfgM tb hO).win 1).cut (grid3.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v48) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v49 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid3.N := by rw [N_3]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v48) (tb 0) :=
  (dat V tb hO c).arrAt_eq_of_cover 1 (Vals.gath3Of (V c main_v48) (tb 0)) (fun t _ => flushed_1 V tb hO htb c t)
    (cover_blk_1 tb hO)

end Cert.Kernel.G3

end
-- ==== Proof.K.S4.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (4 : Fin 33) c = G4.dat (Run.Ve4 m) (Run.tbl4 m) h.ok4 c := rfl

/-- On the one device the table's buffer holds the table. -/
theorem tbl_eq (c : Dev nD) : (fun k => Run.Ve4 m c (pre4.ref k)) = Run.tbl4 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec4 c (Run.Ve4 m c) : sProp 𝕄)
      = iprop(Pipeline.prefHeld (Ix := Unit) (Name := ℕ) (U := UR sig nD τ) (Lvl := ℕ) pre4 c (fun _ => fullShare) (Run.tbl4 m)
          ∗ Pipeline.unscopedRestP (Ix := Unit) (Name := ℕ) (U := UR sig nD τ) (Lvl := ℕ) pre4 spec4 c (Run.Ve4 m c)) := by
  have hs := Pipeline.unscopedRest_split (Ix := Unit) (Name := ℕ) (U := UR sig nD τ) (Lvl := ℕ) (Val := Elt F) (launch4 (F := F)).pre c (Run.Ve4 m c)
  rw [← tbl_eq m c]
  exact hs

/-- After the region each of its arrays holds what the pipeline leaves: the array read as entered, the output at the gathered rows. -/
theorem hF (harr : ∀ c : Dev nD, (G4.dat (Run.Ve4 m) (Run.tbl4 m) h.ok4 c).arrAt 1 (G4.cfgM (Run.tbl4 m) h.ok4).N = Vals.gath3 m 4 c)
    (c : Dev nD) (w : Fin (G4.cfgM (Run.tbl4 m) h.ok4).W) :
    (G4.dat (Run.Ve4 m) (Run.tbl4 m) h.ok4 c).arrAt w (G4.cfgM (Run.tbl4 m) h.ok4).N
      = GenP.V10 m (Vals.outs m) c (Pipeline.arrRef spec4 w) := by
  match w with
  | ⟨0, _⟩ =>
    refine ((G4.dat (Run.Ve4 m) (Run.tbl4 m) h.ok4 c).arrAt_in 0 rfl _).trans ((G4.A_eq (Run.Ve4 m) (Run.tbl4 m) h.ok4 c 0).trans ?_)
    exact (GenP.V10_of m (Vals.outs m) c main_v61 (by decide)).symm
  | ⟨1, _⟩ =>
    refine (harr c).trans ?_
    show Vals.gath3 m 4 c = Function.update (GenP.V9 m (Vals.outs m) c) main_v62 (Vals.outs m 10 main_v62 c) main_v62
    rw [Function.update_self, Vals.outs_4]

/-- and every other buffer what it held at entry. -/
theorem hrest (c : Dev nD) : ∀ b, b ∉ Finset.univ.image (Pipeline.arrRef spec4) →
    (fun b : Ref sig .tc => GenP.V10 m (Vals.outs m) c b) b = Run.Ve4 m c b := fun b hb =>
  GenP.V10_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G4.dat (Run.Ve4 m) (Run.tbl4 m) h.ok4 c).arrAt 1 (G4.cfgM (Run.tbl4 m) h.ok4).N = Vals.gath3 m 4 c) :
    Pipeline.RegionSeg (pcfgs (F := F)) (Run.a m h) (Run.pdats m h) () defs₀ Run.𝒱₀ Run.L Run.lv (4 : Fin 33) where
  win := (launch4 (F := F)).win.to₀
  block_pos := (launch4 (F := F)).block_pos
  stage_whole := (launch4 (F := F)).stage_whole
  K := PEmpty
  osem k := k.elim
  ho := Pipeline.OwnSemFacts.none _
  hbody c := (G4.body_obligation (Run.Ve4 m) (Run.tbl4 m) h.ok4 c).loose
  hwaits := Pipeline.hwaits_of_owed_zero _ _ _ _ Run.L Run.lv (4 : Fin 33) fun _ _ => rfl
  pre c := iprop(StableHlo.held (c : Thread nD τ) (Pipeline.ucRefs τ sig) (GenP.V9 m (Vals.outs m) c) ∗ Run.R c)
  post c := iprop(StableHlo.held (c : Thread nD τ) (Pipeline.ucRefs τ sig) (GenP.V10 m (Vals.outs m) c) ∗ Run.R c)
  X c := iprop(∃ r, prngReg c r)
  Y c := iprop((∃ r, prngReg c r) ∗ Pipeline.prefHeld (Ix := Unit) (Name := ℕ) (U := UR sig nD τ) (Lvl := ℕ) pre4 c (fun _ => fullShare) (Run.tbl4 m))
  Z c := Pipeline.unscopedRestP (Ix := Unit) (Name := ℕ) (U := UR sig nD τ) (Lvl := ℕ) pre4 spec4 c (Run.Ve4 m c)
  hentry c := by
    rw [Pipeline.ownSems0_none]
    have hsplit := Pipeline.arrays_of_unscopedBufs (p := (4 : Fin 33)) (pcfgs (F := F)) (Run.a m h) (Run.pdats m h) (launch4 (F := F)).win (launch4 (F := F)).arr_whole c
      ((Run.pdats m h (4 : Fin 33) c).share_full fun _ => rfl) (Run.Ve4 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (4 : Fin 33) c).Φ 0 = iprop(Pipeline.ΦA spec4 c ∗ Pipeline.prefHeld (Ix := Unit) (Name := ℕ) (U := UR sig nD τ) (Lvl := ℕ) pre4 c (fun _ => fullShare) (Run.tbl4 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (4 : Fin 33) c).Φ (Fin.last _) = iprop(Pipeline.ΦA spec4 c ∗ Pipeline.prefHeld (Ix := Unit) (Name := ℕ) (U := UR sig nD τ) (Lvl := ℕ) pre4 c (fun _ => fullShare) (Run.tbl4 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (4 : Fin 33)) (pcfgs (F := F)) (Run.a m h) (Ix := Unit) (Name := ℕ) (U := UR sig nD τ) (Lvl := ℕ)
      (launch4 (F := F)).win (launch4 (F := F)).arr_whole c (Run.pdats m h) ((Run.pdats m h (4 : Fin 33) c).share_full fun _ => rfl)
      (Run.Ve4 m c) (fun b => GenP.V10 m (Vals.outs m) c b) ((Run.pdats m h (4 : Fin 33) c).arrAt · (G4.cfgM (Run.tbl4 m) h.ok4).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S4

end
-- ==== Proof.K.G4V.lean ====
/-
  What gather region 0 leaves in its output array: point t writes back row `tb[t]` of the array it reads as row t, the
  50000 rows tile the output, so the array ends as the gathered rows.
-/
import proofs.«406793_j90890097918585_2_alg».proof.Proof.K.G4
import proofs.«406793_j90890097918585_2_alg».proof.Proof.K.Vals
import Idealize.ShloMosaic.Lib.Pipeline.Value

set_option maxRecDepth 16384

noncomputable section

namespace Cert.Kernel.G4

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre4.Contents (Elt F)) (hO : ok4 (F := F) tb)

/-! ## The two windows' block rows at a point -/

/-- A point of the grid is below 50000. -/
private theorem point_lt (t : Fin (cfgM tb hO).N) : t.val < 50000 := by
  have h : t.val < grid4.N := t.isLt
  rw [N_4] at h
  exact h

/-- The grid has one axis: the coordinate of point t is t. -/
private theorem coords_0 (t : Fin (cfgM tb hO).N) : (grid4.coords t 0).val = t.val := by
  have ht := point_lt tb hO t
  show t.val / grid4.stride 0 % grid4.bound 0 = t.val
  rw [show grid4.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc4_transform_1 (grid4.coords t) 0 = t.val
  unfold cc4_transform_1
  show (BitVec.ofNat 32 (grid4.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid4.N
  · exact Or.inl h
  · have hlt : t.val < grid4.N := t.isLt
    refine Or.inr ⟨by show t.val + 1 < grid4.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc4_transform_0 k4_off1_inb numel1_S1 tb (grid4.coords t) 0 = _
  unfold cc4_transform_0
  dsimp only
  refine congrArg BitVec.toNat (congrArg (tb 0 : S50000.Idx → BitVec 32) ?_)
  funext d
  match d with
  | ⟨0, _⟩ =>
    apply Fin.ext
    show (Scalar.indexCast (BitVec.ofNat 32 (grid4.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k4_pay1 x = x := by
  unfold k4_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v61 (ValueIdx.ix3 (Vals.rowOf ((tb 0 : S50000.Idx → BitVec 32) (ValueIdx.ix1 ⟨t.val, point_lt tb hO t⟩))) (y 1) (y 2)) := by
  show V c main_v61 ((((cfgM tb hO).win 0).blk t).view.emb y) = _
  refine congrArg (V c main_v61) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v61) (tb 0)) := by
  show ((cfgM tb hO).win 1).cut (grid4.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v61) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v62 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid4.N := by rw [N_4]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v61) (tb 0) :=
  (dat V tb hO c).arrAt_eq_of_cover 1 (Vals.gath3Of (V c main_v61) (tb 0)) (fun t _ => flushed_1 V tb hO htb c t)
    (cover_blk_1 tb hO)

end Cert.Kernel.G4

end
-- ==== Proof.K.S5.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (5 : Fin 33) c = G5.dat (Run.Ve5 m) (Run.tbl5 m) h.ok5 c := rfl

/-- On the one device the table's buffer holds the table. -/
theorem tbl_eq (c : Dev nD) : (fun k => Run.Ve5 m c (pre5.ref k)) = Run.tbl5 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec5 c (Run.Ve5 m c) : sProp 𝕄)
      = iprop(Pipeline.prefHeld (Ix := Unit) (Name := ℕ) (U := UR sig nD τ) (Lvl := ℕ) pre5 c (fun _ => fullShare) (Run.tbl5 m)
          ∗ Pipeline.unscopedRestP (Ix := Unit) (Name := ℕ) (U := UR sig nD τ) (Lvl := ℕ) pre5 spec5 c (Run.Ve5 m c)) := by
  have hs := Pipeline.unscopedRest_split (Ix := Unit) (Name := ℕ) (U := UR sig nD τ) (Lvl := ℕ) (Val := Elt F) (launch5 (F := F)).pre c (Run.Ve5 m c)
  rw [← tbl_eq m c]
  exact hs

/-- After the region each of its arrays holds what the pipeline leaves: the array read as entered, the output at the gathered rows. -/
theorem hF (harr : ∀ c : Dev nD, (G5.dat (Run.Ve5 m) (Run.tbl5 m) h.ok5 c).arrAt 1 (G5.cfgM (Run.tbl5 m) h.ok5).N = Vals.gath3 m 5 c)
    (c : Dev nD) (w : Fin (G5.cfgM (Run.tbl5 m) h.ok5).W) :
    (G5.dat (Run.Ve5 m) (Run.tbl5 m) h.ok5 c).arrAt w (G5.cfgM (Run.tbl5 m) h.ok5).N
      = GenP.V12 m (Vals.outs m) c (Pipeline.arrRef spec5 w) := by
  match w with
  | ⟨0, _⟩ =>
    refine ((G5.dat (Run.Ve5 m) (Run.tbl5 m) h.ok5 c).arrAt_in 0 rfl _).trans ((G5.A_eq (Run.Ve5 m) (Run.tbl5 m) h.ok5 c 0).trans ?_)
    exact (GenP.V12_of m (Vals.outs m) c main_v74 (by decide)).symm
  | ⟨1, _⟩ =>
    refine (harr c).trans ?_
    show Vals.gath3 m 5 c = Function.update (GenP.V11 m (Vals.outs m) c) main_v75 (Vals.outs m 12 main_v75 c) main_v75
    rw [Function.update_self, Vals.outs_5]

/-- and every other buffer what it held at entry. -/
theorem hrest (c : Dev nD) : ∀ b, b ∉ Finset.univ.image (Pipeline.arrRef spec5) →
    (fun b : Ref sig .tc => GenP.V12 m (Vals.outs m) c b) b = Run.Ve5 m c b := fun b hb =>
  GenP.V12_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G5.dat (Run.Ve5 m) (Run.tbl5 m) h.ok5 c).arrAt 1 (G5.cfgM (Run.tbl5 m) h.ok5).N = Vals.gath3 m 5 c) :
    Pipeline.RegionSeg (pcfgs (F := F)) (Run.a m h) (Run.pdats m h) () defs₀ Run.𝒱₀ Run.L Run.lv (5 : Fin 33) where
  win := (launch5 (F := F)).win.to₀
  block_pos := (launch5 (F := F)).block_pos
  stage_whole := (launch5 (F := F)).stage_whole
  K := PEmpty
  osem k := k.elim
  ho := Pipeline.OwnSemFacts.none _
  hbody c := (G5.body_obligation (Run.Ve5 m) (Run.tbl5 m) h.ok5 c).loose
  hwaits := Pipeline.hwaits_of_owed_zero _ _ _ _ Run.L Run.lv (5 : Fin 33) fun _ _ => rfl
  pre c := iprop(StableHlo.held (c : Thread nD τ) (Pipeline.ucRefs τ sig) (GenP.V11 m (Vals.outs m) c) ∗ Run.R c)
  post c := iprop(StableHlo.held (c : Thread nD τ) (Pipeline.ucRefs τ sig) (GenP.V12 m (Vals.outs m) c) ∗ Run.R c)
  X c := iprop(∃ r, prngReg c r)
  Y c := iprop((∃ r, prngReg c r) ∗ Pipeline.prefHeld (Ix := Unit) (Name := ℕ) (U := UR sig nD τ) (Lvl := ℕ) pre5 c (fun _ => fullShare) (Run.tbl5 m))
  Z c := Pipeline.unscopedRestP (Ix := Unit) (Name := ℕ) (U := UR sig nD τ) (Lvl := ℕ) pre5 spec5 c (Run.Ve5 m c)
  hentry c := by
    rw [Pipeline.ownSems0_none]
    have hsplit := Pipeline.arrays_of_unscopedBufs (p := (5 : Fin 33)) (pcfgs (F := F)) (Run.a m h) (Run.pdats m h) (launch5 (F := F)).win (launch5 (F := F)).arr_whole c
      ((Run.pdats m h (5 : Fin 33) c).share_full fun _ => rfl) (Run.Ve5 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (5 : Fin 33) c).Φ 0 = iprop(Pipeline.ΦA spec5 c ∗ Pipeline.prefHeld (Ix := Unit) (Name := ℕ) (U := UR sig nD τ) (Lvl := ℕ) pre5 c (fun _ => fullShare) (Run.tbl5 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (5 : Fin 33) c).Φ (Fin.last _) = iprop(Pipeline.ΦA spec5 c ∗ Pipeline.prefHeld (Ix := Unit) (Name := ℕ) (U := UR sig nD τ) (Lvl := ℕ) pre5 c (fun _ => fullShare) (Run.tbl5 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (5 : Fin 33)) (pcfgs (F := F)) (Run.a m h) (Ix := Unit) (Name := ℕ) (U := UR sig nD τ) (Lvl := ℕ)
      (launch5 (F := F)).win (launch5 (F := F)).arr_whole c (Run.pdats m h) ((Run.pdats m h (5 : Fin 33) c).share_full fun _ => rfl)
      (Run.Ve5 m c) (fun b => GenP.V12 m (Vals.outs m) c b) ((Run.pdats m h (5 : Fin 33) c).arrAt · (G5.cfgM (Run.tbl5 m) h.ok5).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S5

end
-- ==== Proof.K.G5V.lean ====
/-
  What gather region 0 leaves in its output array: point t writes back row `tb[t]` of the array it reads as row t, the
  50000 rows tile the output, so the array ends as the gathered rows.
-/
import proofs.«406793_j90890097918585_2_alg».proof.Proof.K.G5
import proofs.«406793_j90890097918585_2_alg».proof.Proof.K.Vals
import Idealize.ShloMosaic.Lib.Pipeline.Value

set_option maxRecDepth 16384

noncomputable section

namespace Cert.Kernel.G5

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre5.Contents (Elt F)) (hO : ok5 (F := F) tb)

/-! ## The two windows' block rows at a point -/

/-- A point of the grid is below 50000. -/
private theorem point_lt (t : Fin (cfgM tb hO).N) : t.val < 50000 := by
  have h : t.val < grid5.N := t.isLt
  rw [N_5] at h
  exact h

/-- The grid has one axis: the coordinate of point t is t. -/
private theorem coords_0 (t : Fin (cfgM tb hO).N) : (grid5.coords t 0).val = t.val := by
  have ht := point_lt tb hO t
  show t.val / grid5.stride 0 % grid5.bound 0 = t.val
  rw [show grid5.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc5_transform_1 (grid5.coords t) 0 = t.val
  unfold cc5_transform_1
  show (BitVec.ofNat 32 (grid5.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid5.N
  · exact Or.inl h
  · have hlt : t.val < grid5.N := t.isLt
    refine Or.inr ⟨by show t.val + 1 < grid5.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc5_transform_0 k5_off1_inb numel1_S1 tb (grid5.coords t) 0 = _
  unfold cc5_transform_0
  dsimp only
  refine congrArg BitVec.toNat (congrArg (tb 0 : S50000.Idx → BitVec 32) ?_)
  funext d
  match d with
  | ⟨0, _⟩ =>
    apply Fin.ext
    show (Scalar.indexCast (BitVec.ofNat 32 (grid5.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k5_pay1 x = x := by
  unfold k5_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v74 (ValueIdx.ix3 (Vals.rowOf ((tb 0 : S50000.Idx → BitVec 32) (ValueIdx.ix1 ⟨t.val, point_lt tb hO t⟩))) (y 1) (y 2)) := by
  show V c main_v74 ((((cfgM tb hO).win 0).blk t).view.emb y) = _
  refine congrArg (V c main_v74) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v74) (tb 0)) := by
  show ((cfgM tb hO).win 1).cut (grid5.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v74) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v75 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid5.N := by rw [N_5]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v74) (tb 0) :=
  (dat V tb hO c).arrAt_eq_of_cover 1 (Vals.gath3Of (V c main_v74) (tb 0)) (fun t _ => flushed_1 V tb hO htb c t)
    (cover_blk_1 tb hO)

end Cert.Kernel.G5

end
-- ==== Proof.K.S6.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (6 : Fin 33) c = G6.dat (Run.Ve6 m) (Run.tbl6 m) h.ok6 c := rfl

/-- On the one device the table's buffer holds the table. -/
theorem tbl_eq (c : Dev nD) : (fun k => Run.Ve6 m c (pre6.ref k)) = Run.tbl6 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec6 c (Run.Ve6 m c) : sProp 𝕄)
      = iprop(Pipeline.prefHeld (Ix := Unit) (Name := ℕ) (U := UR sig nD τ) (Lvl := ℕ) pre6 c (fun _ => fullShare) (Run.tbl6 m)
          ∗ Pipeline.unscopedRestP (Ix := Unit) (Name := ℕ) (U := UR sig nD τ) (Lvl := ℕ) pre6 spec6 c (Run.Ve6 m c)) := by
  have hs := Pipeline.unscopedRest_split (Ix := Unit) (Name := ℕ) (U := UR sig nD τ) (Lvl := ℕ) (Val := Elt F) (launch6 (F := F)).pre c (Run.Ve6 m c)
  rw [← tbl_eq m c]
  exact hs

/-- After the region each of its arrays holds what the pipeline leaves: the array read as entered, the output at the gathered rows. -/
theorem hF (harr : ∀ c : Dev nD, (G6.dat (Run.Ve6 m) (Run.tbl6 m) h.ok6 c).arrAt 1 (G6.cfgM (Run.tbl6 m) h.ok6).N = Vals.gath3 m 6 c)
    (c : Dev nD) (w : Fin (G6.cfgM (Run.tbl6 m) h.ok6).W) :
    (G6.dat (Run.Ve6 m) (Run.tbl6 m) h.ok6 c).arrAt w (G6.cfgM (Run.tbl6 m) h.ok6).N
      = GenP.V14 m (Vals.outs m) c (Pipeline.arrRef spec6 w) := by
  match w with
  | ⟨0, _⟩ =>
    refine ((G6.dat (Run.Ve6 m) (Run.tbl6 m) h.ok6 c).arrAt_in 0 rfl _).trans ((G6.A_eq (Run.Ve6 m) (Run.tbl6 m) h.ok6 c 0).trans ?_)
    exact (GenP.V14_of m (Vals.outs m) c main_v87 (by decide)).symm
  | ⟨1, _⟩ =>
    refine (harr c).trans ?_
    show Vals.gath3 m 6 c = Function.update (GenP.V13 m (Vals.outs m) c) main_v88 (Vals.outs m 14 main_v88 c) main_v88
    rw [Function.update_self, Vals.outs_6]

/-- and every other buffer what it held at entry. -/
theorem hrest (c : Dev nD) : ∀ b, b ∉ Finset.univ.image (Pipeline.arrRef spec6) →
    (fun b : Ref sig .tc => GenP.V14 m (Vals.outs m) c b) b = Run.Ve6 m c b := fun b hb =>
  GenP.V14_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G6.dat (Run.Ve6 m) (Run.tbl6 m) h.ok6 c).arrAt 1 (G6.cfgM (Run.tbl6 m) h.ok6).N = Vals.gath3 m 6 c) :
    Pipeline.RegionSeg (pcfgs (F := F)) (Run.a m h) (Run.pdats m h) () defs₀ Run.𝒱₀ Run.L Run.lv (6 : Fin 33) where
  win := (launch6 (F := F)).win.to₀
  block_pos := (launch6 (F := F)).block_pos
  stage_whole := (launch6 (F := F)).stage_whole
  K := PEmpty
  osem k := k.elim
  ho := Pipeline.OwnSemFacts.none _
  hbody c := (G6.body_obligation (Run.Ve6 m) (Run.tbl6 m) h.ok6 c).loose
  hwaits := Pipeline.hwaits_of_owed_zero _ _ _ _ Run.L Run.lv (6 : Fin 33) fun _ _ => rfl
  pre c := iprop(StableHlo.held (c : Thread nD τ) (Pipeline.ucRefs τ sig) (GenP.V13 m (Vals.outs m) c) ∗ Run.R c)
  post c := iprop(StableHlo.held (c : Thread nD τ) (Pipeline.ucRefs τ sig) (GenP.V14 m (Vals.outs m) c) ∗ Run.R c)
  X c := iprop(∃ r, prngReg c r)
  Y c := iprop((∃ r, prngReg c r) ∗ Pipeline.prefHeld (Ix := Unit) (Name := ℕ) (U := UR sig nD τ) (Lvl := ℕ) pre6 c (fun _ => fullShare) (Run.tbl6 m))
  Z c := Pipeline.unscopedRestP (Ix := Unit) (Name := ℕ) (U := UR sig nD τ) (Lvl := ℕ) pre6 spec6 c (Run.Ve6 m c)
  hentry c := by
    rw [Pipeline.ownSems0_none]
    have hsplit := Pipeline.arrays_of_unscopedBufs (p := (6 : Fin 33)) (pcfgs (F := F)) (Run.a m h) (Run.pdats m h) (launch6 (F := F)).win (launch6 (F := F)).arr_whole c
      ((Run.pdats m h (6 : Fin 33) c).share_full fun _ => rfl) (Run.Ve6 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (6 : Fin 33) c).Φ 0 = iprop(Pipeline.ΦA spec6 c ∗ Pipeline.prefHeld (Ix := Unit) (Name := ℕ) (U := UR sig nD τ) (Lvl := ℕ) pre6 c (fun _ => fullShare) (Run.tbl6 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (6 : Fin 33) c).Φ (Fin.last _) = iprop(Pipeline.ΦA spec6 c ∗ Pipeline.prefHeld (Ix := Unit) (Name := ℕ) (U := UR sig nD τ) (Lvl := ℕ) pre6 c (fun _ => fullShare) (Run.tbl6 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (6 : Fin 33)) (pcfgs (F := F)) (Run.a m h) (Ix := Unit) (Name := ℕ) (U := UR sig nD τ) (Lvl := ℕ)
      (launch6 (F := F)).win (launch6 (F := F)).arr_whole c (Run.pdats m h) ((Run.pdats m h (6 : Fin 33) c).share_full fun _ => rfl)
      (Run.Ve6 m c) (fun b => GenP.V14 m (Vals.outs m) c b) ((Run.pdats m h (6 : Fin 33) c).arrAt · (G6.cfgM (Run.tbl6 m) h.ok6).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S6

end
-- ==== Proof.K.G6V.lean ====
/-
  What gather region 0 leaves in its output array: point t writes back row `tb[t]` of the array it reads as row t, the
  50000 rows tile the output, so the array ends as the gathered rows.
-/
import proofs.«406793_j90890097918585_2_alg».proof.Proof.K.G6
import proofs.«406793_j90890097918585_2_alg».proof.Proof.K.Vals
import Idealize.ShloMosaic.Lib.Pipeline.Value

set_option maxRecDepth 16384

noncomputable section

namespace Cert.Kernel.G6

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre6.Contents (Elt F)) (hO : ok6 (F := F) tb)

/-! ## The two windows' block rows at a point -/

/-- A point of the grid is below 50000. -/
private theorem point_lt (t : Fin (cfgM tb hO).N) : t.val < 50000 := by
  have h : t.val < grid6.N := t.isLt
  rw [N_6] at h
  exact h

/-- The grid has one axis: the coordinate of point t is t. -/
private theorem coords_0 (t : Fin (cfgM tb hO).N) : (grid6.coords t 0).val = t.val := by
  have ht := point_lt tb hO t
  show t.val / grid6.stride 0 % grid6.bound 0 = t.val
  rw [show grid6.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc6_transform_1 (grid6.coords t) 0 = t.val
  unfold cc6_transform_1
  show (BitVec.ofNat 32 (grid6.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid6.N
  · exact Or.inl h
  · have hlt : t.val < grid6.N := t.isLt
    refine Or.inr ⟨by show t.val + 1 < grid6.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc6_transform_0 k6_off1_inb numel1_S1 tb (grid6.coords t) 0 = _
  unfold cc6_transform_0
  dsimp only
  refine congrArg BitVec.toNat (congrArg (tb 0 : S50000.Idx → BitVec 32) ?_)
  funext d
  match d with
  | ⟨0, _⟩ =>
    apply Fin.ext
    show (Scalar.indexCast (BitVec.ofNat 32 (grid6.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k6_pay1 x = x := by
  unfold k6_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v87 (ValueIdx.ix3 (Vals.rowOf ((tb 0 : S50000.Idx → BitVec 32) (ValueIdx.ix1 ⟨t.val, point_lt tb hO t⟩))) (y 1) (y 2)) := by
  show V c main_v87 ((((cfgM tb hO).win 0).blk t).view.emb y) = _
  refine congrArg (V c main_v87) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v87) (tb 0)) := by
  show ((cfgM tb hO).win 1).cut (grid6.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v87) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v88 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid6.N := by rw [N_6]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v87) (tb 0) :=
  (dat V tb hO c).arrAt_eq_of_cover 1 (Vals.gath3Of (V c main_v87) (tb 0)) (fun t _ => flushed_1 V tb hO htb c t)
    (cover_blk_1 tb hO)

end Cert.Kernel.G6

end
-- ==== Proof.K.S7.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (7 : Fin 33) c = G7.dat (Run.Ve7 m) (Run.tbl7 m) h.ok7 c := rfl

/-- On the one device the table's buffer holds the table. -/
theorem tbl_eq (c : Dev nD) : (fun k => Run.Ve7 m c (pre7.ref k)) = Run.tbl7 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec7 c (Run.Ve7 m c) : sProp 𝕄)
      = iprop(Pipeline.prefHeld (Ix := Unit) (Name := ℕ) (U := UR sig nD τ) (Lvl := ℕ) pre7 c (fun _ => fullShare) (Run.tbl7 m)
          ∗ Pipeline.unscopedRestP (Ix := Unit) (Name := ℕ) (U := UR sig nD τ) (Lvl := ℕ) pre7 spec7 c (Run.Ve7 m c)) := by
  have hs := Pipeline.unscopedRest_split (Ix := Unit) (Name := ℕ) (U := UR sig nD τ) (Lvl := ℕ) (Val := Elt F) (launch7 (F := F)).pre c (Run.Ve7 m c)
  rw [← tbl_eq m c]
  exact hs

/-- After the region each of its arrays holds what the pipeline leaves: the array read as entered, the output at the gathered rows. -/
theorem hF (harr : ∀ c : Dev nD, (G7.dat (Run.Ve7 m) (Run.tbl7 m) h.ok7 c).arrAt 1 (G7.cfgM (Run.tbl7 m) h.ok7).N = Vals.gath3 m 7 c)
    (c : Dev nD) (w : Fin (G7.cfgM (Run.tbl7 m) h.ok7).W) :
    (G7.dat (Run.Ve7 m) (Run.tbl7 m) h.ok7 c).arrAt w (G7.cfgM (Run.tbl7 m) h.ok7).N
      = GenP.V16 m (Vals.outs m) c (Pipeline.arrRef spec7 w) := by
  match w with
  | ⟨0, _⟩ =>
    refine ((G7.dat (Run.Ve7 m) (Run.tbl7 m) h.ok7 c).arrAt_in 0 rfl _).trans ((G7.A_eq (Run.Ve7 m) (Run.tbl7 m) h.ok7 c 0).trans ?_)
    exact (GenP.V16_of m (Vals.outs m) c main_v100 (by decide)).symm
  | ⟨1, _⟩ =>
    refine (harr c).trans ?_
    show Vals.gath3 m 7 c = Function.update (GenP.V15 m (Vals.outs m) c) main_v101 (Vals.outs m 16 main_v101 c) main_v101
    rw [Function.update_self, Vals.outs_7]

/-- and every other buffer what it held at entry. -/
theorem hrest (c : Dev nD) : ∀ b, b ∉ Finset.univ.image (Pipeline.arrRef spec7) →
    (fun b : Ref sig .tc => GenP.V16 m (Vals.outs m) c b) b = Run.Ve7 m c b := fun b hb =>
  GenP.V16_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G7.dat (Run.Ve7 m) (Run.tbl7 m) h.ok7 c).arrAt 1 (G7.cfgM (Run.tbl7 m) h.ok7).N = Vals.gath3 m 7 c) :
    Pipeline.RegionSeg (pcfgs (F := F)) (Run.a m h) (Run.pdats m h) () defs₀ Run.𝒱₀ Run.L Run.lv (7 : Fin 33) where
  win := (launch7 (F := F)).win.to₀
  block_pos := (launch7 (F := F)).block_pos
  stage_whole := (launch7 (F := F)).stage_whole
  K := PEmpty
  osem k := k.elim
  ho := Pipeline.OwnSemFacts.none _
  hbody c := (G7.body_obligation (Run.Ve7 m) (Run.tbl7 m) h.ok7 c).loose
  hwaits := Pipeline.hwaits_of_owed_zero _ _ _ _ Run.L Run.lv (7 : Fin 33) fun _ _ => rfl
  pre c := iprop(StableHlo.held (c : Thread nD τ) (Pipeline.ucRefs τ sig) (GenP.V15 m (Vals.outs m) c) ∗ Run.R c)
  post c := iprop(StableHlo.held (c : Thread nD τ) (Pipeline.ucRefs τ sig) (GenP.V16 m (Vals.outs m) c) ∗ Run.R c)
  X c := iprop(∃ r, prngReg c r)
  Y c := iprop((∃ r, prngReg c r) ∗ Pipeline.prefHeld (Ix := Unit) (Name := ℕ) (U := UR sig nD τ) (Lvl := ℕ) pre7 c (fun _ => fullShare) (Run.tbl7 m))
  Z c := Pipeline.unscopedRestP (Ix := Unit) (Name := ℕ) (U := UR sig nD τ) (Lvl := ℕ) pre7 spec7 c (Run.Ve7 m c)
  hentry c := by
    rw [Pipeline.ownSems0_none]
    have hsplit := Pipeline.arrays_of_unscopedBufs (p := (7 : Fin 33)) (pcfgs (F := F)) (Run.a m h) (Run.pdats m h) (launch7 (F := F)).win (launch7 (F := F)).arr_whole c
      ((Run.pdats m h (7 : Fin 33) c).share_full fun _ => rfl) (Run.Ve7 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (7 : Fin 33) c).Φ 0 = iprop(Pipeline.ΦA spec7 c ∗ Pipeline.prefHeld (Ix := Unit) (Name := ℕ) (U := UR sig nD τ) (Lvl := ℕ) pre7 c (fun _ => fullShare) (Run.tbl7 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (7 : Fin 33) c).Φ (Fin.last _) = iprop(Pipeline.ΦA spec7 c ∗ Pipeline.prefHeld (Ix := Unit) (Name := ℕ) (U := UR sig nD τ) (Lvl := ℕ) pre7 c (fun _ => fullShare) (Run.tbl7 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (7 : Fin 33)) (pcfgs (F := F)) (Run.a m h) (Ix := Unit) (Name := ℕ) (U := UR sig nD τ) (Lvl := ℕ)
      (launch7 (F := F)).win (launch7 (F := F)).arr_whole c (Run.pdats m h) ((Run.pdats m h (7 : Fin 33) c).share_full fun _ => rfl)
      (Run.Ve7 m c) (fun b => GenP.V16 m (Vals.outs m) c b) ((Run.pdats m h (7 : Fin 33) c).arrAt · (G7.cfgM (Run.tbl7 m) h.ok7).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S7

end
-- ==== Proof.K.G7V.lean ====
/-
  What gather region 0 leaves in its output array: point t writes back row `tb[t]` of the array it reads as row t, the
  50000 rows tile the output, so the array ends as the gathered rows.
-/
import proofs.«406793_j90890097918585_2_alg».proof.Proof.K.G7
import proofs.«406793_j90890097918585_2_alg».proof.Proof.K.Vals
import Idealize.ShloMosaic.Lib.Pipeline.Value

set_option maxRecDepth 16384

noncomputable section

namespace Cert.Kernel.G7

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre7.Contents (Elt F)) (hO : ok7 (F := F) tb)

/-! ## The two windows' block rows at a point -/

/-- A point of the grid is below 50000. -/
private theorem point_lt (t : Fin (cfgM tb hO).N) : t.val < 50000 := by
  have h : t.val < grid7.N := t.isLt
  rw [N_7] at h
  exact h

/-- The grid has one axis: the coordinate of point t is t. -/
private theorem coords_0 (t : Fin (cfgM tb hO).N) : (grid7.coords t 0).val = t.val := by
  have ht := point_lt tb hO t
  show t.val / grid7.stride 0 % grid7.bound 0 = t.val
  rw [show grid7.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc7_transform_1 (grid7.coords t) 0 = t.val
  unfold cc7_transform_1
  show (BitVec.ofNat 32 (grid7.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid7.N
  · exact Or.inl h
  · have hlt : t.val < grid7.N := t.isLt
    refine Or.inr ⟨by show t.val + 1 < grid7.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc7_transform_0 k7_off1_inb numel1_S1 tb (grid7.coords t) 0 = _
  unfold cc7_transform_0
  dsimp only
  refine congrArg BitVec.toNat (congrArg (tb 0 : S50000.Idx → BitVec 32) ?_)
  funext d
  match d with
  | ⟨0, _⟩ =>
    apply Fin.ext
    show (Scalar.indexCast (BitVec.ofNat 32 (grid7.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k7_pay1 x = x := by
  unfold k7_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v100 (ValueIdx.ix3 (Vals.rowOf ((tb 0 : S50000.Idx → BitVec 32) (ValueIdx.ix1 ⟨t.val, point_lt tb hO t⟩))) (y 1) (y 2)) := by
  show V c main_v100 ((((cfgM tb hO).win 0).blk t).view.emb y) = _
  refine congrArg (V c main_v100) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v100) (tb 0)) := by
  show ((cfgM tb hO).win 1).cut (grid7.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v100) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v101 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid7.N := by rw [N_7]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v100) (tb 0) :=
  (dat V tb hO c).arrAt_eq_of_cover 1 (Vals.gath3Of (V c main_v100) (tb 0)) (fun t _ => flushed_1 V tb hO htb c t)
    (cover_blk_1 tb hO)

end Cert.Kernel.G7

end
-- ==== Proof.K.S8.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (8 : Fin 33) c = G8.dat (Run.Ve8 m) (Run.tbl8 m) h.ok8 c := rfl

/-- On the one device the table's buffer holds the table. -/
theorem tbl_eq (c : Dev nD) : (fun k => Run.Ve8 m c (pre8.ref k)) = Run.tbl8 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec8 c (Run.Ve8 m c) : sProp 𝕄)
      = iprop(Pipeline.prefHeld (Ix := Unit) (Name := ℕ) (U := UR sig nD τ) (Lvl := ℕ) pre8 c (fun _ => fullShare) (Run.tbl8 m)
          ∗ Pipeline.unscopedRestP (Ix := Unit) (Name := ℕ) (U := UR sig nD τ) (Lvl := ℕ) pre8 spec8 c (Run.Ve8 m c)) := by
  have hs := Pipeline.unscopedRest_split (Ix := Unit) (Name := ℕ) (U := UR sig nD τ) (Lvl := ℕ) (Val := Elt F) (launch8 (F := F)).pre c (Run.Ve8 m c)
  rw [← tbl_eq m c]
  exact hs

/-- After the region each of its arrays holds what the pipeline leaves: the array read as entered, the output at the gathered rows. -/
theorem hF (harr : ∀ c : Dev nD, (G8.dat (Run.Ve8 m) (Run.tbl8 m) h.ok8 c).arrAt 1 (G8.cfgM (Run.tbl8 m) h.ok8).N = Vals.gath3 m 8 c)
    (c : Dev nD) (w : Fin (G8.cfgM (Run.tbl8 m) h.ok8).W) :
    (G8.dat (Run.Ve8 m) (Run.tbl8 m) h.ok8 c).arrAt w (G8.cfgM (Run.tbl8 m) h.ok8).N
      = GenP.V18 m (Vals.outs m) c (Pipeline.arrRef spec8 w) := by
  match w with
  | ⟨0, _⟩ =>
    refine ((G8.dat (Run.Ve8 m) (Run.tbl8 m) h.ok8 c).arrAt_in 0 rfl _).trans ((G8.A_eq (Run.Ve8 m) (Run.tbl8 m) h.ok8 c 0).trans ?_)
    exact (GenP.V18_of m (Vals.outs m) c main_v113 (by decide)).symm
  | ⟨1, _⟩ =>
    refine (harr c).trans ?_
    show Vals.gath3 m 8 c = Function.update (GenP.V17 m (Vals.outs m) c) main_v114 (Vals.outs m 18 main_v114 c) main_v114
    rw [Function.update_self, Vals.outs_8]

/-- and every other buffer what it held at entry. -/
theorem hrest (c : Dev nD) : ∀ b, b ∉ Finset.univ.image (Pipeline.arrRef spec8) →
    (fun b : Ref sig .tc => GenP.V18 m (Vals.outs m) c b) b = Run.Ve8 m c b := fun b hb =>
  GenP.V18_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G8.dat (Run.Ve8 m) (Run.tbl8 m) h.ok8 c).arrAt 1 (G8.cfgM (Run.tbl8 m) h.ok8).N = Vals.gath3 m 8 c) :
    Pipeline.RegionSeg (pcfgs (F := F)) (Run.a m h) (Run.pdats m h) () defs₀ Run.𝒱₀ Run.L Run.lv (8 : Fin 33) where
  win := (launch8 (F := F)).win.to₀
  block_pos := (launch8 (F := F)).block_pos
  stage_whole := (launch8 (F := F)).stage_whole
  K := PEmpty
  osem k := k.elim
  ho := Pipeline.OwnSemFacts.none _
  hbody c := (G8.body_obligation (Run.Ve8 m) (Run.tbl8 m) h.ok8 c).loose
  hwaits := Pipeline.hwaits_of_owed_zero _ _ _ _ Run.L Run.lv (8 : Fin 33) fun _ _ => rfl
  pre c := iprop(StableHlo.held (c : Thread nD τ) (Pipeline.ucRefs τ sig) (GenP.V17 m (Vals.outs m) c) ∗ Run.R c)
  post c := iprop(StableHlo.held (c : Thread nD τ) (Pipeline.ucRefs τ sig) (GenP.V18 m (Vals.outs m) c) ∗ Run.R c)
  X c := iprop(∃ r, prngReg c r)
  Y c := iprop((∃ r, prngReg c r) ∗ Pipeline.prefHeld (Ix := Unit) (Name := ℕ) (U := UR sig nD τ) (Lvl := ℕ) pre8 c (fun _ => fullShare) (Run.tbl8 m))
  Z c := Pipeline.unscopedRestP (Ix := Unit) (Name := ℕ) (U := UR sig nD τ) (Lvl := ℕ) pre8 spec8 c (Run.Ve8 m c)
  hentry c := by
    rw [Pipeline.ownSems0_none]
    have hsplit := Pipeline.arrays_of_unscopedBufs (p := (8 : Fin 33)) (pcfgs (F := F)) (Run.a m h) (Run.pdats m h) (launch8 (F := F)).win (launch8 (F := F)).arr_whole c
      ((Run.pdats m h (8 : Fin 33) c).share_full fun _ => rfl) (Run.Ve8 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (8 : Fin 33) c).Φ 0 = iprop(Pipeline.ΦA spec8 c ∗ Pipeline.prefHeld (Ix := Unit) (Name := ℕ) (U := UR sig nD τ) (Lvl := ℕ) pre8 c (fun _ => fullShare) (Run.tbl8 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (8 : Fin 33) c).Φ (Fin.last _) = iprop(Pipeline.ΦA spec8 c ∗ Pipeline.prefHeld (Ix := Unit) (Name := ℕ) (U := UR sig nD τ) (Lvl := ℕ) pre8 c (fun _ => fullShare) (Run.tbl8 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (8 : Fin 33)) (pcfgs (F := F)) (Run.a m h) (Ix := Unit) (Name := ℕ) (U := UR sig nD τ) (Lvl := ℕ)
      (launch8 (F := F)).win (launch8 (F := F)).arr_whole c (Run.pdats m h) ((Run.pdats m h (8 : Fin 33) c).share_full fun _ => rfl)
      (Run.Ve8 m c) (fun b => GenP.V18 m (Vals.outs m) c b) ((Run.pdats m h (8 : Fin 33) c).arrAt · (G8.cfgM (Run.tbl8 m) h.ok8).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S8

end
-- ==== Proof.K.G8V.lean ====
/-
  What gather region 0 leaves in its output array: point t writes back row `tb[t]` of the array it reads as row t, the
  50000 rows tile the output, so the array ends as the gathered rows.
-/
import proofs.«406793_j90890097918585_2_alg».proof.Proof.K.G8
import proofs.«406793_j90890097918585_2_alg».proof.Proof.K.Vals
import Idealize.ShloMosaic.Lib.Pipeline.Value

set_option maxRecDepth 16384

noncomputable section

namespace Cert.Kernel.G8

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre8.Contents (Elt F)) (hO : ok8 (F := F) tb)

/-! ## The two windows' block rows at a point -/

/-- A point of the grid is below 50000. -/
private theorem point_lt (t : Fin (cfgM tb hO).N) : t.val < 50000 := by
  have h : t.val < grid8.N := t.isLt
  rw [N_8] at h
  exact h

/-- The grid has one axis: the coordinate of point t is t. -/
private theorem coords_0 (t : Fin (cfgM tb hO).N) : (grid8.coords t 0).val = t.val := by
  have ht := point_lt tb hO t
  show t.val / grid8.stride 0 % grid8.bound 0 = t.val
  rw [show grid8.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc8_transform_1 (grid8.coords t) 0 = t.val
  unfold cc8_transform_1
  show (BitVec.ofNat 32 (grid8.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid8.N
  · exact Or.inl h
  · have hlt : t.val < grid8.N := t.isLt
    refine Or.inr ⟨by show t.val + 1 < grid8.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc8_transform_0 k8_off1_inb numel1_S1 tb (grid8.coords t) 0 = _
  unfold cc8_transform_0
  dsimp only
  refine congrArg BitVec.toNat (congrArg (tb 0 : S50000.Idx → BitVec 32) ?_)
  funext d
  match d with
  | ⟨0, _⟩ =>
    apply Fin.ext
    show (Scalar.indexCast (BitVec.ofNat 32 (grid8.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k8_pay1 x = x := by
  unfold k8_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v113 (ValueIdx.ix3 (Vals.rowOf ((tb 0 : S50000.Idx → BitVec 32) (ValueIdx.ix1 ⟨t.val, point_lt tb hO t⟩))) (y 1) (y 2)) := by
  show V c main_v113 ((((cfgM tb hO).win 0).blk t).view.emb y) = _
  refine congrArg (V c main_v113) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v113) (tb 0)) := by
  show ((cfgM tb hO).win 1).cut (grid8.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v113) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v114 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid8.N := by rw [N_8]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v113) (tb 0) :=
  (dat V tb hO c).arrAt_eq_of_cover 1 (Vals.gath3Of (V c main_v113) (tb 0)) (fun t _ => flushed_1 V tb hO htb c t)
    (cover_blk_1 tb hO)

end Cert.Kernel.G8

end
-- ==== Proof.K.S9.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (9 : Fin 33) c = G9.dat (Run.Ve9 m) (Run.tbl9 m) h.ok9 c := rfl

/-- On the one device the table's buffer holds the table. -/
theorem tbl_eq (c : Dev nD) : (fun k => Run.Ve9 m c (pre9.ref k)) = Run.tbl9 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec9 c (Run.Ve9 m c) : sProp 𝕄)
      = iprop(Pipeline.prefHeld (Ix := Unit) (Name := ℕ) (U := UR sig nD τ) (Lvl := ℕ) pre9 c (fun _ => fullShare) (Run.tbl9 m)
          ∗ Pipeline.unscopedRestP (Ix := Unit) (Name := ℕ) (U := UR sig nD τ) (Lvl := ℕ) pre9 spec9 c (Run.Ve9 m c)) := by
  have hs := Pipeline.unscopedRest_split (Ix := Unit) (Name := ℕ) (U := UR sig nD τ) (Lvl := ℕ) (Val := Elt F) (launch9 (F := F)).pre c (Run.Ve9 m c)
  rw [← tbl_eq m c]
  exact hs

/-- After the region each of its arrays holds what the pipeline leaves: the array read as entered, the output at the gathered rows. -/
theorem hF (harr : ∀ c : Dev nD, (G9.dat (Run.Ve9 m) (Run.tbl9 m) h.ok9 c).arrAt 1 (G9.cfgM (Run.tbl9 m) h.ok9).N = Vals.gath3 m 9 c)
    (c : Dev nD) (w : Fin (G9.cfgM (Run.tbl9 m) h.ok9).W) :
    (G9.dat (Run.Ve9 m) (Run.tbl9 m) h.ok9 c).arrAt w (G9.cfgM (Run.tbl9 m) h.ok9).N
      = GenP.V20 m (Vals.outs m) c (Pipeline.arrRef spec9 w) := by
  match w with
  | ⟨0, _⟩ =>
    refine ((G9.dat (Run.Ve9 m) (Run.tbl9 m) h.ok9 c).arrAt_in 0 rfl _).trans ((G9.A_eq (Run.Ve9 m) (Run.tbl9 m) h.ok9 c 0).trans ?_)
    exact (GenP.V20_of m (Vals.outs m) c main_v126 (by decide)).symm
  | ⟨1, _⟩ =>
    refine (harr c).trans ?_
    show Vals.gath3 m 9 c = Function.update (GenP.V19 m (Vals.outs m) c) main_v127 (Vals.outs m 20 main_v127 c) main_v127
    rw [Function.update_self, Vals.outs_9]

/-- and every other buffer what it held at entry. -/
theorem hrest (c : Dev nD) : ∀ b, b ∉ Finset.univ.image (Pipeline.arrRef spec9) →
    (fun b : Ref sig .tc => GenP.V20 m (Vals.outs m) c b) b = Run.Ve9 m c b := fun b hb =>
  GenP.V20_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G9.dat (Run.Ve9 m) (Run.tbl9 m) h.ok9 c).arrAt 1 (G9.cfgM (Run.tbl9 m) h.ok9).N = Vals.gath3 m 9 c) :
    Pipeline.RegionSeg (pcfgs (F := F)) (Run.a m h) (Run.pdats m h) () defs₀ Run.𝒱₀ Run.L Run.lv (9 : Fin 33) where
  win := (launch9 (F := F)).win.to₀
  block_pos := (launch9 (F := F)).block_pos
  stage_whole := (launch9 (F := F)).stage_whole
  K := PEmpty
  osem k := k.elim
  ho := Pipeline.OwnSemFacts.none _
  hbody c := (G9.body_obligation (Run.Ve9 m) (Run.tbl9 m) h.ok9 c).loose
  hwaits := Pipeline.hwaits_of_owed_zero _ _ _ _ Run.L Run.lv (9 : Fin 33) fun _ _ => rfl
  pre c := iprop(StableHlo.held (c : Thread nD τ) (Pipeline.ucRefs τ sig) (GenP.V19 m (Vals.outs m) c) ∗ Run.R c)
  post c := iprop(StableHlo.held (c : Thread nD τ) (Pipeline.ucRefs τ sig) (GenP.V20 m (Vals.outs m) c) ∗ Run.R c)
  X c := iprop(∃ r, prngReg c r)
  Y c := iprop((∃ r, prngReg c r) ∗ Pipeline.prefHeld (Ix := Unit) (Name := ℕ) (U := UR sig nD τ) (Lvl := ℕ) pre9 c (fun _ => fullShare) (Run.tbl9 m))
  Z c := Pipeline.unscopedRestP (Ix := Unit) (Name := ℕ) (U := UR sig nD τ) (Lvl := ℕ) pre9 spec9 c (Run.Ve9 m c)
  hentry c := by
    rw [Pipeline.ownSems0_none]
    have hsplit := Pipeline.arrays_of_unscopedBufs (p := (9 : Fin 33)) (pcfgs (F := F)) (Run.a m h) (Run.pdats m h) (launch9 (F := F)).win (launch9 (F := F)).arr_whole c
      ((Run.pdats m h (9 : Fin 33) c).share_full fun _ => rfl) (Run.Ve9 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (9 : Fin 33) c).Φ 0 = iprop(Pipeline.ΦA spec9 c ∗ Pipeline.prefHeld (Ix := Unit) (Name := ℕ) (U := UR sig nD τ) (Lvl := ℕ) pre9 c (fun _ => fullShare) (Run.tbl9 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (9 : Fin 33) c).Φ (Fin.last _) = iprop(Pipeline.ΦA spec9 c ∗ Pipeline.prefHeld (Ix := Unit) (Name := ℕ) (U := UR sig nD τ) (Lvl := ℕ) pre9 c (fun _ => fullShare) (Run.tbl9 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (9 : Fin 33)) (pcfgs (F := F)) (Run.a m h) (Ix := Unit) (Name := ℕ) (U := UR sig nD τ) (Lvl := ℕ)
      (launch9 (F := F)).win (launch9 (F := F)).arr_whole c (Run.pdats m h) ((Run.pdats m h (9 : Fin 33) c).share_full fun _ => rfl)
      (Run.Ve9 m c) (fun b => GenP.V20 m (Vals.outs m) c b) ((Run.pdats m h (9 : Fin 33) c).arrAt · (G9.cfgM (Run.tbl9 m) h.ok9).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S9

end
-- ==== Proof.K.G9V.lean ====
/-
  What gather region 0 leaves in its output array: point t writes back row `tb[t]` of the array it reads as row t, the
  50000 rows tile the output, so the array ends as the gathered rows.
-/
import proofs.«406793_j90890097918585_2_alg».proof.Proof.K.G9
import proofs.«406793_j90890097918585_2_alg».proof.Proof.K.Vals
import Idealize.ShloMosaic.Lib.Pipeline.Value

set_option maxRecDepth 16384

noncomputable section

namespace Cert.Kernel.G9

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre9.Contents (Elt F)) (hO : ok9 (F := F) tb)

/-! ## The two windows' block rows at a point -/

/-- A point of the grid is below 50000. -/
private theorem point_lt (t : Fin (cfgM tb hO).N) : t.val < 50000 := by
  have h : t.val < grid9.N := t.isLt
  rw [N_9] at h
  exact h

/-- The grid has one axis: the coordinate of point t is t. -/
private theorem coords_0 (t : Fin (cfgM tb hO).N) : (grid9.coords t 0).val = t.val := by
  have ht := point_lt tb hO t
  show t.val / grid9.stride 0 % grid9.bound 0 = t.val
  rw [show grid9.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc9_transform_1 (grid9.coords t) 0 = t.val
  unfold cc9_transform_1
  show (BitVec.ofNat 32 (grid9.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid9.N
  · exact Or.inl h
  · have hlt : t.val < grid9.N := t.isLt
    refine Or.inr ⟨by show t.val + 1 < grid9.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc9_transform_0 k9_off1_inb numel1_S1 tb (grid9.coords t) 0 = _
  unfold cc9_transform_0
  dsimp only
  refine congrArg BitVec.toNat (congrArg (tb 0 : S50000.Idx → BitVec 32) ?_)
  funext d
  match d with
  | ⟨0, _⟩ =>
    apply Fin.ext
    show (Scalar.indexCast (BitVec.ofNat 32 (grid9.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k9_pay1 x = x := by
  unfold k9_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v126 (ValueIdx.ix3 (Vals.rowOf ((tb 0 : S50000.Idx → BitVec 32) (ValueIdx.ix1 ⟨t.val, point_lt tb hO t⟩))) (y 1) (y 2)) := by
  show V c main_v126 ((((cfgM tb hO).win 0).blk t).view.emb y) = _
  refine congrArg (V c main_v126) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v126) (tb 0)) := by
  show ((cfgM tb hO).win 1).cut (grid9.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v126) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v127 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid9.N := by rw [N_9]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v126) (tb 0) :=
  (dat V tb hO c).arrAt_eq_of_cover 1 (Vals.gath3Of (V c main_v126) (tb 0)) (fun t _ => flushed_1 V tb hO htb c t)
    (cover_blk_1 tb hO)

end Cert.Kernel.G9

end
-- ==== Proof.K.S10.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S10

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (10 : Fin 33) c = G10.dat (Run.Ve10 m) (Run.tbl10 m) h.ok10 c := rfl

/-- On the one device the table's buffer holds the table. -/
theorem tbl_eq (c : Dev nD) : (fun k => Run.Ve10 m c (pre10.ref k)) = Run.tbl10 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec10 c (Run.Ve10 m c) : sProp 𝕄)
      = iprop(Pipeline.prefHeld (Ix := Unit) (Name := ℕ) (U := UR sig nD τ) (Lvl := ℕ) pre10 c (fun _ => fullShare) (Run.tbl10 m)
          ∗ Pipeline.unscopedRestP (Ix := Unit) (Name := ℕ) (U := UR sig nD τ) (Lvl := ℕ) pre10 spec10 c (Run.Ve10 m c)) := by
  have hs := Pipeline.unscopedRest_split (Ix := Unit) (Name := ℕ) (U := UR sig nD τ) (Lvl := ℕ) (Val := Elt F) (launch10 (F := F)).pre c (Run.Ve10 m c)
  rw [← tbl_eq m c]
  exact hs

/-- After the region each of its arrays holds what the pipeline leaves: the array read as entered, the output at the gathered rows. -/
theorem hF (harr : ∀ c : Dev nD, (G10.dat (Run.Ve10 m) (Run.tbl10 m) h.ok10 c).arrAt 1 (G10.cfgM (Run.tbl10 m) h.ok10).N = Vals.gath3 m 10 c)
    (c : Dev nD) (w : Fin (G10.cfgM (Run.tbl10 m) h.ok10).W) :
    (G10.dat (Run.Ve10 m) (Run.tbl10 m) h.ok10 c).arrAt w (G10.cfgM (Run.tbl10 m) h.ok10).N
      = GenP.V22 m (Vals.outs m) c (Pipeline.arrRef spec10 w) := by
  match w with
  | ⟨0, _⟩ =>
    refine ((G10.dat (Run.Ve10 m) (Run.tbl10 m) h.ok10 c).arrAt_in 0 rfl _).trans ((G10.A_eq (Run.Ve10 m) (Run.tbl10 m) h.ok10 c 0).trans ?_)
    exact (GenP.V22_of m (Vals.outs m) c main_v139 (by decide)).symm
  | ⟨1, _⟩ =>
    refine (harr c).trans ?_
    show Vals.gath3 m 10 c = Function.update (GenP.V21 m (Vals.outs m) c) main_v140 (Vals.outs m 22 main_v140 c) main_v140
    rw [Function.update_self, Vals.outs_10]

/-- and every other buffer what it held at entry. -/
theorem hrest (c : Dev nD) : ∀ b, b ∉ Finset.univ.image (Pipeline.arrRef spec10) →
    (fun b : Ref sig .tc => GenP.V22 m (Vals.outs m) c b) b = Run.Ve10 m c b := fun b hb =>
  GenP.V22_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G10.dat (Run.Ve10 m) (Run.tbl10 m) h.ok10 c).arrAt 1 (G10.cfgM (Run.tbl10 m) h.ok10).N = Vals.gath3 m 10 c) :
    Pipeline.RegionSeg (pcfgs (F := F)) (Run.a m h) (Run.pdats m h) () defs₀ Run.𝒱₀ Run.L Run.lv (10 : Fin 33) where
  win := (launch10 (F := F)).win.to₀
  block_pos := (launch10 (F := F)).block_pos
  stage_whole := (launch10 (F := F)).stage_whole
  K := PEmpty
  osem k := k.elim
  ho := Pipeline.OwnSemFacts.none _
  hbody c := (G10.body_obligation (Run.Ve10 m) (Run.tbl10 m) h.ok10 c).loose
  hwaits := Pipeline.hwaits_of_owed_zero _ _ _ _ Run.L Run.lv (10 : Fin 33) fun _ _ => rfl
  pre c := iprop(StableHlo.held (c : Thread nD τ) (Pipeline.ucRefs τ sig) (GenP.V21 m (Vals.outs m) c) ∗ Run.R c)
  post c := iprop(StableHlo.held (c : Thread nD τ) (Pipeline.ucRefs τ sig) (GenP.V22 m (Vals.outs m) c) ∗ Run.R c)
  X c := iprop(∃ r, prngReg c r)
  Y c := iprop((∃ r, prngReg c r) ∗ Pipeline.prefHeld (Ix := Unit) (Name := ℕ) (U := UR sig nD τ) (Lvl := ℕ) pre10 c (fun _ => fullShare) (Run.tbl10 m))
  Z c := Pipeline.unscopedRestP (Ix := Unit) (Name := ℕ) (U := UR sig nD τ) (Lvl := ℕ) pre10 spec10 c (Run.Ve10 m c)
  hentry c := by
    rw [Pipeline.ownSems0_none]
    have hsplit := Pipeline.arrays_of_unscopedBufs (p := (10 : Fin 33)) (pcfgs (F := F)) (Run.a m h) (Run.pdats m h) (launch10 (F := F)).win (launch10 (F := F)).arr_whole c
      ((Run.pdats m h (10 : Fin 33) c).share_full fun _ => rfl) (Run.Ve10 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (10 : Fin 33) c).Φ 0 = iprop(Pipeline.ΦA spec10 c ∗ Pipeline.prefHeld (Ix := Unit) (Name := ℕ) (U := UR sig nD τ) (Lvl := ℕ) pre10 c (fun _ => fullShare) (Run.tbl10 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (10 : Fin 33) c).Φ (Fin.last _) = iprop(Pipeline.ΦA spec10 c ∗ Pipeline.prefHeld (Ix := Unit) (Name := ℕ) (U := UR sig nD τ) (Lvl := ℕ) pre10 c (fun _ => fullShare) (Run.tbl10 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (10 : Fin 33)) (pcfgs (F := F)) (Run.a m h) (Ix := Unit) (Name := ℕ) (U := UR sig nD τ) (Lvl := ℕ)
      (launch10 (F := F)).win (launch10 (F := F)).arr_whole c (Run.pdats m h) ((Run.pdats m h (10 : Fin 33) c).share_full fun _ => rfl)
      (Run.Ve10 m c) (fun b => GenP.V22 m (Vals.outs m) c b) ((Run.pdats m h (10 : Fin 33) c).arrAt · (G10.cfgM (Run.tbl10 m) h.ok10).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S10

end
-- ==== Proof.K.G10V.lean ====
/-
  What gather region 0 leaves in its output array: point t writes back row `tb[t]` of the array it reads as row t, the
  50000 rows tile the output, so the array ends as the gathered rows.
-/
import proofs.«406793_j90890097918585_2_alg».proof.Proof.K.G10
import proofs.«406793_j90890097918585_2_alg».proof.Proof.K.Vals
import Idealize.ShloMosaic.Lib.Pipeline.Value

set_option maxRecDepth 16384

noncomputable section

namespace Cert.Kernel.G10

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre10.Contents (Elt F)) (hO : ok10 (F := F) tb)

/-! ## The two windows' block rows at a point -/

/-- A point of the grid is below 50000. -/
private theorem point_lt (t : Fin (cfgM tb hO).N) : t.val < 50000 := by
  have h : t.val < grid10.N := t.isLt
  rw [N_10] at h
  exact h

/-- The grid has one axis: the coordinate of point t is t. -/
private theorem coords_0 (t : Fin (cfgM tb hO).N) : (grid10.coords t 0).val = t.val := by
  have ht := point_lt tb hO t
  show t.val / grid10.stride 0 % grid10.bound 0 = t.val
  rw [show grid10.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc10_transform_1 (grid10.coords t) 0 = t.val
  unfold cc10_transform_1
  show (BitVec.ofNat 32 (grid10.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid10.N
  · exact Or.inl h
  · have hlt : t.val < grid10.N := t.isLt
    refine Or.inr ⟨by show t.val + 1 < grid10.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc10_transform_0 k10_off1_inb numel1_S1 tb (grid10.coords t) 0 = _
  unfold cc10_transform_0
  dsimp only
  refine congrArg BitVec.toNat (congrArg (tb 0 : S50000.Idx → BitVec 32) ?_)
  funext d
  match d with
  | ⟨0, _⟩ =>
    apply Fin.ext
    show (Scalar.indexCast (BitVec.ofNat 32 (grid10.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k10_pay1 x = x := by
  unfold k10_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v139 (ValueIdx.ix3 (Vals.rowOf ((tb 0 : S50000.Idx → BitVec 32) (ValueIdx.ix1 ⟨t.val, point_lt tb hO t⟩))) (y 1) (y 2)) := by
  show V c main_v139 ((((cfgM tb hO).win 0).blk t).view.emb y) = _
  refine congrArg (V c main_v139) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v139) (tb 0)) := by
  show ((cfgM tb hO).win 1).cut (grid10.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v139) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v140 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid10.N := by rw [N_10]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v139) (tb 0) :=
  (dat V tb hO c).arrAt_eq_of_cover 1 (Vals.gath3Of (V c main_v139) (tb 0)) (fun t _ => flushed_1 V tb hO htb c t)
    (cover_blk_1 tb hO)

end Cert.Kernel.G10

end
-- ==== Proof.K.S11.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S11

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (11 : Fin 33) c = G11.dat (Run.Ve11 m) (Run.tbl11 m) h.ok11 c := rfl

/-- On the one device the table's buffer holds the table. -/
theorem tbl_eq (c : Dev nD) : (fun k => Run.Ve11 m c (pre11.ref k)) = Run.tbl11 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec11 c (Run.Ve11 m c) : sProp 𝕄)
      = iprop(Pipeline.prefHeld (Ix := Unit) (Name := ℕ) (U := UR sig nD τ) (Lvl := ℕ) pre11 c (fun _ => fullShare) (Run.tbl11 m)
          ∗ Pipeline.unscopedRestP (Ix := Unit) (Name := ℕ) (U := UR sig nD τ) (Lvl := ℕ) pre11 spec11 c (Run.Ve11 m c)) := by
  have hs := Pipeline.unscopedRest_split (Ix := Unit) (Name := ℕ) (U := UR sig nD τ) (Lvl := ℕ) (Val := Elt F) (launch11 (F := F)).pre c (Run.Ve11 m c)
  rw [← tbl_eq m c]
  exact hs

/-- After the region each of its arrays holds what the pipeline leaves: the array read as entered, the output at the gathered rows. -/
theorem hF (harr : ∀ c : Dev nD, (G11.dat (Run.Ve11 m) (Run.tbl11 m) h.ok11 c).arrAt 1 (G11.cfgM (Run.tbl11 m) h.ok11).N = Vals.gath3 m 11 c)
    (c : Dev nD) (w : Fin (G11.cfgM (Run.tbl11 m) h.ok11).W) :
    (G11.dat (Run.Ve11 m) (Run.tbl11 m) h.ok11 c).arrAt w (G11.cfgM (Run.tbl11 m) h.ok11).N
      = GenP.V24 m (Vals.outs m) c (Pipeline.arrRef spec11 w) := by
  match w with
  | ⟨0, _⟩ =>
    refine ((G11.dat (Run.Ve11 m) (Run.tbl11 m) h.ok11 c).arrAt_in 0 rfl _).trans ((G11.A_eq (Run.Ve11 m) (Run.tbl11 m) h.ok11 c 0).trans ?_)
    exact (GenP.V24_of m (Vals.outs m) c main_v152 (by decide)).symm
  | ⟨1, _⟩ =>
    refine (harr c).trans ?_
    show Vals.gath3 m 11 c = Function.update (GenP.V23 m (Vals.outs m) c) main_v153 (Vals.outs m 24 main_v153 c) main_v153
    rw [Function.update_self, Vals.outs_11]

/-- and every other buffer what it held at entry. -/
theorem hrest (c : Dev nD) : ∀ b, b ∉ Finset.univ.image (Pipeline.arrRef spec11) →
    (fun b : Ref sig .tc => GenP.V24 m (Vals.outs m) c b) b = Run.Ve11 m c b := fun b hb =>
  GenP.V24_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G11.dat (Run.Ve11 m) (Run.tbl11 m) h.ok11 c).arrAt 1 (G11.cfgM (Run.tbl11 m) h.ok11).N = Vals.gath3 m 11 c) :
    Pipeline.RegionSeg (pcfgs (F := F)) (Run.a m h) (Run.pdats m h) () defs₀ Run.𝒱₀ Run.L Run.lv (11 : Fin 33) where
  win := (launch11 (F := F)).win.to₀
  block_pos := (launch11 (F := F)).block_pos
  stage_whole := (launch11 (F := F)).stage_whole
  K := PEmpty
  osem k := k.elim
  ho := Pipeline.OwnSemFacts.none _
  hbody c := (G11.body_obligation (Run.Ve11 m) (Run.tbl11 m) h.ok11 c).loose
  hwaits := Pipeline.hwaits_of_owed_zero _ _ _ _ Run.L Run.lv (11 : Fin 33) fun _ _ => rfl
  pre c := iprop(StableHlo.held (c : Thread nD τ) (Pipeline.ucRefs τ sig) (GenP.V23 m (Vals.outs m) c) ∗ Run.R c)
  post c := iprop(StableHlo.held (c : Thread nD τ) (Pipeline.ucRefs τ sig) (GenP.V24 m (Vals.outs m) c) ∗ Run.R c)
  X c := iprop(∃ r, prngReg c r)
  Y c := iprop((∃ r, prngReg c r) ∗ Pipeline.prefHeld (Ix := Unit) (Name := ℕ) (U := UR sig nD τ) (Lvl := ℕ) pre11 c (fun _ => fullShare) (Run.tbl11 m))
  Z c := Pipeline.unscopedRestP (Ix := Unit) (Name := ℕ) (U := UR sig nD τ) (Lvl := ℕ) pre11 spec11 c (Run.Ve11 m c)
  hentry c := by
    rw [Pipeline.ownSems0_none]
    have hsplit := Pipeline.arrays_of_unscopedBufs (p := (11 : Fin 33)) (pcfgs (F := F)) (Run.a m h) (Run.pdats m h) (launch11 (F := F)).win (launch11 (F := F)).arr_whole c
      ((Run.pdats m h (11 : Fin 33) c).share_full fun _ => rfl) (Run.Ve11 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (11 : Fin 33) c).Φ 0 = iprop(Pipeline.ΦA spec11 c ∗ Pipeline.prefHeld (Ix := Unit) (Name := ℕ) (U := UR sig nD τ) (Lvl := ℕ) pre11 c (fun _ => fullShare) (Run.tbl11 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (11 : Fin 33) c).Φ (Fin.last _) = iprop(Pipeline.ΦA spec11 c ∗ Pipeline.prefHeld (Ix := Unit) (Name := ℕ) (U := UR sig nD τ) (Lvl := ℕ) pre11 c (fun _ => fullShare) (Run.tbl11 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (11 : Fin 33)) (pcfgs (F := F)) (Run.a m h) (Ix := Unit) (Name := ℕ) (U := UR sig nD τ) (Lvl := ℕ)
      (launch11 (F := F)).win (launch11 (F := F)).arr_whole c (Run.pdats m h) ((Run.pdats m h (11 : Fin 33) c).share_full fun _ => rfl)
      (Run.Ve11 m c) (fun b => GenP.V24 m (Vals.outs m) c b) ((Run.pdats m h (11 : Fin 33) c).arrAt · (G11.cfgM (Run.tbl11 m) h.ok11).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S11

end
-- ==== Proof.K.G11V.lean ====
/-
  What gather region 0 leaves in its output array: point t writes back row `tb[t]` of the array it reads as row t, the
  50000 rows tile the output, so the array ends as the gathered rows.
-/
import proofs.«406793_j90890097918585_2_alg».proof.Proof.K.G11
import proofs.«406793_j90890097918585_2_alg».proof.Proof.K.Vals
import Idealize.ShloMosaic.Lib.Pipeline.Value

set_option maxRecDepth 16384

noncomputable section

namespace Cert.Kernel.G11

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre11.Contents (Elt F)) (hO : ok11 (F := F) tb)

/-! ## The two windows' block rows at a point -/

/-- A point of the grid is below 50000. -/
private theorem point_lt (t : Fin (cfgM tb hO).N) : t.val < 50000 := by
  have h : t.val < grid11.N := t.isLt
  rw [N_11] at h
  exact h

/-- The grid has one axis: the coordinate of point t is t. -/
private theorem coords_0 (t : Fin (cfgM tb hO).N) : (grid11.coords t 0).val = t.val := by
  have ht := point_lt tb hO t
  show t.val / grid11.stride 0 % grid11.bound 0 = t.val
  rw [show grid11.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc11_transform_1 (grid11.coords t) 0 = t.val
  unfold cc11_transform_1
  show (BitVec.ofNat 32 (grid11.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid11.N
  · exact Or.inl h
  · have hlt : t.val < grid11.N := t.isLt
    refine Or.inr ⟨by show t.val + 1 < grid11.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc11_transform_0 k11_off1_inb numel1_S1 tb (grid11.coords t) 0 = _
  unfold cc11_transform_0
  dsimp only
  refine congrArg BitVec.toNat (congrArg (tb 0 : S50000.Idx → BitVec 32) ?_)
  funext d
  match d with
  | ⟨0, _⟩ =>
    apply Fin.ext
    show (Scalar.indexCast (BitVec.ofNat 32 (grid11.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k11_pay1 x = x := by
  unfold k11_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v152 (ValueIdx.ix3 (Vals.rowOf ((tb 0 : S50000.Idx → BitVec 32) (ValueIdx.ix1 ⟨t.val, point_lt tb hO t⟩))) (y 1) (y 2)) := by
  show V c main_v152 ((((cfgM tb hO).win 0).blk t).view.emb y) = _
  refine congrArg (V c main_v152) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v152) (tb 0)) := by
  show ((cfgM tb hO).win 1).cut (grid11.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v152) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v153 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid11.N := by rw [N_11]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v152) (tb 0) :=
  (dat V tb hO c).arrAt_eq_of_cover 1 (Vals.gath3Of (V c main_v152) (tb 0)) (fun t _ => flushed_1 V tb hO htb c t)
    (cover_blk_1 tb hO)

end Cert.Kernel.G11

end
-- ==== Proof.K.S12.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S12

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (12 : Fin 33) c = G12.dat (Run.Ve12 m) (Run.tbl12 m) h.ok12 c := rfl

/-- On the one device the table's buffer holds the table. -/
theorem tbl_eq (c : Dev nD) : (fun k => Run.Ve12 m c (pre12.ref k)) = Run.tbl12 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec12 c (Run.Ve12 m c) : sProp 𝕄)
      = iprop(Pipeline.prefHeld (Ix := Unit) (Name := ℕ) (U := UR sig nD τ) (Lvl := ℕ) pre12 c (fun _ => fullShare) (Run.tbl12 m)
          ∗ Pipeline.unscopedRestP (Ix := Unit) (Name := ℕ) (U := UR sig nD τ) (Lvl := ℕ) pre12 spec12 c (Run.Ve12 m c)) := by
  have hs := Pipeline.unscopedRest_split (Ix := Unit) (Name := ℕ) (U := UR sig nD τ) (Lvl := ℕ) (Val := Elt F) (launch12 (F := F)).pre c (Run.Ve12 m c)
  rw [← tbl_eq m c]
  exact hs

/-- After the region each of its arrays holds what the pipeline leaves: the array read as entered, the output at the gathered rows. -/
theorem hF (harr : ∀ c : Dev nD, (G12.dat (Run.Ve12 m) (Run.tbl12 m) h.ok12 c).arrAt 1 (G12.cfgM (Run.tbl12 m) h.ok12).N = Vals.gath3 m 12 c)
    (c : Dev nD) (w : Fin (G12.cfgM (Run.tbl12 m) h.ok12).W) :
    (G12.dat (Run.Ve12 m) (Run.tbl12 m) h.ok12 c).arrAt w (G12.cfgM (Run.tbl12 m) h.ok12).N
      = GenP.V26 m (Vals.outs m) c (Pipeline.arrRef spec12 w) := by
  match w with
  | ⟨0, _⟩ =>
    refine ((G12.dat (Run.Ve12 m) (Run.tbl12 m) h.ok12 c).arrAt_in 0 rfl _).trans ((G12.A_eq (Run.Ve12 m) (Run.tbl12 m) h.ok12 c 0).trans ?_)
    exact (GenP.V26_of m (Vals.outs m) c main_v165 (by decide)).symm
  | ⟨1, _⟩ =>
    refine (harr c).trans ?_
    show Vals.gath3 m 12 c = Function.update (GenP.V25 m (Vals.outs m) c) main_v166 (Vals.outs m 26 main_v166 c) main_v166
    rw [Function.update_self, Vals.outs_12]

/-- and every other buffer what it held at entry. -/
theorem hrest (c : Dev nD) : ∀ b, b ∉ Finset.univ.image (Pipeline.arrRef spec12) →
    (fun b : Ref sig .tc => GenP.V26 m (Vals.outs m) c b) b = Run.Ve12 m c b := fun b hb =>
  GenP.V26_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G12.dat (Run.Ve12 m) (Run.tbl12 m) h.ok12 c).arrAt 1 (G12.cfgM (Run.tbl12 m) h.ok12).N = Vals.gath3 m 12 c) :
    Pipeline.RegionSeg (pcfgs (F := F)) (Run.a m h) (Run.pdats m h) () defs₀ Run.𝒱₀ Run.L Run.lv (12 : Fin 33) where
  win := (launch12 (F := F)).win.to₀
  block_pos := (launch12 (F := F)).block_pos
  stage_whole := (launch12 (F := F)).stage_whole
  K := PEmpty
  osem k := k.elim
  ho := Pipeline.OwnSemFacts.none _
  hbody c := (G12.body_obligation (Run.Ve12 m) (Run.tbl12 m) h.ok12 c).loose
  hwaits := Pipeline.hwaits_of_owed_zero _ _ _ _ Run.L Run.lv (12 : Fin 33) fun _ _ => rfl
  pre c := iprop(StableHlo.held (c : Thread nD τ) (Pipeline.ucRefs τ sig) (GenP.V25 m (Vals.outs m) c) ∗ Run.R c)
  post c := iprop(StableHlo.held (c : Thread nD τ) (Pipeline.ucRefs τ sig) (GenP.V26 m (Vals.outs m) c) ∗ Run.R c)
  X c := iprop(∃ r, prngReg c r)
  Y c := iprop((∃ r, prngReg c r) ∗ Pipeline.prefHeld (Ix := Unit) (Name := ℕ) (U := UR sig nD τ) (Lvl := ℕ) pre12 c (fun _ => fullShare) (Run.tbl12 m))
  Z c := Pipeline.unscopedRestP (Ix := Unit) (Name := ℕ) (U := UR sig nD τ) (Lvl := ℕ) pre12 spec12 c (Run.Ve12 m c)
  hentry c := by
    rw [Pipeline.ownSems0_none]
    have hsplit := Pipeline.arrays_of_unscopedBufs (p := (12 : Fin 33)) (pcfgs (F := F)) (Run.a m h) (Run.pdats m h) (launch12 (F := F)).win (launch12 (F := F)).arr_whole c
      ((Run.pdats m h (12 : Fin 33) c).share_full fun _ => rfl) (Run.Ve12 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (12 : Fin 33) c).Φ 0 = iprop(Pipeline.ΦA spec12 c ∗ Pipeline.prefHeld (Ix := Unit) (Name := ℕ) (U := UR sig nD τ) (Lvl := ℕ) pre12 c (fun _ => fullShare) (Run.tbl12 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (12 : Fin 33) c).Φ (Fin.last _) = iprop(Pipeline.ΦA spec12 c ∗ Pipeline.prefHeld (Ix := Unit) (Name := ℕ) (U := UR sig nD τ) (Lvl := ℕ) pre12 c (fun _ => fullShare) (Run.tbl12 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (12 : Fin 33)) (pcfgs (F := F)) (Run.a m h) (Ix := Unit) (Name := ℕ) (U := UR sig nD τ) (Lvl := ℕ)
      (launch12 (F := F)).win (launch12 (F := F)).arr_whole c (Run.pdats m h) ((Run.pdats m h (12 : Fin 33) c).share_full fun _ => rfl)
      (Run.Ve12 m c) (fun b => GenP.V26 m (Vals.outs m) c b) ((Run.pdats m h (12 : Fin 33) c).arrAt · (G12.cfgM (Run.tbl12 m) h.ok12).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S12

end
-- ==== Proof.K.G12V.lean ====
/-
  What gather region 0 leaves in its output array: point t writes back row `tb[t]` of the array it reads as row t, the
  50000 rows tile the output, so the array ends as the gathered rows.
-/
import proofs.«406793_j90890097918585_2_alg».proof.Proof.K.G12
import proofs.«406793_j90890097918585_2_alg».proof.Proof.K.Vals
import Idealize.ShloMosaic.Lib.Pipeline.Value

set_option maxRecDepth 16384

noncomputable section

namespace Cert.Kernel.G12

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre12.Contents (Elt F)) (hO : ok12 (F := F) tb)

/-! ## The two windows' block rows at a point -/

/-- A point of the grid is below 50000. -/
private theorem point_lt (t : Fin (cfgM tb hO).N) : t.val < 50000 := by
  have h : t.val < grid12.N := t.isLt
  rw [N_12] at h
  exact h

/-- The grid has one axis: the coordinate of point t is t. -/
private theorem coords_0 (t : Fin (cfgM tb hO).N) : (grid12.coords t 0).val = t.val := by
  have ht := point_lt tb hO t
  show t.val / grid12.stride 0 % grid12.bound 0 = t.val
  rw [show grid12.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc12_transform_1 (grid12.coords t) 0 = t.val
  unfold cc12_transform_1
  show (BitVec.ofNat 32 (grid12.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid12.N
  · exact Or.inl h
  · have hlt : t.val < grid12.N := t.isLt
    refine Or.inr ⟨by show t.val + 1 < grid12.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc12_transform_0 k12_off1_inb numel1_S1 tb (grid12.coords t) 0 = _
  unfold cc12_transform_0
  dsimp only
  refine congrArg BitVec.toNat (congrArg (tb 0 : S50000.Idx → BitVec 32) ?_)
  funext d
  match d with
  | ⟨0, _⟩ =>
    apply Fin.ext
    show (Scalar.indexCast (BitVec.ofNat 32 (grid12.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k12_pay1 x = x := by
  unfold k12_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v165 (ValueIdx.ix3 (Vals.rowOf ((tb 0 : S50000.Idx → BitVec 32) (ValueIdx.ix1 ⟨t.val, point_lt tb hO t⟩))) (y 1) (y 2)) := by
  show V c main_v165 ((((cfgM tb hO).win 0).blk t).view.emb y) = _
  refine congrArg (V c main_v165) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v165) (tb 0)) := by
  show ((cfgM tb hO).win 1).cut (grid12.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v165) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v166 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid12.N := by rw [N_12]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v165) (tb 0) :=
  (dat V tb hO c).arrAt_eq_of_cover 1 (Vals.gath3Of (V c main_v165) (tb 0)) (fun t _ => flushed_1 V tb hO htb c t)
    (cover_blk_1 tb hO)

end Cert.Kernel.G12

end
-- ==== Proof.K.S13.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S13

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (13 : Fin 33) c = G13.dat (Run.Ve13 m) (Run.tbl13 m) h.ok13 c := rfl

/-- On the one device the table's buffer holds the table. -/
theorem tbl_eq (c : Dev nD) : (fun k => Run.Ve13 m c (pre13.ref k)) = Run.tbl13 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec13 c (Run.Ve13 m c) : sProp 𝕄)
      = iprop(Pipeline.prefHeld (Ix := Unit) (Name := ℕ) (U := UR sig nD τ) (Lvl := ℕ) pre13 c (fun _ => fullShare) (Run.tbl13 m)
          ∗ Pipeline.unscopedRestP (Ix := Unit) (Name := ℕ) (U := UR sig nD τ) (Lvl := ℕ) pre13 spec13 c (Run.Ve13 m c)) := by
  have hs := Pipeline.unscopedRest_split (Ix := Unit) (Name := ℕ) (U := UR sig nD τ) (Lvl := ℕ) (Val := Elt F) (launch13 (F := F)).pre c (Run.Ve13 m c)
  rw [← tbl_eq m c]
  exact hs

/-- After the region each of its arrays holds what the pipeline leaves: the array read as entered, the output at the gathered rows. -/
theorem hF (harr : ∀ c : Dev nD, (G13.dat (Run.Ve13 m) (Run.tbl13 m) h.ok13 c).arrAt 1 (G13.cfgM (Run.tbl13 m) h.ok13).N = Vals.gath3 m 13 c)
    (c : Dev nD) (w : Fin (G13.cfgM (Run.tbl13 m) h.ok13).W) :
    (G13.dat (Run.Ve13 m) (Run.tbl13 m) h.ok13 c).arrAt w (G13.cfgM (Run.tbl13 m) h.ok13).N
      = GenP.V28 m (Vals.outs m) c (Pipeline.arrRef spec13 w) := by
  match w with
  | ⟨0, _⟩ =>
    refine ((G13.dat (Run.Ve13 m) (Run.tbl13 m) h.ok13 c).arrAt_in 0 rfl _).trans ((G13.A_eq (Run.Ve13 m) (Run.tbl13 m) h.ok13 c 0).trans ?_)
    exact (GenP.V28_of m (Vals.outs m) c main_v178 (by decide)).symm
  | ⟨1, _⟩ =>
    refine (harr c).trans ?_
    show Vals.gath3 m 13 c = Function.update (GenP.V27 m (Vals.outs m) c) main_v179 (Vals.outs m 28 main_v179 c) main_v179
    rw [Function.update_self, Vals.outs_13]

/-- and every other buffer what it held at entry. -/
theorem hrest (c : Dev nD) : ∀ b, b ∉ Finset.univ.image (Pipeline.arrRef spec13) →
    (fun b : Ref sig .tc => GenP.V28 m (Vals.outs m) c b) b = Run.Ve13 m c b := fun b hb =>
  GenP.V28_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G13.dat (Run.Ve13 m) (Run.tbl13 m) h.ok13 c).arrAt 1 (G13.cfgM (Run.tbl13 m) h.ok13).N = Vals.gath3 m 13 c) :
    Pipeline.RegionSeg (pcfgs (F := F)) (Run.a m h) (Run.pdats m h) () defs₀ Run.𝒱₀ Run.L Run.lv (13 : Fin 33) where
  win := (launch13 (F := F)).win.to₀
  block_pos := (launch13 (F := F)).block_pos
  stage_whole := (launch13 (F := F)).stage_whole
  K := PEmpty
  osem k := k.elim
  ho := Pipeline.OwnSemFacts.none _
  hbody c := (G13.body_obligation (Run.Ve13 m) (Run.tbl13 m) h.ok13 c).loose
  hwaits := Pipeline.hwaits_of_owed_zero _ _ _ _ Run.L Run.lv (13 : Fin 33) fun _ _ => rfl
  pre c := iprop(StableHlo.held (c : Thread nD τ) (Pipeline.ucRefs τ sig) (GenP.V27 m (Vals.outs m) c) ∗ Run.R c)
  post c := iprop(StableHlo.held (c : Thread nD τ) (Pipeline.ucRefs τ sig) (GenP.V28 m (Vals.outs m) c) ∗ Run.R c)
  X c := iprop(∃ r, prngReg c r)
  Y c := iprop((∃ r, prngReg c r) ∗ Pipeline.prefHeld (Ix := Unit) (Name := ℕ) (U := UR sig nD τ) (Lvl := ℕ) pre13 c (fun _ => fullShare) (Run.tbl13 m))
  Z c := Pipeline.unscopedRestP (Ix := Unit) (Name := ℕ) (U := UR sig nD τ) (Lvl := ℕ) pre13 spec13 c (Run.Ve13 m c)
  hentry c := by
    rw [Pipeline.ownSems0_none]
    have hsplit := Pipeline.arrays_of_unscopedBufs (p := (13 : Fin 33)) (pcfgs (F := F)) (Run.a m h) (Run.pdats m h) (launch13 (F := F)).win (launch13 (F := F)).arr_whole c
      ((Run.pdats m h (13 : Fin 33) c).share_full fun _ => rfl) (Run.Ve13 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (13 : Fin 33) c).Φ 0 = iprop(Pipeline.ΦA spec13 c ∗ Pipeline.prefHeld (Ix := Unit) (Name := ℕ) (U := UR sig nD τ) (Lvl := ℕ) pre13 c (fun _ => fullShare) (Run.tbl13 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (13 : Fin 33) c).Φ (Fin.last _) = iprop(Pipeline.ΦA spec13 c ∗ Pipeline.prefHeld (Ix := Unit) (Name := ℕ) (U := UR sig nD τ) (Lvl := ℕ) pre13 c (fun _ => fullShare) (Run.tbl13 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (13 : Fin 33)) (pcfgs (F := F)) (Run.a m h) (Ix := Unit) (Name := ℕ) (U := UR sig nD τ) (Lvl := ℕ)
      (launch13 (F := F)).win (launch13 (F := F)).arr_whole c (Run.pdats m h) ((Run.pdats m h (13 : Fin 33) c).share_full fun _ => rfl)
      (Run.Ve13 m c) (fun b => GenP.V28 m (Vals.outs m) c b) ((Run.pdats m h (13 : Fin 33) c).arrAt · (G13.cfgM (Run.tbl13 m) h.ok13).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S13

end
-- ==== Proof.K.G13V.lean ====
/-
  What gather region 0 leaves in its output array: point t writes back row `tb[t]` of the array it reads as row t, the
  50000 rows tile the output, so the array ends as the gathered rows.
-/
import proofs.«406793_j90890097918585_2_alg».proof.Proof.K.G13
import proofs.«406793_j90890097918585_2_alg».proof.Proof.K.Vals
import Idealize.ShloMosaic.Lib.Pipeline.Value

set_option maxRecDepth 16384

noncomputable section

namespace Cert.Kernel.G13

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre13.Contents (Elt F)) (hO : ok13 (F := F) tb)

/-! ## The two windows' block rows at a point -/

/-- A point of the grid is below 50000. -/
private theorem point_lt (t : Fin (cfgM tb hO).N) : t.val < 50000 := by
  have h : t.val < grid13.N := t.isLt
  rw [N_13] at h
  exact h

/-- The grid has one axis: the coordinate of point t is t. -/
private theorem coords_0 (t : Fin (cfgM tb hO).N) : (grid13.coords t 0).val = t.val := by
  have ht := point_lt tb hO t
  show t.val / grid13.stride 0 % grid13.bound 0 = t.val
  rw [show grid13.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc13_transform_1 (grid13.coords t) 0 = t.val
  unfold cc13_transform_1
  show (BitVec.ofNat 32 (grid13.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid13.N
  · exact Or.inl h
  · have hlt : t.val < grid13.N := t.isLt
    refine Or.inr ⟨by show t.val + 1 < grid13.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc13_transform_0 k13_off1_inb numel1_S1 tb (grid13.coords t) 0 = _
  unfold cc13_transform_0
  dsimp only
  refine congrArg BitVec.toNat (congrArg (tb 0 : S50000.Idx → BitVec 32) ?_)
  funext d
  match d with
  | ⟨0, _⟩ =>
    apply Fin.ext
    show (Scalar.indexCast (BitVec.ofNat 32 (grid13.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k13_pay1 x = x := by
  unfold k13_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v178 (ValueIdx.ix3 (Vals.rowOf ((tb 0 : S50000.Idx → BitVec 32) (ValueIdx.ix1 ⟨t.val, point_lt tb hO t⟩))) (y 1) (y 2)) := by
  show V c main_v178 ((((cfgM tb hO).win 0).blk t).view.emb y) = _
  refine congrArg (V c main_v178) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v178) (tb 0)) := by
  show ((cfgM tb hO).win 1).cut (grid13.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v178) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v179 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid13.N := by rw [N_13]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v178) (tb 0) :=
  (dat V tb hO c).arrAt_eq_of_cover 1 (Vals.gath3Of (V c main_v178) (tb 0)) (fun t _ => flushed_1 V tb hO htb c t)
    (cover_blk_1 tb hO)

end Cert.Kernel.G13

end
-- ==== Proof.K.S14.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S14

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (14 : Fin 33) c = G14.dat (Run.Ve14 m) (Run.tbl14 m) h.ok14 c := rfl

/-- On the one device the table's buffer holds the table. -/
theorem tbl_eq (c : Dev nD) : (fun k => Run.Ve14 m c (pre14.ref k)) = Run.tbl14 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec14 c (Run.Ve14 m c) : sProp 𝕄)
      = iprop(Pipeline.prefHeld (Ix := Unit) (Name := ℕ) (U := UR sig nD τ) (Lvl := ℕ) pre14 c (fun _ => fullShare) (Run.tbl14 m)
          ∗ Pipeline.unscopedRestP (Ix := Unit) (Name := ℕ) (U := UR sig nD τ) (Lvl := ℕ) pre14 spec14 c (Run.Ve14 m c)) := by
  have hs := Pipeline.unscopedRest_split (Ix := Unit) (Name := ℕ) (U := UR sig nD τ) (Lvl := ℕ) (Val := Elt F) (launch14 (F := F)).pre c (Run.Ve14 m c)
  rw [← tbl_eq m c]
  exact hs

/-- After the region each of its arrays holds what the pipeline leaves: the array read as entered, the output at the gathered rows. -/
theorem hF (harr : ∀ c : Dev nD, (G14.dat (Run.Ve14 m) (Run.tbl14 m) h.ok14 c).arrAt 1 (G14.cfgM (Run.tbl14 m) h.ok14).N = Vals.gath3 m 14 c)
    (c : Dev nD) (w : Fin (G14.cfgM (Run.tbl14 m) h.ok14).W) :
    (G14.dat (Run.Ve14 m) (Run.tbl14 m) h.ok14 c).arrAt w (G14.cfgM (Run.tbl14 m) h.ok14).N
      = GenP.V30 m (Vals.outs m) c (Pipeline.arrRef spec14 w) := by
  match w with
  | ⟨0, _⟩ =>
    refine ((G14.dat (Run.Ve14 m) (Run.tbl14 m) h.ok14 c).arrAt_in 0 rfl _).trans ((G14.A_eq (Run.Ve14 m) (Run.tbl14 m) h.ok14 c 0).trans ?_)
    exact (GenP.V30_of m (Vals.outs m) c main_v191 (by decide)).symm
  | ⟨1, _⟩ =>
    refine (harr c).trans ?_
    show Vals.gath3 m 14 c = Function.update (GenP.V29 m (Vals.outs m) c) main_v192 (Vals.outs m 30 main_v192 c) main_v192
    rw [Function.update_self, Vals.outs_14]

/-- and every other buffer what it held at entry. -/
theorem hrest (c : Dev nD) : ∀ b, b ∉ Finset.univ.image (Pipeline.arrRef spec14) →
    (fun b : Ref sig .tc => GenP.V30 m (Vals.outs m) c b) b = Run.Ve14 m c b := fun b hb =>
  GenP.V30_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G14.dat (Run.Ve14 m) (Run.tbl14 m) h.ok14 c).arrAt 1 (G14.cfgM (Run.tbl14 m) h.ok14).N = Vals.gath3 m 14 c) :
    Pipeline.RegionSeg (pcfgs (F := F)) (Run.a m h) (Run.pdats m h) () defs₀ Run.𝒱₀ Run.L Run.lv (14 : Fin 33) where
  win := (launch14 (F := F)).win.to₀
  block_pos := (launch14 (F := F)).block_pos
  stage_whole := (launch14 (F := F)).stage_whole
  K := PEmpty
  osem k := k.elim
  ho := Pipeline.OwnSemFacts.none _
  hbody c := (G14.body_obligation (Run.Ve14 m) (Run.tbl14 m) h.ok14 c).loose
  hwaits := Pipeline.hwaits_of_owed_zero _ _ _ _ Run.L Run.lv (14 : Fin 33) fun _ _ => rfl
  pre c := iprop(StableHlo.held (c : Thread nD τ) (Pipeline.ucRefs τ sig) (GenP.V29 m (Vals.outs m) c) ∗ Run.R c)
  post c := iprop(StableHlo.held (c : Thread nD τ) (Pipeline.ucRefs τ sig) (GenP.V30 m (Vals.outs m) c) ∗ Run.R c)
  X c := iprop(∃ r, prngReg c r)
  Y c := iprop((∃ r, prngReg c r) ∗ Pipeline.prefHeld (Ix := Unit) (Name := ℕ) (U := UR sig nD τ) (Lvl := ℕ) pre14 c (fun _ => fullShare) (Run.tbl14 m))
  Z c := Pipeline.unscopedRestP (Ix := Unit) (Name := ℕ) (U := UR sig nD τ) (Lvl := ℕ) pre14 spec14 c (Run.Ve14 m c)
  hentry c := by
    rw [Pipeline.ownSems0_none]
    have hsplit := Pipeline.arrays_of_unscopedBufs (p := (14 : Fin 33)) (pcfgs (F := F)) (Run.a m h) (Run.pdats m h) (launch14 (F := F)).win (launch14 (F := F)).arr_whole c
      ((Run.pdats m h (14 : Fin 33) c).share_full fun _ => rfl) (Run.Ve14 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (14 : Fin 33) c).Φ 0 = iprop(Pipeline.ΦA spec14 c ∗ Pipeline.prefHeld (Ix := Unit) (Name := ℕ) (U := UR sig nD τ) (Lvl := ℕ) pre14 c (fun _ => fullShare) (Run.tbl14 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (14 : Fin 33) c).Φ (Fin.last _) = iprop(Pipeline.ΦA spec14 c ∗ Pipeline.prefHeld (Ix := Unit) (Name := ℕ) (U := UR sig nD τ) (Lvl := ℕ) pre14 c (fun _ => fullShare) (Run.tbl14 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (14 : Fin 33)) (pcfgs (F := F)) (Run.a m h) (Ix := Unit) (Name := ℕ) (U := UR sig nD τ) (Lvl := ℕ)
      (launch14 (F := F)).win (launch14 (F := F)).arr_whole c (Run.pdats m h) ((Run.pdats m h (14 : Fin 33) c).share_full fun _ => rfl)
      (Run.Ve14 m c) (fun b => GenP.V30 m (Vals.outs m) c b) ((Run.pdats m h (14 : Fin 33) c).arrAt · (G14.cfgM (Run.tbl14 m) h.ok14).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S14

end
-- ==== Proof.K.G14V.lean ====
/-
  What gather region 0 leaves in its output array: point t writes back row `tb[t]` of the array it reads as row t, the
  50000 rows tile the output, so the array ends as the gathered rows.
-/
import proofs.«406793_j90890097918585_2_alg».proof.Proof.K.G14
import proofs.«406793_j90890097918585_2_alg».proof.Proof.K.Vals
import Idealize.ShloMosaic.Lib.Pipeline.Value

set_option maxRecDepth 16384

noncomputable section

namespace Cert.Kernel.G14

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre14.Contents (Elt F)) (hO : ok14 (F := F) tb)

/-! ## The two windows' block rows at a point -/

/-- A point of the grid is below 50000. -/
private theorem point_lt (t : Fin (cfgM tb hO).N) : t.val < 50000 := by
  have h : t.val < grid14.N := t.isLt
  rw [N_14] at h
  exact h

/-- The grid has one axis: the coordinate of point t is t. -/
private theorem coords_0 (t : Fin (cfgM tb hO).N) : (grid14.coords t 0).val = t.val := by
  have ht := point_lt tb hO t
  show t.val / grid14.stride 0 % grid14.bound 0 = t.val
  rw [show grid14.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc14_transform_1 (grid14.coords t) 0 = t.val
  unfold cc14_transform_1
  show (BitVec.ofNat 32 (grid14.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid14.N
  · exact Or.inl h
  · have hlt : t.val < grid14.N := t.isLt
    refine Or.inr ⟨by show t.val + 1 < grid14.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc14_transform_0 k14_off1_inb numel1_S1 tb (grid14.coords t) 0 = _
  unfold cc14_transform_0
  dsimp only
  refine congrArg BitVec.toNat (congrArg (tb 0 : S50000.Idx → BitVec 32) ?_)
  funext d
  match d with
  | ⟨0, _⟩ =>
    apply Fin.ext
    show (Scalar.indexCast (BitVec.ofNat 32 (grid14.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k14_pay1 x = x := by
  unfold k14_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v191 (ValueIdx.ix3 (Vals.rowOf ((tb 0 : S50000.Idx → BitVec 32) (ValueIdx.ix1 ⟨t.val, point_lt tb hO t⟩))) (y 1) (y 2)) := by
  show V c main_v191 ((((cfgM tb hO).win 0).blk t).view.emb y) = _
  refine congrArg (V c main_v191) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v191) (tb 0)) := by
  show ((cfgM tb hO).win 1).cut (grid14.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v191) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v192 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid14.N := by rw [N_14]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v191) (tb 0) :=
  (dat V tb hO c).arrAt_eq_of_cover 1 (Vals.gath3Of (V c main_v191) (tb 0)) (fun t _ => flushed_1 V tb hO htb c t)
    (cover_blk_1 tb hO)

end Cert.Kernel.G14

end
-- ==== Proof.K.S15.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S15

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (15 : Fin 33) c = G15.dat (Run.Ve15 m) (Run.tbl15 m) h.ok15 c := rfl

/-- On the one device the table's buffer holds the table. -/
theorem tbl_eq (c : Dev nD) : (fun k => Run.Ve15 m c (pre15.ref k)) = Run.tbl15 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec15 c (Run.Ve15 m c) : sProp 𝕄)
      = iprop(Pipeline.prefHeld (Ix := Unit) (Name := ℕ) (U := UR sig nD τ) (Lvl := ℕ) pre15 c (fun _ => fullShare) (Run.tbl15 m)
          ∗ Pipeline.unscopedRestP (Ix := Unit) (Name := ℕ) (U := UR sig nD τ) (Lvl := ℕ) pre15 spec15 c (Run.Ve15 m c)) := by
  have hs := Pipeline.unscopedRest_split (Ix := Unit) (Name := ℕ) (U := UR sig nD τ) (Lvl := ℕ) (Val := Elt F) (launch15 (F := F)).pre c (Run.Ve15 m c)
  rw [← tbl_eq m c]
  exact hs

/-- After the region each of its arrays holds what the pipeline leaves: the array read as entered, the output at the gathered rows. -/
theorem hF (harr : ∀ c : Dev nD, (G15.dat (Run.Ve15 m) (Run.tbl15 m) h.ok15 c).arrAt 1 (G15.cfgM (Run.tbl15 m) h.ok15).N = Vals.gath3 m 15 c)
    (c : Dev nD) (w : Fin (G15.cfgM (Run.tbl15 m) h.ok15).W) :
    (G15.dat (Run.Ve15 m) (Run.tbl15 m) h.ok15 c).arrAt w (G15.cfgM (Run.tbl15 m) h.ok15).N
      = GenP.V32 m (Vals.outs m) c (Pipeline.arrRef spec15 w) := by
  match w with
  | ⟨0, _⟩ =>
    refine ((G15.dat (Run.Ve15 m) (Run.tbl15 m) h.ok15 c).arrAt_in 0 rfl _).trans ((G15.A_eq (Run.Ve15 m) (Run.tbl15 m) h.ok15 c 0).trans ?_)
    exact (GenP.V32_of m (Vals.outs m) c main_v204 (by decide)).symm
  | ⟨1, _⟩ =>
    refine (harr c).trans ?_
    show Vals.gath3 m 15 c = Function.update (GenP.V31 m (Vals.outs m) c) main_v205 (Vals.outs m 32 main_v205 c) main_v205
    rw [Function.update_self, Vals.outs_15]

/-- and every other buffer what it held at entry. -/
theorem hrest (c : Dev nD) : ∀ b, b ∉ Finset.univ.image (Pipeline.arrRef spec15) →
    (fun b : Ref sig .tc => GenP.V32 m (Vals.outs m) c b) b = Run.Ve15 m c b := fun b hb =>
  GenP.V32_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G15.dat (Run.Ve15 m) (Run.tbl15 m) h.ok15 c).arrAt 1 (G15.cfgM (Run.tbl15 m) h.ok15).N = Vals.gath3 m 15 c) :
    Pipeline.RegionSeg (pcfgs (F := F)) (Run.a m h) (Run.pdats m h) () defs₀ Run.𝒱₀ Run.L Run.lv (15 : Fin 33) where
  win := (launch15 (F := F)).win.to₀
  block_pos := (launch15 (F := F)).block_pos
  stage_whole := (launch15 (F := F)).stage_whole
  K := PEmpty
  osem k := k.elim
  ho := Pipeline.OwnSemFacts.none _
  hbody c := (G15.body_obligation (Run.Ve15 m) (Run.tbl15 m) h.ok15 c).loose
  hwaits := Pipeline.hwaits_of_owed_zero _ _ _ _ Run.L Run.lv (15 : Fin 33) fun _ _ => rfl
  pre c := iprop(StableHlo.held (c : Thread nD τ) (Pipeline.ucRefs τ sig) (GenP.V31 m (Vals.outs m) c) ∗ Run.R c)
  post c := iprop(StableHlo.held (c : Thread nD τ) (Pipeline.ucRefs τ sig) (GenP.V32 m (Vals.outs m) c) ∗ Run.R c)
  X c := iprop(∃ r, prngReg c r)
  Y c := iprop((∃ r, prngReg c r) ∗ Pipeline.prefHeld (Ix := Unit) (Name := ℕ) (U := UR sig nD τ) (Lvl := ℕ) pre15 c (fun _ => fullShare) (Run.tbl15 m))
  Z c := Pipeline.unscopedRestP (Ix := Unit) (Name := ℕ) (U := UR sig nD τ) (Lvl := ℕ) pre15 spec15 c (Run.Ve15 m c)
  hentry c := by
    rw [Pipeline.ownSems0_none]
    have hsplit := Pipeline.arrays_of_unscopedBufs (p := (15 : Fin 33)) (pcfgs (F := F)) (Run.a m h) (Run.pdats m h) (launch15 (F := F)).win (launch15 (F := F)).arr_whole c
      ((Run.pdats m h (15 : Fin 33) c).share_full fun _ => rfl) (Run.Ve15 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (15 : Fin 33) c).Φ 0 = iprop(Pipeline.ΦA spec15 c ∗ Pipeline.prefHeld (Ix := Unit) (Name := ℕ) (U := UR sig nD τ) (Lvl := ℕ) pre15 c (fun _ => fullShare) (Run.tbl15 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (15 : Fin 33) c).Φ (Fin.last _) = iprop(Pipeline.ΦA spec15 c ∗ Pipeline.prefHeld (Ix := Unit) (Name := ℕ) (U := UR sig nD τ) (Lvl := ℕ) pre15 c (fun _ => fullShare) (Run.tbl15 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (15 : Fin 33)) (pcfgs (F := F)) (Run.a m h) (Ix := Unit) (Name := ℕ) (U := UR sig nD τ) (Lvl := ℕ)
      (launch15 (F := F)).win (launch15 (F := F)).arr_whole c (Run.pdats m h) ((Run.pdats m h (15 : Fin 33) c).share_full fun _ => rfl)
      (Run.Ve15 m c) (fun b => GenP.V32 m (Vals.outs m) c b) ((Run.pdats m h (15 : Fin 33) c).arrAt · (G15.cfgM (Run.tbl15 m) h.ok15).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S15

end
-- ==== Proof.K.G15V.lean ====
/-
  What gather region 0 leaves in its output array: point t writes back row `tb[t]` of the array it reads as row t, the
  50000 rows tile the output, so the array ends as the gathered rows.
-/
import proofs.«406793_j90890097918585_2_alg».proof.Proof.K.G15
import proofs.«406793_j90890097918585_2_alg».proof.Proof.K.Vals
import Idealize.ShloMosaic.Lib.Pipeline.Value

set_option maxRecDepth 16384

noncomputable section

namespace Cert.Kernel.G15

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre15.Contents (Elt F)) (hO : ok15 (F := F) tb)

/-! ## The two windows' block rows at a point -/

/-- A point of the grid is below 50000. -/
private theorem point_lt (t : Fin (cfgM tb hO).N) : t.val < 50000 := by
  have h : t.val < grid15.N := t.isLt
  rw [N_15] at h
  exact h

/-- The grid has one axis: the coordinate of point t is t. -/
private theorem coords_0 (t : Fin (cfgM tb hO).N) : (grid15.coords t 0).val = t.val := by
  have ht := point_lt tb hO t
  show t.val / grid15.stride 0 % grid15.bound 0 = t.val
  rw [show grid15.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc15_transform_1 (grid15.coords t) 0 = t.val
  unfold cc15_transform_1
  show (BitVec.ofNat 32 (grid15.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid15.N
  · exact Or.inl h
  · have hlt : t.val < grid15.N := t.isLt
    refine Or.inr ⟨by show t.val + 1 < grid15.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc15_transform_0 k15_off1_inb numel1_S1 tb (grid15.coords t) 0 = _
  unfold cc15_transform_0
  dsimp only
  refine congrArg BitVec.toNat (congrArg (tb 0 : S50000.Idx → BitVec 32) ?_)
  funext d
  match d with
  | ⟨0, _⟩ =>
    apply Fin.ext
    show (Scalar.indexCast (BitVec.ofNat 32 (grid15.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k15_pay1 x = x := by
  unfold k15_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v204 (ValueIdx.ix3 (Vals.rowOf ((tb 0 : S50000.Idx → BitVec 32) (ValueIdx.ix1 ⟨t.val, point_lt tb hO t⟩))) (y 1) (y 2)) := by
  show V c main_v204 ((((cfgM tb hO).win 0).blk t).view.emb y) = _
  refine congrArg (V c main_v204) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v204) (tb 0)) := by
  show ((cfgM tb hO).win 1).cut (grid15.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v204) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v205 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid15.N := by rw [N_15]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v204) (tb 0) :=
  (dat V tb hO c).arrAt_eq_of_cover 1 (Vals.gath3Of (V c main_v204) (tb 0)) (fun t _ => flushed_1 V tb hO htb c t)
    (cover_blk_1 tb hO)

end Cert.Kernel.G15

end
-- ==== Proof.K.S16.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S16

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (16 : Fin 33) c = G16.dat (Run.Ve16 m) (Run.tbl16 m) h.ok16 c := rfl

/-- On the one device the table's buffer holds the table. -/
theorem tbl_eq (c : Dev nD) : (fun k => Run.Ve16 m c (pre16.ref k)) = Run.tbl16 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec16 c (Run.Ve16 m c) : sProp 𝕄)
      = iprop(Pipeline.prefHeld (Ix := Unit) (Name := ℕ) (U := UR sig nD τ) (Lvl := ℕ) pre16 c (fun _ => fullShare) (Run.tbl16 m)
          ∗ Pipeline.unscopedRestP (Ix := Unit) (Name := ℕ) (U := UR sig nD τ) (Lvl := ℕ) pre16 spec16 c (Run.Ve16 m c)) := by
  have hs := Pipeline.unscopedRest_split (Ix := Unit) (Name := ℕ) (U := UR sig nD τ) (Lvl := ℕ) (Val := Elt F) (launch16 (F := F)).pre c (Run.Ve16 m c)
  rw [← tbl_eq m c]
  exact hs

/-- After the region each of its arrays holds what the pipeline leaves: the array read as entered, the output at the gathered rows. -/
theorem hF (harr : ∀ c : Dev nD, (G16.dat (Run.Ve16 m) (Run.tbl16 m) h.ok16 c).arrAt 1 (G16.cfgM (Run.tbl16 m) h.ok16).N = Vals.gath3 m 16 c)
    (c : Dev nD) (w : Fin (G16.cfgM (Run.tbl16 m) h.ok16).W) :
    (G16.dat (Run.Ve16 m) (Run.tbl16 m) h.ok16 c).arrAt w (G16.cfgM (Run.tbl16 m) h.ok16).N
      = GenP.V34 m (Vals.outs m) c (Pipeline.arrRef spec16 w) := by
  match w with
  | ⟨0, _⟩ =>
    refine ((G16.dat (Run.Ve16 m) (Run.tbl16 m) h.ok16 c).arrAt_in 0 rfl _).trans ((G16.A_eq (Run.Ve16 m) (Run.tbl16 m) h.ok16 c 0).trans ?_)
    exact (GenP.V34_of m (Vals.outs m) c main_v217 (by decide)).symm
  | ⟨1, _⟩ =>
    refine (harr c).trans ?_
    show Vals.gath3 m 16 c = Function.update (GenP.V33 m (Vals.outs m) c) main_v218 (Vals.outs m 34 main_v218 c) main_v218
    rw [Function.update_self, Vals.outs_16]

/-- and every other buffer what it held at entry. -/
theorem hrest (c : Dev nD) : ∀ b, b ∉ Finset.univ.image (Pipeline.arrRef spec16) →
    (fun b : Ref sig .tc => GenP.V34 m (Vals.outs m) c b) b = Run.Ve16 m c b := fun b hb =>
  GenP.V34_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G16.dat (Run.Ve16 m) (Run.tbl16 m) h.ok16 c).arrAt 1 (G16.cfgM (Run.tbl16 m) h.ok16).N = Vals.gath3 m 16 c) :
    Pipeline.RegionSeg (pcfgs (F := F)) (Run.a m h) (Run.pdats m h) () defs₀ Run.𝒱₀ Run.L Run.lv (16 : Fin 33) where
  win := (launch16 (F := F)).win.to₀
  block_pos := (launch16 (F := F)).block_pos
  stage_whole := (launch16 (F := F)).stage_whole
  K := PEmpty
  osem k := k.elim
  ho := Pipeline.OwnSemFacts.none _
  hbody c := (G16.body_obligation (Run.Ve16 m) (Run.tbl16 m) h.ok16 c).loose
  hwaits := Pipeline.hwaits_of_owed_zero _ _ _ _ Run.L Run.lv (16 : Fin 33) fun _ _ => rfl
  pre c := iprop(StableHlo.held (c : Thread nD τ) (Pipeline.ucRefs τ sig) (GenP.V33 m (Vals.outs m) c) ∗ Run.R c)
  post c := iprop(StableHlo.held (c : Thread nD τ) (Pipeline.ucRefs τ sig) (GenP.V34 m (Vals.outs m) c) ∗ Run.R c)
  X c := iprop(∃ r, prngReg c r)
  Y c := iprop((∃ r, prngReg c r) ∗ Pipeline.prefHeld (Ix := Unit) (Name := ℕ) (U := UR sig nD τ) (Lvl := ℕ) pre16 c (fun _ => fullShare) (Run.tbl16 m))
  Z c := Pipeline.unscopedRestP (Ix := Unit) (Name := ℕ) (U := UR sig nD τ) (Lvl := ℕ) pre16 spec16 c (Run.Ve16 m c)
  hentry c := by
    rw [Pipeline.ownSems0_none]
    have hsplit := Pipeline.arrays_of_unscopedBufs (p := (16 : Fin 33)) (pcfgs (F := F)) (Run.a m h) (Run.pdats m h) (launch16 (F := F)).win (launch16 (F := F)).arr_whole c
      ((Run.pdats m h (16 : Fin 33) c).share_full fun _ => rfl) (Run.Ve16 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (16 : Fin 33) c).Φ 0 = iprop(Pipeline.ΦA spec16 c ∗ Pipeline.prefHeld (Ix := Unit) (Name := ℕ) (U := UR sig nD τ) (Lvl := ℕ) pre16 c (fun _ => fullShare) (Run.tbl16 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (16 : Fin 33) c).Φ (Fin.last _) = iprop(Pipeline.ΦA spec16 c ∗ Pipeline.prefHeld (Ix := Unit) (Name := ℕ) (U := UR sig nD τ) (Lvl := ℕ) pre16 c (fun _ => fullShare) (Run.tbl16 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (16 : Fin 33)) (pcfgs (F := F)) (Run.a m h) (Ix := Unit) (Name := ℕ) (U := UR sig nD τ) (Lvl := ℕ)
      (launch16 (F := F)).win (launch16 (F := F)).arr_whole c (Run.pdats m h) ((Run.pdats m h (16 : Fin 33) c).share_full fun _ => rfl)
      (Run.Ve16 m c) (fun b => GenP.V34 m (Vals.outs m) c b) ((Run.pdats m h (16 : Fin 33) c).arrAt · (G16.cfgM (Run.tbl16 m) h.ok16).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S16

end
-- ==== Proof.K.G16V.lean ====
/-
  What gather region 0 leaves in its output array: point t writes back row `tb[t]` of the array it reads as row t, the
  50000 rows tile the output, so the array ends as the gathered rows.
-/
import proofs.«406793_j90890097918585_2_alg».proof.Proof.K.G16
import proofs.«406793_j90890097918585_2_alg».proof.Proof.K.Vals
import Idealize.ShloMosaic.Lib.Pipeline.Value

set_option maxRecDepth 16384

noncomputable section

namespace Cert.Kernel.G16

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre16.Contents (Elt F)) (hO : ok16 (F := F) tb)

/-! ## The two windows' block rows at a point -/

/-- A point of the grid is below 50000. -/
private theorem point_lt (t : Fin (cfgM tb hO).N) : t.val < 50000 := by
  have h : t.val < grid16.N := t.isLt
  rw [N_16] at h
  exact h

/-- The grid has one axis: the coordinate of point t is t. -/
private theorem coords_0 (t : Fin (cfgM tb hO).N) : (grid16.coords t 0).val = t.val := by
  have ht := point_lt tb hO t
  show t.val / grid16.stride 0 % grid16.bound 0 = t.val
  rw [show grid16.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc16_transform_1 (grid16.coords t) 0 = t.val
  unfold cc16_transform_1
  show (BitVec.ofNat 32 (grid16.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid16.N
  · exact Or.inl h
  · have hlt : t.val < grid16.N := t.isLt
    refine Or.inr ⟨by show t.val + 1 < grid16.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc16_transform_0 k16_off1_inb numel1_S1 tb (grid16.coords t) 0 = _
  unfold cc16_transform_0
  dsimp only
  refine congrArg BitVec.toNat (congrArg (tb 0 : S50000.Idx → BitVec 32) ?_)
  funext d
  match d with
  | ⟨0, _⟩ =>
    apply Fin.ext
    show (Scalar.indexCast (BitVec.ofNat 32 (grid16.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k16_pay1 x = x := by
  unfold k16_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v217 (ValueIdx.ix3 (Vals.rowOf ((tb 0 : S50000.Idx → BitVec 32) (ValueIdx.ix1 ⟨t.val, point_lt tb hO t⟩))) (y 1) (y 2)) := by
  show V c main_v217 ((((cfgM tb hO).win 0).blk t).view.emb y) = _
  refine congrArg (V c main_v217) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v217) (tb 0)) := by
  show ((cfgM tb hO).win 1).cut (grid16.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v217) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v218 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid16.N := by rw [N_16]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v217) (tb 0) :=
  (dat V tb hO c).arrAt_eq_of_cover 1 (Vals.gath3Of (V c main_v217) (tb 0)) (fun t _ => flushed_1 V tb hO htb c t)
    (cover_blk_1 tb hO)

end Cert.Kernel.G16

end
-- ==== Proof.K.S17.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S17

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (17 : Fin 33) c = G17.dat (Run.Ve17 m) (Run.tbl17 m) h.ok17 c := rfl

/-- On the one device the table's buffer holds the table. -/
theorem tbl_eq (c : Dev nD) : (fun k => Run.Ve17 m c (pre17.ref k)) = Run.tbl17 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec17 c (Run.Ve17 m c) : sProp 𝕄)
      = iprop(Pipeline.prefHeld (Ix := Unit) (Name := ℕ) (U := UR sig nD τ) (Lvl := ℕ) pre17 c (fun _ => fullShare) (Run.tbl17 m)
          ∗ Pipeline.unscopedRestP (Ix := Unit) (Name := ℕ) (U := UR sig nD τ) (Lvl := ℕ) pre17 spec17 c (Run.Ve17 m c)) := by
  have hs := Pipeline.unscopedRest_split (Ix := Unit) (Name := ℕ) (U := UR sig nD τ) (Lvl := ℕ) (Val := Elt F) (launch17 (F := F)).pre c (Run.Ve17 m c)
  rw [← tbl_eq m c]
  exact hs

/-- After the region each of its arrays holds what the pipeline leaves: the array read as entered, the output at the gathered rows. -/
theorem hF (harr : ∀ c : Dev nD, (G17.dat (Run.Ve17 m) (Run.tbl17 m) h.ok17 c).arrAt 1 (G17.cfgM (Run.tbl17 m) h.ok17).N = Vals.gath3 m 17 c)
    (c : Dev nD) (w : Fin (G17.cfgM (Run.tbl17 m) h.ok17).W) :
    (G17.dat (Run.Ve17 m) (Run.tbl17 m) h.ok17 c).arrAt w (G17.cfgM (Run.tbl17 m) h.ok17).N
      = GenP.V36 m (Vals.outs m) c (Pipeline.arrRef spec17 w) := by
  match w with
  | ⟨0, _⟩ =>
    refine ((G17.dat (Run.Ve17 m) (Run.tbl17 m) h.ok17 c).arrAt_in 0 rfl _).trans ((G17.A_eq (Run.Ve17 m) (Run.tbl17 m) h.ok17 c 0).trans ?_)
    exact (GenP.V36_of m (Vals.outs m) c main_v230 (by decide)).symm
  | ⟨1, _⟩ =>
    refine (harr c).trans ?_
    show Vals.gath3 m 17 c = Function.update (GenP.V35 m (Vals.outs m) c) main_v231 (Vals.outs m 36 main_v231 c) main_v231
    rw [Function.update_self, Vals.outs_17]

/-- and every other buffer what it held at entry. -/
theorem hrest (c : Dev nD) : ∀ b, b ∉ Finset.univ.image (Pipeline.arrRef spec17) →
    (fun b : Ref sig .tc => GenP.V36 m (Vals.outs m) c b) b = Run.Ve17 m c b := fun b hb =>
  GenP.V36_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G17.dat (Run.Ve17 m) (Run.tbl17 m) h.ok17 c).arrAt 1 (G17.cfgM (Run.tbl17 m) h.ok17).N = Vals.gath3 m 17 c) :
    Pipeline.RegionSeg (pcfgs (F := F)) (Run.a m h) (Run.pdats m h) () defs₀ Run.𝒱₀ Run.L Run.lv (17 : Fin 33) where
  win := (launch17 (F := F)).win.to₀
  block_pos := (launch17 (F := F)).block_pos
  stage_whole := (launch17 (F := F)).stage_whole
  K := PEmpty
  osem k := k.elim
  ho := Pipeline.OwnSemFacts.none _
  hbody c := (G17.body_obligation (Run.Ve17 m) (Run.tbl17 m) h.ok17 c).loose
  hwaits := Pipeline.hwaits_of_owed_zero _ _ _ _ Run.L Run.lv (17 : Fin 33) fun _ _ => rfl
  pre c := iprop(StableHlo.held (c : Thread nD τ) (Pipeline.ucRefs τ sig) (GenP.V35 m (Vals.outs m) c) ∗ Run.R c)
  post c := iprop(StableHlo.held (c : Thread nD τ) (Pipeline.ucRefs τ sig) (GenP.V36 m (Vals.outs m) c) ∗ Run.R c)
  X c := iprop(∃ r, prngReg c r)
  Y c := iprop((∃ r, prngReg c r) ∗ Pipeline.prefHeld (Ix := Unit) (Name := ℕ) (U := UR sig nD τ) (Lvl := ℕ) pre17 c (fun _ => fullShare) (Run.tbl17 m))
  Z c := Pipeline.unscopedRestP (Ix := Unit) (Name := ℕ) (U := UR sig nD τ) (Lvl := ℕ) pre17 spec17 c (Run.Ve17 m c)
  hentry c := by
    rw [Pipeline.ownSems0_none]
    have hsplit := Pipeline.arrays_of_unscopedBufs (p := (17 : Fin 33)) (pcfgs (F := F)) (Run.a m h) (Run.pdats m h) (launch17 (F := F)).win (launch17 (F := F)).arr_whole c
      ((Run.pdats m h (17 : Fin 33) c).share_full fun _ => rfl) (Run.Ve17 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (17 : Fin 33) c).Φ 0 = iprop(Pipeline.ΦA spec17 c ∗ Pipeline.prefHeld (Ix := Unit) (Name := ℕ) (U := UR sig nD τ) (Lvl := ℕ) pre17 c (fun _ => fullShare) (Run.tbl17 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (17 : Fin 33) c).Φ (Fin.last _) = iprop(Pipeline.ΦA spec17 c ∗ Pipeline.prefHeld (Ix := Unit) (Name := ℕ) (U := UR sig nD τ) (Lvl := ℕ) pre17 c (fun _ => fullShare) (Run.tbl17 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (17 : Fin 33)) (pcfgs (F := F)) (Run.a m h) (Ix := Unit) (Name := ℕ) (U := UR sig nD τ) (Lvl := ℕ)
      (launch17 (F := F)).win (launch17 (F := F)).arr_whole c (Run.pdats m h) ((Run.pdats m h (17 : Fin 33) c).share_full fun _ => rfl)
      (Run.Ve17 m c) (fun b => GenP.V36 m (Vals.outs m) c b) ((Run.pdats m h (17 : Fin 33) c).arrAt · (G17.cfgM (Run.tbl17 m) h.ok17).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S17

end
-- ==== Proof.K.G17V.lean ====
/-
  What gather region 0 leaves in its output array: point t writes back row `tb[t]` of the array it reads as row t, the
  50000 rows tile the output, so the array ends as the gathered rows.
-/
import proofs.«406793_j90890097918585_2_alg».proof.Proof.K.G17
import proofs.«406793_j90890097918585_2_alg».proof.Proof.K.Vals
import Idealize.ShloMosaic.Lib.Pipeline.Value

set_option maxRecDepth 16384

noncomputable section

namespace Cert.Kernel.G17

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre17.Contents (Elt F)) (hO : ok17 (F := F) tb)

/-! ## The two windows' block rows at a point -/

/-- A point of the grid is below 50000. -/
private theorem point_lt (t : Fin (cfgM tb hO).N) : t.val < 50000 := by
  have h : t.val < grid17.N := t.isLt
  rw [N_17] at h
  exact h

/-- The grid has one axis: the coordinate of point t is t. -/
private theorem coords_0 (t : Fin (cfgM tb hO).N) : (grid17.coords t 0).val = t.val := by
  have ht := point_lt tb hO t
  show t.val / grid17.stride 0 % grid17.bound 0 = t.val
  rw [show grid17.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc17_transform_1 (grid17.coords t) 0 = t.val
  unfold cc17_transform_1
  show (BitVec.ofNat 32 (grid17.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid17.N
  · exact Or.inl h
  · have hlt : t.val < grid17.N := t.isLt
    refine Or.inr ⟨by show t.val + 1 < grid17.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc17_transform_0 k17_off1_inb numel1_S1 tb (grid17.coords t) 0 = _
  unfold cc17_transform_0
  dsimp only
  refine congrArg BitVec.toNat (congrArg (tb 0 : S50000.Idx → BitVec 32) ?_)
  funext d
  match d with
  | ⟨0, _⟩ =>
    apply Fin.ext
    show (Scalar.indexCast (BitVec.ofNat 32 (grid17.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k17_pay1 x = x := by
  unfold k17_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v230 (ValueIdx.ix3 (Vals.rowOf ((tb 0 : S50000.Idx → BitVec 32) (ValueIdx.ix1 ⟨t.val, point_lt tb hO t⟩))) (y 1) (y 2)) := by
  show V c main_v230 ((((cfgM tb hO).win 0).blk t).view.emb y) = _
  refine congrArg (V c main_v230) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v230) (tb 0)) := by
  show ((cfgM tb hO).win 1).cut (grid17.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v230) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v231 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid17.N := by rw [N_17]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v230) (tb 0) :=
  (dat V tb hO c).arrAt_eq_of_cover 1 (Vals.gath3Of (V c main_v230) (tb 0)) (fun t _ => flushed_1 V tb hO htb c t)
    (cover_blk_1 tb hO)

end Cert.Kernel.G17

end
-- ==== Proof.K.S18.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S18

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (18 : Fin 33) c = G18.dat (Run.Ve18 m) (Run.tbl18 m) h.ok18 c := rfl

/-- On the one device the table's buffer holds the table. -/
theorem tbl_eq (c : Dev nD) : (fun k => Run.Ve18 m c (pre18.ref k)) = Run.tbl18 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec18 c (Run.Ve18 m c) : sProp 𝕄)
      = iprop(Pipeline.prefHeld (Ix := Unit) (Name := ℕ) (U := UR sig nD τ) (Lvl := ℕ) pre18 c (fun _ => fullShare) (Run.tbl18 m)
          ∗ Pipeline.unscopedRestP (Ix := Unit) (Name := ℕ) (U := UR sig nD τ) (Lvl := ℕ) pre18 spec18 c (Run.Ve18 m c)) := by
  have hs := Pipeline.unscopedRest_split (Ix := Unit) (Name := ℕ) (U := UR sig nD τ) (Lvl := ℕ) (Val := Elt F) (launch18 (F := F)).pre c (Run.Ve18 m c)
  rw [← tbl_eq m c]
  exact hs

/-- After the region each of its arrays holds what the pipeline leaves: the array read as entered, the output at the gathered rows. -/
theorem hF (harr : ∀ c : Dev nD, (G18.dat (Run.Ve18 m) (Run.tbl18 m) h.ok18 c).arrAt 1 (G18.cfgM (Run.tbl18 m) h.ok18).N = Vals.gath3 m 18 c)
    (c : Dev nD) (w : Fin (G18.cfgM (Run.tbl18 m) h.ok18).W) :
    (G18.dat (Run.Ve18 m) (Run.tbl18 m) h.ok18 c).arrAt w (G18.cfgM (Run.tbl18 m) h.ok18).N
      = GenP.V38 m (Vals.outs m) c (Pipeline.arrRef spec18 w) := by
  match w with
  | ⟨0, _⟩ =>
    refine ((G18.dat (Run.Ve18 m) (Run.tbl18 m) h.ok18 c).arrAt_in 0 rfl _).trans ((G18.A_eq (Run.Ve18 m) (Run.tbl18 m) h.ok18 c 0).trans ?_)
    exact (GenP.V38_of m (Vals.outs m) c main_v243 (by decide)).symm
  | ⟨1, _⟩ =>
    refine (harr c).trans ?_
    show Vals.gath3 m 18 c = Function.update (GenP.V37 m (Vals.outs m) c) main_v244 (Vals.outs m 38 main_v244 c) main_v244
    rw [Function.update_self, Vals.outs_18]

/-- and every other buffer what it held at entry. -/
theorem hrest (c : Dev nD) : ∀ b, b ∉ Finset.univ.image (Pipeline.arrRef spec18) →
    (fun b : Ref sig .tc => GenP.V38 m (Vals.outs m) c b) b = Run.Ve18 m c b := fun b hb =>
  GenP.V38_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G18.dat (Run.Ve18 m) (Run.tbl18 m) h.ok18 c).arrAt 1 (G18.cfgM (Run.tbl18 m) h.ok18).N = Vals.gath3 m 18 c) :
    Pipeline.RegionSeg (pcfgs (F := F)) (Run.a m h) (Run.pdats m h) () defs₀ Run.𝒱₀ Run.L Run.lv (18 : Fin 33) where
  win := (launch18 (F := F)).win.to₀
  block_pos := (launch18 (F := F)).block_pos
  stage_whole := (launch18 (F := F)).stage_whole
  K := PEmpty
  osem k := k.elim
  ho := Pipeline.OwnSemFacts.none _
  hbody c := (G18.body_obligation (Run.Ve18 m) (Run.tbl18 m) h.ok18 c).loose
  hwaits := Pipeline.hwaits_of_owed_zero _ _ _ _ Run.L Run.lv (18 : Fin 33) fun _ _ => rfl
  pre c := iprop(StableHlo.held (c : Thread nD τ) (Pipeline.ucRefs τ sig) (GenP.V37 m (Vals.outs m) c) ∗ Run.R c)
  post c := iprop(StableHlo.held (c : Thread nD τ) (Pipeline.ucRefs τ sig) (GenP.V38 m (Vals.outs m) c) ∗ Run.R c)
  X c := iprop(∃ r, prngReg c r)
  Y c := iprop((∃ r, prngReg c r) ∗ Pipeline.prefHeld (Ix := Unit) (Name := ℕ) (U := UR sig nD τ) (Lvl := ℕ) pre18 c (fun _ => fullShare) (Run.tbl18 m))
  Z c := Pipeline.unscopedRestP (Ix := Unit) (Name := ℕ) (U := UR sig nD τ) (Lvl := ℕ) pre18 spec18 c (Run.Ve18 m c)
  hentry c := by
    rw [Pipeline.ownSems0_none]
    have hsplit := Pipeline.arrays_of_unscopedBufs (p := (18 : Fin 33)) (pcfgs (F := F)) (Run.a m h) (Run.pdats m h) (launch18 (F := F)).win (launch18 (F := F)).arr_whole c
      ((Run.pdats m h (18 : Fin 33) c).share_full fun _ => rfl) (Run.Ve18 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (18 : Fin 33) c).Φ 0 = iprop(Pipeline.ΦA spec18 c ∗ Pipeline.prefHeld (Ix := Unit) (Name := ℕ) (U := UR sig nD τ) (Lvl := ℕ) pre18 c (fun _ => fullShare) (Run.tbl18 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (18 : Fin 33) c).Φ (Fin.last _) = iprop(Pipeline.ΦA spec18 c ∗ Pipeline.prefHeld (Ix := Unit) (Name := ℕ) (U := UR sig nD τ) (Lvl := ℕ) pre18 c (fun _ => fullShare) (Run.tbl18 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (18 : Fin 33)) (pcfgs (F := F)) (Run.a m h) (Ix := Unit) (Name := ℕ) (U := UR sig nD τ) (Lvl := ℕ)
      (launch18 (F := F)).win (launch18 (F := F)).arr_whole c (Run.pdats m h) ((Run.pdats m h (18 : Fin 33) c).share_full fun _ => rfl)
      (Run.Ve18 m c) (fun b => GenP.V38 m (Vals.outs m) c b) ((Run.pdats m h (18 : Fin 33) c).arrAt · (G18.cfgM (Run.tbl18 m) h.ok18).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S18

end
-- ==== Proof.K.G18V.lean ====
/-
  What gather region 0 leaves in its output array: point t writes back row `tb[t]` of the array it reads as row t, the
  50000 rows tile the output, so the array ends as the gathered rows.
-/
import proofs.«406793_j90890097918585_2_alg».proof.Proof.K.G18
import proofs.«406793_j90890097918585_2_alg».proof.Proof.K.Vals
import Idealize.ShloMosaic.Lib.Pipeline.Value

set_option maxRecDepth 16384

noncomputable section

namespace Cert.Kernel.G18

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre18.Contents (Elt F)) (hO : ok18 (F := F) tb)

/-! ## The two windows' block rows at a point -/

/-- A point of the grid is below 50000. -/
private theorem point_lt (t : Fin (cfgM tb hO).N) : t.val < 50000 := by
  have h : t.val < grid18.N := t.isLt
  rw [N_18] at h
  exact h

/-- The grid has one axis: the coordinate of point t is t. -/
private theorem coords_0 (t : Fin (cfgM tb hO).N) : (grid18.coords t 0).val = t.val := by
  have ht := point_lt tb hO t
  show t.val / grid18.stride 0 % grid18.bound 0 = t.val
  rw [show grid18.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc18_transform_1 (grid18.coords t) 0 = t.val
  unfold cc18_transform_1
  show (BitVec.ofNat 32 (grid18.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid18.N
  · exact Or.inl h
  · have hlt : t.val < grid18.N := t.isLt
    refine Or.inr ⟨by show t.val + 1 < grid18.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc18_transform_0 k18_off1_inb numel1_S1 tb (grid18.coords t) 0 = _
  unfold cc18_transform_0
  dsimp only
  refine congrArg BitVec.toNat (congrArg (tb 0 : S50000.Idx → BitVec 32) ?_)
  funext d
  match d with
  | ⟨0, _⟩ =>
    apply Fin.ext
    show (Scalar.indexCast (BitVec.ofNat 32 (grid18.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k18_pay1 x = x := by
  unfold k18_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v243 (ValueIdx.ix3 (Vals.rowOf ((tb 0 : S50000.Idx → BitVec 32) (ValueIdx.ix1 ⟨t.val, point_lt tb hO t⟩))) (y 1) (y 2)) := by
  show V c main_v243 ((((cfgM tb hO).win 0).blk t).view.emb y) = _
  refine congrArg (V c main_v243) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v243) (tb 0)) := by
  show ((cfgM tb hO).win 1).cut (grid18.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v243) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v244 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid18.N := by rw [N_18]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v243) (tb 0) :=
  (dat V tb hO c).arrAt_eq_of_cover 1 (Vals.gath3Of (V c main_v243) (tb 0)) (fun t _ => flushed_1 V tb hO htb c t)
    (cover_blk_1 tb hO)

end Cert.Kernel.G18

end
-- ==== Proof.K.S19.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S19

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (19 : Fin 33) c = G19.dat (Run.Ve19 m) (Run.tbl19 m) h.ok19 c := rfl

/-- On the one device the table's buffer holds the table. -/
theorem tbl_eq (c : Dev nD) : (fun k => Run.Ve19 m c (pre19.ref k)) = Run.tbl19 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec19 c (Run.Ve19 m c) : sProp 𝕄)
      = iprop(Pipeline.prefHeld (Ix := Unit) (Name := ℕ) (U := UR sig nD τ) (Lvl := ℕ) pre19 c (fun _ => fullShare) (Run.tbl19 m)
          ∗ Pipeline.unscopedRestP (Ix := Unit) (Name := ℕ) (U := UR sig nD τ) (Lvl := ℕ) pre19 spec19 c (Run.Ve19 m c)) := by
  have hs := Pipeline.unscopedRest_split (Ix := Unit) (Name := ℕ) (U := UR sig nD τ) (Lvl := ℕ) (Val := Elt F) (launch19 (F := F)).pre c (Run.Ve19 m c)
  rw [← tbl_eq m c]
  exact hs

/-- After the region each of its arrays holds what the pipeline leaves: the array read as entered, the output at the gathered rows. -/
theorem hF (harr : ∀ c : Dev nD, (G19.dat (Run.Ve19 m) (Run.tbl19 m) h.ok19 c).arrAt 1 (G19.cfgM (Run.tbl19 m) h.ok19).N = Vals.gath3 m 19 c)
    (c : Dev nD) (w : Fin (G19.cfgM (Run.tbl19 m) h.ok19).W) :
    (G19.dat (Run.Ve19 m) (Run.tbl19 m) h.ok19 c).arrAt w (G19.cfgM (Run.tbl19 m) h.ok19).N
      = GenP.V40 m (Vals.outs m) c (Pipeline.arrRef spec19 w) := by
  match w with
  | ⟨0, _⟩ =>
    refine ((G19.dat (Run.Ve19 m) (Run.tbl19 m) h.ok19 c).arrAt_in 0 rfl _).trans ((G19.A_eq (Run.Ve19 m) (Run.tbl19 m) h.ok19 c 0).trans ?_)
    exact (GenP.V40_of m (Vals.outs m) c main_v256 (by decide)).symm
  | ⟨1, _⟩ =>
    refine (harr c).trans ?_
    show Vals.gath3 m 19 c = Function.update (GenP.V39 m (Vals.outs m) c) main_v257 (Vals.outs m 40 main_v257 c) main_v257
    rw [Function.update_self, Vals.outs_19]

/-- and every other buffer what it held at entry. -/
theorem hrest (c : Dev nD) : ∀ b, b ∉ Finset.univ.image (Pipeline.arrRef spec19) →
    (fun b : Ref sig .tc => GenP.V40 m (Vals.outs m) c b) b = Run.Ve19 m c b := fun b hb =>
  GenP.V40_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G19.dat (Run.Ve19 m) (Run.tbl19 m) h.ok19 c).arrAt 1 (G19.cfgM (Run.tbl19 m) h.ok19).N = Vals.gath3 m 19 c) :
    Pipeline.RegionSeg (pcfgs (F := F)) (Run.a m h) (Run.pdats m h) () defs₀ Run.𝒱₀ Run.L Run.lv (19 : Fin 33) where
  win := (launch19 (F := F)).win.to₀
  block_pos := (launch19 (F := F)).block_pos
  stage_whole := (launch19 (F := F)).stage_whole
  K := PEmpty
  osem k := k.elim
  ho := Pipeline.OwnSemFacts.none _
  hbody c := (G19.body_obligation (Run.Ve19 m) (Run.tbl19 m) h.ok19 c).loose
  hwaits := Pipeline.hwaits_of_owed_zero _ _ _ _ Run.L Run.lv (19 : Fin 33) fun _ _ => rfl
  pre c := iprop(StableHlo.held (c : Thread nD τ) (Pipeline.ucRefs τ sig) (GenP.V39 m (Vals.outs m) c) ∗ Run.R c)
  post c := iprop(StableHlo.held (c : Thread nD τ) (Pipeline.ucRefs τ sig) (GenP.V40 m (Vals.outs m) c) ∗ Run.R c)
  X c := iprop(∃ r, prngReg c r)
  Y c := iprop((∃ r, prngReg c r) ∗ Pipeline.prefHeld (Ix := Unit) (Name := ℕ) (U := UR sig nD τ) (Lvl := ℕ) pre19 c (fun _ => fullShare) (Run.tbl19 m))
  Z c := Pipeline.unscopedRestP (Ix := Unit) (Name := ℕ) (U := UR sig nD τ) (Lvl := ℕ) pre19 spec19 c (Run.Ve19 m c)
  hentry c := by
    rw [Pipeline.ownSems0_none]
    have hsplit := Pipeline.arrays_of_unscopedBufs (p := (19 : Fin 33)) (pcfgs (F := F)) (Run.a m h) (Run.pdats m h) (launch19 (F := F)).win (launch19 (F := F)).arr_whole c
      ((Run.pdats m h (19 : Fin 33) c).share_full fun _ => rfl) (Run.Ve19 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (19 : Fin 33) c).Φ 0 = iprop(Pipeline.ΦA spec19 c ∗ Pipeline.prefHeld (Ix := Unit) (Name := ℕ) (U := UR sig nD τ) (Lvl := ℕ) pre19 c (fun _ => fullShare) (Run.tbl19 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (19 : Fin 33) c).Φ (Fin.last _) = iprop(Pipeline.ΦA spec19 c ∗ Pipeline.prefHeld (Ix := Unit) (Name := ℕ) (U := UR sig nD τ) (Lvl := ℕ) pre19 c (fun _ => fullShare) (Run.tbl19 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (19 : Fin 33)) (pcfgs (F := F)) (Run.a m h) (Ix := Unit) (Name := ℕ) (U := UR sig nD τ) (Lvl := ℕ)
      (launch19 (F := F)).win (launch19 (F := F)).arr_whole c (Run.pdats m h) ((Run.pdats m h (19 : Fin 33) c).share_full fun _ => rfl)
      (Run.Ve19 m c) (fun b => GenP.V40 m (Vals.outs m) c b) ((Run.pdats m h (19 : Fin 33) c).arrAt · (G19.cfgM (Run.tbl19 m) h.ok19).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S19

end
-- ==== Proof.K.G19V.lean ====
/-
  What gather region 0 leaves in its output array: point t writes back row `tb[t]` of the array it reads as row t, the
  50000 rows tile the output, so the array ends as the gathered rows.
-/
import proofs.«406793_j90890097918585_2_alg».proof.Proof.K.G19
import proofs.«406793_j90890097918585_2_alg».proof.Proof.K.Vals
import Idealize.ShloMosaic.Lib.Pipeline.Value

set_option maxRecDepth 16384

noncomputable section

namespace Cert.Kernel.G19

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre19.Contents (Elt F)) (hO : ok19 (F := F) tb)

/-! ## The two windows' block rows at a point -/

/-- A point of the grid is below 50000. -/
private theorem point_lt (t : Fin (cfgM tb hO).N) : t.val < 50000 := by
  have h : t.val < grid19.N := t.isLt
  rw [N_19] at h
  exact h

/-- The grid has one axis: the coordinate of point t is t. -/
private theorem coords_0 (t : Fin (cfgM tb hO).N) : (grid19.coords t 0).val = t.val := by
  have ht := point_lt tb hO t
  show t.val / grid19.stride 0 % grid19.bound 0 = t.val
  rw [show grid19.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc19_transform_1 (grid19.coords t) 0 = t.val
  unfold cc19_transform_1
  show (BitVec.ofNat 32 (grid19.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid19.N
  · exact Or.inl h
  · have hlt : t.val < grid19.N := t.isLt
    refine Or.inr ⟨by show t.val + 1 < grid19.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc19_transform_0 k19_off1_inb numel1_S1 tb (grid19.coords t) 0 = _
  unfold cc19_transform_0
  dsimp only
  refine congrArg BitVec.toNat (congrArg (tb 0 : S50000.Idx → BitVec 32) ?_)
  funext d
  match d with
  | ⟨0, _⟩ =>
    apply Fin.ext
    show (Scalar.indexCast (BitVec.ofNat 32 (grid19.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k19_pay1 x = x := by
  unfold k19_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v256 (ValueIdx.ix3 (Vals.rowOf ((tb 0 : S50000.Idx → BitVec 32) (ValueIdx.ix1 ⟨t.val, point_lt tb hO t⟩))) (y 1) (y 2)) := by
  show V c main_v256 ((((cfgM tb hO).win 0).blk t).view.emb y) = _
  refine congrArg (V c main_v256) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v256) (tb 0)) := by
  show ((cfgM tb hO).win 1).cut (grid19.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v256) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v257 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid19.N := by rw [N_19]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v256) (tb 0) :=
  (dat V tb hO c).arrAt_eq_of_cover 1 (Vals.gath3Of (V c main_v256) (tb 0)) (fun t _ => flushed_1 V tb hO htb c t)
    (cover_blk_1 tb hO)

end Cert.Kernel.G19

end
-- ==== Proof.K.S20.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S20

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (20 : Fin 33) c = G20.dat (Run.Ve20 m) (Run.tbl20 m) h.ok20 c := rfl

/-- On the one device the table's buffer holds the table. -/
theorem tbl_eq (c : Dev nD) : (fun k => Run.Ve20 m c (pre20.ref k)) = Run.tbl20 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec20 c (Run.Ve20 m c) : sProp 𝕄)
      = iprop(Pipeline.prefHeld (Ix := Unit) (Name := ℕ) (U := UR sig nD τ) (Lvl := ℕ) pre20 c (fun _ => fullShare) (Run.tbl20 m)
          ∗ Pipeline.unscopedRestP (Ix := Unit) (Name := ℕ) (U := UR sig nD τ) (Lvl := ℕ) pre20 spec20 c (Run.Ve20 m c)) := by
  have hs := Pipeline.unscopedRest_split (Ix := Unit) (Name := ℕ) (U := UR sig nD τ) (Lvl := ℕ) (Val := Elt F) (launch20 (F := F)).pre c (Run.Ve20 m c)
  rw [← tbl_eq m c]
  exact hs

/-- After the region each of its arrays holds what the pipeline leaves: the array read as entered, the output at the gathered rows. -/
theorem hF (harr : ∀ c : Dev nD, (G20.dat (Run.Ve20 m) (Run.tbl20 m) h.ok20 c).arrAt 1 (G20.cfgM (Run.tbl20 m) h.ok20).N = Vals.gath3 m 20 c)
    (c : Dev nD) (w : Fin (G20.cfgM (Run.tbl20 m) h.ok20).W) :
    (G20.dat (Run.Ve20 m) (Run.tbl20 m) h.ok20 c).arrAt w (G20.cfgM (Run.tbl20 m) h.ok20).N
      = GenP.V42 m (Vals.outs m) c (Pipeline.arrRef spec20 w) := by
  match w with
  | ⟨0, _⟩ =>
    refine ((G20.dat (Run.Ve20 m) (Run.tbl20 m) h.ok20 c).arrAt_in 0 rfl _).trans ((G20.A_eq (Run.Ve20 m) (Run.tbl20 m) h.ok20 c 0).trans ?_)
    exact (GenP.V42_of m (Vals.outs m) c main_v269 (by decide)).symm
  | ⟨1, _⟩ =>
    refine (harr c).trans ?_
    show Vals.gath3 m 20 c = Function.update (GenP.V41 m (Vals.outs m) c) main_v270 (Vals.outs m 42 main_v270 c) main_v270
    rw [Function.update_self, Vals.outs_20]

/-- and every other buffer what it held at entry. -/
theorem hrest (c : Dev nD) : ∀ b, b ∉ Finset.univ.image (Pipeline.arrRef spec20) →
    (fun b : Ref sig .tc => GenP.V42 m (Vals.outs m) c b) b = Run.Ve20 m c b := fun b hb =>
  GenP.V42_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G20.dat (Run.Ve20 m) (Run.tbl20 m) h.ok20 c).arrAt 1 (G20.cfgM (Run.tbl20 m) h.ok20).N = Vals.gath3 m 20 c) :
    Pipeline.RegionSeg (pcfgs (F := F)) (Run.a m h) (Run.pdats m h) () defs₀ Run.𝒱₀ Run.L Run.lv (20 : Fin 33) where
  win := (launch20 (F := F)).win.to₀
  block_pos := (launch20 (F := F)).block_pos
  stage_whole := (launch20 (F := F)).stage_whole
  K := PEmpty
  osem k := k.elim
  ho := Pipeline.OwnSemFacts.none _
  hbody c := (G20.body_obligation (Run.Ve20 m) (Run.tbl20 m) h.ok20 c).loose
  hwaits := Pipeline.hwaits_of_owed_zero _ _ _ _ Run.L Run.lv (20 : Fin 33) fun _ _ => rfl
  pre c := iprop(StableHlo.held (c : Thread nD τ) (Pipeline.ucRefs τ sig) (GenP.V41 m (Vals.outs m) c) ∗ Run.R c)
  post c := iprop(StableHlo.held (c : Thread nD τ) (Pipeline.ucRefs τ sig) (GenP.V42 m (Vals.outs m) c) ∗ Run.R c)
  X c := iprop(∃ r, prngReg c r)
  Y c := iprop((∃ r, prngReg c r) ∗ Pipeline.prefHeld (Ix := Unit) (Name := ℕ) (U := UR sig nD τ) (Lvl := ℕ) pre20 c (fun _ => fullShare) (Run.tbl20 m))
  Z c := Pipeline.unscopedRestP (Ix := Unit) (Name := ℕ) (U := UR sig nD τ) (Lvl := ℕ) pre20 spec20 c (Run.Ve20 m c)
  hentry c := by
    rw [Pipeline.ownSems0_none]
    have hsplit := Pipeline.arrays_of_unscopedBufs (p := (20 : Fin 33)) (pcfgs (F := F)) (Run.a m h) (Run.pdats m h) (launch20 (F := F)).win (launch20 (F := F)).arr_whole c
      ((Run.pdats m h (20 : Fin 33) c).share_full fun _ => rfl) (Run.Ve20 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (20 : Fin 33) c).Φ 0 = iprop(Pipeline.ΦA spec20 c ∗ Pipeline.prefHeld (Ix := Unit) (Name := ℕ) (U := UR sig nD τ) (Lvl := ℕ) pre20 c (fun _ => fullShare) (Run.tbl20 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (20 : Fin 33) c).Φ (Fin.last _) = iprop(Pipeline.ΦA spec20 c ∗ Pipeline.prefHeld (Ix := Unit) (Name := ℕ) (U := UR sig nD τ) (Lvl := ℕ) pre20 c (fun _ => fullShare) (Run.tbl20 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (20 : Fin 33)) (pcfgs (F := F)) (Run.a m h) (Ix := Unit) (Name := ℕ) (U := UR sig nD τ) (Lvl := ℕ)
      (launch20 (F := F)).win (launch20 (F := F)).arr_whole c (Run.pdats m h) ((Run.pdats m h (20 : Fin 33) c).share_full fun _ => rfl)
      (Run.Ve20 m c) (fun b => GenP.V42 m (Vals.outs m) c b) ((Run.pdats m h (20 : Fin 33) c).arrAt · (G20.cfgM (Run.tbl20 m) h.ok20).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S20

end
-- ==== Proof.K.G20V.lean ====
/-
  What gather region 0 leaves in its output array: point t writes back row `tb[t]` of the array it reads as row t, the
  50000 rows tile the output, so the array ends as the gathered rows.
-/
import proofs.«406793_j90890097918585_2_alg».proof.Proof.K.G20
import proofs.«406793_j90890097918585_2_alg».proof.Proof.K.Vals
import Idealize.ShloMosaic.Lib.Pipeline.Value

set_option maxRecDepth 16384

noncomputable section

namespace Cert.Kernel.G20

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre20.Contents (Elt F)) (hO : ok20 (F := F) tb)

/-! ## The two windows' block rows at a point -/

/-- A point of the grid is below 50000. -/
private theorem point_lt (t : Fin (cfgM tb hO).N) : t.val < 50000 := by
  have h : t.val < grid20.N := t.isLt
  rw [N_20] at h
  exact h

/-- The grid has one axis: the coordinate of point t is t. -/
private theorem coords_0 (t : Fin (cfgM tb hO).N) : (grid20.coords t 0).val = t.val := by
  have ht := point_lt tb hO t
  show t.val / grid20.stride 0 % grid20.bound 0 = t.val
  rw [show grid20.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc20_transform_1 (grid20.coords t) 0 = t.val
  unfold cc20_transform_1
  show (BitVec.ofNat 32 (grid20.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid20.N
  · exact Or.inl h
  · have hlt : t.val < grid20.N := t.isLt
    refine Or.inr ⟨by show t.val + 1 < grid20.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc20_transform_0 k20_off1_inb numel1_S1 tb (grid20.coords t) 0 = _
  unfold cc20_transform_0
  dsimp only
  refine congrArg BitVec.toNat (congrArg (tb 0 : S50000.Idx → BitVec 32) ?_)
  funext d
  match d with
  | ⟨0, _⟩ =>
    apply Fin.ext
    show (Scalar.indexCast (BitVec.ofNat 32 (grid20.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k20_pay1 x = x := by
  unfold k20_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v269 (ValueIdx.ix3 (Vals.rowOf ((tb 0 : S50000.Idx → BitVec 32) (ValueIdx.ix1 ⟨t.val, point_lt tb hO t⟩))) (y 1) (y 2)) := by
  show V c main_v269 ((((cfgM tb hO).win 0).blk t).view.emb y) = _
  refine congrArg (V c main_v269) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v269) (tb 0)) := by
  show ((cfgM tb hO).win 1).cut (grid20.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v269) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v270 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid20.N := by rw [N_20]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v269) (tb 0) :=
  (dat V tb hO c).arrAt_eq_of_cover 1 (Vals.gath3Of (V c main_v269) (tb 0)) (fun t _ => flushed_1 V tb hO htb c t)
    (cover_blk_1 tb hO)

end Cert.Kernel.G20

end
-- ==== Proof.K.S21.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S21

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (21 : Fin 33) c = G21.dat (Run.Ve21 m) (Run.tbl21 m) h.ok21 c := rfl

/-- On the one device the table's buffer holds the table. -/
theorem tbl_eq (c : Dev nD) : (fun k => Run.Ve21 m c (pre21.ref k)) = Run.tbl21 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec21 c (Run.Ve21 m c) : sProp 𝕄)
      = iprop(Pipeline.prefHeld (Ix := Unit) (Name := ℕ) (U := UR sig nD τ) (Lvl := ℕ) pre21 c (fun _ => fullShare) (Run.tbl21 m)
          ∗ Pipeline.unscopedRestP (Ix := Unit) (Name := ℕ) (U := UR sig nD τ) (Lvl := ℕ) pre21 spec21 c (Run.Ve21 m c)) := by
  have hs := Pipeline.unscopedRest_split (Ix := Unit) (Name := ℕ) (U := UR sig nD τ) (Lvl := ℕ) (Val := Elt F) (launch21 (F := F)).pre c (Run.Ve21 m c)
  rw [← tbl_eq m c]
  exact hs

/-- After the region each of its arrays holds what the pipeline leaves: the array read as entered, the output at the gathered rows. -/
theorem hF (harr : ∀ c : Dev nD, (G21.dat (Run.Ve21 m) (Run.tbl21 m) h.ok21 c).arrAt 1 (G21.cfgM (Run.tbl21 m) h.ok21).N = Vals.gath3 m 21 c)
    (c : Dev nD) (w : Fin (G21.cfgM (Run.tbl21 m) h.ok21).W) :
    (G21.dat (Run.Ve21 m) (Run.tbl21 m) h.ok21 c).arrAt w (G21.cfgM (Run.tbl21 m) h.ok21).N
      = GenP.V44 m (Vals.outs m) c (Pipeline.arrRef spec21 w) := by
  match w with
  | ⟨0, _⟩ =>
    refine ((G21.dat (Run.Ve21 m) (Run.tbl21 m) h.ok21 c).arrAt_in 0 rfl _).trans ((G21.A_eq (Run.Ve21 m) (Run.tbl21 m) h.ok21 c 0).trans ?_)
    exact (GenP.V44_of m (Vals.outs m) c main_v282 (by decide)).symm
  | ⟨1, _⟩ =>
    refine (harr c).trans ?_
    show Vals.gath3 m 21 c = Function.update (GenP.V43 m (Vals.outs m) c) main_v283 (Vals.outs m 44 main_v283 c) main_v283
    rw [Function.update_self, Vals.outs_21]

/-- and every other buffer what it held at entry. -/
theorem hrest (c : Dev nD) : ∀ b, b ∉ Finset.univ.image (Pipeline.arrRef spec21) →
    (fun b : Ref sig .tc => GenP.V44 m (Vals.outs m) c b) b = Run.Ve21 m c b := fun b hb =>
  GenP.V44_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G21.dat (Run.Ve21 m) (Run.tbl21 m) h.ok21 c).arrAt 1 (G21.cfgM (Run.tbl21 m) h.ok21).N = Vals.gath3 m 21 c) :
    Pipeline.RegionSeg (pcfgs (F := F)) (Run.a m h) (Run.pdats m h) () defs₀ Run.𝒱₀ Run.L Run.lv (21 : Fin 33) where
  win := (launch21 (F := F)).win.to₀
  block_pos := (launch21 (F := F)).block_pos
  stage_whole := (launch21 (F := F)).stage_whole
  K := PEmpty
  osem k := k.elim
  ho := Pipeline.OwnSemFacts.none _
  hbody c := (G21.body_obligation (Run.Ve21 m) (Run.tbl21 m) h.ok21 c).loose
  hwaits := Pipeline.hwaits_of_owed_zero _ _ _ _ Run.L Run.lv (21 : Fin 33) fun _ _ => rfl
  pre c := iprop(StableHlo.held (c : Thread nD τ) (Pipeline.ucRefs τ sig) (GenP.V43 m (Vals.outs m) c) ∗ Run.R c)
  post c := iprop(StableHlo.held (c : Thread nD τ) (Pipeline.ucRefs τ sig) (GenP.V44 m (Vals.outs m) c) ∗ Run.R c)
  X c := iprop(∃ r, prngReg c r)
  Y c := iprop((∃ r, prngReg c r) ∗ Pipeline.prefHeld (Ix := Unit) (Name := ℕ) (U := UR sig nD τ) (Lvl := ℕ) pre21 c (fun _ => fullShare) (Run.tbl21 m))
  Z c := Pipeline.unscopedRestP (Ix := Unit) (Name := ℕ) (U := UR sig nD τ) (Lvl := ℕ) pre21 spec21 c (Run.Ve21 m c)
  hentry c := by
    rw [Pipeline.ownSems0_none]
    have hsplit := Pipeline.arrays_of_unscopedBufs (p := (21 : Fin 33)) (pcfgs (F := F)) (Run.a m h) (Run.pdats m h) (launch21 (F := F)).win (launch21 (F := F)).arr_whole c
      ((Run.pdats m h (21 : Fin 33) c).share_full fun _ => rfl) (Run.Ve21 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (21 : Fin 33) c).Φ 0 = iprop(Pipeline.ΦA spec21 c ∗ Pipeline.prefHeld (Ix := Unit) (Name := ℕ) (U := UR sig nD τ) (Lvl := ℕ) pre21 c (fun _ => fullShare) (Run.tbl21 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (21 : Fin 33) c).Φ (Fin.last _) = iprop(Pipeline.ΦA spec21 c ∗ Pipeline.prefHeld (Ix := Unit) (Name := ℕ) (U := UR sig nD τ) (Lvl := ℕ) pre21 c (fun _ => fullShare) (Run.tbl21 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (21 : Fin 33)) (pcfgs (F := F)) (Run.a m h) (Ix := Unit) (Name := ℕ) (U := UR sig nD τ) (Lvl := ℕ)
      (launch21 (F := F)).win (launch21 (F := F)).arr_whole c (Run.pdats m h) ((Run.pdats m h (21 : Fin 33) c).share_full fun _ => rfl)
      (Run.Ve21 m c) (fun b => GenP.V44 m (Vals.outs m) c b) ((Run.pdats m h (21 : Fin 33) c).arrAt · (G21.cfgM (Run.tbl21 m) h.ok21).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S21

end
-- ==== Proof.K.G21V.lean ====
/-
  What gather region 0 leaves in its output array: point t writes back row `tb[t]` of the array it reads as row t, the
  50000 rows tile the output, so the array ends as the gathered rows.
-/
import proofs.«406793_j90890097918585_2_alg».proof.Proof.K.G21
import proofs.«406793_j90890097918585_2_alg».proof.Proof.K.Vals
import Idealize.ShloMosaic.Lib.Pipeline.Value

set_option maxRecDepth 16384

noncomputable section

namespace Cert.Kernel.G21

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre21.Contents (Elt F)) (hO : ok21 (F := F) tb)

/-! ## The two windows' block rows at a point -/

/-- A point of the grid is below 50000. -/
private theorem point_lt (t : Fin (cfgM tb hO).N) : t.val < 50000 := by
  have h : t.val < grid21.N := t.isLt
  rw [N_21] at h
  exact h

/-- The grid has one axis: the coordinate of point t is t. -/
private theorem coords_0 (t : Fin (cfgM tb hO).N) : (grid21.coords t 0).val = t.val := by
  have ht := point_lt tb hO t
  show t.val / grid21.stride 0 % grid21.bound 0 = t.val
  rw [show grid21.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc21_transform_1 (grid21.coords t) 0 = t.val
  unfold cc21_transform_1
  show (BitVec.ofNat 32 (grid21.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid21.N
  · exact Or.inl h
  · have hlt : t.val < grid21.N := t.isLt
    refine Or.inr ⟨by show t.val + 1 < grid21.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc21_transform_0 k21_off1_inb numel1_S1 tb (grid21.coords t) 0 = _
  unfold cc21_transform_0
  dsimp only
  refine congrArg BitVec.toNat (congrArg (tb 0 : S50000.Idx → BitVec 32) ?_)
  funext d
  match d with
  | ⟨0, _⟩ =>
    apply Fin.ext
    show (Scalar.indexCast (BitVec.ofNat 32 (grid21.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k21_pay1 x = x := by
  unfold k21_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v282 (ValueIdx.ix3 (Vals.rowOf ((tb 0 : S50000.Idx → BitVec 32) (ValueIdx.ix1 ⟨t.val, point_lt tb hO t⟩))) (y 1) (y 2)) := by
  show V c main_v282 ((((cfgM tb hO).win 0).blk t).view.emb y) = _
  refine congrArg (V c main_v282) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v282) (tb 0)) := by
  show ((cfgM tb hO).win 1).cut (grid21.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v282) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v283 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid21.N := by rw [N_21]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v282) (tb 0) :=
  (dat V tb hO c).arrAt_eq_of_cover 1 (Vals.gath3Of (V c main_v282) (tb 0)) (fun t _ => flushed_1 V tb hO htb c t)
    (cover_blk_1 tb hO)

end Cert.Kernel.G21

end
-- ==== Proof.K.S22.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S22

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (22 : Fin 33) c = G22.dat (Run.Ve22 m) (Run.tbl22 m) h.ok22 c := rfl

/-- On the one device the table's buffer holds the table. -/
theorem tbl_eq (c : Dev nD) : (fun k => Run.Ve22 m c (pre22.ref k)) = Run.tbl22 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec22 c (Run.Ve22 m c) : sProp 𝕄)
      = iprop(Pipeline.prefHeld (Ix := Unit) (Name := ℕ) (U := UR sig nD τ) (Lvl := ℕ) pre22 c (fun _ => fullShare) (Run.tbl22 m)
          ∗ Pipeline.unscopedRestP (Ix := Unit) (Name := ℕ) (U := UR sig nD τ) (Lvl := ℕ) pre22 spec22 c (Run.Ve22 m c)) := by
  have hs := Pipeline.unscopedRest_split (Ix := Unit) (Name := ℕ) (U := UR sig nD τ) (Lvl := ℕ) (Val := Elt F) (launch22 (F := F)).pre c (Run.Ve22 m c)
  rw [← tbl_eq m c]
  exact hs

/-- After the region each of its arrays holds what the pipeline leaves: the array read as entered, the output at the gathered rows. -/
theorem hF (harr : ∀ c : Dev nD, (G22.dat (Run.Ve22 m) (Run.tbl22 m) h.ok22 c).arrAt 1 (G22.cfgM (Run.tbl22 m) h.ok22).N = Vals.gath3 m 22 c)
    (c : Dev nD) (w : Fin (G22.cfgM (Run.tbl22 m) h.ok22).W) :
    (G22.dat (Run.Ve22 m) (Run.tbl22 m) h.ok22 c).arrAt w (G22.cfgM (Run.tbl22 m) h.ok22).N
      = GenP.V46 m (Vals.outs m) c (Pipeline.arrRef spec22 w) := by
  match w with
  | ⟨0, _⟩ =>
    refine ((G22.dat (Run.Ve22 m) (Run.tbl22 m) h.ok22 c).arrAt_in 0 rfl _).trans ((G22.A_eq (Run.Ve22 m) (Run.tbl22 m) h.ok22 c 0).trans ?_)
    exact (GenP.V46_of m (Vals.outs m) c main_v295 (by decide)).symm
  | ⟨1, _⟩ =>
    refine (harr c).trans ?_
    show Vals.gath3 m 22 c = Function.update (GenP.V45 m (Vals.outs m) c) main_v296 (Vals.outs m 46 main_v296 c) main_v296
    rw [Function.update_self, Vals.outs_22]

/-- and every other buffer what it held at entry. -/
theorem hrest (c : Dev nD) : ∀ b, b ∉ Finset.univ.image (Pipeline.arrRef spec22) →
    (fun b : Ref sig .tc => GenP.V46 m (Vals.outs m) c b) b = Run.Ve22 m c b := fun b hb =>
  GenP.V46_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G22.dat (Run.Ve22 m) (Run.tbl22 m) h.ok22 c).arrAt 1 (G22.cfgM (Run.tbl22 m) h.ok22).N = Vals.gath3 m 22 c) :
    Pipeline.RegionSeg (pcfgs (F := F)) (Run.a m h) (Run.pdats m h) () defs₀ Run.𝒱₀ Run.L Run.lv (22 : Fin 33) where
  win := (launch22 (F := F)).win.to₀
  block_pos := (launch22 (F := F)).block_pos
  stage_whole := (launch22 (F := F)).stage_whole
  K := PEmpty
  osem k := k.elim
  ho := Pipeline.OwnSemFacts.none _
  hbody c := (G22.body_obligation (Run.Ve22 m) (Run.tbl22 m) h.ok22 c).loose
  hwaits := Pipeline.hwaits_of_owed_zero _ _ _ _ Run.L Run.lv (22 : Fin 33) fun _ _ => rfl
  pre c := iprop(StableHlo.held (c : Thread nD τ) (Pipeline.ucRefs τ sig) (GenP.V45 m (Vals.outs m) c) ∗ Run.R c)
  post c := iprop(StableHlo.held (c : Thread nD τ) (Pipeline.ucRefs τ sig) (GenP.V46 m (Vals.outs m) c) ∗ Run.R c)
  X c := iprop(∃ r, prngReg c r)
  Y c := iprop((∃ r, prngReg c r) ∗ Pipeline.prefHeld (Ix := Unit) (Name := ℕ) (U := UR sig nD τ) (Lvl := ℕ) pre22 c (fun _ => fullShare) (Run.tbl22 m))
  Z c := Pipeline.unscopedRestP (Ix := Unit) (Name := ℕ) (U := UR sig nD τ) (Lvl := ℕ) pre22 spec22 c (Run.Ve22 m c)
  hentry c := by
    rw [Pipeline.ownSems0_none]
    have hsplit := Pipeline.arrays_of_unscopedBufs (p := (22 : Fin 33)) (pcfgs (F := F)) (Run.a m h) (Run.pdats m h) (launch22 (F := F)).win (launch22 (F := F)).arr_whole c
      ((Run.pdats m h (22 : Fin 33) c).share_full fun _ => rfl) (Run.Ve22 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (22 : Fin 33) c).Φ 0 = iprop(Pipeline.ΦA spec22 c ∗ Pipeline.prefHeld (Ix := Unit) (Name := ℕ) (U := UR sig nD τ) (Lvl := ℕ) pre22 c (fun _ => fullShare) (Run.tbl22 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (22 : Fin 33) c).Φ (Fin.last _) = iprop(Pipeline.ΦA spec22 c ∗ Pipeline.prefHeld (Ix := Unit) (Name := ℕ) (U := UR sig nD τ) (Lvl := ℕ) pre22 c (fun _ => fullShare) (Run.tbl22 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (22 : Fin 33)) (pcfgs (F := F)) (Run.a m h) (Ix := Unit) (Name := ℕ) (U := UR sig nD τ) (Lvl := ℕ)
      (launch22 (F := F)).win (launch22 (F := F)).arr_whole c (Run.pdats m h) ((Run.pdats m h (22 : Fin 33) c).share_full fun _ => rfl)
      (Run.Ve22 m c) (fun b => GenP.V46 m (Vals.outs m) c b) ((Run.pdats m h (22 : Fin 33) c).arrAt · (G22.cfgM (Run.tbl22 m) h.ok22).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S22

end
-- ==== Proof.K.G22V.lean ====
/-
  What gather region 0 leaves in its output array: point t writes back row `tb[t]` of the array it reads as row t, the
  50000 rows tile the output, so the array ends as the gathered rows.
-/
import proofs.«406793_j90890097918585_2_alg».proof.Proof.K.G22
import proofs.«406793_j90890097918585_2_alg».proof.Proof.K.Vals
import Idealize.ShloMosaic.Lib.Pipeline.Value

set_option maxRecDepth 16384

noncomputable section

namespace Cert.Kernel.G22

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre22.Contents (Elt F)) (hO : ok22 (F := F) tb)

/-! ## The two windows' block rows at a point -/

/-- A point of the grid is below 50000. -/
private theorem point_lt (t : Fin (cfgM tb hO).N) : t.val < 50000 := by
  have h : t.val < grid22.N := t.isLt
  rw [N_22] at h
  exact h

/-- The grid has one axis: the coordinate of point t is t. -/
private theorem coords_0 (t : Fin (cfgM tb hO).N) : (grid22.coords t 0).val = t.val := by
  have ht := point_lt tb hO t
  show t.val / grid22.stride 0 % grid22.bound 0 = t.val
  rw [show grid22.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc22_transform_1 (grid22.coords t) 0 = t.val
  unfold cc22_transform_1
  show (BitVec.ofNat 32 (grid22.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid22.N
  · exact Or.inl h
  · have hlt : t.val < grid22.N := t.isLt
    refine Or.inr ⟨by show t.val + 1 < grid22.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc22_transform_0 k22_off1_inb numel1_S1 tb (grid22.coords t) 0 = _
  unfold cc22_transform_0
  dsimp only
  refine congrArg BitVec.toNat (congrArg (tb 0 : S50000.Idx → BitVec 32) ?_)
  funext d
  match d with
  | ⟨0, _⟩ =>
    apply Fin.ext
    show (Scalar.indexCast (BitVec.ofNat 32 (grid22.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k22_pay1 x = x := by
  unfold k22_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v295 (ValueIdx.ix3 (Vals.rowOf ((tb 0 : S50000.Idx → BitVec 32) (ValueIdx.ix1 ⟨t.val, point_lt tb hO t⟩))) (y 1) (y 2)) := by
  show V c main_v295 ((((cfgM tb hO).win 0).blk t).view.emb y) = _
  refine congrArg (V c main_v295) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v295) (tb 0)) := by
  show ((cfgM tb hO).win 1).cut (grid22.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v295) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v296 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid22.N := by rw [N_22]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v295) (tb 0) :=
  (dat V tb hO c).arrAt_eq_of_cover 1 (Vals.gath3Of (V c main_v295) (tb 0)) (fun t _ => flushed_1 V tb hO htb c t)
    (cover_blk_1 tb hO)

end Cert.Kernel.G22

end
-- ==== Proof.K.S23.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S23

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (23 : Fin 33) c = G23.dat (Run.Ve23 m) (Run.tbl23 m) h.ok23 c := rfl

/-- On the one device the table's buffer holds the table. -/
theorem tbl_eq (c : Dev nD) : (fun k => Run.Ve23 m c (pre23.ref k)) = Run.tbl23 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec23 c (Run.Ve23 m c) : sProp 𝕄)
      = iprop(Pipeline.prefHeld (Ix := Unit) (Name := ℕ) (U := UR sig nD τ) (Lvl := ℕ) pre23 c (fun _ => fullShare) (Run.tbl23 m)
          ∗ Pipeline.unscopedRestP (Ix := Unit) (Name := ℕ) (U := UR sig nD τ) (Lvl := ℕ) pre23 spec23 c (Run.Ve23 m c)) := by
  have hs := Pipeline.unscopedRest_split (Ix := Unit) (Name := ℕ) (U := UR sig nD τ) (Lvl := ℕ) (Val := Elt F) (launch23 (F := F)).pre c (Run.Ve23 m c)
  rw [← tbl_eq m c]
  exact hs

/-- After the region each of its arrays holds what the pipeline leaves: the array read as entered, the output at the gathered rows. -/
theorem hF (harr : ∀ c : Dev nD, (G23.dat (Run.Ve23 m) (Run.tbl23 m) h.ok23 c).arrAt 1 (G23.cfgM (Run.tbl23 m) h.ok23).N = Vals.gath3 m 23 c)
    (c : Dev nD) (w : Fin (G23.cfgM (Run.tbl23 m) h.ok23).W) :
    (G23.dat (Run.Ve23 m) (Run.tbl23 m) h.ok23 c).arrAt w (G23.cfgM (Run.tbl23 m) h.ok23).N
      = GenP.V48 m (Vals.outs m) c (Pipeline.arrRef spec23 w) := by
  match w with
  | ⟨0, _⟩ =>
    refine ((G23.dat (Run.Ve23 m) (Run.tbl23 m) h.ok23 c).arrAt_in 0 rfl _).trans ((G23.A_eq (Run.Ve23 m) (Run.tbl23 m) h.ok23 c 0).trans ?_)
    exact (GenP.V48_of m (Vals.outs m) c main_v308 (by decide)).symm
  | ⟨1, _⟩ =>
    refine (harr c).trans ?_
    show Vals.gath3 m 23 c = Function.update (GenP.V47 m (Vals.outs m) c) main_v309 (Vals.outs m 48 main_v309 c) main_v309
    rw [Function.update_self, Vals.outs_23]

/-- and every other buffer what it held at entry. -/
theorem hrest (c : Dev nD) : ∀ b, b ∉ Finset.univ.image (Pipeline.arrRef spec23) →
    (fun b : Ref sig .tc => GenP.V48 m (Vals.outs m) c b) b = Run.Ve23 m c b := fun b hb =>
  GenP.V48_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G23.dat (Run.Ve23 m) (Run.tbl23 m) h.ok23 c).arrAt 1 (G23.cfgM (Run.tbl23 m) h.ok23).N = Vals.gath3 m 23 c) :
    Pipeline.RegionSeg (pcfgs (F := F)) (Run.a m h) (Run.pdats m h) () defs₀ Run.𝒱₀ Run.L Run.lv (23 : Fin 33) where
  win := (launch23 (F := F)).win.to₀
  block_pos := (launch23 (F := F)).block_pos
  stage_whole := (launch23 (F := F)).stage_whole
  K := PEmpty
  osem k := k.elim
  ho := Pipeline.OwnSemFacts.none _
  hbody c := (G23.body_obligation (Run.Ve23 m) (Run.tbl23 m) h.ok23 c).loose
  hwaits := Pipeline.hwaits_of_owed_zero _ _ _ _ Run.L Run.lv (23 : Fin 33) fun _ _ => rfl
  pre c := iprop(StableHlo.held (c : Thread nD τ) (Pipeline.ucRefs τ sig) (GenP.V47 m (Vals.outs m) c) ∗ Run.R c)
  post c := iprop(StableHlo.held (c : Thread nD τ) (Pipeline.ucRefs τ sig) (GenP.V48 m (Vals.outs m) c) ∗ Run.R c)
  X c := iprop(∃ r, prngReg c r)
  Y c := iprop((∃ r, prngReg c r) ∗ Pipeline.prefHeld (Ix := Unit) (Name := ℕ) (U := UR sig nD τ) (Lvl := ℕ) pre23 c (fun _ => fullShare) (Run.tbl23 m))
  Z c := Pipeline.unscopedRestP (Ix := Unit) (Name := ℕ) (U := UR sig nD τ) (Lvl := ℕ) pre23 spec23 c (Run.Ve23 m c)
  hentry c := by
    rw [Pipeline.ownSems0_none]
    have hsplit := Pipeline.arrays_of_unscopedBufs (p := (23 : Fin 33)) (pcfgs (F := F)) (Run.a m h) (Run.pdats m h) (launch23 (F := F)).win (launch23 (F := F)).arr_whole c
      ((Run.pdats m h (23 : Fin 33) c).share_full fun _ => rfl) (Run.Ve23 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (23 : Fin 33) c).Φ 0 = iprop(Pipeline.ΦA spec23 c ∗ Pipeline.prefHeld (Ix := Unit) (Name := ℕ) (U := UR sig nD τ) (Lvl := ℕ) pre23 c (fun _ => fullShare) (Run.tbl23 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (23 : Fin 33) c).Φ (Fin.last _) = iprop(Pipeline.ΦA spec23 c ∗ Pipeline.prefHeld (Ix := Unit) (Name := ℕ) (U := UR sig nD τ) (Lvl := ℕ) pre23 c (fun _ => fullShare) (Run.tbl23 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (23 : Fin 33)) (pcfgs (F := F)) (Run.a m h) (Ix := Unit) (Name := ℕ) (U := UR sig nD τ) (Lvl := ℕ)
      (launch23 (F := F)).win (launch23 (F := F)).arr_whole c (Run.pdats m h) ((Run.pdats m h (23 : Fin 33) c).share_full fun _ => rfl)
      (Run.Ve23 m c) (fun b => GenP.V48 m (Vals.outs m) c b) ((Run.pdats m h (23 : Fin 33) c).arrAt · (G23.cfgM (Run.tbl23 m) h.ok23).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S23

end
-- ==== Proof.K.G23V.lean ====
/-
  What gather region 0 leaves in its output array: point t writes back row `tb[t]` of the array it reads as row t, the
  50000 rows tile the output, so the array ends as the gathered rows.
-/
import proofs.«406793_j90890097918585_2_alg».proof.Proof.K.G23
import proofs.«406793_j90890097918585_2_alg».proof.Proof.K.Vals
import Idealize.ShloMosaic.Lib.Pipeline.Value

set_option maxRecDepth 16384

noncomputable section

namespace Cert.Kernel.G23

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre23.Contents (Elt F)) (hO : ok23 (F := F) tb)

/-! ## The two windows' block rows at a point -/

/-- A point of the grid is below 50000. -/
private theorem point_lt (t : Fin (cfgM tb hO).N) : t.val < 50000 := by
  have h : t.val < grid23.N := t.isLt
  rw [N_23] at h
  exact h

/-- The grid has one axis: the coordinate of point t is t. -/
private theorem coords_0 (t : Fin (cfgM tb hO).N) : (grid23.coords t 0).val = t.val := by
  have ht := point_lt tb hO t
  show t.val / grid23.stride 0 % grid23.bound 0 = t.val
  rw [show grid23.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc23_transform_1 (grid23.coords t) 0 = t.val
  unfold cc23_transform_1
  show (BitVec.ofNat 32 (grid23.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid23.N
  · exact Or.inl h
  · have hlt : t.val < grid23.N := t.isLt
    refine Or.inr ⟨by show t.val + 1 < grid23.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc23_transform_0 k23_off1_inb numel1_S1 tb (grid23.coords t) 0 = _
  unfold cc23_transform_0
  dsimp only
  refine congrArg BitVec.toNat (congrArg (tb 0 : S50000.Idx → BitVec 32) ?_)
  funext d
  match d with
  | ⟨0, _⟩ =>
    apply Fin.ext
    show (Scalar.indexCast (BitVec.ofNat 32 (grid23.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k23_pay1 x = x := by
  unfold k23_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v308 (ValueIdx.ix3 (Vals.rowOf ((tb 0 : S50000.Idx → BitVec 32) (ValueIdx.ix1 ⟨t.val, point_lt tb hO t⟩))) (y 1) (y 2)) := by
  show V c main_v308 ((((cfgM tb hO).win 0).blk t).view.emb y) = _
  refine congrArg (V c main_v308) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v308) (tb 0)) := by
  show ((cfgM tb hO).win 1).cut (grid23.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v308) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v309 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid23.N := by rw [N_23]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v308) (tb 0) :=
  (dat V tb hO c).arrAt_eq_of_cover 1 (Vals.gath3Of (V c main_v308) (tb 0)) (fun t _ => flushed_1 V tb hO htb c t)
    (cover_blk_1 tb hO)

end Cert.Kernel.G23

end
-- ==== Proof.K.S24.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S24

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (24 : Fin 33) c = G24.dat (Run.Ve24 m) (Run.tbl24 m) h.ok24 c := rfl

/-- On the one device the table's buffer holds the table. -/
theorem tbl_eq (c : Dev nD) : (fun k => Run.Ve24 m c (pre24.ref k)) = Run.tbl24 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec24 c (Run.Ve24 m c) : sProp 𝕄)
      = iprop(Pipeline.prefHeld (Ix := Unit) (Name := ℕ) (U := UR sig nD τ) (Lvl := ℕ) pre24 c (fun _ => fullShare) (Run.tbl24 m)
          ∗ Pipeline.unscopedRestP (Ix := Unit) (Name := ℕ) (U := UR sig nD τ) (Lvl := ℕ) pre24 spec24 c (Run.Ve24 m c)) := by
  have hs := Pipeline.unscopedRest_split (Ix := Unit) (Name := ℕ) (U := UR sig nD τ) (Lvl := ℕ) (Val := Elt F) (launch24 (F := F)).pre c (Run.Ve24 m c)
  rw [← tbl_eq m c]
  exact hs

/-- After the region each of its arrays holds what the pipeline leaves: the array read as entered, the output at the gathered rows. -/
theorem hF (harr : ∀ c : Dev nD, (G24.dat (Run.Ve24 m) (Run.tbl24 m) h.ok24 c).arrAt 1 (G24.cfgM (Run.tbl24 m) h.ok24).N = Vals.gath3 m 24 c)
    (c : Dev nD) (w : Fin (G24.cfgM (Run.tbl24 m) h.ok24).W) :
    (G24.dat (Run.Ve24 m) (Run.tbl24 m) h.ok24 c).arrAt w (G24.cfgM (Run.tbl24 m) h.ok24).N
      = GenP.V50 m (Vals.outs m) c (Pipeline.arrRef spec24 w) := by
  match w with
  | ⟨0, _⟩ =>
    refine ((G24.dat (Run.Ve24 m) (Run.tbl24 m) h.ok24 c).arrAt_in 0 rfl _).trans ((G24.A_eq (Run.Ve24 m) (Run.tbl24 m) h.ok24 c 0).trans ?_)
    exact (GenP.V50_of m (Vals.outs m) c main_v321 (by decide)).symm
  | ⟨1, _⟩ =>
    refine (harr c).trans ?_
    show Vals.gath3 m 24 c = Function.update (GenP.V49 m (Vals.outs m) c) main_v322 (Vals.outs m 50 main_v322 c) main_v322
    rw [Function.update_self, Vals.outs_24]

/-- and every other buffer what it held at entry. -/
theorem hrest (c : Dev nD) : ∀ b, b ∉ Finset.univ.image (Pipeline.arrRef spec24) →
    (fun b : Ref sig .tc => GenP.V50 m (Vals.outs m) c b) b = Run.Ve24 m c b := fun b hb =>
  GenP.V50_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G24.dat (Run.Ve24 m) (Run.tbl24 m) h.ok24 c).arrAt 1 (G24.cfgM (Run.tbl24 m) h.ok24).N = Vals.gath3 m 24 c) :
    Pipeline.RegionSeg (pcfgs (F := F)) (Run.a m h) (Run.pdats m h) () defs₀ Run.𝒱₀ Run.L Run.lv (24 : Fin 33) where
  win := (launch24 (F := F)).win.to₀
  block_pos := (launch24 (F := F)).block_pos
  stage_whole := (launch24 (F := F)).stage_whole
  K := PEmpty
  osem k := k.elim
  ho := Pipeline.OwnSemFacts.none _
  hbody c := (G24.body_obligation (Run.Ve24 m) (Run.tbl24 m) h.ok24 c).loose
  hwaits := Pipeline.hwaits_of_owed_zero _ _ _ _ Run.L Run.lv (24 : Fin 33) fun _ _ => rfl
  pre c := iprop(StableHlo.held (c : Thread nD τ) (Pipeline.ucRefs τ sig) (GenP.V49 m (Vals.outs m) c) ∗ Run.R c)
  post c := iprop(StableHlo.held (c : Thread nD τ) (Pipeline.ucRefs τ sig) (GenP.V50 m (Vals.outs m) c) ∗ Run.R c)
  X c := iprop(∃ r, prngReg c r)
  Y c := iprop((∃ r, prngReg c r) ∗ Pipeline.prefHeld (Ix := Unit) (Name := ℕ) (U := UR sig nD τ) (Lvl := ℕ) pre24 c (fun _ => fullShare) (Run.tbl24 m))
  Z c := Pipeline.unscopedRestP (Ix := Unit) (Name := ℕ) (U := UR sig nD τ) (Lvl := ℕ) pre24 spec24 c (Run.Ve24 m c)
  hentry c := by
    rw [Pipeline.ownSems0_none]
    have hsplit := Pipeline.arrays_of_unscopedBufs (p := (24 : Fin 33)) (pcfgs (F := F)) (Run.a m h) (Run.pdats m h) (launch24 (F := F)).win (launch24 (F := F)).arr_whole c
      ((Run.pdats m h (24 : Fin 33) c).share_full fun _ => rfl) (Run.Ve24 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (24 : Fin 33) c).Φ 0 = iprop(Pipeline.ΦA spec24 c ∗ Pipeline.prefHeld (Ix := Unit) (Name := ℕ) (U := UR sig nD τ) (Lvl := ℕ) pre24 c (fun _ => fullShare) (Run.tbl24 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (24 : Fin 33) c).Φ (Fin.last _) = iprop(Pipeline.ΦA spec24 c ∗ Pipeline.prefHeld (Ix := Unit) (Name := ℕ) (U := UR sig nD τ) (Lvl := ℕ) pre24 c (fun _ => fullShare) (Run.tbl24 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (24 : Fin 33)) (pcfgs (F := F)) (Run.a m h) (Ix := Unit) (Name := ℕ) (U := UR sig nD τ) (Lvl := ℕ)
      (launch24 (F := F)).win (launch24 (F := F)).arr_whole c (Run.pdats m h) ((Run.pdats m h (24 : Fin 33) c).share_full fun _ => rfl)
      (Run.Ve24 m c) (fun b => GenP.V50 m (Vals.outs m) c b) ((Run.pdats m h (24 : Fin 33) c).arrAt · (G24.cfgM (Run.tbl24 m) h.ok24).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S24

end
-- ==== Proof.K.G24V.lean ====
/-
  What gather region 0 leaves in its output array: point t writes back row `tb[t]` of the array it reads as row t, the
  50000 rows tile the output, so the array ends as the gathered rows.
-/
import proofs.«406793_j90890097918585_2_alg».proof.Proof.K.G24
import proofs.«406793_j90890097918585_2_alg».proof.Proof.K.Vals
import Idealize.ShloMosaic.Lib.Pipeline.Value

set_option maxRecDepth 16384

noncomputable section

namespace Cert.Kernel.G24

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre24.Contents (Elt F)) (hO : ok24 (F := F) tb)

/-! ## The two windows' block rows at a point -/

/-- A point of the grid is below 50000. -/
private theorem point_lt (t : Fin (cfgM tb hO).N) : t.val < 50000 := by
  have h : t.val < grid24.N := t.isLt
  rw [N_24] at h
  exact h

/-- The grid has one axis: the coordinate of point t is t. -/
private theorem coords_0 (t : Fin (cfgM tb hO).N) : (grid24.coords t 0).val = t.val := by
  have ht := point_lt tb hO t
  show t.val / grid24.stride 0 % grid24.bound 0 = t.val
  rw [show grid24.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc24_transform_1 (grid24.coords t) 0 = t.val
  unfold cc24_transform_1
  show (BitVec.ofNat 32 (grid24.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid24.N
  · exact Or.inl h
  · have hlt : t.val < grid24.N := t.isLt
    refine Or.inr ⟨by show t.val + 1 < grid24.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc24_transform_0 k24_off1_inb numel1_S1 tb (grid24.coords t) 0 = _
  unfold cc24_transform_0
  dsimp only
  refine congrArg BitVec.toNat (congrArg (tb 0 : S50000.Idx → BitVec 32) ?_)
  funext d
  match d with
  | ⟨0, _⟩ =>
    apply Fin.ext
    show (Scalar.indexCast (BitVec.ofNat 32 (grid24.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k24_pay1 x = x := by
  unfold k24_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v321 (ValueIdx.ix3 (Vals.rowOf ((tb 0 : S50000.Idx → BitVec 32) (ValueIdx.ix1 ⟨t.val, point_lt tb hO t⟩))) (y 1) (y 2)) := by
  show V c main_v321 ((((cfgM tb hO).win 0).blk t).view.emb y) = _
  refine congrArg (V c main_v321) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v321) (tb 0)) := by
  show ((cfgM tb hO).win 1).cut (grid24.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v321) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v322 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid24.N := by rw [N_24]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v321) (tb 0) :=
  (dat V tb hO c).arrAt_eq_of_cover 1 (Vals.gath3Of (V c main_v321) (tb 0)) (fun t _ => flushed_1 V tb hO htb c t)
    (cover_blk_1 tb hO)

end Cert.Kernel.G24

end
-- ==== Proof.K.S25.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S25

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (25 : Fin 33) c = G25.dat (Run.Ve25 m) (Run.tbl25 m) h.ok25 c := rfl

/-- On the one device the table's buffer holds the table. -/
theorem tbl_eq (c : Dev nD) : (fun k => Run.Ve25 m c (pre25.ref k)) = Run.tbl25 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec25 c (Run.Ve25 m c) : sProp 𝕄)
      = iprop(Pipeline.prefHeld (Ix := Unit) (Name := ℕ) (U := UR sig nD τ) (Lvl := ℕ) pre25 c (fun _ => fullShare) (Run.tbl25 m)
          ∗ Pipeline.unscopedRestP (Ix := Unit) (Name := ℕ) (U := UR sig nD τ) (Lvl := ℕ) pre25 spec25 c (Run.Ve25 m c)) := by
  have hs := Pipeline.unscopedRest_split (Ix := Unit) (Name := ℕ) (U := UR sig nD τ) (Lvl := ℕ) (Val := Elt F) (launch25 (F := F)).pre c (Run.Ve25 m c)
  rw [← tbl_eq m c]
  exact hs

/-- After the region each of its arrays holds what the pipeline leaves: the array read as entered, the output at the gathered rows. -/
theorem hF (harr : ∀ c : Dev nD, (G25.dat (Run.Ve25 m) (Run.tbl25 m) h.ok25 c).arrAt 1 (G25.cfgM (Run.tbl25 m) h.ok25).N = Vals.gath3 m 25 c)
    (c : Dev nD) (w : Fin (G25.cfgM (Run.tbl25 m) h.ok25).W) :
    (G25.dat (Run.Ve25 m) (Run.tbl25 m) h.ok25 c).arrAt w (G25.cfgM (Run.tbl25 m) h.ok25).N
      = GenP.V52 m (Vals.outs m) c (Pipeline.arrRef spec25 w) := by
  match w with
  | ⟨0, _⟩ =>
    refine ((G25.dat (Run.Ve25 m) (Run.tbl25 m) h.ok25 c).arrAt_in 0 rfl _).trans ((G25.A_eq (Run.Ve25 m) (Run.tbl25 m) h.ok25 c 0).trans ?_)
    exact (GenP.V52_of m (Vals.outs m) c main_v334 (by decide)).symm
  | ⟨1, _⟩ =>
    refine (harr c).trans ?_
    show Vals.gath3 m 25 c = Function.update (GenP.V51 m (Vals.outs m) c) main_v335 (Vals.outs m 52 main_v335 c) main_v335
    rw [Function.update_self, Vals.outs_25]

/-- and every other buffer what it held at entry. -/
theorem hrest (c : Dev nD) : ∀ b, b ∉ Finset.univ.image (Pipeline.arrRef spec25) →
    (fun b : Ref sig .tc => GenP.V52 m (Vals.outs m) c b) b = Run.Ve25 m c b := fun b hb =>
  GenP.V52_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G25.dat (Run.Ve25 m) (Run.tbl25 m) h.ok25 c).arrAt 1 (G25.cfgM (Run.tbl25 m) h.ok25).N = Vals.gath3 m 25 c) :
    Pipeline.RegionSeg (pcfgs (F := F)) (Run.a m h) (Run.pdats m h) () defs₀ Run.𝒱₀ Run.L Run.lv (25 : Fin 33) where
  win := (launch25 (F := F)).win.to₀
  block_pos := (launch25 (F := F)).block_pos
  stage_whole := (launch25 (F := F)).stage_whole
  K := PEmpty
  osem k := k.elim
  ho := Pipeline.OwnSemFacts.none _
  hbody c := (G25.body_obligation (Run.Ve25 m) (Run.tbl25 m) h.ok25 c).loose
  hwaits := Pipeline.hwaits_of_owed_zero _ _ _ _ Run.L Run.lv (25 : Fin 33) fun _ _ => rfl
  pre c := iprop(StableHlo.held (c : Thread nD τ) (Pipeline.ucRefs τ sig) (GenP.V51 m (Vals.outs m) c) ∗ Run.R c)
  post c := iprop(StableHlo.held (c : Thread nD τ) (Pipeline.ucRefs τ sig) (GenP.V52 m (Vals.outs m) c) ∗ Run.R c)
  X c := iprop(∃ r, prngReg c r)
  Y c := iprop((∃ r, prngReg c r) ∗ Pipeline.prefHeld (Ix := Unit) (Name := ℕ) (U := UR sig nD τ) (Lvl := ℕ) pre25 c (fun _ => fullShare) (Run.tbl25 m))
  Z c := Pipeline.unscopedRestP (Ix := Unit) (Name := ℕ) (U := UR sig nD τ) (Lvl := ℕ) pre25 spec25 c (Run.Ve25 m c)
  hentry c := by
    rw [Pipeline.ownSems0_none]
    have hsplit := Pipeline.arrays_of_unscopedBufs (p := (25 : Fin 33)) (pcfgs (F := F)) (Run.a m h) (Run.pdats m h) (launch25 (F := F)).win (launch25 (F := F)).arr_whole c
      ((Run.pdats m h (25 : Fin 33) c).share_full fun _ => rfl) (Run.Ve25 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (25 : Fin 33) c).Φ 0 = iprop(Pipeline.ΦA spec25 c ∗ Pipeline.prefHeld (Ix := Unit) (Name := ℕ) (U := UR sig nD τ) (Lvl := ℕ) pre25 c (fun _ => fullShare) (Run.tbl25 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (25 : Fin 33) c).Φ (Fin.last _) = iprop(Pipeline.ΦA spec25 c ∗ Pipeline.prefHeld (Ix := Unit) (Name := ℕ) (U := UR sig nD τ) (Lvl := ℕ) pre25 c (fun _ => fullShare) (Run.tbl25 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (25 : Fin 33)) (pcfgs (F := F)) (Run.a m h) (Ix := Unit) (Name := ℕ) (U := UR sig nD τ) (Lvl := ℕ)
      (launch25 (F := F)).win (launch25 (F := F)).arr_whole c (Run.pdats m h) ((Run.pdats m h (25 : Fin 33) c).share_full fun _ => rfl)
      (Run.Ve25 m c) (fun b => GenP.V52 m (Vals.outs m) c b) ((Run.pdats m h (25 : Fin 33) c).arrAt · (G25.cfgM (Run.tbl25 m) h.ok25).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S25

end
-- ==== Proof.K.G25V.lean ====
/-
  What gather region 0 leaves in its output array: point t writes back row `tb[t]` of the array it reads as row t, the
  50000 rows tile the output, so the array ends as the gathered rows.
-/
import proofs.«406793_j90890097918585_2_alg».proof.Proof.K.G25
import proofs.«406793_j90890097918585_2_alg».proof.Proof.K.Vals
import Idealize.ShloMosaic.Lib.Pipeline.Value

set_option maxRecDepth 16384

noncomputable section

namespace Cert.Kernel.G25

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre25.Contents (Elt F)) (hO : ok25 (F := F) tb)

/-! ## The two windows' block rows at a point -/

/-- A point of the grid is below 50000. -/
private theorem point_lt (t : Fin (cfgM tb hO).N) : t.val < 50000 := by
  have h : t.val < grid25.N := t.isLt
  rw [N_25] at h
  exact h

/-- The grid has one axis: the coordinate of point t is t. -/
private theorem coords_0 (t : Fin (cfgM tb hO).N) : (grid25.coords t 0).val = t.val := by
  have ht := point_lt tb hO t
  show t.val / grid25.stride 0 % grid25.bound 0 = t.val
  rw [show grid25.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc25_transform_1 (grid25.coords t) 0 = t.val
  unfold cc25_transform_1
  show (BitVec.ofNat 32 (grid25.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid25.N
  · exact Or.inl h
  · have hlt : t.val < grid25.N := t.isLt
    refine Or.inr ⟨by show t.val + 1 < grid25.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc25_transform_0 k25_off1_inb numel1_S1 tb (grid25.coords t) 0 = _
  unfold cc25_transform_0
  dsimp only
  refine congrArg BitVec.toNat (congrArg (tb 0 : S50000.Idx → BitVec 32) ?_)
  funext d
  match d with
  | ⟨0, _⟩ =>
    apply Fin.ext
    show (Scalar.indexCast (BitVec.ofNat 32 (grid25.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k25_pay1 x = x := by
  unfold k25_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v334 (ValueIdx.ix3 (Vals.rowOf ((tb 0 : S50000.Idx → BitVec 32) (ValueIdx.ix1 ⟨t.val, point_lt tb hO t⟩))) (y 1) (y 2)) := by
  show V c main_v334 ((((cfgM tb hO).win 0).blk t).view.emb y) = _
  refine congrArg (V c main_v334) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v334) (tb 0)) := by
  show ((cfgM tb hO).win 1).cut (grid25.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v334) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v335 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid25.N := by rw [N_25]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v334) (tb 0) :=
  (dat V tb hO c).arrAt_eq_of_cover 1 (Vals.gath3Of (V c main_v334) (tb 0)) (fun t _ => flushed_1 V tb hO htb c t)
    (cover_blk_1 tb hO)

end Cert.Kernel.G25

end
-- ==== Proof.K.S26.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S26

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (26 : Fin 33) c = G26.dat (Run.Ve26 m) (Run.tbl26 m) h.ok26 c := rfl

/-- On the one device the table's buffer holds the table. -/
theorem tbl_eq (c : Dev nD) : (fun k => Run.Ve26 m c (pre26.ref k)) = Run.tbl26 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec26 c (Run.Ve26 m c) : sProp 𝕄)
      = iprop(Pipeline.prefHeld (Ix := Unit) (Name := ℕ) (U := UR sig nD τ) (Lvl := ℕ) pre26 c (fun _ => fullShare) (Run.tbl26 m)
          ∗ Pipeline.unscopedRestP (Ix := Unit) (Name := ℕ) (U := UR sig nD τ) (Lvl := ℕ) pre26 spec26 c (Run.Ve26 m c)) := by
  have hs := Pipeline.unscopedRest_split (Ix := Unit) (Name := ℕ) (U := UR sig nD τ) (Lvl := ℕ) (Val := Elt F) (launch26 (F := F)).pre c (Run.Ve26 m c)
  rw [← tbl_eq m c]
  exact hs

/-- After the region each of its arrays holds what the pipeline leaves: the array read as entered, the output at the gathered rows. -/
theorem hF (harr : ∀ c : Dev nD, (G26.dat (Run.Ve26 m) (Run.tbl26 m) h.ok26 c).arrAt 1 (G26.cfgM (Run.tbl26 m) h.ok26).N = Vals.gath3 m 26 c)
    (c : Dev nD) (w : Fin (G26.cfgM (Run.tbl26 m) h.ok26).W) :
    (G26.dat (Run.Ve26 m) (Run.tbl26 m) h.ok26 c).arrAt w (G26.cfgM (Run.tbl26 m) h.ok26).N
      = GenP.V54 m (Vals.outs m) c (Pipeline.arrRef spec26 w) := by
  match w with
  | ⟨0, _⟩ =>
    refine ((G26.dat (Run.Ve26 m) (Run.tbl26 m) h.ok26 c).arrAt_in 0 rfl _).trans ((G26.A_eq (Run.Ve26 m) (Run.tbl26 m) h.ok26 c 0).trans ?_)
    exact (GenP.V54_of m (Vals.outs m) c main_v347 (by decide)).symm
  | ⟨1, _⟩ =>
    refine (harr c).trans ?_
    show Vals.gath3 m 26 c = Function.update (GenP.V53 m (Vals.outs m) c) main_v348 (Vals.outs m 54 main_v348 c) main_v348
    rw [Function.update_self, Vals.outs_26]

/-- and every other buffer what it held at entry. -/
theorem hrest (c : Dev nD) : ∀ b, b ∉ Finset.univ.image (Pipeline.arrRef spec26) →
    (fun b : Ref sig .tc => GenP.V54 m (Vals.outs m) c b) b = Run.Ve26 m c b := fun b hb =>
  GenP.V54_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G26.dat (Run.Ve26 m) (Run.tbl26 m) h.ok26 c).arrAt 1 (G26.cfgM (Run.tbl26 m) h.ok26).N = Vals.gath3 m 26 c) :
    Pipeline.RegionSeg (pcfgs (F := F)) (Run.a m h) (Run.pdats m h) () defs₀ Run.𝒱₀ Run.L Run.lv (26 : Fin 33) where
  win := (launch26 (F := F)).win.to₀
  block_pos := (launch26 (F := F)).block_pos
  stage_whole := (launch26 (F := F)).stage_whole
  K := PEmpty
  osem k := k.elim
  ho := Pipeline.OwnSemFacts.none _
  hbody c := (G26.body_obligation (Run.Ve26 m) (Run.tbl26 m) h.ok26 c).loose
  hwaits := Pipeline.hwaits_of_owed_zero _ _ _ _ Run.L Run.lv (26 : Fin 33) fun _ _ => rfl
  pre c := iprop(StableHlo.held (c : Thread nD τ) (Pipeline.ucRefs τ sig) (GenP.V53 m (Vals.outs m) c) ∗ Run.R c)
  post c := iprop(StableHlo.held (c : Thread nD τ) (Pipeline.ucRefs τ sig) (GenP.V54 m (Vals.outs m) c) ∗ Run.R c)
  X c := iprop(∃ r, prngReg c r)
  Y c := iprop((∃ r, prngReg c r) ∗ Pipeline.prefHeld (Ix := Unit) (Name := ℕ) (U := UR sig nD τ) (Lvl := ℕ) pre26 c (fun _ => fullShare) (Run.tbl26 m))
  Z c := Pipeline.unscopedRestP (Ix := Unit) (Name := ℕ) (U := UR sig nD τ) (Lvl := ℕ) pre26 spec26 c (Run.Ve26 m c)
  hentry c := by
    rw [Pipeline.ownSems0_none]
    have hsplit := Pipeline.arrays_of_unscopedBufs (p := (26 : Fin 33)) (pcfgs (F := F)) (Run.a m h) (Run.pdats m h) (launch26 (F := F)).win (launch26 (F := F)).arr_whole c
      ((Run.pdats m h (26 : Fin 33) c).share_full fun _ => rfl) (Run.Ve26 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (26 : Fin 33) c).Φ 0 = iprop(Pipeline.ΦA spec26 c ∗ Pipeline.prefHeld (Ix := Unit) (Name := ℕ) (U := UR sig nD τ) (Lvl := ℕ) pre26 c (fun _ => fullShare) (Run.tbl26 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (26 : Fin 33) c).Φ (Fin.last _) = iprop(Pipeline.ΦA spec26 c ∗ Pipeline.prefHeld (Ix := Unit) (Name := ℕ) (U := UR sig nD τ) (Lvl := ℕ) pre26 c (fun _ => fullShare) (Run.tbl26 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (26 : Fin 33)) (pcfgs (F := F)) (Run.a m h) (Ix := Unit) (Name := ℕ) (U := UR sig nD τ) (Lvl := ℕ)
      (launch26 (F := F)).win (launch26 (F := F)).arr_whole c (Run.pdats m h) ((Run.pdats m h (26 : Fin 33) c).share_full fun _ => rfl)
      (Run.Ve26 m c) (fun b => GenP.V54 m (Vals.outs m) c b) ((Run.pdats m h (26 : Fin 33) c).arrAt · (G26.cfgM (Run.tbl26 m) h.ok26).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S26

end
-- ==== Proof.K.G26V.lean ====
/-
  What gather region 0 leaves in its output array: point t writes back row `tb[t]` of the array it reads as row t, the
  50000 rows tile the output, so the array ends as the gathered rows.
-/
import proofs.«406793_j90890097918585_2_alg».proof.Proof.K.G26
import proofs.«406793_j90890097918585_2_alg».proof.Proof.K.Vals
import Idealize.ShloMosaic.Lib.Pipeline.Value

set_option maxRecDepth 16384

noncomputable section

namespace Cert.Kernel.G26

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre26.Contents (Elt F)) (hO : ok26 (F := F) tb)

/-! ## The two windows' block rows at a point -/

/-- A point of the grid is below 50000. -/
private theorem point_lt (t : Fin (cfgM tb hO).N) : t.val < 50000 := by
  have h : t.val < grid26.N := t.isLt
  rw [N_26] at h
  exact h

/-- The grid has one axis: the coordinate of point t is t. -/
private theorem coords_0 (t : Fin (cfgM tb hO).N) : (grid26.coords t 0).val = t.val := by
  have ht := point_lt tb hO t
  show t.val / grid26.stride 0 % grid26.bound 0 = t.val
  rw [show grid26.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc26_transform_1 (grid26.coords t) 0 = t.val
  unfold cc26_transform_1
  show (BitVec.ofNat 32 (grid26.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid26.N
  · exact Or.inl h
  · have hlt : t.val < grid26.N := t.isLt
    refine Or.inr ⟨by show t.val + 1 < grid26.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc26_transform_0 k26_off1_inb numel1_S1 tb (grid26.coords t) 0 = _
  unfold cc26_transform_0
  dsimp only
  refine congrArg BitVec.toNat (congrArg (tb 0 : S50000.Idx → BitVec 32) ?_)
  funext d
  match d with
  | ⟨0, _⟩ =>
    apply Fin.ext
    show (Scalar.indexCast (BitVec.ofNat 32 (grid26.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k26_pay1 x = x := by
  unfold k26_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v347 (ValueIdx.ix3 (Vals.rowOf ((tb 0 : S50000.Idx → BitVec 32) (ValueIdx.ix1 ⟨t.val, point_lt tb hO t⟩))) (y 1) (y 2)) := by
  show V c main_v347 ((((cfgM tb hO).win 0).blk t).view.emb y) = _
  refine congrArg (V c main_v347) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v347) (tb 0)) := by
  show ((cfgM tb hO).win 1).cut (grid26.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v347) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v348 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid26.N := by rw [N_26]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v347) (tb 0) :=
  (dat V tb hO c).arrAt_eq_of_cover 1 (Vals.gath3Of (V c main_v347) (tb 0)) (fun t _ => flushed_1 V tb hO htb c t)
    (cover_blk_1 tb hO)

end Cert.Kernel.G26

end
-- ==== Proof.K.S27.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S27

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (27 : Fin 33) c = G27.dat (Run.Ve27 m) (Run.tbl27 m) h.ok27 c := rfl

/-- On the one device the table's buffer holds the table. -/
theorem tbl_eq (c : Dev nD) : (fun k => Run.Ve27 m c (pre27.ref k)) = Run.tbl27 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec27 c (Run.Ve27 m c) : sProp 𝕄)
      = iprop(Pipeline.prefHeld (Ix := Unit) (Name := ℕ) (U := UR sig nD τ) (Lvl := ℕ) pre27 c (fun _ => fullShare) (Run.tbl27 m)
          ∗ Pipeline.unscopedRestP (Ix := Unit) (Name := ℕ) (U := UR sig nD τ) (Lvl := ℕ) pre27 spec27 c (Run.Ve27 m c)) := by
  have hs := Pipeline.unscopedRest_split (Ix := Unit) (Name := ℕ) (U := UR sig nD τ) (Lvl := ℕ) (Val := Elt F) (launch27 (F := F)).pre c (Run.Ve27 m c)
  rw [← tbl_eq m c]
  exact hs

/-- After the region each of its arrays holds what the pipeline leaves: the array read as entered, the output at the gathered rows. -/
theorem hF (harr : ∀ c : Dev nD, (G27.dat (Run.Ve27 m) (Run.tbl27 m) h.ok27 c).arrAt 1 (G27.cfgM (Run.tbl27 m) h.ok27).N = Vals.gath3 m 27 c)
    (c : Dev nD) (w : Fin (G27.cfgM (Run.tbl27 m) h.ok27).W) :
    (G27.dat (Run.Ve27 m) (Run.tbl27 m) h.ok27 c).arrAt w (G27.cfgM (Run.tbl27 m) h.ok27).N
      = GenP.V56 m (Vals.outs m) c (Pipeline.arrRef spec27 w) := by
  match w with
  | ⟨0, _⟩ =>
    refine ((G27.dat (Run.Ve27 m) (Run.tbl27 m) h.ok27 c).arrAt_in 0 rfl _).trans ((G27.A_eq (Run.Ve27 m) (Run.tbl27 m) h.ok27 c 0).trans ?_)
    exact (GenP.V56_of m (Vals.outs m) c main_v360 (by decide)).symm
  | ⟨1, _⟩ =>
    refine (harr c).trans ?_
    show Vals.gath3 m 27 c = Function.update (GenP.V55 m (Vals.outs m) c) main_v361 (Vals.outs m 56 main_v361 c) main_v361
    rw [Function.update_self, Vals.outs_27]

/-- and every other buffer what it held at entry. -/
theorem hrest (c : Dev nD) : ∀ b, b ∉ Finset.univ.image (Pipeline.arrRef spec27) →
    (fun b : Ref sig .tc => GenP.V56 m (Vals.outs m) c b) b = Run.Ve27 m c b := fun b hb =>
  GenP.V56_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G27.dat (Run.Ve27 m) (Run.tbl27 m) h.ok27 c).arrAt 1 (G27.cfgM (Run.tbl27 m) h.ok27).N = Vals.gath3 m 27 c) :
    Pipeline.RegionSeg (pcfgs (F := F)) (Run.a m h) (Run.pdats m h) () defs₀ Run.𝒱₀ Run.L Run.lv (27 : Fin 33) where
  win := (launch27 (F := F)).win.to₀
  block_pos := (launch27 (F := F)).block_pos
  stage_whole := (launch27 (F := F)).stage_whole
  K := PEmpty
  osem k := k.elim
  ho := Pipeline.OwnSemFacts.none _
  hbody c := (G27.body_obligation (Run.Ve27 m) (Run.tbl27 m) h.ok27 c).loose
  hwaits := Pipeline.hwaits_of_owed_zero _ _ _ _ Run.L Run.lv (27 : Fin 33) fun _ _ => rfl
  pre c := iprop(StableHlo.held (c : Thread nD τ) (Pipeline.ucRefs τ sig) (GenP.V55 m (Vals.outs m) c) ∗ Run.R c)
  post c := iprop(StableHlo.held (c : Thread nD τ) (Pipeline.ucRefs τ sig) (GenP.V56 m (Vals.outs m) c) ∗ Run.R c)
  X c := iprop(∃ r, prngReg c r)
  Y c := iprop((∃ r, prngReg c r) ∗ Pipeline.prefHeld (Ix := Unit) (Name := ℕ) (U := UR sig nD τ) (Lvl := ℕ) pre27 c (fun _ => fullShare) (Run.tbl27 m))
  Z c := Pipeline.unscopedRestP (Ix := Unit) (Name := ℕ) (U := UR sig nD τ) (Lvl := ℕ) pre27 spec27 c (Run.Ve27 m c)
  hentry c := by
    rw [Pipeline.ownSems0_none]
    have hsplit := Pipeline.arrays_of_unscopedBufs (p := (27 : Fin 33)) (pcfgs (F := F)) (Run.a m h) (Run.pdats m h) (launch27 (F := F)).win (launch27 (F := F)).arr_whole c
      ((Run.pdats m h (27 : Fin 33) c).share_full fun _ => rfl) (Run.Ve27 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (27 : Fin 33) c).Φ 0 = iprop(Pipeline.ΦA spec27 c ∗ Pipeline.prefHeld (Ix := Unit) (Name := ℕ) (U := UR sig nD τ) (Lvl := ℕ) pre27 c (fun _ => fullShare) (Run.tbl27 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (27 : Fin 33) c).Φ (Fin.last _) = iprop(Pipeline.ΦA spec27 c ∗ Pipeline.prefHeld (Ix := Unit) (Name := ℕ) (U := UR sig nD τ) (Lvl := ℕ) pre27 c (fun _ => fullShare) (Run.tbl27 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (27 : Fin 33)) (pcfgs (F := F)) (Run.a m h) (Ix := Unit) (Name := ℕ) (U := UR sig nD τ) (Lvl := ℕ)
      (launch27 (F := F)).win (launch27 (F := F)).arr_whole c (Run.pdats m h) ((Run.pdats m h (27 : Fin 33) c).share_full fun _ => rfl)
      (Run.Ve27 m c) (fun b => GenP.V56 m (Vals.outs m) c b) ((Run.pdats m h (27 : Fin 33) c).arrAt · (G27.cfgM (Run.tbl27 m) h.ok27).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S27

end
-- ==== Proof.K.G27V.lean ====
/-
  What gather region 0 leaves in its output array: point t writes back row `tb[t]` of the array it reads as row t, the
  50000 rows tile the output, so the array ends as the gathered rows.
-/
import proofs.«406793_j90890097918585_2_alg».proof.Proof.K.G27
import proofs.«406793_j90890097918585_2_alg».proof.Proof.K.Vals
import Idealize.ShloMosaic.Lib.Pipeline.Value

set_option maxRecDepth 16384

noncomputable section

namespace Cert.Kernel.G27

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre27.Contents (Elt F)) (hO : ok27 (F := F) tb)

/-! ## The two windows' block rows at a point -/

/-- A point of the grid is below 50000. -/
private theorem point_lt (t : Fin (cfgM tb hO).N) : t.val < 50000 := by
  have h : t.val < grid27.N := t.isLt
  rw [N_27] at h
  exact h

/-- The grid has one axis: the coordinate of point t is t. -/
private theorem coords_0 (t : Fin (cfgM tb hO).N) : (grid27.coords t 0).val = t.val := by
  have ht := point_lt tb hO t
  show t.val / grid27.stride 0 % grid27.bound 0 = t.val
  rw [show grid27.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc27_transform_1 (grid27.coords t) 0 = t.val
  unfold cc27_transform_1
  show (BitVec.ofNat 32 (grid27.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid27.N
  · exact Or.inl h
  · have hlt : t.val < grid27.N := t.isLt
    refine Or.inr ⟨by show t.val + 1 < grid27.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc27_transform_0 k27_off1_inb numel1_S1 tb (grid27.coords t) 0 = _
  unfold cc27_transform_0
  dsimp only
  refine congrArg BitVec.toNat (congrArg (tb 0 : S50000.Idx → BitVec 32) ?_)
  funext d
  match d with
  | ⟨0, _⟩ =>
    apply Fin.ext
    show (Scalar.indexCast (BitVec.ofNat 32 (grid27.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k27_pay1 x = x := by
  unfold k27_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v360 (ValueIdx.ix3 (Vals.rowOf ((tb 0 : S50000.Idx → BitVec 32) (ValueIdx.ix1 ⟨t.val, point_lt tb hO t⟩))) (y 1) (y 2)) := by
  show V c main_v360 ((((cfgM tb hO).win 0).blk t).view.emb y) = _
  refine congrArg (V c main_v360) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v360) (tb 0)) := by
  show ((cfgM tb hO).win 1).cut (grid27.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v360) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v361 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid27.N := by rw [N_27]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v360) (tb 0) :=
  (dat V tb hO c).arrAt_eq_of_cover 1 (Vals.gath3Of (V c main_v360) (tb 0)) (fun t _ => flushed_1 V tb hO htb c t)
    (cover_blk_1 tb hO)

end Cert.Kernel.G27

end
-- ==== Proof.K.S28.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S28

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (28 : Fin 33) c = G28.dat (Run.Ve28 m) (Run.tbl28 m) h.ok28 c := rfl

/-- On the one device the table's buffer holds the table. -/
theorem tbl_eq (c : Dev nD) : (fun k => Run.Ve28 m c (pre28.ref k)) = Run.tbl28 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec28 c (Run.Ve28 m c) : sProp 𝕄)
      = iprop(Pipeline.prefHeld (Ix := Unit) (Name := ℕ) (U := UR sig nD τ) (Lvl := ℕ) pre28 c (fun _ => fullShare) (Run.tbl28 m)
          ∗ Pipeline.unscopedRestP (Ix := Unit) (Name := ℕ) (U := UR sig nD τ) (Lvl := ℕ) pre28 spec28 c (Run.Ve28 m c)) := by
  have hs := Pipeline.unscopedRest_split (Ix := Unit) (Name := ℕ) (U := UR sig nD τ) (Lvl := ℕ) (Val := Elt F) (launch28 (F := F)).pre c (Run.Ve28 m c)
  rw [← tbl_eq m c]
  exact hs

/-- After the region each of its arrays holds what the pipeline leaves: the array read as entered, the output at the gathered rows. -/
theorem hF (harr : ∀ c : Dev nD, (G28.dat (Run.Ve28 m) (Run.tbl28 m) h.ok28 c).arrAt 1 (G28.cfgM (Run.tbl28 m) h.ok28).N = Vals.gath3 m 28 c)
    (c : Dev nD) (w : Fin (G28.cfgM (Run.tbl28 m) h.ok28).W) :
    (G28.dat (Run.Ve28 m) (Run.tbl28 m) h.ok28 c).arrAt w (G28.cfgM (Run.tbl28 m) h.ok28).N
      = GenP.V58 m (Vals.outs m) c (Pipeline.arrRef spec28 w) := by
  match w with
  | ⟨0, _⟩ =>
    refine ((G28.dat (Run.Ve28 m) (Run.tbl28 m) h.ok28 c).arrAt_in 0 rfl _).trans ((G28.A_eq (Run.Ve28 m) (Run.tbl28 m) h.ok28 c 0).trans ?_)
    exact (GenP.V58_of m (Vals.outs m) c main_v373 (by decide)).symm
  | ⟨1, _⟩ =>
    refine (harr c).trans ?_
    show Vals.gath3 m 28 c = Function.update (GenP.V57 m (Vals.outs m) c) main_v374 (Vals.outs m 58 main_v374 c) main_v374
    rw [Function.update_self, Vals.outs_28]

/-- and every other buffer what it held at entry. -/
theorem hrest (c : Dev nD) : ∀ b, b ∉ Finset.univ.image (Pipeline.arrRef spec28) →
    (fun b : Ref sig .tc => GenP.V58 m (Vals.outs m) c b) b = Run.Ve28 m c b := fun b hb =>
  GenP.V58_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G28.dat (Run.Ve28 m) (Run.tbl28 m) h.ok28 c).arrAt 1 (G28.cfgM (Run.tbl28 m) h.ok28).N = Vals.gath3 m 28 c) :
    Pipeline.RegionSeg (pcfgs (F := F)) (Run.a m h) (Run.pdats m h) () defs₀ Run.𝒱₀ Run.L Run.lv (28 : Fin 33) where
  win := (launch28 (F := F)).win.to₀
  block_pos := (launch28 (F := F)).block_pos
  stage_whole := (launch28 (F := F)).stage_whole
  K := PEmpty
  osem k := k.elim
  ho := Pipeline.OwnSemFacts.none _
  hbody c := (G28.body_obligation (Run.Ve28 m) (Run.tbl28 m) h.ok28 c).loose
  hwaits := Pipeline.hwaits_of_owed_zero _ _ _ _ Run.L Run.lv (28 : Fin 33) fun _ _ => rfl
  pre c := iprop(StableHlo.held (c : Thread nD τ) (Pipeline.ucRefs τ sig) (GenP.V57 m (Vals.outs m) c) ∗ Run.R c)
  post c := iprop(StableHlo.held (c : Thread nD τ) (Pipeline.ucRefs τ sig) (GenP.V58 m (Vals.outs m) c) ∗ Run.R c)
  X c := iprop(∃ r, prngReg c r)
  Y c := iprop((∃ r, prngReg c r) ∗ Pipeline.prefHeld (Ix := Unit) (Name := ℕ) (U := UR sig nD τ) (Lvl := ℕ) pre28 c (fun _ => fullShare) (Run.tbl28 m))
  Z c := Pipeline.unscopedRestP (Ix := Unit) (Name := ℕ) (U := UR sig nD τ) (Lvl := ℕ) pre28 spec28 c (Run.Ve28 m c)
  hentry c := by
    rw [Pipeline.ownSems0_none]
    have hsplit := Pipeline.arrays_of_unscopedBufs (p := (28 : Fin 33)) (pcfgs (F := F)) (Run.a m h) (Run.pdats m h) (launch28 (F := F)).win (launch28 (F := F)).arr_whole c
      ((Run.pdats m h (28 : Fin 33) c).share_full fun _ => rfl) (Run.Ve28 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (28 : Fin 33) c).Φ 0 = iprop(Pipeline.ΦA spec28 c ∗ Pipeline.prefHeld (Ix := Unit) (Name := ℕ) (U := UR sig nD τ) (Lvl := ℕ) pre28 c (fun _ => fullShare) (Run.tbl28 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (28 : Fin 33) c).Φ (Fin.last _) = iprop(Pipeline.ΦA spec28 c ∗ Pipeline.prefHeld (Ix := Unit) (Name := ℕ) (U := UR sig nD τ) (Lvl := ℕ) pre28 c (fun _ => fullShare) (Run.tbl28 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (28 : Fin 33)) (pcfgs (F := F)) (Run.a m h) (Ix := Unit) (Name := ℕ) (U := UR sig nD τ) (Lvl := ℕ)
      (launch28 (F := F)).win (launch28 (F := F)).arr_whole c (Run.pdats m h) ((Run.pdats m h (28 : Fin 33) c).share_full fun _ => rfl)
      (Run.Ve28 m c) (fun b => GenP.V58 m (Vals.outs m) c b) ((Run.pdats m h (28 : Fin 33) c).arrAt · (G28.cfgM (Run.tbl28 m) h.ok28).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S28

end
-- ==== Proof.K.G28V.lean ====
/-
  What gather region 0 leaves in its output array: point t writes back row `tb[t]` of the array it reads as row t, the
  50000 rows tile the output, so the array ends as the gathered rows.
-/
import proofs.«406793_j90890097918585_2_alg».proof.Proof.K.G28
import proofs.«406793_j90890097918585_2_alg».proof.Proof.K.Vals
import Idealize.ShloMosaic.Lib.Pipeline.Value

set_option maxRecDepth 16384

noncomputable section

namespace Cert.Kernel.G28

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre28.Contents (Elt F)) (hO : ok28 (F := F) tb)

/-! ## The two windows' block rows at a point -/

/-- A point of the grid is below 50000. -/
private theorem point_lt (t : Fin (cfgM tb hO).N) : t.val < 50000 := by
  have h : t.val < grid28.N := t.isLt
  rw [N_28] at h
  exact h

/-- The grid has one axis: the coordinate of point t is t. -/
private theorem coords_0 (t : Fin (cfgM tb hO).N) : (grid28.coords t 0).val = t.val := by
  have ht := point_lt tb hO t
  show t.val / grid28.stride 0 % grid28.bound 0 = t.val
  rw [show grid28.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc28_transform_1 (grid28.coords t) 0 = t.val
  unfold cc28_transform_1
  show (BitVec.ofNat 32 (grid28.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid28.N
  · exact Or.inl h
  · have hlt : t.val < grid28.N := t.isLt
    refine Or.inr ⟨by show t.val + 1 < grid28.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc28_transform_0 k28_off1_inb numel1_S1 tb (grid28.coords t) 0 = _
  unfold cc28_transform_0
  dsimp only
  refine congrArg BitVec.toNat (congrArg (tb 0 : S50000.Idx → BitVec 32) ?_)
  funext d
  match d with
  | ⟨0, _⟩ =>
    apply Fin.ext
    show (Scalar.indexCast (BitVec.ofNat 32 (grid28.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k28_pay1 x = x := by
  unfold k28_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v373 (ValueIdx.ix3 (Vals.rowOf ((tb 0 : S50000.Idx → BitVec 32) (ValueIdx.ix1 ⟨t.val, point_lt tb hO t⟩))) (y 1) (y 2)) := by
  show V c main_v373 ((((cfgM tb hO).win 0).blk t).view.emb y) = _
  refine congrArg (V c main_v373) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v373) (tb 0)) := by
  show ((cfgM tb hO).win 1).cut (grid28.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v373) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v374 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid28.N := by rw [N_28]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v373) (tb 0) :=
  (dat V tb hO c).arrAt_eq_of_cover 1 (Vals.gath3Of (V c main_v373) (tb 0)) (fun t _ => flushed_1 V tb hO htb c t)
    (cover_blk_1 tb hO)

end Cert.Kernel.G28

end
-- ==== Proof.K.S29.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S29

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (29 : Fin 33) c = G29.dat (Run.Ve29 m) (Run.tbl29 m) h.ok29 c := rfl

/-- On the one device the table's buffer holds the table. -/
theorem tbl_eq (c : Dev nD) : (fun k => Run.Ve29 m c (pre29.ref k)) = Run.tbl29 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec29 c (Run.Ve29 m c) : sProp 𝕄)
      = iprop(Pipeline.prefHeld (Ix := Unit) (Name := ℕ) (U := UR sig nD τ) (Lvl := ℕ) pre29 c (fun _ => fullShare) (Run.tbl29 m)
          ∗ Pipeline.unscopedRestP (Ix := Unit) (Name := ℕ) (U := UR sig nD τ) (Lvl := ℕ) pre29 spec29 c (Run.Ve29 m c)) := by
  have hs := Pipeline.unscopedRest_split (Ix := Unit) (Name := ℕ) (U := UR sig nD τ) (Lvl := ℕ) (Val := Elt F) (launch29 (F := F)).pre c (Run.Ve29 m c)
  rw [← tbl_eq m c]
  exact hs

/-- After the region each of its arrays holds what the pipeline leaves: the array read as entered, the output at the gathered rows. -/
theorem hF (harr : ∀ c : Dev nD, (G29.dat (Run.Ve29 m) (Run.tbl29 m) h.ok29 c).arrAt 1 (G29.cfgM (Run.tbl29 m) h.ok29).N = Vals.gath3 m 29 c)
    (c : Dev nD) (w : Fin (G29.cfgM (Run.tbl29 m) h.ok29).W) :
    (G29.dat (Run.Ve29 m) (Run.tbl29 m) h.ok29 c).arrAt w (G29.cfgM (Run.tbl29 m) h.ok29).N
      = GenP.V60 m (Vals.outs m) c (Pipeline.arrRef spec29 w) := by
  match w with
  | ⟨0, _⟩ =>
    refine ((G29.dat (Run.Ve29 m) (Run.tbl29 m) h.ok29 c).arrAt_in 0 rfl _).trans ((G29.A_eq (Run.Ve29 m) (Run.tbl29 m) h.ok29 c 0).trans ?_)
    exact (GenP.V60_of m (Vals.outs m) c main_v386 (by decide)).symm
  | ⟨1, _⟩ =>
    refine (harr c).trans ?_
    show Vals.gath3 m 29 c = Function.update (GenP.V59 m (Vals.outs m) c) main_v387 (Vals.outs m 60 main_v387 c) main_v387
    rw [Function.update_self, Vals.outs_29]

/-- and every other buffer what it held at entry. -/
theorem hrest (c : Dev nD) : ∀ b, b ∉ Finset.univ.image (Pipeline.arrRef spec29) →
    (fun b : Ref sig .tc => GenP.V60 m (Vals.outs m) c b) b = Run.Ve29 m c b := fun b hb =>
  GenP.V60_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G29.dat (Run.Ve29 m) (Run.tbl29 m) h.ok29 c).arrAt 1 (G29.cfgM (Run.tbl29 m) h.ok29).N = Vals.gath3 m 29 c) :
    Pipeline.RegionSeg (pcfgs (F := F)) (Run.a m h) (Run.pdats m h) () defs₀ Run.𝒱₀ Run.L Run.lv (29 : Fin 33) where
  win := (launch29 (F := F)).win.to₀
  block_pos := (launch29 (F := F)).block_pos
  stage_whole := (launch29 (F := F)).stage_whole
  K := PEmpty
  osem k := k.elim
  ho := Pipeline.OwnSemFacts.none _
  hbody c := (G29.body_obligation (Run.Ve29 m) (Run.tbl29 m) h.ok29 c).loose
  hwaits := Pipeline.hwaits_of_owed_zero _ _ _ _ Run.L Run.lv (29 : Fin 33) fun _ _ => rfl
  pre c := iprop(StableHlo.held (c : Thread nD τ) (Pipeline.ucRefs τ sig) (GenP.V59 m (Vals.outs m) c) ∗ Run.R c)
  post c := iprop(StableHlo.held (c : Thread nD τ) (Pipeline.ucRefs τ sig) (GenP.V60 m (Vals.outs m) c) ∗ Run.R c)
  X c := iprop(∃ r, prngReg c r)
  Y c := iprop((∃ r, prngReg c r) ∗ Pipeline.prefHeld (Ix := Unit) (Name := ℕ) (U := UR sig nD τ) (Lvl := ℕ) pre29 c (fun _ => fullShare) (Run.tbl29 m))
  Z c := Pipeline.unscopedRestP (Ix := Unit) (Name := ℕ) (U := UR sig nD τ) (Lvl := ℕ) pre29 spec29 c (Run.Ve29 m c)
  hentry c := by
    rw [Pipeline.ownSems0_none]
    have hsplit := Pipeline.arrays_of_unscopedBufs (p := (29 : Fin 33)) (pcfgs (F := F)) (Run.a m h) (Run.pdats m h) (launch29 (F := F)).win (launch29 (F := F)).arr_whole c
      ((Run.pdats m h (29 : Fin 33) c).share_full fun _ => rfl) (Run.Ve29 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (29 : Fin 33) c).Φ 0 = iprop(Pipeline.ΦA spec29 c ∗ Pipeline.prefHeld (Ix := Unit) (Name := ℕ) (U := UR sig nD τ) (Lvl := ℕ) pre29 c (fun _ => fullShare) (Run.tbl29 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (29 : Fin 33) c).Φ (Fin.last _) = iprop(Pipeline.ΦA spec29 c ∗ Pipeline.prefHeld (Ix := Unit) (Name := ℕ) (U := UR sig nD τ) (Lvl := ℕ) pre29 c (fun _ => fullShare) (Run.tbl29 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (29 : Fin 33)) (pcfgs (F := F)) (Run.a m h) (Ix := Unit) (Name := ℕ) (U := UR sig nD τ) (Lvl := ℕ)
      (launch29 (F := F)).win (launch29 (F := F)).arr_whole c (Run.pdats m h) ((Run.pdats m h (29 : Fin 33) c).share_full fun _ => rfl)
      (Run.Ve29 m c) (fun b => GenP.V60 m (Vals.outs m) c b) ((Run.pdats m h (29 : Fin 33) c).arrAt · (G29.cfgM (Run.tbl29 m) h.ok29).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S29

end
-- ==== Proof.K.G29V.lean ====
/-
  What gather region 0 leaves in its output array: point t writes back row `tb[t]` of the array it reads as row t, the
  50000 rows tile the output, so the array ends as the gathered rows.
-/
import proofs.«406793_j90890097918585_2_alg».proof.Proof.K.G29
import proofs.«406793_j90890097918585_2_alg».proof.Proof.K.Vals
import Idealize.ShloMosaic.Lib.Pipeline.Value

set_option maxRecDepth 16384

noncomputable section

namespace Cert.Kernel.G29

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre29.Contents (Elt F)) (hO : ok29 (F := F) tb)

/-! ## The two windows' block rows at a point -/

/-- A point of the grid is below 50000. -/
private theorem point_lt (t : Fin (cfgM tb hO).N) : t.val < 50000 := by
  have h : t.val < grid29.N := t.isLt
  rw [N_29] at h
  exact h

/-- The grid has one axis: the coordinate of point t is t. -/
private theorem coords_0 (t : Fin (cfgM tb hO).N) : (grid29.coords t 0).val = t.val := by
  have ht := point_lt tb hO t
  show t.val / grid29.stride 0 % grid29.bound 0 = t.val
  rw [show grid29.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc29_transform_1 (grid29.coords t) 0 = t.val
  unfold cc29_transform_1
  show (BitVec.ofNat 32 (grid29.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid29.N
  · exact Or.inl h
  · have hlt : t.val < grid29.N := t.isLt
    refine Or.inr ⟨by show t.val + 1 < grid29.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc29_transform_0 k29_off1_inb numel1_S1 tb (grid29.coords t) 0 = _
  unfold cc29_transform_0
  dsimp only
  refine congrArg BitVec.toNat (congrArg (tb 0 : S50000.Idx → BitVec 32) ?_)
  funext d
  match d with
  | ⟨0, _⟩ =>
    apply Fin.ext
    show (Scalar.indexCast (BitVec.ofNat 32 (grid29.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k29_pay1 x = x := by
  unfold k29_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v386 (ValueIdx.ix3 (Vals.rowOf ((tb 0 : S50000.Idx → BitVec 32) (ValueIdx.ix1 ⟨t.val, point_lt tb hO t⟩))) (y 1) (y 2)) := by
  show V c main_v386 ((((cfgM tb hO).win 0).blk t).view.emb y) = _
  refine congrArg (V c main_v386) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v386) (tb 0)) := by
  show ((cfgM tb hO).win 1).cut (grid29.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v386) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v387 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid29.N := by rw [N_29]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v386) (tb 0) :=
  (dat V tb hO c).arrAt_eq_of_cover 1 (Vals.gath3Of (V c main_v386) (tb 0)) (fun t _ => flushed_1 V tb hO htb c t)
    (cover_blk_1 tb hO)

end Cert.Kernel.G29

end
-- ==== Proof.K.S30.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S30

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (30 : Fin 33) c = G30.dat (Run.Ve30 m) (Run.tbl30 m) h.ok30 c := rfl

/-- On the one device the table's buffer holds the table. -/
theorem tbl_eq (c : Dev nD) : (fun k => Run.Ve30 m c (pre30.ref k)) = Run.tbl30 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec30 c (Run.Ve30 m c) : sProp 𝕄)
      = iprop(Pipeline.prefHeld (Ix := Unit) (Name := ℕ) (U := UR sig nD τ) (Lvl := ℕ) pre30 c (fun _ => fullShare) (Run.tbl30 m)
          ∗ Pipeline.unscopedRestP (Ix := Unit) (Name := ℕ) (U := UR sig nD τ) (Lvl := ℕ) pre30 spec30 c (Run.Ve30 m c)) := by
  have hs := Pipeline.unscopedRest_split (Ix := Unit) (Name := ℕ) (U := UR sig nD τ) (Lvl := ℕ) (Val := Elt F) (launch30 (F := F)).pre c (Run.Ve30 m c)
  rw [← tbl_eq m c]
  exact hs

/-- After the region each of its arrays holds what the pipeline leaves: the array read as entered, the output at the gathered rows. -/
theorem hF (harr : ∀ c : Dev nD, (G30.dat (Run.Ve30 m) (Run.tbl30 m) h.ok30 c).arrAt 1 (G30.cfgM (Run.tbl30 m) h.ok30).N = Vals.gath3 m 30 c)
    (c : Dev nD) (w : Fin (G30.cfgM (Run.tbl30 m) h.ok30).W) :
    (G30.dat (Run.Ve30 m) (Run.tbl30 m) h.ok30 c).arrAt w (G30.cfgM (Run.tbl30 m) h.ok30).N
      = GenP.V62 m (Vals.outs m) c (Pipeline.arrRef spec30 w) := by
  match w with
  | ⟨0, _⟩ =>
    refine ((G30.dat (Run.Ve30 m) (Run.tbl30 m) h.ok30 c).arrAt_in 0 rfl _).trans ((G30.A_eq (Run.Ve30 m) (Run.tbl30 m) h.ok30 c 0).trans ?_)
    exact (GenP.V62_of m (Vals.outs m) c main_v399 (by decide)).symm
  | ⟨1, _⟩ =>
    refine (harr c).trans ?_
    show Vals.gath3 m 30 c = Function.update (GenP.V61 m (Vals.outs m) c) main_v400 (Vals.outs m 62 main_v400 c) main_v400
    rw [Function.update_self, Vals.outs_30]

/-- and every other buffer what it held at entry. -/
theorem hrest (c : Dev nD) : ∀ b, b ∉ Finset.univ.image (Pipeline.arrRef spec30) →
    (fun b : Ref sig .tc => GenP.V62 m (Vals.outs m) c b) b = Run.Ve30 m c b := fun b hb =>
  GenP.V62_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G30.dat (Run.Ve30 m) (Run.tbl30 m) h.ok30 c).arrAt 1 (G30.cfgM (Run.tbl30 m) h.ok30).N = Vals.gath3 m 30 c) :
    Pipeline.RegionSeg (pcfgs (F := F)) (Run.a m h) (Run.pdats m h) () defs₀ Run.𝒱₀ Run.L Run.lv (30 : Fin 33) where
  win := (launch30 (F := F)).win.to₀
  block_pos := (launch30 (F := F)).block_pos
  stage_whole := (launch30 (F := F)).stage_whole
  K := PEmpty
  osem k := k.elim
  ho := Pipeline.OwnSemFacts.none _
  hbody c := (G30.body_obligation (Run.Ve30 m) (Run.tbl30 m) h.ok30 c).loose
  hwaits := Pipeline.hwaits_of_owed_zero _ _ _ _ Run.L Run.lv (30 : Fin 33) fun _ _ => rfl
  pre c := iprop(StableHlo.held (c : Thread nD τ) (Pipeline.ucRefs τ sig) (GenP.V61 m (Vals.outs m) c) ∗ Run.R c)
  post c := iprop(StableHlo.held (c : Thread nD τ) (Pipeline.ucRefs τ sig) (GenP.V62 m (Vals.outs m) c) ∗ Run.R c)
  X c := iprop(∃ r, prngReg c r)
  Y c := iprop((∃ r, prngReg c r) ∗ Pipeline.prefHeld (Ix := Unit) (Name := ℕ) (U := UR sig nD τ) (Lvl := ℕ) pre30 c (fun _ => fullShare) (Run.tbl30 m))
  Z c := Pipeline.unscopedRestP (Ix := Unit) (Name := ℕ) (U := UR sig nD τ) (Lvl := ℕ) pre30 spec30 c (Run.Ve30 m c)
  hentry c := by
    rw [Pipeline.ownSems0_none]
    have hsplit := Pipeline.arrays_of_unscopedBufs (p := (30 : Fin 33)) (pcfgs (F := F)) (Run.a m h) (Run.pdats m h) (launch30 (F := F)).win (launch30 (F := F)).arr_whole c
      ((Run.pdats m h (30 : Fin 33) c).share_full fun _ => rfl) (Run.Ve30 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (30 : Fin 33) c).Φ 0 = iprop(Pipeline.ΦA spec30 c ∗ Pipeline.prefHeld (Ix := Unit) (Name := ℕ) (U := UR sig nD τ) (Lvl := ℕ) pre30 c (fun _ => fullShare) (Run.tbl30 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (30 : Fin 33) c).Φ (Fin.last _) = iprop(Pipeline.ΦA spec30 c ∗ Pipeline.prefHeld (Ix := Unit) (Name := ℕ) (U := UR sig nD τ) (Lvl := ℕ) pre30 c (fun _ => fullShare) (Run.tbl30 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (30 : Fin 33)) (pcfgs (F := F)) (Run.a m h) (Ix := Unit) (Name := ℕ) (U := UR sig nD τ) (Lvl := ℕ)
      (launch30 (F := F)).win (launch30 (F := F)).arr_whole c (Run.pdats m h) ((Run.pdats m h (30 : Fin 33) c).share_full fun _ => rfl)
      (Run.Ve30 m c) (fun b => GenP.V62 m (Vals.outs m) c b) ((Run.pdats m h (30 : Fin 33) c).arrAt · (G30.cfgM (Run.tbl30 m) h.ok30).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S30

end
-- ==== Proof.K.G30V.lean ====
/-
  What gather region 0 leaves in its output array: point t writes back row `tb[t]` of the array it reads as row t, the
  50000 rows tile the output, so the array ends as the gathered rows.
-/
import proofs.«406793_j90890097918585_2_alg».proof.Proof.K.G30
import proofs.«406793_j90890097918585_2_alg».proof.Proof.K.Vals
import Idealize.ShloMosaic.Lib.Pipeline.Value

set_option maxRecDepth 16384

noncomputable section

namespace Cert.Kernel.G30

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre30.Contents (Elt F)) (hO : ok30 (F := F) tb)

/-! ## The two windows' block rows at a point -/

/-- A point of the grid is below 50000. -/
private theorem point_lt (t : Fin (cfgM tb hO).N) : t.val < 50000 := by
  have h : t.val < grid30.N := t.isLt
  rw [N_30] at h
  exact h

/-- The grid has one axis: the coordinate of point t is t. -/
private theorem coords_0 (t : Fin (cfgM tb hO).N) : (grid30.coords t 0).val = t.val := by
  have ht := point_lt tb hO t
  show t.val / grid30.stride 0 % grid30.bound 0 = t.val
  rw [show grid30.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc30_transform_1 (grid30.coords t) 0 = t.val
  unfold cc30_transform_1
  show (BitVec.ofNat 32 (grid30.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid30.N
  · exact Or.inl h
  · have hlt : t.val < grid30.N := t.isLt
    refine Or.inr ⟨by show t.val + 1 < grid30.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc30_transform_0 k30_off1_inb numel1_S1 tb (grid30.coords t) 0 = _
  unfold cc30_transform_0
  dsimp only
  refine congrArg BitVec.toNat (congrArg (tb 0 : S50000.Idx → BitVec 32) ?_)
  funext d
  match d with
  | ⟨0, _⟩ =>
    apply Fin.ext
    show (Scalar.indexCast (BitVec.ofNat 32 (grid30.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k30_pay1 x = x := by
  unfold k30_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v399 (ValueIdx.ix3 (Vals.rowOf ((tb 0 : S50000.Idx → BitVec 32) (ValueIdx.ix1 ⟨t.val, point_lt tb hO t⟩))) (y 1) (y 2)) := by
  show V c main_v399 ((((cfgM tb hO).win 0).blk t).view.emb y) = _
  refine congrArg (V c main_v399) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v399) (tb 0)) := by
  show ((cfgM tb hO).win 1).cut (grid30.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v399) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v400 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid30.N := by rw [N_30]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v399) (tb 0) :=
  (dat V tb hO c).arrAt_eq_of_cover 1 (Vals.gath3Of (V c main_v399) (tb 0)) (fun t _ => flushed_1 V tb hO htb c t)
    (cover_blk_1 tb hO)

end Cert.Kernel.G30

end
-- ==== Proof.K.S31.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.K.Data

set_option maxRecDepth 16384

noncomputable section

namespace Cert.Kernel.S31

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (31 : Fin 33) c = G31.dat (Run.Ve31 m) (Run.tbl31 m) h.ok31 c := rfl

/-- On the one device the table's buffer holds the table. -/
theorem tbl_eq (c : Dev nD) : (fun k => Run.Ve31 m c (pre31.ref k)) = Run.tbl31 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec31 c (Run.Ve31 m c) : sProp 𝕄)
      = iprop(Pipeline.prefHeld (Ix := Unit) (Name := ℕ) (U := UR sig nD τ) (Lvl := ℕ) pre31 c (fun _ => fullShare) (Run.tbl31 m)
          ∗ Pipeline.unscopedRestP (Ix := Unit) (Name := ℕ) (U := UR sig nD τ) (Lvl := ℕ) pre31 spec31 c (Run.Ve31 m c)) := by
  have hs := Pipeline.unscopedRest_split (Ix := Unit) (Name := ℕ) (U := UR sig nD τ) (Lvl := ℕ) (Val := Elt F) (launch31 (F := F)).pre c (Run.Ve31 m c)
  rw [← tbl_eq m c]
  exact hs

/-- After the region each of its arrays holds what the pipeline leaves: the array read as entered, the output at the gathered rows. -/
theorem hF (harr : ∀ c : Dev nD, (G31.dat (Run.Ve31 m) (Run.tbl31 m) h.ok31 c).arrAt 1 (G31.cfgM (Run.tbl31 m) h.ok31).N = Vals.gath3 m 31 c)
    (c : Dev nD) (w : Fin (G31.cfgM (Run.tbl31 m) h.ok31).W) :
    (G31.dat (Run.Ve31 m) (Run.tbl31 m) h.ok31 c).arrAt w (G31.cfgM (Run.tbl31 m) h.ok31).N
      = GenP.V64 m (Vals.outs m) c (Pipeline.arrRef spec31 w) := by
  match w with
  | ⟨0, _⟩ =>
    refine ((G31.dat (Run.Ve31 m) (Run.tbl31 m) h.ok31 c).arrAt_in 0 rfl _).trans ((G31.A_eq (Run.Ve31 m) (Run.tbl31 m) h.ok31 c 0).trans ?_)
    exact (GenP.V64_of m (Vals.outs m) c main_v412 (by decide)).symm
  | ⟨1, _⟩ =>
    refine (harr c).trans ?_
    show Vals.gath3 m 31 c = Function.update (GenP.V63 m (Vals.outs m) c) main_v413 (Vals.outs m 64 main_v413 c) main_v413
    rw [Function.update_self, Vals.outs_31]

/-- and every other buffer what it held at entry. -/
theorem hrest (c : Dev nD) : ∀ b, b ∉ Finset.univ.image (Pipeline.arrRef spec31) →
    (fun b : Ref sig .tc => GenP.V64 m (Vals.outs m) c b) b = Run.Ve31 m c b := fun b hb =>
  GenP.V64_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G31.dat (Run.Ve31 m) (Run.tbl31 m) h.ok31 c).arrAt 1 (G31.cfgM (Run.tbl31 m) h.ok31).N = Vals.gath3 m 31 c) :
    Pipeline.RegionSeg (pcfgs (F := F)) (Run.a m h) (Run.pdats m h) () defs₀ Run.𝒱₀ Run.L Run.lv (31 : Fin 33) where
  win := (launch31 (F := F)).win.to₀
  block_pos := (launch31 (F := F)).block_pos
  stage_whole := (launch31 (F := F)).stage_whole
  K := PEmpty
  osem k := k.elim
  ho := Pipeline.OwnSemFacts.none _
  hbody c := (G31.body_obligation (Run.Ve31 m) (Run.tbl31 m) h.ok31 c).loose
  hwaits := Pipeline.hwaits_of_owed_zero _ _ _ _ Run.L Run.lv (31 : Fin 33) fun _ _ => rfl
  pre c := iprop(StableHlo.held (c : Thread nD τ) (Pipeline.ucRefs τ sig) (GenP.V63 m (Vals.outs m) c) ∗ Run.R c)
  post c := iprop(StableHlo.held (c : Thread nD τ) (Pipeline.ucRefs τ sig) (GenP.V64 m (Vals.outs m) c) ∗ Run.R c)
  X c := iprop(∃ r, prngReg c r)
  Y c := iprop((∃ r, prngReg c r) ∗ Pipeline.prefHeld (Ix := Unit) (Name := ℕ) (U := UR sig nD τ) (Lvl := ℕ) pre31 c (fun _ => fullShare) (Run.tbl31 m))
  Z c := Pipeline.unscopedRestP (Ix := Unit) (Name := ℕ) (U := UR sig nD τ) (Lvl := ℕ) pre31 spec31 c (Run.Ve31 m c)
  hentry c := by
    rw [Pipeline.ownSems0_none]
    have hsplit := Pipeline.arrays_of_unscopedBufs (p := (31 : Fin 33)) (pcfgs (F := F)) (Run.a m h) (Run.pdats m h) (launch31 (F := F)).win (launch31 (F := F)).arr_whole c
      ((Run.pdats m h (31 : Fin 33) c).share_full fun _ => rfl) (Run.Ve31 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (31 : Fin 33) c).Φ 0 = iprop(Pipeline.ΦA spec31 c ∗ Pipeline.prefHeld (Ix := Unit) (Name := ℕ) (U := UR sig nD τ) (Lvl := ℕ) pre31 c (fun _ => fullShare) (Run.tbl31 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (31 : Fin 33) c).Φ (Fin.last _) = iprop(Pipeline.ΦA spec31 c ∗ Pipeline.prefHeld (Ix := Unit) (Name := ℕ) (U := UR sig nD τ) (Lvl := ℕ) pre31 c (fun _ => fullShare) (Run.tbl31 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (31 : Fin 33)) (pcfgs (F := F)) (Run.a m h) (Ix := Unit) (Name := ℕ) (U := UR sig nD τ) (Lvl := ℕ)
      (launch31 (F := F)).win (launch31 (F := F)).arr_whole c (Run.pdats m h) ((Run.pdats m h (31 : Fin 33) c).share_full fun _ => rfl)
      (Run.Ve31 m c) (fun b => GenP.V64 m (Vals.outs m) c b) ((Run.pdats m h (31 : Fin 33) c).arrAt · (G31.cfgM (Run.tbl31 m) h.ok31).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.Kernel.S31

end
-- ==== Proof.K.G31V.lean ====
/-
  What gather region 0 leaves in its output array: point t writes back row `tb[t]` of the array it reads as row t, the
  50000 rows tile the output, so the array ends as the gathered rows.
-/
import proofs.«406793_j90890097918585_2_alg».proof.Proof.K.G31
import proofs.«406793_j90890097918585_2_alg».proof.Proof.K.Vals
import Idealize.ShloMosaic.Lib.Pipeline.Value

set_option maxRecDepth 16384

noncomputable section

namespace Cert.Kernel.G31

open Cert.Kernel Cert.Kernel.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre31.Contents (Elt F)) (hO : ok31 (F := F) tb)

/-! ## The two windows' block rows at a point -/

/-- A point of the grid is below 50000. -/
private theorem point_lt (t : Fin (cfgM tb hO).N) : t.val < 50000 := by
  have h : t.val < grid31.N := t.isLt
  rw [N_31] at h
  exact h

/-- The grid has one axis: the coordinate of point t is t. -/
private theorem coords_0 (t : Fin (cfgM tb hO).N) : (grid31.coords t 0).val = t.val := by
  have ht := point_lt tb hO t
  show t.val / grid31.stride 0 % grid31.bound 0 = t.val
  rw [show grid31.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc31_transform_1 (grid31.coords t) 0 = t.val
  unfold cc31_transform_1
  show (BitVec.ofNat 32 (grid31.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid31.N
  · exact Or.inl h
  · have hlt : t.val < grid31.N := t.isLt
    refine Or.inr ⟨by show t.val + 1 < grid31.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc31_transform_0 k31_off1_inb numel1_S1 tb (grid31.coords t) 0 = _
  unfold cc31_transform_0
  dsimp only
  refine congrArg BitVec.toNat (congrArg (tb 0 : S50000.Idx → BitVec 32) ?_)
  funext d
  match d with
  | ⟨0, _⟩ =>
    apply Fin.ext
    show (Scalar.indexCast (BitVec.ofNat 32 (grid31.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k31_pay1 x = x := by
  unfold k31_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v412 (ValueIdx.ix3 (Vals.rowOf ((tb 0 : S50000.Idx → BitVec 32) (ValueIdx.ix1 ⟨t.val, point_lt tb hO t⟩))) (y 1) (y 2)) := by
  show V c main_v412 ((((cfgM tb hO).win 0).blk t).view.emb y) = _
  refine congrArg (V c main_v412) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v412) (tb 0)) := by
  show ((cfgM tb hO).win 1).cut (grid31.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v412) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v413 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid31.N := by rw [N_31]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v412) (tb 0) :=
  (dat V tb hO c).arrAt_eq_of_cover 1 (Vals.gath3Of (V c main_v412) (tb 0)) (fun t _ => flushed_1 V tb hO htb c t)
    (cover_blk_1 tb hO)

end Cert.Kernel.G31

end
-- ==== Proof.K.MM.lean ====
/-
  The last kernel region (the mean and matrix product), at any contents `V` of the buffers when it is entered: the grid
  has 100 points; at point t the sums' window holds rows 1000t … 1000t + 999 of the [100000, 128] array, the counts'
  window the same rows of the [100000, 1] column, the weights' window the whole [128, 128] array (brought in at the
  first point only), and the body stores into the result's window the rows divided by max(count, 1) and multiplied by
  the weights. Proved here, over the definitions of the companion module: each input window's staging buffer holds its
  block at every point, the body's triple, the body obligation at every point, and what the region leaves in the result
  array as one function of the three arrays it reads.
-/
import proofs.«406793_j90890097918585_2_alg».proof.Proof.K.MM0
import proofs.«406793_j90890097918585_2_alg».proof.Proof.K.Vals
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.Kernel.MM

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Each input window's current staging buffer holds its block at every point, fetched there or not, for any proof
    data whose array is `V`'s and whose body leaves the block in place. -/
theorem before_0_of {c : Dev nD} (dat : Dat τ (Elt F) Unit ℕ (UR sig nD τ) ℕ cfg32 c)
    (hA : dat.A 0 = V c (Pipeline.arrRef spec32 0)) (hafter : ∀ t, dat.after 0 t = iblk V c 0 t)
    (t : Fin cfg32.N) (d) : dat.before 0 t d = iblk V c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg32 c)
    (hA : dat.A 1 = V c (Pipeline.arrRef spec32 1)) (hafter : ∀ t, dat.after 1 t = iblk V c 1 t)
    (t : Fin cfg32.N) (d) : dat.before 1 t d = iblk V c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg32 c)
    (hA : dat.A 2 = V c (Pipeline.arrRef spec32 2)) (hafter : ∀ t, dat.after 2 t = iblk V c 2 t)
    (t : Fin cfg32.N) (d) : dat.before 2 t d = iblk V c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)

theorem cover_3 (p0 : Vec F S1000x128 .f32) (y : S1000x128.Idx) :
    ∃ pc ∈ ([⟨rS, p0⟩] : List (View.Piece (Elt F) S1000x128 .f32)), y ∈ pc.1.set :=
  View.cover_of_tiled [⟨rS, p0⟩] S1000x128.size (by rfl) y

set_option maxHeartbeats 1000000 in
/-- The body on whole staging memrefs: the three inputs' at `x0`, `x1`, `x2` and the result's at anything run to
    the inputs' as they were and the result's at `out_3 x0 x1 x2`. -/
theorem sound_kernel (c : Dev nD) (E : Set ℕ) (i : grid32.Coords)
    (arg1 : Memref sig .tc .vmem S1000x128 .f32) (harg1 : arg1.IsWhole) (arg2 : Memref sig .tc .vmem S1000x1 .f32) (harg2 : arg2.IsWhole)
    (arg3 : Memref sig .tc .vmem S128x128 .f32) (harg3 : arg3.IsWhole) (arg4 : Memref sig .tc .vmem S1000x128 .f32) (harg4 : arg4.IsWhole)
    (x0 : Vec F S1000x128 .f32) (x1 : Vec F S1000x1 .f32) (x2 : Vec F S128x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out_3 x0 x1 x2)) -∗ K ⟨⟩))
      ⊢ wp frame (wpE (defs₀ (F := F)) Variants.none c none) E (cc32__mean_matmul_kernel i arg1 harg1 arg2 harg2 arg3 harg3 arg4 harg4) K := by
  simp only [cc32__mean_matmul_kernel_eq_skeleton]; unfold cc32__mean_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_3 _)

theorem before_0 (c : Dev nD) (t : Fin cfg32.N) (d) : (dat V c).before 0 t d = iblk V c 0 t :=
  before_0_of V (dat V c) (A_eq V c 0) (after_0 V c) t d
theorem before_1 (c : Dev nD) (t : Fin cfg32.N) (d) : (dat V c).before 1 t d = iblk V c 1 t :=
  before_1_of V (dat V c) (A_eq V c 1) (after_1 V c) t d
theorem before_2 (c : Dev nD) (t : Fin cfg32.N) (d) : (dat V c).before 2 t d = iblk V c 2 t :=
  before_2_of V (dat V c) (A_eq V c 2) (after_2 V c) t d

/-- What the body is called with at point `t`, -/
def bodyPre (c : Dev nD) (t : Fin cfg32.N) : sProp 𝕄 :=
  iprop((dat V c).Φ t.castSucc ∗ (dat V c).owesAt () t.castSucc
    ∗ (∃ d, owns (c : Thread nD τ) (st32_0 t) fullShare ((dat V c).before 0 t d))
    ∗ (∃ d, owns (c : Thread nD τ) (st32_1 t) fullShare ((dat V c).before 1 t d))
    ∗ (∃ d, owns (c : Thread nD τ) (st32_2 t) fullShare ((dat V c).before 2 t d))
    ∗ (∃ d, owns (c : Thread nD τ) (st32_3 t) fullShare ((dat V c).before 3 t d)))
/-- and what it returns. -/
def bodyPost (c : Dev nD) (t : Fin cfg32.N) : sProp 𝕄 :=
  iprop((dat V c).Φ t.succ ∗ (dat V c).owesAt () t.succ
    ∗ owns (c : Thread nD τ) (st32_0 t) fullShare ((dat V c).after 0 t)
    ∗ owns (c : Thread nD τ) (st32_1 t) fullShare ((dat V c).after 1 t)
    ∗ owns (c : Thread nD τ) (st32_2 t) fullShare ((dat V c).after 2 t)
    ∗ owns (c : Thread nD τ) (st32_3 t) fullShare ((dat V c).after 3 t))

/-- The body at any point: the inputs' memrefs hold their blocks, so the body's triple applies; the invariant and the
    core's dues pass through unread. -/
theorem sound_body (c : Dev nD) (t : Fin cfg32.N) :
    bodyPre V c t ⊢ wp frame (wpE (defs₀ (F := F)) Variants.none c none) Set.univ (bodyAt32 t) (fun _ => bodyPost V c t) := by
  unfold bodyPre bodyPost bodyAt32
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W32, bigSep_W32]
  exact sound_body V c t

/-! ## From blocks to the array -/

theorem hz : (![0, 0] : Fin 2 → Nat) = fun _ => 0 := funext fun a => by fin_cases a <;> rfl

/-- The printed index maps, decided over the grid: the sums', the counts' and the result's windows are at block row t,
    the weights' at the one block. -/
theorem idx_facts : ∀ t : Fin cfg32.N, win32_0.index t (0 : Fin 2) = t.val ∧ win32_0.index t (1 : Fin 2) = 0
    ∧ win32_1.index t (0 : Fin 2) = t.val ∧ win32_1.index t (1 : Fin 2) = 0
    ∧ win32_2.index t (0 : Fin 2) = 0 ∧ win32_2.index t (1 : Fin 2) = 0
    ∧ win32_3.index t (0 : Fin 2) = t.val ∧ win32_3.index t (1 : Fin 2) = 0 :=
  (by decide +kernel : ∀ t : Fin grid32.N, _)

/-- A grid point as a number below 100. -/
abbrev pt (t : Fin cfg32.N) : Fin 100 := ⟨t.val, lt_of_lt_of_eq t.isLt N_32⟩

set_option maxHeartbeats 50000 in
/-- The sums' block at point t is rows 1000t … 1000t + 999 of the array. -/
theorem iblk_0 (c : Dev nD) (t : Fin cfg32.N) :
    (iblk V c 0 t : Vec F S1000x128 .f32) = Vals.rows2 (V c main_v418 : FVec F S100000x128 .f32) (pt t) := by
  obtain ⟨e0, e1, -⟩ := idx_facts t
  funext y
  unfold iblk Vals.rows2
  rw [View.read_apply]
  show V c main_v418 (((cfg32.win 0).blk t).view.emb y) = V c main_v418 _
  congr 1
  funext a; apply Fin.ext
  match a with
  | ⟨0, _⟩ => show win32_0.index t (0 : Fin 2) * 1000 + 1 * (y 0).val = 1000 * t.val + (y 0).val; rw [e0]; omega
  | ⟨1, _⟩ => show win32_0.index t (1 : Fin 2) * 128 + 1 * (y 1).val = (y 1).val; rw [e1]; omega

set_option maxHeartbeats 50000 in
/-- The counts' block at point t is rows 1000t … 1000t + 999 of the column. -/
theorem iblk_1 (c : Dev nD) (t : Fin cfg32.N) :
    (iblk V c 1 t : Vec F S1000x1 .f32) = Vals.rows1 (V c main_v423 : FVec F S100000x1 .f32) (pt t) := by
  obtain ⟨-, -, e0, e1, -⟩ := idx_facts t
  funext y
  unfold iblk Vals.rows1
  rw [View.read_apply]
  show V c main_v423 (((cfg32.win 1).blk t).view.emb y) = V c main_v423 _
  congr 1
  funext a; apply Fin.ext
  match a with
  | ⟨0, _⟩ => show win32_1.index t (0 : Fin 2) * 1000 + 1 * (y 0).val = 1000 * t.val + (y 0).val; rw [e0]; omega
  | ⟨1, _⟩ => show win32_1.index t (1 : Fin 2) * 1 + 1 * (y 1).val = (y 1).val; rw [e1]; omega

set_option maxHeartbeats 50000 in
/-- The weights' block at every point is the whole array. -/
theorem iblk_2 (c : Dev nD) (t : Fin cfg32.N) :
    (iblk V c 2 t : Vec F S128x128 .f32) = (V c main_arg2 : FVec F S128x128 .f32) := by
  obtain ⟨-, -, -, -, e0, e1, -⟩ := idx_facts t
  funext y
  unfold iblk
  rw [View.read_apply]
  show V c main_arg2 (((cfg32.win 2).blk t).view.emb y) = V c main_arg2 y
  congr 1
  funext a; apply Fin.ext
  match a with
  | ⟨0, _⟩ => show win32_2.index t (0 : Fin 2) * 128 + 1 * (y 0).val = (y 0).val; rw [e0]; omega
  | ⟨1, _⟩ => show win32_2.index t (1 : Fin 2) * 128 + 1 * (y 1).val = (y 1).val; rw [e1]; omega

set_option maxHeartbeats 50000 in
/-- The result function at row 1000t + r is the body's payload of block t of the counts, block t of the sums and the
    weights, at row r. -/
theorem outOf_apply (D : FVec F S100000x1 .f32) (A : FVec F S100000x128 .f32) (W : FVec F S128x128 .f32)
    (i : S100000x128.Idx) (t : Fin 100) (j : S1000x128.Idx)
    (h0 : (i 0).val = 1000 * t.val + (j 0).val) (h1 : (i 1).val = (j 1).val) :
    Vals.outOf D A W i = k32_pay1 (Vals.rows1 D t) (Vals.rows2 A t) W j := by
  have hj : (j 0).val < 1000 := ValueIdx.idx2_lt0 j
  have ht : (⟨(i 0).val / 1000, by have := ValueIdx.idx2_lt0 i; omega⟩ : Fin 100) = t :=
    Fin.ext (by show (i 0).val / 1000 = t.val; omega)
  have hy : (ValueIdx.ix2 (⟨(i 0).val % 1000, Nat.mod_lt _ (by decide)⟩ : Fin 1000) (i 1) : S1000x128.Idx) = j := by
    funext a
    match a with
    | ⟨0, _⟩ => exact Fin.ext (show (i 0).val % 1000 = (j 0).val by omega)
    | ⟨1, _⟩ => exact Fin.ext h1
  unfold Vals.outOf
  rw [ht, hy]

set_option maxHeartbeats 200000 in
/-- What point t writes back is block t of the result function of the three arrays as the region finds them. -/
theorem flushed_eq (c : Dev nD) (t : Fin cfg32.N) :
    (dat V c).flushed 3 t = ((cfg32.win 3).blk t).view.read (Elt F)
      (Vals.outOf (V c main_v423 : FVec F S100000x1 .f32) (V c main_v418 : FVec F S100000x128 .f32) (V c main_arg2 : FVec F S128x128 .f32)) := by
  show (cfg32.win 3).cut (grid32.coords t) ((dat V c).after 3 t) = _
  rw [after_3]
  unfold out_3
  rw [View.canon_unit_zero hz]
  simp only [View.ld_unit_zero (S := S1000x128) hz, View.ld_unit_zero (S := S1000x1) hz, View.ld_unit_zero (S := S128x128) hz]
  rw [iblk_0, iblk_1, iblk_2]
  obtain ⟨-, -, -, -, -, -, e0, e1⟩ := idx_facts t
  funext j
  rw [View.read_apply]
  refine (outOf_apply _ _ _ _ (pt t) j ?_ ?_).symm
  · show win32_3.index t (0 : Fin 2) * 1000 + 1 * (j 0).val = 1000 * t.val + (j 0).val; rw [e0]; omega
  · show win32_3.index t (1 : Fin 2) * 128 + 1 * (j 1).val = (j 1).val; rw [e1]; omega

/-- An index of the result array is in point t's block iff each coordinate is in the block's range on its axis. -/
theorem mem_blk (t : Fin cfg32.N) (i : S100000x128.Idx) :
    i ∈ ((cfg32.win 3).blk t).view.set ↔ ∀ a : Fin 2, win32_3.index t a * S1000x128.size a ≤ (i a).val ∧ (i a).val < win32_3.index t a * S1000x128.size a + S1000x128.size a := by
  show i ∈ ((View.whole main_v424).slice (win32_3.rect t)).set ↔ _
  rw [View.set_slice_whole, Rect.mem_set_unit]
  exact Iff.rfl

/-- Every row of the result array is in the block of the point its thousand names. -/
theorem covered (i : S100000x128.Idx) :
    ∃ t : Fin cfg32.N, (cfg32.win 3).flush t = true ∧ i ∈ ((cfg32.win 3).blk t).view.set := by
  have hi0 : (i 0).val < 100000 := ValueIdx.idx2_lt0 i
  have hi1 : (i 1).val < 128 := ValueIdx.idx2_lt1 i
  have hN : cfg32.N = 100 := N_32
  let t : Fin cfg32.N := ⟨(i 0).val / 1000, by rw [hN]; omega⟩
  obtain ⟨-, -, -, -, -, -, e0, e1⟩ := idx_facts t
  have ev : t.val = (i 0).val / 1000 := rfl
  refine ⟨t, flush32_3 t, ?_⟩
  rw [mem_blk]
  intro a
  match a with
  | ⟨0, _⟩ => show win32_3.index t (0 : Fin 2) * 1000 ≤ (i 0).val ∧ (i 0).val < win32_3.index t (0 : Fin 2) * 1000 + 1000; rw [e0, ev]; omega
  | ⟨1, _⟩ => show win32_3.index t (1 : Fin 2) * 128 ≤ (i 1).val ∧ (i 1).val < win32_3.index t (1 : Fin 2) * 128 + 128; rw [e1]; omega

/-- what the region leaves in the result array: the function `Vals.outOf` of the three arrays it reads -/
theorem arrAt_3 (c : Dev nD) : (dat V c).arrAt 3 cfg32.N = Vals.outOf (V c main_v423) (V c main_v418) (V c main_arg2) :=
  (dat V c).arrAt_eq_of_cover 3 _ (fun t _ => flushed_eq V c t) covered

end Cert.Kernel.MM

end
-- ==== Proof.K.Inv.lean ====
/-
  What the host stretches compute, boundary by boundary. The program's 33 kernel regions lie among 33 host stretches; between
  two items core `c`'s arrays are the valuations `GenP.V1 … GenP.V66`. At the entry of gather region p (boundary 2p+1, p = 0 … 31)
  the arrays hold: the two rows of the edge list (`Vals.src`, `Vals.dst`), the constant ones, the features `Vals.X` and the weights
  `Vals.Wt` (never written), the sum of the first p chunks' gathered rows `Vals.agg m p c`, the edge counts of the first p chunks
  `Vals.deg m p c`, chunk p's table `Vals.dstc m p c` and targets `Vals.srcc m p c`, and the features as [100000, 1, 128], `Vals.X3`.
  Region p changes only its output array, to `Vals.gath3 m p c`; the stretch after it adds that chunk into the sum and the counts
  and cuts the next chunk out of the edge list, which is the invariant at p+1. The last stretch adds chunk 31 and lays the counts out
  as a column, what the last region reads.
-/
import proofs.«406793_j90890097918585_2_alg».proof.Proof.K.Regions
import proofs.«406793_j90890097918585_2_alg».proof.Proof.K.Vals
import proofs.«406793_j90890097918585_2_alg».proof.Proof.K.Outs
import Idealize.ShloMosaic.Lib.StableHlo.Run

-- decided memberships in the stretches' lists of written references recurse past the default depth
set_option maxRecDepth 3032

noncomputable section

namespace Cert.Kernel.Inv

open Cert.Kernel Cert.Kernel.GenP
open Idealize.ShloMosaic Idealize.ShloMosaic.TcCoe Idealize.SL.Sem

variable {F : FTy → Type} [FloatOps F]
variable (m : (ℓ : Loc nD τ sig) → Buf (Elt F) ℓ)

/-! ## Boundary 1: after the first host stretch, which cuts the edge list into its rows, makes the zero sums and counts and the ones, and cuts chunk 0 -/

theorem src_0 (c : Dev nD) : (GenP.V1 m c main_v1 : S1600000.Idx → BitVec 32) = Vals.src m c := by
  show StableHlo.after Gen.hostOps0 _ (Proc.devRef .tc main_v1) = _
  after_results_simp
  rfl

theorem dst_0 (c : Dev nD) : (GenP.V1 m c main_v3 : S1600000.Idx → BitVec 32) = Vals.dst m c := by
  show StableHlo.after Gen.hostOps0 _ (Proc.devRef .tc main_v3) = _
  after_results_simp
  rfl

theorem ones_0 (c : Dev nD) : (GenP.V1 m c main_v6 : FVec F S50000 .f32) = Vals.ones := by
  show StableHlo.after Gen.hostOps0 _ (Proc.devRef .tc main_v6) = _
  after_results_simp
  rfl

theorem x_0 (c : Dev nD) : (GenP.V1 m c main_arg0 : FVec F S100000x128 .f32) = Vals.X m c :=
  GenP.V1_of m c main_arg0 (by decide)

theorem wt_0 (c : Dev nD) : (GenP.V1 m c main_arg2 : FVec F S128x128 .f32) = Vals.Wt m c :=
  GenP.V1_of m c main_arg2 (by decide)

theorem agg_0 (c : Dev nD) : (GenP.V1 m c main_v4 : FVec F S100000x128 .f32) = Vals.agg m 0 c := by
  show StableHlo.after Gen.hostOps0 _ (Proc.devRef .tc main_v4) = _
  after_results_simp
  rfl

theorem deg_0 (c : Dev nD) : (GenP.V1 m c main_v5 : FVec F S100000 .f32) = Vals.deg m 0 c := by
  show StableHlo.after Gen.hostOps0 _ (Proc.devRef .tc main_v5) = _
  after_results_simp
  rfl

theorem tbl_0 (c : Dev nD) : (GenP.V1 m c main_v7 : S50000.Idx → BitVec 32) = Vals.dstc m 0 c := by
  show StableHlo.after Gen.hostOps0 _ (Proc.devRef .tc main_v7) = _
  after_results_simp
  rw [Vals.dstc, dif_pos (by decide : 0 < 32)]
  rfl

theorem tgt_0 (c : Dev nD) : (GenP.V1 m c main_v8 : S50000.Idx → BitVec 32) = Vals.srcc m 0 c := by
  show StableHlo.after Gen.hostOps0 _ (Proc.devRef .tc main_v8) = _
  after_results_simp
  rw [Vals.srcc, dif_pos (by decide : 0 < 32)]
  rfl

theorem x3_0 (c : Dev nD) : (GenP.V1 m c main_v9 : FVec F S100000x1x128 .f32) = Vals.X3 m c := by
  show StableHlo.after Gen.hostOps0 _ (Proc.devRef .tc main_v9) = _
  after_results_simp
  rfl

/-! ## Boundary 3: after region 0 and the host stretch that adds chunk 0 -/

theorem src_1 (c : Dev nD) : (GenP.V3 m (Vals.outs m) c main_v1 : S1600000.Idx → BitVec 32) = Vals.src m c :=
  (GenP.V3_of m _ c main_v1 (by decide)).trans ((GenP.V2_of m _ c main_v1 (by decide)).trans (src_0 m c))

theorem dst_1 (c : Dev nD) : (GenP.V3 m (Vals.outs m) c main_v3 : S1600000.Idx → BitVec 32) = Vals.dst m c :=
  (GenP.V3_of m _ c main_v3 (by decide)).trans ((GenP.V2_of m _ c main_v3 (by decide)).trans (dst_0 m c))

theorem ones_1 (c : Dev nD) : (GenP.V3 m (Vals.outs m) c main_v6 : FVec F S50000 .f32) = Vals.ones :=
  (GenP.V3_of m _ c main_v6 (by decide)).trans ((GenP.V2_of m _ c main_v6 (by decide)).trans (ones_0 m c))

theorem x_1 (c : Dev nD) : (GenP.V3 m (Vals.outs m) c main_arg0 : FVec F S100000x128 .f32) = Vals.X m c :=
  (GenP.V3_of m _ c main_arg0 (by decide)).trans ((GenP.V2_of m _ c main_arg0 (by decide)).trans (x_0 m c))

theorem wt_1 (c : Dev nD) : (GenP.V3 m (Vals.outs m) c main_arg2 : FVec F S128x128 .f32) = Vals.Wt m c :=
  (GenP.V3_of m _ c main_arg2 (by decide)).trans ((GenP.V2_of m _ c main_arg2 (by decide)).trans (wt_0 m c))

theorem agg_1 (c : Dev nD) : (GenP.V3 m (Vals.outs m) c main_v15 : FVec F S100000x128 .f32) = Vals.agg m 1 c := by
  have hs : (GenP.V2 m (Vals.outs m) c main_v4 : FVec F S100000x128 .f32) = Vals.agg m 0 c :=
    (GenP.V2_of m _ c main_v4 (by decide)).trans (agg_0 m c)
  have ht : (GenP.V2 m (Vals.outs m) c main_v8 : S50000.Idx → BitVec 32) = Vals.srcc m 0 c :=
    (GenP.V2_of m _ c main_v8 (by decide)).trans (tgt_0 m c)
  have hg : (GenP.V2 m (Vals.outs m) c main_v10 : FVec F S50000x1x128 .f32) = Vals.gath3 m 0 c :=
    (Function.update_self ..).trans (Vals.outs_0 m c)
  show StableHlo.after Gen.hostOps1 (GenP.V2 m (Vals.outs m) c) (Proc.devRef .tc main_v15) = _
  after_results_simp
  rw [hs, ht, hg]
  rfl

theorem deg_1 (c : Dev nD) : (GenP.V3 m (Vals.outs m) c main_v19 : FVec F S100000 .f32) = Vals.deg m 1 c := by
  have hs : (GenP.V2 m (Vals.outs m) c main_v5 : FVec F S100000 .f32) = Vals.deg m 0 c :=
    (GenP.V2_of m _ c main_v5 (by decide)).trans (deg_0 m c)
  have ht : (GenP.V2 m (Vals.outs m) c main_v8 : S50000.Idx → BitVec 32) = Vals.srcc m 0 c :=
    (GenP.V2_of m _ c main_v8 (by decide)).trans (tgt_0 m c)
  have ho : (GenP.V2 m (Vals.outs m) c main_v6 : FVec F S50000 .f32) = Vals.ones :=
    (GenP.V2_of m _ c main_v6 (by decide)).trans (ones_0 m c)
  show StableHlo.after Gen.hostOps1 (GenP.V2 m (Vals.outs m) c) (Proc.devRef .tc main_v19) = _
  after_results_simp
  rw [hs, ht, ho]
  rfl

theorem tbl_1 (c : Dev nD) : (GenP.V3 m (Vals.outs m) c main_v20 : S50000.Idx → BitVec 32) = Vals.dstc m 1 c := by
  have hd : (GenP.V2 m (Vals.outs m) c main_v3 : S1600000.Idx → BitVec 32) = Vals.dst m c :=
    (GenP.V2_of m _ c main_v3 (by decide)).trans (dst_0 m c)
  show StableHlo.after Gen.hostOps1 (GenP.V2 m (Vals.outs m) c) (Proc.devRef .tc main_v20) = _
  after_results_simp
  rw [hd, Vals.dstc, dif_pos (by decide : 1 < 32)] <;> rfl

theorem tgt_1 (c : Dev nD) : (GenP.V3 m (Vals.outs m) c main_v21 : S50000.Idx → BitVec 32) = Vals.srcc m 1 c := by
  have hd : (GenP.V2 m (Vals.outs m) c main_v1 : S1600000.Idx → BitVec 32) = Vals.src m c :=
    (GenP.V2_of m _ c main_v1 (by decide)).trans (src_0 m c)
  show StableHlo.after Gen.hostOps1 (GenP.V2 m (Vals.outs m) c) (Proc.devRef .tc main_v21) = _
  after_results_simp
  rw [hd, Vals.srcc, dif_pos (by decide : 1 < 32)] <;> rfl

theorem x3_1 (c : Dev nD) : (GenP.V3 m (Vals.outs m) c main_v22 : FVec F S100000x1x128 .f32) = Vals.X3 m c := by
  have hx : (GenP.V2 m (Vals.outs m) c main_arg0 : FVec F S100000x128 .f32) = Vals.X m c :=
    (GenP.V2_of m _ c main_arg0 (by decide)).trans (x_0 m c)
  show StableHlo.after Gen.hostOps1 (GenP.V2 m (Vals.outs m) c) (Proc.devRef .tc main_v22) = _
  after_results_simp
  rw [hx]
  rfl

/- GENERATED by `node scripts/gen_inv.js KernelIdeal` from the hand text of the section "Boundary 3" above (stretch 1), up to the section
   "Boundary 65": stretches 2 … 31, the same text with the valuations, the reference names and the chunk number substituted. -/

/-! ## Boundary 5: after region 1 and the host stretch that adds chunk 1 -/

theorem src_2 (c : Dev nD) : (GenP.V5 m (Vals.outs m) c main_v1 : S1600000.Idx → BitVec 32) = Vals.src m c :=
  (GenP.V5_of m _ c main_v1 (by decide)).trans ((GenP.V4_of m _ c main_v1 (by decide)).trans (src_1 m c))

theorem dst_2 (c : Dev nD) : (GenP.V5 m (Vals.outs m) c main_v3 : S1600000.Idx → BitVec 32) = Vals.dst m c :=
  (GenP.V5_of m _ c main_v3 (by decide)).trans ((GenP.V4_of m _ c main_v3 (by decide)).trans (dst_1 m c))

theorem ones_2 (c : Dev nD) : (GenP.V5 m (Vals.outs m) c main_v6 : FVec F S50000 .f32) = Vals.ones :=
  (GenP.V5_of m _ c main_v6 (by decide)).trans ((GenP.V4_of m _ c main_v6 (by decide)).trans (ones_1 m c))

theorem x_2 (c : Dev nD) : (GenP.V5 m (Vals.outs m) c main_arg0 : FVec F S100000x128 .f32) = Vals.X m c :=
  (GenP.V5_of m _ c main_arg0 (by decide)).trans ((GenP.V4_of m _ c main_arg0 (by decide)).trans (x_1 m c))

theorem wt_2 (c : Dev nD) : (GenP.V5 m (Vals.outs m) c main_arg2 : FVec F S128x128 .f32) = Vals.Wt m c :=
  (GenP.V5_of m _ c main_arg2 (by decide)).trans ((GenP.V4_of m _ c main_arg2 (by decide)).trans (wt_1 m c))

theorem agg_2 (c : Dev nD) : (GenP.V5 m (Vals.outs m) c main_v28 : FVec F S100000x128 .f32) = Vals.agg m 2 c := by
  have hs : (GenP.V4 m (Vals.outs m) c main_v15 : FVec F S100000x128 .f32) = Vals.agg m 1 c :=
    (GenP.V4_of m _ c main_v15 (by decide)).trans (agg_1 m c)
  have ht : (GenP.V4 m (Vals.outs m) c main_v21 : S50000.Idx → BitVec 32) = Vals.srcc m 1 c :=
    (GenP.V4_of m _ c main_v21 (by decide)).trans (tgt_1 m c)
  have hg : (GenP.V4 m (Vals.outs m) c main_v23 : FVec F S50000x1x128 .f32) = Vals.gath3 m 1 c :=
    (Function.update_self ..).trans (Vals.outs_1 m c)
  show StableHlo.after Gen.hostOps2 (GenP.V4 m (Vals.outs m) c) (Proc.devRef .tc main_v28) = _
  after_results_simp
  rw [hs, ht, hg]
  rfl

theorem deg_2 (c : Dev nD) : (GenP.V5 m (Vals.outs m) c main_v32 : FVec F S100000 .f32) = Vals.deg m 2 c := by
  have hs : (GenP.V4 m (Vals.outs m) c main_v19 : FVec F S100000 .f32) = Vals.deg m 1 c :=
    (GenP.V4_of m _ c main_v19 (by decide)).trans (deg_1 m c)
  have ht : (GenP.V4 m (Vals.outs m) c main_v21 : S50000.Idx → BitVec 32) = Vals.srcc m 1 c :=
    (GenP.V4_of m _ c main_v21 (by decide)).trans (tgt_1 m c)
  have ho : (GenP.V4 m (Vals.outs m) c main_v6 : FVec F S50000 .f32) = Vals.ones :=
    (GenP.V4_of m _ c main_v6 (by decide)).trans (ones_1 m c)
  show StableHlo.after Gen.hostOps2 (GenP.V4 m (Vals.outs m) c) (Proc.devRef .tc main_v32) = _
  after_results_simp
  rw [hs, ht, ho]
  rfl

theorem tbl_2 (c : Dev nD) : (GenP.V5 m (Vals.outs m) c main_v33 : S50000.Idx → BitVec 32) = Vals.dstc m 2 c := by
  have hd : (GenP.V4 m (Vals.outs m) c main_v3 : S1600000.Idx → BitVec 32) = Vals.dst m c :=
    (GenP.V4_of m _ c main_v3 (by decide)).trans (dst_1 m c)
  show StableHlo.after Gen.hostOps2 (GenP.V4 m (Vals.outs m) c) (Proc.devRef .tc main_v33) = _
  after_results_simp
  rw [hd, Vals.dstc, dif_pos (by decide : 2 < 32)] <;> rfl

theorem tgt_2 (c : Dev nD) : (GenP.V5 m (Vals.outs m) c main_v34 : S50000.Idx → BitVec 32) = Vals.srcc m 2 c := by
  have hd : (GenP.V4 m (Vals.outs m) c main_v1 : S1600000.Idx → BitVec 32) = Vals.src m c :=
    (GenP.V4_of m _ c main_v1 (by decide)).trans (src_1 m c)
  show StableHlo.after Gen.hostOps2 (GenP.V4 m (Vals.outs m) c) (Proc.devRef .tc main_v34) = _
  after_results_simp
  rw [hd, Vals.srcc, dif_pos (by decide : 2 < 32)] <;> rfl

theorem x3_2 (c : Dev nD) : (GenP.V5 m (Vals.outs m) c main_v35 : FVec F S100000x1x128 .f32) = Vals.X3 m c := by
  have hx : (GenP.V4 m (Vals.outs m) c main_arg0 : FVec F S100000x128 .f32) = Vals.X m c :=
    (GenP.V4_of m _ c main_arg0 (by decide)).trans (x_1 m c)
  show StableHlo.after Gen.hostOps2 (GenP.V4 m (Vals.outs m) c) (Proc.devRef .tc main_v35) = _
  after_results_simp
  rw [hx]
  rfl

/-! ## Boundary 7: after region 2 and the host stretch that adds chunk 2 -/

theorem src_3 (c : Dev nD) : (GenP.V7 m (Vals.outs m) c main_v1 : S1600000.Idx → BitVec 32) = Vals.src m c :=
  (GenP.V7_of m _ c main_v1 (by decide)).trans ((GenP.V6_of m _ c main_v1 (by decide)).trans (src_2 m c))

theorem dst_3 (c : Dev nD) : (GenP.V7 m (Vals.outs m) c main_v3 : S1600000.Idx → BitVec 32) = Vals.dst m c :=
  (GenP.V7_of m _ c main_v3 (by decide)).trans ((GenP.V6_of m _ c main_v3 (by decide)).trans (dst_2 m c))

theorem ones_3 (c : Dev nD) : (GenP.V7 m (Vals.outs m) c main_v6 : FVec F S50000 .f32) = Vals.ones :=
  (GenP.V7_of m _ c main_v6 (by decide)).trans ((GenP.V6_of m _ c main_v6 (by decide)).trans (ones_2 m c))

theorem x_3 (c : Dev nD) : (GenP.V7 m (Vals.outs m) c main_arg0 : FVec F S100000x128 .f32) = Vals.X m c :=
  (GenP.V7_of m _ c main_arg0 (by decide)).trans ((GenP.V6_of m _ c main_arg0 (by decide)).trans (x_2 m c))

theorem wt_3 (c : Dev nD) : (GenP.V7 m (Vals.outs m) c main_arg2 : FVec F S128x128 .f32) = Vals.Wt m c :=
  (GenP.V7_of m _ c main_arg2 (by decide)).trans ((GenP.V6_of m _ c main_arg2 (by decide)).trans (wt_2 m c))

theorem agg_3 (c : Dev nD) : (GenP.V7 m (Vals.outs m) c main_v41 : FVec F S100000x128 .f32) = Vals.agg m 3 c := by
  have hs : (GenP.V6 m (Vals.outs m) c main_v28 : FVec F S100000x128 .f32) = Vals.agg m 2 c :=
    (GenP.V6_of m _ c main_v28 (by decide)).trans (agg_2 m c)
  have ht : (GenP.V6 m (Vals.outs m) c main_v34 : S50000.Idx → BitVec 32) = Vals.srcc m 2 c :=
    (GenP.V6_of m _ c main_v34 (by decide)).trans (tgt_2 m c)
  have hg : (GenP.V6 m (Vals.outs m) c main_v36 : FVec F S50000x1x128 .f32) = Vals.gath3 m 2 c :=
    (Function.update_self ..).trans (Vals.outs_2 m c)
  show StableHlo.after Gen.hostOps3 (GenP.V6 m (Vals.outs m) c) (Proc.devRef .tc main_v41) = _
  after_results_simp
  rw [hs, ht, hg]
  rfl

theorem deg_3 (c : Dev nD) : (GenP.V7 m (Vals.outs m) c main_v45 : FVec F S100000 .f32) = Vals.deg m 3 c := by
  have hs : (GenP.V6 m (Vals.outs m) c main_v32 : FVec F S100000 .f32) = Vals.deg m 2 c :=
    (GenP.V6_of m _ c main_v32 (by decide)).trans (deg_2 m c)
  have ht : (GenP.V6 m (Vals.outs m) c main_v34 : S50000.Idx → BitVec 32) = Vals.srcc m 2 c :=
    (GenP.V6_of m _ c main_v34 (by decide)).trans (tgt_2 m c)
  have ho : (GenP.V6 m (Vals.outs m) c main_v6 : FVec F S50000 .f32) = Vals.ones :=
    (GenP.V6_of m _ c main_v6 (by decide)).trans (ones_2 m c)
  show StableHlo.after Gen.hostOps3 (GenP.V6 m (Vals.outs m) c) (Proc.devRef .tc main_v45) = _
  after_results_simp
  rw [hs, ht, ho]
  rfl

theorem tbl_3 (c : Dev nD) : (GenP.V7 m (Vals.outs m) c main_v46 : S50000.Idx → BitVec 32) = Vals.dstc m 3 c := by
  have hd : (GenP.V6 m (Vals.outs m) c main_v3 : S1600000.Idx → BitVec 32) = Vals.dst m c :=
    (GenP.V6_of m _ c main_v3 (by decide)).trans (dst_2 m c)
  show StableHlo.after Gen.hostOps3 (GenP.V6 m (Vals.outs m) c) (Proc.devRef .tc main_v46) = _
  after_results_simp
  rw [hd, Vals.dstc, dif_pos (by decide : 3 < 32)] <;> rfl

theorem tgt_3 (c : Dev nD) : (GenP.V7 m (Vals.outs m) c main_v47 : S50000.Idx → BitVec 32) = Vals.srcc m 3 c := by
  have hd : (GenP.V6 m (Vals.outs m) c main_v1 : S1600000.Idx → BitVec 32) = Vals.src m c :=
    (GenP.V6_of m _ c main_v1 (by decide)).trans (src_2 m c)
  show StableHlo.after Gen.hostOps3 (GenP.V6 m (Vals.outs m) c) (Proc.devRef .tc main_v47) = _
  after_results_simp
  rw [hd, Vals.srcc, dif_pos (by decide : 3 < 32)] <;> rfl

theorem x3_3 (c : Dev nD) : (GenP.V7 m (Vals.outs m) c main_v48 : FVec F S100000x1x128 .f32) = Vals.X3 m c := by
  have hx : (GenP.V6 m (Vals.outs m) c main_arg0 : FVec F S100000x128 .f32) = Vals.X m c :=
    (GenP.V6_of m _ c main_arg0 (by decide)).trans (x_2 m c)
  show StableHlo.after Gen.hostOps3 (GenP.V6 m (Vals.outs m) c) (Proc.devRef .tc main_v48) = _
  after_results_simp
  rw [hx]
  rfl

/-! ## Boundary 9: after region 3 and the host stretch that adds chunk 3 -/

theorem src_4 (c : Dev nD) : (GenP.V9 m (Vals.outs m) c main_v1 : S1600000.Idx → BitVec 32) = Vals.src m c :=
  (GenP.V9_of m _ c main_v1 (by decide)).trans ((GenP.V8_of m _ c main_v1 (by decide)).trans (src_3 m c))

theorem dst_4 (c : Dev nD) : (GenP.V9 m (Vals.outs m) c main_v3 : S1600000.Idx → BitVec 32) = Vals.dst m c :=
  (GenP.V9_of m _ c main_v3 (by decide)).trans ((GenP.V8_of m _ c main_v3 (by decide)).trans (dst_3 m c))

theorem ones_4 (c : Dev nD) : (GenP.V9 m (Vals.outs m) c main_v6 : FVec F S50000 .f32) = Vals.ones :=
  (GenP.V9_of m _ c main_v6 (by decide)).trans ((GenP.V8_of m _ c main_v6 (by decide)).trans (ones_3 m c))

theorem x_4 (c : Dev nD) : (GenP.V9 m (Vals.outs m) c main_arg0 : FVec F S100000x128 .f32) = Vals.X m c :=
  (GenP.V9_of m _ c main_arg0 (by decide)).trans ((GenP.V8_of m _ c main_arg0 (by decide)).trans (x_3 m c))

theorem wt_4 (c : Dev nD) : (GenP.V9 m (Vals.outs m) c main_arg2 : FVec F S128x128 .f32) = Vals.Wt m c :=
  (GenP.V9_of m _ c main_arg2 (by decide)).trans ((GenP.V8_of m _ c main_arg2 (by decide)).trans (wt_3 m c))

theorem agg_4 (c : Dev nD) : (GenP.V9 m (Vals.outs m) c main_v54 : FVec F S100000x128 .f32) = Vals.agg m 4 c := by
  have hs : (GenP.V8 m (Vals.outs m) c main_v41 : FVec F S100000x128 .f32) = Vals.agg m 3 c :=
    (GenP.V8_of m _ c main_v41 (by decide)).trans (agg_3 m c)
  have ht : (GenP.V8 m (Vals.outs m) c main_v47 : S50000.Idx → BitVec 32) = Vals.srcc m 3 c :=
    (GenP.V8_of m _ c main_v47 (by decide)).trans (tgt_3 m c)
  have hg : (GenP.V8 m (Vals.outs m) c main_v49 : FVec F S50000x1x128 .f32) = Vals.gath3 m 3 c :=
    (Function.update_self ..).trans (Vals.outs_3 m c)
  show StableHlo.after Gen.hostOps4 (GenP.V8 m (Vals.outs m) c) (Proc.devRef .tc main_v54) = _
  after_results_simp
  rw [hs, ht, hg]
  rfl

theorem deg_4 (c : Dev nD) : (GenP.V9 m (Vals.outs m) c main_v58 : FVec F S100000 .f32) = Vals.deg m 4 c := by
  have hs : (GenP.V8 m (Vals.outs m) c main_v45 : FVec F S100000 .f32) = Vals.deg m 3 c :=
    (GenP.V8_of m _ c main_v45 (by decide)).trans (deg_3 m c)
  have ht : (GenP.V8 m (Vals.outs m) c main_v47 : S50000.Idx → BitVec 32) = Vals.srcc m 3 c :=
    (GenP.V8_of m _ c main_v47 (by decide)).trans (tgt_3 m c)
  have ho : (GenP.V8 m (Vals.outs m) c main_v6 : FVec F S50000 .f32) = Vals.ones :=
    (GenP.V8_of m _ c main_v6 (by decide)).trans (ones_3 m c)
  show StableHlo.after Gen.hostOps4 (GenP.V8 m (Vals.outs m) c) (Proc.devRef .tc main_v58) = _
  after_results_simp
  rw [hs, ht, ho]
  rfl

theorem tbl_4 (c : Dev nD) : (GenP.V9 m (Vals.outs m) c main_v59 : S50000.Idx → BitVec 32) = Vals.dstc m 4 c := by
  have hd : (GenP.V8 m (Vals.outs m) c main_v3 : S1600000.Idx → BitVec 32) = Vals.dst m c :=
    (GenP.V8_of m _ c main_v3 (by decide)).trans (dst_3 m c)
  show StableHlo.after Gen.hostOps4 (GenP.V8 m (Vals.outs m) c) (Proc.devRef .tc main_v59) = _
  after_results_simp
  rw [hd, Vals.dstc, dif_pos (by decide : 4 < 32)] <;> rfl

theorem tgt_4 (c : Dev nD) : (GenP.V9 m (Vals.outs m) c main_v60 : S50000.Idx → BitVec 32) = Vals.srcc m 4 c := by
  have hd : (GenP.V8 m (Vals.outs m) c main_v1 : S1600000.Idx → BitVec 32) = Vals.src m c :=
    (GenP.V8_of m _ c main_v1 (by decide)).trans (src_3 m c)
  show StableHlo.after Gen.hostOps4 (GenP.V8 m (Vals.outs m) c) (Proc.devRef .tc main_v60) = _
  after_results_simp
  rw [hd, Vals.srcc, dif_pos (by decide : 4 < 32)] <;> rfl

theorem x3_4 (c : Dev nD) : (GenP.V9 m (Vals.outs m) c main_v61 : FVec F S100000x1x128 .f32) = Vals.X3 m c := by
  have hx : (GenP.V8 m (Vals.outs m) c main_arg0 : FVec F S100000x128 .f32) = Vals.X m c :=
    (GenP.V8_of m _ c main_arg0 (by decide)).trans (x_3 m c)
  show StableHlo.after Gen.hostOps4 (GenP.V8 m (Vals.outs m) c) (Proc.devRef .tc main_v61) = _
  after_results_simp
  rw [hx]
  rfl

/-! ## Boundary 11: after region 4 and the host stretch that adds chunk 4 -/

theorem src_5 (c : Dev nD) : (GenP.V11 m (Vals.outs m) c main_v1 : S1600000.Idx → BitVec 32) = Vals.src m c :=
  (GenP.V11_of m _ c main_v1 (by decide)).trans ((GenP.V10_of m _ c main_v1 (by decide)).trans (src_4 m c))

theorem dst_5 (c : Dev nD) : (GenP.V11 m (Vals.outs m) c main_v3 : S1600000.Idx → BitVec 32) = Vals.dst m c :=
  (GenP.V11_of m _ c main_v3 (by decide)).trans ((GenP.V10_of m _ c main_v3 (by decide)).trans (dst_4 m c))

theorem ones_5 (c : Dev nD) : (GenP.V11 m (Vals.outs m) c main_v6 : FVec F S50000 .f32) = Vals.ones :=
  (GenP.V11_of m _ c main_v6 (by decide)).trans ((GenP.V10_of m _ c main_v6 (by decide)).trans (ones_4 m c))

theorem x_5 (c : Dev nD) : (GenP.V11 m (Vals.outs m) c main_arg0 : FVec F S100000x128 .f32) = Vals.X m c :=
  (GenP.V11_of m _ c main_arg0 (by decide)).trans ((GenP.V10_of m _ c main_arg0 (by decide)).trans (x_4 m c))

theorem wt_5 (c : Dev nD) : (GenP.V11 m (Vals.outs m) c main_arg2 : FVec F S128x128 .f32) = Vals.Wt m c :=
  (GenP.V11_of m _ c main_arg2 (by decide)).trans ((GenP.V10_of m _ c main_arg2 (by decide)).trans (wt_4 m c))

theorem agg_5 (c : Dev nD) : (GenP.V11 m (Vals.outs m) c main_v67 : FVec F S100000x128 .f32) = Vals.agg m 5 c := by
  have hs : (GenP.V10 m (Vals.outs m) c main_v54 : FVec F S100000x128 .f32) = Vals.agg m 4 c :=
    (GenP.V10_of m _ c main_v54 (by decide)).trans (agg_4 m c)
  have ht : (GenP.V10 m (Vals.outs m) c main_v60 : S50000.Idx → BitVec 32) = Vals.srcc m 4 c :=
    (GenP.V10_of m _ c main_v60 (by decide)).trans (tgt_4 m c)
  have hg : (GenP.V10 m (Vals.outs m) c main_v62 : FVec F S50000x1x128 .f32) = Vals.gath3 m 4 c :=
    (Function.update_self ..).trans (Vals.outs_4 m c)
  show StableHlo.after Gen.hostOps5 (GenP.V10 m (Vals.outs m) c) (Proc.devRef .tc main_v67) = _
  after_results_simp
  rw [hs, ht, hg]
  rfl

theorem deg_5 (c : Dev nD) : (GenP.V11 m (Vals.outs m) c main_v71 : FVec F S100000 .f32) = Vals.deg m 5 c := by
  have hs : (GenP.V10 m (Vals.outs m) c main_v58 : FVec F S100000 .f32) = Vals.deg m 4 c :=
    (GenP.V10_of m _ c main_v58 (by decide)).trans (deg_4 m c)
  have ht : (GenP.V10 m (Vals.outs m) c main_v60 : S50000.Idx → BitVec 32) = Vals.srcc m 4 c :=
    (GenP.V10_of m _ c main_v60 (by decide)).trans (tgt_4 m c)
  have ho : (GenP.V10 m (Vals.outs m) c main_v6 : FVec F S50000 .f32) = Vals.ones :=
    (GenP.V10_of m _ c main_v6 (by decide)).trans (ones_4 m c)
  show StableHlo.after Gen.hostOps5 (GenP.V10 m (Vals.outs m) c) (Proc.devRef .tc main_v71) = _
  after_results_simp
  rw [hs, ht, ho]
  rfl

theorem tbl_5 (c : Dev nD) : (GenP.V11 m (Vals.outs m) c main_v72 : S50000.Idx → BitVec 32) = Vals.dstc m 5 c := by
  have hd : (GenP.V10 m (Vals.outs m) c main_v3 : S1600000.Idx → BitVec 32) = Vals.dst m c :=
    (GenP.V10_of m _ c main_v3 (by decide)).trans (dst_4 m c)
  show StableHlo.after Gen.hostOps5 (GenP.V10 m (Vals.outs m) c) (Proc.devRef .tc main_v72) = _
  after_results_simp
  rw [hd, Vals.dstc, dif_pos (by decide : 5 < 32)] <;> rfl

theorem tgt_5 (c : Dev nD) : (GenP.V11 m (Vals.outs m) c main_v73 : S50000.Idx → BitVec 32) = Vals.srcc m 5 c := by
  have hd : (GenP.V10 m (Vals.outs m) c main_v1 : S1600000.Idx → BitVec 32) = Vals.src m c :=
    (GenP.V10_of m _ c main_v1 (by decide)).trans (src_4 m c)
  show StableHlo.after Gen.hostOps5 (GenP.V10 m (Vals.outs m) c) (Proc.devRef .tc main_v73) = _
  after_results_simp
  rw [hd, Vals.srcc, dif_pos (by decide : 5 < 32)] <;> rfl

theorem x3_5 (c : Dev nD) : (GenP.V11 m (Vals.outs m) c main_v74 : FVec F S100000x1x128 .f32) = Vals.X3 m c := by
  have hx : (GenP.V10 m (Vals.outs m) c main_arg0 : FVec F S100000x128 .f32) = Vals.X m c :=
    (GenP.V10_of m _ c main_arg0 (by decide)).trans (x_4 m c)
  show StableHlo.after Gen.hostOps5 (GenP.V10 m (Vals.outs m) c) (Proc.devRef .tc main_v74) = _
  after_results_simp
  rw [hx]
  rfl

/-! ## Boundary 13: after region 5 and the host stretch that adds chunk 5 -/

theorem src_6 (c : Dev nD) : (GenP.V13 m (Vals.outs m) c main_v1 : S1600000.Idx → BitVec 32) = Vals.src m c :=
  (GenP.V13_of m _ c main_v1 (by decide)).trans ((GenP.V12_of m _ c main_v1 (by decide)).trans (src_5 m c))

theorem dst_6 (c : Dev nD) : (GenP.V13 m (Vals.outs m) c main_v3 : S1600000.Idx → BitVec 32) = Vals.dst m c :=
  (GenP.V13_of m _ c main_v3 (by decide)).trans ((GenP.V12_of m _ c main_v3 (by decide)).trans (dst_5 m c))

theorem ones_6 (c : Dev nD) : (GenP.V13 m (Vals.outs m) c main_v6 : FVec F S50000 .f32) = Vals.ones :=
  (GenP.V13_of m _ c main_v6 (by decide)).trans ((GenP.V12_of m _ c main_v6 (by decide)).trans (ones_5 m c))

theorem x_6 (c : Dev nD) : (GenP.V13 m (Vals.outs m) c main_arg0 : FVec F S100000x128 .f32) = Vals.X m c :=
  (GenP.V13_of m _ c main_arg0 (by decide)).trans ((GenP.V12_of m _ c main_arg0 (by decide)).trans (x_5 m c))

theorem wt_6 (c : Dev nD) : (GenP.V13 m (Vals.outs m) c main_arg2 : FVec F S128x128 .f32) = Vals.Wt m c :=
  (GenP.V13_of m _ c main_arg2 (by decide)).trans ((GenP.V12_of m _ c main_arg2 (by decide)).trans (wt_5 m c))

theorem agg_6 (c : Dev nD) : (GenP.V13 m (Vals.outs m) c main_v80 : FVec F S100000x128 .f32) = Vals.agg m 6 c := by
  have hs : (GenP.V12 m (Vals.outs m) c main_v67 : FVec F S100000x128 .f32) = Vals.agg m 5 c :=
    (GenP.V12_of m _ c main_v67 (by decide)).trans (agg_5 m c)
  have ht : (GenP.V12 m (Vals.outs m) c main_v73 : S50000.Idx → BitVec 32) = Vals.srcc m 5 c :=
    (GenP.V12_of m _ c main_v73 (by decide)).trans (tgt_5 m c)
  have hg : (GenP.V12 m (Vals.outs m) c main_v75 : FVec F S50000x1x128 .f32) = Vals.gath3 m 5 c :=
    (Function.update_self ..).trans (Vals.outs_5 m c)
  show StableHlo.after Gen.hostOps6 (GenP.V12 m (Vals.outs m) c) (Proc.devRef .tc main_v80) = _
  after_results_simp
  rw [hs, ht, hg]
  rfl

theorem deg_6 (c : Dev nD) : (GenP.V13 m (Vals.outs m) c main_v84 : FVec F S100000 .f32) = Vals.deg m 6 c := by
  have hs : (GenP.V12 m (Vals.outs m) c main_v71 : FVec F S100000 .f32) = Vals.deg m 5 c :=
    (GenP.V12_of m _ c main_v71 (by decide)).trans (deg_5 m c)
  have ht : (GenP.V12 m (Vals.outs m) c main_v73 : S50000.Idx → BitVec 32) = Vals.srcc m 5 c :=
    (GenP.V12_of m _ c main_v73 (by decide)).trans (tgt_5 m c)
  have ho : (GenP.V12 m (Vals.outs m) c main_v6 : FVec F S50000 .f32) = Vals.ones :=
    (GenP.V12_of m _ c main_v6 (by decide)).trans (ones_5 m c)
  show StableHlo.after Gen.hostOps6 (GenP.V12 m (Vals.outs m) c) (Proc.devRef .tc main_v84) = _
  after_results_simp
  rw [hs, ht, ho]
  rfl

theorem tbl_6 (c : Dev nD) : (GenP.V13 m (Vals.outs m) c main_v85 : S50000.Idx → BitVec 32) = Vals.dstc m 6 c := by
  have hd : (GenP.V12 m (Vals.outs m) c main_v3 : S1600000.Idx → BitVec 32) = Vals.dst m c :=
    (GenP.V12_of m _ c main_v3 (by decide)).trans (dst_5 m c)
  show StableHlo.after Gen.hostOps6 (GenP.V12 m (Vals.outs m) c) (Proc.devRef .tc main_v85) = _
  after_results_simp
  rw [hd, Vals.dstc, dif_pos (by decide : 6 < 32)] <;> rfl

theorem tgt_6 (c : Dev nD) : (GenP.V13 m (Vals.outs m) c main_v86 : S50000.Idx → BitVec 32) = Vals.srcc m 6 c := by
  have hd : (GenP.V12 m (Vals.outs m) c main_v1 : S1600000.Idx → BitVec 32) = Vals.src m c :=
    (GenP.V12_of m _ c main_v1 (by decide)).trans (src_5 m c)
  show StableHlo.after Gen.hostOps6 (GenP.V12 m (Vals.outs m) c) (Proc.devRef .tc main_v86) = _
  after_results_simp
  rw [hd, Vals.srcc, dif_pos (by decide : 6 < 32)] <;> rfl

theorem x3_6 (c : Dev nD) : (GenP.V13 m (Vals.outs m) c main_v87 : FVec F S100000x1x128 .f32) = Vals.X3 m c := by
  have hx : (GenP.V12 m (Vals.outs m) c main_arg0 : FVec F S100000x128 .f32) = Vals.X m c :=
    (GenP.V12_of m _ c main_arg0 (by decide)).trans (x_5 m c)
  show StableHlo.after Gen.hostOps6 (GenP.V12 m (Vals.outs m) c) (Proc.devRef .tc main_v87) = _
  after_results_simp
  rw [hx]
  rfl

/-! ## Boundary 15: after region 6 and the host stretch that adds chunk 6 -/

theorem src_7 (c : Dev nD) : (GenP.V15 m (Vals.outs m) c main_v1 : S1600000.Idx → BitVec 32) = Vals.src m c :=
  (GenP.V15_of m _ c main_v1 (by decide)).trans ((GenP.V14_of m _ c main_v1 (by decide)).trans (src_6 m c))

theorem dst_7 (c : Dev nD) : (GenP.V15 m (Vals.outs m) c main_v3 : S1600000.Idx → BitVec 32) = Vals.dst m c :=
  (GenP.V15_of m _ c main_v3 (by decide)).trans ((GenP.V14_of m _ c main_v3 (by decide)).trans (dst_6 m c))

theorem ones_7 (c : Dev nD) : (GenP.V15 m (Vals.outs m) c main_v6 : FVec F S50000 .f32) = Vals.ones :=
  (GenP.V15_of m _ c main_v6 (by decide)).trans ((GenP.V14_of m _ c main_v6 (by decide)).trans (ones_6 m c))

theorem x_7 (c : Dev nD) : (GenP.V15 m (Vals.outs m) c main_arg0 : FVec F S100000x128 .f32) = Vals.X m c :=
  (GenP.V15_of m _ c main_arg0 (by decide)).trans ((GenP.V14_of m _ c main_arg0 (by decide)).trans (x_6 m c))

theorem wt_7 (c : Dev nD) : (GenP.V15 m (Vals.outs m) c main_arg2 : FVec F S128x128 .f32) = Vals.Wt m c :=
  (GenP.V15_of m _ c main_arg2 (by decide)).trans ((GenP.V14_of m _ c main_arg2 (by decide)).trans (wt_6 m c))

theorem agg_7 (c : Dev nD) : (GenP.V15 m (Vals.outs m) c main_v93 : FVec F S100000x128 .f32) = Vals.agg m 7 c := by
  have hs : (GenP.V14 m (Vals.outs m) c main_v80 : FVec F S100000x128 .f32) = Vals.agg m 6 c :=
    (GenP.V14_of m _ c main_v80 (by decide)).trans (agg_6 m c)
  have ht : (GenP.V14 m (Vals.outs m) c main_v86 : S50000.Idx → BitVec 32) = Vals.srcc m 6 c :=
    (GenP.V14_of m _ c main_v86 (by decide)).trans (tgt_6 m c)
  have hg : (GenP.V14 m (Vals.outs m) c main_v88 : FVec F S50000x1x128 .f32) = Vals.gath3 m 6 c :=
    (Function.update_self ..).trans (Vals.outs_6 m c)
  show StableHlo.after Gen.hostOps7 (GenP.V14 m (Vals.outs m) c) (Proc.devRef .tc main_v93) = _
  after_results_simp
  rw [hs, ht, hg]
  rfl

theorem deg_7 (c : Dev nD) : (GenP.V15 m (Vals.outs m) c main_v97 : FVec F S100000 .f32) = Vals.deg m 7 c := by
  have hs : (GenP.V14 m (Vals.outs m) c main_v84 : FVec F S100000 .f32) = Vals.deg m 6 c :=
    (GenP.V14_of m _ c main_v84 (by decide)).trans (deg_6 m c)
  have ht : (GenP.V14 m (Vals.outs m) c main_v86 : S50000.Idx → BitVec 32) = Vals.srcc m 6 c :=
    (GenP.V14_of m _ c main_v86 (by decide)).trans (tgt_6 m c)
  have ho : (GenP.V14 m (Vals.outs m) c main_v6 : FVec F S50000 .f32) = Vals.ones :=
    (GenP.V14_of m _ c main_v6 (by decide)).trans (ones_6 m c)
  show StableHlo.after Gen.hostOps7 (GenP.V14 m (Vals.outs m) c) (Proc.devRef .tc main_v97) = _
  after_results_simp
  rw [hs, ht, ho]
  rfl

theorem tbl_7 (c : Dev nD) : (GenP.V15 m (Vals.outs m) c main_v98 : S50000.Idx → BitVec 32) = Vals.dstc m 7 c := by
  have hd : (GenP.V14 m (Vals.outs m) c main_v3 : S1600000.Idx → BitVec 32) = Vals.dst m c :=
    (GenP.V14_of m _ c main_v3 (by decide)).trans (dst_6 m c)
  show StableHlo.after Gen.hostOps7 (GenP.V14 m (Vals.outs m) c) (Proc.devRef .tc main_v98) = _
  after_results_simp
  rw [hd, Vals.dstc, dif_pos (by decide : 7 < 32)] <;> rfl

theorem tgt_7 (c : Dev nD) : (GenP.V15 m (Vals.outs m) c main_v99 : S50000.Idx → BitVec 32) = Vals.srcc m 7 c := by
  have hd : (GenP.V14 m (Vals.outs m) c main_v1 : S1600000.Idx → BitVec 32) = Vals.src m c :=
    (GenP.V14_of m _ c main_v1 (by decide)).trans (src_6 m c)
  show StableHlo.after Gen.hostOps7 (GenP.V14 m (Vals.outs m) c) (Proc.devRef .tc main_v99) = _
  after_results_simp
  rw [hd, Vals.srcc, dif_pos (by decide : 7 < 32)] <;> rfl

theorem x3_7 (c : Dev nD) : (GenP.V15 m (Vals.outs m) c main_v100 : FVec F S100000x1x128 .f32) = Vals.X3 m c := by
  have hx : (GenP.V14 m (Vals.outs m) c main_arg0 : FVec F S100000x128 .f32) = Vals.X m c :=
    (GenP.V14_of m _ c main_arg0 (by decide)).trans (x_6 m c)
  show StableHlo.after Gen.hostOps7 (GenP.V14 m (Vals.outs m) c) (Proc.devRef .tc main_v100) = _
  after_results_simp
  rw [hx]
  rfl

/-! ## Boundary 17: after region 7 and the host stretch that adds chunk 7 -/

theorem src_8 (c : Dev nD) : (GenP.V17 m (Vals.outs m) c main_v1 : S1600000.Idx → BitVec 32) = Vals.src m c :=
  (GenP.V17_of m _ c main_v1 (by decide)).trans ((GenP.V16_of m _ c main_v1 (by decide)).trans (src_7 m c))

theorem dst_8 (c : Dev nD) : (GenP.V17 m (Vals.outs m) c main_v3 : S1600000.Idx → BitVec 32) = Vals.dst m c :=
  (GenP.V17_of m _ c main_v3 (by decide)).trans ((GenP.V16_of m _ c main_v3 (by decide)).trans (dst_7 m c))

theorem ones_8 (c : Dev nD) : (GenP.V17 m (Vals.outs m) c main_v6 : FVec F S50000 .f32) = Vals.ones :=
  (GenP.V17_of m _ c main_v6 (by decide)).trans ((GenP.V16_of m _ c main_v6 (by decide)).trans (ones_7 m c))

theorem x_8 (c : Dev nD) : (GenP.V17 m (Vals.outs m) c main_arg0 : FVec F S100000x128 .f32) = Vals.X m c :=
  (GenP.V17_of m _ c main_arg0 (by decide)).trans ((GenP.V16_of m _ c main_arg0 (by decide)).trans (x_7 m c))

theorem wt_8 (c : Dev nD) : (GenP.V17 m (Vals.outs m) c main_arg2 : FVec F S128x128 .f32) = Vals.Wt m c :=
  (GenP.V17_of m _ c main_arg2 (by decide)).trans ((GenP.V16_of m _ c main_arg2 (by decide)).trans (wt_7 m c))

theorem agg_8 (c : Dev nD) : (GenP.V17 m (Vals.outs m) c main_v106 : FVec F S100000x128 .f32) = Vals.agg m 8 c := by
  have hs : (GenP.V16 m (Vals.outs m) c main_v93 : FVec F S100000x128 .f32) = Vals.agg m 7 c :=
    (GenP.V16_of m _ c main_v93 (by decide)).trans (agg_7 m c)
  have ht : (GenP.V16 m (Vals.outs m) c main_v99 : S50000.Idx → BitVec 32) = Vals.srcc m 7 c :=
    (GenP.V16_of m _ c main_v99 (by decide)).trans (tgt_7 m c)
  have hg : (GenP.V16 m (Vals.outs m) c main_v101 : FVec F S50000x1x128 .f32) = Vals.gath3 m 7 c :=
    (Function.update_self ..).trans (Vals.outs_7 m c)
  show StableHlo.after Gen.hostOps8 (GenP.V16 m (Vals.outs m) c) (Proc.devRef .tc main_v106) = _
  after_results_simp
  rw [hs, ht, hg]
  rfl

theorem deg_8 (c : Dev nD) : (GenP.V17 m (Vals.outs m) c main_v110 : FVec F S100000 .f32) = Vals.deg m 8 c := by
  have hs : (GenP.V16 m (Vals.outs m) c main_v97 : FVec F S100000 .f32) = Vals.deg m 7 c :=
    (GenP.V16_of m _ c main_v97 (by decide)).trans (deg_7 m c)
  have ht : (GenP.V16 m (Vals.outs m) c main_v99 : S50000.Idx → BitVec 32) = Vals.srcc m 7 c :=
    (GenP.V16_of m _ c main_v99 (by decide)).trans (tgt_7 m c)
  have ho : (GenP.V16 m (Vals.outs m) c main_v6 : FVec F S50000 .f32) = Vals.ones :=
    (GenP.V16_of m _ c main_v6 (by decide)).trans (ones_7 m c)
  show StableHlo.after Gen.hostOps8 (GenP.V16 m (Vals.outs m) c) (Proc.devRef .tc main_v110) = _
  after_results_simp
  rw [hs, ht, ho]
  rfl

theorem tbl_8 (c : Dev nD) : (GenP.V17 m (Vals.outs m) c main_v111 : S50000.Idx → BitVec 32) = Vals.dstc m 8 c := by
  have hd : (GenP.V16 m (Vals.outs m) c main_v3 : S1600000.Idx → BitVec 32) = Vals.dst m c :=
    (GenP.V16_of m _ c main_v3 (by decide)).trans (dst_7 m c)
  show StableHlo.after Gen.hostOps8 (GenP.V16 m (Vals.outs m) c) (Proc.devRef .tc main_v111) = _
  after_results_simp
  rw [hd, Vals.dstc, dif_pos (by decide : 8 < 32)] <;> rfl

theorem tgt_8 (c : Dev nD) : (GenP.V17 m (Vals.outs m) c main_v112 : S50000.Idx → BitVec 32) = Vals.srcc m 8 c := by
  have hd : (GenP.V16 m (Vals.outs m) c main_v1 : S1600000.Idx → BitVec 32) = Vals.src m c :=
    (GenP.V16_of m _ c main_v1 (by decide)).trans (src_7 m c)
  show StableHlo.after Gen.hostOps8 (GenP.V16 m (Vals.outs m) c) (Proc.devRef .tc main_v112) = _
  after_results_simp
  rw [hd, Vals.srcc, dif_pos (by decide : 8 < 32)] <;> rfl

theorem x3_8 (c : Dev nD) : (GenP.V17 m (Vals.outs m) c main_v113 : FVec F S100000x1x128 .f32) = Vals.X3 m c := by
  have hx : (GenP.V16 m (Vals.outs m) c main_arg0 : FVec F S100000x128 .f32) = Vals.X m c :=
    (GenP.V16_of m _ c main_arg0 (by decide)).trans (x_7 m c)
  show StableHlo.after Gen.hostOps8 (GenP.V16 m (Vals.outs m) c) (Proc.devRef .tc main_v113) = _
  after_results_simp
  rw [hx]
  rfl

/-! ## Boundary 19: after region 8 and the host stretch that adds chunk 8 -/

theorem src_9 (c : Dev nD) : (GenP.V19 m (Vals.outs m) c main_v1 : S1600000.Idx → BitVec 32) = Vals.src m c :=
  (GenP.V19_of m _ c main_v1 (by decide)).trans ((GenP.V18_of m _ c main_v1 (by decide)).trans (src_8 m c))

theorem dst_9 (c : Dev nD) : (GenP.V19 m (Vals.outs m) c main_v3 : S1600000.Idx → BitVec 32) = Vals.dst m c :=
  (GenP.V19_of m _ c main_v3 (by decide)).trans ((GenP.V18_of m _ c main_v3 (by decide)).trans (dst_8 m c))

theorem ones_9 (c : Dev nD) : (GenP.V19 m (Vals.outs m) c main_v6 : FVec F S50000 .f32) = Vals.ones :=
  (GenP.V19_of m _ c main_v6 (by decide)).trans ((GenP.V18_of m _ c main_v6 (by decide)).trans (ones_8 m c))

theorem x_9 (c : Dev nD) : (GenP.V19 m (Vals.outs m) c main_arg0 : FVec F S100000x128 .f32) = Vals.X m c :=
  (GenP.V19_of m _ c main_arg0 (by decide)).trans ((GenP.V18_of m _ c main_arg0 (by decide)).trans (x_8 m c))

theorem wt_9 (c : Dev nD) : (GenP.V19 m (Vals.outs m) c main_arg2 : FVec F S128x128 .f32) = Vals.Wt m c :=
  (GenP.V19_of m _ c main_arg2 (by decide)).trans ((GenP.V18_of m _ c main_arg2 (by decide)).trans (wt_8 m c))

theorem agg_9 (c : Dev nD) : (GenP.V19 m (Vals.outs m) c main_v119 : FVec F S100000x128 .f32) = Vals.agg m 9 c := by
  have hs : (GenP.V18 m (Vals.outs m) c main_v106 : FVec F S100000x128 .f32) = Vals.agg m 8 c :=
    (GenP.V18_of m _ c main_v106 (by decide)).trans (agg_8 m c)
  have ht : (GenP.V18 m (Vals.outs m) c main_v112 : S50000.Idx → BitVec 32) = Vals.srcc m 8 c :=
    (GenP.V18_of m _ c main_v112 (by decide)).trans (tgt_8 m c)
  have hg : (GenP.V18 m (Vals.outs m) c main_v114 : FVec F S50000x1x128 .f32) = Vals.gath3 m 8 c :=
    (Function.update_self ..).trans (Vals.outs_8 m c)
  show StableHlo.after Gen.hostOps9 (GenP.V18 m (Vals.outs m) c) (Proc.devRef .tc main_v119) = _
  after_results_simp
  rw [hs, ht, hg]
  rfl

theorem deg_9 (c : Dev nD) : (GenP.V19 m (Vals.outs m) c main_v123 : FVec F S100000 .f32) = Vals.deg m 9 c := by
  have hs : (GenP.V18 m (Vals.outs m) c main_v110 : FVec F S100000 .f32) = Vals.deg m 8 c :=
    (GenP.V18_of m _ c main_v110 (by decide)).trans (deg_8 m c)
  have ht : (GenP.V18 m (Vals.outs m) c main_v112 : S50000.Idx → BitVec 32) = Vals.srcc m 8 c :=
    (GenP.V18_of m _ c main_v112 (by decide)).trans (tgt_8 m c)
  have ho : (GenP.V18 m (Vals.outs m) c main_v6 : FVec F S50000 .f32) = Vals.ones :=
    (GenP.V18_of m _ c main_v6 (by decide)).trans (ones_8 m c)
  show StableHlo.after Gen.hostOps9 (GenP.V18 m (Vals.outs m) c) (Proc.devRef .tc main_v123) = _
  after_results_simp
  rw [hs, ht, ho]
  rfl

theorem tbl_9 (c : Dev nD) : (GenP.V19 m (Vals.outs m) c main_v124 : S50000.Idx → BitVec 32) = Vals.dstc m 9 c := by
  have hd : (GenP.V18 m (Vals.outs m) c main_v3 : S1600000.Idx → BitVec 32) = Vals.dst m c :=
    (GenP.V18_of m _ c main_v3 (by decide)).trans (dst_8 m c)
  show StableHlo.after Gen.hostOps9 (GenP.V18 m (Vals.outs m) c) (Proc.devRef .tc main_v124) = _
  after_results_simp
  rw [hd, Vals.dstc, dif_pos (by decide : 9 < 32)] <;> rfl

theorem tgt_9 (c : Dev nD) : (GenP.V19 m (Vals.outs m) c main_v125 : S50000.Idx → BitVec 32) = Vals.srcc m 9 c := by
  have hd : (GenP.V18 m (Vals.outs m) c main_v1 : S1600000.Idx → BitVec 32) = Vals.src m c :=
    (GenP.V18_of m _ c main_v1 (by decide)).trans (src_8 m c)
  show StableHlo.after Gen.hostOps9 (GenP.V18 m (Vals.outs m) c) (Proc.devRef .tc main_v125) = _
  after_results_simp
  rw [hd, Vals.srcc, dif_pos (by decide : 9 < 32)] <;> rfl

theorem x3_9 (c : Dev nD) : (GenP.V19 m (Vals.outs m) c main_v126 : FVec F S100000x1x128 .f32) = Vals.X3 m c := by
  have hx : (GenP.V18 m (Vals.outs m) c main_arg0 : FVec F S100000x128 .f32) = Vals.X m c :=
    (GenP.V18_of m _ c main_arg0 (by decide)).trans (x_8 m c)
  show StableHlo.after Gen.hostOps9 (GenP.V18 m (Vals.outs m) c) (Proc.devRef .tc main_v126) = _
  after_results_simp
  rw [hx]
  rfl

/-! ## Boundary 21: after region 9 and the host stretch that adds chunk 9 -/

theorem src_10 (c : Dev nD) : (GenP.V21 m (Vals.outs m) c main_v1 : S1600000.Idx → BitVec 32) = Vals.src m c :=
  (GenP.V21_of m _ c main_v1 (by decide)).trans ((GenP.V20_of m _ c main_v1 (by decide)).trans (src_9 m c))

theorem dst_10 (c : Dev nD) : (GenP.V21 m (Vals.outs m) c main_v3 : S1600000.Idx → BitVec 32) = Vals.dst m c :=
  (GenP.V21_of m _ c main_v3 (by decide)).trans ((GenP.V20_of m _ c main_v3 (by decide)).trans (dst_9 m c))

theorem ones_10 (c : Dev nD) : (GenP.V21 m (Vals.outs m) c main_v6 : FVec F S50000 .f32) = Vals.ones :=
  (GenP.V21_of m _ c main_v6 (by decide)).trans ((GenP.V20_of m _ c main_v6 (by decide)).trans (ones_9 m c))

theorem x_10 (c : Dev nD) : (GenP.V21 m (Vals.outs m) c main_arg0 : FVec F S100000x128 .f32) = Vals.X m c :=
  (GenP.V21_of m _ c main_arg0 (by decide)).trans ((GenP.V20_of m _ c main_arg0 (by decide)).trans (x_9 m c))

theorem wt_10 (c : Dev nD) : (GenP.V21 m (Vals.outs m) c main_arg2 : FVec F S128x128 .f32) = Vals.Wt m c :=
  (GenP.V21_of m _ c main_arg2 (by decide)).trans ((GenP.V20_of m _ c main_arg2 (by decide)).trans (wt_9 m c))

theorem agg_10 (c : Dev nD) : (GenP.V21 m (Vals.outs m) c main_v132 : FVec F S100000x128 .f32) = Vals.agg m 10 c := by
  have hs : (GenP.V20 m (Vals.outs m) c main_v119 : FVec F S100000x128 .f32) = Vals.agg m 9 c :=
    (GenP.V20_of m _ c main_v119 (by decide)).trans (agg_9 m c)
  have ht : (GenP.V20 m (Vals.outs m) c main_v125 : S50000.Idx → BitVec 32) = Vals.srcc m 9 c :=
    (GenP.V20_of m _ c main_v125 (by decide)).trans (tgt_9 m c)
  have hg : (GenP.V20 m (Vals.outs m) c main_v127 : FVec F S50000x1x128 .f32) = Vals.gath3 m 9 c :=
    (Function.update_self ..).trans (Vals.outs_9 m c)
  show StableHlo.after Gen.hostOps10 (GenP.V20 m (Vals.outs m) c) (Proc.devRef .tc main_v132) = _
  after_results_simp
  rw [hs, ht, hg]
  rfl

theorem deg_10 (c : Dev nD) : (GenP.V21 m (Vals.outs m) c main_v136 : FVec F S100000 .f32) = Vals.deg m 10 c := by
  have hs : (GenP.V20 m (Vals.outs m) c main_v123 : FVec F S100000 .f32) = Vals.deg m 9 c :=
    (GenP.V20_of m _ c main_v123 (by decide)).trans (deg_9 m c)
  have ht : (GenP.V20 m (Vals.outs m) c main_v125 : S50000.Idx → BitVec 32) = Vals.srcc m 9 c :=
    (GenP.V20_of m _ c main_v125 (by decide)).trans (tgt_9 m c)
  have ho : (GenP.V20 m (Vals.outs m) c main_v6 : FVec F S50000 .f32) = Vals.ones :=
    (GenP.V20_of m _ c main_v6 (by decide)).trans (ones_9 m c)
  show StableHlo.after Gen.hostOps10 (GenP.V20 m (Vals.outs m) c) (Proc.devRef .tc main_v136) = _
  after_results_simp
  rw [hs, ht, ho]
  rfl

theorem tbl_10 (c : Dev nD) : (GenP.V21 m (Vals.outs m) c main_v137 : S50000.Idx → BitVec 32) = Vals.dstc m 10 c := by
  have hd : (GenP.V20 m (Vals.outs m) c main_v3 : S1600000.Idx → BitVec 32) = Vals.dst m c :=
    (GenP.V20_of m _ c main_v3 (by decide)).trans (dst_9 m c)
  show StableHlo.after Gen.hostOps10 (GenP.V20 m (Vals.outs m) c) (Proc.devRef .tc main_v137) = _
  after_results_simp
  rw [hd, Vals.dstc, dif_pos (by decide : 10 < 32)] <;> rfl

theorem tgt_10 (c : Dev nD) : (GenP.V21 m (Vals.outs m) c main_v138 : S50000.Idx → BitVec 32) = Vals.srcc m 10 c := by
  have hd : (GenP.V20 m (Vals.outs m) c main_v1 : S1600000.Idx → BitVec 32) = Vals.src m c :=
    (GenP.V20_of m _ c main_v1 (by decide)).trans (src_9 m c)
  show StableHlo.after Gen.hostOps10 (GenP.V20 m (Vals.outs m) c) (Proc.devRef .tc main_v138) = _
  after_results_simp
  rw [hd, Vals.srcc, dif_pos (by decide : 10 < 32)] <;> rfl

theorem x3_10 (c : Dev nD) : (GenP.V21 m (Vals.outs m) c main_v139 : FVec F S100000x1x128 .f32) = Vals.X3 m c := by
  have hx : (GenP.V20 m (Vals.outs m) c main_arg0 : FVec F S100000x128 .f32) = Vals.X m c :=
    (GenP.V20_of m _ c main_arg0 (by decide)).trans (x_9 m c)
  show StableHlo.after Gen.hostOps10 (GenP.V20 m (Vals.outs m) c) (Proc.devRef .tc main_v139) = _
  after_results_simp
  rw [hx]
  rfl

/-! ## Boundary 23: after region 10 and the host stretch that adds chunk 10 -/

theorem src_11 (c : Dev nD) : (GenP.V23 m (Vals.outs m) c main_v1 : S1600000.Idx → BitVec 32) = Vals.src m c :=
  (GenP.V23_of m _ c main_v1 (by decide)).trans ((GenP.V22_of m _ c main_v1 (by decide)).trans (src_10 m c))

theorem dst_11 (c : Dev nD) : (GenP.V23 m (Vals.outs m) c main_v3 : S1600000.Idx → BitVec 32) = Vals.dst m c :=
  (GenP.V23_of m _ c main_v3 (by decide)).trans ((GenP.V22_of m _ c main_v3 (by decide)).trans (dst_10 m c))

theorem ones_11 (c : Dev nD) : (GenP.V23 m (Vals.outs m) c main_v6 : FVec F S50000 .f32) = Vals.ones :=
  (GenP.V23_of m _ c main_v6 (by decide)).trans ((GenP.V22_of m _ c main_v6 (by decide)).trans (ones_10 m c))

theorem x_11 (c : Dev nD) : (GenP.V23 m (Vals.outs m) c main_arg0 : FVec F S100000x128 .f32) = Vals.X m c :=
  (GenP.V23_of m _ c main_arg0 (by decide)).trans ((GenP.V22_of m _ c main_arg0 (by decide)).trans (x_10 m c))

theorem wt_11 (c : Dev nD) : (GenP.V23 m (Vals.outs m) c main_arg2 : FVec F S128x128 .f32) = Vals.Wt m c :=
  (GenP.V23_of m _ c main_arg2 (by decide)).trans ((GenP.V22_of m _ c main_arg2 (by decide)).trans (wt_10 m c))

theorem agg_11 (c : Dev nD) : (GenP.V23 m (Vals.outs m) c main_v145 : FVec F S100000x128 .f32) = Vals.agg m 11 c := by
  have hs : (GenP.V22 m (Vals.outs m) c main_v132 : FVec F S100000x128 .f32) = Vals.agg m 10 c :=
    (GenP.V22_of m _ c main_v132 (by decide)).trans (agg_10 m c)
  have ht : (GenP.V22 m (Vals.outs m) c main_v138 : S50000.Idx → BitVec 32) = Vals.srcc m 10 c :=
    (GenP.V22_of m _ c main_v138 (by decide)).trans (tgt_10 m c)
  have hg : (GenP.V22 m (Vals.outs m) c main_v140 : FVec F S50000x1x128 .f32) = Vals.gath3 m 10 c :=
    (Function.update_self ..).trans (Vals.outs_10 m c)
  show StableHlo.after Gen.hostOps11 (GenP.V22 m (Vals.outs m) c) (Proc.devRef .tc main_v145) = _
  after_results_simp
  rw [hs, ht, hg]
  rfl

theorem deg_11 (c : Dev nD) : (GenP.V23 m (Vals.outs m) c main_v149 : FVec F S100000 .f32) = Vals.deg m 11 c := by
  have hs : (GenP.V22 m (Vals.outs m) c main_v136 : FVec F S100000 .f32) = Vals.deg m 10 c :=
    (GenP.V22_of m _ c main_v136 (by decide)).trans (deg_10 m c)
  have ht : (GenP.V22 m (Vals.outs m) c main_v138 : S50000.Idx → BitVec 32) = Vals.srcc m 10 c :=
    (GenP.V22_of m _ c main_v138 (by decide)).trans (tgt_10 m c)
  have ho : (GenP.V22 m (Vals.outs m) c main_v6 : FVec F S50000 .f32) = Vals.ones :=
    (GenP.V22_of m _ c main_v6 (by decide)).trans (ones_10 m c)
  show StableHlo.after Gen.hostOps11 (GenP.V22 m (Vals.outs m) c) (Proc.devRef .tc main_v149) = _
  after_results_simp
  rw [hs, ht, ho]
  rfl

theorem tbl_11 (c : Dev nD) : (GenP.V23 m (Vals.outs m) c main_v150 : S50000.Idx → BitVec 32) = Vals.dstc m 11 c := by
  have hd : (GenP.V22 m (Vals.outs m) c main_v3 : S1600000.Idx → BitVec 32) = Vals.dst m c :=
    (GenP.V22_of m _ c main_v3 (by decide)).trans (dst_10 m c)
  show StableHlo.after Gen.hostOps11 (GenP.V22 m (Vals.outs m) c) (Proc.devRef .tc main_v150) = _
  after_results_simp
  rw [hd, Vals.dstc, dif_pos (by decide : 11 < 32)] <;> rfl

theorem tgt_11 (c : Dev nD) : (GenP.V23 m (Vals.outs m) c main_v151 : S50000.Idx → BitVec 32) = Vals.srcc m 11 c := by
  have hd : (GenP.V22 m (Vals.outs m) c main_v1 : S1600000.Idx → BitVec 32) = Vals.src m c :=
    (GenP.V22_of m _ c main_v1 (by decide)).trans (src_10 m c)
  show StableHlo.after Gen.hostOps11 (GenP.V22 m (Vals.outs m) c) (Proc.devRef .tc main_v151) = _
  after_results_simp
  rw [hd, Vals.srcc, dif_pos (by decide : 11 < 32)] <;> rfl

theorem x3_11 (c : Dev nD) : (GenP.V23 m (Vals.outs m) c main_v152 : FVec F S100000x1x128 .f32) = Vals.X3 m c := by
  have hx : (GenP.V22 m (Vals.outs m) c main_arg0 : FVec F S100000x128 .f32) = Vals.X m c :=
    (GenP.V22_of m _ c main_arg0 (by decide)).trans (x_10 m c)
  show StableHlo.after Gen.hostOps11 (GenP.V22 m (Vals.outs m) c) (Proc.devRef .tc main_v152) = _
  after_results_simp
  rw [hx]
  rfl

/-! ## Boundary 25: after region 11 and the host stretch that adds chunk 11 -/

theorem src_12 (c : Dev nD) : (GenP.V25 m (Vals.outs m) c main_v1 : S1600000.Idx → BitVec 32) = Vals.src m c :=
  (GenP.V25_of m _ c main_v1 (by decide)).trans ((GenP.V24_of m _ c main_v1 (by decide)).trans (src_11 m c))

theorem dst_12 (c : Dev nD) : (GenP.V25 m (Vals.outs m) c main_v3 : S1600000.Idx → BitVec 32) = Vals.dst m c :=
  (GenP.V25_of m _ c main_v3 (by decide)).trans ((GenP.V24_of m _ c main_v3 (by decide)).trans (dst_11 m c))

theorem ones_12 (c : Dev nD) : (GenP.V25 m (Vals.outs m) c main_v6 : FVec F S50000 .f32) = Vals.ones :=
  (GenP.V25_of m _ c main_v6 (by decide)).trans ((GenP.V24_of m _ c main_v6 (by decide)).trans (ones_11 m c))

theorem x_12 (c : Dev nD) : (GenP.V25 m (Vals.outs m) c main_arg0 : FVec F S100000x128 .f32) = Vals.X m c :=
  (GenP.V25_of m _ c main_arg0 (by decide)).trans ((GenP.V24_of m _ c main_arg0 (by decide)).trans (x_11 m c))

theorem wt_12 (c : Dev nD) : (GenP.V25 m (Vals.outs m) c main_arg2 : FVec F S128x128 .f32) = Vals.Wt m c :=
  (GenP.V25_of m _ c main_arg2 (by decide)).trans ((GenP.V24_of m _ c main_arg2 (by decide)).trans (wt_11 m c))

theorem agg_12 (c : Dev nD) : (GenP.V25 m (Vals.outs m) c main_v158 : FVec F S100000x128 .f32) = Vals.agg m 12 c := by
  have hs : (GenP.V24 m (Vals.outs m) c main_v145 : FVec F S100000x128 .f32) = Vals.agg m 11 c :=
    (GenP.V24_of m _ c main_v145 (by decide)).trans (agg_11 m c)
  have ht : (GenP.V24 m (Vals.outs m) c main_v151 : S50000.Idx → BitVec 32) = Vals.srcc m 11 c :=
    (GenP.V24_of m _ c main_v151 (by decide)).trans (tgt_11 m c)
  have hg : (GenP.V24 m (Vals.outs m) c main_v153 : FVec F S50000x1x128 .f32) = Vals.gath3 m 11 c :=
    (Function.update_self ..).trans (Vals.outs_11 m c)
  show StableHlo.after Gen.hostOps12 (GenP.V24 m (Vals.outs m) c) (Proc.devRef .tc main_v158) = _
  after_results_simp
  rw [hs, ht, hg]
  rfl

theorem deg_12 (c : Dev nD) : (GenP.V25 m (Vals.outs m) c main_v162 : FVec F S100000 .f32) = Vals.deg m 12 c := by
  have hs : (GenP.V24 m (Vals.outs m) c main_v149 : FVec F S100000 .f32) = Vals.deg m 11 c :=
    (GenP.V24_of m _ c main_v149 (by decide)).trans (deg_11 m c)
  have ht : (GenP.V24 m (Vals.outs m) c main_v151 : S50000.Idx → BitVec 32) = Vals.srcc m 11 c :=
    (GenP.V24_of m _ c main_v151 (by decide)).trans (tgt_11 m c)
  have ho : (GenP.V24 m (Vals.outs m) c main_v6 : FVec F S50000 .f32) = Vals.ones :=
    (GenP.V24_of m _ c main_v6 (by decide)).trans (ones_11 m c)
  show StableHlo.after Gen.hostOps12 (GenP.V24 m (Vals.outs m) c) (Proc.devRef .tc main_v162) = _
  after_results_simp
  rw [hs, ht, ho]
  rfl

theorem tbl_12 (c : Dev nD) : (GenP.V25 m (Vals.outs m) c main_v163 : S50000.Idx → BitVec 32) = Vals.dstc m 12 c := by
  have hd : (GenP.V24 m (Vals.outs m) c main_v3 : S1600000.Idx → BitVec 32) = Vals.dst m c :=
    (GenP.V24_of m _ c main_v3 (by decide)).trans (dst_11 m c)
  show StableHlo.after Gen.hostOps12 (GenP.V24 m (Vals.outs m) c) (Proc.devRef .tc main_v163) = _
  after_results_simp
  rw [hd, Vals.dstc, dif_pos (by decide : 12 < 32)] <;> rfl

theorem tgt_12 (c : Dev nD) : (GenP.V25 m (Vals.outs m) c main_v164 : S50000.Idx → BitVec 32) = Vals.srcc m 12 c := by
  have hd : (GenP.V24 m (Vals.outs m) c main_v1 : S1600000.Idx → BitVec 32) = Vals.src m c :=
    (GenP.V24_of m _ c main_v1 (by decide)).trans (src_11 m c)
  show StableHlo.after Gen.hostOps12 (GenP.V24 m (Vals.outs m) c) (Proc.devRef .tc main_v164) = _
  after_results_simp
  rw [hd, Vals.srcc, dif_pos (by decide : 12 < 32)] <;> rfl

theorem x3_12 (c : Dev nD) : (GenP.V25 m (Vals.outs m) c main_v165 : FVec F S100000x1x128 .f32) = Vals.X3 m c := by
  have hx : (GenP.V24 m (Vals.outs m) c main_arg0 : FVec F S100000x128 .f32) = Vals.X m c :=
    (GenP.V24_of m _ c main_arg0 (by decide)).trans (x_11 m c)
  show StableHlo.after Gen.hostOps12 (GenP.V24 m (Vals.outs m) c) (Proc.devRef .tc main_v165) = _
  after_results_simp
  rw [hx]
  rfl

/-! ## Boundary 27: after region 12 and the host stretch that adds chunk 12 -/

theorem src_13 (c : Dev nD) : (GenP.V27 m (Vals.outs m) c main_v1 : S1600000.Idx → BitVec 32) = Vals.src m c :=
  (GenP.V27_of m _ c main_v1 (by decide)).trans ((GenP.V26_of m _ c main_v1 (by decide)).trans (src_12 m c))

theorem dst_13 (c : Dev nD) : (GenP.V27 m (Vals.outs m) c main_v3 : S1600000.Idx → BitVec 32) = Vals.dst m c :=
  (GenP.V27_of m _ c main_v3 (by decide)).trans ((GenP.V26_of m _ c main_v3 (by decide)).trans (dst_12 m c))

theorem ones_13 (c : Dev nD) : (GenP.V27 m (Vals.outs m) c main_v6 : FVec F S50000 .f32) = Vals.ones :=
  (GenP.V27_of m _ c main_v6 (by decide)).trans ((GenP.V26_of m _ c main_v6 (by decide)).trans (ones_12 m c))

theorem x_13 (c : Dev nD) : (GenP.V27 m (Vals.outs m) c main_arg0 : FVec F S100000x128 .f32) = Vals.X m c :=
  (GenP.V27_of m _ c main_arg0 (by decide)).trans ((GenP.V26_of m _ c main_arg0 (by decide)).trans (x_12 m c))

theorem wt_13 (c : Dev nD) : (GenP.V27 m (Vals.outs m) c main_arg2 : FVec F S128x128 .f32) = Vals.Wt m c :=
  (GenP.V27_of m _ c main_arg2 (by decide)).trans ((GenP.V26_of m _ c main_arg2 (by decide)).trans (wt_12 m c))

theorem agg_13 (c : Dev nD) : (GenP.V27 m (Vals.outs m) c main_v171 : FVec F S100000x128 .f32) = Vals.agg m 13 c := by
  have hs : (GenP.V26 m (Vals.outs m) c main_v158 : FVec F S100000x128 .f32) = Vals.agg m 12 c :=
    (GenP.V26_of m _ c main_v158 (by decide)).trans (agg_12 m c)
  have ht : (GenP.V26 m (Vals.outs m) c main_v164 : S50000.Idx → BitVec 32) = Vals.srcc m 12 c :=
    (GenP.V26_of m _ c main_v164 (by decide)).trans (tgt_12 m c)
  have hg : (GenP.V26 m (Vals.outs m) c main_v166 : FVec F S50000x1x128 .f32) = Vals.gath3 m 12 c :=
    (Function.update_self ..).trans (Vals.outs_12 m c)
  show StableHlo.after Gen.hostOps13 (GenP.V26 m (Vals.outs m) c) (Proc.devRef .tc main_v171) = _
  after_results_simp
  rw [hs, ht, hg]
  rfl

theorem deg_13 (c : Dev nD) : (GenP.V27 m (Vals.outs m) c main_v175 : FVec F S100000 .f32) = Vals.deg m 13 c := by
  have hs : (GenP.V26 m (Vals.outs m) c main_v162 : FVec F S100000 .f32) = Vals.deg m 12 c :=
    (GenP.V26_of m _ c main_v162 (by decide)).trans (deg_12 m c)
  have ht : (GenP.V26 m (Vals.outs m) c main_v164 : S50000.Idx → BitVec 32) = Vals.srcc m 12 c :=
    (GenP.V26_of m _ c main_v164 (by decide)).trans (tgt_12 m c)
  have ho : (GenP.V26 m (Vals.outs m) c main_v6 : FVec F S50000 .f32) = Vals.ones :=
    (GenP.V26_of m _ c main_v6 (by decide)).trans (ones_12 m c)
  show StableHlo.after Gen.hostOps13 (GenP.V26 m (Vals.outs m) c) (Proc.devRef .tc main_v175) = _
  after_results_simp
  rw [hs, ht, ho]
  rfl

theorem tbl_13 (c : Dev nD) : (GenP.V27 m (Vals.outs m) c main_v176 : S50000.Idx → BitVec 32) = Vals.dstc m 13 c := by
  have hd : (GenP.V26 m (Vals.outs m) c main_v3 : S1600000.Idx → BitVec 32) = Vals.dst m c :=
    (GenP.V26_of m _ c main_v3 (by decide)).trans (dst_12 m c)
  show StableHlo.after Gen.hostOps13 (GenP.V26 m (Vals.outs m) c) (Proc.devRef .tc main_v176) = _
  after_results_simp
  rw [hd, Vals.dstc, dif_pos (by decide : 13 < 32)] <;> rfl

theorem tgt_13 (c : Dev nD) : (GenP.V27 m (Vals.outs m) c main_v177 : S50000.Idx → BitVec 32) = Vals.srcc m 13 c := by
  have hd : (GenP.V26 m (Vals.outs m) c main_v1 : S1600000.Idx → BitVec 32) = Vals.src m c :=
    (GenP.V26_of m _ c main_v1 (by decide)).trans (src_12 m c)
  show StableHlo.after Gen.hostOps13 (GenP.V26 m (Vals.outs m) c) (Proc.devRef .tc main_v177) = _
  after_results_simp
  rw [hd, Vals.srcc, dif_pos (by decide : 13 < 32)] <;> rfl

theorem x3_13 (c : Dev nD) : (GenP.V27 m (Vals.outs m) c main_v178 : FVec F S100000x1x128 .f32) = Vals.X3 m c := by
  have hx : (GenP.V26 m (Vals.outs m) c main_arg0 : FVec F S100000x128 .f32) = Vals.X m c :=
    (GenP.V26_of m _ c main_arg0 (by decide)).trans (x_12 m c)
  show StableHlo.after Gen.hostOps13 (GenP.V26 m (Vals.outs m) c) (Proc.devRef .tc main_v178) = _
  after_results_simp
  rw [hx]
  rfl

/-! ## Boundary 29: after region 13 and the host stretch that adds chunk 13 -/

theorem src_14 (c : Dev nD) : (GenP.V29 m (Vals.outs m) c main_v1 : S1600000.Idx → BitVec 32) = Vals.src m c :=
  (GenP.V29_of m _ c main_v1 (by decide)).trans ((GenP.V28_of m _ c main_v1 (by decide)).trans (src_13 m c))

theorem dst_14 (c : Dev nD) : (GenP.V29 m (Vals.outs m) c main_v3 : S1600000.Idx → BitVec 32) = Vals.dst m c :=
  (GenP.V29_of m _ c main_v3 (by decide)).trans ((GenP.V28_of m _ c main_v3 (by decide)).trans (dst_13 m c))

theorem ones_14 (c : Dev nD) : (GenP.V29 m (Vals.outs m) c main_v6 : FVec F S50000 .f32) = Vals.ones :=
  (GenP.V29_of m _ c main_v6 (by decide)).trans ((GenP.V28_of m _ c main_v6 (by decide)).trans (ones_13 m c))

theorem x_14 (c : Dev nD) : (GenP.V29 m (Vals.outs m) c main_arg0 : FVec F S100000x128 .f32) = Vals.X m c :=
  (GenP.V29_of m _ c main_arg0 (by decide)).trans ((GenP.V28_of m _ c main_arg0 (by decide)).trans (x_13 m c))

theorem wt_14 (c : Dev nD) : (GenP.V29 m (Vals.outs m) c main_arg2 : FVec F S128x128 .f32) = Vals.Wt m c :=
  (GenP.V29_of m _ c main_arg2 (by decide)).trans ((GenP.V28_of m _ c main_arg2 (by decide)).trans (wt_13 m c))

theorem agg_14 (c : Dev nD) : (GenP.V29 m (Vals.outs m) c main_v184 : FVec F S100000x128 .f32) = Vals.agg m 14 c := by
  have hs : (GenP.V28 m (Vals.outs m) c main_v171 : FVec F S100000x128 .f32) = Vals.agg m 13 c :=
    (GenP.V28_of m _ c main_v171 (by decide)).trans (agg_13 m c)
  have ht : (GenP.V28 m (Vals.outs m) c main_v177 : S50000.Idx → BitVec 32) = Vals.srcc m 13 c :=
    (GenP.V28_of m _ c main_v177 (by decide)).trans (tgt_13 m c)
  have hg : (GenP.V28 m (Vals.outs m) c main_v179 : FVec F S50000x1x128 .f32) = Vals.gath3 m 13 c :=
    (Function.update_self ..).trans (Vals.outs_13 m c)
  show StableHlo.after Gen.hostOps14 (GenP.V28 m (Vals.outs m) c) (Proc.devRef .tc main_v184) = _
  after_results_simp
  rw [hs, ht, hg]
  rfl

theorem deg_14 (c : Dev nD) : (GenP.V29 m (Vals.outs m) c main_v188 : FVec F S100000 .f32) = Vals.deg m 14 c := by
  have hs : (GenP.V28 m (Vals.outs m) c main_v175 : FVec F S100000 .f32) = Vals.deg m 13 c :=
    (GenP.V28_of m _ c main_v175 (by decide)).trans (deg_13 m c)
  have ht : (GenP.V28 m (Vals.outs m) c main_v177 : S50000.Idx → BitVec 32) = Vals.srcc m 13 c :=
    (GenP.V28_of m _ c main_v177 (by decide)).trans (tgt_13 m c)
  have ho : (GenP.V28 m (Vals.outs m) c main_v6 : FVec F S50000 .f32) = Vals.ones :=
    (GenP.V28_of m _ c main_v6 (by decide)).trans (ones_13 m c)
  show StableHlo.after Gen.hostOps14 (GenP.V28 m (Vals.outs m) c) (Proc.devRef .tc main_v188) = _
  after_results_simp
  rw [hs, ht, ho]
  rfl

theorem tbl_14 (c : Dev nD) : (GenP.V29 m (Vals.outs m) c main_v189 : S50000.Idx → BitVec 32) = Vals.dstc m 14 c := by
  have hd : (GenP.V28 m (Vals.outs m) c main_v3 : S1600000.Idx → BitVec 32) = Vals.dst m c :=
    (GenP.V28_of m _ c main_v3 (by decide)).trans (dst_13 m c)
  show StableHlo.after Gen.hostOps14 (GenP.V28 m (Vals.outs m) c) (Proc.devRef .tc main_v189) = _
  after_results_simp
  rw [hd, Vals.dstc, dif_pos (by decide : 14 < 32)] <;> rfl

theorem tgt_14 (c : Dev nD) : (GenP.V29 m (Vals.outs m) c main_v190 : S50000.Idx → BitVec 32) = Vals.srcc m 14 c := by
  have hd : (GenP.V28 m (Vals.outs m) c main_v1 : S1600000.Idx → BitVec 32) = Vals.src m c :=
    (GenP.V28_of m _ c main_v1 (by decide)).trans (src_13 m c)
  show StableHlo.after Gen.hostOps14 (GenP.V28 m (Vals.outs m) c) (Proc.devRef .tc main_v190) = _
  after_results_simp
  rw [hd, Vals.srcc, dif_pos (by decide : 14 < 32)] <;> rfl

theorem x3_14 (c : Dev nD) : (GenP.V29 m (Vals.outs m) c main_v191 : FVec F S100000x1x128 .f32) = Vals.X3 m c := by
  have hx : (GenP.V28 m (Vals.outs m) c main_arg0 : FVec F S100000x128 .f32) = Vals.X m c :=
    (GenP.V28_of m _ c main_arg0 (by decide)).trans (x_13 m c)
  show StableHlo.after Gen.hostOps14 (GenP.V28 m (Vals.outs m) c) (Proc.devRef .tc main_v191) = _
  after_results_simp
  rw [hx]
  rfl

/-! ## Boundary 31: after region 14 and the host stretch that adds chunk 14 -/

theorem src_15 (c : Dev nD) : (GenP.V31 m (Vals.outs m) c main_v1 : S1600000.Idx → BitVec 32) = Vals.src m c :=
  (GenP.V31_of m _ c main_v1 (by decide)).trans ((GenP.V30_of m _ c main_v1 (by decide)).trans (src_14 m c))

theorem dst_15 (c : Dev nD) : (GenP.V31 m (Vals.outs m) c main_v3 : S1600000.Idx → BitVec 32) = Vals.dst m c :=
  (GenP.V31_of m _ c main_v3 (by decide)).trans ((GenP.V30_of m _ c main_v3 (by decide)).trans (dst_14 m c))

theorem ones_15 (c : Dev nD) : (GenP.V31 m (Vals.outs m) c main_v6 : FVec F S50000 .f32) = Vals.ones :=
  (GenP.V31_of m _ c main_v6 (by decide)).trans ((GenP.V30_of m _ c main_v6 (by decide)).trans (ones_14 m c))

theorem x_15 (c : Dev nD) : (GenP.V31 m (Vals.outs m) c main_arg0 : FVec F S100000x128 .f32) = Vals.X m c :=
  (GenP.V31_of m _ c main_arg0 (by decide)).trans ((GenP.V30_of m _ c main_arg0 (by decide)).trans (x_14 m c))

theorem wt_15 (c : Dev nD) : (GenP.V31 m (Vals.outs m) c main_arg2 : FVec F S128x128 .f32) = Vals.Wt m c :=
  (GenP.V31_of m _ c main_arg2 (by decide)).trans ((GenP.V30_of m _ c main_arg2 (by decide)).trans (wt_14 m c))

theorem agg_15 (c : Dev nD) : (GenP.V31 m (Vals.outs m) c main_v197 : FVec F S100000x128 .f32) = Vals.agg m 15 c := by
  have hs : (GenP.V30 m (Vals.outs m) c main_v184 : FVec F S100000x128 .f32) = Vals.agg m 14 c :=
    (GenP.V30_of m _ c main_v184 (by decide)).trans (agg_14 m c)
  have ht : (GenP.V30 m (Vals.outs m) c main_v190 : S50000.Idx → BitVec 32) = Vals.srcc m 14 c :=
    (GenP.V30_of m _ c main_v190 (by decide)).trans (tgt_14 m c)
  have hg : (GenP.V30 m (Vals.outs m) c main_v192 : FVec F S50000x1x128 .f32) = Vals.gath3 m 14 c :=
    (Function.update_self ..).trans (Vals.outs_14 m c)
  show StableHlo.after Gen.hostOps15 (GenP.V30 m (Vals.outs m) c) (Proc.devRef .tc main_v197) = _
  after_results_simp
  rw [hs, ht, hg]
  rfl

theorem deg_15 (c : Dev nD) : (GenP.V31 m (Vals.outs m) c main_v201 : FVec F S100000 .f32) = Vals.deg m 15 c := by
  have hs : (GenP.V30 m (Vals.outs m) c main_v188 : FVec F S100000 .f32) = Vals.deg m 14 c :=
    (GenP.V30_of m _ c main_v188 (by decide)).trans (deg_14 m c)
  have ht : (GenP.V30 m (Vals.outs m) c main_v190 : S50000.Idx → BitVec 32) = Vals.srcc m 14 c :=
    (GenP.V30_of m _ c main_v190 (by decide)).trans (tgt_14 m c)
  have ho : (GenP.V30 m (Vals.outs m) c main_v6 : FVec F S50000 .f32) = Vals.ones :=
    (GenP.V30_of m _ c main_v6 (by decide)).trans (ones_14 m c)
  show StableHlo.after Gen.hostOps15 (GenP.V30 m (Vals.outs m) c) (Proc.devRef .tc main_v201) = _
  after_results_simp
  rw [hs, ht, ho]
  rfl

theorem tbl_15 (c : Dev nD) : (GenP.V31 m (Vals.outs m) c main_v202 : S50000.Idx → BitVec 32) = Vals.dstc m 15 c := by
  have hd : (GenP.V30 m (Vals.outs m) c main_v3 : S1600000.Idx → BitVec 32) = Vals.dst m c :=
    (GenP.V30_of m _ c main_v3 (by decide)).trans (dst_14 m c)
  show StableHlo.after Gen.hostOps15 (GenP.V30 m (Vals.outs m) c) (Proc.devRef .tc main_v202) = _
  after_results_simp
  rw [hd, Vals.dstc, dif_pos (by decide : 15 < 32)] <;> rfl

theorem tgt_15 (c : Dev nD) : (GenP.V31 m (Vals.outs m) c main_v203 : S50000.Idx → BitVec 32) = Vals.srcc m 15 c := by
  have hd : (GenP.V30 m (Vals.outs m) c main_v1 : S1600000.Idx → BitVec 32) = Vals.src m c :=
    (GenP.V30_of m _ c main_v1 (by decide)).trans (src_14 m c)
  show StableHlo.after Gen.hostOps15 (GenP.V30 m (Vals.outs m) c) (Proc.devRef .tc main_v203) = _
  after_results_simp
  rw [hd, Vals.srcc, dif_pos (by decide : 15 < 32)] <;> rfl

theorem x3_15 (c : Dev nD) : (GenP.V31 m (Vals.outs m) c main_v204 : FVec F S100000x1x128 .f32) = Vals.X3 m c := by
  have hx : (GenP.V30 m (Vals.outs m) c main_arg0 : FVec F S100000x128 .f32) = Vals.X m c :=
    (GenP.V30_of m _ c main_arg0 (by decide)).trans (x_14 m c)
  show StableHlo.after Gen.hostOps15 (GenP.V30 m (Vals.outs m) c) (Proc.devRef .tc main_v204) = _
  after_results_simp
  rw [hx]
  rfl

/-! ## Boundary 33: after region 15 and the host stretch that adds chunk 15 -/

theorem src_16 (c : Dev nD) : (GenP.V33 m (Vals.outs m) c main_v1 : S1600000.Idx → BitVec 32) = Vals.src m c :=
  (GenP.V33_of m _ c main_v1 (by decide)).trans ((GenP.V32_of m _ c main_v1 (by decide)).trans (src_15 m c))

theorem dst_16 (c : Dev nD) : (GenP.V33 m (Vals.outs m) c main_v3 : S1600000.Idx → BitVec 32) = Vals.dst m c :=
  (GenP.V33_of m _ c main_v3 (by decide)).trans ((GenP.V32_of m _ c main_v3 (by decide)).trans (dst_15 m c))

theorem ones_16 (c : Dev nD) : (GenP.V33 m (Vals.outs m) c main_v6 : FVec F S50000 .f32) = Vals.ones :=
  (GenP.V33_of m _ c main_v6 (by decide)).trans ((GenP.V32_of m _ c main_v6 (by decide)).trans (ones_15 m c))

theorem x_16 (c : Dev nD) : (GenP.V33 m (Vals.outs m) c main_arg0 : FVec F S100000x128 .f32) = Vals.X m c :=
  (GenP.V33_of m _ c main_arg0 (by decide)).trans ((GenP.V32_of m _ c main_arg0 (by decide)).trans (x_15 m c))

theorem wt_16 (c : Dev nD) : (GenP.V33 m (Vals.outs m) c main_arg2 : FVec F S128x128 .f32) = Vals.Wt m c :=
  (GenP.V33_of m _ c main_arg2 (by decide)).trans ((GenP.V32_of m _ c main_arg2 (by decide)).trans (wt_15 m c))

theorem agg_16 (c : Dev nD) : (GenP.V33 m (Vals.outs m) c main_v210 : FVec F S100000x128 .f32) = Vals.agg m 16 c := by
  have hs : (GenP.V32 m (Vals.outs m) c main_v197 : FVec F S100000x128 .f32) = Vals.agg m 15 c :=
    (GenP.V32_of m _ c main_v197 (by decide)).trans (agg_15 m c)
  have ht : (GenP.V32 m (Vals.outs m) c main_v203 : S50000.Idx → BitVec 32) = Vals.srcc m 15 c :=
    (GenP.V32_of m _ c main_v203 (by decide)).trans (tgt_15 m c)
  have hg : (GenP.V32 m (Vals.outs m) c main_v205 : FVec F S50000x1x128 .f32) = Vals.gath3 m 15 c :=
    (Function.update_self ..).trans (Vals.outs_15 m c)
  show StableHlo.after Gen.hostOps16 (GenP.V32 m (Vals.outs m) c) (Proc.devRef .tc main_v210) = _
  after_results_simp
  rw [hs, ht, hg]
  rfl

theorem deg_16 (c : Dev nD) : (GenP.V33 m (Vals.outs m) c main_v214 : FVec F S100000 .f32) = Vals.deg m 16 c := by
  have hs : (GenP.V32 m (Vals.outs m) c main_v201 : FVec F S100000 .f32) = Vals.deg m 15 c :=
    (GenP.V32_of m _ c main_v201 (by decide)).trans (deg_15 m c)
  have ht : (GenP.V32 m (Vals.outs m) c main_v203 : S50000.Idx → BitVec 32) = Vals.srcc m 15 c :=
    (GenP.V32_of m _ c main_v203 (by decide)).trans (tgt_15 m c)
  have ho : (GenP.V32 m (Vals.outs m) c main_v6 : FVec F S50000 .f32) = Vals.ones :=
    (GenP.V32_of m _ c main_v6 (by decide)).trans (ones_15 m c)
  show StableHlo.after Gen.hostOps16 (GenP.V32 m (Vals.outs m) c) (Proc.devRef .tc main_v214) = _
  after_results_simp
  rw [hs, ht, ho]
  rfl

theorem tbl_16 (c : Dev nD) : (GenP.V33 m (Vals.outs m) c main_v215 : S50000.Idx → BitVec 32) = Vals.dstc m 16 c := by
  have hd : (GenP.V32 m (Vals.outs m) c main_v3 : S1600000.Idx → BitVec 32) = Vals.dst m c :=
    (GenP.V32_of m _ c main_v3 (by decide)).trans (dst_15 m c)
  show StableHlo.after Gen.hostOps16 (GenP.V32 m (Vals.outs m) c) (Proc.devRef .tc main_v215) = _
  after_results_simp
  rw [hd, Vals.dstc, dif_pos (by decide : 16 < 32)] <;> rfl

theorem tgt_16 (c : Dev nD) : (GenP.V33 m (Vals.outs m) c main_v216 : S50000.Idx → BitVec 32) = Vals.srcc m 16 c := by
  have hd : (GenP.V32 m (Vals.outs m) c main_v1 : S1600000.Idx → BitVec 32) = Vals.src m c :=
    (GenP.V32_of m _ c main_v1 (by decide)).trans (src_15 m c)
  show StableHlo.after Gen.hostOps16 (GenP.V32 m (Vals.outs m) c) (Proc.devRef .tc main_v216) = _
  after_results_simp
  rw [hd, Vals.srcc, dif_pos (by decide : 16 < 32)] <;> rfl

theorem x3_16 (c : Dev nD) : (GenP.V33 m (Vals.outs m) c main_v217 : FVec F S100000x1x128 .f32) = Vals.X3 m c := by
  have hx : (GenP.V32 m (Vals.outs m) c main_arg0 : FVec F S100000x128 .f32) = Vals.X m c :=
    (GenP.V32_of m _ c main_arg0 (by decide)).trans (x_15 m c)
  show StableHlo.after Gen.hostOps16 (GenP.V32 m (Vals.outs m) c) (Proc.devRef .tc main_v217) = _
  after_results_simp
  rw [hx]
  rfl

/-! ## Boundary 35: after region 16 and the host stretch that adds chunk 16 -/

theorem src_17 (c : Dev nD) : (GenP.V35 m (Vals.outs m) c main_v1 : S1600000.Idx → BitVec 32) = Vals.src m c :=
  (GenP.V35_of m _ c main_v1 (by decide)).trans ((GenP.V34_of m _ c main_v1 (by decide)).trans (src_16 m c))

theorem dst_17 (c : Dev nD) : (GenP.V35 m (Vals.outs m) c main_v3 : S1600000.Idx → BitVec 32) = Vals.dst m c :=
  (GenP.V35_of m _ c main_v3 (by decide)).trans ((GenP.V34_of m _ c main_v3 (by decide)).trans (dst_16 m c))

theorem ones_17 (c : Dev nD) : (GenP.V35 m (Vals.outs m) c main_v6 : FVec F S50000 .f32) = Vals.ones :=
  (GenP.V35_of m _ c main_v6 (by decide)).trans ((GenP.V34_of m _ c main_v6 (by decide)).trans (ones_16 m c))

theorem x_17 (c : Dev nD) : (GenP.V35 m (Vals.outs m) c main_arg0 : FVec F S100000x128 .f32) = Vals.X m c :=
  (GenP.V35_of m _ c main_arg0 (by decide)).trans ((GenP.V34_of m _ c main_arg0 (by decide)).trans (x_16 m c))

theorem wt_17 (c : Dev nD) : (GenP.V35 m (Vals.outs m) c main_arg2 : FVec F S128x128 .f32) = Vals.Wt m c :=
  (GenP.V35_of m _ c main_arg2 (by decide)).trans ((GenP.V34_of m _ c main_arg2 (by decide)).trans (wt_16 m c))

theorem agg_17 (c : Dev nD) : (GenP.V35 m (Vals.outs m) c main_v223 : FVec F S100000x128 .f32) = Vals.agg m 17 c := by
  have hs : (GenP.V34 m (Vals.outs m) c main_v210 : FVec F S100000x128 .f32) = Vals.agg m 16 c :=
    (GenP.V34_of m _ c main_v210 (by decide)).trans (agg_16 m c)
  have ht : (GenP.V34 m (Vals.outs m) c main_v216 : S50000.Idx → BitVec 32) = Vals.srcc m 16 c :=
    (GenP.V34_of m _ c main_v216 (by decide)).trans (tgt_16 m c)
  have hg : (GenP.V34 m (Vals.outs m) c main_v218 : FVec F S50000x1x128 .f32) = Vals.gath3 m 16 c :=
    (Function.update_self ..).trans (Vals.outs_16 m c)
  show StableHlo.after Gen.hostOps17 (GenP.V34 m (Vals.outs m) c) (Proc.devRef .tc main_v223) = _
  after_results_simp
  rw [hs, ht, hg]
  rfl

theorem deg_17 (c : Dev nD) : (GenP.V35 m (Vals.outs m) c main_v227 : FVec F S100000 .f32) = Vals.deg m 17 c := by
  have hs : (GenP.V34 m (Vals.outs m) c main_v214 : FVec F S100000 .f32) = Vals.deg m 16 c :=
    (GenP.V34_of m _ c main_v214 (by decide)).trans (deg_16 m c)
  have ht : (GenP.V34 m (Vals.outs m) c main_v216 : S50000.Idx → BitVec 32) = Vals.srcc m 16 c :=
    (GenP.V34_of m _ c main_v216 (by decide)).trans (tgt_16 m c)
  have ho : (GenP.V34 m (Vals.outs m) c main_v6 : FVec F S50000 .f32) = Vals.ones :=
    (GenP.V34_of m _ c main_v6 (by decide)).trans (ones_16 m c)
  show StableHlo.after Gen.hostOps17 (GenP.V34 m (Vals.outs m) c) (Proc.devRef .tc main_v227) = _
  after_results_simp
  rw [hs, ht, ho]
  rfl

theorem tbl_17 (c : Dev nD) : (GenP.V35 m (Vals.outs m) c main_v228 : S50000.Idx → BitVec 32) = Vals.dstc m 17 c := by
  have hd : (GenP.V34 m (Vals.outs m) c main_v3 : S1600000.Idx → BitVec 32) = Vals.dst m c :=
    (GenP.V34_of m _ c main_v3 (by decide)).trans (dst_16 m c)
  show StableHlo.after Gen.hostOps17 (GenP.V34 m (Vals.outs m) c) (Proc.devRef .tc main_v228) = _
  after_results_simp
  rw [hd, Vals.dstc, dif_pos (by decide : 17 < 32)] <;> rfl

theorem tgt_17 (c : Dev nD) : (GenP.V35 m (Vals.outs m) c main_v229 : S50000.Idx → BitVec 32) = Vals.srcc m 17 c := by
  have hd : (GenP.V34 m (Vals.outs m) c main_v1 : S1600000.Idx → BitVec 32) = Vals.src m c :=
    (GenP.V34_of m _ c main_v1 (by decide)).trans (src_16 m c)
  show StableHlo.after Gen.hostOps17 (GenP.V34 m (Vals.outs m) c) (Proc.devRef .tc main_v229) = _
  after_results_simp
  rw [hd, Vals.srcc, dif_pos (by decide : 17 < 32)] <;> rfl

theorem x3_17 (c : Dev nD) : (GenP.V35 m (Vals.outs m) c main_v230 : FVec F S100000x1x128 .f32) = Vals.X3 m c := by
  have hx : (GenP.V34 m (Vals.outs m) c main_arg0 : FVec F S100000x128 .f32) = Vals.X m c :=
    (GenP.V34_of m _ c main_arg0 (by decide)).trans (x_16 m c)
  show StableHlo.after Gen.hostOps17 (GenP.V34 m (Vals.outs m) c) (Proc.devRef .tc main_v230) = _
  after_results_simp
  rw [hx]
  rfl

/-! ## Boundary 37: after region 17 and the host stretch that adds chunk 17 -/

theorem src_18 (c : Dev nD) : (GenP.V37 m (Vals.outs m) c main_v1 : S1600000.Idx → BitVec 32) = Vals.src m c :=
  (GenP.V37_of m _ c main_v1 (by decide)).trans ((GenP.V36_of m _ c main_v1 (by decide)).trans (src_17 m c))

theorem dst_18 (c : Dev nD) : (GenP.V37 m (Vals.outs m) c main_v3 : S1600000.Idx → BitVec 32) = Vals.dst m c :=
  (GenP.V37_of m _ c main_v3 (by decide)).trans ((GenP.V36_of m _ c main_v3 (by decide)).trans (dst_17 m c))

theorem ones_18 (c : Dev nD) : (GenP.V37 m (Vals.outs m) c main_v6 : FVec F S50000 .f32) = Vals.ones :=
  (GenP.V37_of m _ c main_v6 (by decide)).trans ((GenP.V36_of m _ c main_v6 (by decide)).trans (ones_17 m c))

theorem x_18 (c : Dev nD) : (GenP.V37 m (Vals.outs m) c main_arg0 : FVec F S100000x128 .f32) = Vals.X m c :=
  (GenP.V37_of m _ c main_arg0 (by decide)).trans ((GenP.V36_of m _ c main_arg0 (by decide)).trans (x_17 m c))

theorem wt_18 (c : Dev nD) : (GenP.V37 m (Vals.outs m) c main_arg2 : FVec F S128x128 .f32) = Vals.Wt m c :=
  (GenP.V37_of m _ c main_arg2 (by decide)).trans ((GenP.V36_of m _ c main_arg2 (by decide)).trans (wt_17 m c))

theorem agg_18 (c : Dev nD) : (GenP.V37 m (Vals.outs m) c main_v236 : FVec F S100000x128 .f32) = Vals.agg m 18 c := by
  have hs : (GenP.V36 m (Vals.outs m) c main_v223 : FVec F S100000x128 .f32) = Vals.agg m 17 c :=
    (GenP.V36_of m _ c main_v223 (by decide)).trans (agg_17 m c)
  have ht : (GenP.V36 m (Vals.outs m) c main_v229 : S50000.Idx → BitVec 32) = Vals.srcc m 17 c :=
    (GenP.V36_of m _ c main_v229 (by decide)).trans (tgt_17 m c)
  have hg : (GenP.V36 m (Vals.outs m) c main_v231 : FVec F S50000x1x128 .f32) = Vals.gath3 m 17 c :=
    (Function.update_self ..).trans (Vals.outs_17 m c)
  show StableHlo.after Gen.hostOps18 (GenP.V36 m (Vals.outs m) c) (Proc.devRef .tc main_v236) = _
  after_results_simp
  rw [hs, ht, hg]
  rfl

theorem deg_18 (c : Dev nD) : (GenP.V37 m (Vals.outs m) c main_v240 : FVec F S100000 .f32) = Vals.deg m 18 c := by
  have hs : (GenP.V36 m (Vals.outs m) c main_v227 : FVec F S100000 .f32) = Vals.deg m 17 c :=
    (GenP.V36_of m _ c main_v227 (by decide)).trans (deg_17 m c)
  have ht : (GenP.V36 m (Vals.outs m) c main_v229 : S50000.Idx → BitVec 32) = Vals.srcc m 17 c :=
    (GenP.V36_of m _ c main_v229 (by decide)).trans (tgt_17 m c)
  have ho : (GenP.V36 m (Vals.outs m) c main_v6 : FVec F S50000 .f32) = Vals.ones :=
    (GenP.V36_of m _ c main_v6 (by decide)).trans (ones_17 m c)
  show StableHlo.after Gen.hostOps18 (GenP.V36 m (Vals.outs m) c) (Proc.devRef .tc main_v240) = _
  after_results_simp
  rw [hs, ht, ho]
  rfl

theorem tbl_18 (c : Dev nD) : (GenP.V37 m (Vals.outs m) c main_v241 : S50000.Idx → BitVec 32) = Vals.dstc m 18 c := by
  have hd : (GenP.V36 m (Vals.outs m) c main_v3 : S1600000.Idx → BitVec 32) = Vals.dst m c :=
    (GenP.V36_of m _ c main_v3 (by decide)).trans (dst_17 m c)
  show StableHlo.after Gen.hostOps18 (GenP.V36 m (Vals.outs m) c) (Proc.devRef .tc main_v241) = _
  after_results_simp
  rw [hd, Vals.dstc, dif_pos (by decide : 18 < 32)] <;> rfl

theorem tgt_18 (c : Dev nD) : (GenP.V37 m (Vals.outs m) c main_v242 : S50000.Idx → BitVec 32) = Vals.srcc m 18 c := by
  have hd : (GenP.V36 m (Vals.outs m) c main_v1 : S1600000.Idx → BitVec 32) = Vals.src m c :=
    (GenP.V36_of m _ c main_v1 (by decide)).trans (src_17 m c)
  show StableHlo.after Gen.hostOps18 (GenP.V36 m (Vals.outs m) c) (Proc.devRef .tc main_v242) = _
  after_results_simp
  rw [hd, Vals.srcc, dif_pos (by decide : 18 < 32)] <;> rfl

theorem x3_18 (c : Dev nD) : (GenP.V37 m (Vals.outs m) c main_v243 : FVec F S100000x1x128 .f32) = Vals.X3 m c := by
  have hx : (GenP.V36 m (Vals.outs m) c main_arg0 : FVec F S100000x128 .f32) = Vals.X m c :=
    (GenP.V36_of m _ c main_arg0 (by decide)).trans (x_17 m c)
  show StableHlo.after Gen.hostOps18 (GenP.V36 m (Vals.outs m) c) (Proc.devRef .tc main_v243) = _
  after_results_simp
  rw [hx]
  rfl

/-! ## Boundary 39: after region 18 and the host stretch that adds chunk 18 -/

theorem src_19 (c : Dev nD) : (GenP.V39 m (Vals.outs m) c main_v1 : S1600000.Idx → BitVec 32) = Vals.src m c :=
  (GenP.V39_of m _ c main_v1 (by decide)).trans ((GenP.V38_of m _ c main_v1 (by decide)).trans (src_18 m c))

theorem dst_19 (c : Dev nD) : (GenP.V39 m (Vals.outs m) c main_v3 : S1600000.Idx → BitVec 32) = Vals.dst m c :=
  (GenP.V39_of m _ c main_v3 (by decide)).trans ((GenP.V38_of m _ c main_v3 (by decide)).trans (dst_18 m c))

theorem ones_19 (c : Dev nD) : (GenP.V39 m (Vals.outs m) c main_v6 : FVec F S50000 .f32) = Vals.ones :=
  (GenP.V39_of m _ c main_v6 (by decide)).trans ((GenP.V38_of m _ c main_v6 (by decide)).trans (ones_18 m c))

theorem x_19 (c : Dev nD) : (GenP.V39 m (Vals.outs m) c main_arg0 : FVec F S100000x128 .f32) = Vals.X m c :=
  (GenP.V39_of m _ c main_arg0 (by decide)).trans ((GenP.V38_of m _ c main_arg0 (by decide)).trans (x_18 m c))

theorem wt_19 (c : Dev nD) : (GenP.V39 m (Vals.outs m) c main_arg2 : FVec F S128x128 .f32) = Vals.Wt m c :=
  (GenP.V39_of m _ c main_arg2 (by decide)).trans ((GenP.V38_of m _ c main_arg2 (by decide)).trans (wt_18 m c))

theorem agg_19 (c : Dev nD) : (GenP.V39 m (Vals.outs m) c main_v249 : FVec F S100000x128 .f32) = Vals.agg m 19 c := by
  have hs : (GenP.V38 m (Vals.outs m) c main_v236 : FVec F S100000x128 .f32) = Vals.agg m 18 c :=
    (GenP.V38_of m _ c main_v236 (by decide)).trans (agg_18 m c)
  have ht : (GenP.V38 m (Vals.outs m) c main_v242 : S50000.Idx → BitVec 32) = Vals.srcc m 18 c :=
    (GenP.V38_of m _ c main_v242 (by decide)).trans (tgt_18 m c)
  have hg : (GenP.V38 m (Vals.outs m) c main_v244 : FVec F S50000x1x128 .f32) = Vals.gath3 m 18 c :=
    (Function.update_self ..).trans (Vals.outs_18 m c)
  show StableHlo.after Gen.hostOps19 (GenP.V38 m (Vals.outs m) c) (Proc.devRef .tc main_v249) = _
  after_results_simp
  rw [hs, ht, hg]
  rfl

theorem deg_19 (c : Dev nD) : (GenP.V39 m (Vals.outs m) c main_v253 : FVec F S100000 .f32) = Vals.deg m 19 c := by
  have hs : (GenP.V38 m (Vals.outs m) c main_v240 : FVec F S100000 .f32) = Vals.deg m 18 c :=
    (GenP.V38_of m _ c main_v240 (by decide)).trans (deg_18 m c)
  have ht : (GenP.V38 m (Vals.outs m) c main_v242 : S50000.Idx → BitVec 32) = Vals.srcc m 18 c :=
    (GenP.V38_of m _ c main_v242 (by decide)).trans (tgt_18 m c)
  have ho : (GenP.V38 m (Vals.outs m) c main_v6 : FVec F S50000 .f32) = Vals.ones :=
    (GenP.V38_of m _ c main_v6 (by decide)).trans (ones_18 m c)
  show StableHlo.after Gen.hostOps19 (GenP.V38 m (Vals.outs m) c) (Proc.devRef .tc main_v253) = _
  after_results_simp
  rw [hs, ht, ho]
  rfl

theorem tbl_19 (c : Dev nD) : (GenP.V39 m (Vals.outs m) c main_v254 : S50000.Idx → BitVec 32) = Vals.dstc m 19 c := by
  have hd : (GenP.V38 m (Vals.outs m) c main_v3 : S1600000.Idx → BitVec 32) = Vals.dst m c :=
    (GenP.V38_of m _ c main_v3 (by decide)).trans (dst_18 m c)
  show StableHlo.after Gen.hostOps19 (GenP.V38 m (Vals.outs m) c) (Proc.devRef .tc main_v254) = _
  after_results_simp
  rw [hd, Vals.dstc, dif_pos (by decide : 19 < 32)] <;> rfl

theorem tgt_19 (c : Dev nD) : (GenP.V39 m (Vals.outs m) c main_v255 : S50000.Idx → BitVec 32) = Vals.srcc m 19 c := by
  have hd : (GenP.V38 m (Vals.outs m) c main_v1 : S1600000.Idx → BitVec 32) = Vals.src m c :=
    (GenP.V38_of m _ c main_v1 (by decide)).trans (src_18 m c)
  show StableHlo.after Gen.hostOps19 (GenP.V38 m (Vals.outs m) c) (Proc.devRef .tc main_v255) = _
  after_results_simp
  rw [hd, Vals.srcc, dif_pos (by decide : 19 < 32)] <;> rfl

theorem x3_19 (c : Dev nD) : (GenP.V39 m (Vals.outs m) c main_v256 : FVec F S100000x1x128 .f32) = Vals.X3 m c := by
  have hx : (GenP.V38 m (Vals.outs m) c main_arg0 : FVec F S100000x128 .f32) = Vals.X m c :=
    (GenP.V38_of m _ c main_arg0 (by decide)).trans (x_18 m c)
  show StableHlo.after Gen.hostOps19 (GenP.V38 m (Vals.outs m) c) (Proc.devRef .tc main_v256) = _
  after_results_simp
  rw [hx]
  rfl

/-! ## Boundary 41: after region 19 and the host stretch that adds chunk 19 -/

theorem src_20 (c : Dev nD) : (GenP.V41 m (Vals.outs m) c main_v1 : S1600000.Idx → BitVec 32) = Vals.src m c :=
  (GenP.V41_of m _ c main_v1 (by decide)).trans ((GenP.V40_of m _ c main_v1 (by decide)).trans (src_19 m c))

theorem dst_20 (c : Dev nD) : (GenP.V41 m (Vals.outs m) c main_v3 : S1600000.Idx → BitVec 32) = Vals.dst m c :=
  (GenP.V41_of m _ c main_v3 (by decide)).trans ((GenP.V40_of m _ c main_v3 (by decide)).trans (dst_19 m c))

theorem ones_20 (c : Dev nD) : (GenP.V41 m (Vals.outs m) c main_v6 : FVec F S50000 .f32) = Vals.ones :=
  (GenP.V41_of m _ c main_v6 (by decide)).trans ((GenP.V40_of m _ c main_v6 (by decide)).trans (ones_19 m c))

theorem x_20 (c : Dev nD) : (GenP.V41 m (Vals.outs m) c main_arg0 : FVec F S100000x128 .f32) = Vals.X m c :=
  (GenP.V41_of m _ c main_arg0 (by decide)).trans ((GenP.V40_of m _ c main_arg0 (by decide)).trans (x_19 m c))

theorem wt_20 (c : Dev nD) : (GenP.V41 m (Vals.outs m) c main_arg2 : FVec F S128x128 .f32) = Vals.Wt m c :=
  (GenP.V41_of m _ c main_arg2 (by decide)).trans ((GenP.V40_of m _ c main_arg2 (by decide)).trans (wt_19 m c))

theorem agg_20 (c : Dev nD) : (GenP.V41 m (Vals.outs m) c main_v262 : FVec F S100000x128 .f32) = Vals.agg m 20 c := by
  have hs : (GenP.V40 m (Vals.outs m) c main_v249 : FVec F S100000x128 .f32) = Vals.agg m 19 c :=
    (GenP.V40_of m _ c main_v249 (by decide)).trans (agg_19 m c)
  have ht : (GenP.V40 m (Vals.outs m) c main_v255 : S50000.Idx → BitVec 32) = Vals.srcc m 19 c :=
    (GenP.V40_of m _ c main_v255 (by decide)).trans (tgt_19 m c)
  have hg : (GenP.V40 m (Vals.outs m) c main_v257 : FVec F S50000x1x128 .f32) = Vals.gath3 m 19 c :=
    (Function.update_self ..).trans (Vals.outs_19 m c)
  show StableHlo.after Gen.hostOps20 (GenP.V40 m (Vals.outs m) c) (Proc.devRef .tc main_v262) = _
  after_results_simp
  rw [hs, ht, hg]
  rfl

theorem deg_20 (c : Dev nD) : (GenP.V41 m (Vals.outs m) c main_v266 : FVec F S100000 .f32) = Vals.deg m 20 c := by
  have hs : (GenP.V40 m (Vals.outs m) c main_v253 : FVec F S100000 .f32) = Vals.deg m 19 c :=
    (GenP.V40_of m _ c main_v253 (by decide)).trans (deg_19 m c)
  have ht : (GenP.V40 m (Vals.outs m) c main_v255 : S50000.Idx → BitVec 32) = Vals.srcc m 19 c :=
    (GenP.V40_of m _ c main_v255 (by decide)).trans (tgt_19 m c)
  have ho : (GenP.V40 m (Vals.outs m) c main_v6 : FVec F S50000 .f32) = Vals.ones :=
    (GenP.V40_of m _ c main_v6 (by decide)).trans (ones_19 m c)
  show StableHlo.after Gen.hostOps20 (GenP.V40 m (Vals.outs m) c) (Proc.devRef .tc main_v266) = _
  after_results_simp
  rw [hs, ht, ho]
  rfl

theorem tbl_20 (c : Dev nD) : (GenP.V41 m (Vals.outs m) c main_v267 : S50000.Idx → BitVec 32) = Vals.dstc m 20 c := by
  have hd : (GenP.V40 m (Vals.outs m) c main_v3 : S1600000.Idx → BitVec 32) = Vals.dst m c :=
    (GenP.V40_of m _ c main_v3 (by decide)).trans (dst_19 m c)
  show StableHlo.after Gen.hostOps20 (GenP.V40 m (Vals.outs m) c) (Proc.devRef .tc main_v267) = _
  after_results_simp
  rw [hd, Vals.dstc, dif_pos (by decide : 20 < 32)] <;> rfl

theorem tgt_20 (c : Dev nD) : (GenP.V41 m (Vals.outs m) c main_v268 : S50000.Idx → BitVec 32) = Vals.srcc m 20 c := by
  have hd : (GenP.V40 m (Vals.outs m) c main_v1 : S1600000.Idx → BitVec 32) = Vals.src m c :=
    (GenP.V40_of m _ c main_v1 (by decide)).trans (src_19 m c)
  show StableHlo.after Gen.hostOps20 (GenP.V40 m (Vals.outs m) c) (Proc.devRef .tc main_v268) = _
  after_results_simp
  rw [hd, Vals.srcc, dif_pos (by decide : 20 < 32)] <;> rfl

theorem x3_20 (c : Dev nD) : (GenP.V41 m (Vals.outs m) c main_v269 : FVec F S100000x1x128 .f32) = Vals.X3 m c := by
  have hx : (GenP.V40 m (Vals.outs m) c main_arg0 : FVec F S100000x128 .f32) = Vals.X m c :=
    (GenP.V40_of m _ c main_arg0 (by decide)).trans (x_19 m c)
  show StableHlo.after Gen.hostOps20 (GenP.V40 m (Vals.outs m) c) (Proc.devRef .tc main_v269) = _
  after_results_simp
  rw [hx]
  rfl

/-! ## Boundary 43: after region 20 and the host stretch that adds chunk 20 -/

theorem src_21 (c : Dev nD) : (GenP.V43 m (Vals.outs m) c main_v1 : S1600000.Idx → BitVec 32) = Vals.src m c :=
  (GenP.V43_of m _ c main_v1 (by decide)).trans ((GenP.V42_of m _ c main_v1 (by decide)).trans (src_20 m c))

theorem dst_21 (c : Dev nD) : (GenP.V43 m (Vals.outs m) c main_v3 : S1600000.Idx → BitVec 32) = Vals.dst m c :=
  (GenP.V43_of m _ c main_v3 (by decide)).trans ((GenP.V42_of m _ c main_v3 (by decide)).trans (dst_20 m c))

theorem ones_21 (c : Dev nD) : (GenP.V43 m (Vals.outs m) c main_v6 : FVec F S50000 .f32) = Vals.ones :=
  (GenP.V43_of m _ c main_v6 (by decide)).trans ((GenP.V42_of m _ c main_v6 (by decide)).trans (ones_20 m c))

theorem x_21 (c : Dev nD) : (GenP.V43 m (Vals.outs m) c main_arg0 : FVec F S100000x128 .f32) = Vals.X m c :=
  (GenP.V43_of m _ c main_arg0 (by decide)).trans ((GenP.V42_of m _ c main_arg0 (by decide)).trans (x_20 m c))

theorem wt_21 (c : Dev nD) : (GenP.V43 m (Vals.outs m) c main_arg2 : FVec F S128x128 .f32) = Vals.Wt m c :=
  (GenP.V43_of m _ c main_arg2 (by decide)).trans ((GenP.V42_of m _ c main_arg2 (by decide)).trans (wt_20 m c))

theorem agg_21 (c : Dev nD) : (GenP.V43 m (Vals.outs m) c main_v275 : FVec F S100000x128 .f32) = Vals.agg m 21 c := by
  have hs : (GenP.V42 m (Vals.outs m) c main_v262 : FVec F S100000x128 .f32) = Vals.agg m 20 c :=
    (GenP.V42_of m _ c main_v262 (by decide)).trans (agg_20 m c)
  have ht : (GenP.V42 m (Vals.outs m) c main_v268 : S50000.Idx → BitVec 32) = Vals.srcc m 20 c :=
    (GenP.V42_of m _ c main_v268 (by decide)).trans (tgt_20 m c)
  have hg : (GenP.V42 m (Vals.outs m) c main_v270 : FVec F S50000x1x128 .f32) = Vals.gath3 m 20 c :=
    (Function.update_self ..).trans (Vals.outs_20 m c)
  show StableHlo.after Gen.hostOps21 (GenP.V42 m (Vals.outs m) c) (Proc.devRef .tc main_v275) = _
  after_results_simp
  rw [hs, ht, hg]
  rfl

theorem deg_21 (c : Dev nD) : (GenP.V43 m (Vals.outs m) c main_v279 : FVec F S100000 .f32) = Vals.deg m 21 c := by
  have hs : (GenP.V42 m (Vals.outs m) c main_v266 : FVec F S100000 .f32) = Vals.deg m 20 c :=
    (GenP.V42_of m _ c main_v266 (by decide)).trans (deg_20 m c)
  have ht : (GenP.V42 m (Vals.outs m) c main_v268 : S50000.Idx → BitVec 32) = Vals.srcc m 20 c :=
    (GenP.V42_of m _ c main_v268 (by decide)).trans (tgt_20 m c)
  have ho : (GenP.V42 m (Vals.outs m) c main_v6 : FVec F S50000 .f32) = Vals.ones :=
    (GenP.V42_of m _ c main_v6 (by decide)).trans (ones_20 m c)
  show StableHlo.after Gen.hostOps21 (GenP.V42 m (Vals.outs m) c) (Proc.devRef .tc main_v279) = _
  after_results_simp
  rw [hs, ht, ho]
  rfl

theorem tbl_21 (c : Dev nD) : (GenP.V43 m (Vals.outs m) c main_v280 : S50000.Idx → BitVec 32) = Vals.dstc m 21 c := by
  have hd : (GenP.V42 m (Vals.outs m) c main_v3 : S1600000.Idx → BitVec 32) = Vals.dst m c :=
    (GenP.V42_of m _ c main_v3 (by decide)).trans (dst_20 m c)
  show StableHlo.after Gen.hostOps21 (GenP.V42 m (Vals.outs m) c) (Proc.devRef .tc main_v280) = _
  after_results_simp
  rw [hd, Vals.dstc, dif_pos (by decide : 21 < 32)] <;> rfl

theorem tgt_21 (c : Dev nD) : (GenP.V43 m (Vals.outs m) c main_v281 : S50000.Idx → BitVec 32) = Vals.srcc m 21 c := by
  have hd : (GenP.V42 m (Vals.outs m) c main_v1 : S1600000.Idx → BitVec 32) = Vals.src m c :=
    (GenP.V42_of m _ c main_v1 (by decide)).trans (src_20 m c)
  show StableHlo.after Gen.hostOps21 (GenP.V42 m (Vals.outs m) c) (Proc.devRef .tc main_v281) = _
  after_results_simp
  rw [hd, Vals.srcc, dif_pos (by decide : 21 < 32)] <;> rfl

theorem x3_21 (c : Dev nD) : (GenP.V43 m (Vals.outs m) c main_v282 : FVec F S100000x1x128 .f32) = Vals.X3 m c := by
  have hx : (GenP.V42 m (Vals.outs m) c main_arg0 : FVec F S100000x128 .f32) = Vals.X m c :=
    (GenP.V42_of m _ c main_arg0 (by decide)).trans (x_20 m c)
  show StableHlo.after Gen.hostOps21 (GenP.V42 m (Vals.outs m) c) (Proc.devRef .tc main_v282) = _
  after_results_simp
  rw [hx]
  rfl

/-! ## Boundary 45: after region 21 and the host stretch that adds chunk 21 -/

theorem src_22 (c : Dev nD) : (GenP.V45 m (Vals.outs m) c main_v1 : S1600000.Idx → BitVec 32) = Vals.src m c :=
  (GenP.V45_of m _ c main_v1 (by decide)).trans ((GenP.V44_of m _ c main_v1 (by decide)).trans (src_21 m c))

theorem dst_22 (c : Dev nD) : (GenP.V45 m (Vals.outs m) c main_v3 : S1600000.Idx → BitVec 32) = Vals.dst m c :=
  (GenP.V45_of m _ c main_v3 (by decide)).trans ((GenP.V44_of m _ c main_v3 (by decide)).trans (dst_21 m c))

theorem ones_22 (c : Dev nD) : (GenP.V45 m (Vals.outs m) c main_v6 : FVec F S50000 .f32) = Vals.ones :=
  (GenP.V45_of m _ c main_v6 (by decide)).trans ((GenP.V44_of m _ c main_v6 (by decide)).trans (ones_21 m c))

theorem x_22 (c : Dev nD) : (GenP.V45 m (Vals.outs m) c main_arg0 : FVec F S100000x128 .f32) = Vals.X m c :=
  (GenP.V45_of m _ c main_arg0 (by decide)).trans ((GenP.V44_of m _ c main_arg0 (by decide)).trans (x_21 m c))

theorem wt_22 (c : Dev nD) : (GenP.V45 m (Vals.outs m) c main_arg2 : FVec F S128x128 .f32) = Vals.Wt m c :=
  (GenP.V45_of m _ c main_arg2 (by decide)).trans ((GenP.V44_of m _ c main_arg2 (by decide)).trans (wt_21 m c))

theorem agg_22 (c : Dev nD) : (GenP.V45 m (Vals.outs m) c main_v288 : FVec F S100000x128 .f32) = Vals.agg m 22 c := by
  have hs : (GenP.V44 m (Vals.outs m) c main_v275 : FVec F S100000x128 .f32) = Vals.agg m 21 c :=
    (GenP.V44_of m _ c main_v275 (by decide)).trans (agg_21 m c)
  have ht : (GenP.V44 m (Vals.outs m) c main_v281 : S50000.Idx → BitVec 32) = Vals.srcc m 21 c :=
    (GenP.V44_of m _ c main_v281 (by decide)).trans (tgt_21 m c)
  have hg : (GenP.V44 m (Vals.outs m) c main_v283 : FVec F S50000x1x128 .f32) = Vals.gath3 m 21 c :=
    (Function.update_self ..).trans (Vals.outs_21 m c)
  show StableHlo.after Gen.hostOps22 (GenP.V44 m (Vals.outs m) c) (Proc.devRef .tc main_v288) = _
  after_results_simp
  rw [hs, ht, hg]
  rfl

theorem deg_22 (c : Dev nD) : (GenP.V45 m (Vals.outs m) c main_v292 : FVec F S100000 .f32) = Vals.deg m 22 c := by
  have hs : (GenP.V44 m (Vals.outs m) c main_v279 : FVec F S100000 .f32) = Vals.deg m 21 c :=
    (GenP.V44_of m _ c main_v279 (by decide)).trans (deg_21 m c)
  have ht : (GenP.V44 m (Vals.outs m) c main_v281 : S50000.Idx → BitVec 32) = Vals.srcc m 21 c :=
    (GenP.V44_of m _ c main_v281 (by decide)).trans (tgt_21 m c)
  have ho : (GenP.V44 m (Vals.outs m) c main_v6 : FVec F S50000 .f32) = Vals.ones :=
    (GenP.V44_of m _ c main_v6 (by decide)).trans (ones_21 m c)
  show StableHlo.after Gen.hostOps22 (GenP.V44 m (Vals.outs m) c) (Proc.devRef .tc main_v292) = _
  after_results_simp
  rw [hs, ht, ho]
  rfl

theorem tbl_22 (c : Dev nD) : (GenP.V45 m (Vals.outs m) c main_v293 : S50000.Idx → BitVec 32) = Vals.dstc m 22 c := by
  have hd : (GenP.V44 m (Vals.outs m) c main_v3 : S1600000.Idx → BitVec 32) = Vals.dst m c :=
    (GenP.V44_of m _ c main_v3 (by decide)).trans (dst_21 m c)
  show StableHlo.after Gen.hostOps22 (GenP.V44 m (Vals.outs m) c) (Proc.devRef .tc main_v293) = _
  after_results_simp
  rw [hd, Vals.dstc, dif_pos (by decide : 22 < 32)] <;> rfl

theorem tgt_22 (c : Dev nD) : (GenP.V45 m (Vals.outs m) c main_v294 : S50000.Idx → BitVec 32) = Vals.srcc m 22 c := by
  have hd : (GenP.V44 m (Vals.outs m) c main_v1 : S1600000.Idx → BitVec 32) = Vals.src m c :=
    (GenP.V44_of m _ c main_v1 (by decide)).trans (src_21 m c)
  show StableHlo.after Gen.hostOps22 (GenP.V44 m (Vals.outs m) c) (Proc.devRef .tc main_v294) = _
  after_results_simp
  rw [hd, Vals.srcc, dif_pos (by decide : 22 < 32)] <;> rfl

theorem x3_22 (c : Dev nD) : (GenP.V45 m (Vals.outs m) c main_v295 : FVec F S100000x1x128 .f32) = Vals.X3 m c := by
  have hx : (GenP.V44 m (Vals.outs m) c main_arg0 : FVec F S100000x128 .f32) = Vals.X m c :=
    (GenP.V44_of m _ c main_arg0 (by decide)).trans (x_21 m c)
  show StableHlo.after Gen.hostOps22 (GenP.V44 m (Vals.outs m) c) (Proc.devRef .tc main_v295) = _
  after_results_simp
  rw [hx]
  rfl

/-! ## Boundary 47: after region 22 and the host stretch that adds chunk 22 -/

theorem src_23 (c : Dev nD) : (GenP.V47 m (Vals.outs m) c main_v1 : S1600000.Idx → BitVec 32) = Vals.src m c :=
  (GenP.V47_of m _ c main_v1 (by decide)).trans ((GenP.V46_of m _ c main_v1 (by decide)).trans (src_22 m c))

theorem dst_23 (c : Dev nD) : (GenP.V47 m (Vals.outs m) c main_v3 : S1600000.Idx → BitVec 32) = Vals.dst m c :=
  (GenP.V47_of m _ c main_v3 (by decide)).trans ((GenP.V46_of m _ c main_v3 (by decide)).trans (dst_22 m c))

theorem ones_23 (c : Dev nD) : (GenP.V47 m (Vals.outs m) c main_v6 : FVec F S50000 .f32) = Vals.ones :=
  (GenP.V47_of m _ c main_v6 (by decide)).trans ((GenP.V46_of m _ c main_v6 (by decide)).trans (ones_22 m c))

theorem x_23 (c : Dev nD) : (GenP.V47 m (Vals.outs m) c main_arg0 : FVec F S100000x128 .f32) = Vals.X m c :=
  (GenP.V47_of m _ c main_arg0 (by decide)).trans ((GenP.V46_of m _ c main_arg0 (by decide)).trans (x_22 m c))

theorem wt_23 (c : Dev nD) : (GenP.V47 m (Vals.outs m) c main_arg2 : FVec F S128x128 .f32) = Vals.Wt m c :=
  (GenP.V47_of m _ c main_arg2 (by decide)).trans ((GenP.V46_of m _ c main_arg2 (by decide)).trans (wt_22 m c))

theorem agg_23 (c : Dev nD) : (GenP.V47 m (Vals.outs m) c main_v301 : FVec F S100000x128 .f32) = Vals.agg m 23 c := by
  have hs : (GenP.V46 m (Vals.outs m) c main_v288 : FVec F S100000x128 .f32) = Vals.agg m 22 c :=
    (GenP.V46_of m _ c main_v288 (by decide)).trans (agg_22 m c)
  have ht : (GenP.V46 m (Vals.outs m) c main_v294 : S50000.Idx → BitVec 32) = Vals.srcc m 22 c :=
    (GenP.V46_of m _ c main_v294 (by decide)).trans (tgt_22 m c)
  have hg : (GenP.V46 m (Vals.outs m) c main_v296 : FVec F S50000x1x128 .f32) = Vals.gath3 m 22 c :=
    (Function.update_self ..).trans (Vals.outs_22 m c)
  show StableHlo.after Gen.hostOps23 (GenP.V46 m (Vals.outs m) c) (Proc.devRef .tc main_v301) = _
  after_results_simp
  rw [hs, ht, hg]
  rfl

theorem deg_23 (c : Dev nD) : (GenP.V47 m (Vals.outs m) c main_v305 : FVec F S100000 .f32) = Vals.deg m 23 c := by
  have hs : (GenP.V46 m (Vals.outs m) c main_v292 : FVec F S100000 .f32) = Vals.deg m 22 c :=
    (GenP.V46_of m _ c main_v292 (by decide)).trans (deg_22 m c)
  have ht : (GenP.V46 m (Vals.outs m) c main_v294 : S50000.Idx → BitVec 32) = Vals.srcc m 22 c :=
    (GenP.V46_of m _ c main_v294 (by decide)).trans (tgt_22 m c)
  have ho : (GenP.V46 m (Vals.outs m) c main_v6 : FVec F S50000 .f32) = Vals.ones :=
    (GenP.V46_of m _ c main_v6 (by decide)).trans (ones_22 m c)
  show StableHlo.after Gen.hostOps23 (GenP.V46 m (Vals.outs m) c) (Proc.devRef .tc main_v305) = _
  after_results_simp
  rw [hs, ht, ho]
  rfl

theorem tbl_23 (c : Dev nD) : (GenP.V47 m (Vals.outs m) c main_v306 : S50000.Idx → BitVec 32) = Vals.dstc m 23 c := by
  have hd : (GenP.V46 m (Vals.outs m) c main_v3 : S1600000.Idx → BitVec 32) = Vals.dst m c :=
    (GenP.V46_of m _ c main_v3 (by decide)).trans (dst_22 m c)
  show StableHlo.after Gen.hostOps23 (GenP.V46 m (Vals.outs m) c) (Proc.devRef .tc main_v306) = _
  after_results_simp
  rw [hd, Vals.dstc, dif_pos (by decide : 23 < 32)] <;> rfl

theorem tgt_23 (c : Dev nD) : (GenP.V47 m (Vals.outs m) c main_v307 : S50000.Idx → BitVec 32) = Vals.srcc m 23 c := by
  have hd : (GenP.V46 m (Vals.outs m) c main_v1 : S1600000.Idx → BitVec 32) = Vals.src m c :=
    (GenP.V46_of m _ c main_v1 (by decide)).trans (src_22 m c)
  show StableHlo.after Gen.hostOps23 (GenP.V46 m (Vals.outs m) c) (Proc.devRef .tc main_v307) = _
  after_results_simp
  rw [hd, Vals.srcc, dif_pos (by decide : 23 < 32)] <;> rfl

theorem x3_23 (c : Dev nD) : (GenP.V47 m (Vals.outs m) c main_v308 : FVec F S100000x1x128 .f32) = Vals.X3 m c := by
  have hx : (GenP.V46 m (Vals.outs m) c main_arg0 : FVec F S100000x128 .f32) = Vals.X m c :=
    (GenP.V46_of m _ c main_arg0 (by decide)).trans (x_22 m c)
  show StableHlo.after Gen.hostOps23 (GenP.V46 m (Vals.outs m) c) (Proc.devRef .tc main_v308) = _
  after_results_simp
  rw [hx]
  rfl

/-! ## Boundary 49: after region 23 and the host stretch that adds chunk 23 -/

theorem src_24 (c : Dev nD) : (GenP.V49 m (Vals.outs m) c main_v1 : S1600000.Idx → BitVec 32) = Vals.src m c :=
  (GenP.V49_of m _ c main_v1 (by decide)).trans ((GenP.V48_of m _ c main_v1 (by decide)).trans (src_23 m c))

theorem dst_24 (c : Dev nD) : (GenP.V49 m (Vals.outs m) c main_v3 : S1600000.Idx → BitVec 32) = Vals.dst m c :=
  (GenP.V49_of m _ c main_v3 (by decide)).trans ((GenP.V48_of m _ c main_v3 (by decide)).trans (dst_23 m c))

theorem ones_24 (c : Dev nD) : (GenP.V49 m (Vals.outs m) c main_v6 : FVec F S50000 .f32) = Vals.ones :=
  (GenP.V49_of m _ c main_v6 (by decide)).trans ((GenP.V48_of m _ c main_v6 (by decide)).trans (ones_23 m c))

theorem x_24 (c : Dev nD) : (GenP.V49 m (Vals.outs m) c main_arg0 : FVec F S100000x128 .f32) = Vals.X m c :=
  (GenP.V49_of m _ c main_arg0 (by decide)).trans ((GenP.V48_of m _ c main_arg0 (by decide)).trans (x_23 m c))

theorem wt_24 (c : Dev nD) : (GenP.V49 m (Vals.outs m) c main_arg2 : FVec F S128x128 .f32) = Vals.Wt m c :=
  (GenP.V49_of m _ c main_arg2 (by decide)).trans ((GenP.V48_of m _ c main_arg2 (by decide)).trans (wt_23 m c))

theorem agg_24 (c : Dev nD) : (GenP.V49 m (Vals.outs m) c main_v314 : FVec F S100000x128 .f32) = Vals.agg m 24 c := by
  have hs : (GenP.V48 m (Vals.outs m) c main_v301 : FVec F S100000x128 .f32) = Vals.agg m 23 c :=
    (GenP.V48_of m _ c main_v301 (by decide)).trans (agg_23 m c)
  have ht : (GenP.V48 m (Vals.outs m) c main_v307 : S50000.Idx → BitVec 32) = Vals.srcc m 23 c :=
    (GenP.V48_of m _ c main_v307 (by decide)).trans (tgt_23 m c)
  have hg : (GenP.V48 m (Vals.outs m) c main_v309 : FVec F S50000x1x128 .f32) = Vals.gath3 m 23 c :=
    (Function.update_self ..).trans (Vals.outs_23 m c)
  show StableHlo.after Gen.hostOps24 (GenP.V48 m (Vals.outs m) c) (Proc.devRef .tc main_v314) = _
  after_results_simp
  rw [hs, ht, hg]
  rfl

theorem deg_24 (c : Dev nD) : (GenP.V49 m (Vals.outs m) c main_v318 : FVec F S100000 .f32) = Vals.deg m 24 c := by
  have hs : (GenP.V48 m (Vals.outs m) c main_v305 : FVec F S100000 .f32) = Vals.deg m 23 c :=
    (GenP.V48_of m _ c main_v305 (by decide)).trans (deg_23 m c)
  have ht : (GenP.V48 m (Vals.outs m) c main_v307 : S50000.Idx → BitVec 32) = Vals.srcc m 23 c :=
    (GenP.V48_of m _ c main_v307 (by decide)).trans (tgt_23 m c)
  have ho : (GenP.V48 m (Vals.outs m) c main_v6 : FVec F S50000 .f32) = Vals.ones :=
    (GenP.V48_of m _ c main_v6 (by decide)).trans (ones_23 m c)
  show StableHlo.after Gen.hostOps24 (GenP.V48 m (Vals.outs m) c) (Proc.devRef .tc main_v318) = _
  after_results_simp
  rw [hs, ht, ho]
  rfl

theorem tbl_24 (c : Dev nD) : (GenP.V49 m (Vals.outs m) c main_v319 : S50000.Idx → BitVec 32) = Vals.dstc m 24 c := by
  have hd : (GenP.V48 m (Vals.outs m) c main_v3 : S1600000.Idx → BitVec 32) = Vals.dst m c :=
    (GenP.V48_of m _ c main_v3 (by decide)).trans (dst_23 m c)
  show StableHlo.after Gen.hostOps24 (GenP.V48 m (Vals.outs m) c) (Proc.devRef .tc main_v319) = _
  after_results_simp
  rw [hd, Vals.dstc, dif_pos (by decide : 24 < 32)] <;> rfl

theorem tgt_24 (c : Dev nD) : (GenP.V49 m (Vals.outs m) c main_v320 : S50000.Idx → BitVec 32) = Vals.srcc m 24 c := by
  have hd : (GenP.V48 m (Vals.outs m) c main_v1 : S1600000.Idx → BitVec 32) = Vals.src m c :=
    (GenP.V48_of m _ c main_v1 (by decide)).trans (src_23 m c)
  show StableHlo.after Gen.hostOps24 (GenP.V48 m (Vals.outs m) c) (Proc.devRef .tc main_v320) = _
  after_results_simp
  rw [hd, Vals.srcc, dif_pos (by decide : 24 < 32)] <;> rfl

theorem x3_24 (c : Dev nD) : (GenP.V49 m (Vals.outs m) c main_v321 : FVec F S100000x1x128 .f32) = Vals.X3 m c := by
  have hx : (GenP.V48 m (Vals.outs m) c main_arg0 : FVec F S100000x128 .f32) = Vals.X m c :=
    (GenP.V48_of m _ c main_arg0 (by decide)).trans (x_23 m c)
  show StableHlo.after Gen.hostOps24 (GenP.V48 m (Vals.outs m) c) (Proc.devRef .tc main_v321) = _
  after_results_simp
  rw [hx]
  rfl

/-! ## Boundary 51: after region 24 and the host stretch that adds chunk 24 -/

theorem src_25 (c : Dev nD) : (GenP.V51 m (Vals.outs m) c main_v1 : S1600000.Idx → BitVec 32) = Vals.src m c :=
  (GenP.V51_of m _ c main_v1 (by decide)).trans ((GenP.V50_of m _ c main_v1 (by decide)).trans (src_24 m c))

theorem dst_25 (c : Dev nD) : (GenP.V51 m (Vals.outs m) c main_v3 : S1600000.Idx → BitVec 32) = Vals.dst m c :=
  (GenP.V51_of m _ c main_v3 (by decide)).trans ((GenP.V50_of m _ c main_v3 (by decide)).trans (dst_24 m c))

theorem ones_25 (c : Dev nD) : (GenP.V51 m (Vals.outs m) c main_v6 : FVec F S50000 .f32) = Vals.ones :=
  (GenP.V51_of m _ c main_v6 (by decide)).trans ((GenP.V50_of m _ c main_v6 (by decide)).trans (ones_24 m c))

theorem x_25 (c : Dev nD) : (GenP.V51 m (Vals.outs m) c main_arg0 : FVec F S100000x128 .f32) = Vals.X m c :=
  (GenP.V51_of m _ c main_arg0 (by decide)).trans ((GenP.V50_of m _ c main_arg0 (by decide)).trans (x_24 m c))

theorem wt_25 (c : Dev nD) : (GenP.V51 m (Vals.outs m) c main_arg2 : FVec F S128x128 .f32) = Vals.Wt m c :=
  (GenP.V51_of m _ c main_arg2 (by decide)).trans ((GenP.V50_of m _ c main_arg2 (by decide)).trans (wt_24 m c))

theorem agg_25 (c : Dev nD) : (GenP.V51 m (Vals.outs m) c main_v327 : FVec F S100000x128 .f32) = Vals.agg m 25 c := by
  have hs : (GenP.V50 m (Vals.outs m) c main_v314 : FVec F S100000x128 .f32) = Vals.agg m 24 c :=
    (GenP.V50_of m _ c main_v314 (by decide)).trans (agg_24 m c)
  have ht : (GenP.V50 m (Vals.outs m) c main_v320 : S50000.Idx → BitVec 32) = Vals.srcc m 24 c :=
    (GenP.V50_of m _ c main_v320 (by decide)).trans (tgt_24 m c)
  have hg : (GenP.V50 m (Vals.outs m) c main_v322 : FVec F S50000x1x128 .f32) = Vals.gath3 m 24 c :=
    (Function.update_self ..).trans (Vals.outs_24 m c)
  show StableHlo.after Gen.hostOps25 (GenP.V50 m (Vals.outs m) c) (Proc.devRef .tc main_v327) = _
  after_results_simp
  rw [hs, ht, hg]
  rfl

theorem deg_25 (c : Dev nD) : (GenP.V51 m (Vals.outs m) c main_v331 : FVec F S100000 .f32) = Vals.deg m 25 c := by
  have hs : (GenP.V50 m (Vals.outs m) c main_v318 : FVec F S100000 .f32) = Vals.deg m 24 c :=
    (GenP.V50_of m _ c main_v318 (by decide)).trans (deg_24 m c)
  have ht : (GenP.V50 m (Vals.outs m) c main_v320 : S50000.Idx → BitVec 32) = Vals.srcc m 24 c :=
    (GenP.V50_of m _ c main_v320 (by decide)).trans (tgt_24 m c)
  have ho : (GenP.V50 m (Vals.outs m) c main_v6 : FVec F S50000 .f32) = Vals.ones :=
    (GenP.V50_of m _ c main_v6 (by decide)).trans (ones_24 m c)
  show StableHlo.after Gen.hostOps25 (GenP.V50 m (Vals.outs m) c) (Proc.devRef .tc main_v331) = _
  after_results_simp
  rw [hs, ht, ho]
  rfl

theorem tbl_25 (c : Dev nD) : (GenP.V51 m (Vals.outs m) c main_v332 : S50000.Idx → BitVec 32) = Vals.dstc m 25 c := by
  have hd : (GenP.V50 m (Vals.outs m) c main_v3 : S1600000.Idx → BitVec 32) = Vals.dst m c :=
    (GenP.V50_of m _ c main_v3 (by decide)).trans (dst_24 m c)
  show StableHlo.after Gen.hostOps25 (GenP.V50 m (Vals.outs m) c) (Proc.devRef .tc main_v332) = _
  after_results_simp
  rw [hd, Vals.dstc, dif_pos (by decide : 25 < 32)] <;> rfl

theorem tgt_25 (c : Dev nD) : (GenP.V51 m (Vals.outs m) c main_v333 : S50000.Idx → BitVec 32) = Vals.srcc m 25 c := by
  have hd : (GenP.V50 m (Vals.outs m) c main_v1 : S1600000.Idx → BitVec 32) = Vals.src m c :=
    (GenP.V50_of m _ c main_v1 (by decide)).trans (src_24 m c)
  show StableHlo.after Gen.hostOps25 (GenP.V50 m (Vals.outs m) c) (Proc.devRef .tc main_v333) = _
  after_results_simp
  rw [hd, Vals.srcc, dif_pos (by decide : 25 < 32)] <;> rfl

theorem x3_25 (c : Dev nD) : (GenP.V51 m (Vals.outs m) c main_v334 : FVec F S100000x1x128 .f32) = Vals.X3 m c := by
  have hx : (GenP.V50 m (Vals.outs m) c main_arg0 : FVec F S100000x128 .f32) = Vals.X m c :=
    (GenP.V50_of m _ c main_arg0 (by decide)).trans (x_24 m c)
  show StableHlo.after Gen.hostOps25 (GenP.V50 m (Vals.outs m) c) (Proc.devRef .tc main_v334) = _
  after_results_simp
  rw [hx]
  rfl

/-! ## Boundary 53: after region 25 and the host stretch that adds chunk 25 -/

theorem src_26 (c : Dev nD) : (GenP.V53 m (Vals.outs m) c main_v1 : S1600000.Idx → BitVec 32) = Vals.src m c :=
  (GenP.V53_of m _ c main_v1 (by decide)).trans ((GenP.V52_of m _ c main_v1 (by decide)).trans (src_25 m c))

theorem dst_26 (c : Dev nD) : (GenP.V53 m (Vals.outs m) c main_v3 : S1600000.Idx → BitVec 32) = Vals.dst m c :=
  (GenP.V53_of m _ c main_v3 (by decide)).trans ((GenP.V52_of m _ c main_v3 (by decide)).trans (dst_25 m c))

theorem ones_26 (c : Dev nD) : (GenP.V53 m (Vals.outs m) c main_v6 : FVec F S50000 .f32) = Vals.ones :=
  (GenP.V53_of m _ c main_v6 (by decide)).trans ((GenP.V52_of m _ c main_v6 (by decide)).trans (ones_25 m c))

theorem x_26 (c : Dev nD) : (GenP.V53 m (Vals.outs m) c main_arg0 : FVec F S100000x128 .f32) = Vals.X m c :=
  (GenP.V53_of m _ c main_arg0 (by decide)).trans ((GenP.V52_of m _ c main_arg0 (by decide)).trans (x_25 m c))

theorem wt_26 (c : Dev nD) : (GenP.V53 m (Vals.outs m) c main_arg2 : FVec F S128x128 .f32) = Vals.Wt m c :=
  (GenP.V53_of m _ c main_arg2 (by decide)).trans ((GenP.V52_of m _ c main_arg2 (by decide)).trans (wt_25 m c))

theorem agg_26 (c : Dev nD) : (GenP.V53 m (Vals.outs m) c main_v340 : FVec F S100000x128 .f32) = Vals.agg m 26 c := by
  have hs : (GenP.V52 m (Vals.outs m) c main_v327 : FVec F S100000x128 .f32) = Vals.agg m 25 c :=
    (GenP.V52_of m _ c main_v327 (by decide)).trans (agg_25 m c)
  have ht : (GenP.V52 m (Vals.outs m) c main_v333 : S50000.Idx → BitVec 32) = Vals.srcc m 25 c :=
    (GenP.V52_of m _ c main_v333 (by decide)).trans (tgt_25 m c)
  have hg : (GenP.V52 m (Vals.outs m) c main_v335 : FVec F S50000x1x128 .f32) = Vals.gath3 m 25 c :=
    (Function.update_self ..).trans (Vals.outs_25 m c)
  show StableHlo.after Gen.hostOps26 (GenP.V52 m (Vals.outs m) c) (Proc.devRef .tc main_v340) = _
  after_results_simp
  rw [hs, ht, hg]
  rfl

theorem deg_26 (c : Dev nD) : (GenP.V53 m (Vals.outs m) c main_v344 : FVec F S100000 .f32) = Vals.deg m 26 c := by
  have hs : (GenP.V52 m (Vals.outs m) c main_v331 : FVec F S100000 .f32) = Vals.deg m 25 c :=
    (GenP.V52_of m _ c main_v331 (by decide)).trans (deg_25 m c)
  have ht : (GenP.V52 m (Vals.outs m) c main_v333 : S50000.Idx → BitVec 32) = Vals.srcc m 25 c :=
    (GenP.V52_of m _ c main_v333 (by decide)).trans (tgt_25 m c)
  have ho : (GenP.V52 m (Vals.outs m) c main_v6 : FVec F S50000 .f32) = Vals.ones :=
    (GenP.V52_of m _ c main_v6 (by decide)).trans (ones_25 m c)
  show StableHlo.after Gen.hostOps26 (GenP.V52 m (Vals.outs m) c) (Proc.devRef .tc main_v344) = _
  after_results_simp
  rw [hs, ht, ho]
  rfl

theorem tbl_26 (c : Dev nD) : (GenP.V53 m (Vals.outs m) c main_v345 : S50000.Idx → BitVec 32) = Vals.dstc m 26 c := by
  have hd : (GenP.V52 m (Vals.outs m) c main_v3 : S1600000.Idx → BitVec 32) = Vals.dst m c :=
    (GenP.V52_of m _ c main_v3 (by decide)).trans (dst_25 m c)
  show StableHlo.after Gen.hostOps26 (GenP.V52 m (Vals.outs m) c) (Proc.devRef .tc main_v345) = _
  after_results_simp
  rw [hd, Vals.dstc, dif_pos (by decide : 26 < 32)] <;> rfl

theorem tgt_26 (c : Dev nD) : (GenP.V53 m (Vals.outs m) c main_v346 : S50000.Idx → BitVec 32) = Vals.srcc m 26 c := by
  have hd : (GenP.V52 m (Vals.outs m) c main_v1 : S1600000.Idx → BitVec 32) = Vals.src m c :=
    (GenP.V52_of m _ c main_v1 (by decide)).trans (src_25 m c)
  show StableHlo.after Gen.hostOps26 (GenP.V52 m (Vals.outs m) c) (Proc.devRef .tc main_v346) = _
  after_results_simp
  rw [hd, Vals.srcc, dif_pos (by decide : 26 < 32)] <;> rfl

theorem x3_26 (c : Dev nD) : (GenP.V53 m (Vals.outs m) c main_v347 : FVec F S100000x1x128 .f32) = Vals.X3 m c := by
  have hx : (GenP.V52 m (Vals.outs m) c main_arg0 : FVec F S100000x128 .f32) = Vals.X m c :=
    (GenP.V52_of m _ c main_arg0 (by decide)).trans (x_25 m c)
  show StableHlo.after Gen.hostOps26 (GenP.V52 m (Vals.outs m) c) (Proc.devRef .tc main_v347) = _
  after_results_simp
  rw [hx]
  rfl

/-! ## Boundary 55: after region 26 and the host stretch that adds chunk 26 -/

theorem src_27 (c : Dev nD) : (GenP.V55 m (Vals.outs m) c main_v1 : S1600000.Idx → BitVec 32) = Vals.src m c :=
  (GenP.V55_of m _ c main_v1 (by decide)).trans ((GenP.V54_of m _ c main_v1 (by decide)).trans (src_26 m c))

theorem dst_27 (c : Dev nD) : (GenP.V55 m (Vals.outs m) c main_v3 : S1600000.Idx → BitVec 32) = Vals.dst m c :=
  (GenP.V55_of m _ c main_v3 (by decide)).trans ((GenP.V54_of m _ c main_v3 (by decide)).trans (dst_26 m c))

theorem ones_27 (c : Dev nD) : (GenP.V55 m (Vals.outs m) c main_v6 : FVec F S50000 .f32) = Vals.ones :=
  (GenP.V55_of m _ c main_v6 (by decide)).trans ((GenP.V54_of m _ c main_v6 (by decide)).trans (ones_26 m c))

theorem x_27 (c : Dev nD) : (GenP.V55 m (Vals.outs m) c main_arg0 : FVec F S100000x128 .f32) = Vals.X m c :=
  (GenP.V55_of m _ c main_arg0 (by decide)).trans ((GenP.V54_of m _ c main_arg0 (by decide)).trans (x_26 m c))

theorem wt_27 (c : Dev nD) : (GenP.V55 m (Vals.outs m) c main_arg2 : FVec F S128x128 .f32) = Vals.Wt m c :=
  (GenP.V55_of m _ c main_arg2 (by decide)).trans ((GenP.V54_of m _ c main_arg2 (by decide)).trans (wt_26 m c))

theorem agg_27 (c : Dev nD) : (GenP.V55 m (Vals.outs m) c main_v353 : FVec F S100000x128 .f32) = Vals.agg m 27 c := by
  have hs : (GenP.V54 m (Vals.outs m) c main_v340 : FVec F S100000x128 .f32) = Vals.agg m 26 c :=
    (GenP.V54_of m _ c main_v340 (by decide)).trans (agg_26 m c)
  have ht : (GenP.V54 m (Vals.outs m) c main_v346 : S50000.Idx → BitVec 32) = Vals.srcc m 26 c :=
    (GenP.V54_of m _ c main_v346 (by decide)).trans (tgt_26 m c)
  have hg : (GenP.V54 m (Vals.outs m) c main_v348 : FVec F S50000x1x128 .f32) = Vals.gath3 m 26 c :=
    (Function.update_self ..).trans (Vals.outs_26 m c)
  show StableHlo.after Gen.hostOps27 (GenP.V54 m (Vals.outs m) c) (Proc.devRef .tc main_v353) = _
  after_results_simp
  rw [hs, ht, hg]
  rfl

theorem deg_27 (c : Dev nD) : (GenP.V55 m (Vals.outs m) c main_v357 : FVec F S100000 .f32) = Vals.deg m 27 c := by
  have hs : (GenP.V54 m (Vals.outs m) c main_v344 : FVec F S100000 .f32) = Vals.deg m 26 c :=
    (GenP.V54_of m _ c main_v344 (by decide)).trans (deg_26 m c)
  have ht : (GenP.V54 m (Vals.outs m) c main_v346 : S50000.Idx → BitVec 32) = Vals.srcc m 26 c :=
    (GenP.V54_of m _ c main_v346 (by decide)).trans (tgt_26 m c)
  have ho : (GenP.V54 m (Vals.outs m) c main_v6 : FVec F S50000 .f32) = Vals.ones :=
    (GenP.V54_of m _ c main_v6 (by decide)).trans (ones_26 m c)
  show StableHlo.after Gen.hostOps27 (GenP.V54 m (Vals.outs m) c) (Proc.devRef .tc main_v357) = _
  after_results_simp
  rw [hs, ht, ho]
  rfl

theorem tbl_27 (c : Dev nD) : (GenP.V55 m (Vals.outs m) c main_v358 : S50000.Idx → BitVec 32) = Vals.dstc m 27 c := by
  have hd : (GenP.V54 m (Vals.outs m) c main_v3 : S1600000.Idx → BitVec 32) = Vals.dst m c :=
    (GenP.V54_of m _ c main_v3 (by decide)).trans (dst_26 m c)
  show StableHlo.after Gen.hostOps27 (GenP.V54 m (Vals.outs m) c) (Proc.devRef .tc main_v358) = _
  after_results_simp
  rw [hd, Vals.dstc, dif_pos (by decide : 27 < 32)] <;> rfl

theorem tgt_27 (c : Dev nD) : (GenP.V55 m (Vals.outs m) c main_v359 : S50000.Idx → BitVec 32) = Vals.srcc m 27 c := by
  have hd : (GenP.V54 m (Vals.outs m) c main_v1 : S1600000.Idx → BitVec 32) = Vals.src m c :=
    (GenP.V54_of m _ c main_v1 (by decide)).trans (src_26 m c)
  show StableHlo.after Gen.hostOps27 (GenP.V54 m (Vals.outs m) c) (Proc.devRef .tc main_v359) = _
  after_results_simp
  rw [hd, Vals.srcc, dif_pos (by decide : 27 < 32)] <;> rfl

theorem x3_27 (c : Dev nD) : (GenP.V55 m (Vals.outs m) c main_v360 : FVec F S100000x1x128 .f32) = Vals.X3 m c := by
  have hx : (GenP.V54 m (Vals.outs m) c main_arg0 : FVec F S100000x128 .f32) = Vals.X m c :=
    (GenP.V54_of m _ c main_arg0 (by decide)).trans (x_26 m c)
  show StableHlo.after Gen.hostOps27 (GenP.V54 m (Vals.outs m) c) (Proc.devRef .tc main_v360) = _
  after_results_simp
  rw [hx]
  rfl

/-! ## Boundary 57: after region 27 and the host stretch that adds chunk 27 -/

theorem src_28 (c : Dev nD) : (GenP.V57 m (Vals.outs m) c main_v1 : S1600000.Idx → BitVec 32) = Vals.src m c :=
  (GenP.V57_of m _ c main_v1 (by decide)).trans ((GenP.V56_of m _ c main_v1 (by decide)).trans (src_27 m c))

theorem dst_28 (c : Dev nD) : (GenP.V57 m (Vals.outs m) c main_v3 : S1600000.Idx → BitVec 32) = Vals.dst m c :=
  (GenP.V57_of m _ c main_v3 (by decide)).trans ((GenP.V56_of m _ c main_v3 (by decide)).trans (dst_27 m c))

theorem ones_28 (c : Dev nD) : (GenP.V57 m (Vals.outs m) c main_v6 : FVec F S50000 .f32) = Vals.ones :=
  (GenP.V57_of m _ c main_v6 (by decide)).trans ((GenP.V56_of m _ c main_v6 (by decide)).trans (ones_27 m c))

theorem x_28 (c : Dev nD) : (GenP.V57 m (Vals.outs m) c main_arg0 : FVec F S100000x128 .f32) = Vals.X m c :=
  (GenP.V57_of m _ c main_arg0 (by decide)).trans ((GenP.V56_of m _ c main_arg0 (by decide)).trans (x_27 m c))

theorem wt_28 (c : Dev nD) : (GenP.V57 m (Vals.outs m) c main_arg2 : FVec F S128x128 .f32) = Vals.Wt m c :=
  (GenP.V57_of m _ c main_arg2 (by decide)).trans ((GenP.V56_of m _ c main_arg2 (by decide)).trans (wt_27 m c))

theorem agg_28 (c : Dev nD) : (GenP.V57 m (Vals.outs m) c main_v366 : FVec F S100000x128 .f32) = Vals.agg m 28 c := by
  have hs : (GenP.V56 m (Vals.outs m) c main_v353 : FVec F S100000x128 .f32) = Vals.agg m 27 c :=
    (GenP.V56_of m _ c main_v353 (by decide)).trans (agg_27 m c)
  have ht : (GenP.V56 m (Vals.outs m) c main_v359 : S50000.Idx → BitVec 32) = Vals.srcc m 27 c :=
    (GenP.V56_of m _ c main_v359 (by decide)).trans (tgt_27 m c)
  have hg : (GenP.V56 m (Vals.outs m) c main_v361 : FVec F S50000x1x128 .f32) = Vals.gath3 m 27 c :=
    (Function.update_self ..).trans (Vals.outs_27 m c)
  show StableHlo.after Gen.hostOps28 (GenP.V56 m (Vals.outs m) c) (Proc.devRef .tc main_v366) = _
  after_results_simp
  rw [hs, ht, hg]
  rfl

theorem deg_28 (c : Dev nD) : (GenP.V57 m (Vals.outs m) c main_v370 : FVec F S100000 .f32) = Vals.deg m 28 c := by
  have hs : (GenP.V56 m (Vals.outs m) c main_v357 : FVec F S100000 .f32) = Vals.deg m 27 c :=
    (GenP.V56_of m _ c main_v357 (by decide)).trans (deg_27 m c)
  have ht : (GenP.V56 m (Vals.outs m) c main_v359 : S50000.Idx → BitVec 32) = Vals.srcc m 27 c :=
    (GenP.V56_of m _ c main_v359 (by decide)).trans (tgt_27 m c)
  have ho : (GenP.V56 m (Vals.outs m) c main_v6 : FVec F S50000 .f32) = Vals.ones :=
    (GenP.V56_of m _ c main_v6 (by decide)).trans (ones_27 m c)
  show StableHlo.after Gen.hostOps28 (GenP.V56 m (Vals.outs m) c) (Proc.devRef .tc main_v370) = _
  after_results_simp
  rw [hs, ht, ho]
  rfl

theorem tbl_28 (c : Dev nD) : (GenP.V57 m (Vals.outs m) c main_v371 : S50000.Idx → BitVec 32) = Vals.dstc m 28 c := by
  have hd : (GenP.V56 m (Vals.outs m) c main_v3 : S1600000.Idx → BitVec 32) = Vals.dst m c :=
    (GenP.V56_of m _ c main_v3 (by decide)).trans (dst_27 m c)
  show StableHlo.after Gen.hostOps28 (GenP.V56 m (Vals.outs m) c) (Proc.devRef .tc main_v371) = _
  after_results_simp
  rw [hd, Vals.dstc, dif_pos (by decide : 28 < 32)] <;> rfl

theorem tgt_28 (c : Dev nD) : (GenP.V57 m (Vals.outs m) c main_v372 : S50000.Idx → BitVec 32) = Vals.srcc m 28 c := by
  have hd : (GenP.V56 m (Vals.outs m) c main_v1 : S1600000.Idx → BitVec 32) = Vals.src m c :=
    (GenP.V56_of m _ c main_v1 (by decide)).trans (src_27 m c)
  show StableHlo.after Gen.hostOps28 (GenP.V56 m (Vals.outs m) c) (Proc.devRef .tc main_v372) = _
  after_results_simp
  rw [hd, Vals.srcc, dif_pos (by decide : 28 < 32)] <;> rfl

theorem x3_28 (c : Dev nD) : (GenP.V57 m (Vals.outs m) c main_v373 : FVec F S100000x1x128 .f32) = Vals.X3 m c := by
  have hx : (GenP.V56 m (Vals.outs m) c main_arg0 : FVec F S100000x128 .f32) = Vals.X m c :=
    (GenP.V56_of m _ c main_arg0 (by decide)).trans (x_27 m c)
  show StableHlo.after Gen.hostOps28 (GenP.V56 m (Vals.outs m) c) (Proc.devRef .tc main_v373) = _
  after_results_simp
  rw [hx]
  rfl

/-! ## Boundary 59: after region 28 and the host stretch that adds chunk 28 -/

theorem src_29 (c : Dev nD) : (GenP.V59 m (Vals.outs m) c main_v1 : S1600000.Idx → BitVec 32) = Vals.src m c :=
  (GenP.V59_of m _ c main_v1 (by decide)).trans ((GenP.V58_of m _ c main_v1 (by decide)).trans (src_28 m c))

theorem dst_29 (c : Dev nD) : (GenP.V59 m (Vals.outs m) c main_v3 : S1600000.Idx → BitVec 32) = Vals.dst m c :=
  (GenP.V59_of m _ c main_v3 (by decide)).trans ((GenP.V58_of m _ c main_v3 (by decide)).trans (dst_28 m c))

theorem ones_29 (c : Dev nD) : (GenP.V59 m (Vals.outs m) c main_v6 : FVec F S50000 .f32) = Vals.ones :=
  (GenP.V59_of m _ c main_v6 (by decide)).trans ((GenP.V58_of m _ c main_v6 (by decide)).trans (ones_28 m c))

theorem x_29 (c : Dev nD) : (GenP.V59 m (Vals.outs m) c main_arg0 : FVec F S100000x128 .f32) = Vals.X m c :=
  (GenP.V59_of m _ c main_arg0 (by decide)).trans ((GenP.V58_of m _ c main_arg0 (by decide)).trans (x_28 m c))

theorem wt_29 (c : Dev nD) : (GenP.V59 m (Vals.outs m) c main_arg2 : FVec F S128x128 .f32) = Vals.Wt m c :=
  (GenP.V59_of m _ c main_arg2 (by decide)).trans ((GenP.V58_of m _ c main_arg2 (by decide)).trans (wt_28 m c))

theorem agg_29 (c : Dev nD) : (GenP.V59 m (Vals.outs m) c main_v379 : FVec F S100000x128 .f32) = Vals.agg m 29 c := by
  have hs : (GenP.V58 m (Vals.outs m) c main_v366 : FVec F S100000x128 .f32) = Vals.agg m 28 c :=
    (GenP.V58_of m _ c main_v366 (by decide)).trans (agg_28 m c)
  have ht : (GenP.V58 m (Vals.outs m) c main_v372 : S50000.Idx → BitVec 32) = Vals.srcc m 28 c :=
    (GenP.V58_of m _ c main_v372 (by decide)).trans (tgt_28 m c)
  have hg : (GenP.V58 m (Vals.outs m) c main_v374 : FVec F S50000x1x128 .f32) = Vals.gath3 m 28 c :=
    (Function.update_self ..).trans (Vals.outs_28 m c)
  show StableHlo.after Gen.hostOps29 (GenP.V58 m (Vals.outs m) c) (Proc.devRef .tc main_v379) = _
  after_results_simp
  rw [hs, ht, hg]
  rfl

theorem deg_29 (c : Dev nD) : (GenP.V59 m (Vals.outs m) c main_v383 : FVec F S100000 .f32) = Vals.deg m 29 c := by
  have hs : (GenP.V58 m (Vals.outs m) c main_v370 : FVec F S100000 .f32) = Vals.deg m 28 c :=
    (GenP.V58_of m _ c main_v370 (by decide)).trans (deg_28 m c)
  have ht : (GenP.V58 m (Vals.outs m) c main_v372 : S50000.Idx → BitVec 32) = Vals.srcc m 28 c :=
    (GenP.V58_of m _ c main_v372 (by decide)).trans (tgt_28 m c)
  have ho : (GenP.V58 m (Vals.outs m) c main_v6 : FVec F S50000 .f32) = Vals.ones :=
    (GenP.V58_of m _ c main_v6 (by decide)).trans (ones_28 m c)
  show StableHlo.after Gen.hostOps29 (GenP.V58 m (Vals.outs m) c) (Proc.devRef .tc main_v383) = _
  after_results_simp
  rw [hs, ht, ho]
  rfl

theorem tbl_29 (c : Dev nD) : (GenP.V59 m (Vals.outs m) c main_v384 : S50000.Idx → BitVec 32) = Vals.dstc m 29 c := by
  have hd : (GenP.V58 m (Vals.outs m) c main_v3 : S1600000.Idx → BitVec 32) = Vals.dst m c :=
    (GenP.V58_of m _ c main_v3 (by decide)).trans (dst_28 m c)
  show StableHlo.after Gen.hostOps29 (GenP.V58 m (Vals.outs m) c) (Proc.devRef .tc main_v384) = _
  after_results_simp
  rw [hd, Vals.dstc, dif_pos (by decide : 29 < 32)] <;> rfl

theorem tgt_29 (c : Dev nD) : (GenP.V59 m (Vals.outs m) c main_v385 : S50000.Idx → BitVec 32) = Vals.srcc m 29 c := by
  have hd : (GenP.V58 m (Vals.outs m) c main_v1 : S1600000.Idx → BitVec 32) = Vals.src m c :=
    (GenP.V58_of m _ c main_v1 (by decide)).trans (src_28 m c)
  show StableHlo.after Gen.hostOps29 (GenP.V58 m (Vals.outs m) c) (Proc.devRef .tc main_v385) = _
  after_results_simp
  rw [hd, Vals.srcc, dif_pos (by decide : 29 < 32)] <;> rfl

theorem x3_29 (c : Dev nD) : (GenP.V59 m (Vals.outs m) c main_v386 : FVec F S100000x1x128 .f32) = Vals.X3 m c := by
  have hx : (GenP.V58 m (Vals.outs m) c main_arg0 : FVec F S100000x128 .f32) = Vals.X m c :=
    (GenP.V58_of m _ c main_arg0 (by decide)).trans (x_28 m c)
  show StableHlo.after Gen.hostOps29 (GenP.V58 m (Vals.outs m) c) (Proc.devRef .tc main_v386) = _
  after_results_simp
  rw [hx]
  rfl

/-! ## Boundary 61: after region 29 and the host stretch that adds chunk 29 -/

theorem src_30 (c : Dev nD) : (GenP.V61 m (Vals.outs m) c main_v1 : S1600000.Idx → BitVec 32) = Vals.src m c :=
  (GenP.V61_of m _ c main_v1 (by decide)).trans ((GenP.V60_of m _ c main_v1 (by decide)).trans (src_29 m c))

theorem dst_30 (c : Dev nD) : (GenP.V61 m (Vals.outs m) c main_v3 : S1600000.Idx → BitVec 32) = Vals.dst m c :=
  (GenP.V61_of m _ c main_v3 (by decide)).trans ((GenP.V60_of m _ c main_v3 (by decide)).trans (dst_29 m c))

theorem ones_30 (c : Dev nD) : (GenP.V61 m (Vals.outs m) c main_v6 : FVec F S50000 .f32) = Vals.ones :=
  (GenP.V61_of m _ c main_v6 (by decide)).trans ((GenP.V60_of m _ c main_v6 (by decide)).trans (ones_29 m c))

theorem x_30 (c : Dev nD) : (GenP.V61 m (Vals.outs m) c main_arg0 : FVec F S100000x128 .f32) = Vals.X m c :=
  (GenP.V61_of m _ c main_arg0 (by decide)).trans ((GenP.V60_of m _ c main_arg0 (by decide)).trans (x_29 m c))

theorem wt_30 (c : Dev nD) : (GenP.V61 m (Vals.outs m) c main_arg2 : FVec F S128x128 .f32) = Vals.Wt m c :=
  (GenP.V61_of m _ c main_arg2 (by decide)).trans ((GenP.V60_of m _ c main_arg2 (by decide)).trans (wt_29 m c))

theorem agg_30 (c : Dev nD) : (GenP.V61 m (Vals.outs m) c main_v392 : FVec F S100000x128 .f32) = Vals.agg m 30 c := by
  have hs : (GenP.V60 m (Vals.outs m) c main_v379 : FVec F S100000x128 .f32) = Vals.agg m 29 c :=
    (GenP.V60_of m _ c main_v379 (by decide)).trans (agg_29 m c)
  have ht : (GenP.V60 m (Vals.outs m) c main_v385 : S50000.Idx → BitVec 32) = Vals.srcc m 29 c :=
    (GenP.V60_of m _ c main_v385 (by decide)).trans (tgt_29 m c)
  have hg : (GenP.V60 m (Vals.outs m) c main_v387 : FVec F S50000x1x128 .f32) = Vals.gath3 m 29 c :=
    (Function.update_self ..).trans (Vals.outs_29 m c)
  show StableHlo.after Gen.hostOps30 (GenP.V60 m (Vals.outs m) c) (Proc.devRef .tc main_v392) = _
  after_results_simp
  rw [hs, ht, hg]
  rfl

theorem deg_30 (c : Dev nD) : (GenP.V61 m (Vals.outs m) c main_v396 : FVec F S100000 .f32) = Vals.deg m 30 c := by
  have hs : (GenP.V60 m (Vals.outs m) c main_v383 : FVec F S100000 .f32) = Vals.deg m 29 c :=
    (GenP.V60_of m _ c main_v383 (by decide)).trans (deg_29 m c)
  have ht : (GenP.V60 m (Vals.outs m) c main_v385 : S50000.Idx → BitVec 32) = Vals.srcc m 29 c :=
    (GenP.V60_of m _ c main_v385 (by decide)).trans (tgt_29 m c)
  have ho : (GenP.V60 m (Vals.outs m) c main_v6 : FVec F S50000 .f32) = Vals.ones :=
    (GenP.V60_of m _ c main_v6 (by decide)).trans (ones_29 m c)
  show StableHlo.after Gen.hostOps30 (GenP.V60 m (Vals.outs m) c) (Proc.devRef .tc main_v396) = _
  after_results_simp
  rw [hs, ht, ho]
  rfl

theorem tbl_30 (c : Dev nD) : (GenP.V61 m (Vals.outs m) c main_v397 : S50000.Idx → BitVec 32) = Vals.dstc m 30 c := by
  have hd : (GenP.V60 m (Vals.outs m) c main_v3 : S1600000.Idx → BitVec 32) = Vals.dst m c :=
    (GenP.V60_of m _ c main_v3 (by decide)).trans (dst_29 m c)
  show StableHlo.after Gen.hostOps30 (GenP.V60 m (Vals.outs m) c) (Proc.devRef .tc main_v397) = _
  after_results_simp
  rw [hd, Vals.dstc, dif_pos (by decide : 30 < 32)] <;> rfl

theorem tgt_30 (c : Dev nD) : (GenP.V61 m (Vals.outs m) c main_v398 : S50000.Idx → BitVec 32) = Vals.srcc m 30 c := by
  have hd : (GenP.V60 m (Vals.outs m) c main_v1 : S1600000.Idx → BitVec 32) = Vals.src m c :=
    (GenP.V60_of m _ c main_v1 (by decide)).trans (src_29 m c)
  show StableHlo.after Gen.hostOps30 (GenP.V60 m (Vals.outs m) c) (Proc.devRef .tc main_v398) = _
  after_results_simp
  rw [hd, Vals.srcc, dif_pos (by decide : 30 < 32)] <;> rfl

theorem x3_30 (c : Dev nD) : (GenP.V61 m (Vals.outs m) c main_v399 : FVec F S100000x1x128 .f32) = Vals.X3 m c := by
  have hx : (GenP.V60 m (Vals.outs m) c main_arg0 : FVec F S100000x128 .f32) = Vals.X m c :=
    (GenP.V60_of m _ c main_arg0 (by decide)).trans (x_29 m c)
  show StableHlo.after Gen.hostOps30 (GenP.V60 m (Vals.outs m) c) (Proc.devRef .tc main_v399) = _
  after_results_simp
  rw [hx]
  rfl

/-! ## Boundary 63: after region 30 and the host stretch that adds chunk 30 -/

theorem src_31 (c : Dev nD) : (GenP.V63 m (Vals.outs m) c main_v1 : S1600000.Idx → BitVec 32) = Vals.src m c :=
  (GenP.V63_of m _ c main_v1 (by decide)).trans ((GenP.V62_of m _ c main_v1 (by decide)).trans (src_30 m c))

theorem dst_31 (c : Dev nD) : (GenP.V63 m (Vals.outs m) c main_v3 : S1600000.Idx → BitVec 32) = Vals.dst m c :=
  (GenP.V63_of m _ c main_v3 (by decide)).trans ((GenP.V62_of m _ c main_v3 (by decide)).trans (dst_30 m c))

theorem ones_31 (c : Dev nD) : (GenP.V63 m (Vals.outs m) c main_v6 : FVec F S50000 .f32) = Vals.ones :=
  (GenP.V63_of m _ c main_v6 (by decide)).trans ((GenP.V62_of m _ c main_v6 (by decide)).trans (ones_30 m c))

theorem x_31 (c : Dev nD) : (GenP.V63 m (Vals.outs m) c main_arg0 : FVec F S100000x128 .f32) = Vals.X m c :=
  (GenP.V63_of m _ c main_arg0 (by decide)).trans ((GenP.V62_of m _ c main_arg0 (by decide)).trans (x_30 m c))

theorem wt_31 (c : Dev nD) : (GenP.V63 m (Vals.outs m) c main_arg2 : FVec F S128x128 .f32) = Vals.Wt m c :=
  (GenP.V63_of m _ c main_arg2 (by decide)).trans ((GenP.V62_of m _ c main_arg2 (by decide)).trans (wt_30 m c))

theorem agg_31 (c : Dev nD) : (GenP.V63 m (Vals.outs m) c main_v405 : FVec F S100000x128 .f32) = Vals.agg m 31 c := by
  have hs : (GenP.V62 m (Vals.outs m) c main_v392 : FVec F S100000x128 .f32) = Vals.agg m 30 c :=
    (GenP.V62_of m _ c main_v392 (by decide)).trans (agg_30 m c)
  have ht : (GenP.V62 m (Vals.outs m) c main_v398 : S50000.Idx → BitVec 32) = Vals.srcc m 30 c :=
    (GenP.V62_of m _ c main_v398 (by decide)).trans (tgt_30 m c)
  have hg : (GenP.V62 m (Vals.outs m) c main_v400 : FVec F S50000x1x128 .f32) = Vals.gath3 m 30 c :=
    (Function.update_self ..).trans (Vals.outs_30 m c)
  show StableHlo.after Gen.hostOps31 (GenP.V62 m (Vals.outs m) c) (Proc.devRef .tc main_v405) = _
  after_results_simp
  rw [hs, ht, hg]
  rfl

theorem deg_31 (c : Dev nD) : (GenP.V63 m (Vals.outs m) c main_v409 : FVec F S100000 .f32) = Vals.deg m 31 c := by
  have hs : (GenP.V62 m (Vals.outs m) c main_v396 : FVec F S100000 .f32) = Vals.deg m 30 c :=
    (GenP.V62_of m _ c main_v396 (by decide)).trans (deg_30 m c)
  have ht : (GenP.V62 m (Vals.outs m) c main_v398 : S50000.Idx → BitVec 32) = Vals.srcc m 30 c :=
    (GenP.V62_of m _ c main_v398 (by decide)).trans (tgt_30 m c)
  have ho : (GenP.V62 m (Vals.outs m) c main_v6 : FVec F S50000 .f32) = Vals.ones :=
    (GenP.V62_of m _ c main_v6 (by decide)).trans (ones_30 m c)
  show StableHlo.after Gen.hostOps31 (GenP.V62 m (Vals.outs m) c) (Proc.devRef .tc main_v409) = _
  after_results_simp
  rw [hs, ht, ho]
  rfl

theorem tbl_31 (c : Dev nD) : (GenP.V63 m (Vals.outs m) c main_v410 : S50000.Idx → BitVec 32) = Vals.dstc m 31 c := by
  have hd : (GenP.V62 m (Vals.outs m) c main_v3 : S1600000.Idx → BitVec 32) = Vals.dst m c :=
    (GenP.V62_of m _ c main_v3 (by decide)).trans (dst_30 m c)
  show StableHlo.after Gen.hostOps31 (GenP.V62 m (Vals.outs m) c) (Proc.devRef .tc main_v410) = _
  after_results_simp
  rw [hd, Vals.dstc, dif_pos (by decide : 31 < 32)] <;> rfl

theorem tgt_31 (c : Dev nD) : (GenP.V63 m (Vals.outs m) c main_v411 : S50000.Idx → BitVec 32) = Vals.srcc m 31 c := by
  have hd : (GenP.V62 m (Vals.outs m) c main_v1 : S1600000.Idx → BitVec 32) = Vals.src m c :=
    (GenP.V62_of m _ c main_v1 (by decide)).trans (src_30 m c)
  show StableHlo.after Gen.hostOps31 (GenP.V62 m (Vals.outs m) c) (Proc.devRef .tc main_v411) = _
  after_results_simp
  rw [hd, Vals.srcc, dif_pos (by decide : 31 < 32)] <;> rfl

theorem x3_31 (c : Dev nD) : (GenP.V63 m (Vals.outs m) c main_v412 : FVec F S100000x1x128 .f32) = Vals.X3 m c := by
  have hx : (GenP.V62 m (Vals.outs m) c main_arg0 : FVec F S100000x128 .f32) = Vals.X m c :=
    (GenP.V62_of m _ c main_arg0 (by decide)).trans (x_30 m c)
  show StableHlo.after Gen.hostOps31 (GenP.V62 m (Vals.outs m) c) (Proc.devRef .tc main_v412) = _
  after_results_simp
  rw [hx]
  rfl

/-! ## Boundary 65: after region 31 and the last host stretch, which adds chunk 31 and lays the counts out as a column -/

theorem wt_32 (c : Dev nD) : (GenP.V65 m (Vals.outs m) c main_arg2 : FVec F S128x128 .f32) = Vals.Wt m c :=
  (GenP.V65_of m _ c main_arg2 (by decide)).trans ((GenP.V64_of m _ c main_arg2 (by decide)).trans (wt_31 m c))

theorem agg_32 (c : Dev nD) : (GenP.V65 m (Vals.outs m) c main_v418 : FVec F S100000x128 .f32) = Vals.agg m 32 c := by
  have hs : (GenP.V64 m (Vals.outs m) c main_v405 : FVec F S100000x128 .f32) = Vals.agg m 31 c :=
    (GenP.V64_of m _ c main_v405 (by decide)).trans (agg_31 m c)
  have ht : (GenP.V64 m (Vals.outs m) c main_v411 : S50000.Idx → BitVec 32) = Vals.srcc m 31 c :=
    (GenP.V64_of m _ c main_v411 (by decide)).trans (tgt_31 m c)
  have hg : (GenP.V64 m (Vals.outs m) c main_v413 : FVec F S50000x1x128 .f32) = Vals.gath3 m 31 c :=
    (Function.update_self ..).trans (Vals.outs_31 m c)
  show StableHlo.after Gen.hostOps32 (GenP.V64 m (Vals.outs m) c) (Proc.devRef .tc main_v418) = _
  after_results_simp
  rw [hs, ht, hg]
  rfl

theorem deg_32 (c : Dev nD) : (GenP.V65 m (Vals.outs m) c main_v422 : FVec F S100000 .f32) = Vals.deg m 32 c := by
  have hs : (GenP.V64 m (Vals.outs m) c main_v409 : FVec F S100000 .f32) = Vals.deg m 31 c :=
    (GenP.V64_of m _ c main_v409 (by decide)).trans (deg_31 m c)
  have ht : (GenP.V64 m (Vals.outs m) c main_v411 : S50000.Idx → BitVec 32) = Vals.srcc m 31 c :=
    (GenP.V64_of m _ c main_v411 (by decide)).trans (tgt_31 m c)
  have ho : (GenP.V64 m (Vals.outs m) c main_v6 : FVec F S50000 .f32) = Vals.ones :=
    (GenP.V64_of m _ c main_v6 (by decide)).trans (ones_31 m c)
  show StableHlo.after Gen.hostOps32 (GenP.V64 m (Vals.outs m) c) (Proc.devRef .tc main_v422) = _
  after_results_simp
  rw [hs, ht, ho]
  rfl

theorem degCol_32 (c : Dev nD) : (GenP.V65 m (Vals.outs m) c main_v423 : FVec F S100000x1 .f32) = Vals.degCol m c := by
  have hs : (GenP.V64 m (Vals.outs m) c main_v409 : FVec F S100000 .f32) = Vals.deg m 31 c :=
    (GenP.V64_of m _ c main_v409 (by decide)).trans (deg_31 m c)
  have ht : (GenP.V64 m (Vals.outs m) c main_v411 : S50000.Idx → BitVec 32) = Vals.srcc m 31 c :=
    (GenP.V64_of m _ c main_v411 (by decide)).trans (tgt_31 m c)
  have ho : (GenP.V64 m (Vals.outs m) c main_v6 : FVec F S50000 .f32) = Vals.ones :=
    (GenP.V64_of m _ c main_v6 (by decide)).trans (ones_31 m c)
  show StableHlo.after Gen.hostOps32 (GenP.V64 m (Vals.outs m) c) (Proc.devRef .tc main_v423) = _
  after_results_simp
  rw [hs, ht, ho]
  rfl

end Cert.Kernel.Inv

end
-- ==== Proof.K.S32.lean ====
/-
  The last kernel region (the mean and the product with the weights) as an item of the program's run: entered from "every
  unscoped buffer at the contents before it, the generator register at some state, nothing owed", left at the contents
  after it, its result array holding the result `Vals.out`. It prefetches no table: at entry its four arrays are split
  out of the unscoped buffers and at exit put back. What it leaves in the result array is the kernel's function of the
  sums, the counts column and the weights it is entered at, which the host stretches made the running sum, the counts and
  the weights argument.
-/
import proofs.«406793_j90890097918585_2_alg».proof.Proof.K.Data
import proofs.«406793_j90890097918585_2_alg».proof.Proof.K.MM
import proofs.«406793_j90890097918585_2_alg».proof.Proof.K.Inv

set_option maxRecDepth 16384

noncomputable section

namespace Cert.Kernel.S32

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region leaves the result in its output array. -/
theorem arr_out (c : Dev nD) : (MM.dat (Run.Ve32 m) c).arrAt 3 cfg32.N = Vals.out m c := by
  refine (MM.arrAt_3 (Run.Ve32 m) c).trans ?_
  have e1 : (Run.Ve32 m c main_v423 : FVec F S100000x1 .f32) = Vals.degCol m c := Inv.degCol_32 m c
  have e2 : (Run.Ve32 m c main_v418 : FVec F S100000x128 .f32) = Vals.agg m 32 c := Inv.agg_32 m c
  have e3 : (Run.Ve32 m c main_arg2 : FVec F S128x128 .f32) = Vals.Wt m c := Inv.wt_32 m c
  rw [e1, e2, e3]
  rfl

/-- After the region each of its arrays holds what the pipeline leaves: the three arrays read as entered, the output at the result. -/
theorem hF (c : Dev nD) (w : Fin cfg32.W) :
    (MM.dat (Run.Ve32 m) c).arrAt w cfg32.N = GenP.V66 m (Vals.outs m) c (Pipeline.arrRef spec32 w) := by
  match w with
  | ⟨0, _⟩ =>
    refine ((MM.dat (Run.Ve32 m) c).arrAt_in 0 rfl _).trans ((MM.A_eq (Run.Ve32 m) c 0).trans ?_)
    exact (GenP.V66_of m (Vals.outs m) c main_v418 (by decide)).symm
  | ⟨1, _⟩ =>
    refine ((MM.dat (Run.Ve32 m) c).arrAt_in 1 rfl _).trans ((MM.A_eq (Run.Ve32 m) c 1).trans ?_)
    exact (GenP.V66_of m (Vals.outs m) c main_v423 (by decide)).symm
  | ⟨2, _⟩ =>
    refine ((MM.dat (Run.Ve32 m) c).arrAt_in 2 rfl _).trans ((MM.A_eq (Run.Ve32 m) c 2).trans ?_)
    exact (GenP.V66_of m (Vals.outs m) c main_arg2 (by decide)).symm
  | ⟨3, _⟩ =>
    refine (arr_out m c).trans ?_
    show Vals.out m c = Function.update (GenP.V65 m (Vals.outs m) c) main_v424 (Vals.outs m 66 main_v424 c) main_v424
    rw [Function.update_self, Vals.outs_32]

/-- and every other buffer what it held at entry. -/
theorem hrest (c : Dev nD) : ∀ b, b ∉ Finset.univ.image (Pipeline.arrRef spec32) →
    (fun b : Ref sig .tc => GenP.V66 m (Vals.outs m) c b) b = Run.Ve32 m c b := fun b hb =>
  GenP.V66_of m (Vals.outs m) c b (by
    intro hmem
    rw [List.mem_singleton] at hmem
    exact hb (Finset.mem_image.mpr ⟨3, Finset.mem_univ _, hmem.symm⟩))

set_option maxHeartbeats 4000000 in
set_option backward.isDefEq.respectTransparency.types false in
/-- THE LAST REGION over the thread state. -/
def reg : Pipeline.RegionSeg (pcfgs (F := F)) (Run.a m h) (Run.pdats m h) () defs₀ Run.𝒱₀ Run.L Run.lv (32 : Fin 33) where
  win := (launch32 (F := F)).win.to₀
  block_pos := (launch32 (F := F)).block_pos
  stage_whole := (launch32 (F := F)).stage_whole
  K := PEmpty
  osem k := k.elim
  ho := Pipeline.OwnSemFacts.none _
  hbody c := (MM.body_obligation (Run.Ve32 m) c).loose
  hwaits := Pipeline.hwaits_of_owed_zero _ _ _ _ Run.L Run.lv (32 : Fin 33) fun _ _ => rfl
  pre c := iprop(StableHlo.held (c : Thread nD τ) (Pipeline.ucRefs τ sig) (GenP.V65 m (Vals.outs m) c) ∗ Run.R c)
  post c := iprop(StableHlo.held (c : Thread nD τ) (Pipeline.ucRefs τ sig) (GenP.V66 m (Vals.outs m) c) ∗ Run.R c)
  X c := iprop(∃ r, prngReg c r)
  Y c := iprop(∃ r, prngReg c r)
  Z c := Pipeline.unscopedRest (Ix := Unit) (Name := ℕ) (U := UR sig nD τ) (Lvl := ℕ) spec32 c (Run.Ve32 m c)
  hentry c := by
    rw [Pipeline.ownSems0_none]
    have hsplit := Pipeline.arrays_of_unscopedBufs (p := (32 : Fin 33)) (pcfgs (F := F)) (Run.a m h) (Run.pdats m h) (launch32 (F := F)).win (launch32 (F := F)).arr_whole c
      ((Run.pdats m h (32 : Fin 33) c).share_full fun _ => rfl) (Run.Ve32 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (32 : Fin 33) c).Φ 0 = Pipeline.ΦA spec32 c from rfl]; unfold Pipeline.ΦA
    iintro ⟨Hp, -, Hr⟩
    isplitl [Hr]; · iexact Hr
    iexact Hp
  hout c := by
    rw [Pipeline.ownSems0_none, show (Run.pdats m h (32 : Fin 33) c).Φ (Fin.last _) = Pipeline.ΦA spec32 c from rfl]; unfold Pipeline.ΦA
    iintro ⟨Hr, Hp⟩
    isplitl [Hp]; · iexact Hp
    isplitr; · iempintro
    iexact Hr
  hexit c := by
    have hjoin := Pipeline.unscopedBufs_of_arrays (p := (32 : Fin 33)) (pcfgs (F := F)) (Run.a m h) (Ix := Unit) (Name := ℕ) (U := UR sig nD τ) (Lvl := ℕ)
      (launch32 (F := F)).win (launch32 (F := F)).arr_whole c (Run.pdats m h) ((Run.pdats m h (32 : Fin 33) c).share_full fun _ => rfl)
      (Run.Ve32 m c) (fun b => GenP.V66 m (Vals.outs m) c b) ((Run.pdats m h (32 : Fin 33) c).arrAt · cfg32.N) (hF m c) (hrest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.S32

end
-- ==== Proof.PreIdx.lean ====
/-
  What the precondition says of the edge list: every word of row 1 (the row of X an edge carries) is a row index, 0 ≤ w < 100000.
-/
import proofs.«406793_j90890097918585_2_alg».proof.Pre_finite_inputs
import proofs.«406793_j90890097918585_2_alg».proof.Proof.Gen.Pre_finite_inputs
import Idealize.ShloMosaic.Lib.ValueIdx
import Idealize.ShloMosaic.Lib.ReduceAll

noncomputable section

namespace Cert.PreIdx

open Idealize.ShloMosaic

variable {F : FTy → Type} [FloatOps F]

attribute [local instance] Cert.Pre_finite_inputs.Gen.facts

/-- A signed word in [0, 100000) is below 100000 as a natural number. -/
theorem toNat_lt_of_signed (v : BitVec 32) (h0 : IntOp.cmpi .sge v (0#32) = 1#1) (h1 : IntOp.cmpi .slt v (100000#32) = 1#1) :
    v.toNat < 100000 := by
  rw [IntOp.cmpi_sge] at h0
  rw [IntOp.cmpi_slt] at h1
  have e0 : (0#32).toInt = 0 := by decide
  have e1 : (100000#32).toInt = 100000 := by decide
  rw [e0] at h0; rw [e1] at h1
  rw [BitVec.toInt_eq_toNat_cond] at h0 h1
  have := v.isLt
  split at h0 <;> omega

/-- Row 1 of the edge list, sliced out and flattened, read at e is the edge list at (1, e). -/
theorem row1_apply (A : IVec Cert.Pre_finite_inputs.S2x1600000 32)
    (hs : Cert.Pre_finite_inputs.S2x1600000.Slices ![1, 0] Cert.Pre_finite_inputs.S1x1600000)
    (hc : Cert.Pre_finite_inputs.S1x1600000.ShapeCasts Cert.Pre_finite_inputs.S1600000) (e : Fin 1600000) :
    shapeCast Cert.Pre_finite_inputs.S1600000 (extractStridedSlice Cert.Pre_finite_inputs.S1x1600000 ![1, 0] A hs) hc (ValueIdx.ix1 e)
      = A (ValueIdx.ix2 (1 : Fin 2) e) := by
  unfold shapeCast
  rw [Shape.reshapeEquiv_eq_of_rowMajor hc (y := ValueIdx.ix2 (0 : Fin 1) e) ?_]
  · unfold extractStridedSlice
    refine congrArg A (funext fun a => Fin.ext ?_)
    match a with
    | ⟨0, _⟩ => rfl
    | ⟨1, _⟩ => exact Nat.zero_add e.val
  · rw [Shape.rowMajor_val_two, Shape.rowMajor_val_one]
    show 0 * _ + e.val = e.val
    omega

/-- Under the precondition every word of the edge list's row 1 is below 100000 as a natural number (it is a signed word in [0, 100000)). -/
theorem dst_lt (x : FVec F Cert.Pre_finite_inputs.S100000x128 .f32) (A : IVec Cert.Pre_finite_inputs.S2x1600000 32) (w : FVec F Cert.Pre_finite_inputs.S128x128 .f32)
    (h : Cert.Pre_finite_inputs.fn (F := F) x A w = fun _ => 1#1) (e : Fin 1600000) :
    (A (ValueIdx.ix2 (1 : Fin 2) e)).toNat < 100000 := by
  have h1 := congrFun h ValueIdx.ix0
  unfold Cert.Pre_finite_inputs.fn Cert.Pre_finite_inputs.fn_part1 at h1
  dsimp only at h1
  have h2 := (IntOp.andi_eq_one.1 h1).2
  haveI : Subsingleton Cert.Pre_finite_inputs.S_.Idx := ⟨fun a b => funext fun d => d.elim0⟩
  have h3 := Host.reduce_andi_all _ _ _ _ _ h2 (ValueIdx.ix1 e)
  obtain ⟨ha, hb⟩ := IntOp.andi_eq_one.1 h3
  rw [← row1_apply A Cert.Pre_finite_inputs.Facts.slices_S2x1600000_S1x1600000_1_0 Cert.Pre_finite_inputs.Facts.shapeCasts_S1x1600000_S1600000 e]
  exact toNat_lt_of_signed _ ha hb

end Cert.PreIdx

end
-- ==== Proof.K.Ok.lean ====
/-
  The gather regions' tables are admissible under the precondition: every word of chunk p's table is a row index below
  100000, so at every grid point the input window's block (row `tb[t]` of the [100000, 1, 128] array) lies inside it.
-/
import proofs.«406793_j90890097918585_2_alg».proof.Proof.K.Vals
import proofs.«406793_j90890097918585_2_alg».proof.Proof.PreIdx

noncomputable section

namespace Cert.Kernel.Ok

open Cert.Kernel Idealize.ShloMosaic Idealize.ShloMosaic.TcCoe Idealize.SL.Sem

variable {F : FTy → Type} [FloatOps F]

attribute [local instance] Cert.Pre_finite_inputs.Gen.facts

/-- Under the precondition every word of chunk `p`'s table is below 100000. -/
theorem dstc_lt (m : (ℓ : Loc nD τ sig) → Buf (Elt F) ℓ)
    (hpre : ∀ c : Dev nD, Cert.Pre_finite_inputs.fn (F := F) (Vals.X m c) (Vals.Adj m c) (Vals.Wt m c) = fun _ => 1#1)
    (p : ℕ) (c : Dev nD) (i : S50000.Idx) : (Vals.dstc m p c i).toNat < 100000 := by
  unfold Vals.dstc
  split
  · next hp =>
    have hi : (i 0).val < 50000 := (i 0).isLt
    have hlt : 50000 * p + (i 0).val < 1600000 := by omega
    have e1 : extractStridedSlice S50000 ![50000 * p] (Vals.dst m c) (Vals.chunk_slices p hp) i
        = Vals.dst m c (ValueIdx.ix1 (⟨50000 * p + (i 0).val, hlt⟩ : Fin 1600000)) := by
      unfold extractStridedSlice
      refine congrArg (Vals.dst m c) (funext fun a => Fin.ext ?_)
      match a with
      | ⟨0, _⟩ => rfl
    rw [e1]
    unfold Vals.dst
    rw [Cert.PreIdx.row1_apply]
    exact Cert.PreIdx.dst_lt _ _ _ (hpre c) _
  · show (0#32).toNat < 100000
    decide

/-- Region 0's side condition on its table's contents, from the range of the table's words. -/
theorem ok0_of (tb : pre0.Contents (Elt F)) (h : ∀ i : S50000.Idx, ((tb 0 : S50000.Idx → BitVec 32) i).toNat < 100000) : ok0 (F := F) tb := by
  unfold ok0
  intro i
  refine ⟨?_, Or.inl rfl⟩
  intro a
  unfold cc0_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

-- GENERATED below this line by `node scripts/gen_ok.js KernelIdeal` from the text of ok0_of above: the same lemma for regions 1 to 31

/-- Region 1's side condition on its table's contents, from the range of the table's words. -/
theorem ok1_of (tb : pre1.Contents (Elt F)) (h : ∀ i : S50000.Idx, ((tb 0 : S50000.Idx → BitVec 32) i).toNat < 100000) : ok1 (F := F) tb := by
  unfold ok1
  intro i
  refine ⟨?_, Or.inl rfl⟩
  intro a
  unfold cc1_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 2's side condition on its table's contents, from the range of the table's words. -/
theorem ok2_of (tb : pre2.Contents (Elt F)) (h : ∀ i : S50000.Idx, ((tb 0 : S50000.Idx → BitVec 32) i).toNat < 100000) : ok2 (F := F) tb := by
  unfold ok2
  intro i
  refine ⟨?_, Or.inl rfl⟩
  intro a
  unfold cc2_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 3's side condition on its table's contents, from the range of the table's words. -/
theorem ok3_of (tb : pre3.Contents (Elt F)) (h : ∀ i : S50000.Idx, ((tb 0 : S50000.Idx → BitVec 32) i).toNat < 100000) : ok3 (F := F) tb := by
  unfold ok3
  intro i
  refine ⟨?_, Or.inl rfl⟩
  intro a
  unfold cc3_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 4's side condition on its table's contents, from the range of the table's words. -/
theorem ok4_of (tb : pre4.Contents (Elt F)) (h : ∀ i : S50000.Idx, ((tb 0 : S50000.Idx → BitVec 32) i).toNat < 100000) : ok4 (F := F) tb := by
  unfold ok4
  intro i
  refine ⟨?_, Or.inl rfl⟩
  intro a
  unfold cc4_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 5's side condition on its table's contents, from the range of the table's words. -/
theorem ok5_of (tb : pre5.Contents (Elt F)) (h : ∀ i : S50000.Idx, ((tb 0 : S50000.Idx → BitVec 32) i).toNat < 100000) : ok5 (F := F) tb := by
  unfold ok5
  intro i
  refine ⟨?_, Or.inl rfl⟩
  intro a
  unfold cc5_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 6's side condition on its table's contents, from the range of the table's words. -/
theorem ok6_of (tb : pre6.Contents (Elt F)) (h : ∀ i : S50000.Idx, ((tb 0 : S50000.Idx → BitVec 32) i).toNat < 100000) : ok6 (F := F) tb := by
  unfold ok6
  intro i
  refine ⟨?_, Or.inl rfl⟩
  intro a
  unfold cc6_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 7's side condition on its table's contents, from the range of the table's words. -/
theorem ok7_of (tb : pre7.Contents (Elt F)) (h : ∀ i : S50000.Idx, ((tb 0 : S50000.Idx → BitVec 32) i).toNat < 100000) : ok7 (F := F) tb := by
  unfold ok7
  intro i
  refine ⟨?_, Or.inl rfl⟩
  intro a
  unfold cc7_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 8's side condition on its table's contents, from the range of the table's words. -/
theorem ok8_of (tb : pre8.Contents (Elt F)) (h : ∀ i : S50000.Idx, ((tb 0 : S50000.Idx → BitVec 32) i).toNat < 100000) : ok8 (F := F) tb := by
  unfold ok8
  intro i
  refine ⟨?_, Or.inl rfl⟩
  intro a
  unfold cc8_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 9's side condition on its table's contents, from the range of the table's words. -/
theorem ok9_of (tb : pre9.Contents (Elt F)) (h : ∀ i : S50000.Idx, ((tb 0 : S50000.Idx → BitVec 32) i).toNat < 100000) : ok9 (F := F) tb := by
  unfold ok9
  intro i
  refine ⟨?_, Or.inl rfl⟩
  intro a
  unfold cc9_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 10's side condition on its table's contents, from the range of the table's words. -/
theorem ok10_of (tb : pre10.Contents (Elt F)) (h : ∀ i : S50000.Idx, ((tb 0 : S50000.Idx → BitVec 32) i).toNat < 100000) : ok10 (F := F) tb := by
  unfold ok10
  intro i
  refine ⟨?_, Or.inl rfl⟩
  intro a
  unfold cc10_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 11's side condition on its table's contents, from the range of the table's words. -/
theorem ok11_of (tb : pre11.Contents (Elt F)) (h : ∀ i : S50000.Idx, ((tb 0 : S50000.Idx → BitVec 32) i).toNat < 100000) : ok11 (F := F) tb := by
  unfold ok11
  intro i
  refine ⟨?_, Or.inl rfl⟩
  intro a
  unfold cc11_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 12's side condition on its table's contents, from the range of the table's words. -/
theorem ok12_of (tb : pre12.Contents (Elt F)) (h : ∀ i : S50000.Idx, ((tb 0 : S50000.Idx → BitVec 32) i).toNat < 100000) : ok12 (F := F) tb := by
  unfold ok12
  intro i
  refine ⟨?_, Or.inl rfl⟩
  intro a
  unfold cc12_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 13's side condition on its table's contents, from the range of the table's words. -/
theorem ok13_of (tb : pre13.Contents (Elt F)) (h : ∀ i : S50000.Idx, ((tb 0 : S50000.Idx → BitVec 32) i).toNat < 100000) : ok13 (F := F) tb := by
  unfold ok13
  intro i
  refine ⟨?_, Or.inl rfl⟩
  intro a
  unfold cc13_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 14's side condition on its table's contents, from the range of the table's words. -/
theorem ok14_of (tb : pre14.Contents (Elt F)) (h : ∀ i : S50000.Idx, ((tb 0 : S50000.Idx → BitVec 32) i).toNat < 100000) : ok14 (F := F) tb := by
  unfold ok14
  intro i
  refine ⟨?_, Or.inl rfl⟩
  intro a
  unfold cc14_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 15's side condition on its table's contents, from the range of the table's words. -/
theorem ok15_of (tb : pre15.Contents (Elt F)) (h : ∀ i : S50000.Idx, ((tb 0 : S50000.Idx → BitVec 32) i).toNat < 100000) : ok15 (F := F) tb := by
  unfold ok15
  intro i
  refine ⟨?_, Or.inl rfl⟩
  intro a
  unfold cc15_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 16's side condition on its table's contents, from the range of the table's words. -/
theorem ok16_of (tb : pre16.Contents (Elt F)) (h : ∀ i : S50000.Idx, ((tb 0 : S50000.Idx → BitVec 32) i).toNat < 100000) : ok16 (F := F) tb := by
  unfold ok16
  intro i
  refine ⟨?_, Or.inl rfl⟩
  intro a
  unfold cc16_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 17's side condition on its table's contents, from the range of the table's words. -/
theorem ok17_of (tb : pre17.Contents (Elt F)) (h : ∀ i : S50000.Idx, ((tb 0 : S50000.Idx → BitVec 32) i).toNat < 100000) : ok17 (F := F) tb := by
  unfold ok17
  intro i
  refine ⟨?_, Or.inl rfl⟩
  intro a
  unfold cc17_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 18's side condition on its table's contents, from the range of the table's words. -/
theorem ok18_of (tb : pre18.Contents (Elt F)) (h : ∀ i : S50000.Idx, ((tb 0 : S50000.Idx → BitVec 32) i).toNat < 100000) : ok18 (F := F) tb := by
  unfold ok18
  intro i
  refine ⟨?_, Or.inl rfl⟩
  intro a
  unfold cc18_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 19's side condition on its table's contents, from the range of the table's words. -/
theorem ok19_of (tb : pre19.Contents (Elt F)) (h : ∀ i : S50000.Idx, ((tb 0 : S50000.Idx → BitVec 32) i).toNat < 100000) : ok19 (F := F) tb := by
  unfold ok19
  intro i
  refine ⟨?_, Or.inl rfl⟩
  intro a
  unfold cc19_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 20's side condition on its table's contents, from the range of the table's words. -/
theorem ok20_of (tb : pre20.Contents (Elt F)) (h : ∀ i : S50000.Idx, ((tb 0 : S50000.Idx → BitVec 32) i).toNat < 100000) : ok20 (F := F) tb := by
  unfold ok20
  intro i
  refine ⟨?_, Or.inl rfl⟩
  intro a
  unfold cc20_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 21's side condition on its table's contents, from the range of the table's words. -/
theorem ok21_of (tb : pre21.Contents (Elt F)) (h : ∀ i : S50000.Idx, ((tb 0 : S50000.Idx → BitVec 32) i).toNat < 100000) : ok21 (F := F) tb := by
  unfold ok21
  intro i
  refine ⟨?_, Or.inl rfl⟩
  intro a
  unfold cc21_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 22's side condition on its table's contents, from the range of the table's words. -/
theorem ok22_of (tb : pre22.Contents (Elt F)) (h : ∀ i : S50000.Idx, ((tb 0 : S50000.Idx → BitVec 32) i).toNat < 100000) : ok22 (F := F) tb := by
  unfold ok22
  intro i
  refine ⟨?_, Or.inl rfl⟩
  intro a
  unfold cc22_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 23's side condition on its table's contents, from the range of the table's words. -/
theorem ok23_of (tb : pre23.Contents (Elt F)) (h : ∀ i : S50000.Idx, ((tb 0 : S50000.Idx → BitVec 32) i).toNat < 100000) : ok23 (F := F) tb := by
  unfold ok23
  intro i
  refine ⟨?_, Or.inl rfl⟩
  intro a
  unfold cc23_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 24's side condition on its table's contents, from the range of the table's words. -/
theorem ok24_of (tb : pre24.Contents (Elt F)) (h : ∀ i : S50000.Idx, ((tb 0 : S50000.Idx → BitVec 32) i).toNat < 100000) : ok24 (F := F) tb := by
  unfold ok24
  intro i
  refine ⟨?_, Or.inl rfl⟩
  intro a
  unfold cc24_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 25's side condition on its table's contents, from the range of the table's words. -/
theorem ok25_of (tb : pre25.Contents (Elt F)) (h : ∀ i : S50000.Idx, ((tb 0 : S50000.Idx → BitVec 32) i).toNat < 100000) : ok25 (F := F) tb := by
  unfold ok25
  intro i
  refine ⟨?_, Or.inl rfl⟩
  intro a
  unfold cc25_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 26's side condition on its table's contents, from the range of the table's words. -/
theorem ok26_of (tb : pre26.Contents (Elt F)) (h : ∀ i : S50000.Idx, ((tb 0 : S50000.Idx → BitVec 32) i).toNat < 100000) : ok26 (F := F) tb := by
  unfold ok26
  intro i
  refine ⟨?_, Or.inl rfl⟩
  intro a
  unfold cc26_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 27's side condition on its table's contents, from the range of the table's words. -/
theorem ok27_of (tb : pre27.Contents (Elt F)) (h : ∀ i : S50000.Idx, ((tb 0 : S50000.Idx → BitVec 32) i).toNat < 100000) : ok27 (F := F) tb := by
  unfold ok27
  intro i
  refine ⟨?_, Or.inl rfl⟩
  intro a
  unfold cc27_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 28's side condition on its table's contents, from the range of the table's words. -/
theorem ok28_of (tb : pre28.Contents (Elt F)) (h : ∀ i : S50000.Idx, ((tb 0 : S50000.Idx → BitVec 32) i).toNat < 100000) : ok28 (F := F) tb := by
  unfold ok28
  intro i
  refine ⟨?_, Or.inl rfl⟩
  intro a
  unfold cc28_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 29's side condition on its table's contents, from the range of the table's words. -/
theorem ok29_of (tb : pre29.Contents (Elt F)) (h : ∀ i : S50000.Idx, ((tb 0 : S50000.Idx → BitVec 32) i).toNat < 100000) : ok29 (F := F) tb := by
  unfold ok29
  intro i
  refine ⟨?_, Or.inl rfl⟩
  intro a
  unfold cc29_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 30's side condition on its table's contents, from the range of the table's words. -/
theorem ok30_of (tb : pre30.Contents (Elt F)) (h : ∀ i : S50000.Idx, ((tb 0 : S50000.Idx → BitVec 32) i).toNat < 100000) : ok30 (F := F) tb := by
  unfold ok30
  intro i
  refine ⟨?_, Or.inl rfl⟩
  intro a
  unfold cc30_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 31's side condition on its table's contents, from the range of the table's words. -/
theorem ok31_of (tb : pre31.Contents (Elt F)) (h : ∀ i : S50000.Idx, ((tb 0 : S50000.Idx → BitVec 32) i).toNat < 100000) : ok31 (F := F) tb := by
  unfold ok31
  intro i
  refine ⟨?_, Or.inl rfl⟩
  intro a
  unfold cc31_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

end Cert.Kernel.Ok

end
-- ==== Proof.K.Run.lean ====
/- The program's run. Under the precondition every index table's words are row indices, so every table is admissible
   (`hyp`); each gather region leaves the gathered rows of its chunk (`harr p`: the region's output array from its blocks, with the
   array read and the table as the host stretches left them); the conditional launch then gives the frame (`frame`)
   and the run with the result array named (`value`): the ghost state is the pipeline library's alone, every core carries
   the generator register and owes nothing, and each region record is entered and left at the conditional frame's own
   thread states. -/
import proofs.«406793_j90890097918585_2_alg».proof.Proof.K.S0
import proofs.«406793_j90890097918585_2_alg».proof.Proof.K.G0V
import proofs.«406793_j90890097918585_2_alg».proof.Proof.K.S1
import proofs.«406793_j90890097918585_2_alg».proof.Proof.K.G1V
import proofs.«406793_j90890097918585_2_alg».proof.Proof.K.S2
import proofs.«406793_j90890097918585_2_alg».proof.Proof.K.G2V
import proofs.«406793_j90890097918585_2_alg».proof.Proof.K.S3
import proofs.«406793_j90890097918585_2_alg».proof.Proof.K.G3V
import proofs.«406793_j90890097918585_2_alg».proof.Proof.K.S4
import proofs.«406793_j90890097918585_2_alg».proof.Proof.K.G4V
import proofs.«406793_j90890097918585_2_alg».proof.Proof.K.S5
import proofs.«406793_j90890097918585_2_alg».proof.Proof.K.G5V
import proofs.«406793_j90890097918585_2_alg».proof.Proof.K.S6
import proofs.«406793_j90890097918585_2_alg».proof.Proof.K.G6V
import proofs.«406793_j90890097918585_2_alg».proof.Proof.K.S7
import proofs.«406793_j90890097918585_2_alg».proof.Proof.K.G7V
import proofs.«406793_j90890097918585_2_alg».proof.Proof.K.S8
import proofs.«406793_j90890097918585_2_alg».proof.Proof.K.G8V
import proofs.«406793_j90890097918585_2_alg».proof.Proof.K.S9
import proofs.«406793_j90890097918585_2_alg».proof.Proof.K.G9V
import proofs.«406793_j90890097918585_2_alg».proof.Proof.K.S10
import proofs.«406793_j90890097918585_2_alg».proof.Proof.K.G10V
import proofs.«406793_j90890097918585_2_alg».proof.Proof.K.S11
import proofs.«406793_j90890097918585_2_alg».proof.Proof.K.G11V
import proofs.«406793_j90890097918585_2_alg».proof.Proof.K.S12
import proofs.«406793_j90890097918585_2_alg».proof.Proof.K.G12V
import proofs.«406793_j90890097918585_2_alg».proof.Proof.K.S13
import proofs.«406793_j90890097918585_2_alg».proof.Proof.K.G13V
import proofs.«406793_j90890097918585_2_alg».proof.Proof.K.S14
import proofs.«406793_j90890097918585_2_alg».proof.Proof.K.G14V
import proofs.«406793_j90890097918585_2_alg».proof.Proof.K.S15
import proofs.«406793_j90890097918585_2_alg».proof.Proof.K.G15V
import proofs.«406793_j90890097918585_2_alg».proof.Proof.K.S16
import proofs.«406793_j90890097918585_2_alg».proof.Proof.K.G16V
import proofs.«406793_j90890097918585_2_alg».proof.Proof.K.S17
import proofs.«406793_j90890097918585_2_alg».proof.Proof.K.G17V
import proofs.«406793_j90890097918585_2_alg».proof.Proof.K.S18
import proofs.«406793_j90890097918585_2_alg».proof.Proof.K.G18V
import proofs.«406793_j90890097918585_2_alg».proof.Proof.K.S19
import proofs.«406793_j90890097918585_2_alg».proof.Proof.K.G19V
import proofs.«406793_j90890097918585_2_alg».proof.Proof.K.S20
import proofs.«406793_j90890097918585_2_alg».proof.Proof.K.G20V
import proofs.«406793_j90890097918585_2_alg».proof.Proof.K.S21
import proofs.«406793_j90890097918585_2_alg».proof.Proof.K.G21V
import proofs.«406793_j90890097918585_2_alg».proof.Proof.K.S22
import proofs.«406793_j90890097918585_2_alg».proof.Proof.K.G22V
import proofs.«406793_j90890097918585_2_alg».proof.Proof.K.S23
import proofs.«406793_j90890097918585_2_alg».proof.Proof.K.G23V
import proofs.«406793_j90890097918585_2_alg».proof.Proof.K.S24
import proofs.«406793_j90890097918585_2_alg».proof.Proof.K.G24V
import proofs.«406793_j90890097918585_2_alg».proof.Proof.K.S25
import proofs.«406793_j90890097918585_2_alg».proof.Proof.K.G25V
import proofs.«406793_j90890097918585_2_alg».proof.Proof.K.S26
import proofs.«406793_j90890097918585_2_alg».proof.Proof.K.G26V
import proofs.«406793_j90890097918585_2_alg».proof.Proof.K.S27
import proofs.«406793_j90890097918585_2_alg».proof.Proof.K.G27V
import proofs.«406793_j90890097918585_2_alg».proof.Proof.K.S28
import proofs.«406793_j90890097918585_2_alg».proof.Proof.K.G28V
import proofs.«406793_j90890097918585_2_alg».proof.Proof.K.S29
import proofs.«406793_j90890097918585_2_alg».proof.Proof.K.G29V
import proofs.«406793_j90890097918585_2_alg».proof.Proof.K.S30
import proofs.«406793_j90890097918585_2_alg».proof.Proof.K.G30V
import proofs.«406793_j90890097918585_2_alg».proof.Proof.K.S31
import proofs.«406793_j90890097918585_2_alg».proof.Proof.K.G31V
import proofs.«406793_j90890097918585_2_alg».proof.Proof.K.S32
import proofs.«406793_j90890097918585_2_alg».proof.Proof.K.Inv
import proofs.«406793_j90890097918585_2_alg».proof.Proof.K.Ok

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

attribute [local instance] Cert.Pre_finite_inputs.Gen.facts

variable (m : (ℓ : Loc nD τ sig) → Buf (Elt F) ℓ)
variable (hpre : ∀ c : Dev nD, Cert.Pre_finite_inputs.fn (F := F) (Vals.X m c) (Vals.Adj m c) (Vals.Wt m c) = fun _ => 1#1)
include hpre

/-! ## Every table's words are row indices -/

theorem tbl0_lt (i : S50000.Idx) : ((tbl0 m 0 : S50000.Idx → BitVec 32) i).toNat < 100000 := by
  have e : (tbl0 m 0 : S50000.Idx → BitVec 32) = Vals.dstc m 0 0 := Inv.tbl_0 m 0
  rw [e]; exact Ok.dstc_lt m hpre 0 0 i
theorem tbl1_lt (i : S50000.Idx) : ((tbl1 m 0 : S50000.Idx → BitVec 32) i).toNat < 100000 := by
  have e : (tbl1 m 0 : S50000.Idx → BitVec 32) = Vals.dstc m 1 0 := Inv.tbl_1 m 0
  rw [e]; exact Ok.dstc_lt m hpre 1 0 i
theorem tbl2_lt (i : S50000.Idx) : ((tbl2 m 0 : S50000.Idx → BitVec 32) i).toNat < 100000 := by
  have e : (tbl2 m 0 : S50000.Idx → BitVec 32) = Vals.dstc m 2 0 := Inv.tbl_2 m 0
  rw [e]; exact Ok.dstc_lt m hpre 2 0 i
theorem tbl3_lt (i : S50000.Idx) : ((tbl3 m 0 : S50000.Idx → BitVec 32) i).toNat < 100000 := by
  have e : (tbl3 m 0 : S50000.Idx → BitVec 32) = Vals.dstc m 3 0 := Inv.tbl_3 m 0
  rw [e]; exact Ok.dstc_lt m hpre 3 0 i
theorem tbl4_lt (i : S50000.Idx) : ((tbl4 m 0 : S50000.Idx → BitVec 32) i).toNat < 100000 := by
  have e : (tbl4 m 0 : S50000.Idx → BitVec 32) = Vals.dstc m 4 0 := Inv.tbl_4 m 0
  rw [e]; exact Ok.dstc_lt m hpre 4 0 i
theorem tbl5_lt (i : S50000.Idx) : ((tbl5 m 0 : S50000.Idx → BitVec 32) i).toNat < 100000 := by
  have e : (tbl5 m 0 : S50000.Idx → BitVec 32) = Vals.dstc m 5 0 := Inv.tbl_5 m 0
  rw [e]; exact Ok.dstc_lt m hpre 5 0 i
theorem tbl6_lt (i : S50000.Idx) : ((tbl6 m 0 : S50000.Idx → BitVec 32) i).toNat < 100000 := by
  have e : (tbl6 m 0 : S50000.Idx → BitVec 32) = Vals.dstc m 6 0 := Inv.tbl_6 m 0
  rw [e]; exact Ok.dstc_lt m hpre 6 0 i
theorem tbl7_lt (i : S50000.Idx) : ((tbl7 m 0 : S50000.Idx → BitVec 32) i).toNat < 100000 := by
  have e : (tbl7 m 0 : S50000.Idx → BitVec 32) = Vals.dstc m 7 0 := Inv.tbl_7 m 0
  rw [e]; exact Ok.dstc_lt m hpre 7 0 i
theorem tbl8_lt (i : S50000.Idx) : ((tbl8 m 0 : S50000.Idx → BitVec 32) i).toNat < 100000 := by
  have e : (tbl8 m 0 : S50000.Idx → BitVec 32) = Vals.dstc m 8 0 := Inv.tbl_8 m 0
  rw [e]; exact Ok.dstc_lt m hpre 8 0 i
theorem tbl9_lt (i : S50000.Idx) : ((tbl9 m 0 : S50000.Idx → BitVec 32) i).toNat < 100000 := by
  have e : (tbl9 m 0 : S50000.Idx → BitVec 32) = Vals.dstc m 9 0 := Inv.tbl_9 m 0
  rw [e]; exact Ok.dstc_lt m hpre 9 0 i
theorem tbl10_lt (i : S50000.Idx) : ((tbl10 m 0 : S50000.Idx → BitVec 32) i).toNat < 100000 := by
  have e : (tbl10 m 0 : S50000.Idx → BitVec 32) = Vals.dstc m 10 0 := Inv.tbl_10 m 0
  rw [e]; exact Ok.dstc_lt m hpre 10 0 i
theorem tbl11_lt (i : S50000.Idx) : ((tbl11 m 0 : S50000.Idx → BitVec 32) i).toNat < 100000 := by
  have e : (tbl11 m 0 : S50000.Idx → BitVec 32) = Vals.dstc m 11 0 := Inv.tbl_11 m 0
  rw [e]; exact Ok.dstc_lt m hpre 11 0 i
theorem tbl12_lt (i : S50000.Idx) : ((tbl12 m 0 : S50000.Idx → BitVec 32) i).toNat < 100000 := by
  have e : (tbl12 m 0 : S50000.Idx → BitVec 32) = Vals.dstc m 12 0 := Inv.tbl_12 m 0
  rw [e]; exact Ok.dstc_lt m hpre 12 0 i
theorem tbl13_lt (i : S50000.Idx) : ((tbl13 m 0 : S50000.Idx → BitVec 32) i).toNat < 100000 := by
  have e : (tbl13 m 0 : S50000.Idx → BitVec 32) = Vals.dstc m 13 0 := Inv.tbl_13 m 0
  rw [e]; exact Ok.dstc_lt m hpre 13 0 i
theorem tbl14_lt (i : S50000.Idx) : ((tbl14 m 0 : S50000.Idx → BitVec 32) i).toNat < 100000 := by
  have e : (tbl14 m 0 : S50000.Idx → BitVec 32) = Vals.dstc m 14 0 := Inv.tbl_14 m 0
  rw [e]; exact Ok.dstc_lt m hpre 14 0 i
theorem tbl15_lt (i : S50000.Idx) : ((tbl15 m 0 : S50000.Idx → BitVec 32) i).toNat < 100000 := by
  have e : (tbl15 m 0 : S50000.Idx → BitVec 32) = Vals.dstc m 15 0 := Inv.tbl_15 m 0
  rw [e]; exact Ok.dstc_lt m hpre 15 0 i
theorem tbl16_lt (i : S50000.Idx) : ((tbl16 m 0 : S50000.Idx → BitVec 32) i).toNat < 100000 := by
  have e : (tbl16 m 0 : S50000.Idx → BitVec 32) = Vals.dstc m 16 0 := Inv.tbl_16 m 0
  rw [e]; exact Ok.dstc_lt m hpre 16 0 i
theorem tbl17_lt (i : S50000.Idx) : ((tbl17 m 0 : S50000.Idx → BitVec 32) i).toNat < 100000 := by
  have e : (tbl17 m 0 : S50000.Idx → BitVec 32) = Vals.dstc m 17 0 := Inv.tbl_17 m 0
  rw [e]; exact Ok.dstc_lt m hpre 17 0 i
theorem tbl18_lt (i : S50000.Idx) : ((tbl18 m 0 : S50000.Idx → BitVec 32) i).toNat < 100000 := by
  have e : (tbl18 m 0 : S50000.Idx → BitVec 32) = Vals.dstc m 18 0 := Inv.tbl_18 m 0
  rw [e]; exact Ok.dstc_lt m hpre 18 0 i
theorem tbl19_lt (i : S50000.Idx) : ((tbl19 m 0 : S50000.Idx → BitVec 32) i).toNat < 100000 := by
  have e : (tbl19 m 0 : S50000.Idx → BitVec 32) = Vals.dstc m 19 0 := Inv.tbl_19 m 0
  rw [e]; exact Ok.dstc_lt m hpre 19 0 i
theorem tbl20_lt (i : S50000.Idx) : ((tbl20 m 0 : S50000.Idx → BitVec 32) i).toNat < 100000 := by
  have e : (tbl20 m 0 : S50000.Idx → BitVec 32) = Vals.dstc m 20 0 := Inv.tbl_20 m 0
  rw [e]; exact Ok.dstc_lt m hpre 20 0 i
theorem tbl21_lt (i : S50000.Idx) : ((tbl21 m 0 : S50000.Idx → BitVec 32) i).toNat < 100000 := by
  have e : (tbl21 m 0 : S50000.Idx → BitVec 32) = Vals.dstc m 21 0 := Inv.tbl_21 m 0
  rw [e]; exact Ok.dstc_lt m hpre 21 0 i
theorem tbl22_lt (i : S50000.Idx) : ((tbl22 m 0 : S50000.Idx → BitVec 32) i).toNat < 100000 := by
  have e : (tbl22 m 0 : S50000.Idx → BitVec 32) = Vals.dstc m 22 0 := Inv.tbl_22 m 0
  rw [e]; exact Ok.dstc_lt m hpre 22 0 i
theorem tbl23_lt (i : S50000.Idx) : ((tbl23 m 0 : S50000.Idx → BitVec 32) i).toNat < 100000 := by
  have e : (tbl23 m 0 : S50000.Idx → BitVec 32) = Vals.dstc m 23 0 := Inv.tbl_23 m 0
  rw [e]; exact Ok.dstc_lt m hpre 23 0 i
theorem tbl24_lt (i : S50000.Idx) : ((tbl24 m 0 : S50000.Idx → BitVec 32) i).toNat < 100000 := by
  have e : (tbl24 m 0 : S50000.Idx → BitVec 32) = Vals.dstc m 24 0 := Inv.tbl_24 m 0
  rw [e]; exact Ok.dstc_lt m hpre 24 0 i
theorem tbl25_lt (i : S50000.Idx) : ((tbl25 m 0 : S50000.Idx → BitVec 32) i).toNat < 100000 := by
  have e : (tbl25 m 0 : S50000.Idx → BitVec 32) = Vals.dstc m 25 0 := Inv.tbl_25 m 0
  rw [e]; exact Ok.dstc_lt m hpre 25 0 i
theorem tbl26_lt (i : S50000.Idx) : ((tbl26 m 0 : S50000.Idx → BitVec 32) i).toNat < 100000 := by
  have e : (tbl26 m 0 : S50000.Idx → BitVec 32) = Vals.dstc m 26 0 := Inv.tbl_26 m 0
  rw [e]; exact Ok.dstc_lt m hpre 26 0 i
theorem tbl27_lt (i : S50000.Idx) : ((tbl27 m 0 : S50000.Idx → BitVec 32) i).toNat < 100000 := by
  have e : (tbl27 m 0 : S50000.Idx → BitVec 32) = Vals.dstc m 27 0 := Inv.tbl_27 m 0
  rw [e]; exact Ok.dstc_lt m hpre 27 0 i
theorem tbl28_lt (i : S50000.Idx) : ((tbl28 m 0 : S50000.Idx → BitVec 32) i).toNat < 100000 := by
  have e : (tbl28 m 0 : S50000.Idx → BitVec 32) = Vals.dstc m 28 0 := Inv.tbl_28 m 0
  rw [e]; exact Ok.dstc_lt m hpre 28 0 i
theorem tbl29_lt (i : S50000.Idx) : ((tbl29 m 0 : S50000.Idx → BitVec 32) i).toNat < 100000 := by
  have e : (tbl29 m 0 : S50000.Idx → BitVec 32) = Vals.dstc m 29 0 := Inv.tbl_29 m 0
  rw [e]; exact Ok.dstc_lt m hpre 29 0 i
theorem tbl30_lt (i : S50000.Idx) : ((tbl30 m 0 : S50000.Idx → BitVec 32) i).toNat < 100000 := by
  have e : (tbl30 m 0 : S50000.Idx → BitVec 32) = Vals.dstc m 30 0 := Inv.tbl_30 m 0
  rw [e]; exact Ok.dstc_lt m hpre 30 0 i
theorem tbl31_lt (i : S50000.Idx) : ((tbl31 m 0 : S50000.Idx → BitVec 32) i).toNat < 100000 := by
  have e : (tbl31 m 0 : S50000.Idx → BitVec 32) = Vals.dstc m 31 0 := Inv.tbl_31 m 0
  rw [e]; exact Ok.dstc_lt m hpre 31 0 i

/-- So every table is admissible. -/
theorem hyp : Hyp m where
  ok0 := Ok.ok0_of _ (tbl0_lt m hpre)
  ok1 := Ok.ok1_of _ (tbl1_lt m hpre)
  ok2 := Ok.ok2_of _ (tbl2_lt m hpre)
  ok3 := Ok.ok3_of _ (tbl3_lt m hpre)
  ok4 := Ok.ok4_of _ (tbl4_lt m hpre)
  ok5 := Ok.ok5_of _ (tbl5_lt m hpre)
  ok6 := Ok.ok6_of _ (tbl6_lt m hpre)
  ok7 := Ok.ok7_of _ (tbl7_lt m hpre)
  ok8 := Ok.ok8_of _ (tbl8_lt m hpre)
  ok9 := Ok.ok9_of _ (tbl9_lt m hpre)
  ok10 := Ok.ok10_of _ (tbl10_lt m hpre)
  ok11 := Ok.ok11_of _ (tbl11_lt m hpre)
  ok12 := Ok.ok12_of _ (tbl12_lt m hpre)
  ok13 := Ok.ok13_of _ (tbl13_lt m hpre)
  ok14 := Ok.ok14_of _ (tbl14_lt m hpre)
  ok15 := Ok.ok15_of _ (tbl15_lt m hpre)
  ok16 := Ok.ok16_of _ (tbl16_lt m hpre)
  ok17 := Ok.ok17_of _ (tbl17_lt m hpre)
  ok18 := Ok.ok18_of _ (tbl18_lt m hpre)
  ok19 := Ok.ok19_of _ (tbl19_lt m hpre)
  ok20 := Ok.ok20_of _ (tbl20_lt m hpre)
  ok21 := Ok.ok21_of _ (tbl21_lt m hpre)
  ok22 := Ok.ok22_of _ (tbl22_lt m hpre)
  ok23 := Ok.ok23_of _ (tbl23_lt m hpre)
  ok24 := Ok.ok24_of _ (tbl24_lt m hpre)
  ok25 := Ok.ok25_of _ (tbl25_lt m hpre)
  ok26 := Ok.ok26_of _ (tbl26_lt m hpre)
  ok27 := Ok.ok27_of _ (tbl27_lt m hpre)
  ok28 := Ok.ok28_of _ (tbl28_lt m hpre)
  ok29 := Ok.ok29_of _ (tbl29_lt m hpre)
  ok30 := Ok.ok30_of _ (tbl30_lt m hpre)
  ok31 := Ok.ok31_of _ (tbl31_lt m hpre)

/-! ## What each gather region leaves -/

theorem harr0 (c : Dev nD) : (G0.dat (Ve0 m) (tbl0 m) (hyp m hpre).ok0 c).arrAt 1 (G0.cfgM (tbl0 m) (hyp m hpre).ok0).N = Vals.gath3 m 0 c := by
  refine (G0.arrAt_1 (Ve0 m) (tbl0 m) (hyp m hpre).ok0 (tbl0_lt m hpre) c).trans ?_
  have e1 : (Ve0 m c main_v9 : FVec F S100000x1x128 .f32) = Vals.X3 m c := Inv.x3_0 m c
  have e2 : (tbl0 m 0 : S50000.Idx → BitVec 32) = Vals.dstc m 0 c := by
    obtain rfl : c = 0 := Subsingleton.elim _ _
    exact Inv.tbl_0 m 0
  rw [e1, e2]
  rfl
theorem harr1 (c : Dev nD) : (G1.dat (Ve1 m) (tbl1 m) (hyp m hpre).ok1 c).arrAt 1 (G1.cfgM (tbl1 m) (hyp m hpre).ok1).N = Vals.gath3 m 1 c := by
  refine (G1.arrAt_1 (Ve1 m) (tbl1 m) (hyp m hpre).ok1 (tbl1_lt m hpre) c).trans ?_
  have e1 : (Ve1 m c main_v22 : FVec F S100000x1x128 .f32) = Vals.X3 m c := Inv.x3_1 m c
  have e2 : (tbl1 m 0 : S50000.Idx → BitVec 32) = Vals.dstc m 1 c := by
    obtain rfl : c = 0 := Subsingleton.elim _ _
    exact Inv.tbl_1 m 0
  rw [e1, e2]
  rfl
theorem harr2 (c : Dev nD) : (G2.dat (Ve2 m) (tbl2 m) (hyp m hpre).ok2 c).arrAt 1 (G2.cfgM (tbl2 m) (hyp m hpre).ok2).N = Vals.gath3 m 2 c := by
  refine (G2.arrAt_1 (Ve2 m) (tbl2 m) (hyp m hpre).ok2 (tbl2_lt m hpre) c).trans ?_
  have e1 : (Ve2 m c main_v35 : FVec F S100000x1x128 .f32) = Vals.X3 m c := Inv.x3_2 m c
  have e2 : (tbl2 m 0 : S50000.Idx → BitVec 32) = Vals.dstc m 2 c := by
    obtain rfl : c = 0 := Subsingleton.elim _ _
    exact Inv.tbl_2 m 0
  rw [e1, e2]
  rfl
theorem harr3 (c : Dev nD) : (G3.dat (Ve3 m) (tbl3 m) (hyp m hpre).ok3 c).arrAt 1 (G3.cfgM (tbl3 m) (hyp m hpre).ok3).N = Vals.gath3 m 3 c := by
  refine (G3.arrAt_1 (Ve3 m) (tbl3 m) (hyp m hpre).ok3 (tbl3_lt m hpre) c).trans ?_
  have e1 : (Ve3 m c main_v48 : FVec F S100000x1x128 .f32) = Vals.X3 m c := Inv.x3_3 m c
  have e2 : (tbl3 m 0 : S50000.Idx → BitVec 32) = Vals.dstc m 3 c := by
    obtain rfl : c = 0 := Subsingleton.elim _ _
    exact Inv.tbl_3 m 0
  rw [e1, e2]
  rfl
theorem harr4 (c : Dev nD) : (G4.dat (Ve4 m) (tbl4 m) (hyp m hpre).ok4 c).arrAt 1 (G4.cfgM (tbl4 m) (hyp m hpre).ok4).N = Vals.gath3 m 4 c := by
  refine (G4.arrAt_1 (Ve4 m) (tbl4 m) (hyp m hpre).ok4 (tbl4_lt m hpre) c).trans ?_
  have e1 : (Ve4 m c main_v61 : FVec F S100000x1x128 .f32) = Vals.X3 m c := Inv.x3_4 m c
  have e2 : (tbl4 m 0 : S50000.Idx → BitVec 32) = Vals.dstc m 4 c := by
    obtain rfl : c = 0 := Subsingleton.elim _ _
    exact Inv.tbl_4 m 0
  rw [e1, e2]
  rfl
theorem harr5 (c : Dev nD) : (G5.dat (Ve5 m) (tbl5 m) (hyp m hpre).ok5 c).arrAt 1 (G5.cfgM (tbl5 m) (hyp m hpre).ok5).N = Vals.gath3 m 5 c := by
  refine (G5.arrAt_1 (Ve5 m) (tbl5 m) (hyp m hpre).ok5 (tbl5_lt m hpre) c).trans ?_
  have e1 : (Ve5 m c main_v74 : FVec F S100000x1x128 .f32) = Vals.X3 m c := Inv.x3_5 m c
  have e2 : (tbl5 m 0 : S50000.Idx → BitVec 32) = Vals.dstc m 5 c := by
    obtain rfl : c = 0 := Subsingleton.elim _ _
    exact Inv.tbl_5 m 0
  rw [e1, e2]
  rfl
theorem harr6 (c : Dev nD) : (G6.dat (Ve6 m) (tbl6 m) (hyp m hpre).ok6 c).arrAt 1 (G6.cfgM (tbl6 m) (hyp m hpre).ok6).N = Vals.gath3 m 6 c := by
  refine (G6.arrAt_1 (Ve6 m) (tbl6 m) (hyp m hpre).ok6 (tbl6_lt m hpre) c).trans ?_
  have e1 : (Ve6 m c main_v87 : FVec F S100000x1x128 .f32) = Vals.X3 m c := Inv.x3_6 m c
  have e2 : (tbl6 m 0 : S50000.Idx → BitVec 32) = Vals.dstc m 6 c := by
    obtain rfl : c = 0 := Subsingleton.elim _ _
    exact Inv.tbl_6 m 0
  rw [e1, e2]
  rfl
theorem harr7 (c : Dev nD) : (G7.dat (Ve7 m) (tbl7 m) (hyp m hpre).ok7 c).arrAt 1 (G7.cfgM (tbl7 m) (hyp m hpre).ok7).N = Vals.gath3 m 7 c := by
  refine (G7.arrAt_1 (Ve7 m) (tbl7 m) (hyp m hpre).ok7 (tbl7_lt m hpre) c).trans ?_
  have e1 : (Ve7 m c main_v100 : FVec F S100000x1x128 .f32) = Vals.X3 m c := Inv.x3_7 m c
  have e2 : (tbl7 m 0 : S50000.Idx → BitVec 32) = Vals.dstc m 7 c := by
    obtain rfl : c = 0 := Subsingleton.elim _ _
    exact Inv.tbl_7 m 0
  rw [e1, e2]
  rfl
theorem harr8 (c : Dev nD) : (G8.dat (Ve8 m) (tbl8 m) (hyp m hpre).ok8 c).arrAt 1 (G8.cfgM (tbl8 m) (hyp m hpre).ok8).N = Vals.gath3 m 8 c := by
  refine (G8.arrAt_1 (Ve8 m) (tbl8 m) (hyp m hpre).ok8 (tbl8_lt m hpre) c).trans ?_
  have e1 : (Ve8 m c main_v113 : FVec F S100000x1x128 .f32) = Vals.X3 m c := Inv.x3_8 m c
  have e2 : (tbl8 m 0 : S50000.Idx → BitVec 32) = Vals.dstc m 8 c := by
    obtain rfl : c = 0 := Subsingleton.elim _ _
    exact Inv.tbl_8 m 0
  rw [e1, e2]
  rfl
theorem harr9 (c : Dev nD) : (G9.dat (Ve9 m) (tbl9 m) (hyp m hpre).ok9 c).arrAt 1 (G9.cfgM (tbl9 m) (hyp m hpre).ok9).N = Vals.gath3 m 9 c := by
  refine (G9.arrAt_1 (Ve9 m) (tbl9 m) (hyp m hpre).ok9 (tbl9_lt m hpre) c).trans ?_
  have e1 : (Ve9 m c main_v126 : FVec F S100000x1x128 .f32) = Vals.X3 m c := Inv.x3_9 m c
  have e2 : (tbl9 m 0 : S50000.Idx → BitVec 32) = Vals.dstc m 9 c := by
    obtain rfl : c = 0 := Subsingleton.elim _ _
    exact Inv.tbl_9 m 0
  rw [e1, e2]
  rfl
theorem harr10 (c : Dev nD) : (G10.dat (Ve10 m) (tbl10 m) (hyp m hpre).ok10 c).arrAt 1 (G10.cfgM (tbl10 m) (hyp m hpre).ok10).N = Vals.gath3 m 10 c := by
  refine (G10.arrAt_1 (Ve10 m) (tbl10 m) (hyp m hpre).ok10 (tbl10_lt m hpre) c).trans ?_
  have e1 : (Ve10 m c main_v139 : FVec F S100000x1x128 .f32) = Vals.X3 m c := Inv.x3_10 m c
  have e2 : (tbl10 m 0 : S50000.Idx → BitVec 32) = Vals.dstc m 10 c := by
    obtain rfl : c = 0 := Subsingleton.elim _ _
    exact Inv.tbl_10 m 0
  rw [e1, e2]
  rfl
theorem harr11 (c : Dev nD) : (G11.dat (Ve11 m) (tbl11 m) (hyp m hpre).ok11 c).arrAt 1 (G11.cfgM (tbl11 m) (hyp m hpre).ok11).N = Vals.gath3 m 11 c := by
  refine (G11.arrAt_1 (Ve11 m) (tbl11 m) (hyp m hpre).ok11 (tbl11_lt m hpre) c).trans ?_
  have e1 : (Ve11 m c main_v152 : FVec F S100000x1x128 .f32) = Vals.X3 m c := Inv.x3_11 m c
  have e2 : (tbl11 m 0 : S50000.Idx → BitVec 32) = Vals.dstc m 11 c := by
    obtain rfl : c = 0 := Subsingleton.elim _ _
    exact Inv.tbl_11 m 0
  rw [e1, e2]
  rfl
theorem harr12 (c : Dev nD) : (G12.dat (Ve12 m) (tbl12 m) (hyp m hpre).ok12 c).arrAt 1 (G12.cfgM (tbl12 m) (hyp m hpre).ok12).N = Vals.gath3 m 12 c := by
  refine (G12.arrAt_1 (Ve12 m) (tbl12 m) (hyp m hpre).ok12 (tbl12_lt m hpre) c).trans ?_
  have e1 : (Ve12 m c main_v165 : FVec F S100000x1x128 .f32) = Vals.X3 m c := Inv.x3_12 m c
  have e2 : (tbl12 m 0 : S50000.Idx → BitVec 32) = Vals.dstc m 12 c := by
    obtain rfl : c = 0 := Subsingleton.elim _ _
    exact Inv.tbl_12 m 0
  rw [e1, e2]
  rfl
theorem harr13 (c : Dev nD) : (G13.dat (Ve13 m) (tbl13 m) (hyp m hpre).ok13 c).arrAt 1 (G13.cfgM (tbl13 m) (hyp m hpre).ok13).N = Vals.gath3 m 13 c := by
  refine (G13.arrAt_1 (Ve13 m) (tbl13 m) (hyp m hpre).ok13 (tbl13_lt m hpre) c).trans ?_
  have e1 : (Ve13 m c main_v178 : FVec F S100000x1x128 .f32) = Vals.X3 m c := Inv.x3_13 m c
  have e2 : (tbl13 m 0 : S50000.Idx → BitVec 32) = Vals.dstc m 13 c := by
    obtain rfl : c = 0 := Subsingleton.elim _ _
    exact Inv.tbl_13 m 0
  rw [e1, e2]
  rfl
theorem harr14 (c : Dev nD) : (G14.dat (Ve14 m) (tbl14 m) (hyp m hpre).ok14 c).arrAt 1 (G14.cfgM (tbl14 m) (hyp m hpre).ok14).N = Vals.gath3 m 14 c := by
  refine (G14.arrAt_1 (Ve14 m) (tbl14 m) (hyp m hpre).ok14 (tbl14_lt m hpre) c).trans ?_
  have e1 : (Ve14 m c main_v191 : FVec F S100000x1x128 .f32) = Vals.X3 m c := Inv.x3_14 m c
  have e2 : (tbl14 m 0 : S50000.Idx → BitVec 32) = Vals.dstc m 14 c := by
    obtain rfl : c = 0 := Subsingleton.elim _ _
    exact Inv.tbl_14 m 0
  rw [e1, e2]
  rfl
theorem harr15 (c : Dev nD) : (G15.dat (Ve15 m) (tbl15 m) (hyp m hpre).ok15 c).arrAt 1 (G15.cfgM (tbl15 m) (hyp m hpre).ok15).N = Vals.gath3 m 15 c := by
  refine (G15.arrAt_1 (Ve15 m) (tbl15 m) (hyp m hpre).ok15 (tbl15_lt m hpre) c).trans ?_
  have e1 : (Ve15 m c main_v204 : FVec F S100000x1x128 .f32) = Vals.X3 m c := Inv.x3_15 m c
  have e2 : (tbl15 m 0 : S50000.Idx → BitVec 32) = Vals.dstc m 15 c := by
    obtain rfl : c = 0 := Subsingleton.elim _ _
    exact Inv.tbl_15 m 0
  rw [e1, e2]
  rfl
theorem harr16 (c : Dev nD) : (G16.dat (Ve16 m) (tbl16 m) (hyp m hpre).ok16 c).arrAt 1 (G16.cfgM (tbl16 m) (hyp m hpre).ok16).N = Vals.gath3 m 16 c := by
  refine (G16.arrAt_1 (Ve16 m) (tbl16 m) (hyp m hpre).ok16 (tbl16_lt m hpre) c).trans ?_
  have e1 : (Ve16 m c main_v217 : FVec F S100000x1x128 .f32) = Vals.X3 m c := Inv.x3_16 m c
  have e2 : (tbl16 m 0 : S50000.Idx → BitVec 32) = Vals.dstc m 16 c := by
    obtain rfl : c = 0 := Subsingleton.elim _ _
    exact Inv.tbl_16 m 0
  rw [e1, e2]
  rfl
theorem harr17 (c : Dev nD) : (G17.dat (Ve17 m) (tbl17 m) (hyp m hpre).ok17 c).arrAt 1 (G17.cfgM (tbl17 m) (hyp m hpre).ok17).N = Vals.gath3 m 17 c := by
  refine (G17.arrAt_1 (Ve17 m) (tbl17 m) (hyp m hpre).ok17 (tbl17_lt m hpre) c).trans ?_
  have e1 : (Ve17 m c main_v230 : FVec F S100000x1x128 .f32) = Vals.X3 m c := Inv.x3_17 m c
  have e2 : (tbl17 m 0 : S50000.Idx → BitVec 32) = Vals.dstc m 17 c := by
    obtain rfl : c = 0 := Subsingleton.elim _ _
    exact Inv.tbl_17 m 0
  rw [e1, e2]
  rfl
theorem harr18 (c : Dev nD) : (G18.dat (Ve18 m) (tbl18 m) (hyp m hpre).ok18 c).arrAt 1 (G18.cfgM (tbl18 m) (hyp m hpre).ok18).N = Vals.gath3 m 18 c := by
  refine (G18.arrAt_1 (Ve18 m) (tbl18 m) (hyp m hpre).ok18 (tbl18_lt m hpre) c).trans ?_
  have e1 : (Ve18 m c main_v243 : FVec F S100000x1x128 .f32) = Vals.X3 m c := Inv.x3_18 m c
  have e2 : (tbl18 m 0 : S50000.Idx → BitVec 32) = Vals.dstc m 18 c := by
    obtain rfl : c = 0 := Subsingleton.elim _ _
    exact Inv.tbl_18 m 0
  rw [e1, e2]
  rfl
theorem harr19 (c : Dev nD) : (G19.dat (Ve19 m) (tbl19 m) (hyp m hpre).ok19 c).arrAt 1 (G19.cfgM (tbl19 m) (hyp m hpre).ok19).N = Vals.gath3 m 19 c := by
  refine (G19.arrAt_1 (Ve19 m) (tbl19 m) (hyp m hpre).ok19 (tbl19_lt m hpre) c).trans ?_
  have e1 : (Ve19 m c main_v256 : FVec F S100000x1x128 .f32) = Vals.X3 m c := Inv.x3_19 m c
  have e2 : (tbl19 m 0 : S50000.Idx → BitVec 32) = Vals.dstc m 19 c := by
    obtain rfl : c = 0 := Subsingleton.elim _ _
    exact Inv.tbl_19 m 0
  rw [e1, e2]
  rfl
theorem harr20 (c : Dev nD) : (G20.dat (Ve20 m) (tbl20 m) (hyp m hpre).ok20 c).arrAt 1 (G20.cfgM (tbl20 m) (hyp m hpre).ok20).N = Vals.gath3 m 20 c := by
  refine (G20.arrAt_1 (Ve20 m) (tbl20 m) (hyp m hpre).ok20 (tbl20_lt m hpre) c).trans ?_
  have e1 : (Ve20 m c main_v269 : FVec F S100000x1x128 .f32) = Vals.X3 m c := Inv.x3_20 m c
  have e2 : (tbl20 m 0 : S50000.Idx → BitVec 32) = Vals.dstc m 20 c := by
    obtain rfl : c = 0 := Subsingleton.elim _ _
    exact Inv.tbl_20 m 0
  rw [e1, e2]
  rfl
theorem harr21 (c : Dev nD) : (G21.dat (Ve21 m) (tbl21 m) (hyp m hpre).ok21 c).arrAt 1 (G21.cfgM (tbl21 m) (hyp m hpre).ok21).N = Vals.gath3 m 21 c := by
  refine (G21.arrAt_1 (Ve21 m) (tbl21 m) (hyp m hpre).ok21 (tbl21_lt m hpre) c).trans ?_
  have e1 : (Ve21 m c main_v282 : FVec F S100000x1x128 .f32) = Vals.X3 m c := Inv.x3_21 m c
  have e2 : (tbl21 m 0 : S50000.Idx → BitVec 32) = Vals.dstc m 21 c := by
    obtain rfl : c = 0 := Subsingleton.elim _ _
    exact Inv.tbl_21 m 0
  rw [e1, e2]
  rfl
theorem harr22 (c : Dev nD) : (G22.dat (Ve22 m) (tbl22 m) (hyp m hpre).ok22 c).arrAt 1 (G22.cfgM (tbl22 m) (hyp m hpre).ok22).N = Vals.gath3 m 22 c := by
  refine (G22.arrAt_1 (Ve22 m) (tbl22 m) (hyp m hpre).ok22 (tbl22_lt m hpre) c).trans ?_
  have e1 : (Ve22 m c main_v295 : FVec F S100000x1x128 .f32) = Vals.X3 m c := Inv.x3_22 m c
  have e2 : (tbl22 m 0 : S50000.Idx → BitVec 32) = Vals.dstc m 22 c := by
    obtain rfl : c = 0 := Subsingleton.elim _ _
    exact Inv.tbl_22 m 0
  rw [e1, e2]
  rfl
theorem harr23 (c : Dev nD) : (G23.dat (Ve23 m) (tbl23 m) (hyp m hpre).ok23 c).arrAt 1 (G23.cfgM (tbl23 m) (hyp m hpre).ok23).N = Vals.gath3 m 23 c := by
  refine (G23.arrAt_1 (Ve23 m) (tbl23 m) (hyp m hpre).ok23 (tbl23_lt m hpre) c).trans ?_
  have e1 : (Ve23 m c main_v308 : FVec F S100000x1x128 .f32) = Vals.X3 m c := Inv.x3_23 m c
  have e2 : (tbl23 m 0 : S50000.Idx → BitVec 32) = Vals.dstc m 23 c := by
    obtain rfl : c = 0 := Subsingleton.elim _ _
    exact Inv.tbl_23 m 0
  rw [e1, e2]
  rfl
theorem harr24 (c : Dev nD) : (G24.dat (Ve24 m) (tbl24 m) (hyp m hpre).ok24 c).arrAt 1 (G24.cfgM (tbl24 m) (hyp m hpre).ok24).N = Vals.gath3 m 24 c := by
  refine (G24.arrAt_1 (Ve24 m) (tbl24 m) (hyp m hpre).ok24 (tbl24_lt m hpre) c).trans ?_
  have e1 : (Ve24 m c main_v321 : FVec F S100000x1x128 .f32) = Vals.X3 m c := Inv.x3_24 m c
  have e2 : (tbl24 m 0 : S50000.Idx → BitVec 32) = Vals.dstc m 24 c := by
    obtain rfl : c = 0 := Subsingleton.elim _ _
    exact Inv.tbl_24 m 0
  rw [e1, e2]
  rfl
theorem harr25 (c : Dev nD) : (G25.dat (Ve25 m) (tbl25 m) (hyp m hpre).ok25 c).arrAt 1 (G25.cfgM (tbl25 m) (hyp m hpre).ok25).N = Vals.gath3 m 25 c := by
  refine (G25.arrAt_1 (Ve25 m) (tbl25 m) (hyp m hpre).ok25 (tbl25_lt m hpre) c).trans ?_
  have e1 : (Ve25 m c main_v334 : FVec F S100000x1x128 .f32) = Vals.X3 m c := Inv.x3_25 m c
  have e2 : (tbl25 m 0 : S50000.Idx → BitVec 32) = Vals.dstc m 25 c := by
    obtain rfl : c = 0 := Subsingleton.elim _ _
    exact Inv.tbl_25 m 0
  rw [e1, e2]
  rfl
theorem harr26 (c : Dev nD) : (G26.dat (Ve26 m) (tbl26 m) (hyp m hpre).ok26 c).arrAt 1 (G26.cfgM (tbl26 m) (hyp m hpre).ok26).N = Vals.gath3 m 26 c := by
  refine (G26.arrAt_1 (Ve26 m) (tbl26 m) (hyp m hpre).ok26 (tbl26_lt m hpre) c).trans ?_
  have e1 : (Ve26 m c main_v347 : FVec F S100000x1x128 .f32) = Vals.X3 m c := Inv.x3_26 m c
  have e2 : (tbl26 m 0 : S50000.Idx → BitVec 32) = Vals.dstc m 26 c := by
    obtain rfl : c = 0 := Subsingleton.elim _ _
    exact Inv.tbl_26 m 0
  rw [e1, e2]
  rfl
theorem harr27 (c : Dev nD) : (G27.dat (Ve27 m) (tbl27 m) (hyp m hpre).ok27 c).arrAt 1 (G27.cfgM (tbl27 m) (hyp m hpre).ok27).N = Vals.gath3 m 27 c := by
  refine (G27.arrAt_1 (Ve27 m) (tbl27 m) (hyp m hpre).ok27 (tbl27_lt m hpre) c).trans ?_
  have e1 : (Ve27 m c main_v360 : FVec F S100000x1x128 .f32) = Vals.X3 m c := Inv.x3_27 m c
  have e2 : (tbl27 m 0 : S50000.Idx → BitVec 32) = Vals.dstc m 27 c := by
    obtain rfl : c = 0 := Subsingleton.elim _ _
    exact Inv.tbl_27 m 0
  rw [e1, e2]
  rfl
theorem harr28 (c : Dev nD) : (G28.dat (Ve28 m) (tbl28 m) (hyp m hpre).ok28 c).arrAt 1 (G28.cfgM (tbl28 m) (hyp m hpre).ok28).N = Vals.gath3 m 28 c := by
  refine (G28.arrAt_1 (Ve28 m) (tbl28 m) (hyp m hpre).ok28 (tbl28_lt m hpre) c).trans ?_
  have e1 : (Ve28 m c main_v373 : FVec F S100000x1x128 .f32) = Vals.X3 m c := Inv.x3_28 m c
  have e2 : (tbl28 m 0 : S50000.Idx → BitVec 32) = Vals.dstc m 28 c := by
    obtain rfl : c = 0 := Subsingleton.elim _ _
    exact Inv.tbl_28 m 0
  rw [e1, e2]
  rfl
theorem harr29 (c : Dev nD) : (G29.dat (Ve29 m) (tbl29 m) (hyp m hpre).ok29 c).arrAt 1 (G29.cfgM (tbl29 m) (hyp m hpre).ok29).N = Vals.gath3 m 29 c := by
  refine (G29.arrAt_1 (Ve29 m) (tbl29 m) (hyp m hpre).ok29 (tbl29_lt m hpre) c).trans ?_
  have e1 : (Ve29 m c main_v386 : FVec F S100000x1x128 .f32) = Vals.X3 m c := Inv.x3_29 m c
  have e2 : (tbl29 m 0 : S50000.Idx → BitVec 32) = Vals.dstc m 29 c := by
    obtain rfl : c = 0 := Subsingleton.elim _ _
    exact Inv.tbl_29 m 0
  rw [e1, e2]
  rfl
theorem harr30 (c : Dev nD) : (G30.dat (Ve30 m) (tbl30 m) (hyp m hpre).ok30 c).arrAt 1 (G30.cfgM (tbl30 m) (hyp m hpre).ok30).N = Vals.gath3 m 30 c := by
  refine (G30.arrAt_1 (Ve30 m) (tbl30 m) (hyp m hpre).ok30 (tbl30_lt m hpre) c).trans ?_
  have e1 : (Ve30 m c main_v399 : FVec F S100000x1x128 .f32) = Vals.X3 m c := Inv.x3_30 m c
  have e2 : (tbl30 m 0 : S50000.Idx → BitVec 32) = Vals.dstc m 30 c := by
    obtain rfl : c = 0 := Subsingleton.elim _ _
    exact Inv.tbl_30 m 0
  rw [e1, e2]
  rfl
theorem harr31 (c : Dev nD) : (G31.dat (Ve31 m) (tbl31 m) (hyp m hpre).ok31 c).arrAt 1 (G31.cfgM (tbl31 m) (hyp m hpre).ok31).N = Vals.gath3 m 31 c := by
  refine (G31.arrAt_1 (Ve31 m) (tbl31 m) (hyp m hpre).ok31 (tbl31_lt m hpre) c).trans ?_
  have e1 : (Ve31 m c main_v412 : FVec F S100000x1x128 .f32) = Vals.X3 m c := Inv.x3_31 m c
  have e2 : (tbl31 m 0 : S50000.Idx → BitVec 32) = Vals.dstc m 31 c := by
    obtain rfl : c = 0 := Subsingleton.elim _ _
    exact Inv.tbl_31 m 0
  rw [e1, e2]
  rfl

/-! ## The launch -/

/-- The launch element is the pipeline library's alone. -/
theorem hu : (ownU (initOf (Pipeline.cells (Pipeline.pin (pcfgs (F := F)) (a m (hyp m hpre))) (cellOf_inj (a m (hyp m hpre)))) (Pipeline.launchToks (Pipeline.pin (pcfgs (F := F)) (a m (hyp m hpre))) (cellOf_inj (a m (hyp m hpre))))) : sProp 𝕄)
    ⊢ |={Set.univ}=> iprop(BI.own ((emb₁ : Emb (URounds (GSem nD τ sig) Unit) 𝕄) (initOf (Pipeline.cells (Pipeline.pin (pcfgs (F := F)) (a m (hyp m hpre))) (cellOf_inj (a m (hyp m hpre)))) (Pipeline.launchToks (Pipeline.pin (pcfgs (F := F)) (a m (hyp m hpre))) (cellOf_inj (a m (hyp m hpre)))))) ∗ bigSep Finset.univ fun _ : Dev nD => (iprop(emp) : sProp 𝕄)) := by
  iintro Hu; imodintro
  isplitl [Hu]
  · iapply (show (ownU (initOf (Pipeline.cells (Pipeline.pin (pcfgs (F := F)) (a m (hyp m hpre))) (cellOf_inj (a m (hyp m hpre)))) (Pipeline.launchToks (Pipeline.pin (pcfgs (F := F)) (a m (hyp m hpre))) (cellOf_inj (a m (hyp m hpre))))) : sProp 𝕄)
        ⊢ BI.own ((emb₁ : Emb (URounds (GSem nD τ sig) Unit) 𝕄) (initOf (Pipeline.cells (Pipeline.pin (pcfgs (F := F)) (a m (hyp m hpre))) (cellOf_inj (a m (hyp m hpre)))) (Pipeline.launchToks (Pipeline.pin (pcfgs (F := F)) (a m (hyp m hpre))) (cellOf_inj (a m (hyp m hpre)))))) from .rfl)
    iexact Hu
  iapply (show (BI.emp : sProp 𝕄) ⊢ bigSep Finset.univ (fun _ : Dev nD => (BI.emp : sProp 𝕄)) from by rw [BI.bigSep_emp_const])
  iempintro

omit hpre in
/-- Every core starts with the generator register and owing nothing. -/
theorem hE0 (ρ : Dev nD → PrngReg) : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

omit hpre in
/-- and ends owing nothing. -/
theorem hE33 (c : Dev nD) : R (F := F) c ⊢ (iprop(∃ W, owes (c : Thread nD τ) (0 : CellTallies nD τ sig Unit) W) : sProp 𝕄) := by
  iintro ⟨-, HO⟩; iexact HO

variable (ρ : Dev nD → PrngReg)

set_option maxHeartbeats 8000000 in
/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  GenP.frame_cond (m := m)
    (EP := emb₁) (ι := ()) (𝒱₀ := 𝒱₀) (L := L) (lv := lv) (hL := fun _ _ => rfl) (ρ := ρ) (outs := Vals.outs m)
    (a := a m (hyp m hpre)) (pdats := pdats m (hyp m hpre)) (O₀ := 0) (G := fun _ => iprop(emp))
    (u₀ := initOf (Pipeline.cells (Pipeline.pin (pcfgs (F := F)) (a m (hyp m hpre))) (cellOf_inj (a m (hyp m hpre)))) (Pipeline.launchToks (Pipeline.pin (pcfgs (F := F)) (a m (hyp m hpre))) (cellOf_inj (a m (hyp m hpre)))))
    (hu₀ := hu m hpre) (E := fun _ c => R c) (hE0 := hE0 ρ) (hE33 := hE33)
    (R0 := S0.reg m (hyp m hpre) (harr0 m hpre)) (hpre0 := fun _ => .rfl) (hpost0 := fun _ => .rfl)
    (R1 := S1.reg m (hyp m hpre) (harr1 m hpre)) (hpre1 := fun _ => .rfl) (hpost1 := fun _ => .rfl)
    (R2 := S2.reg m (hyp m hpre) (harr2 m hpre)) (hpre2 := fun _ => .rfl) (hpost2 := fun _ => .rfl)
    (R3 := S3.reg m (hyp m hpre) (harr3 m hpre)) (hpre3 := fun _ => .rfl) (hpost3 := fun _ => .rfl)
    (R4 := S4.reg m (hyp m hpre) (harr4 m hpre)) (hpre4 := fun _ => .rfl) (hpost4 := fun _ => .rfl)
    (R5 := S5.reg m (hyp m hpre) (harr5 m hpre)) (hpre5 := fun _ => .rfl) (hpost5 := fun _ => .rfl)
    (R6 := S6.reg m (hyp m hpre) (harr6 m hpre)) (hpre6 := fun _ => .rfl) (hpost6 := fun _ => .rfl)
    (R7 := S7.reg m (hyp m hpre) (harr7 m hpre)) (hpre7 := fun _ => .rfl) (hpost7 := fun _ => .rfl)
    (R8 := S8.reg m (hyp m hpre) (harr8 m hpre)) (hpre8 := fun _ => .rfl) (hpost8 := fun _ => .rfl)
    (R9 := S9.reg m (hyp m hpre) (harr9 m hpre)) (hpre9 := fun _ => .rfl) (hpost9 := fun _ => .rfl)
    (R10 := S10.reg m (hyp m hpre) (harr10 m hpre)) (hpre10 := fun _ => .rfl) (hpost10 := fun _ => .rfl)
    (R11 := S11.reg m (hyp m hpre) (harr11 m hpre)) (hpre11 := fun _ => .rfl) (hpost11 := fun _ => .rfl)
    (R12 := S12.reg m (hyp m hpre) (harr12 m hpre)) (hpre12 := fun _ => .rfl) (hpost12 := fun _ => .rfl)
    (R13 := S13.reg m (hyp m hpre) (harr13 m hpre)) (hpre13 := fun _ => .rfl) (hpost13 := fun _ => .rfl)
    (R14 := S14.reg m (hyp m hpre) (harr14 m hpre)) (hpre14 := fun _ => .rfl) (hpost14 := fun _ => .rfl)
    (R15 := S15.reg m (hyp m hpre) (harr15 m hpre)) (hpre15 := fun _ => .rfl) (hpost15 := fun _ => .rfl)
    (R16 := S16.reg m (hyp m hpre) (harr16 m hpre)) (hpre16 := fun _ => .rfl) (hpost16 := fun _ => .rfl)
    (R17 := S17.reg m (hyp m hpre) (harr17 m hpre)) (hpre17 := fun _ => .rfl) (hpost17 := fun _ => .rfl)
    (R18 := S18.reg m (hyp m hpre) (harr18 m hpre)) (hpre18 := fun _ => .rfl) (hpost18 := fun _ => .rfl)
    (R19 := S19.reg m (hyp m hpre) (harr19 m hpre)) (hpre19 := fun _ => .rfl) (hpost19 := fun _ => .rfl)
    (R20 := S20.reg m (hyp m hpre) (harr20 m hpre)) (hpre20 := fun _ => .rfl) (hpost20 := fun _ => .rfl)
    (R21 := S21.reg m (hyp m hpre) (harr21 m hpre)) (hpre21 := fun _ => .rfl) (hpost21 := fun _ => .rfl)
    (R22 := S22.reg m (hyp m hpre) (harr22 m hpre)) (hpre22 := fun _ => .rfl) (hpost22 := fun _ => .rfl)
    (R23 := S23.reg m (hyp m hpre) (harr23 m hpre)) (hpre23 := fun _ => .rfl) (hpost23 := fun _ => .rfl)
    (R24 := S24.reg m (hyp m hpre) (harr24 m hpre)) (hpre24 := fun _ => .rfl) (hpost24 := fun _ => .rfl)
    (R25 := S25.reg m (hyp m hpre) (harr25 m hpre)) (hpre25 := fun _ => .rfl) (hpost25 := fun _ => .rfl)
    (R26 := S26.reg m (hyp m hpre) (harr26 m hpre)) (hpre26 := fun _ => .rfl) (hpost26 := fun _ => .rfl)
    (R27 := S27.reg m (hyp m hpre) (harr27 m hpre)) (hpre27 := fun _ => .rfl) (hpost27 := fun _ => .rfl)
    (R28 := S28.reg m (hyp m hpre) (harr28 m hpre)) (hpre28 := fun _ => .rfl) (hpost28 := fun _ => .rfl)
    (R29 := S29.reg m (hyp m hpre) (harr29 m hpre)) (hpre29 := fun _ => .rfl) (hpost29 := fun _ => .rfl)
    (R30 := S30.reg m (hyp m hpre) (harr30 m hpre)) (hpre30 := fun _ => .rfl) (hpost30 := fun _ => .rfl)
    (R31 := S31.reg m (hyp m hpre) (harr31 m hpre)) (hpre31 := fun _ => .rfl) (hpost31 := fun _ => .rfl)
    (R32 := S32.reg m (hyp m hpre)) (hpre32 := fun _ => .rfl) (hpost32 := fun _ => .rfl)

set_option maxHeartbeats 8000000 in
/-- THE RUN WITH THE RESULT NAMED: the same, and the result array holds `Vals.out`. -/
theorem value : θ_run defs (onTc (τ := τ) (main (F := F))) ⟨m, fun _ => 0, ρ⟩ (fun r => ∀ c : Dev nD,
      r.2.mem ((c.tc : Thread nD τ).loc main_v424) = Vals.out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (by
      show Function.update (GenP.V65 m (Vals.outs m) c) main_v424 (Vals.outs m 66 main_v424 c) main_v424 = _
      rw [Function.update_self, Vals.outs_32]), (h c).2⟩)
  (GenP.value_cond (m := m)
    (EP := emb₁) (ι := ()) (𝒱₀ := 𝒱₀) (L := L) (lv := lv) (hL := fun _ _ => rfl) (ρ := ρ) (outs := Vals.outs m)
    (a := a m (hyp m hpre)) (pdats := pdats m (hyp m hpre)) (O₀ := 0) (G := fun _ => iprop(emp))
    (u₀ := initOf (Pipeline.cells (Pipeline.pin (pcfgs (F := F)) (a m (hyp m hpre))) (cellOf_inj (a m (hyp m hpre)))) (Pipeline.launchToks (Pipeline.pin (pcfgs (F := F)) (a m (hyp m hpre))) (cellOf_inj (a m (hyp m hpre)))))
    (hu₀ := hu m hpre) (E := fun _ c => R c) (hE0 := hE0 ρ) (hE33 := hE33)
    (R0 := S0.reg m (hyp m hpre) (harr0 m hpre)) (hpre0 := fun _ => .rfl) (hpost0 := fun _ => .rfl)
    (R1 := S1.reg m (hyp m hpre) (harr1 m hpre)) (hpre1 := fun _ => .rfl) (hpost1 := fun _ => .rfl)
    (R2 := S2.reg m (hyp m hpre) (harr2 m hpre)) (hpre2 := fun _ => .rfl) (hpost2 := fun _ => .rfl)
    (R3 := S3.reg m (hyp m hpre) (harr3 m hpre)) (hpre3 := fun _ => .rfl) (hpost3 := fun _ => .rfl)
    (R4 := S4.reg m (hyp m hpre) (harr4 m hpre)) (hpre4 := fun _ => .rfl) (hpost4 := fun _ => .rfl)
    (R5 := S5.reg m (hyp m hpre) (harr5 m hpre)) (hpre5 := fun _ => .rfl) (hpost5 := fun _ => .rfl)
    (R6 := S6.reg m (hyp m hpre) (harr6 m hpre)) (hpre6 := fun _ => .rfl) (hpost6 := fun _ => .rfl)
    (R7 := S7.reg m (hyp m hpre) (harr7 m hpre)) (hpre7 := fun _ => .rfl) (hpost7 := fun _ => .rfl)
    (R8 := S8.reg m (hyp m hpre) (harr8 m hpre)) (hpre8 := fun _ => .rfl) (hpost8 := fun _ => .rfl)
    (R9 := S9.reg m (hyp m hpre) (harr9 m hpre)) (hpre9 := fun _ => .rfl) (hpost9 := fun _ => .rfl)
    (R10 := S10.reg m (hyp m hpre) (harr10 m hpre)) (hpre10 := fun _ => .rfl) (hpost10 := fun _ => .rfl)
    (R11 := S11.reg m (hyp m hpre) (harr11 m hpre)) (hpre11 := fun _ => .rfl) (hpost11 := fun _ => .rfl)
    (R12 := S12.reg m (hyp m hpre) (harr12 m hpre)) (hpre12 := fun _ => .rfl) (hpost12 := fun _ => .rfl)
    (R13 := S13.reg m (hyp m hpre) (harr13 m hpre)) (hpre13 := fun _ => .rfl) (hpost13 := fun _ => .rfl)
    (R14 := S14.reg m (hyp m hpre) (harr14 m hpre)) (hpre14 := fun _ => .rfl) (hpost14 := fun _ => .rfl)
    (R15 := S15.reg m (hyp m hpre) (harr15 m hpre)) (hpre15 := fun _ => .rfl) (hpost15 := fun _ => .rfl)
    (R16 := S16.reg m (hyp m hpre) (harr16 m hpre)) (hpre16 := fun _ => .rfl) (hpost16 := fun _ => .rfl)
    (R17 := S17.reg m (hyp m hpre) (harr17 m hpre)) (hpre17 := fun _ => .rfl) (hpost17 := fun _ => .rfl)
    (R18 := S18.reg m (hyp m hpre) (harr18 m hpre)) (hpre18 := fun _ => .rfl) (hpost18 := fun _ => .rfl)
    (R19 := S19.reg m (hyp m hpre) (harr19 m hpre)) (hpre19 := fun _ => .rfl) (hpost19 := fun _ => .rfl)
    (R20 := S20.reg m (hyp m hpre) (harr20 m hpre)) (hpre20 := fun _ => .rfl) (hpost20 := fun _ => .rfl)
    (R21 := S21.reg m (hyp m hpre) (harr21 m hpre)) (hpre21 := fun _ => .rfl) (hpost21 := fun _ => .rfl)
    (R22 := S22.reg m (hyp m hpre) (harr22 m hpre)) (hpre22 := fun _ => .rfl) (hpost22 := fun _ => .rfl)
    (R23 := S23.reg m (hyp m hpre) (harr23 m hpre)) (hpre23 := fun _ => .rfl) (hpost23 := fun _ => .rfl)
    (R24 := S24.reg m (hyp m hpre) (harr24 m hpre)) (hpre24 := fun _ => .rfl) (hpost24 := fun _ => .rfl)
    (R25 := S25.reg m (hyp m hpre) (harr25 m hpre)) (hpre25 := fun _ => .rfl) (hpost25 := fun _ => .rfl)
    (R26 := S26.reg m (hyp m hpre) (harr26 m hpre)) (hpre26 := fun _ => .rfl) (hpost26 := fun _ => .rfl)
    (R27 := S27.reg m (hyp m hpre) (harr27 m hpre)) (hpre27 := fun _ => .rfl) (hpost27 := fun _ => .rfl)
    (R28 := S28.reg m (hyp m hpre) (harr28 m hpre)) (hpre28 := fun _ => .rfl) (hpost28 := fun _ => .rfl)
    (R29 := S29.reg m (hyp m hpre) (harr29 m hpre)) (hpre29 := fun _ => .rfl) (hpost29 := fun _ => .rfl)
    (R30 := S30.reg m (hyp m hpre) (harr30 m hpre)) (hpre30 := fun _ => .rfl) (hpost30 := fun _ => .rfl)
    (R31 := S31.reg m (hyp m hpre) (harr31 m hpre)) (hpre31 := fun _ => .rfl) (hpost31 := fun _ => .rfl)
    (R32 := S32.reg m (hyp m hpre)) (hpre32 := fun _ => .rfl) (hpost32 := fun _ => .rfl))

end Cert.Kernel.Run

end
-- ==== Proof.KI.Vals.lean ====
/-
  The values the program computes, as functions of the three argument arrays, at any float instance.
  With X the node features [100000,128], A the edge list [2,1600000] (row 0 the target node of each edge's message,
  row 1 the node whose features travel) and W the weights [128,128]:
  the edges are cut into 32 chunks of 50000; chunk p gathers the rows X[A[1, 50000p + e]] (one row per grid point),
  the host adds them into the running sum at the rows A[0, 50000p + e] and counts the edges per target row; the last
  kernel divides each summed row by max(count, 1) and multiplies by W, 1000 rows at a time.
-/
import proofs.«406793_j90890097918585_2_alg».proof.KernelIdeal
import proofs.«406793_j90890097918585_2_alg».proof.Proof.Gen.KernelIdeal.Skeleton
import Idealize.ShloMosaic.Lib.ValueIdx

noncomputable section

namespace Cert.KernelIdeal.Vals

open Cert.KernelIdeal Cert.KernelIdeal.Facts₀ Cert.KernelIdeal.Facts
open Idealize.ShloMosaic Idealize.ShloMosaic.TcCoe Idealize.SL.Sem

variable {F : FTy → Type} [FloatOps F]
/-- The row of X a table word names (words are below 100000 under the precondition; the minimum keeps this total). -/
def rowOf (w : BitVec 32) : Fin 100000 := ⟨min w.toNat 99999, by omega⟩

variable (m : (ℓ : Loc nD τ sig) → Buf (Elt F) ℓ)

/-- The node features, the edge list and the weights on core `c`. -/
def X (c : Dev nD) : FVec F S100000x128 .f32 := m ((c : Thread nD τ).loc main_arg0)
def Adj (c : Dev nD) : IVec S2x1600000 32 := m ((c : Thread nD τ).loc main_arg1)
def Wt (c : Dev nD) : FVec F S128x128 .f32 := m ((c : Thread nD τ).loc main_arg2)

/-- Row 0 of the edge list: where each edge's message is added. -/
def src (c : Dev nD) : IVec S1600000 32 :=
  shapeCast S1600000 (extractStridedSlice S1x1600000 ![0, 0] (Adj m c) slices_S2x1600000_S1x1600000_0_0) shapeCasts_S1x1600000_S1600000
/-- Row 1 of the edge list: whose features each edge carries. -/
def dst (c : Dev nD) : IVec S1600000 32 :=
  shapeCast S1600000 (extractStridedSlice S1x1600000 ![1, 0] (Adj m c) slices_S2x1600000_S1x1600000_1_0) shapeCasts_S1x1600000_S1600000
/-- The features as [100000, 1, 128], the form the gather kernels read. -/
def X3 (c : Dev nD) : FVec F S100000x1x128 .f32 := shapeCast S100000x1x128 (X m c) shapeCasts_S100000x128_S100000x1x128

def zeros2 : FVec F S100000x128 .f32 := broadcastInDim S100000x128 ![] bcast_S_S100000x128 (constant S_ .f32 0x00000000#32)
def zeros1 : FVec F S100000 .f32 := broadcastInDim S100000 ![] bcast_S_S100000 (constant S_ .f32 0x00000000#32)
def ones : FVec F S50000 .f32 := broadcastInDim S50000 ![] bcast_S_S50000 (constant S_ .f32 0x3F800000#32)

/-- Chunk `p` of 50000 edges lies inside the 1600000. -/
theorem chunk_slices (p : ℕ) (hp : p < 32) : S1600000.Slices ![50000 * p] S50000 :=
  ⟨rfl, fun a => by
    have ha : a = 0 := Subsingleton.elim _ _
    subst ha
    show 50000 * p + 50000 ≤ 1600000
    omega⟩

/-- The edges of chunk `p`: their feature rows (the gather's table) and their target rows. -/
def dstc (p : ℕ) (c : Dev nD) : IVec S50000 32 :=
  if hp : p < 32 then extractStridedSlice S50000 ![50000 * p] (dst m c) (chunk_slices p hp) else fun _ => 0#32
def srcc (p : ℕ) (c : Dev nD) : IVec S50000 32 :=
  if hp : p < 32 then extractStridedSlice S50000 ![50000 * p] (src m c) (chunk_slices p hp) else fun _ => 0#32

/-- A gather region's output array [50000, 1, 128] from the array `Y` it reads and its table `T`: row e is row `T[e]` of `Y`. -/
def gath3Of (Y : FVec F S100000x1x128 .f32) (T : IVec S50000 32) : FVec F S50000x1x128 .f32 :=
  fun j => Y (ValueIdx.ix3 (rowOf (T (ValueIdx.ix1 (j 0)))) (j 1) (j 2))
/-- What gather region `p` leaves in its output array: row e is row `dstc p [e]` of X. -/
def gath3 (p : ℕ) (c : Dev nD) : FVec F S50000x1x128 .f32 := gath3Of (X3 m c) (dstc m p c)
/-- The same as [50000, 128], as the host adds it. -/
def gath2 (p : ℕ) (c : Dev nD) : FVec F S50000x128 .f32 := shapeCast S50000x128 (gath3 m p c) shapeCasts_S50000x1x128_S50000x128

/-- The sum of the gathered rows after `p` chunks, added at the edges' target rows. -/
def agg : ℕ → Dev nD → FVec F S100000x128 .f32
  | 0, _ => zeros2
  | p + 1, c => addf (agg p c) (Host.scatterAdd scatter_S100000x128_S50000x1_S50000x128_1_0_0_1 zeros2
      (broadcastInDim S50000x1 ![0] bcast_S50000_S50000x1_0 (srcc m p c)) (gath2 m p c))
/-- The number of edges per target row after `p` chunks. -/
def deg : ℕ → Dev nD → FVec F S100000 .f32
  | 0, _ => zeros1
  | p + 1, c => addf (deg p c) (Host.scatterAdd scatter_S100000_S50000x1_S50000_n_0_0_1 zeros1
      (broadcastInDim S50000x1 ![0] bcast_S50000_S50000x1_0 (srcc m p c)) ones)
/-- The final counts as a column [100000, 1]. -/
def degCol (c : Dev nD) : FVec F S100000x1 .f32 := broadcastInDim S100000x1 ![0] bcast_S100000_S100000x1_0 (deg m 32 c)

/-- Rows 1000t … 1000t + 999 of an array of 100000 rows. -/
def rows2 (A : FVec F S100000x128 .f32) (t : Fin 100) : Vec F S1000x128 .f32 :=
  fun y => A (ValueIdx.ix2 ⟨1000 * t.val + (y 0).val, by have := ValueIdx.idx2_lt0 y; have := t.isLt; omega⟩ (y 1))
def rows1 (A : FVec F S100000x1 .f32) (t : Fin 100) : Vec F S1000x1 .f32 :=
  fun y => A (ValueIdx.ix2 ⟨1000 * t.val + (y 0).val, by have := ValueIdx.idx2_lt0 y; have := t.isLt; omega⟩ (y 1))

/-- The last kernel's output array from the arrays it reads (the counts column `D`, the sums `A`, the weights `W`): block t
    of 1000 rows is the kernel's body on block t of `D`, block t of `A` and `W`. -/
def outOf (D : FVec F S100000x1 .f32) (A : FVec F S100000x128 .f32) (W : FVec F S128x128 .f32) : FVec F S100000x128 .f32 :=
  fun i => Gen.k32_pay1 (rows1 D ⟨(i 0).val / 1000, by have := ValueIdx.idx2_lt0 i; omega⟩)
      (rows2 A ⟨(i 0).val / 1000, by have := ValueIdx.idx2_lt0 i; omega⟩) W
      (ValueIdx.ix2 ⟨(i 0).val % 1000, Nat.mod_lt _ (by decide)⟩ (i 1))
/-- The result. -/
def out (c : Dev nD) : FVec F S100000x128 .f32 := outOf (degCol m c) (agg m 32 c) (Wt m c)

end Cert.KernelIdeal.Vals

end
-- ==== Proof.KI.Outs.lean ====
/- What each kernel region leaves in the one array it may change, as a function of the argument arrays: gather region p
   (item 2p+1 of the program) leaves the rows of chunk p, the last region the result. -/
import proofs.«406793_j90890097918585_2_alg».proof.Proof.KI.Regions
import proofs.«406793_j90890097918585_2_alg».proof.Proof.KI.Vals

noncomputable section

namespace Cert.KernelIdeal.Vals

open Cert.KernelIdeal Cert.KernelIdeal.GenP
open Idealize.ShloMosaic Idealize.ShloMosaic.TcCoe Idealize.SL.Sem

variable {F : FTy → Type} [FloatOps F]
variable (m : (ℓ : Loc nD τ sig) → Buf (Elt F) ℓ)

/-- The contents each region leaves, indexed as the conditional frame reads them (item, array, core). -/
def outs : GenP.Outs (F := F) := fun J r c =>
  match J with
  | 2 => Function.update (fun r' => m ((c : Thread nD τ).loc r')) main_v10 (gath3 m 0 c) r
  | 4 => Function.update (fun r' => m ((c : Thread nD τ).loc r')) main_v23 (gath3 m 1 c) r
  | 6 => Function.update (fun r' => m ((c : Thread nD τ).loc r')) main_v36 (gath3 m 2 c) r
  | 8 => Function.update (fun r' => m ((c : Thread nD τ).loc r')) main_v49 (gath3 m 3 c) r
  | 10 => Function.update (fun r' => m ((c : Thread nD τ).loc r')) main_v62 (gath3 m 4 c) r
  | 12 => Function.update (fun r' => m ((c : Thread nD τ).loc r')) main_v75 (gath3 m 5 c) r
  | 14 => Function.update (fun r' => m ((c : Thread nD τ).loc r')) main_v88 (gath3 m 6 c) r
  | 16 => Function.update (fun r' => m ((c : Thread nD τ).loc r')) main_v101 (gath3 m 7 c) r
  | 18 => Function.update (fun r' => m ((c : Thread nD τ).loc r')) main_v114 (gath3 m 8 c) r
  | 20 => Function.update (fun r' => m ((c : Thread nD τ).loc r')) main_v127 (gath3 m 9 c) r
  | 22 => Function.update (fun r' => m ((c : Thread nD τ).loc r')) main_v140 (gath3 m 10 c) r
  | 24 => Function.update (fun r' => m ((c : Thread nD τ).loc r')) main_v153 (gath3 m 11 c) r
  | 26 => Function.update (fun r' => m ((c : Thread nD τ).loc r')) main_v166 (gath3 m 12 c) r
  | 28 => Function.update (fun r' => m ((c : Thread nD τ).loc r')) main_v179 (gath3 m 13 c) r
  | 30 => Function.update (fun r' => m ((c : Thread nD τ).loc r')) main_v192 (gath3 m 14 c) r
  | 32 => Function.update (fun r' => m ((c : Thread nD τ).loc r')) main_v205 (gath3 m 15 c) r
  | 34 => Function.update (fun r' => m ((c : Thread nD τ).loc r')) main_v218 (gath3 m 16 c) r
  | 36 => Function.update (fun r' => m ((c : Thread nD τ).loc r')) main_v231 (gath3 m 17 c) r
  | 38 => Function.update (fun r' => m ((c : Thread nD τ).loc r')) main_v244 (gath3 m 18 c) r
  | 40 => Function.update (fun r' => m ((c : Thread nD τ).loc r')) main_v257 (gath3 m 19 c) r
  | 42 => Function.update (fun r' => m ((c : Thread nD τ).loc r')) main_v270 (gath3 m 20 c) r
  | 44 => Function.update (fun r' => m ((c : Thread nD τ).loc r')) main_v283 (gath3 m 21 c) r
  | 46 => Function.update (fun r' => m ((c : Thread nD τ).loc r')) main_v296 (gath3 m 22 c) r
  | 48 => Function.update (fun r' => m ((c : Thread nD τ).loc r')) main_v309 (gath3 m 23 c) r
  | 50 => Function.update (fun r' => m ((c : Thread nD τ).loc r')) main_v322 (gath3 m 24 c) r
  | 52 => Function.update (fun r' => m ((c : Thread nD τ).loc r')) main_v335 (gath3 m 25 c) r
  | 54 => Function.update (fun r' => m ((c : Thread nD τ).loc r')) main_v348 (gath3 m 26 c) r
  | 56 => Function.update (fun r' => m ((c : Thread nD τ).loc r')) main_v361 (gath3 m 27 c) r
  | 58 => Function.update (fun r' => m ((c : Thread nD τ).loc r')) main_v374 (gath3 m 28 c) r
  | 60 => Function.update (fun r' => m ((c : Thread nD τ).loc r')) main_v387 (gath3 m 29 c) r
  | 62 => Function.update (fun r' => m ((c : Thread nD τ).loc r')) main_v400 (gath3 m 30 c) r
  | 64 => Function.update (fun r' => m ((c : Thread nD τ).loc r')) main_v413 (gath3 m 31 c) r
  | 66 => Function.update (fun r' => m ((c : Thread nD τ).loc r')) main_v424 (out m c) r
  | _ => m ((c : Thread nD τ).loc r)

theorem outs_0 (c : Dev nD) : outs m 2 main_v10 c = gath3 m 0 c := by
  unfold outs; exact Function.update_self ..
theorem outs_1 (c : Dev nD) : outs m 4 main_v23 c = gath3 m 1 c := by
  unfold outs; exact Function.update_self ..
theorem outs_2 (c : Dev nD) : outs m 6 main_v36 c = gath3 m 2 c := by
  unfold outs; exact Function.update_self ..
theorem outs_3 (c : Dev nD) : outs m 8 main_v49 c = gath3 m 3 c := by
  unfold outs; exact Function.update_self ..
theorem outs_4 (c : Dev nD) : outs m 10 main_v62 c = gath3 m 4 c := by
  unfold outs; exact Function.update_self ..
theorem outs_5 (c : Dev nD) : outs m 12 main_v75 c = gath3 m 5 c := by
  unfold outs; exact Function.update_self ..
theorem outs_6 (c : Dev nD) : outs m 14 main_v88 c = gath3 m 6 c := by
  unfold outs; exact Function.update_self ..
theorem outs_7 (c : Dev nD) : outs m 16 main_v101 c = gath3 m 7 c := by
  unfold outs; exact Function.update_self ..
theorem outs_8 (c : Dev nD) : outs m 18 main_v114 c = gath3 m 8 c := by
  unfold outs; exact Function.update_self ..
theorem outs_9 (c : Dev nD) : outs m 20 main_v127 c = gath3 m 9 c := by
  unfold outs; exact Function.update_self ..
theorem outs_10 (c : Dev nD) : outs m 22 main_v140 c = gath3 m 10 c := by
  unfold outs; exact Function.update_self ..
theorem outs_11 (c : Dev nD) : outs m 24 main_v153 c = gath3 m 11 c := by
  unfold outs; exact Function.update_self ..
theorem outs_12 (c : Dev nD) : outs m 26 main_v166 c = gath3 m 12 c := by
  unfold outs; exact Function.update_self ..
theorem outs_13 (c : Dev nD) : outs m 28 main_v179 c = gath3 m 13 c := by
  unfold outs; exact Function.update_self ..
theorem outs_14 (c : Dev nD) : outs m 30 main_v192 c = gath3 m 14 c := by
  unfold outs; exact Function.update_self ..
theorem outs_15 (c : Dev nD) : outs m 32 main_v205 c = gath3 m 15 c := by
  unfold outs; exact Function.update_self ..
theorem outs_16 (c : Dev nD) : outs m 34 main_v218 c = gath3 m 16 c := by
  unfold outs; exact Function.update_self ..
theorem outs_17 (c : Dev nD) : outs m 36 main_v231 c = gath3 m 17 c := by
  unfold outs; exact Function.update_self ..
theorem outs_18 (c : Dev nD) : outs m 38 main_v244 c = gath3 m 18 c := by
  unfold outs; exact Function.update_self ..
theorem outs_19 (c : Dev nD) : outs m 40 main_v257 c = gath3 m 19 c := by
  unfold outs; exact Function.update_self ..
theorem outs_20 (c : Dev nD) : outs m 42 main_v270 c = gath3 m 20 c := by
  unfold outs; exact Function.update_self ..
theorem outs_21 (c : Dev nD) : outs m 44 main_v283 c = gath3 m 21 c := by
  unfold outs; exact Function.update_self ..
theorem outs_22 (c : Dev nD) : outs m 46 main_v296 c = gath3 m 22 c := by
  unfold outs; exact Function.update_self ..
theorem outs_23 (c : Dev nD) : outs m 48 main_v309 c = gath3 m 23 c := by
  unfold outs; exact Function.update_self ..
theorem outs_24 (c : Dev nD) : outs m 50 main_v322 c = gath3 m 24 c := by
  unfold outs; exact Function.update_self ..
theorem outs_25 (c : Dev nD) : outs m 52 main_v335 c = gath3 m 25 c := by
  unfold outs; exact Function.update_self ..
theorem outs_26 (c : Dev nD) : outs m 54 main_v348 c = gath3 m 26 c := by
  unfold outs; exact Function.update_self ..
theorem outs_27 (c : Dev nD) : outs m 56 main_v361 c = gath3 m 27 c := by
  unfold outs; exact Function.update_self ..
theorem outs_28 (c : Dev nD) : outs m 58 main_v374 c = gath3 m 28 c := by
  unfold outs; exact Function.update_self ..
theorem outs_29 (c : Dev nD) : outs m 60 main_v387 c = gath3 m 29 c := by
  unfold outs; exact Function.update_self ..
theorem outs_30 (c : Dev nD) : outs m 62 main_v400 c = gath3 m 30 c := by
  unfold outs; exact Function.update_self ..
theorem outs_31 (c : Dev nD) : outs m 64 main_v413 c = gath3 m 31 c := by
  unfold outs; exact Function.update_self ..
theorem outs_32 (c : Dev nD) : outs m 66 main_v424 c = out m c := by
  unfold outs; exact Function.update_self ..

end Cert.KernelIdeal.Vals

end
-- ==== Proof.KI.G0.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre0.Contents (Elt F)) (hO : ok0 (F := F) tb)

/-- The table's contents as admissible contents, and the pipeline at them. -/
abbrev adm : (pcfg0 (F := F)).Adm := ⟨tb, hO⟩
abbrev cfgM : Pipeline.Cfg sig Λ₀ := cfg0 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc0__gather_kernel (grid0.coords t) (Memref.whole main_v7) (Memref.isWhole_whole _)
    (spec0_0.stage ((cfgM tb hO).slots t 0)) (hstage0_0 (((cfgM tb hO).slots t 0).cast nbuf0_0))
    (spec0_1.stage ((cfgM tb hO).slots t 1)) (hstage0_1 (((cfgM tb hO).slots t 1).cast nbuf0_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec0 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec0 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k0_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid0.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc0__gather_kernel i arg1 harg1 arg2 harg2 arg3 harg3) K := by
  simp only [cc0__gather_kernel_eq_skeleton]; unfold cc0__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec0 w)
  after w t := match w with
    | ⟨0, _⟩ => iblk V tb hO c 0 t
    | ⟨1, _⟩ => out_1 (iblk V tb hO c 0 t)
  Φ _ := iprop(Pipeline.ΦA spec0 c ∗ Pipeline.prefHeld (Ix := Unit) (Name := ℕ) (U := UR sig nD τ) (Lvl := ℕ) pre0 c (fun _ => fullShare) tb)
  q _ := fullShare
  owed _ := 0

theorem A_eq (c : Dev nD) (w : Fin (cfgM tb hO).W) : (dat V tb hO c).A w = V c (Pipeline.arrRef spec0 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W0, bigSep_W0]
  exact sound_body V tb hO c t

end Cert.KernelIdeal.G0

end
-- ==== Proof.KI.G1.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre1.Contents (Elt F)) (hO : ok1 (F := F) tb)

/-- The table's contents as admissible contents, and the pipeline at them. -/
abbrev adm : (pcfg1 (F := F)).Adm := ⟨tb, hO⟩
abbrev cfgM : Pipeline.Cfg sig Λ₀ := cfg1 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc1__gather_kernel (grid1.coords t) (Memref.whole main_v20) (Memref.isWhole_whole _)
    (spec1_0.stage ((cfgM tb hO).slots t 0)) (hstage1_0 (((cfgM tb hO).slots t 0).cast nbuf1_0))
    (spec1_1.stage ((cfgM tb hO).slots t 1)) (hstage1_1 (((cfgM tb hO).slots t 1).cast nbuf1_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec1 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec1 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k1_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid1.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc1__gather_kernel i arg1 harg1 arg2 harg2 arg3 harg3) K := by
  simp only [cc1__gather_kernel_eq_skeleton]; unfold cc1__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec1 w)
  after w t := match w with
    | ⟨0, _⟩ => iblk V tb hO c 0 t
    | ⟨1, _⟩ => out_1 (iblk V tb hO c 0 t)
  Φ _ := iprop(Pipeline.ΦA spec1 c ∗ Pipeline.prefHeld (Ix := Unit) (Name := ℕ) (U := UR sig nD τ) (Lvl := ℕ) pre1 c (fun _ => fullShare) tb)
  q _ := fullShare
  owed _ := 0

theorem A_eq (c : Dev nD) (w : Fin (cfgM tb hO).W) : (dat V tb hO c).A w = V c (Pipeline.arrRef spec1 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W1, bigSep_W1]
  exact sound_body V tb hO c t

end Cert.KernelIdeal.G1

end
-- ==== Proof.KI.G2.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre2.Contents (Elt F)) (hO : ok2 (F := F) tb)

/-- The table's contents as admissible contents, and the pipeline at them. -/
abbrev adm : (pcfg2 (F := F)).Adm := ⟨tb, hO⟩
abbrev cfgM : Pipeline.Cfg sig Λ₀ := cfg2 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc2__gather_kernel (grid2.coords t) (Memref.whole main_v33) (Memref.isWhole_whole _)
    (spec2_0.stage ((cfgM tb hO).slots t 0)) (hstage2_0 (((cfgM tb hO).slots t 0).cast nbuf2_0))
    (spec2_1.stage ((cfgM tb hO).slots t 1)) (hstage2_1 (((cfgM tb hO).slots t 1).cast nbuf2_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec2 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec2 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k2_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid2.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc2__gather_kernel i arg1 harg1 arg2 harg2 arg3 harg3) K := by
  simp only [cc2__gather_kernel_eq_skeleton]; unfold cc2__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec2 w)
  after w t := match w with
    | ⟨0, _⟩ => iblk V tb hO c 0 t
    | ⟨1, _⟩ => out_1 (iblk V tb hO c 0 t)
  Φ _ := iprop(Pipeline.ΦA spec2 c ∗ Pipeline.prefHeld (Ix := Unit) (Name := ℕ) (U := UR sig nD τ) (Lvl := ℕ) pre2 c (fun _ => fullShare) tb)
  q _ := fullShare
  owed _ := 0

theorem A_eq (c : Dev nD) (w : Fin (cfgM tb hO).W) : (dat V tb hO c).A w = V c (Pipeline.arrRef spec2 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W2, bigSep_W2]
  exact sound_body V tb hO c t

end Cert.KernelIdeal.G2

end
-- ==== Proof.KI.G3.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre3.Contents (Elt F)) (hO : ok3 (F := F) tb)

/-- The table's contents as admissible contents, and the pipeline at them. -/
abbrev adm : (pcfg3 (F := F)).Adm := ⟨tb, hO⟩
abbrev cfgM : Pipeline.Cfg sig Λ₀ := cfg3 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc3__gather_kernel (grid3.coords t) (Memref.whole main_v46) (Memref.isWhole_whole _)
    (spec3_0.stage ((cfgM tb hO).slots t 0)) (hstage3_0 (((cfgM tb hO).slots t 0).cast nbuf3_0))
    (spec3_1.stage ((cfgM tb hO).slots t 1)) (hstage3_1 (((cfgM tb hO).slots t 1).cast nbuf3_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec3 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec3 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k3_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid3.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc3__gather_kernel i arg1 harg1 arg2 harg2 arg3 harg3) K := by
  simp only [cc3__gather_kernel_eq_skeleton]; unfold cc3__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec3 w)
  after w t := match w with
    | ⟨0, _⟩ => iblk V tb hO c 0 t
    | ⟨1, _⟩ => out_1 (iblk V tb hO c 0 t)
  Φ _ := iprop(Pipeline.ΦA spec3 c ∗ Pipeline.prefHeld (Ix := Unit) (Name := ℕ) (U := UR sig nD τ) (Lvl := ℕ) pre3 c (fun _ => fullShare) tb)
  q _ := fullShare
  owed _ := 0

theorem A_eq (c : Dev nD) (w : Fin (cfgM tb hO).W) : (dat V tb hO c).A w = V c (Pipeline.arrRef spec3 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W3, bigSep_W3]
  exact sound_body V tb hO c t

end Cert.KernelIdeal.G3

end
-- ==== Proof.KI.G4.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre4.Contents (Elt F)) (hO : ok4 (F := F) tb)

/-- The table's contents as admissible contents, and the pipeline at them. -/
abbrev adm : (pcfg4 (F := F)).Adm := ⟨tb, hO⟩
abbrev cfgM : Pipeline.Cfg sig Λ₀ := cfg4 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc4__gather_kernel (grid4.coords t) (Memref.whole main_v59) (Memref.isWhole_whole _)
    (spec4_0.stage ((cfgM tb hO).slots t 0)) (hstage4_0 (((cfgM tb hO).slots t 0).cast nbuf4_0))
    (spec4_1.stage ((cfgM tb hO).slots t 1)) (hstage4_1 (((cfgM tb hO).slots t 1).cast nbuf4_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec4 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec4 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k4_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid4.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc4__gather_kernel i arg1 harg1 arg2 harg2 arg3 harg3) K := by
  simp only [cc4__gather_kernel_eq_skeleton]; unfold cc4__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec4 w)
  after w t := match w with
    | ⟨0, _⟩ => iblk V tb hO c 0 t
    | ⟨1, _⟩ => out_1 (iblk V tb hO c 0 t)
  Φ _ := iprop(Pipeline.ΦA spec4 c ∗ Pipeline.prefHeld (Ix := Unit) (Name := ℕ) (U := UR sig nD τ) (Lvl := ℕ) pre4 c (fun _ => fullShare) tb)
  q _ := fullShare
  owed _ := 0

theorem A_eq (c : Dev nD) (w : Fin (cfgM tb hO).W) : (dat V tb hO c).A w = V c (Pipeline.arrRef spec4 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W4, bigSep_W4]
  exact sound_body V tb hO c t

end Cert.KernelIdeal.G4

end
-- ==== Proof.KI.G5.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre5.Contents (Elt F)) (hO : ok5 (F := F) tb)

/-- The table's contents as admissible contents, and the pipeline at them. -/
abbrev adm : (pcfg5 (F := F)).Adm := ⟨tb, hO⟩
abbrev cfgM : Pipeline.Cfg sig Λ₀ := cfg5 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc5__gather_kernel (grid5.coords t) (Memref.whole main_v72) (Memref.isWhole_whole _)
    (spec5_0.stage ((cfgM tb hO).slots t 0)) (hstage5_0 (((cfgM tb hO).slots t 0).cast nbuf5_0))
    (spec5_1.stage ((cfgM tb hO).slots t 1)) (hstage5_1 (((cfgM tb hO).slots t 1).cast nbuf5_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec5 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec5 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k5_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid5.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc5__gather_kernel i arg1 harg1 arg2 harg2 arg3 harg3) K := by
  simp only [cc5__gather_kernel_eq_skeleton]; unfold cc5__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec5 w)
  after w t := match w with
    | ⟨0, _⟩ => iblk V tb hO c 0 t
    | ⟨1, _⟩ => out_1 (iblk V tb hO c 0 t)
  Φ _ := iprop(Pipeline.ΦA spec5 c ∗ Pipeline.prefHeld (Ix := Unit) (Name := ℕ) (U := UR sig nD τ) (Lvl := ℕ) pre5 c (fun _ => fullShare) tb)
  q _ := fullShare
  owed _ := 0

theorem A_eq (c : Dev nD) (w : Fin (cfgM tb hO).W) : (dat V tb hO c).A w = V c (Pipeline.arrRef spec5 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W5, bigSep_W5]
  exact sound_body V tb hO c t

end Cert.KernelIdeal.G5

end
-- ==== Proof.KI.G6.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre6.Contents (Elt F)) (hO : ok6 (F := F) tb)

/-- The table's contents as admissible contents, and the pipeline at them. -/
abbrev adm : (pcfg6 (F := F)).Adm := ⟨tb, hO⟩
abbrev cfgM : Pipeline.Cfg sig Λ₀ := cfg6 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc6__gather_kernel (grid6.coords t) (Memref.whole main_v85) (Memref.isWhole_whole _)
    (spec6_0.stage ((cfgM tb hO).slots t 0)) (hstage6_0 (((cfgM tb hO).slots t 0).cast nbuf6_0))
    (spec6_1.stage ((cfgM tb hO).slots t 1)) (hstage6_1 (((cfgM tb hO).slots t 1).cast nbuf6_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec6 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec6 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k6_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid6.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc6__gather_kernel i arg1 harg1 arg2 harg2 arg3 harg3) K := by
  simp only [cc6__gather_kernel_eq_skeleton]; unfold cc6__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec6 w)
  after w t := match w with
    | ⟨0, _⟩ => iblk V tb hO c 0 t
    | ⟨1, _⟩ => out_1 (iblk V tb hO c 0 t)
  Φ _ := iprop(Pipeline.ΦA spec6 c ∗ Pipeline.prefHeld (Ix := Unit) (Name := ℕ) (U := UR sig nD τ) (Lvl := ℕ) pre6 c (fun _ => fullShare) tb)
  q _ := fullShare
  owed _ := 0

theorem A_eq (c : Dev nD) (w : Fin (cfgM tb hO).W) : (dat V tb hO c).A w = V c (Pipeline.arrRef spec6 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W6, bigSep_W6]
  exact sound_body V tb hO c t

end Cert.KernelIdeal.G6

end
-- ==== Proof.KI.G7.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre7.Contents (Elt F)) (hO : ok7 (F := F) tb)

/-- The table's contents as admissible contents, and the pipeline at them. -/
abbrev adm : (pcfg7 (F := F)).Adm := ⟨tb, hO⟩
abbrev cfgM : Pipeline.Cfg sig Λ₀ := cfg7 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc7__gather_kernel (grid7.coords t) (Memref.whole main_v98) (Memref.isWhole_whole _)
    (spec7_0.stage ((cfgM tb hO).slots t 0)) (hstage7_0 (((cfgM tb hO).slots t 0).cast nbuf7_0))
    (spec7_1.stage ((cfgM tb hO).slots t 1)) (hstage7_1 (((cfgM tb hO).slots t 1).cast nbuf7_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec7 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec7 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k7_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid7.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc7__gather_kernel i arg1 harg1 arg2 harg2 arg3 harg3) K := by
  simp only [cc7__gather_kernel_eq_skeleton]; unfold cc7__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec7 w)
  after w t := match w with
    | ⟨0, _⟩ => iblk V tb hO c 0 t
    | ⟨1, _⟩ => out_1 (iblk V tb hO c 0 t)
  Φ _ := iprop(Pipeline.ΦA spec7 c ∗ Pipeline.prefHeld (Ix := Unit) (Name := ℕ) (U := UR sig nD τ) (Lvl := ℕ) pre7 c (fun _ => fullShare) tb)
  q _ := fullShare
  owed _ := 0

theorem A_eq (c : Dev nD) (w : Fin (cfgM tb hO).W) : (dat V tb hO c).A w = V c (Pipeline.arrRef spec7 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W7, bigSep_W7]
  exact sound_body V tb hO c t

end Cert.KernelIdeal.G7

end
-- ==== Proof.KI.G8.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre8.Contents (Elt F)) (hO : ok8 (F := F) tb)

/-- The table's contents as admissible contents, and the pipeline at them. -/
abbrev adm : (pcfg8 (F := F)).Adm := ⟨tb, hO⟩
abbrev cfgM : Pipeline.Cfg sig Λ₀ := cfg8 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc8__gather_kernel (grid8.coords t) (Memref.whole main_v111) (Memref.isWhole_whole _)
    (spec8_0.stage ((cfgM tb hO).slots t 0)) (hstage8_0 (((cfgM tb hO).slots t 0).cast nbuf8_0))
    (spec8_1.stage ((cfgM tb hO).slots t 1)) (hstage8_1 (((cfgM tb hO).slots t 1).cast nbuf8_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec8 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec8 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k8_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid8.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc8__gather_kernel i arg1 harg1 arg2 harg2 arg3 harg3) K := by
  simp only [cc8__gather_kernel_eq_skeleton]; unfold cc8__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec8 w)
  after w t := match w with
    | ⟨0, _⟩ => iblk V tb hO c 0 t
    | ⟨1, _⟩ => out_1 (iblk V tb hO c 0 t)
  Φ _ := iprop(Pipeline.ΦA spec8 c ∗ Pipeline.prefHeld (Ix := Unit) (Name := ℕ) (U := UR sig nD τ) (Lvl := ℕ) pre8 c (fun _ => fullShare) tb)
  q _ := fullShare
  owed _ := 0

theorem A_eq (c : Dev nD) (w : Fin (cfgM tb hO).W) : (dat V tb hO c).A w = V c (Pipeline.arrRef spec8 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W8, bigSep_W8]
  exact sound_body V tb hO c t

end Cert.KernelIdeal.G8

end
-- ==== Proof.KI.G9.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre9.Contents (Elt F)) (hO : ok9 (F := F) tb)

/-- The table's contents as admissible contents, and the pipeline at them. -/
abbrev adm : (pcfg9 (F := F)).Adm := ⟨tb, hO⟩
abbrev cfgM : Pipeline.Cfg sig Λ₀ := cfg9 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc9__gather_kernel (grid9.coords t) (Memref.whole main_v124) (Memref.isWhole_whole _)
    (spec9_0.stage ((cfgM tb hO).slots t 0)) (hstage9_0 (((cfgM tb hO).slots t 0).cast nbuf9_0))
    (spec9_1.stage ((cfgM tb hO).slots t 1)) (hstage9_1 (((cfgM tb hO).slots t 1).cast nbuf9_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec9 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec9 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k9_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid9.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc9__gather_kernel i arg1 harg1 arg2 harg2 arg3 harg3) K := by
  simp only [cc9__gather_kernel_eq_skeleton]; unfold cc9__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec9 w)
  after w t := match w with
    | ⟨0, _⟩ => iblk V tb hO c 0 t
    | ⟨1, _⟩ => out_1 (iblk V tb hO c 0 t)
  Φ _ := iprop(Pipeline.ΦA spec9 c ∗ Pipeline.prefHeld (Ix := Unit) (Name := ℕ) (U := UR sig nD τ) (Lvl := ℕ) pre9 c (fun _ => fullShare) tb)
  q _ := fullShare
  owed _ := 0

theorem A_eq (c : Dev nD) (w : Fin (cfgM tb hO).W) : (dat V tb hO c).A w = V c (Pipeline.arrRef spec9 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W9, bigSep_W9]
  exact sound_body V tb hO c t

end Cert.KernelIdeal.G9

end
-- ==== Proof.KI.G10.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre10.Contents (Elt F)) (hO : ok10 (F := F) tb)

/-- The table's contents as admissible contents, and the pipeline at them. -/
abbrev adm : (pcfg10 (F := F)).Adm := ⟨tb, hO⟩
abbrev cfgM : Pipeline.Cfg sig Λ₀ := cfg10 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc10__gather_kernel (grid10.coords t) (Memref.whole main_v137) (Memref.isWhole_whole _)
    (spec10_0.stage ((cfgM tb hO).slots t 0)) (hstage10_0 (((cfgM tb hO).slots t 0).cast nbuf10_0))
    (spec10_1.stage ((cfgM tb hO).slots t 1)) (hstage10_1 (((cfgM tb hO).slots t 1).cast nbuf10_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec10 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec10 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k10_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid10.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc10__gather_kernel i arg1 harg1 arg2 harg2 arg3 harg3) K := by
  simp only [cc10__gather_kernel_eq_skeleton]; unfold cc10__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec10 w)
  after w t := match w with
    | ⟨0, _⟩ => iblk V tb hO c 0 t
    | ⟨1, _⟩ => out_1 (iblk V tb hO c 0 t)
  Φ _ := iprop(Pipeline.ΦA spec10 c ∗ Pipeline.prefHeld (Ix := Unit) (Name := ℕ) (U := UR sig nD τ) (Lvl := ℕ) pre10 c (fun _ => fullShare) tb)
  q _ := fullShare
  owed _ := 0

theorem A_eq (c : Dev nD) (w : Fin (cfgM tb hO).W) : (dat V tb hO c).A w = V c (Pipeline.arrRef spec10 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W10, bigSep_W10]
  exact sound_body V tb hO c t

end Cert.KernelIdeal.G10

end
-- ==== Proof.KI.G11.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre11.Contents (Elt F)) (hO : ok11 (F := F) tb)

/-- The table's contents as admissible contents, and the pipeline at them. -/
abbrev adm : (pcfg11 (F := F)).Adm := ⟨tb, hO⟩
abbrev cfgM : Pipeline.Cfg sig Λ₀ := cfg11 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc11__gather_kernel (grid11.coords t) (Memref.whole main_v150) (Memref.isWhole_whole _)
    (spec11_0.stage ((cfgM tb hO).slots t 0)) (hstage11_0 (((cfgM tb hO).slots t 0).cast nbuf11_0))
    (spec11_1.stage ((cfgM tb hO).slots t 1)) (hstage11_1 (((cfgM tb hO).slots t 1).cast nbuf11_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec11 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec11 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k11_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid11.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc11__gather_kernel i arg1 harg1 arg2 harg2 arg3 harg3) K := by
  simp only [cc11__gather_kernel_eq_skeleton]; unfold cc11__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec11 w)
  after w t := match w with
    | ⟨0, _⟩ => iblk V tb hO c 0 t
    | ⟨1, _⟩ => out_1 (iblk V tb hO c 0 t)
  Φ _ := iprop(Pipeline.ΦA spec11 c ∗ Pipeline.prefHeld (Ix := Unit) (Name := ℕ) (U := UR sig nD τ) (Lvl := ℕ) pre11 c (fun _ => fullShare) tb)
  q _ := fullShare
  owed _ := 0

theorem A_eq (c : Dev nD) (w : Fin (cfgM tb hO).W) : (dat V tb hO c).A w = V c (Pipeline.arrRef spec11 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W11, bigSep_W11]
  exact sound_body V tb hO c t

end Cert.KernelIdeal.G11

end
-- ==== Proof.KI.G12.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre12.Contents (Elt F)) (hO : ok12 (F := F) tb)

/-- The table's contents as admissible contents, and the pipeline at them. -/
abbrev adm : (pcfg12 (F := F)).Adm := ⟨tb, hO⟩
abbrev cfgM : Pipeline.Cfg sig Λ₀ := cfg12 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc12__gather_kernel (grid12.coords t) (Memref.whole main_v163) (Memref.isWhole_whole _)
    (spec12_0.stage ((cfgM tb hO).slots t 0)) (hstage12_0 (((cfgM tb hO).slots t 0).cast nbuf12_0))
    (spec12_1.stage ((cfgM tb hO).slots t 1)) (hstage12_1 (((cfgM tb hO).slots t 1).cast nbuf12_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec12 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec12 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k12_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid12.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc12__gather_kernel i arg1 harg1 arg2 harg2 arg3 harg3) K := by
  simp only [cc12__gather_kernel_eq_skeleton]; unfold cc12__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec12 w)
  after w t := match w with
    | ⟨0, _⟩ => iblk V tb hO c 0 t
    | ⟨1, _⟩ => out_1 (iblk V tb hO c 0 t)
  Φ _ := iprop(Pipeline.ΦA spec12 c ∗ Pipeline.prefHeld (Ix := Unit) (Name := ℕ) (U := UR sig nD τ) (Lvl := ℕ) pre12 c (fun _ => fullShare) tb)
  q _ := fullShare
  owed _ := 0

theorem A_eq (c : Dev nD) (w : Fin (cfgM tb hO).W) : (dat V tb hO c).A w = V c (Pipeline.arrRef spec12 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W12, bigSep_W12]
  exact sound_body V tb hO c t

end Cert.KernelIdeal.G12

end
-- ==== Proof.KI.G13.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre13.Contents (Elt F)) (hO : ok13 (F := F) tb)

/-- The table's contents as admissible contents, and the pipeline at them. -/
abbrev adm : (pcfg13 (F := F)).Adm := ⟨tb, hO⟩
abbrev cfgM : Pipeline.Cfg sig Λ₀ := cfg13 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc13__gather_kernel (grid13.coords t) (Memref.whole main_v176) (Memref.isWhole_whole _)
    (spec13_0.stage ((cfgM tb hO).slots t 0)) (hstage13_0 (((cfgM tb hO).slots t 0).cast nbuf13_0))
    (spec13_1.stage ((cfgM tb hO).slots t 1)) (hstage13_1 (((cfgM tb hO).slots t 1).cast nbuf13_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec13 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec13 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k13_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid13.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc13__gather_kernel i arg1 harg1 arg2 harg2 arg3 harg3) K := by
  simp only [cc13__gather_kernel_eq_skeleton]; unfold cc13__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec13 w)
  after w t := match w with
    | ⟨0, _⟩ => iblk V tb hO c 0 t
    | ⟨1, _⟩ => out_1 (iblk V tb hO c 0 t)
  Φ _ := iprop(Pipeline.ΦA spec13 c ∗ Pipeline.prefHeld (Ix := Unit) (Name := ℕ) (U := UR sig nD τ) (Lvl := ℕ) pre13 c (fun _ => fullShare) tb)
  q _ := fullShare
  owed _ := 0

theorem A_eq (c : Dev nD) (w : Fin (cfgM tb hO).W) : (dat V tb hO c).A w = V c (Pipeline.arrRef spec13 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W13, bigSep_W13]
  exact sound_body V tb hO c t

end Cert.KernelIdeal.G13

end
-- ==== Proof.KI.G14.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G14

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre14.Contents (Elt F)) (hO : ok14 (F := F) tb)

/-- The table's contents as admissible contents, and the pipeline at them. -/
abbrev adm : (pcfg14 (F := F)).Adm := ⟨tb, hO⟩
abbrev cfgM : Pipeline.Cfg sig Λ₀ := cfg14 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc14__gather_kernel (grid14.coords t) (Memref.whole main_v189) (Memref.isWhole_whole _)
    (spec14_0.stage ((cfgM tb hO).slots t 0)) (hstage14_0 (((cfgM tb hO).slots t 0).cast nbuf14_0))
    (spec14_1.stage ((cfgM tb hO).slots t 1)) (hstage14_1 (((cfgM tb hO).slots t 1).cast nbuf14_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec14 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec14 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k14_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid14.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc14__gather_kernel i arg1 harg1 arg2 harg2 arg3 harg3) K := by
  simp only [cc14__gather_kernel_eq_skeleton]; unfold cc14__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec14 w)
  after w t := match w with
    | ⟨0, _⟩ => iblk V tb hO c 0 t
    | ⟨1, _⟩ => out_1 (iblk V tb hO c 0 t)
  Φ _ := iprop(Pipeline.ΦA spec14 c ∗ Pipeline.prefHeld (Ix := Unit) (Name := ℕ) (U := UR sig nD τ) (Lvl := ℕ) pre14 c (fun _ => fullShare) tb)
  q _ := fullShare
  owed _ := 0

theorem A_eq (c : Dev nD) (w : Fin (cfgM tb hO).W) : (dat V tb hO c).A w = V c (Pipeline.arrRef spec14 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W14, bigSep_W14]
  exact sound_body V tb hO c t

end Cert.KernelIdeal.G14

end
-- ==== Proof.KI.G15.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G15

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre15.Contents (Elt F)) (hO : ok15 (F := F) tb)

/-- The table's contents as admissible contents, and the pipeline at them. -/
abbrev adm : (pcfg15 (F := F)).Adm := ⟨tb, hO⟩
abbrev cfgM : Pipeline.Cfg sig Λ₀ := cfg15 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc15__gather_kernel (grid15.coords t) (Memref.whole main_v202) (Memref.isWhole_whole _)
    (spec15_0.stage ((cfgM tb hO).slots t 0)) (hstage15_0 (((cfgM tb hO).slots t 0).cast nbuf15_0))
    (spec15_1.stage ((cfgM tb hO).slots t 1)) (hstage15_1 (((cfgM tb hO).slots t 1).cast nbuf15_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec15 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec15 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k15_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid15.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc15__gather_kernel i arg1 harg1 arg2 harg2 arg3 harg3) K := by
  simp only [cc15__gather_kernel_eq_skeleton]; unfold cc15__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec15 w)
  after w t := match w with
    | ⟨0, _⟩ => iblk V tb hO c 0 t
    | ⟨1, _⟩ => out_1 (iblk V tb hO c 0 t)
  Φ _ := iprop(Pipeline.ΦA spec15 c ∗ Pipeline.prefHeld (Ix := Unit) (Name := ℕ) (U := UR sig nD τ) (Lvl := ℕ) pre15 c (fun _ => fullShare) tb)
  q _ := fullShare
  owed _ := 0

theorem A_eq (c : Dev nD) (w : Fin (cfgM tb hO).W) : (dat V tb hO c).A w = V c (Pipeline.arrRef spec15 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W15, bigSep_W15]
  exact sound_body V tb hO c t

end Cert.KernelIdeal.G15

end
-- ==== Proof.KI.G16.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G16

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre16.Contents (Elt F)) (hO : ok16 (F := F) tb)

/-- The table's contents as admissible contents, and the pipeline at them. -/
abbrev adm : (pcfg16 (F := F)).Adm := ⟨tb, hO⟩
abbrev cfgM : Pipeline.Cfg sig Λ₀ := cfg16 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc16__gather_kernel (grid16.coords t) (Memref.whole main_v215) (Memref.isWhole_whole _)
    (spec16_0.stage ((cfgM tb hO).slots t 0)) (hstage16_0 (((cfgM tb hO).slots t 0).cast nbuf16_0))
    (spec16_1.stage ((cfgM tb hO).slots t 1)) (hstage16_1 (((cfgM tb hO).slots t 1).cast nbuf16_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec16 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec16 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k16_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid16.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc16__gather_kernel i arg1 harg1 arg2 harg2 arg3 harg3) K := by
  simp only [cc16__gather_kernel_eq_skeleton]; unfold cc16__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec16 w)
  after w t := match w with
    | ⟨0, _⟩ => iblk V tb hO c 0 t
    | ⟨1, _⟩ => out_1 (iblk V tb hO c 0 t)
  Φ _ := iprop(Pipeline.ΦA spec16 c ∗ Pipeline.prefHeld (Ix := Unit) (Name := ℕ) (U := UR sig nD τ) (Lvl := ℕ) pre16 c (fun _ => fullShare) tb)
  q _ := fullShare
  owed _ := 0

theorem A_eq (c : Dev nD) (w : Fin (cfgM tb hO).W) : (dat V tb hO c).A w = V c (Pipeline.arrRef spec16 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W16, bigSep_W16]
  exact sound_body V tb hO c t

end Cert.KernelIdeal.G16

end
-- ==== Proof.KI.G17.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G17

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre17.Contents (Elt F)) (hO : ok17 (F := F) tb)

/-- The table's contents as admissible contents, and the pipeline at them. -/
abbrev adm : (pcfg17 (F := F)).Adm := ⟨tb, hO⟩
abbrev cfgM : Pipeline.Cfg sig Λ₀ := cfg17 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc17__gather_kernel (grid17.coords t) (Memref.whole main_v228) (Memref.isWhole_whole _)
    (spec17_0.stage ((cfgM tb hO).slots t 0)) (hstage17_0 (((cfgM tb hO).slots t 0).cast nbuf17_0))
    (spec17_1.stage ((cfgM tb hO).slots t 1)) (hstage17_1 (((cfgM tb hO).slots t 1).cast nbuf17_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec17 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec17 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k17_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid17.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc17__gather_kernel i arg1 harg1 arg2 harg2 arg3 harg3) K := by
  simp only [cc17__gather_kernel_eq_skeleton]; unfold cc17__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec17 w)
  after w t := match w with
    | ⟨0, _⟩ => iblk V tb hO c 0 t
    | ⟨1, _⟩ => out_1 (iblk V tb hO c 0 t)
  Φ _ := iprop(Pipeline.ΦA spec17 c ∗ Pipeline.prefHeld (Ix := Unit) (Name := ℕ) (U := UR sig nD τ) (Lvl := ℕ) pre17 c (fun _ => fullShare) tb)
  q _ := fullShare
  owed _ := 0

theorem A_eq (c : Dev nD) (w : Fin (cfgM tb hO).W) : (dat V tb hO c).A w = V c (Pipeline.arrRef spec17 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W17, bigSep_W17]
  exact sound_body V tb hO c t

end Cert.KernelIdeal.G17

end
-- ==== Proof.KI.G18.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G18

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre18.Contents (Elt F)) (hO : ok18 (F := F) tb)

/-- The table's contents as admissible contents, and the pipeline at them. -/
abbrev adm : (pcfg18 (F := F)).Adm := ⟨tb, hO⟩
abbrev cfgM : Pipeline.Cfg sig Λ₀ := cfg18 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc18__gather_kernel (grid18.coords t) (Memref.whole main_v241) (Memref.isWhole_whole _)
    (spec18_0.stage ((cfgM tb hO).slots t 0)) (hstage18_0 (((cfgM tb hO).slots t 0).cast nbuf18_0))
    (spec18_1.stage ((cfgM tb hO).slots t 1)) (hstage18_1 (((cfgM tb hO).slots t 1).cast nbuf18_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec18 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec18 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k18_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid18.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc18__gather_kernel i arg1 harg1 arg2 harg2 arg3 harg3) K := by
  simp only [cc18__gather_kernel_eq_skeleton]; unfold cc18__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec18 w)
  after w t := match w with
    | ⟨0, _⟩ => iblk V tb hO c 0 t
    | ⟨1, _⟩ => out_1 (iblk V tb hO c 0 t)
  Φ _ := iprop(Pipeline.ΦA spec18 c ∗ Pipeline.prefHeld (Ix := Unit) (Name := ℕ) (U := UR sig nD τ) (Lvl := ℕ) pre18 c (fun _ => fullShare) tb)
  q _ := fullShare
  owed _ := 0

theorem A_eq (c : Dev nD) (w : Fin (cfgM tb hO).W) : (dat V tb hO c).A w = V c (Pipeline.arrRef spec18 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W18, bigSep_W18]
  exact sound_body V tb hO c t

end Cert.KernelIdeal.G18

end
-- ==== Proof.KI.G19.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G19

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre19.Contents (Elt F)) (hO : ok19 (F := F) tb)

/-- The table's contents as admissible contents, and the pipeline at them. -/
abbrev adm : (pcfg19 (F := F)).Adm := ⟨tb, hO⟩
abbrev cfgM : Pipeline.Cfg sig Λ₀ := cfg19 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc19__gather_kernel (grid19.coords t) (Memref.whole main_v254) (Memref.isWhole_whole _)
    (spec19_0.stage ((cfgM tb hO).slots t 0)) (hstage19_0 (((cfgM tb hO).slots t 0).cast nbuf19_0))
    (spec19_1.stage ((cfgM tb hO).slots t 1)) (hstage19_1 (((cfgM tb hO).slots t 1).cast nbuf19_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec19 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec19 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k19_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid19.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc19__gather_kernel i arg1 harg1 arg2 harg2 arg3 harg3) K := by
  simp only [cc19__gather_kernel_eq_skeleton]; unfold cc19__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec19 w)
  after w t := match w with
    | ⟨0, _⟩ => iblk V tb hO c 0 t
    | ⟨1, _⟩ => out_1 (iblk V tb hO c 0 t)
  Φ _ := iprop(Pipeline.ΦA spec19 c ∗ Pipeline.prefHeld (Ix := Unit) (Name := ℕ) (U := UR sig nD τ) (Lvl := ℕ) pre19 c (fun _ => fullShare) tb)
  q _ := fullShare
  owed _ := 0

theorem A_eq (c : Dev nD) (w : Fin (cfgM tb hO).W) : (dat V tb hO c).A w = V c (Pipeline.arrRef spec19 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W19, bigSep_W19]
  exact sound_body V tb hO c t

end Cert.KernelIdeal.G19

end
-- ==== Proof.KI.G20.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G20

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre20.Contents (Elt F)) (hO : ok20 (F := F) tb)

/-- The table's contents as admissible contents, and the pipeline at them. -/
abbrev adm : (pcfg20 (F := F)).Adm := ⟨tb, hO⟩
abbrev cfgM : Pipeline.Cfg sig Λ₀ := cfg20 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc20__gather_kernel (grid20.coords t) (Memref.whole main_v267) (Memref.isWhole_whole _)
    (spec20_0.stage ((cfgM tb hO).slots t 0)) (hstage20_0 (((cfgM tb hO).slots t 0).cast nbuf20_0))
    (spec20_1.stage ((cfgM tb hO).slots t 1)) (hstage20_1 (((cfgM tb hO).slots t 1).cast nbuf20_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec20 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec20 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k20_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid20.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc20__gather_kernel i arg1 harg1 arg2 harg2 arg3 harg3) K := by
  simp only [cc20__gather_kernel_eq_skeleton]; unfold cc20__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec20 w)
  after w t := match w with
    | ⟨0, _⟩ => iblk V tb hO c 0 t
    | ⟨1, _⟩ => out_1 (iblk V tb hO c 0 t)
  Φ _ := iprop(Pipeline.ΦA spec20 c ∗ Pipeline.prefHeld (Ix := Unit) (Name := ℕ) (U := UR sig nD τ) (Lvl := ℕ) pre20 c (fun _ => fullShare) tb)
  q _ := fullShare
  owed _ := 0

theorem A_eq (c : Dev nD) (w : Fin (cfgM tb hO).W) : (dat V tb hO c).A w = V c (Pipeline.arrRef spec20 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W20, bigSep_W20]
  exact sound_body V tb hO c t

end Cert.KernelIdeal.G20

end
-- ==== Proof.KI.G21.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G21

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre21.Contents (Elt F)) (hO : ok21 (F := F) tb)

/-- The table's contents as admissible contents, and the pipeline at them. -/
abbrev adm : (pcfg21 (F := F)).Adm := ⟨tb, hO⟩
abbrev cfgM : Pipeline.Cfg sig Λ₀ := cfg21 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc21__gather_kernel (grid21.coords t) (Memref.whole main_v280) (Memref.isWhole_whole _)
    (spec21_0.stage ((cfgM tb hO).slots t 0)) (hstage21_0 (((cfgM tb hO).slots t 0).cast nbuf21_0))
    (spec21_1.stage ((cfgM tb hO).slots t 1)) (hstage21_1 (((cfgM tb hO).slots t 1).cast nbuf21_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec21 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec21 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k21_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid21.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc21__gather_kernel i arg1 harg1 arg2 harg2 arg3 harg3) K := by
  simp only [cc21__gather_kernel_eq_skeleton]; unfold cc21__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec21 w)
  after w t := match w with
    | ⟨0, _⟩ => iblk V tb hO c 0 t
    | ⟨1, _⟩ => out_1 (iblk V tb hO c 0 t)
  Φ _ := iprop(Pipeline.ΦA spec21 c ∗ Pipeline.prefHeld (Ix := Unit) (Name := ℕ) (U := UR sig nD τ) (Lvl := ℕ) pre21 c (fun _ => fullShare) tb)
  q _ := fullShare
  owed _ := 0

theorem A_eq (c : Dev nD) (w : Fin (cfgM tb hO).W) : (dat V tb hO c).A w = V c (Pipeline.arrRef spec21 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W21, bigSep_W21]
  exact sound_body V tb hO c t

end Cert.KernelIdeal.G21

end
-- ==== Proof.KI.G22.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G22

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre22.Contents (Elt F)) (hO : ok22 (F := F) tb)

/-- The table's contents as admissible contents, and the pipeline at them. -/
abbrev adm : (pcfg22 (F := F)).Adm := ⟨tb, hO⟩
abbrev cfgM : Pipeline.Cfg sig Λ₀ := cfg22 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc22__gather_kernel (grid22.coords t) (Memref.whole main_v293) (Memref.isWhole_whole _)
    (spec22_0.stage ((cfgM tb hO).slots t 0)) (hstage22_0 (((cfgM tb hO).slots t 0).cast nbuf22_0))
    (spec22_1.stage ((cfgM tb hO).slots t 1)) (hstage22_1 (((cfgM tb hO).slots t 1).cast nbuf22_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec22 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec22 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k22_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid22.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc22__gather_kernel i arg1 harg1 arg2 harg2 arg3 harg3) K := by
  simp only [cc22__gather_kernel_eq_skeleton]; unfold cc22__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec22 w)
  after w t := match w with
    | ⟨0, _⟩ => iblk V tb hO c 0 t
    | ⟨1, _⟩ => out_1 (iblk V tb hO c 0 t)
  Φ _ := iprop(Pipeline.ΦA spec22 c ∗ Pipeline.prefHeld (Ix := Unit) (Name := ℕ) (U := UR sig nD τ) (Lvl := ℕ) pre22 c (fun _ => fullShare) tb)
  q _ := fullShare
  owed _ := 0

theorem A_eq (c : Dev nD) (w : Fin (cfgM tb hO).W) : (dat V tb hO c).A w = V c (Pipeline.arrRef spec22 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W22, bigSep_W22]
  exact sound_body V tb hO c t

end Cert.KernelIdeal.G22

end
-- ==== Proof.KI.G23.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G23

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre23.Contents (Elt F)) (hO : ok23 (F := F) tb)

/-- The table's contents as admissible contents, and the pipeline at them. -/
abbrev adm : (pcfg23 (F := F)).Adm := ⟨tb, hO⟩
abbrev cfgM : Pipeline.Cfg sig Λ₀ := cfg23 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc23__gather_kernel (grid23.coords t) (Memref.whole main_v306) (Memref.isWhole_whole _)
    (spec23_0.stage ((cfgM tb hO).slots t 0)) (hstage23_0 (((cfgM tb hO).slots t 0).cast nbuf23_0))
    (spec23_1.stage ((cfgM tb hO).slots t 1)) (hstage23_1 (((cfgM tb hO).slots t 1).cast nbuf23_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec23 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec23 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k23_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid23.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc23__gather_kernel i arg1 harg1 arg2 harg2 arg3 harg3) K := by
  simp only [cc23__gather_kernel_eq_skeleton]; unfold cc23__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec23 w)
  after w t := match w with
    | ⟨0, _⟩ => iblk V tb hO c 0 t
    | ⟨1, _⟩ => out_1 (iblk V tb hO c 0 t)
  Φ _ := iprop(Pipeline.ΦA spec23 c ∗ Pipeline.prefHeld (Ix := Unit) (Name := ℕ) (U := UR sig nD τ) (Lvl := ℕ) pre23 c (fun _ => fullShare) tb)
  q _ := fullShare
  owed _ := 0

theorem A_eq (c : Dev nD) (w : Fin (cfgM tb hO).W) : (dat V tb hO c).A w = V c (Pipeline.arrRef spec23 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W23, bigSep_W23]
  exact sound_body V tb hO c t

end Cert.KernelIdeal.G23

end
-- ==== Proof.KI.G24.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G24

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre24.Contents (Elt F)) (hO : ok24 (F := F) tb)

/-- The table's contents as admissible contents, and the pipeline at them. -/
abbrev adm : (pcfg24 (F := F)).Adm := ⟨tb, hO⟩
abbrev cfgM : Pipeline.Cfg sig Λ₀ := cfg24 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc24__gather_kernel (grid24.coords t) (Memref.whole main_v319) (Memref.isWhole_whole _)
    (spec24_0.stage ((cfgM tb hO).slots t 0)) (hstage24_0 (((cfgM tb hO).slots t 0).cast nbuf24_0))
    (spec24_1.stage ((cfgM tb hO).slots t 1)) (hstage24_1 (((cfgM tb hO).slots t 1).cast nbuf24_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec24 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec24 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k24_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid24.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc24__gather_kernel i arg1 harg1 arg2 harg2 arg3 harg3) K := by
  simp only [cc24__gather_kernel_eq_skeleton]; unfold cc24__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec24 w)
  after w t := match w with
    | ⟨0, _⟩ => iblk V tb hO c 0 t
    | ⟨1, _⟩ => out_1 (iblk V tb hO c 0 t)
  Φ _ := iprop(Pipeline.ΦA spec24 c ∗ Pipeline.prefHeld (Ix := Unit) (Name := ℕ) (U := UR sig nD τ) (Lvl := ℕ) pre24 c (fun _ => fullShare) tb)
  q _ := fullShare
  owed _ := 0

theorem A_eq (c : Dev nD) (w : Fin (cfgM tb hO).W) : (dat V tb hO c).A w = V c (Pipeline.arrRef spec24 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W24, bigSep_W24]
  exact sound_body V tb hO c t

end Cert.KernelIdeal.G24

end
-- ==== Proof.KI.G25.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G25

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre25.Contents (Elt F)) (hO : ok25 (F := F) tb)

/-- The table's contents as admissible contents, and the pipeline at them. -/
abbrev adm : (pcfg25 (F := F)).Adm := ⟨tb, hO⟩
abbrev cfgM : Pipeline.Cfg sig Λ₀ := cfg25 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc25__gather_kernel (grid25.coords t) (Memref.whole main_v332) (Memref.isWhole_whole _)
    (spec25_0.stage ((cfgM tb hO).slots t 0)) (hstage25_0 (((cfgM tb hO).slots t 0).cast nbuf25_0))
    (spec25_1.stage ((cfgM tb hO).slots t 1)) (hstage25_1 (((cfgM tb hO).slots t 1).cast nbuf25_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec25 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec25 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k25_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid25.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc25__gather_kernel i arg1 harg1 arg2 harg2 arg3 harg3) K := by
  simp only [cc25__gather_kernel_eq_skeleton]; unfold cc25__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec25 w)
  after w t := match w with
    | ⟨0, _⟩ => iblk V tb hO c 0 t
    | ⟨1, _⟩ => out_1 (iblk V tb hO c 0 t)
  Φ _ := iprop(Pipeline.ΦA spec25 c ∗ Pipeline.prefHeld (Ix := Unit) (Name := ℕ) (U := UR sig nD τ) (Lvl := ℕ) pre25 c (fun _ => fullShare) tb)
  q _ := fullShare
  owed _ := 0

theorem A_eq (c : Dev nD) (w : Fin (cfgM tb hO).W) : (dat V tb hO c).A w = V c (Pipeline.arrRef spec25 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W25, bigSep_W25]
  exact sound_body V tb hO c t

end Cert.KernelIdeal.G25

end
-- ==== Proof.KI.G26.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G26

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre26.Contents (Elt F)) (hO : ok26 (F := F) tb)

/-- The table's contents as admissible contents, and the pipeline at them. -/
abbrev adm : (pcfg26 (F := F)).Adm := ⟨tb, hO⟩
abbrev cfgM : Pipeline.Cfg sig Λ₀ := cfg26 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc26__gather_kernel (grid26.coords t) (Memref.whole main_v345) (Memref.isWhole_whole _)
    (spec26_0.stage ((cfgM tb hO).slots t 0)) (hstage26_0 (((cfgM tb hO).slots t 0).cast nbuf26_0))
    (spec26_1.stage ((cfgM tb hO).slots t 1)) (hstage26_1 (((cfgM tb hO).slots t 1).cast nbuf26_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec26 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec26 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k26_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid26.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc26__gather_kernel i arg1 harg1 arg2 harg2 arg3 harg3) K := by
  simp only [cc26__gather_kernel_eq_skeleton]; unfold cc26__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec26 w)
  after w t := match w with
    | ⟨0, _⟩ => iblk V tb hO c 0 t
    | ⟨1, _⟩ => out_1 (iblk V tb hO c 0 t)
  Φ _ := iprop(Pipeline.ΦA spec26 c ∗ Pipeline.prefHeld (Ix := Unit) (Name := ℕ) (U := UR sig nD τ) (Lvl := ℕ) pre26 c (fun _ => fullShare) tb)
  q _ := fullShare
  owed _ := 0

theorem A_eq (c : Dev nD) (w : Fin (cfgM tb hO).W) : (dat V tb hO c).A w = V c (Pipeline.arrRef spec26 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W26, bigSep_W26]
  exact sound_body V tb hO c t

end Cert.KernelIdeal.G26

end
-- ==== Proof.KI.G27.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G27

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre27.Contents (Elt F)) (hO : ok27 (F := F) tb)

/-- The table's contents as admissible contents, and the pipeline at them. -/
abbrev adm : (pcfg27 (F := F)).Adm := ⟨tb, hO⟩
abbrev cfgM : Pipeline.Cfg sig Λ₀ := cfg27 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc27__gather_kernel (grid27.coords t) (Memref.whole main_v358) (Memref.isWhole_whole _)
    (spec27_0.stage ((cfgM tb hO).slots t 0)) (hstage27_0 (((cfgM tb hO).slots t 0).cast nbuf27_0))
    (spec27_1.stage ((cfgM tb hO).slots t 1)) (hstage27_1 (((cfgM tb hO).slots t 1).cast nbuf27_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec27 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec27 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k27_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid27.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc27__gather_kernel i arg1 harg1 arg2 harg2 arg3 harg3) K := by
  simp only [cc27__gather_kernel_eq_skeleton]; unfold cc27__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec27 w)
  after w t := match w with
    | ⟨0, _⟩ => iblk V tb hO c 0 t
    | ⟨1, _⟩ => out_1 (iblk V tb hO c 0 t)
  Φ _ := iprop(Pipeline.ΦA spec27 c ∗ Pipeline.prefHeld (Ix := Unit) (Name := ℕ) (U := UR sig nD τ) (Lvl := ℕ) pre27 c (fun _ => fullShare) tb)
  q _ := fullShare
  owed _ := 0

theorem A_eq (c : Dev nD) (w : Fin (cfgM tb hO).W) : (dat V tb hO c).A w = V c (Pipeline.arrRef spec27 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W27, bigSep_W27]
  exact sound_body V tb hO c t

end Cert.KernelIdeal.G27

end
-- ==== Proof.KI.G28.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G28

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre28.Contents (Elt F)) (hO : ok28 (F := F) tb)

/-- The table's contents as admissible contents, and the pipeline at them. -/
abbrev adm : (pcfg28 (F := F)).Adm := ⟨tb, hO⟩
abbrev cfgM : Pipeline.Cfg sig Λ₀ := cfg28 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc28__gather_kernel (grid28.coords t) (Memref.whole main_v371) (Memref.isWhole_whole _)
    (spec28_0.stage ((cfgM tb hO).slots t 0)) (hstage28_0 (((cfgM tb hO).slots t 0).cast nbuf28_0))
    (spec28_1.stage ((cfgM tb hO).slots t 1)) (hstage28_1 (((cfgM tb hO).slots t 1).cast nbuf28_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec28 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec28 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k28_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid28.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc28__gather_kernel i arg1 harg1 arg2 harg2 arg3 harg3) K := by
  simp only [cc28__gather_kernel_eq_skeleton]; unfold cc28__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec28 w)
  after w t := match w with
    | ⟨0, _⟩ => iblk V tb hO c 0 t
    | ⟨1, _⟩ => out_1 (iblk V tb hO c 0 t)
  Φ _ := iprop(Pipeline.ΦA spec28 c ∗ Pipeline.prefHeld (Ix := Unit) (Name := ℕ) (U := UR sig nD τ) (Lvl := ℕ) pre28 c (fun _ => fullShare) tb)
  q _ := fullShare
  owed _ := 0

theorem A_eq (c : Dev nD) (w : Fin (cfgM tb hO).W) : (dat V tb hO c).A w = V c (Pipeline.arrRef spec28 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W28, bigSep_W28]
  exact sound_body V tb hO c t

end Cert.KernelIdeal.G28

end
-- ==== Proof.KI.G29.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G29

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre29.Contents (Elt F)) (hO : ok29 (F := F) tb)

/-- The table's contents as admissible contents, and the pipeline at them. -/
abbrev adm : (pcfg29 (F := F)).Adm := ⟨tb, hO⟩
abbrev cfgM : Pipeline.Cfg sig Λ₀ := cfg29 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc29__gather_kernel (grid29.coords t) (Memref.whole main_v384) (Memref.isWhole_whole _)
    (spec29_0.stage ((cfgM tb hO).slots t 0)) (hstage29_0 (((cfgM tb hO).slots t 0).cast nbuf29_0))
    (spec29_1.stage ((cfgM tb hO).slots t 1)) (hstage29_1 (((cfgM tb hO).slots t 1).cast nbuf29_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec29 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec29 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k29_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid29.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc29__gather_kernel i arg1 harg1 arg2 harg2 arg3 harg3) K := by
  simp only [cc29__gather_kernel_eq_skeleton]; unfold cc29__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec29 w)
  after w t := match w with
    | ⟨0, _⟩ => iblk V tb hO c 0 t
    | ⟨1, _⟩ => out_1 (iblk V tb hO c 0 t)
  Φ _ := iprop(Pipeline.ΦA spec29 c ∗ Pipeline.prefHeld (Ix := Unit) (Name := ℕ) (U := UR sig nD τ) (Lvl := ℕ) pre29 c (fun _ => fullShare) tb)
  q _ := fullShare
  owed _ := 0

theorem A_eq (c : Dev nD) (w : Fin (cfgM tb hO).W) : (dat V tb hO c).A w = V c (Pipeline.arrRef spec29 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W29, bigSep_W29]
  exact sound_body V tb hO c t

end Cert.KernelIdeal.G29

end
-- ==== Proof.KI.G30.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G30

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre30.Contents (Elt F)) (hO : ok30 (F := F) tb)

/-- The table's contents as admissible contents, and the pipeline at them. -/
abbrev adm : (pcfg30 (F := F)).Adm := ⟨tb, hO⟩
abbrev cfgM : Pipeline.Cfg sig Λ₀ := cfg30 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc30__gather_kernel (grid30.coords t) (Memref.whole main_v397) (Memref.isWhole_whole _)
    (spec30_0.stage ((cfgM tb hO).slots t 0)) (hstage30_0 (((cfgM tb hO).slots t 0).cast nbuf30_0))
    (spec30_1.stage ((cfgM tb hO).slots t 1)) (hstage30_1 (((cfgM tb hO).slots t 1).cast nbuf30_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec30 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec30 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k30_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid30.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc30__gather_kernel i arg1 harg1 arg2 harg2 arg3 harg3) K := by
  simp only [cc30__gather_kernel_eq_skeleton]; unfold cc30__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec30 w)
  after w t := match w with
    | ⟨0, _⟩ => iblk V tb hO c 0 t
    | ⟨1, _⟩ => out_1 (iblk V tb hO c 0 t)
  Φ _ := iprop(Pipeline.ΦA spec30 c ∗ Pipeline.prefHeld (Ix := Unit) (Name := ℕ) (U := UR sig nD τ) (Lvl := ℕ) pre30 c (fun _ => fullShare) tb)
  q _ := fullShare
  owed _ := 0

theorem A_eq (c : Dev nD) (w : Fin (cfgM tb hO).W) : (dat V tb hO c).A w = V c (Pipeline.arrRef spec30 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W30, bigSep_W30]
  exact sound_body V tb hO c t

end Cert.KernelIdeal.G30

end
-- ==== Proof.KI.G31.lean ====
/-
  Gather region 0 (the first pallas_call), at any contents `V` of the buffers when it is entered and any admissible
  contents `tb` of its index table: the grid has 50000 points; at point t the input window's block is row `tb[t]` of
  the [100000, 1, 128] array and the body copies it into the output window's block t. Stated here: each window's block
  at a point, what the body leaves in the output's staging buffer, the body's triple, the pipeline's proof data (the
  table rides in the invariant, whole, and comes back), and the body obligation at every point.
-/
import proofs.«406793_j90890097918585_2_alg».proof.Proof.Gen.KernelIdeal.Launch
import proofs.«406793_j90890097918585_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.G31

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, and its table's contents with the side condition on them
variable (V : (c : Dev nD) → (b : Ref sig .tc) → Buf (Elt F) ((c : Thread nD τ).loc b))
variable (tb : pre31.Contents (Elt F)) (hO : ok31 (F := F) tb)

/-- The table's contents as admissible contents, and the pipeline at them. -/
abbrev adm : (pcfg31 (F := F)).Adm := ⟨tb, hO⟩
abbrev cfgM : Pipeline.Cfg sig Λ₀ := cfg31 (adm tb hO)

/-- Each window's current staging memref at point `t`, and the body as the pipeline calls it there. -/
abbrev st_0 (t : Fin (cfgM tb hO).N) := ((cfgM tb hO).win 0).stage ((cfgM tb hO).slots t 0)
abbrev st_1 (t : Fin (cfgM tb hO).N) := ((cfgM tb hO).win 1).stage ((cfgM tb hO).slots t 1)
abbrev bodyAt (t : Fin (cfgM tb hO).N) : Prog (TpuEff nD τ sig (Elt F) Λ₀ .tc) PUnit :=
  cc31__gather_kernel (grid31.coords t) (Memref.whole main_v410) (Memref.isWhole_whole _)
    (spec31_0.stage ((cfgM tb hO).slots t 0)) (hstage31_0 (((cfgM tb hO).slots t 0).cast nbuf31_0))
    (spec31_1.stage ((cfgM tb hO).slots t 1)) (hstage31_1 (((cfgM tb hO).slots t 1).cast nbuf31_1))

/-- Window `w`'s block at point `t`, read off its array as the region finds it. -/
def iblk (c : Dev nD) (w : Fin (cfgM tb hO).W) (t : Fin (cfgM tb hO).N) :
    (((cfgM tb hO).win w).xblock ((cfgM tb hO).grid.coords t)).Idx → Elt F ((cfgM tb hO).win w).elt :=
  (((cfgM tb hO).win w).blk t).view.read (Elt F) (V c (Pipeline.arrRef spec31 w))

/-- The input window's current staging buffer holds its block at every point, for any proof data whose array is
    `V`'s and whose body leaves the block in place. -/
theorem before_0_of {c : Dev nD} (dat : Dat τ (Elt F) Unit ℕ (UR sig nD τ) ℕ (cfgM tb hO) c)
    (hA : dat.A 0 = V c (Pipeline.arrRef spec31 0)) (hafter : ∀ t, dat.after 0 t = iblk V tb hO c 0 t)
    (t : Fin (cfgM tb hO).N) (d) : dat.before 0 t d = iblk V tb hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The one rectangle the body reads and writes: the whole [1, 1, 128] block. -/
abbrev r0 : Rect S1x1x128 := Rect.unit (s := S1x1x128) ![0, 0, 0] S1x1x128.size inb_S1x1x128_S1x1x128_0_0_0

/-- What the body leaves in the output window's staging buffer: the input block, stored whole. -/
def out_1 (x0 : Vec F S1x1x128 .f32) : Vec F S1x1x128 .f32 :=
  View.canon [⟨r0, k31_pay1 (View.ld x0 r0)⟩]

theorem cover_1 (p0 : Vec F S1x1x128 .f32) (y : S1x1x128.Idx) :
    ∃ pc ∈ ([⟨r0, p0⟩] : List (View.Piece (Elt F) S1x1x128 .f32)), y ∈ pc.1.set :=
  View.cover_of_tiled [⟨r0, p0⟩] S1x1x128.size (by rfl) y

set_option maxHeartbeats 1000000 in
/-- The body on whole staging memrefs: the input's at `x0` and the output's at anything run to the input's as it was
    and the output's at `out_1 x0` (the table's memref is not touched). -/
theorem sound_kernel (c : Dev nD) (E : Set ℕ) (i : grid31.Coords) (arg1 : Memref sig .tc .smem S50000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out_1 x0)) -∗ K ⟨⟩))
      ⊢ wp frame (wpE (defs₀ (F := F)) Variants.none c none) E (cc31__gather_kernel i arg1 harg1 arg2 harg2 arg3 harg3) K := by
  simp only [cc31__gather_kernel_eq_skeleton]; unfold cc31__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_1 _)

/-- The pipeline's proof data on core `c`: the arrays as the region finds them; after the body at point `t` the input's
    buffer at its block and the output's at the copy; the invariant the scoped rest, the generator register and the
    table held whole; nothing owed; full shares. -/
def dat (c : Dev nD) : Dat τ (Elt F) Unit ℕ (UR sig nD τ) ℕ (cfgM tb hO) c where
  A w := V c (Pipeline.arrRef spec31 w)
  after w t := match w with
    | ⟨0, _⟩ => iblk V tb hO c 0 t
    | ⟨1, _⟩ => out_1 (iblk V tb hO c 0 t)
  Φ _ := iprop(Pipeline.ΦA spec31 c ∗ Pipeline.prefHeld (Ix := Unit) (Name := ℕ) (U := UR sig nD τ) (Lvl := ℕ) pre31 c (fun _ => fullShare) tb)
  q _ := fullShare
  owed _ := 0

theorem A_eq (c : Dev nD) (w : Fin (cfgM tb hO).W) : (dat V tb hO c).A w = V c (Pipeline.arrRef spec31 w) := by
  dsimp only [dat]
theorem after_0 (c : Dev nD) (t : Fin (cfgM tb hO).N) : (dat V tb hO c).after 0 t = iblk V tb hO c 0 t := by dsimp only [dat]; try rfl
theorem after_1 (c : Dev nD) (t : Fin (cfgM tb hO).N) : (dat V tb hO c).after 1 t = out_1 (iblk V tb hO c 0 t) := by dsimp only [dat]; try rfl
theorem before_0 (c : Dev nD) (t : Fin (cfgM tb hO).N) (d) : (dat V tb hO c).before 0 t d = iblk V tb hO c 0 t :=
  before_0_of V tb hO (dat V tb hO c) (A_eq V tb hO c 0) (after_0 V tb hO c) t d

/-- What the body is called with at point `t`, -/
def bodyPre (c : Dev nD) (t : Fin (cfgM tb hO).N) : sProp 𝕄 :=
  iprop((dat V tb hO c).Φ t.castSucc ∗ (dat V tb hO c).owesAt () t.castSucc
    ∗ (∃ d, owns (c : Thread nD τ) (st_0 tb hO t) fullShare ((dat V tb hO c).before 0 t d))
    ∗ (∃ d, owns (c : Thread nD τ) (st_1 tb hO t) fullShare ((dat V tb hO c).before 1 t d)))
/-- and what it returns. -/
def bodyPost (c : Dev nD) (t : Fin (cfgM tb hO).N) : sProp 𝕄 :=
  iprop((dat V tb hO c).Φ t.succ ∗ (dat V tb hO c).owesAt () t.succ
    ∗ owns (c : Thread nD τ) (st_0 tb hO t) fullShare ((dat V tb hO c).after 0 t)
    ∗ owns (c : Thread nD τ) (st_1 tb hO t) fullShare ((dat V tb hO c).after 1 t))

/-- The body at any point: the input's memref holds its block, so the body's triple applies; the invariant and the
    core's dues pass through unread. -/
theorem sound_body (c : Dev nD) (t : Fin (cfgM tb hO).N) :
    bodyPre V tb hO c t ⊢ wp frame (wpE (defs₀ (F := F)) Variants.none c none) Set.univ (bodyAt tb hO t) (fun _ => bodyPost V tb hO c t) := by
  unfold bodyPre bodyPost bodyAt
  simp only [before_0]
  rw [show (dat V tb hO c).Φ t.succ = (dat V tb hO c).Φ t.castSucc from rfl,
    show (dat V tb hO c).owesAt () t.succ = (dat V tb hO c).owesAt () t.castSucc from rfl,
    after_0, after_1]
  iintro ⟨HΦ, Ho, ⟨%d0, H0⟩, ⟨%d1, H1⟩⟩
  iapply (sound_kernel c Set.univ _ _ _ _ _ _ _ (iblk V tb hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V tb hO c) (defs₀ (F := F)) Variants.none () Set.univ := fun t => by
  rw [bigSep_W31, bigSep_W31]
  exact sound_body V tb hO c t

end Cert.KernelIdeal.G31

end
-- ==== Proof.KI.MM0.lean ====
/-
  The last kernel region (the mean and matrix product), at any contents `V` of the buffers when it is entered: the
  definitions. The grid has 100 points; at point t the sums' window holds rows 1000t … 1000t + 999 of the [100000, 128]
  array, the counts' window the same rows of the [100000, 1] column, the weights' window the whole [128, 128] array, and
  the body stores into the result's window the rows divided by max(count, 1) and multiplied by the weights. Stated
  here: each window's block at a point, what the body leaves in the result's staging buffer, and the pipeline's proof
  data with its projections.
-/
import proofs.«406793_j90890097918585_2_alg».proof.Proof.Gen.KernelIdeal.Launch
import proofs.«406793_j90890097918585_2_alg».proof.Proof.Gen.KernelIdeal.Skeleton
import proofs.«406793_j90890097918585_2_alg».proof.Proof.Gen.KernelIdeal.Points
import Idealize.ShloMosaic.Lib.Pipeline.FrameBody

set_option maxRecDepth 16384

noncomputable section

namespace Cert.KernelIdeal.MM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]

-- the buffers' contents when the region is entered
variable (V : (c : Dev nD) → (b : Ref sig .tc) → Buf (Elt F) ((c : Thread nD τ).loc b))

/-- Window `w`'s block at point `t`, read off its array as the region finds it. -/
def iblk (c : Dev nD) (w : Fin cfg32.W) (t : Fin cfg32.N) :
    ((cfg32.win w).xblock (cfg32.grid.coords t)).Idx → Elt F (cfg32.win w).elt :=
  ((cfg32.win w).blk t).view.read (Elt F) (V c (Pipeline.arrRef spec32 w))

/-- The rectangles the body reads and writes: each whole block. -/
abbrev rS : Rect S1000x128 := Rect.unit (s := S1000x128) ![0, 0] S1000x128.size inb_S1000x128_S1000x128_0_0
abbrev rD : Rect S1000x1 := Rect.unit (s := S1000x1) ![0, 0] S1000x1.size inb_S1000x1_S1000x1_0_0
abbrev rW : Rect S128x128 := Rect.unit (s := S128x128) ![0, 0] S128x128.size inb_S128x128_S128x128_0_0

/-- What the body leaves in the result window's staging buffer: the payload of the three input blocks (the sums' `x0`,
    the counts' `x1`, the weights' `x2`), stored whole. -/
def out_3 (x0 : Vec F S1000x128 .f32) (x1 : Vec F S1000x1 .f32) (x2 : Vec F S128x128 .f32) : Vec F S1000x128 .f32 :=
  View.canon [⟨rS, k32_pay1 (View.ld x1 rD) (View.ld x0 rS) (View.ld x2 rW)⟩]

/-- The pipeline's proof data on core `c`: the arrays as the region finds them; after the body at point `t` each
    input's buffer at its block and the result's at the body's payload of the three blocks; the invariant the scoped
    rest and the generator register; nothing owed; full shares. -/
def dat (c : Dev nD) : Dat τ (Elt F) Unit ℕ (UR sig nD τ) ℕ cfg32 c where
  A w := V c (Pipeline.arrRef spec32 w)
  after w t := match w with
    | ⟨0, _⟩ => iblk V c 0 t
    | ⟨1, _⟩ => iblk V c 1 t
    | ⟨2, _⟩ => iblk V c 2 t
    | ⟨3, _⟩ => out_3 (iblk V c 0 t) (iblk V c 1 t) (iblk V c 2 t)
  Φ _ := Pipeline.ΦA spec32 c
  q _ := fullShare
  owed _ := 0

theorem A_eq (c : Dev nD) (w : Fin cfg32.W) : (dat V c).A w = V c (Pipeline.arrRef spec32 w) := by
  dsimp only [dat]
theorem after_0 (c : Dev nD) (t : Fin cfg32.N) : (dat V c).after 0 t = iblk V c 0 t := by dsimp only [dat]; try rfl
theorem after_1 (c : Dev nD) (t : Fin cfg32.N) : (dat V c).after 1 t = iblk V c 1 t := by dsimp only [dat]; try rfl
theorem after_2 (c : Dev nD) (t : Fin cfg32.N) : (dat V c).after 2 t = iblk V c 2 t := by dsimp only [dat]; try rfl
theorem after_3 (c : Dev nD) (t : Fin cfg32.N) :
    (dat V c).after 3 t = out_3 (iblk V c 0 t) (iblk V c 1 t) (iblk V c 2 t) := by dsimp only [dat]; try rfl

end Cert.KernelIdeal.MM

end
-- ==== Proof.KI.Data.lean ====
/- What the launch is stated over: region p is entered at the buffers' contents `Ve p` (the conditional frame's valuation
   before it, with each earlier region's output at the gathered rows); gather region p's index table is read off those
   contents; `Hyp` says every table keeps its blocks inside the array; `a` and `pdats` are the admissible tables and the
   proof data of all 33 pipelines; `R` is what rides beside the buffers (the generator register, nothing owed). -/
import proofs.«406793_j90890097918585_2_alg».proof.Proof.KI.Outs
import proofs.«406793_j90890097918585_2_alg».proof.Proof.KI.G0
import proofs.«406793_j90890097918585_2_alg».proof.Proof.KI.G1
import proofs.«406793_j90890097918585_2_alg».proof.Proof.KI.G2
import proofs.«406793_j90890097918585_2_alg».proof.Proof.KI.G3
import proofs.«406793_j90890097918585_2_alg».proof.Proof.KI.G4
import proofs.«406793_j90890097918585_2_alg».proof.Proof.KI.G5
import proofs.«406793_j90890097918585_2_alg».proof.Proof.KI.G6
import proofs.«406793_j90890097918585_2_alg».proof.Proof.KI.G7
import proofs.«406793_j90890097918585_2_alg».proof.Proof.KI.G8
import proofs.«406793_j90890097918585_2_alg».proof.Proof.KI.G9
import proofs.«406793_j90890097918585_2_alg».proof.Proof.KI.G10
import proofs.«406793_j90890097918585_2_alg».proof.Proof.KI.G11
import proofs.«406793_j90890097918585_2_alg».proof.Proof.KI.G12
import proofs.«406793_j90890097918585_2_alg».proof.Proof.KI.G13
import proofs.«406793_j90890097918585_2_alg».proof.Proof.KI.G14
import proofs.«406793_j90890097918585_2_alg».proof.Proof.KI.G15
import proofs.«406793_j90890097918585_2_alg».proof.Proof.KI.G16
import proofs.«406793_j90890097918585_2_alg».proof.Proof.KI.G17
import proofs.«406793_j90890097918585_2_alg».proof.Proof.KI.G18
import proofs.«406793_j90890097918585_2_alg».proof.Proof.KI.G19
import proofs.«406793_j90890097918585_2_alg».proof.Proof.KI.G20
import proofs.«406793_j90890097918585_2_alg».proof.Proof.KI.G21
import proofs.«406793_j90890097918585_2_alg».proof.Proof.KI.G22
import proofs.«406793_j90890097918585_2_alg».proof.Proof.KI.G23
import proofs.«406793_j90890097918585_2_alg».proof.Proof.KI.G24
import proofs.«406793_j90890097918585_2_alg».proof.Proof.KI.G25
import proofs.«406793_j90890097918585_2_alg».proof.Proof.KI.G26
import proofs.«406793_j90890097918585_2_alg».proof.Proof.KI.G27
import proofs.«406793_j90890097918585_2_alg».proof.Proof.KI.G28
import proofs.«406793_j90890097918585_2_alg».proof.Proof.KI.G29
import proofs.«406793_j90890097918585_2_alg».proof.Proof.KI.G30
import proofs.«406793_j90890097918585_2_alg».proof.Proof.KI.G31
import proofs.«406793_j90890097918585_2_alg».proof.Proof.KI.MM0

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ)

/-- The buffers' contents when region p is entered. -/
abbrev Ve0 (c : Dev nD) (b : Ref sig .tc) : Buf (Elt F) ((c : Thread nD τ).loc b) := GenP.V1 m c b
abbrev Ve1 (c : Dev nD) (b : Ref sig .tc) : Buf (Elt F) ((c : Thread nD τ).loc b) := GenP.V3 m (Vals.outs m) c b
abbrev Ve2 (c : Dev nD) (b : Ref sig .tc) : Buf (Elt F) ((c : Thread nD τ).loc b) := GenP.V5 m (Vals.outs m) c b
abbrev Ve3 (c : Dev nD) (b : Ref sig .tc) : Buf (Elt F) ((c : Thread nD τ).loc b) := GenP.V7 m (Vals.outs m) c b
abbrev Ve4 (c : Dev nD) (b : Ref sig .tc) : Buf (Elt F) ((c : Thread nD τ).loc b) := GenP.V9 m (Vals.outs m) c b
abbrev Ve5 (c : Dev nD) (b : Ref sig .tc) : Buf (Elt F) ((c : Thread nD τ).loc b) := GenP.V11 m (Vals.outs m) c b
abbrev Ve6 (c : Dev nD) (b : Ref sig .tc) : Buf (Elt F) ((c : Thread nD τ).loc b) := GenP.V13 m (Vals.outs m) c b
abbrev Ve7 (c : Dev nD) (b : Ref sig .tc) : Buf (Elt F) ((c : Thread nD τ).loc b) := GenP.V15 m (Vals.outs m) c b
abbrev Ve8 (c : Dev nD) (b : Ref sig .tc) : Buf (Elt F) ((c : Thread nD τ).loc b) := GenP.V17 m (Vals.outs m) c b
abbrev Ve9 (c : Dev nD) (b : Ref sig .tc) : Buf (Elt F) ((c : Thread nD τ).loc b) := GenP.V19 m (Vals.outs m) c b
abbrev Ve10 (c : Dev nD) (b : Ref sig .tc) : Buf (Elt F) ((c : Thread nD τ).loc b) := GenP.V21 m (Vals.outs m) c b
abbrev Ve11 (c : Dev nD) (b : Ref sig .tc) : Buf (Elt F) ((c : Thread nD τ).loc b) := GenP.V23 m (Vals.outs m) c b
abbrev Ve12 (c : Dev nD) (b : Ref sig .tc) : Buf (Elt F) ((c : Thread nD τ).loc b) := GenP.V25 m (Vals.outs m) c b
abbrev Ve13 (c : Dev nD) (b : Ref sig .tc) : Buf (Elt F) ((c : Thread nD τ).loc b) := GenP.V27 m (Vals.outs m) c b
abbrev Ve14 (c : Dev nD) (b : Ref sig .tc) : Buf (Elt F) ((c : Thread nD τ).loc b) := GenP.V29 m (Vals.outs m) c b
abbrev Ve15 (c : Dev nD) (b : Ref sig .tc) : Buf (Elt F) ((c : Thread nD τ).loc b) := GenP.V31 m (Vals.outs m) c b
abbrev Ve16 (c : Dev nD) (b : Ref sig .tc) : Buf (Elt F) ((c : Thread nD τ).loc b) := GenP.V33 m (Vals.outs m) c b
abbrev Ve17 (c : Dev nD) (b : Ref sig .tc) : Buf (Elt F) ((c : Thread nD τ).loc b) := GenP.V35 m (Vals.outs m) c b
abbrev Ve18 (c : Dev nD) (b : Ref sig .tc) : Buf (Elt F) ((c : Thread nD τ).loc b) := GenP.V37 m (Vals.outs m) c b
abbrev Ve19 (c : Dev nD) (b : Ref sig .tc) : Buf (Elt F) ((c : Thread nD τ).loc b) := GenP.V39 m (Vals.outs m) c b
abbrev Ve20 (c : Dev nD) (b : Ref sig .tc) : Buf (Elt F) ((c : Thread nD τ).loc b) := GenP.V41 m (Vals.outs m) c b
abbrev Ve21 (c : Dev nD) (b : Ref sig .tc) : Buf (Elt F) ((c : Thread nD τ).loc b) := GenP.V43 m (Vals.outs m) c b
abbrev Ve22 (c : Dev nD) (b : Ref sig .tc) : Buf (Elt F) ((c : Thread nD τ).loc b) := GenP.V45 m (Vals.outs m) c b
abbrev Ve23 (c : Dev nD) (b : Ref sig .tc) : Buf (Elt F) ((c : Thread nD τ).loc b) := GenP.V47 m (Vals.outs m) c b
abbrev Ve24 (c : Dev nD) (b : Ref sig .tc) : Buf (Elt F) ((c : Thread nD τ).loc b) := GenP.V49 m (Vals.outs m) c b
abbrev Ve25 (c : Dev nD) (b : Ref sig .tc) : Buf (Elt F) ((c : Thread nD τ).loc b) := GenP.V51 m (Vals.outs m) c b
abbrev Ve26 (c : Dev nD) (b : Ref sig .tc) : Buf (Elt F) ((c : Thread nD τ).loc b) := GenP.V53 m (Vals.outs m) c b
abbrev Ve27 (c : Dev nD) (b : Ref sig .tc) : Buf (Elt F) ((c : Thread nD τ).loc b) := GenP.V55 m (Vals.outs m) c b
abbrev Ve28 (c : Dev nD) (b : Ref sig .tc) : Buf (Elt F) ((c : Thread nD τ).loc b) := GenP.V57 m (Vals.outs m) c b
abbrev Ve29 (c : Dev nD) (b : Ref sig .tc) : Buf (Elt F) ((c : Thread nD τ).loc b) := GenP.V59 m (Vals.outs m) c b
abbrev Ve30 (c : Dev nD) (b : Ref sig .tc) : Buf (Elt F) ((c : Thread nD τ).loc b) := GenP.V61 m (Vals.outs m) c b
abbrev Ve31 (c : Dev nD) (b : Ref sig .tc) : Buf (Elt F) ((c : Thread nD τ).loc b) := GenP.V63 m (Vals.outs m) c b
abbrev Ve32 (c : Dev nD) (b : Ref sig .tc) : Buf (Elt F) ((c : Thread nD τ).loc b) := GenP.V65 m (Vals.outs m) c b

/-- Gather region p's index table, read off its entry contents (the program runs on one device). -/
def tbl0 : pre0.Contents (Elt F) := fun k => Ve0 m (0 : Dev nD) (pre0.ref k)
def tbl1 : pre1.Contents (Elt F) := fun k => Ve1 m (0 : Dev nD) (pre1.ref k)
def tbl2 : pre2.Contents (Elt F) := fun k => Ve2 m (0 : Dev nD) (pre2.ref k)
def tbl3 : pre3.Contents (Elt F) := fun k => Ve3 m (0 : Dev nD) (pre3.ref k)
def tbl4 : pre4.Contents (Elt F) := fun k => Ve4 m (0 : Dev nD) (pre4.ref k)
def tbl5 : pre5.Contents (Elt F) := fun k => Ve5 m (0 : Dev nD) (pre5.ref k)
def tbl6 : pre6.Contents (Elt F) := fun k => Ve6 m (0 : Dev nD) (pre6.ref k)
def tbl7 : pre7.Contents (Elt F) := fun k => Ve7 m (0 : Dev nD) (pre7.ref k)
def tbl8 : pre8.Contents (Elt F) := fun k => Ve8 m (0 : Dev nD) (pre8.ref k)
def tbl9 : pre9.Contents (Elt F) := fun k => Ve9 m (0 : Dev nD) (pre9.ref k)
def tbl10 : pre10.Contents (Elt F) := fun k => Ve10 m (0 : Dev nD) (pre10.ref k)
def tbl11 : pre11.Contents (Elt F) := fun k => Ve11 m (0 : Dev nD) (pre11.ref k)
def tbl12 : pre12.Contents (Elt F) := fun k => Ve12 m (0 : Dev nD) (pre12.ref k)
def tbl13 : pre13.Contents (Elt F) := fun k => Ve13 m (0 : Dev nD) (pre13.ref k)
def tbl14 : pre14.Contents (Elt F) := fun k => Ve14 m (0 : Dev nD) (pre14.ref k)
def tbl15 : pre15.Contents (Elt F) := fun k => Ve15 m (0 : Dev nD) (pre15.ref k)
def tbl16 : pre16.Contents (Elt F) := fun k => Ve16 m (0 : Dev nD) (pre16.ref k)
def tbl17 : pre17.Contents (Elt F) := fun k => Ve17 m (0 : Dev nD) (pre17.ref k)
def tbl18 : pre18.Contents (Elt F) := fun k => Ve18 m (0 : Dev nD) (pre18.ref k)
def tbl19 : pre19.Contents (Elt F) := fun k => Ve19 m (0 : Dev nD) (pre19.ref k)
def tbl20 : pre20.Contents (Elt F) := fun k => Ve20 m (0 : Dev nD) (pre20.ref k)
def tbl21 : pre21.Contents (Elt F) := fun k => Ve21 m (0 : Dev nD) (pre21.ref k)
def tbl22 : pre22.Contents (Elt F) := fun k => Ve22 m (0 : Dev nD) (pre22.ref k)
def tbl23 : pre23.Contents (Elt F) := fun k => Ve23 m (0 : Dev nD) (pre23.ref k)
def tbl24 : pre24.Contents (Elt F) := fun k => Ve24 m (0 : Dev nD) (pre24.ref k)
def tbl25 : pre25.Contents (Elt F) := fun k => Ve25 m (0 : Dev nD) (pre25.ref k)
def tbl26 : pre26.Contents (Elt F) := fun k => Ve26 m (0 : Dev nD) (pre26.ref k)
def tbl27 : pre27.Contents (Elt F) := fun k => Ve27 m (0 : Dev nD) (pre27.ref k)
def tbl28 : pre28.Contents (Elt F) := fun k => Ve28 m (0 : Dev nD) (pre28.ref k)
def tbl29 : pre29.Contents (Elt F) := fun k => Ve29 m (0 : Dev nD) (pre29.ref k)
def tbl30 : pre30.Contents (Elt F) := fun k => Ve30 m (0 : Dev nD) (pre30.ref k)
def tbl31 : pre31.Contents (Elt F) := fun k => Ve31 m (0 : Dev nD) (pre31.ref k)

/-- Every table keeps every block of its window inside the array. -/
structure Hyp : Prop where
  ok0 : ok0 (F := F) (tbl0 m)
  ok1 : ok1 (F := F) (tbl1 m)
  ok2 : ok2 (F := F) (tbl2 m)
  ok3 : ok3 (F := F) (tbl3 m)
  ok4 : ok4 (F := F) (tbl4 m)
  ok5 : ok5 (F := F) (tbl5 m)
  ok6 : ok6 (F := F) (tbl6 m)
  ok7 : ok7 (F := F) (tbl7 m)
  ok8 : ok8 (F := F) (tbl8 m)
  ok9 : ok9 (F := F) (tbl9 m)
  ok10 : ok10 (F := F) (tbl10 m)
  ok11 : ok11 (F := F) (tbl11 m)
  ok12 : ok12 (F := F) (tbl12 m)
  ok13 : ok13 (F := F) (tbl13 m)
  ok14 : ok14 (F := F) (tbl14 m)
  ok15 : ok15 (F := F) (tbl15 m)
  ok16 : ok16 (F := F) (tbl16 m)
  ok17 : ok17 (F := F) (tbl17 m)
  ok18 : ok18 (F := F) (tbl18 m)
  ok19 : ok19 (F := F) (tbl19 m)
  ok20 : ok20 (F := F) (tbl20 m)
  ok21 : ok21 (F := F) (tbl21 m)
  ok22 : ok22 (F := F) (tbl22 m)
  ok23 : ok23 (F := F) (tbl23 m)
  ok24 : ok24 (F := F) (tbl24 m)
  ok25 : ok25 (F := F) (tbl25 m)
  ok26 : ok26 (F := F) (tbl26 m)
  ok27 : ok27 (F := F) (tbl27 m)
  ok28 : ok28 (F := F) (tbl28 m)
  ok29 : ok29 (F := F) (tbl29 m)
  ok30 : ok30 (F := F) (tbl30 m)
  ok31 : ok31 (F := F) (tbl31 m)

variable (h : Hyp m)

/-- The tables as admissible contents. -/
def a : (p : Fin 33) → (pcfgs (F := F) p).Adm
  | ⟨0, _⟩ => ⟨tbl0 m, h.ok0⟩
  | ⟨1, _⟩ => ⟨tbl1 m, h.ok1⟩
  | ⟨2, _⟩ => ⟨tbl2 m, h.ok2⟩
  | ⟨3, _⟩ => ⟨tbl3 m, h.ok3⟩
  | ⟨4, _⟩ => ⟨tbl4 m, h.ok4⟩
  | ⟨5, _⟩ => ⟨tbl5 m, h.ok5⟩
  | ⟨6, _⟩ => ⟨tbl6 m, h.ok6⟩
  | ⟨7, _⟩ => ⟨tbl7 m, h.ok7⟩
  | ⟨8, _⟩ => ⟨tbl8 m, h.ok8⟩
  | ⟨9, _⟩ => ⟨tbl9 m, h.ok9⟩
  | ⟨10, _⟩ => ⟨tbl10 m, h.ok10⟩
  | ⟨11, _⟩ => ⟨tbl11 m, h.ok11⟩
  | ⟨12, _⟩ => ⟨tbl12 m, h.ok12⟩
  | ⟨13, _⟩ => ⟨tbl13 m, h.ok13⟩
  | ⟨14, _⟩ => ⟨tbl14 m, h.ok14⟩
  | ⟨15, _⟩ => ⟨tbl15 m, h.ok15⟩
  | ⟨16, _⟩ => ⟨tbl16 m, h.ok16⟩
  | ⟨17, _⟩ => ⟨tbl17 m, h.ok17⟩
  | ⟨18, _⟩ => ⟨tbl18 m, h.ok18⟩
  | ⟨19, _⟩ => ⟨tbl19 m, h.ok19⟩
  | ⟨20, _⟩ => ⟨tbl20 m, h.ok20⟩
  | ⟨21, _⟩ => ⟨tbl21 m, h.ok21⟩
  | ⟨22, _⟩ => ⟨tbl22 m, h.ok22⟩
  | ⟨23, _⟩ => ⟨tbl23 m, h.ok23⟩
  | ⟨24, _⟩ => ⟨tbl24 m, h.ok24⟩
  | ⟨25, _⟩ => ⟨tbl25 m, h.ok25⟩
  | ⟨26, _⟩ => ⟨tbl26 m, h.ok26⟩
  | ⟨27, _⟩ => ⟨tbl27 m, h.ok27⟩
  | ⟨28, _⟩ => ⟨tbl28 m, h.ok28⟩
  | ⟨29, _⟩ => ⟨tbl29 m, h.ok29⟩
  | ⟨30, _⟩ => ⟨tbl30 m, h.ok30⟩
  | ⟨31, _⟩ => ⟨tbl31 m, h.ok31⟩
  | ⟨32, _⟩ => cfg32.toPCfg_adm
  | ⟨_ + 33, hh⟩ => absurd hh (Nat.not_lt.2 (Nat.le_add_left _ _))

/-- Every pipeline's proof data, each at its region's entry contents. -/
def pdats : (p : Fin 33) → (c : Dev nD) → Dat τ (Elt F) Unit ℕ (UR sig nD τ) ℕ (Pipeline.pin (pcfgs (F := F)) (a m h) p) c
  | ⟨0, _⟩ => fun c => G0.dat (Ve0 m) (tbl0 m) h.ok0 c
  | ⟨1, _⟩ => fun c => G1.dat (Ve1 m) (tbl1 m) h.ok1 c
  | ⟨2, _⟩ => fun c => G2.dat (Ve2 m) (tbl2 m) h.ok2 c
  | ⟨3, _⟩ => fun c => G3.dat (Ve3 m) (tbl3 m) h.ok3 c
  | ⟨4, _⟩ => fun c => G4.dat (Ve4 m) (tbl4 m) h.ok4 c
  | ⟨5, _⟩ => fun c => G5.dat (Ve5 m) (tbl5 m) h.ok5 c
  | ⟨6, _⟩ => fun c => G6.dat (Ve6 m) (tbl6 m) h.ok6 c
  | ⟨7, _⟩ => fun c => G7.dat (Ve7 m) (tbl7 m) h.ok7 c
  | ⟨8, _⟩ => fun c => G8.dat (Ve8 m) (tbl8 m) h.ok8 c
  | ⟨9, _⟩ => fun c => G9.dat (Ve9 m) (tbl9 m) h.ok9 c
  | ⟨10, _⟩ => fun c => G10.dat (Ve10 m) (tbl10 m) h.ok10 c
  | ⟨11, _⟩ => fun c => G11.dat (Ve11 m) (tbl11 m) h.ok11 c
  | ⟨12, _⟩ => fun c => G12.dat (Ve12 m) (tbl12 m) h.ok12 c
  | ⟨13, _⟩ => fun c => G13.dat (Ve13 m) (tbl13 m) h.ok13 c
  | ⟨14, _⟩ => fun c => G14.dat (Ve14 m) (tbl14 m) h.ok14 c
  | ⟨15, _⟩ => fun c => G15.dat (Ve15 m) (tbl15 m) h.ok15 c
  | ⟨16, _⟩ => fun c => G16.dat (Ve16 m) (tbl16 m) h.ok16 c
  | ⟨17, _⟩ => fun c => G17.dat (Ve17 m) (tbl17 m) h.ok17 c
  | ⟨18, _⟩ => fun c => G18.dat (Ve18 m) (tbl18 m) h.ok18 c
  | ⟨19, _⟩ => fun c => G19.dat (Ve19 m) (tbl19 m) h.ok19 c
  | ⟨20, _⟩ => fun c => G20.dat (Ve20 m) (tbl20 m) h.ok20 c
  | ⟨21, _⟩ => fun c => G21.dat (Ve21 m) (tbl21 m) h.ok21 c
  | ⟨22, _⟩ => fun c => G22.dat (Ve22 m) (tbl22 m) h.ok22 c
  | ⟨23, _⟩ => fun c => G23.dat (Ve23 m) (tbl23 m) h.ok23 c
  | ⟨24, _⟩ => fun c => G24.dat (Ve24 m) (tbl24 m) h.ok24 c
  | ⟨25, _⟩ => fun c => G25.dat (Ve25 m) (tbl25 m) h.ok25 c
  | ⟨26, _⟩ => fun c => G26.dat (Ve26 m) (tbl26 m) h.ok26 c
  | ⟨27, _⟩ => fun c => G27.dat (Ve27 m) (tbl27 m) h.ok27 c
  | ⟨28, _⟩ => fun c => G28.dat (Ve28 m) (tbl28 m) h.ok28 c
  | ⟨29, _⟩ => fun c => G29.dat (Ve29 m) (tbl29 m) h.ok29 c
  | ⟨30, _⟩ => fun c => G30.dat (Ve30 m) (tbl30 m) h.ok30 c
  | ⟨31, _⟩ => fun c => G31.dat (Ve31 m) (tbl31 m) h.ok31 c
  | ⟨32, _⟩ => fun c => MM.dat (Ve32 m) c
  | ⟨_ + 33, hh⟩ => absurd hh (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

end Cert.KernelIdeal.Run

end
-- ==== Proof.KI.S0.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (0 : Fin 33) c = G0.dat (Run.Ve0 m) (Run.tbl0 m) h.ok0 c := rfl

/-- On the one device the table's buffer holds the table. -/
theorem tbl_eq (c : Dev nD) : (fun k => Run.Ve0 m c (pre0.ref k)) = Run.tbl0 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec0 c (Run.Ve0 m c) : sProp 𝕄)
      = iprop(Pipeline.prefHeld (Ix := Unit) (Name := ℕ) (U := UR sig nD τ) (Lvl := ℕ) pre0 c (fun _ => fullShare) (Run.tbl0 m)
          ∗ Pipeline.unscopedRestP (Ix := Unit) (Name := ℕ) (U := UR sig nD τ) (Lvl := ℕ) pre0 spec0 c (Run.Ve0 m c)) := by
  have hs := Pipeline.unscopedRest_split (Ix := Unit) (Name := ℕ) (U := UR sig nD τ) (Lvl := ℕ) (Val := Elt F) (launch0 (F := F)).pre c (Run.Ve0 m c)
  rw [← tbl_eq m c]
  exact hs

/-- After the region each of its arrays holds what the pipeline leaves: the array read as entered, the output at the gathered rows. -/
theorem hF (harr : ∀ c : Dev nD, (G0.dat (Run.Ve0 m) (Run.tbl0 m) h.ok0 c).arrAt 1 (G0.cfgM (Run.tbl0 m) h.ok0).N = Vals.gath3 m 0 c)
    (c : Dev nD) (w : Fin (G0.cfgM (Run.tbl0 m) h.ok0).W) :
    (G0.dat (Run.Ve0 m) (Run.tbl0 m) h.ok0 c).arrAt w (G0.cfgM (Run.tbl0 m) h.ok0).N
      = GenP.V2 m (Vals.outs m) c (Pipeline.arrRef spec0 w) := by
  match w with
  | ⟨0, _⟩ =>
    refine ((G0.dat (Run.Ve0 m) (Run.tbl0 m) h.ok0 c).arrAt_in 0 rfl _).trans ((G0.A_eq (Run.Ve0 m) (Run.tbl0 m) h.ok0 c 0).trans ?_)
    exact (GenP.V2_of m (Vals.outs m) c main_v9 (by decide)).symm
  | ⟨1, _⟩ =>
    refine (harr c).trans ?_
    show Vals.gath3 m 0 c = Function.update (GenP.V1 m c) main_v10 (Vals.outs m 2 main_v10 c) main_v10
    rw [Function.update_self, Vals.outs_0]

/-- and every other buffer what it held at entry. -/
theorem hrest (c : Dev nD) : ∀ b, b ∉ Finset.univ.image (Pipeline.arrRef spec0) →
    (fun b : Ref sig .tc => GenP.V2 m (Vals.outs m) c b) b = Run.Ve0 m c b := fun b hb =>
  GenP.V2_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G0.dat (Run.Ve0 m) (Run.tbl0 m) h.ok0 c).arrAt 1 (G0.cfgM (Run.tbl0 m) h.ok0).N = Vals.gath3 m 0 c) :
    Pipeline.RegionSeg (pcfgs (F := F)) (Run.a m h) (Run.pdats m h) () defs₀ Run.𝒱₀ Run.L Run.lv (0 : Fin 33) where
  win := (launch0 (F := F)).win.to₀
  block_pos := (launch0 (F := F)).block_pos
  stage_whole := (launch0 (F := F)).stage_whole
  K := PEmpty
  osem k := k.elim
  ho := Pipeline.OwnSemFacts.none _
  hbody c := (G0.body_obligation (Run.Ve0 m) (Run.tbl0 m) h.ok0 c).loose
  hwaits := Pipeline.hwaits_of_owed_zero _ _ _ _ Run.L Run.lv (0 : Fin 33) fun _ _ => rfl
  pre c := iprop(StableHlo.held (c : Thread nD τ) (Pipeline.ucRefs τ sig) (GenP.V1 m c) ∗ Run.R c)
  post c := iprop(StableHlo.held (c : Thread nD τ) (Pipeline.ucRefs τ sig) (GenP.V2 m (Vals.outs m) c) ∗ Run.R c)
  X c := iprop(∃ r, prngReg c r)
  Y c := iprop((∃ r, prngReg c r) ∗ Pipeline.prefHeld (Ix := Unit) (Name := ℕ) (U := UR sig nD τ) (Lvl := ℕ) pre0 c (fun _ => fullShare) (Run.tbl0 m))
  Z c := Pipeline.unscopedRestP (Ix := Unit) (Name := ℕ) (U := UR sig nD τ) (Lvl := ℕ) pre0 spec0 c (Run.Ve0 m c)
  hentry c := by
    rw [Pipeline.ownSems0_none]
    have hsplit := Pipeline.arrays_of_unscopedBufs (p := (0 : Fin 33)) (pcfgs (F := F)) (Run.a m h) (Run.pdats m h) (launch0 (F := F)).win (launch0 (F := F)).arr_whole c
      ((Run.pdats m h (0 : Fin 33) c).share_full fun _ => rfl) (Run.Ve0 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (0 : Fin 33) c).Φ 0 = iprop(Pipeline.ΦA spec0 c ∗ Pipeline.prefHeld (Ix := Unit) (Name := ℕ) (U := UR sig nD τ) (Lvl := ℕ) pre0 c (fun _ => fullShare) (Run.tbl0 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (0 : Fin 33) c).Φ (Fin.last _) = iprop(Pipeline.ΦA spec0 c ∗ Pipeline.prefHeld (Ix := Unit) (Name := ℕ) (U := UR sig nD τ) (Lvl := ℕ) pre0 c (fun _ => fullShare) (Run.tbl0 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (0 : Fin 33)) (pcfgs (F := F)) (Run.a m h) (Ix := Unit) (Name := ℕ) (U := UR sig nD τ) (Lvl := ℕ)
      (launch0 (F := F)).win (launch0 (F := F)).arr_whole c (Run.pdats m h) ((Run.pdats m h (0 : Fin 33) c).share_full fun _ => rfl)
      (Run.Ve0 m c) (fun b => GenP.V2 m (Vals.outs m) c b) ((Run.pdats m h (0 : Fin 33) c).arrAt · (G0.cfgM (Run.tbl0 m) h.ok0).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S0

end
-- ==== Proof.KI.G0V.lean ====
/-
  What gather region 0 leaves in its output array: point t writes back row `tb[t]` of the array it reads as row t, the
  50000 rows tile the output, so the array ends as the gathered rows.
-/
import proofs.«406793_j90890097918585_2_alg».proof.Proof.KI.G0
import proofs.«406793_j90890097918585_2_alg».proof.Proof.KI.Vals
import Idealize.ShloMosaic.Lib.Pipeline.Value

set_option maxRecDepth 16384

noncomputable section

namespace Cert.KernelIdeal.G0

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre0.Contents (Elt F)) (hO : ok0 (F := F) tb)

/-! ## The two windows' block rows at a point -/

/-- A point of the grid is below 50000. -/
private theorem point_lt (t : Fin (cfgM tb hO).N) : t.val < 50000 := by
  have h : t.val < grid0.N := t.isLt
  rw [N_0] at h
  exact h

/-- The grid has one axis: the coordinate of point t is t. -/
private theorem coords_0 (t : Fin (cfgM tb hO).N) : (grid0.coords t 0).val = t.val := by
  have ht := point_lt tb hO t
  show t.val / grid0.stride 0 % grid0.bound 0 = t.val
  rw [show grid0.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc0_transform_1 (grid0.coords t) 0 = t.val
  unfold cc0_transform_1
  show (BitVec.ofNat 32 (grid0.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid0.N
  · exact Or.inl h
  · have hlt : t.val < grid0.N := t.isLt
    refine Or.inr ⟨by show t.val + 1 < grid0.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc0_transform_0 k0_off1_inb numel1_S1 tb (grid0.coords t) 0 = _
  unfold cc0_transform_0
  dsimp only
  refine congrArg BitVec.toNat (congrArg (tb 0 : S50000.Idx → BitVec 32) ?_)
  funext d
  match d with
  | ⟨0, _⟩ =>
    apply Fin.ext
    show (Scalar.indexCast (BitVec.ofNat 32 (grid0.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k0_pay1 x = x := by
  unfold k0_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v9 (ValueIdx.ix3 (Vals.rowOf ((tb 0 : S50000.Idx → BitVec 32) (ValueIdx.ix1 ⟨t.val, point_lt tb hO t⟩))) (y 1) (y 2)) := by
  show V c main_v9 ((((cfgM tb hO).win 0).blk t).view.emb y) = _
  refine congrArg (V c main_v9) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v9) (tb 0)) := by
  show ((cfgM tb hO).win 1).cut (grid0.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v9) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v10 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid0.N := by rw [N_0]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v9) (tb 0) :=
  (dat V tb hO c).arrAt_eq_of_cover 1 (Vals.gath3Of (V c main_v9) (tb 0)) (fun t _ => flushed_1 V tb hO htb c t)
    (cover_blk_1 tb hO)

end Cert.KernelIdeal.G0

end
-- ==== Proof.KI.S1.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (1 : Fin 33) c = G1.dat (Run.Ve1 m) (Run.tbl1 m) h.ok1 c := rfl

/-- On the one device the table's buffer holds the table. -/
theorem tbl_eq (c : Dev nD) : (fun k => Run.Ve1 m c (pre1.ref k)) = Run.tbl1 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec1 c (Run.Ve1 m c) : sProp 𝕄)
      = iprop(Pipeline.prefHeld (Ix := Unit) (Name := ℕ) (U := UR sig nD τ) (Lvl := ℕ) pre1 c (fun _ => fullShare) (Run.tbl1 m)
          ∗ Pipeline.unscopedRestP (Ix := Unit) (Name := ℕ) (U := UR sig nD τ) (Lvl := ℕ) pre1 spec1 c (Run.Ve1 m c)) := by
  have hs := Pipeline.unscopedRest_split (Ix := Unit) (Name := ℕ) (U := UR sig nD τ) (Lvl := ℕ) (Val := Elt F) (launch1 (F := F)).pre c (Run.Ve1 m c)
  rw [← tbl_eq m c]
  exact hs

/-- After the region each of its arrays holds what the pipeline leaves: the array read as entered, the output at the gathered rows. -/
theorem hF (harr : ∀ c : Dev nD, (G1.dat (Run.Ve1 m) (Run.tbl1 m) h.ok1 c).arrAt 1 (G1.cfgM (Run.tbl1 m) h.ok1).N = Vals.gath3 m 1 c)
    (c : Dev nD) (w : Fin (G1.cfgM (Run.tbl1 m) h.ok1).W) :
    (G1.dat (Run.Ve1 m) (Run.tbl1 m) h.ok1 c).arrAt w (G1.cfgM (Run.tbl1 m) h.ok1).N
      = GenP.V4 m (Vals.outs m) c (Pipeline.arrRef spec1 w) := by
  match w with
  | ⟨0, _⟩ =>
    refine ((G1.dat (Run.Ve1 m) (Run.tbl1 m) h.ok1 c).arrAt_in 0 rfl _).trans ((G1.A_eq (Run.Ve1 m) (Run.tbl1 m) h.ok1 c 0).trans ?_)
    exact (GenP.V4_of m (Vals.outs m) c main_v22 (by decide)).symm
  | ⟨1, _⟩ =>
    refine (harr c).trans ?_
    show Vals.gath3 m 1 c = Function.update (GenP.V3 m (Vals.outs m) c) main_v23 (Vals.outs m 4 main_v23 c) main_v23
    rw [Function.update_self, Vals.outs_1]

/-- and every other buffer what it held at entry. -/
theorem hrest (c : Dev nD) : ∀ b, b ∉ Finset.univ.image (Pipeline.arrRef spec1) →
    (fun b : Ref sig .tc => GenP.V4 m (Vals.outs m) c b) b = Run.Ve1 m c b := fun b hb =>
  GenP.V4_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G1.dat (Run.Ve1 m) (Run.tbl1 m) h.ok1 c).arrAt 1 (G1.cfgM (Run.tbl1 m) h.ok1).N = Vals.gath3 m 1 c) :
    Pipeline.RegionSeg (pcfgs (F := F)) (Run.a m h) (Run.pdats m h) () defs₀ Run.𝒱₀ Run.L Run.lv (1 : Fin 33) where
  win := (launch1 (F := F)).win.to₀
  block_pos := (launch1 (F := F)).block_pos
  stage_whole := (launch1 (F := F)).stage_whole
  K := PEmpty
  osem k := k.elim
  ho := Pipeline.OwnSemFacts.none _
  hbody c := (G1.body_obligation (Run.Ve1 m) (Run.tbl1 m) h.ok1 c).loose
  hwaits := Pipeline.hwaits_of_owed_zero _ _ _ _ Run.L Run.lv (1 : Fin 33) fun _ _ => rfl
  pre c := iprop(StableHlo.held (c : Thread nD τ) (Pipeline.ucRefs τ sig) (GenP.V3 m (Vals.outs m) c) ∗ Run.R c)
  post c := iprop(StableHlo.held (c : Thread nD τ) (Pipeline.ucRefs τ sig) (GenP.V4 m (Vals.outs m) c) ∗ Run.R c)
  X c := iprop(∃ r, prngReg c r)
  Y c := iprop((∃ r, prngReg c r) ∗ Pipeline.prefHeld (Ix := Unit) (Name := ℕ) (U := UR sig nD τ) (Lvl := ℕ) pre1 c (fun _ => fullShare) (Run.tbl1 m))
  Z c := Pipeline.unscopedRestP (Ix := Unit) (Name := ℕ) (U := UR sig nD τ) (Lvl := ℕ) pre1 spec1 c (Run.Ve1 m c)
  hentry c := by
    rw [Pipeline.ownSems0_none]
    have hsplit := Pipeline.arrays_of_unscopedBufs (p := (1 : Fin 33)) (pcfgs (F := F)) (Run.a m h) (Run.pdats m h) (launch1 (F := F)).win (launch1 (F := F)).arr_whole c
      ((Run.pdats m h (1 : Fin 33) c).share_full fun _ => rfl) (Run.Ve1 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (1 : Fin 33) c).Φ 0 = iprop(Pipeline.ΦA spec1 c ∗ Pipeline.prefHeld (Ix := Unit) (Name := ℕ) (U := UR sig nD τ) (Lvl := ℕ) pre1 c (fun _ => fullShare) (Run.tbl1 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (1 : Fin 33) c).Φ (Fin.last _) = iprop(Pipeline.ΦA spec1 c ∗ Pipeline.prefHeld (Ix := Unit) (Name := ℕ) (U := UR sig nD τ) (Lvl := ℕ) pre1 c (fun _ => fullShare) (Run.tbl1 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (1 : Fin 33)) (pcfgs (F := F)) (Run.a m h) (Ix := Unit) (Name := ℕ) (U := UR sig nD τ) (Lvl := ℕ)
      (launch1 (F := F)).win (launch1 (F := F)).arr_whole c (Run.pdats m h) ((Run.pdats m h (1 : Fin 33) c).share_full fun _ => rfl)
      (Run.Ve1 m c) (fun b => GenP.V4 m (Vals.outs m) c b) ((Run.pdats m h (1 : Fin 33) c).arrAt · (G1.cfgM (Run.tbl1 m) h.ok1).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S1

end
-- ==== Proof.KI.G1V.lean ====
/-
  What gather region 0 leaves in its output array: point t writes back row `tb[t]` of the array it reads as row t, the
  50000 rows tile the output, so the array ends as the gathered rows.
-/
import proofs.«406793_j90890097918585_2_alg».proof.Proof.KI.G1
import proofs.«406793_j90890097918585_2_alg».proof.Proof.KI.Vals
import Idealize.ShloMosaic.Lib.Pipeline.Value

set_option maxRecDepth 16384

noncomputable section

namespace Cert.KernelIdeal.G1

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre1.Contents (Elt F)) (hO : ok1 (F := F) tb)

/-! ## The two windows' block rows at a point -/

/-- A point of the grid is below 50000. -/
private theorem point_lt (t : Fin (cfgM tb hO).N) : t.val < 50000 := by
  have h : t.val < grid1.N := t.isLt
  rw [N_1] at h
  exact h

/-- The grid has one axis: the coordinate of point t is t. -/
private theorem coords_0 (t : Fin (cfgM tb hO).N) : (grid1.coords t 0).val = t.val := by
  have ht := point_lt tb hO t
  show t.val / grid1.stride 0 % grid1.bound 0 = t.val
  rw [show grid1.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc1_transform_1 (grid1.coords t) 0 = t.val
  unfold cc1_transform_1
  show (BitVec.ofNat 32 (grid1.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid1.N
  · exact Or.inl h
  · have hlt : t.val < grid1.N := t.isLt
    refine Or.inr ⟨by show t.val + 1 < grid1.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc1_transform_0 k1_off1_inb numel1_S1 tb (grid1.coords t) 0 = _
  unfold cc1_transform_0
  dsimp only
  refine congrArg BitVec.toNat (congrArg (tb 0 : S50000.Idx → BitVec 32) ?_)
  funext d
  match d with
  | ⟨0, _⟩ =>
    apply Fin.ext
    show (Scalar.indexCast (BitVec.ofNat 32 (grid1.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k1_pay1 x = x := by
  unfold k1_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v22 (ValueIdx.ix3 (Vals.rowOf ((tb 0 : S50000.Idx → BitVec 32) (ValueIdx.ix1 ⟨t.val, point_lt tb hO t⟩))) (y 1) (y 2)) := by
  show V c main_v22 ((((cfgM tb hO).win 0).blk t).view.emb y) = _
  refine congrArg (V c main_v22) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v22) (tb 0)) := by
  show ((cfgM tb hO).win 1).cut (grid1.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v22) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v23 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid1.N := by rw [N_1]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v22) (tb 0) :=
  (dat V tb hO c).arrAt_eq_of_cover 1 (Vals.gath3Of (V c main_v22) (tb 0)) (fun t _ => flushed_1 V tb hO htb c t)
    (cover_blk_1 tb hO)

end Cert.KernelIdeal.G1

end
-- ==== Proof.KI.S2.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (2 : Fin 33) c = G2.dat (Run.Ve2 m) (Run.tbl2 m) h.ok2 c := rfl

/-- On the one device the table's buffer holds the table. -/
theorem tbl_eq (c : Dev nD) : (fun k => Run.Ve2 m c (pre2.ref k)) = Run.tbl2 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec2 c (Run.Ve2 m c) : sProp 𝕄)
      = iprop(Pipeline.prefHeld (Ix := Unit) (Name := ℕ) (U := UR sig nD τ) (Lvl := ℕ) pre2 c (fun _ => fullShare) (Run.tbl2 m)
          ∗ Pipeline.unscopedRestP (Ix := Unit) (Name := ℕ) (U := UR sig nD τ) (Lvl := ℕ) pre2 spec2 c (Run.Ve2 m c)) := by
  have hs := Pipeline.unscopedRest_split (Ix := Unit) (Name := ℕ) (U := UR sig nD τ) (Lvl := ℕ) (Val := Elt F) (launch2 (F := F)).pre c (Run.Ve2 m c)
  rw [← tbl_eq m c]
  exact hs

/-- After the region each of its arrays holds what the pipeline leaves: the array read as entered, the output at the gathered rows. -/
theorem hF (harr : ∀ c : Dev nD, (G2.dat (Run.Ve2 m) (Run.tbl2 m) h.ok2 c).arrAt 1 (G2.cfgM (Run.tbl2 m) h.ok2).N = Vals.gath3 m 2 c)
    (c : Dev nD) (w : Fin (G2.cfgM (Run.tbl2 m) h.ok2).W) :
    (G2.dat (Run.Ve2 m) (Run.tbl2 m) h.ok2 c).arrAt w (G2.cfgM (Run.tbl2 m) h.ok2).N
      = GenP.V6 m (Vals.outs m) c (Pipeline.arrRef spec2 w) := by
  match w with
  | ⟨0, _⟩ =>
    refine ((G2.dat (Run.Ve2 m) (Run.tbl2 m) h.ok2 c).arrAt_in 0 rfl _).trans ((G2.A_eq (Run.Ve2 m) (Run.tbl2 m) h.ok2 c 0).trans ?_)
    exact (GenP.V6_of m (Vals.outs m) c main_v35 (by decide)).symm
  | ⟨1, _⟩ =>
    refine (harr c).trans ?_
    show Vals.gath3 m 2 c = Function.update (GenP.V5 m (Vals.outs m) c) main_v36 (Vals.outs m 6 main_v36 c) main_v36
    rw [Function.update_self, Vals.outs_2]

/-- and every other buffer what it held at entry. -/
theorem hrest (c : Dev nD) : ∀ b, b ∉ Finset.univ.image (Pipeline.arrRef spec2) →
    (fun b : Ref sig .tc => GenP.V6 m (Vals.outs m) c b) b = Run.Ve2 m c b := fun b hb =>
  GenP.V6_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G2.dat (Run.Ve2 m) (Run.tbl2 m) h.ok2 c).arrAt 1 (G2.cfgM (Run.tbl2 m) h.ok2).N = Vals.gath3 m 2 c) :
    Pipeline.RegionSeg (pcfgs (F := F)) (Run.a m h) (Run.pdats m h) () defs₀ Run.𝒱₀ Run.L Run.lv (2 : Fin 33) where
  win := (launch2 (F := F)).win.to₀
  block_pos := (launch2 (F := F)).block_pos
  stage_whole := (launch2 (F := F)).stage_whole
  K := PEmpty
  osem k := k.elim
  ho := Pipeline.OwnSemFacts.none _
  hbody c := (G2.body_obligation (Run.Ve2 m) (Run.tbl2 m) h.ok2 c).loose
  hwaits := Pipeline.hwaits_of_owed_zero _ _ _ _ Run.L Run.lv (2 : Fin 33) fun _ _ => rfl
  pre c := iprop(StableHlo.held (c : Thread nD τ) (Pipeline.ucRefs τ sig) (GenP.V5 m (Vals.outs m) c) ∗ Run.R c)
  post c := iprop(StableHlo.held (c : Thread nD τ) (Pipeline.ucRefs τ sig) (GenP.V6 m (Vals.outs m) c) ∗ Run.R c)
  X c := iprop(∃ r, prngReg c r)
  Y c := iprop((∃ r, prngReg c r) ∗ Pipeline.prefHeld (Ix := Unit) (Name := ℕ) (U := UR sig nD τ) (Lvl := ℕ) pre2 c (fun _ => fullShare) (Run.tbl2 m))
  Z c := Pipeline.unscopedRestP (Ix := Unit) (Name := ℕ) (U := UR sig nD τ) (Lvl := ℕ) pre2 spec2 c (Run.Ve2 m c)
  hentry c := by
    rw [Pipeline.ownSems0_none]
    have hsplit := Pipeline.arrays_of_unscopedBufs (p := (2 : Fin 33)) (pcfgs (F := F)) (Run.a m h) (Run.pdats m h) (launch2 (F := F)).win (launch2 (F := F)).arr_whole c
      ((Run.pdats m h (2 : Fin 33) c).share_full fun _ => rfl) (Run.Ve2 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (2 : Fin 33) c).Φ 0 = iprop(Pipeline.ΦA spec2 c ∗ Pipeline.prefHeld (Ix := Unit) (Name := ℕ) (U := UR sig nD τ) (Lvl := ℕ) pre2 c (fun _ => fullShare) (Run.tbl2 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (2 : Fin 33) c).Φ (Fin.last _) = iprop(Pipeline.ΦA spec2 c ∗ Pipeline.prefHeld (Ix := Unit) (Name := ℕ) (U := UR sig nD τ) (Lvl := ℕ) pre2 c (fun _ => fullShare) (Run.tbl2 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (2 : Fin 33)) (pcfgs (F := F)) (Run.a m h) (Ix := Unit) (Name := ℕ) (U := UR sig nD τ) (Lvl := ℕ)
      (launch2 (F := F)).win (launch2 (F := F)).arr_whole c (Run.pdats m h) ((Run.pdats m h (2 : Fin 33) c).share_full fun _ => rfl)
      (Run.Ve2 m c) (fun b => GenP.V6 m (Vals.outs m) c b) ((Run.pdats m h (2 : Fin 33) c).arrAt · (G2.cfgM (Run.tbl2 m) h.ok2).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S2

end
-- ==== Proof.KI.G2V.lean ====
/-
  What gather region 0 leaves in its output array: point t writes back row `tb[t]` of the array it reads as row t, the
  50000 rows tile the output, so the array ends as the gathered rows.
-/
import proofs.«406793_j90890097918585_2_alg».proof.Proof.KI.G2
import proofs.«406793_j90890097918585_2_alg».proof.Proof.KI.Vals
import Idealize.ShloMosaic.Lib.Pipeline.Value

set_option maxRecDepth 16384

noncomputable section

namespace Cert.KernelIdeal.G2

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre2.Contents (Elt F)) (hO : ok2 (F := F) tb)

/-! ## The two windows' block rows at a point -/

/-- A point of the grid is below 50000. -/
private theorem point_lt (t : Fin (cfgM tb hO).N) : t.val < 50000 := by
  have h : t.val < grid2.N := t.isLt
  rw [N_2] at h
  exact h

/-- The grid has one axis: the coordinate of point t is t. -/
private theorem coords_0 (t : Fin (cfgM tb hO).N) : (grid2.coords t 0).val = t.val := by
  have ht := point_lt tb hO t
  show t.val / grid2.stride 0 % grid2.bound 0 = t.val
  rw [show grid2.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc2_transform_1 (grid2.coords t) 0 = t.val
  unfold cc2_transform_1
  show (BitVec.ofNat 32 (grid2.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid2.N
  · exact Or.inl h
  · have hlt : t.val < grid2.N := t.isLt
    refine Or.inr ⟨by show t.val + 1 < grid2.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc2_transform_0 k2_off1_inb numel1_S1 tb (grid2.coords t) 0 = _
  unfold cc2_transform_0
  dsimp only
  refine congrArg BitVec.toNat (congrArg (tb 0 : S50000.Idx → BitVec 32) ?_)
  funext d
  match d with
  | ⟨0, _⟩ =>
    apply Fin.ext
    show (Scalar.indexCast (BitVec.ofNat 32 (grid2.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k2_pay1 x = x := by
  unfold k2_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v35 (ValueIdx.ix3 (Vals.rowOf ((tb 0 : S50000.Idx → BitVec 32) (ValueIdx.ix1 ⟨t.val, point_lt tb hO t⟩))) (y 1) (y 2)) := by
  show V c main_v35 ((((cfgM tb hO).win 0).blk t).view.emb y) = _
  refine congrArg (V c main_v35) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v35) (tb 0)) := by
  show ((cfgM tb hO).win 1).cut (grid2.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v35) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v36 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid2.N := by rw [N_2]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v35) (tb 0) :=
  (dat V tb hO c).arrAt_eq_of_cover 1 (Vals.gath3Of (V c main_v35) (tb 0)) (fun t _ => flushed_1 V tb hO htb c t)
    (cover_blk_1 tb hO)

end Cert.KernelIdeal.G2

end
-- ==== Proof.KI.S3.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (3 : Fin 33) c = G3.dat (Run.Ve3 m) (Run.tbl3 m) h.ok3 c := rfl

/-- On the one device the table's buffer holds the table. -/
theorem tbl_eq (c : Dev nD) : (fun k => Run.Ve3 m c (pre3.ref k)) = Run.tbl3 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec3 c (Run.Ve3 m c) : sProp 𝕄)
      = iprop(Pipeline.prefHeld (Ix := Unit) (Name := ℕ) (U := UR sig nD τ) (Lvl := ℕ) pre3 c (fun _ => fullShare) (Run.tbl3 m)
          ∗ Pipeline.unscopedRestP (Ix := Unit) (Name := ℕ) (U := UR sig nD τ) (Lvl := ℕ) pre3 spec3 c (Run.Ve3 m c)) := by
  have hs := Pipeline.unscopedRest_split (Ix := Unit) (Name := ℕ) (U := UR sig nD τ) (Lvl := ℕ) (Val := Elt F) (launch3 (F := F)).pre c (Run.Ve3 m c)
  rw [← tbl_eq m c]
  exact hs

/-- After the region each of its arrays holds what the pipeline leaves: the array read as entered, the output at the gathered rows. -/
theorem hF (harr : ∀ c : Dev nD, (G3.dat (Run.Ve3 m) (Run.tbl3 m) h.ok3 c).arrAt 1 (G3.cfgM (Run.tbl3 m) h.ok3).N = Vals.gath3 m 3 c)
    (c : Dev nD) (w : Fin (G3.cfgM (Run.tbl3 m) h.ok3).W) :
    (G3.dat (Run.Ve3 m) (Run.tbl3 m) h.ok3 c).arrAt w (G3.cfgM (Run.tbl3 m) h.ok3).N
      = GenP.V8 m (Vals.outs m) c (Pipeline.arrRef spec3 w) := by
  match w with
  | ⟨0, _⟩ =>
    refine ((G3.dat (Run.Ve3 m) (Run.tbl3 m) h.ok3 c).arrAt_in 0 rfl _).trans ((G3.A_eq (Run.Ve3 m) (Run.tbl3 m) h.ok3 c 0).trans ?_)
    exact (GenP.V8_of m (Vals.outs m) c main_v48 (by decide)).symm
  | ⟨1, _⟩ =>
    refine (harr c).trans ?_
    show Vals.gath3 m 3 c = Function.update (GenP.V7 m (Vals.outs m) c) main_v49 (Vals.outs m 8 main_v49 c) main_v49
    rw [Function.update_self, Vals.outs_3]

/-- and every other buffer what it held at entry. -/
theorem hrest (c : Dev nD) : ∀ b, b ∉ Finset.univ.image (Pipeline.arrRef spec3) →
    (fun b : Ref sig .tc => GenP.V8 m (Vals.outs m) c b) b = Run.Ve3 m c b := fun b hb =>
  GenP.V8_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G3.dat (Run.Ve3 m) (Run.tbl3 m) h.ok3 c).arrAt 1 (G3.cfgM (Run.tbl3 m) h.ok3).N = Vals.gath3 m 3 c) :
    Pipeline.RegionSeg (pcfgs (F := F)) (Run.a m h) (Run.pdats m h) () defs₀ Run.𝒱₀ Run.L Run.lv (3 : Fin 33) where
  win := (launch3 (F := F)).win.to₀
  block_pos := (launch3 (F := F)).block_pos
  stage_whole := (launch3 (F := F)).stage_whole
  K := PEmpty
  osem k := k.elim
  ho := Pipeline.OwnSemFacts.none _
  hbody c := (G3.body_obligation (Run.Ve3 m) (Run.tbl3 m) h.ok3 c).loose
  hwaits := Pipeline.hwaits_of_owed_zero _ _ _ _ Run.L Run.lv (3 : Fin 33) fun _ _ => rfl
  pre c := iprop(StableHlo.held (c : Thread nD τ) (Pipeline.ucRefs τ sig) (GenP.V7 m (Vals.outs m) c) ∗ Run.R c)
  post c := iprop(StableHlo.held (c : Thread nD τ) (Pipeline.ucRefs τ sig) (GenP.V8 m (Vals.outs m) c) ∗ Run.R c)
  X c := iprop(∃ r, prngReg c r)
  Y c := iprop((∃ r, prngReg c r) ∗ Pipeline.prefHeld (Ix := Unit) (Name := ℕ) (U := UR sig nD τ) (Lvl := ℕ) pre3 c (fun _ => fullShare) (Run.tbl3 m))
  Z c := Pipeline.unscopedRestP (Ix := Unit) (Name := ℕ) (U := UR sig nD τ) (Lvl := ℕ) pre3 spec3 c (Run.Ve3 m c)
  hentry c := by
    rw [Pipeline.ownSems0_none]
    have hsplit := Pipeline.arrays_of_unscopedBufs (p := (3 : Fin 33)) (pcfgs (F := F)) (Run.a m h) (Run.pdats m h) (launch3 (F := F)).win (launch3 (F := F)).arr_whole c
      ((Run.pdats m h (3 : Fin 33) c).share_full fun _ => rfl) (Run.Ve3 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (3 : Fin 33) c).Φ 0 = iprop(Pipeline.ΦA spec3 c ∗ Pipeline.prefHeld (Ix := Unit) (Name := ℕ) (U := UR sig nD τ) (Lvl := ℕ) pre3 c (fun _ => fullShare) (Run.tbl3 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (3 : Fin 33) c).Φ (Fin.last _) = iprop(Pipeline.ΦA spec3 c ∗ Pipeline.prefHeld (Ix := Unit) (Name := ℕ) (U := UR sig nD τ) (Lvl := ℕ) pre3 c (fun _ => fullShare) (Run.tbl3 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (3 : Fin 33)) (pcfgs (F := F)) (Run.a m h) (Ix := Unit) (Name := ℕ) (U := UR sig nD τ) (Lvl := ℕ)
      (launch3 (F := F)).win (launch3 (F := F)).arr_whole c (Run.pdats m h) ((Run.pdats m h (3 : Fin 33) c).share_full fun _ => rfl)
      (Run.Ve3 m c) (fun b => GenP.V8 m (Vals.outs m) c b) ((Run.pdats m h (3 : Fin 33) c).arrAt · (G3.cfgM (Run.tbl3 m) h.ok3).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S3

end
-- ==== Proof.KI.G3V.lean ====
/-
  What gather region 0 leaves in its output array: point t writes back row `tb[t]` of the array it reads as row t, the
  50000 rows tile the output, so the array ends as the gathered rows.
-/
import proofs.«406793_j90890097918585_2_alg».proof.Proof.KI.G3
import proofs.«406793_j90890097918585_2_alg».proof.Proof.KI.Vals
import Idealize.ShloMosaic.Lib.Pipeline.Value

set_option maxRecDepth 16384

noncomputable section

namespace Cert.KernelIdeal.G3

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre3.Contents (Elt F)) (hO : ok3 (F := F) tb)

/-! ## The two windows' block rows at a point -/

/-- A point of the grid is below 50000. -/
private theorem point_lt (t : Fin (cfgM tb hO).N) : t.val < 50000 := by
  have h : t.val < grid3.N := t.isLt
  rw [N_3] at h
  exact h

/-- The grid has one axis: the coordinate of point t is t. -/
private theorem coords_0 (t : Fin (cfgM tb hO).N) : (grid3.coords t 0).val = t.val := by
  have ht := point_lt tb hO t
  show t.val / grid3.stride 0 % grid3.bound 0 = t.val
  rw [show grid3.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc3_transform_1 (grid3.coords t) 0 = t.val
  unfold cc3_transform_1
  show (BitVec.ofNat 32 (grid3.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid3.N
  · exact Or.inl h
  · have hlt : t.val < grid3.N := t.isLt
    refine Or.inr ⟨by show t.val + 1 < grid3.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc3_transform_0 k3_off1_inb numel1_S1 tb (grid3.coords t) 0 = _
  unfold cc3_transform_0
  dsimp only
  refine congrArg BitVec.toNat (congrArg (tb 0 : S50000.Idx → BitVec 32) ?_)
  funext d
  match d with
  | ⟨0, _⟩ =>
    apply Fin.ext
    show (Scalar.indexCast (BitVec.ofNat 32 (grid3.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k3_pay1 x = x := by
  unfold k3_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v48 (ValueIdx.ix3 (Vals.rowOf ((tb 0 : S50000.Idx → BitVec 32) (ValueIdx.ix1 ⟨t.val, point_lt tb hO t⟩))) (y 1) (y 2)) := by
  show V c main_v48 ((((cfgM tb hO).win 0).blk t).view.emb y) = _
  refine congrArg (V c main_v48) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v48) (tb 0)) := by
  show ((cfgM tb hO).win 1).cut (grid3.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v48) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v49 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid3.N := by rw [N_3]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v48) (tb 0) :=
  (dat V tb hO c).arrAt_eq_of_cover 1 (Vals.gath3Of (V c main_v48) (tb 0)) (fun t _ => flushed_1 V tb hO htb c t)
    (cover_blk_1 tb hO)

end Cert.KernelIdeal.G3

end
-- ==== Proof.KI.S4.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (4 : Fin 33) c = G4.dat (Run.Ve4 m) (Run.tbl4 m) h.ok4 c := rfl

/-- On the one device the table's buffer holds the table. -/
theorem tbl_eq (c : Dev nD) : (fun k => Run.Ve4 m c (pre4.ref k)) = Run.tbl4 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec4 c (Run.Ve4 m c) : sProp 𝕄)
      = iprop(Pipeline.prefHeld (Ix := Unit) (Name := ℕ) (U := UR sig nD τ) (Lvl := ℕ) pre4 c (fun _ => fullShare) (Run.tbl4 m)
          ∗ Pipeline.unscopedRestP (Ix := Unit) (Name := ℕ) (U := UR sig nD τ) (Lvl := ℕ) pre4 spec4 c (Run.Ve4 m c)) := by
  have hs := Pipeline.unscopedRest_split (Ix := Unit) (Name := ℕ) (U := UR sig nD τ) (Lvl := ℕ) (Val := Elt F) (launch4 (F := F)).pre c (Run.Ve4 m c)
  rw [← tbl_eq m c]
  exact hs

/-- After the region each of its arrays holds what the pipeline leaves: the array read as entered, the output at the gathered rows. -/
theorem hF (harr : ∀ c : Dev nD, (G4.dat (Run.Ve4 m) (Run.tbl4 m) h.ok4 c).arrAt 1 (G4.cfgM (Run.tbl4 m) h.ok4).N = Vals.gath3 m 4 c)
    (c : Dev nD) (w : Fin (G4.cfgM (Run.tbl4 m) h.ok4).W) :
    (G4.dat (Run.Ve4 m) (Run.tbl4 m) h.ok4 c).arrAt w (G4.cfgM (Run.tbl4 m) h.ok4).N
      = GenP.V10 m (Vals.outs m) c (Pipeline.arrRef spec4 w) := by
  match w with
  | ⟨0, _⟩ =>
    refine ((G4.dat (Run.Ve4 m) (Run.tbl4 m) h.ok4 c).arrAt_in 0 rfl _).trans ((G4.A_eq (Run.Ve4 m) (Run.tbl4 m) h.ok4 c 0).trans ?_)
    exact (GenP.V10_of m (Vals.outs m) c main_v61 (by decide)).symm
  | ⟨1, _⟩ =>
    refine (harr c).trans ?_
    show Vals.gath3 m 4 c = Function.update (GenP.V9 m (Vals.outs m) c) main_v62 (Vals.outs m 10 main_v62 c) main_v62
    rw [Function.update_self, Vals.outs_4]

/-- and every other buffer what it held at entry. -/
theorem hrest (c : Dev nD) : ∀ b, b ∉ Finset.univ.image (Pipeline.arrRef spec4) →
    (fun b : Ref sig .tc => GenP.V10 m (Vals.outs m) c b) b = Run.Ve4 m c b := fun b hb =>
  GenP.V10_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G4.dat (Run.Ve4 m) (Run.tbl4 m) h.ok4 c).arrAt 1 (G4.cfgM (Run.tbl4 m) h.ok4).N = Vals.gath3 m 4 c) :
    Pipeline.RegionSeg (pcfgs (F := F)) (Run.a m h) (Run.pdats m h) () defs₀ Run.𝒱₀ Run.L Run.lv (4 : Fin 33) where
  win := (launch4 (F := F)).win.to₀
  block_pos := (launch4 (F := F)).block_pos
  stage_whole := (launch4 (F := F)).stage_whole
  K := PEmpty
  osem k := k.elim
  ho := Pipeline.OwnSemFacts.none _
  hbody c := (G4.body_obligation (Run.Ve4 m) (Run.tbl4 m) h.ok4 c).loose
  hwaits := Pipeline.hwaits_of_owed_zero _ _ _ _ Run.L Run.lv (4 : Fin 33) fun _ _ => rfl
  pre c := iprop(StableHlo.held (c : Thread nD τ) (Pipeline.ucRefs τ sig) (GenP.V9 m (Vals.outs m) c) ∗ Run.R c)
  post c := iprop(StableHlo.held (c : Thread nD τ) (Pipeline.ucRefs τ sig) (GenP.V10 m (Vals.outs m) c) ∗ Run.R c)
  X c := iprop(∃ r, prngReg c r)
  Y c := iprop((∃ r, prngReg c r) ∗ Pipeline.prefHeld (Ix := Unit) (Name := ℕ) (U := UR sig nD τ) (Lvl := ℕ) pre4 c (fun _ => fullShare) (Run.tbl4 m))
  Z c := Pipeline.unscopedRestP (Ix := Unit) (Name := ℕ) (U := UR sig nD τ) (Lvl := ℕ) pre4 spec4 c (Run.Ve4 m c)
  hentry c := by
    rw [Pipeline.ownSems0_none]
    have hsplit := Pipeline.arrays_of_unscopedBufs (p := (4 : Fin 33)) (pcfgs (F := F)) (Run.a m h) (Run.pdats m h) (launch4 (F := F)).win (launch4 (F := F)).arr_whole c
      ((Run.pdats m h (4 : Fin 33) c).share_full fun _ => rfl) (Run.Ve4 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (4 : Fin 33) c).Φ 0 = iprop(Pipeline.ΦA spec4 c ∗ Pipeline.prefHeld (Ix := Unit) (Name := ℕ) (U := UR sig nD τ) (Lvl := ℕ) pre4 c (fun _ => fullShare) (Run.tbl4 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (4 : Fin 33) c).Φ (Fin.last _) = iprop(Pipeline.ΦA spec4 c ∗ Pipeline.prefHeld (Ix := Unit) (Name := ℕ) (U := UR sig nD τ) (Lvl := ℕ) pre4 c (fun _ => fullShare) (Run.tbl4 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (4 : Fin 33)) (pcfgs (F := F)) (Run.a m h) (Ix := Unit) (Name := ℕ) (U := UR sig nD τ) (Lvl := ℕ)
      (launch4 (F := F)).win (launch4 (F := F)).arr_whole c (Run.pdats m h) ((Run.pdats m h (4 : Fin 33) c).share_full fun _ => rfl)
      (Run.Ve4 m c) (fun b => GenP.V10 m (Vals.outs m) c b) ((Run.pdats m h (4 : Fin 33) c).arrAt · (G4.cfgM (Run.tbl4 m) h.ok4).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S4

end
-- ==== Proof.KI.G4V.lean ====
/-
  What gather region 0 leaves in its output array: point t writes back row `tb[t]` of the array it reads as row t, the
  50000 rows tile the output, so the array ends as the gathered rows.
-/
import proofs.«406793_j90890097918585_2_alg».proof.Proof.KI.G4
import proofs.«406793_j90890097918585_2_alg».proof.Proof.KI.Vals
import Idealize.ShloMosaic.Lib.Pipeline.Value

set_option maxRecDepth 16384

noncomputable section

namespace Cert.KernelIdeal.G4

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre4.Contents (Elt F)) (hO : ok4 (F := F) tb)

/-! ## The two windows' block rows at a point -/

/-- A point of the grid is below 50000. -/
private theorem point_lt (t : Fin (cfgM tb hO).N) : t.val < 50000 := by
  have h : t.val < grid4.N := t.isLt
  rw [N_4] at h
  exact h

/-- The grid has one axis: the coordinate of point t is t. -/
private theorem coords_0 (t : Fin (cfgM tb hO).N) : (grid4.coords t 0).val = t.val := by
  have ht := point_lt tb hO t
  show t.val / grid4.stride 0 % grid4.bound 0 = t.val
  rw [show grid4.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc4_transform_1 (grid4.coords t) 0 = t.val
  unfold cc4_transform_1
  show (BitVec.ofNat 32 (grid4.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid4.N
  · exact Or.inl h
  · have hlt : t.val < grid4.N := t.isLt
    refine Or.inr ⟨by show t.val + 1 < grid4.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc4_transform_0 k4_off1_inb numel1_S1 tb (grid4.coords t) 0 = _
  unfold cc4_transform_0
  dsimp only
  refine congrArg BitVec.toNat (congrArg (tb 0 : S50000.Idx → BitVec 32) ?_)
  funext d
  match d with
  | ⟨0, _⟩ =>
    apply Fin.ext
    show (Scalar.indexCast (BitVec.ofNat 32 (grid4.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k4_pay1 x = x := by
  unfold k4_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v61 (ValueIdx.ix3 (Vals.rowOf ((tb 0 : S50000.Idx → BitVec 32) (ValueIdx.ix1 ⟨t.val, point_lt tb hO t⟩))) (y 1) (y 2)) := by
  show V c main_v61 ((((cfgM tb hO).win 0).blk t).view.emb y) = _
  refine congrArg (V c main_v61) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v61) (tb 0)) := by
  show ((cfgM tb hO).win 1).cut (grid4.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v61) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v62 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid4.N := by rw [N_4]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v61) (tb 0) :=
  (dat V tb hO c).arrAt_eq_of_cover 1 (Vals.gath3Of (V c main_v61) (tb 0)) (fun t _ => flushed_1 V tb hO htb c t)
    (cover_blk_1 tb hO)

end Cert.KernelIdeal.G4

end
-- ==== Proof.KI.S5.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (5 : Fin 33) c = G5.dat (Run.Ve5 m) (Run.tbl5 m) h.ok5 c := rfl

/-- On the one device the table's buffer holds the table. -/
theorem tbl_eq (c : Dev nD) : (fun k => Run.Ve5 m c (pre5.ref k)) = Run.tbl5 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec5 c (Run.Ve5 m c) : sProp 𝕄)
      = iprop(Pipeline.prefHeld (Ix := Unit) (Name := ℕ) (U := UR sig nD τ) (Lvl := ℕ) pre5 c (fun _ => fullShare) (Run.tbl5 m)
          ∗ Pipeline.unscopedRestP (Ix := Unit) (Name := ℕ) (U := UR sig nD τ) (Lvl := ℕ) pre5 spec5 c (Run.Ve5 m c)) := by
  have hs := Pipeline.unscopedRest_split (Ix := Unit) (Name := ℕ) (U := UR sig nD τ) (Lvl := ℕ) (Val := Elt F) (launch5 (F := F)).pre c (Run.Ve5 m c)
  rw [← tbl_eq m c]
  exact hs

/-- After the region each of its arrays holds what the pipeline leaves: the array read as entered, the output at the gathered rows. -/
theorem hF (harr : ∀ c : Dev nD, (G5.dat (Run.Ve5 m) (Run.tbl5 m) h.ok5 c).arrAt 1 (G5.cfgM (Run.tbl5 m) h.ok5).N = Vals.gath3 m 5 c)
    (c : Dev nD) (w : Fin (G5.cfgM (Run.tbl5 m) h.ok5).W) :
    (G5.dat (Run.Ve5 m) (Run.tbl5 m) h.ok5 c).arrAt w (G5.cfgM (Run.tbl5 m) h.ok5).N
      = GenP.V12 m (Vals.outs m) c (Pipeline.arrRef spec5 w) := by
  match w with
  | ⟨0, _⟩ =>
    refine ((G5.dat (Run.Ve5 m) (Run.tbl5 m) h.ok5 c).arrAt_in 0 rfl _).trans ((G5.A_eq (Run.Ve5 m) (Run.tbl5 m) h.ok5 c 0).trans ?_)
    exact (GenP.V12_of m (Vals.outs m) c main_v74 (by decide)).symm
  | ⟨1, _⟩ =>
    refine (harr c).trans ?_
    show Vals.gath3 m 5 c = Function.update (GenP.V11 m (Vals.outs m) c) main_v75 (Vals.outs m 12 main_v75 c) main_v75
    rw [Function.update_self, Vals.outs_5]

/-- and every other buffer what it held at entry. -/
theorem hrest (c : Dev nD) : ∀ b, b ∉ Finset.univ.image (Pipeline.arrRef spec5) →
    (fun b : Ref sig .tc => GenP.V12 m (Vals.outs m) c b) b = Run.Ve5 m c b := fun b hb =>
  GenP.V12_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G5.dat (Run.Ve5 m) (Run.tbl5 m) h.ok5 c).arrAt 1 (G5.cfgM (Run.tbl5 m) h.ok5).N = Vals.gath3 m 5 c) :
    Pipeline.RegionSeg (pcfgs (F := F)) (Run.a m h) (Run.pdats m h) () defs₀ Run.𝒱₀ Run.L Run.lv (5 : Fin 33) where
  win := (launch5 (F := F)).win.to₀
  block_pos := (launch5 (F := F)).block_pos
  stage_whole := (launch5 (F := F)).stage_whole
  K := PEmpty
  osem k := k.elim
  ho := Pipeline.OwnSemFacts.none _
  hbody c := (G5.body_obligation (Run.Ve5 m) (Run.tbl5 m) h.ok5 c).loose
  hwaits := Pipeline.hwaits_of_owed_zero _ _ _ _ Run.L Run.lv (5 : Fin 33) fun _ _ => rfl
  pre c := iprop(StableHlo.held (c : Thread nD τ) (Pipeline.ucRefs τ sig) (GenP.V11 m (Vals.outs m) c) ∗ Run.R c)
  post c := iprop(StableHlo.held (c : Thread nD τ) (Pipeline.ucRefs τ sig) (GenP.V12 m (Vals.outs m) c) ∗ Run.R c)
  X c := iprop(∃ r, prngReg c r)
  Y c := iprop((∃ r, prngReg c r) ∗ Pipeline.prefHeld (Ix := Unit) (Name := ℕ) (U := UR sig nD τ) (Lvl := ℕ) pre5 c (fun _ => fullShare) (Run.tbl5 m))
  Z c := Pipeline.unscopedRestP (Ix := Unit) (Name := ℕ) (U := UR sig nD τ) (Lvl := ℕ) pre5 spec5 c (Run.Ve5 m c)
  hentry c := by
    rw [Pipeline.ownSems0_none]
    have hsplit := Pipeline.arrays_of_unscopedBufs (p := (5 : Fin 33)) (pcfgs (F := F)) (Run.a m h) (Run.pdats m h) (launch5 (F := F)).win (launch5 (F := F)).arr_whole c
      ((Run.pdats m h (5 : Fin 33) c).share_full fun _ => rfl) (Run.Ve5 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (5 : Fin 33) c).Φ 0 = iprop(Pipeline.ΦA spec5 c ∗ Pipeline.prefHeld (Ix := Unit) (Name := ℕ) (U := UR sig nD τ) (Lvl := ℕ) pre5 c (fun _ => fullShare) (Run.tbl5 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (5 : Fin 33) c).Φ (Fin.last _) = iprop(Pipeline.ΦA spec5 c ∗ Pipeline.prefHeld (Ix := Unit) (Name := ℕ) (U := UR sig nD τ) (Lvl := ℕ) pre5 c (fun _ => fullShare) (Run.tbl5 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (5 : Fin 33)) (pcfgs (F := F)) (Run.a m h) (Ix := Unit) (Name := ℕ) (U := UR sig nD τ) (Lvl := ℕ)
      (launch5 (F := F)).win (launch5 (F := F)).arr_whole c (Run.pdats m h) ((Run.pdats m h (5 : Fin 33) c).share_full fun _ => rfl)
      (Run.Ve5 m c) (fun b => GenP.V12 m (Vals.outs m) c b) ((Run.pdats m h (5 : Fin 33) c).arrAt · (G5.cfgM (Run.tbl5 m) h.ok5).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S5

end
-- ==== Proof.KI.G5V.lean ====
/-
  What gather region 0 leaves in its output array: point t writes back row `tb[t]` of the array it reads as row t, the
  50000 rows tile the output, so the array ends as the gathered rows.
-/
import proofs.«406793_j90890097918585_2_alg».proof.Proof.KI.G5
import proofs.«406793_j90890097918585_2_alg».proof.Proof.KI.Vals
import Idealize.ShloMosaic.Lib.Pipeline.Value

set_option maxRecDepth 16384

noncomputable section

namespace Cert.KernelIdeal.G5

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre5.Contents (Elt F)) (hO : ok5 (F := F) tb)

/-! ## The two windows' block rows at a point -/

/-- A point of the grid is below 50000. -/
private theorem point_lt (t : Fin (cfgM tb hO).N) : t.val < 50000 := by
  have h : t.val < grid5.N := t.isLt
  rw [N_5] at h
  exact h

/-- The grid has one axis: the coordinate of point t is t. -/
private theorem coords_0 (t : Fin (cfgM tb hO).N) : (grid5.coords t 0).val = t.val := by
  have ht := point_lt tb hO t
  show t.val / grid5.stride 0 % grid5.bound 0 = t.val
  rw [show grid5.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc5_transform_1 (grid5.coords t) 0 = t.val
  unfold cc5_transform_1
  show (BitVec.ofNat 32 (grid5.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid5.N
  · exact Or.inl h
  · have hlt : t.val < grid5.N := t.isLt
    refine Or.inr ⟨by show t.val + 1 < grid5.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc5_transform_0 k5_off1_inb numel1_S1 tb (grid5.coords t) 0 = _
  unfold cc5_transform_0
  dsimp only
  refine congrArg BitVec.toNat (congrArg (tb 0 : S50000.Idx → BitVec 32) ?_)
  funext d
  match d with
  | ⟨0, _⟩ =>
    apply Fin.ext
    show (Scalar.indexCast (BitVec.ofNat 32 (grid5.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k5_pay1 x = x := by
  unfold k5_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v74 (ValueIdx.ix3 (Vals.rowOf ((tb 0 : S50000.Idx → BitVec 32) (ValueIdx.ix1 ⟨t.val, point_lt tb hO t⟩))) (y 1) (y 2)) := by
  show V c main_v74 ((((cfgM tb hO).win 0).blk t).view.emb y) = _
  refine congrArg (V c main_v74) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v74) (tb 0)) := by
  show ((cfgM tb hO).win 1).cut (grid5.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v74) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v75 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid5.N := by rw [N_5]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v74) (tb 0) :=
  (dat V tb hO c).arrAt_eq_of_cover 1 (Vals.gath3Of (V c main_v74) (tb 0)) (fun t _ => flushed_1 V tb hO htb c t)
    (cover_blk_1 tb hO)

end Cert.KernelIdeal.G5

end
-- ==== Proof.KI.S6.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (6 : Fin 33) c = G6.dat (Run.Ve6 m) (Run.tbl6 m) h.ok6 c := rfl

/-- On the one device the table's buffer holds the table. -/
theorem tbl_eq (c : Dev nD) : (fun k => Run.Ve6 m c (pre6.ref k)) = Run.tbl6 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec6 c (Run.Ve6 m c) : sProp 𝕄)
      = iprop(Pipeline.prefHeld (Ix := Unit) (Name := ℕ) (U := UR sig nD τ) (Lvl := ℕ) pre6 c (fun _ => fullShare) (Run.tbl6 m)
          ∗ Pipeline.unscopedRestP (Ix := Unit) (Name := ℕ) (U := UR sig nD τ) (Lvl := ℕ) pre6 spec6 c (Run.Ve6 m c)) := by
  have hs := Pipeline.unscopedRest_split (Ix := Unit) (Name := ℕ) (U := UR sig nD τ) (Lvl := ℕ) (Val := Elt F) (launch6 (F := F)).pre c (Run.Ve6 m c)
  rw [← tbl_eq m c]
  exact hs

/-- After the region each of its arrays holds what the pipeline leaves: the array read as entered, the output at the gathered rows. -/
theorem hF (harr : ∀ c : Dev nD, (G6.dat (Run.Ve6 m) (Run.tbl6 m) h.ok6 c).arrAt 1 (G6.cfgM (Run.tbl6 m) h.ok6).N = Vals.gath3 m 6 c)
    (c : Dev nD) (w : Fin (G6.cfgM (Run.tbl6 m) h.ok6).W) :
    (G6.dat (Run.Ve6 m) (Run.tbl6 m) h.ok6 c).arrAt w (G6.cfgM (Run.tbl6 m) h.ok6).N
      = GenP.V14 m (Vals.outs m) c (Pipeline.arrRef spec6 w) := by
  match w with
  | ⟨0, _⟩ =>
    refine ((G6.dat (Run.Ve6 m) (Run.tbl6 m) h.ok6 c).arrAt_in 0 rfl _).trans ((G6.A_eq (Run.Ve6 m) (Run.tbl6 m) h.ok6 c 0).trans ?_)
    exact (GenP.V14_of m (Vals.outs m) c main_v87 (by decide)).symm
  | ⟨1, _⟩ =>
    refine (harr c).trans ?_
    show Vals.gath3 m 6 c = Function.update (GenP.V13 m (Vals.outs m) c) main_v88 (Vals.outs m 14 main_v88 c) main_v88
    rw [Function.update_self, Vals.outs_6]

/-- and every other buffer what it held at entry. -/
theorem hrest (c : Dev nD) : ∀ b, b ∉ Finset.univ.image (Pipeline.arrRef spec6) →
    (fun b : Ref sig .tc => GenP.V14 m (Vals.outs m) c b) b = Run.Ve6 m c b := fun b hb =>
  GenP.V14_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G6.dat (Run.Ve6 m) (Run.tbl6 m) h.ok6 c).arrAt 1 (G6.cfgM (Run.tbl6 m) h.ok6).N = Vals.gath3 m 6 c) :
    Pipeline.RegionSeg (pcfgs (F := F)) (Run.a m h) (Run.pdats m h) () defs₀ Run.𝒱₀ Run.L Run.lv (6 : Fin 33) where
  win := (launch6 (F := F)).win.to₀
  block_pos := (launch6 (F := F)).block_pos
  stage_whole := (launch6 (F := F)).stage_whole
  K := PEmpty
  osem k := k.elim
  ho := Pipeline.OwnSemFacts.none _
  hbody c := (G6.body_obligation (Run.Ve6 m) (Run.tbl6 m) h.ok6 c).loose
  hwaits := Pipeline.hwaits_of_owed_zero _ _ _ _ Run.L Run.lv (6 : Fin 33) fun _ _ => rfl
  pre c := iprop(StableHlo.held (c : Thread nD τ) (Pipeline.ucRefs τ sig) (GenP.V13 m (Vals.outs m) c) ∗ Run.R c)
  post c := iprop(StableHlo.held (c : Thread nD τ) (Pipeline.ucRefs τ sig) (GenP.V14 m (Vals.outs m) c) ∗ Run.R c)
  X c := iprop(∃ r, prngReg c r)
  Y c := iprop((∃ r, prngReg c r) ∗ Pipeline.prefHeld (Ix := Unit) (Name := ℕ) (U := UR sig nD τ) (Lvl := ℕ) pre6 c (fun _ => fullShare) (Run.tbl6 m))
  Z c := Pipeline.unscopedRestP (Ix := Unit) (Name := ℕ) (U := UR sig nD τ) (Lvl := ℕ) pre6 spec6 c (Run.Ve6 m c)
  hentry c := by
    rw [Pipeline.ownSems0_none]
    have hsplit := Pipeline.arrays_of_unscopedBufs (p := (6 : Fin 33)) (pcfgs (F := F)) (Run.a m h) (Run.pdats m h) (launch6 (F := F)).win (launch6 (F := F)).arr_whole c
      ((Run.pdats m h (6 : Fin 33) c).share_full fun _ => rfl) (Run.Ve6 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (6 : Fin 33) c).Φ 0 = iprop(Pipeline.ΦA spec6 c ∗ Pipeline.prefHeld (Ix := Unit) (Name := ℕ) (U := UR sig nD τ) (Lvl := ℕ) pre6 c (fun _ => fullShare) (Run.tbl6 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (6 : Fin 33) c).Φ (Fin.last _) = iprop(Pipeline.ΦA spec6 c ∗ Pipeline.prefHeld (Ix := Unit) (Name := ℕ) (U := UR sig nD τ) (Lvl := ℕ) pre6 c (fun _ => fullShare) (Run.tbl6 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (6 : Fin 33)) (pcfgs (F := F)) (Run.a m h) (Ix := Unit) (Name := ℕ) (U := UR sig nD τ) (Lvl := ℕ)
      (launch6 (F := F)).win (launch6 (F := F)).arr_whole c (Run.pdats m h) ((Run.pdats m h (6 : Fin 33) c).share_full fun _ => rfl)
      (Run.Ve6 m c) (fun b => GenP.V14 m (Vals.outs m) c b) ((Run.pdats m h (6 : Fin 33) c).arrAt · (G6.cfgM (Run.tbl6 m) h.ok6).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S6

end
-- ==== Proof.KI.G6V.lean ====
/-
  What gather region 0 leaves in its output array: point t writes back row `tb[t]` of the array it reads as row t, the
  50000 rows tile the output, so the array ends as the gathered rows.
-/
import proofs.«406793_j90890097918585_2_alg».proof.Proof.KI.G6
import proofs.«406793_j90890097918585_2_alg».proof.Proof.KI.Vals
import Idealize.ShloMosaic.Lib.Pipeline.Value

set_option maxRecDepth 16384

noncomputable section

namespace Cert.KernelIdeal.G6

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre6.Contents (Elt F)) (hO : ok6 (F := F) tb)

/-! ## The two windows' block rows at a point -/

/-- A point of the grid is below 50000. -/
private theorem point_lt (t : Fin (cfgM tb hO).N) : t.val < 50000 := by
  have h : t.val < grid6.N := t.isLt
  rw [N_6] at h
  exact h

/-- The grid has one axis: the coordinate of point t is t. -/
private theorem coords_0 (t : Fin (cfgM tb hO).N) : (grid6.coords t 0).val = t.val := by
  have ht := point_lt tb hO t
  show t.val / grid6.stride 0 % grid6.bound 0 = t.val
  rw [show grid6.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc6_transform_1 (grid6.coords t) 0 = t.val
  unfold cc6_transform_1
  show (BitVec.ofNat 32 (grid6.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid6.N
  · exact Or.inl h
  · have hlt : t.val < grid6.N := t.isLt
    refine Or.inr ⟨by show t.val + 1 < grid6.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc6_transform_0 k6_off1_inb numel1_S1 tb (grid6.coords t) 0 = _
  unfold cc6_transform_0
  dsimp only
  refine congrArg BitVec.toNat (congrArg (tb 0 : S50000.Idx → BitVec 32) ?_)
  funext d
  match d with
  | ⟨0, _⟩ =>
    apply Fin.ext
    show (Scalar.indexCast (BitVec.ofNat 32 (grid6.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k6_pay1 x = x := by
  unfold k6_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v87 (ValueIdx.ix3 (Vals.rowOf ((tb 0 : S50000.Idx → BitVec 32) (ValueIdx.ix1 ⟨t.val, point_lt tb hO t⟩))) (y 1) (y 2)) := by
  show V c main_v87 ((((cfgM tb hO).win 0).blk t).view.emb y) = _
  refine congrArg (V c main_v87) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v87) (tb 0)) := by
  show ((cfgM tb hO).win 1).cut (grid6.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v87) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v88 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid6.N := by rw [N_6]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v87) (tb 0) :=
  (dat V tb hO c).arrAt_eq_of_cover 1 (Vals.gath3Of (V c main_v87) (tb 0)) (fun t _ => flushed_1 V tb hO htb c t)
    (cover_blk_1 tb hO)

end Cert.KernelIdeal.G6

end
-- ==== Proof.KI.S7.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (7 : Fin 33) c = G7.dat (Run.Ve7 m) (Run.tbl7 m) h.ok7 c := rfl

/-- On the one device the table's buffer holds the table. -/
theorem tbl_eq (c : Dev nD) : (fun k => Run.Ve7 m c (pre7.ref k)) = Run.tbl7 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec7 c (Run.Ve7 m c) : sProp 𝕄)
      = iprop(Pipeline.prefHeld (Ix := Unit) (Name := ℕ) (U := UR sig nD τ) (Lvl := ℕ) pre7 c (fun _ => fullShare) (Run.tbl7 m)
          ∗ Pipeline.unscopedRestP (Ix := Unit) (Name := ℕ) (U := UR sig nD τ) (Lvl := ℕ) pre7 spec7 c (Run.Ve7 m c)) := by
  have hs := Pipeline.unscopedRest_split (Ix := Unit) (Name := ℕ) (U := UR sig nD τ) (Lvl := ℕ) (Val := Elt F) (launch7 (F := F)).pre c (Run.Ve7 m c)
  rw [← tbl_eq m c]
  exact hs

/-- After the region each of its arrays holds what the pipeline leaves: the array read as entered, the output at the gathered rows. -/
theorem hF (harr : ∀ c : Dev nD, (G7.dat (Run.Ve7 m) (Run.tbl7 m) h.ok7 c).arrAt 1 (G7.cfgM (Run.tbl7 m) h.ok7).N = Vals.gath3 m 7 c)
    (c : Dev nD) (w : Fin (G7.cfgM (Run.tbl7 m) h.ok7).W) :
    (G7.dat (Run.Ve7 m) (Run.tbl7 m) h.ok7 c).arrAt w (G7.cfgM (Run.tbl7 m) h.ok7).N
      = GenP.V16 m (Vals.outs m) c (Pipeline.arrRef spec7 w) := by
  match w with
  | ⟨0, _⟩ =>
    refine ((G7.dat (Run.Ve7 m) (Run.tbl7 m) h.ok7 c).arrAt_in 0 rfl _).trans ((G7.A_eq (Run.Ve7 m) (Run.tbl7 m) h.ok7 c 0).trans ?_)
    exact (GenP.V16_of m (Vals.outs m) c main_v100 (by decide)).symm
  | ⟨1, _⟩ =>
    refine (harr c).trans ?_
    show Vals.gath3 m 7 c = Function.update (GenP.V15 m (Vals.outs m) c) main_v101 (Vals.outs m 16 main_v101 c) main_v101
    rw [Function.update_self, Vals.outs_7]

/-- and every other buffer what it held at entry. -/
theorem hrest (c : Dev nD) : ∀ b, b ∉ Finset.univ.image (Pipeline.arrRef spec7) →
    (fun b : Ref sig .tc => GenP.V16 m (Vals.outs m) c b) b = Run.Ve7 m c b := fun b hb =>
  GenP.V16_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G7.dat (Run.Ve7 m) (Run.tbl7 m) h.ok7 c).arrAt 1 (G7.cfgM (Run.tbl7 m) h.ok7).N = Vals.gath3 m 7 c) :
    Pipeline.RegionSeg (pcfgs (F := F)) (Run.a m h) (Run.pdats m h) () defs₀ Run.𝒱₀ Run.L Run.lv (7 : Fin 33) where
  win := (launch7 (F := F)).win.to₀
  block_pos := (launch7 (F := F)).block_pos
  stage_whole := (launch7 (F := F)).stage_whole
  K := PEmpty
  osem k := k.elim
  ho := Pipeline.OwnSemFacts.none _
  hbody c := (G7.body_obligation (Run.Ve7 m) (Run.tbl7 m) h.ok7 c).loose
  hwaits := Pipeline.hwaits_of_owed_zero _ _ _ _ Run.L Run.lv (7 : Fin 33) fun _ _ => rfl
  pre c := iprop(StableHlo.held (c : Thread nD τ) (Pipeline.ucRefs τ sig) (GenP.V15 m (Vals.outs m) c) ∗ Run.R c)
  post c := iprop(StableHlo.held (c : Thread nD τ) (Pipeline.ucRefs τ sig) (GenP.V16 m (Vals.outs m) c) ∗ Run.R c)
  X c := iprop(∃ r, prngReg c r)
  Y c := iprop((∃ r, prngReg c r) ∗ Pipeline.prefHeld (Ix := Unit) (Name := ℕ) (U := UR sig nD τ) (Lvl := ℕ) pre7 c (fun _ => fullShare) (Run.tbl7 m))
  Z c := Pipeline.unscopedRestP (Ix := Unit) (Name := ℕ) (U := UR sig nD τ) (Lvl := ℕ) pre7 spec7 c (Run.Ve7 m c)
  hentry c := by
    rw [Pipeline.ownSems0_none]
    have hsplit := Pipeline.arrays_of_unscopedBufs (p := (7 : Fin 33)) (pcfgs (F := F)) (Run.a m h) (Run.pdats m h) (launch7 (F := F)).win (launch7 (F := F)).arr_whole c
      ((Run.pdats m h (7 : Fin 33) c).share_full fun _ => rfl) (Run.Ve7 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (7 : Fin 33) c).Φ 0 = iprop(Pipeline.ΦA spec7 c ∗ Pipeline.prefHeld (Ix := Unit) (Name := ℕ) (U := UR sig nD τ) (Lvl := ℕ) pre7 c (fun _ => fullShare) (Run.tbl7 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (7 : Fin 33) c).Φ (Fin.last _) = iprop(Pipeline.ΦA spec7 c ∗ Pipeline.prefHeld (Ix := Unit) (Name := ℕ) (U := UR sig nD τ) (Lvl := ℕ) pre7 c (fun _ => fullShare) (Run.tbl7 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (7 : Fin 33)) (pcfgs (F := F)) (Run.a m h) (Ix := Unit) (Name := ℕ) (U := UR sig nD τ) (Lvl := ℕ)
      (launch7 (F := F)).win (launch7 (F := F)).arr_whole c (Run.pdats m h) ((Run.pdats m h (7 : Fin 33) c).share_full fun _ => rfl)
      (Run.Ve7 m c) (fun b => GenP.V16 m (Vals.outs m) c b) ((Run.pdats m h (7 : Fin 33) c).arrAt · (G7.cfgM (Run.tbl7 m) h.ok7).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S7

end
-- ==== Proof.KI.G7V.lean ====
/-
  What gather region 0 leaves in its output array: point t writes back row `tb[t]` of the array it reads as row t, the
  50000 rows tile the output, so the array ends as the gathered rows.
-/
import proofs.«406793_j90890097918585_2_alg».proof.Proof.KI.G7
import proofs.«406793_j90890097918585_2_alg».proof.Proof.KI.Vals
import Idealize.ShloMosaic.Lib.Pipeline.Value

set_option maxRecDepth 16384

noncomputable section

namespace Cert.KernelIdeal.G7

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre7.Contents (Elt F)) (hO : ok7 (F := F) tb)

/-! ## The two windows' block rows at a point -/

/-- A point of the grid is below 50000. -/
private theorem point_lt (t : Fin (cfgM tb hO).N) : t.val < 50000 := by
  have h : t.val < grid7.N := t.isLt
  rw [N_7] at h
  exact h

/-- The grid has one axis: the coordinate of point t is t. -/
private theorem coords_0 (t : Fin (cfgM tb hO).N) : (grid7.coords t 0).val = t.val := by
  have ht := point_lt tb hO t
  show t.val / grid7.stride 0 % grid7.bound 0 = t.val
  rw [show grid7.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc7_transform_1 (grid7.coords t) 0 = t.val
  unfold cc7_transform_1
  show (BitVec.ofNat 32 (grid7.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid7.N
  · exact Or.inl h
  · have hlt : t.val < grid7.N := t.isLt
    refine Or.inr ⟨by show t.val + 1 < grid7.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc7_transform_0 k7_off1_inb numel1_S1 tb (grid7.coords t) 0 = _
  unfold cc7_transform_0
  dsimp only
  refine congrArg BitVec.toNat (congrArg (tb 0 : S50000.Idx → BitVec 32) ?_)
  funext d
  match d with
  | ⟨0, _⟩ =>
    apply Fin.ext
    show (Scalar.indexCast (BitVec.ofNat 32 (grid7.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k7_pay1 x = x := by
  unfold k7_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v100 (ValueIdx.ix3 (Vals.rowOf ((tb 0 : S50000.Idx → BitVec 32) (ValueIdx.ix1 ⟨t.val, point_lt tb hO t⟩))) (y 1) (y 2)) := by
  show V c main_v100 ((((cfgM tb hO).win 0).blk t).view.emb y) = _
  refine congrArg (V c main_v100) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v100) (tb 0)) := by
  show ((cfgM tb hO).win 1).cut (grid7.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v100) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v101 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid7.N := by rw [N_7]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v100) (tb 0) :=
  (dat V tb hO c).arrAt_eq_of_cover 1 (Vals.gath3Of (V c main_v100) (tb 0)) (fun t _ => flushed_1 V tb hO htb c t)
    (cover_blk_1 tb hO)

end Cert.KernelIdeal.G7

end
-- ==== Proof.KI.S8.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (8 : Fin 33) c = G8.dat (Run.Ve8 m) (Run.tbl8 m) h.ok8 c := rfl

/-- On the one device the table's buffer holds the table. -/
theorem tbl_eq (c : Dev nD) : (fun k => Run.Ve8 m c (pre8.ref k)) = Run.tbl8 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec8 c (Run.Ve8 m c) : sProp 𝕄)
      = iprop(Pipeline.prefHeld (Ix := Unit) (Name := ℕ) (U := UR sig nD τ) (Lvl := ℕ) pre8 c (fun _ => fullShare) (Run.tbl8 m)
          ∗ Pipeline.unscopedRestP (Ix := Unit) (Name := ℕ) (U := UR sig nD τ) (Lvl := ℕ) pre8 spec8 c (Run.Ve8 m c)) := by
  have hs := Pipeline.unscopedRest_split (Ix := Unit) (Name := ℕ) (U := UR sig nD τ) (Lvl := ℕ) (Val := Elt F) (launch8 (F := F)).pre c (Run.Ve8 m c)
  rw [← tbl_eq m c]
  exact hs

/-- After the region each of its arrays holds what the pipeline leaves: the array read as entered, the output at the gathered rows. -/
theorem hF (harr : ∀ c : Dev nD, (G8.dat (Run.Ve8 m) (Run.tbl8 m) h.ok8 c).arrAt 1 (G8.cfgM (Run.tbl8 m) h.ok8).N = Vals.gath3 m 8 c)
    (c : Dev nD) (w : Fin (G8.cfgM (Run.tbl8 m) h.ok8).W) :
    (G8.dat (Run.Ve8 m) (Run.tbl8 m) h.ok8 c).arrAt w (G8.cfgM (Run.tbl8 m) h.ok8).N
      = GenP.V18 m (Vals.outs m) c (Pipeline.arrRef spec8 w) := by
  match w with
  | ⟨0, _⟩ =>
    refine ((G8.dat (Run.Ve8 m) (Run.tbl8 m) h.ok8 c).arrAt_in 0 rfl _).trans ((G8.A_eq (Run.Ve8 m) (Run.tbl8 m) h.ok8 c 0).trans ?_)
    exact (GenP.V18_of m (Vals.outs m) c main_v113 (by decide)).symm
  | ⟨1, _⟩ =>
    refine (harr c).trans ?_
    show Vals.gath3 m 8 c = Function.update (GenP.V17 m (Vals.outs m) c) main_v114 (Vals.outs m 18 main_v114 c) main_v114
    rw [Function.update_self, Vals.outs_8]

/-- and every other buffer what it held at entry. -/
theorem hrest (c : Dev nD) : ∀ b, b ∉ Finset.univ.image (Pipeline.arrRef spec8) →
    (fun b : Ref sig .tc => GenP.V18 m (Vals.outs m) c b) b = Run.Ve8 m c b := fun b hb =>
  GenP.V18_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G8.dat (Run.Ve8 m) (Run.tbl8 m) h.ok8 c).arrAt 1 (G8.cfgM (Run.tbl8 m) h.ok8).N = Vals.gath3 m 8 c) :
    Pipeline.RegionSeg (pcfgs (F := F)) (Run.a m h) (Run.pdats m h) () defs₀ Run.𝒱₀ Run.L Run.lv (8 : Fin 33) where
  win := (launch8 (F := F)).win.to₀
  block_pos := (launch8 (F := F)).block_pos
  stage_whole := (launch8 (F := F)).stage_whole
  K := PEmpty
  osem k := k.elim
  ho := Pipeline.OwnSemFacts.none _
  hbody c := (G8.body_obligation (Run.Ve8 m) (Run.tbl8 m) h.ok8 c).loose
  hwaits := Pipeline.hwaits_of_owed_zero _ _ _ _ Run.L Run.lv (8 : Fin 33) fun _ _ => rfl
  pre c := iprop(StableHlo.held (c : Thread nD τ) (Pipeline.ucRefs τ sig) (GenP.V17 m (Vals.outs m) c) ∗ Run.R c)
  post c := iprop(StableHlo.held (c : Thread nD τ) (Pipeline.ucRefs τ sig) (GenP.V18 m (Vals.outs m) c) ∗ Run.R c)
  X c := iprop(∃ r, prngReg c r)
  Y c := iprop((∃ r, prngReg c r) ∗ Pipeline.prefHeld (Ix := Unit) (Name := ℕ) (U := UR sig nD τ) (Lvl := ℕ) pre8 c (fun _ => fullShare) (Run.tbl8 m))
  Z c := Pipeline.unscopedRestP (Ix := Unit) (Name := ℕ) (U := UR sig nD τ) (Lvl := ℕ) pre8 spec8 c (Run.Ve8 m c)
  hentry c := by
    rw [Pipeline.ownSems0_none]
    have hsplit := Pipeline.arrays_of_unscopedBufs (p := (8 : Fin 33)) (pcfgs (F := F)) (Run.a m h) (Run.pdats m h) (launch8 (F := F)).win (launch8 (F := F)).arr_whole c
      ((Run.pdats m h (8 : Fin 33) c).share_full fun _ => rfl) (Run.Ve8 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (8 : Fin 33) c).Φ 0 = iprop(Pipeline.ΦA spec8 c ∗ Pipeline.prefHeld (Ix := Unit) (Name := ℕ) (U := UR sig nD τ) (Lvl := ℕ) pre8 c (fun _ => fullShare) (Run.tbl8 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (8 : Fin 33) c).Φ (Fin.last _) = iprop(Pipeline.ΦA spec8 c ∗ Pipeline.prefHeld (Ix := Unit) (Name := ℕ) (U := UR sig nD τ) (Lvl := ℕ) pre8 c (fun _ => fullShare) (Run.tbl8 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (8 : Fin 33)) (pcfgs (F := F)) (Run.a m h) (Ix := Unit) (Name := ℕ) (U := UR sig nD τ) (Lvl := ℕ)
      (launch8 (F := F)).win (launch8 (F := F)).arr_whole c (Run.pdats m h) ((Run.pdats m h (8 : Fin 33) c).share_full fun _ => rfl)
      (Run.Ve8 m c) (fun b => GenP.V18 m (Vals.outs m) c b) ((Run.pdats m h (8 : Fin 33) c).arrAt · (G8.cfgM (Run.tbl8 m) h.ok8).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S8

end
-- ==== Proof.KI.G8V.lean ====
/-
  What gather region 0 leaves in its output array: point t writes back row `tb[t]` of the array it reads as row t, the
  50000 rows tile the output, so the array ends as the gathered rows.
-/
import proofs.«406793_j90890097918585_2_alg».proof.Proof.KI.G8
import proofs.«406793_j90890097918585_2_alg».proof.Proof.KI.Vals
import Idealize.ShloMosaic.Lib.Pipeline.Value

set_option maxRecDepth 16384

noncomputable section

namespace Cert.KernelIdeal.G8

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre8.Contents (Elt F)) (hO : ok8 (F := F) tb)

/-! ## The two windows' block rows at a point -/

/-- A point of the grid is below 50000. -/
private theorem point_lt (t : Fin (cfgM tb hO).N) : t.val < 50000 := by
  have h : t.val < grid8.N := t.isLt
  rw [N_8] at h
  exact h

/-- The grid has one axis: the coordinate of point t is t. -/
private theorem coords_0 (t : Fin (cfgM tb hO).N) : (grid8.coords t 0).val = t.val := by
  have ht := point_lt tb hO t
  show t.val / grid8.stride 0 % grid8.bound 0 = t.val
  rw [show grid8.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc8_transform_1 (grid8.coords t) 0 = t.val
  unfold cc8_transform_1
  show (BitVec.ofNat 32 (grid8.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid8.N
  · exact Or.inl h
  · have hlt : t.val < grid8.N := t.isLt
    refine Or.inr ⟨by show t.val + 1 < grid8.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc8_transform_0 k8_off1_inb numel1_S1 tb (grid8.coords t) 0 = _
  unfold cc8_transform_0
  dsimp only
  refine congrArg BitVec.toNat (congrArg (tb 0 : S50000.Idx → BitVec 32) ?_)
  funext d
  match d with
  | ⟨0, _⟩ =>
    apply Fin.ext
    show (Scalar.indexCast (BitVec.ofNat 32 (grid8.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k8_pay1 x = x := by
  unfold k8_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v113 (ValueIdx.ix3 (Vals.rowOf ((tb 0 : S50000.Idx → BitVec 32) (ValueIdx.ix1 ⟨t.val, point_lt tb hO t⟩))) (y 1) (y 2)) := by
  show V c main_v113 ((((cfgM tb hO).win 0).blk t).view.emb y) = _
  refine congrArg (V c main_v113) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v113) (tb 0)) := by
  show ((cfgM tb hO).win 1).cut (grid8.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v113) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v114 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid8.N := by rw [N_8]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v113) (tb 0) :=
  (dat V tb hO c).arrAt_eq_of_cover 1 (Vals.gath3Of (V c main_v113) (tb 0)) (fun t _ => flushed_1 V tb hO htb c t)
    (cover_blk_1 tb hO)

end Cert.KernelIdeal.G8

end
-- ==== Proof.KI.S9.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (9 : Fin 33) c = G9.dat (Run.Ve9 m) (Run.tbl9 m) h.ok9 c := rfl

/-- On the one device the table's buffer holds the table. -/
theorem tbl_eq (c : Dev nD) : (fun k => Run.Ve9 m c (pre9.ref k)) = Run.tbl9 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec9 c (Run.Ve9 m c) : sProp 𝕄)
      = iprop(Pipeline.prefHeld (Ix := Unit) (Name := ℕ) (U := UR sig nD τ) (Lvl := ℕ) pre9 c (fun _ => fullShare) (Run.tbl9 m)
          ∗ Pipeline.unscopedRestP (Ix := Unit) (Name := ℕ) (U := UR sig nD τ) (Lvl := ℕ) pre9 spec9 c (Run.Ve9 m c)) := by
  have hs := Pipeline.unscopedRest_split (Ix := Unit) (Name := ℕ) (U := UR sig nD τ) (Lvl := ℕ) (Val := Elt F) (launch9 (F := F)).pre c (Run.Ve9 m c)
  rw [← tbl_eq m c]
  exact hs

/-- After the region each of its arrays holds what the pipeline leaves: the array read as entered, the output at the gathered rows. -/
theorem hF (harr : ∀ c : Dev nD, (G9.dat (Run.Ve9 m) (Run.tbl9 m) h.ok9 c).arrAt 1 (G9.cfgM (Run.tbl9 m) h.ok9).N = Vals.gath3 m 9 c)
    (c : Dev nD) (w : Fin (G9.cfgM (Run.tbl9 m) h.ok9).W) :
    (G9.dat (Run.Ve9 m) (Run.tbl9 m) h.ok9 c).arrAt w (G9.cfgM (Run.tbl9 m) h.ok9).N
      = GenP.V20 m (Vals.outs m) c (Pipeline.arrRef spec9 w) := by
  match w with
  | ⟨0, _⟩ =>
    refine ((G9.dat (Run.Ve9 m) (Run.tbl9 m) h.ok9 c).arrAt_in 0 rfl _).trans ((G9.A_eq (Run.Ve9 m) (Run.tbl9 m) h.ok9 c 0).trans ?_)
    exact (GenP.V20_of m (Vals.outs m) c main_v126 (by decide)).symm
  | ⟨1, _⟩ =>
    refine (harr c).trans ?_
    show Vals.gath3 m 9 c = Function.update (GenP.V19 m (Vals.outs m) c) main_v127 (Vals.outs m 20 main_v127 c) main_v127
    rw [Function.update_self, Vals.outs_9]

/-- and every other buffer what it held at entry. -/
theorem hrest (c : Dev nD) : ∀ b, b ∉ Finset.univ.image (Pipeline.arrRef spec9) →
    (fun b : Ref sig .tc => GenP.V20 m (Vals.outs m) c b) b = Run.Ve9 m c b := fun b hb =>
  GenP.V20_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G9.dat (Run.Ve9 m) (Run.tbl9 m) h.ok9 c).arrAt 1 (G9.cfgM (Run.tbl9 m) h.ok9).N = Vals.gath3 m 9 c) :
    Pipeline.RegionSeg (pcfgs (F := F)) (Run.a m h) (Run.pdats m h) () defs₀ Run.𝒱₀ Run.L Run.lv (9 : Fin 33) where
  win := (launch9 (F := F)).win.to₀
  block_pos := (launch9 (F := F)).block_pos
  stage_whole := (launch9 (F := F)).stage_whole
  K := PEmpty
  osem k := k.elim
  ho := Pipeline.OwnSemFacts.none _
  hbody c := (G9.body_obligation (Run.Ve9 m) (Run.tbl9 m) h.ok9 c).loose
  hwaits := Pipeline.hwaits_of_owed_zero _ _ _ _ Run.L Run.lv (9 : Fin 33) fun _ _ => rfl
  pre c := iprop(StableHlo.held (c : Thread nD τ) (Pipeline.ucRefs τ sig) (GenP.V19 m (Vals.outs m) c) ∗ Run.R c)
  post c := iprop(StableHlo.held (c : Thread nD τ) (Pipeline.ucRefs τ sig) (GenP.V20 m (Vals.outs m) c) ∗ Run.R c)
  X c := iprop(∃ r, prngReg c r)
  Y c := iprop((∃ r, prngReg c r) ∗ Pipeline.prefHeld (Ix := Unit) (Name := ℕ) (U := UR sig nD τ) (Lvl := ℕ) pre9 c (fun _ => fullShare) (Run.tbl9 m))
  Z c := Pipeline.unscopedRestP (Ix := Unit) (Name := ℕ) (U := UR sig nD τ) (Lvl := ℕ) pre9 spec9 c (Run.Ve9 m c)
  hentry c := by
    rw [Pipeline.ownSems0_none]
    have hsplit := Pipeline.arrays_of_unscopedBufs (p := (9 : Fin 33)) (pcfgs (F := F)) (Run.a m h) (Run.pdats m h) (launch9 (F := F)).win (launch9 (F := F)).arr_whole c
      ((Run.pdats m h (9 : Fin 33) c).share_full fun _ => rfl) (Run.Ve9 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (9 : Fin 33) c).Φ 0 = iprop(Pipeline.ΦA spec9 c ∗ Pipeline.prefHeld (Ix := Unit) (Name := ℕ) (U := UR sig nD τ) (Lvl := ℕ) pre9 c (fun _ => fullShare) (Run.tbl9 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (9 : Fin 33) c).Φ (Fin.last _) = iprop(Pipeline.ΦA spec9 c ∗ Pipeline.prefHeld (Ix := Unit) (Name := ℕ) (U := UR sig nD τ) (Lvl := ℕ) pre9 c (fun _ => fullShare) (Run.tbl9 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (9 : Fin 33)) (pcfgs (F := F)) (Run.a m h) (Ix := Unit) (Name := ℕ) (U := UR sig nD τ) (Lvl := ℕ)
      (launch9 (F := F)).win (launch9 (F := F)).arr_whole c (Run.pdats m h) ((Run.pdats m h (9 : Fin 33) c).share_full fun _ => rfl)
      (Run.Ve9 m c) (fun b => GenP.V20 m (Vals.outs m) c b) ((Run.pdats m h (9 : Fin 33) c).arrAt · (G9.cfgM (Run.tbl9 m) h.ok9).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S9

end
-- ==== Proof.KI.G9V.lean ====
/-
  What gather region 0 leaves in its output array: point t writes back row `tb[t]` of the array it reads as row t, the
  50000 rows tile the output, so the array ends as the gathered rows.
-/
import proofs.«406793_j90890097918585_2_alg».proof.Proof.KI.G9
import proofs.«406793_j90890097918585_2_alg».proof.Proof.KI.Vals
import Idealize.ShloMosaic.Lib.Pipeline.Value

set_option maxRecDepth 16384

noncomputable section

namespace Cert.KernelIdeal.G9

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre9.Contents (Elt F)) (hO : ok9 (F := F) tb)

/-! ## The two windows' block rows at a point -/

/-- A point of the grid is below 50000. -/
private theorem point_lt (t : Fin (cfgM tb hO).N) : t.val < 50000 := by
  have h : t.val < grid9.N := t.isLt
  rw [N_9] at h
  exact h

/-- The grid has one axis: the coordinate of point t is t. -/
private theorem coords_0 (t : Fin (cfgM tb hO).N) : (grid9.coords t 0).val = t.val := by
  have ht := point_lt tb hO t
  show t.val / grid9.stride 0 % grid9.bound 0 = t.val
  rw [show grid9.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc9_transform_1 (grid9.coords t) 0 = t.val
  unfold cc9_transform_1
  show (BitVec.ofNat 32 (grid9.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid9.N
  · exact Or.inl h
  · have hlt : t.val < grid9.N := t.isLt
    refine Or.inr ⟨by show t.val + 1 < grid9.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc9_transform_0 k9_off1_inb numel1_S1 tb (grid9.coords t) 0 = _
  unfold cc9_transform_0
  dsimp only
  refine congrArg BitVec.toNat (congrArg (tb 0 : S50000.Idx → BitVec 32) ?_)
  funext d
  match d with
  | ⟨0, _⟩ =>
    apply Fin.ext
    show (Scalar.indexCast (BitVec.ofNat 32 (grid9.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k9_pay1 x = x := by
  unfold k9_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v126 (ValueIdx.ix3 (Vals.rowOf ((tb 0 : S50000.Idx → BitVec 32) (ValueIdx.ix1 ⟨t.val, point_lt tb hO t⟩))) (y 1) (y 2)) := by
  show V c main_v126 ((((cfgM tb hO).win 0).blk t).view.emb y) = _
  refine congrArg (V c main_v126) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v126) (tb 0)) := by
  show ((cfgM tb hO).win 1).cut (grid9.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v126) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v127 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid9.N := by rw [N_9]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v126) (tb 0) :=
  (dat V tb hO c).arrAt_eq_of_cover 1 (Vals.gath3Of (V c main_v126) (tb 0)) (fun t _ => flushed_1 V tb hO htb c t)
    (cover_blk_1 tb hO)

end Cert.KernelIdeal.G9

end
-- ==== Proof.KI.S10.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (10 : Fin 33) c = G10.dat (Run.Ve10 m) (Run.tbl10 m) h.ok10 c := rfl

/-- On the one device the table's buffer holds the table. -/
theorem tbl_eq (c : Dev nD) : (fun k => Run.Ve10 m c (pre10.ref k)) = Run.tbl10 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec10 c (Run.Ve10 m c) : sProp 𝕄)
      = iprop(Pipeline.prefHeld (Ix := Unit) (Name := ℕ) (U := UR sig nD τ) (Lvl := ℕ) pre10 c (fun _ => fullShare) (Run.tbl10 m)
          ∗ Pipeline.unscopedRestP (Ix := Unit) (Name := ℕ) (U := UR sig nD τ) (Lvl := ℕ) pre10 spec10 c (Run.Ve10 m c)) := by
  have hs := Pipeline.unscopedRest_split (Ix := Unit) (Name := ℕ) (U := UR sig nD τ) (Lvl := ℕ) (Val := Elt F) (launch10 (F := F)).pre c (Run.Ve10 m c)
  rw [← tbl_eq m c]
  exact hs

/-- After the region each of its arrays holds what the pipeline leaves: the array read as entered, the output at the gathered rows. -/
theorem hF (harr : ∀ c : Dev nD, (G10.dat (Run.Ve10 m) (Run.tbl10 m) h.ok10 c).arrAt 1 (G10.cfgM (Run.tbl10 m) h.ok10).N = Vals.gath3 m 10 c)
    (c : Dev nD) (w : Fin (G10.cfgM (Run.tbl10 m) h.ok10).W) :
    (G10.dat (Run.Ve10 m) (Run.tbl10 m) h.ok10 c).arrAt w (G10.cfgM (Run.tbl10 m) h.ok10).N
      = GenP.V22 m (Vals.outs m) c (Pipeline.arrRef spec10 w) := by
  match w with
  | ⟨0, _⟩ =>
    refine ((G10.dat (Run.Ve10 m) (Run.tbl10 m) h.ok10 c).arrAt_in 0 rfl _).trans ((G10.A_eq (Run.Ve10 m) (Run.tbl10 m) h.ok10 c 0).trans ?_)
    exact (GenP.V22_of m (Vals.outs m) c main_v139 (by decide)).symm
  | ⟨1, _⟩ =>
    refine (harr c).trans ?_
    show Vals.gath3 m 10 c = Function.update (GenP.V21 m (Vals.outs m) c) main_v140 (Vals.outs m 22 main_v140 c) main_v140
    rw [Function.update_self, Vals.outs_10]

/-- and every other buffer what it held at entry. -/
theorem hrest (c : Dev nD) : ∀ b, b ∉ Finset.univ.image (Pipeline.arrRef spec10) →
    (fun b : Ref sig .tc => GenP.V22 m (Vals.outs m) c b) b = Run.Ve10 m c b := fun b hb =>
  GenP.V22_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G10.dat (Run.Ve10 m) (Run.tbl10 m) h.ok10 c).arrAt 1 (G10.cfgM (Run.tbl10 m) h.ok10).N = Vals.gath3 m 10 c) :
    Pipeline.RegionSeg (pcfgs (F := F)) (Run.a m h) (Run.pdats m h) () defs₀ Run.𝒱₀ Run.L Run.lv (10 : Fin 33) where
  win := (launch10 (F := F)).win.to₀
  block_pos := (launch10 (F := F)).block_pos
  stage_whole := (launch10 (F := F)).stage_whole
  K := PEmpty
  osem k := k.elim
  ho := Pipeline.OwnSemFacts.none _
  hbody c := (G10.body_obligation (Run.Ve10 m) (Run.tbl10 m) h.ok10 c).loose
  hwaits := Pipeline.hwaits_of_owed_zero _ _ _ _ Run.L Run.lv (10 : Fin 33) fun _ _ => rfl
  pre c := iprop(StableHlo.held (c : Thread nD τ) (Pipeline.ucRefs τ sig) (GenP.V21 m (Vals.outs m) c) ∗ Run.R c)
  post c := iprop(StableHlo.held (c : Thread nD τ) (Pipeline.ucRefs τ sig) (GenP.V22 m (Vals.outs m) c) ∗ Run.R c)
  X c := iprop(∃ r, prngReg c r)
  Y c := iprop((∃ r, prngReg c r) ∗ Pipeline.prefHeld (Ix := Unit) (Name := ℕ) (U := UR sig nD τ) (Lvl := ℕ) pre10 c (fun _ => fullShare) (Run.tbl10 m))
  Z c := Pipeline.unscopedRestP (Ix := Unit) (Name := ℕ) (U := UR sig nD τ) (Lvl := ℕ) pre10 spec10 c (Run.Ve10 m c)
  hentry c := by
    rw [Pipeline.ownSems0_none]
    have hsplit := Pipeline.arrays_of_unscopedBufs (p := (10 : Fin 33)) (pcfgs (F := F)) (Run.a m h) (Run.pdats m h) (launch10 (F := F)).win (launch10 (F := F)).arr_whole c
      ((Run.pdats m h (10 : Fin 33) c).share_full fun _ => rfl) (Run.Ve10 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (10 : Fin 33) c).Φ 0 = iprop(Pipeline.ΦA spec10 c ∗ Pipeline.prefHeld (Ix := Unit) (Name := ℕ) (U := UR sig nD τ) (Lvl := ℕ) pre10 c (fun _ => fullShare) (Run.tbl10 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (10 : Fin 33) c).Φ (Fin.last _) = iprop(Pipeline.ΦA spec10 c ∗ Pipeline.prefHeld (Ix := Unit) (Name := ℕ) (U := UR sig nD τ) (Lvl := ℕ) pre10 c (fun _ => fullShare) (Run.tbl10 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (10 : Fin 33)) (pcfgs (F := F)) (Run.a m h) (Ix := Unit) (Name := ℕ) (U := UR sig nD τ) (Lvl := ℕ)
      (launch10 (F := F)).win (launch10 (F := F)).arr_whole c (Run.pdats m h) ((Run.pdats m h (10 : Fin 33) c).share_full fun _ => rfl)
      (Run.Ve10 m c) (fun b => GenP.V22 m (Vals.outs m) c b) ((Run.pdats m h (10 : Fin 33) c).arrAt · (G10.cfgM (Run.tbl10 m) h.ok10).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S10

end
-- ==== Proof.KI.G10V.lean ====
/-
  What gather region 0 leaves in its output array: point t writes back row `tb[t]` of the array it reads as row t, the
  50000 rows tile the output, so the array ends as the gathered rows.
-/
import proofs.«406793_j90890097918585_2_alg».proof.Proof.KI.G10
import proofs.«406793_j90890097918585_2_alg».proof.Proof.KI.Vals
import Idealize.ShloMosaic.Lib.Pipeline.Value

set_option maxRecDepth 16384

noncomputable section

namespace Cert.KernelIdeal.G10

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre10.Contents (Elt F)) (hO : ok10 (F := F) tb)

/-! ## The two windows' block rows at a point -/

/-- A point of the grid is below 50000. -/
private theorem point_lt (t : Fin (cfgM tb hO).N) : t.val < 50000 := by
  have h : t.val < grid10.N := t.isLt
  rw [N_10] at h
  exact h

/-- The grid has one axis: the coordinate of point t is t. -/
private theorem coords_0 (t : Fin (cfgM tb hO).N) : (grid10.coords t 0).val = t.val := by
  have ht := point_lt tb hO t
  show t.val / grid10.stride 0 % grid10.bound 0 = t.val
  rw [show grid10.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc10_transform_1 (grid10.coords t) 0 = t.val
  unfold cc10_transform_1
  show (BitVec.ofNat 32 (grid10.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid10.N
  · exact Or.inl h
  · have hlt : t.val < grid10.N := t.isLt
    refine Or.inr ⟨by show t.val + 1 < grid10.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc10_transform_0 k10_off1_inb numel1_S1 tb (grid10.coords t) 0 = _
  unfold cc10_transform_0
  dsimp only
  refine congrArg BitVec.toNat (congrArg (tb 0 : S50000.Idx → BitVec 32) ?_)
  funext d
  match d with
  | ⟨0, _⟩ =>
    apply Fin.ext
    show (Scalar.indexCast (BitVec.ofNat 32 (grid10.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k10_pay1 x = x := by
  unfold k10_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v139 (ValueIdx.ix3 (Vals.rowOf ((tb 0 : S50000.Idx → BitVec 32) (ValueIdx.ix1 ⟨t.val, point_lt tb hO t⟩))) (y 1) (y 2)) := by
  show V c main_v139 ((((cfgM tb hO).win 0).blk t).view.emb y) = _
  refine congrArg (V c main_v139) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v139) (tb 0)) := by
  show ((cfgM tb hO).win 1).cut (grid10.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v139) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v140 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid10.N := by rw [N_10]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v139) (tb 0) :=
  (dat V tb hO c).arrAt_eq_of_cover 1 (Vals.gath3Of (V c main_v139) (tb 0)) (fun t _ => flushed_1 V tb hO htb c t)
    (cover_blk_1 tb hO)

end Cert.KernelIdeal.G10

end
-- ==== Proof.KI.S11.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (11 : Fin 33) c = G11.dat (Run.Ve11 m) (Run.tbl11 m) h.ok11 c := rfl

/-- On the one device the table's buffer holds the table. -/
theorem tbl_eq (c : Dev nD) : (fun k => Run.Ve11 m c (pre11.ref k)) = Run.tbl11 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec11 c (Run.Ve11 m c) : sProp 𝕄)
      = iprop(Pipeline.prefHeld (Ix := Unit) (Name := ℕ) (U := UR sig nD τ) (Lvl := ℕ) pre11 c (fun _ => fullShare) (Run.tbl11 m)
          ∗ Pipeline.unscopedRestP (Ix := Unit) (Name := ℕ) (U := UR sig nD τ) (Lvl := ℕ) pre11 spec11 c (Run.Ve11 m c)) := by
  have hs := Pipeline.unscopedRest_split (Ix := Unit) (Name := ℕ) (U := UR sig nD τ) (Lvl := ℕ) (Val := Elt F) (launch11 (F := F)).pre c (Run.Ve11 m c)
  rw [← tbl_eq m c]
  exact hs

/-- After the region each of its arrays holds what the pipeline leaves: the array read as entered, the output at the gathered rows. -/
theorem hF (harr : ∀ c : Dev nD, (G11.dat (Run.Ve11 m) (Run.tbl11 m) h.ok11 c).arrAt 1 (G11.cfgM (Run.tbl11 m) h.ok11).N = Vals.gath3 m 11 c)
    (c : Dev nD) (w : Fin (G11.cfgM (Run.tbl11 m) h.ok11).W) :
    (G11.dat (Run.Ve11 m) (Run.tbl11 m) h.ok11 c).arrAt w (G11.cfgM (Run.tbl11 m) h.ok11).N
      = GenP.V24 m (Vals.outs m) c (Pipeline.arrRef spec11 w) := by
  match w with
  | ⟨0, _⟩ =>
    refine ((G11.dat (Run.Ve11 m) (Run.tbl11 m) h.ok11 c).arrAt_in 0 rfl _).trans ((G11.A_eq (Run.Ve11 m) (Run.tbl11 m) h.ok11 c 0).trans ?_)
    exact (GenP.V24_of m (Vals.outs m) c main_v152 (by decide)).symm
  | ⟨1, _⟩ =>
    refine (harr c).trans ?_
    show Vals.gath3 m 11 c = Function.update (GenP.V23 m (Vals.outs m) c) main_v153 (Vals.outs m 24 main_v153 c) main_v153
    rw [Function.update_self, Vals.outs_11]

/-- and every other buffer what it held at entry. -/
theorem hrest (c : Dev nD) : ∀ b, b ∉ Finset.univ.image (Pipeline.arrRef spec11) →
    (fun b : Ref sig .tc => GenP.V24 m (Vals.outs m) c b) b = Run.Ve11 m c b := fun b hb =>
  GenP.V24_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G11.dat (Run.Ve11 m) (Run.tbl11 m) h.ok11 c).arrAt 1 (G11.cfgM (Run.tbl11 m) h.ok11).N = Vals.gath3 m 11 c) :
    Pipeline.RegionSeg (pcfgs (F := F)) (Run.a m h) (Run.pdats m h) () defs₀ Run.𝒱₀ Run.L Run.lv (11 : Fin 33) where
  win := (launch11 (F := F)).win.to₀
  block_pos := (launch11 (F := F)).block_pos
  stage_whole := (launch11 (F := F)).stage_whole
  K := PEmpty
  osem k := k.elim
  ho := Pipeline.OwnSemFacts.none _
  hbody c := (G11.body_obligation (Run.Ve11 m) (Run.tbl11 m) h.ok11 c).loose
  hwaits := Pipeline.hwaits_of_owed_zero _ _ _ _ Run.L Run.lv (11 : Fin 33) fun _ _ => rfl
  pre c := iprop(StableHlo.held (c : Thread nD τ) (Pipeline.ucRefs τ sig) (GenP.V23 m (Vals.outs m) c) ∗ Run.R c)
  post c := iprop(StableHlo.held (c : Thread nD τ) (Pipeline.ucRefs τ sig) (GenP.V24 m (Vals.outs m) c) ∗ Run.R c)
  X c := iprop(∃ r, prngReg c r)
  Y c := iprop((∃ r, prngReg c r) ∗ Pipeline.prefHeld (Ix := Unit) (Name := ℕ) (U := UR sig nD τ) (Lvl := ℕ) pre11 c (fun _ => fullShare) (Run.tbl11 m))
  Z c := Pipeline.unscopedRestP (Ix := Unit) (Name := ℕ) (U := UR sig nD τ) (Lvl := ℕ) pre11 spec11 c (Run.Ve11 m c)
  hentry c := by
    rw [Pipeline.ownSems0_none]
    have hsplit := Pipeline.arrays_of_unscopedBufs (p := (11 : Fin 33)) (pcfgs (F := F)) (Run.a m h) (Run.pdats m h) (launch11 (F := F)).win (launch11 (F := F)).arr_whole c
      ((Run.pdats m h (11 : Fin 33) c).share_full fun _ => rfl) (Run.Ve11 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (11 : Fin 33) c).Φ 0 = iprop(Pipeline.ΦA spec11 c ∗ Pipeline.prefHeld (Ix := Unit) (Name := ℕ) (U := UR sig nD τ) (Lvl := ℕ) pre11 c (fun _ => fullShare) (Run.tbl11 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (11 : Fin 33) c).Φ (Fin.last _) = iprop(Pipeline.ΦA spec11 c ∗ Pipeline.prefHeld (Ix := Unit) (Name := ℕ) (U := UR sig nD τ) (Lvl := ℕ) pre11 c (fun _ => fullShare) (Run.tbl11 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (11 : Fin 33)) (pcfgs (F := F)) (Run.a m h) (Ix := Unit) (Name := ℕ) (U := UR sig nD τ) (Lvl := ℕ)
      (launch11 (F := F)).win (launch11 (F := F)).arr_whole c (Run.pdats m h) ((Run.pdats m h (11 : Fin 33) c).share_full fun _ => rfl)
      (Run.Ve11 m c) (fun b => GenP.V24 m (Vals.outs m) c b) ((Run.pdats m h (11 : Fin 33) c).arrAt · (G11.cfgM (Run.tbl11 m) h.ok11).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S11

end
-- ==== Proof.KI.G11V.lean ====
/-
  What gather region 0 leaves in its output array: point t writes back row `tb[t]` of the array it reads as row t, the
  50000 rows tile the output, so the array ends as the gathered rows.
-/
import proofs.«406793_j90890097918585_2_alg».proof.Proof.KI.G11
import proofs.«406793_j90890097918585_2_alg».proof.Proof.KI.Vals
import Idealize.ShloMosaic.Lib.Pipeline.Value

set_option maxRecDepth 16384

noncomputable section

namespace Cert.KernelIdeal.G11

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre11.Contents (Elt F)) (hO : ok11 (F := F) tb)

/-! ## The two windows' block rows at a point -/

/-- A point of the grid is below 50000. -/
private theorem point_lt (t : Fin (cfgM tb hO).N) : t.val < 50000 := by
  have h : t.val < grid11.N := t.isLt
  rw [N_11] at h
  exact h

/-- The grid has one axis: the coordinate of point t is t. -/
private theorem coords_0 (t : Fin (cfgM tb hO).N) : (grid11.coords t 0).val = t.val := by
  have ht := point_lt tb hO t
  show t.val / grid11.stride 0 % grid11.bound 0 = t.val
  rw [show grid11.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc11_transform_1 (grid11.coords t) 0 = t.val
  unfold cc11_transform_1
  show (BitVec.ofNat 32 (grid11.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid11.N
  · exact Or.inl h
  · have hlt : t.val < grid11.N := t.isLt
    refine Or.inr ⟨by show t.val + 1 < grid11.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc11_transform_0 k11_off1_inb numel1_S1 tb (grid11.coords t) 0 = _
  unfold cc11_transform_0
  dsimp only
  refine congrArg BitVec.toNat (congrArg (tb 0 : S50000.Idx → BitVec 32) ?_)
  funext d
  match d with
  | ⟨0, _⟩ =>
    apply Fin.ext
    show (Scalar.indexCast (BitVec.ofNat 32 (grid11.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k11_pay1 x = x := by
  unfold k11_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v152 (ValueIdx.ix3 (Vals.rowOf ((tb 0 : S50000.Idx → BitVec 32) (ValueIdx.ix1 ⟨t.val, point_lt tb hO t⟩))) (y 1) (y 2)) := by
  show V c main_v152 ((((cfgM tb hO).win 0).blk t).view.emb y) = _
  refine congrArg (V c main_v152) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v152) (tb 0)) := by
  show ((cfgM tb hO).win 1).cut (grid11.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v152) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v153 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid11.N := by rw [N_11]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v152) (tb 0) :=
  (dat V tb hO c).arrAt_eq_of_cover 1 (Vals.gath3Of (V c main_v152) (tb 0)) (fun t _ => flushed_1 V tb hO htb c t)
    (cover_blk_1 tb hO)

end Cert.KernelIdeal.G11

end
-- ==== Proof.KI.S12.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (12 : Fin 33) c = G12.dat (Run.Ve12 m) (Run.tbl12 m) h.ok12 c := rfl

/-- On the one device the table's buffer holds the table. -/
theorem tbl_eq (c : Dev nD) : (fun k => Run.Ve12 m c (pre12.ref k)) = Run.tbl12 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec12 c (Run.Ve12 m c) : sProp 𝕄)
      = iprop(Pipeline.prefHeld (Ix := Unit) (Name := ℕ) (U := UR sig nD τ) (Lvl := ℕ) pre12 c (fun _ => fullShare) (Run.tbl12 m)
          ∗ Pipeline.unscopedRestP (Ix := Unit) (Name := ℕ) (U := UR sig nD τ) (Lvl := ℕ) pre12 spec12 c (Run.Ve12 m c)) := by
  have hs := Pipeline.unscopedRest_split (Ix := Unit) (Name := ℕ) (U := UR sig nD τ) (Lvl := ℕ) (Val := Elt F) (launch12 (F := F)).pre c (Run.Ve12 m c)
  rw [← tbl_eq m c]
  exact hs

/-- After the region each of its arrays holds what the pipeline leaves: the array read as entered, the output at the gathered rows. -/
theorem hF (harr : ∀ c : Dev nD, (G12.dat (Run.Ve12 m) (Run.tbl12 m) h.ok12 c).arrAt 1 (G12.cfgM (Run.tbl12 m) h.ok12).N = Vals.gath3 m 12 c)
    (c : Dev nD) (w : Fin (G12.cfgM (Run.tbl12 m) h.ok12).W) :
    (G12.dat (Run.Ve12 m) (Run.tbl12 m) h.ok12 c).arrAt w (G12.cfgM (Run.tbl12 m) h.ok12).N
      = GenP.V26 m (Vals.outs m) c (Pipeline.arrRef spec12 w) := by
  match w with
  | ⟨0, _⟩ =>
    refine ((G12.dat (Run.Ve12 m) (Run.tbl12 m) h.ok12 c).arrAt_in 0 rfl _).trans ((G12.A_eq (Run.Ve12 m) (Run.tbl12 m) h.ok12 c 0).trans ?_)
    exact (GenP.V26_of m (Vals.outs m) c main_v165 (by decide)).symm
  | ⟨1, _⟩ =>
    refine (harr c).trans ?_
    show Vals.gath3 m 12 c = Function.update (GenP.V25 m (Vals.outs m) c) main_v166 (Vals.outs m 26 main_v166 c) main_v166
    rw [Function.update_self, Vals.outs_12]

/-- and every other buffer what it held at entry. -/
theorem hrest (c : Dev nD) : ∀ b, b ∉ Finset.univ.image (Pipeline.arrRef spec12) →
    (fun b : Ref sig .tc => GenP.V26 m (Vals.outs m) c b) b = Run.Ve12 m c b := fun b hb =>
  GenP.V26_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G12.dat (Run.Ve12 m) (Run.tbl12 m) h.ok12 c).arrAt 1 (G12.cfgM (Run.tbl12 m) h.ok12).N = Vals.gath3 m 12 c) :
    Pipeline.RegionSeg (pcfgs (F := F)) (Run.a m h) (Run.pdats m h) () defs₀ Run.𝒱₀ Run.L Run.lv (12 : Fin 33) where
  win := (launch12 (F := F)).win.to₀
  block_pos := (launch12 (F := F)).block_pos
  stage_whole := (launch12 (F := F)).stage_whole
  K := PEmpty
  osem k := k.elim
  ho := Pipeline.OwnSemFacts.none _
  hbody c := (G12.body_obligation (Run.Ve12 m) (Run.tbl12 m) h.ok12 c).loose
  hwaits := Pipeline.hwaits_of_owed_zero _ _ _ _ Run.L Run.lv (12 : Fin 33) fun _ _ => rfl
  pre c := iprop(StableHlo.held (c : Thread nD τ) (Pipeline.ucRefs τ sig) (GenP.V25 m (Vals.outs m) c) ∗ Run.R c)
  post c := iprop(StableHlo.held (c : Thread nD τ) (Pipeline.ucRefs τ sig) (GenP.V26 m (Vals.outs m) c) ∗ Run.R c)
  X c := iprop(∃ r, prngReg c r)
  Y c := iprop((∃ r, prngReg c r) ∗ Pipeline.prefHeld (Ix := Unit) (Name := ℕ) (U := UR sig nD τ) (Lvl := ℕ) pre12 c (fun _ => fullShare) (Run.tbl12 m))
  Z c := Pipeline.unscopedRestP (Ix := Unit) (Name := ℕ) (U := UR sig nD τ) (Lvl := ℕ) pre12 spec12 c (Run.Ve12 m c)
  hentry c := by
    rw [Pipeline.ownSems0_none]
    have hsplit := Pipeline.arrays_of_unscopedBufs (p := (12 : Fin 33)) (pcfgs (F := F)) (Run.a m h) (Run.pdats m h) (launch12 (F := F)).win (launch12 (F := F)).arr_whole c
      ((Run.pdats m h (12 : Fin 33) c).share_full fun _ => rfl) (Run.Ve12 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (12 : Fin 33) c).Φ 0 = iprop(Pipeline.ΦA spec12 c ∗ Pipeline.prefHeld (Ix := Unit) (Name := ℕ) (U := UR sig nD τ) (Lvl := ℕ) pre12 c (fun _ => fullShare) (Run.tbl12 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (12 : Fin 33) c).Φ (Fin.last _) = iprop(Pipeline.ΦA spec12 c ∗ Pipeline.prefHeld (Ix := Unit) (Name := ℕ) (U := UR sig nD τ) (Lvl := ℕ) pre12 c (fun _ => fullShare) (Run.tbl12 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (12 : Fin 33)) (pcfgs (F := F)) (Run.a m h) (Ix := Unit) (Name := ℕ) (U := UR sig nD τ) (Lvl := ℕ)
      (launch12 (F := F)).win (launch12 (F := F)).arr_whole c (Run.pdats m h) ((Run.pdats m h (12 : Fin 33) c).share_full fun _ => rfl)
      (Run.Ve12 m c) (fun b => GenP.V26 m (Vals.outs m) c b) ((Run.pdats m h (12 : Fin 33) c).arrAt · (G12.cfgM (Run.tbl12 m) h.ok12).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S12

end
-- ==== Proof.KI.G12V.lean ====
/-
  What gather region 0 leaves in its output array: point t writes back row `tb[t]` of the array it reads as row t, the
  50000 rows tile the output, so the array ends as the gathered rows.
-/
import proofs.«406793_j90890097918585_2_alg».proof.Proof.KI.G12
import proofs.«406793_j90890097918585_2_alg».proof.Proof.KI.Vals
import Idealize.ShloMosaic.Lib.Pipeline.Value

set_option maxRecDepth 16384

noncomputable section

namespace Cert.KernelIdeal.G12

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre12.Contents (Elt F)) (hO : ok12 (F := F) tb)

/-! ## The two windows' block rows at a point -/

/-- A point of the grid is below 50000. -/
private theorem point_lt (t : Fin (cfgM tb hO).N) : t.val < 50000 := by
  have h : t.val < grid12.N := t.isLt
  rw [N_12] at h
  exact h

/-- The grid has one axis: the coordinate of point t is t. -/
private theorem coords_0 (t : Fin (cfgM tb hO).N) : (grid12.coords t 0).val = t.val := by
  have ht := point_lt tb hO t
  show t.val / grid12.stride 0 % grid12.bound 0 = t.val
  rw [show grid12.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc12_transform_1 (grid12.coords t) 0 = t.val
  unfold cc12_transform_1
  show (BitVec.ofNat 32 (grid12.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid12.N
  · exact Or.inl h
  · have hlt : t.val < grid12.N := t.isLt
    refine Or.inr ⟨by show t.val + 1 < grid12.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc12_transform_0 k12_off1_inb numel1_S1 tb (grid12.coords t) 0 = _
  unfold cc12_transform_0
  dsimp only
  refine congrArg BitVec.toNat (congrArg (tb 0 : S50000.Idx → BitVec 32) ?_)
  funext d
  match d with
  | ⟨0, _⟩ =>
    apply Fin.ext
    show (Scalar.indexCast (BitVec.ofNat 32 (grid12.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k12_pay1 x = x := by
  unfold k12_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v165 (ValueIdx.ix3 (Vals.rowOf ((tb 0 : S50000.Idx → BitVec 32) (ValueIdx.ix1 ⟨t.val, point_lt tb hO t⟩))) (y 1) (y 2)) := by
  show V c main_v165 ((((cfgM tb hO).win 0).blk t).view.emb y) = _
  refine congrArg (V c main_v165) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v165) (tb 0)) := by
  show ((cfgM tb hO).win 1).cut (grid12.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v165) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v166 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid12.N := by rw [N_12]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v165) (tb 0) :=
  (dat V tb hO c).arrAt_eq_of_cover 1 (Vals.gath3Of (V c main_v165) (tb 0)) (fun t _ => flushed_1 V tb hO htb c t)
    (cover_blk_1 tb hO)

end Cert.KernelIdeal.G12

end
-- ==== Proof.KI.S13.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (13 : Fin 33) c = G13.dat (Run.Ve13 m) (Run.tbl13 m) h.ok13 c := rfl

/-- On the one device the table's buffer holds the table. -/
theorem tbl_eq (c : Dev nD) : (fun k => Run.Ve13 m c (pre13.ref k)) = Run.tbl13 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec13 c (Run.Ve13 m c) : sProp 𝕄)
      = iprop(Pipeline.prefHeld (Ix := Unit) (Name := ℕ) (U := UR sig nD τ) (Lvl := ℕ) pre13 c (fun _ => fullShare) (Run.tbl13 m)
          ∗ Pipeline.unscopedRestP (Ix := Unit) (Name := ℕ) (U := UR sig nD τ) (Lvl := ℕ) pre13 spec13 c (Run.Ve13 m c)) := by
  have hs := Pipeline.unscopedRest_split (Ix := Unit) (Name := ℕ) (U := UR sig nD τ) (Lvl := ℕ) (Val := Elt F) (launch13 (F := F)).pre c (Run.Ve13 m c)
  rw [← tbl_eq m c]
  exact hs

/-- After the region each of its arrays holds what the pipeline leaves: the array read as entered, the output at the gathered rows. -/
theorem hF (harr : ∀ c : Dev nD, (G13.dat (Run.Ve13 m) (Run.tbl13 m) h.ok13 c).arrAt 1 (G13.cfgM (Run.tbl13 m) h.ok13).N = Vals.gath3 m 13 c)
    (c : Dev nD) (w : Fin (G13.cfgM (Run.tbl13 m) h.ok13).W) :
    (G13.dat (Run.Ve13 m) (Run.tbl13 m) h.ok13 c).arrAt w (G13.cfgM (Run.tbl13 m) h.ok13).N
      = GenP.V28 m (Vals.outs m) c (Pipeline.arrRef spec13 w) := by
  match w with
  | ⟨0, _⟩ =>
    refine ((G13.dat (Run.Ve13 m) (Run.tbl13 m) h.ok13 c).arrAt_in 0 rfl _).trans ((G13.A_eq (Run.Ve13 m) (Run.tbl13 m) h.ok13 c 0).trans ?_)
    exact (GenP.V28_of m (Vals.outs m) c main_v178 (by decide)).symm
  | ⟨1, _⟩ =>
    refine (harr c).trans ?_
    show Vals.gath3 m 13 c = Function.update (GenP.V27 m (Vals.outs m) c) main_v179 (Vals.outs m 28 main_v179 c) main_v179
    rw [Function.update_self, Vals.outs_13]

/-- and every other buffer what it held at entry. -/
theorem hrest (c : Dev nD) : ∀ b, b ∉ Finset.univ.image (Pipeline.arrRef spec13) →
    (fun b : Ref sig .tc => GenP.V28 m (Vals.outs m) c b) b = Run.Ve13 m c b := fun b hb =>
  GenP.V28_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G13.dat (Run.Ve13 m) (Run.tbl13 m) h.ok13 c).arrAt 1 (G13.cfgM (Run.tbl13 m) h.ok13).N = Vals.gath3 m 13 c) :
    Pipeline.RegionSeg (pcfgs (F := F)) (Run.a m h) (Run.pdats m h) () defs₀ Run.𝒱₀ Run.L Run.lv (13 : Fin 33) where
  win := (launch13 (F := F)).win.to₀
  block_pos := (launch13 (F := F)).block_pos
  stage_whole := (launch13 (F := F)).stage_whole
  K := PEmpty
  osem k := k.elim
  ho := Pipeline.OwnSemFacts.none _
  hbody c := (G13.body_obligation (Run.Ve13 m) (Run.tbl13 m) h.ok13 c).loose
  hwaits := Pipeline.hwaits_of_owed_zero _ _ _ _ Run.L Run.lv (13 : Fin 33) fun _ _ => rfl
  pre c := iprop(StableHlo.held (c : Thread nD τ) (Pipeline.ucRefs τ sig) (GenP.V27 m (Vals.outs m) c) ∗ Run.R c)
  post c := iprop(StableHlo.held (c : Thread nD τ) (Pipeline.ucRefs τ sig) (GenP.V28 m (Vals.outs m) c) ∗ Run.R c)
  X c := iprop(∃ r, prngReg c r)
  Y c := iprop((∃ r, prngReg c r) ∗ Pipeline.prefHeld (Ix := Unit) (Name := ℕ) (U := UR sig nD τ) (Lvl := ℕ) pre13 c (fun _ => fullShare) (Run.tbl13 m))
  Z c := Pipeline.unscopedRestP (Ix := Unit) (Name := ℕ) (U := UR sig nD τ) (Lvl := ℕ) pre13 spec13 c (Run.Ve13 m c)
  hentry c := by
    rw [Pipeline.ownSems0_none]
    have hsplit := Pipeline.arrays_of_unscopedBufs (p := (13 : Fin 33)) (pcfgs (F := F)) (Run.a m h) (Run.pdats m h) (launch13 (F := F)).win (launch13 (F := F)).arr_whole c
      ((Run.pdats m h (13 : Fin 33) c).share_full fun _ => rfl) (Run.Ve13 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (13 : Fin 33) c).Φ 0 = iprop(Pipeline.ΦA spec13 c ∗ Pipeline.prefHeld (Ix := Unit) (Name := ℕ) (U := UR sig nD τ) (Lvl := ℕ) pre13 c (fun _ => fullShare) (Run.tbl13 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (13 : Fin 33) c).Φ (Fin.last _) = iprop(Pipeline.ΦA spec13 c ∗ Pipeline.prefHeld (Ix := Unit) (Name := ℕ) (U := UR sig nD τ) (Lvl := ℕ) pre13 c (fun _ => fullShare) (Run.tbl13 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (13 : Fin 33)) (pcfgs (F := F)) (Run.a m h) (Ix := Unit) (Name := ℕ) (U := UR sig nD τ) (Lvl := ℕ)
      (launch13 (F := F)).win (launch13 (F := F)).arr_whole c (Run.pdats m h) ((Run.pdats m h (13 : Fin 33) c).share_full fun _ => rfl)
      (Run.Ve13 m c) (fun b => GenP.V28 m (Vals.outs m) c b) ((Run.pdats m h (13 : Fin 33) c).arrAt · (G13.cfgM (Run.tbl13 m) h.ok13).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S13

end
-- ==== Proof.KI.G13V.lean ====
/-
  What gather region 0 leaves in its output array: point t writes back row `tb[t]` of the array it reads as row t, the
  50000 rows tile the output, so the array ends as the gathered rows.
-/
import proofs.«406793_j90890097918585_2_alg».proof.Proof.KI.G13
import proofs.«406793_j90890097918585_2_alg».proof.Proof.KI.Vals
import Idealize.ShloMosaic.Lib.Pipeline.Value

set_option maxRecDepth 16384

noncomputable section

namespace Cert.KernelIdeal.G13

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre13.Contents (Elt F)) (hO : ok13 (F := F) tb)

/-! ## The two windows' block rows at a point -/

/-- A point of the grid is below 50000. -/
private theorem point_lt (t : Fin (cfgM tb hO).N) : t.val < 50000 := by
  have h : t.val < grid13.N := t.isLt
  rw [N_13] at h
  exact h

/-- The grid has one axis: the coordinate of point t is t. -/
private theorem coords_0 (t : Fin (cfgM tb hO).N) : (grid13.coords t 0).val = t.val := by
  have ht := point_lt tb hO t
  show t.val / grid13.stride 0 % grid13.bound 0 = t.val
  rw [show grid13.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc13_transform_1 (grid13.coords t) 0 = t.val
  unfold cc13_transform_1
  show (BitVec.ofNat 32 (grid13.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid13.N
  · exact Or.inl h
  · have hlt : t.val < grid13.N := t.isLt
    refine Or.inr ⟨by show t.val + 1 < grid13.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc13_transform_0 k13_off1_inb numel1_S1 tb (grid13.coords t) 0 = _
  unfold cc13_transform_0
  dsimp only
  refine congrArg BitVec.toNat (congrArg (tb 0 : S50000.Idx → BitVec 32) ?_)
  funext d
  match d with
  | ⟨0, _⟩ =>
    apply Fin.ext
    show (Scalar.indexCast (BitVec.ofNat 32 (grid13.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k13_pay1 x = x := by
  unfold k13_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v178 (ValueIdx.ix3 (Vals.rowOf ((tb 0 : S50000.Idx → BitVec 32) (ValueIdx.ix1 ⟨t.val, point_lt tb hO t⟩))) (y 1) (y 2)) := by
  show V c main_v178 ((((cfgM tb hO).win 0).blk t).view.emb y) = _
  refine congrArg (V c main_v178) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v178) (tb 0)) := by
  show ((cfgM tb hO).win 1).cut (grid13.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v178) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v179 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid13.N := by rw [N_13]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v178) (tb 0) :=
  (dat V tb hO c).arrAt_eq_of_cover 1 (Vals.gath3Of (V c main_v178) (tb 0)) (fun t _ => flushed_1 V tb hO htb c t)
    (cover_blk_1 tb hO)

end Cert.KernelIdeal.G13

end
-- ==== Proof.KI.S14.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S14

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (14 : Fin 33) c = G14.dat (Run.Ve14 m) (Run.tbl14 m) h.ok14 c := rfl

/-- On the one device the table's buffer holds the table. -/
theorem tbl_eq (c : Dev nD) : (fun k => Run.Ve14 m c (pre14.ref k)) = Run.tbl14 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec14 c (Run.Ve14 m c) : sProp 𝕄)
      = iprop(Pipeline.prefHeld (Ix := Unit) (Name := ℕ) (U := UR sig nD τ) (Lvl := ℕ) pre14 c (fun _ => fullShare) (Run.tbl14 m)
          ∗ Pipeline.unscopedRestP (Ix := Unit) (Name := ℕ) (U := UR sig nD τ) (Lvl := ℕ) pre14 spec14 c (Run.Ve14 m c)) := by
  have hs := Pipeline.unscopedRest_split (Ix := Unit) (Name := ℕ) (U := UR sig nD τ) (Lvl := ℕ) (Val := Elt F) (launch14 (F := F)).pre c (Run.Ve14 m c)
  rw [← tbl_eq m c]
  exact hs

/-- After the region each of its arrays holds what the pipeline leaves: the array read as entered, the output at the gathered rows. -/
theorem hF (harr : ∀ c : Dev nD, (G14.dat (Run.Ve14 m) (Run.tbl14 m) h.ok14 c).arrAt 1 (G14.cfgM (Run.tbl14 m) h.ok14).N = Vals.gath3 m 14 c)
    (c : Dev nD) (w : Fin (G14.cfgM (Run.tbl14 m) h.ok14).W) :
    (G14.dat (Run.Ve14 m) (Run.tbl14 m) h.ok14 c).arrAt w (G14.cfgM (Run.tbl14 m) h.ok14).N
      = GenP.V30 m (Vals.outs m) c (Pipeline.arrRef spec14 w) := by
  match w with
  | ⟨0, _⟩ =>
    refine ((G14.dat (Run.Ve14 m) (Run.tbl14 m) h.ok14 c).arrAt_in 0 rfl _).trans ((G14.A_eq (Run.Ve14 m) (Run.tbl14 m) h.ok14 c 0).trans ?_)
    exact (GenP.V30_of m (Vals.outs m) c main_v191 (by decide)).symm
  | ⟨1, _⟩ =>
    refine (harr c).trans ?_
    show Vals.gath3 m 14 c = Function.update (GenP.V29 m (Vals.outs m) c) main_v192 (Vals.outs m 30 main_v192 c) main_v192
    rw [Function.update_self, Vals.outs_14]

/-- and every other buffer what it held at entry. -/
theorem hrest (c : Dev nD) : ∀ b, b ∉ Finset.univ.image (Pipeline.arrRef spec14) →
    (fun b : Ref sig .tc => GenP.V30 m (Vals.outs m) c b) b = Run.Ve14 m c b := fun b hb =>
  GenP.V30_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G14.dat (Run.Ve14 m) (Run.tbl14 m) h.ok14 c).arrAt 1 (G14.cfgM (Run.tbl14 m) h.ok14).N = Vals.gath3 m 14 c) :
    Pipeline.RegionSeg (pcfgs (F := F)) (Run.a m h) (Run.pdats m h) () defs₀ Run.𝒱₀ Run.L Run.lv (14 : Fin 33) where
  win := (launch14 (F := F)).win.to₀
  block_pos := (launch14 (F := F)).block_pos
  stage_whole := (launch14 (F := F)).stage_whole
  K := PEmpty
  osem k := k.elim
  ho := Pipeline.OwnSemFacts.none _
  hbody c := (G14.body_obligation (Run.Ve14 m) (Run.tbl14 m) h.ok14 c).loose
  hwaits := Pipeline.hwaits_of_owed_zero _ _ _ _ Run.L Run.lv (14 : Fin 33) fun _ _ => rfl
  pre c := iprop(StableHlo.held (c : Thread nD τ) (Pipeline.ucRefs τ sig) (GenP.V29 m (Vals.outs m) c) ∗ Run.R c)
  post c := iprop(StableHlo.held (c : Thread nD τ) (Pipeline.ucRefs τ sig) (GenP.V30 m (Vals.outs m) c) ∗ Run.R c)
  X c := iprop(∃ r, prngReg c r)
  Y c := iprop((∃ r, prngReg c r) ∗ Pipeline.prefHeld (Ix := Unit) (Name := ℕ) (U := UR sig nD τ) (Lvl := ℕ) pre14 c (fun _ => fullShare) (Run.tbl14 m))
  Z c := Pipeline.unscopedRestP (Ix := Unit) (Name := ℕ) (U := UR sig nD τ) (Lvl := ℕ) pre14 spec14 c (Run.Ve14 m c)
  hentry c := by
    rw [Pipeline.ownSems0_none]
    have hsplit := Pipeline.arrays_of_unscopedBufs (p := (14 : Fin 33)) (pcfgs (F := F)) (Run.a m h) (Run.pdats m h) (launch14 (F := F)).win (launch14 (F := F)).arr_whole c
      ((Run.pdats m h (14 : Fin 33) c).share_full fun _ => rfl) (Run.Ve14 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (14 : Fin 33) c).Φ 0 = iprop(Pipeline.ΦA spec14 c ∗ Pipeline.prefHeld (Ix := Unit) (Name := ℕ) (U := UR sig nD τ) (Lvl := ℕ) pre14 c (fun _ => fullShare) (Run.tbl14 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (14 : Fin 33) c).Φ (Fin.last _) = iprop(Pipeline.ΦA spec14 c ∗ Pipeline.prefHeld (Ix := Unit) (Name := ℕ) (U := UR sig nD τ) (Lvl := ℕ) pre14 c (fun _ => fullShare) (Run.tbl14 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (14 : Fin 33)) (pcfgs (F := F)) (Run.a m h) (Ix := Unit) (Name := ℕ) (U := UR sig nD τ) (Lvl := ℕ)
      (launch14 (F := F)).win (launch14 (F := F)).arr_whole c (Run.pdats m h) ((Run.pdats m h (14 : Fin 33) c).share_full fun _ => rfl)
      (Run.Ve14 m c) (fun b => GenP.V30 m (Vals.outs m) c b) ((Run.pdats m h (14 : Fin 33) c).arrAt · (G14.cfgM (Run.tbl14 m) h.ok14).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S14

end
-- ==== Proof.KI.G14V.lean ====
/-
  What gather region 0 leaves in its output array: point t writes back row `tb[t]` of the array it reads as row t, the
  50000 rows tile the output, so the array ends as the gathered rows.
-/
import proofs.«406793_j90890097918585_2_alg».proof.Proof.KI.G14
import proofs.«406793_j90890097918585_2_alg».proof.Proof.KI.Vals
import Idealize.ShloMosaic.Lib.Pipeline.Value

set_option maxRecDepth 16384

noncomputable section

namespace Cert.KernelIdeal.G14

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre14.Contents (Elt F)) (hO : ok14 (F := F) tb)

/-! ## The two windows' block rows at a point -/

/-- A point of the grid is below 50000. -/
private theorem point_lt (t : Fin (cfgM tb hO).N) : t.val < 50000 := by
  have h : t.val < grid14.N := t.isLt
  rw [N_14] at h
  exact h

/-- The grid has one axis: the coordinate of point t is t. -/
private theorem coords_0 (t : Fin (cfgM tb hO).N) : (grid14.coords t 0).val = t.val := by
  have ht := point_lt tb hO t
  show t.val / grid14.stride 0 % grid14.bound 0 = t.val
  rw [show grid14.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc14_transform_1 (grid14.coords t) 0 = t.val
  unfold cc14_transform_1
  show (BitVec.ofNat 32 (grid14.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid14.N
  · exact Or.inl h
  · have hlt : t.val < grid14.N := t.isLt
    refine Or.inr ⟨by show t.val + 1 < grid14.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc14_transform_0 k14_off1_inb numel1_S1 tb (grid14.coords t) 0 = _
  unfold cc14_transform_0
  dsimp only
  refine congrArg BitVec.toNat (congrArg (tb 0 : S50000.Idx → BitVec 32) ?_)
  funext d
  match d with
  | ⟨0, _⟩ =>
    apply Fin.ext
    show (Scalar.indexCast (BitVec.ofNat 32 (grid14.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k14_pay1 x = x := by
  unfold k14_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v191 (ValueIdx.ix3 (Vals.rowOf ((tb 0 : S50000.Idx → BitVec 32) (ValueIdx.ix1 ⟨t.val, point_lt tb hO t⟩))) (y 1) (y 2)) := by
  show V c main_v191 ((((cfgM tb hO).win 0).blk t).view.emb y) = _
  refine congrArg (V c main_v191) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v191) (tb 0)) := by
  show ((cfgM tb hO).win 1).cut (grid14.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v191) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v192 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid14.N := by rw [N_14]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v191) (tb 0) :=
  (dat V tb hO c).arrAt_eq_of_cover 1 (Vals.gath3Of (V c main_v191) (tb 0)) (fun t _ => flushed_1 V tb hO htb c t)
    (cover_blk_1 tb hO)

end Cert.KernelIdeal.G14

end
-- ==== Proof.KI.S15.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S15

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (15 : Fin 33) c = G15.dat (Run.Ve15 m) (Run.tbl15 m) h.ok15 c := rfl

/-- On the one device the table's buffer holds the table. -/
theorem tbl_eq (c : Dev nD) : (fun k => Run.Ve15 m c (pre15.ref k)) = Run.tbl15 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec15 c (Run.Ve15 m c) : sProp 𝕄)
      = iprop(Pipeline.prefHeld (Ix := Unit) (Name := ℕ) (U := UR sig nD τ) (Lvl := ℕ) pre15 c (fun _ => fullShare) (Run.tbl15 m)
          ∗ Pipeline.unscopedRestP (Ix := Unit) (Name := ℕ) (U := UR sig nD τ) (Lvl := ℕ) pre15 spec15 c (Run.Ve15 m c)) := by
  have hs := Pipeline.unscopedRest_split (Ix := Unit) (Name := ℕ) (U := UR sig nD τ) (Lvl := ℕ) (Val := Elt F) (launch15 (F := F)).pre c (Run.Ve15 m c)
  rw [← tbl_eq m c]
  exact hs

/-- After the region each of its arrays holds what the pipeline leaves: the array read as entered, the output at the gathered rows. -/
theorem hF (harr : ∀ c : Dev nD, (G15.dat (Run.Ve15 m) (Run.tbl15 m) h.ok15 c).arrAt 1 (G15.cfgM (Run.tbl15 m) h.ok15).N = Vals.gath3 m 15 c)
    (c : Dev nD) (w : Fin (G15.cfgM (Run.tbl15 m) h.ok15).W) :
    (G15.dat (Run.Ve15 m) (Run.tbl15 m) h.ok15 c).arrAt w (G15.cfgM (Run.tbl15 m) h.ok15).N
      = GenP.V32 m (Vals.outs m) c (Pipeline.arrRef spec15 w) := by
  match w with
  | ⟨0, _⟩ =>
    refine ((G15.dat (Run.Ve15 m) (Run.tbl15 m) h.ok15 c).arrAt_in 0 rfl _).trans ((G15.A_eq (Run.Ve15 m) (Run.tbl15 m) h.ok15 c 0).trans ?_)
    exact (GenP.V32_of m (Vals.outs m) c main_v204 (by decide)).symm
  | ⟨1, _⟩ =>
    refine (harr c).trans ?_
    show Vals.gath3 m 15 c = Function.update (GenP.V31 m (Vals.outs m) c) main_v205 (Vals.outs m 32 main_v205 c) main_v205
    rw [Function.update_self, Vals.outs_15]

/-- and every other buffer what it held at entry. -/
theorem hrest (c : Dev nD) : ∀ b, b ∉ Finset.univ.image (Pipeline.arrRef spec15) →
    (fun b : Ref sig .tc => GenP.V32 m (Vals.outs m) c b) b = Run.Ve15 m c b := fun b hb =>
  GenP.V32_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G15.dat (Run.Ve15 m) (Run.tbl15 m) h.ok15 c).arrAt 1 (G15.cfgM (Run.tbl15 m) h.ok15).N = Vals.gath3 m 15 c) :
    Pipeline.RegionSeg (pcfgs (F := F)) (Run.a m h) (Run.pdats m h) () defs₀ Run.𝒱₀ Run.L Run.lv (15 : Fin 33) where
  win := (launch15 (F := F)).win.to₀
  block_pos := (launch15 (F := F)).block_pos
  stage_whole := (launch15 (F := F)).stage_whole
  K := PEmpty
  osem k := k.elim
  ho := Pipeline.OwnSemFacts.none _
  hbody c := (G15.body_obligation (Run.Ve15 m) (Run.tbl15 m) h.ok15 c).loose
  hwaits := Pipeline.hwaits_of_owed_zero _ _ _ _ Run.L Run.lv (15 : Fin 33) fun _ _ => rfl
  pre c := iprop(StableHlo.held (c : Thread nD τ) (Pipeline.ucRefs τ sig) (GenP.V31 m (Vals.outs m) c) ∗ Run.R c)
  post c := iprop(StableHlo.held (c : Thread nD τ) (Pipeline.ucRefs τ sig) (GenP.V32 m (Vals.outs m) c) ∗ Run.R c)
  X c := iprop(∃ r, prngReg c r)
  Y c := iprop((∃ r, prngReg c r) ∗ Pipeline.prefHeld (Ix := Unit) (Name := ℕ) (U := UR sig nD τ) (Lvl := ℕ) pre15 c (fun _ => fullShare) (Run.tbl15 m))
  Z c := Pipeline.unscopedRestP (Ix := Unit) (Name := ℕ) (U := UR sig nD τ) (Lvl := ℕ) pre15 spec15 c (Run.Ve15 m c)
  hentry c := by
    rw [Pipeline.ownSems0_none]
    have hsplit := Pipeline.arrays_of_unscopedBufs (p := (15 : Fin 33)) (pcfgs (F := F)) (Run.a m h) (Run.pdats m h) (launch15 (F := F)).win (launch15 (F := F)).arr_whole c
      ((Run.pdats m h (15 : Fin 33) c).share_full fun _ => rfl) (Run.Ve15 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (15 : Fin 33) c).Φ 0 = iprop(Pipeline.ΦA spec15 c ∗ Pipeline.prefHeld (Ix := Unit) (Name := ℕ) (U := UR sig nD τ) (Lvl := ℕ) pre15 c (fun _ => fullShare) (Run.tbl15 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (15 : Fin 33) c).Φ (Fin.last _) = iprop(Pipeline.ΦA spec15 c ∗ Pipeline.prefHeld (Ix := Unit) (Name := ℕ) (U := UR sig nD τ) (Lvl := ℕ) pre15 c (fun _ => fullShare) (Run.tbl15 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (15 : Fin 33)) (pcfgs (F := F)) (Run.a m h) (Ix := Unit) (Name := ℕ) (U := UR sig nD τ) (Lvl := ℕ)
      (launch15 (F := F)).win (launch15 (F := F)).arr_whole c (Run.pdats m h) ((Run.pdats m h (15 : Fin 33) c).share_full fun _ => rfl)
      (Run.Ve15 m c) (fun b => GenP.V32 m (Vals.outs m) c b) ((Run.pdats m h (15 : Fin 33) c).arrAt · (G15.cfgM (Run.tbl15 m) h.ok15).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S15

end
-- ==== Proof.KI.G15V.lean ====
/-
  What gather region 0 leaves in its output array: point t writes back row `tb[t]` of the array it reads as row t, the
  50000 rows tile the output, so the array ends as the gathered rows.
-/
import proofs.«406793_j90890097918585_2_alg».proof.Proof.KI.G15
import proofs.«406793_j90890097918585_2_alg».proof.Proof.KI.Vals
import Idealize.ShloMosaic.Lib.Pipeline.Value

set_option maxRecDepth 16384

noncomputable section

namespace Cert.KernelIdeal.G15

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre15.Contents (Elt F)) (hO : ok15 (F := F) tb)

/-! ## The two windows' block rows at a point -/

/-- A point of the grid is below 50000. -/
private theorem point_lt (t : Fin (cfgM tb hO).N) : t.val < 50000 := by
  have h : t.val < grid15.N := t.isLt
  rw [N_15] at h
  exact h

/-- The grid has one axis: the coordinate of point t is t. -/
private theorem coords_0 (t : Fin (cfgM tb hO).N) : (grid15.coords t 0).val = t.val := by
  have ht := point_lt tb hO t
  show t.val / grid15.stride 0 % grid15.bound 0 = t.val
  rw [show grid15.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc15_transform_1 (grid15.coords t) 0 = t.val
  unfold cc15_transform_1
  show (BitVec.ofNat 32 (grid15.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid15.N
  · exact Or.inl h
  · have hlt : t.val < grid15.N := t.isLt
    refine Or.inr ⟨by show t.val + 1 < grid15.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc15_transform_0 k15_off1_inb numel1_S1 tb (grid15.coords t) 0 = _
  unfold cc15_transform_0
  dsimp only
  refine congrArg BitVec.toNat (congrArg (tb 0 : S50000.Idx → BitVec 32) ?_)
  funext d
  match d with
  | ⟨0, _⟩ =>
    apply Fin.ext
    show (Scalar.indexCast (BitVec.ofNat 32 (grid15.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k15_pay1 x = x := by
  unfold k15_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v204 (ValueIdx.ix3 (Vals.rowOf ((tb 0 : S50000.Idx → BitVec 32) (ValueIdx.ix1 ⟨t.val, point_lt tb hO t⟩))) (y 1) (y 2)) := by
  show V c main_v204 ((((cfgM tb hO).win 0).blk t).view.emb y) = _
  refine congrArg (V c main_v204) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v204) (tb 0)) := by
  show ((cfgM tb hO).win 1).cut (grid15.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v204) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v205 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid15.N := by rw [N_15]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v204) (tb 0) :=
  (dat V tb hO c).arrAt_eq_of_cover 1 (Vals.gath3Of (V c main_v204) (tb 0)) (fun t _ => flushed_1 V tb hO htb c t)
    (cover_blk_1 tb hO)

end Cert.KernelIdeal.G15

end
-- ==== Proof.KI.S16.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S16

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (16 : Fin 33) c = G16.dat (Run.Ve16 m) (Run.tbl16 m) h.ok16 c := rfl

/-- On the one device the table's buffer holds the table. -/
theorem tbl_eq (c : Dev nD) : (fun k => Run.Ve16 m c (pre16.ref k)) = Run.tbl16 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec16 c (Run.Ve16 m c) : sProp 𝕄)
      = iprop(Pipeline.prefHeld (Ix := Unit) (Name := ℕ) (U := UR sig nD τ) (Lvl := ℕ) pre16 c (fun _ => fullShare) (Run.tbl16 m)
          ∗ Pipeline.unscopedRestP (Ix := Unit) (Name := ℕ) (U := UR sig nD τ) (Lvl := ℕ) pre16 spec16 c (Run.Ve16 m c)) := by
  have hs := Pipeline.unscopedRest_split (Ix := Unit) (Name := ℕ) (U := UR sig nD τ) (Lvl := ℕ) (Val := Elt F) (launch16 (F := F)).pre c (Run.Ve16 m c)
  rw [← tbl_eq m c]
  exact hs

/-- After the region each of its arrays holds what the pipeline leaves: the array read as entered, the output at the gathered rows. -/
theorem hF (harr : ∀ c : Dev nD, (G16.dat (Run.Ve16 m) (Run.tbl16 m) h.ok16 c).arrAt 1 (G16.cfgM (Run.tbl16 m) h.ok16).N = Vals.gath3 m 16 c)
    (c : Dev nD) (w : Fin (G16.cfgM (Run.tbl16 m) h.ok16).W) :
    (G16.dat (Run.Ve16 m) (Run.tbl16 m) h.ok16 c).arrAt w (G16.cfgM (Run.tbl16 m) h.ok16).N
      = GenP.V34 m (Vals.outs m) c (Pipeline.arrRef spec16 w) := by
  match w with
  | ⟨0, _⟩ =>
    refine ((G16.dat (Run.Ve16 m) (Run.tbl16 m) h.ok16 c).arrAt_in 0 rfl _).trans ((G16.A_eq (Run.Ve16 m) (Run.tbl16 m) h.ok16 c 0).trans ?_)
    exact (GenP.V34_of m (Vals.outs m) c main_v217 (by decide)).symm
  | ⟨1, _⟩ =>
    refine (harr c).trans ?_
    show Vals.gath3 m 16 c = Function.update (GenP.V33 m (Vals.outs m) c) main_v218 (Vals.outs m 34 main_v218 c) main_v218
    rw [Function.update_self, Vals.outs_16]

/-- and every other buffer what it held at entry. -/
theorem hrest (c : Dev nD) : ∀ b, b ∉ Finset.univ.image (Pipeline.arrRef spec16) →
    (fun b : Ref sig .tc => GenP.V34 m (Vals.outs m) c b) b = Run.Ve16 m c b := fun b hb =>
  GenP.V34_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G16.dat (Run.Ve16 m) (Run.tbl16 m) h.ok16 c).arrAt 1 (G16.cfgM (Run.tbl16 m) h.ok16).N = Vals.gath3 m 16 c) :
    Pipeline.RegionSeg (pcfgs (F := F)) (Run.a m h) (Run.pdats m h) () defs₀ Run.𝒱₀ Run.L Run.lv (16 : Fin 33) where
  win := (launch16 (F := F)).win.to₀
  block_pos := (launch16 (F := F)).block_pos
  stage_whole := (launch16 (F := F)).stage_whole
  K := PEmpty
  osem k := k.elim
  ho := Pipeline.OwnSemFacts.none _
  hbody c := (G16.body_obligation (Run.Ve16 m) (Run.tbl16 m) h.ok16 c).loose
  hwaits := Pipeline.hwaits_of_owed_zero _ _ _ _ Run.L Run.lv (16 : Fin 33) fun _ _ => rfl
  pre c := iprop(StableHlo.held (c : Thread nD τ) (Pipeline.ucRefs τ sig) (GenP.V33 m (Vals.outs m) c) ∗ Run.R c)
  post c := iprop(StableHlo.held (c : Thread nD τ) (Pipeline.ucRefs τ sig) (GenP.V34 m (Vals.outs m) c) ∗ Run.R c)
  X c := iprop(∃ r, prngReg c r)
  Y c := iprop((∃ r, prngReg c r) ∗ Pipeline.prefHeld (Ix := Unit) (Name := ℕ) (U := UR sig nD τ) (Lvl := ℕ) pre16 c (fun _ => fullShare) (Run.tbl16 m))
  Z c := Pipeline.unscopedRestP (Ix := Unit) (Name := ℕ) (U := UR sig nD τ) (Lvl := ℕ) pre16 spec16 c (Run.Ve16 m c)
  hentry c := by
    rw [Pipeline.ownSems0_none]
    have hsplit := Pipeline.arrays_of_unscopedBufs (p := (16 : Fin 33)) (pcfgs (F := F)) (Run.a m h) (Run.pdats m h) (launch16 (F := F)).win (launch16 (F := F)).arr_whole c
      ((Run.pdats m h (16 : Fin 33) c).share_full fun _ => rfl) (Run.Ve16 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (16 : Fin 33) c).Φ 0 = iprop(Pipeline.ΦA spec16 c ∗ Pipeline.prefHeld (Ix := Unit) (Name := ℕ) (U := UR sig nD τ) (Lvl := ℕ) pre16 c (fun _ => fullShare) (Run.tbl16 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (16 : Fin 33) c).Φ (Fin.last _) = iprop(Pipeline.ΦA spec16 c ∗ Pipeline.prefHeld (Ix := Unit) (Name := ℕ) (U := UR sig nD τ) (Lvl := ℕ) pre16 c (fun _ => fullShare) (Run.tbl16 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (16 : Fin 33)) (pcfgs (F := F)) (Run.a m h) (Ix := Unit) (Name := ℕ) (U := UR sig nD τ) (Lvl := ℕ)
      (launch16 (F := F)).win (launch16 (F := F)).arr_whole c (Run.pdats m h) ((Run.pdats m h (16 : Fin 33) c).share_full fun _ => rfl)
      (Run.Ve16 m c) (fun b => GenP.V34 m (Vals.outs m) c b) ((Run.pdats m h (16 : Fin 33) c).arrAt · (G16.cfgM (Run.tbl16 m) h.ok16).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S16

end
-- ==== Proof.KI.G16V.lean ====
/-
  What gather region 0 leaves in its output array: point t writes back row `tb[t]` of the array it reads as row t, the
  50000 rows tile the output, so the array ends as the gathered rows.
-/
import proofs.«406793_j90890097918585_2_alg».proof.Proof.KI.G16
import proofs.«406793_j90890097918585_2_alg».proof.Proof.KI.Vals
import Idealize.ShloMosaic.Lib.Pipeline.Value

set_option maxRecDepth 16384

noncomputable section

namespace Cert.KernelIdeal.G16

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre16.Contents (Elt F)) (hO : ok16 (F := F) tb)

/-! ## The two windows' block rows at a point -/

/-- A point of the grid is below 50000. -/
private theorem point_lt (t : Fin (cfgM tb hO).N) : t.val < 50000 := by
  have h : t.val < grid16.N := t.isLt
  rw [N_16] at h
  exact h

/-- The grid has one axis: the coordinate of point t is t. -/
private theorem coords_0 (t : Fin (cfgM tb hO).N) : (grid16.coords t 0).val = t.val := by
  have ht := point_lt tb hO t
  show t.val / grid16.stride 0 % grid16.bound 0 = t.val
  rw [show grid16.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc16_transform_1 (grid16.coords t) 0 = t.val
  unfold cc16_transform_1
  show (BitVec.ofNat 32 (grid16.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid16.N
  · exact Or.inl h
  · have hlt : t.val < grid16.N := t.isLt
    refine Or.inr ⟨by show t.val + 1 < grid16.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc16_transform_0 k16_off1_inb numel1_S1 tb (grid16.coords t) 0 = _
  unfold cc16_transform_0
  dsimp only
  refine congrArg BitVec.toNat (congrArg (tb 0 : S50000.Idx → BitVec 32) ?_)
  funext d
  match d with
  | ⟨0, _⟩ =>
    apply Fin.ext
    show (Scalar.indexCast (BitVec.ofNat 32 (grid16.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k16_pay1 x = x := by
  unfold k16_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v217 (ValueIdx.ix3 (Vals.rowOf ((tb 0 : S50000.Idx → BitVec 32) (ValueIdx.ix1 ⟨t.val, point_lt tb hO t⟩))) (y 1) (y 2)) := by
  show V c main_v217 ((((cfgM tb hO).win 0).blk t).view.emb y) = _
  refine congrArg (V c main_v217) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v217) (tb 0)) := by
  show ((cfgM tb hO).win 1).cut (grid16.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v217) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v218 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid16.N := by rw [N_16]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v217) (tb 0) :=
  (dat V tb hO c).arrAt_eq_of_cover 1 (Vals.gath3Of (V c main_v217) (tb 0)) (fun t _ => flushed_1 V tb hO htb c t)
    (cover_blk_1 tb hO)

end Cert.KernelIdeal.G16

end
-- ==== Proof.KI.S17.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S17

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (17 : Fin 33) c = G17.dat (Run.Ve17 m) (Run.tbl17 m) h.ok17 c := rfl

/-- On the one device the table's buffer holds the table. -/
theorem tbl_eq (c : Dev nD) : (fun k => Run.Ve17 m c (pre17.ref k)) = Run.tbl17 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec17 c (Run.Ve17 m c) : sProp 𝕄)
      = iprop(Pipeline.prefHeld (Ix := Unit) (Name := ℕ) (U := UR sig nD τ) (Lvl := ℕ) pre17 c (fun _ => fullShare) (Run.tbl17 m)
          ∗ Pipeline.unscopedRestP (Ix := Unit) (Name := ℕ) (U := UR sig nD τ) (Lvl := ℕ) pre17 spec17 c (Run.Ve17 m c)) := by
  have hs := Pipeline.unscopedRest_split (Ix := Unit) (Name := ℕ) (U := UR sig nD τ) (Lvl := ℕ) (Val := Elt F) (launch17 (F := F)).pre c (Run.Ve17 m c)
  rw [← tbl_eq m c]
  exact hs

/-- After the region each of its arrays holds what the pipeline leaves: the array read as entered, the output at the gathered rows. -/
theorem hF (harr : ∀ c : Dev nD, (G17.dat (Run.Ve17 m) (Run.tbl17 m) h.ok17 c).arrAt 1 (G17.cfgM (Run.tbl17 m) h.ok17).N = Vals.gath3 m 17 c)
    (c : Dev nD) (w : Fin (G17.cfgM (Run.tbl17 m) h.ok17).W) :
    (G17.dat (Run.Ve17 m) (Run.tbl17 m) h.ok17 c).arrAt w (G17.cfgM (Run.tbl17 m) h.ok17).N
      = GenP.V36 m (Vals.outs m) c (Pipeline.arrRef spec17 w) := by
  match w with
  | ⟨0, _⟩ =>
    refine ((G17.dat (Run.Ve17 m) (Run.tbl17 m) h.ok17 c).arrAt_in 0 rfl _).trans ((G17.A_eq (Run.Ve17 m) (Run.tbl17 m) h.ok17 c 0).trans ?_)
    exact (GenP.V36_of m (Vals.outs m) c main_v230 (by decide)).symm
  | ⟨1, _⟩ =>
    refine (harr c).trans ?_
    show Vals.gath3 m 17 c = Function.update (GenP.V35 m (Vals.outs m) c) main_v231 (Vals.outs m 36 main_v231 c) main_v231
    rw [Function.update_self, Vals.outs_17]

/-- and every other buffer what it held at entry. -/
theorem hrest (c : Dev nD) : ∀ b, b ∉ Finset.univ.image (Pipeline.arrRef spec17) →
    (fun b : Ref sig .tc => GenP.V36 m (Vals.outs m) c b) b = Run.Ve17 m c b := fun b hb =>
  GenP.V36_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G17.dat (Run.Ve17 m) (Run.tbl17 m) h.ok17 c).arrAt 1 (G17.cfgM (Run.tbl17 m) h.ok17).N = Vals.gath3 m 17 c) :
    Pipeline.RegionSeg (pcfgs (F := F)) (Run.a m h) (Run.pdats m h) () defs₀ Run.𝒱₀ Run.L Run.lv (17 : Fin 33) where
  win := (launch17 (F := F)).win.to₀
  block_pos := (launch17 (F := F)).block_pos
  stage_whole := (launch17 (F := F)).stage_whole
  K := PEmpty
  osem k := k.elim
  ho := Pipeline.OwnSemFacts.none _
  hbody c := (G17.body_obligation (Run.Ve17 m) (Run.tbl17 m) h.ok17 c).loose
  hwaits := Pipeline.hwaits_of_owed_zero _ _ _ _ Run.L Run.lv (17 : Fin 33) fun _ _ => rfl
  pre c := iprop(StableHlo.held (c : Thread nD τ) (Pipeline.ucRefs τ sig) (GenP.V35 m (Vals.outs m) c) ∗ Run.R c)
  post c := iprop(StableHlo.held (c : Thread nD τ) (Pipeline.ucRefs τ sig) (GenP.V36 m (Vals.outs m) c) ∗ Run.R c)
  X c := iprop(∃ r, prngReg c r)
  Y c := iprop((∃ r, prngReg c r) ∗ Pipeline.prefHeld (Ix := Unit) (Name := ℕ) (U := UR sig nD τ) (Lvl := ℕ) pre17 c (fun _ => fullShare) (Run.tbl17 m))
  Z c := Pipeline.unscopedRestP (Ix := Unit) (Name := ℕ) (U := UR sig nD τ) (Lvl := ℕ) pre17 spec17 c (Run.Ve17 m c)
  hentry c := by
    rw [Pipeline.ownSems0_none]
    have hsplit := Pipeline.arrays_of_unscopedBufs (p := (17 : Fin 33)) (pcfgs (F := F)) (Run.a m h) (Run.pdats m h) (launch17 (F := F)).win (launch17 (F := F)).arr_whole c
      ((Run.pdats m h (17 : Fin 33) c).share_full fun _ => rfl) (Run.Ve17 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (17 : Fin 33) c).Φ 0 = iprop(Pipeline.ΦA spec17 c ∗ Pipeline.prefHeld (Ix := Unit) (Name := ℕ) (U := UR sig nD τ) (Lvl := ℕ) pre17 c (fun _ => fullShare) (Run.tbl17 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (17 : Fin 33) c).Φ (Fin.last _) = iprop(Pipeline.ΦA spec17 c ∗ Pipeline.prefHeld (Ix := Unit) (Name := ℕ) (U := UR sig nD τ) (Lvl := ℕ) pre17 c (fun _ => fullShare) (Run.tbl17 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (17 : Fin 33)) (pcfgs (F := F)) (Run.a m h) (Ix := Unit) (Name := ℕ) (U := UR sig nD τ) (Lvl := ℕ)
      (launch17 (F := F)).win (launch17 (F := F)).arr_whole c (Run.pdats m h) ((Run.pdats m h (17 : Fin 33) c).share_full fun _ => rfl)
      (Run.Ve17 m c) (fun b => GenP.V36 m (Vals.outs m) c b) ((Run.pdats m h (17 : Fin 33) c).arrAt · (G17.cfgM (Run.tbl17 m) h.ok17).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S17

end
-- ==== Proof.KI.G17V.lean ====
/-
  What gather region 0 leaves in its output array: point t writes back row `tb[t]` of the array it reads as row t, the
  50000 rows tile the output, so the array ends as the gathered rows.
-/
import proofs.«406793_j90890097918585_2_alg».proof.Proof.KI.G17
import proofs.«406793_j90890097918585_2_alg».proof.Proof.KI.Vals
import Idealize.ShloMosaic.Lib.Pipeline.Value

set_option maxRecDepth 16384

noncomputable section

namespace Cert.KernelIdeal.G17

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre17.Contents (Elt F)) (hO : ok17 (F := F) tb)

/-! ## The two windows' block rows at a point -/

/-- A point of the grid is below 50000. -/
private theorem point_lt (t : Fin (cfgM tb hO).N) : t.val < 50000 := by
  have h : t.val < grid17.N := t.isLt
  rw [N_17] at h
  exact h

/-- The grid has one axis: the coordinate of point t is t. -/
private theorem coords_0 (t : Fin (cfgM tb hO).N) : (grid17.coords t 0).val = t.val := by
  have ht := point_lt tb hO t
  show t.val / grid17.stride 0 % grid17.bound 0 = t.val
  rw [show grid17.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc17_transform_1 (grid17.coords t) 0 = t.val
  unfold cc17_transform_1
  show (BitVec.ofNat 32 (grid17.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid17.N
  · exact Or.inl h
  · have hlt : t.val < grid17.N := t.isLt
    refine Or.inr ⟨by show t.val + 1 < grid17.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc17_transform_0 k17_off1_inb numel1_S1 tb (grid17.coords t) 0 = _
  unfold cc17_transform_0
  dsimp only
  refine congrArg BitVec.toNat (congrArg (tb 0 : S50000.Idx → BitVec 32) ?_)
  funext d
  match d with
  | ⟨0, _⟩ =>
    apply Fin.ext
    show (Scalar.indexCast (BitVec.ofNat 32 (grid17.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k17_pay1 x = x := by
  unfold k17_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v230 (ValueIdx.ix3 (Vals.rowOf ((tb 0 : S50000.Idx → BitVec 32) (ValueIdx.ix1 ⟨t.val, point_lt tb hO t⟩))) (y 1) (y 2)) := by
  show V c main_v230 ((((cfgM tb hO).win 0).blk t).view.emb y) = _
  refine congrArg (V c main_v230) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v230) (tb 0)) := by
  show ((cfgM tb hO).win 1).cut (grid17.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v230) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v231 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid17.N := by rw [N_17]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v230) (tb 0) :=
  (dat V tb hO c).arrAt_eq_of_cover 1 (Vals.gath3Of (V c main_v230) (tb 0)) (fun t _ => flushed_1 V tb hO htb c t)
    (cover_blk_1 tb hO)

end Cert.KernelIdeal.G17

end
-- ==== Proof.KI.S18.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S18

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (18 : Fin 33) c = G18.dat (Run.Ve18 m) (Run.tbl18 m) h.ok18 c := rfl

/-- On the one device the table's buffer holds the table. -/
theorem tbl_eq (c : Dev nD) : (fun k => Run.Ve18 m c (pre18.ref k)) = Run.tbl18 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec18 c (Run.Ve18 m c) : sProp 𝕄)
      = iprop(Pipeline.prefHeld (Ix := Unit) (Name := ℕ) (U := UR sig nD τ) (Lvl := ℕ) pre18 c (fun _ => fullShare) (Run.tbl18 m)
          ∗ Pipeline.unscopedRestP (Ix := Unit) (Name := ℕ) (U := UR sig nD τ) (Lvl := ℕ) pre18 spec18 c (Run.Ve18 m c)) := by
  have hs := Pipeline.unscopedRest_split (Ix := Unit) (Name := ℕ) (U := UR sig nD τ) (Lvl := ℕ) (Val := Elt F) (launch18 (F := F)).pre c (Run.Ve18 m c)
  rw [← tbl_eq m c]
  exact hs

/-- After the region each of its arrays holds what the pipeline leaves: the array read as entered, the output at the gathered rows. -/
theorem hF (harr : ∀ c : Dev nD, (G18.dat (Run.Ve18 m) (Run.tbl18 m) h.ok18 c).arrAt 1 (G18.cfgM (Run.tbl18 m) h.ok18).N = Vals.gath3 m 18 c)
    (c : Dev nD) (w : Fin (G18.cfgM (Run.tbl18 m) h.ok18).W) :
    (G18.dat (Run.Ve18 m) (Run.tbl18 m) h.ok18 c).arrAt w (G18.cfgM (Run.tbl18 m) h.ok18).N
      = GenP.V38 m (Vals.outs m) c (Pipeline.arrRef spec18 w) := by
  match w with
  | ⟨0, _⟩ =>
    refine ((G18.dat (Run.Ve18 m) (Run.tbl18 m) h.ok18 c).arrAt_in 0 rfl _).trans ((G18.A_eq (Run.Ve18 m) (Run.tbl18 m) h.ok18 c 0).trans ?_)
    exact (GenP.V38_of m (Vals.outs m) c main_v243 (by decide)).symm
  | ⟨1, _⟩ =>
    refine (harr c).trans ?_
    show Vals.gath3 m 18 c = Function.update (GenP.V37 m (Vals.outs m) c) main_v244 (Vals.outs m 38 main_v244 c) main_v244
    rw [Function.update_self, Vals.outs_18]

/-- and every other buffer what it held at entry. -/
theorem hrest (c : Dev nD) : ∀ b, b ∉ Finset.univ.image (Pipeline.arrRef spec18) →
    (fun b : Ref sig .tc => GenP.V38 m (Vals.outs m) c b) b = Run.Ve18 m c b := fun b hb =>
  GenP.V38_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G18.dat (Run.Ve18 m) (Run.tbl18 m) h.ok18 c).arrAt 1 (G18.cfgM (Run.tbl18 m) h.ok18).N = Vals.gath3 m 18 c) :
    Pipeline.RegionSeg (pcfgs (F := F)) (Run.a m h) (Run.pdats m h) () defs₀ Run.𝒱₀ Run.L Run.lv (18 : Fin 33) where
  win := (launch18 (F := F)).win.to₀
  block_pos := (launch18 (F := F)).block_pos
  stage_whole := (launch18 (F := F)).stage_whole
  K := PEmpty
  osem k := k.elim
  ho := Pipeline.OwnSemFacts.none _
  hbody c := (G18.body_obligation (Run.Ve18 m) (Run.tbl18 m) h.ok18 c).loose
  hwaits := Pipeline.hwaits_of_owed_zero _ _ _ _ Run.L Run.lv (18 : Fin 33) fun _ _ => rfl
  pre c := iprop(StableHlo.held (c : Thread nD τ) (Pipeline.ucRefs τ sig) (GenP.V37 m (Vals.outs m) c) ∗ Run.R c)
  post c := iprop(StableHlo.held (c : Thread nD τ) (Pipeline.ucRefs τ sig) (GenP.V38 m (Vals.outs m) c) ∗ Run.R c)
  X c := iprop(∃ r, prngReg c r)
  Y c := iprop((∃ r, prngReg c r) ∗ Pipeline.prefHeld (Ix := Unit) (Name := ℕ) (U := UR sig nD τ) (Lvl := ℕ) pre18 c (fun _ => fullShare) (Run.tbl18 m))
  Z c := Pipeline.unscopedRestP (Ix := Unit) (Name := ℕ) (U := UR sig nD τ) (Lvl := ℕ) pre18 spec18 c (Run.Ve18 m c)
  hentry c := by
    rw [Pipeline.ownSems0_none]
    have hsplit := Pipeline.arrays_of_unscopedBufs (p := (18 : Fin 33)) (pcfgs (F := F)) (Run.a m h) (Run.pdats m h) (launch18 (F := F)).win (launch18 (F := F)).arr_whole c
      ((Run.pdats m h (18 : Fin 33) c).share_full fun _ => rfl) (Run.Ve18 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (18 : Fin 33) c).Φ 0 = iprop(Pipeline.ΦA spec18 c ∗ Pipeline.prefHeld (Ix := Unit) (Name := ℕ) (U := UR sig nD τ) (Lvl := ℕ) pre18 c (fun _ => fullShare) (Run.tbl18 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (18 : Fin 33) c).Φ (Fin.last _) = iprop(Pipeline.ΦA spec18 c ∗ Pipeline.prefHeld (Ix := Unit) (Name := ℕ) (U := UR sig nD τ) (Lvl := ℕ) pre18 c (fun _ => fullShare) (Run.tbl18 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (18 : Fin 33)) (pcfgs (F := F)) (Run.a m h) (Ix := Unit) (Name := ℕ) (U := UR sig nD τ) (Lvl := ℕ)
      (launch18 (F := F)).win (launch18 (F := F)).arr_whole c (Run.pdats m h) ((Run.pdats m h (18 : Fin 33) c).share_full fun _ => rfl)
      (Run.Ve18 m c) (fun b => GenP.V38 m (Vals.outs m) c b) ((Run.pdats m h (18 : Fin 33) c).arrAt · (G18.cfgM (Run.tbl18 m) h.ok18).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S18

end
-- ==== Proof.KI.G18V.lean ====
/-
  What gather region 0 leaves in its output array: point t writes back row `tb[t]` of the array it reads as row t, the
  50000 rows tile the output, so the array ends as the gathered rows.
-/
import proofs.«406793_j90890097918585_2_alg».proof.Proof.KI.G18
import proofs.«406793_j90890097918585_2_alg».proof.Proof.KI.Vals
import Idealize.ShloMosaic.Lib.Pipeline.Value

set_option maxRecDepth 16384

noncomputable section

namespace Cert.KernelIdeal.G18

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre18.Contents (Elt F)) (hO : ok18 (F := F) tb)

/-! ## The two windows' block rows at a point -/

/-- A point of the grid is below 50000. -/
private theorem point_lt (t : Fin (cfgM tb hO).N) : t.val < 50000 := by
  have h : t.val < grid18.N := t.isLt
  rw [N_18] at h
  exact h

/-- The grid has one axis: the coordinate of point t is t. -/
private theorem coords_0 (t : Fin (cfgM tb hO).N) : (grid18.coords t 0).val = t.val := by
  have ht := point_lt tb hO t
  show t.val / grid18.stride 0 % grid18.bound 0 = t.val
  rw [show grid18.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc18_transform_1 (grid18.coords t) 0 = t.val
  unfold cc18_transform_1
  show (BitVec.ofNat 32 (grid18.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid18.N
  · exact Or.inl h
  · have hlt : t.val < grid18.N := t.isLt
    refine Or.inr ⟨by show t.val + 1 < grid18.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc18_transform_0 k18_off1_inb numel1_S1 tb (grid18.coords t) 0 = _
  unfold cc18_transform_0
  dsimp only
  refine congrArg BitVec.toNat (congrArg (tb 0 : S50000.Idx → BitVec 32) ?_)
  funext d
  match d with
  | ⟨0, _⟩ =>
    apply Fin.ext
    show (Scalar.indexCast (BitVec.ofNat 32 (grid18.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k18_pay1 x = x := by
  unfold k18_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v243 (ValueIdx.ix3 (Vals.rowOf ((tb 0 : S50000.Idx → BitVec 32) (ValueIdx.ix1 ⟨t.val, point_lt tb hO t⟩))) (y 1) (y 2)) := by
  show V c main_v243 ((((cfgM tb hO).win 0).blk t).view.emb y) = _
  refine congrArg (V c main_v243) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v243) (tb 0)) := by
  show ((cfgM tb hO).win 1).cut (grid18.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v243) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v244 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid18.N := by rw [N_18]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v243) (tb 0) :=
  (dat V tb hO c).arrAt_eq_of_cover 1 (Vals.gath3Of (V c main_v243) (tb 0)) (fun t _ => flushed_1 V tb hO htb c t)
    (cover_blk_1 tb hO)

end Cert.KernelIdeal.G18

end
-- ==== Proof.KI.S19.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S19

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (19 : Fin 33) c = G19.dat (Run.Ve19 m) (Run.tbl19 m) h.ok19 c := rfl

/-- On the one device the table's buffer holds the table. -/
theorem tbl_eq (c : Dev nD) : (fun k => Run.Ve19 m c (pre19.ref k)) = Run.tbl19 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec19 c (Run.Ve19 m c) : sProp 𝕄)
      = iprop(Pipeline.prefHeld (Ix := Unit) (Name := ℕ) (U := UR sig nD τ) (Lvl := ℕ) pre19 c (fun _ => fullShare) (Run.tbl19 m)
          ∗ Pipeline.unscopedRestP (Ix := Unit) (Name := ℕ) (U := UR sig nD τ) (Lvl := ℕ) pre19 spec19 c (Run.Ve19 m c)) := by
  have hs := Pipeline.unscopedRest_split (Ix := Unit) (Name := ℕ) (U := UR sig nD τ) (Lvl := ℕ) (Val := Elt F) (launch19 (F := F)).pre c (Run.Ve19 m c)
  rw [← tbl_eq m c]
  exact hs

/-- After the region each of its arrays holds what the pipeline leaves: the array read as entered, the output at the gathered rows. -/
theorem hF (harr : ∀ c : Dev nD, (G19.dat (Run.Ve19 m) (Run.tbl19 m) h.ok19 c).arrAt 1 (G19.cfgM (Run.tbl19 m) h.ok19).N = Vals.gath3 m 19 c)
    (c : Dev nD) (w : Fin (G19.cfgM (Run.tbl19 m) h.ok19).W) :
    (G19.dat (Run.Ve19 m) (Run.tbl19 m) h.ok19 c).arrAt w (G19.cfgM (Run.tbl19 m) h.ok19).N
      = GenP.V40 m (Vals.outs m) c (Pipeline.arrRef spec19 w) := by
  match w with
  | ⟨0, _⟩ =>
    refine ((G19.dat (Run.Ve19 m) (Run.tbl19 m) h.ok19 c).arrAt_in 0 rfl _).trans ((G19.A_eq (Run.Ve19 m) (Run.tbl19 m) h.ok19 c 0).trans ?_)
    exact (GenP.V40_of m (Vals.outs m) c main_v256 (by decide)).symm
  | ⟨1, _⟩ =>
    refine (harr c).trans ?_
    show Vals.gath3 m 19 c = Function.update (GenP.V39 m (Vals.outs m) c) main_v257 (Vals.outs m 40 main_v257 c) main_v257
    rw [Function.update_self, Vals.outs_19]

/-- and every other buffer what it held at entry. -/
theorem hrest (c : Dev nD) : ∀ b, b ∉ Finset.univ.image (Pipeline.arrRef spec19) →
    (fun b : Ref sig .tc => GenP.V40 m (Vals.outs m) c b) b = Run.Ve19 m c b := fun b hb =>
  GenP.V40_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G19.dat (Run.Ve19 m) (Run.tbl19 m) h.ok19 c).arrAt 1 (G19.cfgM (Run.tbl19 m) h.ok19).N = Vals.gath3 m 19 c) :
    Pipeline.RegionSeg (pcfgs (F := F)) (Run.a m h) (Run.pdats m h) () defs₀ Run.𝒱₀ Run.L Run.lv (19 : Fin 33) where
  win := (launch19 (F := F)).win.to₀
  block_pos := (launch19 (F := F)).block_pos
  stage_whole := (launch19 (F := F)).stage_whole
  K := PEmpty
  osem k := k.elim
  ho := Pipeline.OwnSemFacts.none _
  hbody c := (G19.body_obligation (Run.Ve19 m) (Run.tbl19 m) h.ok19 c).loose
  hwaits := Pipeline.hwaits_of_owed_zero _ _ _ _ Run.L Run.lv (19 : Fin 33) fun _ _ => rfl
  pre c := iprop(StableHlo.held (c : Thread nD τ) (Pipeline.ucRefs τ sig) (GenP.V39 m (Vals.outs m) c) ∗ Run.R c)
  post c := iprop(StableHlo.held (c : Thread nD τ) (Pipeline.ucRefs τ sig) (GenP.V40 m (Vals.outs m) c) ∗ Run.R c)
  X c := iprop(∃ r, prngReg c r)
  Y c := iprop((∃ r, prngReg c r) ∗ Pipeline.prefHeld (Ix := Unit) (Name := ℕ) (U := UR sig nD τ) (Lvl := ℕ) pre19 c (fun _ => fullShare) (Run.tbl19 m))
  Z c := Pipeline.unscopedRestP (Ix := Unit) (Name := ℕ) (U := UR sig nD τ) (Lvl := ℕ) pre19 spec19 c (Run.Ve19 m c)
  hentry c := by
    rw [Pipeline.ownSems0_none]
    have hsplit := Pipeline.arrays_of_unscopedBufs (p := (19 : Fin 33)) (pcfgs (F := F)) (Run.a m h) (Run.pdats m h) (launch19 (F := F)).win (launch19 (F := F)).arr_whole c
      ((Run.pdats m h (19 : Fin 33) c).share_full fun _ => rfl) (Run.Ve19 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (19 : Fin 33) c).Φ 0 = iprop(Pipeline.ΦA spec19 c ∗ Pipeline.prefHeld (Ix := Unit) (Name := ℕ) (U := UR sig nD τ) (Lvl := ℕ) pre19 c (fun _ => fullShare) (Run.tbl19 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (19 : Fin 33) c).Φ (Fin.last _) = iprop(Pipeline.ΦA spec19 c ∗ Pipeline.prefHeld (Ix := Unit) (Name := ℕ) (U := UR sig nD τ) (Lvl := ℕ) pre19 c (fun _ => fullShare) (Run.tbl19 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (19 : Fin 33)) (pcfgs (F := F)) (Run.a m h) (Ix := Unit) (Name := ℕ) (U := UR sig nD τ) (Lvl := ℕ)
      (launch19 (F := F)).win (launch19 (F := F)).arr_whole c (Run.pdats m h) ((Run.pdats m h (19 : Fin 33) c).share_full fun _ => rfl)
      (Run.Ve19 m c) (fun b => GenP.V40 m (Vals.outs m) c b) ((Run.pdats m h (19 : Fin 33) c).arrAt · (G19.cfgM (Run.tbl19 m) h.ok19).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S19

end
-- ==== Proof.KI.G19V.lean ====
/-
  What gather region 0 leaves in its output array: point t writes back row `tb[t]` of the array it reads as row t, the
  50000 rows tile the output, so the array ends as the gathered rows.
-/
import proofs.«406793_j90890097918585_2_alg».proof.Proof.KI.G19
import proofs.«406793_j90890097918585_2_alg».proof.Proof.KI.Vals
import Idealize.ShloMosaic.Lib.Pipeline.Value

set_option maxRecDepth 16384

noncomputable section

namespace Cert.KernelIdeal.G19

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre19.Contents (Elt F)) (hO : ok19 (F := F) tb)

/-! ## The two windows' block rows at a point -/

/-- A point of the grid is below 50000. -/
private theorem point_lt (t : Fin (cfgM tb hO).N) : t.val < 50000 := by
  have h : t.val < grid19.N := t.isLt
  rw [N_19] at h
  exact h

/-- The grid has one axis: the coordinate of point t is t. -/
private theorem coords_0 (t : Fin (cfgM tb hO).N) : (grid19.coords t 0).val = t.val := by
  have ht := point_lt tb hO t
  show t.val / grid19.stride 0 % grid19.bound 0 = t.val
  rw [show grid19.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc19_transform_1 (grid19.coords t) 0 = t.val
  unfold cc19_transform_1
  show (BitVec.ofNat 32 (grid19.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid19.N
  · exact Or.inl h
  · have hlt : t.val < grid19.N := t.isLt
    refine Or.inr ⟨by show t.val + 1 < grid19.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc19_transform_0 k19_off1_inb numel1_S1 tb (grid19.coords t) 0 = _
  unfold cc19_transform_0
  dsimp only
  refine congrArg BitVec.toNat (congrArg (tb 0 : S50000.Idx → BitVec 32) ?_)
  funext d
  match d with
  | ⟨0, _⟩ =>
    apply Fin.ext
    show (Scalar.indexCast (BitVec.ofNat 32 (grid19.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k19_pay1 x = x := by
  unfold k19_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v256 (ValueIdx.ix3 (Vals.rowOf ((tb 0 : S50000.Idx → BitVec 32) (ValueIdx.ix1 ⟨t.val, point_lt tb hO t⟩))) (y 1) (y 2)) := by
  show V c main_v256 ((((cfgM tb hO).win 0).blk t).view.emb y) = _
  refine congrArg (V c main_v256) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v256) (tb 0)) := by
  show ((cfgM tb hO).win 1).cut (grid19.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v256) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v257 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid19.N := by rw [N_19]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v256) (tb 0) :=
  (dat V tb hO c).arrAt_eq_of_cover 1 (Vals.gath3Of (V c main_v256) (tb 0)) (fun t _ => flushed_1 V tb hO htb c t)
    (cover_blk_1 tb hO)

end Cert.KernelIdeal.G19

end
-- ==== Proof.KI.S20.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S20

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (20 : Fin 33) c = G20.dat (Run.Ve20 m) (Run.tbl20 m) h.ok20 c := rfl

/-- On the one device the table's buffer holds the table. -/
theorem tbl_eq (c : Dev nD) : (fun k => Run.Ve20 m c (pre20.ref k)) = Run.tbl20 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec20 c (Run.Ve20 m c) : sProp 𝕄)
      = iprop(Pipeline.prefHeld (Ix := Unit) (Name := ℕ) (U := UR sig nD τ) (Lvl := ℕ) pre20 c (fun _ => fullShare) (Run.tbl20 m)
          ∗ Pipeline.unscopedRestP (Ix := Unit) (Name := ℕ) (U := UR sig nD τ) (Lvl := ℕ) pre20 spec20 c (Run.Ve20 m c)) := by
  have hs := Pipeline.unscopedRest_split (Ix := Unit) (Name := ℕ) (U := UR sig nD τ) (Lvl := ℕ) (Val := Elt F) (launch20 (F := F)).pre c (Run.Ve20 m c)
  rw [← tbl_eq m c]
  exact hs

/-- After the region each of its arrays holds what the pipeline leaves: the array read as entered, the output at the gathered rows. -/
theorem hF (harr : ∀ c : Dev nD, (G20.dat (Run.Ve20 m) (Run.tbl20 m) h.ok20 c).arrAt 1 (G20.cfgM (Run.tbl20 m) h.ok20).N = Vals.gath3 m 20 c)
    (c : Dev nD) (w : Fin (G20.cfgM (Run.tbl20 m) h.ok20).W) :
    (G20.dat (Run.Ve20 m) (Run.tbl20 m) h.ok20 c).arrAt w (G20.cfgM (Run.tbl20 m) h.ok20).N
      = GenP.V42 m (Vals.outs m) c (Pipeline.arrRef spec20 w) := by
  match w with
  | ⟨0, _⟩ =>
    refine ((G20.dat (Run.Ve20 m) (Run.tbl20 m) h.ok20 c).arrAt_in 0 rfl _).trans ((G20.A_eq (Run.Ve20 m) (Run.tbl20 m) h.ok20 c 0).trans ?_)
    exact (GenP.V42_of m (Vals.outs m) c main_v269 (by decide)).symm
  | ⟨1, _⟩ =>
    refine (harr c).trans ?_
    show Vals.gath3 m 20 c = Function.update (GenP.V41 m (Vals.outs m) c) main_v270 (Vals.outs m 42 main_v270 c) main_v270
    rw [Function.update_self, Vals.outs_20]

/-- and every other buffer what it held at entry. -/
theorem hrest (c : Dev nD) : ∀ b, b ∉ Finset.univ.image (Pipeline.arrRef spec20) →
    (fun b : Ref sig .tc => GenP.V42 m (Vals.outs m) c b) b = Run.Ve20 m c b := fun b hb =>
  GenP.V42_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G20.dat (Run.Ve20 m) (Run.tbl20 m) h.ok20 c).arrAt 1 (G20.cfgM (Run.tbl20 m) h.ok20).N = Vals.gath3 m 20 c) :
    Pipeline.RegionSeg (pcfgs (F := F)) (Run.a m h) (Run.pdats m h) () defs₀ Run.𝒱₀ Run.L Run.lv (20 : Fin 33) where
  win := (launch20 (F := F)).win.to₀
  block_pos := (launch20 (F := F)).block_pos
  stage_whole := (launch20 (F := F)).stage_whole
  K := PEmpty
  osem k := k.elim
  ho := Pipeline.OwnSemFacts.none _
  hbody c := (G20.body_obligation (Run.Ve20 m) (Run.tbl20 m) h.ok20 c).loose
  hwaits := Pipeline.hwaits_of_owed_zero _ _ _ _ Run.L Run.lv (20 : Fin 33) fun _ _ => rfl
  pre c := iprop(StableHlo.held (c : Thread nD τ) (Pipeline.ucRefs τ sig) (GenP.V41 m (Vals.outs m) c) ∗ Run.R c)
  post c := iprop(StableHlo.held (c : Thread nD τ) (Pipeline.ucRefs τ sig) (GenP.V42 m (Vals.outs m) c) ∗ Run.R c)
  X c := iprop(∃ r, prngReg c r)
  Y c := iprop((∃ r, prngReg c r) ∗ Pipeline.prefHeld (Ix := Unit) (Name := ℕ) (U := UR sig nD τ) (Lvl := ℕ) pre20 c (fun _ => fullShare) (Run.tbl20 m))
  Z c := Pipeline.unscopedRestP (Ix := Unit) (Name := ℕ) (U := UR sig nD τ) (Lvl := ℕ) pre20 spec20 c (Run.Ve20 m c)
  hentry c := by
    rw [Pipeline.ownSems0_none]
    have hsplit := Pipeline.arrays_of_unscopedBufs (p := (20 : Fin 33)) (pcfgs (F := F)) (Run.a m h) (Run.pdats m h) (launch20 (F := F)).win (launch20 (F := F)).arr_whole c
      ((Run.pdats m h (20 : Fin 33) c).share_full fun _ => rfl) (Run.Ve20 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (20 : Fin 33) c).Φ 0 = iprop(Pipeline.ΦA spec20 c ∗ Pipeline.prefHeld (Ix := Unit) (Name := ℕ) (U := UR sig nD τ) (Lvl := ℕ) pre20 c (fun _ => fullShare) (Run.tbl20 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (20 : Fin 33) c).Φ (Fin.last _) = iprop(Pipeline.ΦA spec20 c ∗ Pipeline.prefHeld (Ix := Unit) (Name := ℕ) (U := UR sig nD τ) (Lvl := ℕ) pre20 c (fun _ => fullShare) (Run.tbl20 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (20 : Fin 33)) (pcfgs (F := F)) (Run.a m h) (Ix := Unit) (Name := ℕ) (U := UR sig nD τ) (Lvl := ℕ)
      (launch20 (F := F)).win (launch20 (F := F)).arr_whole c (Run.pdats m h) ((Run.pdats m h (20 : Fin 33) c).share_full fun _ => rfl)
      (Run.Ve20 m c) (fun b => GenP.V42 m (Vals.outs m) c b) ((Run.pdats m h (20 : Fin 33) c).arrAt · (G20.cfgM (Run.tbl20 m) h.ok20).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S20

end
-- ==== Proof.KI.G20V.lean ====
/-
  What gather region 0 leaves in its output array: point t writes back row `tb[t]` of the array it reads as row t, the
  50000 rows tile the output, so the array ends as the gathered rows.
-/
import proofs.«406793_j90890097918585_2_alg».proof.Proof.KI.G20
import proofs.«406793_j90890097918585_2_alg».proof.Proof.KI.Vals
import Idealize.ShloMosaic.Lib.Pipeline.Value

set_option maxRecDepth 16384

noncomputable section

namespace Cert.KernelIdeal.G20

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre20.Contents (Elt F)) (hO : ok20 (F := F) tb)

/-! ## The two windows' block rows at a point -/

/-- A point of the grid is below 50000. -/
private theorem point_lt (t : Fin (cfgM tb hO).N) : t.val < 50000 := by
  have h : t.val < grid20.N := t.isLt
  rw [N_20] at h
  exact h

/-- The grid has one axis: the coordinate of point t is t. -/
private theorem coords_0 (t : Fin (cfgM tb hO).N) : (grid20.coords t 0).val = t.val := by
  have ht := point_lt tb hO t
  show t.val / grid20.stride 0 % grid20.bound 0 = t.val
  rw [show grid20.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc20_transform_1 (grid20.coords t) 0 = t.val
  unfold cc20_transform_1
  show (BitVec.ofNat 32 (grid20.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid20.N
  · exact Or.inl h
  · have hlt : t.val < grid20.N := t.isLt
    refine Or.inr ⟨by show t.val + 1 < grid20.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc20_transform_0 k20_off1_inb numel1_S1 tb (grid20.coords t) 0 = _
  unfold cc20_transform_0
  dsimp only
  refine congrArg BitVec.toNat (congrArg (tb 0 : S50000.Idx → BitVec 32) ?_)
  funext d
  match d with
  | ⟨0, _⟩ =>
    apply Fin.ext
    show (Scalar.indexCast (BitVec.ofNat 32 (grid20.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k20_pay1 x = x := by
  unfold k20_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v269 (ValueIdx.ix3 (Vals.rowOf ((tb 0 : S50000.Idx → BitVec 32) (ValueIdx.ix1 ⟨t.val, point_lt tb hO t⟩))) (y 1) (y 2)) := by
  show V c main_v269 ((((cfgM tb hO).win 0).blk t).view.emb y) = _
  refine congrArg (V c main_v269) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v269) (tb 0)) := by
  show ((cfgM tb hO).win 1).cut (grid20.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v269) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v270 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid20.N := by rw [N_20]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v269) (tb 0) :=
  (dat V tb hO c).arrAt_eq_of_cover 1 (Vals.gath3Of (V c main_v269) (tb 0)) (fun t _ => flushed_1 V tb hO htb c t)
    (cover_blk_1 tb hO)

end Cert.KernelIdeal.G20

end
-- ==== Proof.KI.S21.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S21

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (21 : Fin 33) c = G21.dat (Run.Ve21 m) (Run.tbl21 m) h.ok21 c := rfl

/-- On the one device the table's buffer holds the table. -/
theorem tbl_eq (c : Dev nD) : (fun k => Run.Ve21 m c (pre21.ref k)) = Run.tbl21 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec21 c (Run.Ve21 m c) : sProp 𝕄)
      = iprop(Pipeline.prefHeld (Ix := Unit) (Name := ℕ) (U := UR sig nD τ) (Lvl := ℕ) pre21 c (fun _ => fullShare) (Run.tbl21 m)
          ∗ Pipeline.unscopedRestP (Ix := Unit) (Name := ℕ) (U := UR sig nD τ) (Lvl := ℕ) pre21 spec21 c (Run.Ve21 m c)) := by
  have hs := Pipeline.unscopedRest_split (Ix := Unit) (Name := ℕ) (U := UR sig nD τ) (Lvl := ℕ) (Val := Elt F) (launch21 (F := F)).pre c (Run.Ve21 m c)
  rw [← tbl_eq m c]
  exact hs

/-- After the region each of its arrays holds what the pipeline leaves: the array read as entered, the output at the gathered rows. -/
theorem hF (harr : ∀ c : Dev nD, (G21.dat (Run.Ve21 m) (Run.tbl21 m) h.ok21 c).arrAt 1 (G21.cfgM (Run.tbl21 m) h.ok21).N = Vals.gath3 m 21 c)
    (c : Dev nD) (w : Fin (G21.cfgM (Run.tbl21 m) h.ok21).W) :
    (G21.dat (Run.Ve21 m) (Run.tbl21 m) h.ok21 c).arrAt w (G21.cfgM (Run.tbl21 m) h.ok21).N
      = GenP.V44 m (Vals.outs m) c (Pipeline.arrRef spec21 w) := by
  match w with
  | ⟨0, _⟩ =>
    refine ((G21.dat (Run.Ve21 m) (Run.tbl21 m) h.ok21 c).arrAt_in 0 rfl _).trans ((G21.A_eq (Run.Ve21 m) (Run.tbl21 m) h.ok21 c 0).trans ?_)
    exact (GenP.V44_of m (Vals.outs m) c main_v282 (by decide)).symm
  | ⟨1, _⟩ =>
    refine (harr c).trans ?_
    show Vals.gath3 m 21 c = Function.update (GenP.V43 m (Vals.outs m) c) main_v283 (Vals.outs m 44 main_v283 c) main_v283
    rw [Function.update_self, Vals.outs_21]

/-- and every other buffer what it held at entry. -/
theorem hrest (c : Dev nD) : ∀ b, b ∉ Finset.univ.image (Pipeline.arrRef spec21) →
    (fun b : Ref sig .tc => GenP.V44 m (Vals.outs m) c b) b = Run.Ve21 m c b := fun b hb =>
  GenP.V44_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G21.dat (Run.Ve21 m) (Run.tbl21 m) h.ok21 c).arrAt 1 (G21.cfgM (Run.tbl21 m) h.ok21).N = Vals.gath3 m 21 c) :
    Pipeline.RegionSeg (pcfgs (F := F)) (Run.a m h) (Run.pdats m h) () defs₀ Run.𝒱₀ Run.L Run.lv (21 : Fin 33) where
  win := (launch21 (F := F)).win.to₀
  block_pos := (launch21 (F := F)).block_pos
  stage_whole := (launch21 (F := F)).stage_whole
  K := PEmpty
  osem k := k.elim
  ho := Pipeline.OwnSemFacts.none _
  hbody c := (G21.body_obligation (Run.Ve21 m) (Run.tbl21 m) h.ok21 c).loose
  hwaits := Pipeline.hwaits_of_owed_zero _ _ _ _ Run.L Run.lv (21 : Fin 33) fun _ _ => rfl
  pre c := iprop(StableHlo.held (c : Thread nD τ) (Pipeline.ucRefs τ sig) (GenP.V43 m (Vals.outs m) c) ∗ Run.R c)
  post c := iprop(StableHlo.held (c : Thread nD τ) (Pipeline.ucRefs τ sig) (GenP.V44 m (Vals.outs m) c) ∗ Run.R c)
  X c := iprop(∃ r, prngReg c r)
  Y c := iprop((∃ r, prngReg c r) ∗ Pipeline.prefHeld (Ix := Unit) (Name := ℕ) (U := UR sig nD τ) (Lvl := ℕ) pre21 c (fun _ => fullShare) (Run.tbl21 m))
  Z c := Pipeline.unscopedRestP (Ix := Unit) (Name := ℕ) (U := UR sig nD τ) (Lvl := ℕ) pre21 spec21 c (Run.Ve21 m c)
  hentry c := by
    rw [Pipeline.ownSems0_none]
    have hsplit := Pipeline.arrays_of_unscopedBufs (p := (21 : Fin 33)) (pcfgs (F := F)) (Run.a m h) (Run.pdats m h) (launch21 (F := F)).win (launch21 (F := F)).arr_whole c
      ((Run.pdats m h (21 : Fin 33) c).share_full fun _ => rfl) (Run.Ve21 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (21 : Fin 33) c).Φ 0 = iprop(Pipeline.ΦA spec21 c ∗ Pipeline.prefHeld (Ix := Unit) (Name := ℕ) (U := UR sig nD τ) (Lvl := ℕ) pre21 c (fun _ => fullShare) (Run.tbl21 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (21 : Fin 33) c).Φ (Fin.last _) = iprop(Pipeline.ΦA spec21 c ∗ Pipeline.prefHeld (Ix := Unit) (Name := ℕ) (U := UR sig nD τ) (Lvl := ℕ) pre21 c (fun _ => fullShare) (Run.tbl21 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (21 : Fin 33)) (pcfgs (F := F)) (Run.a m h) (Ix := Unit) (Name := ℕ) (U := UR sig nD τ) (Lvl := ℕ)
      (launch21 (F := F)).win (launch21 (F := F)).arr_whole c (Run.pdats m h) ((Run.pdats m h (21 : Fin 33) c).share_full fun _ => rfl)
      (Run.Ve21 m c) (fun b => GenP.V44 m (Vals.outs m) c b) ((Run.pdats m h (21 : Fin 33) c).arrAt · (G21.cfgM (Run.tbl21 m) h.ok21).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S21

end
-- ==== Proof.KI.G21V.lean ====
/-
  What gather region 0 leaves in its output array: point t writes back row `tb[t]` of the array it reads as row t, the
  50000 rows tile the output, so the array ends as the gathered rows.
-/
import proofs.«406793_j90890097918585_2_alg».proof.Proof.KI.G21
import proofs.«406793_j90890097918585_2_alg».proof.Proof.KI.Vals
import Idealize.ShloMosaic.Lib.Pipeline.Value

set_option maxRecDepth 16384

noncomputable section

namespace Cert.KernelIdeal.G21

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre21.Contents (Elt F)) (hO : ok21 (F := F) tb)

/-! ## The two windows' block rows at a point -/

/-- A point of the grid is below 50000. -/
private theorem point_lt (t : Fin (cfgM tb hO).N) : t.val < 50000 := by
  have h : t.val < grid21.N := t.isLt
  rw [N_21] at h
  exact h

/-- The grid has one axis: the coordinate of point t is t. -/
private theorem coords_0 (t : Fin (cfgM tb hO).N) : (grid21.coords t 0).val = t.val := by
  have ht := point_lt tb hO t
  show t.val / grid21.stride 0 % grid21.bound 0 = t.val
  rw [show grid21.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc21_transform_1 (grid21.coords t) 0 = t.val
  unfold cc21_transform_1
  show (BitVec.ofNat 32 (grid21.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid21.N
  · exact Or.inl h
  · have hlt : t.val < grid21.N := t.isLt
    refine Or.inr ⟨by show t.val + 1 < grid21.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc21_transform_0 k21_off1_inb numel1_S1 tb (grid21.coords t) 0 = _
  unfold cc21_transform_0
  dsimp only
  refine congrArg BitVec.toNat (congrArg (tb 0 : S50000.Idx → BitVec 32) ?_)
  funext d
  match d with
  | ⟨0, _⟩ =>
    apply Fin.ext
    show (Scalar.indexCast (BitVec.ofNat 32 (grid21.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k21_pay1 x = x := by
  unfold k21_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v282 (ValueIdx.ix3 (Vals.rowOf ((tb 0 : S50000.Idx → BitVec 32) (ValueIdx.ix1 ⟨t.val, point_lt tb hO t⟩))) (y 1) (y 2)) := by
  show V c main_v282 ((((cfgM tb hO).win 0).blk t).view.emb y) = _
  refine congrArg (V c main_v282) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v282) (tb 0)) := by
  show ((cfgM tb hO).win 1).cut (grid21.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v282) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v283 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid21.N := by rw [N_21]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v282) (tb 0) :=
  (dat V tb hO c).arrAt_eq_of_cover 1 (Vals.gath3Of (V c main_v282) (tb 0)) (fun t _ => flushed_1 V tb hO htb c t)
    (cover_blk_1 tb hO)

end Cert.KernelIdeal.G21

end
-- ==== Proof.KI.S22.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S22

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (22 : Fin 33) c = G22.dat (Run.Ve22 m) (Run.tbl22 m) h.ok22 c := rfl

/-- On the one device the table's buffer holds the table. -/
theorem tbl_eq (c : Dev nD) : (fun k => Run.Ve22 m c (pre22.ref k)) = Run.tbl22 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec22 c (Run.Ve22 m c) : sProp 𝕄)
      = iprop(Pipeline.prefHeld (Ix := Unit) (Name := ℕ) (U := UR sig nD τ) (Lvl := ℕ) pre22 c (fun _ => fullShare) (Run.tbl22 m)
          ∗ Pipeline.unscopedRestP (Ix := Unit) (Name := ℕ) (U := UR sig nD τ) (Lvl := ℕ) pre22 spec22 c (Run.Ve22 m c)) := by
  have hs := Pipeline.unscopedRest_split (Ix := Unit) (Name := ℕ) (U := UR sig nD τ) (Lvl := ℕ) (Val := Elt F) (launch22 (F := F)).pre c (Run.Ve22 m c)
  rw [← tbl_eq m c]
  exact hs

/-- After the region each of its arrays holds what the pipeline leaves: the array read as entered, the output at the gathered rows. -/
theorem hF (harr : ∀ c : Dev nD, (G22.dat (Run.Ve22 m) (Run.tbl22 m) h.ok22 c).arrAt 1 (G22.cfgM (Run.tbl22 m) h.ok22).N = Vals.gath3 m 22 c)
    (c : Dev nD) (w : Fin (G22.cfgM (Run.tbl22 m) h.ok22).W) :
    (G22.dat (Run.Ve22 m) (Run.tbl22 m) h.ok22 c).arrAt w (G22.cfgM (Run.tbl22 m) h.ok22).N
      = GenP.V46 m (Vals.outs m) c (Pipeline.arrRef spec22 w) := by
  match w with
  | ⟨0, _⟩ =>
    refine ((G22.dat (Run.Ve22 m) (Run.tbl22 m) h.ok22 c).arrAt_in 0 rfl _).trans ((G22.A_eq (Run.Ve22 m) (Run.tbl22 m) h.ok22 c 0).trans ?_)
    exact (GenP.V46_of m (Vals.outs m) c main_v295 (by decide)).symm
  | ⟨1, _⟩ =>
    refine (harr c).trans ?_
    show Vals.gath3 m 22 c = Function.update (GenP.V45 m (Vals.outs m) c) main_v296 (Vals.outs m 46 main_v296 c) main_v296
    rw [Function.update_self, Vals.outs_22]

/-- and every other buffer what it held at entry. -/
theorem hrest (c : Dev nD) : ∀ b, b ∉ Finset.univ.image (Pipeline.arrRef spec22) →
    (fun b : Ref sig .tc => GenP.V46 m (Vals.outs m) c b) b = Run.Ve22 m c b := fun b hb =>
  GenP.V46_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G22.dat (Run.Ve22 m) (Run.tbl22 m) h.ok22 c).arrAt 1 (G22.cfgM (Run.tbl22 m) h.ok22).N = Vals.gath3 m 22 c) :
    Pipeline.RegionSeg (pcfgs (F := F)) (Run.a m h) (Run.pdats m h) () defs₀ Run.𝒱₀ Run.L Run.lv (22 : Fin 33) where
  win := (launch22 (F := F)).win.to₀
  block_pos := (launch22 (F := F)).block_pos
  stage_whole := (launch22 (F := F)).stage_whole
  K := PEmpty
  osem k := k.elim
  ho := Pipeline.OwnSemFacts.none _
  hbody c := (G22.body_obligation (Run.Ve22 m) (Run.tbl22 m) h.ok22 c).loose
  hwaits := Pipeline.hwaits_of_owed_zero _ _ _ _ Run.L Run.lv (22 : Fin 33) fun _ _ => rfl
  pre c := iprop(StableHlo.held (c : Thread nD τ) (Pipeline.ucRefs τ sig) (GenP.V45 m (Vals.outs m) c) ∗ Run.R c)
  post c := iprop(StableHlo.held (c : Thread nD τ) (Pipeline.ucRefs τ sig) (GenP.V46 m (Vals.outs m) c) ∗ Run.R c)
  X c := iprop(∃ r, prngReg c r)
  Y c := iprop((∃ r, prngReg c r) ∗ Pipeline.prefHeld (Ix := Unit) (Name := ℕ) (U := UR sig nD τ) (Lvl := ℕ) pre22 c (fun _ => fullShare) (Run.tbl22 m))
  Z c := Pipeline.unscopedRestP (Ix := Unit) (Name := ℕ) (U := UR sig nD τ) (Lvl := ℕ) pre22 spec22 c (Run.Ve22 m c)
  hentry c := by
    rw [Pipeline.ownSems0_none]
    have hsplit := Pipeline.arrays_of_unscopedBufs (p := (22 : Fin 33)) (pcfgs (F := F)) (Run.a m h) (Run.pdats m h) (launch22 (F := F)).win (launch22 (F := F)).arr_whole c
      ((Run.pdats m h (22 : Fin 33) c).share_full fun _ => rfl) (Run.Ve22 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (22 : Fin 33) c).Φ 0 = iprop(Pipeline.ΦA spec22 c ∗ Pipeline.prefHeld (Ix := Unit) (Name := ℕ) (U := UR sig nD τ) (Lvl := ℕ) pre22 c (fun _ => fullShare) (Run.tbl22 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (22 : Fin 33) c).Φ (Fin.last _) = iprop(Pipeline.ΦA spec22 c ∗ Pipeline.prefHeld (Ix := Unit) (Name := ℕ) (U := UR sig nD τ) (Lvl := ℕ) pre22 c (fun _ => fullShare) (Run.tbl22 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (22 : Fin 33)) (pcfgs (F := F)) (Run.a m h) (Ix := Unit) (Name := ℕ) (U := UR sig nD τ) (Lvl := ℕ)
      (launch22 (F := F)).win (launch22 (F := F)).arr_whole c (Run.pdats m h) ((Run.pdats m h (22 : Fin 33) c).share_full fun _ => rfl)
      (Run.Ve22 m c) (fun b => GenP.V46 m (Vals.outs m) c b) ((Run.pdats m h (22 : Fin 33) c).arrAt · (G22.cfgM (Run.tbl22 m) h.ok22).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S22

end
-- ==== Proof.KI.G22V.lean ====
/-
  What gather region 0 leaves in its output array: point t writes back row `tb[t]` of the array it reads as row t, the
  50000 rows tile the output, so the array ends as the gathered rows.
-/
import proofs.«406793_j90890097918585_2_alg».proof.Proof.KI.G22
import proofs.«406793_j90890097918585_2_alg».proof.Proof.KI.Vals
import Idealize.ShloMosaic.Lib.Pipeline.Value

set_option maxRecDepth 16384

noncomputable section

namespace Cert.KernelIdeal.G22

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre22.Contents (Elt F)) (hO : ok22 (F := F) tb)

/-! ## The two windows' block rows at a point -/

/-- A point of the grid is below 50000. -/
private theorem point_lt (t : Fin (cfgM tb hO).N) : t.val < 50000 := by
  have h : t.val < grid22.N := t.isLt
  rw [N_22] at h
  exact h

/-- The grid has one axis: the coordinate of point t is t. -/
private theorem coords_0 (t : Fin (cfgM tb hO).N) : (grid22.coords t 0).val = t.val := by
  have ht := point_lt tb hO t
  show t.val / grid22.stride 0 % grid22.bound 0 = t.val
  rw [show grid22.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc22_transform_1 (grid22.coords t) 0 = t.val
  unfold cc22_transform_1
  show (BitVec.ofNat 32 (grid22.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid22.N
  · exact Or.inl h
  · have hlt : t.val < grid22.N := t.isLt
    refine Or.inr ⟨by show t.val + 1 < grid22.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc22_transform_0 k22_off1_inb numel1_S1 tb (grid22.coords t) 0 = _
  unfold cc22_transform_0
  dsimp only
  refine congrArg BitVec.toNat (congrArg (tb 0 : S50000.Idx → BitVec 32) ?_)
  funext d
  match d with
  | ⟨0, _⟩ =>
    apply Fin.ext
    show (Scalar.indexCast (BitVec.ofNat 32 (grid22.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k22_pay1 x = x := by
  unfold k22_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v295 (ValueIdx.ix3 (Vals.rowOf ((tb 0 : S50000.Idx → BitVec 32) (ValueIdx.ix1 ⟨t.val, point_lt tb hO t⟩))) (y 1) (y 2)) := by
  show V c main_v295 ((((cfgM tb hO).win 0).blk t).view.emb y) = _
  refine congrArg (V c main_v295) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v295) (tb 0)) := by
  show ((cfgM tb hO).win 1).cut (grid22.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v295) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v296 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid22.N := by rw [N_22]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v295) (tb 0) :=
  (dat V tb hO c).arrAt_eq_of_cover 1 (Vals.gath3Of (V c main_v295) (tb 0)) (fun t _ => flushed_1 V tb hO htb c t)
    (cover_blk_1 tb hO)

end Cert.KernelIdeal.G22

end
-- ==== Proof.KI.S23.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S23

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (23 : Fin 33) c = G23.dat (Run.Ve23 m) (Run.tbl23 m) h.ok23 c := rfl

/-- On the one device the table's buffer holds the table. -/
theorem tbl_eq (c : Dev nD) : (fun k => Run.Ve23 m c (pre23.ref k)) = Run.tbl23 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec23 c (Run.Ve23 m c) : sProp 𝕄)
      = iprop(Pipeline.prefHeld (Ix := Unit) (Name := ℕ) (U := UR sig nD τ) (Lvl := ℕ) pre23 c (fun _ => fullShare) (Run.tbl23 m)
          ∗ Pipeline.unscopedRestP (Ix := Unit) (Name := ℕ) (U := UR sig nD τ) (Lvl := ℕ) pre23 spec23 c (Run.Ve23 m c)) := by
  have hs := Pipeline.unscopedRest_split (Ix := Unit) (Name := ℕ) (U := UR sig nD τ) (Lvl := ℕ) (Val := Elt F) (launch23 (F := F)).pre c (Run.Ve23 m c)
  rw [← tbl_eq m c]
  exact hs

/-- After the region each of its arrays holds what the pipeline leaves: the array read as entered, the output at the gathered rows. -/
theorem hF (harr : ∀ c : Dev nD, (G23.dat (Run.Ve23 m) (Run.tbl23 m) h.ok23 c).arrAt 1 (G23.cfgM (Run.tbl23 m) h.ok23).N = Vals.gath3 m 23 c)
    (c : Dev nD) (w : Fin (G23.cfgM (Run.tbl23 m) h.ok23).W) :
    (G23.dat (Run.Ve23 m) (Run.tbl23 m) h.ok23 c).arrAt w (G23.cfgM (Run.tbl23 m) h.ok23).N
      = GenP.V48 m (Vals.outs m) c (Pipeline.arrRef spec23 w) := by
  match w with
  | ⟨0, _⟩ =>
    refine ((G23.dat (Run.Ve23 m) (Run.tbl23 m) h.ok23 c).arrAt_in 0 rfl _).trans ((G23.A_eq (Run.Ve23 m) (Run.tbl23 m) h.ok23 c 0).trans ?_)
    exact (GenP.V48_of m (Vals.outs m) c main_v308 (by decide)).symm
  | ⟨1, _⟩ =>
    refine (harr c).trans ?_
    show Vals.gath3 m 23 c = Function.update (GenP.V47 m (Vals.outs m) c) main_v309 (Vals.outs m 48 main_v309 c) main_v309
    rw [Function.update_self, Vals.outs_23]

/-- and every other buffer what it held at entry. -/
theorem hrest (c : Dev nD) : ∀ b, b ∉ Finset.univ.image (Pipeline.arrRef spec23) →
    (fun b : Ref sig .tc => GenP.V48 m (Vals.outs m) c b) b = Run.Ve23 m c b := fun b hb =>
  GenP.V48_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G23.dat (Run.Ve23 m) (Run.tbl23 m) h.ok23 c).arrAt 1 (G23.cfgM (Run.tbl23 m) h.ok23).N = Vals.gath3 m 23 c) :
    Pipeline.RegionSeg (pcfgs (F := F)) (Run.a m h) (Run.pdats m h) () defs₀ Run.𝒱₀ Run.L Run.lv (23 : Fin 33) where
  win := (launch23 (F := F)).win.to₀
  block_pos := (launch23 (F := F)).block_pos
  stage_whole := (launch23 (F := F)).stage_whole
  K := PEmpty
  osem k := k.elim
  ho := Pipeline.OwnSemFacts.none _
  hbody c := (G23.body_obligation (Run.Ve23 m) (Run.tbl23 m) h.ok23 c).loose
  hwaits := Pipeline.hwaits_of_owed_zero _ _ _ _ Run.L Run.lv (23 : Fin 33) fun _ _ => rfl
  pre c := iprop(StableHlo.held (c : Thread nD τ) (Pipeline.ucRefs τ sig) (GenP.V47 m (Vals.outs m) c) ∗ Run.R c)
  post c := iprop(StableHlo.held (c : Thread nD τ) (Pipeline.ucRefs τ sig) (GenP.V48 m (Vals.outs m) c) ∗ Run.R c)
  X c := iprop(∃ r, prngReg c r)
  Y c := iprop((∃ r, prngReg c r) ∗ Pipeline.prefHeld (Ix := Unit) (Name := ℕ) (U := UR sig nD τ) (Lvl := ℕ) pre23 c (fun _ => fullShare) (Run.tbl23 m))
  Z c := Pipeline.unscopedRestP (Ix := Unit) (Name := ℕ) (U := UR sig nD τ) (Lvl := ℕ) pre23 spec23 c (Run.Ve23 m c)
  hentry c := by
    rw [Pipeline.ownSems0_none]
    have hsplit := Pipeline.arrays_of_unscopedBufs (p := (23 : Fin 33)) (pcfgs (F := F)) (Run.a m h) (Run.pdats m h) (launch23 (F := F)).win (launch23 (F := F)).arr_whole c
      ((Run.pdats m h (23 : Fin 33) c).share_full fun _ => rfl) (Run.Ve23 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (23 : Fin 33) c).Φ 0 = iprop(Pipeline.ΦA spec23 c ∗ Pipeline.prefHeld (Ix := Unit) (Name := ℕ) (U := UR sig nD τ) (Lvl := ℕ) pre23 c (fun _ => fullShare) (Run.tbl23 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (23 : Fin 33) c).Φ (Fin.last _) = iprop(Pipeline.ΦA spec23 c ∗ Pipeline.prefHeld (Ix := Unit) (Name := ℕ) (U := UR sig nD τ) (Lvl := ℕ) pre23 c (fun _ => fullShare) (Run.tbl23 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (23 : Fin 33)) (pcfgs (F := F)) (Run.a m h) (Ix := Unit) (Name := ℕ) (U := UR sig nD τ) (Lvl := ℕ)
      (launch23 (F := F)).win (launch23 (F := F)).arr_whole c (Run.pdats m h) ((Run.pdats m h (23 : Fin 33) c).share_full fun _ => rfl)
      (Run.Ve23 m c) (fun b => GenP.V48 m (Vals.outs m) c b) ((Run.pdats m h (23 : Fin 33) c).arrAt · (G23.cfgM (Run.tbl23 m) h.ok23).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S23

end
-- ==== Proof.KI.G23V.lean ====
/-
  What gather region 0 leaves in its output array: point t writes back row `tb[t]` of the array it reads as row t, the
  50000 rows tile the output, so the array ends as the gathered rows.
-/
import proofs.«406793_j90890097918585_2_alg».proof.Proof.KI.G23
import proofs.«406793_j90890097918585_2_alg».proof.Proof.KI.Vals
import Idealize.ShloMosaic.Lib.Pipeline.Value

set_option maxRecDepth 16384

noncomputable section

namespace Cert.KernelIdeal.G23

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre23.Contents (Elt F)) (hO : ok23 (F := F) tb)

/-! ## The two windows' block rows at a point -/

/-- A point of the grid is below 50000. -/
private theorem point_lt (t : Fin (cfgM tb hO).N) : t.val < 50000 := by
  have h : t.val < grid23.N := t.isLt
  rw [N_23] at h
  exact h

/-- The grid has one axis: the coordinate of point t is t. -/
private theorem coords_0 (t : Fin (cfgM tb hO).N) : (grid23.coords t 0).val = t.val := by
  have ht := point_lt tb hO t
  show t.val / grid23.stride 0 % grid23.bound 0 = t.val
  rw [show grid23.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc23_transform_1 (grid23.coords t) 0 = t.val
  unfold cc23_transform_1
  show (BitVec.ofNat 32 (grid23.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid23.N
  · exact Or.inl h
  · have hlt : t.val < grid23.N := t.isLt
    refine Or.inr ⟨by show t.val + 1 < grid23.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc23_transform_0 k23_off1_inb numel1_S1 tb (grid23.coords t) 0 = _
  unfold cc23_transform_0
  dsimp only
  refine congrArg BitVec.toNat (congrArg (tb 0 : S50000.Idx → BitVec 32) ?_)
  funext d
  match d with
  | ⟨0, _⟩ =>
    apply Fin.ext
    show (Scalar.indexCast (BitVec.ofNat 32 (grid23.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k23_pay1 x = x := by
  unfold k23_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v308 (ValueIdx.ix3 (Vals.rowOf ((tb 0 : S50000.Idx → BitVec 32) (ValueIdx.ix1 ⟨t.val, point_lt tb hO t⟩))) (y 1) (y 2)) := by
  show V c main_v308 ((((cfgM tb hO).win 0).blk t).view.emb y) = _
  refine congrArg (V c main_v308) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v308) (tb 0)) := by
  show ((cfgM tb hO).win 1).cut (grid23.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v308) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v309 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid23.N := by rw [N_23]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v308) (tb 0) :=
  (dat V tb hO c).arrAt_eq_of_cover 1 (Vals.gath3Of (V c main_v308) (tb 0)) (fun t _ => flushed_1 V tb hO htb c t)
    (cover_blk_1 tb hO)

end Cert.KernelIdeal.G23

end
-- ==== Proof.KI.S24.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S24

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (24 : Fin 33) c = G24.dat (Run.Ve24 m) (Run.tbl24 m) h.ok24 c := rfl

/-- On the one device the table's buffer holds the table. -/
theorem tbl_eq (c : Dev nD) : (fun k => Run.Ve24 m c (pre24.ref k)) = Run.tbl24 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec24 c (Run.Ve24 m c) : sProp 𝕄)
      = iprop(Pipeline.prefHeld (Ix := Unit) (Name := ℕ) (U := UR sig nD τ) (Lvl := ℕ) pre24 c (fun _ => fullShare) (Run.tbl24 m)
          ∗ Pipeline.unscopedRestP (Ix := Unit) (Name := ℕ) (U := UR sig nD τ) (Lvl := ℕ) pre24 spec24 c (Run.Ve24 m c)) := by
  have hs := Pipeline.unscopedRest_split (Ix := Unit) (Name := ℕ) (U := UR sig nD τ) (Lvl := ℕ) (Val := Elt F) (launch24 (F := F)).pre c (Run.Ve24 m c)
  rw [← tbl_eq m c]
  exact hs

/-- After the region each of its arrays holds what the pipeline leaves: the array read as entered, the output at the gathered rows. -/
theorem hF (harr : ∀ c : Dev nD, (G24.dat (Run.Ve24 m) (Run.tbl24 m) h.ok24 c).arrAt 1 (G24.cfgM (Run.tbl24 m) h.ok24).N = Vals.gath3 m 24 c)
    (c : Dev nD) (w : Fin (G24.cfgM (Run.tbl24 m) h.ok24).W) :
    (G24.dat (Run.Ve24 m) (Run.tbl24 m) h.ok24 c).arrAt w (G24.cfgM (Run.tbl24 m) h.ok24).N
      = GenP.V50 m (Vals.outs m) c (Pipeline.arrRef spec24 w) := by
  match w with
  | ⟨0, _⟩ =>
    refine ((G24.dat (Run.Ve24 m) (Run.tbl24 m) h.ok24 c).arrAt_in 0 rfl _).trans ((G24.A_eq (Run.Ve24 m) (Run.tbl24 m) h.ok24 c 0).trans ?_)
    exact (GenP.V50_of m (Vals.outs m) c main_v321 (by decide)).symm
  | ⟨1, _⟩ =>
    refine (harr c).trans ?_
    show Vals.gath3 m 24 c = Function.update (GenP.V49 m (Vals.outs m) c) main_v322 (Vals.outs m 50 main_v322 c) main_v322
    rw [Function.update_self, Vals.outs_24]

/-- and every other buffer what it held at entry. -/
theorem hrest (c : Dev nD) : ∀ b, b ∉ Finset.univ.image (Pipeline.arrRef spec24) →
    (fun b : Ref sig .tc => GenP.V50 m (Vals.outs m) c b) b = Run.Ve24 m c b := fun b hb =>
  GenP.V50_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G24.dat (Run.Ve24 m) (Run.tbl24 m) h.ok24 c).arrAt 1 (G24.cfgM (Run.tbl24 m) h.ok24).N = Vals.gath3 m 24 c) :
    Pipeline.RegionSeg (pcfgs (F := F)) (Run.a m h) (Run.pdats m h) () defs₀ Run.𝒱₀ Run.L Run.lv (24 : Fin 33) where
  win := (launch24 (F := F)).win.to₀
  block_pos := (launch24 (F := F)).block_pos
  stage_whole := (launch24 (F := F)).stage_whole
  K := PEmpty
  osem k := k.elim
  ho := Pipeline.OwnSemFacts.none _
  hbody c := (G24.body_obligation (Run.Ve24 m) (Run.tbl24 m) h.ok24 c).loose
  hwaits := Pipeline.hwaits_of_owed_zero _ _ _ _ Run.L Run.lv (24 : Fin 33) fun _ _ => rfl
  pre c := iprop(StableHlo.held (c : Thread nD τ) (Pipeline.ucRefs τ sig) (GenP.V49 m (Vals.outs m) c) ∗ Run.R c)
  post c := iprop(StableHlo.held (c : Thread nD τ) (Pipeline.ucRefs τ sig) (GenP.V50 m (Vals.outs m) c) ∗ Run.R c)
  X c := iprop(∃ r, prngReg c r)
  Y c := iprop((∃ r, prngReg c r) ∗ Pipeline.prefHeld (Ix := Unit) (Name := ℕ) (U := UR sig nD τ) (Lvl := ℕ) pre24 c (fun _ => fullShare) (Run.tbl24 m))
  Z c := Pipeline.unscopedRestP (Ix := Unit) (Name := ℕ) (U := UR sig nD τ) (Lvl := ℕ) pre24 spec24 c (Run.Ve24 m c)
  hentry c := by
    rw [Pipeline.ownSems0_none]
    have hsplit := Pipeline.arrays_of_unscopedBufs (p := (24 : Fin 33)) (pcfgs (F := F)) (Run.a m h) (Run.pdats m h) (launch24 (F := F)).win (launch24 (F := F)).arr_whole c
      ((Run.pdats m h (24 : Fin 33) c).share_full fun _ => rfl) (Run.Ve24 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (24 : Fin 33) c).Φ 0 = iprop(Pipeline.ΦA spec24 c ∗ Pipeline.prefHeld (Ix := Unit) (Name := ℕ) (U := UR sig nD τ) (Lvl := ℕ) pre24 c (fun _ => fullShare) (Run.tbl24 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (24 : Fin 33) c).Φ (Fin.last _) = iprop(Pipeline.ΦA spec24 c ∗ Pipeline.prefHeld (Ix := Unit) (Name := ℕ) (U := UR sig nD τ) (Lvl := ℕ) pre24 c (fun _ => fullShare) (Run.tbl24 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (24 : Fin 33)) (pcfgs (F := F)) (Run.a m h) (Ix := Unit) (Name := ℕ) (U := UR sig nD τ) (Lvl := ℕ)
      (launch24 (F := F)).win (launch24 (F := F)).arr_whole c (Run.pdats m h) ((Run.pdats m h (24 : Fin 33) c).share_full fun _ => rfl)
      (Run.Ve24 m c) (fun b => GenP.V50 m (Vals.outs m) c b) ((Run.pdats m h (24 : Fin 33) c).arrAt · (G24.cfgM (Run.tbl24 m) h.ok24).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S24

end
-- ==== Proof.KI.G24V.lean ====
/-
  What gather region 0 leaves in its output array: point t writes back row `tb[t]` of the array it reads as row t, the
  50000 rows tile the output, so the array ends as the gathered rows.
-/
import proofs.«406793_j90890097918585_2_alg».proof.Proof.KI.G24
import proofs.«406793_j90890097918585_2_alg».proof.Proof.KI.Vals
import Idealize.ShloMosaic.Lib.Pipeline.Value

set_option maxRecDepth 16384

noncomputable section

namespace Cert.KernelIdeal.G24

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre24.Contents (Elt F)) (hO : ok24 (F := F) tb)

/-! ## The two windows' block rows at a point -/

/-- A point of the grid is below 50000. -/
private theorem point_lt (t : Fin (cfgM tb hO).N) : t.val < 50000 := by
  have h : t.val < grid24.N := t.isLt
  rw [N_24] at h
  exact h

/-- The grid has one axis: the coordinate of point t is t. -/
private theorem coords_0 (t : Fin (cfgM tb hO).N) : (grid24.coords t 0).val = t.val := by
  have ht := point_lt tb hO t
  show t.val / grid24.stride 0 % grid24.bound 0 = t.val
  rw [show grid24.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc24_transform_1 (grid24.coords t) 0 = t.val
  unfold cc24_transform_1
  show (BitVec.ofNat 32 (grid24.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid24.N
  · exact Or.inl h
  · have hlt : t.val < grid24.N := t.isLt
    refine Or.inr ⟨by show t.val + 1 < grid24.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc24_transform_0 k24_off1_inb numel1_S1 tb (grid24.coords t) 0 = _
  unfold cc24_transform_0
  dsimp only
  refine congrArg BitVec.toNat (congrArg (tb 0 : S50000.Idx → BitVec 32) ?_)
  funext d
  match d with
  | ⟨0, _⟩ =>
    apply Fin.ext
    show (Scalar.indexCast (BitVec.ofNat 32 (grid24.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k24_pay1 x = x := by
  unfold k24_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v321 (ValueIdx.ix3 (Vals.rowOf ((tb 0 : S50000.Idx → BitVec 32) (ValueIdx.ix1 ⟨t.val, point_lt tb hO t⟩))) (y 1) (y 2)) := by
  show V c main_v321 ((((cfgM tb hO).win 0).blk t).view.emb y) = _
  refine congrArg (V c main_v321) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v321) (tb 0)) := by
  show ((cfgM tb hO).win 1).cut (grid24.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v321) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v322 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid24.N := by rw [N_24]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v321) (tb 0) :=
  (dat V tb hO c).arrAt_eq_of_cover 1 (Vals.gath3Of (V c main_v321) (tb 0)) (fun t _ => flushed_1 V tb hO htb c t)
    (cover_blk_1 tb hO)

end Cert.KernelIdeal.G24

end
-- ==== Proof.KI.S25.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S25

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (25 : Fin 33) c = G25.dat (Run.Ve25 m) (Run.tbl25 m) h.ok25 c := rfl

/-- On the one device the table's buffer holds the table. -/
theorem tbl_eq (c : Dev nD) : (fun k => Run.Ve25 m c (pre25.ref k)) = Run.tbl25 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec25 c (Run.Ve25 m c) : sProp 𝕄)
      = iprop(Pipeline.prefHeld (Ix := Unit) (Name := ℕ) (U := UR sig nD τ) (Lvl := ℕ) pre25 c (fun _ => fullShare) (Run.tbl25 m)
          ∗ Pipeline.unscopedRestP (Ix := Unit) (Name := ℕ) (U := UR sig nD τ) (Lvl := ℕ) pre25 spec25 c (Run.Ve25 m c)) := by
  have hs := Pipeline.unscopedRest_split (Ix := Unit) (Name := ℕ) (U := UR sig nD τ) (Lvl := ℕ) (Val := Elt F) (launch25 (F := F)).pre c (Run.Ve25 m c)
  rw [← tbl_eq m c]
  exact hs

/-- After the region each of its arrays holds what the pipeline leaves: the array read as entered, the output at the gathered rows. -/
theorem hF (harr : ∀ c : Dev nD, (G25.dat (Run.Ve25 m) (Run.tbl25 m) h.ok25 c).arrAt 1 (G25.cfgM (Run.tbl25 m) h.ok25).N = Vals.gath3 m 25 c)
    (c : Dev nD) (w : Fin (G25.cfgM (Run.tbl25 m) h.ok25).W) :
    (G25.dat (Run.Ve25 m) (Run.tbl25 m) h.ok25 c).arrAt w (G25.cfgM (Run.tbl25 m) h.ok25).N
      = GenP.V52 m (Vals.outs m) c (Pipeline.arrRef spec25 w) := by
  match w with
  | ⟨0, _⟩ =>
    refine ((G25.dat (Run.Ve25 m) (Run.tbl25 m) h.ok25 c).arrAt_in 0 rfl _).trans ((G25.A_eq (Run.Ve25 m) (Run.tbl25 m) h.ok25 c 0).trans ?_)
    exact (GenP.V52_of m (Vals.outs m) c main_v334 (by decide)).symm
  | ⟨1, _⟩ =>
    refine (harr c).trans ?_
    show Vals.gath3 m 25 c = Function.update (GenP.V51 m (Vals.outs m) c) main_v335 (Vals.outs m 52 main_v335 c) main_v335
    rw [Function.update_self, Vals.outs_25]

/-- and every other buffer what it held at entry. -/
theorem hrest (c : Dev nD) : ∀ b, b ∉ Finset.univ.image (Pipeline.arrRef spec25) →
    (fun b : Ref sig .tc => GenP.V52 m (Vals.outs m) c b) b = Run.Ve25 m c b := fun b hb =>
  GenP.V52_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G25.dat (Run.Ve25 m) (Run.tbl25 m) h.ok25 c).arrAt 1 (G25.cfgM (Run.tbl25 m) h.ok25).N = Vals.gath3 m 25 c) :
    Pipeline.RegionSeg (pcfgs (F := F)) (Run.a m h) (Run.pdats m h) () defs₀ Run.𝒱₀ Run.L Run.lv (25 : Fin 33) where
  win := (launch25 (F := F)).win.to₀
  block_pos := (launch25 (F := F)).block_pos
  stage_whole := (launch25 (F := F)).stage_whole
  K := PEmpty
  osem k := k.elim
  ho := Pipeline.OwnSemFacts.none _
  hbody c := (G25.body_obligation (Run.Ve25 m) (Run.tbl25 m) h.ok25 c).loose
  hwaits := Pipeline.hwaits_of_owed_zero _ _ _ _ Run.L Run.lv (25 : Fin 33) fun _ _ => rfl
  pre c := iprop(StableHlo.held (c : Thread nD τ) (Pipeline.ucRefs τ sig) (GenP.V51 m (Vals.outs m) c) ∗ Run.R c)
  post c := iprop(StableHlo.held (c : Thread nD τ) (Pipeline.ucRefs τ sig) (GenP.V52 m (Vals.outs m) c) ∗ Run.R c)
  X c := iprop(∃ r, prngReg c r)
  Y c := iprop((∃ r, prngReg c r) ∗ Pipeline.prefHeld (Ix := Unit) (Name := ℕ) (U := UR sig nD τ) (Lvl := ℕ) pre25 c (fun _ => fullShare) (Run.tbl25 m))
  Z c := Pipeline.unscopedRestP (Ix := Unit) (Name := ℕ) (U := UR sig nD τ) (Lvl := ℕ) pre25 spec25 c (Run.Ve25 m c)
  hentry c := by
    rw [Pipeline.ownSems0_none]
    have hsplit := Pipeline.arrays_of_unscopedBufs (p := (25 : Fin 33)) (pcfgs (F := F)) (Run.a m h) (Run.pdats m h) (launch25 (F := F)).win (launch25 (F := F)).arr_whole c
      ((Run.pdats m h (25 : Fin 33) c).share_full fun _ => rfl) (Run.Ve25 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (25 : Fin 33) c).Φ 0 = iprop(Pipeline.ΦA spec25 c ∗ Pipeline.prefHeld (Ix := Unit) (Name := ℕ) (U := UR sig nD τ) (Lvl := ℕ) pre25 c (fun _ => fullShare) (Run.tbl25 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (25 : Fin 33) c).Φ (Fin.last _) = iprop(Pipeline.ΦA spec25 c ∗ Pipeline.prefHeld (Ix := Unit) (Name := ℕ) (U := UR sig nD τ) (Lvl := ℕ) pre25 c (fun _ => fullShare) (Run.tbl25 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (25 : Fin 33)) (pcfgs (F := F)) (Run.a m h) (Ix := Unit) (Name := ℕ) (U := UR sig nD τ) (Lvl := ℕ)
      (launch25 (F := F)).win (launch25 (F := F)).arr_whole c (Run.pdats m h) ((Run.pdats m h (25 : Fin 33) c).share_full fun _ => rfl)
      (Run.Ve25 m c) (fun b => GenP.V52 m (Vals.outs m) c b) ((Run.pdats m h (25 : Fin 33) c).arrAt · (G25.cfgM (Run.tbl25 m) h.ok25).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S25

end
-- ==== Proof.KI.G25V.lean ====
/-
  What gather region 0 leaves in its output array: point t writes back row `tb[t]` of the array it reads as row t, the
  50000 rows tile the output, so the array ends as the gathered rows.
-/
import proofs.«406793_j90890097918585_2_alg».proof.Proof.KI.G25
import proofs.«406793_j90890097918585_2_alg».proof.Proof.KI.Vals
import Idealize.ShloMosaic.Lib.Pipeline.Value

set_option maxRecDepth 16384

noncomputable section

namespace Cert.KernelIdeal.G25

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre25.Contents (Elt F)) (hO : ok25 (F := F) tb)

/-! ## The two windows' block rows at a point -/

/-- A point of the grid is below 50000. -/
private theorem point_lt (t : Fin (cfgM tb hO).N) : t.val < 50000 := by
  have h : t.val < grid25.N := t.isLt
  rw [N_25] at h
  exact h

/-- The grid has one axis: the coordinate of point t is t. -/
private theorem coords_0 (t : Fin (cfgM tb hO).N) : (grid25.coords t 0).val = t.val := by
  have ht := point_lt tb hO t
  show t.val / grid25.stride 0 % grid25.bound 0 = t.val
  rw [show grid25.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc25_transform_1 (grid25.coords t) 0 = t.val
  unfold cc25_transform_1
  show (BitVec.ofNat 32 (grid25.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid25.N
  · exact Or.inl h
  · have hlt : t.val < grid25.N := t.isLt
    refine Or.inr ⟨by show t.val + 1 < grid25.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc25_transform_0 k25_off1_inb numel1_S1 tb (grid25.coords t) 0 = _
  unfold cc25_transform_0
  dsimp only
  refine congrArg BitVec.toNat (congrArg (tb 0 : S50000.Idx → BitVec 32) ?_)
  funext d
  match d with
  | ⟨0, _⟩ =>
    apply Fin.ext
    show (Scalar.indexCast (BitVec.ofNat 32 (grid25.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k25_pay1 x = x := by
  unfold k25_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v334 (ValueIdx.ix3 (Vals.rowOf ((tb 0 : S50000.Idx → BitVec 32) (ValueIdx.ix1 ⟨t.val, point_lt tb hO t⟩))) (y 1) (y 2)) := by
  show V c main_v334 ((((cfgM tb hO).win 0).blk t).view.emb y) = _
  refine congrArg (V c main_v334) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v334) (tb 0)) := by
  show ((cfgM tb hO).win 1).cut (grid25.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v334) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v335 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid25.N := by rw [N_25]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v334) (tb 0) :=
  (dat V tb hO c).arrAt_eq_of_cover 1 (Vals.gath3Of (V c main_v334) (tb 0)) (fun t _ => flushed_1 V tb hO htb c t)
    (cover_blk_1 tb hO)

end Cert.KernelIdeal.G25

end
-- ==== Proof.KI.S26.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S26

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (26 : Fin 33) c = G26.dat (Run.Ve26 m) (Run.tbl26 m) h.ok26 c := rfl

/-- On the one device the table's buffer holds the table. -/
theorem tbl_eq (c : Dev nD) : (fun k => Run.Ve26 m c (pre26.ref k)) = Run.tbl26 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec26 c (Run.Ve26 m c) : sProp 𝕄)
      = iprop(Pipeline.prefHeld (Ix := Unit) (Name := ℕ) (U := UR sig nD τ) (Lvl := ℕ) pre26 c (fun _ => fullShare) (Run.tbl26 m)
          ∗ Pipeline.unscopedRestP (Ix := Unit) (Name := ℕ) (U := UR sig nD τ) (Lvl := ℕ) pre26 spec26 c (Run.Ve26 m c)) := by
  have hs := Pipeline.unscopedRest_split (Ix := Unit) (Name := ℕ) (U := UR sig nD τ) (Lvl := ℕ) (Val := Elt F) (launch26 (F := F)).pre c (Run.Ve26 m c)
  rw [← tbl_eq m c]
  exact hs

/-- After the region each of its arrays holds what the pipeline leaves: the array read as entered, the output at the gathered rows. -/
theorem hF (harr : ∀ c : Dev nD, (G26.dat (Run.Ve26 m) (Run.tbl26 m) h.ok26 c).arrAt 1 (G26.cfgM (Run.tbl26 m) h.ok26).N = Vals.gath3 m 26 c)
    (c : Dev nD) (w : Fin (G26.cfgM (Run.tbl26 m) h.ok26).W) :
    (G26.dat (Run.Ve26 m) (Run.tbl26 m) h.ok26 c).arrAt w (G26.cfgM (Run.tbl26 m) h.ok26).N
      = GenP.V54 m (Vals.outs m) c (Pipeline.arrRef spec26 w) := by
  match w with
  | ⟨0, _⟩ =>
    refine ((G26.dat (Run.Ve26 m) (Run.tbl26 m) h.ok26 c).arrAt_in 0 rfl _).trans ((G26.A_eq (Run.Ve26 m) (Run.tbl26 m) h.ok26 c 0).trans ?_)
    exact (GenP.V54_of m (Vals.outs m) c main_v347 (by decide)).symm
  | ⟨1, _⟩ =>
    refine (harr c).trans ?_
    show Vals.gath3 m 26 c = Function.update (GenP.V53 m (Vals.outs m) c) main_v348 (Vals.outs m 54 main_v348 c) main_v348
    rw [Function.update_self, Vals.outs_26]

/-- and every other buffer what it held at entry. -/
theorem hrest (c : Dev nD) : ∀ b, b ∉ Finset.univ.image (Pipeline.arrRef spec26) →
    (fun b : Ref sig .tc => GenP.V54 m (Vals.outs m) c b) b = Run.Ve26 m c b := fun b hb =>
  GenP.V54_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G26.dat (Run.Ve26 m) (Run.tbl26 m) h.ok26 c).arrAt 1 (G26.cfgM (Run.tbl26 m) h.ok26).N = Vals.gath3 m 26 c) :
    Pipeline.RegionSeg (pcfgs (F := F)) (Run.a m h) (Run.pdats m h) () defs₀ Run.𝒱₀ Run.L Run.lv (26 : Fin 33) where
  win := (launch26 (F := F)).win.to₀
  block_pos := (launch26 (F := F)).block_pos
  stage_whole := (launch26 (F := F)).stage_whole
  K := PEmpty
  osem k := k.elim
  ho := Pipeline.OwnSemFacts.none _
  hbody c := (G26.body_obligation (Run.Ve26 m) (Run.tbl26 m) h.ok26 c).loose
  hwaits := Pipeline.hwaits_of_owed_zero _ _ _ _ Run.L Run.lv (26 : Fin 33) fun _ _ => rfl
  pre c := iprop(StableHlo.held (c : Thread nD τ) (Pipeline.ucRefs τ sig) (GenP.V53 m (Vals.outs m) c) ∗ Run.R c)
  post c := iprop(StableHlo.held (c : Thread nD τ) (Pipeline.ucRefs τ sig) (GenP.V54 m (Vals.outs m) c) ∗ Run.R c)
  X c := iprop(∃ r, prngReg c r)
  Y c := iprop((∃ r, prngReg c r) ∗ Pipeline.prefHeld (Ix := Unit) (Name := ℕ) (U := UR sig nD τ) (Lvl := ℕ) pre26 c (fun _ => fullShare) (Run.tbl26 m))
  Z c := Pipeline.unscopedRestP (Ix := Unit) (Name := ℕ) (U := UR sig nD τ) (Lvl := ℕ) pre26 spec26 c (Run.Ve26 m c)
  hentry c := by
    rw [Pipeline.ownSems0_none]
    have hsplit := Pipeline.arrays_of_unscopedBufs (p := (26 : Fin 33)) (pcfgs (F := F)) (Run.a m h) (Run.pdats m h) (launch26 (F := F)).win (launch26 (F := F)).arr_whole c
      ((Run.pdats m h (26 : Fin 33) c).share_full fun _ => rfl) (Run.Ve26 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (26 : Fin 33) c).Φ 0 = iprop(Pipeline.ΦA spec26 c ∗ Pipeline.prefHeld (Ix := Unit) (Name := ℕ) (U := UR sig nD τ) (Lvl := ℕ) pre26 c (fun _ => fullShare) (Run.tbl26 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (26 : Fin 33) c).Φ (Fin.last _) = iprop(Pipeline.ΦA spec26 c ∗ Pipeline.prefHeld (Ix := Unit) (Name := ℕ) (U := UR sig nD τ) (Lvl := ℕ) pre26 c (fun _ => fullShare) (Run.tbl26 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (26 : Fin 33)) (pcfgs (F := F)) (Run.a m h) (Ix := Unit) (Name := ℕ) (U := UR sig nD τ) (Lvl := ℕ)
      (launch26 (F := F)).win (launch26 (F := F)).arr_whole c (Run.pdats m h) ((Run.pdats m h (26 : Fin 33) c).share_full fun _ => rfl)
      (Run.Ve26 m c) (fun b => GenP.V54 m (Vals.outs m) c b) ((Run.pdats m h (26 : Fin 33) c).arrAt · (G26.cfgM (Run.tbl26 m) h.ok26).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S26

end
-- ==== Proof.KI.G26V.lean ====
/-
  What gather region 0 leaves in its output array: point t writes back row `tb[t]` of the array it reads as row t, the
  50000 rows tile the output, so the array ends as the gathered rows.
-/
import proofs.«406793_j90890097918585_2_alg».proof.Proof.KI.G26
import proofs.«406793_j90890097918585_2_alg».proof.Proof.KI.Vals
import Idealize.ShloMosaic.Lib.Pipeline.Value

set_option maxRecDepth 16384

noncomputable section

namespace Cert.KernelIdeal.G26

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre26.Contents (Elt F)) (hO : ok26 (F := F) tb)

/-! ## The two windows' block rows at a point -/

/-- A point of the grid is below 50000. -/
private theorem point_lt (t : Fin (cfgM tb hO).N) : t.val < 50000 := by
  have h : t.val < grid26.N := t.isLt
  rw [N_26] at h
  exact h

/-- The grid has one axis: the coordinate of point t is t. -/
private theorem coords_0 (t : Fin (cfgM tb hO).N) : (grid26.coords t 0).val = t.val := by
  have ht := point_lt tb hO t
  show t.val / grid26.stride 0 % grid26.bound 0 = t.val
  rw [show grid26.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc26_transform_1 (grid26.coords t) 0 = t.val
  unfold cc26_transform_1
  show (BitVec.ofNat 32 (grid26.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid26.N
  · exact Or.inl h
  · have hlt : t.val < grid26.N := t.isLt
    refine Or.inr ⟨by show t.val + 1 < grid26.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc26_transform_0 k26_off1_inb numel1_S1 tb (grid26.coords t) 0 = _
  unfold cc26_transform_0
  dsimp only
  refine congrArg BitVec.toNat (congrArg (tb 0 : S50000.Idx → BitVec 32) ?_)
  funext d
  match d with
  | ⟨0, _⟩ =>
    apply Fin.ext
    show (Scalar.indexCast (BitVec.ofNat 32 (grid26.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k26_pay1 x = x := by
  unfold k26_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v347 (ValueIdx.ix3 (Vals.rowOf ((tb 0 : S50000.Idx → BitVec 32) (ValueIdx.ix1 ⟨t.val, point_lt tb hO t⟩))) (y 1) (y 2)) := by
  show V c main_v347 ((((cfgM tb hO).win 0).blk t).view.emb y) = _
  refine congrArg (V c main_v347) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v347) (tb 0)) := by
  show ((cfgM tb hO).win 1).cut (grid26.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v347) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v348 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid26.N := by rw [N_26]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v347) (tb 0) :=
  (dat V tb hO c).arrAt_eq_of_cover 1 (Vals.gath3Of (V c main_v347) (tb 0)) (fun t _ => flushed_1 V tb hO htb c t)
    (cover_blk_1 tb hO)

end Cert.KernelIdeal.G26

end
-- ==== Proof.KI.S27.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S27

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (27 : Fin 33) c = G27.dat (Run.Ve27 m) (Run.tbl27 m) h.ok27 c := rfl

/-- On the one device the table's buffer holds the table. -/
theorem tbl_eq (c : Dev nD) : (fun k => Run.Ve27 m c (pre27.ref k)) = Run.tbl27 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec27 c (Run.Ve27 m c) : sProp 𝕄)
      = iprop(Pipeline.prefHeld (Ix := Unit) (Name := ℕ) (U := UR sig nD τ) (Lvl := ℕ) pre27 c (fun _ => fullShare) (Run.tbl27 m)
          ∗ Pipeline.unscopedRestP (Ix := Unit) (Name := ℕ) (U := UR sig nD τ) (Lvl := ℕ) pre27 spec27 c (Run.Ve27 m c)) := by
  have hs := Pipeline.unscopedRest_split (Ix := Unit) (Name := ℕ) (U := UR sig nD τ) (Lvl := ℕ) (Val := Elt F) (launch27 (F := F)).pre c (Run.Ve27 m c)
  rw [← tbl_eq m c]
  exact hs

/-- After the region each of its arrays holds what the pipeline leaves: the array read as entered, the output at the gathered rows. -/
theorem hF (harr : ∀ c : Dev nD, (G27.dat (Run.Ve27 m) (Run.tbl27 m) h.ok27 c).arrAt 1 (G27.cfgM (Run.tbl27 m) h.ok27).N = Vals.gath3 m 27 c)
    (c : Dev nD) (w : Fin (G27.cfgM (Run.tbl27 m) h.ok27).W) :
    (G27.dat (Run.Ve27 m) (Run.tbl27 m) h.ok27 c).arrAt w (G27.cfgM (Run.tbl27 m) h.ok27).N
      = GenP.V56 m (Vals.outs m) c (Pipeline.arrRef spec27 w) := by
  match w with
  | ⟨0, _⟩ =>
    refine ((G27.dat (Run.Ve27 m) (Run.tbl27 m) h.ok27 c).arrAt_in 0 rfl _).trans ((G27.A_eq (Run.Ve27 m) (Run.tbl27 m) h.ok27 c 0).trans ?_)
    exact (GenP.V56_of m (Vals.outs m) c main_v360 (by decide)).symm
  | ⟨1, _⟩ =>
    refine (harr c).trans ?_
    show Vals.gath3 m 27 c = Function.update (GenP.V55 m (Vals.outs m) c) main_v361 (Vals.outs m 56 main_v361 c) main_v361
    rw [Function.update_self, Vals.outs_27]

/-- and every other buffer what it held at entry. -/
theorem hrest (c : Dev nD) : ∀ b, b ∉ Finset.univ.image (Pipeline.arrRef spec27) →
    (fun b : Ref sig .tc => GenP.V56 m (Vals.outs m) c b) b = Run.Ve27 m c b := fun b hb =>
  GenP.V56_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G27.dat (Run.Ve27 m) (Run.tbl27 m) h.ok27 c).arrAt 1 (G27.cfgM (Run.tbl27 m) h.ok27).N = Vals.gath3 m 27 c) :
    Pipeline.RegionSeg (pcfgs (F := F)) (Run.a m h) (Run.pdats m h) () defs₀ Run.𝒱₀ Run.L Run.lv (27 : Fin 33) where
  win := (launch27 (F := F)).win.to₀
  block_pos := (launch27 (F := F)).block_pos
  stage_whole := (launch27 (F := F)).stage_whole
  K := PEmpty
  osem k := k.elim
  ho := Pipeline.OwnSemFacts.none _
  hbody c := (G27.body_obligation (Run.Ve27 m) (Run.tbl27 m) h.ok27 c).loose
  hwaits := Pipeline.hwaits_of_owed_zero _ _ _ _ Run.L Run.lv (27 : Fin 33) fun _ _ => rfl
  pre c := iprop(StableHlo.held (c : Thread nD τ) (Pipeline.ucRefs τ sig) (GenP.V55 m (Vals.outs m) c) ∗ Run.R c)
  post c := iprop(StableHlo.held (c : Thread nD τ) (Pipeline.ucRefs τ sig) (GenP.V56 m (Vals.outs m) c) ∗ Run.R c)
  X c := iprop(∃ r, prngReg c r)
  Y c := iprop((∃ r, prngReg c r) ∗ Pipeline.prefHeld (Ix := Unit) (Name := ℕ) (U := UR sig nD τ) (Lvl := ℕ) pre27 c (fun _ => fullShare) (Run.tbl27 m))
  Z c := Pipeline.unscopedRestP (Ix := Unit) (Name := ℕ) (U := UR sig nD τ) (Lvl := ℕ) pre27 spec27 c (Run.Ve27 m c)
  hentry c := by
    rw [Pipeline.ownSems0_none]
    have hsplit := Pipeline.arrays_of_unscopedBufs (p := (27 : Fin 33)) (pcfgs (F := F)) (Run.a m h) (Run.pdats m h) (launch27 (F := F)).win (launch27 (F := F)).arr_whole c
      ((Run.pdats m h (27 : Fin 33) c).share_full fun _ => rfl) (Run.Ve27 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (27 : Fin 33) c).Φ 0 = iprop(Pipeline.ΦA spec27 c ∗ Pipeline.prefHeld (Ix := Unit) (Name := ℕ) (U := UR sig nD τ) (Lvl := ℕ) pre27 c (fun _ => fullShare) (Run.tbl27 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (27 : Fin 33) c).Φ (Fin.last _) = iprop(Pipeline.ΦA spec27 c ∗ Pipeline.prefHeld (Ix := Unit) (Name := ℕ) (U := UR sig nD τ) (Lvl := ℕ) pre27 c (fun _ => fullShare) (Run.tbl27 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (27 : Fin 33)) (pcfgs (F := F)) (Run.a m h) (Ix := Unit) (Name := ℕ) (U := UR sig nD τ) (Lvl := ℕ)
      (launch27 (F := F)).win (launch27 (F := F)).arr_whole c (Run.pdats m h) ((Run.pdats m h (27 : Fin 33) c).share_full fun _ => rfl)
      (Run.Ve27 m c) (fun b => GenP.V56 m (Vals.outs m) c b) ((Run.pdats m h (27 : Fin 33) c).arrAt · (G27.cfgM (Run.tbl27 m) h.ok27).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S27

end
-- ==== Proof.KI.G27V.lean ====
/-
  What gather region 0 leaves in its output array: point t writes back row `tb[t]` of the array it reads as row t, the
  50000 rows tile the output, so the array ends as the gathered rows.
-/
import proofs.«406793_j90890097918585_2_alg».proof.Proof.KI.G27
import proofs.«406793_j90890097918585_2_alg».proof.Proof.KI.Vals
import Idealize.ShloMosaic.Lib.Pipeline.Value

set_option maxRecDepth 16384

noncomputable section

namespace Cert.KernelIdeal.G27

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre27.Contents (Elt F)) (hO : ok27 (F := F) tb)

/-! ## The two windows' block rows at a point -/

/-- A point of the grid is below 50000. -/
private theorem point_lt (t : Fin (cfgM tb hO).N) : t.val < 50000 := by
  have h : t.val < grid27.N := t.isLt
  rw [N_27] at h
  exact h

/-- The grid has one axis: the coordinate of point t is t. -/
private theorem coords_0 (t : Fin (cfgM tb hO).N) : (grid27.coords t 0).val = t.val := by
  have ht := point_lt tb hO t
  show t.val / grid27.stride 0 % grid27.bound 0 = t.val
  rw [show grid27.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc27_transform_1 (grid27.coords t) 0 = t.val
  unfold cc27_transform_1
  show (BitVec.ofNat 32 (grid27.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid27.N
  · exact Or.inl h
  · have hlt : t.val < grid27.N := t.isLt
    refine Or.inr ⟨by show t.val + 1 < grid27.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc27_transform_0 k27_off1_inb numel1_S1 tb (grid27.coords t) 0 = _
  unfold cc27_transform_0
  dsimp only
  refine congrArg BitVec.toNat (congrArg (tb 0 : S50000.Idx → BitVec 32) ?_)
  funext d
  match d with
  | ⟨0, _⟩ =>
    apply Fin.ext
    show (Scalar.indexCast (BitVec.ofNat 32 (grid27.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k27_pay1 x = x := by
  unfold k27_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v360 (ValueIdx.ix3 (Vals.rowOf ((tb 0 : S50000.Idx → BitVec 32) (ValueIdx.ix1 ⟨t.val, point_lt tb hO t⟩))) (y 1) (y 2)) := by
  show V c main_v360 ((((cfgM tb hO).win 0).blk t).view.emb y) = _
  refine congrArg (V c main_v360) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v360) (tb 0)) := by
  show ((cfgM tb hO).win 1).cut (grid27.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v360) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v361 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid27.N := by rw [N_27]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v360) (tb 0) :=
  (dat V tb hO c).arrAt_eq_of_cover 1 (Vals.gath3Of (V c main_v360) (tb 0)) (fun t _ => flushed_1 V tb hO htb c t)
    (cover_blk_1 tb hO)

end Cert.KernelIdeal.G27

end
-- ==== Proof.KI.S28.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S28

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (28 : Fin 33) c = G28.dat (Run.Ve28 m) (Run.tbl28 m) h.ok28 c := rfl

/-- On the one device the table's buffer holds the table. -/
theorem tbl_eq (c : Dev nD) : (fun k => Run.Ve28 m c (pre28.ref k)) = Run.tbl28 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec28 c (Run.Ve28 m c) : sProp 𝕄)
      = iprop(Pipeline.prefHeld (Ix := Unit) (Name := ℕ) (U := UR sig nD τ) (Lvl := ℕ) pre28 c (fun _ => fullShare) (Run.tbl28 m)
          ∗ Pipeline.unscopedRestP (Ix := Unit) (Name := ℕ) (U := UR sig nD τ) (Lvl := ℕ) pre28 spec28 c (Run.Ve28 m c)) := by
  have hs := Pipeline.unscopedRest_split (Ix := Unit) (Name := ℕ) (U := UR sig nD τ) (Lvl := ℕ) (Val := Elt F) (launch28 (F := F)).pre c (Run.Ve28 m c)
  rw [← tbl_eq m c]
  exact hs

/-- After the region each of its arrays holds what the pipeline leaves: the array read as entered, the output at the gathered rows. -/
theorem hF (harr : ∀ c : Dev nD, (G28.dat (Run.Ve28 m) (Run.tbl28 m) h.ok28 c).arrAt 1 (G28.cfgM (Run.tbl28 m) h.ok28).N = Vals.gath3 m 28 c)
    (c : Dev nD) (w : Fin (G28.cfgM (Run.tbl28 m) h.ok28).W) :
    (G28.dat (Run.Ve28 m) (Run.tbl28 m) h.ok28 c).arrAt w (G28.cfgM (Run.tbl28 m) h.ok28).N
      = GenP.V58 m (Vals.outs m) c (Pipeline.arrRef spec28 w) := by
  match w with
  | ⟨0, _⟩ =>
    refine ((G28.dat (Run.Ve28 m) (Run.tbl28 m) h.ok28 c).arrAt_in 0 rfl _).trans ((G28.A_eq (Run.Ve28 m) (Run.tbl28 m) h.ok28 c 0).trans ?_)
    exact (GenP.V58_of m (Vals.outs m) c main_v373 (by decide)).symm
  | ⟨1, _⟩ =>
    refine (harr c).trans ?_
    show Vals.gath3 m 28 c = Function.update (GenP.V57 m (Vals.outs m) c) main_v374 (Vals.outs m 58 main_v374 c) main_v374
    rw [Function.update_self, Vals.outs_28]

/-- and every other buffer what it held at entry. -/
theorem hrest (c : Dev nD) : ∀ b, b ∉ Finset.univ.image (Pipeline.arrRef spec28) →
    (fun b : Ref sig .tc => GenP.V58 m (Vals.outs m) c b) b = Run.Ve28 m c b := fun b hb =>
  GenP.V58_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G28.dat (Run.Ve28 m) (Run.tbl28 m) h.ok28 c).arrAt 1 (G28.cfgM (Run.tbl28 m) h.ok28).N = Vals.gath3 m 28 c) :
    Pipeline.RegionSeg (pcfgs (F := F)) (Run.a m h) (Run.pdats m h) () defs₀ Run.𝒱₀ Run.L Run.lv (28 : Fin 33) where
  win := (launch28 (F := F)).win.to₀
  block_pos := (launch28 (F := F)).block_pos
  stage_whole := (launch28 (F := F)).stage_whole
  K := PEmpty
  osem k := k.elim
  ho := Pipeline.OwnSemFacts.none _
  hbody c := (G28.body_obligation (Run.Ve28 m) (Run.tbl28 m) h.ok28 c).loose
  hwaits := Pipeline.hwaits_of_owed_zero _ _ _ _ Run.L Run.lv (28 : Fin 33) fun _ _ => rfl
  pre c := iprop(StableHlo.held (c : Thread nD τ) (Pipeline.ucRefs τ sig) (GenP.V57 m (Vals.outs m) c) ∗ Run.R c)
  post c := iprop(StableHlo.held (c : Thread nD τ) (Pipeline.ucRefs τ sig) (GenP.V58 m (Vals.outs m) c) ∗ Run.R c)
  X c := iprop(∃ r, prngReg c r)
  Y c := iprop((∃ r, prngReg c r) ∗ Pipeline.prefHeld (Ix := Unit) (Name := ℕ) (U := UR sig nD τ) (Lvl := ℕ) pre28 c (fun _ => fullShare) (Run.tbl28 m))
  Z c := Pipeline.unscopedRestP (Ix := Unit) (Name := ℕ) (U := UR sig nD τ) (Lvl := ℕ) pre28 spec28 c (Run.Ve28 m c)
  hentry c := by
    rw [Pipeline.ownSems0_none]
    have hsplit := Pipeline.arrays_of_unscopedBufs (p := (28 : Fin 33)) (pcfgs (F := F)) (Run.a m h) (Run.pdats m h) (launch28 (F := F)).win (launch28 (F := F)).arr_whole c
      ((Run.pdats m h (28 : Fin 33) c).share_full fun _ => rfl) (Run.Ve28 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (28 : Fin 33) c).Φ 0 = iprop(Pipeline.ΦA spec28 c ∗ Pipeline.prefHeld (Ix := Unit) (Name := ℕ) (U := UR sig nD τ) (Lvl := ℕ) pre28 c (fun _ => fullShare) (Run.tbl28 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (28 : Fin 33) c).Φ (Fin.last _) = iprop(Pipeline.ΦA spec28 c ∗ Pipeline.prefHeld (Ix := Unit) (Name := ℕ) (U := UR sig nD τ) (Lvl := ℕ) pre28 c (fun _ => fullShare) (Run.tbl28 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (28 : Fin 33)) (pcfgs (F := F)) (Run.a m h) (Ix := Unit) (Name := ℕ) (U := UR sig nD τ) (Lvl := ℕ)
      (launch28 (F := F)).win (launch28 (F := F)).arr_whole c (Run.pdats m h) ((Run.pdats m h (28 : Fin 33) c).share_full fun _ => rfl)
      (Run.Ve28 m c) (fun b => GenP.V58 m (Vals.outs m) c b) ((Run.pdats m h (28 : Fin 33) c).arrAt · (G28.cfgM (Run.tbl28 m) h.ok28).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S28

end
-- ==== Proof.KI.G28V.lean ====
/-
  What gather region 0 leaves in its output array: point t writes back row `tb[t]` of the array it reads as row t, the
  50000 rows tile the output, so the array ends as the gathered rows.
-/
import proofs.«406793_j90890097918585_2_alg».proof.Proof.KI.G28
import proofs.«406793_j90890097918585_2_alg».proof.Proof.KI.Vals
import Idealize.ShloMosaic.Lib.Pipeline.Value

set_option maxRecDepth 16384

noncomputable section

namespace Cert.KernelIdeal.G28

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre28.Contents (Elt F)) (hO : ok28 (F := F) tb)

/-! ## The two windows' block rows at a point -/

/-- A point of the grid is below 50000. -/
private theorem point_lt (t : Fin (cfgM tb hO).N) : t.val < 50000 := by
  have h : t.val < grid28.N := t.isLt
  rw [N_28] at h
  exact h

/-- The grid has one axis: the coordinate of point t is t. -/
private theorem coords_0 (t : Fin (cfgM tb hO).N) : (grid28.coords t 0).val = t.val := by
  have ht := point_lt tb hO t
  show t.val / grid28.stride 0 % grid28.bound 0 = t.val
  rw [show grid28.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc28_transform_1 (grid28.coords t) 0 = t.val
  unfold cc28_transform_1
  show (BitVec.ofNat 32 (grid28.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid28.N
  · exact Or.inl h
  · have hlt : t.val < grid28.N := t.isLt
    refine Or.inr ⟨by show t.val + 1 < grid28.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc28_transform_0 k28_off1_inb numel1_S1 tb (grid28.coords t) 0 = _
  unfold cc28_transform_0
  dsimp only
  refine congrArg BitVec.toNat (congrArg (tb 0 : S50000.Idx → BitVec 32) ?_)
  funext d
  match d with
  | ⟨0, _⟩ =>
    apply Fin.ext
    show (Scalar.indexCast (BitVec.ofNat 32 (grid28.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k28_pay1 x = x := by
  unfold k28_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v373 (ValueIdx.ix3 (Vals.rowOf ((tb 0 : S50000.Idx → BitVec 32) (ValueIdx.ix1 ⟨t.val, point_lt tb hO t⟩))) (y 1) (y 2)) := by
  show V c main_v373 ((((cfgM tb hO).win 0).blk t).view.emb y) = _
  refine congrArg (V c main_v373) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v373) (tb 0)) := by
  show ((cfgM tb hO).win 1).cut (grid28.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v373) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v374 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid28.N := by rw [N_28]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v373) (tb 0) :=
  (dat V tb hO c).arrAt_eq_of_cover 1 (Vals.gath3Of (V c main_v373) (tb 0)) (fun t _ => flushed_1 V tb hO htb c t)
    (cover_blk_1 tb hO)

end Cert.KernelIdeal.G28

end
-- ==== Proof.KI.S29.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S29

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (29 : Fin 33) c = G29.dat (Run.Ve29 m) (Run.tbl29 m) h.ok29 c := rfl

/-- On the one device the table's buffer holds the table. -/
theorem tbl_eq (c : Dev nD) : (fun k => Run.Ve29 m c (pre29.ref k)) = Run.tbl29 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec29 c (Run.Ve29 m c) : sProp 𝕄)
      = iprop(Pipeline.prefHeld (Ix := Unit) (Name := ℕ) (U := UR sig nD τ) (Lvl := ℕ) pre29 c (fun _ => fullShare) (Run.tbl29 m)
          ∗ Pipeline.unscopedRestP (Ix := Unit) (Name := ℕ) (U := UR sig nD τ) (Lvl := ℕ) pre29 spec29 c (Run.Ve29 m c)) := by
  have hs := Pipeline.unscopedRest_split (Ix := Unit) (Name := ℕ) (U := UR sig nD τ) (Lvl := ℕ) (Val := Elt F) (launch29 (F := F)).pre c (Run.Ve29 m c)
  rw [← tbl_eq m c]
  exact hs

/-- After the region each of its arrays holds what the pipeline leaves: the array read as entered, the output at the gathered rows. -/
theorem hF (harr : ∀ c : Dev nD, (G29.dat (Run.Ve29 m) (Run.tbl29 m) h.ok29 c).arrAt 1 (G29.cfgM (Run.tbl29 m) h.ok29).N = Vals.gath3 m 29 c)
    (c : Dev nD) (w : Fin (G29.cfgM (Run.tbl29 m) h.ok29).W) :
    (G29.dat (Run.Ve29 m) (Run.tbl29 m) h.ok29 c).arrAt w (G29.cfgM (Run.tbl29 m) h.ok29).N
      = GenP.V60 m (Vals.outs m) c (Pipeline.arrRef spec29 w) := by
  match w with
  | ⟨0, _⟩ =>
    refine ((G29.dat (Run.Ve29 m) (Run.tbl29 m) h.ok29 c).arrAt_in 0 rfl _).trans ((G29.A_eq (Run.Ve29 m) (Run.tbl29 m) h.ok29 c 0).trans ?_)
    exact (GenP.V60_of m (Vals.outs m) c main_v386 (by decide)).symm
  | ⟨1, _⟩ =>
    refine (harr c).trans ?_
    show Vals.gath3 m 29 c = Function.update (GenP.V59 m (Vals.outs m) c) main_v387 (Vals.outs m 60 main_v387 c) main_v387
    rw [Function.update_self, Vals.outs_29]

/-- and every other buffer what it held at entry. -/
theorem hrest (c : Dev nD) : ∀ b, b ∉ Finset.univ.image (Pipeline.arrRef spec29) →
    (fun b : Ref sig .tc => GenP.V60 m (Vals.outs m) c b) b = Run.Ve29 m c b := fun b hb =>
  GenP.V60_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G29.dat (Run.Ve29 m) (Run.tbl29 m) h.ok29 c).arrAt 1 (G29.cfgM (Run.tbl29 m) h.ok29).N = Vals.gath3 m 29 c) :
    Pipeline.RegionSeg (pcfgs (F := F)) (Run.a m h) (Run.pdats m h) () defs₀ Run.𝒱₀ Run.L Run.lv (29 : Fin 33) where
  win := (launch29 (F := F)).win.to₀
  block_pos := (launch29 (F := F)).block_pos
  stage_whole := (launch29 (F := F)).stage_whole
  K := PEmpty
  osem k := k.elim
  ho := Pipeline.OwnSemFacts.none _
  hbody c := (G29.body_obligation (Run.Ve29 m) (Run.tbl29 m) h.ok29 c).loose
  hwaits := Pipeline.hwaits_of_owed_zero _ _ _ _ Run.L Run.lv (29 : Fin 33) fun _ _ => rfl
  pre c := iprop(StableHlo.held (c : Thread nD τ) (Pipeline.ucRefs τ sig) (GenP.V59 m (Vals.outs m) c) ∗ Run.R c)
  post c := iprop(StableHlo.held (c : Thread nD τ) (Pipeline.ucRefs τ sig) (GenP.V60 m (Vals.outs m) c) ∗ Run.R c)
  X c := iprop(∃ r, prngReg c r)
  Y c := iprop((∃ r, prngReg c r) ∗ Pipeline.prefHeld (Ix := Unit) (Name := ℕ) (U := UR sig nD τ) (Lvl := ℕ) pre29 c (fun _ => fullShare) (Run.tbl29 m))
  Z c := Pipeline.unscopedRestP (Ix := Unit) (Name := ℕ) (U := UR sig nD τ) (Lvl := ℕ) pre29 spec29 c (Run.Ve29 m c)
  hentry c := by
    rw [Pipeline.ownSems0_none]
    have hsplit := Pipeline.arrays_of_unscopedBufs (p := (29 : Fin 33)) (pcfgs (F := F)) (Run.a m h) (Run.pdats m h) (launch29 (F := F)).win (launch29 (F := F)).arr_whole c
      ((Run.pdats m h (29 : Fin 33) c).share_full fun _ => rfl) (Run.Ve29 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (29 : Fin 33) c).Φ 0 = iprop(Pipeline.ΦA spec29 c ∗ Pipeline.prefHeld (Ix := Unit) (Name := ℕ) (U := UR sig nD τ) (Lvl := ℕ) pre29 c (fun _ => fullShare) (Run.tbl29 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (29 : Fin 33) c).Φ (Fin.last _) = iprop(Pipeline.ΦA spec29 c ∗ Pipeline.prefHeld (Ix := Unit) (Name := ℕ) (U := UR sig nD τ) (Lvl := ℕ) pre29 c (fun _ => fullShare) (Run.tbl29 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (29 : Fin 33)) (pcfgs (F := F)) (Run.a m h) (Ix := Unit) (Name := ℕ) (U := UR sig nD τ) (Lvl := ℕ)
      (launch29 (F := F)).win (launch29 (F := F)).arr_whole c (Run.pdats m h) ((Run.pdats m h (29 : Fin 33) c).share_full fun _ => rfl)
      (Run.Ve29 m c) (fun b => GenP.V60 m (Vals.outs m) c b) ((Run.pdats m h (29 : Fin 33) c).arrAt · (G29.cfgM (Run.tbl29 m) h.ok29).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S29

end
-- ==== Proof.KI.G29V.lean ====
/-
  What gather region 0 leaves in its output array: point t writes back row `tb[t]` of the array it reads as row t, the
  50000 rows tile the output, so the array ends as the gathered rows.
-/
import proofs.«406793_j90890097918585_2_alg».proof.Proof.KI.G29
import proofs.«406793_j90890097918585_2_alg».proof.Proof.KI.Vals
import Idealize.ShloMosaic.Lib.Pipeline.Value

set_option maxRecDepth 16384

noncomputable section

namespace Cert.KernelIdeal.G29

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre29.Contents (Elt F)) (hO : ok29 (F := F) tb)

/-! ## The two windows' block rows at a point -/

/-- A point of the grid is below 50000. -/
private theorem point_lt (t : Fin (cfgM tb hO).N) : t.val < 50000 := by
  have h : t.val < grid29.N := t.isLt
  rw [N_29] at h
  exact h

/-- The grid has one axis: the coordinate of point t is t. -/
private theorem coords_0 (t : Fin (cfgM tb hO).N) : (grid29.coords t 0).val = t.val := by
  have ht := point_lt tb hO t
  show t.val / grid29.stride 0 % grid29.bound 0 = t.val
  rw [show grid29.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc29_transform_1 (grid29.coords t) 0 = t.val
  unfold cc29_transform_1
  show (BitVec.ofNat 32 (grid29.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid29.N
  · exact Or.inl h
  · have hlt : t.val < grid29.N := t.isLt
    refine Or.inr ⟨by show t.val + 1 < grid29.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc29_transform_0 k29_off1_inb numel1_S1 tb (grid29.coords t) 0 = _
  unfold cc29_transform_0
  dsimp only
  refine congrArg BitVec.toNat (congrArg (tb 0 : S50000.Idx → BitVec 32) ?_)
  funext d
  match d with
  | ⟨0, _⟩ =>
    apply Fin.ext
    show (Scalar.indexCast (BitVec.ofNat 32 (grid29.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k29_pay1 x = x := by
  unfold k29_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v386 (ValueIdx.ix3 (Vals.rowOf ((tb 0 : S50000.Idx → BitVec 32) (ValueIdx.ix1 ⟨t.val, point_lt tb hO t⟩))) (y 1) (y 2)) := by
  show V c main_v386 ((((cfgM tb hO).win 0).blk t).view.emb y) = _
  refine congrArg (V c main_v386) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v386) (tb 0)) := by
  show ((cfgM tb hO).win 1).cut (grid29.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v386) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v387 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid29.N := by rw [N_29]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v386) (tb 0) :=
  (dat V tb hO c).arrAt_eq_of_cover 1 (Vals.gath3Of (V c main_v386) (tb 0)) (fun t _ => flushed_1 V tb hO htb c t)
    (cover_blk_1 tb hO)

end Cert.KernelIdeal.G29

end
-- ==== Proof.KI.S30.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S30

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (30 : Fin 33) c = G30.dat (Run.Ve30 m) (Run.tbl30 m) h.ok30 c := rfl

/-- On the one device the table's buffer holds the table. -/
theorem tbl_eq (c : Dev nD) : (fun k => Run.Ve30 m c (pre30.ref k)) = Run.tbl30 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec30 c (Run.Ve30 m c) : sProp 𝕄)
      = iprop(Pipeline.prefHeld (Ix := Unit) (Name := ℕ) (U := UR sig nD τ) (Lvl := ℕ) pre30 c (fun _ => fullShare) (Run.tbl30 m)
          ∗ Pipeline.unscopedRestP (Ix := Unit) (Name := ℕ) (U := UR sig nD τ) (Lvl := ℕ) pre30 spec30 c (Run.Ve30 m c)) := by
  have hs := Pipeline.unscopedRest_split (Ix := Unit) (Name := ℕ) (U := UR sig nD τ) (Lvl := ℕ) (Val := Elt F) (launch30 (F := F)).pre c (Run.Ve30 m c)
  rw [← tbl_eq m c]
  exact hs

/-- After the region each of its arrays holds what the pipeline leaves: the array read as entered, the output at the gathered rows. -/
theorem hF (harr : ∀ c : Dev nD, (G30.dat (Run.Ve30 m) (Run.tbl30 m) h.ok30 c).arrAt 1 (G30.cfgM (Run.tbl30 m) h.ok30).N = Vals.gath3 m 30 c)
    (c : Dev nD) (w : Fin (G30.cfgM (Run.tbl30 m) h.ok30).W) :
    (G30.dat (Run.Ve30 m) (Run.tbl30 m) h.ok30 c).arrAt w (G30.cfgM (Run.tbl30 m) h.ok30).N
      = GenP.V62 m (Vals.outs m) c (Pipeline.arrRef spec30 w) := by
  match w with
  | ⟨0, _⟩ =>
    refine ((G30.dat (Run.Ve30 m) (Run.tbl30 m) h.ok30 c).arrAt_in 0 rfl _).trans ((G30.A_eq (Run.Ve30 m) (Run.tbl30 m) h.ok30 c 0).trans ?_)
    exact (GenP.V62_of m (Vals.outs m) c main_v399 (by decide)).symm
  | ⟨1, _⟩ =>
    refine (harr c).trans ?_
    show Vals.gath3 m 30 c = Function.update (GenP.V61 m (Vals.outs m) c) main_v400 (Vals.outs m 62 main_v400 c) main_v400
    rw [Function.update_self, Vals.outs_30]

/-- and every other buffer what it held at entry. -/
theorem hrest (c : Dev nD) : ∀ b, b ∉ Finset.univ.image (Pipeline.arrRef spec30) →
    (fun b : Ref sig .tc => GenP.V62 m (Vals.outs m) c b) b = Run.Ve30 m c b := fun b hb =>
  GenP.V62_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G30.dat (Run.Ve30 m) (Run.tbl30 m) h.ok30 c).arrAt 1 (G30.cfgM (Run.tbl30 m) h.ok30).N = Vals.gath3 m 30 c) :
    Pipeline.RegionSeg (pcfgs (F := F)) (Run.a m h) (Run.pdats m h) () defs₀ Run.𝒱₀ Run.L Run.lv (30 : Fin 33) where
  win := (launch30 (F := F)).win.to₀
  block_pos := (launch30 (F := F)).block_pos
  stage_whole := (launch30 (F := F)).stage_whole
  K := PEmpty
  osem k := k.elim
  ho := Pipeline.OwnSemFacts.none _
  hbody c := (G30.body_obligation (Run.Ve30 m) (Run.tbl30 m) h.ok30 c).loose
  hwaits := Pipeline.hwaits_of_owed_zero _ _ _ _ Run.L Run.lv (30 : Fin 33) fun _ _ => rfl
  pre c := iprop(StableHlo.held (c : Thread nD τ) (Pipeline.ucRefs τ sig) (GenP.V61 m (Vals.outs m) c) ∗ Run.R c)
  post c := iprop(StableHlo.held (c : Thread nD τ) (Pipeline.ucRefs τ sig) (GenP.V62 m (Vals.outs m) c) ∗ Run.R c)
  X c := iprop(∃ r, prngReg c r)
  Y c := iprop((∃ r, prngReg c r) ∗ Pipeline.prefHeld (Ix := Unit) (Name := ℕ) (U := UR sig nD τ) (Lvl := ℕ) pre30 c (fun _ => fullShare) (Run.tbl30 m))
  Z c := Pipeline.unscopedRestP (Ix := Unit) (Name := ℕ) (U := UR sig nD τ) (Lvl := ℕ) pre30 spec30 c (Run.Ve30 m c)
  hentry c := by
    rw [Pipeline.ownSems0_none]
    have hsplit := Pipeline.arrays_of_unscopedBufs (p := (30 : Fin 33)) (pcfgs (F := F)) (Run.a m h) (Run.pdats m h) (launch30 (F := F)).win (launch30 (F := F)).arr_whole c
      ((Run.pdats m h (30 : Fin 33) c).share_full fun _ => rfl) (Run.Ve30 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (30 : Fin 33) c).Φ 0 = iprop(Pipeline.ΦA spec30 c ∗ Pipeline.prefHeld (Ix := Unit) (Name := ℕ) (U := UR sig nD τ) (Lvl := ℕ) pre30 c (fun _ => fullShare) (Run.tbl30 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (30 : Fin 33) c).Φ (Fin.last _) = iprop(Pipeline.ΦA spec30 c ∗ Pipeline.prefHeld (Ix := Unit) (Name := ℕ) (U := UR sig nD τ) (Lvl := ℕ) pre30 c (fun _ => fullShare) (Run.tbl30 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (30 : Fin 33)) (pcfgs (F := F)) (Run.a m h) (Ix := Unit) (Name := ℕ) (U := UR sig nD τ) (Lvl := ℕ)
      (launch30 (F := F)).win (launch30 (F := F)).arr_whole c (Run.pdats m h) ((Run.pdats m h (30 : Fin 33) c).share_full fun _ => rfl)
      (Run.Ve30 m c) (fun b => GenP.V62 m (Vals.outs m) c b) ((Run.pdats m h (30 : Fin 33) c).arrAt · (G30.cfgM (Run.tbl30 m) h.ok30).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S30

end
-- ==== Proof.KI.G30V.lean ====
/-
  What gather region 0 leaves in its output array: point t writes back row `tb[t]` of the array it reads as row t, the
  50000 rows tile the output, so the array ends as the gathered rows.
-/
import proofs.«406793_j90890097918585_2_alg».proof.Proof.KI.G30
import proofs.«406793_j90890097918585_2_alg».proof.Proof.KI.Vals
import Idealize.ShloMosaic.Lib.Pipeline.Value

set_option maxRecDepth 16384

noncomputable section

namespace Cert.KernelIdeal.G30

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre30.Contents (Elt F)) (hO : ok30 (F := F) tb)

/-! ## The two windows' block rows at a point -/

/-- A point of the grid is below 50000. -/
private theorem point_lt (t : Fin (cfgM tb hO).N) : t.val < 50000 := by
  have h : t.val < grid30.N := t.isLt
  rw [N_30] at h
  exact h

/-- The grid has one axis: the coordinate of point t is t. -/
private theorem coords_0 (t : Fin (cfgM tb hO).N) : (grid30.coords t 0).val = t.val := by
  have ht := point_lt tb hO t
  show t.val / grid30.stride 0 % grid30.bound 0 = t.val
  rw [show grid30.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc30_transform_1 (grid30.coords t) 0 = t.val
  unfold cc30_transform_1
  show (BitVec.ofNat 32 (grid30.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid30.N
  · exact Or.inl h
  · have hlt : t.val < grid30.N := t.isLt
    refine Or.inr ⟨by show t.val + 1 < grid30.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc30_transform_0 k30_off1_inb numel1_S1 tb (grid30.coords t) 0 = _
  unfold cc30_transform_0
  dsimp only
  refine congrArg BitVec.toNat (congrArg (tb 0 : S50000.Idx → BitVec 32) ?_)
  funext d
  match d with
  | ⟨0, _⟩ =>
    apply Fin.ext
    show (Scalar.indexCast (BitVec.ofNat 32 (grid30.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k30_pay1 x = x := by
  unfold k30_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v399 (ValueIdx.ix3 (Vals.rowOf ((tb 0 : S50000.Idx → BitVec 32) (ValueIdx.ix1 ⟨t.val, point_lt tb hO t⟩))) (y 1) (y 2)) := by
  show V c main_v399 ((((cfgM tb hO).win 0).blk t).view.emb y) = _
  refine congrArg (V c main_v399) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v399) (tb 0)) := by
  show ((cfgM tb hO).win 1).cut (grid30.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v399) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v400 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid30.N := by rw [N_30]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v399) (tb 0) :=
  (dat V tb hO c).arrAt_eq_of_cover 1 (Vals.gath3Of (V c main_v399) (tb 0)) (fun t _ => flushed_1 V tb hO htb c t)
    (cover_blk_1 tb hO)

end Cert.KernelIdeal.G30

end
-- ==== Proof.KI.S31.lean ====
/-
  Gather region 0 as an item of the program's run: entered from "every unscoped buffer at the contents before it, the
  generator register at some state, nothing owed", left at the contents after it (its output array at the gathered rows).
  At entry the region's two arrays and its index table are split out of the unscoped buffers; the table goes into the
  pipeline's invariant whole and comes back at the last point; at exit the arrays, the table and the rest are put back.
-/
import proofs.«406793_j90890097918585_2_alg».proof.Proof.KI.Data

set_option maxRecDepth 16384

noncomputable section

namespace Cert.KernelIdeal.S31

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region's proof data is region 0's at the entry contents and the table read off them. -/
theorem pdats_eq (c : Dev nD) : Run.pdats m h (31 : Fin 33) c = G31.dat (Run.Ve31 m) (Run.tbl31 m) h.ok31 c := rfl

/-- On the one device the table's buffer holds the table. -/
theorem tbl_eq (c : Dev nD) : (fun k => Run.Ve31 m c (pre31.ref k)) = Run.tbl31 m := by
  obtain rfl : c = 0 := Subsingleton.elim _ _
  rfl

/-- The unscoped buffers that are none of the region's arrays: its table, held whole at its contents, and the rest. -/
theorem rest_split (c : Dev nD) :
    (Pipeline.unscopedRest (Ix := Unit) (Name := ℕ) (U := UR sig nD τ) (Lvl := ℕ) spec31 c (Run.Ve31 m c) : sProp 𝕄)
      = iprop(Pipeline.prefHeld (Ix := Unit) (Name := ℕ) (U := UR sig nD τ) (Lvl := ℕ) pre31 c (fun _ => fullShare) (Run.tbl31 m)
          ∗ Pipeline.unscopedRestP (Ix := Unit) (Name := ℕ) (U := UR sig nD τ) (Lvl := ℕ) pre31 spec31 c (Run.Ve31 m c)) := by
  have hs := Pipeline.unscopedRest_split (Ix := Unit) (Name := ℕ) (U := UR sig nD τ) (Lvl := ℕ) (Val := Elt F) (launch31 (F := F)).pre c (Run.Ve31 m c)
  rw [← tbl_eq m c]
  exact hs

/-- After the region each of its arrays holds what the pipeline leaves: the array read as entered, the output at the gathered rows. -/
theorem hF (harr : ∀ c : Dev nD, (G31.dat (Run.Ve31 m) (Run.tbl31 m) h.ok31 c).arrAt 1 (G31.cfgM (Run.tbl31 m) h.ok31).N = Vals.gath3 m 31 c)
    (c : Dev nD) (w : Fin (G31.cfgM (Run.tbl31 m) h.ok31).W) :
    (G31.dat (Run.Ve31 m) (Run.tbl31 m) h.ok31 c).arrAt w (G31.cfgM (Run.tbl31 m) h.ok31).N
      = GenP.V64 m (Vals.outs m) c (Pipeline.arrRef spec31 w) := by
  match w with
  | ⟨0, _⟩ =>
    refine ((G31.dat (Run.Ve31 m) (Run.tbl31 m) h.ok31 c).arrAt_in 0 rfl _).trans ((G31.A_eq (Run.Ve31 m) (Run.tbl31 m) h.ok31 c 0).trans ?_)
    exact (GenP.V64_of m (Vals.outs m) c main_v412 (by decide)).symm
  | ⟨1, _⟩ =>
    refine (harr c).trans ?_
    show Vals.gath3 m 31 c = Function.update (GenP.V63 m (Vals.outs m) c) main_v413 (Vals.outs m 64 main_v413 c) main_v413
    rw [Function.update_self, Vals.outs_31]

/-- and every other buffer what it held at entry. -/
theorem hrest (c : Dev nD) : ∀ b, b ∉ Finset.univ.image (Pipeline.arrRef spec31) →
    (fun b : Ref sig .tc => GenP.V64 m (Vals.outs m) c b) b = Run.Ve31 m c b := fun b hb =>
  GenP.V64_of m (Vals.outs m) c b (by
    intro hmem
    rw [List.mem_singleton] at hmem
    exact hb (Finset.mem_image.mpr ⟨1, Finset.mem_univ _, hmem.symm⟩))

set_option maxHeartbeats 4000000 in
set_option backward.isDefEq.respectTransparency.types false in
/-- REGION 0 over the thread state. -/
def reg (harr : ∀ c : Dev nD, (G31.dat (Run.Ve31 m) (Run.tbl31 m) h.ok31 c).arrAt 1 (G31.cfgM (Run.tbl31 m) h.ok31).N = Vals.gath3 m 31 c) :
    Pipeline.RegionSeg (pcfgs (F := F)) (Run.a m h) (Run.pdats m h) () defs₀ Run.𝒱₀ Run.L Run.lv (31 : Fin 33) where
  win := (launch31 (F := F)).win.to₀
  block_pos := (launch31 (F := F)).block_pos
  stage_whole := (launch31 (F := F)).stage_whole
  K := PEmpty
  osem k := k.elim
  ho := Pipeline.OwnSemFacts.none _
  hbody c := (G31.body_obligation (Run.Ve31 m) (Run.tbl31 m) h.ok31 c).loose
  hwaits := Pipeline.hwaits_of_owed_zero _ _ _ _ Run.L Run.lv (31 : Fin 33) fun _ _ => rfl
  pre c := iprop(StableHlo.held (c : Thread nD τ) (Pipeline.ucRefs τ sig) (GenP.V63 m (Vals.outs m) c) ∗ Run.R c)
  post c := iprop(StableHlo.held (c : Thread nD τ) (Pipeline.ucRefs τ sig) (GenP.V64 m (Vals.outs m) c) ∗ Run.R c)
  X c := iprop(∃ r, prngReg c r)
  Y c := iprop((∃ r, prngReg c r) ∗ Pipeline.prefHeld (Ix := Unit) (Name := ℕ) (U := UR sig nD τ) (Lvl := ℕ) pre31 c (fun _ => fullShare) (Run.tbl31 m))
  Z c := Pipeline.unscopedRestP (Ix := Unit) (Name := ℕ) (U := UR sig nD τ) (Lvl := ℕ) pre31 spec31 c (Run.Ve31 m c)
  hentry c := by
    rw [Pipeline.ownSems0_none]
    have hsplit := Pipeline.arrays_of_unscopedBufs (p := (31 : Fin 33)) (pcfgs (F := F)) (Run.a m h) (Run.pdats m h) (launch31 (F := F)).win (launch31 (F := F)).arr_whole c
      ((Run.pdats m h (31 : Fin 33) c).share_full fun _ => rfl) (Run.Ve31 m c) fun _ => rfl
    rw [Pipeline.unscopedBufs_held] at hsplit
    have hpf := rest_split m c
    iintro ⟨⟨Hub, Hp, HO⟩, -, -⟩
    ihave H := hsplit $$ Hub
    icases H with ⟨Ha, Hrest⟩
    ihave Hrest' := (Entails.of_eq hpf) $$ Hrest
    icases Hrest' with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (31 : Fin 33) c).Φ 0 = iprop(Pipeline.ΦA spec31 c ∗ Pipeline.prefHeld (Ix := Unit) (Name := ℕ) (U := UR sig nD τ) (Lvl := ℕ) pre31 c (fun _ => fullShare) (Run.tbl31 m)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (Run.pdats m h (31 : Fin 33) c).Φ (Fin.last _) = iprop(Pipeline.ΦA spec31 c ∗ Pipeline.prefHeld (Ix := Unit) (Name := ℕ) (U := UR sig nD τ) (Lvl := ℕ) pre31 c (fun _ => fullShare) (Run.tbl31 m)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := (31 : Fin 33)) (pcfgs (F := F)) (Run.a m h) (Ix := Unit) (Name := ℕ) (U := UR sig nD τ) (Lvl := ℕ)
      (launch31 (F := F)).win (launch31 (F := F)).arr_whole c (Run.pdats m h) ((Run.pdats m h (31 : Fin 33) c).share_full fun _ => rfl)
      (Run.Ve31 m c) (fun b => GenP.V64 m (Vals.outs m) c b) ((Run.pdats m h (31 : Fin 33) c).arrAt · (G31.cfgM (Run.tbl31 m) h.ok31).N) (hF m h harr c) (hrest m c)
    rw [Pipeline.unscopedBufs_held] at hjoin
    have hpf := rest_split m c
    iintro ⟨Ha, HO, ⟨HY, Hpf⟩, Hrest⟩
    imodintro
    isplitl [Ha Hpf Hrest]
    · iapply hjoin
      isplitl [Ha]; · iexact Ha
      iapply (Entails.of_eq hpf.symm)
      isplitl [Hpf]; · iexact Hpf
      iexact Hrest
    isplitl [HY]; · iexact HY
    unfold Pipeline.Dat.owesAt Pipeline.owesWithin
    icases HO with ⟨%W, -, HO⟩; iexists W; iexact HO

end Cert.KernelIdeal.S31

end
-- ==== Proof.KI.G31V.lean ====
/-
  What gather region 0 leaves in its output array: point t writes back row `tb[t]` of the array it reads as row t, the
  50000 rows tile the output, so the array ends as the gathered rows.
-/
import proofs.«406793_j90890097918585_2_alg».proof.Proof.KI.G31
import proofs.«406793_j90890097918585_2_alg».proof.Proof.KI.Vals
import Idealize.ShloMosaic.Lib.Pipeline.Value

set_option maxRecDepth 16384

noncomputable section

namespace Cert.KernelIdeal.G31

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))
variable (tb : pre31.Contents (Elt F)) (hO : ok31 (F := F) tb)

/-! ## The two windows' block rows at a point -/

/-- A point of the grid is below 50000. -/
private theorem point_lt (t : Fin (cfgM tb hO).N) : t.val < 50000 := by
  have h : t.val < grid31.N := t.isLt
  rw [N_31] at h
  exact h

/-- The grid has one axis: the coordinate of point t is t. -/
private theorem coords_0 (t : Fin (cfgM tb hO).N) : (grid31.coords t 0).val = t.val := by
  have ht := point_lt tb hO t
  show t.val / grid31.stride 0 % grid31.bound 0 = t.val
  rw [show grid31.stride 0 = 1 from by decide]
  show t.val / 1 % 50000 = t.val
  omega

/-- The output window's block row at point t is t. -/
private theorem index_1_0 (t : Fin (cfgM tb hO).N) : ((cfgM tb hO).win 1).index t (0 : Fin 3) = t.val := by
  have ht := point_lt tb hO t
  show cc31_transform_1 (grid31.coords t) 0 = t.val
  unfold cc31_transform_1
  show (BitVec.ofNat 32 (grid31.coords t 0).val).toNat = t.val
  rw [coords_0 tb hO t, BitVec.toNat_ofNat]
  omega

/-- The output window is written back at every point: consecutive points have different block rows. -/
theorem flush_1 (t : Fin (cfgM tb hO).N) : ((cfgM tb hO).win 1).flush t = true := by
  have hout : ((cfgM tb hO).win 1).isOut = true := rfl
  unfold Window.flush
  rw [hout, Bool.true_and, Bool.or_eq_true, decide_eq_true_eq, decide_eq_true_eq]
  by_cases h : t.val + 1 = grid31.N
  · exact Or.inl h
  · have hlt : t.val < grid31.N := t.isLt
    refine Or.inr ⟨by show t.val + 1 < grid31.N; omega, fun e => ?_⟩
    have e0 := congrFun e (0 : Fin 3)
    rw [index_1_0, index_1_0] at e0
    simp at e0

/-- The input window's block row at point t is the table's word at t. -/
private theorem index_0_0 (t : Fin (cfgM tb hO).N) : ((cfgM tb hO).win 0).index t (0 : Fin 3)
    = ((tb 0 : S50000.Idx → BitVec 32) (ValueIdx.ix1 ⟨t.val, point_lt tb hO t⟩)).toNat := by
  have ht := point_lt tb hO t
  show cc31_transform_0 k31_off1_inb numel1_S1 tb (grid31.coords t) 0 = _
  unfold cc31_transform_0
  dsimp only
  refine congrArg BitVec.toNat (congrArg (tb 0 : S50000.Idx → BitVec 32) ?_)
  funext d
  match d with
  | ⟨0, _⟩ =>
    apply Fin.ext
    show (Scalar.indexCast (BitVec.ofNat 32 (grid31.coords t 0).val)).toNat + 1 * 0 = t.val
    unfold Scalar.indexCast
    rw [coords_0 tb hO t, BitVec.toNat_ofNat]
    omega

/-! ## What a point writes back -/

private theorem zero3 : (![0, 0, 0] : Fin 3 → Nat) = fun _ => 0 := funext fun a => by fin_cases a <;> rfl

/-- The body's payload is the block it loaded. -/
private theorem pay1_eq (x : Vec F S1x1x128 .f32) : k31_pay1 x = x := by
  unfold k31_pay1
  exact shapeCast_self x _

/-- The input window's block at point t, read at an index: the row of the array the table's word at t names. -/
private theorem read_0 (htb : ∀ i : S50000.Idx, ((tb 0 : S50000.Idx → BitVec 32) i).toNat < 100000) (c : Dev nD)
    (t : Fin (cfgM tb hO).N) (y : S1x1x128.Idx) :
    iblk V tb hO c 0 t y
      = V c main_v412 (ValueIdx.ix3 (Vals.rowOf ((tb 0 : S50000.Idx → BitVec 32) (ValueIdx.ix1 ⟨t.val, point_lt tb hO t⟩))) (y 1) (y 2)) := by
  show V c main_v412 ((((cfgM tb hO).win 0).blk t).view.emb y) = _
  refine congrArg (V c main_v412) ?_
  funext a
  apply Fin.ext
  match a with
  | ⟨0, _⟩ =>
    show ((cfgM tb hO).win 0).index t (0 : Fin 3) * 1 + 1 * (y 0).val
      = min ((tb 0 : S50000.Idx → BitVec 32) (ValueIdx.ix1 ⟨t.val, point_lt tb hO t⟩)).toNat 99999
    rw [index_0_0]
    have h0 : (y 0).val < 1 := (y 0).isLt
    have h1 := htb (ValueIdx.ix1 ⟨t.val, point_lt tb hO t⟩)
    omega
  | ⟨1, _⟩ => show 0 * 1 + 1 * (y 1).val = (y 1).val; omega
  | ⟨2, _⟩ => show 0 * 128 + 1 * (y 2).val = (y 2).val; omega

/-- The output window's block at point t, read at an index: row t of the array. -/
private theorem read_1 (G : FVec F S50000x1x128 .f32) (t : Fin (cfgM tb hO).N) (y : S1x1x128.Idx) :
    (((cfgM tb hO).win 1).blk t).view.read (Elt F) G y = G (ValueIdx.ix3 ⟨t.val, point_lt tb hO t⟩ (y 1) (y 2)) := by
  show G ((((cfgM tb hO).win 1).blk t).view.emb y) = _
  refine congrArg G ?_
  funext a
  apply Fin.ext
  match a with
  | ⟨0, _⟩ =>
    show ((cfgM tb hO).win 1).index t (0 : Fin 3) * 1 + 1 * (y 0).val = t.val
    rw [index_1_0]
    have h0 : (y 0).val < 1 := (y 0).isLt
    omega
  | ⟨1, _⟩ => show 0 * 1 + 1 * (y 1).val = (y 1).val; omega
  | ⟨2, _⟩ => show 0 * 128 + 1 * (y 2).val = (y 2).val; omega

/-- What the body leaves in the output's staging buffer is the block it read. -/
private theorem out_1_eq (x0 : Vec F S1x1x128 .f32) : out_1 x0 = x0 := by
  unfold out_1
  rw [View.canon_unit_zero zero3, pay1_eq]
  exact View.ld_unit_zero zero3 _ _

/-- What point t writes back is block t of the gathered rows. -/
private theorem flushed_1 (htb : ∀ i : S50000.Idx, ((tb 0 : S50000.Idx → BitVec 32) i).toNat < 100000) (c : Dev nD)
    (t : Fin (cfgM tb hO).N) :
    (dat V tb hO c).flushed 1 t
      = (((cfgM tb hO).win 1).blk t).view.read (Elt F) (Vals.gath3Of (V c main_v412) (tb 0)) := by
  show ((cfgM tb hO).win 1).cut (grid31.coords t) ((dat V tb hO c).after 1 t) = _
  rw [after_1]
  funext j
  refine (congrFun (out_1_eq (iblk V tb hO c 0 t)) j).trans ?_
  refine (read_0 V tb hO htb c t j).trans ?_
  refine Eq.trans ?_ (read_1 tb hO (Vals.gath3Of (V c main_v412) (tb 0)) t j).symm
  rfl

/-! ## The blocks tile the output array -/

/-- An index of the output array is in point t's block iff each coordinate is in the block's range on its axis. -/
private theorem mem_blk_1 (t : Fin (cfgM tb hO).N) (i : S50000x1x128.Idx) :
    i ∈ (((cfgM tb hO).win 1).blk t).view.set
      ↔ ∀ a : Fin 3, ((cfgM tb hO).win 1).index t a * S1x1x128.size a ≤ (i a).val
          ∧ (i a).val < ((cfgM tb hO).win 1).index t a * S1x1x128.size a + S1x1x128.size a := by
  have e : (((cfgM tb hO).win 1).blk t).view.set = (((cfgM tb hO).win 1).rect t).set :=
    View.set_slice_whole main_v413 (((cfgM tb hO).win 1).rect t)
  refine (Eq.to_iff (congrArg (fun s => i ∈ s) e)).trans ?_
  exact Rect.mem_set_unit

/-- Every index of the output array is in the block of the point its row names, which is written back. -/
private theorem cover_blk_1 (i : S50000x1x128.Idx) :
    ∃ t : Fin (cfgM tb hO).N, ((cfgM tb hO).win 1).flush t = true ∧ i ∈ (((cfgM tb hO).win 1).blk t).view.set := by
  have h0 : (i 0).val < 50000 := (i 0).isLt
  have h1 : (i 1).val < 1 := (i 1).isLt
  have h2 : (i 2).val < 128 := (i 2).isLt
  have hN : (i 0).val < grid31.N := by rw [N_31]; exact h0
  refine ⟨⟨(i 0).val, hN⟩, flush_1 tb hO _, ?_⟩
  rw [mem_blk_1]
  intro a
  match a with
  | ⟨0, _⟩ =>
    show ((cfgM tb hO).win 1).index ⟨(i 0).val, hN⟩ (0 : Fin 3) * 1 ≤ (i 0).val
      ∧ (i 0).val < ((cfgM tb hO).win 1).index ⟨(i 0).val, hN⟩ (0 : Fin 3) * 1 + 1
    rw [index_1_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- After the 50000 points the output array holds the gathered rows of the array the region reads. -/
theorem arrAt_1 (htb : ∀ i : S50000.Idx, ((tb 0 : S50000.Idx → BitVec 32) i).toNat < 100000) (c : Dev nD) :
    (dat V tb hO c).arrAt 1 (cfgM tb hO).N = Vals.gath3Of (V c main_v412) (tb 0) :=
  (dat V tb hO c).arrAt_eq_of_cover 1 (Vals.gath3Of (V c main_v412) (tb 0)) (fun t _ => flushed_1 V tb hO htb c t)
    (cover_blk_1 tb hO)

end Cert.KernelIdeal.G31

end
-- ==== Proof.KI.MM.lean ====
/-
  The last kernel region (the mean and matrix product), at any contents `V` of the buffers when it is entered: the grid
  has 100 points; at point t the sums' window holds rows 1000t … 1000t + 999 of the [100000, 128] array, the counts'
  window the same rows of the [100000, 1] column, the weights' window the whole [128, 128] array (brought in at the
  first point only), and the body stores into the result's window the rows divided by max(count, 1) and multiplied by
  the weights. Proved here, over the definitions of the companion module: each input window's staging buffer holds its
  block at every point, the body's triple, the body obligation at every point, and what the region leaves in the result
  array as one function of the three arrays it reads.
-/
import proofs.«406793_j90890097918585_2_alg».proof.Proof.KI.MM0
import proofs.«406793_j90890097918585_2_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.KernelIdeal.MM

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Each input window's current staging buffer holds its block at every point, fetched there or not, for any proof
    data whose array is `V`'s and whose body leaves the block in place. -/
theorem before_0_of {c : Dev nD} (dat : Dat τ (Elt F) Unit ℕ (UR sig nD τ) ℕ cfg32 c)
    (hA : dat.A 0 = V c (Pipeline.arrRef spec32 0)) (hafter : ∀ t, dat.after 0 t = iblk V c 0 t)
    (t : Fin cfg32.N) (d) : dat.before 0 t d = iblk V c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg32 c)
    (hA : dat.A 1 = V c (Pipeline.arrRef spec32 1)) (hafter : ∀ t, dat.after 1 t = iblk V c 1 t)
    (t : Fin cfg32.N) (d) : dat.before 1 t d = iblk V c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg32 c)
    (hA : dat.A 2 = V c (Pipeline.arrRef spec32 2)) (hafter : ∀ t, dat.after 2 t = iblk V c 2 t)
    (t : Fin cfg32.N) (d) : dat.before 2 t d = iblk V c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)

theorem cover_3 (p0 : Vec F S1000x128 .f32) (y : S1000x128.Idx) :
    ∃ pc ∈ ([⟨rS, p0⟩] : List (View.Piece (Elt F) S1000x128 .f32)), y ∈ pc.1.set :=
  View.cover_of_tiled [⟨rS, p0⟩] S1000x128.size (by rfl) y

set_option maxHeartbeats 1000000 in
/-- The body on whole staging memrefs: the three inputs' at `x0`, `x1`, `x2` and the result's at anything run to
    the inputs' as they were and the result's at `out_3 x0 x1 x2`. -/
theorem sound_kernel (c : Dev nD) (E : Set ℕ) (i : grid32.Coords)
    (arg1 : Memref sig .tc .vmem S1000x128 .f32) (harg1 : arg1.IsWhole) (arg2 : Memref sig .tc .vmem S1000x1 .f32) (harg2 : arg2.IsWhole)
    (arg3 : Memref sig .tc .vmem S128x128 .f32) (harg3 : arg3.IsWhole) (arg4 : Memref sig .tc .vmem S1000x128 .f32) (harg4 : arg4.IsWhole)
    (x0 : Vec F S1000x128 .f32) (x1 : Vec F S1000x1 .f32) (x2 : Vec F S128x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out_3 x0 x1 x2)) -∗ K ⟨⟩))
      ⊢ wp frame (wpE (defs₀ (F := F)) Variants.none c none) E (cc32__mean_matmul_kernel i arg1 harg1 arg2 harg2 arg3 harg3 arg4 harg4) K := by
  simp only [cc32__mean_matmul_kernel_eq_skeleton]; unfold cc32__mean_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_3 _)

theorem before_0 (c : Dev nD) (t : Fin cfg32.N) (d) : (dat V c).before 0 t d = iblk V c 0 t :=
  before_0_of V (dat V c) (A_eq V c 0) (after_0 V c) t d
theorem before_1 (c : Dev nD) (t : Fin cfg32.N) (d) : (dat V c).before 1 t d = iblk V c 1 t :=
  before_1_of V (dat V c) (A_eq V c 1) (after_1 V c) t d
theorem before_2 (c : Dev nD) (t : Fin cfg32.N) (d) : (dat V c).before 2 t d = iblk V c 2 t :=
  before_2_of V (dat V c) (A_eq V c 2) (after_2 V c) t d

/-- What the body is called with at point `t`, -/
def bodyPre (c : Dev nD) (t : Fin cfg32.N) : sProp 𝕄 :=
  iprop((dat V c).Φ t.castSucc ∗ (dat V c).owesAt () t.castSucc
    ∗ (∃ d, owns (c : Thread nD τ) (st32_0 t) fullShare ((dat V c).before 0 t d))
    ∗ (∃ d, owns (c : Thread nD τ) (st32_1 t) fullShare ((dat V c).before 1 t d))
    ∗ (∃ d, owns (c : Thread nD τ) (st32_2 t) fullShare ((dat V c).before 2 t d))
    ∗ (∃ d, owns (c : Thread nD τ) (st32_3 t) fullShare ((dat V c).before 3 t d)))
/-- and what it returns. -/
def bodyPost (c : Dev nD) (t : Fin cfg32.N) : sProp 𝕄 :=
  iprop((dat V c).Φ t.succ ∗ (dat V c).owesAt () t.succ
    ∗ owns (c : Thread nD τ) (st32_0 t) fullShare ((dat V c).after 0 t)
    ∗ owns (c : Thread nD τ) (st32_1 t) fullShare ((dat V c).after 1 t)
    ∗ owns (c : Thread nD τ) (st32_2 t) fullShare ((dat V c).after 2 t)
    ∗ owns (c : Thread nD τ) (st32_3 t) fullShare ((dat V c).after 3 t))

/-- The body at any point: the inputs' memrefs hold their blocks, so the body's triple applies; the invariant and the
    core's dues pass through unread. -/
theorem sound_body (c : Dev nD) (t : Fin cfg32.N) :
    bodyPre V c t ⊢ wp frame (wpE (defs₀ (F := F)) Variants.none c none) Set.univ (bodyAt32 t) (fun _ => bodyPost V c t) := by
  unfold bodyPre bodyPost bodyAt32
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W32, bigSep_W32]
  exact sound_body V c t

/-! ## From blocks to the array -/

theorem hz : (![0, 0] : Fin 2 → Nat) = fun _ => 0 := funext fun a => by fin_cases a <;> rfl

/-- The printed index maps, decided over the grid: the sums', the counts' and the result's windows are at block row t,
    the weights' at the one block. -/
theorem idx_facts : ∀ t : Fin cfg32.N, win32_0.index t (0 : Fin 2) = t.val ∧ win32_0.index t (1 : Fin 2) = 0
    ∧ win32_1.index t (0 : Fin 2) = t.val ∧ win32_1.index t (1 : Fin 2) = 0
    ∧ win32_2.index t (0 : Fin 2) = 0 ∧ win32_2.index t (1 : Fin 2) = 0
    ∧ win32_3.index t (0 : Fin 2) = t.val ∧ win32_3.index t (1 : Fin 2) = 0 :=
  (by decide +kernel : ∀ t : Fin grid32.N, _)

/-- A grid point as a number below 100. -/
abbrev pt (t : Fin cfg32.N) : Fin 100 := ⟨t.val, lt_of_lt_of_eq t.isLt N_32⟩

set_option maxHeartbeats 50000 in
/-- The sums' block at point t is rows 1000t … 1000t + 999 of the array. -/
theorem iblk_0 (c : Dev nD) (t : Fin cfg32.N) :
    (iblk V c 0 t : Vec F S1000x128 .f32) = Vals.rows2 (V c main_v418 : FVec F S100000x128 .f32) (pt t) := by
  obtain ⟨e0, e1, -⟩ := idx_facts t
  funext y
  unfold iblk Vals.rows2
  rw [View.read_apply]
  show V c main_v418 (((cfg32.win 0).blk t).view.emb y) = V c main_v418 _
  congr 1
  funext a; apply Fin.ext
  match a with
  | ⟨0, _⟩ => show win32_0.index t (0 : Fin 2) * 1000 + 1 * (y 0).val = 1000 * t.val + (y 0).val; rw [e0]; omega
  | ⟨1, _⟩ => show win32_0.index t (1 : Fin 2) * 128 + 1 * (y 1).val = (y 1).val; rw [e1]; omega

set_option maxHeartbeats 50000 in
/-- The counts' block at point t is rows 1000t … 1000t + 999 of the column. -/
theorem iblk_1 (c : Dev nD) (t : Fin cfg32.N) :
    (iblk V c 1 t : Vec F S1000x1 .f32) = Vals.rows1 (V c main_v423 : FVec F S100000x1 .f32) (pt t) := by
  obtain ⟨-, -, e0, e1, -⟩ := idx_facts t
  funext y
  unfold iblk Vals.rows1
  rw [View.read_apply]
  show V c main_v423 (((cfg32.win 1).blk t).view.emb y) = V c main_v423 _
  congr 1
  funext a; apply Fin.ext
  match a with
  | ⟨0, _⟩ => show win32_1.index t (0 : Fin 2) * 1000 + 1 * (y 0).val = 1000 * t.val + (y 0).val; rw [e0]; omega
  | ⟨1, _⟩ => show win32_1.index t (1 : Fin 2) * 1 + 1 * (y 1).val = (y 1).val; rw [e1]; omega

set_option maxHeartbeats 50000 in
/-- The weights' block at every point is the whole array. -/
theorem iblk_2 (c : Dev nD) (t : Fin cfg32.N) :
    (iblk V c 2 t : Vec F S128x128 .f32) = (V c main_arg2 : FVec F S128x128 .f32) := by
  obtain ⟨-, -, -, -, e0, e1, -⟩ := idx_facts t
  funext y
  unfold iblk
  rw [View.read_apply]
  show V c main_arg2 (((cfg32.win 2).blk t).view.emb y) = V c main_arg2 y
  congr 1
  funext a; apply Fin.ext
  match a with
  | ⟨0, _⟩ => show win32_2.index t (0 : Fin 2) * 128 + 1 * (y 0).val = (y 0).val; rw [e0]; omega
  | ⟨1, _⟩ => show win32_2.index t (1 : Fin 2) * 128 + 1 * (y 1).val = (y 1).val; rw [e1]; omega

set_option maxHeartbeats 50000 in
/-- The result function at row 1000t + r is the body's payload of block t of the counts, block t of the sums and the
    weights, at row r. -/
theorem outOf_apply (D : FVec F S100000x1 .f32) (A : FVec F S100000x128 .f32) (W : FVec F S128x128 .f32)
    (i : S100000x128.Idx) (t : Fin 100) (j : S1000x128.Idx)
    (h0 : (i 0).val = 1000 * t.val + (j 0).val) (h1 : (i 1).val = (j 1).val) :
    Vals.outOf D A W i = k32_pay1 (Vals.rows1 D t) (Vals.rows2 A t) W j := by
  have hj : (j 0).val < 1000 := ValueIdx.idx2_lt0 j
  have ht : (⟨(i 0).val / 1000, by have := ValueIdx.idx2_lt0 i; omega⟩ : Fin 100) = t :=
    Fin.ext (by show (i 0).val / 1000 = t.val; omega)
  have hy : (ValueIdx.ix2 (⟨(i 0).val % 1000, Nat.mod_lt _ (by decide)⟩ : Fin 1000) (i 1) : S1000x128.Idx) = j := by
    funext a
    match a with
    | ⟨0, _⟩ => exact Fin.ext (show (i 0).val % 1000 = (j 0).val by omega)
    | ⟨1, _⟩ => exact Fin.ext h1
  unfold Vals.outOf
  rw [ht, hy]

set_option maxHeartbeats 200000 in
/-- What point t writes back is block t of the result function of the three arrays as the region finds them. -/
theorem flushed_eq (c : Dev nD) (t : Fin cfg32.N) :
    (dat V c).flushed 3 t = ((cfg32.win 3).blk t).view.read (Elt F)
      (Vals.outOf (V c main_v423 : FVec F S100000x1 .f32) (V c main_v418 : FVec F S100000x128 .f32) (V c main_arg2 : FVec F S128x128 .f32)) := by
  show (cfg32.win 3).cut (grid32.coords t) ((dat V c).after 3 t) = _
  rw [after_3]
  unfold out_3
  rw [View.canon_unit_zero hz]
  simp only [View.ld_unit_zero (S := S1000x128) hz, View.ld_unit_zero (S := S1000x1) hz, View.ld_unit_zero (S := S128x128) hz]
  rw [iblk_0, iblk_1, iblk_2]
  obtain ⟨-, -, -, -, -, -, e0, e1⟩ := idx_facts t
  funext j
  rw [View.read_apply]
  refine (outOf_apply _ _ _ _ (pt t) j ?_ ?_).symm
  · show win32_3.index t (0 : Fin 2) * 1000 + 1 * (j 0).val = 1000 * t.val + (j 0).val; rw [e0]; omega
  · show win32_3.index t (1 : Fin 2) * 128 + 1 * (j 1).val = (j 1).val; rw [e1]; omega

/-- An index of the result array is in point t's block iff each coordinate is in the block's range on its axis. -/
theorem mem_blk (t : Fin cfg32.N) (i : S100000x128.Idx) :
    i ∈ ((cfg32.win 3).blk t).view.set ↔ ∀ a : Fin 2, win32_3.index t a * S1000x128.size a ≤ (i a).val ∧ (i a).val < win32_3.index t a * S1000x128.size a + S1000x128.size a := by
  show i ∈ ((View.whole main_v424).slice (win32_3.rect t)).set ↔ _
  rw [View.set_slice_whole, Rect.mem_set_unit]
  exact Iff.rfl

/-- Every row of the result array is in the block of the point its thousand names. -/
theorem covered (i : S100000x128.Idx) :
    ∃ t : Fin cfg32.N, (cfg32.win 3).flush t = true ∧ i ∈ ((cfg32.win 3).blk t).view.set := by
  have hi0 : (i 0).val < 100000 := ValueIdx.idx2_lt0 i
  have hi1 : (i 1).val < 128 := ValueIdx.idx2_lt1 i
  have hN : cfg32.N = 100 := N_32
  let t : Fin cfg32.N := ⟨(i 0).val / 1000, by rw [hN]; omega⟩
  obtain ⟨-, -, -, -, -, -, e0, e1⟩ := idx_facts t
  have ev : t.val = (i 0).val / 1000 := rfl
  refine ⟨t, flush32_3 t, ?_⟩
  rw [mem_blk]
  intro a
  match a with
  | ⟨0, _⟩ => show win32_3.index t (0 : Fin 2) * 1000 ≤ (i 0).val ∧ (i 0).val < win32_3.index t (0 : Fin 2) * 1000 + 1000; rw [e0, ev]; omega
  | ⟨1, _⟩ => show win32_3.index t (1 : Fin 2) * 128 ≤ (i 1).val ∧ (i 1).val < win32_3.index t (1 : Fin 2) * 128 + 128; rw [e1]; omega

/-- what the region leaves in the result array: the function `Vals.outOf` of the three arrays it reads -/
theorem arrAt_3 (c : Dev nD) : (dat V c).arrAt 3 cfg32.N = Vals.outOf (V c main_v423) (V c main_v418) (V c main_arg2) :=
  (dat V c).arrAt_eq_of_cover 3 _ (fun t _ => flushed_eq V c t) covered

end Cert.KernelIdeal.MM

end
-- ==== Proof.KI.Inv.lean ====
/-
  What the host stretches compute, boundary by boundary. The program's 33 kernel regions lie among 33 host stretches; between
  two items core `c`'s arrays are the valuations `GenP.V1 … GenP.V66`. At the entry of gather region p (boundary 2p+1, p = 0 … 31)
  the arrays hold: the two rows of the edge list (`Vals.src`, `Vals.dst`), the constant ones, the features `Vals.X` and the weights
  `Vals.Wt` (never written), the sum of the first p chunks' gathered rows `Vals.agg m p c`, the edge counts of the first p chunks
  `Vals.deg m p c`, chunk p's table `Vals.dstc m p c` and targets `Vals.srcc m p c`, and the features as [100000, 1, 128], `Vals.X3`.
  Region p changes only its output array, to `Vals.gath3 m p c`; the stretch after it adds that chunk into the sum and the counts
  and cuts the next chunk out of the edge list, which is the invariant at p+1. The last stretch adds chunk 31 and lays the counts out
  as a column, what the last region reads.
-/
import proofs.«406793_j90890097918585_2_alg».proof.Proof.KI.Regions
import proofs.«406793_j90890097918585_2_alg».proof.Proof.KI.Vals
import proofs.«406793_j90890097918585_2_alg».proof.Proof.KI.Outs
import Idealize.ShloMosaic.Lib.StableHlo.Run

-- decided memberships in the stretches' lists of written references recurse past the default depth
set_option maxRecDepth 3032

noncomputable section

namespace Cert.KernelIdeal.Inv

open Cert.KernelIdeal Cert.KernelIdeal.GenP
open Idealize.ShloMosaic Idealize.ShloMosaic.TcCoe Idealize.SL.Sem

variable {F : FTy → Type} [FloatOps F]
variable (m : (ℓ : Loc nD τ sig) → Buf (Elt F) ℓ)

/-! ## Boundary 1: after the first host stretch, which cuts the edge list into its rows, makes the zero sums and counts and the ones, and cuts chunk 0 -/

theorem src_0 (c : Dev nD) : (GenP.V1 m c main_v1 : S1600000.Idx → BitVec 32) = Vals.src m c := by
  show StableHlo.after Gen.hostOps0 _ (Proc.devRef .tc main_v1) = _
  after_results_simp
  rfl

theorem dst_0 (c : Dev nD) : (GenP.V1 m c main_v3 : S1600000.Idx → BitVec 32) = Vals.dst m c := by
  show StableHlo.after Gen.hostOps0 _ (Proc.devRef .tc main_v3) = _
  after_results_simp
  rfl

theorem ones_0 (c : Dev nD) : (GenP.V1 m c main_v6 : FVec F S50000 .f32) = Vals.ones := by
  show StableHlo.after Gen.hostOps0 _ (Proc.devRef .tc main_v6) = _
  after_results_simp
  rfl

theorem x_0 (c : Dev nD) : (GenP.V1 m c main_arg0 : FVec F S100000x128 .f32) = Vals.X m c :=
  GenP.V1_of m c main_arg0 (by decide)

theorem wt_0 (c : Dev nD) : (GenP.V1 m c main_arg2 : FVec F S128x128 .f32) = Vals.Wt m c :=
  GenP.V1_of m c main_arg2 (by decide)

theorem agg_0 (c : Dev nD) : (GenP.V1 m c main_v4 : FVec F S100000x128 .f32) = Vals.agg m 0 c := by
  show StableHlo.after Gen.hostOps0 _ (Proc.devRef .tc main_v4) = _
  after_results_simp
  rfl

theorem deg_0 (c : Dev nD) : (GenP.V1 m c main_v5 : FVec F S100000 .f32) = Vals.deg m 0 c := by
  show StableHlo.after Gen.hostOps0 _ (Proc.devRef .tc main_v5) = _
  after_results_simp
  rfl

theorem tbl_0 (c : Dev nD) : (GenP.V1 m c main_v7 : S50000.Idx → BitVec 32) = Vals.dstc m 0 c := by
  show StableHlo.after Gen.hostOps0 _ (Proc.devRef .tc main_v7) = _
  after_results_simp
  rw [Vals.dstc, dif_pos (by decide : 0 < 32)]
  rfl

theorem tgt_0 (c : Dev nD) : (GenP.V1 m c main_v8 : S50000.Idx → BitVec 32) = Vals.srcc m 0 c := by
  show StableHlo.after Gen.hostOps0 _ (Proc.devRef .tc main_v8) = _
  after_results_simp
  rw [Vals.srcc, dif_pos (by decide : 0 < 32)]
  rfl

theorem x3_0 (c : Dev nD) : (GenP.V1 m c main_v9 : FVec F S100000x1x128 .f32) = Vals.X3 m c := by
  show StableHlo.after Gen.hostOps0 _ (Proc.devRef .tc main_v9) = _
  after_results_simp
  rfl

/-! ## Boundary 3: after region 0 and the host stretch that adds chunk 0 -/

theorem src_1 (c : Dev nD) : (GenP.V3 m (Vals.outs m) c main_v1 : S1600000.Idx → BitVec 32) = Vals.src m c :=
  (GenP.V3_of m _ c main_v1 (by decide)).trans ((GenP.V2_of m _ c main_v1 (by decide)).trans (src_0 m c))

theorem dst_1 (c : Dev nD) : (GenP.V3 m (Vals.outs m) c main_v3 : S1600000.Idx → BitVec 32) = Vals.dst m c :=
  (GenP.V3_of m _ c main_v3 (by decide)).trans ((GenP.V2_of m _ c main_v3 (by decide)).trans (dst_0 m c))

theorem ones_1 (c : Dev nD) : (GenP.V3 m (Vals.outs m) c main_v6 : FVec F S50000 .f32) = Vals.ones :=
  (GenP.V3_of m _ c main_v6 (by decide)).trans ((GenP.V2_of m _ c main_v6 (by decide)).trans (ones_0 m c))

theorem x_1 (c : Dev nD) : (GenP.V3 m (Vals.outs m) c main_arg0 : FVec F S100000x128 .f32) = Vals.X m c :=
  (GenP.V3_of m _ c main_arg0 (by decide)).trans ((GenP.V2_of m _ c main_arg0 (by decide)).trans (x_0 m c))

theorem wt_1 (c : Dev nD) : (GenP.V3 m (Vals.outs m) c main_arg2 : FVec F S128x128 .f32) = Vals.Wt m c :=
  (GenP.V3_of m _ c main_arg2 (by decide)).trans ((GenP.V2_of m _ c main_arg2 (by decide)).trans (wt_0 m c))

theorem agg_1 (c : Dev nD) : (GenP.V3 m (Vals.outs m) c main_v15 : FVec F S100000x128 .f32) = Vals.agg m 1 c := by
  have hs : (GenP.V2 m (Vals.outs m) c main_v4 : FVec F S100000x128 .f32) = Vals.agg m 0 c :=
    (GenP.V2_of m _ c main_v4 (by decide)).trans (agg_0 m c)
  have ht : (GenP.V2 m (Vals.outs m) c main_v8 : S50000.Idx → BitVec 32) = Vals.srcc m 0 c :=
    (GenP.V2_of m _ c main_v8 (by decide)).trans (tgt_0 m c)
  have hg : (GenP.V2 m (Vals.outs m) c main_v10 : FVec F S50000x1x128 .f32) = Vals.gath3 m 0 c :=
    (Function.update_self ..).trans (Vals.outs_0 m c)
  show StableHlo.after Gen.hostOps1 (GenP.V2 m (Vals.outs m) c) (Proc.devRef .tc main_v15) = _
  after_results_simp
  rw [hs, ht, hg]
  rfl

theorem deg_1 (c : Dev nD) : (GenP.V3 m (Vals.outs m) c main_v19 : FVec F S100000 .f32) = Vals.deg m 1 c := by
  have hs : (GenP.V2 m (Vals.outs m) c main_v5 : FVec F S100000 .f32) = Vals.deg m 0 c :=
    (GenP.V2_of m _ c main_v5 (by decide)).trans (deg_0 m c)
  have ht : (GenP.V2 m (Vals.outs m) c main_v8 : S50000.Idx → BitVec 32) = Vals.srcc m 0 c :=
    (GenP.V2_of m _ c main_v8 (by decide)).trans (tgt_0 m c)
  have ho : (GenP.V2 m (Vals.outs m) c main_v6 : FVec F S50000 .f32) = Vals.ones :=
    (GenP.V2_of m _ c main_v6 (by decide)).trans (ones_0 m c)
  show StableHlo.after Gen.hostOps1 (GenP.V2 m (Vals.outs m) c) (Proc.devRef .tc main_v19) = _
  after_results_simp
  rw [hs, ht, ho]
  rfl

theorem tbl_1 (c : Dev nD) : (GenP.V3 m (Vals.outs m) c main_v20 : S50000.Idx → BitVec 32) = Vals.dstc m 1 c := by
  have hd : (GenP.V2 m (Vals.outs m) c main_v3 : S1600000.Idx → BitVec 32) = Vals.dst m c :=
    (GenP.V2_of m _ c main_v3 (by decide)).trans (dst_0 m c)
  show StableHlo.after Gen.hostOps1 (GenP.V2 m (Vals.outs m) c) (Proc.devRef .tc main_v20) = _
  after_results_simp
  rw [hd, Vals.dstc, dif_pos (by decide : 1 < 32)] <;> rfl

theorem tgt_1 (c : Dev nD) : (GenP.V3 m (Vals.outs m) c main_v21 : S50000.Idx → BitVec 32) = Vals.srcc m 1 c := by
  have hd : (GenP.V2 m (Vals.outs m) c main_v1 : S1600000.Idx → BitVec 32) = Vals.src m c :=
    (GenP.V2_of m _ c main_v1 (by decide)).trans (src_0 m c)
  show StableHlo.after Gen.hostOps1 (GenP.V2 m (Vals.outs m) c) (Proc.devRef .tc main_v21) = _
  after_results_simp
  rw [hd, Vals.srcc, dif_pos (by decide : 1 < 32)] <;> rfl

theorem x3_1 (c : Dev nD) : (GenP.V3 m (Vals.outs m) c main_v22 : FVec F S100000x1x128 .f32) = Vals.X3 m c := by
  have hx : (GenP.V2 m (Vals.outs m) c main_arg0 : FVec F S100000x128 .f32) = Vals.X m c :=
    (GenP.V2_of m _ c main_arg0 (by decide)).trans (x_0 m c)
  show StableHlo.after Gen.hostOps1 (GenP.V2 m (Vals.outs m) c) (Proc.devRef .tc main_v22) = _
  after_results_simp
  rw [hx]
  rfl

/- GENERATED by `node scripts/gen_inv.js KernelIdeal` from the hand text of the section "Boundary 3" above (stretch 1), up to the section
   "Boundary 65": stretches 2 … 31, the same text with the valuations, the reference names and the chunk number substituted. -/

/-! ## Boundary 5: after region 1 and the host stretch that adds chunk 1 -/

theorem src_2 (c : Dev nD) : (GenP.V5 m (Vals.outs m) c main_v1 : S1600000.Idx → BitVec 32) = Vals.src m c :=
  (GenP.V5_of m _ c main_v1 (by decide)).trans ((GenP.V4_of m _ c main_v1 (by decide)).trans (src_1 m c))

theorem dst_2 (c : Dev nD) : (GenP.V5 m (Vals.outs m) c main_v3 : S1600000.Idx → BitVec 32) = Vals.dst m c :=
  (GenP.V5_of m _ c main_v3 (by decide)).trans ((GenP.V4_of m _ c main_v3 (by decide)).trans (dst_1 m c))

theorem ones_2 (c : Dev nD) : (GenP.V5 m (Vals.outs m) c main_v6 : FVec F S50000 .f32) = Vals.ones :=
  (GenP.V5_of m _ c main_v6 (by decide)).trans ((GenP.V4_of m _ c main_v6 (by decide)).trans (ones_1 m c))

theorem x_2 (c : Dev nD) : (GenP.V5 m (Vals.outs m) c main_arg0 : FVec F S100000x128 .f32) = Vals.X m c :=
  (GenP.V5_of m _ c main_arg0 (by decide)).trans ((GenP.V4_of m _ c main_arg0 (by decide)).trans (x_1 m c))

theorem wt_2 (c : Dev nD) : (GenP.V5 m (Vals.outs m) c main_arg2 : FVec F S128x128 .f32) = Vals.Wt m c :=
  (GenP.V5_of m _ c main_arg2 (by decide)).trans ((GenP.V4_of m _ c main_arg2 (by decide)).trans (wt_1 m c))

theorem agg_2 (c : Dev nD) : (GenP.V5 m (Vals.outs m) c main_v28 : FVec F S100000x128 .f32) = Vals.agg m 2 c := by
  have hs : (GenP.V4 m (Vals.outs m) c main_v15 : FVec F S100000x128 .f32) = Vals.agg m 1 c :=
    (GenP.V4_of m _ c main_v15 (by decide)).trans (agg_1 m c)
  have ht : (GenP.V4 m (Vals.outs m) c main_v21 : S50000.Idx → BitVec 32) = Vals.srcc m 1 c :=
    (GenP.V4_of m _ c main_v21 (by decide)).trans (tgt_1 m c)
  have hg : (GenP.V4 m (Vals.outs m) c main_v23 : FVec F S50000x1x128 .f32) = Vals.gath3 m 1 c :=
    (Function.update_self ..).trans (Vals.outs_1 m c)
  show StableHlo.after Gen.hostOps2 (GenP.V4 m (Vals.outs m) c) (Proc.devRef .tc main_v28) = _
  after_results_simp
  rw [hs, ht, hg]
  rfl

theorem deg_2 (c : Dev nD) : (GenP.V5 m (Vals.outs m) c main_v32 : FVec F S100000 .f32) = Vals.deg m 2 c := by
  have hs : (GenP.V4 m (Vals.outs m) c main_v19 : FVec F S100000 .f32) = Vals.deg m 1 c :=
    (GenP.V4_of m _ c main_v19 (by decide)).trans (deg_1 m c)
  have ht : (GenP.V4 m (Vals.outs m) c main_v21 : S50000.Idx → BitVec 32) = Vals.srcc m 1 c :=
    (GenP.V4_of m _ c main_v21 (by decide)).trans (tgt_1 m c)
  have ho : (GenP.V4 m (Vals.outs m) c main_v6 : FVec F S50000 .f32) = Vals.ones :=
    (GenP.V4_of m _ c main_v6 (by decide)).trans (ones_1 m c)
  show StableHlo.after Gen.hostOps2 (GenP.V4 m (Vals.outs m) c) (Proc.devRef .tc main_v32) = _
  after_results_simp
  rw [hs, ht, ho]
  rfl

theorem tbl_2 (c : Dev nD) : (GenP.V5 m (Vals.outs m) c main_v33 : S50000.Idx → BitVec 32) = Vals.dstc m 2 c := by
  have hd : (GenP.V4 m (Vals.outs m) c main_v3 : S1600000.Idx → BitVec 32) = Vals.dst m c :=
    (GenP.V4_of m _ c main_v3 (by decide)).trans (dst_1 m c)
  show StableHlo.after Gen.hostOps2 (GenP.V4 m (Vals.outs m) c) (Proc.devRef .tc main_v33) = _
  after_results_simp
  rw [hd, Vals.dstc, dif_pos (by decide : 2 < 32)] <;> rfl

theorem tgt_2 (c : Dev nD) : (GenP.V5 m (Vals.outs m) c main_v34 : S50000.Idx → BitVec 32) = Vals.srcc m 2 c := by
  have hd : (GenP.V4 m (Vals.outs m) c main_v1 : S1600000.Idx → BitVec 32) = Vals.src m c :=
    (GenP.V4_of m _ c main_v1 (by decide)).trans (src_1 m c)
  show StableHlo.after Gen.hostOps2 (GenP.V4 m (Vals.outs m) c) (Proc.devRef .tc main_v34) = _
  after_results_simp
  rw [hd, Vals.srcc, dif_pos (by decide : 2 < 32)] <;> rfl

theorem x3_2 (c : Dev nD) : (GenP.V5 m (Vals.outs m) c main_v35 : FVec F S100000x1x128 .f32) = Vals.X3 m c := by
  have hx : (GenP.V4 m (Vals.outs m) c main_arg0 : FVec F S100000x128 .f32) = Vals.X m c :=
    (GenP.V4_of m _ c main_arg0 (by decide)).trans (x_1 m c)
  show StableHlo.after Gen.hostOps2 (GenP.V4 m (Vals.outs m) c) (Proc.devRef .tc main_v35) = _
  after_results_simp
  rw [hx]
  rfl

/-! ## Boundary 7: after region 2 and the host stretch that adds chunk 2 -/

theorem src_3 (c : Dev nD) : (GenP.V7 m (Vals.outs m) c main_v1 : S1600000.Idx → BitVec 32) = Vals.src m c :=
  (GenP.V7_of m _ c main_v1 (by decide)).trans ((GenP.V6_of m _ c main_v1 (by decide)).trans (src_2 m c))

theorem dst_3 (c : Dev nD) : (GenP.V7 m (Vals.outs m) c main_v3 : S1600000.Idx → BitVec 32) = Vals.dst m c :=
  (GenP.V7_of m _ c main_v3 (by decide)).trans ((GenP.V6_of m _ c main_v3 (by decide)).trans (dst_2 m c))

theorem ones_3 (c : Dev nD) : (GenP.V7 m (Vals.outs m) c main_v6 : FVec F S50000 .f32) = Vals.ones :=
  (GenP.V7_of m _ c main_v6 (by decide)).trans ((GenP.V6_of m _ c main_v6 (by decide)).trans (ones_2 m c))

theorem x_3 (c : Dev nD) : (GenP.V7 m (Vals.outs m) c main_arg0 : FVec F S100000x128 .f32) = Vals.X m c :=
  (GenP.V7_of m _ c main_arg0 (by decide)).trans ((GenP.V6_of m _ c main_arg0 (by decide)).trans (x_2 m c))

theorem wt_3 (c : Dev nD) : (GenP.V7 m (Vals.outs m) c main_arg2 : FVec F S128x128 .f32) = Vals.Wt m c :=
  (GenP.V7_of m _ c main_arg2 (by decide)).trans ((GenP.V6_of m _ c main_arg2 (by decide)).trans (wt_2 m c))

theorem agg_3 (c : Dev nD) : (GenP.V7 m (Vals.outs m) c main_v41 : FVec F S100000x128 .f32) = Vals.agg m 3 c := by
  have hs : (GenP.V6 m (Vals.outs m) c main_v28 : FVec F S100000x128 .f32) = Vals.agg m 2 c :=
    (GenP.V6_of m _ c main_v28 (by decide)).trans (agg_2 m c)
  have ht : (GenP.V6 m (Vals.outs m) c main_v34 : S50000.Idx → BitVec 32) = Vals.srcc m 2 c :=
    (GenP.V6_of m _ c main_v34 (by decide)).trans (tgt_2 m c)
  have hg : (GenP.V6 m (Vals.outs m) c main_v36 : FVec F S50000x1x128 .f32) = Vals.gath3 m 2 c :=
    (Function.update_self ..).trans (Vals.outs_2 m c)
  show StableHlo.after Gen.hostOps3 (GenP.V6 m (Vals.outs m) c) (Proc.devRef .tc main_v41) = _
  after_results_simp
  rw [hs, ht, hg]
  rfl

theorem deg_3 (c : Dev nD) : (GenP.V7 m (Vals.outs m) c main_v45 : FVec F S100000 .f32) = Vals.deg m 3 c := by
  have hs : (GenP.V6 m (Vals.outs m) c main_v32 : FVec F S100000 .f32) = Vals.deg m 2 c :=
    (GenP.V6_of m _ c main_v32 (by decide)).trans (deg_2 m c)
  have ht : (GenP.V6 m (Vals.outs m) c main_v34 : S50000.Idx → BitVec 32) = Vals.srcc m 2 c :=
    (GenP.V6_of m _ c main_v34 (by decide)).trans (tgt_2 m c)
  have ho : (GenP.V6 m (Vals.outs m) c main_v6 : FVec F S50000 .f32) = Vals.ones :=
    (GenP.V6_of m _ c main_v6 (by decide)).trans (ones_2 m c)
  show StableHlo.after Gen.hostOps3 (GenP.V6 m (Vals.outs m) c) (Proc.devRef .tc main_v45) = _
  after_results_simp
  rw [hs, ht, ho]
  rfl

theorem tbl_3 (c : Dev nD) : (GenP.V7 m (Vals.outs m) c main_v46 : S50000.Idx → BitVec 32) = Vals.dstc m 3 c := by
  have hd : (GenP.V6 m (Vals.outs m) c main_v3 : S1600000.Idx → BitVec 32) = Vals.dst m c :=
    (GenP.V6_of m _ c main_v3 (by decide)).trans (dst_2 m c)
  show StableHlo.after Gen.hostOps3 (GenP.V6 m (Vals.outs m) c) (Proc.devRef .tc main_v46) = _
  after_results_simp
  rw [hd, Vals.dstc, dif_pos (by decide : 3 < 32)] <;> rfl

theorem tgt_3 (c : Dev nD) : (GenP.V7 m (Vals.outs m) c main_v47 : S50000.Idx → BitVec 32) = Vals.srcc m 3 c := by
  have hd : (GenP.V6 m (Vals.outs m) c main_v1 : S1600000.Idx → BitVec 32) = Vals.src m c :=
    (GenP.V6_of m _ c main_v1 (by decide)).trans (src_2 m c)
  show StableHlo.after Gen.hostOps3 (GenP.V6 m (Vals.outs m) c) (Proc.devRef .tc main_v47) = _
  after_results_simp
  rw [hd, Vals.srcc, dif_pos (by decide : 3 < 32)] <;> rfl

theorem x3_3 (c : Dev nD) : (GenP.V7 m (Vals.outs m) c main_v48 : FVec F S100000x1x128 .f32) = Vals.X3 m c := by
  have hx : (GenP.V6 m (Vals.outs m) c main_arg0 : FVec F S100000x128 .f32) = Vals.X m c :=
    (GenP.V6_of m _ c main_arg0 (by decide)).trans (x_2 m c)
  show StableHlo.after Gen.hostOps3 (GenP.V6 m (Vals.outs m) c) (Proc.devRef .tc main_v48) = _
  after_results_simp
  rw [hx]
  rfl

/-! ## Boundary 9: after region 3 and the host stretch that adds chunk 3 -/

theorem src_4 (c : Dev nD) : (GenP.V9 m (Vals.outs m) c main_v1 : S1600000.Idx → BitVec 32) = Vals.src m c :=
  (GenP.V9_of m _ c main_v1 (by decide)).trans ((GenP.V8_of m _ c main_v1 (by decide)).trans (src_3 m c))

theorem dst_4 (c : Dev nD) : (GenP.V9 m (Vals.outs m) c main_v3 : S1600000.Idx → BitVec 32) = Vals.dst m c :=
  (GenP.V9_of m _ c main_v3 (by decide)).trans ((GenP.V8_of m _ c main_v3 (by decide)).trans (dst_3 m c))

theorem ones_4 (c : Dev nD) : (GenP.V9 m (Vals.outs m) c main_v6 : FVec F S50000 .f32) = Vals.ones :=
  (GenP.V9_of m _ c main_v6 (by decide)).trans ((GenP.V8_of m _ c main_v6 (by decide)).trans (ones_3 m c))

theorem x_4 (c : Dev nD) : (GenP.V9 m (Vals.outs m) c main_arg0 : FVec F S100000x128 .f32) = Vals.X m c :=
  (GenP.V9_of m _ c main_arg0 (by decide)).trans ((GenP.V8_of m _ c main_arg0 (by decide)).trans (x_3 m c))

theorem wt_4 (c : Dev nD) : (GenP.V9 m (Vals.outs m) c main_arg2 : FVec F S128x128 .f32) = Vals.Wt m c :=
  (GenP.V9_of m _ c main_arg2 (by decide)).trans ((GenP.V8_of m _ c main_arg2 (by decide)).trans (wt_3 m c))

theorem agg_4 (c : Dev nD) : (GenP.V9 m (Vals.outs m) c main_v54 : FVec F S100000x128 .f32) = Vals.agg m 4 c := by
  have hs : (GenP.V8 m (Vals.outs m) c main_v41 : FVec F S100000x128 .f32) = Vals.agg m 3 c :=
    (GenP.V8_of m _ c main_v41 (by decide)).trans (agg_3 m c)
  have ht : (GenP.V8 m (Vals.outs m) c main_v47 : S50000.Idx → BitVec 32) = Vals.srcc m 3 c :=
    (GenP.V8_of m _ c main_v47 (by decide)).trans (tgt_3 m c)
  have hg : (GenP.V8 m (Vals.outs m) c main_v49 : FVec F S50000x1x128 .f32) = Vals.gath3 m 3 c :=
    (Function.update_self ..).trans (Vals.outs_3 m c)
  show StableHlo.after Gen.hostOps4 (GenP.V8 m (Vals.outs m) c) (Proc.devRef .tc main_v54) = _
  after_results_simp
  rw [hs, ht, hg]
  rfl

theorem deg_4 (c : Dev nD) : (GenP.V9 m (Vals.outs m) c main_v58 : FVec F S100000 .f32) = Vals.deg m 4 c := by
  have hs : (GenP.V8 m (Vals.outs m) c main_v45 : FVec F S100000 .f32) = Vals.deg m 3 c :=
    (GenP.V8_of m _ c main_v45 (by decide)).trans (deg_3 m c)
  have ht : (GenP.V8 m (Vals.outs m) c main_v47 : S50000.Idx → BitVec 32) = Vals.srcc m 3 c :=
    (GenP.V8_of m _ c main_v47 (by decide)).trans (tgt_3 m c)
  have ho : (GenP.V8 m (Vals.outs m) c main_v6 : FVec F S50000 .f32) = Vals.ones :=
    (GenP.V8_of m _ c main_v6 (by decide)).trans (ones_3 m c)
  show StableHlo.after Gen.hostOps4 (GenP.V8 m (Vals.outs m) c) (Proc.devRef .tc main_v58) = _
  after_results_simp
  rw [hs, ht, ho]
  rfl

theorem tbl_4 (c : Dev nD) : (GenP.V9 m (Vals.outs m) c main_v59 : S50000.Idx → BitVec 32) = Vals.dstc m 4 c := by
  have hd : (GenP.V8 m (Vals.outs m) c main_v3 : S1600000.Idx → BitVec 32) = Vals.dst m c :=
    (GenP.V8_of m _ c main_v3 (by decide)).trans (dst_3 m c)
  show StableHlo.after Gen.hostOps4 (GenP.V8 m (Vals.outs m) c) (Proc.devRef .tc main_v59) = _
  after_results_simp
  rw [hd, Vals.dstc, dif_pos (by decide : 4 < 32)] <;> rfl

theorem tgt_4 (c : Dev nD) : (GenP.V9 m (Vals.outs m) c main_v60 : S50000.Idx → BitVec 32) = Vals.srcc m 4 c := by
  have hd : (GenP.V8 m (Vals.outs m) c main_v1 : S1600000.Idx → BitVec 32) = Vals.src m c :=
    (GenP.V8_of m _ c main_v1 (by decide)).trans (src_3 m c)
  show StableHlo.after Gen.hostOps4 (GenP.V8 m (Vals.outs m) c) (Proc.devRef .tc main_v60) = _
  after_results_simp
  rw [hd, Vals.srcc, dif_pos (by decide : 4 < 32)] <;> rfl

theorem x3_4 (c : Dev nD) : (GenP.V9 m (Vals.outs m) c main_v61 : FVec F S100000x1x128 .f32) = Vals.X3 m c := by
  have hx : (GenP.V8 m (Vals.outs m) c main_arg0 : FVec F S100000x128 .f32) = Vals.X m c :=
    (GenP.V8_of m _ c main_arg0 (by decide)).trans (x_3 m c)
  show StableHlo.after Gen.hostOps4 (GenP.V8 m (Vals.outs m) c) (Proc.devRef .tc main_v61) = _
  after_results_simp
  rw [hx]
  rfl

/-! ## Boundary 11: after region 4 and the host stretch that adds chunk 4 -/

theorem src_5 (c : Dev nD) : (GenP.V11 m (Vals.outs m) c main_v1 : S1600000.Idx → BitVec 32) = Vals.src m c :=
  (GenP.V11_of m _ c main_v1 (by decide)).trans ((GenP.V10_of m _ c main_v1 (by decide)).trans (src_4 m c))

theorem dst_5 (c : Dev nD) : (GenP.V11 m (Vals.outs m) c main_v3 : S1600000.Idx → BitVec 32) = Vals.dst m c :=
  (GenP.V11_of m _ c main_v3 (by decide)).trans ((GenP.V10_of m _ c main_v3 (by decide)).trans (dst_4 m c))

theorem ones_5 (c : Dev nD) : (GenP.V11 m (Vals.outs m) c main_v6 : FVec F S50000 .f32) = Vals.ones :=
  (GenP.V11_of m _ c main_v6 (by decide)).trans ((GenP.V10_of m _ c main_v6 (by decide)).trans (ones_4 m c))

theorem x_5 (c : Dev nD) : (GenP.V11 m (Vals.outs m) c main_arg0 : FVec F S100000x128 .f32) = Vals.X m c :=
  (GenP.V11_of m _ c main_arg0 (by decide)).trans ((GenP.V10_of m _ c main_arg0 (by decide)).trans (x_4 m c))

theorem wt_5 (c : Dev nD) : (GenP.V11 m (Vals.outs m) c main_arg2 : FVec F S128x128 .f32) = Vals.Wt m c :=
  (GenP.V11_of m _ c main_arg2 (by decide)).trans ((GenP.V10_of m _ c main_arg2 (by decide)).trans (wt_4 m c))

theorem agg_5 (c : Dev nD) : (GenP.V11 m (Vals.outs m) c main_v67 : FVec F S100000x128 .f32) = Vals.agg m 5 c := by
  have hs : (GenP.V10 m (Vals.outs m) c main_v54 : FVec F S100000x128 .f32) = Vals.agg m 4 c :=
    (GenP.V10_of m _ c main_v54 (by decide)).trans (agg_4 m c)
  have ht : (GenP.V10 m (Vals.outs m) c main_v60 : S50000.Idx → BitVec 32) = Vals.srcc m 4 c :=
    (GenP.V10_of m _ c main_v60 (by decide)).trans (tgt_4 m c)
  have hg : (GenP.V10 m (Vals.outs m) c main_v62 : FVec F S50000x1x128 .f32) = Vals.gath3 m 4 c :=
    (Function.update_self ..).trans (Vals.outs_4 m c)
  show StableHlo.after Gen.hostOps5 (GenP.V10 m (Vals.outs m) c) (Proc.devRef .tc main_v67) = _
  after_results_simp
  rw [hs, ht, hg]
  rfl

theorem deg_5 (c : Dev nD) : (GenP.V11 m (Vals.outs m) c main_v71 : FVec F S100000 .f32) = Vals.deg m 5 c := by
  have hs : (GenP.V10 m (Vals.outs m) c main_v58 : FVec F S100000 .f32) = Vals.deg m 4 c :=
    (GenP.V10_of m _ c main_v58 (by decide)).trans (deg_4 m c)
  have ht : (GenP.V10 m (Vals.outs m) c main_v60 : S50000.Idx → BitVec 32) = Vals.srcc m 4 c :=
    (GenP.V10_of m _ c main_v60 (by decide)).trans (tgt_4 m c)
  have ho : (GenP.V10 m (Vals.outs m) c main_v6 : FVec F S50000 .f32) = Vals.ones :=
    (GenP.V10_of m _ c main_v6 (by decide)).trans (ones_4 m c)
  show StableHlo.after Gen.hostOps5 (GenP.V10 m (Vals.outs m) c) (Proc.devRef .tc main_v71) = _
  after_results_simp
  rw [hs, ht, ho]
  rfl

theorem tbl_5 (c : Dev nD) : (GenP.V11 m (Vals.outs m) c main_v72 : S50000.Idx → BitVec 32) = Vals.dstc m 5 c := by
  have hd : (GenP.V10 m (Vals.outs m) c main_v3 : S1600000.Idx → BitVec 32) = Vals.dst m c :=
    (GenP.V10_of m _ c main_v3 (by decide)).trans (dst_4 m c)
  show StableHlo.after Gen.hostOps5 (GenP.V10 m (Vals.outs m) c) (Proc.devRef .tc main_v72) = _
  after_results_simp
  rw [hd, Vals.dstc, dif_pos (by decide : 5 < 32)] <;> rfl

theorem tgt_5 (c : Dev nD) : (GenP.V11 m (Vals.outs m) c main_v73 : S50000.Idx → BitVec 32) = Vals.srcc m 5 c := by
  have hd : (GenP.V10 m (Vals.outs m) c main_v1 : S1600000.Idx → BitVec 32) = Vals.src m c :=
    (GenP.V10_of m _ c main_v1 (by decide)).trans (src_4 m c)
  show StableHlo.after Gen.hostOps5 (GenP.V10 m (Vals.outs m) c) (Proc.devRef .tc main_v73) = _
  after_results_simp
  rw [hd, Vals.srcc, dif_pos (by decide : 5 < 32)] <;> rfl

theorem x3_5 (c : Dev nD) : (GenP.V11 m (Vals.outs m) c main_v74 : FVec F S100000x1x128 .f32) = Vals.X3 m c := by
  have hx : (GenP.V10 m (Vals.outs m) c main_arg0 : FVec F S100000x128 .f32) = Vals.X m c :=
    (GenP.V10_of m _ c main_arg0 (by decide)).trans (x_4 m c)
  show StableHlo.after Gen.hostOps5 (GenP.V10 m (Vals.outs m) c) (Proc.devRef .tc main_v74) = _
  after_results_simp
  rw [hx]
  rfl

/-! ## Boundary 13: after region 5 and the host stretch that adds chunk 5 -/

theorem src_6 (c : Dev nD) : (GenP.V13 m (Vals.outs m) c main_v1 : S1600000.Idx → BitVec 32) = Vals.src m c :=
  (GenP.V13_of m _ c main_v1 (by decide)).trans ((GenP.V12_of m _ c main_v1 (by decide)).trans (src_5 m c))

theorem dst_6 (c : Dev nD) : (GenP.V13 m (Vals.outs m) c main_v3 : S1600000.Idx → BitVec 32) = Vals.dst m c :=
  (GenP.V13_of m _ c main_v3 (by decide)).trans ((GenP.V12_of m _ c main_v3 (by decide)).trans (dst_5 m c))

theorem ones_6 (c : Dev nD) : (GenP.V13 m (Vals.outs m) c main_v6 : FVec F S50000 .f32) = Vals.ones :=
  (GenP.V13_of m _ c main_v6 (by decide)).trans ((GenP.V12_of m _ c main_v6 (by decide)).trans (ones_5 m c))

theorem x_6 (c : Dev nD) : (GenP.V13 m (Vals.outs m) c main_arg0 : FVec F S100000x128 .f32) = Vals.X m c :=
  (GenP.V13_of m _ c main_arg0 (by decide)).trans ((GenP.V12_of m _ c main_arg0 (by decide)).trans (x_5 m c))

theorem wt_6 (c : Dev nD) : (GenP.V13 m (Vals.outs m) c main_arg2 : FVec F S128x128 .f32) = Vals.Wt m c :=
  (GenP.V13_of m _ c main_arg2 (by decide)).trans ((GenP.V12_of m _ c main_arg2 (by decide)).trans (wt_5 m c))

theorem agg_6 (c : Dev nD) : (GenP.V13 m (Vals.outs m) c main_v80 : FVec F S100000x128 .f32) = Vals.agg m 6 c := by
  have hs : (GenP.V12 m (Vals.outs m) c main_v67 : FVec F S100000x128 .f32) = Vals.agg m 5 c :=
    (GenP.V12_of m _ c main_v67 (by decide)).trans (agg_5 m c)
  have ht : (GenP.V12 m (Vals.outs m) c main_v73 : S50000.Idx → BitVec 32) = Vals.srcc m 5 c :=
    (GenP.V12_of m _ c main_v73 (by decide)).trans (tgt_5 m c)
  have hg : (GenP.V12 m (Vals.outs m) c main_v75 : FVec F S50000x1x128 .f32) = Vals.gath3 m 5 c :=
    (Function.update_self ..).trans (Vals.outs_5 m c)
  show StableHlo.after Gen.hostOps6 (GenP.V12 m (Vals.outs m) c) (Proc.devRef .tc main_v80) = _
  after_results_simp
  rw [hs, ht, hg]
  rfl

theorem deg_6 (c : Dev nD) : (GenP.V13 m (Vals.outs m) c main_v84 : FVec F S100000 .f32) = Vals.deg m 6 c := by
  have hs : (GenP.V12 m (Vals.outs m) c main_v71 : FVec F S100000 .f32) = Vals.deg m 5 c :=
    (GenP.V12_of m _ c main_v71 (by decide)).trans (deg_5 m c)
  have ht : (GenP.V12 m (Vals.outs m) c main_v73 : S50000.Idx → BitVec 32) = Vals.srcc m 5 c :=
    (GenP.V12_of m _ c main_v73 (by decide)).trans (tgt_5 m c)
  have ho : (GenP.V12 m (Vals.outs m) c main_v6 : FVec F S50000 .f32) = Vals.ones :=
    (GenP.V12_of m _ c main_v6 (by decide)).trans (ones_5 m c)
  show StableHlo.after Gen.hostOps6 (GenP.V12 m (Vals.outs m) c) (Proc.devRef .tc main_v84) = _
  after_results_simp
  rw [hs, ht, ho]
  rfl

theorem tbl_6 (c : Dev nD) : (GenP.V13 m (Vals.outs m) c main_v85 : S50000.Idx → BitVec 32) = Vals.dstc m 6 c := by
  have hd : (GenP.V12 m (Vals.outs m) c main_v3 : S1600000.Idx → BitVec 32) = Vals.dst m c :=
    (GenP.V12_of m _ c main_v3 (by decide)).trans (dst_5 m c)
  show StableHlo.after Gen.hostOps6 (GenP.V12 m (Vals.outs m) c) (Proc.devRef .tc main_v85) = _
  after_results_simp
  rw [hd, Vals.dstc, dif_pos (by decide : 6 < 32)] <;> rfl

theorem tgt_6 (c : Dev nD) : (GenP.V13 m (Vals.outs m) c main_v86 : S50000.Idx → BitVec 32) = Vals.srcc m 6 c := by
  have hd : (GenP.V12 m (Vals.outs m) c main_v1 : S1600000.Idx → BitVec 32) = Vals.src m c :=
    (GenP.V12_of m _ c main_v1 (by decide)).trans (src_5 m c)
  show StableHlo.after Gen.hostOps6 (GenP.V12 m (Vals.outs m) c) (Proc.devRef .tc main_v86) = _
  after_results_simp
  rw [hd, Vals.srcc, dif_pos (by decide : 6 < 32)] <;> rfl

theorem x3_6 (c : Dev nD) : (GenP.V13 m (Vals.outs m) c main_v87 : FVec F S100000x1x128 .f32) = Vals.X3 m c := by
  have hx : (GenP.V12 m (Vals.outs m) c main_arg0 : FVec F S100000x128 .f32) = Vals.X m c :=
    (GenP.V12_of m _ c main_arg0 (by decide)).trans (x_5 m c)
  show StableHlo.after Gen.hostOps6 (GenP.V12 m (Vals.outs m) c) (Proc.devRef .tc main_v87) = _
  after_results_simp
  rw [hx]
  rfl

/-! ## Boundary 15: after region 6 and the host stretch that adds chunk 6 -/

theorem src_7 (c : Dev nD) : (GenP.V15 m (Vals.outs m) c main_v1 : S1600000.Idx → BitVec 32) = Vals.src m c :=
  (GenP.V15_of m _ c main_v1 (by decide)).trans ((GenP.V14_of m _ c main_v1 (by decide)).trans (src_6 m c))

theorem dst_7 (c : Dev nD) : (GenP.V15 m (Vals.outs m) c main_v3 : S1600000.Idx → BitVec 32) = Vals.dst m c :=
  (GenP.V15_of m _ c main_v3 (by decide)).trans ((GenP.V14_of m _ c main_v3 (by decide)).trans (dst_6 m c))

theorem ones_7 (c : Dev nD) : (GenP.V15 m (Vals.outs m) c main_v6 : FVec F S50000 .f32) = Vals.ones :=
  (GenP.V15_of m _ c main_v6 (by decide)).trans ((GenP.V14_of m _ c main_v6 (by decide)).trans (ones_6 m c))

theorem x_7 (c : Dev nD) : (GenP.V15 m (Vals.outs m) c main_arg0 : FVec F S100000x128 .f32) = Vals.X m c :=
  (GenP.V15_of m _ c main_arg0 (by decide)).trans ((GenP.V14_of m _ c main_arg0 (by decide)).trans (x_6 m c))

theorem wt_7 (c : Dev nD) : (GenP.V15 m (Vals.outs m) c main_arg2 : FVec F S128x128 .f32) = Vals.Wt m c :=
  (GenP.V15_of m _ c main_arg2 (by decide)).trans ((GenP.V14_of m _ c main_arg2 (by decide)).trans (wt_6 m c))

theorem agg_7 (c : Dev nD) : (GenP.V15 m (Vals.outs m) c main_v93 : FVec F S100000x128 .f32) = Vals.agg m 7 c := by
  have hs : (GenP.V14 m (Vals.outs m) c main_v80 : FVec F S100000x128 .f32) = Vals.agg m 6 c :=
    (GenP.V14_of m _ c main_v80 (by decide)).trans (agg_6 m c)
  have ht : (GenP.V14 m (Vals.outs m) c main_v86 : S50000.Idx → BitVec 32) = Vals.srcc m 6 c :=
    (GenP.V14_of m _ c main_v86 (by decide)).trans (tgt_6 m c)
  have hg : (GenP.V14 m (Vals.outs m) c main_v88 : FVec F S50000x1x128 .f32) = Vals.gath3 m 6 c :=
    (Function.update_self ..).trans (Vals.outs_6 m c)
  show StableHlo.after Gen.hostOps7 (GenP.V14 m (Vals.outs m) c) (Proc.devRef .tc main_v93) = _
  after_results_simp
  rw [hs, ht, hg]
  rfl

theorem deg_7 (c : Dev nD) : (GenP.V15 m (Vals.outs m) c main_v97 : FVec F S100000 .f32) = Vals.deg m 7 c := by
  have hs : (GenP.V14 m (Vals.outs m) c main_v84 : FVec F S100000 .f32) = Vals.deg m 6 c :=
    (GenP.V14_of m _ c main_v84 (by decide)).trans (deg_6 m c)
  have ht : (GenP.V14 m (Vals.outs m) c main_v86 : S50000.Idx → BitVec 32) = Vals.srcc m 6 c :=
    (GenP.V14_of m _ c main_v86 (by decide)).trans (tgt_6 m c)
  have ho : (GenP.V14 m (Vals.outs m) c main_v6 : FVec F S50000 .f32) = Vals.ones :=
    (GenP.V14_of m _ c main_v6 (by decide)).trans (ones_6 m c)
  show StableHlo.after Gen.hostOps7 (GenP.V14 m (Vals.outs m) c) (Proc.devRef .tc main_v97) = _
  after_results_simp
  rw [hs, ht, ho]
  rfl

theorem tbl_7 (c : Dev nD) : (GenP.V15 m (Vals.outs m) c main_v98 : S50000.Idx → BitVec 32) = Vals.dstc m 7 c := by
  have hd : (GenP.V14 m (Vals.outs m) c main_v3 : S1600000.Idx → BitVec 32) = Vals.dst m c :=
    (GenP.V14_of m _ c main_v3 (by decide)).trans (dst_6 m c)
  show StableHlo.after Gen.hostOps7 (GenP.V14 m (Vals.outs m) c) (Proc.devRef .tc main_v98) = _
  after_results_simp
  rw [hd, Vals.dstc, dif_pos (by decide : 7 < 32)] <;> rfl

theorem tgt_7 (c : Dev nD) : (GenP.V15 m (Vals.outs m) c main_v99 : S50000.Idx → BitVec 32) = Vals.srcc m 7 c := by
  have hd : (GenP.V14 m (Vals.outs m) c main_v1 : S1600000.Idx → BitVec 32) = Vals.src m c :=
    (GenP.V14_of m _ c main_v1 (by decide)).trans (src_6 m c)
  show StableHlo.after Gen.hostOps7 (GenP.V14 m (Vals.outs m) c) (Proc.devRef .tc main_v99) = _
  after_results_simp
  rw [hd, Vals.srcc, dif_pos (by decide : 7 < 32)] <;> rfl

theorem x3_7 (c : Dev nD) : (GenP.V15 m (Vals.outs m) c main_v100 : FVec F S100000x1x128 .f32) = Vals.X3 m c := by
  have hx : (GenP.V14 m (Vals.outs m) c main_arg0 : FVec F S100000x128 .f32) = Vals.X m c :=
    (GenP.V14_of m _ c main_arg0 (by decide)).trans (x_6 m c)
  show StableHlo.after Gen.hostOps7 (GenP.V14 m (Vals.outs m) c) (Proc.devRef .tc main_v100) = _
  after_results_simp
  rw [hx]
  rfl

/-! ## Boundary 17: after region 7 and the host stretch that adds chunk 7 -/

theorem src_8 (c : Dev nD) : (GenP.V17 m (Vals.outs m) c main_v1 : S1600000.Idx → BitVec 32) = Vals.src m c :=
  (GenP.V17_of m _ c main_v1 (by decide)).trans ((GenP.V16_of m _ c main_v1 (by decide)).trans (src_7 m c))

theorem dst_8 (c : Dev nD) : (GenP.V17 m (Vals.outs m) c main_v3 : S1600000.Idx → BitVec 32) = Vals.dst m c :=
  (GenP.V17_of m _ c main_v3 (by decide)).trans ((GenP.V16_of m _ c main_v3 (by decide)).trans (dst_7 m c))

theorem ones_8 (c : Dev nD) : (GenP.V17 m (Vals.outs m) c main_v6 : FVec F S50000 .f32) = Vals.ones :=
  (GenP.V17_of m _ c main_v6 (by decide)).trans ((GenP.V16_of m _ c main_v6 (by decide)).trans (ones_7 m c))

theorem x_8 (c : Dev nD) : (GenP.V17 m (Vals.outs m) c main_arg0 : FVec F S100000x128 .f32) = Vals.X m c :=
  (GenP.V17_of m _ c main_arg0 (by decide)).trans ((GenP.V16_of m _ c main_arg0 (by decide)).trans (x_7 m c))

theorem wt_8 (c : Dev nD) : (GenP.V17 m (Vals.outs m) c main_arg2 : FVec F S128x128 .f32) = Vals.Wt m c :=
  (GenP.V17_of m _ c main_arg2 (by decide)).trans ((GenP.V16_of m _ c main_arg2 (by decide)).trans (wt_7 m c))

theorem agg_8 (c : Dev nD) : (GenP.V17 m (Vals.outs m) c main_v106 : FVec F S100000x128 .f32) = Vals.agg m 8 c := by
  have hs : (GenP.V16 m (Vals.outs m) c main_v93 : FVec F S100000x128 .f32) = Vals.agg m 7 c :=
    (GenP.V16_of m _ c main_v93 (by decide)).trans (agg_7 m c)
  have ht : (GenP.V16 m (Vals.outs m) c main_v99 : S50000.Idx → BitVec 32) = Vals.srcc m 7 c :=
    (GenP.V16_of m _ c main_v99 (by decide)).trans (tgt_7 m c)
  have hg : (GenP.V16 m (Vals.outs m) c main_v101 : FVec F S50000x1x128 .f32) = Vals.gath3 m 7 c :=
    (Function.update_self ..).trans (Vals.outs_7 m c)
  show StableHlo.after Gen.hostOps8 (GenP.V16 m (Vals.outs m) c) (Proc.devRef .tc main_v106) = _
  after_results_simp
  rw [hs, ht, hg]
  rfl

theorem deg_8 (c : Dev nD) : (GenP.V17 m (Vals.outs m) c main_v110 : FVec F S100000 .f32) = Vals.deg m 8 c := by
  have hs : (GenP.V16 m (Vals.outs m) c main_v97 : FVec F S100000 .f32) = Vals.deg m 7 c :=
    (GenP.V16_of m _ c main_v97 (by decide)).trans (deg_7 m c)
  have ht : (GenP.V16 m (Vals.outs m) c main_v99 : S50000.Idx → BitVec 32) = Vals.srcc m 7 c :=
    (GenP.V16_of m _ c main_v99 (by decide)).trans (tgt_7 m c)
  have ho : (GenP.V16 m (Vals.outs m) c main_v6 : FVec F S50000 .f32) = Vals.ones :=
    (GenP.V16_of m _ c main_v6 (by decide)).trans (ones_7 m c)
  show StableHlo.after Gen.hostOps8 (GenP.V16 m (Vals.outs m) c) (Proc.devRef .tc main_v110) = _
  after_results_simp
  rw [hs, ht, ho]
  rfl

theorem tbl_8 (c : Dev nD) : (GenP.V17 m (Vals.outs m) c main_v111 : S50000.Idx → BitVec 32) = Vals.dstc m 8 c := by
  have hd : (GenP.V16 m (Vals.outs m) c main_v3 : S1600000.Idx → BitVec 32) = Vals.dst m c :=
    (GenP.V16_of m _ c main_v3 (by decide)).trans (dst_7 m c)
  show StableHlo.after Gen.hostOps8 (GenP.V16 m (Vals.outs m) c) (Proc.devRef .tc main_v111) = _
  after_results_simp
  rw [hd, Vals.dstc, dif_pos (by decide : 8 < 32)] <;> rfl

theorem tgt_8 (c : Dev nD) : (GenP.V17 m (Vals.outs m) c main_v112 : S50000.Idx → BitVec 32) = Vals.srcc m 8 c := by
  have hd : (GenP.V16 m (Vals.outs m) c main_v1 : S1600000.Idx → BitVec 32) = Vals.src m c :=
    (GenP.V16_of m _ c main_v1 (by decide)).trans (src_7 m c)
  show StableHlo.after Gen.hostOps8 (GenP.V16 m (Vals.outs m) c) (Proc.devRef .tc main_v112) = _
  after_results_simp
  rw [hd, Vals.srcc, dif_pos (by decide : 8 < 32)] <;> rfl

theorem x3_8 (c : Dev nD) : (GenP.V17 m (Vals.outs m) c main_v113 : FVec F S100000x1x128 .f32) = Vals.X3 m c := by
  have hx : (GenP.V16 m (Vals.outs m) c main_arg0 : FVec F S100000x128 .f32) = Vals.X m c :=
    (GenP.V16_of m _ c main_arg0 (by decide)).trans (x_7 m c)
  show StableHlo.after Gen.hostOps8 (GenP.V16 m (Vals.outs m) c) (Proc.devRef .tc main_v113) = _
  after_results_simp
  rw [hx]
  rfl

/-! ## Boundary 19: after region 8 and the host stretch that adds chunk 8 -/

theorem src_9 (c : Dev nD) : (GenP.V19 m (Vals.outs m) c main_v1 : S1600000.Idx → BitVec 32) = Vals.src m c :=
  (GenP.V19_of m _ c main_v1 (by decide)).trans ((GenP.V18_of m _ c main_v1 (by decide)).trans (src_8 m c))

theorem dst_9 (c : Dev nD) : (GenP.V19 m (Vals.outs m) c main_v3 : S1600000.Idx → BitVec 32) = Vals.dst m c :=
  (GenP.V19_of m _ c main_v3 (by decide)).trans ((GenP.V18_of m _ c main_v3 (by decide)).trans (dst_8 m c))

theorem ones_9 (c : Dev nD) : (GenP.V19 m (Vals.outs m) c main_v6 : FVec F S50000 .f32) = Vals.ones :=
  (GenP.V19_of m _ c main_v6 (by decide)).trans ((GenP.V18_of m _ c main_v6 (by decide)).trans (ones_8 m c))

theorem x_9 (c : Dev nD) : (GenP.V19 m (Vals.outs m) c main_arg0 : FVec F S100000x128 .f32) = Vals.X m c :=
  (GenP.V19_of m _ c main_arg0 (by decide)).trans ((GenP.V18_of m _ c main_arg0 (by decide)).trans (x_8 m c))

theorem wt_9 (c : Dev nD) : (GenP.V19 m (Vals.outs m) c main_arg2 : FVec F S128x128 .f32) = Vals.Wt m c :=
  (GenP.V19_of m _ c main_arg2 (by decide)).trans ((GenP.V18_of m _ c main_arg2 (by decide)).trans (wt_8 m c))

theorem agg_9 (c : Dev nD) : (GenP.V19 m (Vals.outs m) c main_v119 : FVec F S100000x128 .f32) = Vals.agg m 9 c := by
  have hs : (GenP.V18 m (Vals.outs m) c main_v106 : FVec F S100000x128 .f32) = Vals.agg m 8 c :=
    (GenP.V18_of m _ c main_v106 (by decide)).trans (agg_8 m c)
  have ht : (GenP.V18 m (Vals.outs m) c main_v112 : S50000.Idx → BitVec 32) = Vals.srcc m 8 c :=
    (GenP.V18_of m _ c main_v112 (by decide)).trans (tgt_8 m c)
  have hg : (GenP.V18 m (Vals.outs m) c main_v114 : FVec F S50000x1x128 .f32) = Vals.gath3 m 8 c :=
    (Function.update_self ..).trans (Vals.outs_8 m c)
  show StableHlo.after Gen.hostOps9 (GenP.V18 m (Vals.outs m) c) (Proc.devRef .tc main_v119) = _
  after_results_simp
  rw [hs, ht, hg]
  rfl

theorem deg_9 (c : Dev nD) : (GenP.V19 m (Vals.outs m) c main_v123 : FVec F S100000 .f32) = Vals.deg m 9 c := by
  have hs : (GenP.V18 m (Vals.outs m) c main_v110 : FVec F S100000 .f32) = Vals.deg m 8 c :=
    (GenP.V18_of m _ c main_v110 (by decide)).trans (deg_8 m c)
  have ht : (GenP.V18 m (Vals.outs m) c main_v112 : S50000.Idx → BitVec 32) = Vals.srcc m 8 c :=
    (GenP.V18_of m _ c main_v112 (by decide)).trans (tgt_8 m c)
  have ho : (GenP.V18 m (Vals.outs m) c main_v6 : FVec F S50000 .f32) = Vals.ones :=
    (GenP.V18_of m _ c main_v6 (by decide)).trans (ones_8 m c)
  show StableHlo.after Gen.hostOps9 (GenP.V18 m (Vals.outs m) c) (Proc.devRef .tc main_v123) = _
  after_results_simp
  rw [hs, ht, ho]
  rfl

theorem tbl_9 (c : Dev nD) : (GenP.V19 m (Vals.outs m) c main_v124 : S50000.Idx → BitVec 32) = Vals.dstc m 9 c := by
  have hd : (GenP.V18 m (Vals.outs m) c main_v3 : S1600000.Idx → BitVec 32) = Vals.dst m c :=
    (GenP.V18_of m _ c main_v3 (by decide)).trans (dst_8 m c)
  show StableHlo.after Gen.hostOps9 (GenP.V18 m (Vals.outs m) c) (Proc.devRef .tc main_v124) = _
  after_results_simp
  rw [hd, Vals.dstc, dif_pos (by decide : 9 < 32)] <;> rfl

theorem tgt_9 (c : Dev nD) : (GenP.V19 m (Vals.outs m) c main_v125 : S50000.Idx → BitVec 32) = Vals.srcc m 9 c := by
  have hd : (GenP.V18 m (Vals.outs m) c main_v1 : S1600000.Idx → BitVec 32) = Vals.src m c :=
    (GenP.V18_of m _ c main_v1 (by decide)).trans (src_8 m c)
  show StableHlo.after Gen.hostOps9 (GenP.V18 m (Vals.outs m) c) (Proc.devRef .tc main_v125) = _
  after_results_simp
  rw [hd, Vals.srcc, dif_pos (by decide : 9 < 32)] <;> rfl

theorem x3_9 (c : Dev nD) : (GenP.V19 m (Vals.outs m) c main_v126 : FVec F S100000x1x128 .f32) = Vals.X3 m c := by
  have hx : (GenP.V18 m (Vals.outs m) c main_arg0 : FVec F S100000x128 .f32) = Vals.X m c :=
    (GenP.V18_of m _ c main_arg0 (by decide)).trans (x_8 m c)
  show StableHlo.after Gen.hostOps9 (GenP.V18 m (Vals.outs m) c) (Proc.devRef .tc main_v126) = _
  after_results_simp
  rw [hx]
  rfl

/-! ## Boundary 21: after region 9 and the host stretch that adds chunk 9 -/

theorem src_10 (c : Dev nD) : (GenP.V21 m (Vals.outs m) c main_v1 : S1600000.Idx → BitVec 32) = Vals.src m c :=
  (GenP.V21_of m _ c main_v1 (by decide)).trans ((GenP.V20_of m _ c main_v1 (by decide)).trans (src_9 m c))

theorem dst_10 (c : Dev nD) : (GenP.V21 m (Vals.outs m) c main_v3 : S1600000.Idx → BitVec 32) = Vals.dst m c :=
  (GenP.V21_of m _ c main_v3 (by decide)).trans ((GenP.V20_of m _ c main_v3 (by decide)).trans (dst_9 m c))

theorem ones_10 (c : Dev nD) : (GenP.V21 m (Vals.outs m) c main_v6 : FVec F S50000 .f32) = Vals.ones :=
  (GenP.V21_of m _ c main_v6 (by decide)).trans ((GenP.V20_of m _ c main_v6 (by decide)).trans (ones_9 m c))

theorem x_10 (c : Dev nD) : (GenP.V21 m (Vals.outs m) c main_arg0 : FVec F S100000x128 .f32) = Vals.X m c :=
  (GenP.V21_of m _ c main_arg0 (by decide)).trans ((GenP.V20_of m _ c main_arg0 (by decide)).trans (x_9 m c))

theorem wt_10 (c : Dev nD) : (GenP.V21 m (Vals.outs m) c main_arg2 : FVec F S128x128 .f32) = Vals.Wt m c :=
  (GenP.V21_of m _ c main_arg2 (by decide)).trans ((GenP.V20_of m _ c main_arg2 (by decide)).trans (wt_9 m c))

theorem agg_10 (c : Dev nD) : (GenP.V21 m (Vals.outs m) c main_v132 : FVec F S100000x128 .f32) = Vals.agg m 10 c := by
  have hs : (GenP.V20 m (Vals.outs m) c main_v119 : FVec F S100000x128 .f32) = Vals.agg m 9 c :=
    (GenP.V20_of m _ c main_v119 (by decide)).trans (agg_9 m c)
  have ht : (GenP.V20 m (Vals.outs m) c main_v125 : S50000.Idx → BitVec 32) = Vals.srcc m 9 c :=
    (GenP.V20_of m _ c main_v125 (by decide)).trans (tgt_9 m c)
  have hg : (GenP.V20 m (Vals.outs m) c main_v127 : FVec F S50000x1x128 .f32) = Vals.gath3 m 9 c :=
    (Function.update_self ..).trans (Vals.outs_9 m c)
  show StableHlo.after Gen.hostOps10 (GenP.V20 m (Vals.outs m) c) (Proc.devRef .tc main_v132) = _
  after_results_simp
  rw [hs, ht, hg]
  rfl

theorem deg_10 (c : Dev nD) : (GenP.V21 m (Vals.outs m) c main_v136 : FVec F S100000 .f32) = Vals.deg m 10 c := by
  have hs : (GenP.V20 m (Vals.outs m) c main_v123 : FVec F S100000 .f32) = Vals.deg m 9 c :=
    (GenP.V20_of m _ c main_v123 (by decide)).trans (deg_9 m c)
  have ht : (GenP.V20 m (Vals.outs m) c main_v125 : S50000.Idx → BitVec 32) = Vals.srcc m 9 c :=
    (GenP.V20_of m _ c main_v125 (by decide)).trans (tgt_9 m c)
  have ho : (GenP.V20 m (Vals.outs m) c main_v6 : FVec F S50000 .f32) = Vals.ones :=
    (GenP.V20_of m _ c main_v6 (by decide)).trans (ones_9 m c)
  show StableHlo.after Gen.hostOps10 (GenP.V20 m (Vals.outs m) c) (Proc.devRef .tc main_v136) = _
  after_results_simp
  rw [hs, ht, ho]
  rfl

theorem tbl_10 (c : Dev nD) : (GenP.V21 m (Vals.outs m) c main_v137 : S50000.Idx → BitVec 32) = Vals.dstc m 10 c := by
  have hd : (GenP.V20 m (Vals.outs m) c main_v3 : S1600000.Idx → BitVec 32) = Vals.dst m c :=
    (GenP.V20_of m _ c main_v3 (by decide)).trans (dst_9 m c)
  show StableHlo.after Gen.hostOps10 (GenP.V20 m (Vals.outs m) c) (Proc.devRef .tc main_v137) = _
  after_results_simp
  rw [hd, Vals.dstc, dif_pos (by decide : 10 < 32)] <;> rfl

theorem tgt_10 (c : Dev nD) : (GenP.V21 m (Vals.outs m) c main_v138 : S50000.Idx → BitVec 32) = Vals.srcc m 10 c := by
  have hd : (GenP.V20 m (Vals.outs m) c main_v1 : S1600000.Idx → BitVec 32) = Vals.src m c :=
    (GenP.V20_of m _ c main_v1 (by decide)).trans (src_9 m c)
  show StableHlo.after Gen.hostOps10 (GenP.V20 m (Vals.outs m) c) (Proc.devRef .tc main_v138) = _
  after_results_simp
  rw [hd, Vals.srcc, dif_pos (by decide : 10 < 32)] <;> rfl

theorem x3_10 (c : Dev nD) : (GenP.V21 m (Vals.outs m) c main_v139 : FVec F S100000x1x128 .f32) = Vals.X3 m c := by
  have hx : (GenP.V20 m (Vals.outs m) c main_arg0 : FVec F S100000x128 .f32) = Vals.X m c :=
    (GenP.V20_of m _ c main_arg0 (by decide)).trans (x_9 m c)
  show StableHlo.after Gen.hostOps10 (GenP.V20 m (Vals.outs m) c) (Proc.devRef .tc main_v139) = _
  after_results_simp
  rw [hx]
  rfl

/-! ## Boundary 23: after region 10 and the host stretch that adds chunk 10 -/

theorem src_11 (c : Dev nD) : (GenP.V23 m (Vals.outs m) c main_v1 : S1600000.Idx → BitVec 32) = Vals.src m c :=
  (GenP.V23_of m _ c main_v1 (by decide)).trans ((GenP.V22_of m _ c main_v1 (by decide)).trans (src_10 m c))

theorem dst_11 (c : Dev nD) : (GenP.V23 m (Vals.outs m) c main_v3 : S1600000.Idx → BitVec 32) = Vals.dst m c :=
  (GenP.V23_of m _ c main_v3 (by decide)).trans ((GenP.V22_of m _ c main_v3 (by decide)).trans (dst_10 m c))

theorem ones_11 (c : Dev nD) : (GenP.V23 m (Vals.outs m) c main_v6 : FVec F S50000 .f32) = Vals.ones :=
  (GenP.V23_of m _ c main_v6 (by decide)).trans ((GenP.V22_of m _ c main_v6 (by decide)).trans (ones_10 m c))

theorem x_11 (c : Dev nD) : (GenP.V23 m (Vals.outs m) c main_arg0 : FVec F S100000x128 .f32) = Vals.X m c :=
  (GenP.V23_of m _ c main_arg0 (by decide)).trans ((GenP.V22_of m _ c main_arg0 (by decide)).trans (x_10 m c))

theorem wt_11 (c : Dev nD) : (GenP.V23 m (Vals.outs m) c main_arg2 : FVec F S128x128 .f32) = Vals.Wt m c :=
  (GenP.V23_of m _ c main_arg2 (by decide)).trans ((GenP.V22_of m _ c main_arg2 (by decide)).trans (wt_10 m c))

theorem agg_11 (c : Dev nD) : (GenP.V23 m (Vals.outs m) c main_v145 : FVec F S100000x128 .f32) = Vals.agg m 11 c := by
  have hs : (GenP.V22 m (Vals.outs m) c main_v132 : FVec F S100000x128 .f32) = Vals.agg m 10 c :=
    (GenP.V22_of m _ c main_v132 (by decide)).trans (agg_10 m c)
  have ht : (GenP.V22 m (Vals.outs m) c main_v138 : S50000.Idx → BitVec 32) = Vals.srcc m 10 c :=
    (GenP.V22_of m _ c main_v138 (by decide)).trans (tgt_10 m c)
  have hg : (GenP.V22 m (Vals.outs m) c main_v140 : FVec F S50000x1x128 .f32) = Vals.gath3 m 10 c :=
    (Function.update_self ..).trans (Vals.outs_10 m c)
  show StableHlo.after Gen.hostOps11 (GenP.V22 m (Vals.outs m) c) (Proc.devRef .tc main_v145) = _
  after_results_simp
  rw [hs, ht, hg]
  rfl

theorem deg_11 (c : Dev nD) : (GenP.V23 m (Vals.outs m) c main_v149 : FVec F S100000 .f32) = Vals.deg m 11 c := by
  have hs : (GenP.V22 m (Vals.outs m) c main_v136 : FVec F S100000 .f32) = Vals.deg m 10 c :=
    (GenP.V22_of m _ c main_v136 (by decide)).trans (deg_10 m c)
  have ht : (GenP.V22 m (Vals.outs m) c main_v138 : S50000.Idx → BitVec 32) = Vals.srcc m 10 c :=
    (GenP.V22_of m _ c main_v138 (by decide)).trans (tgt_10 m c)
  have ho : (GenP.V22 m (Vals.outs m) c main_v6 : FVec F S50000 .f32) = Vals.ones :=
    (GenP.V22_of m _ c main_v6 (by decide)).trans (ones_10 m c)
  show StableHlo.after Gen.hostOps11 (GenP.V22 m (Vals.outs m) c) (Proc.devRef .tc main_v149) = _
  after_results_simp
  rw [hs, ht, ho]
  rfl

theorem tbl_11 (c : Dev nD) : (GenP.V23 m (Vals.outs m) c main_v150 : S50000.Idx → BitVec 32) = Vals.dstc m 11 c := by
  have hd : (GenP.V22 m (Vals.outs m) c main_v3 : S1600000.Idx → BitVec 32) = Vals.dst m c :=
    (GenP.V22_of m _ c main_v3 (by decide)).trans (dst_10 m c)
  show StableHlo.after Gen.hostOps11 (GenP.V22 m (Vals.outs m) c) (Proc.devRef .tc main_v150) = _
  after_results_simp
  rw [hd, Vals.dstc, dif_pos (by decide : 11 < 32)] <;> rfl

theorem tgt_11 (c : Dev nD) : (GenP.V23 m (Vals.outs m) c main_v151 : S50000.Idx → BitVec 32) = Vals.srcc m 11 c := by
  have hd : (GenP.V22 m (Vals.outs m) c main_v1 : S1600000.Idx → BitVec 32) = Vals.src m c :=
    (GenP.V22_of m _ c main_v1 (by decide)).trans (src_10 m c)
  show StableHlo.after Gen.hostOps11 (GenP.V22 m (Vals.outs m) c) (Proc.devRef .tc main_v151) = _
  after_results_simp
  rw [hd, Vals.srcc, dif_pos (by decide : 11 < 32)] <;> rfl

theorem x3_11 (c : Dev nD) : (GenP.V23 m (Vals.outs m) c main_v152 : FVec F S100000x1x128 .f32) = Vals.X3 m c := by
  have hx : (GenP.V22 m (Vals.outs m) c main_arg0 : FVec F S100000x128 .f32) = Vals.X m c :=
    (GenP.V22_of m _ c main_arg0 (by decide)).trans (x_10 m c)
  show StableHlo.after Gen.hostOps11 (GenP.V22 m (Vals.outs m) c) (Proc.devRef .tc main_v152) = _
  after_results_simp
  rw [hx]
  rfl

/-! ## Boundary 25: after region 11 and the host stretch that adds chunk 11 -/

theorem src_12 (c : Dev nD) : (GenP.V25 m (Vals.outs m) c main_v1 : S1600000.Idx → BitVec 32) = Vals.src m c :=
  (GenP.V25_of m _ c main_v1 (by decide)).trans ((GenP.V24_of m _ c main_v1 (by decide)).trans (src_11 m c))

theorem dst_12 (c : Dev nD) : (GenP.V25 m (Vals.outs m) c main_v3 : S1600000.Idx → BitVec 32) = Vals.dst m c :=
  (GenP.V25_of m _ c main_v3 (by decide)).trans ((GenP.V24_of m _ c main_v3 (by decide)).trans (dst_11 m c))

theorem ones_12 (c : Dev nD) : (GenP.V25 m (Vals.outs m) c main_v6 : FVec F S50000 .f32) = Vals.ones :=
  (GenP.V25_of m _ c main_v6 (by decide)).trans ((GenP.V24_of m _ c main_v6 (by decide)).trans (ones_11 m c))

theorem x_12 (c : Dev nD) : (GenP.V25 m (Vals.outs m) c main_arg0 : FVec F S100000x128 .f32) = Vals.X m c :=
  (GenP.V25_of m _ c main_arg0 (by decide)).trans ((GenP.V24_of m _ c main_arg0 (by decide)).trans (x_11 m c))

theorem wt_12 (c : Dev nD) : (GenP.V25 m (Vals.outs m) c main_arg2 : FVec F S128x128 .f32) = Vals.Wt m c :=
  (GenP.V25_of m _ c main_arg2 (by decide)).trans ((GenP.V24_of m _ c main_arg2 (by decide)).trans (wt_11 m c))

theorem agg_12 (c : Dev nD) : (GenP.V25 m (Vals.outs m) c main_v158 : FVec F S100000x128 .f32) = Vals.agg m 12 c := by
  have hs : (GenP.V24 m (Vals.outs m) c main_v145 : FVec F S100000x128 .f32) = Vals.agg m 11 c :=
    (GenP.V24_of m _ c main_v145 (by decide)).trans (agg_11 m c)
  have ht : (GenP.V24 m (Vals.outs m) c main_v151 : S50000.Idx → BitVec 32) = Vals.srcc m 11 c :=
    (GenP.V24_of m _ c main_v151 (by decide)).trans (tgt_11 m c)
  have hg : (GenP.V24 m (Vals.outs m) c main_v153 : FVec F S50000x1x128 .f32) = Vals.gath3 m 11 c :=
    (Function.update_self ..).trans (Vals.outs_11 m c)
  show StableHlo.after Gen.hostOps12 (GenP.V24 m (Vals.outs m) c) (Proc.devRef .tc main_v158) = _
  after_results_simp
  rw [hs, ht, hg]
  rfl

theorem deg_12 (c : Dev nD) : (GenP.V25 m (Vals.outs m) c main_v162 : FVec F S100000 .f32) = Vals.deg m 12 c := by
  have hs : (GenP.V24 m (Vals.outs m) c main_v149 : FVec F S100000 .f32) = Vals.deg m 11 c :=
    (GenP.V24_of m _ c main_v149 (by decide)).trans (deg_11 m c)
  have ht : (GenP.V24 m (Vals.outs m) c main_v151 : S50000.Idx → BitVec 32) = Vals.srcc m 11 c :=
    (GenP.V24_of m _ c main_v151 (by decide)).trans (tgt_11 m c)
  have ho : (GenP.V24 m (Vals.outs m) c main_v6 : FVec F S50000 .f32) = Vals.ones :=
    (GenP.V24_of m _ c main_v6 (by decide)).trans (ones_11 m c)
  show StableHlo.after Gen.hostOps12 (GenP.V24 m (Vals.outs m) c) (Proc.devRef .tc main_v162) = _
  after_results_simp
  rw [hs, ht, ho]
  rfl

theorem tbl_12 (c : Dev nD) : (GenP.V25 m (Vals.outs m) c main_v163 : S50000.Idx → BitVec 32) = Vals.dstc m 12 c := by
  have hd : (GenP.V24 m (Vals.outs m) c main_v3 : S1600000.Idx → BitVec 32) = Vals.dst m c :=
    (GenP.V24_of m _ c main_v3 (by decide)).trans (dst_11 m c)
  show StableHlo.after Gen.hostOps12 (GenP.V24 m (Vals.outs m) c) (Proc.devRef .tc main_v163) = _
  after_results_simp
  rw [hd, Vals.dstc, dif_pos (by decide : 12 < 32)] <;> rfl

theorem tgt_12 (c : Dev nD) : (GenP.V25 m (Vals.outs m) c main_v164 : S50000.Idx → BitVec 32) = Vals.srcc m 12 c := by
  have hd : (GenP.V24 m (Vals.outs m) c main_v1 : S1600000.Idx → BitVec 32) = Vals.src m c :=
    (GenP.V24_of m _ c main_v1 (by decide)).trans (src_11 m c)
  show StableHlo.after Gen.hostOps12 (GenP.V24 m (Vals.outs m) c) (Proc.devRef .tc main_v164) = _
  after_results_simp
  rw [hd, Vals.srcc, dif_pos (by decide : 12 < 32)] <;> rfl

theorem x3_12 (c : Dev nD) : (GenP.V25 m (Vals.outs m) c main_v165 : FVec F S100000x1x128 .f32) = Vals.X3 m c := by
  have hx : (GenP.V24 m (Vals.outs m) c main_arg0 : FVec F S100000x128 .f32) = Vals.X m c :=
    (GenP.V24_of m _ c main_arg0 (by decide)).trans (x_11 m c)
  show StableHlo.after Gen.hostOps12 (GenP.V24 m (Vals.outs m) c) (Proc.devRef .tc main_v165) = _
  after_results_simp
  rw [hx]
  rfl

/-! ## Boundary 27: after region 12 and the host stretch that adds chunk 12 -/

theorem src_13 (c : Dev nD) : (GenP.V27 m (Vals.outs m) c main_v1 : S1600000.Idx → BitVec 32) = Vals.src m c :=
  (GenP.V27_of m _ c main_v1 (by decide)).trans ((GenP.V26_of m _ c main_v1 (by decide)).trans (src_12 m c))

theorem dst_13 (c : Dev nD) : (GenP.V27 m (Vals.outs m) c main_v3 : S1600000.Idx → BitVec 32) = Vals.dst m c :=
  (GenP.V27_of m _ c main_v3 (by decide)).trans ((GenP.V26_of m _ c main_v3 (by decide)).trans (dst_12 m c))

theorem ones_13 (c : Dev nD) : (GenP.V27 m (Vals.outs m) c main_v6 : FVec F S50000 .f32) = Vals.ones :=
  (GenP.V27_of m _ c main_v6 (by decide)).trans ((GenP.V26_of m _ c main_v6 (by decide)).trans (ones_12 m c))

theorem x_13 (c : Dev nD) : (GenP.V27 m (Vals.outs m) c main_arg0 : FVec F S100000x128 .f32) = Vals.X m c :=
  (GenP.V27_of m _ c main_arg0 (by decide)).trans ((GenP.V26_of m _ c main_arg0 (by decide)).trans (x_12 m c))

theorem wt_13 (c : Dev nD) : (GenP.V27 m (Vals.outs m) c main_arg2 : FVec F S128x128 .f32) = Vals.Wt m c :=
  (GenP.V27_of m _ c main_arg2 (by decide)).trans ((GenP.V26_of m _ c main_arg2 (by decide)).trans (wt_12 m c))

theorem agg_13 (c : Dev nD) : (GenP.V27 m (Vals.outs m) c main_v171 : FVec F S100000x128 .f32) = Vals.agg m 13 c := by
  have hs : (GenP.V26 m (Vals.outs m) c main_v158 : FVec F S100000x128 .f32) = Vals.agg m 12 c :=
    (GenP.V26_of m _ c main_v158 (by decide)).trans (agg_12 m c)
  have ht : (GenP.V26 m (Vals.outs m) c main_v164 : S50000.Idx → BitVec 32) = Vals.srcc m 12 c :=
    (GenP.V26_of m _ c main_v164 (by decide)).trans (tgt_12 m c)
  have hg : (GenP.V26 m (Vals.outs m) c main_v166 : FVec F S50000x1x128 .f32) = Vals.gath3 m 12 c :=
    (Function.update_self ..).trans (Vals.outs_12 m c)
  show StableHlo.after Gen.hostOps13 (GenP.V26 m (Vals.outs m) c) (Proc.devRef .tc main_v171) = _
  after_results_simp
  rw [hs, ht, hg]
  rfl

theorem deg_13 (c : Dev nD) : (GenP.V27 m (Vals.outs m) c main_v175 : FVec F S100000 .f32) = Vals.deg m 13 c := by
  have hs : (GenP.V26 m (Vals.outs m) c main_v162 : FVec F S100000 .f32) = Vals.deg m 12 c :=
    (GenP.V26_of m _ c main_v162 (by decide)).trans (deg_12 m c)
  have ht : (GenP.V26 m (Vals.outs m) c main_v164 : S50000.Idx → BitVec 32) = Vals.srcc m 12 c :=
    (GenP.V26_of m _ c main_v164 (by decide)).trans (tgt_12 m c)
  have ho : (GenP.V26 m (Vals.outs m) c main_v6 : FVec F S50000 .f32) = Vals.ones :=
    (GenP.V26_of m _ c main_v6 (by decide)).trans (ones_12 m c)
  show StableHlo.after Gen.hostOps13 (GenP.V26 m (Vals.outs m) c) (Proc.devRef .tc main_v175) = _
  after_results_simp
  rw [hs, ht, ho]
  rfl

theorem tbl_13 (c : Dev nD) : (GenP.V27 m (Vals.outs m) c main_v176 : S50000.Idx → BitVec 32) = Vals.dstc m 13 c := by
  have hd : (GenP.V26 m (Vals.outs m) c main_v3 : S1600000.Idx → BitVec 32) = Vals.dst m c :=
    (GenP.V26_of m _ c main_v3 (by decide)).trans (dst_12 m c)
  show StableHlo.after Gen.hostOps13 (GenP.V26 m (Vals.outs m) c) (Proc.devRef .tc main_v176) = _
  after_results_simp
  rw [hd, Vals.dstc, dif_pos (by decide : 13 < 32)] <;> rfl

theorem tgt_13 (c : Dev nD) : (GenP.V27 m (Vals.outs m) c main_v177 : S50000.Idx → BitVec 32) = Vals.srcc m 13 c := by
  have hd : (GenP.V26 m (Vals.outs m) c main_v1 : S1600000.Idx → BitVec 32) = Vals.src m c :=
    (GenP.V26_of m _ c main_v1 (by decide)).trans (src_12 m c)
  show StableHlo.after Gen.hostOps13 (GenP.V26 m (Vals.outs m) c) (Proc.devRef .tc main_v177) = _
  after_results_simp
  rw [hd, Vals.srcc, dif_pos (by decide : 13 < 32)] <;> rfl

theorem x3_13 (c : Dev nD) : (GenP.V27 m (Vals.outs m) c main_v178 : FVec F S100000x1x128 .f32) = Vals.X3 m c := by
  have hx : (GenP.V26 m (Vals.outs m) c main_arg0 : FVec F S100000x128 .f32) = Vals.X m c :=
    (GenP.V26_of m _ c main_arg0 (by decide)).trans (x_12 m c)
  show StableHlo.after Gen.hostOps13 (GenP.V26 m (Vals.outs m) c) (Proc.devRef .tc main_v178) = _
  after_results_simp
  rw [hx]
  rfl

/-! ## Boundary 29: after region 13 and the host stretch that adds chunk 13 -/

theorem src_14 (c : Dev nD) : (GenP.V29 m (Vals.outs m) c main_v1 : S1600000.Idx → BitVec 32) = Vals.src m c :=
  (GenP.V29_of m _ c main_v1 (by decide)).trans ((GenP.V28_of m _ c main_v1 (by decide)).trans (src_13 m c))

theorem dst_14 (c : Dev nD) : (GenP.V29 m (Vals.outs m) c main_v3 : S1600000.Idx → BitVec 32) = Vals.dst m c :=
  (GenP.V29_of m _ c main_v3 (by decide)).trans ((GenP.V28_of m _ c main_v3 (by decide)).trans (dst_13 m c))

theorem ones_14 (c : Dev nD) : (GenP.V29 m (Vals.outs m) c main_v6 : FVec F S50000 .f32) = Vals.ones :=
  (GenP.V29_of m _ c main_v6 (by decide)).trans ((GenP.V28_of m _ c main_v6 (by decide)).trans (ones_13 m c))

theorem x_14 (c : Dev nD) : (GenP.V29 m (Vals.outs m) c main_arg0 : FVec F S100000x128 .f32) = Vals.X m c :=
  (GenP.V29_of m _ c main_arg0 (by decide)).trans ((GenP.V28_of m _ c main_arg0 (by decide)).trans (x_13 m c))

theorem wt_14 (c : Dev nD) : (GenP.V29 m (Vals.outs m) c main_arg2 : FVec F S128x128 .f32) = Vals.Wt m c :=
  (GenP.V29_of m _ c main_arg2 (by decide)).trans ((GenP.V28_of m _ c main_arg2 (by decide)).trans (wt_13 m c))

theorem agg_14 (c : Dev nD) : (GenP.V29 m (Vals.outs m) c main_v184 : FVec F S100000x128 .f32) = Vals.agg m 14 c := by
  have hs : (GenP.V28 m (Vals.outs m) c main_v171 : FVec F S100000x128 .f32) = Vals.agg m 13 c :=
    (GenP.V28_of m _ c main_v171 (by decide)).trans (agg_13 m c)
  have ht : (GenP.V28 m (Vals.outs m) c main_v177 : S50000.Idx → BitVec 32) = Vals.srcc m 13 c :=
    (GenP.V28_of m _ c main_v177 (by decide)).trans (tgt_13 m c)
  have hg : (GenP.V28 m (Vals.outs m) c main_v179 : FVec F S50000x1x128 .f32) = Vals.gath3 m 13 c :=
    (Function.update_self ..).trans (Vals.outs_13 m c)
  show StableHlo.after Gen.hostOps14 (GenP.V28 m (Vals.outs m) c) (Proc.devRef .tc main_v184) = _
  after_results_simp
  rw [hs, ht, hg]
  rfl

theorem deg_14 (c : Dev nD) : (GenP.V29 m (Vals.outs m) c main_v188 : FVec F S100000 .f32) = Vals.deg m 14 c := by
  have hs : (GenP.V28 m (Vals.outs m) c main_v175 : FVec F S100000 .f32) = Vals.deg m 13 c :=
    (GenP.V28_of m _ c main_v175 (by decide)).trans (deg_13 m c)
  have ht : (GenP.V28 m (Vals.outs m) c main_v177 : S50000.Idx → BitVec 32) = Vals.srcc m 13 c :=
    (GenP.V28_of m _ c main_v177 (by decide)).trans (tgt_13 m c)
  have ho : (GenP.V28 m (Vals.outs m) c main_v6 : FVec F S50000 .f32) = Vals.ones :=
    (GenP.V28_of m _ c main_v6 (by decide)).trans (ones_13 m c)
  show StableHlo.after Gen.hostOps14 (GenP.V28 m (Vals.outs m) c) (Proc.devRef .tc main_v188) = _
  after_results_simp
  rw [hs, ht, ho]
  rfl

theorem tbl_14 (c : Dev nD) : (GenP.V29 m (Vals.outs m) c main_v189 : S50000.Idx → BitVec 32) = Vals.dstc m 14 c := by
  have hd : (GenP.V28 m (Vals.outs m) c main_v3 : S1600000.Idx → BitVec 32) = Vals.dst m c :=
    (GenP.V28_of m _ c main_v3 (by decide)).trans (dst_13 m c)
  show StableHlo.after Gen.hostOps14 (GenP.V28 m (Vals.outs m) c) (Proc.devRef .tc main_v189) = _
  after_results_simp
  rw [hd, Vals.dstc, dif_pos (by decide : 14 < 32)] <;> rfl

theorem tgt_14 (c : Dev nD) : (GenP.V29 m (Vals.outs m) c main_v190 : S50000.Idx → BitVec 32) = Vals.srcc m 14 c := by
  have hd : (GenP.V28 m (Vals.outs m) c main_v1 : S1600000.Idx → BitVec 32) = Vals.src m c :=
    (GenP.V28_of m _ c main_v1 (by decide)).trans (src_13 m c)
  show StableHlo.after Gen.hostOps14 (GenP.V28 m (Vals.outs m) c) (Proc.devRef .tc main_v190) = _
  after_results_simp
  rw [hd, Vals.srcc, dif_pos (by decide : 14 < 32)] <;> rfl

theorem x3_14 (c : Dev nD) : (GenP.V29 m (Vals.outs m) c main_v191 : FVec F S100000x1x128 .f32) = Vals.X3 m c := by
  have hx : (GenP.V28 m (Vals.outs m) c main_arg0 : FVec F S100000x128 .f32) = Vals.X m c :=
    (GenP.V28_of m _ c main_arg0 (by decide)).trans (x_13 m c)
  show StableHlo.after Gen.hostOps14 (GenP.V28 m (Vals.outs m) c) (Proc.devRef .tc main_v191) = _
  after_results_simp
  rw [hx]
  rfl

/-! ## Boundary 31: after region 14 and the host stretch that adds chunk 14 -/

theorem src_15 (c : Dev nD) : (GenP.V31 m (Vals.outs m) c main_v1 : S1600000.Idx → BitVec 32) = Vals.src m c :=
  (GenP.V31_of m _ c main_v1 (by decide)).trans ((GenP.V30_of m _ c main_v1 (by decide)).trans (src_14 m c))

theorem dst_15 (c : Dev nD) : (GenP.V31 m (Vals.outs m) c main_v3 : S1600000.Idx → BitVec 32) = Vals.dst m c :=
  (GenP.V31_of m _ c main_v3 (by decide)).trans ((GenP.V30_of m _ c main_v3 (by decide)).trans (dst_14 m c))

theorem ones_15 (c : Dev nD) : (GenP.V31 m (Vals.outs m) c main_v6 : FVec F S50000 .f32) = Vals.ones :=
  (GenP.V31_of m _ c main_v6 (by decide)).trans ((GenP.V30_of m _ c main_v6 (by decide)).trans (ones_14 m c))

theorem x_15 (c : Dev nD) : (GenP.V31 m (Vals.outs m) c main_arg0 : FVec F S100000x128 .f32) = Vals.X m c :=
  (GenP.V31_of m _ c main_arg0 (by decide)).trans ((GenP.V30_of m _ c main_arg0 (by decide)).trans (x_14 m c))

theorem wt_15 (c : Dev nD) : (GenP.V31 m (Vals.outs m) c main_arg2 : FVec F S128x128 .f32) = Vals.Wt m c :=
  (GenP.V31_of m _ c main_arg2 (by decide)).trans ((GenP.V30_of m _ c main_arg2 (by decide)).trans (wt_14 m c))

theorem agg_15 (c : Dev nD) : (GenP.V31 m (Vals.outs m) c main_v197 : FVec F S100000x128 .f32) = Vals.agg m 15 c := by
  have hs : (GenP.V30 m (Vals.outs m) c main_v184 : FVec F S100000x128 .f32) = Vals.agg m 14 c :=
    (GenP.V30_of m _ c main_v184 (by decide)).trans (agg_14 m c)
  have ht : (GenP.V30 m (Vals.outs m) c main_v190 : S50000.Idx → BitVec 32) = Vals.srcc m 14 c :=
    (GenP.V30_of m _ c main_v190 (by decide)).trans (tgt_14 m c)
  have hg : (GenP.V30 m (Vals.outs m) c main_v192 : FVec F S50000x1x128 .f32) = Vals.gath3 m 14 c :=
    (Function.update_self ..).trans (Vals.outs_14 m c)
  show StableHlo.after Gen.hostOps15 (GenP.V30 m (Vals.outs m) c) (Proc.devRef .tc main_v197) = _
  after_results_simp
  rw [hs, ht, hg]
  rfl

theorem deg_15 (c : Dev nD) : (GenP.V31 m (Vals.outs m) c main_v201 : FVec F S100000 .f32) = Vals.deg m 15 c := by
  have hs : (GenP.V30 m (Vals.outs m) c main_v188 : FVec F S100000 .f32) = Vals.deg m 14 c :=
    (GenP.V30_of m _ c main_v188 (by decide)).trans (deg_14 m c)
  have ht : (GenP.V30 m (Vals.outs m) c main_v190 : S50000.Idx → BitVec 32) = Vals.srcc m 14 c :=
    (GenP.V30_of m _ c main_v190 (by decide)).trans (tgt_14 m c)
  have ho : (GenP.V30 m (Vals.outs m) c main_v6 : FVec F S50000 .f32) = Vals.ones :=
    (GenP.V30_of m _ c main_v6 (by decide)).trans (ones_14 m c)
  show StableHlo.after Gen.hostOps15 (GenP.V30 m (Vals.outs m) c) (Proc.devRef .tc main_v201) = _
  after_results_simp
  rw [hs, ht, ho]
  rfl

theorem tbl_15 (c : Dev nD) : (GenP.V31 m (Vals.outs m) c main_v202 : S50000.Idx → BitVec 32) = Vals.dstc m 15 c := by
  have hd : (GenP.V30 m (Vals.outs m) c main_v3 : S1600000.Idx → BitVec 32) = Vals.dst m c :=
    (GenP.V30_of m _ c main_v3 (by decide)).trans (dst_14 m c)
  show StableHlo.after Gen.hostOps15 (GenP.V30 m (Vals.outs m) c) (Proc.devRef .tc main_v202) = _
  after_results_simp
  rw [hd, Vals.dstc, dif_pos (by decide : 15 < 32)] <;> rfl

theorem tgt_15 (c : Dev nD) : (GenP.V31 m (Vals.outs m) c main_v203 : S50000.Idx → BitVec 32) = Vals.srcc m 15 c := by
  have hd : (GenP.V30 m (Vals.outs m) c main_v1 : S1600000.Idx → BitVec 32) = Vals.src m c :=
    (GenP.V30_of m _ c main_v1 (by decide)).trans (src_14 m c)
  show StableHlo.after Gen.hostOps15 (GenP.V30 m (Vals.outs m) c) (Proc.devRef .tc main_v203) = _
  after_results_simp
  rw [hd, Vals.srcc, dif_pos (by decide : 15 < 32)] <;> rfl

theorem x3_15 (c : Dev nD) : (GenP.V31 m (Vals.outs m) c main_v204 : FVec F S100000x1x128 .f32) = Vals.X3 m c := by
  have hx : (GenP.V30 m (Vals.outs m) c main_arg0 : FVec F S100000x128 .f32) = Vals.X m c :=
    (GenP.V30_of m _ c main_arg0 (by decide)).trans (x_14 m c)
  show StableHlo.after Gen.hostOps15 (GenP.V30 m (Vals.outs m) c) (Proc.devRef .tc main_v204) = _
  after_results_simp
  rw [hx]
  rfl

/-! ## Boundary 33: after region 15 and the host stretch that adds chunk 15 -/

theorem src_16 (c : Dev nD) : (GenP.V33 m (Vals.outs m) c main_v1 : S1600000.Idx → BitVec 32) = Vals.src m c :=
  (GenP.V33_of m _ c main_v1 (by decide)).trans ((GenP.V32_of m _ c main_v1 (by decide)).trans (src_15 m c))

theorem dst_16 (c : Dev nD) : (GenP.V33 m (Vals.outs m) c main_v3 : S1600000.Idx → BitVec 32) = Vals.dst m c :=
  (GenP.V33_of m _ c main_v3 (by decide)).trans ((GenP.V32_of m _ c main_v3 (by decide)).trans (dst_15 m c))

theorem ones_16 (c : Dev nD) : (GenP.V33 m (Vals.outs m) c main_v6 : FVec F S50000 .f32) = Vals.ones :=
  (GenP.V33_of m _ c main_v6 (by decide)).trans ((GenP.V32_of m _ c main_v6 (by decide)).trans (ones_15 m c))

theorem x_16 (c : Dev nD) : (GenP.V33 m (Vals.outs m) c main_arg0 : FVec F S100000x128 .f32) = Vals.X m c :=
  (GenP.V33_of m _ c main_arg0 (by decide)).trans ((GenP.V32_of m _ c main_arg0 (by decide)).trans (x_15 m c))

theorem wt_16 (c : Dev nD) : (GenP.V33 m (Vals.outs m) c main_arg2 : FVec F S128x128 .f32) = Vals.Wt m c :=
  (GenP.V33_of m _ c main_arg2 (by decide)).trans ((GenP.V32_of m _ c main_arg2 (by decide)).trans (wt_15 m c))

theorem agg_16 (c : Dev nD) : (GenP.V33 m (Vals.outs m) c main_v210 : FVec F S100000x128 .f32) = Vals.agg m 16 c := by
  have hs : (GenP.V32 m (Vals.outs m) c main_v197 : FVec F S100000x128 .f32) = Vals.agg m 15 c :=
    (GenP.V32_of m _ c main_v197 (by decide)).trans (agg_15 m c)
  have ht : (GenP.V32 m (Vals.outs m) c main_v203 : S50000.Idx → BitVec 32) = Vals.srcc m 15 c :=
    (GenP.V32_of m _ c main_v203 (by decide)).trans (tgt_15 m c)
  have hg : (GenP.V32 m (Vals.outs m) c main_v205 : FVec F S50000x1x128 .f32) = Vals.gath3 m 15 c :=
    (Function.update_self ..).trans (Vals.outs_15 m c)
  show StableHlo.after Gen.hostOps16 (GenP.V32 m (Vals.outs m) c) (Proc.devRef .tc main_v210) = _
  after_results_simp
  rw [hs, ht, hg]
  rfl

theorem deg_16 (c : Dev nD) : (GenP.V33 m (Vals.outs m) c main_v214 : FVec F S100000 .f32) = Vals.deg m 16 c := by
  have hs : (GenP.V32 m (Vals.outs m) c main_v201 : FVec F S100000 .f32) = Vals.deg m 15 c :=
    (GenP.V32_of m _ c main_v201 (by decide)).trans (deg_15 m c)
  have ht : (GenP.V32 m (Vals.outs m) c main_v203 : S50000.Idx → BitVec 32) = Vals.srcc m 15 c :=
    (GenP.V32_of m _ c main_v203 (by decide)).trans (tgt_15 m c)
  have ho : (GenP.V32 m (Vals.outs m) c main_v6 : FVec F S50000 .f32) = Vals.ones :=
    (GenP.V32_of m _ c main_v6 (by decide)).trans (ones_15 m c)
  show StableHlo.after Gen.hostOps16 (GenP.V32 m (Vals.outs m) c) (Proc.devRef .tc main_v214) = _
  after_results_simp
  rw [hs, ht, ho]
  rfl

theorem tbl_16 (c : Dev nD) : (GenP.V33 m (Vals.outs m) c main_v215 : S50000.Idx → BitVec 32) = Vals.dstc m 16 c := by
  have hd : (GenP.V32 m (Vals.outs m) c main_v3 : S1600000.Idx → BitVec 32) = Vals.dst m c :=
    (GenP.V32_of m _ c main_v3 (by decide)).trans (dst_15 m c)
  show StableHlo.after Gen.hostOps16 (GenP.V32 m (Vals.outs m) c) (Proc.devRef .tc main_v215) = _
  after_results_simp
  rw [hd, Vals.dstc, dif_pos (by decide : 16 < 32)] <;> rfl

theorem tgt_16 (c : Dev nD) : (GenP.V33 m (Vals.outs m) c main_v216 : S50000.Idx → BitVec 32) = Vals.srcc m 16 c := by
  have hd : (GenP.V32 m (Vals.outs m) c main_v1 : S1600000.Idx → BitVec 32) = Vals.src m c :=
    (GenP.V32_of m _ c main_v1 (by decide)).trans (src_15 m c)
  show StableHlo.after Gen.hostOps16 (GenP.V32 m (Vals.outs m) c) (Proc.devRef .tc main_v216) = _
  after_results_simp
  rw [hd, Vals.srcc, dif_pos (by decide : 16 < 32)] <;> rfl

theorem x3_16 (c : Dev nD) : (GenP.V33 m (Vals.outs m) c main_v217 : FVec F S100000x1x128 .f32) = Vals.X3 m c := by
  have hx : (GenP.V32 m (Vals.outs m) c main_arg0 : FVec F S100000x128 .f32) = Vals.X m c :=
    (GenP.V32_of m _ c main_arg0 (by decide)).trans (x_15 m c)
  show StableHlo.after Gen.hostOps16 (GenP.V32 m (Vals.outs m) c) (Proc.devRef .tc main_v217) = _
  after_results_simp
  rw [hx]
  rfl

/-! ## Boundary 35: after region 16 and the host stretch that adds chunk 16 -/

theorem src_17 (c : Dev nD) : (GenP.V35 m (Vals.outs m) c main_v1 : S1600000.Idx → BitVec 32) = Vals.src m c :=
  (GenP.V35_of m _ c main_v1 (by decide)).trans ((GenP.V34_of m _ c main_v1 (by decide)).trans (src_16 m c))

theorem dst_17 (c : Dev nD) : (GenP.V35 m (Vals.outs m) c main_v3 : S1600000.Idx → BitVec 32) = Vals.dst m c :=
  (GenP.V35_of m _ c main_v3 (by decide)).trans ((GenP.V34_of m _ c main_v3 (by decide)).trans (dst_16 m c))

theorem ones_17 (c : Dev nD) : (GenP.V35 m (Vals.outs m) c main_v6 : FVec F S50000 .f32) = Vals.ones :=
  (GenP.V35_of m _ c main_v6 (by decide)).trans ((GenP.V34_of m _ c main_v6 (by decide)).trans (ones_16 m c))

theorem x_17 (c : Dev nD) : (GenP.V35 m (Vals.outs m) c main_arg0 : FVec F S100000x128 .f32) = Vals.X m c :=
  (GenP.V35_of m _ c main_arg0 (by decide)).trans ((GenP.V34_of m _ c main_arg0 (by decide)).trans (x_16 m c))

theorem wt_17 (c : Dev nD) : (GenP.V35 m (Vals.outs m) c main_arg2 : FVec F S128x128 .f32) = Vals.Wt m c :=
  (GenP.V35_of m _ c main_arg2 (by decide)).trans ((GenP.V34_of m _ c main_arg2 (by decide)).trans (wt_16 m c))

theorem agg_17 (c : Dev nD) : (GenP.V35 m (Vals.outs m) c main_v223 : FVec F S100000x128 .f32) = Vals.agg m 17 c := by
  have hs : (GenP.V34 m (Vals.outs m) c main_v210 : FVec F S100000x128 .f32) = Vals.agg m 16 c :=
    (GenP.V34_of m _ c main_v210 (by decide)).trans (agg_16 m c)
  have ht : (GenP.V34 m (Vals.outs m) c main_v216 : S50000.Idx → BitVec 32) = Vals.srcc m 16 c :=
    (GenP.V34_of m _ c main_v216 (by decide)).trans (tgt_16 m c)
  have hg : (GenP.V34 m (Vals.outs m) c main_v218 : FVec F S50000x1x128 .f32) = Vals.gath3 m 16 c :=
    (Function.update_self ..).trans (Vals.outs_16 m c)
  show StableHlo.after Gen.hostOps17 (GenP.V34 m (Vals.outs m) c) (Proc.devRef .tc main_v223) = _
  after_results_simp
  rw [hs, ht, hg]
  rfl

theorem deg_17 (c : Dev nD) : (GenP.V35 m (Vals.outs m) c main_v227 : FVec F S100000 .f32) = Vals.deg m 17 c := by
  have hs : (GenP.V34 m (Vals.outs m) c main_v214 : FVec F S100000 .f32) = Vals.deg m 16 c :=
    (GenP.V34_of m _ c main_v214 (by decide)).trans (deg_16 m c)
  have ht : (GenP.V34 m (Vals.outs m) c main_v216 : S50000.Idx → BitVec 32) = Vals.srcc m 16 c :=
    (GenP.V34_of m _ c main_v216 (by decide)).trans (tgt_16 m c)
  have ho : (GenP.V34 m (Vals.outs m) c main_v6 : FVec F S50000 .f32) = Vals.ones :=
    (GenP.V34_of m _ c main_v6 (by decide)).trans (ones_16 m c)
  show StableHlo.after Gen.hostOps17 (GenP.V34 m (Vals.outs m) c) (Proc.devRef .tc main_v227) = _
  after_results_simp
  rw [hs, ht, ho]
  rfl

theorem tbl_17 (c : Dev nD) : (GenP.V35 m (Vals.outs m) c main_v228 : S50000.Idx → BitVec 32) = Vals.dstc m 17 c := by
  have hd : (GenP.V34 m (Vals.outs m) c main_v3 : S1600000.Idx → BitVec 32) = Vals.dst m c :=
    (GenP.V34_of m _ c main_v3 (by decide)).trans (dst_16 m c)
  show StableHlo.after Gen.hostOps17 (GenP.V34 m (Vals.outs m) c) (Proc.devRef .tc main_v228) = _
  after_results_simp
  rw [hd, Vals.dstc, dif_pos (by decide : 17 < 32)] <;> rfl

theorem tgt_17 (c : Dev nD) : (GenP.V35 m (Vals.outs m) c main_v229 : S50000.Idx → BitVec 32) = Vals.srcc m 17 c := by
  have hd : (GenP.V34 m (Vals.outs m) c main_v1 : S1600000.Idx → BitVec 32) = Vals.src m c :=
    (GenP.V34_of m _ c main_v1 (by decide)).trans (src_16 m c)
  show StableHlo.after Gen.hostOps17 (GenP.V34 m (Vals.outs m) c) (Proc.devRef .tc main_v229) = _
  after_results_simp
  rw [hd, Vals.srcc, dif_pos (by decide : 17 < 32)] <;> rfl

theorem x3_17 (c : Dev nD) : (GenP.V35 m (Vals.outs m) c main_v230 : FVec F S100000x1x128 .f32) = Vals.X3 m c := by
  have hx : (GenP.V34 m (Vals.outs m) c main_arg0 : FVec F S100000x128 .f32) = Vals.X m c :=
    (GenP.V34_of m _ c main_arg0 (by decide)).trans (x_16 m c)
  show StableHlo.after Gen.hostOps17 (GenP.V34 m (Vals.outs m) c) (Proc.devRef .tc main_v230) = _
  after_results_simp
  rw [hx]
  rfl

/-! ## Boundary 37: after region 17 and the host stretch that adds chunk 17 -/

theorem src_18 (c : Dev nD) : (GenP.V37 m (Vals.outs m) c main_v1 : S1600000.Idx → BitVec 32) = Vals.src m c :=
  (GenP.V37_of m _ c main_v1 (by decide)).trans ((GenP.V36_of m _ c main_v1 (by decide)).trans (src_17 m c))

theorem dst_18 (c : Dev nD) : (GenP.V37 m (Vals.outs m) c main_v3 : S1600000.Idx → BitVec 32) = Vals.dst m c :=
  (GenP.V37_of m _ c main_v3 (by decide)).trans ((GenP.V36_of m _ c main_v3 (by decide)).trans (dst_17 m c))

theorem ones_18 (c : Dev nD) : (GenP.V37 m (Vals.outs m) c main_v6 : FVec F S50000 .f32) = Vals.ones :=
  (GenP.V37_of m _ c main_v6 (by decide)).trans ((GenP.V36_of m _ c main_v6 (by decide)).trans (ones_17 m c))

theorem x_18 (c : Dev nD) : (GenP.V37 m (Vals.outs m) c main_arg0 : FVec F S100000x128 .f32) = Vals.X m c :=
  (GenP.V37_of m _ c main_arg0 (by decide)).trans ((GenP.V36_of m _ c main_arg0 (by decide)).trans (x_17 m c))

theorem wt_18 (c : Dev nD) : (GenP.V37 m (Vals.outs m) c main_arg2 : FVec F S128x128 .f32) = Vals.Wt m c :=
  (GenP.V37_of m _ c main_arg2 (by decide)).trans ((GenP.V36_of m _ c main_arg2 (by decide)).trans (wt_17 m c))

theorem agg_18 (c : Dev nD) : (GenP.V37 m (Vals.outs m) c main_v236 : FVec F S100000x128 .f32) = Vals.agg m 18 c := by
  have hs : (GenP.V36 m (Vals.outs m) c main_v223 : FVec F S100000x128 .f32) = Vals.agg m 17 c :=
    (GenP.V36_of m _ c main_v223 (by decide)).trans (agg_17 m c)
  have ht : (GenP.V36 m (Vals.outs m) c main_v229 : S50000.Idx → BitVec 32) = Vals.srcc m 17 c :=
    (GenP.V36_of m _ c main_v229 (by decide)).trans (tgt_17 m c)
  have hg : (GenP.V36 m (Vals.outs m) c main_v231 : FVec F S50000x1x128 .f32) = Vals.gath3 m 17 c :=
    (Function.update_self ..).trans (Vals.outs_17 m c)
  show StableHlo.after Gen.hostOps18 (GenP.V36 m (Vals.outs m) c) (Proc.devRef .tc main_v236) = _
  after_results_simp
  rw [hs, ht, hg]
  rfl

theorem deg_18 (c : Dev nD) : (GenP.V37 m (Vals.outs m) c main_v240 : FVec F S100000 .f32) = Vals.deg m 18 c := by
  have hs : (GenP.V36 m (Vals.outs m) c main_v227 : FVec F S100000 .f32) = Vals.deg m 17 c :=
    (GenP.V36_of m _ c main_v227 (by decide)).trans (deg_17 m c)
  have ht : (GenP.V36 m (Vals.outs m) c main_v229 : S50000.Idx → BitVec 32) = Vals.srcc m 17 c :=
    (GenP.V36_of m _ c main_v229 (by decide)).trans (tgt_17 m c)
  have ho : (GenP.V36 m (Vals.outs m) c main_v6 : FVec F S50000 .f32) = Vals.ones :=
    (GenP.V36_of m _ c main_v6 (by decide)).trans (ones_17 m c)
  show StableHlo.after Gen.hostOps18 (GenP.V36 m (Vals.outs m) c) (Proc.devRef .tc main_v240) = _
  after_results_simp
  rw [hs, ht, ho]
  rfl

theorem tbl_18 (c : Dev nD) : (GenP.V37 m (Vals.outs m) c main_v241 : S50000.Idx → BitVec 32) = Vals.dstc m 18 c := by
  have hd : (GenP.V36 m (Vals.outs m) c main_v3 : S1600000.Idx → BitVec 32) = Vals.dst m c :=
    (GenP.V36_of m _ c main_v3 (by decide)).trans (dst_17 m c)
  show StableHlo.after Gen.hostOps18 (GenP.V36 m (Vals.outs m) c) (Proc.devRef .tc main_v241) = _
  after_results_simp
  rw [hd, Vals.dstc, dif_pos (by decide : 18 < 32)] <;> rfl

theorem tgt_18 (c : Dev nD) : (GenP.V37 m (Vals.outs m) c main_v242 : S50000.Idx → BitVec 32) = Vals.srcc m 18 c := by
  have hd : (GenP.V36 m (Vals.outs m) c main_v1 : S1600000.Idx → BitVec 32) = Vals.src m c :=
    (GenP.V36_of m _ c main_v1 (by decide)).trans (src_17 m c)
  show StableHlo.after Gen.hostOps18 (GenP.V36 m (Vals.outs m) c) (Proc.devRef .tc main_v242) = _
  after_results_simp
  rw [hd, Vals.srcc, dif_pos (by decide : 18 < 32)] <;> rfl

theorem x3_18 (c : Dev nD) : (GenP.V37 m (Vals.outs m) c main_v243 : FVec F S100000x1x128 .f32) = Vals.X3 m c := by
  have hx : (GenP.V36 m (Vals.outs m) c main_arg0 : FVec F S100000x128 .f32) = Vals.X m c :=
    (GenP.V36_of m _ c main_arg0 (by decide)).trans (x_17 m c)
  show StableHlo.after Gen.hostOps18 (GenP.V36 m (Vals.outs m) c) (Proc.devRef .tc main_v243) = _
  after_results_simp
  rw [hx]
  rfl

/-! ## Boundary 39: after region 18 and the host stretch that adds chunk 18 -/

theorem src_19 (c : Dev nD) : (GenP.V39 m (Vals.outs m) c main_v1 : S1600000.Idx → BitVec 32) = Vals.src m c :=
  (GenP.V39_of m _ c main_v1 (by decide)).trans ((GenP.V38_of m _ c main_v1 (by decide)).trans (src_18 m c))

theorem dst_19 (c : Dev nD) : (GenP.V39 m (Vals.outs m) c main_v3 : S1600000.Idx → BitVec 32) = Vals.dst m c :=
  (GenP.V39_of m _ c main_v3 (by decide)).trans ((GenP.V38_of m _ c main_v3 (by decide)).trans (dst_18 m c))

theorem ones_19 (c : Dev nD) : (GenP.V39 m (Vals.outs m) c main_v6 : FVec F S50000 .f32) = Vals.ones :=
  (GenP.V39_of m _ c main_v6 (by decide)).trans ((GenP.V38_of m _ c main_v6 (by decide)).trans (ones_18 m c))

theorem x_19 (c : Dev nD) : (GenP.V39 m (Vals.outs m) c main_arg0 : FVec F S100000x128 .f32) = Vals.X m c :=
  (GenP.V39_of m _ c main_arg0 (by decide)).trans ((GenP.V38_of m _ c main_arg0 (by decide)).trans (x_18 m c))

theorem wt_19 (c : Dev nD) : (GenP.V39 m (Vals.outs m) c main_arg2 : FVec F S128x128 .f32) = Vals.Wt m c :=
  (GenP.V39_of m _ c main_arg2 (by decide)).trans ((GenP.V38_of m _ c main_arg2 (by decide)).trans (wt_18 m c))

theorem agg_19 (c : Dev nD) : (GenP.V39 m (Vals.outs m) c main_v249 : FVec F S100000x128 .f32) = Vals.agg m 19 c := by
  have hs : (GenP.V38 m (Vals.outs m) c main_v236 : FVec F S100000x128 .f32) = Vals.agg m 18 c :=
    (GenP.V38_of m _ c main_v236 (by decide)).trans (agg_18 m c)
  have ht : (GenP.V38 m (Vals.outs m) c main_v242 : S50000.Idx → BitVec 32) = Vals.srcc m 18 c :=
    (GenP.V38_of m _ c main_v242 (by decide)).trans (tgt_18 m c)
  have hg : (GenP.V38 m (Vals.outs m) c main_v244 : FVec F S50000x1x128 .f32) = Vals.gath3 m 18 c :=
    (Function.update_self ..).trans (Vals.outs_18 m c)
  show StableHlo.after Gen.hostOps19 (GenP.V38 m (Vals.outs m) c) (Proc.devRef .tc main_v249) = _
  after_results_simp
  rw [hs, ht, hg]
  rfl

theorem deg_19 (c : Dev nD) : (GenP.V39 m (Vals.outs m) c main_v253 : FVec F S100000 .f32) = Vals.deg m 19 c := by
  have hs : (GenP.V38 m (Vals.outs m) c main_v240 : FVec F S100000 .f32) = Vals.deg m 18 c :=
    (GenP.V38_of m _ c main_v240 (by decide)).trans (deg_18 m c)
  have ht : (GenP.V38 m (Vals.outs m) c main_v242 : S50000.Idx → BitVec 32) = Vals.srcc m 18 c :=
    (GenP.V38_of m _ c main_v242 (by decide)).trans (tgt_18 m c)
  have ho : (GenP.V38 m (Vals.outs m) c main_v6 : FVec F S50000 .f32) = Vals.ones :=
    (GenP.V38_of m _ c main_v6 (by decide)).trans (ones_18 m c)
  show StableHlo.after Gen.hostOps19 (GenP.V38 m (Vals.outs m) c) (Proc.devRef .tc main_v253) = _
  after_results_simp
  rw [hs, ht, ho]
  rfl

theorem tbl_19 (c : Dev nD) : (GenP.V39 m (Vals.outs m) c main_v254 : S50000.Idx → BitVec 32) = Vals.dstc m 19 c := by
  have hd : (GenP.V38 m (Vals.outs m) c main_v3 : S1600000.Idx → BitVec 32) = Vals.dst m c :=
    (GenP.V38_of m _ c main_v3 (by decide)).trans (dst_18 m c)
  show StableHlo.after Gen.hostOps19 (GenP.V38 m (Vals.outs m) c) (Proc.devRef .tc main_v254) = _
  after_results_simp
  rw [hd, Vals.dstc, dif_pos (by decide : 19 < 32)] <;> rfl

theorem tgt_19 (c : Dev nD) : (GenP.V39 m (Vals.outs m) c main_v255 : S50000.Idx → BitVec 32) = Vals.srcc m 19 c := by
  have hd : (GenP.V38 m (Vals.outs m) c main_v1 : S1600000.Idx → BitVec 32) = Vals.src m c :=
    (GenP.V38_of m _ c main_v1 (by decide)).trans (src_18 m c)
  show StableHlo.after Gen.hostOps19 (GenP.V38 m (Vals.outs m) c) (Proc.devRef .tc main_v255) = _
  after_results_simp
  rw [hd, Vals.srcc, dif_pos (by decide : 19 < 32)] <;> rfl

theorem x3_19 (c : Dev nD) : (GenP.V39 m (Vals.outs m) c main_v256 : FVec F S100000x1x128 .f32) = Vals.X3 m c := by
  have hx : (GenP.V38 m (Vals.outs m) c main_arg0 : FVec F S100000x128 .f32) = Vals.X m c :=
    (GenP.V38_of m _ c main_arg0 (by decide)).trans (x_18 m c)
  show StableHlo.after Gen.hostOps19 (GenP.V38 m (Vals.outs m) c) (Proc.devRef .tc main_v256) = _
  after_results_simp
  rw [hx]
  rfl

/-! ## Boundary 41: after region 19 and the host stretch that adds chunk 19 -/

theorem src_20 (c : Dev nD) : (GenP.V41 m (Vals.outs m) c main_v1 : S1600000.Idx → BitVec 32) = Vals.src m c :=
  (GenP.V41_of m _ c main_v1 (by decide)).trans ((GenP.V40_of m _ c main_v1 (by decide)).trans (src_19 m c))

theorem dst_20 (c : Dev nD) : (GenP.V41 m (Vals.outs m) c main_v3 : S1600000.Idx → BitVec 32) = Vals.dst m c :=
  (GenP.V41_of m _ c main_v3 (by decide)).trans ((GenP.V40_of m _ c main_v3 (by decide)).trans (dst_19 m c))

theorem ones_20 (c : Dev nD) : (GenP.V41 m (Vals.outs m) c main_v6 : FVec F S50000 .f32) = Vals.ones :=
  (GenP.V41_of m _ c main_v6 (by decide)).trans ((GenP.V40_of m _ c main_v6 (by decide)).trans (ones_19 m c))

theorem x_20 (c : Dev nD) : (GenP.V41 m (Vals.outs m) c main_arg0 : FVec F S100000x128 .f32) = Vals.X m c :=
  (GenP.V41_of m _ c main_arg0 (by decide)).trans ((GenP.V40_of m _ c main_arg0 (by decide)).trans (x_19 m c))

theorem wt_20 (c : Dev nD) : (GenP.V41 m (Vals.outs m) c main_arg2 : FVec F S128x128 .f32) = Vals.Wt m c :=
  (GenP.V41_of m _ c main_arg2 (by decide)).trans ((GenP.V40_of m _ c main_arg2 (by decide)).trans (wt_19 m c))

theorem agg_20 (c : Dev nD) : (GenP.V41 m (Vals.outs m) c main_v262 : FVec F S100000x128 .f32) = Vals.agg m 20 c := by
  have hs : (GenP.V40 m (Vals.outs m) c main_v249 : FVec F S100000x128 .f32) = Vals.agg m 19 c :=
    (GenP.V40_of m _ c main_v249 (by decide)).trans (agg_19 m c)
  have ht : (GenP.V40 m (Vals.outs m) c main_v255 : S50000.Idx → BitVec 32) = Vals.srcc m 19 c :=
    (GenP.V40_of m _ c main_v255 (by decide)).trans (tgt_19 m c)
  have hg : (GenP.V40 m (Vals.outs m) c main_v257 : FVec F S50000x1x128 .f32) = Vals.gath3 m 19 c :=
    (Function.update_self ..).trans (Vals.outs_19 m c)
  show StableHlo.after Gen.hostOps20 (GenP.V40 m (Vals.outs m) c) (Proc.devRef .tc main_v262) = _
  after_results_simp
  rw [hs, ht, hg]
  rfl

theorem deg_20 (c : Dev nD) : (GenP.V41 m (Vals.outs m) c main_v266 : FVec F S100000 .f32) = Vals.deg m 20 c := by
  have hs : (GenP.V40 m (Vals.outs m) c main_v253 : FVec F S100000 .f32) = Vals.deg m 19 c :=
    (GenP.V40_of m _ c main_v253 (by decide)).trans (deg_19 m c)
  have ht : (GenP.V40 m (Vals.outs m) c main_v255 : S50000.Idx → BitVec 32) = Vals.srcc m 19 c :=
    (GenP.V40_of m _ c main_v255 (by decide)).trans (tgt_19 m c)
  have ho : (GenP.V40 m (Vals.outs m) c main_v6 : FVec F S50000 .f32) = Vals.ones :=
    (GenP.V40_of m _ c main_v6 (by decide)).trans (ones_19 m c)
  show StableHlo.after Gen.hostOps20 (GenP.V40 m (Vals.outs m) c) (Proc.devRef .tc main_v266) = _
  after_results_simp
  rw [hs, ht, ho]
  rfl

theorem tbl_20 (c : Dev nD) : (GenP.V41 m (Vals.outs m) c main_v267 : S50000.Idx → BitVec 32) = Vals.dstc m 20 c := by
  have hd : (GenP.V40 m (Vals.outs m) c main_v3 : S1600000.Idx → BitVec 32) = Vals.dst m c :=
    (GenP.V40_of m _ c main_v3 (by decide)).trans (dst_19 m c)
  show StableHlo.after Gen.hostOps20 (GenP.V40 m (Vals.outs m) c) (Proc.devRef .tc main_v267) = _
  after_results_simp
  rw [hd, Vals.dstc, dif_pos (by decide : 20 < 32)] <;> rfl

theorem tgt_20 (c : Dev nD) : (GenP.V41 m (Vals.outs m) c main_v268 : S50000.Idx → BitVec 32) = Vals.srcc m 20 c := by
  have hd : (GenP.V40 m (Vals.outs m) c main_v1 : S1600000.Idx → BitVec 32) = Vals.src m c :=
    (GenP.V40_of m _ c main_v1 (by decide)).trans (src_19 m c)
  show StableHlo.after Gen.hostOps20 (GenP.V40 m (Vals.outs m) c) (Proc.devRef .tc main_v268) = _
  after_results_simp
  rw [hd, Vals.srcc, dif_pos (by decide : 20 < 32)] <;> rfl

theorem x3_20 (c : Dev nD) : (GenP.V41 m (Vals.outs m) c main_v269 : FVec F S100000x1x128 .f32) = Vals.X3 m c := by
  have hx : (GenP.V40 m (Vals.outs m) c main_arg0 : FVec F S100000x128 .f32) = Vals.X m c :=
    (GenP.V40_of m _ c main_arg0 (by decide)).trans (x_19 m c)
  show StableHlo.after Gen.hostOps20 (GenP.V40 m (Vals.outs m) c) (Proc.devRef .tc main_v269) = _
  after_results_simp
  rw [hx]
  rfl

/-! ## Boundary 43: after region 20 and the host stretch that adds chunk 20 -/

theorem src_21 (c : Dev nD) : (GenP.V43 m (Vals.outs m) c main_v1 : S1600000.Idx → BitVec 32) = Vals.src m c :=
  (GenP.V43_of m _ c main_v1 (by decide)).trans ((GenP.V42_of m _ c main_v1 (by decide)).trans (src_20 m c))

theorem dst_21 (c : Dev nD) : (GenP.V43 m (Vals.outs m) c main_v3 : S1600000.Idx → BitVec 32) = Vals.dst m c :=
  (GenP.V43_of m _ c main_v3 (by decide)).trans ((GenP.V42_of m _ c main_v3 (by decide)).trans (dst_20 m c))

theorem ones_21 (c : Dev nD) : (GenP.V43 m (Vals.outs m) c main_v6 : FVec F S50000 .f32) = Vals.ones :=
  (GenP.V43_of m _ c main_v6 (by decide)).trans ((GenP.V42_of m _ c main_v6 (by decide)).trans (ones_20 m c))

theorem x_21 (c : Dev nD) : (GenP.V43 m (Vals.outs m) c main_arg0 : FVec F S100000x128 .f32) = Vals.X m c :=
  (GenP.V43_of m _ c main_arg0 (by decide)).trans ((GenP.V42_of m _ c main_arg0 (by decide)).trans (x_20 m c))

theorem wt_21 (c : Dev nD) : (GenP.V43 m (Vals.outs m) c main_arg2 : FVec F S128x128 .f32) = Vals.Wt m c :=
  (GenP.V43_of m _ c main_arg2 (by decide)).trans ((GenP.V42_of m _ c main_arg2 (by decide)).trans (wt_20 m c))

theorem agg_21 (c : Dev nD) : (GenP.V43 m (Vals.outs m) c main_v275 : FVec F S100000x128 .f32) = Vals.agg m 21 c := by
  have hs : (GenP.V42 m (Vals.outs m) c main_v262 : FVec F S100000x128 .f32) = Vals.agg m 20 c :=
    (GenP.V42_of m _ c main_v262 (by decide)).trans (agg_20 m c)
  have ht : (GenP.V42 m (Vals.outs m) c main_v268 : S50000.Idx → BitVec 32) = Vals.srcc m 20 c :=
    (GenP.V42_of m _ c main_v268 (by decide)).trans (tgt_20 m c)
  have hg : (GenP.V42 m (Vals.outs m) c main_v270 : FVec F S50000x1x128 .f32) = Vals.gath3 m 20 c :=
    (Function.update_self ..).trans (Vals.outs_20 m c)
  show StableHlo.after Gen.hostOps21 (GenP.V42 m (Vals.outs m) c) (Proc.devRef .tc main_v275) = _
  after_results_simp
  rw [hs, ht, hg]
  rfl

theorem deg_21 (c : Dev nD) : (GenP.V43 m (Vals.outs m) c main_v279 : FVec F S100000 .f32) = Vals.deg m 21 c := by
  have hs : (GenP.V42 m (Vals.outs m) c main_v266 : FVec F S100000 .f32) = Vals.deg m 20 c :=
    (GenP.V42_of m _ c main_v266 (by decide)).trans (deg_20 m c)
  have ht : (GenP.V42 m (Vals.outs m) c main_v268 : S50000.Idx → BitVec 32) = Vals.srcc m 20 c :=
    (GenP.V42_of m _ c main_v268 (by decide)).trans (tgt_20 m c)
  have ho : (GenP.V42 m (Vals.outs m) c main_v6 : FVec F S50000 .f32) = Vals.ones :=
    (GenP.V42_of m _ c main_v6 (by decide)).trans (ones_20 m c)
  show StableHlo.after Gen.hostOps21 (GenP.V42 m (Vals.outs m) c) (Proc.devRef .tc main_v279) = _
  after_results_simp
  rw [hs, ht, ho]
  rfl

theorem tbl_21 (c : Dev nD) : (GenP.V43 m (Vals.outs m) c main_v280 : S50000.Idx → BitVec 32) = Vals.dstc m 21 c := by
  have hd : (GenP.V42 m (Vals.outs m) c main_v3 : S1600000.Idx → BitVec 32) = Vals.dst m c :=
    (GenP.V42_of m _ c main_v3 (by decide)).trans (dst_20 m c)
  show StableHlo.after Gen.hostOps21 (GenP.V42 m (Vals.outs m) c) (Proc.devRef .tc main_v280) = _
  after_results_simp
  rw [hd, Vals.dstc, dif_pos (by decide : 21 < 32)] <;> rfl

theorem tgt_21 (c : Dev nD) : (GenP.V43 m (Vals.outs m) c main_v281 : S50000.Idx → BitVec 32) = Vals.srcc m 21 c := by
  have hd : (GenP.V42 m (Vals.outs m) c main_v1 : S1600000.Idx → BitVec 32) = Vals.src m c :=
    (GenP.V42_of m _ c main_v1 (by decide)).trans (src_20 m c)
  show StableHlo.after Gen.hostOps21 (GenP.V42 m (Vals.outs m) c) (Proc.devRef .tc main_v281) = _
  after_results_simp
  rw [hd, Vals.srcc, dif_pos (by decide : 21 < 32)] <;> rfl

theorem x3_21 (c : Dev nD) : (GenP.V43 m (Vals.outs m) c main_v282 : FVec F S100000x1x128 .f32) = Vals.X3 m c := by
  have hx : (GenP.V42 m (Vals.outs m) c main_arg0 : FVec F S100000x128 .f32) = Vals.X m c :=
    (GenP.V42_of m _ c main_arg0 (by decide)).trans (x_20 m c)
  show StableHlo.after Gen.hostOps21 (GenP.V42 m (Vals.outs m) c) (Proc.devRef .tc main_v282) = _
  after_results_simp
  rw [hx]
  rfl

/-! ## Boundary 45: after region 21 and the host stretch that adds chunk 21 -/

theorem src_22 (c : Dev nD) : (GenP.V45 m (Vals.outs m) c main_v1 : S1600000.Idx → BitVec 32) = Vals.src m c :=
  (GenP.V45_of m _ c main_v1 (by decide)).trans ((GenP.V44_of m _ c main_v1 (by decide)).trans (src_21 m c))

theorem dst_22 (c : Dev nD) : (GenP.V45 m (Vals.outs m) c main_v3 : S1600000.Idx → BitVec 32) = Vals.dst m c :=
  (GenP.V45_of m _ c main_v3 (by decide)).trans ((GenP.V44_of m _ c main_v3 (by decide)).trans (dst_21 m c))

theorem ones_22 (c : Dev nD) : (GenP.V45 m (Vals.outs m) c main_v6 : FVec F S50000 .f32) = Vals.ones :=
  (GenP.V45_of m _ c main_v6 (by decide)).trans ((GenP.V44_of m _ c main_v6 (by decide)).trans (ones_21 m c))

theorem x_22 (c : Dev nD) : (GenP.V45 m (Vals.outs m) c main_arg0 : FVec F S100000x128 .f32) = Vals.X m c :=
  (GenP.V45_of m _ c main_arg0 (by decide)).trans ((GenP.V44_of m _ c main_arg0 (by decide)).trans (x_21 m c))

theorem wt_22 (c : Dev nD) : (GenP.V45 m (Vals.outs m) c main_arg2 : FVec F S128x128 .f32) = Vals.Wt m c :=
  (GenP.V45_of m _ c main_arg2 (by decide)).trans ((GenP.V44_of m _ c main_arg2 (by decide)).trans (wt_21 m c))

theorem agg_22 (c : Dev nD) : (GenP.V45 m (Vals.outs m) c main_v288 : FVec F S100000x128 .f32) = Vals.agg m 22 c := by
  have hs : (GenP.V44 m (Vals.outs m) c main_v275 : FVec F S100000x128 .f32) = Vals.agg m 21 c :=
    (GenP.V44_of m _ c main_v275 (by decide)).trans (agg_21 m c)
  have ht : (GenP.V44 m (Vals.outs m) c main_v281 : S50000.Idx → BitVec 32) = Vals.srcc m 21 c :=
    (GenP.V44_of m _ c main_v281 (by decide)).trans (tgt_21 m c)
  have hg : (GenP.V44 m (Vals.outs m) c main_v283 : FVec F S50000x1x128 .f32) = Vals.gath3 m 21 c :=
    (Function.update_self ..).trans (Vals.outs_21 m c)
  show StableHlo.after Gen.hostOps22 (GenP.V44 m (Vals.outs m) c) (Proc.devRef .tc main_v288) = _
  after_results_simp
  rw [hs, ht, hg]
  rfl

theorem deg_22 (c : Dev nD) : (GenP.V45 m (Vals.outs m) c main_v292 : FVec F S100000 .f32) = Vals.deg m 22 c := by
  have hs : (GenP.V44 m (Vals.outs m) c main_v279 : FVec F S100000 .f32) = Vals.deg m 21 c :=
    (GenP.V44_of m _ c main_v279 (by decide)).trans (deg_21 m c)
  have ht : (GenP.V44 m (Vals.outs m) c main_v281 : S50000.Idx → BitVec 32) = Vals.srcc m 21 c :=
    (GenP.V44_of m _ c main_v281 (by decide)).trans (tgt_21 m c)
  have ho : (GenP.V44 m (Vals.outs m) c main_v6 : FVec F S50000 .f32) = Vals.ones :=
    (GenP.V44_of m _ c main_v6 (by decide)).trans (ones_21 m c)
  show StableHlo.after Gen.hostOps22 (GenP.V44 m (Vals.outs m) c) (Proc.devRef .tc main_v292) = _
  after_results_simp
  rw [hs, ht, ho]
  rfl

theorem tbl_22 (c : Dev nD) : (GenP.V45 m (Vals.outs m) c main_v293 : S50000.Idx → BitVec 32) = Vals.dstc m 22 c := by
  have hd : (GenP.V44 m (Vals.outs m) c main_v3 : S1600000.Idx → BitVec 32) = Vals.dst m c :=
    (GenP.V44_of m _ c main_v3 (by decide)).trans (dst_21 m c)
  show StableHlo.after Gen.hostOps22 (GenP.V44 m (Vals.outs m) c) (Proc.devRef .tc main_v293) = _
  after_results_simp
  rw [hd, Vals.dstc, dif_pos (by decide : 22 < 32)] <;> rfl

theorem tgt_22 (c : Dev nD) : (GenP.V45 m (Vals.outs m) c main_v294 : S50000.Idx → BitVec 32) = Vals.srcc m 22 c := by
  have hd : (GenP.V44 m (Vals.outs m) c main_v1 : S1600000.Idx → BitVec 32) = Vals.src m c :=
    (GenP.V44_of m _ c main_v1 (by decide)).trans (src_21 m c)
  show StableHlo.after Gen.hostOps22 (GenP.V44 m (Vals.outs m) c) (Proc.devRef .tc main_v294) = _
  after_results_simp
  rw [hd, Vals.srcc, dif_pos (by decide : 22 < 32)] <;> rfl

theorem x3_22 (c : Dev nD) : (GenP.V45 m (Vals.outs m) c main_v295 : FVec F S100000x1x128 .f32) = Vals.X3 m c := by
  have hx : (GenP.V44 m (Vals.outs m) c main_arg0 : FVec F S100000x128 .f32) = Vals.X m c :=
    (GenP.V44_of m _ c main_arg0 (by decide)).trans (x_21 m c)
  show StableHlo.after Gen.hostOps22 (GenP.V44 m (Vals.outs m) c) (Proc.devRef .tc main_v295) = _
  after_results_simp
  rw [hx]
  rfl

/-! ## Boundary 47: after region 22 and the host stretch that adds chunk 22 -/

theorem src_23 (c : Dev nD) : (GenP.V47 m (Vals.outs m) c main_v1 : S1600000.Idx → BitVec 32) = Vals.src m c :=
  (GenP.V47_of m _ c main_v1 (by decide)).trans ((GenP.V46_of m _ c main_v1 (by decide)).trans (src_22 m c))

theorem dst_23 (c : Dev nD) : (GenP.V47 m (Vals.outs m) c main_v3 : S1600000.Idx → BitVec 32) = Vals.dst m c :=
  (GenP.V47_of m _ c main_v3 (by decide)).trans ((GenP.V46_of m _ c main_v3 (by decide)).trans (dst_22 m c))

theorem ones_23 (c : Dev nD) : (GenP.V47 m (Vals.outs m) c main_v6 : FVec F S50000 .f32) = Vals.ones :=
  (GenP.V47_of m _ c main_v6 (by decide)).trans ((GenP.V46_of m _ c main_v6 (by decide)).trans (ones_22 m c))

theorem x_23 (c : Dev nD) : (GenP.V47 m (Vals.outs m) c main_arg0 : FVec F S100000x128 .f32) = Vals.X m c :=
  (GenP.V47_of m _ c main_arg0 (by decide)).trans ((GenP.V46_of m _ c main_arg0 (by decide)).trans (x_22 m c))

theorem wt_23 (c : Dev nD) : (GenP.V47 m (Vals.outs m) c main_arg2 : FVec F S128x128 .f32) = Vals.Wt m c :=
  (GenP.V47_of m _ c main_arg2 (by decide)).trans ((GenP.V46_of m _ c main_arg2 (by decide)).trans (wt_22 m c))

theorem agg_23 (c : Dev nD) : (GenP.V47 m (Vals.outs m) c main_v301 : FVec F S100000x128 .f32) = Vals.agg m 23 c := by
  have hs : (GenP.V46 m (Vals.outs m) c main_v288 : FVec F S100000x128 .f32) = Vals.agg m 22 c :=
    (GenP.V46_of m _ c main_v288 (by decide)).trans (agg_22 m c)
  have ht : (GenP.V46 m (Vals.outs m) c main_v294 : S50000.Idx → BitVec 32) = Vals.srcc m 22 c :=
    (GenP.V46_of m _ c main_v294 (by decide)).trans (tgt_22 m c)
  have hg : (GenP.V46 m (Vals.outs m) c main_v296 : FVec F S50000x1x128 .f32) = Vals.gath3 m 22 c :=
    (Function.update_self ..).trans (Vals.outs_22 m c)
  show StableHlo.after Gen.hostOps23 (GenP.V46 m (Vals.outs m) c) (Proc.devRef .tc main_v301) = _
  after_results_simp
  rw [hs, ht, hg]
  rfl

theorem deg_23 (c : Dev nD) : (GenP.V47 m (Vals.outs m) c main_v305 : FVec F S100000 .f32) = Vals.deg m 23 c := by
  have hs : (GenP.V46 m (Vals.outs m) c main_v292 : FVec F S100000 .f32) = Vals.deg m 22 c :=
    (GenP.V46_of m _ c main_v292 (by decide)).trans (deg_22 m c)
  have ht : (GenP.V46 m (Vals.outs m) c main_v294 : S50000.Idx → BitVec 32) = Vals.srcc m 22 c :=
    (GenP.V46_of m _ c main_v294 (by decide)).trans (tgt_22 m c)
  have ho : (GenP.V46 m (Vals.outs m) c main_v6 : FVec F S50000 .f32) = Vals.ones :=
    (GenP.V46_of m _ c main_v6 (by decide)).trans (ones_22 m c)
  show StableHlo.after Gen.hostOps23 (GenP.V46 m (Vals.outs m) c) (Proc.devRef .tc main_v305) = _
  after_results_simp
  rw [hs, ht, ho]
  rfl

theorem tbl_23 (c : Dev nD) : (GenP.V47 m (Vals.outs m) c main_v306 : S50000.Idx → BitVec 32) = Vals.dstc m 23 c := by
  have hd : (GenP.V46 m (Vals.outs m) c main_v3 : S1600000.Idx → BitVec 32) = Vals.dst m c :=
    (GenP.V46_of m _ c main_v3 (by decide)).trans (dst_22 m c)
  show StableHlo.after Gen.hostOps23 (GenP.V46 m (Vals.outs m) c) (Proc.devRef .tc main_v306) = _
  after_results_simp
  rw [hd, Vals.dstc, dif_pos (by decide : 23 < 32)] <;> rfl

theorem tgt_23 (c : Dev nD) : (GenP.V47 m (Vals.outs m) c main_v307 : S50000.Idx → BitVec 32) = Vals.srcc m 23 c := by
  have hd : (GenP.V46 m (Vals.outs m) c main_v1 : S1600000.Idx → BitVec 32) = Vals.src m c :=
    (GenP.V46_of m _ c main_v1 (by decide)).trans (src_22 m c)
  show StableHlo.after Gen.hostOps23 (GenP.V46 m (Vals.outs m) c) (Proc.devRef .tc main_v307) = _
  after_results_simp
  rw [hd, Vals.srcc, dif_pos (by decide : 23 < 32)] <;> rfl

theorem x3_23 (c : Dev nD) : (GenP.V47 m (Vals.outs m) c main_v308 : FVec F S100000x1x128 .f32) = Vals.X3 m c := by
  have hx : (GenP.V46 m (Vals.outs m) c main_arg0 : FVec F S100000x128 .f32) = Vals.X m c :=
    (GenP.V46_of m _ c main_arg0 (by decide)).trans (x_22 m c)
  show StableHlo.after Gen.hostOps23 (GenP.V46 m (Vals.outs m) c) (Proc.devRef .tc main_v308) = _
  after_results_simp
  rw [hx]
  rfl

/-! ## Boundary 49: after region 23 and the host stretch that adds chunk 23 -/

theorem src_24 (c : Dev nD) : (GenP.V49 m (Vals.outs m) c main_v1 : S1600000.Idx → BitVec 32) = Vals.src m c :=
  (GenP.V49_of m _ c main_v1 (by decide)).trans ((GenP.V48_of m _ c main_v1 (by decide)).trans (src_23 m c))

theorem dst_24 (c : Dev nD) : (GenP.V49 m (Vals.outs m) c main_v3 : S1600000.Idx → BitVec 32) = Vals.dst m c :=
  (GenP.V49_of m _ c main_v3 (by decide)).trans ((GenP.V48_of m _ c main_v3 (by decide)).trans (dst_23 m c))

theorem ones_24 (c : Dev nD) : (GenP.V49 m (Vals.outs m) c main_v6 : FVec F S50000 .f32) = Vals.ones :=
  (GenP.V49_of m _ c main_v6 (by decide)).trans ((GenP.V48_of m _ c main_v6 (by decide)).trans (ones_23 m c))

theorem x_24 (c : Dev nD) : (GenP.V49 m (Vals.outs m) c main_arg0 : FVec F S100000x128 .f32) = Vals.X m c :=
  (GenP.V49_of m _ c main_arg0 (by decide)).trans ((GenP.V48_of m _ c main_arg0 (by decide)).trans (x_23 m c))

theorem wt_24 (c : Dev nD) : (GenP.V49 m (Vals.outs m) c main_arg2 : FVec F S128x128 .f32) = Vals.Wt m c :=
  (GenP.V49_of m _ c main_arg2 (by decide)).trans ((GenP.V48_of m _ c main_arg2 (by decide)).trans (wt_23 m c))

theorem agg_24 (c : Dev nD) : (GenP.V49 m (Vals.outs m) c main_v314 : FVec F S100000x128 .f32) = Vals.agg m 24 c := by
  have hs : (GenP.V48 m (Vals.outs m) c main_v301 : FVec F S100000x128 .f32) = Vals.agg m 23 c :=
    (GenP.V48_of m _ c main_v301 (by decide)).trans (agg_23 m c)
  have ht : (GenP.V48 m (Vals.outs m) c main_v307 : S50000.Idx → BitVec 32) = Vals.srcc m 23 c :=
    (GenP.V48_of m _ c main_v307 (by decide)).trans (tgt_23 m c)
  have hg : (GenP.V48 m (Vals.outs m) c main_v309 : FVec F S50000x1x128 .f32) = Vals.gath3 m 23 c :=
    (Function.update_self ..).trans (Vals.outs_23 m c)
  show StableHlo.after Gen.hostOps24 (GenP.V48 m (Vals.outs m) c) (Proc.devRef .tc main_v314) = _
  after_results_simp
  rw [hs, ht, hg]
  rfl

theorem deg_24 (c : Dev nD) : (GenP.V49 m (Vals.outs m) c main_v318 : FVec F S100000 .f32) = Vals.deg m 24 c := by
  have hs : (GenP.V48 m (Vals.outs m) c main_v305 : FVec F S100000 .f32) = Vals.deg m 23 c :=
    (GenP.V48_of m _ c main_v305 (by decide)).trans (deg_23 m c)
  have ht : (GenP.V48 m (Vals.outs m) c main_v307 : S50000.Idx → BitVec 32) = Vals.srcc m 23 c :=
    (GenP.V48_of m _ c main_v307 (by decide)).trans (tgt_23 m c)
  have ho : (GenP.V48 m (Vals.outs m) c main_v6 : FVec F S50000 .f32) = Vals.ones :=
    (GenP.V48_of m _ c main_v6 (by decide)).trans (ones_23 m c)
  show StableHlo.after Gen.hostOps24 (GenP.V48 m (Vals.outs m) c) (Proc.devRef .tc main_v318) = _
  after_results_simp
  rw [hs, ht, ho]
  rfl

theorem tbl_24 (c : Dev nD) : (GenP.V49 m (Vals.outs m) c main_v319 : S50000.Idx → BitVec 32) = Vals.dstc m 24 c := by
  have hd : (GenP.V48 m (Vals.outs m) c main_v3 : S1600000.Idx → BitVec 32) = Vals.dst m c :=
    (GenP.V48_of m _ c main_v3 (by decide)).trans (dst_23 m c)
  show StableHlo.after Gen.hostOps24 (GenP.V48 m (Vals.outs m) c) (Proc.devRef .tc main_v319) = _
  after_results_simp
  rw [hd, Vals.dstc, dif_pos (by decide : 24 < 32)] <;> rfl

theorem tgt_24 (c : Dev nD) : (GenP.V49 m (Vals.outs m) c main_v320 : S50000.Idx → BitVec 32) = Vals.srcc m 24 c := by
  have hd : (GenP.V48 m (Vals.outs m) c main_v1 : S1600000.Idx → BitVec 32) = Vals.src m c :=
    (GenP.V48_of m _ c main_v1 (by decide)).trans (src_23 m c)
  show StableHlo.after Gen.hostOps24 (GenP.V48 m (Vals.outs m) c) (Proc.devRef .tc main_v320) = _
  after_results_simp
  rw [hd, Vals.srcc, dif_pos (by decide : 24 < 32)] <;> rfl

theorem x3_24 (c : Dev nD) : (GenP.V49 m (Vals.outs m) c main_v321 : FVec F S100000x1x128 .f32) = Vals.X3 m c := by
  have hx : (GenP.V48 m (Vals.outs m) c main_arg0 : FVec F S100000x128 .f32) = Vals.X m c :=
    (GenP.V48_of m _ c main_arg0 (by decide)).trans (x_23 m c)
  show StableHlo.after Gen.hostOps24 (GenP.V48 m (Vals.outs m) c) (Proc.devRef .tc main_v321) = _
  after_results_simp
  rw [hx]
  rfl

/-! ## Boundary 51: after region 24 and the host stretch that adds chunk 24 -/

theorem src_25 (c : Dev nD) : (GenP.V51 m (Vals.outs m) c main_v1 : S1600000.Idx → BitVec 32) = Vals.src m c :=
  (GenP.V51_of m _ c main_v1 (by decide)).trans ((GenP.V50_of m _ c main_v1 (by decide)).trans (src_24 m c))

theorem dst_25 (c : Dev nD) : (GenP.V51 m (Vals.outs m) c main_v3 : S1600000.Idx → BitVec 32) = Vals.dst m c :=
  (GenP.V51_of m _ c main_v3 (by decide)).trans ((GenP.V50_of m _ c main_v3 (by decide)).trans (dst_24 m c))

theorem ones_25 (c : Dev nD) : (GenP.V51 m (Vals.outs m) c main_v6 : FVec F S50000 .f32) = Vals.ones :=
  (GenP.V51_of m _ c main_v6 (by decide)).trans ((GenP.V50_of m _ c main_v6 (by decide)).trans (ones_24 m c))

theorem x_25 (c : Dev nD) : (GenP.V51 m (Vals.outs m) c main_arg0 : FVec F S100000x128 .f32) = Vals.X m c :=
  (GenP.V51_of m _ c main_arg0 (by decide)).trans ((GenP.V50_of m _ c main_arg0 (by decide)).trans (x_24 m c))

theorem wt_25 (c : Dev nD) : (GenP.V51 m (Vals.outs m) c main_arg2 : FVec F S128x128 .f32) = Vals.Wt m c :=
  (GenP.V51_of m _ c main_arg2 (by decide)).trans ((GenP.V50_of m _ c main_arg2 (by decide)).trans (wt_24 m c))

theorem agg_25 (c : Dev nD) : (GenP.V51 m (Vals.outs m) c main_v327 : FVec F S100000x128 .f32) = Vals.agg m 25 c := by
  have hs : (GenP.V50 m (Vals.outs m) c main_v314 : FVec F S100000x128 .f32) = Vals.agg m 24 c :=
    (GenP.V50_of m _ c main_v314 (by decide)).trans (agg_24 m c)
  have ht : (GenP.V50 m (Vals.outs m) c main_v320 : S50000.Idx → BitVec 32) = Vals.srcc m 24 c :=
    (GenP.V50_of m _ c main_v320 (by decide)).trans (tgt_24 m c)
  have hg : (GenP.V50 m (Vals.outs m) c main_v322 : FVec F S50000x1x128 .f32) = Vals.gath3 m 24 c :=
    (Function.update_self ..).trans (Vals.outs_24 m c)
  show StableHlo.after Gen.hostOps25 (GenP.V50 m (Vals.outs m) c) (Proc.devRef .tc main_v327) = _
  after_results_simp
  rw [hs, ht, hg]
  rfl

theorem deg_25 (c : Dev nD) : (GenP.V51 m (Vals.outs m) c main_v331 : FVec F S100000 .f32) = Vals.deg m 25 c := by
  have hs : (GenP.V50 m (Vals.outs m) c main_v318 : FVec F S100000 .f32) = Vals.deg m 24 c :=
    (GenP.V50_of m _ c main_v318 (by decide)).trans (deg_24 m c)
  have ht : (GenP.V50 m (Vals.outs m) c main_v320 : S50000.Idx → BitVec 32) = Vals.srcc m 24 c :=
    (GenP.V50_of m _ c main_v320 (by decide)).trans (tgt_24 m c)
  have ho : (GenP.V50 m (Vals.outs m) c main_v6 : FVec F S50000 .f32) = Vals.ones :=
    (GenP.V50_of m _ c main_v6 (by decide)).trans (ones_24 m c)
  show StableHlo.after Gen.hostOps25 (GenP.V50 m (Vals.outs m) c) (Proc.devRef .tc main_v331) = _
  after_results_simp
  rw [hs, ht, ho]
  rfl

theorem tbl_25 (c : Dev nD) : (GenP.V51 m (Vals.outs m) c main_v332 : S50000.Idx → BitVec 32) = Vals.dstc m 25 c := by
  have hd : (GenP.V50 m (Vals.outs m) c main_v3 : S1600000.Idx → BitVec 32) = Vals.dst m c :=
    (GenP.V50_of m _ c main_v3 (by decide)).trans (dst_24 m c)
  show StableHlo.after Gen.hostOps25 (GenP.V50 m (Vals.outs m) c) (Proc.devRef .tc main_v332) = _
  after_results_simp
  rw [hd, Vals.dstc, dif_pos (by decide : 25 < 32)] <;> rfl

theorem tgt_25 (c : Dev nD) : (GenP.V51 m (Vals.outs m) c main_v333 : S50000.Idx → BitVec 32) = Vals.srcc m 25 c := by
  have hd : (GenP.V50 m (Vals.outs m) c main_v1 : S1600000.Idx → BitVec 32) = Vals.src m c :=
    (GenP.V50_of m _ c main_v1 (by decide)).trans (src_24 m c)
  show StableHlo.after Gen.hostOps25 (GenP.V50 m (Vals.outs m) c) (Proc.devRef .tc main_v333) = _
  after_results_simp
  rw [hd, Vals.srcc, dif_pos (by decide : 25 < 32)] <;> rfl

theorem x3_25 (c : Dev nD) : (GenP.V51 m (Vals.outs m) c main_v334 : FVec F S100000x1x128 .f32) = Vals.X3 m c := by
  have hx : (GenP.V50 m (Vals.outs m) c main_arg0 : FVec F S100000x128 .f32) = Vals.X m c :=
    (GenP.V50_of m _ c main_arg0 (by decide)).trans (x_24 m c)
  show StableHlo.after Gen.hostOps25 (GenP.V50 m (Vals.outs m) c) (Proc.devRef .tc main_v334) = _
  after_results_simp
  rw [hx]
  rfl

/-! ## Boundary 53: after region 25 and the host stretch that adds chunk 25 -/

theorem src_26 (c : Dev nD) : (GenP.V53 m (Vals.outs m) c main_v1 : S1600000.Idx → BitVec 32) = Vals.src m c :=
  (GenP.V53_of m _ c main_v1 (by decide)).trans ((GenP.V52_of m _ c main_v1 (by decide)).trans (src_25 m c))

theorem dst_26 (c : Dev nD) : (GenP.V53 m (Vals.outs m) c main_v3 : S1600000.Idx → BitVec 32) = Vals.dst m c :=
  (GenP.V53_of m _ c main_v3 (by decide)).trans ((GenP.V52_of m _ c main_v3 (by decide)).trans (dst_25 m c))

theorem ones_26 (c : Dev nD) : (GenP.V53 m (Vals.outs m) c main_v6 : FVec F S50000 .f32) = Vals.ones :=
  (GenP.V53_of m _ c main_v6 (by decide)).trans ((GenP.V52_of m _ c main_v6 (by decide)).trans (ones_25 m c))

theorem x_26 (c : Dev nD) : (GenP.V53 m (Vals.outs m) c main_arg0 : FVec F S100000x128 .f32) = Vals.X m c :=
  (GenP.V53_of m _ c main_arg0 (by decide)).trans ((GenP.V52_of m _ c main_arg0 (by decide)).trans (x_25 m c))

theorem wt_26 (c : Dev nD) : (GenP.V53 m (Vals.outs m) c main_arg2 : FVec F S128x128 .f32) = Vals.Wt m c :=
  (GenP.V53_of m _ c main_arg2 (by decide)).trans ((GenP.V52_of m _ c main_arg2 (by decide)).trans (wt_25 m c))

theorem agg_26 (c : Dev nD) : (GenP.V53 m (Vals.outs m) c main_v340 : FVec F S100000x128 .f32) = Vals.agg m 26 c := by
  have hs : (GenP.V52 m (Vals.outs m) c main_v327 : FVec F S100000x128 .f32) = Vals.agg m 25 c :=
    (GenP.V52_of m _ c main_v327 (by decide)).trans (agg_25 m c)
  have ht : (GenP.V52 m (Vals.outs m) c main_v333 : S50000.Idx → BitVec 32) = Vals.srcc m 25 c :=
    (GenP.V52_of m _ c main_v333 (by decide)).trans (tgt_25 m c)
  have hg : (GenP.V52 m (Vals.outs m) c main_v335 : FVec F S50000x1x128 .f32) = Vals.gath3 m 25 c :=
    (Function.update_self ..).trans (Vals.outs_25 m c)
  show StableHlo.after Gen.hostOps26 (GenP.V52 m (Vals.outs m) c) (Proc.devRef .tc main_v340) = _
  after_results_simp
  rw [hs, ht, hg]
  rfl

theorem deg_26 (c : Dev nD) : (GenP.V53 m (Vals.outs m) c main_v344 : FVec F S100000 .f32) = Vals.deg m 26 c := by
  have hs : (GenP.V52 m (Vals.outs m) c main_v331 : FVec F S100000 .f32) = Vals.deg m 25 c :=
    (GenP.V52_of m _ c main_v331 (by decide)).trans (deg_25 m c)
  have ht : (GenP.V52 m (Vals.outs m) c main_v333 : S50000.Idx → BitVec 32) = Vals.srcc m 25 c :=
    (GenP.V52_of m _ c main_v333 (by decide)).trans (tgt_25 m c)
  have ho : (GenP.V52 m (Vals.outs m) c main_v6 : FVec F S50000 .f32) = Vals.ones :=
    (GenP.V52_of m _ c main_v6 (by decide)).trans (ones_25 m c)
  show StableHlo.after Gen.hostOps26 (GenP.V52 m (Vals.outs m) c) (Proc.devRef .tc main_v344) = _
  after_results_simp
  rw [hs, ht, ho]
  rfl

theorem tbl_26 (c : Dev nD) : (GenP.V53 m (Vals.outs m) c main_v345 : S50000.Idx → BitVec 32) = Vals.dstc m 26 c := by
  have hd : (GenP.V52 m (Vals.outs m) c main_v3 : S1600000.Idx → BitVec 32) = Vals.dst m c :=
    (GenP.V52_of m _ c main_v3 (by decide)).trans (dst_25 m c)
  show StableHlo.after Gen.hostOps26 (GenP.V52 m (Vals.outs m) c) (Proc.devRef .tc main_v345) = _
  after_results_simp
  rw [hd, Vals.dstc, dif_pos (by decide : 26 < 32)] <;> rfl

theorem tgt_26 (c : Dev nD) : (GenP.V53 m (Vals.outs m) c main_v346 : S50000.Idx → BitVec 32) = Vals.srcc m 26 c := by
  have hd : (GenP.V52 m (Vals.outs m) c main_v1 : S1600000.Idx → BitVec 32) = Vals.src m c :=
    (GenP.V52_of m _ c main_v1 (by decide)).trans (src_25 m c)
  show StableHlo.after Gen.hostOps26 (GenP.V52 m (Vals.outs m) c) (Proc.devRef .tc main_v346) = _
  after_results_simp
  rw [hd, Vals.srcc, dif_pos (by decide : 26 < 32)] <;> rfl

theorem x3_26 (c : Dev nD) : (GenP.V53 m (Vals.outs m) c main_v347 : FVec F S100000x1x128 .f32) = Vals.X3 m c := by
  have hx : (GenP.V52 m (Vals.outs m) c main_arg0 : FVec F S100000x128 .f32) = Vals.X m c :=
    (GenP.V52_of m _ c main_arg0 (by decide)).trans (x_25 m c)
  show StableHlo.after Gen.hostOps26 (GenP.V52 m (Vals.outs m) c) (Proc.devRef .tc main_v347) = _
  after_results_simp
  rw [hx]
  rfl

/-! ## Boundary 55: after region 26 and the host stretch that adds chunk 26 -/

theorem src_27 (c : Dev nD) : (GenP.V55 m (Vals.outs m) c main_v1 : S1600000.Idx → BitVec 32) = Vals.src m c :=
  (GenP.V55_of m _ c main_v1 (by decide)).trans ((GenP.V54_of m _ c main_v1 (by decide)).trans (src_26 m c))

theorem dst_27 (c : Dev nD) : (GenP.V55 m (Vals.outs m) c main_v3 : S1600000.Idx → BitVec 32) = Vals.dst m c :=
  (GenP.V55_of m _ c main_v3 (by decide)).trans ((GenP.V54_of m _ c main_v3 (by decide)).trans (dst_26 m c))

theorem ones_27 (c : Dev nD) : (GenP.V55 m (Vals.outs m) c main_v6 : FVec F S50000 .f32) = Vals.ones :=
  (GenP.V55_of m _ c main_v6 (by decide)).trans ((GenP.V54_of m _ c main_v6 (by decide)).trans (ones_26 m c))

theorem x_27 (c : Dev nD) : (GenP.V55 m (Vals.outs m) c main_arg0 : FVec F S100000x128 .f32) = Vals.X m c :=
  (GenP.V55_of m _ c main_arg0 (by decide)).trans ((GenP.V54_of m _ c main_arg0 (by decide)).trans (x_26 m c))

theorem wt_27 (c : Dev nD) : (GenP.V55 m (Vals.outs m) c main_arg2 : FVec F S128x128 .f32) = Vals.Wt m c :=
  (GenP.V55_of m _ c main_arg2 (by decide)).trans ((GenP.V54_of m _ c main_arg2 (by decide)).trans (wt_26 m c))

theorem agg_27 (c : Dev nD) : (GenP.V55 m (Vals.outs m) c main_v353 : FVec F S100000x128 .f32) = Vals.agg m 27 c := by
  have hs : (GenP.V54 m (Vals.outs m) c main_v340 : FVec F S100000x128 .f32) = Vals.agg m 26 c :=
    (GenP.V54_of m _ c main_v340 (by decide)).trans (agg_26 m c)
  have ht : (GenP.V54 m (Vals.outs m) c main_v346 : S50000.Idx → BitVec 32) = Vals.srcc m 26 c :=
    (GenP.V54_of m _ c main_v346 (by decide)).trans (tgt_26 m c)
  have hg : (GenP.V54 m (Vals.outs m) c main_v348 : FVec F S50000x1x128 .f32) = Vals.gath3 m 26 c :=
    (Function.update_self ..).trans (Vals.outs_26 m c)
  show StableHlo.after Gen.hostOps27 (GenP.V54 m (Vals.outs m) c) (Proc.devRef .tc main_v353) = _
  after_results_simp
  rw [hs, ht, hg]
  rfl

theorem deg_27 (c : Dev nD) : (GenP.V55 m (Vals.outs m) c main_v357 : FVec F S100000 .f32) = Vals.deg m 27 c := by
  have hs : (GenP.V54 m (Vals.outs m) c main_v344 : FVec F S100000 .f32) = Vals.deg m 26 c :=
    (GenP.V54_of m _ c main_v344 (by decide)).trans (deg_26 m c)
  have ht : (GenP.V54 m (Vals.outs m) c main_v346 : S50000.Idx → BitVec 32) = Vals.srcc m 26 c :=
    (GenP.V54_of m _ c main_v346 (by decide)).trans (tgt_26 m c)
  have ho : (GenP.V54 m (Vals.outs m) c main_v6 : FVec F S50000 .f32) = Vals.ones :=
    (GenP.V54_of m _ c main_v6 (by decide)).trans (ones_26 m c)
  show StableHlo.after Gen.hostOps27 (GenP.V54 m (Vals.outs m) c) (Proc.devRef .tc main_v357) = _
  after_results_simp
  rw [hs, ht, ho]
  rfl

theorem tbl_27 (c : Dev nD) : (GenP.V55 m (Vals.outs m) c main_v358 : S50000.Idx → BitVec 32) = Vals.dstc m 27 c := by
  have hd : (GenP.V54 m (Vals.outs m) c main_v3 : S1600000.Idx → BitVec 32) = Vals.dst m c :=
    (GenP.V54_of m _ c main_v3 (by decide)).trans (dst_26 m c)
  show StableHlo.after Gen.hostOps27 (GenP.V54 m (Vals.outs m) c) (Proc.devRef .tc main_v358) = _
  after_results_simp
  rw [hd, Vals.dstc, dif_pos (by decide : 27 < 32)] <;> rfl

theorem tgt_27 (c : Dev nD) : (GenP.V55 m (Vals.outs m) c main_v359 : S50000.Idx → BitVec 32) = Vals.srcc m 27 c := by
  have hd : (GenP.V54 m (Vals.outs m) c main_v1 : S1600000.Idx → BitVec 32) = Vals.src m c :=
    (GenP.V54_of m _ c main_v1 (by decide)).trans (src_26 m c)
  show StableHlo.after Gen.hostOps27 (GenP.V54 m (Vals.outs m) c) (Proc.devRef .tc main_v359) = _
  after_results_simp
  rw [hd, Vals.srcc, dif_pos (by decide : 27 < 32)] <;> rfl

theorem x3_27 (c : Dev nD) : (GenP.V55 m (Vals.outs m) c main_v360 : FVec F S100000x1x128 .f32) = Vals.X3 m c := by
  have hx : (GenP.V54 m (Vals.outs m) c main_arg0 : FVec F S100000x128 .f32) = Vals.X m c :=
    (GenP.V54_of m _ c main_arg0 (by decide)).trans (x_26 m c)
  show StableHlo.after Gen.hostOps27 (GenP.V54 m (Vals.outs m) c) (Proc.devRef .tc main_v360) = _
  after_results_simp
  rw [hx]
  rfl

/-! ## Boundary 57: after region 27 and the host stretch that adds chunk 27 -/

theorem src_28 (c : Dev nD) : (GenP.V57 m (Vals.outs m) c main_v1 : S1600000.Idx → BitVec 32) = Vals.src m c :=
  (GenP.V57_of m _ c main_v1 (by decide)).trans ((GenP.V56_of m _ c main_v1 (by decide)).trans (src_27 m c))

theorem dst_28 (c : Dev nD) : (GenP.V57 m (Vals.outs m) c main_v3 : S1600000.Idx → BitVec 32) = Vals.dst m c :=
  (GenP.V57_of m _ c main_v3 (by decide)).trans ((GenP.V56_of m _ c main_v3 (by decide)).trans (dst_27 m c))

theorem ones_28 (c : Dev nD) : (GenP.V57 m (Vals.outs m) c main_v6 : FVec F S50000 .f32) = Vals.ones :=
  (GenP.V57_of m _ c main_v6 (by decide)).trans ((GenP.V56_of m _ c main_v6 (by decide)).trans (ones_27 m c))

theorem x_28 (c : Dev nD) : (GenP.V57 m (Vals.outs m) c main_arg0 : FVec F S100000x128 .f32) = Vals.X m c :=
  (GenP.V57_of m _ c main_arg0 (by decide)).trans ((GenP.V56_of m _ c main_arg0 (by decide)).trans (x_27 m c))

theorem wt_28 (c : Dev nD) : (GenP.V57 m (Vals.outs m) c main_arg2 : FVec F S128x128 .f32) = Vals.Wt m c :=
  (GenP.V57_of m _ c main_arg2 (by decide)).trans ((GenP.V56_of m _ c main_arg2 (by decide)).trans (wt_27 m c))

theorem agg_28 (c : Dev nD) : (GenP.V57 m (Vals.outs m) c main_v366 : FVec F S100000x128 .f32) = Vals.agg m 28 c := by
  have hs : (GenP.V56 m (Vals.outs m) c main_v353 : FVec F S100000x128 .f32) = Vals.agg m 27 c :=
    (GenP.V56_of m _ c main_v353 (by decide)).trans (agg_27 m c)
  have ht : (GenP.V56 m (Vals.outs m) c main_v359 : S50000.Idx → BitVec 32) = Vals.srcc m 27 c :=
    (GenP.V56_of m _ c main_v359 (by decide)).trans (tgt_27 m c)
  have hg : (GenP.V56 m (Vals.outs m) c main_v361 : FVec F S50000x1x128 .f32) = Vals.gath3 m 27 c :=
    (Function.update_self ..).trans (Vals.outs_27 m c)
  show StableHlo.after Gen.hostOps28 (GenP.V56 m (Vals.outs m) c) (Proc.devRef .tc main_v366) = _
  after_results_simp
  rw [hs, ht, hg]
  rfl

theorem deg_28 (c : Dev nD) : (GenP.V57 m (Vals.outs m) c main_v370 : FVec F S100000 .f32) = Vals.deg m 28 c := by
  have hs : (GenP.V56 m (Vals.outs m) c main_v357 : FVec F S100000 .f32) = Vals.deg m 27 c :=
    (GenP.V56_of m _ c main_v357 (by decide)).trans (deg_27 m c)
  have ht : (GenP.V56 m (Vals.outs m) c main_v359 : S50000.Idx → BitVec 32) = Vals.srcc m 27 c :=
    (GenP.V56_of m _ c main_v359 (by decide)).trans (tgt_27 m c)
  have ho : (GenP.V56 m (Vals.outs m) c main_v6 : FVec F S50000 .f32) = Vals.ones :=
    (GenP.V56_of m _ c main_v6 (by decide)).trans (ones_27 m c)
  show StableHlo.after Gen.hostOps28 (GenP.V56 m (Vals.outs m) c) (Proc.devRef .tc main_v370) = _
  after_results_simp
  rw [hs, ht, ho]
  rfl

theorem tbl_28 (c : Dev nD) : (GenP.V57 m (Vals.outs m) c main_v371 : S50000.Idx → BitVec 32) = Vals.dstc m 28 c := by
  have hd : (GenP.V56 m (Vals.outs m) c main_v3 : S1600000.Idx → BitVec 32) = Vals.dst m c :=
    (GenP.V56_of m _ c main_v3 (by decide)).trans (dst_27 m c)
  show StableHlo.after Gen.hostOps28 (GenP.V56 m (Vals.outs m) c) (Proc.devRef .tc main_v371) = _
  after_results_simp
  rw [hd, Vals.dstc, dif_pos (by decide : 28 < 32)] <;> rfl

theorem tgt_28 (c : Dev nD) : (GenP.V57 m (Vals.outs m) c main_v372 : S50000.Idx → BitVec 32) = Vals.srcc m 28 c := by
  have hd : (GenP.V56 m (Vals.outs m) c main_v1 : S1600000.Idx → BitVec 32) = Vals.src m c :=
    (GenP.V56_of m _ c main_v1 (by decide)).trans (src_27 m c)
  show StableHlo.after Gen.hostOps28 (GenP.V56 m (Vals.outs m) c) (Proc.devRef .tc main_v372) = _
  after_results_simp
  rw [hd, Vals.srcc, dif_pos (by decide : 28 < 32)] <;> rfl

theorem x3_28 (c : Dev nD) : (GenP.V57 m (Vals.outs m) c main_v373 : FVec F S100000x1x128 .f32) = Vals.X3 m c := by
  have hx : (GenP.V56 m (Vals.outs m) c main_arg0 : FVec F S100000x128 .f32) = Vals.X m c :=
    (GenP.V56_of m _ c main_arg0 (by decide)).trans (x_27 m c)
  show StableHlo.after Gen.hostOps28 (GenP.V56 m (Vals.outs m) c) (Proc.devRef .tc main_v373) = _
  after_results_simp
  rw [hx]
  rfl

/-! ## Boundary 59: after region 28 and the host stretch that adds chunk 28 -/

theorem src_29 (c : Dev nD) : (GenP.V59 m (Vals.outs m) c main_v1 : S1600000.Idx → BitVec 32) = Vals.src m c :=
  (GenP.V59_of m _ c main_v1 (by decide)).trans ((GenP.V58_of m _ c main_v1 (by decide)).trans (src_28 m c))

theorem dst_29 (c : Dev nD) : (GenP.V59 m (Vals.outs m) c main_v3 : S1600000.Idx → BitVec 32) = Vals.dst m c :=
  (GenP.V59_of m _ c main_v3 (by decide)).trans ((GenP.V58_of m _ c main_v3 (by decide)).trans (dst_28 m c))

theorem ones_29 (c : Dev nD) : (GenP.V59 m (Vals.outs m) c main_v6 : FVec F S50000 .f32) = Vals.ones :=
  (GenP.V59_of m _ c main_v6 (by decide)).trans ((GenP.V58_of m _ c main_v6 (by decide)).trans (ones_28 m c))

theorem x_29 (c : Dev nD) : (GenP.V59 m (Vals.outs m) c main_arg0 : FVec F S100000x128 .f32) = Vals.X m c :=
  (GenP.V59_of m _ c main_arg0 (by decide)).trans ((GenP.V58_of m _ c main_arg0 (by decide)).trans (x_28 m c))

theorem wt_29 (c : Dev nD) : (GenP.V59 m (Vals.outs m) c main_arg2 : FVec F S128x128 .f32) = Vals.Wt m c :=
  (GenP.V59_of m _ c main_arg2 (by decide)).trans ((GenP.V58_of m _ c main_arg2 (by decide)).trans (wt_28 m c))

theorem agg_29 (c : Dev nD) : (GenP.V59 m (Vals.outs m) c main_v379 : FVec F S100000x128 .f32) = Vals.agg m 29 c := by
  have hs : (GenP.V58 m (Vals.outs m) c main_v366 : FVec F S100000x128 .f32) = Vals.agg m 28 c :=
    (GenP.V58_of m _ c main_v366 (by decide)).trans (agg_28 m c)
  have ht : (GenP.V58 m (Vals.outs m) c main_v372 : S50000.Idx → BitVec 32) = Vals.srcc m 28 c :=
    (GenP.V58_of m _ c main_v372 (by decide)).trans (tgt_28 m c)
  have hg : (GenP.V58 m (Vals.outs m) c main_v374 : FVec F S50000x1x128 .f32) = Vals.gath3 m 28 c :=
    (Function.update_self ..).trans (Vals.outs_28 m c)
  show StableHlo.after Gen.hostOps29 (GenP.V58 m (Vals.outs m) c) (Proc.devRef .tc main_v379) = _
  after_results_simp
  rw [hs, ht, hg]
  rfl

theorem deg_29 (c : Dev nD) : (GenP.V59 m (Vals.outs m) c main_v383 : FVec F S100000 .f32) = Vals.deg m 29 c := by
  have hs : (GenP.V58 m (Vals.outs m) c main_v370 : FVec F S100000 .f32) = Vals.deg m 28 c :=
    (GenP.V58_of m _ c main_v370 (by decide)).trans (deg_28 m c)
  have ht : (GenP.V58 m (Vals.outs m) c main_v372 : S50000.Idx → BitVec 32) = Vals.srcc m 28 c :=
    (GenP.V58_of m _ c main_v372 (by decide)).trans (tgt_28 m c)
  have ho : (GenP.V58 m (Vals.outs m) c main_v6 : FVec F S50000 .f32) = Vals.ones :=
    (GenP.V58_of m _ c main_v6 (by decide)).trans (ones_28 m c)
  show StableHlo.after Gen.hostOps29 (GenP.V58 m (Vals.outs m) c) (Proc.devRef .tc main_v383) = _
  after_results_simp
  rw [hs, ht, ho]
  rfl

theorem tbl_29 (c : Dev nD) : (GenP.V59 m (Vals.outs m) c main_v384 : S50000.Idx → BitVec 32) = Vals.dstc m 29 c := by
  have hd : (GenP.V58 m (Vals.outs m) c main_v3 : S1600000.Idx → BitVec 32) = Vals.dst m c :=
    (GenP.V58_of m _ c main_v3 (by decide)).trans (dst_28 m c)
  show StableHlo.after Gen.hostOps29 (GenP.V58 m (Vals.outs m) c) (Proc.devRef .tc main_v384) = _
  after_results_simp
  rw [hd, Vals.dstc, dif_pos (by decide : 29 < 32)] <;> rfl

theorem tgt_29 (c : Dev nD) : (GenP.V59 m (Vals.outs m) c main_v385 : S50000.Idx → BitVec 32) = Vals.srcc m 29 c := by
  have hd : (GenP.V58 m (Vals.outs m) c main_v1 : S1600000.Idx → BitVec 32) = Vals.src m c :=
    (GenP.V58_of m _ c main_v1 (by decide)).trans (src_28 m c)
  show StableHlo.after Gen.hostOps29 (GenP.V58 m (Vals.outs m) c) (Proc.devRef .tc main_v385) = _
  after_results_simp
  rw [hd, Vals.srcc, dif_pos (by decide : 29 < 32)] <;> rfl

theorem x3_29 (c : Dev nD) : (GenP.V59 m (Vals.outs m) c main_v386 : FVec F S100000x1x128 .f32) = Vals.X3 m c := by
  have hx : (GenP.V58 m (Vals.outs m) c main_arg0 : FVec F S100000x128 .f32) = Vals.X m c :=
    (GenP.V58_of m _ c main_arg0 (by decide)).trans (x_28 m c)
  show StableHlo.after Gen.hostOps29 (GenP.V58 m (Vals.outs m) c) (Proc.devRef .tc main_v386) = _
  after_results_simp
  rw [hx]
  rfl

/-! ## Boundary 61: after region 29 and the host stretch that adds chunk 29 -/

theorem src_30 (c : Dev nD) : (GenP.V61 m (Vals.outs m) c main_v1 : S1600000.Idx → BitVec 32) = Vals.src m c :=
  (GenP.V61_of m _ c main_v1 (by decide)).trans ((GenP.V60_of m _ c main_v1 (by decide)).trans (src_29 m c))

theorem dst_30 (c : Dev nD) : (GenP.V61 m (Vals.outs m) c main_v3 : S1600000.Idx → BitVec 32) = Vals.dst m c :=
  (GenP.V61_of m _ c main_v3 (by decide)).trans ((GenP.V60_of m _ c main_v3 (by decide)).trans (dst_29 m c))

theorem ones_30 (c : Dev nD) : (GenP.V61 m (Vals.outs m) c main_v6 : FVec F S50000 .f32) = Vals.ones :=
  (GenP.V61_of m _ c main_v6 (by decide)).trans ((GenP.V60_of m _ c main_v6 (by decide)).trans (ones_29 m c))

theorem x_30 (c : Dev nD) : (GenP.V61 m (Vals.outs m) c main_arg0 : FVec F S100000x128 .f32) = Vals.X m c :=
  (GenP.V61_of m _ c main_arg0 (by decide)).trans ((GenP.V60_of m _ c main_arg0 (by decide)).trans (x_29 m c))

theorem wt_30 (c : Dev nD) : (GenP.V61 m (Vals.outs m) c main_arg2 : FVec F S128x128 .f32) = Vals.Wt m c :=
  (GenP.V61_of m _ c main_arg2 (by decide)).trans ((GenP.V60_of m _ c main_arg2 (by decide)).trans (wt_29 m c))

theorem agg_30 (c : Dev nD) : (GenP.V61 m (Vals.outs m) c main_v392 : FVec F S100000x128 .f32) = Vals.agg m 30 c := by
  have hs : (GenP.V60 m (Vals.outs m) c main_v379 : FVec F S100000x128 .f32) = Vals.agg m 29 c :=
    (GenP.V60_of m _ c main_v379 (by decide)).trans (agg_29 m c)
  have ht : (GenP.V60 m (Vals.outs m) c main_v385 : S50000.Idx → BitVec 32) = Vals.srcc m 29 c :=
    (GenP.V60_of m _ c main_v385 (by decide)).trans (tgt_29 m c)
  have hg : (GenP.V60 m (Vals.outs m) c main_v387 : FVec F S50000x1x128 .f32) = Vals.gath3 m 29 c :=
    (Function.update_self ..).trans (Vals.outs_29 m c)
  show StableHlo.after Gen.hostOps30 (GenP.V60 m (Vals.outs m) c) (Proc.devRef .tc main_v392) = _
  after_results_simp
  rw [hs, ht, hg]
  rfl

theorem deg_30 (c : Dev nD) : (GenP.V61 m (Vals.outs m) c main_v396 : FVec F S100000 .f32) = Vals.deg m 30 c := by
  have hs : (GenP.V60 m (Vals.outs m) c main_v383 : FVec F S100000 .f32) = Vals.deg m 29 c :=
    (GenP.V60_of m _ c main_v383 (by decide)).trans (deg_29 m c)
  have ht : (GenP.V60 m (Vals.outs m) c main_v385 : S50000.Idx → BitVec 32) = Vals.srcc m 29 c :=
    (GenP.V60_of m _ c main_v385 (by decide)).trans (tgt_29 m c)
  have ho : (GenP.V60 m (Vals.outs m) c main_v6 : FVec F S50000 .f32) = Vals.ones :=
    (GenP.V60_of m _ c main_v6 (by decide)).trans (ones_29 m c)
  show StableHlo.after Gen.hostOps30 (GenP.V60 m (Vals.outs m) c) (Proc.devRef .tc main_v396) = _
  after_results_simp
  rw [hs, ht, ho]
  rfl

theorem tbl_30 (c : Dev nD) : (GenP.V61 m (Vals.outs m) c main_v397 : S50000.Idx → BitVec 32) = Vals.dstc m 30 c := by
  have hd : (GenP.V60 m (Vals.outs m) c main_v3 : S1600000.Idx → BitVec 32) = Vals.dst m c :=
    (GenP.V60_of m _ c main_v3 (by decide)).trans (dst_29 m c)
  show StableHlo.after Gen.hostOps30 (GenP.V60 m (Vals.outs m) c) (Proc.devRef .tc main_v397) = _
  after_results_simp
  rw [hd, Vals.dstc, dif_pos (by decide : 30 < 32)] <;> rfl

theorem tgt_30 (c : Dev nD) : (GenP.V61 m (Vals.outs m) c main_v398 : S50000.Idx → BitVec 32) = Vals.srcc m 30 c := by
  have hd : (GenP.V60 m (Vals.outs m) c main_v1 : S1600000.Idx → BitVec 32) = Vals.src m c :=
    (GenP.V60_of m _ c main_v1 (by decide)).trans (src_29 m c)
  show StableHlo.after Gen.hostOps30 (GenP.V60 m (Vals.outs m) c) (Proc.devRef .tc main_v398) = _
  after_results_simp
  rw [hd, Vals.srcc, dif_pos (by decide : 30 < 32)] <;> rfl

theorem x3_30 (c : Dev nD) : (GenP.V61 m (Vals.outs m) c main_v399 : FVec F S100000x1x128 .f32) = Vals.X3 m c := by
  have hx : (GenP.V60 m (Vals.outs m) c main_arg0 : FVec F S100000x128 .f32) = Vals.X m c :=
    (GenP.V60_of m _ c main_arg0 (by decide)).trans (x_29 m c)
  show StableHlo.after Gen.hostOps30 (GenP.V60 m (Vals.outs m) c) (Proc.devRef .tc main_v399) = _
  after_results_simp
  rw [hx]
  rfl

/-! ## Boundary 63: after region 30 and the host stretch that adds chunk 30 -/

theorem src_31 (c : Dev nD) : (GenP.V63 m (Vals.outs m) c main_v1 : S1600000.Idx → BitVec 32) = Vals.src m c :=
  (GenP.V63_of m _ c main_v1 (by decide)).trans ((GenP.V62_of m _ c main_v1 (by decide)).trans (src_30 m c))

theorem dst_31 (c : Dev nD) : (GenP.V63 m (Vals.outs m) c main_v3 : S1600000.Idx → BitVec 32) = Vals.dst m c :=
  (GenP.V63_of m _ c main_v3 (by decide)).trans ((GenP.V62_of m _ c main_v3 (by decide)).trans (dst_30 m c))

theorem ones_31 (c : Dev nD) : (GenP.V63 m (Vals.outs m) c main_v6 : FVec F S50000 .f32) = Vals.ones :=
  (GenP.V63_of m _ c main_v6 (by decide)).trans ((GenP.V62_of m _ c main_v6 (by decide)).trans (ones_30 m c))

theorem x_31 (c : Dev nD) : (GenP.V63 m (Vals.outs m) c main_arg0 : FVec F S100000x128 .f32) = Vals.X m c :=
  (GenP.V63_of m _ c main_arg0 (by decide)).trans ((GenP.V62_of m _ c main_arg0 (by decide)).trans (x_30 m c))

theorem wt_31 (c : Dev nD) : (GenP.V63 m (Vals.outs m) c main_arg2 : FVec F S128x128 .f32) = Vals.Wt m c :=
  (GenP.V63_of m _ c main_arg2 (by decide)).trans ((GenP.V62_of m _ c main_arg2 (by decide)).trans (wt_30 m c))

theorem agg_31 (c : Dev nD) : (GenP.V63 m (Vals.outs m) c main_v405 : FVec F S100000x128 .f32) = Vals.agg m 31 c := by
  have hs : (GenP.V62 m (Vals.outs m) c main_v392 : FVec F S100000x128 .f32) = Vals.agg m 30 c :=
    (GenP.V62_of m _ c main_v392 (by decide)).trans (agg_30 m c)
  have ht : (GenP.V62 m (Vals.outs m) c main_v398 : S50000.Idx → BitVec 32) = Vals.srcc m 30 c :=
    (GenP.V62_of m _ c main_v398 (by decide)).trans (tgt_30 m c)
  have hg : (GenP.V62 m (Vals.outs m) c main_v400 : FVec F S50000x1x128 .f32) = Vals.gath3 m 30 c :=
    (Function.update_self ..).trans (Vals.outs_30 m c)
  show StableHlo.after Gen.hostOps31 (GenP.V62 m (Vals.outs m) c) (Proc.devRef .tc main_v405) = _
  after_results_simp
  rw [hs, ht, hg]
  rfl

theorem deg_31 (c : Dev nD) : (GenP.V63 m (Vals.outs m) c main_v409 : FVec F S100000 .f32) = Vals.deg m 31 c := by
  have hs : (GenP.V62 m (Vals.outs m) c main_v396 : FVec F S100000 .f32) = Vals.deg m 30 c :=
    (GenP.V62_of m _ c main_v396 (by decide)).trans (deg_30 m c)
  have ht : (GenP.V62 m (Vals.outs m) c main_v398 : S50000.Idx → BitVec 32) = Vals.srcc m 30 c :=
    (GenP.V62_of m _ c main_v398 (by decide)).trans (tgt_30 m c)
  have ho : (GenP.V62 m (Vals.outs m) c main_v6 : FVec F S50000 .f32) = Vals.ones :=
    (GenP.V62_of m _ c main_v6 (by decide)).trans (ones_30 m c)
  show StableHlo.after Gen.hostOps31 (GenP.V62 m (Vals.outs m) c) (Proc.devRef .tc main_v409) = _
  after_results_simp
  rw [hs, ht, ho]
  rfl

theorem tbl_31 (c : Dev nD) : (GenP.V63 m (Vals.outs m) c main_v410 : S50000.Idx → BitVec 32) = Vals.dstc m 31 c := by
  have hd : (GenP.V62 m (Vals.outs m) c main_v3 : S1600000.Idx → BitVec 32) = Vals.dst m c :=
    (GenP.V62_of m _ c main_v3 (by decide)).trans (dst_30 m c)
  show StableHlo.after Gen.hostOps31 (GenP.V62 m (Vals.outs m) c) (Proc.devRef .tc main_v410) = _
  after_results_simp
  rw [hd, Vals.dstc, dif_pos (by decide : 31 < 32)] <;> rfl

theorem tgt_31 (c : Dev nD) : (GenP.V63 m (Vals.outs m) c main_v411 : S50000.Idx → BitVec 32) = Vals.srcc m 31 c := by
  have hd : (GenP.V62 m (Vals.outs m) c main_v1 : S1600000.Idx → BitVec 32) = Vals.src m c :=
    (GenP.V62_of m _ c main_v1 (by decide)).trans (src_30 m c)
  show StableHlo.after Gen.hostOps31 (GenP.V62 m (Vals.outs m) c) (Proc.devRef .tc main_v411) = _
  after_results_simp
  rw [hd, Vals.srcc, dif_pos (by decide : 31 < 32)] <;> rfl

theorem x3_31 (c : Dev nD) : (GenP.V63 m (Vals.outs m) c main_v412 : FVec F S100000x1x128 .f32) = Vals.X3 m c := by
  have hx : (GenP.V62 m (Vals.outs m) c main_arg0 : FVec F S100000x128 .f32) = Vals.X m c :=
    (GenP.V62_of m _ c main_arg0 (by decide)).trans (x_30 m c)
  show StableHlo.after Gen.hostOps31 (GenP.V62 m (Vals.outs m) c) (Proc.devRef .tc main_v412) = _
  after_results_simp
  rw [hx]
  rfl

/-! ## Boundary 65: after region 31 and the last host stretch, which adds chunk 31 and lays the counts out as a column -/

theorem wt_32 (c : Dev nD) : (GenP.V65 m (Vals.outs m) c main_arg2 : FVec F S128x128 .f32) = Vals.Wt m c :=
  (GenP.V65_of m _ c main_arg2 (by decide)).trans ((GenP.V64_of m _ c main_arg2 (by decide)).trans (wt_31 m c))

theorem agg_32 (c : Dev nD) : (GenP.V65 m (Vals.outs m) c main_v418 : FVec F S100000x128 .f32) = Vals.agg m 32 c := by
  have hs : (GenP.V64 m (Vals.outs m) c main_v405 : FVec F S100000x128 .f32) = Vals.agg m 31 c :=
    (GenP.V64_of m _ c main_v405 (by decide)).trans (agg_31 m c)
  have ht : (GenP.V64 m (Vals.outs m) c main_v411 : S50000.Idx → BitVec 32) = Vals.srcc m 31 c :=
    (GenP.V64_of m _ c main_v411 (by decide)).trans (tgt_31 m c)
  have hg : (GenP.V64 m (Vals.outs m) c main_v413 : FVec F S50000x1x128 .f32) = Vals.gath3 m 31 c :=
    (Function.update_self ..).trans (Vals.outs_31 m c)
  show StableHlo.after Gen.hostOps32 (GenP.V64 m (Vals.outs m) c) (Proc.devRef .tc main_v418) = _
  after_results_simp
  rw [hs, ht, hg]
  rfl

theorem deg_32 (c : Dev nD) : (GenP.V65 m (Vals.outs m) c main_v422 : FVec F S100000 .f32) = Vals.deg m 32 c := by
  have hs : (GenP.V64 m (Vals.outs m) c main_v409 : FVec F S100000 .f32) = Vals.deg m 31 c :=
    (GenP.V64_of m _ c main_v409 (by decide)).trans (deg_31 m c)
  have ht : (GenP.V64 m (Vals.outs m) c main_v411 : S50000.Idx → BitVec 32) = Vals.srcc m 31 c :=
    (GenP.V64_of m _ c main_v411 (by decide)).trans (tgt_31 m c)
  have ho : (GenP.V64 m (Vals.outs m) c main_v6 : FVec F S50000 .f32) = Vals.ones :=
    (GenP.V64_of m _ c main_v6 (by decide)).trans (ones_31 m c)
  show StableHlo.after Gen.hostOps32 (GenP.V64 m (Vals.outs m) c) (Proc.devRef .tc main_v422) = _
  after_results_simp
  rw [hs, ht, ho]
  rfl

theorem degCol_32 (c : Dev nD) : (GenP.V65 m (Vals.outs m) c main_v423 : FVec F S100000x1 .f32) = Vals.degCol m c := by
  have hs : (GenP.V64 m (Vals.outs m) c main_v409 : FVec F S100000 .f32) = Vals.deg m 31 c :=
    (GenP.V64_of m _ c main_v409 (by decide)).trans (deg_31 m c)
  have ht : (GenP.V64 m (Vals.outs m) c main_v411 : S50000.Idx → BitVec 32) = Vals.srcc m 31 c :=
    (GenP.V64_of m _ c main_v411 (by decide)).trans (tgt_31 m c)
  have ho : (GenP.V64 m (Vals.outs m) c main_v6 : FVec F S50000 .f32) = Vals.ones :=
    (GenP.V64_of m _ c main_v6 (by decide)).trans (ones_31 m c)
  show StableHlo.after Gen.hostOps32 (GenP.V64 m (Vals.outs m) c) (Proc.devRef .tc main_v423) = _
  after_results_simp
  rw [hs, ht, ho]
  rfl

end Cert.KernelIdeal.Inv

end
-- ==== Proof.KI.S32.lean ====
/-
  The last kernel region (the mean and the product with the weights) as an item of the program's run: entered from "every
  unscoped buffer at the contents before it, the generator register at some state, nothing owed", left at the contents
  after it, its result array holding the result `Vals.out`. It prefetches no table: at entry its four arrays are split
  out of the unscoped buffers and at exit put back. What it leaves in the result array is the kernel's function of the
  sums, the counts column and the weights it is entered at, which the host stretches made the running sum, the counts and
  the weights argument.
-/
import proofs.«406793_j90890097918585_2_alg».proof.Proof.KI.Data
import proofs.«406793_j90890097918585_2_alg».proof.Proof.KI.MM
import proofs.«406793_j90890097918585_2_alg».proof.Proof.KI.Inv

set_option maxRecDepth 16384

noncomputable section

namespace Cert.KernelIdeal.S32

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : Run.Hyp m)

/-- The region leaves the result in its output array. -/
theorem arr_out (c : Dev nD) : (MM.dat (Run.Ve32 m) c).arrAt 3 cfg32.N = Vals.out m c := by
  refine (MM.arrAt_3 (Run.Ve32 m) c).trans ?_
  have e1 : (Run.Ve32 m c main_v423 : FVec F S100000x1 .f32) = Vals.degCol m c := Inv.degCol_32 m c
  have e2 : (Run.Ve32 m c main_v418 : FVec F S100000x128 .f32) = Vals.agg m 32 c := Inv.agg_32 m c
  have e3 : (Run.Ve32 m c main_arg2 : FVec F S128x128 .f32) = Vals.Wt m c := Inv.wt_32 m c
  rw [e1, e2, e3]
  rfl

/-- After the region each of its arrays holds what the pipeline leaves: the three arrays read as entered, the output at the result. -/
theorem hF (c : Dev nD) (w : Fin cfg32.W) :
    (MM.dat (Run.Ve32 m) c).arrAt w cfg32.N = GenP.V66 m (Vals.outs m) c (Pipeline.arrRef spec32 w) := by
  match w with
  | ⟨0, _⟩ =>
    refine ((MM.dat (Run.Ve32 m) c).arrAt_in 0 rfl _).trans ((MM.A_eq (Run.Ve32 m) c 0).trans ?_)
    exact (GenP.V66_of m (Vals.outs m) c main_v418 (by decide)).symm
  | ⟨1, _⟩ =>
    refine ((MM.dat (Run.Ve32 m) c).arrAt_in 1 rfl _).trans ((MM.A_eq (Run.Ve32 m) c 1).trans ?_)
    exact (GenP.V66_of m (Vals.outs m) c main_v423 (by decide)).symm
  | ⟨2, _⟩ =>
    refine ((MM.dat (Run.Ve32 m) c).arrAt_in 2 rfl _).trans ((MM.A_eq (Run.Ve32 m) c 2).trans ?_)
    exact (GenP.V66_of m (Vals.outs m) c main_arg2 (by decide)).symm
  | ⟨3, _⟩ =>
    refine (arr_out m c).trans ?_
    show Vals.out m c = Function.update (GenP.V65 m (Vals.outs m) c) main_v424 (Vals.outs m 66 main_v424 c) main_v424
    rw [Function.update_self, Vals.outs_32]

/-- and every other buffer what it held at entry. -/
theorem hrest (c : Dev nD) : ∀ b, b ∉ Finset.univ.image (Pipeline.arrRef spec32) →
    (fun b : Ref sig .tc => GenP.V66 m (Vals.outs m) c b) b = Run.Ve32 m c b := fun b hb =>
  GenP.V66_of m (Vals.outs m) c b (by
    intro hmem
    rw [List.mem_singleton] at hmem
    exact hb (Finset.mem_image.mpr ⟨3, Finset.mem_univ _, hmem.symm⟩))

set_option maxHeartbeats 4000000 in
set_option backward.isDefEq.respectTransparency.types false in
/-- THE LAST REGION over the thread state. -/
def reg : Pipeline.RegionSeg (pcfgs (F := F)) (Run.a m h) (Run.pdats m h) () defs₀ Run.𝒱₀ Run.L Run.lv (32 : Fin 33) where
  win := (launch32 (F := F)).win.to₀
  block_pos := (launch32 (F := F)).block_pos
  stage_whole := (launch32 (F := F)).stage_whole
  K := PEmpty
  osem k := k.elim
  ho := Pipeline.OwnSemFacts.none _
  hbody c := (MM.body_obligation (Run.Ve32 m) c).loose
  hwaits := Pipeline.hwaits_of_owed_zero _ _ _ _ Run.L Run.lv (32 : Fin 33) fun _ _ => rfl
  pre c := iprop(StableHlo.held (c : Thread nD τ) (Pipeline.ucRefs τ sig) (GenP.V65 m (Vals.outs m) c) ∗ Run.R c)
  post c := iprop(StableHlo.held (c : Thread nD τ) (Pipeline.ucRefs τ sig) (GenP.V66 m (Vals.outs m) c) ∗ Run.R c)
  X c := iprop(∃ r, prngReg c r)
  Y c := iprop(∃ r, prngReg c r)
  Z c := Pipeline.unscopedRest (Ix := Unit) (Name := ℕ) (U := UR sig nD τ) (Lvl := ℕ) spec32 c (Run.Ve32 m c)
  hentry c := by
    rw [Pipeline.ownSems0_none]
    have hsplit := Pipeline.arrays_of_unscopedBufs (p := (32 : Fin 33)) (pcfgs (F := F)) (Run.a m h) (Run.pdats m h) (launch32 (F := F)).win (launch32 (F := F)).arr_whole c
      ((Run.pdats m h (32 : Fin 33) c).share_full fun _ => rfl) (Run.Ve32 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Run.pdats m h (32 : Fin 33) c).Φ 0 = Pipeline.ΦA spec32 c from rfl]; unfold Pipeline.ΦA
    iintro ⟨Hp, -, Hr⟩
    isplitl [Hr]; · iexact Hr
    iexact Hp
  hout c := by
    rw [Pipeline.ownSems0_none, show (Run.pdats m h (32 : Fin 33) c).Φ (Fin.last _) = Pipeline.ΦA spec32 c from rfl]; unfold Pipeline.ΦA
    iintro ⟨Hr, Hp⟩
    isplitl [Hp]; · iexact Hp
    isplitr; · iempintro
    iexact Hr
  hexit c := by
    have hjoin := Pipeline.unscopedBufs_of_arrays (p := (32 : Fin 33)) (pcfgs (F := F)) (Run.a m h) (Ix := Unit) (Name := ℕ) (U := UR sig nD τ) (Lvl := ℕ)
      (launch32 (F := F)).win (launch32 (F := F)).arr_whole c (Run.pdats m h) ((Run.pdats m h (32 : Fin 33) c).share_full fun _ => rfl)
      (Run.Ve32 m c) (fun b => GenP.V66 m (Vals.outs m) c b) ((Run.pdats m h (32 : Fin 33) c).arrAt · cfg32.N) (hF m c) (hrest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.S32

end
-- ==== Proof.KI.Ok.lean ====
/-
  The gather regions' tables are admissible under the precondition: every word of chunk p's table is a row index below
  100000, so at every grid point the input window's block (row `tb[t]` of the [100000, 1, 128] array) lies inside it.
-/
import proofs.«406793_j90890097918585_2_alg».proof.Proof.KI.Vals
import proofs.«406793_j90890097918585_2_alg».proof.Proof.PreIdx

noncomputable section

namespace Cert.KernelIdeal.Ok

open Cert.KernelIdeal Idealize.ShloMosaic Idealize.ShloMosaic.TcCoe Idealize.SL.Sem

variable {F : FTy → Type} [FloatOps F]

attribute [local instance] Cert.Pre_finite_inputs.Gen.facts

/-- Under the precondition every word of chunk `p`'s table is below 100000. -/
theorem dstc_lt (m : (ℓ : Loc nD τ sig) → Buf (Elt F) ℓ)
    (hpre : ∀ c : Dev nD, Cert.Pre_finite_inputs.fn (F := F) (Vals.X m c) (Vals.Adj m c) (Vals.Wt m c) = fun _ => 1#1)
    (p : ℕ) (c : Dev nD) (i : S50000.Idx) : (Vals.dstc m p c i).toNat < 100000 := by
  unfold Vals.dstc
  split
  · next hp =>
    have hi : (i 0).val < 50000 := (i 0).isLt
    have hlt : 50000 * p + (i 0).val < 1600000 := by omega
    have e1 : extractStridedSlice S50000 ![50000 * p] (Vals.dst m c) (Vals.chunk_slices p hp) i
        = Vals.dst m c (ValueIdx.ix1 (⟨50000 * p + (i 0).val, hlt⟩ : Fin 1600000)) := by
      unfold extractStridedSlice
      refine congrArg (Vals.dst m c) (funext fun a => Fin.ext ?_)
      match a with
      | ⟨0, _⟩ => rfl
    rw [e1]
    unfold Vals.dst
    rw [Cert.PreIdx.row1_apply]
    exact Cert.PreIdx.dst_lt _ _ _ (hpre c) _
  · show (0#32).toNat < 100000
    decide

/-- Region 0's side condition on its table's contents, from the range of the table's words. -/
theorem ok0_of (tb : pre0.Contents (Elt F)) (h : ∀ i : S50000.Idx, ((tb 0 : S50000.Idx → BitVec 32) i).toNat < 100000) : ok0 (F := F) tb := by
  unfold ok0
  intro i
  refine ⟨?_, Or.inl rfl⟩
  intro a
  unfold cc0_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

-- GENERATED below this line by `node scripts/gen_ok.js KernelIdeal` from the text of ok0_of above: the same lemma for regions 1 to 31

/-- Region 1's side condition on its table's contents, from the range of the table's words. -/
theorem ok1_of (tb : pre1.Contents (Elt F)) (h : ∀ i : S50000.Idx, ((tb 0 : S50000.Idx → BitVec 32) i).toNat < 100000) : ok1 (F := F) tb := by
  unfold ok1
  intro i
  refine ⟨?_, Or.inl rfl⟩
  intro a
  unfold cc1_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 2's side condition on its table's contents, from the range of the table's words. -/
theorem ok2_of (tb : pre2.Contents (Elt F)) (h : ∀ i : S50000.Idx, ((tb 0 : S50000.Idx → BitVec 32) i).toNat < 100000) : ok2 (F := F) tb := by
  unfold ok2
  intro i
  refine ⟨?_, Or.inl rfl⟩
  intro a
  unfold cc2_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 3's side condition on its table's contents, from the range of the table's words. -/
theorem ok3_of (tb : pre3.Contents (Elt F)) (h : ∀ i : S50000.Idx, ((tb 0 : S50000.Idx → BitVec 32) i).toNat < 100000) : ok3 (F := F) tb := by
  unfold ok3
  intro i
  refine ⟨?_, Or.inl rfl⟩
  intro a
  unfold cc3_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 4's side condition on its table's contents, from the range of the table's words. -/
theorem ok4_of (tb : pre4.Contents (Elt F)) (h : ∀ i : S50000.Idx, ((tb 0 : S50000.Idx → BitVec 32) i).toNat < 100000) : ok4 (F := F) tb := by
  unfold ok4
  intro i
  refine ⟨?_, Or.inl rfl⟩
  intro a
  unfold cc4_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 5's side condition on its table's contents, from the range of the table's words. -/
theorem ok5_of (tb : pre5.Contents (Elt F)) (h : ∀ i : S50000.Idx, ((tb 0 : S50000.Idx → BitVec 32) i).toNat < 100000) : ok5 (F := F) tb := by
  unfold ok5
  intro i
  refine ⟨?_, Or.inl rfl⟩
  intro a
  unfold cc5_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 6's side condition on its table's contents, from the range of the table's words. -/
theorem ok6_of (tb : pre6.Contents (Elt F)) (h : ∀ i : S50000.Idx, ((tb 0 : S50000.Idx → BitVec 32) i).toNat < 100000) : ok6 (F := F) tb := by
  unfold ok6
  intro i
  refine ⟨?_, Or.inl rfl⟩
  intro a
  unfold cc6_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 7's side condition on its table's contents, from the range of the table's words. -/
theorem ok7_of (tb : pre7.Contents (Elt F)) (h : ∀ i : S50000.Idx, ((tb 0 : S50000.Idx → BitVec 32) i).toNat < 100000) : ok7 (F := F) tb := by
  unfold ok7
  intro i
  refine ⟨?_, Or.inl rfl⟩
  intro a
  unfold cc7_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 8's side condition on its table's contents, from the range of the table's words. -/
theorem ok8_of (tb : pre8.Contents (Elt F)) (h : ∀ i : S50000.Idx, ((tb 0 : S50000.Idx → BitVec 32) i).toNat < 100000) : ok8 (F := F) tb := by
  unfold ok8
  intro i
  refine ⟨?_, Or.inl rfl⟩
  intro a
  unfold cc8_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 9's side condition on its table's contents, from the range of the table's words. -/
theorem ok9_of (tb : pre9.Contents (Elt F)) (h : ∀ i : S50000.Idx, ((tb 0 : S50000.Idx → BitVec 32) i).toNat < 100000) : ok9 (F := F) tb := by
  unfold ok9
  intro i
  refine ⟨?_, Or.inl rfl⟩
  intro a
  unfold cc9_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 10's side condition on its table's contents, from the range of the table's words. -/
theorem ok10_of (tb : pre10.Contents (Elt F)) (h : ∀ i : S50000.Idx, ((tb 0 : S50000.Idx → BitVec 32) i).toNat < 100000) : ok10 (F := F) tb := by
  unfold ok10
  intro i
  refine ⟨?_, Or.inl rfl⟩
  intro a
  unfold cc10_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 11's side condition on its table's contents, from the range of the table's words. -/
theorem ok11_of (tb : pre11.Contents (Elt F)) (h : ∀ i : S50000.Idx, ((tb 0 : S50000.Idx → BitVec 32) i).toNat < 100000) : ok11 (F := F) tb := by
  unfold ok11
  intro i
  refine ⟨?_, Or.inl rfl⟩
  intro a
  unfold cc11_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 12's side condition on its table's contents, from the range of the table's words. -/
theorem ok12_of (tb : pre12.Contents (Elt F)) (h : ∀ i : S50000.Idx, ((tb 0 : S50000.Idx → BitVec 32) i).toNat < 100000) : ok12 (F := F) tb := by
  unfold ok12
  intro i
  refine ⟨?_, Or.inl rfl⟩
  intro a
  unfold cc12_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 13's side condition on its table's contents, from the range of the table's words. -/
theorem ok13_of (tb : pre13.Contents (Elt F)) (h : ∀ i : S50000.Idx, ((tb 0 : S50000.Idx → BitVec 32) i).toNat < 100000) : ok13 (F := F) tb := by
  unfold ok13
  intro i
  refine ⟨?_, Or.inl rfl⟩
  intro a
  unfold cc13_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 14's side condition on its table's contents, from the range of the table's words. -/
theorem ok14_of (tb : pre14.Contents (Elt F)) (h : ∀ i : S50000.Idx, ((tb 0 : S50000.Idx → BitVec 32) i).toNat < 100000) : ok14 (F := F) tb := by
  unfold ok14
  intro i
  refine ⟨?_, Or.inl rfl⟩
  intro a
  unfold cc14_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 15's side condition on its table's contents, from the range of the table's words. -/
theorem ok15_of (tb : pre15.Contents (Elt F)) (h : ∀ i : S50000.Idx, ((tb 0 : S50000.Idx → BitVec 32) i).toNat < 100000) : ok15 (F := F) tb := by
  unfold ok15
  intro i
  refine ⟨?_, Or.inl rfl⟩
  intro a
  unfold cc15_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 16's side condition on its table's contents, from the range of the table's words. -/
theorem ok16_of (tb : pre16.Contents (Elt F)) (h : ∀ i : S50000.Idx, ((tb 0 : S50000.Idx → BitVec 32) i).toNat < 100000) : ok16 (F := F) tb := by
  unfold ok16
  intro i
  refine ⟨?_, Or.inl rfl⟩
  intro a
  unfold cc16_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 17's side condition on its table's contents, from the range of the table's words. -/
theorem ok17_of (tb : pre17.Contents (Elt F)) (h : ∀ i : S50000.Idx, ((tb 0 : S50000.Idx → BitVec 32) i).toNat < 100000) : ok17 (F := F) tb := by
  unfold ok17
  intro i
  refine ⟨?_, Or.inl rfl⟩
  intro a
  unfold cc17_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 18's side condition on its table's contents, from the range of the table's words. -/
theorem ok18_of (tb : pre18.Contents (Elt F)) (h : ∀ i : S50000.Idx, ((tb 0 : S50000.Idx → BitVec 32) i).toNat < 100000) : ok18 (F := F) tb := by
  unfold ok18
  intro i
  refine ⟨?_, Or.inl rfl⟩
  intro a
  unfold cc18_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 19's side condition on its table's contents, from the range of the table's words. -/
theorem ok19_of (tb : pre19.Contents (Elt F)) (h : ∀ i : S50000.Idx, ((tb 0 : S50000.Idx → BitVec 32) i).toNat < 100000) : ok19 (F := F) tb := by
  unfold ok19
  intro i
  refine ⟨?_, Or.inl rfl⟩
  intro a
  unfold cc19_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 20's side condition on its table's contents, from the range of the table's words. -/
theorem ok20_of (tb : pre20.Contents (Elt F)) (h : ∀ i : S50000.Idx, ((tb 0 : S50000.Idx → BitVec 32) i).toNat < 100000) : ok20 (F := F) tb := by
  unfold ok20
  intro i
  refine ⟨?_, Or.inl rfl⟩
  intro a
  unfold cc20_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 21's side condition on its table's contents, from the range of the table's words. -/
theorem ok21_of (tb : pre21.Contents (Elt F)) (h : ∀ i : S50000.Idx, ((tb 0 : S50000.Idx → BitVec 32) i).toNat < 100000) : ok21 (F := F) tb := by
  unfold ok21
  intro i
  refine ⟨?_, Or.inl rfl⟩
  intro a
  unfold cc21_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 22's side condition on its table's contents, from the range of the table's words. -/
theorem ok22_of (tb : pre22.Contents (Elt F)) (h : ∀ i : S50000.Idx, ((tb 0 : S50000.Idx → BitVec 32) i).toNat < 100000) : ok22 (F := F) tb := by
  unfold ok22
  intro i
  refine ⟨?_, Or.inl rfl⟩
  intro a
  unfold cc22_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 23's side condition on its table's contents, from the range of the table's words. -/
theorem ok23_of (tb : pre23.Contents (Elt F)) (h : ∀ i : S50000.Idx, ((tb 0 : S50000.Idx → BitVec 32) i).toNat < 100000) : ok23 (F := F) tb := by
  unfold ok23
  intro i
  refine ⟨?_, Or.inl rfl⟩
  intro a
  unfold cc23_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 24's side condition on its table's contents, from the range of the table's words. -/
theorem ok24_of (tb : pre24.Contents (Elt F)) (h : ∀ i : S50000.Idx, ((tb 0 : S50000.Idx → BitVec 32) i).toNat < 100000) : ok24 (F := F) tb := by
  unfold ok24
  intro i
  refine ⟨?_, Or.inl rfl⟩
  intro a
  unfold cc24_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 25's side condition on its table's contents, from the range of the table's words. -/
theorem ok25_of (tb : pre25.Contents (Elt F)) (h : ∀ i : S50000.Idx, ((tb 0 : S50000.Idx → BitVec 32) i).toNat < 100000) : ok25 (F := F) tb := by
  unfold ok25
  intro i
  refine ⟨?_, Or.inl rfl⟩
  intro a
  unfold cc25_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 26's side condition on its table's contents, from the range of the table's words. -/
theorem ok26_of (tb : pre26.Contents (Elt F)) (h : ∀ i : S50000.Idx, ((tb 0 : S50000.Idx → BitVec 32) i).toNat < 100000) : ok26 (F := F) tb := by
  unfold ok26
  intro i
  refine ⟨?_, Or.inl rfl⟩
  intro a
  unfold cc26_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 27's side condition on its table's contents, from the range of the table's words. -/
theorem ok27_of (tb : pre27.Contents (Elt F)) (h : ∀ i : S50000.Idx, ((tb 0 : S50000.Idx → BitVec 32) i).toNat < 100000) : ok27 (F := F) tb := by
  unfold ok27
  intro i
  refine ⟨?_, Or.inl rfl⟩
  intro a
  unfold cc27_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 28's side condition on its table's contents, from the range of the table's words. -/
theorem ok28_of (tb : pre28.Contents (Elt F)) (h : ∀ i : S50000.Idx, ((tb 0 : S50000.Idx → BitVec 32) i).toNat < 100000) : ok28 (F := F) tb := by
  unfold ok28
  intro i
  refine ⟨?_, Or.inl rfl⟩
  intro a
  unfold cc28_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 29's side condition on its table's contents, from the range of the table's words. -/
theorem ok29_of (tb : pre29.Contents (Elt F)) (h : ∀ i : S50000.Idx, ((tb 0 : S50000.Idx → BitVec 32) i).toNat < 100000) : ok29 (F := F) tb := by
  unfold ok29
  intro i
  refine ⟨?_, Or.inl rfl⟩
  intro a
  unfold cc29_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 30's side condition on its table's contents, from the range of the table's words. -/
theorem ok30_of (tb : pre30.Contents (Elt F)) (h : ∀ i : S50000.Idx, ((tb 0 : S50000.Idx → BitVec 32) i).toNat < 100000) : ok30 (F := F) tb := by
  unfold ok30
  intro i
  refine ⟨?_, Or.inl rfl⟩
  intro a
  unfold cc30_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

/-- Region 31's side condition on its table's contents, from the range of the table's words. -/
theorem ok31_of (tb : pre31.Contents (Elt F)) (h : ∀ i : S50000.Idx, ((tb 0 : S50000.Idx → BitVec 32) i).toNat < 100000) : ok31 (F := F) tb := by
  unfold ok31
  intro i
  refine ⟨?_, Or.inl rfl⟩
  intro a
  unfold cc31_transform_0
  dsimp only
  have key : ∀ j : S50000.Idx, (BitVec.toNat ((tb 0 : S50000.Idx → BitVec 32) j) + 1) * 1 ≤ 100000 := fun j => by
    have := h j
    omega
  match a with
  | ⟨0, _⟩ => exact key _
  | ⟨1, _⟩ => show ((0#32).toNat + 1) * 1 ≤ 1; decide
  | ⟨2, _⟩ => show ((0#32).toNat + 1) * 128 ≤ 128; decide

end Cert.KernelIdeal.Ok

end
-- ==== Proof.KI.Run.lean ====
/- The program's run. Under the precondition every index table's words are row indices, so every table is admissible
   (`hyp`); each gather region leaves the gathered rows of its chunk (`harr p`: the region's output array from its blocks, with the
   array read and the table as the host stretches left them); the conditional launch then gives the frame (`frame`)
   and the run with the result array named (`value`): the ghost state is the pipeline library's alone, every core carries
   the generator register and owes nothing, and each region record is entered and left at the conditional frame's own
   thread states. -/
import proofs.«406793_j90890097918585_2_alg».proof.Proof.KI.S0
import proofs.«406793_j90890097918585_2_alg».proof.Proof.KI.G0V
import proofs.«406793_j90890097918585_2_alg».proof.Proof.KI.S1
import proofs.«406793_j90890097918585_2_alg».proof.Proof.KI.G1V
import proofs.«406793_j90890097918585_2_alg».proof.Proof.KI.S2
import proofs.«406793_j90890097918585_2_alg».proof.Proof.KI.G2V
import proofs.«406793_j90890097918585_2_alg».proof.Proof.KI.S3
import proofs.«406793_j90890097918585_2_alg».proof.Proof.KI.G3V
import proofs.«406793_j90890097918585_2_alg».proof.Proof.KI.S4
import proofs.«406793_j90890097918585_2_alg».proof.Proof.KI.G4V
import proofs.«406793_j90890097918585_2_alg».proof.Proof.KI.S5
import proofs.«406793_j90890097918585_2_alg».proof.Proof.KI.G5V
import proofs.«406793_j90890097918585_2_alg».proof.Proof.KI.S6
import proofs.«406793_j90890097918585_2_alg».proof.Proof.KI.G6V
import proofs.«406793_j90890097918585_2_alg».proof.Proof.KI.S7
import proofs.«406793_j90890097918585_2_alg».proof.Proof.KI.G7V
import proofs.«406793_j90890097918585_2_alg».proof.Proof.KI.S8
import proofs.«406793_j90890097918585_2_alg».proof.Proof.KI.G8V
import proofs.«406793_j90890097918585_2_alg».proof.Proof.KI.S9
import proofs.«406793_j90890097918585_2_alg».proof.Proof.KI.G9V
import proofs.«406793_j90890097918585_2_alg».proof.Proof.KI.S10
import proofs.«406793_j90890097918585_2_alg».proof.Proof.KI.G10V
import proofs.«406793_j90890097918585_2_alg».proof.Proof.KI.S11
import proofs.«406793_j90890097918585_2_alg».proof.Proof.KI.G11V
import proofs.«406793_j90890097918585_2_alg».proof.Proof.KI.S12
import proofs.«406793_j90890097918585_2_alg».proof.Proof.KI.G12V
import proofs.«406793_j90890097918585_2_alg».proof.Proof.KI.S13
import proofs.«406793_j90890097918585_2_alg».proof.Proof.KI.G13V
import proofs.«406793_j90890097918585_2_alg».proof.Proof.KI.S14
import proofs.«406793_j90890097918585_2_alg».proof.Proof.KI.G14V
import proofs.«406793_j90890097918585_2_alg».proof.Proof.KI.S15
import proofs.«406793_j90890097918585_2_alg».proof.Proof.KI.G15V
import proofs.«406793_j90890097918585_2_alg».proof.Proof.KI.S16
import proofs.«406793_j90890097918585_2_alg».proof.Proof.KI.G16V
import proofs.«406793_j90890097918585_2_alg».proof.Proof.KI.S17
import proofs.«406793_j90890097918585_2_alg».proof.Proof.KI.G17V
import proofs.«406793_j90890097918585_2_alg».proof.Proof.KI.S18
import proofs.«406793_j90890097918585_2_alg».proof.Proof.KI.G18V
import proofs.«406793_j90890097918585_2_alg».proof.Proof.KI.S19
import proofs.«406793_j90890097918585_2_alg».proof.Proof.KI.G19V
import proofs.«406793_j90890097918585_2_alg».proof.Proof.KI.S20
import proofs.«406793_j90890097918585_2_alg».proof.Proof.KI.G20V
import proofs.«406793_j90890097918585_2_alg».proof.Proof.KI.S21
import proofs.«406793_j90890097918585_2_alg».proof.Proof.KI.G21V
import proofs.«406793_j90890097918585_2_alg».proof.Proof.KI.S22
import proofs.«406793_j90890097918585_2_alg».proof.Proof.KI.G22V
import proofs.«406793_j90890097918585_2_alg».proof.Proof.KI.S23
import proofs.«406793_j90890097918585_2_alg».proof.Proof.KI.G23V
import proofs.«406793_j90890097918585_2_alg».proof.Proof.KI.S24
import proofs.«406793_j90890097918585_2_alg».proof.Proof.KI.G24V
import proofs.«406793_j90890097918585_2_alg».proof.Proof.KI.S25
import proofs.«406793_j90890097918585_2_alg».proof.Proof.KI.G25V
import proofs.«406793_j90890097918585_2_alg».proof.Proof.KI.S26
import proofs.«406793_j90890097918585_2_alg».proof.Proof.KI.G26V
import proofs.«406793_j90890097918585_2_alg».proof.Proof.KI.S27
import proofs.«406793_j90890097918585_2_alg».proof.Proof.KI.G27V
import proofs.«406793_j90890097918585_2_alg».proof.Proof.KI.S28
import proofs.«406793_j90890097918585_2_alg».proof.Proof.KI.G28V
import proofs.«406793_j90890097918585_2_alg».proof.Proof.KI.S29
import proofs.«406793_j90890097918585_2_alg».proof.Proof.KI.G29V
import proofs.«406793_j90890097918585_2_alg».proof.Proof.KI.S30
import proofs.«406793_j90890097918585_2_alg».proof.Proof.KI.G30V
import proofs.«406793_j90890097918585_2_alg».proof.Proof.KI.S31
import proofs.«406793_j90890097918585_2_alg».proof.Proof.KI.G31V
import proofs.«406793_j90890097918585_2_alg».proof.Proof.KI.S32
import proofs.«406793_j90890097918585_2_alg».proof.Proof.KI.Inv
import proofs.«406793_j90890097918585_2_alg».proof.Proof.KI.Ok

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

attribute [local instance] Cert.Pre_finite_inputs.Gen.facts

variable (m : (ℓ : Loc nD τ sig) → Buf (Elt F) ℓ)
variable (hpre : ∀ c : Dev nD, Cert.Pre_finite_inputs.fn (F := F) (Vals.X m c) (Vals.Adj m c) (Vals.Wt m c) = fun _ => 1#1)
include hpre

/-! ## Every table's words are row indices -/

theorem tbl0_lt (i : S50000.Idx) : ((tbl0 m 0 : S50000.Idx → BitVec 32) i).toNat < 100000 := by
  have e : (tbl0 m 0 : S50000.Idx → BitVec 32) = Vals.dstc m 0 0 := Inv.tbl_0 m 0
  rw [e]; exact Ok.dstc_lt m hpre 0 0 i
theorem tbl1_lt (i : S50000.Idx) : ((tbl1 m 0 : S50000.Idx → BitVec 32) i).toNat < 100000 := by
  have e : (tbl1 m 0 : S50000.Idx → BitVec 32) = Vals.dstc m 1 0 := Inv.tbl_1 m 0
  rw [e]; exact Ok.dstc_lt m hpre 1 0 i
theorem tbl2_lt (i : S50000.Idx) : ((tbl2 m 0 : S50000.Idx → BitVec 32) i).toNat < 100000 := by
  have e : (tbl2 m 0 : S50000.Idx → BitVec 32) = Vals.dstc m 2 0 := Inv.tbl_2 m 0
  rw [e]; exact Ok.dstc_lt m hpre 2 0 i
theorem tbl3_lt (i : S50000.Idx) : ((tbl3 m 0 : S50000.Idx → BitVec 32) i).toNat < 100000 := by
  have e : (tbl3 m 0 : S50000.Idx → BitVec 32) = Vals.dstc m 3 0 := Inv.tbl_3 m 0
  rw [e]; exact Ok.dstc_lt m hpre 3 0 i
theorem tbl4_lt (i : S50000.Idx) : ((tbl4 m 0 : S50000.Idx → BitVec 32) i).toNat < 100000 := by
  have e : (tbl4 m 0 : S50000.Idx → BitVec 32) = Vals.dstc m 4 0 := Inv.tbl_4 m 0
  rw [e]; exact Ok.dstc_lt m hpre 4 0 i
theorem tbl5_lt (i : S50000.Idx) : ((tbl5 m 0 : S50000.Idx → BitVec 32) i).toNat < 100000 := by
  have e : (tbl5 m 0 : S50000.Idx → BitVec 32) = Vals.dstc m 5 0 := Inv.tbl_5 m 0
  rw [e]; exact Ok.dstc_lt m hpre 5 0 i
theorem tbl6_lt (i : S50000.Idx) : ((tbl6 m 0 : S50000.Idx → BitVec 32) i).toNat < 100000 := by
  have e : (tbl6 m 0 : S50000.Idx → BitVec 32) = Vals.dstc m 6 0 := Inv.tbl_6 m 0
  rw [e]; exact Ok.dstc_lt m hpre 6 0 i
theorem tbl7_lt (i : S50000.Idx) : ((tbl7 m 0 : S50000.Idx → BitVec 32) i).toNat < 100000 := by
  have e : (tbl7 m 0 : S50000.Idx → BitVec 32) = Vals.dstc m 7 0 := Inv.tbl_7 m 0
  rw [e]; exact Ok.dstc_lt m hpre 7 0 i
theorem tbl8_lt (i : S50000.Idx) : ((tbl8 m 0 : S50000.Idx → BitVec 32) i).toNat < 100000 := by
  have e : (tbl8 m 0 : S50000.Idx → BitVec 32) = Vals.dstc m 8 0 := Inv.tbl_8 m 0
  rw [e]; exact Ok.dstc_lt m hpre 8 0 i
theorem tbl9_lt (i : S50000.Idx) : ((tbl9 m 0 : S50000.Idx → BitVec 32) i).toNat < 100000 := by
  have e : (tbl9 m 0 : S50000.Idx → BitVec 32) = Vals.dstc m 9 0 := Inv.tbl_9 m 0
  rw [e]; exact Ok.dstc_lt m hpre 9 0 i
theorem tbl10_lt (i : S50000.Idx) : ((tbl10 m 0 : S50000.Idx → BitVec 32) i).toNat < 100000 := by
  have e : (tbl10 m 0 : S50000.Idx → BitVec 32) = Vals.dstc m 10 0 := Inv.tbl_10 m 0
  rw [e]; exact Ok.dstc_lt m hpre 10 0 i
theorem tbl11_lt (i : S50000.Idx) : ((tbl11 m 0 : S50000.Idx → BitVec 32) i).toNat < 100000 := by
  have e : (tbl11 m 0 : S50000.Idx → BitVec 32) = Vals.dstc m 11 0 := Inv.tbl_11 m 0
  rw [e]; exact Ok.dstc_lt m hpre 11 0 i
theorem tbl12_lt (i : S50000.Idx) : ((tbl12 m 0 : S50000.Idx → BitVec 32) i).toNat < 100000 := by
  have e : (tbl12 m 0 : S50000.Idx → BitVec 32) = Vals.dstc m 12 0 := Inv.tbl_12 m 0
  rw [e]; exact Ok.dstc_lt m hpre 12 0 i
theorem tbl13_lt (i : S50000.Idx) : ((tbl13 m 0 : S50000.Idx → BitVec 32) i).toNat < 100000 := by
  have e : (tbl13 m 0 : S50000.Idx → BitVec 32) = Vals.dstc m 13 0 := Inv.tbl_13 m 0
  rw [e]; exact Ok.dstc_lt m hpre 13 0 i
theorem tbl14_lt (i : S50000.Idx) : ((tbl14 m 0 : S50000.Idx → BitVec 32) i).toNat < 100000 := by
  have e : (tbl14 m 0 : S50000.Idx → BitVec 32) = Vals.dstc m 14 0 := Inv.tbl_14 m 0
  rw [e]; exact Ok.dstc_lt m hpre 14 0 i
theorem tbl15_lt (i : S50000.Idx) : ((tbl15 m 0 : S50000.Idx → BitVec 32) i).toNat < 100000 := by
  have e : (tbl15 m 0 : S50000.Idx → BitVec 32) = Vals.dstc m 15 0 := Inv.tbl_15 m 0
  rw [e]; exact Ok.dstc_lt m hpre 15 0 i
theorem tbl16_lt (i : S50000.Idx) : ((tbl16 m 0 : S50000.Idx → BitVec 32) i).toNat < 100000 := by
  have e : (tbl16 m 0 : S50000.Idx → BitVec 32) = Vals.dstc m 16 0 := Inv.tbl_16 m 0
  rw [e]; exact Ok.dstc_lt m hpre 16 0 i
theorem tbl17_lt (i : S50000.Idx) : ((tbl17 m 0 : S50000.Idx → BitVec 32) i).toNat < 100000 := by
  have e : (tbl17 m 0 : S50000.Idx → BitVec 32) = Vals.dstc m 17 0 := Inv.tbl_17 m 0
  rw [e]; exact Ok.dstc_lt m hpre 17 0 i
theorem tbl18_lt (i : S50000.Idx) : ((tbl18 m 0 : S50000.Idx → BitVec 32) i).toNat < 100000 := by
  have e : (tbl18 m 0 : S50000.Idx → BitVec 32) = Vals.dstc m 18 0 := Inv.tbl_18 m 0
  rw [e]; exact Ok.dstc_lt m hpre 18 0 i
theorem tbl19_lt (i : S50000.Idx) : ((tbl19 m 0 : S50000.Idx → BitVec 32) i).toNat < 100000 := by
  have e : (tbl19 m 0 : S50000.Idx → BitVec 32) = Vals.dstc m 19 0 := Inv.tbl_19 m 0
  rw [e]; exact Ok.dstc_lt m hpre 19 0 i
theorem tbl20_lt (i : S50000.Idx) : ((tbl20 m 0 : S50000.Idx → BitVec 32) i).toNat < 100000 := by
  have e : (tbl20 m 0 : S50000.Idx → BitVec 32) = Vals.dstc m 20 0 := Inv.tbl_20 m 0
  rw [e]; exact Ok.dstc_lt m hpre 20 0 i
theorem tbl21_lt (i : S50000.Idx) : ((tbl21 m 0 : S50000.Idx → BitVec 32) i).toNat < 100000 := by
  have e : (tbl21 m 0 : S50000.Idx → BitVec 32) = Vals.dstc m 21 0 := Inv.tbl_21 m 0
  rw [e]; exact Ok.dstc_lt m hpre 21 0 i
theorem tbl22_lt (i : S50000.Idx) : ((tbl22 m 0 : S50000.Idx → BitVec 32) i).toNat < 100000 := by
  have e : (tbl22 m 0 : S50000.Idx → BitVec 32) = Vals.dstc m 22 0 := Inv.tbl_22 m 0
  rw [e]; exact Ok.dstc_lt m hpre 22 0 i
theorem tbl23_lt (i : S50000.Idx) : ((tbl23 m 0 : S50000.Idx → BitVec 32) i).toNat < 100000 := by
  have e : (tbl23 m 0 : S50000.Idx → BitVec 32) = Vals.dstc m 23 0 := Inv.tbl_23 m 0
  rw [e]; exact Ok.dstc_lt m hpre 23 0 i
theorem tbl24_lt (i : S50000.Idx) : ((tbl24 m 0 : S50000.Idx → BitVec 32) i).toNat < 100000 := by
  have e : (tbl24 m 0 : S50000.Idx → BitVec 32) = Vals.dstc m 24 0 := Inv.tbl_24 m 0
  rw [e]; exact Ok.dstc_lt m hpre 24 0 i
theorem tbl25_lt (i : S50000.Idx) : ((tbl25 m 0 : S50000.Idx → BitVec 32) i).toNat < 100000 := by
  have e : (tbl25 m 0 : S50000.Idx → BitVec 32) = Vals.dstc m 25 0 := Inv.tbl_25 m 0
  rw [e]; exact Ok.dstc_lt m hpre 25 0 i
theorem tbl26_lt (i : S50000.Idx) : ((tbl26 m 0 : S50000.Idx → BitVec 32) i).toNat < 100000 := by
  have e : (tbl26 m 0 : S50000.Idx → BitVec 32) = Vals.dstc m 26 0 := Inv.tbl_26 m 0
  rw [e]; exact Ok.dstc_lt m hpre 26 0 i
theorem tbl27_lt (i : S50000.Idx) : ((tbl27 m 0 : S50000.Idx → BitVec 32) i).toNat < 100000 := by
  have e : (tbl27 m 0 : S50000.Idx → BitVec 32) = Vals.dstc m 27 0 := Inv.tbl_27 m 0
  rw [e]; exact Ok.dstc_lt m hpre 27 0 i
theorem tbl28_lt (i : S50000.Idx) : ((tbl28 m 0 : S50000.Idx → BitVec 32) i).toNat < 100000 := by
  have e : (tbl28 m 0 : S50000.Idx → BitVec 32) = Vals.dstc m 28 0 := Inv.tbl_28 m 0
  rw [e]; exact Ok.dstc_lt m hpre 28 0 i
theorem tbl29_lt (i : S50000.Idx) : ((tbl29 m 0 : S50000.Idx → BitVec 32) i).toNat < 100000 := by
  have e : (tbl29 m 0 : S50000.Idx → BitVec 32) = Vals.dstc m 29 0 := Inv.tbl_29 m 0
  rw [e]; exact Ok.dstc_lt m hpre 29 0 i
theorem tbl30_lt (i : S50000.Idx) : ((tbl30 m 0 : S50000.Idx → BitVec 32) i).toNat < 100000 := by
  have e : (tbl30 m 0 : S50000.Idx → BitVec 32) = Vals.dstc m 30 0 := Inv.tbl_30 m 0
  rw [e]; exact Ok.dstc_lt m hpre 30 0 i
theorem tbl31_lt (i : S50000.Idx) : ((tbl31 m 0 : S50000.Idx → BitVec 32) i).toNat < 100000 := by
  have e : (tbl31 m 0 : S50000.Idx → BitVec 32) = Vals.dstc m 31 0 := Inv.tbl_31 m 0
  rw [e]; exact Ok.dstc_lt m hpre 31 0 i

/-- So every table is admissible. -/
theorem hyp : Hyp m where
  ok0 := Ok.ok0_of _ (tbl0_lt m hpre)
  ok1 := Ok.ok1_of _ (tbl1_lt m hpre)
  ok2 := Ok.ok2_of _ (tbl2_lt m hpre)
  ok3 := Ok.ok3_of _ (tbl3_lt m hpre)
  ok4 := Ok.ok4_of _ (tbl4_lt m hpre)
  ok5 := Ok.ok5_of _ (tbl5_lt m hpre)
  ok6 := Ok.ok6_of _ (tbl6_lt m hpre)
  ok7 := Ok.ok7_of _ (tbl7_lt m hpre)
  ok8 := Ok.ok8_of _ (tbl8_lt m hpre)
  ok9 := Ok.ok9_of _ (tbl9_lt m hpre)
  ok10 := Ok.ok10_of _ (tbl10_lt m hpre)
  ok11 := Ok.ok11_of _ (tbl11_lt m hpre)
  ok12 := Ok.ok12_of _ (tbl12_lt m hpre)
  ok13 := Ok.ok13_of _ (tbl13_lt m hpre)
  ok14 := Ok.ok14_of _ (tbl14_lt m hpre)
  ok15 := Ok.ok15_of _ (tbl15_lt m hpre)
  ok16 := Ok.ok16_of _ (tbl16_lt m hpre)
  ok17 := Ok.ok17_of _ (tbl17_lt m hpre)
  ok18 := Ok.ok18_of _ (tbl18_lt m hpre)
  ok19 := Ok.ok19_of _ (tbl19_lt m hpre)
  ok20 := Ok.ok20_of _ (tbl20_lt m hpre)
  ok21 := Ok.ok21_of _ (tbl21_lt m hpre)
  ok22 := Ok.ok22_of _ (tbl22_lt m hpre)
  ok23 := Ok.ok23_of _ (tbl23_lt m hpre)
  ok24 := Ok.ok24_of _ (tbl24_lt m hpre)
  ok25 := Ok.ok25_of _ (tbl25_lt m hpre)
  ok26 := Ok.ok26_of _ (tbl26_lt m hpre)
  ok27 := Ok.ok27_of _ (tbl27_lt m hpre)
  ok28 := Ok.ok28_of _ (tbl28_lt m hpre)
  ok29 := Ok.ok29_of _ (tbl29_lt m hpre)
  ok30 := Ok.ok30_of _ (tbl30_lt m hpre)
  ok31 := Ok.ok31_of _ (tbl31_lt m hpre)

/-! ## What each gather region leaves -/

theorem harr0 (c : Dev nD) : (G0.dat (Ve0 m) (tbl0 m) (hyp m hpre).ok0 c).arrAt 1 (G0.cfgM (tbl0 m) (hyp m hpre).ok0).N = Vals.gath3 m 0 c := by
  refine (G0.arrAt_1 (Ve0 m) (tbl0 m) (hyp m hpre).ok0 (tbl0_lt m hpre) c).trans ?_
  have e1 : (Ve0 m c main_v9 : FVec F S100000x1x128 .f32) = Vals.X3 m c := Inv.x3_0 m c
  have e2 : (tbl0 m 0 : S50000.Idx → BitVec 32) = Vals.dstc m 0 c := by
    obtain rfl : c = 0 := Subsingleton.elim _ _
    exact Inv.tbl_0 m 0
  rw [e1, e2]
  rfl
theorem harr1 (c : Dev nD) : (G1.dat (Ve1 m) (tbl1 m) (hyp m hpre).ok1 c).arrAt 1 (G1.cfgM (tbl1 m) (hyp m hpre).ok1).N = Vals.gath3 m 1 c := by
  refine (G1.arrAt_1 (Ve1 m) (tbl1 m) (hyp m hpre).ok1 (tbl1_lt m hpre) c).trans ?_
  have e1 : (Ve1 m c main_v22 : FVec F S100000x1x128 .f32) = Vals.X3 m c := Inv.x3_1 m c
  have e2 : (tbl1 m 0 : S50000.Idx → BitVec 32) = Vals.dstc m 1 c := by
    obtain rfl : c = 0 := Subsingleton.elim _ _
    exact Inv.tbl_1 m 0
  rw [e1, e2]
  rfl
theorem harr2 (c : Dev nD) : (G2.dat (Ve2 m) (tbl2 m) (hyp m hpre).ok2 c).arrAt 1 (G2.cfgM (tbl2 m) (hyp m hpre).ok2).N = Vals.gath3 m 2 c := by
  refine (G2.arrAt_1 (Ve2 m) (tbl2 m) (hyp m hpre).ok2 (tbl2_lt m hpre) c).trans ?_
  have e1 : (Ve2 m c main_v35 : FVec F S100000x1x128 .f32) = Vals.X3 m c := Inv.x3_2 m c
  have e2 : (tbl2 m 0 : S50000.Idx → BitVec 32) = Vals.dstc m 2 c := by
    obtain rfl : c = 0 := Subsingleton.elim _ _
    exact Inv.tbl_2 m 0
  rw [e1, e2]
  rfl
theorem harr3 (c : Dev nD) : (G3.dat (Ve3 m) (tbl3 m) (hyp m hpre).ok3 c).arrAt 1 (G3.cfgM (tbl3 m) (hyp m hpre).ok3).N = Vals.gath3 m 3 c := by
  refine (G3.arrAt_1 (Ve3 m) (tbl3 m) (hyp m hpre).ok3 (tbl3_lt m hpre) c).trans ?_
  have e1 : (Ve3 m c main_v48 : FVec F S100000x1x128 .f32) = Vals.X3 m c := Inv.x3_3 m c
  have e2 : (tbl3 m 0 : S50000.Idx → BitVec 32) = Vals.dstc m 3 c := by
    obtain rfl : c = 0 := Subsingleton.elim _ _
    exact Inv.tbl_3 m 0
  rw [e1, e2]
  rfl
theorem harr4 (c : Dev nD) : (G4.dat (Ve4 m) (tbl4 m) (hyp m hpre).ok4 c).arrAt 1 (G4.cfgM (tbl4 m) (hyp m hpre).ok4).N = Vals.gath3 m 4 c := by
  refine (G4.arrAt_1 (Ve4 m) (tbl4 m) (hyp m hpre).ok4 (tbl4_lt m hpre) c).trans ?_
  have e1 : (Ve4 m c main_v61 : FVec F S100000x1x128 .f32) = Vals.X3 m c := Inv.x3_4 m c
  have e2 : (tbl4 m 0 : S50000.Idx → BitVec 32) = Vals.dstc m 4 c := by
    obtain rfl : c = 0 := Subsingleton.elim _ _
    exact Inv.tbl_4 m 0
  rw [e1, e2]
  rfl
theorem harr5 (c : Dev nD) : (G5.dat (Ve5 m) (tbl5 m) (hyp m hpre).ok5 c).arrAt 1 (G5.cfgM (tbl5 m) (hyp m hpre).ok5).N = Vals.gath3 m 5 c := by
  refine (G5.arrAt_1 (Ve5 m) (tbl5 m) (hyp m hpre).ok5 (tbl5_lt m hpre) c).trans ?_
  have e1 : (Ve5 m c main_v74 : FVec F S100000x1x128 .f32) = Vals.X3 m c := Inv.x3_5 m c
  have e2 : (tbl5 m 0 : S50000.Idx → BitVec 32) = Vals.dstc m 5 c := by
    obtain rfl : c = 0 := Subsingleton.elim _ _
    exact Inv.tbl_5 m 0
  rw [e1, e2]
  rfl
theorem harr6 (c : Dev nD) : (G6.dat (Ve6 m) (tbl6 m) (hyp m hpre).ok6 c).arrAt 1 (G6.cfgM (tbl6 m) (hyp m hpre).ok6).N = Vals.gath3 m 6 c := by
  refine (G6.arrAt_1 (Ve6 m) (tbl6 m) (hyp m hpre).ok6 (tbl6_lt m hpre) c).trans ?_
  have e1 : (Ve6 m c main_v87 : FVec F S100000x1x128 .f32) = Vals.X3 m c := Inv.x3_6 m c
  have e2 : (tbl6 m 0 : S50000.Idx → BitVec 32) = Vals.dstc m 6 c := by
    obtain rfl : c = 0 := Subsingleton.elim _ _
    exact Inv.tbl_6 m 0
  rw [e1, e2]
  rfl
theorem harr7 (c : Dev nD) : (G7.dat (Ve7 m) (tbl7 m) (hyp m hpre).ok7 c).arrAt 1 (G7.cfgM (tbl7 m) (hyp m hpre).ok7).N = Vals.gath3 m 7 c := by
  refine (G7.arrAt_1 (Ve7 m) (tbl7 m) (hyp m hpre).ok7 (tbl7_lt m hpre) c).trans ?_
  have e1 : (Ve7 m c main_v100 : FVec F S100000x1x128 .f32) = Vals.X3 m c := Inv.x3_7 m c
  have e2 : (tbl7 m 0 : S50000.Idx → BitVec 32) = Vals.dstc m 7 c := by
    obtain rfl : c = 0 := Subsingleton.elim _ _
    exact Inv.tbl_7 m 0
  rw [e1, e2]
  rfl
theorem harr8 (c : Dev nD) : (G8.dat (Ve8 m) (tbl8 m) (hyp m hpre).ok8 c).arrAt 1 (G8.cfgM (tbl8 m) (hyp m hpre).ok8).N = Vals.gath3 m 8 c := by
  refine (G8.arrAt_1 (Ve8 m) (tbl8 m) (hyp m hpre).ok8 (tbl8_lt m hpre) c).trans ?_
  have e1 : (Ve8 m c main_v113 : FVec F S100000x1x128 .f32) = Vals.X3 m c := Inv.x3_8 m c
  have e2 : (tbl8 m 0 : S50000.Idx → BitVec 32) = Vals.dstc m 8 c := by
    obtain rfl : c = 0 := Subsingleton.elim _ _
    exact Inv.tbl_8 m 0
  rw [e1, e2]
  rfl
theorem harr9 (c : Dev nD) : (G9.dat (Ve9 m) (tbl9 m) (hyp m hpre).ok9 c).arrAt 1 (G9.cfgM (tbl9 m) (hyp m hpre).ok9).N = Vals.gath3 m 9 c := by
  refine (G9.arrAt_1 (Ve9 m) (tbl9 m) (hyp m hpre).ok9 (tbl9_lt m hpre) c).trans ?_
  have e1 : (Ve9 m c main_v126 : FVec F S100000x1x128 .f32) = Vals.X3 m c := Inv.x3_9 m c
  have e2 : (tbl9 m 0 : S50000.Idx → BitVec 32) = Vals.dstc m 9 c := by
    obtain rfl : c = 0 := Subsingleton.elim _ _
    exact Inv.tbl_9 m 0
  rw [e1, e2]
  rfl
theorem harr10 (c : Dev nD) : (G10.dat (Ve10 m) (tbl10 m) (hyp m hpre).ok10 c).arrAt 1 (G10.cfgM (tbl10 m) (hyp m hpre).ok10).N = Vals.gath3 m 10 c := by
  refine (G10.arrAt_1 (Ve10 m) (tbl10 m) (hyp m hpre).ok10 (tbl10_lt m hpre) c).trans ?_
  have e1 : (Ve10 m c main_v139 : FVec F S100000x1x128 .f32) = Vals.X3 m c := Inv.x3_10 m c
  have e2 : (tbl10 m 0 : S50000.Idx → BitVec 32) = Vals.dstc m 10 c := by
    obtain rfl : c = 0 := Subsingleton.elim _ _
    exact Inv.tbl_10 m 0
  rw [e1, e2]
  rfl
theorem harr11 (c : Dev nD) : (G11.dat (Ve11 m) (tbl11 m) (hyp m hpre).ok11 c).arrAt 1 (G11.cfgM (tbl11 m) (hyp m hpre).ok11).N = Vals.gath3 m 11 c := by
  refine (G11.arrAt_1 (Ve11 m) (tbl11 m) (hyp m hpre).ok11 (tbl11_lt m hpre) c).trans ?_
  have e1 : (Ve11 m c main_v152 : FVec F S100000x1x128 .f32) = Vals.X3 m c := Inv.x3_11 m c
  have e2 : (tbl11 m 0 : S50000.Idx → BitVec 32) = Vals.dstc m 11 c := by
    obtain rfl : c = 0 := Subsingleton.elim _ _
    exact Inv.tbl_11 m 0
  rw [e1, e2]
  rfl
theorem harr12 (c : Dev nD) : (G12.dat (Ve12 m) (tbl12 m) (hyp m hpre).ok12 c).arrAt 1 (G12.cfgM (tbl12 m) (hyp m hpre).ok12).N = Vals.gath3 m 12 c := by
  refine (G12.arrAt_1 (Ve12 m) (tbl12 m) (hyp m hpre).ok12 (tbl12_lt m hpre) c).trans ?_
  have e1 : (Ve12 m c main_v165 : FVec F S100000x1x128 .f32) = Vals.X3 m c := Inv.x3_12 m c
  have e2 : (tbl12 m 0 : S50000.Idx → BitVec 32) = Vals.dstc m 12 c := by
    obtain rfl : c = 0 := Subsingleton.elim _ _
    exact Inv.tbl_12 m 0
  rw [e1, e2]
  rfl
theorem harr13 (c : Dev nD) : (G13.dat (Ve13 m) (tbl13 m) (hyp m hpre).ok13 c).arrAt 1 (G13.cfgM (tbl13 m) (hyp m hpre).ok13).N = Vals.gath3 m 13 c := by
  refine (G13.arrAt_1 (Ve13 m) (tbl13 m) (hyp m hpre).ok13 (tbl13_lt m hpre) c).trans ?_
  have e1 : (Ve13 m c main_v178 : FVec F S100000x1x128 .f32) = Vals.X3 m c := Inv.x3_13 m c
  have e2 : (tbl13 m 0 : S50000.Idx → BitVec 32) = Vals.dstc m 13 c := by
    obtain rfl : c = 0 := Subsingleton.elim _ _
    exact Inv.tbl_13 m 0
  rw [e1, e2]
  rfl
theorem harr14 (c : Dev nD) : (G14.dat (Ve14 m) (tbl14 m) (hyp m hpre).ok14 c).arrAt 1 (G14.cfgM (tbl14 m) (hyp m hpre).ok14).N = Vals.gath3 m 14 c := by
  refine (G14.arrAt_1 (Ve14 m) (tbl14 m) (hyp m hpre).ok14 (tbl14_lt m hpre) c).trans ?_
  have e1 : (Ve14 m c main_v191 : FVec F S100000x1x128 .f32) = Vals.X3 m c := Inv.x3_14 m c
  have e2 : (tbl14 m 0 : S50000.Idx → BitVec 32) = Vals.dstc m 14 c := by
    obtain rfl : c = 0 := Subsingleton.elim _ _
    exact Inv.tbl_14 m 0
  rw [e1, e2]
  rfl
theorem harr15 (c : Dev nD) : (G15.dat (Ve15 m) (tbl15 m) (hyp m hpre).ok15 c).arrAt 1 (G15.cfgM (tbl15 m) (hyp m hpre).ok15).N = Vals.gath3 m 15 c := by
  refine (G15.arrAt_1 (Ve15 m) (tbl15 m) (hyp m hpre).ok15 (tbl15_lt m hpre) c).trans ?_
  have e1 : (Ve15 m c main_v204 : FVec F S100000x1x128 .f32) = Vals.X3 m c := Inv.x3_15 m c
  have e2 : (tbl15 m 0 : S50000.Idx → BitVec 32) = Vals.dstc m 15 c := by
    obtain rfl : c = 0 := Subsingleton.elim _ _
    exact Inv.tbl_15 m 0
  rw [e1, e2]
  rfl
theorem harr16 (c : Dev nD) : (G16.dat (Ve16 m) (tbl16 m) (hyp m hpre).ok16 c).arrAt 1 (G16.cfgM (tbl16 m) (hyp m hpre).ok16).N = Vals.gath3 m 16 c := by
  refine (G16.arrAt_1 (Ve16 m) (tbl16 m) (hyp m hpre).ok16 (tbl16_lt m hpre) c).trans ?_
  have e1 : (Ve16 m c main_v217 : FVec F S100000x1x128 .f32) = Vals.X3 m c := Inv.x3_16 m c
  have e2 : (tbl16 m 0 : S50000.Idx → BitVec 32) = Vals.dstc m 16 c := by
    obtain rfl : c = 0 := Subsingleton.elim _ _
    exact Inv.tbl_16 m 0
  rw [e1, e2]
  rfl
theorem harr17 (c : Dev nD) : (G17.dat (Ve17 m) (tbl17 m) (hyp m hpre).ok17 c).arrAt 1 (G17.cfgM (tbl17 m) (hyp m hpre).ok17).N = Vals.gath3 m 17 c := by
  refine (G17.arrAt_1 (Ve17 m) (tbl17 m) (hyp m hpre).ok17 (tbl17_lt m hpre) c).trans ?_
  have e1 : (Ve17 m c main_v230 : FVec F S100000x1x128 .f32) = Vals.X3 m c := Inv.x3_17 m c
  have e2 : (tbl17 m 0 : S50000.Idx → BitVec 32) = Vals.dstc m 17 c := by
    obtain rfl : c = 0 := Subsingleton.elim _ _
    exact Inv.tbl_17 m 0
  rw [e1, e2]
  rfl
theorem harr18 (c : Dev nD) : (G18.dat (Ve18 m) (tbl18 m) (hyp m hpre).ok18 c).arrAt 1 (G18.cfgM (tbl18 m) (hyp m hpre).ok18).N = Vals.gath3 m 18 c := by
  refine (G18.arrAt_1 (Ve18 m) (tbl18 m) (hyp m hpre).ok18 (tbl18_lt m hpre) c).trans ?_
  have e1 : (Ve18 m c main_v243 : FVec F S100000x1x128 .f32) = Vals.X3 m c := Inv.x3_18 m c
  have e2 : (tbl18 m 0 : S50000.Idx → BitVec 32) = Vals.dstc m 18 c := by
    obtain rfl : c = 0 := Subsingleton.elim _ _
    exact Inv.tbl_18 m 0
  rw [e1, e2]
  rfl
theorem harr19 (c : Dev nD) : (G19.dat (Ve19 m) (tbl19 m) (hyp m hpre).ok19 c).arrAt 1 (G19.cfgM (tbl19 m) (hyp m hpre).ok19).N = Vals.gath3 m 19 c := by
  refine (G19.arrAt_1 (Ve19 m) (tbl19 m) (hyp m hpre).ok19 (tbl19_lt m hpre) c).trans ?_
  have e1 : (Ve19 m c main_v256 : FVec F S100000x1x128 .f32) = Vals.X3 m c := Inv.x3_19 m c
  have e2 : (tbl19 m 0 : S50000.Idx → BitVec 32) = Vals.dstc m 19 c := by
    obtain rfl : c = 0 := Subsingleton.elim _ _
    exact Inv.tbl_19 m 0
  rw [e1, e2]
  rfl
theorem harr20 (c : Dev nD) : (G20.dat (Ve20 m) (tbl20 m) (hyp m hpre).ok20 c).arrAt 1 (G20.cfgM (tbl20 m) (hyp m hpre).ok20).N = Vals.gath3 m 20 c := by
  refine (G20.arrAt_1 (Ve20 m) (tbl20 m) (hyp m hpre).ok20 (tbl20_lt m hpre) c).trans ?_
  have e1 : (Ve20 m c main_v269 : FVec F S100000x1x128 .f32) = Vals.X3 m c := Inv.x3_20 m c
  have e2 : (tbl20 m 0 : S50000.Idx → BitVec 32) = Vals.dstc m 20 c := by
    obtain rfl : c = 0 := Subsingleton.elim _ _
    exact Inv.tbl_20 m 0
  rw [e1, e2]
  rfl
theorem harr21 (c : Dev nD) : (G21.dat (Ve21 m) (tbl21 m) (hyp m hpre).ok21 c).arrAt 1 (G21.cfgM (tbl21 m) (hyp m hpre).ok21).N = Vals.gath3 m 21 c := by
  refine (G21.arrAt_1 (Ve21 m) (tbl21 m) (hyp m hpre).ok21 (tbl21_lt m hpre) c).trans ?_
  have e1 : (Ve21 m c main_v282 : FVec F S100000x1x128 .f32) = Vals.X3 m c := Inv.x3_21 m c
  have e2 : (tbl21 m 0 : S50000.Idx → BitVec 32) = Vals.dstc m 21 c := by
    obtain rfl : c = 0 := Subsingleton.elim _ _
    exact Inv.tbl_21 m 0
  rw [e1, e2]
  rfl
theorem harr22 (c : Dev nD) : (G22.dat (Ve22 m) (tbl22 m) (hyp m hpre).ok22 c).arrAt 1 (G22.cfgM (tbl22 m) (hyp m hpre).ok22).N = Vals.gath3 m 22 c := by
  refine (G22.arrAt_1 (Ve22 m) (tbl22 m) (hyp m hpre).ok22 (tbl22_lt m hpre) c).trans ?_
  have e1 : (Ve22 m c main_v295 : FVec F S100000x1x128 .f32) = Vals.X3 m c := Inv.x3_22 m c
  have e2 : (tbl22 m 0 : S50000.Idx → BitVec 32) = Vals.dstc m 22 c := by
    obtain rfl : c = 0 := Subsingleton.elim _ _
    exact Inv.tbl_22 m 0
  rw [e1, e2]
  rfl
theorem harr23 (c : Dev nD) : (G23.dat (Ve23 m) (tbl23 m) (hyp m hpre).ok23 c).arrAt 1 (G23.cfgM (tbl23 m) (hyp m hpre).ok23).N = Vals.gath3 m 23 c := by
  refine (G23.arrAt_1 (Ve23 m) (tbl23 m) (hyp m hpre).ok23 (tbl23_lt m hpre) c).trans ?_
  have e1 : (Ve23 m c main_v308 : FVec F S100000x1x128 .f32) = Vals.X3 m c := Inv.x3_23 m c
  have e2 : (tbl23 m 0 : S50000.Idx → BitVec 32) = Vals.dstc m 23 c := by
    obtain rfl : c = 0 := Subsingleton.elim _ _
    exact Inv.tbl_23 m 0
  rw [e1, e2]
  rfl
theorem harr24 (c : Dev nD) : (G24.dat (Ve24 m) (tbl24 m) (hyp m hpre).ok24 c).arrAt 1 (G24.cfgM (tbl24 m) (hyp m hpre).ok24).N = Vals.gath3 m 24 c := by
  refine (G24.arrAt_1 (Ve24 m) (tbl24 m) (hyp m hpre).ok24 (tbl24_lt m hpre) c).trans ?_
  have e1 : (Ve24 m c main_v321 : FVec F S100000x1x128 .f32) = Vals.X3 m c := Inv.x3_24 m c
  have e2 : (tbl24 m 0 : S50000.Idx → BitVec 32) = Vals.dstc m 24 c := by
    obtain rfl : c = 0 := Subsingleton.elim _ _
    exact Inv.tbl_24 m 0
  rw [e1, e2]
  rfl
theorem harr25 (c : Dev nD) : (G25.dat (Ve25 m) (tbl25 m) (hyp m hpre).ok25 c).arrAt 1 (G25.cfgM (tbl25 m) (hyp m hpre).ok25).N = Vals.gath3 m 25 c := by
  refine (G25.arrAt_1 (Ve25 m) (tbl25 m) (hyp m hpre).ok25 (tbl25_lt m hpre) c).trans ?_
  have e1 : (Ve25 m c main_v334 : FVec F S100000x1x128 .f32) = Vals.X3 m c := Inv.x3_25 m c
  have e2 : (tbl25 m 0 : S50000.Idx → BitVec 32) = Vals.dstc m 25 c := by
    obtain rfl : c = 0 := Subsingleton.elim _ _
    exact Inv.tbl_25 m 0
  rw [e1, e2]
  rfl
theorem harr26 (c : Dev nD) : (G26.dat (Ve26 m) (tbl26 m) (hyp m hpre).ok26 c).arrAt 1 (G26.cfgM (tbl26 m) (hyp m hpre).ok26).N = Vals.gath3 m 26 c := by
  refine (G26.arrAt_1 (Ve26 m) (tbl26 m) (hyp m hpre).ok26 (tbl26_lt m hpre) c).trans ?_
  have e1 : (Ve26 m c main_v347 : FVec F S100000x1x128 .f32) = Vals.X3 m c := Inv.x3_26 m c
  have e2 : (tbl26 m 0 : S50000.Idx → BitVec 32) = Vals.dstc m 26 c := by
    obtain rfl : c = 0 := Subsingleton.elim _ _
    exact Inv.tbl_26 m 0
  rw [e1, e2]
  rfl
theorem harr27 (c : Dev nD) : (G27.dat (Ve27 m) (tbl27 m) (hyp m hpre).ok27 c).arrAt 1 (G27.cfgM (tbl27 m) (hyp m hpre).ok27).N = Vals.gath3 m 27 c := by
  refine (G27.arrAt_1 (Ve27 m) (tbl27 m) (hyp m hpre).ok27 (tbl27_lt m hpre) c).trans ?_
  have e1 : (Ve27 m c main_v360 : FVec F S100000x1x128 .f32) = Vals.X3 m c := Inv.x3_27 m c
  have e2 : (tbl27 m 0 : S50000.Idx → BitVec 32) = Vals.dstc m 27 c := by
    obtain rfl : c = 0 := Subsingleton.elim _ _
    exact Inv.tbl_27 m 0
  rw [e1, e2]
  rfl
theorem harr28 (c : Dev nD) : (G28.dat (Ve28 m) (tbl28 m) (hyp m hpre).ok28 c).arrAt 1 (G28.cfgM (tbl28 m) (hyp m hpre).ok28).N = Vals.gath3 m 28 c := by
  refine (G28.arrAt_1 (Ve28 m) (tbl28 m) (hyp m hpre).ok28 (tbl28_lt m hpre) c).trans ?_
  have e1 : (Ve28 m c main_v373 : FVec F S100000x1x128 .f32) = Vals.X3 m c := Inv.x3_28 m c
  have e2 : (tbl28 m 0 : S50000.Idx → BitVec 32) = Vals.dstc m 28 c := by
    obtain rfl : c = 0 := Subsingleton.elim _ _
    exact Inv.tbl_28 m 0
  rw [e1, e2]
  rfl
theorem harr29 (c : Dev nD) : (G29.dat (Ve29 m) (tbl29 m) (hyp m hpre).ok29 c).arrAt 1 (G29.cfgM (tbl29 m) (hyp m hpre).ok29).N = Vals.gath3 m 29 c := by
  refine (G29.arrAt_1 (Ve29 m) (tbl29 m) (hyp m hpre).ok29 (tbl29_lt m hpre) c).trans ?_
  have e1 : (Ve29 m c main_v386 : FVec F S100000x1x128 .f32) = Vals.X3 m c := Inv.x3_29 m c
  have e2 : (tbl29 m 0 : S50000.Idx → BitVec 32) = Vals.dstc m 29 c := by
    obtain rfl : c = 0 := Subsingleton.elim _ _
    exact Inv.tbl_29 m 0
  rw [e1, e2]
  rfl
theorem harr30 (c : Dev nD) : (G30.dat (Ve30 m) (tbl30 m) (hyp m hpre).ok30 c).arrAt 1 (G30.cfgM (tbl30 m) (hyp m hpre).ok30).N = Vals.gath3 m 30 c := by
  refine (G30.arrAt_1 (Ve30 m) (tbl30 m) (hyp m hpre).ok30 (tbl30_lt m hpre) c).trans ?_
  have e1 : (Ve30 m c main_v399 : FVec F S100000x1x128 .f32) = Vals.X3 m c := Inv.x3_30 m c
  have e2 : (tbl30 m 0 : S50000.Idx → BitVec 32) = Vals.dstc m 30 c := by
    obtain rfl : c = 0 := Subsingleton.elim _ _
    exact Inv.tbl_30 m 0
  rw [e1, e2]
  rfl
theorem harr31 (c : Dev nD) : (G31.dat (Ve31 m) (tbl31 m) (hyp m hpre).ok31 c).arrAt 1 (G31.cfgM (tbl31 m) (hyp m hpre).ok31).N = Vals.gath3 m 31 c := by
  refine (G31.arrAt_1 (Ve31 m) (tbl31 m) (hyp m hpre).ok31 (tbl31_lt m hpre) c).trans ?_
  have e1 : (Ve31 m c main_v412 : FVec F S100000x1x128 .f32) = Vals.X3 m c := Inv.x3_31 m c
  have e2 : (tbl31 m 0 : S50000.Idx → BitVec 32) = Vals.dstc m 31 c := by
    obtain rfl : c = 0 := Subsingleton.elim _ _
    exact Inv.tbl_31 m 0
  rw [e1, e2]
  rfl

/-! ## The launch -/

/-- The launch element is the pipeline library's alone. -/
theorem hu : (ownU (initOf (Pipeline.cells (Pipeline.pin (pcfgs (F := F)) (a m (hyp m hpre))) (cellOf_inj (a m (hyp m hpre)))) (Pipeline.launchToks (Pipeline.pin (pcfgs (F := F)) (a m (hyp m hpre))) (cellOf_inj (a m (hyp m hpre))))) : sProp 𝕄)
    ⊢ |={Set.univ}=> iprop(BI.own ((emb₁ : Emb (URounds (GSem nD τ sig) Unit) 𝕄) (initOf (Pipeline.cells (Pipeline.pin (pcfgs (F := F)) (a m (hyp m hpre))) (cellOf_inj (a m (hyp m hpre)))) (Pipeline.launchToks (Pipeline.pin (pcfgs (F := F)) (a m (hyp m hpre))) (cellOf_inj (a m (hyp m hpre)))))) ∗ bigSep Finset.univ fun _ : Dev nD => (iprop(emp) : sProp 𝕄)) := by
  iintro Hu; imodintro
  isplitl [Hu]
  · iapply (show (ownU (initOf (Pipeline.cells (Pipeline.pin (pcfgs (F := F)) (a m (hyp m hpre))) (cellOf_inj (a m (hyp m hpre)))) (Pipeline.launchToks (Pipeline.pin (pcfgs (F := F)) (a m (hyp m hpre))) (cellOf_inj (a m (hyp m hpre))))) : sProp 𝕄)
        ⊢ BI.own ((emb₁ : Emb (URounds (GSem nD τ sig) Unit) 𝕄) (initOf (Pipeline.cells (Pipeline.pin (pcfgs (F := F)) (a m (hyp m hpre))) (cellOf_inj (a m (hyp m hpre)))) (Pipeline.launchToks (Pipeline.pin (pcfgs (F := F)) (a m (hyp m hpre))) (cellOf_inj (a m (hyp m hpre)))))) from .rfl)
    iexact Hu
  iapply (show (BI.emp : sProp 𝕄) ⊢ bigSep Finset.univ (fun _ : Dev nD => (BI.emp : sProp 𝕄)) from by rw [BI.bigSep_emp_const])
  iempintro

omit hpre in
/-- Every core starts with the generator register and owing nothing. -/
theorem hE0 (ρ : Dev nD → PrngReg) : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

omit hpre in
/-- and ends owing nothing. -/
theorem hE33 (c : Dev nD) : R (F := F) c ⊢ (iprop(∃ W, owes (c : Thread nD τ) (0 : CellTallies nD τ sig Unit) W) : sProp 𝕄) := by
  iintro ⟨-, HO⟩; iexact HO

variable (ρ : Dev nD → PrngReg)

set_option maxHeartbeats 8000000 in
/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  GenP.frame_cond (m := m)
    (EP := emb₁) (ι := ()) (𝒱₀ := 𝒱₀) (L := L) (lv := lv) (hL := fun _ _ => rfl) (ρ := ρ) (outs := Vals.outs m)
    (a := a m (hyp m hpre)) (pdats := pdats m (hyp m hpre)) (O₀ := 0) (G := fun _ => iprop(emp))
    (u₀ := initOf (Pipeline.cells (Pipeline.pin (pcfgs (F := F)) (a m (hyp m hpre))) (cellOf_inj (a m (hyp m hpre)))) (Pipeline.launchToks (Pipeline.pin (pcfgs (F := F)) (a m (hyp m hpre))) (cellOf_inj (a m (hyp m hpre)))))
    (hu₀ := hu m hpre) (E := fun _ c => R c) (hE0 := hE0 ρ) (hE33 := hE33)
    (R0 := S0.reg m (hyp m hpre) (harr0 m hpre)) (hpre0 := fun _ => .rfl) (hpost0 := fun _ => .rfl)
    (R1 := S1.reg m (hyp m hpre) (harr1 m hpre)) (hpre1 := fun _ => .rfl) (hpost1 := fun _ => .rfl)
    (R2 := S2.reg m (hyp m hpre) (harr2 m hpre)) (hpre2 := fun _ => .rfl) (hpost2 := fun _ => .rfl)
    (R3 := S3.reg m (hyp m hpre) (harr3 m hpre)) (hpre3 := fun _ => .rfl) (hpost3 := fun _ => .rfl)
    (R4 := S4.reg m (hyp m hpre) (harr4 m hpre)) (hpre4 := fun _ => .rfl) (hpost4 := fun _ => .rfl)
    (R5 := S5.reg m (hyp m hpre) (harr5 m hpre)) (hpre5 := fun _ => .rfl) (hpost5 := fun _ => .rfl)
    (R6 := S6.reg m (hyp m hpre) (harr6 m hpre)) (hpre6 := fun _ => .rfl) (hpost6 := fun _ => .rfl)
    (R7 := S7.reg m (hyp m hpre) (harr7 m hpre)) (hpre7 := fun _ => .rfl) (hpost7 := fun _ => .rfl)
    (R8 := S8.reg m (hyp m hpre) (harr8 m hpre)) (hpre8 := fun _ => .rfl) (hpost8 := fun _ => .rfl)
    (R9 := S9.reg m (hyp m hpre) (harr9 m hpre)) (hpre9 := fun _ => .rfl) (hpost9 := fun _ => .rfl)
    (R10 := S10.reg m (hyp m hpre) (harr10 m hpre)) (hpre10 := fun _ => .rfl) (hpost10 := fun _ => .rfl)
    (R11 := S11.reg m (hyp m hpre) (harr11 m hpre)) (hpre11 := fun _ => .rfl) (hpost11 := fun _ => .rfl)
    (R12 := S12.reg m (hyp m hpre) (harr12 m hpre)) (hpre12 := fun _ => .rfl) (hpost12 := fun _ => .rfl)
    (R13 := S13.reg m (hyp m hpre) (harr13 m hpre)) (hpre13 := fun _ => .rfl) (hpost13 := fun _ => .rfl)
    (R14 := S14.reg m (hyp m hpre) (harr14 m hpre)) (hpre14 := fun _ => .rfl) (hpost14 := fun _ => .rfl)
    (R15 := S15.reg m (hyp m hpre) (harr15 m hpre)) (hpre15 := fun _ => .rfl) (hpost15 := fun _ => .rfl)
    (R16 := S16.reg m (hyp m hpre) (harr16 m hpre)) (hpre16 := fun _ => .rfl) (hpost16 := fun _ => .rfl)
    (R17 := S17.reg m (hyp m hpre) (harr17 m hpre)) (hpre17 := fun _ => .rfl) (hpost17 := fun _ => .rfl)
    (R18 := S18.reg m (hyp m hpre) (harr18 m hpre)) (hpre18 := fun _ => .rfl) (hpost18 := fun _ => .rfl)
    (R19 := S19.reg m (hyp m hpre) (harr19 m hpre)) (hpre19 := fun _ => .rfl) (hpost19 := fun _ => .rfl)
    (R20 := S20.reg m (hyp m hpre) (harr20 m hpre)) (hpre20 := fun _ => .rfl) (hpost20 := fun _ => .rfl)
    (R21 := S21.reg m (hyp m hpre) (harr21 m hpre)) (hpre21 := fun _ => .rfl) (hpost21 := fun _ => .rfl)
    (R22 := S22.reg m (hyp m hpre) (harr22 m hpre)) (hpre22 := fun _ => .rfl) (hpost22 := fun _ => .rfl)
    (R23 := S23.reg m (hyp m hpre) (harr23 m hpre)) (hpre23 := fun _ => .rfl) (hpost23 := fun _ => .rfl)
    (R24 := S24.reg m (hyp m hpre) (harr24 m hpre)) (hpre24 := fun _ => .rfl) (hpost24 := fun _ => .rfl)
    (R25 := S25.reg m (hyp m hpre) (harr25 m hpre)) (hpre25 := fun _ => .rfl) (hpost25 := fun _ => .rfl)
    (R26 := S26.reg m (hyp m hpre) (harr26 m hpre)) (hpre26 := fun _ => .rfl) (hpost26 := fun _ => .rfl)
    (R27 := S27.reg m (hyp m hpre) (harr27 m hpre)) (hpre27 := fun _ => .rfl) (hpost27 := fun _ => .rfl)
    (R28 := S28.reg m (hyp m hpre) (harr28 m hpre)) (hpre28 := fun _ => .rfl) (hpost28 := fun _ => .rfl)
    (R29 := S29.reg m (hyp m hpre) (harr29 m hpre)) (hpre29 := fun _ => .rfl) (hpost29 := fun _ => .rfl)
    (R30 := S30.reg m (hyp m hpre) (harr30 m hpre)) (hpre30 := fun _ => .rfl) (hpost30 := fun _ => .rfl)
    (R31 := S31.reg m (hyp m hpre) (harr31 m hpre)) (hpre31 := fun _ => .rfl) (hpost31 := fun _ => .rfl)
    (R32 := S32.reg m (hyp m hpre)) (hpre32 := fun _ => .rfl) (hpost32 := fun _ => .rfl)

set_option maxHeartbeats 8000000 in
/-- THE RUN WITH THE RESULT NAMED: the same, and the result array holds `Vals.out`. -/
theorem value : θ_run defs (onTc (τ := τ) (main (F := F))) ⟨m, fun _ => 0, ρ⟩ (fun r => ∀ c : Dev nD,
      r.2.mem ((c.tc : Thread nD τ).loc main_v424) = Vals.out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (by
      show Function.update (GenP.V65 m (Vals.outs m) c) main_v424 (Vals.outs m 66 main_v424 c) main_v424 = _
      rw [Function.update_self, Vals.outs_32]), (h c).2⟩)
  (GenP.value_cond (m := m)
    (EP := emb₁) (ι := ()) (𝒱₀ := 𝒱₀) (L := L) (lv := lv) (hL := fun _ _ => rfl) (ρ := ρ) (outs := Vals.outs m)
    (a := a m (hyp m hpre)) (pdats := pdats m (hyp m hpre)) (O₀ := 0) (G := fun _ => iprop(emp))
    (u₀ := initOf (Pipeline.cells (Pipeline.pin (pcfgs (F := F)) (a m (hyp m hpre))) (cellOf_inj (a m (hyp m hpre)))) (Pipeline.launchToks (Pipeline.pin (pcfgs (F := F)) (a m (hyp m hpre))) (cellOf_inj (a m (hyp m hpre)))))
    (hu₀ := hu m hpre) (E := fun _ c => R c) (hE0 := hE0 ρ) (hE33 := hE33)
    (R0 := S0.reg m (hyp m hpre) (harr0 m hpre)) (hpre0 := fun _ => .rfl) (hpost0 := fun _ => .rfl)
    (R1 := S1.reg m (hyp m hpre) (harr1 m hpre)) (hpre1 := fun _ => .rfl) (hpost1 := fun _ => .rfl)
    (R2 := S2.reg m (hyp m hpre) (harr2 m hpre)) (hpre2 := fun _ => .rfl) (hpost2 := fun _ => .rfl)
    (R3 := S3.reg m (hyp m hpre) (harr3 m hpre)) (hpre3 := fun _ => .rfl) (hpost3 := fun _ => .rfl)
    (R4 := S4.reg m (hyp m hpre) (harr4 m hpre)) (hpre4 := fun _ => .rfl) (hpost4 := fun _ => .rfl)
    (R5 := S5.reg m (hyp m hpre) (harr5 m hpre)) (hpre5 := fun _ => .rfl) (hpost5 := fun _ => .rfl)
    (R6 := S6.reg m (hyp m hpre) (harr6 m hpre)) (hpre6 := fun _ => .rfl) (hpost6 := fun _ => .rfl)
    (R7 := S7.reg m (hyp m hpre) (harr7 m hpre)) (hpre7 := fun _ => .rfl) (hpost7 := fun _ => .rfl)
    (R8 := S8.reg m (hyp m hpre) (harr8 m hpre)) (hpre8 := fun _ => .rfl) (hpost8 := fun _ => .rfl)
    (R9 := S9.reg m (hyp m hpre) (harr9 m hpre)) (hpre9 := fun _ => .rfl) (hpost9 := fun _ => .rfl)
    (R10 := S10.reg m (hyp m hpre) (harr10 m hpre)) (hpre10 := fun _ => .rfl) (hpost10 := fun _ => .rfl)
    (R11 := S11.reg m (hyp m hpre) (harr11 m hpre)) (hpre11 := fun _ => .rfl) (hpost11 := fun _ => .rfl)
    (R12 := S12.reg m (hyp m hpre) (harr12 m hpre)) (hpre12 := fun _ => .rfl) (hpost12 := fun _ => .rfl)
    (R13 := S13.reg m (hyp m hpre) (harr13 m hpre)) (hpre13 := fun _ => .rfl) (hpost13 := fun _ => .rfl)
    (R14 := S14.reg m (hyp m hpre) (harr14 m hpre)) (hpre14 := fun _ => .rfl) (hpost14 := fun _ => .rfl)
    (R15 := S15.reg m (hyp m hpre) (harr15 m hpre)) (hpre15 := fun _ => .rfl) (hpost15 := fun _ => .rfl)
    (R16 := S16.reg m (hyp m hpre) (harr16 m hpre)) (hpre16 := fun _ => .rfl) (hpost16 := fun _ => .rfl)
    (R17 := S17.reg m (hyp m hpre) (harr17 m hpre)) (hpre17 := fun _ => .rfl) (hpost17 := fun _ => .rfl)
    (R18 := S18.reg m (hyp m hpre) (harr18 m hpre)) (hpre18 := fun _ => .rfl) (hpost18 := fun _ => .rfl)
    (R19 := S19.reg m (hyp m hpre) (harr19 m hpre)) (hpre19 := fun _ => .rfl) (hpost19 := fun _ => .rfl)
    (R20 := S20.reg m (hyp m hpre) (harr20 m hpre)) (hpre20 := fun _ => .rfl) (hpost20 := fun _ => .rfl)
    (R21 := S21.reg m (hyp m hpre) (harr21 m hpre)) (hpre21 := fun _ => .rfl) (hpost21 := fun _ => .rfl)
    (R22 := S22.reg m (hyp m hpre) (harr22 m hpre)) (hpre22 := fun _ => .rfl) (hpost22 := fun _ => .rfl)
    (R23 := S23.reg m (hyp m hpre) (harr23 m hpre)) (hpre23 := fun _ => .rfl) (hpost23 := fun _ => .rfl)
    (R24 := S24.reg m (hyp m hpre) (harr24 m hpre)) (hpre24 := fun _ => .rfl) (hpost24 := fun _ => .rfl)
    (R25 := S25.reg m (hyp m hpre) (harr25 m hpre)) (hpre25 := fun _ => .rfl) (hpost25 := fun _ => .rfl)
    (R26 := S26.reg m (hyp m hpre) (harr26 m hpre)) (hpre26 := fun _ => .rfl) (hpost26 := fun _ => .rfl)
    (R27 := S27.reg m (hyp m hpre) (harr27 m hpre)) (hpre27 := fun _ => .rfl) (hpost27 := fun _ => .rfl)
    (R28 := S28.reg m (hyp m hpre) (harr28 m hpre)) (hpre28 := fun _ => .rfl) (hpost28 := fun _ => .rfl)
    (R29 := S29.reg m (hyp m hpre) (harr29 m hpre)) (hpre29 := fun _ => .rfl) (hpost29 := fun _ => .rfl)
    (R30 := S30.reg m (hyp m hpre) (harr30 m hpre)) (hpre30 := fun _ => .rfl) (hpost30 := fun _ => .rfl)
    (R31 := S31.reg m (hyp m hpre) (harr31 m hpre)) (hpre31 := fun _ => .rfl) (hpost31 := fun _ => .rfl)
    (R32 := S32.reg m (hyp m hpre)) (hpre32 := fun _ => .rfl) (hpost32 := fun _ => .rfl))

end Cert.KernelIdeal.Run

end
-- ==== Proof.Spec.lean ====
/-
  The result as ONE function of the three arrays, over the extended reals.
  Edge e (of 1600000) carries row A[1, e] of X to row A[0, e]: row n of the sum is the sum of X[A[1, e]] over the edges
  with A[0, e] = n (the target read as a signed word: an edge whose target is no row adds nothing), the count of row n
  is the number of those edges, and the result is (sum / max(count, 1)) · W.
-/
import Idealize.ShloMosaic.PureOps.Ideal
import Idealize.ShloMosaic.Lib.ValueIdx

noncomputable section

namespace Cert.Spec

open Idealize.ShloMosaic Idealize.ShloMosaic.ValueIdx

abbrev SX : Shape := ⟨2, ![100000, 128]⟩
abbrev SA : Shape := ⟨2, ![2, 1600000]⟩
abbrev SW : Shape := ⟨2, ![128, 128]⟩

/-- The float word 1.0 at the ideal instance (never evaluated: both programs carry the same word). -/
abbrev one : EReal := Ideal.ofBits .f32 0x3F800000#32

/-- Edge `e`'s message lands on row `n`: its target word, read signed, is `n`. -/
def hits (A : SA.Idx → BitVec 32) (e : Fin 1600000) (n : Fin 100000) : Prop := (A (ix2 0 e)).toInt = (n.val : ℤ)

instance (A : SA.Idx → BitVec 32) (n : Fin 100000) : DecidablePred (fun e => hits A e n) := fun _ => by unfold hits; infer_instance

/-- The row of X edge `e` carries (its word is below 100000 under the precondition; the minimum keeps this total). -/
def row (A : SA.Idx → BitVec 32) (e : Fin 1600000) : Fin 100000 := ⟨min (A (ix2 1 e)).toNat 99999, by omega⟩

/-- Entry (n, k) of the summed messages. -/
def sumRows (X : SX.Idx → EReal) (A : SA.Idx → BitVec 32) (n : Fin 100000) (k : Fin 128) : EReal :=
  ∑ e ∈ Finset.univ.filter (fun e => hits A e n), X (ix2 (row A e) k)

/-- The number of messages landing on row n, as the sum of that many ones. -/
def count (A : SA.Idx → BitVec 32) (n : Fin 100000) : EReal :=
  ∑ e ∈ Finset.univ.filter (fun e => hits A e n), one

/-- The result: the mean message of each row, times W. -/
def spec (X : SX.Idx → EReal) (A : SA.Idx → BitVec 32) (W : SW.Idx → EReal) : SX.Idx → EReal :=
  fun i => ∑ k : Fin 128, Ideal.div (sumRows X A (i 0) k) (max (count A (i 0)) one) * W (ix2 k (i 1))

end Cert.Spec

end
-- ==== Proof.KI.AggIdeal.lean ====
/-
  The summed messages after all 32 chunks, entry by entry, over the extended reals: the sum over ALL edges landing on the row.
-/
import proofs.«406793_j90890097918585_2_alg».proof.Proof.KI.Vals
import proofs.«406793_j90890097918585_2_alg».proof.Proof.Spec
import Idealize.ShloMosaic.Lib.Pipeline.Value
import Idealize.ShloMosaic.Lib.ValueLayout
import Idealize.ShloMosaic.Lib.IdealHost
import Idealize.ShloMosaic.PureOps.Ideal.Laws
import Mathlib.Algebra.BigOperators.Group.Finset.Basic
import Mathlib.Algebra.BigOperators.Group.Finset.Piecewise
import Mathlib.Algebra.BigOperators.Fin
import Mathlib.Data.Fintype.BigOperators

noncomputable section

namespace Cert.KernelIdeal.ValIdeal

open Cert.KernelIdeal Idealize.ShloMosaic Idealize.ShloMosaic.TcCoe Idealize.SL.Sem

variable (m : (ℓ : Loc nD τ sig) → Buf (Elt Ideal) ℓ)

namespace Agg

/-! ## The scatter's dimension numbers: update element (e, k) lands at (index word of e read signed, k) -/

/-- The dimension numbers of the sums' scatter: operand [100000,128], index column [50000,1], updates [50000,128]. -/
abbrev dS := scatter_S100000x128_S50000x1_S50000x128_1_0_0_1

/-- Update row e reads its start index at entry (e, 0) of the index column. -/
theorem dS_siIdx (e : Fin 50000) (k : Fin 128) (c : Fin dS.scatterDimsToOperandDims.length) :
    dS.siIdx (ValueIdx.ix2 e k) c = ValueIdx.ix2 e 0 := by
  funext b
  match b with
  | ⟨0, _⟩ => rfl
  | ⟨1, _⟩ => exact Fin.ext (by have := c.isLt; show c.val = 0; exact Nat.lt_one_iff.mp this)

/-- On the row axis the window of update (e, k) starts at the index word of e, read signed. -/
theorem dS_start0 (idx : IVec S50000x1 32) (e : Fin 50000) (k : Fin 128) :
    dS.start (ValueIdx.ix2 e k) idx 0 = (idx (ValueIdx.ix2 e 0)).toInt := by
  unfold ScatterDims.start
  rw [dif_pos (show (0 : Fin 2) ∈ dS.scatterDimsToOperandDims from List.mem_singleton.mpr rfl), dS_siIdx]

/-- Update (e, k) lands on (n, k') exactly when e's index word, read signed, is n and k = k'. -/
theorem dS_resultIdx (idx : IVec S50000x1 32) (e : Fin 50000) (k : Fin 128) (n : Fin 100000) (k' : Fin 128) :
    dS.resultIdx? (ValueIdx.ix2 e k) idx = some (ValueIdx.ix2 n k') ↔
      (idx (ValueIdx.ix2 e 0)).toInt = (n.val : ℤ) ∧ k = k' := by
  have hs0 := dS_start0 idx e k
  have hs1 : dS.start (ValueIdx.ix2 e k) idx 1 = 0 := rfl
  have hw0 : dS.window (ValueIdx.ix2 e k) 0 = 0 := rfl
  have hw1 : dS.window (ValueIdx.ix2 e k) 1 = k.val := rfl
  have hn := n.isLt
  have hk := k.isLt
  have hk' := k'.isLt
  unfold ScatterDims.resultIdx?
  constructor
  · intro h
    split at h
    · rename_i hb
      have h' := Option.some.inj h
      have h0 : (dS.start (ValueIdx.ix2 e k) idx 0 + dS.window (ValueIdx.ix2 e k) 0).toNat = n.val :=
        congrArg (fun f => (f 0).val) h'
      have h1 : (dS.start (ValueIdx.ix2 e k) idx 1 + dS.window (ValueIdx.ix2 e k) 1).toNat = k'.val :=
        congrArg (fun f => (f 1).val) h'
      have hb0 := (hb 0).1
      rw [hs0, hw0] at h0 hb0
      rw [hs1, hw1] at h1
      exact ⟨by omega, Fin.ext (by omega)⟩
    · exact absurd h (by simp)
  · rintro ⟨ht, rfl⟩
    have hb : ∀ a, 0 ≤ dS.start (ValueIdx.ix2 e k) idx a + dS.window (ValueIdx.ix2 e k) a ∧
        dS.start (ValueIdx.ix2 e k) idx a + dS.window (ValueIdx.ix2 e k) a < S100000x128.size a := by
      intro a
      match a with
      | ⟨0, _⟩ =>
        show 0 ≤ dS.start (ValueIdx.ix2 e k) idx 0 + dS.window (ValueIdx.ix2 e k) 0 ∧
          dS.start (ValueIdx.ix2 e k) idx 0 + dS.window (ValueIdx.ix2 e k) 0 < (100000 : ℕ)
        rw [hs0, hw0]; omega
      | ⟨1, _⟩ =>
        show 0 ≤ dS.start (ValueIdx.ix2 e k) idx 1 + dS.window (ValueIdx.ix2 e k) 1 ∧
          dS.start (ValueIdx.ix2 e k) idx 1 + dS.window (ValueIdx.ix2 e k) 1 < (128 : ℕ)
        rw [hs1, hw1]; omega
    rw [dif_pos hb]
    congr 1
    funext a
    match a with
    | ⟨0, _⟩ =>
      refine Fin.ext ?_
      show (dS.start (ValueIdx.ix2 e k) idx 0 + dS.window (ValueIdx.ix2 e k) 0).toNat = n.val
      rw [hs0, hw0]; omega
    | ⟨1, _⟩ =>
      refine Fin.ext ?_
      show (dS.start (ValueIdx.ix2 e k) idx 1 + dS.window (ValueIdx.ix2 e k) 1).toNat = k.val
      rw [hs1, hw1]; omega

/-- The accumulating scatter at (n, k): the operand there plus the sum, over the update rows e whose index word read signed
    is n, of the update's entry (e, k). -/
theorem scatter_apply (x : FVec Ideal S100000x128 .f32) (idx : IVec S50000x1 32) (upd : FVec Ideal S50000x128 .f32)
    (n : Fin 100000) (k : Fin 128) :
    Host.scatterAdd dS x idx upd (ValueIdx.ix2 n k) =
      x (ValueIdx.ix2 n k) + ∑ e ∈ Finset.univ.filter (fun e : Fin 50000 => (idx (ValueIdx.ix2 e 0)).toInt = (n.val : ℤ)),
        upd (ValueIdx.ix2 e k) := by
  show x (ValueIdx.ix2 n k) + ∑ j ∈ Finset.univ.filter (fun j => dS.resultIdx? j idx = some (ValueIdx.ix2 n k)), upd j = _
  refine congrArg (fun z => x (ValueIdx.ix2 n k) + z) ?_
  rw [Finset.sum_filter, ValueIdx.sum_idx2, Finset.sum_filter]
  refine Finset.sum_congr rfl fun e _ => ?_
  simp only [dS_resultIdx]
  by_cases ht : (idx (ValueIdx.ix2 e 0)).toInt = (n.val : ℤ)
  · simp only [ht, true_and, if_true]
    rw [Finset.sum_ite_eq' Finset.univ k (fun k' => upd (ValueIdx.ix2 e k'))]
    simp
  · simp only [ht, false_and, if_false]
    exact Finset.sum_const_zero

/-! ## The arrays of one chunk, read at an index -/

/-- Entry E of the edge list's row of targets. -/
theorem src_apply (c : Dev nD) (E : Fin 1600000) :
    Vals.src m c (ValueIdx.ix1 E) = Vals.Adj m c (ValueIdx.ix2 0 E) := by
  unfold Vals.src
  rw [ValueIdx.shapeCast_1a_a_apply]
  exact extractStridedSlice_apply _ _ _ _ _ (fun a => match a with
    | ⟨0, _⟩ => rfl
    | ⟨1, _⟩ => by show E.val = 0 + E.val; omega)

/-- Entry E of the edge list's row of carried nodes. -/
theorem dst_apply (c : Dev nD) (E : Fin 1600000) :
    Vals.dst m c (ValueIdx.ix1 E) = Vals.Adj m c (ValueIdx.ix2 1 E) := by
  unfold Vals.dst
  rw [ValueIdx.shapeCast_1a_a_apply]
  exact extractStridedSlice_apply _ _ _ _ _ (fun a => match a with
    | ⟨0, _⟩ => rfl
    | ⟨1, _⟩ => by show E.val = 0 + E.val; omega)

/-- Chunk p's target e is the target of edge 50000 p + e. -/
theorem srcc_apply (p : ℕ) (hp : p < 32) (c : Dev nD) (e : Fin 50000) :
    Vals.srcc m p c (ValueIdx.ix1 e) = Vals.Adj m c (ValueIdx.ix2 0 ⟨50000 * p + e.val, by have := e.isLt; omega⟩) := by
  unfold Vals.srcc
  rw [dif_pos hp, ← src_apply]
  exact extractStridedSlice_apply _ _ _ _ _ (fun a => match a with
    | ⟨0, _⟩ => rfl)

/-- Chunk p's table word e is the carried node of edge 50000 p + e. -/
theorem dstc_apply (p : ℕ) (hp : p < 32) (c : Dev nD) (e : Fin 50000) :
    Vals.dstc m p c (ValueIdx.ix1 e) = Vals.Adj m c (ValueIdx.ix2 1 ⟨50000 * p + e.val, by have := e.isLt; omega⟩) := by
  unfold Vals.dstc
  rw [dif_pos hp, ← dst_apply]
  exact extractStridedSlice_apply _ _ _ _ _ (fun a => match a with
    | ⟨0, _⟩ => rfl)

/-- The index column at (e, 0) is chunk p's target e. -/
theorem idx_apply (p : ℕ) (c : Dev nD) (e : Fin 50000) :
    broadcastInDim S50000x1 ![0] Facts₀.bcast_S50000_S50000x1_0 (Vals.srcc m p c) (ValueIdx.ix2 e 0) =
      Vals.srcc m p c (ValueIdx.ix1 e) :=
  broadcastInDim_apply _ _ _ _ _ (fun a => match a with
    | ⟨0, _⟩ => rfl)

/-- Entry (e, k) of chunk p's gathered rows is entry k of the row of X its table word e names. -/
theorem gath2_apply (p : ℕ) (c : Dev nD) (e : Fin 50000) (k : Fin 128) :
    Vals.gath2 m p c (ValueIdx.ix2 e k) = Vals.X m c (ValueIdx.ix2 (Vals.rowOf (Vals.dstc m p c (ValueIdx.ix1 e))) k) := by
  unfold Vals.gath2
  rw [shapeCast_apply _ _ _ (ValueIdx.ix3 e (0 : Fin 1) k) (by
    rw [Shape.rowMajor_val_three, Shape.rowMajor_val_two]
    show (e.val * 1 + 0) * 128 + k.val = e.val * 128 + k.val
    omega)]
  show Vals.X3 m c (ValueIdx.ix3 (Vals.rowOf (Vals.dstc m p c (ValueIdx.ix1 e))) (0 : Fin 1) k) = _
  unfold Vals.X3
  exact shapeCast_apply _ _ _ _ (by
    rw [Shape.rowMajor_val_three, Shape.rowMajor_val_two]
    show (Vals.rowOf (Vals.dstc m p c (ValueIdx.ix1 e))).val * 128 + k.val =
      ((Vals.rowOf (Vals.dstc m p c (ValueIdx.ix1 e))).val * 1 + 0) * 128 + k.val
    omega)

/-- The zero array reads zero. -/
theorem zeros2_apply (i : S100000x128.Idx) : Vals.zeros2 (F := Ideal) i = 0 := by
  unfold Vals.zeros2
  rw [ValueIdx.broadcastInDim_scalar_apply, ValueIdx.constant_apply, Ideal.ofBits_zero_f32]

/-! ## Edge numbers as chunk and offset -/

/-- Edge E = 50000 q + e is offset e of chunk q. -/
def chunkEquiv : Fin 32 × Fin 50000 ≃ Fin 1600000 where
  toFun x := ⟨50000 * x.1.val + x.2.val, by have := x.1.isLt; have := x.2.isLt; omega⟩
  invFun E := (⟨E.val / 50000, by have := E.isLt; omega⟩, ⟨E.val % 50000, Nat.mod_lt _ (by decide)⟩)
  left_inv x := by
    rcases x with ⟨q, e⟩
    have := q.isLt
    have := e.isLt
    refine Prod.ext (Fin.ext ?_) (Fin.ext ?_)
    · show (50000 * q.val + e.val) / 50000 = q.val
      omega
    · show (50000 * q.val + e.val) % 50000 = e.val
      omega
  right_inv E := Fin.ext (by show 50000 * (E.val / 50000) + E.val % 50000 = E.val; omega)

/-- A sum over the selected edges is the sum, over the chunks, of the sums over each chunk's selected edges
    (only commutativity and associativity of the addition are used). -/
theorem sum_chunks {M : Type} [AddCommMonoid M] (P : Fin 1600000 → Prop) [DecidablePred P] (f : Fin 1600000 → M) :
    ∑ E ∈ Finset.univ.filter P, f E =
      ∑ q : Fin 32, ∑ e ∈ Finset.univ.filter (fun e : Fin 50000 => P (chunkEquiv (q, e))), f (chunkEquiv (q, e)) := by
  rw [Finset.sum_filter, ← Equiv.sum_comp chunkEquiv, Fintype.sum_prod_type]
  refine Finset.sum_congr rfl fun q _ => ?_
  rw [Finset.sum_filter]

/-! ## The running sum, chunk by chunk -/

/-- One more chunk adds, at (n, k), entry k of the carried row of each of its edges landing on row n. -/
theorem agg_succ (c : Dev nD) (p : ℕ) (hp : p < 32) (n : Fin 100000) (k : Fin 128) :
    Vals.agg m (p + 1) c (ValueIdx.ix2 n k) = Vals.agg m p c (ValueIdx.ix2 n k) +
      ∑ e ∈ Finset.univ.filter (fun e : Fin 50000 => Spec.hits (Vals.Adj m c) (chunkEquiv (⟨p, hp⟩, e)) n),
        Vals.X m c (ValueIdx.ix2 (Spec.row (Vals.Adj m c) (chunkEquiv (⟨p, hp⟩, e))) k) := by
  show Vals.agg m p c (ValueIdx.ix2 n k) + Host.scatterAdd dS Vals.zeros2
    (broadcastInDim S50000x1 ![0] Facts₀.bcast_S50000_S50000x1_0 (Vals.srcc m p c)) (Vals.gath2 m p c) (ValueIdx.ix2 n k) = _
  rw [scatter_apply, zeros2_apply, zero_add]
  refine congrArg (fun z => Vals.agg m p c (ValueIdx.ix2 n k) + z) ?_
  refine Finset.sum_congr (Finset.filter_congr fun e _ => ?_) fun e _ => ?_
  · rw [idx_apply, srcc_apply m p hp]
    exact Iff.rfl
  · rw [gath2_apply, dstc_apply m p hp]
    rfl

/-- What chunk q adds at (n, k); nothing past the 32 chunks. -/
def chunkTerm (c : Dev nD) (n : Fin 100000) (k : Fin 128) (q : ℕ) : EReal :=
  if hq : q < 32 then
    ∑ e ∈ Finset.univ.filter (fun e : Fin 50000 => Spec.hits (Vals.Adj m c) (chunkEquiv (⟨q, hq⟩, e)) n),
      Vals.X m c (ValueIdx.ix2 (Spec.row (Vals.Adj m c) (chunkEquiv (⟨q, hq⟩, e))) k)
  else 0

/-- After p ≤ 32 chunks the running sum at (n, k) is the sum of the first p chunks' contributions. -/
theorem agg_range (c : Dev nD) (n : Fin 100000) (k : Fin 128) (p : ℕ) (hp : p ≤ 32) :
    Vals.agg m p c (ValueIdx.ix2 n k) = ∑ q ∈ Finset.range p, chunkTerm m c n k q := by
  induction p with
  | zero =>
    rw [Finset.range_zero, Finset.sum_empty]
    exact zeros2_apply _
  | succ p ih =>
    have hp' : p < 32 := hp
    rw [agg_succ m c p hp', ih (Nat.le_of_lt hp'), Finset.sum_range_succ]
    refine congrArg (fun z => (∑ q ∈ Finset.range p, chunkTerm m c n k q) + z) ?_
    unfold chunkTerm
    rw [dif_pos hp']

end Agg

/-- After the 32 chunks the running sum at (n, k) is the sum, over every edge whose target is n, of entry k of the row it carries. -/
theorem agg_eq (c : Dev nD) (i : S100000x128.Idx) :
    Vals.agg (F := Ideal) m 32 c i = Spec.sumRows (Vals.X m c) (Vals.Adj m c) (i 0) (i 1) := by
  obtain ⟨n, k, rfl⟩ : ∃ (n : Fin 100000) (k : Fin 128), i = ValueIdx.ix2 n k := ⟨i 0, i 1, ValueIdx.eq_ix2 i⟩
  rw [Agg.agg_range m c n k 32 le_rfl, Finset.sum_range]
  show _ = Spec.sumRows (Vals.X m c) (Vals.Adj m c) n k
  unfold Spec.sumRows
  rw [Agg.sum_chunks]
  refine Finset.sum_congr rfl fun q _ => ?_
  unfold Agg.chunkTerm
  rw [dif_pos q.isLt]

end Cert.KernelIdeal.ValIdeal

end
-- ==== Proof.KI.DegIdeal.lean ====
/-
  The edge counts after all 32 chunks, row by row, over the extended reals: one 1.0 per edge landing on the row.
-/
import proofs.«406793_j90890097918585_2_alg».proof.Proof.KI.Vals
import proofs.«406793_j90890097918585_2_alg».proof.Proof.Spec

noncomputable section

namespace Cert.KernelIdeal.ValIdeal

open Cert.KernelIdeal Idealize.ShloMosaic Idealize.ShloMosaic.TcCoe Idealize.SL.Sem

variable (m : (ℓ : Loc nD τ sig) → Buf (Elt Ideal) ℓ)

namespace Deg

/-- The count scatter's dimension numbers: no window axis, operand axis 0 inserted and scattered to, the index vector on axis 1. -/
abbrev D := scatter_S100000_S50000x1_S50000_n_0_0_1

theorem siIdx_eq (j : S50000.Idx) (c : Fin D.scatterDimsToOperandDims.length) :
    D.siIdx j c = ValueIdx.ix2 (j 0) 0 := by
  funext b
  match b with
  | ⟨0, _⟩ => exact Fin.ext rfl
  | ⟨1, _⟩ => exact Fin.ext (by have := c.isLt; show c.val = 0; change c.val < 1 at this; omega)

theorem start_eq (j : S50000.Idx) (idx : IVec S50000x1 32) (a : Fin S100000.rank) :
    D.start j idx a = (idx (ValueIdx.ix2 (j 0) 0)).toInt := by
  have ha : a = (0 : Fin 1) := Subsingleton.elim _ _
  subst ha
  unfold ScatterDims.start
  rw [dif_pos (by show (0 : Fin 1) ∈ [(0 : Fin 1)]; exact List.mem_singleton.2 rfl)]
  rw [siIdx_eq]
  rfl

theorem window_eq (j : S50000.Idx) (a : Fin S100000.rank) :
    D.window j a = 0 := by
  unfold ScatterDims.window
  rw [dif_neg]
  have ha : a = (0 : Fin 1) := Subsingleton.elim _ _
  subst ha
  show ¬ (0 : Fin 1) ∈ ([] : List (Fin 1))
  exact List.not_mem_nil

theorem resultIdx_iff (j : S50000.Idx) (idx : IVec S50000x1 32) (n : Fin 100000) :
    D.resultIdx? j idx = some (ValueIdx.ix1 n) ↔ (idx (ValueIdx.ix2 (j 0) 0)).toInt = (n.val : ℤ) := by
  unfold ScatterDims.resultIdx?
  constructor
  · intro h
    split at h
    · next H =>
      have h3 := congrArg Fin.val (congrFun (Option.some.inj h) 0)
      have h4 : (D.start j idx 0 + ((D.window j 0 : ℕ) : ℤ)).toNat = n.val := h3
      have h5 : 0 ≤ D.start j idx 0 + ((D.window j 0 : ℕ) : ℤ) ∧ D.start j idx 0 + ((D.window j 0 : ℕ) : ℤ) < ((100000 : ℕ) : ℤ) := H 0
      rw [start_eq, window_eq] at h4 h5
      omega
    · exact absurd h (by simp)
  · intro h
    have H : ∀ a, 0 ≤ D.start j idx a + ((D.window j a : ℕ) : ℤ) ∧ D.start j idx a + ((D.window j a : ℕ) : ℤ) < ((S100000.size a : ℕ) : ℤ) := by
      intro a
      rw [start_eq, window_eq]
      have ha : a = (0 : Fin 1) := Subsingleton.elim _ _
      subst ha
      show 0 ≤ _ + ((0 : ℕ) : ℤ) ∧ _ + ((0 : ℕ) : ℤ) < ((100000 : ℕ) : ℤ)
      have := n.isLt
      omega
    rw [dif_pos H]
    congr 1
    funext a
    match a with
    | ⟨0, _⟩ =>
      apply Fin.ext
      show (D.start j idx 0 + ((D.window j 0 : ℕ) : ℤ)).toNat = n.val
      rw [start_eq, window_eq]
      omega

/-- The zero word is the extended real 0. -/
theorem zero_word : Ideal.ofBits .f32 0x00000000#32 = 0 := by simp [Ideal.ofBits, Ideal.ieee]

theorem zeros1_apply (i : S100000.Idx) : Vals.zeros1 (F := Ideal) i = 0 := zero_word

theorem ones_apply (j : S50000.Idx) : Vals.ones (F := Ideal) j = Spec.one := rfl

/-- A rank-1 index set is its coordinate range. -/
def idxEquiv1 {n : ℕ} : (⟨1, ![n]⟩ : Shape).Idx ≃ Fin n where
  toFun i := i 0
  invFun p := ValueIdx.ix1 p
  left_inv i := (ValueIdx.eq_ix1 i).symm
  right_inv _ := rfl

/-- The column of scatter indices read at (e, 0) is the chunk's word e. -/
theorem bcast_col (T : IVec S50000 32) (j : S50000.Idx) :
    broadcastInDim S50000x1 ![0] Facts₀.bcast_S50000_S50000x1_0 T (ValueIdx.ix2 (j 0) 0) = T (ValueIdx.ix1 (j 0)) := by
  unfold broadcastInDim
  refine congrArg T (funext fun a => ?_)
  match a with
  | ⟨0, _⟩ => exact Fin.ext rfl

/-- One chunk's scatter at row n: one 1.0 per edge of the chunk whose word, read signed, is n. -/
theorem scatter_chunk (T : IVec S50000 32) (n : Fin 100000) :
    Host.scatterAdd (F := Ideal) D Vals.zeros1 (broadcastInDim S50000x1 ![0] Facts₀.bcast_S50000_S50000x1_0 T) Vals.ones (ValueIdx.ix1 n)
      = ∑ e : Fin 50000, if (T (ValueIdx.ix1 e)).toInt = (n.val : ℤ) then Spec.one else 0 := by
  unfold Host.scatterAdd
  rw [Ideal.hostScatterAdd_def]
  unfold Ideal.hostScatterAdd
  rw [zeros1_apply, zero_add, Finset.sum_filter]
  refine Fintype.sum_equiv idxEquiv1 _ _ fun j => ?_
  rw [ones_apply]
  show _ = if (T (ValueIdx.ix1 (j 0))).toInt = (n.val : ℤ) then Spec.one else 0
  have hb := bcast_col T j
  simp only [resultIdx_iff, hb]

/-- Row 0 of the edge list at edge E. -/
theorem src_apply (c : Dev nD) (E : Fin 1600000) :
    Vals.src m c (ValueIdx.ix1 E) = Vals.Adj m c (ValueIdx.ix2 0 E) := by
  unfold Vals.src shapeCast
  have hk : Shape.reshapeEquiv Facts₀.shapeCasts_S1x1600000_S1600000 (ValueIdx.ix1 E) = (ValueIdx.ix2 (0 : Fin 1) E : S1x1600000.Idx) := by
    refine Shape.reshapeEquiv_eq_of_rowMajor _ ?_
    rw [Shape.rowMajor_val_two, Shape.rowMajor_val_one]
    show (0 : ℕ) * 1600000 + E.val = E.val
    omega
  rw [hk]
  unfold extractStridedSlice
  refine congrArg (Vals.Adj m c) (funext fun a => ?_)
  match a with
  | ⟨0, _⟩ => exact Fin.ext rfl
  | ⟨1, _⟩ => exact Fin.ext (by show 0 + E.val = E.val; omega)

/-- Chunk p's word e is row 0 of the edge list at edge 50000 p + e. -/
theorem srcc_apply (c : Dev nD) (p : ℕ) (hp : p < 32) (e : Fin 50000) :
    Vals.srcc m p c (ValueIdx.ix1 e) = Vals.Adj m c (ValueIdx.ix2 0 ⟨50000 * p + e.val, by have := e.isLt; omega⟩) := by
  rw [← src_apply]
  unfold Vals.srcc
  rw [dif_pos hp]
  unfold extractStridedSlice
  refine congrArg (Vals.src m c) (funext fun a => ?_)
  match a with
  | ⟨0, _⟩ => exact Fin.ext rfl

/-- Edge E's share of row n's count: one 1.0 when its target word, read signed, is n (nothing past the last edge). -/
def hitN (c : Dev nD) (n : Fin 100000) (E : ℕ) : EReal :=
  if h : E < 1600000 then (if (Vals.Adj m c (ValueIdx.ix2 0 ⟨E, h⟩)).toInt = (n.val : ℤ) then Spec.one else 0) else 0

/-- Chunk p's scatter at row n is the shares of the edges 50000 p … 50000 p + 49999. -/
theorem chunk_eq (c : Dev nD) (p : ℕ) (hp : p < 32) (n : Fin 100000) :
    Host.scatterAdd (F := Ideal) D Vals.zeros1
        (broadcastInDim S50000x1 ![0] Facts₀.bcast_S50000_S50000x1_0 (Vals.srcc m p c)) Vals.ones (ValueIdx.ix1 n)
      = ∑ e ∈ Finset.range 50000, hitN m c n (50000 * p + e) := by
  rw [scatter_chunk, ← Fin.sum_univ_eq_sum_range (fun e => hitN m c n (50000 * p + e)) 50000]
  refine Fintype.sum_congr _ _ fun e => ?_
  rw [srcc_apply m c p hp e]
  unfold hitN
  rw [dif_pos (by have := e.isLt; omega)]

/-- After p chunks the count at row n is the shares of the first 50000 p edges. -/
theorem deg_prefix (c : Dev nD) (n : Fin 100000) (p : ℕ) (hp : p ≤ 32) :
    Vals.deg (F := Ideal) m p c (ValueIdx.ix1 n) = ∑ E ∈ Finset.range (50000 * p), hitN m c n E := by
  induction p with
  | zero =>
    show Vals.zeros1 (F := Ideal) (ValueIdx.ix1 n) = _
    rw [zeros1_apply, Nat.mul_zero, Finset.range_zero, Finset.sum_empty]
  | succ p ih =>
    show addf (Vals.deg (F := Ideal) m p c) (Host.scatterAdd (F := Ideal) D Vals.zeros1
        (broadcastInDim S50000x1 ![0] Facts₀.bcast_S50000_S50000x1_0 (Vals.srcc m p c)) Vals.ones) (ValueIdx.ix1 n) = _
    rw [ValueIdx.addf_apply, ih (by omega), chunk_eq m c p (by omega) n, Nat.mul_succ, Finset.sum_range_add]

end Deg

/-- After the 32 chunks the running count at n is the sum of one 1.0 per edge whose target is n. -/
theorem deg_eq (c : Dev nD) (i : S100000.Idx) :
    Vals.deg (F := Ideal) m 32 c i = Spec.count (Vals.Adj m c) (i 0) := by
  obtain ⟨n, rfl⟩ : ∃ n : Fin 100000, i = ValueIdx.ix1 n := ⟨i 0, ValueIdx.eq_ix1 i⟩
  rw [Deg.deg_prefix m c n 32 (le_refl _)]
  show ∑ E ∈ Finset.range 1600000, Deg.hitN m c n E = Spec.count (Vals.Adj m c) n
  unfold Spec.count
  rw [Finset.sum_filter, ← Fin.sum_univ_eq_sum_range (fun E => Deg.hitN m c n E) 1600000]
  refine Fintype.sum_congr _ _ fun E => ?_
  unfold Deg.hitN Spec.hits
  rw [dif_pos E.isLt]

end Cert.KernelIdeal.ValIdeal

end
-- ==== Proof.KI.OutIdeal.lean ====
/-
  The last kernel's output array over the extended reals, entry by entry, and the result as the specification's function.
-/
import proofs.«406793_j90890097918585_2_alg».proof.Proof.KI.Vals
import proofs.«406793_j90890097918585_2_alg».proof.Proof.Spec
import Idealize.ShloMosaic.PureOps.Ideal.Laws
import Idealize.ShloMosaic.Lib.Pipeline.Value
import Idealize.ShloMosaic.Lib.ValueIdx

noncomputable section

namespace Cert.KernelIdeal.ValIdeal

open Cert.KernelIdeal Idealize.ShloMosaic Idealize.ShloMosaic.TcCoe Idealize.SL.Sem

variable (m : (ℓ : Loc nD τ sig) → Buf (Elt Ideal) ℓ)

/-! ## The matmul's operand indices, axis by axis -/

/-- The left operand's row is the output's row. -/
theorem mm_lhs_0 (j : S1000x128.Idx) (q : dot_S1000x128_S128x128_S1000x128_1_0_0_1_n_n.contr.Idx) :
    (dot_S1000x128_S128x128_S1000x128_1_0_0_1_n_n.lhsIdx j q 0).val = (j 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- The left operand's column is the contraction position. -/
theorem mm_lhs_1 (j : S1000x128.Idx) (q : dot_S1000x128_S128x128_S1000x128_1_0_0_1_n_n.contr.Idx) :
    (dot_S1000x128_S128x128_S1000x128_1_0_0_1_n_n.lhsIdx j q 1).val = (q ⟨0, by decide⟩).val :=
  dot_S1000x128_S128x128_S1000x128_1_0_0_1_n_n.lhsIdx_val_of_single rfl j q
/-- The right operand's row is the contraction position. -/
theorem mm_rhs_0 (j : S1000x128.Idx) (q : dot_S1000x128_S128x128_S1000x128_1_0_0_1_n_n.contr.Idx) :
    (dot_S1000x128_S128x128_S1000x128_1_0_0_1_n_n.rhsIdx j q 0).val = (q ⟨0, by decide⟩).val :=
  dot_S1000x128_S128x128_S1000x128_1_0_0_1_n_n.rhsIdx_val_of_single rfl j q
/-- The right operand's column is the output's column. -/
theorem mm_rhs_1 (j : S1000x128.Idx) (q : dot_S1000x128_S128x128_S1000x128_1_0_0_1_n_n.contr.Idx) :
    (dot_S1000x128_S128x128_S1000x128_1_0_0_1_n_n.rhsIdx j q 1).val = (j 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The matmul into the zero splat, read at (r, j): the sum over the contracted axis of the products. -/
theorem mm_apply (l : FVec Ideal S1000x128 .bf16) (w : FVec Ideal S128x128 .bf16) (r : Fin 1000) (j : Fin 128) :
    matmul (F := Ideal) dot_S1000x128_S128x128_S1000x128_1_0_0_1_n_n none l w (constant (F := Ideal) S1000x128 .f32 0x00000000#32) (ValueIdx.ix2 r j)
      = ∑ k : Fin 128, l (ValueIdx.ix2 r k) * w (ValueIdx.ix2 k j) := by
  refine (Ideal.matmul_constant_zero_apply dot_S1000x128_S128x128_S1000x128_1_0_0_1_n_n none l w (ValueIdx.ix2 r j)).trans ?_
  rw [← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ValueIdx.ix2 r j) ((ValueIdx.contrEquiv1 dot_S1000x128_S128x128_S1000x128_1_0_0_1_n_n 128 rfl rfl).symm k) = ValueIdx.ix2 r k := funext fun a => Fin.ext (by
    match a with
    | ⟨0, _⟩ => exact mm_lhs_0 _ _
    | ⟨1, _⟩ => exact (mm_lhs_1 _ _).trans hk)
  have er : dot_S1000x128_S128x128_S1000x128_1_0_0_1_n_n.rhsIdx (ValueIdx.ix2 r j) ((ValueIdx.contrEquiv1 dot_S1000x128_S128x128_S1000x128_1_0_0_1_n_n 128 rfl rfl).symm k) = ValueIdx.ix2 k j := funext fun a => Fin.ext (by
    match a with
    | ⟨0, _⟩ => exact (mm_rhs_0 _ _).trans hk
    | ⟨1, _⟩ => exact mm_rhs_1 _ _)
  rw [el, er]

/-! ## The body of the last kernel at an index -/

/-- A [1000, 1] column broadcast along the lanes reads its row's one entry. -/
theorem col_broadcast_apply (v : FVec Ideal S1000x1 .f32) (h : S1000x1.Broadcasts S1000x128) (r : Fin 1000) (k : Fin 128) :
    broadcastTo S1000x128 v h (ValueIdx.ix2 r k) = v (ValueIdx.ix2 r (0 : Fin 1)) :=
  broadcastTo_apply v h (ValueIdx.ix2 r k) (ValueIdx.ix2 r (0 : Fin 1)) (fun a => match a with
    | ⟨0, _⟩ => by show r.val = if (1000 : Nat) = 1 then 0 else r.val; rw [if_neg (by decide)]
    | ⟨1, _⟩ => by show 0 = if (1 : Nat) = 1 then 0 else k.val; rw [if_pos rfl])

/-- Entry (r, j) of the body's result: row r of the sums over max(count, 1), times column j of the weights. -/
theorem pay_apply (v0 : Vec Ideal S1000x1 .f32) (v4 : Vec Ideal S1000x128 .f32) (v9 : Vec Ideal S128x128 .f32) (r : Fin 1000) (j : Fin 128) :
    Gen.k32_pay1 (F := Ideal) v0 v4 v9 (ValueIdx.ix2 r j)
      = ∑ k : Fin 128, Ideal.div (v4 (ValueIdx.ix2 r k)) (max (v0 (ValueIdx.ix2 r (0 : Fin 1))) Spec.one) * v9 (ValueIdx.ix2 k j) := by
  unfold Gen.k32_pay1
  show matmul (F := Ideal) dot_S1000x128_S128x128_S1000x128_1_0_0_1_n_n none _ _ (constant (F := Ideal) S1000x128 .f32 0x00000000#32) (ValueIdx.ix2 r j) = _
  rw [mm_apply]
  refine Finset.sum_congr rfl fun k _ => ?_
  rw [ValueIdx.truncf_apply, ValueIdx.truncf_apply, ValueIdx.divf_apply, shapeCast_self, col_broadcast_apply, ValueIdx.maximumf_apply,
    shapeCast_self, ValueIdx.broadcast_apply]
  rfl

/-! ## From the blocks of 1000 rows to the array -/

/-- Row n of the array is row n % 1000 of block n / 1000 of the sums … -/
theorem rows2_apply (A : FVec Ideal S100000x128 .f32) (n : Fin 100000) (k : Fin 128) :
    Vals.rows2 (F := Ideal) A ⟨n.val / 1000, by have := n.isLt; omega⟩ (ValueIdx.ix2 ⟨n.val % 1000, Nat.mod_lt _ (by decide)⟩ k)
      = A (ValueIdx.ix2 n k) := by
  unfold Vals.rows2
  refine congrArg A (funext fun a => ?_)
  match a with
  | ⟨0, _⟩ => exact Fin.ext (Nat.div_add_mod n.val 1000)
  | ⟨1, _⟩ => rfl
/-- … and of the counts' column. -/
theorem rows1_apply (D : FVec Ideal S100000x1 .f32) (n : Fin 100000) :
    Vals.rows1 (F := Ideal) D ⟨n.val / 1000, by have := n.isLt; omega⟩ (ValueIdx.ix2 ⟨n.val % 1000, Nat.mod_lt _ (by decide)⟩ (0 : Fin 1))
      = D (ValueIdx.ix2 n (0 : Fin 1)) := by
  unfold Vals.rows1
  refine congrArg D (funext fun a => ?_)
  match a with
  | ⟨0, _⟩ => exact Fin.ext (Nat.div_add_mod n.val 1000)
  | ⟨1, _⟩ => rfl

/-- Entry (n, j) of the last kernel's output: the row of sums divided by max(count, 1), times column j of the weights. -/
theorem outOf_apply (D : FVec Ideal S100000x1 .f32) (A : FVec Ideal S100000x128 .f32) (W : FVec Ideal S128x128 .f32) (i : S100000x128.Idx) :
    Vals.outOf (F := Ideal) D A W i
      = ∑ k : Fin 128, Ideal.div (A (ValueIdx.ix2 (i 0) k)) (max (D (ValueIdx.ix2 (i 0) (0 : Fin 1))) Spec.one) * W (ValueIdx.ix2 k (i 1)) := by
  obtain ⟨n, j, rfl⟩ : ∃ (n : Fin 100000) (j : Fin 128), i = ValueIdx.ix2 n j := ⟨i 0, i 1, ValueIdx.eq_ix2 i⟩
  show Gen.k32_pay1 (F := Ideal) (Vals.rows1 D ⟨n.val / 1000, _⟩) (Vals.rows2 A ⟨n.val / 1000, _⟩) W (ValueIdx.ix2 ⟨n.val % 1000, _⟩ j)
    = ∑ k : Fin 128, Ideal.div (A (ValueIdx.ix2 n k)) (max (D (ValueIdx.ix2 n (0 : Fin 1))) Spec.one) * W (ValueIdx.ix2 k j)
  rw [pay_apply]
  refine Finset.sum_congr rfl fun k _ => ?_
  rw [rows2_apply, rows1_apply]

/-- The counts' column at (n, 0) is the count of row n. -/
theorem degCol_apply (c : Dev nD) (n : Fin 100000) :
    Vals.degCol (F := Ideal) m c (ValueIdx.ix2 n (0 : Fin 1)) = Vals.deg (F := Ideal) m 32 c (ValueIdx.ix1 n) := by
  unfold Vals.degCol
  exact broadcastInDim_apply _ _ _ (ValueIdx.ix2 n (0 : Fin 1)) (ValueIdx.ix1 n) (fun a => match a with
    | ⟨0, _⟩ => by show n.val = if (100000 : Nat) = 1 then 0 else n.val; rw [if_neg (by decide)])

/-- The result is the specification's function of the three arrays, given the sums' and the counts' closed forms. -/
theorem out_eq_spec (c : Dev nD)
    (hagg : ∀ i : S100000x128.Idx, Vals.agg (F := Ideal) m 32 c i = Spec.sumRows (Vals.X m c) (Vals.Adj m c) (i 0) (i 1))
    (hdeg : ∀ i : S100000.Idx, Vals.deg (F := Ideal) m 32 c i = Spec.count (Vals.Adj m c) (i 0)) :
    Vals.out (F := Ideal) m c = Spec.spec (Vals.X m c) (Vals.Adj m c) (Vals.Wt m c) := by
  funext i
  obtain ⟨n, j, rfl⟩ : ∃ (n : Fin 100000) (j : Fin 128), i = ValueIdx.ix2 n j := ⟨i 0, i 1, ValueIdx.eq_ix2 i⟩
  unfold Vals.out Spec.spec
  rw [outOf_apply]
  show ∑ k : Fin 128, Ideal.div (Vals.agg (F := Ideal) m 32 c (ValueIdx.ix2 n k))
        (max (Vals.degCol (F := Ideal) m c (ValueIdx.ix2 n (0 : Fin 1))) Spec.one) * Vals.Wt m c (ValueIdx.ix2 k j)
    = ∑ k : Fin 128, Ideal.div (Spec.sumRows (Vals.X m c) (Vals.Adj m c) n k)
        (max (Spec.count (Vals.Adj m c) n) Spec.one) * Vals.Wt m c (ValueIdx.ix2 k j)
  refine Finset.sum_congr rfl fun k _ => ?_
  rw [hagg, degCol_apply, hdeg]

end Cert.KernelIdeal.ValIdeal

end
-- ==== Proof.Ref.RefSpec.lean ====
/-
  The reference's result is the specification's function of its three arguments, when every word of the edge list's row 1
  is a row index: the negative-index wrap is then the identity, the gather reads the named row, the one scatter-add
  sums over all edges landing on a row, and the quotient and the product are the specification's.
-/
import proofs.«406793_j90890097918585_2_alg».proof.Proof.Gen.ReferenceIdeal.Run
import proofs.«406793_j90890097918585_2_alg».proof.Proof.Gen.ReferenceIdeal.Read
import proofs.«406793_j90890097918585_2_alg».proof.Proof.Spec

noncomputable section

namespace Cert.ReferenceIdeal.RefValue

open Cert.ReferenceIdeal Idealize.ShloMosaic Idealize.ShloMosaic.TcCoe Idealize.SL.Sem
open Cert.ReferenceIdeal.Read

/-! ## The two rows of the edge list, read at an edge -/

/-- Row 0 of the edge list, flattened, at edge `e` is the word A[0, e]. -/
theorem v1_at (A : S2x1600000.Idx → BitVec 32) (e : Fin 1600000) :
    val_main_v1 (F := Ideal) A (ValueIdx.ix1 e) = A (ValueIdx.ix2 (0 : Fin 2) e) := by
  rw [val_main_v1_apply, val_main_v0_apply]
  congr 1
  funext a
  match a with
  | ⟨0, _⟩ => rfl
  | ⟨1, _⟩ => exact Fin.ext (Nat.mod_eq_of_lt e.isLt)

/-- Row 1 of the edge list, flattened, at edge `e` is the word A[1, e]. -/
theorem v3_at (A : S2x1600000.Idx → BitVec 32) (e : Fin 1600000) :
    val_main_v3 (F := Ideal) A (ValueIdx.ix1 e) = A (ValueIdx.ix2 (1 : Fin 2) e) := by
  rw [val_main_v3_apply, val_main_v2_apply]
  congr 1
  funext a
  match a with
  | ⟨0, _⟩ => rfl
  | ⟨1, _⟩ => exact Fin.ext (Nat.mod_eq_of_lt e.isLt)

/-! ## The negative-index wrap is the identity on a row index -/

/-- A word below 100000 reads the same signed as unsigned. -/
theorem toInt_of_lt (w : BitVec 32) (h : w.toNat < 100000) : w.toInt = (w.toNat : ℤ) :=
  BitVec.toInt_eq_toNat_of_lt (by omega)

/-- A word below 100000 is not negative as a signed word. -/
theorem slt_zero_of_lt (w : BitVec 32) (h : w.toNat < 100000) : IntOp.cmpi .slt w 0#32 = 0#1 := by
  have h0 : w.slt 0#32 = false := by
    rw [BitVec.slt, toInt_of_lt w h]
    simp
  show BitVec.ofBool (w.slt 0#32) = 0#1
  rw [h0]; rfl

/-- The wrapped source index of edge `e` is A[1, e] itself when that word is a row index. -/
theorem v8_at (A : S2x1600000.Idx → BitVec 32) (e : Fin 1600000) (h : (A (ValueIdx.ix2 (1 : Fin 2) e)).toNat < 100000) :
    val_main_v8 (F := Ideal) A (ValueIdx.ix1 e) = A (ValueIdx.ix2 (1 : Fin 2) e) := by
  rw [val_main_v8_apply, val_main_v5_apply, val_main_v4_apply, val_main_c_apply, v3_at, slt_zero_of_lt _ h, ValueIdx.select_zero]

/-- The gather's column of start indices at edge `e`. -/
theorem v9_at (A : S2x1600000.Idx → BitVec 32) (e : Fin 1600000) (h : (A (ValueIdx.ix2 (1 : Fin 2) e)).toNat < 100000) :
    val_main_v9 (F := Ideal) A (ValueIdx.ix2 e (0 : Fin 1)) = A (ValueIdx.ix2 (1 : Fin 2) e) := by
  rw [val_main_v9_apply, ← v8_at A e h]
  congr 1
  funext a
  match a with
  | ⟨0, _⟩ => rfl

/-- The first scatter's column of scatter indices at edge `e` is A[0, e]. -/
theorem v12_at (A : S2x1600000.Idx → BitVec 32) (e : Fin 1600000) :
    val_main_v12 (F := Ideal) A (ValueIdx.ix2 e (0 : Fin 1)) = A (ValueIdx.ix2 (0 : Fin 2) e) := by
  rw [val_main_v12_apply, ← v1_at A e]
  congr 1
  funext a
  match a with
  | ⟨0, _⟩ => rfl

/-- The second scatter's column of scatter indices at edge `e` is A[0, e]. -/
theorem v16_at (A : S2x1600000.Idx → BitVec 32) (e : Fin 1600000) :
    val_main_v16 (F := Ideal) A (ValueIdx.ix2 e (0 : Fin 1)) = A (ValueIdx.ix2 (0 : Fin 2) e) := by
  rw [val_main_v16_apply, ← v1_at A e]
  congr 1
  funext a
  match a with
  | ⟨0, _⟩ => rfl

/-! ## The gather reads the named row -/

/-- The gather's dimension numbers: one start index per edge on axis 0, the whole row of 128 as the slice. -/
abbrev gd := gather_S100000x128_S1600000x1_S1600000x128_1_0_n_n_0_1_1128

/-- The gather at (e, k): with the start index of edge `e` below 100000 the clamp into [0, 99999] is the identity, and
    the element read is the operand's at (that index, k). -/
theorem gather_at (X : S100000x128.Idx → EReal) (idx : S1600000x1.Idx → BitVec 32) (e : Fin 1600000) (k : Fin 128)
    (h : (idx (ValueIdx.ix2 e (0 : Fin 1))).toNat < 100000) :
    Host.gather gd X idx (ValueIdx.ix2 e k) = X (ValueIdx.ix2 (⟨(idx (ValueIdx.ix2 e (0 : Fin 1))).toNat, h⟩ : Fin 100000) k) := by
  unfold Host.gather
  congr 1
  funext a
  refine Fin.ext ?_
  match a with
  | ⟨0, _⟩ =>
    show gd.start _ idx 0 + gd.batchCoord _ 0 + gd.offCoord _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx (ValueIdx.ix2 e k) ⟨List.idxOf (0 : Fin 2) gd.startIndexMap,
        List.idxOf_lt_length_iff.2 (List.mem_singleton.mpr rfl)⟩ = ValueIdx.ix2 e (0 : Fin 1) := by
      funext b; refine Fin.ext ?_
      match b with
      | ⟨0, _⟩ => rfl
      | ⟨1, _⟩ => rfl
    rw [hsi]
    show min (idx (ValueIdx.ix2 e (0 : Fin 1))).toInt.toNat (100000 - 1) = (idx (ValueIdx.ix2 e (0 : Fin 1))).toNat
    rw [toInt_of_lt _ h, Int.toNat_natCast]
    omega
  | ⟨1, _⟩ =>
    show gd.start _ idx 1 + gd.batchCoord _ 1 + gd.offCoord _ 1 = k.val
    rw [GatherDims.batchCoord_eq_zero _ _ _ List.not_mem_nil]
    unfold GatherDims.start
    rw [dif_neg (show ¬ (1 : Fin 2) ∈ gd.startIndexMap by decide)]
    unfold GatherDims.offCoord
    rw [dif_pos (show (1 : Fin 2) ∈ gd.sKept by decide)]
    simp only [Nat.zero_add]
    rfl

/-- The gather at (e, k) reads row `r` of the operand when the start index of edge `e` is `r`. -/
theorem gather_at' (X : S100000x128.Idx → EReal) (idx : S1600000x1.Idx → BitVec 32) (e : Fin 1600000) (k : Fin 128)
    (r : Fin 100000) (hr : (idx (ValueIdx.ix2 e (0 : Fin 1))).toNat = r.val) :
    Host.gather gd X idx (ValueIdx.ix2 e k) = X (ValueIdx.ix2 r k) := by
  have h : (idx (ValueIdx.ix2 e (0 : Fin 1))).toNat < 100000 := by rw [hr]; exact r.isLt
  have hfin : (⟨(idx (ValueIdx.ix2 e (0 : Fin 1))).toNat, h⟩ : Fin 100000) = r := Fin.ext hr
  rw [gather_at X idx e k h, hfin]

/-- The gathered messages at (e, k): entry k of the row of X that edge `e` carries. -/
theorem v10_at (X : S100000x128.Idx → EReal) (A : S2x1600000.Idx → BitVec 32) (e : Fin 1600000) (k : Fin 128)
    (h : (A (ValueIdx.ix2 (1 : Fin 2) e)).toNat < 100000) :
    val_main_v10 (F := Ideal) X A (ValueIdx.ix2 e k) = X (ValueIdx.ix2 (Spec.row A e) k) := by
  unfold val_main_v10
  refine gather_at' X _ e k (Spec.row A e) ?_
  rw [v9_at A e h]
  show (A (ValueIdx.ix2 (1 : Fin 2) e)).toNat = min (A (ValueIdx.ix2 (1 : Fin 2) e)).toNat 99999
  omega

/-! ## Where an update lands -/

/-- An update lands on operand index `i` exactly when, on every axis, its start (read signed) plus its window
    coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hall
      have hi := Option.some.inj h
      have ha := congrArg (fun f => (f a).val) hi
      simp only at ha
      have := hall a
      omega
    · exact absurd h (by simp)
  · intro h
    have hall : ∀ a, 0 ≤ d.start j idx a + d.window j a ∧ d.start j idx a + d.window j a < s.size a := fun a => by
      have := h a; have := (i a).isLt; omega
    rw [dif_pos hall]
    congr 1
    funext a
    refine Fin.ext ?_
    show (d.start j idx a + d.window j a).toNat = (i a).val
    have := h a; omega

/-- The accumulating float scatter over the extended reals, read at an index: the operand's element plus the sum of
    the updates landing on it. -/
theorem scatterAdd_apply {s si u : Shape} {w : Nat} (d : ScatterDims s si u) (x : FVec Ideal s .f32) (idx : IVec si w)
    (upd : FVec Ideal u .f32) (i : s.Idx) :
    Host.scatterAdd d x idx upd i = x i + ∑ j ∈ Finset.univ.filter (fun j => d.resultIdx? j idx = some i), upd j := rfl

/-! ## The scatter-add of the messages: row n, entry k sums over the edges landing on row n -/

/-- The first scatter's dimension numbers: one scatter index per edge on axis 0, the row of 128 as the window. -/
abbrev sd := scatter_S100000x128_S1600000x1_S1600000x128_1_0_0_1

theorem sd_start0 (idx : S1600000x1.Idx → BitVec 32) (e : Fin 1600000) (k : Fin 128) :
    sd.start (ValueIdx.ix2 e k) idx 0 = (idx (ValueIdx.ix2 e (0 : Fin 1))).toInt := by
  unfold ScatterDims.start
  rw [dif_pos (show (0 : Fin 2) ∈ sd.scatterDimsToOperandDims from List.mem_singleton.mpr rfl)]
  congr 2
  funext b; refine Fin.ext ?_
  match b with
  | ⟨0, _⟩ => rfl
  | ⟨1, _⟩ => rfl

theorem sd_start1 (idx : S1600000x1.Idx → BitVec 32) (e : Fin 1600000) (k : Fin 128) :
    sd.start (ValueIdx.ix2 e k) idx 1 = 0 := by
  unfold ScatterDims.start
  rw [dif_neg (show ¬ (1 : Fin 2) ∈ sd.scatterDimsToOperandDims by decide)]

theorem sd_window0 (e : Fin 1600000) (k : Fin 128) : sd.window (ValueIdx.ix2 e k) 0 = 0 := by
  unfold ScatterDims.window
  rw [dif_neg (show ¬ (0 : Fin 2) ∈ sd.sKept by decide)]

theorem sd_window1 (e : Fin 1600000) (k : Fin 128) : sd.window (ValueIdx.ix2 e k) 1 = k.val := by
  unfold ScatterDims.window
  rw [dif_pos (show (1 : Fin 2) ∈ sd.sKept by decide)]
  rfl

/-- Update (e, k') lands on (n, k) exactly when edge `e`'s scatter index, read signed, is n and k' = k. -/
theorem sd_result_iff (idx : S1600000x1.Idx → BitVec 32) (e : Fin 1600000) (k' k : Fin 128) (n : Fin 100000) :
    sd.resultIdx? (ValueIdx.ix2 e k') idx = some (ValueIdx.ix2 n k) ↔ (idx (ValueIdx.ix2 e (0 : Fin 1))).toInt = (n.val : ℤ) ∧ k' = k := by
  rw [resultIdx?_eq_some_iff, Fin.forall_fin_two, sd_start0, sd_start1, sd_window0, sd_window1]
  show (idx (ValueIdx.ix2 e (0 : Fin 1))).toInt + ((0 : ℕ) : ℤ) = (n.val : ℤ) ∧ (0 : ℤ) + (k'.val : ℤ) = (k.val : ℤ) ↔ _
  constructor
  · rintro ⟨h0, h1⟩; exact ⟨by omega, Fin.ext (by omega)⟩
  · rintro ⟨h0, rfl⟩; exact ⟨by omega, by omega⟩

/-- The updates landing on (n, k), re-indexed by their edge: the edges whose target is row n, at window coordinate k. -/
theorem sd_sum (A : S2x1600000.Idx → BitVec 32) (upd : S1600000x128.Idx → EReal) (n : Fin 100000) (k : Fin 128)
    [DecidablePred (fun j => sd.resultIdx? j (val_main_v12 (F := Ideal) A) = some (ValueIdx.ix2 n k))] :
    ∑ j ∈ Finset.univ.filter (fun j => sd.resultIdx? j (val_main_v12 (F := Ideal) A) = some (ValueIdx.ix2 n k)), upd j
      = ∑ e ∈ Finset.univ.filter (fun e => Spec.hits A e n), upd (ValueIdx.ix2 e k) := by
  refine Finset.sum_bij' (fun j _ => (j 0 : Fin 1600000)) (fun e _ => ValueIdx.ix2 e k) ?_ ?_ ?_ ?_ ?_
  · intro j hj
    obtain ⟨p, q, rfl⟩ : ∃ (p : Fin 1600000) (q : Fin 128), j = ValueIdx.ix2 p q := ⟨j 0, j 1, ValueIdx.eq_ix2 j⟩
    have h := (Finset.mem_filter.1 hj).2
    rw [sd_result_iff, v12_at] at h
    exact Finset.mem_filter.2 ⟨Finset.mem_univ _, h.1⟩
  · intro e he
    have h := (Finset.mem_filter.1 he).2
    refine Finset.mem_filter.2 ⟨Finset.mem_univ _, ?_⟩
    rw [sd_result_iff, v12_at]
    exact ⟨h, rfl⟩
  · intro j hj
    obtain ⟨p, q, rfl⟩ : ∃ (p : Fin 1600000) (q : Fin 128), j = ValueIdx.ix2 p q := ⟨j 0, j 1, ValueIdx.eq_ix2 j⟩
    have h := (Finset.mem_filter.1 hj).2
    rw [sd_result_iff] at h
    show ValueIdx.ix2 p k = ValueIdx.ix2 p q
    rw [h.2]
  · intro e he
    rfl
  · intro j hj
    obtain ⟨p, q, rfl⟩ : ∃ (p : Fin 1600000) (q : Fin 128), j = ValueIdx.ix2 p q := ⟨j 0, j 1, ValueIdx.eq_ix2 j⟩
    have h := (Finset.mem_filter.1 hj).2
    rw [sd_result_iff] at h
    show upd (ValueIdx.ix2 p q) = upd (ValueIdx.ix2 p k)
    rw [h.2]

/-- The summed messages at (n, k): the zero operand's element plus the gathered messages of the edges landing on row n. -/
theorem v13_at (X : S100000x128.Idx → EReal) (A : S2x1600000.Idx → BitVec 32) (n : Fin 100000) (k : Fin 128) :
    val_main_v13 (F := Ideal) X A (ValueIdx.ix2 n k)
      = val_main_v11 (F := Ideal) (ValueIdx.ix2 n k) + ∑ e ∈ Finset.univ.filter (fun e => Spec.hits A e n), val_main_v10 (F := Ideal) X A (ValueIdx.ix2 e k) := by
  unfold val_main_v13
  rw [scatterAdd_apply, sd_sum]

/-! ## The scatter-add of the ones: row n counts the edges landing on it -/

/-- The second scatter's dimension numbers: one scatter index per edge on axis 0, no window. -/
abbrev sc := scatter_S100000_S1600000x1_S1600000_n_0_0_1

theorem sc_start0 (idx : S1600000x1.Idx → BitVec 32) (e : Fin 1600000) :
    sc.start (ValueIdx.ix1 e) idx 0 = (idx (ValueIdx.ix2 e (0 : Fin 1))).toInt := by
  unfold ScatterDims.start
  rw [dif_pos (show (0 : Fin 1) ∈ sc.scatterDimsToOperandDims from List.mem_singleton.mpr rfl)]
  congr 2
  funext b; refine Fin.ext ?_
  match b with
  | ⟨0, _⟩ => rfl
  | ⟨1, _⟩ => rfl

theorem sc_window0 (e : Fin 1600000) : sc.window (ValueIdx.ix1 e) 0 = 0 := by
  unfold ScatterDims.window
  rw [dif_neg (show ¬ (0 : Fin 1) ∈ sc.sKept by decide)]

/-- Update `e` lands on row n exactly when edge `e`'s scatter index, read signed, is n. -/
theorem sc_result_iff (idx : S1600000x1.Idx → BitVec 32) (e : Fin 1600000) (n : Fin 100000) :
    sc.resultIdx? (ValueIdx.ix1 e) idx = some (ValueIdx.ix1 n) ↔ (idx (ValueIdx.ix2 e (0 : Fin 1))).toInt = (n.val : ℤ) := by
  rw [resultIdx?_eq_some_iff, Fin.forall_fin_one, sc_start0, sc_window0]
  show (idx (ValueIdx.ix2 e (0 : Fin 1))).toInt + ((0 : ℕ) : ℤ) = (n.val : ℤ) ↔ _
  constructor
  · intro h0; omega
  · intro h0; omega

/-- The updates landing on row n, re-indexed by their edge. -/
theorem sc_sum (A : S2x1600000.Idx → BitVec 32) (upd : S1600000.Idx → EReal) (n : Fin 100000)
    [DecidablePred (fun j => sc.resultIdx? j (val_main_v16 (F := Ideal) A) = some (ValueIdx.ix1 n))] :
    ∑ j ∈ Finset.univ.filter (fun j => sc.resultIdx? j (val_main_v16 (F := Ideal) A) = some (ValueIdx.ix1 n)), upd j
      = ∑ e ∈ Finset.univ.filter (fun e => Spec.hits A e n), upd (ValueIdx.ix1 e) := by
  refine Finset.sum_bij' (fun j _ => (j 0 : Fin 1600000)) (fun e _ => ValueIdx.ix1 e) ?_ ?_ ?_ ?_ ?_
  · intro j hj
    obtain ⟨p, rfl⟩ : ∃ (p : Fin 1600000), j = ValueIdx.ix1 p := ⟨j 0, ValueIdx.eq_ix1 j⟩
    have h := (Finset.mem_filter.1 hj).2
    rw [sc_result_iff, v16_at] at h
    exact Finset.mem_filter.2 ⟨Finset.mem_univ _, h⟩
  · intro e he
    have h := (Finset.mem_filter.1 he).2
    refine Finset.mem_filter.2 ⟨Finset.mem_univ _, ?_⟩
    rw [sc_result_iff, v16_at]
    exact h
  · intro j hj
    obtain ⟨p, rfl⟩ : ∃ (p : Fin 1600000), j = ValueIdx.ix1 p := ⟨j 0, ValueIdx.eq_ix1 j⟩
    rfl
  · intro e he
    rfl
  · intro j hj
    obtain ⟨p, rfl⟩ : ∃ (p : Fin 1600000), j = ValueIdx.ix1 p := ⟨j 0, ValueIdx.eq_ix1 j⟩
    rfl

/-- The counts at row n: the zero operand's element plus one update per edge landing on row n. -/
theorem v17_at (A : S2x1600000.Idx → BitVec 32) (n : Fin 100000) :
    val_main_v17 (F := Ideal) A (ValueIdx.ix1 n)
      = val_main_v15 (F := Ideal) (ValueIdx.ix1 n) + ∑ e ∈ Finset.univ.filter (fun e => Spec.hits A e n), val_main_v14 (F := Ideal) (ValueIdx.ix1 e) := by
  unfold val_main_v17
  rw [scatterAdd_apply, sc_sum]

/-! ## The stages as the specification's terms -/

/-- The summed messages are the specification's: the zero operand is 0 and each gathered message is the carried row's entry. -/
theorem v13_eq (X : S100000x128.Idx → EReal) (A : S2x1600000.Idx → BitVec 32)
    (hA : ∀ e : Fin 1600000, (A (ValueIdx.ix2 (1 : Fin 2) e)).toNat < 100000) (n : Fin 100000) (k : Fin 128) :
    val_main_v13 (F := Ideal) X A (ValueIdx.ix2 n k) = Spec.sumRows X A n k := by
  rw [v13_at, val_main_v11_apply, val_main_cst_apply, Ideal.ofBits_def, Ideal.ofBits_zero_f32, zero_add]
  show _ = ∑ e ∈ Finset.univ.filter (fun e => Spec.hits A e n), X (ValueIdx.ix2 (Spec.row A e) k)
  exact Finset.sum_congr rfl (fun e _ => v10_at X A e k (hA e))

/-- Every update of the second scatter is the word 1.0. -/
theorem v14_eq (e : Fin 1600000) : val_main_v14 (F := Ideal) (ValueIdx.ix1 e) = Spec.one := by
  rw [val_main_v14_apply, val_main_cst_1_apply, Ideal.ofBits_def]

/-- The counts are the specification's. -/
theorem v17_eq (A : S2x1600000.Idx → BitVec 32) (n : Fin 100000) :
    val_main_v17 (F := Ideal) A (ValueIdx.ix1 n) = Spec.count A n := by
  rw [v17_at, val_main_v15_apply, val_main_cst_2_apply, Ideal.ofBits_def, Ideal.ofBits_zero_f32, zero_add]
  show _ = ∑ e ∈ Finset.univ.filter (fun e => Spec.hits A e n), Spec.one
  exact Finset.sum_congr rfl (fun e _ => v14_eq e)

/-- The divisor at (n, k): the larger of row n's count and 1.0, laid along the row. -/
theorem v21_eq (A : S2x1600000.Idx → BitVec 32) (n : Fin 100000) (k : Fin 128) :
    val_main_v21 (F := Ideal) A (ValueIdx.ix2 n k) = max (Spec.count A n) Spec.one := by
  have hidx : idx_main_v20 (idx_main_v21 (ValueIdx.ix2 n k)) = ValueIdx.ix1 n := by
    funext a
    match a with
    | ⟨0, _⟩ => rfl
  rw [val_main_v21_apply, val_main_v20_apply, val_main_v19_apply, hidx, v17_eq, val_main_v18_apply,
    val_main_cst_3_apply, Ideal.ofBits_def, Ideal.maximumf_def]

/-- The mean message at (n, k). -/
theorem v22_eq (X : S100000x128.Idx → EReal) (A : S2x1600000.Idx → BitVec 32)
    (hA : ∀ e : Fin 1600000, (A (ValueIdx.ix2 (1 : Fin 2) e)).toNat < 100000) (n : Fin 100000) (k : Fin 128) :
    val_main_v22 (F := Ideal) X A (ValueIdx.ix2 n k) = Ideal.div (Spec.sumRows X A n k) (max (Spec.count A n) Spec.one) := by
  rw [val_main_v22_apply, Ideal.hostDivf_def, v13_eq X A hA, v21_eq]

/-- The reference's composed term is the specification's function, when row 1 of the edge list holds row indices. -/
theorem term_eq_spec (X : S100000x128.Idx → EReal) (A : S2x1600000.Idx → BitVec 32) (W : S128x128.Idx → EReal)
    (hA : ∀ e : Fin 1600000, (A (ValueIdx.ix2 (1 : Fin 2) e)).toNat < 100000) :
    val_main_v23 (F := Ideal) X A W = Spec.spec X A W := by
  funext i
  obtain ⟨n, q, rfl⟩ : ∃ (n : Fin 100000) (q : Fin 128), i = ValueIdx.ix2 n q := ⟨i 0, i 1, ValueIdx.eq_ix2 i⟩
  rw [val_main_v23_apply]
  show _ = ∑ k : Fin 128, Ideal.div (Spec.sumRows X A n k) (max (Spec.count A n) Spec.one) * W (ValueIdx.ix2 k q)
  refine Finset.sum_congr rfl (fun k _ => ?_)
  have hl : lidx_main_v23 (ValueIdx.ix2 n q) k = ValueIdx.ix2 n k := by
    funext a
    match a with
    | ⟨0, _⟩ => rfl
    | ⟨1, _⟩ => rfl
  have hr : ridx_main_v23 (ValueIdx.ix2 n q) k = ValueIdx.ix2 k q := by
    funext a
    match a with
    | ⟨0, _⟩ => rfl
    | ⟨1, _⟩ => rfl
  rw [hl, hr, v22_eq X A hA]

/-- The reference runs and ends with the specification's function of its arguments in its result array, the arguments unchanged. -/
theorem ref_run (m : (ℓ : Loc nD τ sig) → Buf (Elt Ideal) ℓ) (ρ : Dev nD → PrngReg)
    (hdst : ∀ (c : Dev nD) (e : Fin 1600000), ((m ((c.tc : Thread nD τ).loc main_arg1) : S2x1600000.Idx → BitVec 32) (ValueIdx.ix2 (1 : Fin 2) e)).toNat < 100000) :
    θ_run (defs (F := Ideal)) (onTc (τ := τ) (main (F := Ideal))) ⟨m, fun _ => 0, ρ⟩ fun r => ∀ c : Dev nD,
      r.2.mem ((c.tc : Thread nD τ).loc main_v23) = Spec.spec (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1.trans (val_main_v23_eq _ _ _)).trans (term_eq_spec _ _ _ (hdst c)), (h c).2⟩)
    (Cert.ReferenceIdeal.Value.run (F := Ideal) m ρ)

end Cert.ReferenceIdeal.RefValue

end
-- ==== Proof.lean ====
/-
  The certificate: a mean-aggregation layer (gather the feature rows along the edges, add each to its target row, divide
  each summed row by max(the number of its edges, 1), multiply by the weights) computed in 32 chunks of edges by 32
  row-gather kernels with host scatter-adds between them and one last kernel for the mean and the product, against the
  same layer computed by one gather, one scatter-add, a quotient and a product on the host.

  The precondition: every float input finite, and every word of the edge list's row 1 — the row of X an edge carries — a
  row index, 0 ≤ w < 100000. Outside that range the reference indexes out of range, and a gather kernel's index table
  names a block outside its array.

  The frames. A gather kernel's grid point t copies row `table[t]` of the features into row t of its output; the table is
  a slice of the edge list's row 1, so under the precondition every block lies inside its array, and the program runs
  from item to item: host stretch, region, host stretch, …, each region entered at the contents the stretches before it
  computed and left with its output array at the gathered rows (Proof/KI, Proof/K: one text per kind of region, laid out
  for the 32 gather regions and for both programs). The reference has no kernel: its frame is its run.

  The values. At the ideal instance both programs compute, at (n, j), the sum over k of
  (sum of X[A[1,e], k] over the edges e with A[0,e] = n) / max(number of those edges, 1) · W[k, j]  (Proof/Spec.lean):
  the kernel's 32 chunk sums are one sum over all edges because addition on the extended reals is commutative and
  associative (Proof/KI/AggIdeal.lean, DegIdeal.lean), the last kernel's block t is rows 1000t … 1000t + 999 of that
  quotient times W (Proof/KI/OutIdeal.lean), and the reference's gather, scatter-add, quotient and product are the same
  terms once the negative-index wrap is the identity (Proof/Ref/RefSpec.lean). No law used needs finiteness.
  The idealization rewrote nothing, so `preserves` is trivial.
-/
import proofs.«406793_j90890097918585_2_alg».proof.Defs
import proofs.«406793_j90890097918585_2_alg».proof.Proof.Gen.Kernel
import proofs.«406793_j90890097918585_2_alg».proof.Proof.Gen.KernelIdeal
import proofs.«406793_j90890097918585_2_alg».proof.Proof.Gen.ReferenceIdeal
import proofs.«406793_j90890097918585_2_alg».proof.Proof.Gen.Pre_finite_inputs
import proofs.«406793_j90890097918585_2_alg».proof.Proof.Gen.ReferenceIdeal.Run
import proofs.«406793_j90890097918585_2_alg».proof.Proof.K.Run
import proofs.«406793_j90890097918585_2_alg».proof.Proof.KI.Run
import proofs.«406793_j90890097918585_2_alg».proof.Proof.KI.AggIdeal
import proofs.«406793_j90890097918585_2_alg».proof.Proof.KI.DegIdeal
import proofs.«406793_j90890097918585_2_alg».proof.Proof.KI.OutIdeal
import proofs.«406793_j90890097918585_2_alg».proof.Proof.Ref.RefSpec
import proofs.«406793_j90890097918585_2_alg».proof.Proof.PreIdx
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- The word-level program runs and leaves its arguments unchanged. -/
theorem frame_k : Cert.frame_Kernel := fun m ρ hp => Cert.Kernel.Run.frame m (fun c => hp c) ρ

/-- The idealized program runs and leaves its arguments unchanged. -/
theorem frame_ki : Cert.frame_KernelIdeal := fun m ρ hp => Cert.KernelIdeal.Run.frame m (fun c => hp c) ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the specification's function of the
    arguments in their result arrays. -/
theorem algebraic : Cert.algebraic_KernelIdeal_ReferenceIdeal := by
  intro m ρ m' ρ' hp hagree
  refine ⟨fun c => Cert.Spec.spec (Cert.KernelIdeal.Vals.X m c) (Cert.KernelIdeal.Vals.Adj m c) (Cert.KernelIdeal.Vals.Wt m c), ?_, ?_⟩
  · refine (θ_run Cert.KernelIdeal.defs _ _).mono (fun r h c => ⟨(h c).1.trans ?_, (h c).2⟩)
      (Cert.KernelIdeal.Run.value m (fun c => hp c) ρ)
    exact Cert.KernelIdeal.ValIdeal.out_eq_spec m c (Cert.KernelIdeal.ValIdeal.agg_eq m c) (Cert.KernelIdeal.ValIdeal.deg_eq m c)
  · have hdst : ∀ (c : Dev Cert.ReferenceIdeal.nD) (e : Fin 1600000),
        ((m' ((c.tc : Thread Cert.ReferenceIdeal.nD Cert.ReferenceIdeal.τ).loc Cert.ReferenceIdeal.main_arg1) : Cert.ReferenceIdeal.S2x1600000.Idx → BitVec 32) (ValueIdx.ix2 (1 : Fin 2) e)).toNat < 100000 := by
      intro c e
      rw [(hagree c).2.1]
      exact Cert.PreIdx.dst_lt _ _ _ (hp c) e
    refine (θ_run Cert.ReferenceIdeal.defs _ _).mono (fun r h c => ⟨(h c).1.trans ?_, (h c).2⟩)
      (Cert.ReferenceIdeal.RefValue.ref_run m' ρ' hdst)
    rw [(hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
